-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.named_const.Statement Cert.KernelIdeal.κ "inv_36" .f32 0x3CE38E39#32 ((1 / 36 : ℝ) : EReal)
  ∧ IdealRules.named_const.Statement Cert.KernelIdeal.κ "inv_36" .f32 0x3CE38E39#32 ((1 / 36 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x1024x128 : Shape := ⟨3, ![4, 1024, 128]⟩
abbrev S4x1024x36x128 : Shape := ⟨4, ![4, 1024, 36, 128]⟩
abbrev S4x1024x36 : Shape := ⟨3, ![4, 1024, 36]⟩
abbrev S4x1024 : Shape := ⟨2, ![4, 1024]⟩
abbrev S384x128 : Shape := ⟨2, ![384, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S4x1024x128 : S_.BroadcastsInDim S4x1024x128 (![] : Fin 0 → Fin S4x1024x128.rank)
  reducesTo_S4x1024x128_S_d0_1_2 : S4x1024x128.ReducesTo [0, 1, 2] S_
  h_S_ : 0 < S_.numel
  bcast_S_S4x1024x36x128 : S_.BroadcastsInDim S4x1024x36x128 (![] : Fin 0 → Fin S4x1024x36x128.rank)
  reducesTo_S4x1024x36x128_S_d0_1_2_3 : S4x1024x36x128.ReducesTo [0, 1, 2, 3] S_
  bcast_S_S4x1024 : S_.BroadcastsInDim S4x1024 (![] : Fin 0 → Fin S4x1024.rank)
  reducesTo_S4x1024_S_d0_1 : S4x1024.ReducesTo [0, 1] S_
  bcast_S_S4x1024x36 : S_.BroadcastsInDim S4x1024x36 (![] : Fin 0 → Fin S4x1024x36.rank)
  reducesTo_S4x1024x36_S_d0_1_2 : S4x1024x36.ReducesTo [0, 1, 2] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part5 {F : FTy → Type} [FloatOps F] (main_arg2 : IVec S4x1024x36 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S4x1024x36 32 := broadcastInDim S4x1024x36 ![] bcast_S_S4x1024x36 main_c_34
  let main_v90 : IVec S4x1024x36 1 := cmpi .sge main_arg2 main_v89
  let main_c_35 : IVec S_ 32 := constantI S_ 32 1023#32
  let main_v91 : IVec S4x1024x36 32 := broadcastInDim S4x1024x36 ![] bcast_S_S4x1024x36 main_c_35
  let main_v92 : IVec S4x1024x36 1 := cmpi .sle main_arg2 main_v91
  let main_v93 : IVec S4x1024x36 1 := andi main_v90 main_v92
  let main_c_36 : IVec S_ 1 := constantI S_ 1 1#1
  let main_v94 : IVec S_ 1 := (fun x v => Host.reduce IntOp.andi x v reducesTo_S4x1024x36_S_d0_1_2 h_S_) main_v93 main_c_36
  let main_v95 : IVec S_ 1 := andi main_v88 main_v94
  main_v95

def fn_part4 {F : FTy → Type} [FloatOps F] (main_arg2 : IVec S4x1024x36 32) (main_arg15 : FVec F S128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_v83 main_v84 main_cst_32

def fn_part3 {F : FTy → Type} [FloatOps F] (main_arg2 : IVec S4x1024x36 32) (main_arg12 : FVec F S512 .f32) (main_arg13 : FVec F S512x128 .f32) (main_arg14 : FVec F S128 .f32) (main_arg15 : FVec F S128 .f32) (main_arg16 : FVec F S128 .f32) (main_arg17 : FVec F S128 .f32) (main_arg18 : FVec F S128 .f32) (main_v48 : IVec S_ 1) (main_v49 : FVec F S128x512 .f32) (main_v50 : FVec F S128x512 .f32) : IVec S_ 1 :=
  let main_v51 : IVec S128x512 1 := cmpf .olt main_v49 main_v50
  let main_c_19 : IVec S_ 1 := constantI S_ 1 1#1
  let main_v52 : IVec S_ 1 := (fun x v => Host.reduce IntOp.andi x v reducesTo_S128x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x128 .f32 := Host.absf main_arg13
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_v63 main_v67

def fn_part2 {F : FTy → Type} [FloatOps F] (main_arg2 : IVec S4x1024x36 32) (main_arg8 : FVec F S128 .f32) (main_arg9 : FVec F S128x128 .f32) (main_arg10 : FVec F S128 .f32) (main_arg11 : FVec F S128x512 .f32) (main_arg12 : FVec F S512 .f32) (main_arg13 : FVec F S512x128 .f32) (main_arg14 : FVec F S128 .f32) (main_arg15 : FVec F S128 .f32) (main_arg16 : FVec F S128 .f32) (main_arg17 : FVec F S128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x512 .f32 := Host.absf main_arg11
  let main_cst_18 : FVec F S_ .f32 := constant S_ .f32 0x7F800000#32
  let main_v50 : FVec F S128x512 .f32 := broadcastInDim S128x512 ![] bcast_S_S128x512 main_cst_18
  fn_part3 (F := F) main_arg2 main_arg12 main_arg13 main_arg14 main_arg15 main_arg16 main_arg17 main_arg18 main_v48 main_v49 main_v50

def fn_part1 {F : FTy → Type} [FloatOps F] (main_arg2 : IVec S4x1024x36 32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128x512 .f32) (main_arg12 : FVec F S512 .f32) (main_arg13 : FVec F S512x128 .f32) (main_arg14 : FVec F S128 .f32) (main_arg15 : FVec F S128 .f32) (main_arg16 : FVec F S128 .f32) (main_arg17 : FVec F S128 .f32) (main_arg18 : FVec F S128 .f32) (main_v13 : IVec S_ 1) (main_v16 : IVec S4x1024x36 1) : IVec S_ 1 :=
  let main_c_5 : IVec S_ 1 := constantI S_ 1 1#1
  let main_v17 : IVec S_ 1 := (fun x v => Host.reduce IntOp.andi x v reducesTo_S4x1024x36_S_d0_1_2 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_v33

def fn {F : FTy → Type} [FloatOps F] (main_arg0 : FVec F S4x1024x128 .f32) (main_arg1 : FVec F S4x1024x36x128 .f32) (main_arg2 : IVec S4x1024x36 32) (main_arg3 : FVec F S4x1024 .f32) (main_arg4 : FVec F S4x1024x36 .f32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128x512 .f32) (main_arg12 : FVec F S512 .f32) (main_arg13 : FVec F S512x128 .f32) (main_arg14 : FVec F S128 .f32) (main_arg15 : FVec F S128 .f32) (main_arg16 : FVec F S128 .f32) (main_arg17 : FVec F S128 .f32) (main_arg18 : FVec F S128 .f32) : IVec S_ 1 :=
  let main_v0 : FVec F S4x1024x128 .f32 := Host.absf main_arg0
  let main_cst : FVec F S_ .f32 := constant S_ .f32 0x7F800000#32
  let main_v1 : FVec F S4x1024x128 .f32 := broadcastInDim S4x1024x128 ![] bcast_S_S4x1024x128 main_cst
  let main_v2 : IVec S4x1024x128 1 := cmpf .olt main_v0 main_v1
  let main_c : IVec S_ 1 := constantI S_ 1 1#1
  let main_v3 : IVec S_ 1 := (fun x v => Host.reduce IntOp.andi x v reducesTo_S4x1024x128_S_d0_1_2 h_S_) main_v2 main_c
  let main_v4 : FVec F S4x1024x36x128 .f32 := Host.absf main_arg1
  let main_cst_0 : FVec F S_ .f32 := constant S_ .f32 0x7F800000#32
  let main_v5 : FVec F S4x1024x36x128 .f32 := broadcastInDim S4x1024x36x128 ![] bcast_S_S4x1024x36x128 main_cst_0
  let main_v6 : IVec S4x1024x36x128 1 := cmpf .olt main_v4 main_v5
  let main_c_1 : IVec S_ 1 := constantI S_ 1 1#1
  let main_v7 : IVec S_ 1 := (fun x v => Host.reduce IntOp.andi x v reducesTo_S4x1024x36x128_S_d0_1_2_3 h_S_) main_v6 main_c_1
  let main_v8 : IVec S_ 1 := andi main_v3 main_v7
  let main_v9 : FVec F S4x1024 .f32 := Host.absf main_arg3
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x1024x36 .f32 := Host.absf main_arg4
  let main_cst_4 : FVec F S_ .f32 := constant S_ .f32 0x7F800000#32
  let main_v15 : FVec F S4x1024x36 .f32 := broadcastInDim S4x1024x36 ![] bcast_S_S4x1024x36 main_cst_4
  let main_v16 : IVec S4x1024x36 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_v13 main_v16
-- ==== Kernel.lean ====
abbrev S4x1024x128 : Shape := ⟨3, ![4, 1024, 128]⟩
abbrev S4x1024x36x128 : Shape := ⟨4, ![4, 1024, 36, 128]⟩
abbrev S4x1024x36 : Shape := ⟨3, ![4, 1024, 36]⟩
abbrev S4x1024 : Shape := ⟨2, ![4, 1024]⟩
abbrev S384x128 : Shape := ⟨2, ![384, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S4x36x1024x128 : Shape := ⟨4, ![4, 36, 1024, 128]⟩
abbrev S4x36x1024 : Shape := ⟨3, ![4, 36, 1024]⟩
abbrev S4x36864 : Shape := ⟨2, ![4, 36864]⟩
abbrev S4x36x8x128 : Shape := ⟨4, ![4, 36, 8, 128]⟩
abbrev S4x8x36x128 : Shape := ⟨4, ![4, 8, 36, 128]⟩
abbrev S4x8x1x4608 : Shape := ⟨4, ![4, 8, 1, 4608]⟩
abbrev S4608 : Shape := ⟨1, ![4608]⟩
abbrev S_ : Shape := ⟨0, ![]⟩
abbrev S128x1 : Shape := ⟨2, ![128, 1]⟩
abbrev S1x4608 : Shape := ⟨2, ![1, 4608]⟩
abbrev S128x4608 : Shape := ⟨2, ![128, 4608]⟩
abbrev S4608x128 : Shape := ⟨2, ![4608, 128]⟩
abbrev S4096x128 : Shape := ⟨2, ![4096, 128]⟩
abbrev S2x36864 : Shape := ⟨2, ![2, 36864]⟩
abbrev S32x18x128 : Shape := ⟨3, ![32, 18, 128]⟩
abbrev S73728x128 : Shape := ⟨2, ![73728, 128]⟩
abbrev S18x128 : Shape := ⟨2, ![18, 128]⟩
abbrev S1x18x128 : Shape := ⟨3, ![1, 18, 128]⟩
abbrev S1x16 : Shape := ⟨2, ![1, 16]⟩
abbrev S16 : Shape := ⟨1, ![16]⟩
abbrev S1x128 : Shape := ⟨2, ![1, 128]⟩
abbrev S72x1024x128 : Shape := ⟨3, ![72, 1024, 128]⟩
abbrev S4x8x1x128 : Shape := ⟨4, ![4, 8, 1, 128]⟩
abbrev S1x512 : Shape := ⟨2, ![1, 512]⟩
abbrev S2x1024x128 : Shape := ⟨3, ![2, 1024, 128]⟩
abbrev S1x128x128 : Shape := ⟨3, ![1, 128, 128]⟩
abbrev S1x36x128x128 : Shape := ⟨4, ![1, 36, 128, 128]⟩
abbrev S36x128x128 : Shape := ⟨3, ![36, 128, 128]⟩
abbrev S1x128x36 : Shape := ⟨3, ![1, 128, 36]⟩
abbrev S1x1x1x4608 : Shape := ⟨4, ![1, 1, 1, 4608]⟩
abbrev S1x1x1x128 : Shape := ⟨4, ![1, 1, 1, 128]⟩
abbrev S128x36 : Shape := ⟨2, ![128, 36]⟩

abbrev nBuf : Table → Nat
  | .hbm => 102
  | .local .tc .vmem => 65
  | .local .scVector .vmem => 6
  | _ => 0

abbrev bufTy : (tb : Table) → Fin (nBuf tb) → BufTy
  | .hbm, ⟨0, _⟩ => ⟨S4x1024x128, .f32⟩
  | .hbm, ⟨1, _⟩ => ⟨S4x1024x36x128, .f32⟩
  | .hbm, ⟨2, _⟩ => ⟨S4x1024x36, .i32⟩
  | .hbm, ⟨3, _⟩ => ⟨S4x1024, .f32⟩
  | .hbm, ⟨4, _⟩ => ⟨S4x1024x36, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x512, .f32⟩
  | .hbm, ⟨12, _⟩ => ⟨S512, .f32⟩
  | .hbm, ⟨13, _⟩ => ⟨S512x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S4x36x1024x128, .f32⟩
  | .hbm, ⟨23, _⟩ => ⟨S4x36x1024, .i32⟩
  | .hbm, ⟨24, _⟩ => ⟨S4x36864, .i32⟩
  | .hbm, ⟨25, _⟩ => ⟨S4x36x1024, .f32⟩
  | .hbm, ⟨26, _⟩ => ⟨S4x36x8x128, .f32⟩
  | .hbm, ⟨27, _⟩ => ⟨S4x8x36x128, .f32⟩
  | .hbm, ⟨28, _⟩ => ⟨S4x8x1x4608, .f32⟩
  | .hbm, ⟨29, _⟩ => ⟨S4x8x1x4608, .bf16⟩
  | .hbm, ⟨30, _⟩ => ⟨S4608, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S4608, .i32⟩
  | .hbm, ⟨38, _⟩ => ⟨S4608, .i32⟩
  | .hbm, ⟨39, _⟩ => ⟨S_, .i32⟩
  | .hbm, ⟨40, _⟩ => ⟨S4608, .i32⟩
  | .hbm, ⟨41, _⟩ => ⟨S4608, .i1⟩
  | .hbm, ⟨42, _⟩ => ⟨S_, .i32⟩
  | .hbm, ⟨43, _⟩ => ⟨S4608, .i32⟩
  | .hbm, ⟨44, _⟩ => ⟨S4608, .i1⟩
  | .hbm, ⟨45, _⟩ => ⟨S_, .i32⟩
  | .hbm, ⟨46, _⟩ => ⟨S_, .i1⟩
  | .hbm, ⟨47, _⟩ => ⟨S4608, .i1⟩
  | .hbm, ⟨48, _⟩ => ⟨S4608, .i1⟩
  | .hbm, ⟨49, _⟩ => ⟨S4608, .i1⟩
  | .hbm, ⟨50, _⟩ => ⟨S4608, .i32⟩
  | .hbm, ⟨51, _⟩ => ⟨S4608, .i32⟩
  | .hbm, ⟨52, _⟩ => ⟨S4608, .i32⟩
  | .hbm, ⟨53, _⟩ => ⟨S128, .i32⟩
  | .hbm, ⟨54, _⟩ => ⟨S128x1, .i32⟩
  | .hbm, ⟨55, _⟩ => ⟨S1x4608, .i32⟩
  | .hbm, ⟨56, _⟩ => ⟨S128x4608, .i32⟩
  | .hbm, ⟨57, _⟩ => ⟨S128x4608, .i32⟩
  | .hbm, ⟨58, _⟩ => ⟨S128x4608, .i1⟩
  | .hbm, ⟨59, _⟩ => ⟨S128x4608, .bf16⟩
  | .hbm, ⟨60, _⟩ => ⟨S4608x128, .bf16⟩
  | .hbm, ⟨61, _⟩ => ⟨S4096x128, .f32⟩
  | .hbm, ⟨62, _⟩ => ⟨S4096x128, .f32⟩
  | .hbm, ⟨63, _⟩ => ⟨S2x36864, .i32⟩
  | .hbm, ⟨64, _⟩ => ⟨S32x18x128, .i32⟩
  | .hbm, ⟨65, _⟩ => ⟨S73728x128, .f32⟩
  | .hbm, ⟨66, _⟩ => ⟨S72x1024x128, .f32⟩
  | .hbm, ⟨67, _⟩ => ⟨S4x8x1x128, .f32⟩
  | .hbm, ⟨68, _⟩ => ⟨S1x128, .f32⟩
  | .hbm, ⟨69, _⟩ => ⟨S128x128, .bf16⟩
  | .hbm, ⟨70, _⟩ => ⟨S128x128, .bf16⟩
  | .hbm, ⟨71, _⟩ => ⟨S1x128, .f32⟩
  | .hbm, ⟨72, _⟩ => ⟨S1x128, .f32⟩
  | .hbm, ⟨73, _⟩ => ⟨S128x512, .bf16⟩
  | .hbm, ⟨74, _⟩ => ⟨S1x512, .f32⟩
  | .hbm, ⟨75, _⟩ => ⟨S512x128, .bf16⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S2x1024x128, .f32⟩
  | .hbm, ⟨82, _⟩ => ⟨S2x36864, .i32⟩
  | .hbm, ⟨83, _⟩ => ⟨S32x18x128, .i32⟩
  | .hbm, ⟨84, _⟩ => ⟨S73728x128, .f32⟩
  | .hbm, ⟨85, _⟩ => ⟨S72x1024x128, .f32⟩
  | .hbm, ⟨86, _⟩ => ⟨S4x8x1x128, .f32⟩
  | .hbm, ⟨87, _⟩ => ⟨S1x128, .f32⟩
  | .hbm, ⟨88, _⟩ => ⟨S128x128, .bf16⟩
  | .hbm, ⟨89, _⟩ => ⟨S128x128, .bf16⟩
  | .hbm, ⟨90, _⟩ => ⟨S1x128, .f32⟩
  | .hbm, ⟨91, _⟩ => ⟨S1x128, .f32⟩
  | .hbm, ⟨92, _⟩ => ⟨S128x512, .bf16⟩
  | .hbm, ⟨93, _⟩ => ⟨S1x512, .f32⟩
  | .hbm, ⟨94, _⟩ => ⟨S512x128, .bf16⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S2x1024x128, .f32⟩
  | .hbm, ⟨101, _⟩ => ⟨S4x1024x128, .f32⟩
  | .local .tc .vmem, ⟨0, _⟩ => ⟨S4096x128, .f32⟩
  | .local .tc .vmem, ⟨1, _⟩ => ⟨S128x128, .f32⟩
  | .local .tc .vmem, ⟨2, _⟩ => ⟨S4096x128, .f32⟩
  | .local .tc .vmem, ⟨3, _⟩ => ⟨S1x128x128, .f32⟩
  | .local .tc .vmem, ⟨4, _⟩ => ⟨S1x128x128, .f32⟩
  | .local .tc .vmem, ⟨5, _⟩ => ⟨S1x36x128x128, .f32⟩
  | .local .tc .vmem, ⟨6, _⟩ => ⟨S1x36x128x128, .f32⟩
  | .local .tc .vmem, ⟨7, _⟩ => ⟨S36x128x128, .f32⟩
  | .local .tc .vmem, ⟨8, _⟩ => ⟨S36x128x128, .f32⟩
  | .local .tc .vmem, ⟨9, _⟩ => ⟨S1x128x36, .f32⟩
  | .local .tc .vmem, ⟨10, _⟩ => ⟨S1x128x36, .f32⟩
  | .local .tc .vmem, ⟨11, _⟩ => ⟨S1x1x1x4608, .bf16⟩
  | .local .tc .vmem, ⟨12, _⟩ => ⟨S1x1x1x4608, .bf16⟩
  | .local .tc .vmem, ⟨13, _⟩ => ⟨S1x1x1x128, .f32⟩
  | .local .tc .vmem, ⟨14, _⟩ => ⟨S1x1x1x128, .f32⟩
  | .local .tc .vmem, ⟨15, _⟩ => ⟨S128x4608, .bf16⟩
  | .local .tc .vmem, ⟨16, _⟩ => ⟨S4608x128, .bf16⟩
  | .local .tc .vmem, ⟨17, _⟩ => ⟨S128x128, .f32⟩
  | .local .tc .vmem, ⟨18, _⟩ => ⟨S1x128, .f32⟩
  | .local .tc .vmem, ⟨19, _⟩ => ⟨S128x128, .bf16⟩
  | .local .tc .vmem, ⟨20, _⟩ => ⟨S128x128, .bf16⟩
  | .local .tc .vmem, ⟨21, _⟩ => ⟨S1x128, .f32⟩
  | .local .tc .vmem, ⟨22, _⟩ => ⟨S128x128, .f32⟩
  | .local .tc .vmem, ⟨23, _⟩ => ⟨S1x128, .f32⟩
  | .local .tc .vmem, ⟨24, _⟩ => ⟨S128x512, .bf16⟩
  | .local .tc .vmem, ⟨25, _⟩ => ⟨S1x512, .f32⟩
  | .local .tc .vmem, ⟨26, _⟩ => ⟨S512x128, .bf16⟩
  | .local .tc .vmem, ⟨27, _⟩ => ⟨S1x128, .f32⟩
  | .local .tc .vmem, ⟨28, _⟩ => ⟨S1x128, .f32⟩
  | .local .tc .vmem, ⟨29, _⟩ => ⟨S1x128, .f32⟩
  | .local .tc .vmem, ⟨30, _⟩ => ⟨S1x128, .f32⟩
  | .local .tc .vmem, ⟨31, _⟩ => ⟨S1x128, .f32⟩
  | .local .tc .vmem, ⟨32, _⟩ => ⟨S1x128x128, .f32⟩
  | .local .tc .vmem, ⟨33, _⟩ => ⟨S1x128x128, .f32⟩
  | .local .tc .vmem, ⟨34, _⟩ => ⟨S1x128x128, .f32⟩
  | .local .tc .vmem, ⟨35, _⟩ => ⟨S1x128x128, .f32⟩
  | .local .tc .vmem, ⟨36, _⟩ => ⟨S1x36x128x128, .f32⟩
  | .local .tc .vmem, ⟨37, _⟩ => ⟨S1x36x128x128, .f32⟩
  | .local .tc .vmem, ⟨38, _⟩ => ⟨S36x128x128, .f32⟩
  | .local .tc .vmem, ⟨39, _⟩ => ⟨S36x128x128, .f32⟩
  | .local .tc .vmem, ⟨40, _⟩ => ⟨S1x128x36, .f32⟩
  | .local .tc .vmem, ⟨41, _⟩ => ⟨S1x128x36, .f32⟩
  | .local .tc .vmem, ⟨42, _⟩ => ⟨S1x1x1x4608, .bf16⟩
  | .local .tc .vmem, ⟨43, _⟩ => ⟨S1x1x1x4608, .bf16⟩
  | .local .tc .vmem, ⟨44, _⟩ => ⟨S1x1x1x128, .f32⟩
  | .local .tc .vmem, ⟨45, _⟩ => ⟨S1x1x1x128, .f32⟩
  | .local .tc .vmem, ⟨46, _⟩ => ⟨S128x4608, .bf16⟩
  | .local .tc .vmem, ⟨47, _⟩ => ⟨S4608x128, .bf16⟩
  | .local .tc .vmem, ⟨48, _⟩ => ⟨S128x128, .f32⟩
  | .local .tc .vmem, ⟨49, _⟩ => ⟨S1x128, .f32⟩
  | .local .tc .vmem, ⟨50, _⟩ => ⟨S128x128, .bf16⟩
  | .local .tc .vmem, ⟨51, _⟩ => ⟨S128x128, .bf16⟩
  | .local .tc .vmem, ⟨52, _⟩ => ⟨S1x128, .f32⟩
  | .local .tc .vmem, ⟨53, _⟩ => ⟨S128x128, .f32⟩
  | .local .tc .vmem, ⟨54, _⟩ => ⟨S1x128, .f32⟩
  | .local .tc .vmem, ⟨55, _⟩ => ⟨S128x512, .bf16⟩
  | .local .tc .vmem, ⟨56, _⟩ => ⟨S1x512, .f32⟩
  | .local .tc .vmem, ⟨57, _⟩ => ⟨S512x128, .bf16⟩
  | .local .tc .vmem, ⟨58, _⟩ => ⟨S1x128, .f32⟩
  | .local .tc .vmem, ⟨59, _⟩ => ⟨S1x128, .f32⟩
  | .local .tc .vmem, ⟨60, _⟩ => ⟨S1x128, .f32⟩
  | .local .tc .vmem, ⟨61, _⟩ => ⟨S1x128, .f32⟩
  | .local .tc .vmem, ⟨62, _⟩ => ⟨S1x128, .f32⟩
  | .local .tc .vmem, ⟨63, _⟩ => ⟨S1x128x128, .f32⟩
  | .local .tc .vmem, ⟨64, _⟩ => ⟨S1x128x128, .f32⟩
  | .local .scVector .vmem, ⟨0, _⟩ => ⟨S18x128, .i32⟩
  | .local .scVector .vmem, ⟨1, _⟩ => ⟨S128x128, .f32⟩
  | .local .scVector .vmem, ⟨2, _⟩ => ⟨S128x128, .f32⟩
  | .local .scVector .vmem, ⟨3, _⟩ => ⟨S18x128, .i32⟩
  | .local .scVector .vmem, ⟨4, _⟩ => ⟨S128x128, .f32⟩
  | .local .scVector .vmem, ⟨5, _⟩ => ⟨S128x128, .f32⟩
  | _, _ => ⟨S4x1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 75 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => false
  | ⟨40, _⟩ => false
  | ⟨41, _⟩ => false
  | ⟨42, _⟩ => false
  | ⟨43, _⟩ => false
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTables nBuf rfl bufTy 4 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v22_scv : Ref sig .scVector := ⟨.hbm, 62, rfl⟩
abbrev main_v24_scv : Ref sig .scVector := ⟨.hbm, 64, rfl⟩
abbrev main_v25_scv : Ref sig .scVector := ⟨.hbm, 65, rfl⟩
abbrev main_v43_scv : Ref sig .scVector := ⟨.hbm, 83, rfl⟩
abbrev main_v44_scv : Ref sig .scVector := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc2_stg4_0 : Ref sig .tc := ⟨.vmem, 11, rfl⟩
abbrev cc2_stg4_1 : Ref sig .tc := ⟨.vmem, 12, rfl⟩
abbrev cc2_stg5_0 : Ref sig .tc := ⟨.vmem, 13, rfl⟩
abbrev cc2_stg5_1 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg10_0 : Ref sig .tc := ⟨.vmem, 19, rfl⟩
abbrev cc2_stg11_0 : Ref sig .tc := ⟨.vmem, 20, rfl⟩
abbrev cc2_stg12_0 : Ref sig .tc := ⟨.vmem, 21, rfl⟩
abbrev cc2_stg13_0 : Ref sig .tc := ⟨.vmem, 22, rfl⟩
abbrev cc2_stg14_0 : Ref sig .tc := ⟨.vmem, 23, rfl⟩
abbrev cc2_stg15_0 : Ref sig .tc := ⟨.vmem, 24, rfl⟩
abbrev cc2_stg16_0 : Ref sig .tc := ⟨.vmem, 25, rfl⟩
abbrev cc2_stg17_0 : Ref sig .tc := ⟨.vmem, 26, rfl⟩
abbrev cc2_stg18_0 : Ref sig .tc := ⟨.vmem, 27, rfl⟩
abbrev cc2_stg19_0 : Ref sig .tc := ⟨.vmem, 28, rfl⟩
abbrev cc2_stg20_0 : Ref sig .tc := ⟨.vmem, 29, rfl⟩
abbrev cc2_stg21_0 : Ref sig .tc := ⟨.vmem, 30, rfl⟩
abbrev cc2_stg22_0 : Ref sig .tc := ⟨.vmem, 31, rfl⟩
abbrev cc2_stg23_0 : Ref sig .tc := ⟨.vmem, 32, rfl⟩
abbrev cc2_stg23_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc4_stg10_0 : Ref sig .tc := ⟨.vmem, 50, rfl⟩
abbrev cc4_stg11_0 : Ref sig .tc := ⟨.vmem, 51, rfl⟩
abbrev cc4_stg12_0 : Ref sig .tc := ⟨.vmem, 52, rfl⟩
abbrev cc4_stg13_0 : Ref sig .tc := ⟨.vmem, 53, rfl⟩
abbrev cc4_stg14_0 : Ref sig .tc := ⟨.vmem, 54, rfl⟩
abbrev cc4_stg15_0 : Ref sig .tc := ⟨.vmem, 55, rfl⟩
abbrev cc4_stg16_0 : Ref sig .tc := ⟨.vmem, 56, rfl⟩
abbrev cc4_stg17_0 : Ref sig .tc := ⟨.vmem, 57, rfl⟩
abbrev cc4_stg18_0 : Ref sig .tc := ⟨.vmem, 58, rfl⟩
abbrev cc4_stg19_0 : Ref sig .tc := ⟨.vmem, 59, rfl⟩
abbrev cc4_stg20_0 : Ref sig .tc := ⟨.vmem, 60, rfl⟩
abbrev cc4_stg21_0 : Ref sig .tc := ⟨.vmem, 61, rfl⟩
abbrev cc4_stg22_0 : Ref sig .tc := ⟨.vmem, 62, rfl⟩
abbrev cc4_stg23_0 : Ref sig .tc := ⟨.vmem, 63, rfl⟩
abbrev cc4_stg23_1 : Ref sig .tc := ⟨.vmem, 64, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem1_0 : DmaSem sig := 1
abbrev cc0_sem2_0 : DmaSem sig := 2
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem13_0 : DmaSem sig := 27
abbrev cc2_sem14_0 : DmaSem sig := 28
abbrev cc2_sem15_0 : DmaSem sig := 29
abbrev cc2_sem16_0 : DmaSem sig := 30
abbrev cc2_sem17_0 : DmaSem sig := 31
abbrev cc2_sem18_0 : DmaSem sig := 32
abbrev cc2_sem19_0 : DmaSem sig := 33
abbrev cc2_sem20_0 : DmaSem sig := 34
abbrev cc2_sem21_0 : DmaSem sig := 35
abbrev cc2_sem22_0 : DmaSem sig := 36
abbrev cc2_sem23_0 : DmaSem sig := 37
abbrev cc2_sem23_1 : DmaSem sig := 38
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem4_1 : DmaSem sig := 53
abbrev cc4_sem5_0 : DmaSem sig := 54
abbrev cc4_sem5_1 : DmaSem sig := 55
abbrev cc4_sem6_0 : DmaSem sig := 56
abbrev cc4_sem7_0 : DmaSem sig := 57
abbrev cc4_sem8_0 : DmaSem sig := 58
abbrev cc4_sem9_0 : DmaSem sig := 59
abbrev cc4_sem10_0 : DmaSem sig := 60
abbrev cc4_sem11_0 : DmaSem sig := 61
abbrev cc4_sem12_0 : DmaSem sig := 62
abbrev cc4_sem13_0 : DmaSem sig := 63
abbrev cc4_sem14_0 : DmaSem sig := 64
abbrev cc4_sem15_0 : DmaSem sig := 65
abbrev cc4_sem16_0 : DmaSem sig := 66
abbrev cc4_sem17_0 : DmaSem sig := 67
abbrev cc4_sem18_0 : DmaSem sig := 68
abbrev cc4_sem19_0 : DmaSem sig := 69
abbrev cc4_sem20_0 : DmaSem sig := 70
abbrev cc4_sem21_0 : DmaSem sig := 71
abbrev cc4_sem22_0 : DmaSem sig := 72
abbrev cc4_sem23_0 : DmaSem sig := 73
abbrev cc4_sem23_1 : DmaSem sig := 74
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18_r0 : BitVec 32 := 0#32
  let c0_i32_19_r0 : BitVec 32 := 0#32
  ![v1.toNat, 0, 0]
@[reducible] def k1_t1_loop : Scf.Loop 32 :=
  let c0_i32_6 : BitVec 32 := 0#32
  let c18_i32 : BitVec 32 := 18#32
  let v22 : BitVec 32 := Scalar.addi c0_i32_6 c18_i32
  let c1_i32_7 : BitVec 32 := 1#32
  ⟨c0_i32_6, v22, c1_i32_7⟩
@[reducible] def k1_t2_loop : Scf.Loop 32 :=
  let c0_i32_19 : BitVec 32 := 0#32
  let c8_i32 : BitVec 32 := 8#32
  let v29 : BitVec 32 := Scalar.addi c0_i32_19 c8_i32
  let c1_i32_20 : BitVec 32 := 1#32
  ⟨c0_i32_19, v29, c1_i32_20⟩
def k1_off2 (k1_t1 : Fin k1_t1_loop.trips) (k1_t2 : Fin k1_t2_loop.trips) : Fin 2 → Nat :=
  let c0_i32_6 : BitVec 32 := 0#32
  let c1_i32_7 : BitVec 32 := 1#32
  let arg10 : BitVec 32 := Scf.iv c0_i32_6 c1_i32_7 k1_t1
  let v32 : Index := Scalar.indexCast arg10
  let c0_i32_19 : BitVec 32 := 0#32
  let c1_i32_20 : BitVec 32 := 1#32
  let arg12 : BitVec 32 := Scf.iv c0_i32_19 c1_i32_20 k1_t2
  let c16_i32_22 : BitVec 32 := 16#32
  let v31 : BitVec 32 := Scalar.muli arg12 c16_i32_22
  let v33 : Index := Scalar.indexCast v31
  ![v32.toNat, v33.toNat]
@[reducible] def k1_t3_loop : Scf.Loop 32 :=
  let c0_i32_14 : BitVec 32 := 0#32
  let c18_i32_15 : BitVec 32 := 18#32
  let v27 : BitVec 32 := Scalar.addi c0_i32_14 c18_i32_15
  let c1_i32_16 : BitVec 32 := 1#32
  ⟨c0_i32_14, v27, c1_i32_16⟩
def k1_cond1 (k1_t3 : Fin k1_t3_loop.trips) : BitVec 1 :=
  let c0_i32_14 : BitVec 32 := 0#32
  let c1_i32_16 : BitVec 32 := 1#32
  let arg10 : BitVec 32 := Scf.iv c0_i32_14 c1_i32_16 k1_t3
  let c2_i32_18 : BitVec 32 := 2#32
  let c0_i32_19 : BitVec 32 := 0#32
  let v29 : BitVec 1 := Scalar.cmpi .eq c2_i32_18 c0_i32_19
  let c1_i32_20 : BitVec 32 := 1#32
  let v30 : BitVec 32 := Scalar.select v29 c1_i32_20 c2_i32_18
  let v31 : BitVec 32 := Scalar.remsi arg10 v30
  let c0_i32_22 : BitVec 32 := 0#32
  let v33 : BitVec 1 := Scalar.cmpi .slt v31 c0_i32_22
  let c0_i32_23 : BitVec 32 := 0#32
  let v34 : BitVec 1 := Scalar.cmpi .slt v30 c0_i32_23
  let v35 : BitVec 1 := Scalar.xori v33 v34
  let c0_i32_21 : BitVec 32 := 0#32
  let v32 : BitVec 1 := Scalar.cmpi .ne v31 c0_i32_21
  let v36 : BitVec 1 := Scalar.andi v35 v32
  let v37 : BitVec 32 := Scalar.addi v31 v30
  let v38 : BitVec 32 := Scalar.select v36 v37 v31
  let c0_i32_24 : BitVec 32 := 0#32
  let v39 : BitVec 1 := Scalar.cmpi .eq v38 c0_i32_24
  let c1_i32_25 : BitVec 32 := 1#32
  let v40 : BitVec 32 := Scalar.addi arg10 c1_i32_25
  let c18_i32_26 : BitVec 32 := 18#32
  let v41 : BitVec 1 := Scalar.cmpi .slt v40 c18_i32_26
  let v42 : BitVec 1 := Scalar.andi v39 v41
  let v43 : BitVec 32 := Scalar.extui v42
  let c0_i32_27 : BitVec 32 := 0#32
  let v44 : BitVec 1 := Scalar.cmpi .ne v43 c0_i32_27
  v44

def k1_off3 (k1_t3 : Fin k1_t3_loop.trips) : Fin 2 → Nat :=
  let c0_i32_14 : BitVec 32 := 0#32
  let c1_i32_16 : BitVec 32 := 1#32
  let arg10 : BitVec 32 := Scf.iv c0_i32_14 c1_i32_16 k1_t3
  let c1_i32_35 : BitVec 32 := 1#32
  let v56 : BitVec 32 := Scalar.addi arg10 c1_i32_35
  let c0_i32_36 : BitVec 32 := 0#32
  ![v56.toNat, 0]
def k1_cond2 (k1_t3 : Fin k1_t3_loop.trips) : BitVec 1 :=
  let c0_i32_14 : BitVec 32 := 0#32
  let c1_i32_16 : BitVec 32 := 1#32
  let arg10 : BitVec 32 := Scf.iv c0_i32_14 c1_i32_16 k1_t3
  let c2_i32_18 : BitVec 32 := 2#32
  let c0_i32_19 : BitVec 32 := 0#32
  let v29 : BitVec 1 := Scalar.cmpi .eq c2_i32_18 c0_i32_19
  let c1_i32_20 : BitVec 32 := 1#32
  let v30 : BitVec 32 := Scalar.select v29 c1_i32_20 c2_i32_18
  let v31 : BitVec 32 := Scalar.remsi arg10 v30
  let c0_i32_22 : BitVec 32 := 0#32
  let v33 : BitVec 1 := Scalar.cmpi .slt v31 c0_i32_22
  let c0_i32_23 : BitVec 32 := 0#32
  let v34 : BitVec 1 := Scalar.cmpi .slt v30 c0_i32_23
  let v35 : BitVec 1 := Scalar.xori v33 v34
  let c0_i32_21 : BitVec 32 := 0#32
  let v32 : BitVec 1 := Scalar.cmpi .ne v31 c0_i32_21
  let v36 : BitVec 1 := Scalar.andi v35 v32
  let v37 : BitVec 32 := Scalar.addi v31 v30
  let v38 : BitVec 32 := Scalar.select v36 v37 v31
  let c0_i32_24 : BitVec 32 := 0#32
  let v39 : BitVec 1 := Scalar.cmpi .eq v38 c0_i32_24
  let v_true : BitVec 1 := 1#1
  let v45 : BitVec 1 := Scalar.xori v39 v_true
  let c1_i32_28 : BitVec 32 := 1#32
  let v46 : BitVec 32 := Scalar.addi arg10 c1_i32_28
  let c18_i32_29 : BitVec 32 := 18#32
  let v47 : BitVec 1 := Scalar.cmpi .slt v46 c18_i32_29
  let v48 : BitVec 1 := Scalar.andi v45 v47
  let v49 : BitVec 32 := Scalar.extui v48
  let c0_i32_30 : BitVec 32 := 0#32
  let v50 : BitVec 1 := Scalar.cmpi .ne v49 c0_i32_30
  v50

def k1_off4 (k1_t3 : Fin k1_t3_loop.trips) : Fin 2 → Nat :=
  let c0_i32_14 : BitVec 32 := 0#32
  let c1_i32_16 : BitVec 32 := 1#32
  let arg10 : BitVec 32 := Scf.iv c0_i32_14 c1_i32_16 k1_t3
  let c1_i32_35 : BitVec 32 := 1#32
  let v56 : BitVec 32 := Scalar.addi arg10 c1_i32_35
  let c0_i32_36 : BitVec 32 := 0#32
  ![v56.toNat, 0]
def k1_cond3 (k1_t3 : Fin k1_t3_loop.trips) : BitVec 1 :=
  let c0_i32_14 : BitVec 32 := 0#32
  let c1_i32_16 : BitVec 32 := 1#32
  let arg10 : BitVec 32 := Scf.iv c0_i32_14 c1_i32_16 k1_t3
  let c2_i32_18 : BitVec 32 := 2#32
  let c0_i32_19 : BitVec 32 := 0#32
  let v29 : BitVec 1 := Scalar.cmpi .eq c2_i32_18 c0_i32_19
  let c1_i32_20 : BitVec 32 := 1#32
  let v30 : BitVec 32 := Scalar.select v29 c1_i32_20 c2_i32_18
  let v31 : BitVec 32 := Scalar.remsi arg10 v30
  let c0_i32_22 : BitVec 32 := 0#32
  let v33 : BitVec 1 := Scalar.cmpi .slt v31 c0_i32_22
  let c0_i32_23 : BitVec 32 := 0#32
  let v34 : BitVec 1 := Scalar.cmpi .slt v30 c0_i32_23
  let v35 : BitVec 1 := Scalar.xori v33 v34
  let c0_i32_21 : BitVec 32 := 0#32
  let v32 : BitVec 1 := Scalar.cmpi .ne v31 c0_i32_21
  let v36 : BitVec 1 := Scalar.andi v35 v32
  let v37 : BitVec 32 := Scalar.addi v31 v30
  let v38 : BitVec 32 := Scalar.select v36 v37 v31
  let c0_i32_24 : BitVec 32 := 0#32
  let v39 : BitVec 1 := Scalar.cmpi .eq v38 c0_i32_24
  let v51 : BitVec 32 := Scalar.extui v39
  let c0_i32_31 : BitVec 32 := 0#32
  let v52 : BitVec 1 := Scalar.cmpi .ne v51 c0_i32_31
  v52

def k1_off5 (k1_t3 : Fin k1_t3_loop.trips) : Fin 2 → Nat :=
  let c0_i32_14 : BitVec 32 := 0#32
  let c1_i32_16 : BitVec 32 := 1#32
  let arg10 : BitVec 32 := Scf.iv c0_i32_14 c1_i32_16 k1_t3
  let c0_i32_35 : BitVec 32 := 0#32
  ![arg10.toNat, 0]
def k1_off6 (i : grid1.Coords) (k1_t3 : Fin k1_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2304_i32 : BitVec 32 := 2304#32
  let v2 : BitVec 32 := Scalar.muli v1 c2304_i32
  let c0_i32_14 : BitVec 32 := 0#32
  let c1_i32_16 : BitVec 32 := 1#32
  let arg10 : BitVec 32 := Scf.iv c0_i32_14 c1_i32_16 k1_t3
  let c128_i32 : BitVec 32 := 128#32
  let v59 : BitVec 32 := Scalar.muli arg10 c128_i32
  let v60 : BitVec 32 := Scalar.addi v2 v59
  let c0_i32_38_r1 : BitVec 32 := 0#32
  ![v60.toNat, 0]
def k1_cond4 (k1_t3 : Fin k1_t3_loop.trips) : BitVec 1 :=
  let c0_i32_14 : BitVec 32 := 0#32
  let c1_i32_16 : BitVec 32 := 1#32
  let arg10 : BitVec 32 := Scf.iv c0_i32_14 c1_i32_16 k1_t3
  let c2_i32_18 : BitVec 32 := 2#32
  let c0_i32_19 : BitVec 32 := 0#32
  let v29 : BitVec 1 := Scalar.cmpi .eq c2_i32_18 c0_i32_19
  let c1_i32_20 : BitVec 32 := 1#32
  let v30 : BitVec 32 := Scalar.select v29 c1_i32_20 c2_i32_18
  let v31 : BitVec 32 := Scalar.remsi arg10 v30
  let c0_i32_22 : BitVec 32 := 0#32
  let v33 : BitVec 1 := Scalar.cmpi .slt v31 c0_i32_22
  let c0_i32_23 : BitVec 32 := 0#32
  let v34 : BitVec 1 := Scalar.cmpi .slt v30 c0_i32_23
  let v35 : BitVec 1 := Scalar.xori v33 v34
  let c0_i32_21 : BitVec 32 := 0#32
  let v32 : BitVec 1 := Scalar.cmpi .ne v31 c0_i32_21
  let v36 : BitVec 1 := Scalar.andi v35 v32
  let v37 : BitVec 32 := Scalar.addi v31 v30
  let v38 : BitVec 32 := Scalar.select v36 v37 v31
  let c0_i32_24 : BitVec 32 := 0#32
  let v39 : BitVec 1 := Scalar.cmpi .eq v38 c0_i32_24
  let true_32 : BitVec 1 := 1#1
  let v53 : BitVec 1 := Scalar.xori v39 true_32
  let v54 : BitVec 32 := Scalar.extui v53
  let c0_i32_33 : BitVec 32 := 0#32
  let v55 : BitVec 1 := Scalar.cmpi .ne v54 c0_i32_33
  v55

def k1_off7 (k1_t3 : Fin k1_t3_loop.trips) : Fin 2 → Nat :=
  let c0_i32_14 : BitVec 32 := 0#32
  let c1_i32_16 : BitVec 32 := 1#32
  let arg10 : BitVec 32 := Scf.iv c0_i32_14 c1_i32_16 k1_t3
  let c0_i32_35 : BitVec 32 := 0#32
  ![arg10.toNat, 0]
def k1_off8 (i : grid1.Coords) (k1_t3 : Fin k1_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2304_i32 : BitVec 32 := 2304#32
  let v2 : BitVec 32 := Scalar.muli v1 c2304_i32
  let c0_i32_14 : BitVec 32 := 0#32
  let c1_i32_16 : BitVec 32 := 1#32
  let arg10 : BitVec 32 := Scf.iv c0_i32_14 c1_i32_16 k1_t3
  let c128_i32 : BitVec 32 := 128#32
  let v59 : BitVec 32 := Scalar.muli arg10 c128_i32
  let v60 : BitVec 32 := Scalar.addi v2 v59
  let c0_i32_38_r2 : BitVec 32 := 0#32
  ![v60.toNat, 0]
abbrev grid2 : Pipeline.Grid := ⟨2, ![2, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_23 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x36x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S36x128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x128x36 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x1x4608 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S128x4608 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S4608x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S128x128 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S128x128 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S128x512 .bf16 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 1 → Memref sig .tc .vmem S1x512 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false, false]

abbrev stage2_17 : Fin 1 → Memref sig .tc .vmem S512x128 .bf16 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false, false]

abbrev stage2_18 : Fin 1 → Memref sig .tc .vmem S1x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false, false]

abbrev stage2_19 : Fin 1 → Memref sig .tc .vmem S1x128 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false, false]

abbrev stage2_20 : Fin 1 → Memref sig .tc .vmem S1x128 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false, false]

abbrev stage2_21 : Fin 1 → Memref sig .tc .vmem S1x128 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false, false]

abbrev stage2_22 : Fin 1 → Memref sig .tc .vmem S1x128 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![false, false]

abbrev stage2_23 : Fin 2 → Memref sig .tc .vmem S1x128x128 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true, true]

abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18_r0 : BitVec 32 := 0#32
  let c0_i32_19_r0 : BitVec 32 := 0#32
  ![v1.toNat, 0, 0]
@[reducible] def k3_t1_loop : Scf.Loop 32 :=
  let c0_i32_6 : BitVec 32 := 0#32
  let c18_i32 : BitVec 32 := 18#32
  let v22 : BitVec 32 := Scalar.addi c0_i32_6 c18_i32
  let c1_i32_7 : BitVec 32 := 1#32
  ⟨c0_i32_6, v22, c1_i32_7⟩
@[reducible] def k3_t2_loop : Scf.Loop 32 :=
  let c0_i32_19 : BitVec 32 := 0#32
  let c8_i32 : BitVec 32 := 8#32
  let v29 : BitVec 32 := Scalar.addi c0_i32_19 c8_i32
  let c1_i32_20 : BitVec 32 := 1#32
  ⟨c0_i32_19, v29, c1_i32_20⟩
def k3_off2 (k3_t1 : Fin k3_t1_loop.trips) (k3_t2 : Fin k3_t2_loop.trips) : Fin 2 → Nat :=
  let c0_i32_6 : BitVec 32 := 0#32
  let c1_i32_7 : BitVec 32 := 1#32
  let arg10 : BitVec 32 := Scf.iv c0_i32_6 c1_i32_7 k3_t1
  let v32 : Index := Scalar.indexCast arg10
  let c0_i32_19 : BitVec 32 := 0#32
  let c1_i32_20 : BitVec 32 := 1#32
  let arg12 : BitVec 32 := Scf.iv c0_i32_19 c1_i32_20 k3_t2
  let c16_i32_22 : BitVec 32 := 16#32
  let v31 : BitVec 32 := Scalar.muli arg12 c16_i32_22
  let v33 : Index := Scalar.indexCast v31
  ![v32.toNat, v33.toNat]
@[reducible] def k3_t3_loop : Scf.Loop 32 :=
  let c0_i32_14 : BitVec 32 := 0#32
  let c18_i32_15 : BitVec 32 := 18#32
  let v27 : BitVec 32 := Scalar.addi c0_i32_14 c18_i32_15
  let c1_i32_16 : BitVec 32 := 1#32
  ⟨c0_i32_14, v27, c1_i32_16⟩
def k3_cond1 (k3_t3 : Fin k3_t3_loop.trips) : BitVec 1 :=
  let c0_i32_14 : BitVec 32 := 0#32
  let c1_i32_16 : BitVec 32 := 1#32
  let arg10 : BitVec 32 := Scf.iv c0_i32_14 c1_i32_16 k3_t3
  let c2_i32_18 : BitVec 32 := 2#32
  let c0_i32_19 : BitVec 32 := 0#32
  let v29 : BitVec 1 := Scalar.cmpi .eq c2_i32_18 c0_i32_19
  let c1_i32_20 : BitVec 32 := 1#32
  let v30 : BitVec 32 := Scalar.select v29 c1_i32_20 c2_i32_18
  let v31 : BitVec 32 := Scalar.remsi arg10 v30
  let c0_i32_22 : BitVec 32 := 0#32
  let v33 : BitVec 1 := Scalar.cmpi .slt v31 c0_i32_22
  let c0_i32_23 : BitVec 32 := 0#32
  let v34 : BitVec 1 := Scalar.cmpi .slt v30 c0_i32_23
  let v35 : BitVec 1 := Scalar.xori v33 v34
  let c0_i32_21 : BitVec 32 := 0#32
  let v32 : BitVec 1 := Scalar.cmpi .ne v31 c0_i32_21
  let v36 : BitVec 1 := Scalar.andi v35 v32
  let v37 : BitVec 32 := Scalar.addi v31 v30
  let v38 : BitVec 32 := Scalar.select v36 v37 v31
  let c0_i32_24 : BitVec 32 := 0#32
  let v39 : BitVec 1 := Scalar.cmpi .eq v38 c0_i32_24
  let c1_i32_25 : BitVec 32 := 1#32
  let v40 : BitVec 32 := Scalar.addi arg10 c1_i32_25
  let c18_i32_26 : BitVec 32 := 18#32
  let v41 : BitVec 1 := Scalar.cmpi .slt v40 c18_i32_26
  let v42 : BitVec 1 := Scalar.andi v39 v41
  let v43 : BitVec 32 := Scalar.extui v42
  let c0_i32_27 : BitVec 32 := 0#32
  let v44 : BitVec 1 := Scalar.cmpi .ne v43 c0_i32_27
  v44

def k3_off3 (k3_t3 : Fin k3_t3_loop.trips) : Fin 2 → Nat :=
  let c0_i32_14 : BitVec 32 := 0#32
  let c1_i32_16 : BitVec 32 := 1#32
  let arg10 : BitVec 32 := Scf.iv c0_i32_14 c1_i32_16 k3_t3
  let c1_i32_35 : BitVec 32 := 1#32
  let v56 : BitVec 32 := Scalar.addi arg10 c1_i32_35
  let c0_i32_36 : BitVec 32 := 0#32
  ![v56.toNat, 0]
def k3_cond2 (k3_t3 : Fin k3_t3_loop.trips) : BitVec 1 :=
  let c0_i32_14 : BitVec 32 := 0#32
  let c1_i32_16 : BitVec 32 := 1#32
  let arg10 : BitVec 32 := Scf.iv c0_i32_14 c1_i32_16 k3_t3
  let c2_i32_18 : BitVec 32 := 2#32
  let c0_i32_19 : BitVec 32 := 0#32
  let v29 : BitVec 1 := Scalar.cmpi .eq c2_i32_18 c0_i32_19
  let c1_i32_20 : BitVec 32 := 1#32
  let v30 : BitVec 32 := Scalar.select v29 c1_i32_20 c2_i32_18
  let v31 : BitVec 32 := Scalar.remsi arg10 v30
  let c0_i32_22 : BitVec 32 := 0#32
  let v33 : BitVec 1 := Scalar.cmpi .slt v31 c0_i32_22
  let c0_i32_23 : BitVec 32 := 0#32
  let v34 : BitVec 1 := Scalar.cmpi .slt v30 c0_i32_23
  let v35 : BitVec 1 := Scalar.xori v33 v34
  let c0_i32_21 : BitVec 32 := 0#32
  let v32 : BitVec 1 := Scalar.cmpi .ne v31 c0_i32_21
  let v36 : BitVec 1 := Scalar.andi v35 v32
  let v37 : BitVec 32 := Scalar.addi v31 v30
  let v38 : BitVec 32 := Scalar.select v36 v37 v31
  let c0_i32_24 : BitVec 32 := 0#32
  let v39 : BitVec 1 := Scalar.cmpi .eq v38 c0_i32_24
  let v_true : BitVec 1 := 1#1
  let v45 : BitVec 1 := Scalar.xori v39 v_true
  let c1_i32_28 : BitVec 32 := 1#32
  let v46 : BitVec 32 := Scalar.addi arg10 c1_i32_28
  let c18_i32_29 : BitVec 32 := 18#32
  let v47 : BitVec 1 := Scalar.cmpi .slt v46 c18_i32_29
  let v48 : BitVec 1 := Scalar.andi v45 v47
  let v49 : BitVec 32 := Scalar.extui v48
  let c0_i32_30 : BitVec 32 := 0#32
  let v50 : BitVec 1 := Scalar.cmpi .ne v49 c0_i32_30
  v50

def k3_off4 (k3_t3 : Fin k3_t3_loop.trips) : Fin 2 → Nat :=
  let c0_i32_14 : BitVec 32 := 0#32
  let c1_i32_16 : BitVec 32 := 1#32
  let arg10 : BitVec 32 := Scf.iv c0_i32_14 c1_i32_16 k3_t3
  let c1_i32_35 : BitVec 32 := 1#32
  let v56 : BitVec 32 := Scalar.addi arg10 c1_i32_35
  let c0_i32_36 : BitVec 32 := 0#32
  ![v56.toNat, 0]
def k3_cond3 (k3_t3 : Fin k3_t3_loop.trips) : BitVec 1 :=
  let c0_i32_14 : BitVec 32 := 0#32
  let c1_i32_16 : BitVec 32 := 1#32
  let arg10 : BitVec 32 := Scf.iv c0_i32_14 c1_i32_16 k3_t3
  let c2_i32_18 : BitVec 32 := 2#32
  let c0_i32_19 : BitVec 32 := 0#32
  let v29 : BitVec 1 := Scalar.cmpi .eq c2_i32_18 c0_i32_19
  let c1_i32_20 : BitVec 32 := 1#32
  let v30 : BitVec 32 := Scalar.select v29 c1_i32_20 c2_i32_18
  let v31 : BitVec 32 := Scalar.remsi arg10 v30
  let c0_i32_22 : BitVec 32 := 0#32
  let v33 : BitVec 1 := Scalar.cmpi .slt v31 c0_i32_22
  let c0_i32_23 : BitVec 32 := 0#32
  let v34 : BitVec 1 := Scalar.cmpi .slt v30 c0_i32_23
  let v35 : BitVec 1 := Scalar.xori v33 v34
  let c0_i32_21 : BitVec 32 := 0#32
  let v32 : BitVec 1 := Scalar.cmpi .ne v31 c0_i32_21
  let v36 : BitVec 1 := Scalar.andi v35 v32
  let v37 : BitVec 32 := Scalar.addi v31 v30
  let v38 : BitVec 32 := Scalar.select v36 v37 v31
  let c0_i32_24 : BitVec 32 := 0#32
  let v39 : BitVec 1 := Scalar.cmpi .eq v38 c0_i32_24
  let v51 : BitVec 32 := Scalar.extui v39
  let c0_i32_31 : BitVec 32 := 0#32
  let v52 : BitVec 1 := Scalar.cmpi .ne v51 c0_i32_31
  v52

def k3_off5 (k3_t3 : Fin k3_t3_loop.trips) : Fin 2 → Nat :=
  let c0_i32_14 : BitVec 32 := 0#32
  let c1_i32_16 : BitVec 32 := 1#32
  let arg10 : BitVec 32 := Scf.iv c0_i32_14 c1_i32_16 k3_t3
  let c0_i32_35 : BitVec 32 := 0#32
  ![arg10.toNat, 0]
def k3_off6 (i : grid3.Coords) (k3_t3 : Fin k3_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2304_i32 : BitVec 32 := 2304#32
  let v2 : BitVec 32 := Scalar.muli v1 c2304_i32
  let c0_i32_14 : BitVec 32 := 0#32
  let c1_i32_16 : BitVec 32 := 1#32
  let arg10 : BitVec 32 := Scf.iv c0_i32_14 c1_i32_16 k3_t3
  let c128_i32 : BitVec 32 := 128#32
  let v59 : BitVec 32 := Scalar.muli arg10 c128_i32
  let v60 : BitVec 32 := Scalar.addi v2 v59
  let c0_i32_38_r1 : BitVec 32 := 0#32
  ![v60.toNat, 0]
def k3_cond4 (k3_t3 : Fin k3_t3_loop.trips) : BitVec 1 :=
  let c0_i32_14 : BitVec 32 := 0#32
  let c1_i32_16 : BitVec 32 := 1#32
  let arg10 : BitVec 32 := Scf.iv c0_i32_14 c1_i32_16 k3_t3
  let c2_i32_18 : BitVec 32 := 2#32
  let c0_i32_19 : BitVec 32 := 0#32
  let v29 : BitVec 1 := Scalar.cmpi .eq c2_i32_18 c0_i32_19
  let c1_i32_20 : BitVec 32 := 1#32
  let v30 : BitVec 32 := Scalar.select v29 c1_i32_20 c2_i32_18
  let v31 : BitVec 32 := Scalar.remsi arg10 v30
  let c0_i32_22 : BitVec 32 := 0#32
  let v33 : BitVec 1 := Scalar.cmpi .slt v31 c0_i32_22
  let c0_i32_23 : BitVec 32 := 0#32
  let v34 : BitVec 1 := Scalar.cmpi .slt v30 c0_i32_23
  let v35 : BitVec 1 := Scalar.xori v33 v34
  let c0_i32_21 : BitVec 32 := 0#32
  let v32 : BitVec 1 := Scalar.cmpi .ne v31 c0_i32_21
  let v36 : BitVec 1 := Scalar.andi v35 v32
  let v37 : BitVec 32 := Scalar.addi v31 v30
  let v38 : BitVec 32 := Scalar.select v36 v37 v31
  let c0_i32_24 : BitVec 32 := 0#32
  let v39 : BitVec 1 := Scalar.cmpi .eq v38 c0_i32_24
  let true_32 : BitVec 1 := 1#1
  let v53 : BitVec 1 := Scalar.xori v39 true_32
  let v54 : BitVec 32 := Scalar.extui v53
  let c0_i32_33 : BitVec 32 := 0#32
  let v55 : BitVec 1 := Scalar.cmpi .ne v54 c0_i32_33
  v55

def k3_off7 (k3_t3 : Fin k3_t3_loop.trips) : Fin 2 → Nat :=
  let c0_i32_14 : BitVec 32 := 0#32
  let c1_i32_16 : BitVec 32 := 1#32
  let arg10 : BitVec 32 := Scf.iv c0_i32_14 c1_i32_16 k3_t3
  let c0_i32_35 : BitVec 32 := 0#32
  ![arg10.toNat, 0]
def k3_off8 (i : grid3.Coords) (k3_t3 : Fin k3_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2304_i32 : BitVec 32 := 2304#32
  let v2 : BitVec 32 := Scalar.muli v1 c2304_i32
  let c0_i32_14 : BitVec 32 := 0#32
  let c1_i32_16 : BitVec 32 := 1#32
  let arg10 : BitVec 32 := Scf.iv c0_i32_14 c1_i32_16 k3_t3
  let c128_i32 : BitVec 32 := 128#32
  let v59 : BitVec 32 := Scalar.muli arg10 c128_i32
  let v60 : BitVec 32 := Scalar.addi v2 v59
  let c0_i32_38_r2 : BitVec 32 := 0#32
  ![v60.toNat, 0]
abbrev grid4 : Pipeline.Grid := ⟨2, ![2, 8], ![false, false]⟩

def cc4_transform_0 (i : grid4.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, arg1.toNat, c0_i32.toNat]

def cc4_transform_1 (i : grid4.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, arg1.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, arg1.toNat, c0_i32.toNat]

def cc4_transform_4 (i : grid4.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, arg1.toNat, c0_i32.toNat, c0_i32_0.toNat]

def cc4_transform_5 (i : grid4.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, arg1.toNat, c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_19 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_20 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_21 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_22 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_23 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x36x128x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S36x128x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x128x36 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x1x1x4608 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x1x1x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 1 → Memref sig .tc .vmem S128x4608 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S4608x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false, false]

abbrev stage4_10 : Fin 1 → Memref sig .tc .vmem S128x128 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false, false]

abbrev stage4_11 : Fin 1 → Memref sig .tc .vmem S128x128 .bf16 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false, false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false, false]

abbrev stage4_13 : Fin 1 → Memref sig .tc .vmem S128x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false, false]

abbrev stage4_14 : Fin 1 → Memref sig .tc .vmem S1x128 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false, false]

abbrev stage4_15 : Fin 1 → Memref sig .tc .vmem S128x512 .bf16 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false, false]

abbrev stage4_16 : Fin 1 → Memref sig .tc .vmem S1x512 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false, false]

abbrev stage4_17 : Fin 1 → Memref sig .tc .vmem S512x128 .bf16 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false, false]

abbrev stage4_18 : Fin 1 → Memref sig .tc .vmem S1x128 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false, false]

abbrev stage4_19 : Fin 1 → Memref sig .tc .vmem S1x128 .f32 := fun | 0 => Memref.whole cc4_stg19_0 | ⟨_ + 1, h⟩ => absurd h (Nat.not_lt.2 (Nat.le_add_left _ _))
abbrev sem4_19 : Fin 1 → DmaSem sig := fun | 0 => cc4_sem19_0 | ⟨_ + 1, h⟩ => absurd h (Nat.not_lt.2 (Nat.le_add_left _ _))
abbrev reads4_19 : Fin grid4.rank → Bool := ![false, false]

abbrev stage4_20 : Fin 1 → Memref sig .tc .vmem S1x128 .f32 := fun | 0 => Memref.whole cc4_stg20_0 | ⟨_ + 1, h⟩ => absurd h (Nat.not_lt.2 (Nat.le_add_left _ _))
abbrev sem4_20 : Fin 1 → DmaSem sig := fun | 0 => cc4_sem20_0 | ⟨_ + 1, h⟩ => absurd h (Nat.not_lt.2 (Nat.le_add_left _ _))
abbrev reads4_20 : Fin grid4.rank → Bool := ![false, false]

abbrev stage4_21 : Fin 1 → Memref sig .tc .vmem S1x128 .f32 := fun | 0 => Memref.whole cc4_stg21_0 | ⟨_ + 1, h⟩ => absurd h (Nat.not_lt.2 (Nat.le_add_left _ _))
abbrev sem4_21 : Fin 1 → DmaSem sig := fun | 0 => cc4_sem21_0 | ⟨_ + 1, h⟩ => absurd h (Nat.not_lt.2 (Nat.le_add_left _ _))
abbrev reads4_21 : Fin grid4.rank → Bool := ![false, false]

abbrev stage4_22 : Fin 1 → Memref sig .tc .vmem S1x128 .f32 := fun | 0 => Memref.whole cc4_stg22_0 | ⟨_ + 1, h⟩ => absurd h (Nat.not_lt.2 (Nat.le_add_left _ _))
abbrev sem4_22 : Fin 1 → DmaSem sig := fun | 0 => cc4_sem22_0 | ⟨_ + 1, h⟩ => absurd h (Nat.not_lt.2 (Nat.le_add_left _ _))
abbrev reads4_22 : Fin grid4.rank → Bool := ![false, false]

abbrev stage4_23 : Fin 2 → Memref sig .tc .vmem S1x128x128 .f32 := fun | 0 => Memref.whole cc4_stg23_0 | 1 => Memref.whole cc4_stg23_1 | ⟨_ + 2, h⟩ => absurd h (Nat.not_lt.2 (Nat.le_add_left _ _))
abbrev sem4_23 : Fin 2 → DmaSem sig := fun | 0 => cc4_sem23_0 | 1 => cc4_sem23_1 | ⟨_ + 2, h⟩ => absurd h (Nat.not_lt.2 (Nat.le_add_left _ _))
abbrev reads4_23 : Fin grid4.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S384x128_S128x128_0_0 : S384x128.Slices ![0, 0] S128x128
  slices_S384x128_S128x128_128_0 : S384x128.Slices ![128, 0] S128x128
  slices_S384x128_S128x128_256_0 : S384x128.Slices ![256, 0] S128x128
  transposes_S4x1024x36x128_S4x36x1024x128_0_2_1_3 : S4x1024x36x128.Transposes [0, 2, 1, 3] S4x36x1024x128
  transposes_S4x1024x36_S4x36x1024_0_2_1 : S4x1024x36.Transposes [0, 2, 1] S4x36x1024
  shapeCasts_S4x36x1024_S4x36864 : S4x36x1024.ShapeCasts S4x36864
  shapeCasts_S4x36x1024_S4x36x8x128 : S4x36x1024.ShapeCasts S4x36x8x128
  transposes_S4x36x8x128_S4x8x36x128_0_2_1_3 : S4x36x8x128.Transposes [0, 2, 1, 3] S4x8x36x128
  shapeCasts_S4x8x36x128_S4x8x1x4608 : S4x8x36x128.ShapeCasts S4x8x1x4608
  bitsLt_bf16_f32 : FTy.bits .bf16 < FTy.bits .f32
  bcast_S_S4608 : S_.BroadcastsInDim S4608 (![] : Fin 0 → Fin S4608.rank)
  bcast_S128_S128x1_0 : S128.BroadcastsInDim S128x1 (![0] : Fin 1 → Fin S128x1.rank)
  bcast_S4608_S1x4608_1 : S4608.BroadcastsInDim S1x4608 (![1] : Fin 1 → Fin S1x4608.rank)
  bcast_S128x1_S128x4608_0_1 : S128x1.BroadcastsInDim S128x4608 (![0, 1] : Fin 2 → Fin S128x4608.rank)
  bcast_S1x4608_S128x4608_0_1 : S1x4608.BroadcastsInDim S128x4608 (![0, 1] : Fin 2 → Fin S128x4608.rank)
  transposes_S128x4608_S4608x128_1_0 : S128x4608.Transposes [1, 0] S4608x128
  shapeCasts_S4x1024x128_S4096x128 : S4x1024x128.ShapeCasts S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4x36864_S2x36864_0_0 : S4x36864.Slices ![0, 0] S2x36864
  shapeCasts_S2x36864_S32x18x128 : S2x36864.ShapeCasts S32x18x128
  squeezes_S1x18x128_S18x128 : S1x18x128.Squeezes S18x128
  h_S1x16 : 0 < S1x16.numel
  shapeCasts_S1x16_S16 : S1x16.ShapeCasts S16
  shapeCasts_S16_S1x16 : S16.ShapeCasts S1x16
  inb_S18x128_S1x128_0_0 : ∀ a, (![0, 0] : Fin 2 → Nat) a + S1x128.size a ≤ S18x128.size a
  squeezes_S1x128_S128 : S1x128.Squeezes S128
  gathers_S4096x128_S128x128 : S4096x128.Gathers 0 S128x128
  shapeCasts_S73728x128_S72x1024x128 : S73728x128.ShapeCasts S72x1024x128
  shapeCasts_S4x1024_S4x8x1x128 : S4x1024.ShapeCasts S4x8x1x128
  shapeCasts_S128_S1x128 : S128.ShapeCasts S1x128
  shapeCasts_S512_S1x512 : S512.ShapeCasts S1x512
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x36x128x128_S1x36x128x128_0_0_0_0 : ∀ a, (![0, 0, 0, 0] : Fin 4 → Nat) a + S1x36x128x128.size a ≤ S1x36x128x128.size a
  h_S1x36x128x128 : 0 < S1x36x128x128.numel
  shapeCasts_S1x36x128x128_S36x128x128 : S1x36x128x128.ShapeCasts S36x128x128
  shapeCasts_S36x128x128_S4608x128 : S36x128x128.ShapeCasts S4608x128
  inb_S36x128x128_S36x128x128_0_0_0 : ∀ a, (![0, 0, 0] : Fin 3 → Nat) a + S36x128x128.size a ≤ S36x128x128.size a
  h_S36x128x128 : 0 < S36x128x128.numel
  shapeCasts_S36x128x128_S36x128x128 : S36x128x128.ShapeCasts S36x128x128
  inb_S1x128x36_S1x128x36_0_0_0 : ∀ a, (![0, 0, 0] : Fin 3 → Nat) a + S1x128x36.size a ≤ S1x128x36.size a
  h_S1x128x36 : 0 < S1x128x36.numel
  shapeCasts_S1x128x36_S128x36 : S1x128x36.ShapeCasts S128x36
  inb_S1x1x1x4608_S1x1x1x4608_0_0_0_0 : ∀ a, (![0, 0, 0, 0] : Fin 4 → Nat) a + S1x1x1x4608.size a ≤ S1x1x1x4608.size a
  h_S1x1x1x4608 : 0 < S1x1x1x4608.numel
  shapeCasts_S1x1x1x4608_S1x4608 : S1x1x1x4608.ShapeCasts S1x4608
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S4608x128_S4608x128_0_0 : ∀ a, (![0, 0] : Fin 2 → Nat) a + S4608x128.size a ≤ S4608x128.size a
  h_S4608x128 : 0 < S4608x128.numel
  shapeCasts_S4608x128_S4608x128 : S4608x128.ShapeCasts S4608x128
  broadcasts_S1x128_S4608x128 : S1x128.Broadcasts S4608x128
  inb_S128x4608_S128x4608_0_0 : ∀ a, (![0, 0] : Fin 2 → Nat) a + S128x4608.size a ≤ S128x4608.size a
  h_S128x4608 : 0 < S128x4608.numel
  shapeCasts_S128x4608_S128x4608 : S128x4608.ShapeCasts S128x4608
  broadcasts_S1x4608_S128x4608 : S1x4608.Broadcasts S128x4608
  reduces_S128x36_S128 : S128x36.Reduces [1] S128
  shapeCasts_S128_S128x1 : S128.ShapeCasts S128x1
  broadcasts_S128x1_S128x128 : S128x1.Broadcasts S128x128
  reduces_S128x128_S128 : S128x128.Reduces [1] S128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S128 : S1x1x1x128.ShapeCasts S128
  shapeCasts_S128x128_S1x128x128 : S128x128.ShapeCasts S1x128x128
  slices_S4x36864_S2x36864_2_0 : S4x36864.Slices ![2, 0] S2x36864
  concatenates_S2x1024x128_S2x1024x128_S4x1024x128_d0 : Shape.Concatenates [S2x1024x128, S2x1024x128] S4x1024x128 0
  dot_S4096x128_S128x128_S4096x128_1_0_0_1_n_n_wf : DotDims.WF S4096x128 S128x128 S4096x128 [1] [0] [0] [1] [] []
  dot_S128x128_S128x128_S128x128_1_0_0_1_n_n_wf : DotDims.WF S128x128 S128x128 S128x128 [1] [0] [0] [1] [] []
  dot_S4608x128_S128x128_S4608x128_1_0_0_1_n_n_wf : DotDims.WF S4608x128 S128x128 S4608x128 [1] [0] [0] [1] [] []
  dot_S128x4608_S4608x128_S128x128_1_0_0_1_n_n_wf : DotDims.WF S128x4608 S4608x128 S128x128 [1] [0] [0] [1] [] []
  dot_S128x128_S128x512_S128x512_1_0_0_1_n_n_wf : DotDims.WF S128x128 S128x512 S128x512 [1] [0] [0] [1] [] []
  dot_S128x512_S512x128_S128x128_1_0_0_1_n_n_wf : DotDims.WF S128x512 S512x128 S128x128 [1] [0] [0] [1] [] []
  hcc1_scratch3 : 3 + S_.numel ≤ 75
  hcc1_scratch4 : 4 + S_.numel ≤ 75
  hcc1_scoped0 : 5 + S_.numel ≤ 75
  hcc1_scoped1 : 6 + S_.numel ≤ 75
  hcc1_scoped2 : 7 + S_.numel ≤ 75
  hcc3_scratch3 : 39 + S_.numel ≤ 75
  hcc3_scratch4 : 40 + S_.numel ≤ 75
  hcc3_scoped0 : 41 + S_.numel ≤ 75
  hcc3_scoped1 : 42 + S_.numel ≤ 75
  hcc3_scoped2 : 43 + S_.numel ≤ 75
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hcore1 : grid1.bound 0 ≤ τ.nSC
  hsub1 : grid1.bound 1 ≤ τ.nSub
  k1_off1_inb : ∀ i : grid1.Coords, ∀ a, (k1_off1 i) a + S1x18x128.size a ≤ S32x18x128.size a
  k1_t1_ok : k1_t1_loop.OK
  k1_t2_ok : k1_t2_loop.OK
  k1_off2_inb : ∀ (k1_t1 : Fin k1_t1_loop.trips) (k1_t2 : Fin k1_t2_loop.trips), ∀ a, (k1_off2 k1_t1 k1_t2) a + S1x16.size a ≤ S18x128.size a
  k1_t3_ok : k1_t3_loop.OK
  k1_off3_inb : ∀ k1_t3 : Fin k1_t3_loop.trips, ∀ (k1_h1 : k1_cond1 k1_t3 = 1#1), ∀ a, (k1_off3 k1_t3) a + S1x128.size a ≤ S18x128.size a
  k1_off4_inb : ∀ k1_t3 : Fin k1_t3_loop.trips, ∀ (k1_h2 : k1_cond2 k1_t3 = 1#1), ∀ a, (k1_off4 k1_t3) a + S1x128.size a ≤ S18x128.size a
  k1_off5_inb : ∀ k1_t3 : Fin k1_t3_loop.trips, ∀ (k1_h3 : k1_cond3 k1_t3 = 1#1), ∀ a, (k1_off5 k1_t3) a + S1x128.size a ≤ S18x128.size a
  k1_off6_inb : ∀ (i : grid1.Coords) (k1_t3 : Fin k1_t3_loop.trips), ∀ (k1_h3 : k1_cond3 k1_t3 = 1#1), ∀ a, (k1_off6 i k1_t3) a + S128x128.size a ≤ S73728x128.size a
  k1_off7_inb : ∀ k1_t3 : Fin k1_t3_loop.trips, ∀ (k1_h4 : k1_cond4 k1_t3 = 1#1), ∀ a, (k1_off7 k1_t3) a + S1x128.size a ≤ S18x128.size a
  k1_off8_inb : ∀ (i : grid1.Coords) (k1_t3 : Fin k1_t3_loop.trips), ∀ (k1_h4 : k1_cond4 k1_t3 = 1#1), ∀ a, (k1_off8 i k1_t3) a + S128x128.size a ≤ S73728x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x128.size a ≤ S4x1024x128.size a
  hwx2_0 : ∀ i : grid2.Coords, EltTy.bits .f32 = 32 ∨ (Rect.block (s := S4x1024x128) S1x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x36x128x128.size a ≤ S4x36x1024x128.size a
  hwx2_1 : ∀ i : grid2.Coords, EltTy.bits .f32 = 32 ∨ (Rect.block (s := S4x36x1024x128) S1x36x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S36x128x128.size a ≤ S72x1024x128.size a
  hwx2_2 : ∀ i : grid2.Coords, EltTy.bits .f32 = 32 ∨ (Rect.block (s := S72x1024x128) S36x128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128x36.size a ≤ S4x1024x36.size a
  hwx2_3 : ∀ i : grid2.Coords, EltTy.bits .f32 = 32 ∨ (Rect.block (s := S4x1024x36) S1x128x36.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1x4608.size a ≤ S4x8x1x4608.size a
  hwx2_4 : ∀ i : grid2.Coords, EltTy.bits .bf16 = 32 ∨ (Rect.block (s := S4x8x1x4608) S1x1x1x4608.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x1x128.size a ≤ S4x8x1x128.size a
  hwx2_5 : ∀ i : grid2.Coords, EltTy.bits .f32 = 32 ∨ (Rect.block (s := S4x8x1x128) S1x1x1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x4608.size a ≤ S128x4608.size a
  hwx2_6 : ∀ i : grid2.Coords, EltTy.bits .bf16 = 32 ∨ (Rect.block (s := S128x4608) S128x4608.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S4608x128.size a ≤ S4608x128.size a
  hwx2_7 : ∀ i : grid2.Coords, EltTy.bits .bf16 = 32 ∨ (Rect.block (s := S4608x128) S4608x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .bf16 = 32 ∨ (Rect.block (s := S128x128) S128x128.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .bf16 = 32 ∨ (Rect.block (s := S128x128) S128x128.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x512.size a ≤ S128x512.size a
  hwx2_15 : ∀ i : grid2.Coords, EltTy.bits .bf16 = 32 ∨ (Rect.block (s := S128x512) S128x512.size (cc2_transform_15 i) (hinb2_15 i)).WholeWords (EltTy.packing .bf16)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x512.size a ≤ S1x512.size a
  hwx2_16 : ∀ i : grid2.Coords, EltTy.bits .f32 = 32 ∨ (Rect.block (s := S1x512) S1x512.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S512x128.size a ≤ S512x128.size a
  hwx2_17 : ∀ i : grid2.Coords, EltTy.bits .bf16 = 32 ∨ (Rect.block (s := S512x128) S512x128.size (cc2_transform_17 i) (hinb2_17 i)).WholeWords (EltTy.packing .bf16)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x128.size a ≤ S1x128.size a
  hwx2_18 : ∀ i : grid2.Coords, EltTy.bits .f32 = 32 ∨ (Rect.block (s := S1x128) S1x128.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S1x128.size a ≤ S1x128.size a
  hwx2_19 : ∀ i : grid2.Coords, EltTy.bits .f32 = 32 ∨ (Rect.block (s := S1x128) S1x128.size (cc2_transform_19 i) (hinb2_19 i)).WholeWords (EltTy.packing .f32)
  hstage2_20 : ∀ j, (stage2_20 j).IsWhole
  nbuf2_20 : grid2.bufCount reads2_20 true = 1
  hreads2_20 : ∀ i i' : grid2.Coords, (∀ a, reads2_20 a = true → i a = i' a) → cc2_transform_20 i = cc2_transform_20 i'
  hinb2_20 : ∀ (i : grid2.Coords) a, (cc2_transform_20 i a + 1) * S1x128.size a ≤ S1x128.size a
  hwx2_20 : ∀ i : grid2.Coords, EltTy.bits .f32 = 32 ∨ (Rect.block (s := S1x128) S1x128.size (cc2_transform_20 i) (hinb2_20 i)).WholeWords (EltTy.packing .f32)
  hstage2_21 : ∀ j, (stage2_21 j).IsWhole
  nbuf2_21 : grid2.bufCount reads2_21 true = 1
  hreads2_21 : ∀ i i' : grid2.Coords, (∀ a, reads2_21 a = true → i a = i' a) → cc2_transform_21 i = cc2_transform_21 i'
  hinb2_21 : ∀ (i : grid2.Coords) a, (cc2_transform_21 i a + 1) * S1x128.size a ≤ S1x128.size a
  hwx2_21 : ∀ i : grid2.Coords, EltTy.bits .f32 = 32 ∨ (Rect.block (s := S1x128) S1x128.size (cc2_transform_21 i) (hinb2_21 i)).WholeWords (EltTy.packing .f32)
  hstage2_22 : ∀ j, (stage2_22 j).IsWhole
  nbuf2_22 : grid2.bufCount reads2_22 true = 1
  hreads2_22 : ∀ i i' : grid2.Coords, (∀ a, reads2_22 a = true → i a = i' a) → cc2_transform_22 i = cc2_transform_22 i'
  hinb2_22 : ∀ (i : grid2.Coords) a, (cc2_transform_22 i a + 1) * S1x128.size a ≤ S1x128.size a
  hwx2_22 : ∀ i : grid2.Coords, EltTy.bits .f32 = 32 ∨ (Rect.block (s := S1x128) S1x128.size (cc2_transform_22 i) (hinb2_22 i)).WholeWords (EltTy.packing .f32)
  hstage2_23 : ∀ j, (stage2_23 j).IsWhole
  nbuf2_23 : grid2.bufCount reads2_23 false = 2
  hreads2_23 : ∀ i i' : grid2.Coords, (∀ a, reads2_23 a = true → i a = i' a) → cc2_transform_23 i = cc2_transform_23 i'
  hinb2_23 : ∀ (i : grid2.Coords) a, (cc2_transform_23 i a + 1) * S1x128x128.size a ≤ S2x1024x128.size a
  hwx2_23 : ∀ i : grid2.Coords, EltTy.bits .f32 = 32 ∨ (Rect.block (s := S2x1024x128) S1x128x128.size (cc2_transform_23 i) (hinb2_23 i)).WholeWords (EltTy.packing .f32)
  hcore3 : grid3.bound 0 ≤ τ.nSC
  hsub3 : grid3.bound 1 ≤ τ.nSub
  k3_off1_inb : ∀ i : grid3.Coords, ∀ a, (k3_off1 i) a + S1x18x128.size a ≤ S32x18x128.size a
  k3_t1_ok : k3_t1_loop.OK
  k3_t2_ok : k3_t2_loop.OK
  k3_off2_inb : ∀ (k3_t1 : Fin k3_t1_loop.trips) (k3_t2 : Fin k3_t2_loop.trips), ∀ a, (k3_off2 k3_t1 k3_t2) a + S1x16.size a ≤ S18x128.size a
  k3_t3_ok : k3_t3_loop.OK
  k3_off3_inb : ∀ k3_t3 : Fin k3_t3_loop.trips, ∀ (k3_h1 : k3_cond1 k3_t3 = 1#1), ∀ a, (k3_off3 k3_t3) a + S1x128.size a ≤ S18x128.size a
  k3_off4_inb : ∀ k3_t3 : Fin k3_t3_loop.trips, ∀ (k3_h2 : k3_cond2 k3_t3 = 1#1), ∀ a, (k3_off4 k3_t3) a + S1x128.size a ≤ S18x128.size a
  k3_off5_inb : ∀ k3_t3 : Fin k3_t3_loop.trips, ∀ (k3_h3 : k3_cond3 k3_t3 = 1#1), ∀ a, (k3_off5 k3_t3) a + S1x128.size a ≤ S18x128.size a
  k3_off6_inb : ∀ (i : grid3.Coords) (k3_t3 : Fin k3_t3_loop.trips), ∀ (k3_h3 : k3_cond3 k3_t3 = 1#1), ∀ a, (k3_off6 i k3_t3) a + S128x128.size a ≤ S73728x128.size a
  k3_off7_inb : ∀ k3_t3 : Fin k3_t3_loop.trips, ∀ (k3_h4 : k3_cond4 k3_t3 = 1#1), ∀ a, (k3_off7 k3_t3) a + S1x128.size a ≤ S18x128.size a
  k3_off8_inb : ∀ (i : grid3.Coords) (k3_t3 : Fin k3_t3_loop.trips), ∀ (k3_h4 : k3_cond4 k3_t3 = 1#1), ∀ a, (k3_off8 i k3_t3) a + S128x128.size a ≤ S73728x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x128x128.size a ≤ S4x1024x128.size a
  hwx4_0 : ∀ i : grid4.Coords, EltTy.bits .f32 = 32 ∨ (Rect.block (s := S4x1024x128) S1x128x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x36x128x128.size a ≤ S4x36x1024x128.size a
  hwx4_1 : ∀ i : grid4.Coords, EltTy.bits .f32 = 32 ∨ (Rect.block (s := S4x36x1024x128) S1x36x128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S36x128x128.size a ≤ S72x1024x128.size a
  hwx4_2 : ∀ i : grid4.Coords, EltTy.bits .f32 = 32 ∨ (Rect.block (s := S72x1024x128) S36x128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x128x36.size a ≤ S4x1024x36.size a
  hwx4_3 : ∀ i : grid4.Coords, EltTy.bits .f32 = 32 ∨ (Rect.block (s := S4x1024x36) S1x128x36.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x1x4608.size a ≤ S4x8x1x4608.size a
  hwx4_4 : ∀ i : grid4.Coords, EltTy.bits .bf16 = 32 ∨ (Rect.block (s := S4x8x1x4608) S1x1x1x4608.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1x1x128.size a ≤ S4x8x1x128.size a
  hwx4_5 : ∀ i : grid4.Coords, EltTy.bits .f32 = 32 ∨ (Rect.block (s := S4x8x1x128) S1x1x1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x4608.size a ≤ S128x4608.size a
  hwx4_6 : ∀ i : grid4.Coords, EltTy.bits .bf16 = 32 ∨ (Rect.block (s := S128x4608) S128x4608.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S4608x128.size a ≤ S4608x128.size a
  hwx4_7 : ∀ i : grid4.Coords, EltTy.bits .bf16 = 32 ∨ (Rect.block (s := S4608x128) S4608x128.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S128x128.size a ≤ S128x128.size a
  hwx4_10 : ∀ i : grid4.Coords, EltTy.bits .bf16 = 32 ∨ (Rect.block (s := S128x128) S128x128.size (cc4_transform_10 i) (hinb4_10 i)).WholeWords (EltTy.packing .bf16)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S128x128.size a ≤ S128x128.size a
  hwx4_11 : ∀ i : grid4.Coords, EltTy.bits .bf16 = 32 ∨ (Rect.block (s := S128x128) S128x128.size (cc4_transform_11 i) (hinb4_11 i)).WholeWords (EltTy.packing .bf16)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S128x128.size a ≤ S128x128.size a
  hwx4_13 : ∀ i : grid4.Coords, EltTy.bits .f32 = 32 ∨ (Rect.block (s := S128x128) S128x128.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x128.size a ≤ S1x128.size a
  hwx4_14 : ∀ i : grid4.Coords, EltTy.bits .f32 = 32 ∨ (Rect.block (s := S1x128) S1x128.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S128x512.size a ≤ S128x512.size a
  hwx4_15 : ∀ i : grid4.Coords, EltTy.bits .bf16 = 32 ∨ (Rect.block (s := S128x512) S128x512.size (cc4_transform_15 i) (hinb4_15 i)).WholeWords (EltTy.packing .bf16)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S1x512.size a ≤ S1x512.size a
  hwx4_16 : ∀ i : grid4.Coords, EltTy.bits .f32 = 32 ∨ (Rect.block (s := S1x512) S1x512.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S512x128.size a ≤ S512x128.size a
  hwx4_17 : ∀ i : grid4.Coords, EltTy.bits .bf16 = 32 ∨ (Rect.block (s := S512x128) S512x128.size (cc4_transform_17 i) (hinb4_17 i)).WholeWords (EltTy.packing .bf16)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S1x128.size a ≤ S1x128.size a
  hwx4_18 : ∀ i : grid4.Coords, EltTy.bits .f32 = 32 ∨ (Rect.block (s := S1x128) S1x128.size (cc4_transform_18 i) (hinb4_18 i)).WholeWords (EltTy.packing .f32)
  hstage4_19 : ∀ j, (stage4_19 j).IsWhole
  nbuf4_19 : grid4.bufCount reads4_19 true = 1
  hreads4_19 : ∀ i i' : grid4.Coords, (∀ a, reads4_19 a = true → i a = i' a) → cc4_transform_19 i = cc4_transform_19 i'
  hinb4_19 : ∀ (i : grid4.Coords) a, (cc4_transform_19 i a + 1) * S1x128.size a ≤ S1x128.size a
  hwx4_19 : ∀ i : grid4.Coords, EltTy.bits .f32 = 32 ∨ (Rect.block (s := S1x128) S1x128.size (cc4_transform_19 i) (hinb4_19 i)).WholeWords (EltTy.packing .f32)
  hstage4_20 : ∀ j, (stage4_20 j).IsWhole
  nbuf4_20 : grid4.bufCount reads4_20 true = 1
  hreads4_20 : ∀ i i' : grid4.Coords, (∀ a, reads4_20 a = true → i a = i' a) → cc4_transform_20 i = cc4_transform_20 i'
  hinb4_20 : ∀ (i : grid4.Coords) a, (cc4_transform_20 i a + 1) * S1x128.size a ≤ S1x128.size a
  hwx4_20 : ∀ i : grid4.Coords, EltTy.bits .f32 = 32 ∨ (Rect.block (s := S1x128) S1x128.size (cc4_transform_20 i) (hinb4_20 i)).WholeWords (EltTy.packing .f32)
  hstage4_21 : ∀ j, (stage4_21 j).IsWhole
  nbuf4_21 : grid4.bufCount reads4_21 true = 1
  hreads4_21 : ∀ i i' : grid4.Coords, (∀ a, reads4_21 a = true → i a = i' a) → cc4_transform_21 i = cc4_transform_21 i'
  hinb4_21 : ∀ (i : grid4.Coords) a, (cc4_transform_21 i a + 1) * S1x128.size a ≤ S1x128.size a
  hwx4_21 : ∀ i : grid4.Coords, EltTy.bits .f32 = 32 ∨ (Rect.block (s := S1x128) S1x128.size (cc4_transform_21 i) (hinb4_21 i)).WholeWords (EltTy.packing .f32)
  hstage4_22 : ∀ j, (stage4_22 j).IsWhole
  nbuf4_22 : grid4.bufCount reads4_22 true = 1
  hreads4_22 : ∀ i i' : grid4.Coords, (∀ a, reads4_22 a = true → i a = i' a) → cc4_transform_22 i = cc4_transform_22 i'
  hinb4_22 : ∀ (i : grid4.Coords) a, (cc4_transform_22 i a + 1) * S1x128.size a ≤ S1x128.size a
  hwx4_22 : ∀ i : grid4.Coords, EltTy.bits .f32 = 32 ∨ (Rect.block (s := S1x128) S1x128.size (cc4_transform_22 i) (hinb4_22 i)).WholeWords (EltTy.packing .f32)
  hstage4_23 : ∀ j, (stage4_23 j).IsWhole
  nbuf4_23 : grid4.bufCount reads4_23 false = 2
  hreads4_23 : ∀ i i' : grid4.Coords, (∀ a, reads4_23 a = true → i a = i' a) → cc4_transform_23 i = cc4_transform_23 i'
  hinb4_23 : ∀ (i : grid4.Coords) a, (cc4_transform_23 i a + 1) * S1x128x128.size a ≤ S2x1024x128.size a
  hwx4_23 : ∀ i : grid4.Coords, EltTy.bits .f32 = 32 ∨ (Rect.block (s := S2x1024x128) S1x128x128.size (cc4_transform_23 i) (hinb4_23 i)).WholeWords (EltTy.packing .f32)

variable [Facts₀]

abbrev cc1_scratch3 : DmaSems sig S_ := SemArray.consecutive 3 S_ hcc1_scratch3
abbrev cc1_scratch4 : DmaSems sig S_ := SemArray.consecutive 4 S_ hcc1_scratch4
abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc3_scratch3 : DmaSems sig S_ := SemArray.consecutive 39 S_ hcc3_scratch3
abbrev cc3_scratch4 : DmaSems sig S_ := SemArray.consecutive 40 S_ hcc3_scratch4
abbrev cc3_scoped0 : DmaSems sig S_ := SemArray.consecutive 41 S_ hcc3_scoped0
abbrev cc3_scoped1 : DmaSems sig S_ := SemArray.consecutive 42 S_ hcc3_scoped1
abbrev cc3_scoped2 : DmaSems sig S_ := SemArray.consecutive 43 S_ hcc3_scoped2
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S4608x128_S128x128_S4608x128_1_0_0_1_n_n : DotDims S4608x128 S128x128 S4608x128 where
  lhsContracting := [1]
  rhsContracting := [0]
  lhsNonContracting := [0]
  rhsNonContracting := [1]
  lhsBatch := []
  rhsBatch := []
  wf := dot_S4608x128_S128x128_S4608x128_1_0_0_1_n_n_wf
def dot_S128x4608_S4608x128_S128x128_1_0_0_1_n_n : DotDims S128x4608 S4608x128 S128x128 where
  lhsContracting := [1]
  rhsContracting := [0]
  lhsNonContracting := [0]
  rhsNonContracting := [1]
  lhsBatch := []
  rhsBatch := []
  wf := dot_S128x4608_S4608x128_S128x128_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.whole (Memref.whole main_v21) false false (stage0_0 0) (sem0_0 0) (Memref.isWhole_whole _) (hstage0_0 0)

abbrev win0_1 : Pipeline.Window sig grid0 :=
  Pipeline.Window.whole (Memref.whole main_v2) false false (stage0_1 0) (sem0_1 0) (Memref.isWhole_whole _) (hstage0_1 0)

abbrev win0_2 : Pipeline.Window sig grid0 :=
  Pipeline.Window.whole (Memref.whole main_v22) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_arg0) S1x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x36x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S36x128x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S1x128x36.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1x1x4608.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x1x1x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v19) S128x4608.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20) S4608x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v0) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v28) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v29) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v30) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v31) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg9) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v32) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v33) S128x512.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v34) S1x512.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v35) S512x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v36) S1x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v37) S1x128.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_v38) S1x128.size cc2_transform_20 reads2_20 false true 1 stage2_20 sem2_20
    hrank2 hreads2_20 hinb2_20 nbuf2_20 (Memref.isWhole_whole _) hwx2_20 hstage2_20

abbrev win2_21 : Pipeline.Window sig grid2 :=
  Pipeline.Window.ofSpec (Memref.whole main_v39) S1x128.size cc2_transform_21 reads2_21 false true 1 stage2_21 sem2_21
    hrank2 hreads2_21 hinb2_21 nbuf2_21 (Memref.isWhole_whole _) hwx2_21 hstage2_21

abbrev win2_22 : Pipeline.Window sig grid2 :=
  Pipeline.Window.ofSpec (Memref.whole main_v40) S1x128.size cc2_transform_22 reads2_22 false true 1 stage2_22 sem2_22
    hrank2 hreads2_22 hinb2_22 nbuf2_22 (Memref.isWhole_whole _) hwx2_22 hstage2_22

abbrev win2_23 : Pipeline.Window sig grid2 :=
  Pipeline.Window.ofSpec (Memref.whole main_v41) S1x128x128.size cc2_transform_23 reads2_23 true false 2 stage2_23 sem2_23
    hrank2 hreads2_23 hinb2_23 nbuf2_23 (Memref.isWhole_whole _) hwx2_23 hstage2_23

abbrev win2 : Fin 24 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | 22 => win2_22 | 23 => win2_23 | ⟨_ + 24, h⟩ => absurd h (Nat.not_lt.2 (Nat.le_add_left _ _))
abbrev spec2 : Fin 24 → Pipeline.WinSpec sig grid2.rank := fun w => (win2 w).toWinSpec

abbrev win4_0 : Pipeline.Window sig grid4 :=
  Pipeline.Window.ofSpec (Memref.whole main_arg0) S1x128x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1x36x128x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S36x128x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg4) S1x128x36.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v10) S1x1x1x4608.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v46) S1x1x1x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v19) S128x4608.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v20) S4608x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v0) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v47) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v48) S128x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v49) S128x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v50) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg9) S128x128.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v51) S1x128.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v52) S128x512.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v53) S1x512.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_v54) S512x128.size cc4_transform_17 reads4_17 false true 1 stage4_17 sem4_17
    hrank4 hreads4_17 hinb4_17 nbuf4_17 (Memref.isWhole_whole _) hwx4_17 hstage4_17

abbrev win4_18 : Pipeline.Window sig grid4 :=
  Pipeline.Window.ofSpec (Memref.whole main_v55) S1x128.size cc4_transform_18 reads4_18 false true 1 stage4_18 sem4_18
    hrank4 hreads4_18 hinb4_18 nbuf4_18 (Memref.isWhole_whole _) hwx4_18 hstage4_18

abbrev win4_19 : Pipeline.Window sig grid4 :=
  Pipeline.Window.ofSpec (Memref.whole main_v56) S1x128.size cc4_transform_19 reads4_19 false true 1 stage4_19 sem4_19
    hrank4 hreads4_19 hinb4_19 nbuf4_19 (Memref.isWhole_whole _) hwx4_19 hstage4_19

abbrev win4_20 : Pipeline.Window sig grid4 :=
  Pipeline.Window.ofSpec (Memref.whole main_v57) S1x128.size cc4_transform_20 reads4_20 false true 1 stage4_20 sem4_20
    hrank4 hreads4_20 hinb4_20 nbuf4_20 (Memref.isWhole_whole _) hwx4_20 hstage4_20

abbrev win4_21 : Pipeline.Window sig grid4 :=
  Pipeline.Window.ofSpec (Memref.whole main_v58) S1x128.size cc4_transform_21 reads4_21 false true 1 stage4_21 sem4_21
    hrank4 hreads4_21 hinb4_21 nbuf4_21 (Memref.isWhole_whole _) hwx4_21 hstage4_21

abbrev win4_22 : Pipeline.Window sig grid4 :=
  Pipeline.Window.ofSpec (Memref.whole main_v59) S1x128.size cc4_transform_22 reads4_22 false true 1 stage4_22 sem4_22
    hrank4 hreads4_22 hinb4_22 nbuf4_22 (Memref.isWhole_whole _) hwx4_22 hstage4_22

abbrev win4_23 : Pipeline.Window sig grid4 :=
  Pipeline.Window.ofSpec (Memref.whole main_v60) S1x128x128.size cc4_transform_23 reads4_23 true false 2 stage4_23 sem4_23
    hrank4 hreads4_23 hinb4_23 nbuf4_23 (Memref.isWhole_whole _) hwx4_23 hstage4_23

abbrev win4 : Fin 24 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | 19 => win4_19 | 20 => win4_20 | 21 => win4_21 | 22 => win4_22 | 23 => win4_23 | ⟨_ + 24, h⟩ => absurd h (Nat.not_lt.2 (Nat.le_add_left _ _))
abbrev spec4 : Fin 24 → Pipeline.WinSpec sig grid4.rank := fun w => (win4 w).toWinSpec

class Facts : Prop extends Facts₀ where

variable [Facts]
-- ==== ReferenceIdeal.lean ====
abbrev S4x1024x128 : Shape := ⟨3, ![4, 1024, 128]⟩
abbrev S4x1024x36x128 : Shape := ⟨4, ![4, 1024, 36, 128]⟩
abbrev S4x1024x36 : Shape := ⟨3, ![4, 1024, 36]⟩
abbrev S4x1024 : Shape := ⟨2, ![4, 1024]⟩
abbrev S384x128 : Shape := ⟨2, ![384, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S4x36864 : Shape := ⟨2, ![4, 36864]⟩
abbrev S4x36864x1 : Shape := ⟨3, ![4, 36864, 1]⟩
abbrev S_ : Shape := ⟨0, ![]⟩
abbrev S1 : Shape := ⟨1, ![1]⟩
abbrev S1x1x1 : Shape := ⟨3, ![1, 1, 1]⟩
abbrev S4x36864x128 : Shape := ⟨3, ![4, 36864, 128]⟩
abbrev S4x1024x36x256 : Shape := ⟨4, ![4, 1024, 36, 256]⟩
abbrev S4x1024x1x128 : Shape := ⟨4, ![4, 1024, 1, 128]⟩
abbrev S4x1024x36x384 : Shape := ⟨4, ![4, 1024, 36, 384]⟩
abbrev S1x1x1x128 : Shape := ⟨4, ![1, 1, 1, 128]⟩
abbrev S4x1024x36x1 : Shape := ⟨4, ![4, 1024, 36, 1]⟩
abbrev S4x1024x1 : Shape := ⟨3, ![4, 1024, 1]⟩
abbrev S1x1x128 : Shape := ⟨3, ![1, 1, 128]⟩
abbrev S4x1024x512 : Shape := ⟨3, ![4, 1024, 512]⟩
abbrev S1x1x512 : Shape := ⟨3, ![1, 1, 512]⟩

abbrev nBuf : Space → Nat
  | .hbm => 196
  | .vmem => 0
  | .smem => 0
  | _ => 0

abbrev hbmTy0_0 (i : Nat) : BufTy := match i % 128 with
  | 0 => ⟨S4x1024x128, .f32⟩
  | 1 => ⟨S4x1024x36x128, .f32⟩
  | 2 => ⟨S4x1024x36, .i32⟩
  | 3 => ⟨S4x1024, .f32⟩
  | 4 => ⟨S4x1024x36, .f32⟩
  | 5 => ⟨S384x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x512, .f32⟩
  | 12 => ⟨S512, .f32⟩
  | 13 => ⟨S512x128, .f32⟩
  | 14 => ⟨S128, .f32⟩
  | 15 => ⟨S128, .f32⟩
  | 16 => ⟨S128, .f32⟩
  | 17 => ⟨S128, .f32⟩
  | 18 => ⟨S128, .f32⟩
  | 19 => ⟨S4x36864, .i32⟩
  | 20 => ⟨S4x36864x1, .i32⟩
  | 21 => ⟨S_, .i32⟩
  | 22 => ⟨S4x36864x1, .i32⟩
  | 23 => ⟨S4x36864x1, .i1⟩
  | 24 => ⟨S_, .i32⟩
  | 25 => ⟨S4x36864x1, .i32⟩
  | 26 => ⟨S4x36864x1, .i32⟩
  | 27 => ⟨S4x36864x1, .i32⟩
  | 28 => ⟨S1, .i32⟩
  | 29 => ⟨S_, .i32⟩
  | 30 => ⟨S4x36864x1, .i32⟩
  | 31 => ⟨S4x36864x1, .i1⟩
  | 32 => ⟨S1x1x1, .i32⟩
  | 33 => ⟨S4x36864x1, .i32⟩
  | 34 => ⟨S4x36864x1, .i1⟩
  | 35 => ⟨S4x36864x1, .i1⟩
  | 36 => ⟨S_, .i1⟩
  | 37 => ⟨S4x36864, .i1⟩
  | 38 => ⟨S4x36864x128, .f32⟩
  | 39 => ⟨S4x36864x128, .i1⟩
  | 40 => ⟨S_, .f32⟩
  | 41 => ⟨S4x36864x128, .f32⟩
  | 42 => ⟨S4x36864x128, .f32⟩
  | 43 => ⟨S4x1024x36x128, .f32⟩
  | 44 => ⟨S4x1024x36x256, .f32⟩
  | 45 => ⟨S4x1024x1x128, .f32⟩
  | 46 => ⟨S4x1024x36x128, .f32⟩
  | 47 => ⟨S4x1024x36x384, .f32⟩
  | 48 => ⟨S4x1024x36x128, .f32⟩
  | 49 => ⟨S1x1x1x128, .f32⟩
  | 50 => ⟨S4x1024x36x128, .f32⟩
  | 51 => ⟨S4x1024x36x128, .f32⟩
  | 52 => ⟨S_, .f32⟩
  | 53 => ⟨S4x1024x36x128, .f32⟩
  | 54 => ⟨S4x1024x36x128, .f32⟩
  | 55 => ⟨S4x1024x36x128, .f32⟩
  | 56 => ⟨S_, .f32⟩
  | 57 => ⟨S4x1024x36x128, .f32⟩
  | 58 => ⟨S4x1024x36x128, .f32⟩
  | 59 => ⟨S4x1024x36x128, .f32⟩
  | 60 => ⟨S4x1024x36x128, .f32⟩
  | 61 => ⟨S4x1024x36x128, .f32⟩
  | 62 => ⟨S1x1x1x128, .f32⟩
  | 63 => ⟨S4x1024x36x128, .f32⟩
  | 64 => ⟨S4x1024x36x128, .f32⟩
  | 65 => ⟨S_, .f32⟩
  | 66 => ⟨S4x1024x36x128, .f32⟩
  | 67 => ⟨S4x1024x36x128, .f32⟩
  | 68 => ⟨S4x1024x36x128, .f32⟩
  | 69 => ⟨S_, .f32⟩
  | 70 => ⟨S4x1024x36x128, .f32⟩
  | 71 => ⟨S4x1024x36x128, .f32⟩
  | 72 => ⟨S4x1024x36x128, .f32⟩
  | 73 => ⟨S4x1024x36x128, .f32⟩
  | 74 => ⟨S4x1024x36x128, .f32⟩
  | 75 => ⟨S1x1x1x128, .f32⟩
  | 76 => ⟨S4x1024x36x128, .f32⟩
  | 77 => ⟨S4x1024x36x128, .f32⟩
  | 78 => ⟨S4x1024x36x1, .f32⟩
  | 79 => ⟨S4x1024x36x128, .f32⟩
  | 80 => ⟨S4x1024x36x128, .f32⟩
  | 81 => ⟨S_, .f32⟩
  | 82 => ⟨S4x1024x128, .f32⟩
  | 83 => ⟨S_, .f32⟩
  | 84 => ⟨S4x1024x128, .f32⟩
  | 85 => ⟨S4x1024x128, .f32⟩
  | 86 => ⟨S4x1024x128, .f32⟩
  | 87 => ⟨S_, .f32⟩
  | 88 => ⟨S4x1024, .f32⟩
  | 89 => ⟨S4x1024x1, .f32⟩
  | 90 => ⟨S_, .f32⟩
  | 91 => ⟨S4x1024x1, .f32⟩
  | 92 => ⟨S4x1024x1, .f32⟩
  | 93 => ⟨S_, .i32⟩
  | 94 => ⟨S_, .f32⟩
  | 95 => ⟨S4x1024, .f32⟩
  | 96 => ⟨S4x1024x1, .f32⟩
  | 97 => ⟨S_, .f32⟩
  | 98 => ⟨S4x1024x1, .f32⟩
  | 99 => ⟨S4x1024x1, .f32⟩
  | 100 => ⟨S4x1024x128, .f32⟩
  | 101 => ⟨S4x1024x128, .f32⟩
  | 102 => ⟨S4x1024x128, .f32⟩
  | 103 => ⟨S_, .f32⟩
  | 104 => ⟨S_, .f32⟩
  | 105 => ⟨S_, .f32⟩
  | 106 => ⟨S_, .f32⟩
  | 107 => ⟨S4x1024, .f32⟩
  | 108 => ⟨S4x1024x1, .f32⟩
  | 109 => ⟨S4x1024x1, .f32⟩
  | 110 => ⟨S4x1024x1, .f32⟩
  | 111 => ⟨S_, .f32⟩
  | 112 => ⟨S_, .i1⟩
  | 113 => ⟨S_, .f32⟩
  | 114 => ⟨S_, .f32⟩
  | 115 => ⟨S4x1024x1, .f32⟩
  | 116 => ⟨S4x1024x1, .f32⟩
  | 117 => ⟨S4x1024x128, .f32⟩
  | 118 => ⟨S4x1024x128, .f32⟩
  | 119 => ⟨S_, .f32⟩
  | 120 => ⟨S4x1024x1, .f32⟩
  | 121 => ⟨S4x1024x1, .f32⟩
  | 122 => ⟨S4x1024x1, .f32⟩
  | 123 => ⟨S4x1024x128, .f32⟩
  | 124 => ⟨S4x1024x128, .f32⟩
  | 125 => ⟨S1x1x128, .f32⟩
  | 126 => ⟨S4x1024x128, .f32⟩
  | 127 => ⟨S4x1024x128, .f32⟩
  | _ => ⟨S4x1024x128, .f32⟩

abbrev hbmTy0_1 (i : Nat) : BufTy := match i % 128 with
  | 0 => ⟨S1x1x128, .f32⟩
  | 1 => ⟨S4x1024x128, .f32⟩
  | 2 => ⟨S4x1024x128, .f32⟩
  | 3 => ⟨S4x1024x512, .f32⟩
  | 4 => ⟨S1x1x512, .f32⟩
  | 5 => ⟨S4x1024x512, .f32⟩
  | 6 => ⟨S4x1024x512, .f32⟩
  | 7 => ⟨S_, .f32⟩
  | 8 => ⟨S4x1024x512, .f32⟩
  | 9 => ⟨S4x1024x512, .f32⟩
  | 10 => ⟨S4x1024x512, .f32⟩
  | 11 => ⟨S_, .f32⟩
  | 12 => ⟨S4x1024x512, .f32⟩
  | 13 => ⟨S4x1024x512, .f32⟩
  | 14 => ⟨S4x1024x512, .f32⟩
  | 15 => ⟨S4x1024x512, .f32⟩
  | 16 => ⟨S4x1024x128, .f32⟩
  | 17 => ⟨S1x1x128, .f32⟩
  | 18 => ⟨S4x1024x128, .f32⟩
  | 19 => ⟨S4x1024x128, .f32⟩
  | 20 => ⟨S4x1024x128, .f32⟩
  | 21 => ⟨S_, .f32⟩
  | 22 => ⟨S4x1024, .f32⟩
  | 23 => ⟨S4x1024x1, .f32⟩
  | 24 => ⟨S_, .f32⟩
  | 25 => ⟨S4x1024x1, .f32⟩
  | 26 => ⟨S4x1024x1, .f32⟩
  | 27 => ⟨S_, .i32⟩
  | 28 => ⟨S_, .f32⟩
  | 29 => ⟨S4x1024, .f32⟩
  | 30 => ⟨S4x1024x1, .f32⟩
  | 31 => ⟨S_, .f32⟩
  | 32 => ⟨S4x1024x1, .f32⟩
  | 33 => ⟨S4x1024x1, .f32⟩
  | 34 => ⟨S4x1024x128, .f32⟩
  | 35 => ⟨S4x1024x128, .f32⟩
  | 36 => ⟨S4x1024x128, .f32⟩
  | 37 => ⟨S_, .f32⟩
  | 38 => ⟨S_, .f32⟩
  | 39 => ⟨S_, .f32⟩
  | 40 => ⟨S_, .f32⟩
  | 41 => ⟨S4x1024, .f32⟩
  | 42 => ⟨S4x1024x1, .f32⟩
  | 43 => ⟨S4x1024x1, .f32⟩
  | 44 => ⟨S4x1024x1, .f32⟩
  | 45 => ⟨S_, .f32⟩
  | 46 => ⟨S_, .i1⟩
  | 47 => ⟨S_, .f32⟩
  | 48 => ⟨S_, .f32⟩
  | 49 => ⟨S4x1024x1, .f32⟩
  | 50 => ⟨S4x1024x1, .f32⟩
  | 51 => ⟨S4x1024x128, .f32⟩
  | 52 => ⟨S4x1024x128, .f32⟩
  | 53 => ⟨S_, .f32⟩
  | 54 => ⟨S4x1024x1, .f32⟩
  | 55 => ⟨S4x1024x1, .f32⟩
  | 56 => ⟨S4x1024x1, .f32⟩
  | 57 => ⟨S4x1024x128, .f32⟩
  | 58 => ⟨S4x1024x128, .f32⟩
  | 59 => ⟨S1x1x128, .f32⟩
  | 60 => ⟨S4x1024x128, .f32⟩
  | 61 => ⟨S4x1024x128, .f32⟩
  | 62 => ⟨S1x1x128, .f32⟩
  | 63 => ⟨S4x1024x128, .f32⟩
  | 64 => ⟨S4x1024x128, .f32⟩
  | 65 => ⟨S4x1024x1, .f32⟩
  | 66 => ⟨S4x1024x128, .f32⟩
  | 67 => ⟨S4x1024x128, .f32⟩
  | _ => ⟨S4x1024x128, .f32⟩

abbrev hbmTy (i : Nat) : BufTy := match i / 128 with
  | 0 => hbmTy0_0 i
  | 1 => hbmTy0_1 i
  | _ => ⟨S4x1024x128, .f32⟩

abbrev bufTy : (tb : Table) → Fin (tcTables nBuf tb) → BufTy
  | .hbm, ⟨i, _⟩ => hbmTy i
  | _, _ => ⟨S4x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_c_2 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_c_3 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_0 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_1 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_3 : Ref sig .tc := ⟨.hbm, 81, rfl⟩
abbrev main_v37 : Ref sig .tc := ⟨.hbm, 82, rfl⟩
abbrev main_cst_4 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_5 : Ref sig .tc := ⟨.hbm, 87, rfl⟩
abbrev main_v41 : Ref sig .tc := ⟨.hbm, 88, rfl⟩
abbrev main_v42 : Ref sig .tc := ⟨.hbm, 89, rfl⟩
abbrev main_cst_6 : Ref sig .tc := ⟨.hbm, 90, rfl⟩
abbrev main_v43 : Ref sig .tc := ⟨.hbm, 91, rfl⟩
abbrev main_v44 : Ref sig .tc := ⟨.hbm, 92, rfl⟩
abbrev main_c : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_v12 : Ref sig .tc := ⟨.hbm, 110, rfl⟩
abbrev main_call1_cst_3 : Ref sig .tc := ⟨.hbm, 111, rfl⟩
abbrev main_call1_v13 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_cst_7 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_8 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_cst_9 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_cst_10 : Ref sig .tc := ⟨.hbm, 149, rfl⟩
abbrev main_v75 : Ref sig .tc := ⟨.hbm, 150, rfl⟩
abbrev main_v76 : Ref sig .tc := ⟨.hbm, 151, rfl⟩
abbrev main_cst_11 : Ref sig .tc := ⟨.hbm, 152, rfl⟩
abbrev main_v77 : Ref sig .tc := ⟨.hbm, 153, rfl⟩
abbrev main_v78 : Ref sig .tc := ⟨.hbm, 154, rfl⟩
abbrev main_c_12 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_v12 : Ref sig .tc := ⟨.hbm, 172, rfl⟩
abbrev main_call2_cst_3 : Ref sig .tc := ⟨.hbm, 173, rfl⟩
abbrev main_call2_v13 : Ref sig .tc := ⟨.hbm, 174, rfl⟩
abbrev main_call2_cst_4 : Ref sig .tc := ⟨.hbm, 175, rfl⟩
abbrev main_call2_call0_v0 : Ref sig .tc := ⟨.hbm, 176, rfl⟩
abbrev main_call2_call0_v1 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_cst_13 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩

abbrev nD : Nat := 1
abbrev τ : Topo := Topo.v7x

variable {F : FTy → Type} [FloatOps F]

class Facts₀ : Prop where
  shapeCasts_S4x1024x36_S4x36864 : S4x1024x36.ShapeCasts S4x36864
  bcast_S4x36864_S4x36864x1_0_1 : S4x36864.BroadcastsInDim S4x36864x1 (![0, 1] : Fin 2 → Fin S4x36864x1.rank)
  bcast_S_S4x36864x1 : S_.BroadcastsInDim S4x36864x1 (![] : Fin 0 → Fin S4x36864x1.rank)
  bcast_S1_S1x1x1_2 : S1.BroadcastsInDim S1x1x1 (![2] : Fin 1 → Fin S1x1x1.rank)
  bcast_S1x1x1_S4x36864x1_0_1_2 : S1x1x1.BroadcastsInDim S4x36864x1 (![0, 1, 2] : Fin 3 → Fin S4x36864x1.rank)
  reducesTo_S4x36864x1_S4x36864_d2 : S4x36864x1.ReducesTo [2] S4x36864
  h_S_ : 0 < S_.numel
  bcast_S4x36864_S4x36864x128_0_1 : S4x36864.BroadcastsInDim S4x36864x128 (![0, 1] : Fin 2 → Fin S4x36864x128.rank)
  bcast_S_S4x36864x128 : S_.BroadcastsInDim S4x36864x128 (![] : Fin 0 → Fin S4x36864x128.rank)
  shapeCasts_S4x36864x128_S4x1024x36x128 : S4x36864x128.ShapeCasts S4x1024x36x128
  concatenates_S4x1024x36x128_S4x1024x36x128_S4x1024x36x256_d3 : Shape.Concatenates [S4x1024x36x128, S4x1024x36x128] S4x1024x36x256 3
  bcast_S4x1024x128_S4x1024x1x128_0_1_3 : S4x1024x128.BroadcastsInDim S4x1024x1x128 (![0, 1, 3] : Fin 3 → Fin S4x1024x1x128.rank)
  bcast_S4x1024x1x128_S4x1024x36x128_0_1_2_3 : S4x1024x1x128.BroadcastsInDim S4x1024x36x128 (![0, 1, 2, 3] : Fin 4 → Fin S4x1024x36x128.rank)
  concatenates_S4x1024x36x128_S4x1024x36x256_S4x1024x36x384_d3 : Shape.Concatenates [S4x1024x36x128, S4x1024x36x256] S4x1024x36x384 3
  bcast_S128_S1x1x1x128_3 : S128.BroadcastsInDim S1x1x1x128 (![3] : Fin 1 → Fin S1x1x1x128.rank)
  bcast_S1x1x1x128_S4x1024x36x128_0_1_2_3 : S1x1x1x128.BroadcastsInDim S4x1024x36x128 (![0, 1, 2, 3] : Fin 4 → Fin S4x1024x36x128.rank)
  bcast_S_S4x1024x36x128 : S_.BroadcastsInDim S4x1024x36x128 (![] : Fin 0 → Fin S4x1024x36x128.rank)
  bcast_S4x1024x36_S4x1024x36x1_0_1_2 : S4x1024x36.BroadcastsInDim S4x1024x36x1 (![0, 1, 2] : Fin 3 → Fin S4x1024x36x1.rank)
  bcast_S4x1024x36x1_S4x1024x36x128_0_1_2_3 : S4x1024x36x1.BroadcastsInDim S4x1024x36x128 (![0, 1, 2, 3] : Fin 4 → Fin S4x1024x36x128.rank)
  reducesTo_S4x1024x36x128_S4x1024x128_d2 : S4x1024x36x128.ReducesTo [2] S4x1024x128
  bcast_S_S4x1024x128 : S_.BroadcastsInDim S4x1024x128 (![] : Fin 0 → Fin S4x1024x128.rank)
  reducesTo_S4x1024x128_S4x1024_d2 : S4x1024x128.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x128_0_1_2 : S4x1024x1.BroadcastsInDim S4x1024x128 (![0, 1, 2] : Fin 3 → Fin S4x1024x128.rank)
  bcast_S128_S1x1x128_2 : S128.BroadcastsInDim S1x1x128 (![2] : Fin 1 → Fin S1x1x128.rank)
  bcast_S1x1x128_S4x1024x128_0_1_2 : S1x1x128.BroadcastsInDim S4x1024x128 (![0, 1, 2] : Fin 3 → Fin S4x1024x128.rank)
  bcast_S512_S1x1x512_2 : S512.BroadcastsInDim S1x1x512 (![2] : Fin 1 → Fin S1x1x512.rank)
  bcast_S1x1x512_S4x1024x512_0_1_2 : S1x1x512.BroadcastsInDim S4x1024x512 (![0, 1, 2] : Fin 3 → Fin S4x1024x512.rank)
  bcast_S_S4x1024x512 : S_.BroadcastsInDim S4x1024x512 (![] : Fin 0 → Fin S4x1024x512.rank)
  gather_S4x1024x128_S4x36864x1_S4x36864x128_2_1_0_0_1_2_11128_wf : GatherDims.WF S4x1024x128 S4x36864x1 S4x36864x128 [2] [1] [0] [1] [0] 2 ![1, 1, 128]
  dot_S4x1024x36x384_S384x128_S4x1024x36x128_3_0_012_1_n_n_wf : DotDims.WF S4x1024x36x384 S384x128 S4x1024x36x128 [3] [0] [0, 1, 2] [1] [] []
  dot_S4x1024x36x128_S128x128_S4x1024x36x128_3_0_012_1_n_n_wf : DotDims.WF S4x1024x36x128 S128x128 S4x1024x36x128 [3] [0] [0, 1, 2] [1] [] []
  dot_S4x1024x128_S128x512_S4x1024x512_2_0_01_1_n_n_wf : DotDims.WF S4x1024x128 S128x512 S4x1024x512 [2] [0] [0, 1] [1] [] []
  dot_S4x1024x512_S512x128_S4x1024x128_2_0_01_1_n_n_wf : DotDims.WF S4x1024x512 S512x128 S4x1024x128 [2] [0] [0, 1] [1] [] []

variable [Facts₀]

def gather_S4x1024x128_S4x36864x1_S4x36864x128_2_1_0_0_1_2_11128 : GatherDims S4x1024x128 S4x36864x1 S4x36864x128 where
  offsetDims := [2]
  collapsedSliceDims := [1]
  operandBatchingDims := [0]
  startIndicesBatchingDims := [0]
  startIndexMap := [1]
  indexVectorDim := 2
  sliceSizes := ![1, 1, 128]
  wf := gather_S4x1024x128_S4x36864x1_S4x36864x128_2_1_0_0_1_2_11128_wf
def dot_S4x1024x36x384_S384x128_S4x1024x36x128_3_0_012_1_n_n : DotDims S4x1024x36x384 S384x128 S4x1024x36x128 where
  lhsContracting := [3]
  rhsContracting := [0]
  lhsNonContracting := [0, 1, 2]
  rhsNonContracting := [1]
  lhsBatch := []
  rhsBatch := []
  wf := dot_S4x1024x36x384_S384x128_S4x1024x36x128_3_0_012_1_n_n_wf
def dot_S4x1024x36x128_S128x128_S4x1024x36x128_3_0_012_1_n_n : DotDims S4x1024x36x128 S128x128 S4x1024x36x128 where
  lhsContracting := [3]
  rhsContracting := [0]
  lhsNonContracting := [0, 1, 2]
  rhsNonContracting := [1]
  lhsBatch := []
  rhsBatch := []
  wf := dot_S4x1024x36x128_S128x128_S4x1024x36x128_3_0_012_1_n_n_wf
def dot_S4x1024x128_S128x512_S4x1024x512_2_0_01_1_n_n : DotDims S4x1024x128 S128x512 S4x1024x512 where
  lhsContracting := [2]
  rhsContracting := [0]
  lhsNonContracting := [0, 1]
  rhsNonContracting := [1]
  lhsBatch := []
  rhsBatch := []
  wf := dot_S4x1024x128_S128x512_S4x1024x512_2_0_01_1_n_n_wf
def dot_S4x1024x512_S512x128_S4x1024x128_2_0_01_1_n_n : DotDims S4x1024x512 S512x128 S4x1024x128 where
  lhsContracting := [2]
  rhsContracting := [0]
  lhsNonContracting := [0, 1]
  rhsNonContracting := [1]
  lhsBatch := []
  rhsBatch := []
  wf := dot_S4x1024x512_S512x128_S4x1024x128_2_0_01_1_n_n_wf

class Facts : Prop extends Facts₀ where

variable [Facts]
-- ==== Proof.Preserves.lean ====
/-
  The ideal pass named one constant, at two sites (the two node-update calls): the f32 word 0x3CE38E39, the rounding of
  1/36, is read at the ideal instance as the rational 1/36 that the table κ gives the name "inv_36". Each site's
  statement is the rule's own: the table holds that value under that name.
-/
import proofs.«215572_g25211458027672_cont_9to1_2008_46_alg».proof.Defs

noncomputable section

namespace Cert.Proof.PreservesClaim

open Idealize.ShloMosaic

theorem preserves : Cert.preserves_Kernel_KernelIdeal :=
  ⟨IdealRules.named_const.statement Cert.KernelIdeal.κ "inv_36" .f32 0x3CE38E39#32 ((1 / 36 : ℝ) : EReal) rfl,
   IdealRules.named_const.statement Cert.KernelIdeal.κ "inv_36" .f32 0x3CE38E39#32 ((1 / 36 : ℝ) : EReal) rfl⟩

end Cert.Proof.PreservesClaim

end
-- ==== Proof.RefRun.lean ====
/- The reference program's @main as one list of its 177 host operations (the operations of the functions it
   calls stand at their call sites, over the call's buffer record), its run, and the result buffer as one composed
   pure term of the nineteen argument buffers. -/
import proofs.«215572_g25211458027672_cont_9to1_2008_46_alg».proof.ReferenceIdeal
import proofs.«215572_g25211458027672_cont_9to1_2008_46_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The result as a pure term of the argument buffers

Each stage is the program's own operations composed, in the program's operand order, with the program's
constants kept as words. -/

/-- The neighbour index as the gather reads it: the index array flattened over (node, neighbour), given a trailing
    axis of size one, and a negative index moved up by the row count 1024. -/
def takeIdx (eIdx : IVec S4x1024x36 32) : IVec S4x36864x1 32 :=
  select
    (cmpi .slt (broadcastInDim S4x36864x1 ![0, 1] bcast_S4x36864_S4x36864x1_0_1 (shapeCast S4x36864 eIdx shapeCasts_S4x1024x36_S4x36864))
      (broadcastInDim S4x36864x1 ![] bcast_S_S4x36864x1 (constantI S_ 32 0#32)))
    (addi (broadcastInDim S4x36864x1 ![0, 1] bcast_S4x36864_S4x36864x1_0_1 (shapeCast S4x36864 eIdx shapeCasts_S4x1024x36_S4x36864))
      (broadcastInDim S4x36864x1 ![] bcast_S_S4x36864x1 (constantI S_ 32 1024#32)))
    (broadcastInDim S4x36864x1 ![0, 1] bcast_S4x36864_S4x36864x1_0_1 (shapeCast S4x36864 eIdx shapeCasts_S4x1024x36_S4x36864))

/-- Whether the index read is a row of the table: 0 ≤ index ≤ 1023, the conjunction folded over the trailing axis. -/
def inRange (eIdx : IVec S4x1024x36 32) : IVec S4x36864 1 :=
  Host.reduce IntOp.andi
    (andi (cmpi .sge (takeIdx eIdx) (broadcastInDim S4x36864x1 ![] bcast_S_S4x36864x1 (constantI S_ 32 0#32)))
      (cmpi .sle (takeIdx eIdx)
        (broadcastInDim S4x36864x1 ![0, 1, 2] bcast_S1x1x1_S4x36864x1_0_1_2
          (broadcastInDim S1x1x1 ![2] bcast_S1_S1x1x1_2 (constantI S1 32 1023#32)))))
    (constantI S_ 1 1#1) reducesTo_S4x36864x1_S4x36864_d2 h_S_

/-- The node features gathered along each node's neighbour list: row `eIdx[b, n, k]` of batch `b` of `hV` at
    `[b, n, k, :]`, an out-of-range read replaced by the word 0x7FC00000. -/
def gathered (hV : FVec F S4x1024x128 .f32) (eIdx : IVec S4x1024x36 32) : FVec F S4x1024x36x128 .f32 :=
  shapeCast S4x1024x36x128
    (select (broadcastInDim S4x36864x128 ![0, 1] bcast_S4x36864_S4x36864x128_0_1 (inRange eIdx))
      (Host.gather gather_S4x1024x128_S4x36864x1_S4x36864x128_2_1_0_0_1_2_11128 hV (takeIdx eIdx))
      (broadcastInDim S4x36864x128 ![] bcast_S_S4x36864x128 (constant S_ .f32 0x7FC00000#32)))
    shapeCasts_S4x36864x128_S4x1024x36x128

/-- The message network's input: per (node, neighbour) the node's features, the edge's, the neighbour's, joined on the
    feature axis. -/
def edgeIn (hV : FVec F S4x1024x128 .f32) (hE : FVec F S4x1024x36x128 .f32) (eIdx : IVec S4x1024x36 32) :
    FVec F S4x1024x36x384 .f32 :=
  concatenate S4x1024x36x384 3
    [⟨S4x1024x36x128, broadcastInDim S4x1024x36x128 ![0, 1, 2, 3] bcast_S4x1024x1x128_S4x1024x36x128_0_1_2_3
        (broadcastInDim S4x1024x1x128 ![0, 1, 3] bcast_S4x1024x128_S4x1024x1x128_0_1_3 hV)⟩,
      ⟨S4x1024x36x256, concatenate S4x1024x36x256 3 [⟨S4x1024x36x128, hE⟩, ⟨S4x1024x36x128, gathered hV eIdx⟩]
        concatenates_S4x1024x36x128_S4x1024x36x128_S4x1024x36x256_d3⟩]
    concatenates_S4x1024x36x128_S4x1024x36x256_S4x1024x36x384_d3

/-- The reference's gelu on a (batch, node, neighbour, feature) array: (0.5 · x) · erfc(−x · c), c the word 0x3F3504F3. -/
def gelu4 (x : FVec F S4x1024x36x128 .f32) : FVec F S4x1024x36x128 .f32 :=
  mulf (mulf (broadcastInDim S4x1024x36x128 ![] bcast_S_S4x1024x36x128 (constant S_ .f32 0x3F000000#32)) x)
    (Host.erfc (mulf (Host.negf x) (broadcastInDim S4x1024x36x128 ![] bcast_S_S4x1024x36x128 (constant S_ .f32 0x3F3504F3#32))))

/-- A bias over the feature axis of a (batch, node, neighbour, feature) array. -/
def bias4 (b : FVec F S128 .f32) : FVec F S4x1024x36x128 .f32 :=
  broadcastInDim S4x1024x36x128 ![0, 1, 2, 3] bcast_S1x1x1x128_S4x1024x36x128_0_1_2_3
    (broadcastInDim S1x1x1x128 ![3] bcast_S128_S1x1x1x128_3 b)

/-- A 128 → 128 layer of the message network. -/
def dense4 (x : FVec F S4x1024x36x128 .f32) (W : FVec F S128x128 .f32) (b : FVec F S128 .f32) : FVec F S4x1024x36x128 .f32 :=
  addf (Host.dotGeneral dot_S4x1024x36x128_S128x128_S4x1024x36x128_3_0_012_1_n_n none x W) (bias4 b)

/-- The message per (node, neighbour): three layers, gelu between them. -/
def message (hV : FVec F S4x1024x128 .f32) (hE : FVec F S4x1024x36x128 .f32) (eIdx : IVec S4x1024x36 32)
    (W1 : FVec F S384x128 .f32) (b1 : FVec F S128 .f32) (W2 : FVec F S128x128 .f32) (b2 : FVec F S128 .f32)
    (W3 : FVec F S128x128 .f32) (b3 : FVec F S128 .f32) : FVec F S4x1024x36x128 .f32 :=
  dense4 (gelu4 (dense4 (gelu4
    (addf (Host.dotGeneral dot_S4x1024x36x384_S384x128_S4x1024x36x128_3_0_012_1_n_n none (edgeIn hV hE eIdx) W1) (bias4 b1)))
    W2 b2)) W3 b3

/-- The masked messages summed over the neighbours and divided by 36 (the word 0x42100000). -/
def aggregate (maskA : FVec F S4x1024x36 .f32) (msg : FVec F S4x1024x36x128 .f32) : FVec F S4x1024x128 .f32 :=
  Host.divf
    (Host.reduceAdd
      (mulf (broadcastInDim S4x1024x36x128 ![0, 1, 2, 3] bcast_S4x1024x36x1_S4x1024x36x128_0_1_2_3
          (broadcastInDim S4x1024x36x1 ![0, 1, 2] bcast_S4x1024x36_S4x1024x36x1_0_1_2 maskA)) msg)
      (constant S_ .f32 0x00000000#32) reducesTo_S4x1024x36x128_S4x1024x128_d2 h_S_)
    (broadcastInDim S4x1024x128 ![] bcast_S_S4x1024x128 (constant S_ .f32 0x42100000#32))

/-- The mean over the feature axis, kept as an axis of size one: the sum divided by 128 (the word 0x43000000). -/
def rowMean (x : FVec F S4x1024x128 .f32) : FVec F S4x1024x1 .f32 :=
  Host.divf
    (broadcastInDim S4x1024x1 ![0, 1] bcast_S4x1024_S4x1024x1_0_1
      (Host.reduceAdd x (constant S_ .f32 0x00000000#32) reducesTo_S4x1024x128_S4x1024_d2 h_S_))
    (broadcastInDim S4x1024x1 ![] bcast_S_S4x1024x1 (constant S_ .f32 0x43000000#32))

/-- The divisor of the variance: 128 minus the correction 0 converted to a float. -/
def varCount : FVec F S_ .f32 :=
  subf (constant S_ .f32 0x43000000#32) (sitofp .f32 (constantI S_ 32 0#32))

/-- The variance over the feature axis, kept as an axis of size one: the mean of the squared deviations from the mean
    (the sum divided by `varCount`, chosen where `varCount > 0`, else the word 0x7FC00000). -/
def rowVar (x : FVec F S4x1024x128 .f32) : FVec F S4x1024x1 .f32 :=
  select (broadcastInDim S4x1024x1 ![] bcast_S_S4x1024x1 (cmpf .ogt (varCount (F := F)) (constant S_ .f32 0x00000000#32)))
    (Host.divf
      (broadcastInDim S4x1024x1 ![0, 1] bcast_S4x1024_S4x1024x1_0_1
        (Host.reduceAdd
          (mulf (subf x (broadcastInDim S4x1024x128 ![0, 1, 2] bcast_S4x1024x1_S4x1024x128_0_1_2 (rowMean x)))
            (subf x (broadcastInDim S4x1024x128 ![0, 1, 2] bcast_S4x1024x1_S4x1024x128_0_1_2 (rowMean x))))
          (constant S_ .f32 0x00000000#32) reducesTo_S4x1024x128_S4x1024_d2 h_S_))
      (broadcastInDim S4x1024x1 ![] bcast_S_S4x1024x1 (varCount (F := F))))
    (broadcastInDim S4x1024x1 ![] bcast_S_S4x1024x1 (constant S_ .f32 0x7FC00000#32))

/-- A 128-vector over the feature axis of a (batch, node, feature) array. -/
def feat3 (v : FVec F S128 .f32) : FVec F S4x1024x128 .f32 :=
  broadcastInDim S4x1024x128 ![0, 1, 2] bcast_S1x1x128_S4x1024x128_0_1_2 (broadcastInDim S1x1x128 ![2] bcast_S128_S1x1x128_2 v)

/-- The reference's layer normalization: (x − mean) / sqrt(var + eps) · g + b, eps the word 0x3727C5AC. -/
def layerNorm (x : FVec F S4x1024x128 .f32) (g b : FVec F S128 .f32) : FVec F S4x1024x128 .f32 :=
  addf
    (mulf
      (Host.divf (subf x (broadcastInDim S4x1024x128 ![0, 1, 2] bcast_S4x1024x1_S4x1024x128_0_1_2 (rowMean x)))
        (broadcastInDim S4x1024x128 ![0, 1, 2] bcast_S4x1024x1_S4x1024x128_0_1_2
          (Host.sqrt (addf (rowVar x) (broadcastInDim S4x1024x1 ![] bcast_S_S4x1024x1 (constant S_ .f32 0x3727C5AC#32))))))
      (feat3 g))
    (feat3 b)

/-- The reference's gelu on a (batch, node, 512) array. -/
def gelu3 (x : FVec F S4x1024x512 .f32) : FVec F S4x1024x512 .f32 :=
  mulf (mulf (broadcastInDim S4x1024x512 ![] bcast_S_S4x1024x512 (constant S_ .f32 0x3F000000#32)) x)
    (Host.erfc (mulf (Host.negf x) (broadcastInDim S4x1024x512 ![] bcast_S_S4x1024x512 (constant S_ .f32 0x3F3504F3#32))))

/-- The position-wise feed-forward network: 128 → 512, gelu, 512 → 128. -/
def ffn (x : FVec F S4x1024x128 .f32) (Win : FVec F S128x512 .f32) (bi : FVec F S512 .f32) (Wout : FVec F S512x128 .f32)
    (bo : FVec F S128 .f32) : FVec F S4x1024x128 .f32 :=
  addf
    (Host.dotGeneral dot_S4x1024x512_S512x128_S4x1024x128_2_0_01_1_n_n none
      (gelu3 (addf (Host.dotGeneral dot_S4x1024x128_S128x512_S4x1024x512_2_0_01_1_n_n none x Win)
        (broadcastInDim S4x1024x512 ![0, 1, 2] bcast_S1x1x512_S4x1024x512_0_1_2
          (broadcastInDim S1x1x512 ![2] bcast_S512_S1x1x512_2 bi))))
      Wout)
    (feat3 bo)

/-- The node features after the message step and the first normalization. -/
def res_x1 (hV : FVec F S4x1024x128 .f32) (hE : FVec F S4x1024x36x128 .f32) (eIdx : IVec S4x1024x36 32)
    (maskA : FVec F S4x1024x36 .f32) (W1 : FVec F S384x128 .f32) (b1 : FVec F S128 .f32) (W2 : FVec F S128x128 .f32)
    (b2 : FVec F S128 .f32) (W3 : FVec F S128x128 .f32) (b3 : FVec F S128 .f32) (g1 be1 : FVec F S128 .f32) :
    FVec F S4x1024x128 .f32 :=
  layerNorm (addf hV (aggregate maskA (message hV hE eIdx W1 b1 W2 b2 W3 b3))) g1 be1

/-- The result buffer of @main as one pure term of the nineteen argument buffers, in @main's argument order. -/
def res (hV : FVec F S4x1024x128 .f32) (hE : FVec F S4x1024x36x128 .f32) (eIdx : IVec S4x1024x36 32)
    (maskV : FVec F S4x1024 .f32) (maskA : FVec F S4x1024x36 .f32) (W1 : FVec F S384x128 .f32) (b1 : FVec F S128 .f32)
    (W2 : FVec F S128x128 .f32) (b2 : FVec F S128 .f32) (W3 : FVec F S128x128 .f32) (b3 : FVec F S128 .f32)
    (Win : FVec F S128x512 .f32) (bi : FVec F S512 .f32) (Wout : FVec F S512x128 .f32) (bo : FVec F S128 .f32)
    (g1 be1 g2 be2 : FVec F S128 .f32) : FVec F S4x1024x128 .f32 :=
  mulf
    (broadcastInDim S4x1024x128 ![0, 1, 2] bcast_S4x1024x1_S4x1024x128_0_1_2
      (broadcastInDim S4x1024x1 ![0, 1] bcast_S4x1024_S4x1024x1_0_1 maskV))
    (layerNorm
      (addf (res_x1 hV hE eIdx maskA W1 b1 W2 b2 W3 b3 g1 be1)
        (ffn (res_x1 hV hE eIdx maskA W1 b1 W2 b2 W3 b3 g1 be1) Win bi Wout bo))
      g2 be2)

/-- @main's 177 operations, in order: a called function's operations stand in its call's place, over the
    call's buffers. -/
abbrev ops : List (HloOp τ sig (Elt F)) :=
  [ reshape main_arg2 main_v0 rfl shapeCasts_S4x1024x36_S4x36864,
    unary main_v0 main_v1 (broadcastInDim S4x36864x1 ![0, 1] bcast_S4x36864_S4x36864x1_0_1 : (⟨S4x36864, .i32⟩ : BufTy).Contents (Elt F) → (⟨S4x36864x1, .i32⟩ : BufTy).Contents (Elt F)),
    TRef.nullary main_call0.c (constantI S_ 32 0#32),
    TRef.unary main_call0.c main_call0.v0 (broadcastInDim S4x36864x1 ![] bcast_S_S4x36864x1),
    TRef.binary (.of main_v1 : TRef sig ⟨S4x36864x1, .i32⟩) main_call0.v0 main_call0.v1 (cmpi .slt),
    TRef.nullary main_call0.c_0 (constantI S_ 32 1024#32),
    TRef.unary main_call0.c_0 main_call0.v2 (broadcastInDim S4x36864x1 ![] bcast_S_S4x36864x1),
    TRef.binary (.of main_v1 : TRef sig ⟨S4x36864x1, .i32⟩) main_call0.v2 main_call0.v3 addi,
    TRef.ternary main_call0.v1 main_call0.v3 (.of main_v1 : TRef sig ⟨S4x36864x1, .i32⟩) main_call0.v4 select,
    TRef.nullary main_call0.c_1 (constantI S1 32 1023#32),
    TRef.nullary main_call0.c_2 (constantI S_ 32 0#32),
    TRef.unary main_call0.c_2 main_call0.v5 (broadcastInDim S4x36864x1 ![] bcast_S_S4x36864x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S4x36864x1 ![0, 1, 2] bcast_S1x1x1_S4x36864x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S4x36864x1_S4x36864_d2 h_S_),
    TRef.binary (.of main_arg0 : TRef sig ⟨S4x1024x128, .f32⟩) main_call0.v4 main_call0.v12 (fun x i => Host.gather gather_S4x1024x128_S4x36864x1_S4x36864x128_2_1_0_0_1_2_11128 x i),
    TRef.unary main_call0.v11 main_call0.v13 (broadcastInDim S4x36864x128 ![0, 1] bcast_S4x36864_S4x36864x128_0_1),
    TRef.nullary main_call0.cst (constant S_ .f32 0x7FC00000#32),
    TRef.unary main_call0.cst main_call0.v14 (broadcastInDim S4x36864x128 ![] bcast_S_S4x36864x128),
    TRef.ternary main_call0.v13 main_call0.v12 main_call0.v14 main_call0.v15 select,
    reshape main_v2 main_v3 rfl shapeCasts_S4x36864x128_S4x1024x36x128,
    binary main_arg1 main_v3 main_v4 ((fun a b => concatenate S4x1024x36x256 3 [⟨S4x1024x36x128, a⟩, ⟨S4x1024x36x128, b⟩] concatenates_S4x1024x36x128_S4x1024x36x128_S4x1024x36x256_d3) : (⟨S4x1024x36x128, .f32⟩ : BufTy).Contents (Elt F) → (⟨S4x1024x36x128, .f32⟩ : BufTy).Contents (Elt F) → (⟨S4x1024x36x256, .f32⟩ : BufTy).Contents (Elt F)),
    unary main_arg0 main_v5 (broadcastInDim S4x1024x1x128 ![0, 1, 3] bcast_S4x1024x128_S4x1024x1x128_0_1_3 : (⟨S4x1024x128, .f32⟩ : BufTy).Contents (Elt F) → (⟨S4x1024x1x128, .f32⟩ : BufTy).Contents (Elt F)),
    unary main_v5 main_v6 (broadcastInDim S4x1024x36x128 ![0, 1, 2, 3] bcast_S4x1024x1x128_S4x1024x36x128_0_1_2_3 : (⟨S4x1024x1x128, .f32⟩ : BufTy).Contents (Elt F) → (⟨S4x1024x36x128, .f32⟩ : BufTy).Contents (Elt F)),
    binary main_v6 main_v4 main_v7 ((fun a b => concatenate S4x1024x36x384 3 [⟨S4x1024x36x128, a⟩, ⟨S4x1024x36x256, b⟩] concatenates_S4x1024x36x128_S4x1024x36x256_S4x1024x36x384_d3) : (⟨S4x1024x36x128, .f32⟩ : BufTy).Contents (Elt F) → (⟨S4x1024x36x256, .f32⟩ : BufTy).Contents (Elt F) → (⟨S4x1024x36x384, .f32⟩ : BufTy).Contents (Elt F)),
    binary main_v7 main_arg5 main_v8 ((fun l r => Host.dotGeneral dot_S4x1024x36x384_S384x128_S4x1024x36x128_3_0_012_1_n_n none l r) : (⟨S4x1024x36x384, .f32⟩ : BufTy).Contents (Elt F) → (⟨S384x128, .f32⟩ : BufTy).Contents (Elt F) → (⟨S4x1024x36x128, .f32⟩ : BufTy).Contents (Elt F)),
    unary main_arg6 main_v9 (broadcastInDim S1x1x1x128 ![3] bcast_S128_S1x1x1x128_3 : (⟨S128, .f32⟩ : BufTy).Contents (Elt F) → (⟨S1x1x1x128, .f32⟩ : BufTy).Contents (Elt F)),
    unary main_v9 main_v10 (broadcastInDim S4x1024x36x128 ![0, 1, 2, 3] bcast_S1x1x1x128_S4x1024x36x128_0_1_2_3 : (⟨S1x1x1x128, .f32⟩ : BufTy).Contents (Elt F) → (⟨S4x1024x36x128, .f32⟩ : BufTy).Contents (Elt F)),
    binary main_v8 main_v10 main_v11 (addf : (⟨S4x1024x36x128, .f32⟩ : BufTy).Contents (Elt F) → (⟨S4x1024x36x128, .f32⟩ : BufTy).Contents (Elt F) → (⟨S4x1024x36x128, .f32⟩ : BufTy).Contents (Elt F)),
    nullary main_cst (constant S_ .f32 0x3F000000#32),
    unary main_cst main_v12 (broadcastInDim S4x1024x36x128 ![] bcast_S_S4x1024x36x128 : (⟨S_, .f32⟩ : BufTy).Contents (Elt F) → (⟨S4x1024x36x128, .f32⟩ : BufTy).Contents (Elt F)),
    binary main_v12 main_v11 main_v13 (mulf : (⟨S4x1024x36x128, .f32⟩ : BufTy).Contents (Elt F) → (⟨S4x1024x36x128, .f32⟩ : BufTy).Contents (Elt F) → (⟨S4x1024x36x128, .f32⟩ : BufTy).Contents (Elt F)),
    unary main_v11 main_v14 (Host.negf : (⟨S4x1024x36x128, .f32⟩ : BufTy).Contents (Elt F) → (⟨S4x1024x36x128, .f32⟩ : BufTy).Contents (Elt F)),
    nullary main_cst_0 (constant S_ .f32 0x3F3504F3#32),
    unary main_cst_0 main_v15 (broadcastInDim S4x1024x36x128 ![] bcast_S_S4x1024x36x128 : (⟨S_, .f32⟩ : BufTy).Contents (Elt F) → (⟨S4x1024x36x128, .f32⟩ : BufTy).Contents (Elt F)),
    binary main_v14 main_v15 main_v16 (mulf : (⟨S4x1024x36x128, .f32⟩ : BufTy).Contents (Elt F) → (⟨S4x1024x36x128, .f32⟩ : BufTy).Contents (Elt F) → (⟨S4x1024x36x128, .f32⟩ : BufTy).Contents (Elt F)),
    unary main_v16 main_v17 (Host.erfc : (⟨S4x1024x36x128, .f32⟩ : BufTy).Contents (Elt F) → (⟨S4x1024x36x128, .f32⟩ : BufTy).Contents (Elt F)),
    binary main_v13 main_v17 main_v18 (mulf : (⟨S4x1024x36x128, .f32⟩ : BufTy).Contents (Elt F) → (⟨S4x1024x36x128, .f32⟩ : BufTy).Contents (Elt F) → (⟨S4x1024x36x128, .f32⟩ : BufTy).Contents (Elt F)),
    binary main_v18 main_arg7 main_v19 ((fun l r => Host.dotGeneral dot_S4x1024x36x128_S128x128_S4x1024x36x128_3_0_012_1_n_n none l r) : (⟨S4x1024x36x128, .f32⟩ : BufTy).Contents (Elt F) → (⟨S128x128, .f32⟩ : BufTy).Contents (Elt F) → (⟨S4x1024x36x128, .f32⟩ : BufTy).Contents (Elt F)),
    unary main_arg8 main_v20 (broadcastInDim S1x1x1x128 ![3] bcast_S128_S1x1x1x128_3 : (⟨S128, .f32⟩ : BufTy).Contents (Elt F) → (⟨S1x1x1x128, .f32⟩ : BufTy).Contents (Elt F)),
    unary main_v20 main_v21 (broadcastInDim S4x1024x36x128 ![0, 1, 2, 3] bcast_S1x1x1x128_S4x1024x36x128_0_1_2_3 : (⟨S1x1x1x128, .f32⟩ : BufTy).Contents (Elt F) → (⟨S4x1024x36x128, .f32⟩ : BufTy).Contents (Elt F)),
    binary main_v19 main_v21 main_v22 (addf : (⟨S4x1024x36x128, .f32⟩ : BufTy).Contents (Elt F) → (⟨S4x1024x36x128, .f32⟩ : BufTy).Contents (Elt F) → (⟨S4x1024x36x128, .f32⟩ : BufTy).Contents (Elt F)),
    nullary main_cst_1 (constant S_ .f32 0x3F000000#32),
    unary main_cst_1 main_v23 (broadcastInDim S4x1024x36x128 ![] bcast_S_S4x1024x36x128 : (⟨S_, .f32⟩ : BufTy).Contents (Elt F) → (⟨S4x1024x36x128, .f32⟩ : BufTy).Contents (Elt F)),
    binary main_v23 main_v22 main_v24 (mulf : (⟨S4x1024x36x128, .f32⟩ : BufTy).Contents (Elt F) → (⟨S4x1024x36x128, .f32⟩ : BufTy).Contents (Elt F) → (⟨S4x1024x36x128, .f32⟩ : BufTy).Contents (Elt F)),
    unary main_v22 main_v25 (Host.negf : (⟨S4x1024x36x128, .f32⟩ : BufTy).Contents (Elt F) → (⟨S4x1024x36x128, .f32⟩ : BufTy).Contents (Elt F)),
    nullary main_cst_2 (constant S_ .f32 0x3F3504F3#32),
    unary main_cst_2 main_v26 (broadcastInDim S4x1024x36x128 ![] bcast_S_S4x1024x36x128 : (⟨S_, .f32⟩ : BufTy).Contents (Elt F) → (⟨S4x1024x36x128, .f32⟩ : BufTy).Contents (Elt F)),
    binary main_v25 main_v26 main_v27 (mulf : (⟨S4x1024x36x128, .f32⟩ : BufTy).Contents (Elt F) → (⟨S4x1024x36x128, .f32⟩ : BufTy).Contents (Elt F) → (⟨S4x1024x36x128, .f32⟩ : BufTy).Contents (Elt F)),
    unary main_v27 main_v28 (Host.erfc : (⟨S4x1024x36x128, .f32⟩ : BufTy).Contents (Elt F) → (⟨S4x1024x36x128, .f32⟩ : BufTy).Contents (Elt F)),
    binary main_v24 main_v28 main_v29 (mulf : (⟨S4x1024x36x128, .f32⟩ : BufTy).Contents (Elt F) → (⟨S4x1024x36x128, .f32⟩ : BufTy).Contents (Elt F) → (⟨S4x1024x36x128, .f32⟩ : BufTy).Contents (Elt F)),
    binary main_v29 main_arg9 main_v30 ((fun l r => Host.dotGeneral dot_S4x1024x36x128_S128x128_S4x1024x36x128_3_0_012_1_n_n none l r) : (⟨S4x1024x36x128, .f32⟩ : BufTy).Contents (Elt F) → (⟨S128x128, .f32⟩ : BufTy).Contents (Elt F) → (⟨S4x1024x36x128, .f32⟩ : BufTy).Contents (Elt F)),
    unary main_arg10 main_v31 (broadcastInDim S1x1x1x128 ![3] bcast_S128_S1x1x1x128_3 : (⟨S128, .f32⟩ : BufTy).Contents (Elt F) → (⟨S1x1x1x128, .f32⟩ : BufTy).Contents (Elt F)),
    unary main_v31 main_v32 (broadcastInDim S4x1024x36x128 ![0, 1, 2, 3] bcast_S1x1x1x128_S4x1024x36x128_0_1_2_3 : (⟨S1x1x1x128, .f32⟩ : BufTy).Contents (Elt F) → (⟨S4x1024x36x128, .f32⟩ : BufTy).Contents (Elt F)),
    binary main_v30 main_v32 main_v33 (addf : (⟨S4x1024x36x128, .f32⟩ : BufTy).Contents (Elt F) → (⟨S4x1024x36x128, .f32⟩ : BufTy).Contents (Elt F) → (⟨S4x1024x36x128, .f32⟩ : BufTy).Contents (Elt F)),
    unary main_arg4 main_v34 (broadcastInDim S4x1024x36x1 ![0, 1, 2] bcast_S4x1024x36_S4x1024x36x1_0_1_2 : (⟨S4x1024x36, .f32⟩ : BufTy).Contents (Elt F) → (⟨S4x1024x36x1, .f32⟩ : BufTy).Contents (Elt F)),
    unary main_v34 main_v35 (broadcastInDim S4x1024x36x128 ![0, 1, 2, 3] bcast_S4x1024x36x1_S4x1024x36x128_0_1_2_3 : (⟨S4x1024x36x1, .f32⟩ : BufTy).Contents (Elt F) → (⟨S4x1024x36x128, .f32⟩ : BufTy).Contents (Elt F)),
    binary main_v35 main_v33 main_v36 (mulf : (⟨S4x1024x36x128, .f32⟩ : BufTy).Contents (Elt F) → (⟨S4x1024x36x128, .f32⟩ : BufTy).Contents (Elt F) → (⟨S4x1024x36x128, .f32⟩ : BufTy).Contents (Elt F)),
    nullary main_cst_3 (constant S_ .f32 0x00000000#32),
    binary main_v36 main_cst_3 main_v37 ((fun x v => Host.reduceAdd x v reducesTo_S4x1024x36x128_S4x1024x128_d2 h_S_) : (⟨S4x1024x36x128, .f32⟩ : BufTy).Contents (Elt F) → (⟨S_, .f32⟩ : BufTy).Contents (Elt F) → (⟨S4x1024x128, .f32⟩ : BufTy).Contents (Elt F)),
    nullary main_cst_4 (constant S_ .f32 0x42100000#32),
    unary main_cst_4 main_v38 (broadcastInDim S4x1024x128 ![] bcast_S_S4x1024x128 : (⟨S_, .f32⟩ : BufTy).Contents (Elt F) → (⟨S4x1024x128, .f32⟩ : BufTy).Contents (Elt F)),
    binary main_v37 main_v38 main_v39 (Host.divf : (⟨S4x1024x128, .f32⟩ : BufTy).Contents (Elt F) → (⟨S4x1024x128, .f32⟩ : BufTy).Contents (Elt F) → (⟨S4x1024x128, .f32⟩ : BufTy).Contents (Elt F)),
    binary main_arg0 main_v39 main_v40 (addf : (⟨S4x1024x128, .f32⟩ : BufTy).Contents (Elt F) → (⟨S4x1024x128, .f32⟩ : BufTy).Contents (Elt F) → (⟨S4x1024x128, .f32⟩ : BufTy).Contents (Elt F)),
    nullary main_cst_5 (constant S_ .f32 0x00000000#32),
    binary main_v40 main_cst_5 main_v41 ((fun x v => Host.reduceAdd x v reducesTo_S4x1024x128_S4x1024_d2 h_S_) : (⟨S4x1024x128, .f32⟩ : BufTy).Contents (Elt F) → (⟨S_, .f32⟩ : BufTy).Contents (Elt F) → (⟨S4x1024, .f32⟩ : BufTy).Contents (Elt F)),
    unary main_v41 main_v42 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_6 (constant S_ .f32 0x43000000#32),
    unary main_cst_6 main_v43 (broadcastInDim S4x1024x1 ![] bcast_S_S4x1024x1 : (⟨S_, .f32⟩ : BufTy).Contents (Elt F) → (⟨S4x1024x1, .f32⟩ : BufTy).Contents (Elt F)),
    binary main_v42 main_v43 main_v44 (Host.divf : (⟨S4x1024x1, .f32⟩ : BufTy).Contents (Elt F) → (⟨S4x1024x1, .f32⟩ : BufTy).Contents (Elt F) → (⟨S4x1024x1, .f32⟩ : BufTy).Contents (Elt F)),
    nullary main_c (constantI S_ 32 0#32),
    TRef.nullary main_call1.cst (constant S_ .f32 0x00000000#32),
    TRef.binary (.of main_v40 : TRef sig ⟨S4x1024x128, .f32⟩) main_call1.cst main_call1.v0 (fun x v => Host.reduceAdd x v reducesTo_S4x1024x128_S4x1024_d2 h_S_),
    TRef.unary main_call1.v0 main_call1.v1 (broadcastInDim S4x1024x1 ![0, 1] bcast_S4x1024_S4x1024x1_0_1),
    TRef.nullary main_call1.cst_0 (constant S_ .f32 0x43000000#32),
    TRef.unary main_call1.cst_0 main_call1.v2 (broadcastInDim S4x1024x1 ![] bcast_S_S4x1024x1),
    TRef.binary main_call1.v1 main_call1.v2 main_call1.v3 Host.divf,
    TRef.unary main_call1.v3 main_call1.v4 (broadcastInDim S4x1024x128 ![0, 1, 2] bcast_S4x1024x1_S4x1024x128_0_1_2),
    TRef.binary (.of main_v40 : TRef sig ⟨S4x1024x128, .f32⟩) main_call1.v4 main_call1.v5 subf,
    TRef.binary main_call1.v5 main_call1.v5 main_call1.v6 mulf,
    TRef.unary (.of main_c : TRef sig ⟨S_, .i32⟩) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4x1024x128_S4x1024_d2 h_S_),
    TRef.unary main_call1.v9 main_call1.v10 (broadcastInDim S4x1024x1 ![0, 1] bcast_S4x1024_S4x1024x1_0_1),
    TRef.unary main_call1.v8 main_call1.v11 (broadcastInDim S4x1024x1 ![] bcast_S_S4x1024x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S4x1024x1 ![] bcast_S_S4x1024x1),
    TRef.ternary main_call1.v13 main_call1.v12 main_call1.call0.v1 main_call1.call0.v2 (fun p a b => select (broadcastInDim S4x1024x1 ![] bcast_S_S4x1024x1 p) a b),
    unary main_v44 main_v46 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v40 main_v46 main_v47 (subf : (⟨S4x1024x128, .f32⟩ : BufTy).Contents (Elt F) → (⟨S4x1024x128, .f32⟩ : BufTy).Contents (Elt F) → (⟨S4x1024x128, .f32⟩ : BufTy).Contents (Elt F)),
    nullary main_cst_7 (constant S_ .f32 0x3727C5AC#32),
    unary main_cst_7 main_v48 (broadcastInDim S4x1024x1 ![] bcast_S_S4x1024x1 : (⟨S_, .f32⟩ : BufTy).Contents (Elt F) → (⟨S4x1024x1, .f32⟩ : BufTy).Contents (Elt F)),
    binary main_v45 main_v48 main_v49 (addf : (⟨S4x1024x1, .f32⟩ : BufTy).Contents (Elt F) → (⟨S4x1024x1, .f32⟩ : BufTy).Contents (Elt F) → (⟨S4x1024x1, .f32⟩ : BufTy).Contents (Elt F)),
    unary main_v49 main_v50 (Host.sqrt : (⟨S4x1024x1, .f32⟩ : BufTy).Contents (Elt F) → (⟨S4x1024x1, .f32⟩ : BufTy).Contents (Elt F)),
    unary main_v50 main_v51 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v47 main_v51 main_v52 (Host.divf : (⟨S4x1024x128, .f32⟩ : BufTy).Contents (Elt F) → (⟨S4x1024x128, .f32⟩ : BufTy).Contents (Elt F) → (⟨S4x1024x128, .f32⟩ : BufTy).Contents (Elt F)),
    unary main_arg15 main_v53 (broadcastInDim S1x1x128 ![2] bcast_S128_S1x1x128_2 : (⟨S128, .f32⟩ : BufTy).Contents (Elt F) → (⟨S1x1x128, .f32⟩ : BufTy).Contents (Elt F)),
    unary main_v53 main_v54 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v52 main_v54 main_v55 (mulf : (⟨S4x1024x128, .f32⟩ : BufTy).Contents (Elt F) → (⟨S4x1024x128, .f32⟩ : BufTy).Contents (Elt F) → (⟨S4x1024x128, .f32⟩ : BufTy).Contents (Elt F)),
    unary main_arg16 main_v56 (broadcastInDim S1x1x128 ![2] bcast_S128_S1x1x128_2 : (⟨S128, .f32⟩ : BufTy).Contents (Elt F) → (⟨S1x1x128, .f32⟩ : BufTy).Contents (Elt F)),
    unary main_v56 main_v57 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v55 main_v57 main_v58 (addf : (⟨S4x1024x128, .f32⟩ : BufTy).Contents (Elt F) → (⟨S4x1024x128, .f32⟩ : BufTy).Contents (Elt F) → (⟨S4x1024x128, .f32⟩ : BufTy).Contents (Elt F)),
    binary main_v58 main_arg11 main_v59 ((fun l r => Host.dotGeneral dot_S4x1024x128_S128x512_S4x1024x512_2_0_01_1_n_n none l r) : (⟨S4x1024x128, .f32⟩ : BufTy).Contents (Elt F) → (⟨S128x512, .f32⟩ : BufTy).Contents (Elt F) → (⟨S4x1024x512, .f32⟩ : BufTy).Contents (Elt F)),
    unary main_arg12 main_v60 (broadcastInDim S1x1x512 ![2] bcast_S512_S1x1x512_2 : (⟨S512, .f32⟩ : BufTy).Contents (Elt F) → (⟨S1x1x512, .f32⟩ : BufTy).Contents (Elt F)),
    unary main_v60 main_v61 (broadcastInDim S4x1024x512 ![0, 1, 2] bcast_S1x1x512_S4x1024x512_0_1_2 : (⟨S1x1x512, .f32⟩ : BufTy).Contents (Elt F) → (⟨S4x1024x512, .f32⟩ : BufTy).Contents (Elt F)),
    binary main_v59 main_v61 main_v62 (addf : (⟨S4x1024x512, .f32⟩ : BufTy).Contents (Elt F) → (⟨S4x1024x512, .f32⟩ : BufTy).Contents (Elt F) → (⟨S4x1024x512, .f32⟩ : BufTy).Contents (Elt F)),
    nullary main_cst_8 (constant S_ .f32 0x3F000000#32),
    unary main_cst_8 main_v63 (broadcastInDim S4x1024x512 ![] bcast_S_S4x1024x512 : (⟨S_, .f32⟩ : BufTy).Contents (Elt F) → (⟨S4x1024x512, .f32⟩ : BufTy).Contents (Elt F)),
    binary main_v63 main_v62 main_v64 (mulf : (⟨S4x1024x512, .f32⟩ : BufTy).Contents (Elt F) → (⟨S4x1024x512, .f32⟩ : BufTy).Contents (Elt F) → (⟨S4x1024x512, .f32⟩ : BufTy).Contents (Elt F)),
    unary main_v62 main_v65 (Host.negf : (⟨S4x1024x512, .f32⟩ : BufTy).Contents (Elt F) → (⟨S4x1024x512, .f32⟩ : BufTy).Contents (Elt F)),
    nullary main_cst_9 (constant S_ .f32 0x3F3504F3#32),
    unary main_cst_9 main_v66 (broadcastInDim S4x1024x512 ![] bcast_S_S4x1024x512 : (⟨S_, .f32⟩ : BufTy).Contents (Elt F) → (⟨S4x1024x512, .f32⟩ : BufTy).Contents (Elt F)),
    binary main_v65 main_v66 main_v67 (mulf : (⟨S4x1024x512, .f32⟩ : BufTy).Contents (Elt F) → (⟨S4x1024x512, .f32⟩ : BufTy).Contents (Elt F) → (⟨S4x1024x512, .f32⟩ : BufTy).Contents (Elt F)),
    unary main_v67 main_v68 (Host.erfc : (⟨S4x1024x512, .f32⟩ : BufTy).Contents (Elt F) → (⟨S4x1024x512, .f32⟩ : BufTy).Contents (Elt F)),
    binary main_v64 main_v68 main_v69 (mulf : (⟨S4x1024x512, .f32⟩ : BufTy).Contents (Elt F) → (⟨S4x1024x512, .f32⟩ : BufTy).Contents (Elt F) → (⟨S4x1024x512, .f32⟩ : BufTy).Contents (Elt F)),
    binary main_v69 main_arg13 main_v70 ((fun l r => Host.dotGeneral dot_S4x1024x512_S512x128_S4x1024x128_2_0_01_1_n_n none l r) : (⟨S4x1024x512, .f32⟩ : BufTy).Contents (Elt F) → (⟨S512x128, .f32⟩ : BufTy).Contents (Elt F) → (⟨S4x1024x128, .f32⟩ : BufTy).Contents (Elt F)),
    unary main_arg14 main_v71 (broadcastInDim S1x1x128 ![2] bcast_S128_S1x1x128_2 : (⟨S128, .f32⟩ : BufTy).Contents (Elt F) → (⟨S1x1x128, .f32⟩ : BufTy).Contents (Elt F)),
    unary main_v71 main_v72 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v70 main_v72 main_v73 (addf : (⟨S4x1024x128, .f32⟩ : BufTy).Contents (Elt F) → (⟨S4x1024x128, .f32⟩ : BufTy).Contents (Elt F) → (⟨S4x1024x128, .f32⟩ : BufTy).Contents (Elt F)),
    binary main_v58 main_v73 main_v74 (addf : (⟨S4x1024x128, .f32⟩ : BufTy).Contents (Elt F) → (⟨S4x1024x128, .f32⟩ : BufTy).Contents (Elt F) → (⟨S4x1024x128, .f32⟩ : BufTy).Contents (Elt F)),
    nullary main_cst_10 (constant S_ .f32 0x00000000#32),
    binary main_v74 main_cst_10 main_v75 ((fun x v => Host.reduceAdd x v reducesTo_S4x1024x128_S4x1024_d2 h_S_) : (⟨S4x1024x128, .f32⟩ : BufTy).Contents (Elt F) → (⟨S_, .f32⟩ : BufTy).Contents (Elt F) → (⟨S4x1024, .f32⟩ : BufTy).Contents (Elt F)),
    unary main_v75 main_v76 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_11 (constant S_ .f32 0x43000000#32),
    unary main_cst_11 main_v77 (broadcastInDim S4x1024x1 ![] bcast_S_S4x1024x1 : (⟨S_, .f32⟩ : BufTy).Contents (Elt F) → (⟨S4x1024x1, .f32⟩ : BufTy).Contents (Elt F)),
    binary main_v76 main_v77 main_v78 (Host.divf : (⟨S4x1024x1, .f32⟩ : BufTy).Contents (Elt F) → (⟨S4x1024x1, .f32⟩ : BufTy).Contents (Elt F) → (⟨S4x1024x1, .f32⟩ : BufTy).Contents (Elt F)),
    nullary main_c_12 (constantI S_ 32 0#32),
    TRef.nullary main_call2.cst (constant S_ .f32 0x00000000#32),
    TRef.binary (.of main_v74 : TRef sig ⟨S4x1024x128, .f32⟩) main_call2.cst main_call2.v0 (fun x v => Host.reduceAdd x v reducesTo_S4x1024x128_S4x1024_d2 h_S_),
    TRef.unary main_call2.v0 main_call2.v1 (broadcastInDim S4x1024x1 ![0, 1] bcast_S4x1024_S4x1024x1_0_1),
    TRef.nullary main_call2.cst_0 (constant S_ .f32 0x43000000#32),
    TRef.unary main_call2.cst_0 main_call2.v2 (broadcastInDim S4x1024x1 ![] bcast_S_S4x1024x1),
    TRef.binary main_call2.v1 main_call2.v2 main_call2.v3 Host.divf,
    TRef.unary main_call2.v3 main_call2.v4 (broadcastInDim S4x1024x128 ![0, 1, 2] bcast_S4x1024x1_S4x1024x128_0_1_2),
    TRef.binary (.of main_v74 : TRef sig ⟨S4x1024x128, .f32⟩) main_call2.v4 main_call2.v5 subf,
    TRef.binary main_call2.v5 main_call2.v5 main_call2.v6 mulf,
    TRef.unary (.of main_c_12 : TRef sig ⟨S_, .i32⟩) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4x1024x128_S4x1024_d2 h_S_),
    TRef.unary main_call2.v9 main_call2.v10 (broadcastInDim S4x1024x1 ![0, 1] bcast_S4x1024_S4x1024x1_0_1),
    TRef.unary main_call2.v8 main_call2.v11 (broadcastInDim S4x1024x1 ![] bcast_S_S4x1024x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S4x1024x1 ![] bcast_S_S4x1024x1),
    TRef.ternary main_call2.v13 main_call2.v12 main_call2.call0.v1 main_call2.call0.v2 (fun p a b => select (broadcastInDim S4x1024x1 ![] bcast_S_S4x1024x1 p) a b),
    unary main_v78 main_v80 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v74 main_v80 main_v81 (subf : (⟨S4x1024x128, .f32⟩ : BufTy).Contents (Elt F) → (⟨S4x1024x128, .f32⟩ : BufTy).Contents (Elt F) → (⟨S4x1024x128, .f32⟩ : BufTy).Contents (Elt F)),
    nullary main_cst_13 (constant S_ .f32 0x3727C5AC#32),
    unary main_cst_13 main_v82 (broadcastInDim S4x1024x1 ![] bcast_S_S4x1024x1 : (⟨S_, .f32⟩ : BufTy).Contents (Elt F) → (⟨S4x1024x1, .f32⟩ : BufTy).Contents (Elt F)),
    binary main_v79 main_v82 main_v83 (addf : (⟨S4x1024x1, .f32⟩ : BufTy).Contents (Elt F) → (⟨S4x1024x1, .f32⟩ : BufTy).Contents (Elt F) → (⟨S4x1024x1, .f32⟩ : BufTy).Contents (Elt F)),
    unary main_v83 main_v84 (Host.sqrt : (⟨S4x1024x1, .f32⟩ : BufTy).Contents (Elt F) → (⟨S4x1024x1, .f32⟩ : BufTy).Contents (Elt F)),
    unary main_v84 main_v85 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v81 main_v85 main_v86 (Host.divf : (⟨S4x1024x128, .f32⟩ : BufTy).Contents (Elt F) → (⟨S4x1024x128, .f32⟩ : BufTy).Contents (Elt F) → (⟨S4x1024x128, .f32⟩ : BufTy).Contents (Elt F)),
    unary main_arg17 main_v87 (broadcastInDim S1x1x128 ![2] bcast_S128_S1x1x128_2 : (⟨S128, .f32⟩ : BufTy).Contents (Elt F) → (⟨S1x1x128, .f32⟩ : BufTy).Contents (Elt F)),
    unary main_v87 main_v88 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v86 main_v88 main_v89 (mulf : (⟨S4x1024x128, .f32⟩ : BufTy).Contents (Elt F) → (⟨S4x1024x128, .f32⟩ : BufTy).Contents (Elt F) → (⟨S4x1024x128, .f32⟩ : BufTy).Contents (Elt F)),
    unary main_arg18 main_v90 (broadcastInDim S1x1x128 ![2] bcast_S128_S1x1x128_2 : (⟨S128, .f32⟩ : BufTy).Contents (Elt F) → (⟨S1x1x128, .f32⟩ : BufTy).Contents (Elt F)),
    unary main_v90 main_v91 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v89 main_v91 main_v92 (addf : (⟨S4x1024x128, .f32⟩ : BufTy).Contents (Elt F) → (⟨S4x1024x128, .f32⟩ : BufTy).Contents (Elt F) → (⟨S4x1024x128, .f32⟩ : BufTy).Contents (Elt F)),
    unary main_arg3 main_v93 (broadcastInDim S4x1024x1 ![0, 1] bcast_S4x1024_S4x1024x1_0_1 : (⟨S4x1024, .f32⟩ : BufTy).Contents (Elt F) → (⟨S4x1024x1, .f32⟩ : BufTy).Contents (Elt F)),
    unary main_v93 main_v94 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v94 main_v92 main_v95 (mulf : (⟨S4x1024x128, .f32⟩ : BufTy).Contents (Elt F) → (⟨S4x1024x128, .f32⟩ : BufTy).Contents (Elt F) → (⟨S4x1024x128, .f32⟩ : BufTy).Contents (Elt F)) ]

set_option maxRecDepth 16384 in
set_option maxHeartbeats 4000000 in
/-- @main is that straight line: its two windows and the called functions unfolded, sequencing reassociated. -/
theorem main_eq (c : Dev nD) : main (F := F) c = seq ops := by
  simp only [main, main_part0, main_part1, fn_take_along_axis.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## The run, stretch by stretch

The operation list cut into six stretches; the buffer contents after each stretch are read off stretch by stretch:
what a stretch writes, as the composed term of what the stretch before left, and every other buffer kept. -/

theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Operations 1 … 25: the neighbour gather (the index flattened, the called gather function's operations, the result's reshape). -/
abbrev segA : List (HloOp τ sig (Elt F)) :=
  [ reshape main_arg2 main_v0 rfl shapeCasts_S4x1024x36_S4x36864,
    unary main_v0 main_v1 (broadcastInDim S4x36864x1 ![0, 1] bcast_S4x36864_S4x36864x1_0_1 : (⟨S4x36864, .i32⟩ : BufTy).Contents (Elt F) → (⟨S4x36864x1, .i32⟩ : BufTy).Contents (Elt F)),
    TRef.nullary main_call0.c (constantI S_ 32 0#32),
    TRef.unary main_call0.c main_call0.v0 (broadcastInDim S4x36864x1 ![] bcast_S_S4x36864x1),
    TRef.binary (.of main_v1 : TRef sig ⟨S4x36864x1, .i32⟩) main_call0.v0 main_call0.v1 (cmpi .slt),
    TRef.nullary main_call0.c_0 (constantI S_ 32 1024#32),
    TRef.unary main_call0.c_0 main_call0.v2 (broadcastInDim S4x36864x1 ![] bcast_S_S4x36864x1),
    TRef.binary (.of main_v1 : TRef sig ⟨S4x36864x1, .i32⟩) main_call0.v2 main_call0.v3 addi,
    TRef.ternary main_call0.v1 main_call0.v3 (.of main_v1 : TRef sig ⟨S4x36864x1, .i32⟩) main_call0.v4 select,
    TRef.nullary main_call0.c_1 (constantI S1 32 1023#32),
    TRef.nullary main_call0.c_2 (constantI S_ 32 0#32),
    TRef.unary main_call0.c_2 main_call0.v5 (broadcastInDim S4x36864x1 ![] bcast_S_S4x36864x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S4x36864x1 ![0, 1, 2] bcast_S1x1x1_S4x36864x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S4x36864x1_S4x36864_d2 h_S_),
    TRef.binary (.of main_arg0 : TRef sig ⟨S4x1024x128, .f32⟩) main_call0.v4 main_call0.v12 (fun x i => Host.gather gather_S4x1024x128_S4x36864x1_S4x36864x128_2_1_0_0_1_2_11128 x i),
    TRef.unary main_call0.v11 main_call0.v13 (broadcastInDim S4x36864x128 ![0, 1] bcast_S4x36864_S4x36864x128_0_1),
    TRef.nullary main_call0.cst (constant S_ .f32 0x7FC00000#32),
    TRef.unary main_call0.cst main_call0.v14 (broadcastInDim S4x36864x128 ![] bcast_S_S4x36864x128),
    TRef.ternary main_call0.v13 main_call0.v12 main_call0.v14 main_call0.v15 select,
    reshape main_v2 main_v3 rfl shapeCasts_S4x36864x128_S4x1024x36x128 ]
/-- The buffers that stretch writes. -/
abbrev segA_W : List (Ref sig .tc) := [main_v0, main_v1, main_call0.c.ref, main_call0.v0.ref, main_call0.v1.ref, main_call0.c_0.ref, main_call0.v2.ref, main_call0.v3.ref, main_call0.v4.ref, main_call0.c_1.ref, main_call0.c_2.ref, main_call0.v5.ref, main_call0.v6.ref, main_call0.v7.ref, main_call0.v8.ref, main_call0.v9.ref, main_call0.v10.ref, main_call0.c_3.ref, main_call0.v11.ref, main_call0.v12.ref, main_call0.v13.ref, main_call0.cst.ref, main_call0.v14.ref, main_call0.v15.ref, main_v3]
set_option maxRecDepth 8192 in
theorem segA_writes : (segA : List (HloOp τ sig (Elt F))).Forall fun op =>
    op.writes ⊆ (segA_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 26 … 28: the edge and neighbour features joined, the node features spread over the neighbours. -/
abbrev segB : List (HloOp τ sig (Elt F)) :=
  [ binary main_arg1 main_v3 main_v4 ((fun a b => concatenate S4x1024x36x256 3 [⟨S4x1024x36x128, a⟩, ⟨S4x1024x36x128, b⟩] concatenates_S4x1024x36x128_S4x1024x36x128_S4x1024x36x256_d3) : (⟨S4x1024x36x128, .f32⟩ : BufTy).Contents (Elt F) → (⟨S4x1024x36x128, .f32⟩ : BufTy).Contents (Elt F) → (⟨S4x1024x36x256, .f32⟩ : BufTy).Contents (Elt F)),
    unary main_arg0 main_v5 (broadcastInDim S4x1024x1x128 ![0, 1, 3] bcast_S4x1024x128_S4x1024x1x128_0_1_3 : (⟨S4x1024x128, .f32⟩ : BufTy).Contents (Elt F) → (⟨S4x1024x1x128, .f32⟩ : BufTy).Contents (Elt F)),
    unary main_v5 main_v6 (broadcastInDim S4x1024x36x128 ![0, 1, 2, 3] bcast_S4x1024x1x128_S4x1024x36x128_0_1_2_3 : (⟨S4x1024x1x128, .f32⟩ : BufTy).Contents (Elt F) → (⟨S4x1024x36x128, .f32⟩ : BufTy).Contents (Elt F)) ]
/-- The buffers that stretch writes. -/
abbrev segB_W : List (Ref sig .tc) := [main_v4, main_v5, main_v6]
set_option maxRecDepth 8192 in
theorem segB_writes : (segB : List (HloOp τ sig (Elt F))).Forall fun op =>
    op.writes ⊆ (segB_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 29 … 68: the message network, the masked mean over the neighbours, the residual. -/
abbrev segC : List (HloOp τ sig (Elt F)) :=
  [ binary main_v6 main_v4 main_v7 ((fun a b => concatenate S4x1024x36x384 3 [⟨S4x1024x36x128, a⟩, ⟨S4x1024x36x256, b⟩] concatenates_S4x1024x36x128_S4x1024x36x256_S4x1024x36x384_d3) : (⟨S4x1024x36x128, .f32⟩ : BufTy).Contents (Elt F) → (⟨S4x1024x36x256, .f32⟩ : BufTy).Contents (Elt F) → (⟨S4x1024x36x384, .f32⟩ : BufTy).Contents (Elt F)),
    binary main_v7 main_arg5 main_v8 ((fun l r => Host.dotGeneral dot_S4x1024x36x384_S384x128_S4x1024x36x128_3_0_012_1_n_n none l r) : (⟨S4x1024x36x384, .f32⟩ : BufTy).Contents (Elt F) → (⟨S384x128, .f32⟩ : BufTy).Contents (Elt F) → (⟨S4x1024x36x128, .f32⟩ : BufTy).Contents (Elt F)),
    unary main_arg6 main_v9 (broadcastInDim S1x1x1x128 ![3] bcast_S128_S1x1x1x128_3 : (⟨S128, .f32⟩ : BufTy).Contents (Elt F) → (⟨S1x1x1x128, .f32⟩ : BufTy).Contents (Elt F)),
    unary main_v9 main_v10 (broadcastInDim S4x1024x36x128 ![0, 1, 2, 3] bcast_S1x1x1x128_S4x1024x36x128_0_1_2_3 : (⟨S1x1x1x128, .f32⟩ : BufTy).Contents (Elt F) → (⟨S4x1024x36x128, .f32⟩ : BufTy).Contents (Elt F)),
    binary main_v8 main_v10 main_v11 (addf : (⟨S4x1024x36x128, .f32⟩ : BufTy).Contents (Elt F) → (⟨S4x1024x36x128, .f32⟩ : BufTy).Contents (Elt F) → (⟨S4x1024x36x128, .f32⟩ : BufTy).Contents (Elt F)),
    nullary main_cst (constant S_ .f32 0x3F000000#32),
    unary main_cst main_v12 (broadcastInDim S4x1024x36x128 ![] bcast_S_S4x1024x36x128 : (⟨S_, .f32⟩ : BufTy).Contents (Elt F) → (⟨S4x1024x36x128, .f32⟩ : BufTy).Contents (Elt F)),
    binary main_v12 main_v11 main_v13 (mulf : (⟨S4x1024x36x128, .f32⟩ : BufTy).Contents (Elt F) → (⟨S4x1024x36x128, .f32⟩ : BufTy).Contents (Elt F) → (⟨S4x1024x36x128, .f32⟩ : BufTy).Contents (Elt F)),
    unary main_v11 main_v14 (Host.negf : (⟨S4x1024x36x128, .f32⟩ : BufTy).Contents (Elt F) → (⟨S4x1024x36x128, .f32⟩ : BufTy).Contents (Elt F)),
    nullary main_cst_0 (constant S_ .f32 0x3F3504F3#32),
    unary main_cst_0 main_v15 (broadcastInDim S4x1024x36x128 ![] bcast_S_S4x1024x36x128 : (⟨S_, .f32⟩ : BufTy).Contents (Elt F) → (⟨S4x1024x36x128, .f32⟩ : BufTy).Contents (Elt F)),
    binary main_v14 main_v15 main_v16 (mulf : (⟨S4x1024x36x128, .f32⟩ : BufTy).Contents (Elt F) → (⟨S4x1024x36x128, .f32⟩ : BufTy).Contents (Elt F) → (⟨S4x1024x36x128, .f32⟩ : BufTy).Contents (Elt F)),
    unary main_v16 main_v17 (Host.erfc : (⟨S4x1024x36x128, .f32⟩ : BufTy).Contents (Elt F) → (⟨S4x1024x36x128, .f32⟩ : BufTy).Contents (Elt F)),
    binary main_v13 main_v17 main_v18 (mulf : (⟨S4x1024x36x128, .f32⟩ : BufTy).Contents (Elt F) → (⟨S4x1024x36x128, .f32⟩ : BufTy).Contents (Elt F) → (⟨S4x1024x36x128, .f32⟩ : BufTy).Contents (Elt F)),
    binary main_v18 main_arg7 main_v19 ((fun l r => Host.dotGeneral dot_S4x1024x36x128_S128x128_S4x1024x36x128_3_0_012_1_n_n none l r) : (⟨S4x1024x36x128, .f32⟩ : BufTy).Contents (Elt F) → (⟨S128x128, .f32⟩ : BufTy).Contents (Elt F) → (⟨S4x1024x36x128, .f32⟩ : BufTy).Contents (Elt F)),
    unary main_arg8 main_v20 (broadcastInDim S1x1x1x128 ![3] bcast_S128_S1x1x1x128_3 : (⟨S128, .f32⟩ : BufTy).Contents (Elt F) → (⟨S1x1x1x128, .f32⟩ : BufTy).Contents (Elt F)),
    unary main_v20 main_v21 (broadcastInDim S4x1024x36x128 ![0, 1, 2, 3] bcast_S1x1x1x128_S4x1024x36x128_0_1_2_3 : (⟨S1x1x1x128, .f32⟩ : BufTy).Contents (Elt F) → (⟨S4x1024x36x128, .f32⟩ : BufTy).Contents (Elt F)),
    binary main_v19 main_v21 main_v22 (addf : (⟨S4x1024x36x128, .f32⟩ : BufTy).Contents (Elt F) → (⟨S4x1024x36x128, .f32⟩ : BufTy).Contents (Elt F) → (⟨S4x1024x36x128, .f32⟩ : BufTy).Contents (Elt F)),
    nullary main_cst_1 (constant S_ .f32 0x3F000000#32),
    unary main_cst_1 main_v23 (broadcastInDim S4x1024x36x128 ![] bcast_S_S4x1024x36x128 : (⟨S_, .f32⟩ : BufTy).Contents (Elt F) → (⟨S4x1024x36x128, .f32⟩ : BufTy).Contents (Elt F)),
    binary main_v23 main_v22 main_v24 (mulf : (⟨S4x1024x36x128, .f32⟩ : BufTy).Contents (Elt F) → (⟨S4x1024x36x128, .f32⟩ : BufTy).Contents (Elt F) → (⟨S4x1024x36x128, .f32⟩ : BufTy).Contents (Elt F)),
    unary main_v22 main_v25 (Host.negf : (⟨S4x1024x36x128, .f32⟩ : BufTy).Contents (Elt F) → (⟨S4x1024x36x128, .f32⟩ : BufTy).Contents (Elt F)),
    nullary main_cst_2 (constant S_ .f32 0x3F3504F3#32),
    unary main_cst_2 main_v26 (broadcastInDim S4x1024x36x128 ![] bcast_S_S4x1024x36x128 : (⟨S_, .f32⟩ : BufTy).Contents (Elt F) → (⟨S4x1024x36x128, .f32⟩ : BufTy).Contents (Elt F)),
    binary main_v25 main_v26 main_v27 (mulf : (⟨S4x1024x36x128, .f32⟩ : BufTy).Contents (Elt F) → (⟨S4x1024x36x128, .f32⟩ : BufTy).Contents (Elt F) → (⟨S4x1024x36x128, .f32⟩ : BufTy).Contents (Elt F)),
    unary main_v27 main_v28 (Host.erfc : (⟨S4x1024x36x128, .f32⟩ : BufTy).Contents (Elt F) → (⟨S4x1024x36x128, .f32⟩ : BufTy).Contents (Elt F)),
    binary main_v24 main_v28 main_v29 (mulf : (⟨S4x1024x36x128, .f32⟩ : BufTy).Contents (Elt F) → (⟨S4x1024x36x128, .f32⟩ : BufTy).Contents (Elt F) → (⟨S4x1024x36x128, .f32⟩ : BufTy).Contents (Elt F)),
    binary main_v29 main_arg9 main_v30 ((fun l r => Host.dotGeneral dot_S4x1024x36x128_S128x128_S4x1024x36x128_3_0_012_1_n_n none l r) : (⟨S4x1024x36x128, .f32⟩ : BufTy).Contents (Elt F) → (⟨S128x128, .f32⟩ : BufTy).Contents (Elt F) → (⟨S4x1024x36x128, .f32⟩ : BufTy).Contents (Elt F)),
    unary main_arg10 main_v31 (broadcastInDim S1x1x1x128 ![3] bcast_S128_S1x1x1x128_3 : (⟨S128, .f32⟩ : BufTy).Contents (Elt F) → (⟨S1x1x1x128, .f32⟩ : BufTy).Contents (Elt F)),
    unary main_v31 main_v32 (broadcastInDim S4x1024x36x128 ![0, 1, 2, 3] bcast_S1x1x1x128_S4x1024x36x128_0_1_2_3 : (⟨S1x1x1x128, .f32⟩ : BufTy).Contents (Elt F) → (⟨S4x1024x36x128, .f32⟩ : BufTy).Contents (Elt F)),
    binary main_v30 main_v32 main_v33 (addf : (⟨S4x1024x36x128, .f32⟩ : BufTy).Contents (Elt F) → (⟨S4x1024x36x128, .f32⟩ : BufTy).Contents (Elt F) → (⟨S4x1024x36x128, .f32⟩ : BufTy).Contents (Elt F)),
    unary main_arg4 main_v34 (broadcastInDim S4x1024x36x1 ![0, 1, 2] bcast_S4x1024x36_S4x1024x36x1_0_1_2 : (⟨S4x1024x36, .f32⟩ : BufTy).Contents (Elt F) → (⟨S4x1024x36x1, .f32⟩ : BufTy).Contents (Elt F)),
    unary main_v34 main_v35 (broadcastInDim S4x1024x36x128 ![0, 1, 2, 3] bcast_S4x1024x36x1_S4x1024x36x128_0_1_2_3 : (⟨S4x1024x36x1, .f32⟩ : BufTy).Contents (Elt F) → (⟨S4x1024x36x128, .f32⟩ : BufTy).Contents (Elt F)),
    binary main_v35 main_v33 main_v36 (mulf : (⟨S4x1024x36x128, .f32⟩ : BufTy).Contents (Elt F) → (⟨S4x1024x36x128, .f32⟩ : BufTy).Contents (Elt F) → (⟨S4x1024x36x128, .f32⟩ : BufTy).Contents (Elt F)),
    nullary main_cst_3 (constant S_ .f32 0x00000000#32),
    binary main_v36 main_cst_3 main_v37 ((fun x v => Host.reduceAdd x v reducesTo_S4x1024x36x128_S4x1024x128_d2 h_S_) : (⟨S4x1024x36x128, .f32⟩ : BufTy).Contents (Elt F) → (⟨S_, .f32⟩ : BufTy).Contents (Elt F) → (⟨S4x1024x128, .f32⟩ : BufTy).Contents (Elt F)),
    nullary main_cst_4 (constant S_ .f32 0x42100000#32),
    unary main_cst_4 main_v38 (broadcastInDim S4x1024x128 ![] bcast_S_S4x1024x128 : (⟨S_, .f32⟩ : BufTy).Contents (Elt F) → (⟨S4x1024x128, .f32⟩ : BufTy).Contents (Elt F)),
    binary main_v37 main_v38 main_v39 (Host.divf : (⟨S4x1024x128, .f32⟩ : BufTy).Contents (Elt F) → (⟨S4x1024x128, .f32⟩ : BufTy).Contents (Elt F) → (⟨S4x1024x128, .f32⟩ : BufTy).Contents (Elt F)),
    binary main_arg0 main_v39 main_v40 (addf : (⟨S4x1024x128, .f32⟩ : BufTy).Contents (Elt F) → (⟨S4x1024x128, .f32⟩ : BufTy).Contents (Elt F) → (⟨S4x1024x128, .f32⟩ : BufTy).Contents (Elt F)) ]
/-- The buffers that stretch writes. -/
abbrev segC_W : List (Ref sig .tc) := [main_v7, main_v8, main_v9, main_v10, main_v11, main_cst, main_v12, main_v13, main_v14, main_cst_0, main_v15, main_v16, main_v17, main_v18, main_v19, main_v20, main_v21, main_v22, main_cst_1, main_v23, main_v24, main_v25, main_cst_2, main_v26, main_v27, main_v28, main_v29, main_v30, main_v31, main_v32, main_v33, main_v34, main_v35, main_v36, main_cst_3, main_v37, main_cst_4, main_v38, main_v39, main_v40]
set_option maxRecDepth 8192 in
theorem segC_writes : (segC : List (HloOp τ sig (Elt F))).Forall fun op =>
    op.writes ⊆ (segC_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 69 … 112: the first normalization (its variance function's operations at their call). -/
abbrev segD : List (HloOp τ sig (Elt F)) :=
  [ nullary main_cst_5 (constant S_ .f32 0x00000000#32),
    binary main_v40 main_cst_5 main_v41 ((fun x v => Host.reduceAdd x v reducesTo_S4x1024x128_S4x1024_d2 h_S_) : (⟨S4x1024x128, .f32⟩ : BufTy).Contents (Elt F) → (⟨S_, .f32⟩ : BufTy).Contents (Elt F) → (⟨S4x1024, .f32⟩ : BufTy).Contents (Elt F)),
    unary main_v41 main_v42 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_6 (constant S_ .f32 0x43000000#32),
    unary main_cst_6 main_v43 (broadcastInDim S4x1024x1 ![] bcast_S_S4x1024x1 : (⟨S_, .f32⟩ : BufTy).Contents (Elt F) → (⟨S4x1024x1, .f32⟩ : BufTy).Contents (Elt F)),
    binary main_v42 main_v43 main_v44 (Host.divf : (⟨S4x1024x1, .f32⟩ : BufTy).Contents (Elt F) → (⟨S4x1024x1, .f32⟩ : BufTy).Contents (Elt F) → (⟨S4x1024x1, .f32⟩ : BufTy).Contents (Elt F)),
    nullary main_c (constantI S_ 32 0#32),
    TRef.nullary main_call1.cst (constant S_ .f32 0x00000000#32),
    TRef.binary (.of main_v40 : TRef sig ⟨S4x1024x128, .f32⟩) main_call1.cst main_call1.v0 (fun x v => Host.reduceAdd x v reducesTo_S4x1024x128_S4x1024_d2 h_S_),
    TRef.unary main_call1.v0 main_call1.v1 (broadcastInDim S4x1024x1 ![0, 1] bcast_S4x1024_S4x1024x1_0_1),
    TRef.nullary main_call1.cst_0 (constant S_ .f32 0x43000000#32),
    TRef.unary main_call1.cst_0 main_call1.v2 (broadcastInDim S4x1024x1 ![] bcast_S_S4x1024x1),
    TRef.binary main_call1.v1 main_call1.v2 main_call1.v3 Host.divf,
    TRef.unary main_call1.v3 main_call1.v4 (broadcastInDim S4x1024x128 ![0, 1, 2] bcast_S4x1024x1_S4x1024x128_0_1_2),
    TRef.binary (.of main_v40 : TRef sig ⟨S4x1024x128, .f32⟩) main_call1.v4 main_call1.v5 subf,
    TRef.binary main_call1.v5 main_call1.v5 main_call1.v6 mulf,
    TRef.unary (.of main_c : TRef sig ⟨S_, .i32⟩) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4x1024x128_S4x1024_d2 h_S_),
    TRef.unary main_call1.v9 main_call1.v10 (broadcastInDim S4x1024x1 ![0, 1] bcast_S4x1024_S4x1024x1_0_1),
    TRef.unary main_call1.v8 main_call1.v11 (broadcastInDim S4x1024x1 ![] bcast_S_S4x1024x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S4x1024x1 ![] bcast_S_S4x1024x1),
    TRef.ternary main_call1.v13 main_call1.v12 main_call1.call0.v1 main_call1.call0.v2 (fun p a b => select (broadcastInDim S4x1024x1 ![] bcast_S_S4x1024x1 p) a b),
    unary main_v44 main_v46 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v40 main_v46 main_v47 (subf : (⟨S4x1024x128, .f32⟩ : BufTy).Contents (Elt F) → (⟨S4x1024x128, .f32⟩ : BufTy).Contents (Elt F) → (⟨S4x1024x128, .f32⟩ : BufTy).Contents (Elt F)),
    nullary main_cst_7 (constant S_ .f32 0x3727C5AC#32),
    unary main_cst_7 main_v48 (broadcastInDim S4x1024x1 ![] bcast_S_S4x1024x1 : (⟨S_, .f32⟩ : BufTy).Contents (Elt F) → (⟨S4x1024x1, .f32⟩ : BufTy).Contents (Elt F)),
    binary main_v45 main_v48 main_v49 (addf : (⟨S4x1024x1, .f32⟩ : BufTy).Contents (Elt F) → (⟨S4x1024x1, .f32⟩ : BufTy).Contents (Elt F) → (⟨S4x1024x1, .f32⟩ : BufTy).Contents (Elt F)),
    unary main_v49 main_v50 (Host.sqrt : (⟨S4x1024x1, .f32⟩ : BufTy).Contents (Elt F) → (⟨S4x1024x1, .f32⟩ : BufTy).Contents (Elt F)),
    unary main_v50 main_v51 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v47 main_v51 main_v52 (Host.divf : (⟨S4x1024x128, .f32⟩ : BufTy).Contents (Elt F) → (⟨S4x1024x128, .f32⟩ : BufTy).Contents (Elt F) → (⟨S4x1024x128, .f32⟩ : BufTy).Contents (Elt F)),
    unary main_arg15 main_v53 (broadcastInDim S1x1x128 ![2] bcast_S128_S1x1x128_2 : (⟨S128, .f32⟩ : BufTy).Contents (Elt F) → (⟨S1x1x128, .f32⟩ : BufTy).Contents (Elt F)),
    unary main_v53 main_v54 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v52 main_v54 main_v55 (mulf : (⟨S4x1024x128, .f32⟩ : BufTy).Contents (Elt F) → (⟨S4x1024x128, .f32⟩ : BufTy).Contents (Elt F) → (⟨S4x1024x128, .f32⟩ : BufTy).Contents (Elt F)),
    unary main_arg16 main_v56 (broadcastInDim S1x1x128 ![2] bcast_S128_S1x1x128_2 : (⟨S128, .f32⟩ : BufTy).Contents (Elt F) → (⟨S1x1x128, .f32⟩ : BufTy).Contents (Elt F)),
    unary main_v56 main_v57 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v55 main_v57 main_v58 (addf : (⟨S4x1024x128, .f32⟩ : BufTy).Contents (Elt F) → (⟨S4x1024x128, .f32⟩ : BufTy).Contents (Elt F) → (⟨S4x1024x128, .f32⟩ : BufTy).Contents (Elt F)) ]
/-- The buffers that stretch writes. -/
abbrev segD_W : List (Ref sig .tc) := [main_cst_5, main_v41, main_v42, main_cst_6, main_v43, main_v44, main_c, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref, main_v46, main_v47, main_cst_7, main_v48, main_v49, main_v50, main_v51, main_v52, main_v53, main_v54, main_v55, main_v56, main_v57, main_v58]
set_option maxRecDepth 8192 in
theorem segD_writes : (segD : List (HloOp τ sig (Elt F))).Forall fun op =>
    op.writes ⊆ (segD_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 113 … 130: the feed-forward network and its residual. -/
abbrev segE : List (HloOp τ sig (Elt F)) :=
  [ binary main_v58 main_arg11 main_v59 ((fun l r => Host.dotGeneral dot_S4x1024x128_S128x512_S4x1024x512_2_0_01_1_n_n none l r) : (⟨S4x1024x128, .f32⟩ : BufTy).Contents (Elt F) → (⟨S128x512, .f32⟩ : BufTy).Contents (Elt F) → (⟨S4x1024x512, .f32⟩ : BufTy).Contents (Elt F)),
    unary main_arg12 main_v60 (broadcastInDim S1x1x512 ![2] bcast_S512_S1x1x512_2 : (⟨S512, .f32⟩ : BufTy).Contents (Elt F) → (⟨S1x1x512, .f32⟩ : BufTy).Contents (Elt F)),
    unary main_v60 main_v61 (broadcastInDim S4x1024x512 ![0, 1, 2] bcast_S1x1x512_S4x1024x512_0_1_2 : (⟨S1x1x512, .f32⟩ : BufTy).Contents (Elt F) → (⟨S4x1024x512, .f32⟩ : BufTy).Contents (Elt F)),
    binary main_v59 main_v61 main_v62 (addf : (⟨S4x1024x512, .f32⟩ : BufTy).Contents (Elt F) → (⟨S4x1024x512, .f32⟩ : BufTy).Contents (Elt F) → (⟨S4x1024x512, .f32⟩ : BufTy).Contents (Elt F)),
    nullary main_cst_8 (constant S_ .f32 0x3F000000#32),
    unary main_cst_8 main_v63 (broadcastInDim S4x1024x512 ![] bcast_S_S4x1024x512 : (⟨S_, .f32⟩ : BufTy).Contents (Elt F) → (⟨S4x1024x512, .f32⟩ : BufTy).Contents (Elt F)),
    binary main_v63 main_v62 main_v64 (mulf : (⟨S4x1024x512, .f32⟩ : BufTy).Contents (Elt F) → (⟨S4x1024x512, .f32⟩ : BufTy).Contents (Elt F) → (⟨S4x1024x512, .f32⟩ : BufTy).Contents (Elt F)),
    unary main_v62 main_v65 (Host.negf : (⟨S4x1024x512, .f32⟩ : BufTy).Contents (Elt F) → (⟨S4x1024x512, .f32⟩ : BufTy).Contents (Elt F)),
    nullary main_cst_9 (constant S_ .f32 0x3F3504F3#32),
    unary main_cst_9 main_v66 (broadcastInDim S4x1024x512 ![] bcast_S_S4x1024x512 : (⟨S_, .f32⟩ : BufTy).Contents (Elt F) → (⟨S4x1024x512, .f32⟩ : BufTy).Contents (Elt F)),
    binary main_v65 main_v66 main_v67 (mulf : (⟨S4x1024x512, .f32⟩ : BufTy).Contents (Elt F) → (⟨S4x1024x512, .f32⟩ : BufTy).Contents (Elt F) → (⟨S4x1024x512, .f32⟩ : BufTy).Contents (Elt F)),
    unary main_v67 main_v68 (Host.erfc : (⟨S4x1024x512, .f32⟩ : BufTy).Contents (Elt F) → (⟨S4x1024x512, .f32⟩ : BufTy).Contents (Elt F)),
    binary main_v64 main_v68 main_v69 (mulf : (⟨S4x1024x512, .f32⟩ : BufTy).Contents (Elt F) → (⟨S4x1024x512, .f32⟩ : BufTy).Contents (Elt F) → (⟨S4x1024x512, .f32⟩ : BufTy).Contents (Elt F)),
    binary main_v69 main_arg13 main_v70 ((fun l r => Host.dotGeneral dot_S4x1024x512_S512x128_S4x1024x128_2_0_01_1_n_n none l r) : (⟨S4x1024x512, .f32⟩ : BufTy).Contents (Elt F) → (⟨S512x128, .f32⟩ : BufTy).Contents (Elt F) → (⟨S4x1024x128, .f32⟩ : BufTy).Contents (Elt F)),
    unary main_arg14 main_v71 (broadcastInDim S1x1x128 ![2] bcast_S128_S1x1x128_2 : (⟨S128, .f32⟩ : BufTy).Contents (Elt F) → (⟨S1x1x128, .f32⟩ : BufTy).Contents (Elt F)),
    unary main_v71 main_v72 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v70 main_v72 main_v73 (addf : (⟨S4x1024x128, .f32⟩ : BufTy).Contents (Elt F) → (⟨S4x1024x128, .f32⟩ : BufTy).Contents (Elt F) → (⟨S4x1024x128, .f32⟩ : BufTy).Contents (Elt F)),
    binary main_v58 main_v73 main_v74 (addf : (⟨S4x1024x128, .f32⟩ : BufTy).Contents (Elt F) → (⟨S4x1024x128, .f32⟩ : BufTy).Contents (Elt F) → (⟨S4x1024x128, .f32⟩ : BufTy).Contents (Elt F)) ]
/-- The buffers that stretch writes. -/
abbrev segE_W : List (Ref sig .tc) := [main_v59, main_v60, main_v61, main_v62, main_cst_8, main_v63, main_v64, main_v65, main_cst_9, main_v66, main_v67, main_v68, main_v69, main_v70, main_v71, main_v72, main_v73, main_v74]
set_option maxRecDepth 8192 in
theorem segE_writes : (segE : List (HloOp τ sig (Elt F))).Forall fun op =>
    op.writes ⊆ (segE_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Operations 131 … 177: the second normalization (its variance function's operations at their call) and the node mask. -/
abbrev segG : List (HloOp τ sig (Elt F)) :=
  [ nullary main_cst_10 (constant S_ .f32 0x00000000#32),
    binary main_v74 main_cst_10 main_v75 ((fun x v => Host.reduceAdd x v reducesTo_S4x1024x128_S4x1024_d2 h_S_) : (⟨S4x1024x128, .f32⟩ : BufTy).Contents (Elt F) → (⟨S_, .f32⟩ : BufTy).Contents (Elt F) → (⟨S4x1024, .f32⟩ : BufTy).Contents (Elt F)),
    unary main_v75 main_v76 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_11 (constant S_ .f32 0x43000000#32),
    unary main_cst_11 main_v77 (broadcastInDim S4x1024x1 ![] bcast_S_S4x1024x1 : (⟨S_, .f32⟩ : BufTy).Contents (Elt F) → (⟨S4x1024x1, .f32⟩ : BufTy).Contents (Elt F)),
    binary main_v76 main_v77 main_v78 (Host.divf : (⟨S4x1024x1, .f32⟩ : BufTy).Contents (Elt F) → (⟨S4x1024x1, .f32⟩ : BufTy).Contents (Elt F) → (⟨S4x1024x1, .f32⟩ : BufTy).Contents (Elt F)),
    nullary main_c_12 (constantI S_ 32 0#32),
    TRef.nullary main_call2.cst (constant S_ .f32 0x00000000#32),
    TRef.binary (.of main_v74 : TRef sig ⟨S4x1024x128, .f32⟩) main_call2.cst main_call2.v0 (fun x v => Host.reduceAdd x v reducesTo_S4x1024x128_S4x1024_d2 h_S_),
    TRef.unary main_call2.v0 main_call2.v1 (broadcastInDim S4x1024x1 ![0, 1] bcast_S4x1024_S4x1024x1_0_1),
    TRef.nullary main_call2.cst_0 (constant S_ .f32 0x43000000#32),
    TRef.unary main_call2.cst_0 main_call2.v2 (broadcastInDim S4x1024x1 ![] bcast_S_S4x1024x1),
    TRef.binary main_call2.v1 main_call2.v2 main_call2.v3 Host.divf,
    TRef.unary main_call2.v3 main_call2.v4 (broadcastInDim S4x1024x128 ![0, 1, 2] bcast_S4x1024x1_S4x1024x128_0_1_2),
    TRef.binary (.of main_v74 : TRef sig ⟨S4x1024x128, .f32⟩) main_call2.v4 main_call2.v5 subf,
    TRef.binary main_call2.v5 main_call2.v5 main_call2.v6 mulf,
    TRef.unary (.of main_c_12 : TRef sig ⟨S_, .i32⟩) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4x1024x128_S4x1024_d2 h_S_),
    TRef.unary main_call2.v9 main_call2.v10 (broadcastInDim S4x1024x1 ![0, 1] bcast_S4x1024_S4x1024x1_0_1),
    TRef.unary main_call2.v8 main_call2.v11 (broadcastInDim S4x1024x1 ![] bcast_S_S4x1024x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S4x1024x1 ![] bcast_S_S4x1024x1),
    TRef.ternary main_call2.v13 main_call2.v12 main_call2.call0.v1 main_call2.call0.v2 (fun p a b => select (broadcastInDim S4x1024x1 ![] bcast_S_S4x1024x1 p) a b),
    unary main_v78 main_v80 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v74 main_v80 main_v81 (subf : (⟨S4x1024x128, .f32⟩ : BufTy).Contents (Elt F) → (⟨S4x1024x128, .f32⟩ : BufTy).Contents (Elt F) → (⟨S4x1024x128, .f32⟩ : BufTy).Contents (Elt F)),
    nullary main_cst_13 (constant S_ .f32 0x3727C5AC#32),
    unary main_cst_13 main_v82 (broadcastInDim S4x1024x1 ![] bcast_S_S4x1024x1 : (⟨S_, .f32⟩ : BufTy).Contents (Elt F) → (⟨S4x1024x1, .f32⟩ : BufTy).Contents (Elt F)),
    binary main_v79 main_v82 main_v83 (addf : (⟨S4x1024x1, .f32⟩ : BufTy).Contents (Elt F) → (⟨S4x1024x1, .f32⟩ : BufTy).Contents (Elt F) → (⟨S4x1024x1, .f32⟩ : BufTy).Contents (Elt F)),
    unary main_v83 main_v84 (Host.sqrt : (⟨S4x1024x1, .f32⟩ : BufTy).Contents (Elt F) → (⟨S4x1024x1, .f32⟩ : BufTy).Contents (Elt F)),
    unary main_v84 main_v85 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v81 main_v85 main_v86 (Host.divf : (⟨S4x1024x128, .f32⟩ : BufTy).Contents (Elt F) → (⟨S4x1024x128, .f32⟩ : BufTy).Contents (Elt F) → (⟨S4x1024x128, .f32⟩ : BufTy).Contents (Elt F)),
    unary main_arg17 main_v87 (broadcastInDim S1x1x128 ![2] bcast_S128_S1x1x128_2 : (⟨S128, .f32⟩ : BufTy).Contents (Elt F) → (⟨S1x1x128, .f32⟩ : BufTy).Contents (Elt F)),
    unary main_v87 main_v88 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v86 main_v88 main_v89 (mulf : (⟨S4x1024x128, .f32⟩ : BufTy).Contents (Elt F) → (⟨S4x1024x128, .f32⟩ : BufTy).Contents (Elt F) → (⟨S4x1024x128, .f32⟩ : BufTy).Contents (Elt F)),
    unary main_arg18 main_v90 (broadcastInDim S1x1x128 ![2] bcast_S128_S1x1x128_2 : (⟨S128, .f32⟩ : BufTy).Contents (Elt F) → (⟨S1x1x128, .f32⟩ : BufTy).Contents (Elt F)),
    unary main_v90 main_v91 (broadcastInDim S4x1024x128 ![0, 1, 2] bcast_S1x1x128_S4x1024x128_0_1_2 : (⟨S1x1x128, .f32⟩ : BufTy).Contents (Elt F) → (⟨S4x1024x128, .f32⟩ : BufTy).Contents (Elt F)),
    binary main_v89 main_v91 main_v92 (addf : (⟨S4x1024x128, .f32⟩ : BufTy).Contents (Elt F) → (⟨S4x1024x128, .f32⟩ : BufTy).Contents (Elt F) → (⟨S4x1024x128, .f32⟩ : BufTy).Contents (Elt F)),
    unary main_arg3 main_v93 (broadcastInDim S4x1024x1 ![0, 1] bcast_S4x1024_S4x1024x1_0_1 : (⟨S4x1024, .f32⟩ : BufTy).Contents (Elt F) → (⟨S4x1024x1, .f32⟩ : BufTy).Contents (Elt F)),
    unary main_v93 main_v94 (broadcastInDim S4x1024x128 ![0, 1, 2] bcast_S4x1024x1_S4x1024x128_0_1_2 : (⟨S4x1024x1, .f32⟩ : BufTy).Contents (Elt F) → (⟨S4x1024x128, .f32⟩ : BufTy).Contents (Elt F)),
    binary main_v94 main_v92 main_v95 (mulf : (⟨S4x1024x128, .f32⟩ : BufTy).Contents (Elt F) → (⟨S4x1024x128, .f32⟩ : BufTy).Contents (Elt F) → (⟨S4x1024x128, .f32⟩ : BufTy).Contents (Elt F)) ]
/-- The buffers that stretch writes. -/
abbrev segG_W : List (Ref sig .tc) := [main_cst_10, main_v75, main_v76, main_cst_11, main_v77, main_v78, main_c_12, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref, main_v80, main_v81, main_cst_13, main_v82, main_v83, main_v84, main_v85, main_v86, main_v87, main_v88, main_v89, main_v90, main_v91, main_v92, main_v93, main_v94, main_v95]
set_option maxRecDepth 8192 in
theorem segG_writes : (segG : List (HloOp τ sig (Elt F))).Forall fun op =>
    op.writes ⊆ (segG_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem ops_split : (ops : List (HloOp τ sig (Elt F))) = segA ++ (segB ++ (segC ++ (segD ++ (segE ++ segG)))) := rfl

/-- The node features plus the aggregated messages (before the first normalization). -/
def res_x0 (hV : FVec F S4x1024x128 .f32) (hE : FVec F S4x1024x36x128 .f32) (eIdx : IVec S4x1024x36 32)
    (maskA : FVec F S4x1024x36 .f32) (W1 : FVec F S384x128 .f32) (b1 : FVec F S128 .f32) (W2 : FVec F S128x128 .f32)
    (b2 : FVec F S128 .f32) (W3 : FVec F S128x128 .f32) (b3 : FVec F S128 .f32) : FVec F S4x1024x128 .f32 :=
  addf hV (aggregate maskA (message hV hE eIdx W1 b1 W2 b2 W3 b3))

/-- The normalized features plus the feed-forward network's output (before the second normalization). -/
def res_x2 (hV : FVec F S4x1024x128 .f32) (hE : FVec F S4x1024x36x128 .f32) (eIdx : IVec S4x1024x36 32)
    (maskA : FVec F S4x1024x36 .f32) (W1 : FVec F S384x128 .f32) (b1 : FVec F S128 .f32) (W2 : FVec F S128x128 .f32)
    (b2 : FVec F S128 .f32) (W3 : FVec F S128x128 .f32) (b3 : FVec F S128 .f32) (Win : FVec F S128x512 .f32)
    (bi : FVec F S512 .f32) (Wout : FVec F S512x128 .f32) (bo : FVec F S128 .f32) (g1 be1 : FVec F S128 .f32) :
    FVec F S4x1024x128 .f32 :=
  addf (res_x1 hV hE eIdx maskA W1 b1 W2 b2 W3 b3 g1 be1) (ffn (res_x1 hV hE eIdx maskA W1 b1 W2 b2 W3 b3 g1 be1) Win bi Wout bo)

/-- The buffer contents after the first stretch, the first two, … from contents `V`. -/
def valA (V : Valuation τ sig (Elt F)) : Valuation τ sig (Elt F) := after segA V
@[inherit_doc valA] def valB (V : Valuation τ sig (Elt F)) : Valuation τ sig (Elt F) := after segB (valA V)
@[inherit_doc valA] def valC (V : Valuation τ sig (Elt F)) : Valuation τ sig (Elt F) := after segC (valB V)
@[inherit_doc valA] def valD (V : Valuation τ sig (Elt F)) : Valuation τ sig (Elt F) := after segD (valC V)
@[inherit_doc valA] def valE (V : Valuation τ sig (Elt F)) : Valuation τ sig (Elt F) := after segE (valD V)
@[inherit_doc valA] def valG (V : Valuation τ sig (Elt F)) : Valuation τ sig (Elt F) := after segG (valE V)

/-- The whole list's fold is the stretches' folds in turn. -/
theorem after_ops (V : Valuation τ sig (Elt F)) : after ops V = valG V := by
  rw [ops_split, after_append', after_append', after_append', after_append', after_append']
  rfl

/-- A buffer the stretches so far do not write keeps its contents. -/
theorem valA_keep (V : Valuation τ sig (Elt F)) (r : Ref sig .tc) (hA : r ∉ segA_W) : valA V (Proc.devRef (τ := τ) .tc r) = V (Proc.devRef (τ := τ) .tc r) :=
  after_of_writes_sub segA V segA_writes hA
@[inherit_doc valA_keep]
theorem valB_keep (V : Valuation τ sig (Elt F)) (r : Ref sig .tc) (hA : r ∉ segA_W) (hB : r ∉ segB_W) : valB V (Proc.devRef (τ := τ) .tc r) = V (Proc.devRef (τ := τ) .tc r) :=
  (after_of_writes_sub segB (valA V) segB_writes hB).trans (valA_keep V r hA)
@[inherit_doc valA_keep]
theorem valC_keep (V : Valuation τ sig (Elt F)) (r : Ref sig .tc) (hA : r ∉ segA_W) (hB : r ∉ segB_W) (hC : r ∉ segC_W) :
    valC V (Proc.devRef (τ := τ) .tc r) = V (Proc.devRef (τ := τ) .tc r) :=
  (after_of_writes_sub segC (valB V) segC_writes hC).trans (valB_keep V r hA hB)
@[inherit_doc valA_keep]
theorem valD_keep (V : Valuation τ sig (Elt F)) (r : Ref sig .tc) (hA : r ∉ segA_W) (hB : r ∉ segB_W) (hC : r ∉ segC_W) (hD : r ∉ segD_W) :
    valD V (Proc.devRef (τ := τ) .tc r) = V (Proc.devRef (τ := τ) .tc r) :=
  (after_of_writes_sub segD (valC V) segD_writes hD).trans (valC_keep V r hA hB hC)
@[inherit_doc valA_keep]
theorem valE_keep (V : Valuation τ sig (Elt F)) (r : Ref sig .tc) (hA : r ∉ segA_W) (hB : r ∉ segB_W) (hC : r ∉ segC_W) (hD : r ∉ segD_W)
    (hE : r ∉ segE_W) : valE V (Proc.devRef (τ := τ) .tc r) = V (Proc.devRef (τ := τ) .tc r) :=
  (after_of_writes_sub segE (valD V) segE_writes hE).trans (valD_keep V r hA hB hC hD)
@[inherit_doc valA_keep]
theorem valG_keep (V : Valuation τ sig (Elt F)) (r : Ref sig .tc) (hA : r ∉ segA_W) (hB : r ∉ segB_W) (hC : r ∉ segC_W) (hD : r ∉ segD_W)
    (hE : r ∉ segE_W) (hG : r ∉ segG_W) : valG V (Proc.devRef (τ := τ) .tc r) = V (Proc.devRef (τ := τ) .tc r) :=
  (after_of_writes_sub segG (valE V) segG_writes hG).trans (valE_keep V r hA hB hC hD hE)

set_option maxRecDepth 16384 in
set_option maxHeartbeats 4000000 in
/-- After the first stretch: the gathered neighbour features. -/
theorem valA_v3 (V : Valuation τ sig (Elt F)) : valA V (Proc.devRef (τ := τ) .tc main_v3) = gathered (V (Proc.devRef (τ := τ) .tc main_arg0)) (V (Proc.devRef (τ := τ) .tc main_arg2)) := by
  unfold valA
  simp only [segA]
  after_results_simp
  simp only [TRef.ofBuf, TRef.toBuf, cast_cast, cast_eq]
  rfl

set_option maxRecDepth 16384 in
/-- After the second stretch: the edge features joined with the gathered ones. -/
theorem valB_v4 (V : Valuation τ sig (Elt F)) : valB V (Proc.devRef (τ := τ) .tc main_v4)
    = concatenate S4x1024x36x256 3 [⟨S4x1024x36x128, (V (Proc.devRef (τ := τ) .tc main_arg1))⟩, ⟨S4x1024x36x128, gathered (V (Proc.devRef (τ := τ) .tc main_arg0)) (V (Proc.devRef (τ := τ) .tc main_arg2))⟩]
        concatenates_S4x1024x36x128_S4x1024x36x128_S4x1024x36x256_d3 := by
  unfold valB
  simp only [segB]
  after_results_simp
  rw [valA_v3, valA_keep V main_arg1 (by decide)]

set_option maxRecDepth 16384 in
/-- After the second stretch: the node features spread over the neighbours. -/
theorem valB_v6 (V : Valuation τ sig (Elt F)) : valB V (Proc.devRef (τ := τ) .tc main_v6)
    = broadcastInDim S4x1024x36x128 ![0, 1, 2, 3] bcast_S4x1024x1x128_S4x1024x36x128_0_1_2_3
        (broadcastInDim S4x1024x1x128 ![0, 1, 3] bcast_S4x1024x128_S4x1024x1x128_0_1_3 (V (Proc.devRef (τ := τ) .tc main_arg0))) := by
  unfold valB
  simp only [segB]
  after_results_simp
  rw [valA_keep V main_arg0 (by decide)]

set_option maxRecDepth 16384 in
set_option maxHeartbeats 4000000 in
/-- After the third stretch: the node features plus the aggregated messages. -/
theorem valC_v40 (V : Valuation τ sig (Elt F)) : valC V (Proc.devRef (τ := τ) .tc main_v40) = res_x0 (V (Proc.devRef (τ := τ) .tc main_arg0)) (V (Proc.devRef (τ := τ) .tc main_arg1)) (V (Proc.devRef (τ := τ) .tc main_arg2)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) := by
  unfold valC
  simp only [segC]
  after_results_simp
  rw [valB_v4, valB_v6, valB_keep V main_arg0 (by decide) (by decide),
    valB_keep V main_arg4 (by decide) (by decide),
    valB_keep V main_arg5 (by decide) (by decide),
    valB_keep V main_arg6 (by decide) (by decide),
    valB_keep V main_arg7 (by decide) (by decide),
    valB_keep V main_arg8 (by decide) (by decide),
    valB_keep V main_arg9 (by decide) (by decide),
    valB_keep V main_arg10 (by decide) (by decide)]
  rfl

set_option maxRecDepth 16384 in
set_option maxHeartbeats 4000000 in
/-- After the fourth stretch: the first normalization's output. -/
theorem valD_v58 (V : Valuation τ sig (Elt F)) : valD V (Proc.devRef (τ := τ) .tc main_v58) = res_x1 (V (Proc.devRef (τ := τ) .tc main_arg0)) (V (Proc.devRef (τ := τ) .tc main_arg1)) (V (Proc.devRef (τ := τ) .tc main_arg2)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg15)) (V (Proc.devRef (τ := τ) .tc main_arg16)) := by
  unfold valD
  simp only [segD]
  after_results_simp
  rw [valC_v40, valC_keep V main_arg15 (by decide) (by decide) (by decide), valC_keep V main_arg16 (by decide) (by decide) (by decide)]
  rfl

set_option maxRecDepth 16384 in
set_option maxHeartbeats 4000000 in
/-- After the fifth stretch: the normalized features plus the feed-forward network's output. -/
theorem valE_v74 (V : Valuation τ sig (Elt F)) : valE V (Proc.devRef (τ := τ) .tc main_v74) = res_x2 (V (Proc.devRef (τ := τ) .tc main_arg0)) (V (Proc.devRef (τ := τ) .tc main_arg1)) (V (Proc.devRef (τ := τ) .tc main_arg2)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) := by
  unfold valE
  simp only [segE]
  after_results_simp
  rw [valD_v58, valD_keep V main_arg11 (by decide) (by decide) (by decide) (by decide),
    valD_keep V main_arg12 (by decide) (by decide) (by decide) (by decide),
    valD_keep V main_arg13 (by decide) (by decide) (by decide) (by decide),
    valD_keep V main_arg14 (by decide) (by decide) (by decide) (by decide)]
  rfl

set_option maxRecDepth 16384 in
set_option maxHeartbeats 4000000 in
/-- After the last stretch: the result. -/
theorem valG_v95 (V : Valuation τ sig (Elt F)) : valG V (Proc.devRef (τ := τ) .tc main_v95) = res (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) := by
  unfold valG
  simp only [segG]
  after_results_simp
  rw [valE_v74, valE_keep V main_arg3 (by decide) (by decide) (by decide) (by decide) (by decide), valE_keep V main_arg17 (by decide) (by decide) (by decide) (by decide) (by decide), valE_keep V main_arg18 (by decide) (by decide) (by decide) (by decide) (by decide)]
  rfl

/-- The result buffer after the whole list. -/
theorem out_eq (V : Valuation τ sig (Elt F)) : after ops V (Proc.devRef (τ := τ) .tc main_v95) = res (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13)) (V (Proc.devRef (τ := τ) .tc main_arg14)) (V (Proc.devRef (τ := τ) .tc main_arg15)) (V (Proc.devRef (τ := τ) .tc main_arg16)) (V (Proc.devRef (τ := τ) .tc main_arg17)) (V (Proc.devRef (τ := τ) .tc main_arg18)) := by
  rw [after_ops]
  exact valG_v95 V

/-- A buffer no operation writes keeps its contents through the whole list. -/
theorem ops_keep (V : Valuation τ sig (Elt F)) (r : Ref sig .tc) (hA : r ∉ segA_W) (hB : r ∉ segB_W) (hC : r ∉ segC_W) (hD : r ∉ segD_W)
    (hE : r ∉ segE_W) (hG : r ∉ segG_W) : after ops V (Proc.devRef (τ := τ) .tc r) = V (Proc.devRef (τ := τ) .tc r) := by
  rw [after_ops]
  exact valG_keep V r hA hB hC hD hE hG

set_option maxRecDepth 8192 in
/-- No operation leaves a buffer at contents it does not determine. -/
theorem ops_fresh : ∀ op ∈ (ops : List (HloOp τ sig (Elt F))), op.fresh = ∅ :=
  List.forall_iff_forall_mem.mp (show (ops : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- On every device, for any float values, from any memory with zero counters: every weakly fair execution of
    @main terminates with the result buffer at `res` of the arguments' launch contents and the arguments unchanged. -/
theorem run (m : (ℓ : Loc nD τ sig) → Buf (Elt F) ℓ) (g : Dev nD → PrngReg) :
    θ_run defs (onTc (τ := τ) (main (F := F))) ⟨m, fun _ => 0, g⟩ fun r => ∀ c : Dev nD,
      r.2.mem ((c.tc : Thread nD τ).loc main_v95) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v95).trans (out_eq (launchContents m c)),
      (h c main_arg0).trans (ops_keep (launchContents m c) main_arg0 (by decide) (by decide) (by decide) (by decide) (by decide) (by decide)),
      (h c main_arg1).trans (ops_keep (launchContents m c) main_arg1 (by decide) (by decide) (by decide) (by decide) (by decide) (by decide)),
      (h c main_arg2).trans (ops_keep (launchContents m c) main_arg2 (by decide) (by decide) (by decide) (by decide) (by decide) (by decide)),
      (h c main_arg3).trans (ops_keep (launchContents m c) main_arg3 (by decide) (by decide) (by decide) (by decide) (by decide) (by decide)),
      (h c main_arg4).trans (ops_keep (launchContents m c) main_arg4 (by decide) (by decide) (by decide) (by decide) (by decide) (by decide)),
      (h c main_arg5).trans (ops_keep (launchContents m c) main_arg5 (by decide) (by decide) (by decide) (by decide) (by decide) (by decide)),
      (h c main_arg6).trans (ops_keep (launchContents m c) main_arg6 (by decide) (by decide) (by decide) (by decide) (by decide) (by decide)),
      (h c main_arg7).trans (ops_keep (launchContents m c) main_arg7 (by decide) (by decide) (by decide) (by decide) (by decide) (by decide)),
      (h c main_arg8).trans (ops_keep (launchContents m c) main_arg8 (by decide) (by decide) (by decide) (by decide) (by decide) (by decide)),
      (h c main_arg9).trans (ops_keep (launchContents m c) main_arg9 (by decide) (by decide) (by decide) (by decide) (by decide) (by decide)),
      (h c main_arg10).trans (ops_keep (launchContents m c) main_arg10 (by decide) (by decide) (by decide) (by decide) (by decide) (by decide)),
      (h c main_arg11).trans (ops_keep (launchContents m c) main_arg11 (by decide) (by decide) (by decide) (by decide) (by decide) (by decide)),
      (h c main_arg12).trans (ops_keep (launchContents m c) main_arg12 (by decide) (by decide) (by decide) (by decide) (by decide) (by decide)),
      (h c main_arg13).trans (ops_keep (launchContents m c) main_arg13 (by decide) (by decide) (by decide) (by decide) (by decide) (by decide)),
      (h c main_arg14).trans (ops_keep (launchContents m c) main_arg14 (by decide) (by decide) (by decide) (by decide) (by decide) (by decide)),
      (h c main_arg15).trans (ops_keep (launchContents m c) main_arg15 (by decide) (by decide) (by decide) (by decide) (by decide) (by decide)),
      (h c main_arg16).trans (ops_keep (launchContents m c) main_arg16 (by decide) (by decide) (by decide) (by decide) (by decide) (by decide)),
      (h c main_arg17).trans (ops_keep (launchContents m c) main_arg17 (by decide) (by decide) (by decide) (by decide) (by decide) (by decide)),
      (h c main_arg18).trans (ops_keep (launchContents m c) main_arg18 (by decide) (by decide) (by decide) (by decide) (by decide) (by decide))⟩)
    (run_seq scopedRefs_eq scopedSems_eq defs main (fun _ => ops) main_eq (fun _ => ops_sub) m g (fun _ => ops_fresh))

end Cert.ReferenceIdeal.HandRun

end
-- ==== Proof.Spec.lean ====
/-
  The mathematics of the claim, once, over plain index types with literal sizes: the
  message-passing layer as the reference arranges it (`out`), as the kernel arranges it
  (`nodeK`, `outK`). Every value is an extended real; every operation is the ideal instance's own.
  Their equality on finite arguments is `outK_eq_out` of the module SpecLaws.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Fin
import Mathlib.Algebra.BigOperators.Ring.Finset

noncomputable section

namespace Cert.Spec

open Idealize.ShloMosaic
open scoped BigOperators

/-! ## The literal words (kept as bit patterns; the same word stands on both sides) -/

/-- The f32 word of `0.5`. -/
local notation "half" => (Ideal.ofBits FTy.f32 0x3F000000#32 : EReal)
/-- The f32 word nearest `1/√2`. -/
local notation "cG" => (Ideal.ofBits FTy.f32 0x3F3504F3#32 : EReal)
/-- The f32 word of the layer norms' `ε`. -/
local notation "eps" => (Ideal.ofBits FTy.f32 0x3727C5AC#32 : EReal)
/-- The f32 word of `128`. -/
local notation "w128" => (Ideal.ofBits FTy.f32 0x43000000#32 : EReal)
/-- The f32 word of `36`. -/
local notation "w36" => (Ideal.ofBits FTy.f32 0x42100000#32 : EReal)
/-- The rational `1/36`. -/
local notation "inv36" => ((1 / 36 : ℝ) : EReal)

/-! ## The arguments -/

/-- The layer's arguments, curried over literal index types; the neighbour index already a `Fin 1024`. -/
structure Args where
  hV : Fin 4 → Fin 1024 → Fin 128 → EReal
  hE : Fin 4 → Fin 1024 → Fin 36 → Fin 128 → EReal
  idx : Fin 4 → Fin 1024 → Fin 36 → Fin 1024
  mV : Fin 4 → Fin 1024 → EReal
  mA : Fin 4 → Fin 1024 → Fin 36 → EReal
  W1 : Fin 384 → Fin 128 → EReal
  b1 : Fin 128 → EReal
  W2 : Fin 128 → Fin 128 → EReal
  b2 : Fin 128 → EReal
  W3 : Fin 128 → Fin 128 → EReal
  b3 : Fin 128 → EReal
  Win : Fin 128 → Fin 512 → EReal
  bi : Fin 512 → EReal
  Wout : Fin 512 → Fin 128 → EReal
  bo : Fin 128 → EReal
  g1 : Fin 128 → EReal
  be1 : Fin 128 → EReal
  g2 : Fin 128 → EReal
  be2 : Fin 128 → EReal

/-- An extended real that is a real number. -/
def IsReal (x : EReal) : Prop := ∃ r : ℝ, x = (r : EReal)

theorem isReal_of_ne {x : EReal} (h₁ : x ≠ ⊤) (h₂ : x ≠ ⊥) : IsReal x :=
  ⟨x.toReal, (EReal.coe_toReal h₁ h₂).symm⟩

/-- From the precondition's reading of "finite": the absolute value `max x (-x)` below `⊤`. -/
theorem isReal_of_abs_lt_top {x : EReal} (h : max x (-x) < ⊤) : IsReal x := by
  refine isReal_of_ne ?_ ?_
  · rintro rfl; simp at h
  · rintro rfl; simp at h

/-- Every float argument entry is a real number. -/
structure Args.Finite (a : Args) : Prop where
  hV : ∀ b n j, IsReal (a.hV b n j)
  hE : ∀ b n k j, IsReal (a.hE b n k j)
  mV : ∀ b n, IsReal (a.mV b n)
  mA : ∀ b n k, IsReal (a.mA b n k)
  W1 : ∀ i j, IsReal (a.W1 i j)
  b1 : ∀ j, IsReal (a.b1 j)
  W2 : ∀ i j, IsReal (a.W2 i j)
  b2 : ∀ j, IsReal (a.b2 j)
  W3 : ∀ i j, IsReal (a.W3 i j)
  b3 : ∀ j, IsReal (a.b3 j)
  Win : ∀ i j, IsReal (a.Win i j)
  bi : ∀ j, IsReal (a.bi j)
  Wout : ∀ i j, IsReal (a.Wout i j)
  bo : ∀ j, IsReal (a.bo j)
  g1 : ∀ j, IsReal (a.g1 j)
  be1 : ∀ j, IsReal (a.be1 j)
  g2 : ∀ j, IsReal (a.g2 j)
  be2 : ∀ j, IsReal (a.be2 j)

/-! ## The reference's arrangement -/

/-- The exact GELU as the reference spells it: `(0.5 · x) · erfc ((-x) · c)`. -/
def geluR (x : EReal) : EReal := (half * x) * Ideal.erfc ((-x) * cG)

/-- Layer norm as the reference spells it: `(x - mean) / sqrt (var + ε) · g + b`, the mean the sum
    over the word `128`, the variance the sum of the squared deviations over the word `128`. -/
def lnR (g b : Fin 128 → EReal) (x : Fin 128 → EReal) (h : Fin 128) : EReal :=
  let mean := Ideal.div (∑ j, x j) w128
  let var := Ideal.div (∑ j, (x j - mean) * (x j - mean)) w128
  Ideal.div (x h - mean) (Ideal.sqrt (var + eps)) * g h + b h

/-- The 384-wide concatenation `[h_V i | h_E i k | h_V (idx i k)]` read at a column. -/
def cat (a : Args) (b : Fin 4) (n : Fin 1024) (k : Fin 36) (j : Fin 384) : EReal :=
  if h₁ : j.val < 128 then a.hV b n ⟨j.val, h₁⟩
  else if h₂ : j.val < 256 then a.hE b n k ⟨j.val - 128, by omega⟩
  else a.hV b (a.idx b n k) ⟨j.val - 256, by omega⟩

def pre1R (a : Args) (b : Fin 4) (n : Fin 1024) (k : Fin 36) (h : Fin 128) : EReal :=
  (∑ j : Fin 384, cat a b n k j * a.W1 j h) + a.b1 h

def m1R (a : Args) (b : Fin 4) (n : Fin 1024) (k : Fin 36) (h : Fin 128) : EReal :=
  geluR (pre1R a b n k h)

def m2R (a : Args) (b : Fin 4) (n : Fin 1024) (k : Fin 36) (h : Fin 128) : EReal :=
  geluR ((∑ j : Fin 128, m1R a b n k j * a.W2 j h) + a.b2 h)

/-- The message of edge `(i, k)`. -/
def msgR (a : Args) (b : Fin 4) (n : Fin 1024) (k : Fin 36) (h : Fin 128) : EReal :=
  (∑ j : Fin 128, m2R a b n k j * a.W3 j h) + a.b3 h

/-- The masked messages summed over the neighbours, divided by the word `36`. -/
def dhR (a : Args) (b : Fin 4) (n : Fin 1024) (h : Fin 128) : EReal :=
  Ideal.div (∑ k : Fin 36, a.mA b n k * msgR a b n k h) w36

def x0R (a : Args) (b : Fin 4) (n : Fin 1024) (h : Fin 128) : EReal :=
  a.hV b n h + dhR a b n h

def x1R (a : Args) (b : Fin 4) (n : Fin 1024) : Fin 128 → EReal :=
  lnR a.g1 a.be1 (x0R a b n)

def ffnR (a : Args) (b : Fin 4) (n : Fin 1024) (h : Fin 128) : EReal :=
  (∑ j : Fin 512, geluR ((∑ i : Fin 128, x1R a b n i * a.Win i j) + a.bi j) * a.Wout j h) + a.bo h

def x2R (a : Args) (b : Fin 4) (n : Fin 1024) (h : Fin 128) : EReal :=
  x1R a b n h + ffnR a b n h

/-- The layer as the reference computes it. -/
def out (a : Args) (b : Fin 4) (n : Fin 1024) (h : Fin 128) : EReal :=
  a.mV b n * lnR a.g2 a.be2 (x2R a b n) h

/-! ## The kernel's arrangement -/

/-- The weights as the kernel's node computation takes them. -/
structure WtsK where
  W1a : Fin 128 → Fin 128 → EReal
  W1b : Fin 128 → Fin 128 → EReal
  b1 : Fin 128 → EReal
  W2 : Fin 128 → Fin 128 → EReal
  b2 : Fin 128 → EReal
  W3 : Fin 128 → Fin 128 → EReal
  b3 : Fin 128 → EReal
  Win : Fin 128 → Fin 512 → EReal
  bi : Fin 512 → EReal
  Wout : Fin 512 → Fin 128 → EReal
  bo : Fin 128 → EReal
  g1 : Fin 128 → EReal
  be1 : Fin 128 → EReal
  g2 : Fin 128 → EReal
  be2 : Fin 128 → EReal

/-- The exact GELU as the kernel spells it: `x · (0.5 + 0.5 · erf (x · c))`. -/
def geluK (x : EReal) : EReal := x * (half + half * Ideal.erf (x * cG))

/-- Layer norm as the kernel spells it: `(x - mean) · rsqrt (var + ε) · g + b`. -/
def lnK (g b : Fin 128 → EReal) (x : Fin 128 → EReal) (h : Fin 128) : EReal :=
  let mean := Ideal.div (∑ j, x j) w128
  let var := Ideal.div (∑ j, (x j - mean) * (x j - mean)) w128
  ((x h - mean) * Ideal.rsqrt (var + eps)) * g h + b h

/-- One node of the layer in the kernel's arrangement: `hv` the node's own row, `he k` its `k`-th edge
    row, `gg k` the already projected neighbour row (the neighbour's row times rows `256..383` of the first
    weight), `ma k` and `mv` the masks. -/
def nodeK (w : WtsK) (hv : Fin 128 → EReal) (he gg : Fin 36 → Fin 128 → EReal) (ma : Fin 36 → EReal)
    (mv : EReal) (h : Fin 128) : EReal :=
  let q := fun h => (∑ j, hv j * w.W1a j h) + w.b1 h
  let pre1 := fun k h => ((∑ j, he k j * w.W1b j h) + gg k h) + q h
  let m1 := fun k h => geluK (pre1 k h)
  let m2 := fun k h => geluK ((∑ j, m1 k j * w.W2 j h) + w.b2 h)
  let s := fun h => ∑ k, ma k * m2 k h
  let cnt := ∑ k, ma k
  let dh := fun h => ((∑ j, s j * w.W3 j h) + cnt * w.b3 h) * inv36
  let x := lnK w.g1 w.be1 (fun h => hv h + dh h)
  let f := fun h => (∑ j, geluK ((∑ i, x i * w.Win i j) + w.bi j) * w.Wout j h) + w.bo h
  let y := lnK w.g2 w.be2 (fun h => x h + f h)
  y h * mv

/-- The kernel's weights out of the arguments: the first weight's rows `0..127` and `128..255`. -/
def wtsK (a : Args) : WtsK where
  W1a := fun j h => a.W1 ⟨j.val, by omega⟩ h
  W1b := fun j h => a.W1 ⟨128 + j.val, by omega⟩ h
  b1 := a.b1
  W2 := a.W2
  b2 := a.b2
  W3 := a.W3
  b3 := a.b3
  Win := a.Win
  bi := a.bi
  Wout := a.Wout
  bo := a.bo
  g1 := a.g1
  be1 := a.be1
  g2 := a.g2
  be2 := a.be2

/-- The projected neighbour rows: the neighbour's row times rows `256..383` of the first weight. -/
def ggK (a : Args) (b : Fin 4) (n : Fin 1024) (k : Fin 36) (h : Fin 128) : EReal :=
  ∑ j : Fin 128, a.hV b (a.idx b n k) j * a.W1 ⟨256 + j.val, by omega⟩ h

/-- The layer as the kernel computes it. -/
def outK (a : Args) (b : Fin 4) (n : Fin 1024) (h : Fin 128) : EReal :=
  nodeK (wtsK a) (a.hV b n) (a.hE b n) (ggK a b n) (a.mA b n) (a.mV b n) h

end Cert.Spec

end
-- ==== Proof.SpecLaws.lean ====
/-
  The two arrangements of the message-passing layer compute one value on finite arguments:
  `outK a = out a`. The laws used: a sum over 384 columns splits into three sums over 128; the
  error function is odd, so `erfc (-y) = 1 + erf y`; on reals the mask distributes over a message
  and the two summations exchange; division by the word `36` is multiplication by `1/36`; division
  by the square root of a positive real is multiplication by its reciprocal square root.
-/
import proofs.«215572_g25211458027672_cont_9to1_2008_46_alg».proof.Proof.Spec
import Mathlib.Analysis.SpecialFunctions.Sqrt
import Mathlib.Tactic.Ring
import Mathlib.Tactic.Abel
import Mathlib.Tactic.Positivity
import Mathlib.Tactic.NormNum
import Mathlib.Tactic.Linarith

noncomputable section

namespace Cert.Spec

open Idealize.ShloMosaic
open scoped BigOperators

local notation "half" => (Ideal.ofBits FTy.f32 0x3F000000#32 : EReal)
local notation "cG" => (Ideal.ofBits FTy.f32 0x3F3504F3#32 : EReal)
local notation "eps" => (Ideal.ofBits FTy.f32 0x3727C5AC#32 : EReal)
local notation "w128" => (Ideal.ofBits FTy.f32 0x43000000#32 : EReal)
local notation "w36" => (Ideal.ofBits FTy.f32 0x42100000#32 : EReal)
local notation "inv36" => ((1 / 36 : ℝ) : EReal)

/-! ## The words as reals -/

theorem half_eq : half = ((1 / 2 : ℝ) : EReal) := by
  simp [Ideal.ofBits, Ideal.ieee, -EReal.coe_mul]; norm_num
theorem cG_eq : cG = ((11863283 / 16777216 : ℝ) : EReal) := by
  simp [Ideal.ofBits, Ideal.ieee, -EReal.coe_mul]; norm_num
theorem eps_eq : eps = ((10995116 / 1099511627776 : ℝ) : EReal) := by
  simp [Ideal.ofBits, Ideal.ieee, -EReal.coe_mul]; norm_num
theorem w128_eq : w128 = ((128 : ℝ) : EReal) := by
  simp [Ideal.ofBits, Ideal.ieee, -EReal.coe_mul]; norm_num
theorem w36_eq : w36 = ((36 : ℝ) : EReal) := by
  simp [Ideal.ofBits, Ideal.ieee, -EReal.coe_mul]; norm_num

/-! ## Real extended reals are closed under the operations -/

theorem IsReal.coe (r : ℝ) : IsReal (r : EReal) := ⟨r, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.sum {ι : Type*} (s : Finset ι) (f : ι → EReal) (h : ∀ i ∈ s, IsReal (f i)) :
    IsReal (∑ i ∈ s, f i) :=
  Finset.sum_induction f IsReal (fun _ _ => IsReal.add) ⟨0, rfl⟩ h

/-- The coercion of a real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.erfc {x : EReal} (hx : IsReal x) : IsReal (Ideal.erfc x) := by
  obtain ⟨r, rfl⟩ := hx
  rw [Ideal.erfc, Ideal.erf_coe]
  exact (IsReal.coe 1).sub (IsReal.coe _)

theorem IsReal.div36 {x : EReal} (hx : IsReal x) : IsReal (Ideal.div x w36) := by
  rw [w36_eq, Ideal.div_coe (by norm_num : (36 : ℝ) ≠ 0)]
  exact hx.mul (IsReal.coe _)

theorem half_isReal : IsReal half := ⟨_, half_eq⟩
theorem cG_isReal : IsReal cG := ⟨_, cG_eq⟩

/-! ## The activation -/

theorem geluK_eq_geluR {x : EReal} (hx : IsReal x) : geluK x = geluR x := by
  obtain ⟨r, rfl⟩ := hx
  unfold geluK geluR
  rw [neg_mul, Ideal.erfc_neg, half_eq, cG_eq, ← EReal.coe_mul r, Ideal.erf_coe]
  norm_cast
  ring

theorem geluR_isReal {x : EReal} (hx : IsReal x) : IsReal (geluR x) := by
  obtain ⟨r, rfl⟩ := hx
  unfold geluR
  exact (half_isReal.mul (IsReal.coe r)).mul (((IsReal.coe (-r)).mul cG_isReal).erfc)

/-! ## The layer norm -/

/-- The mean of a 128-vector. -/
def meanOf (x : Fin 128 → EReal) : EReal := Ideal.div (∑ j, x j) w128

/-- The variance of a 128-vector. -/
def varOf (x : Fin 128 → EReal) : EReal := Ideal.div (∑ j, (x j - meanOf x) * (x j - meanOf x)) w128

theorem lnK_def (g b x : Fin 128 → EReal) (h : Fin 128) :
    lnK g b x h = ((x h - meanOf x) * Ideal.rsqrt (varOf x + eps)) * g h + b h := rfl

theorem lnR_def (g b x : Fin 128 → EReal) (h : Fin 128) :
    lnR g b x h = Ideal.div (x h - meanOf x) (Ideal.sqrt (varOf x + eps)) * g h + b h := rfl

theorem meanOf_coe (r : Fin 128 → ℝ) :
    meanOf (fun j => (r j : EReal)) = (((∑ j, r j) * (1 / 128) : ℝ) : EReal) := by
  unfold meanOf
  rw [w128_eq, Ideal.div_coe (by norm_num : (128 : ℝ) ≠ 0), ← coe_sum, ← EReal.coe_mul]

/-- The variance of a real vector plus the word `ε` is a positive real. -/
theorem varOf_add_eps (r : Fin 128 → ℝ) :
    ∃ V : ℝ, 0 < V ∧ varOf (fun j => (r j : EReal)) + eps = (V : EReal) := by
  unfold varOf
  rw [meanOf_coe]
  simp only [← EReal.coe_sub, ← EReal.coe_mul, ← coe_sum]
  rw [w128_eq, Ideal.div_coe (by norm_num : (128 : ℝ) ≠ 0), ← EReal.coe_mul, eps_eq, ← EReal.coe_add]
  refine ⟨_, ?_, rfl⟩
  exact add_pos_of_nonneg_of_pos
    (mul_nonneg (Finset.sum_nonneg fun j _ => mul_self_nonneg _) (by norm_num)) (by norm_num)

theorem div_sqrt_eq_mul_rsqrt (a : EReal) {V : ℝ} (hV : 0 < V) :
    Ideal.div a (Ideal.sqrt (V : EReal)) = a * Ideal.rsqrt (V : EReal) := by
  rw [Ideal.sqrt_coe, Ideal.rsqrt_coe, if_neg (not_lt.mpr hV.le), if_neg (not_lt.mpr hV.le),
    if_neg hV.ne', Ideal.div_coe (Real.sqrt_ne_zero'.mpr hV), one_div]

theorem lnK_eq_lnR (g b x : Fin 128 → EReal) (hx : ∀ j, IsReal (x j)) (h : Fin 128) :
    lnK g b x h = lnR g b x h := by
  choose r hr using hx
  obtain rfl : x = fun j => (r j : EReal) := funext hr
  obtain ⟨V, hV, hVeq⟩ := varOf_add_eps r
  rw [lnK_def, lnR_def, hVeq, div_sqrt_eq_mul_rsqrt _ hV]

theorem lnR_isReal (g b x : Fin 128 → EReal) (hg : ∀ j, IsReal (g j)) (hb : ∀ j, IsReal (b j))
    (hx : ∀ j, IsReal (x j)) (h : Fin 128) : IsReal (lnR g b x h) := by
  rw [← lnK_eq_lnR g b x hx h]
  choose r hr using hx
  obtain rfl : x = fun j => (r j : EReal) := funext hr
  obtain ⟨V, hV, hVeq⟩ := varOf_add_eps r
  rw [lnK_def, hVeq, meanOf_coe, Ideal.rsqrt_coe, if_neg (not_lt.mpr hV.le), if_neg hV.ne']
  exact ((((IsReal.coe _).sub (IsReal.coe _)).mul (IsReal.coe _)).mul (hg h)).add (hb h)

/-! ## The first layer: the 384-wide sum in three parts -/

theorem sum_split3 {m : ℕ} (f : Fin (m + (m + m)) → EReal) :
    ∑ j, f j = (∑ j : Fin m, f (Fin.castAdd (m + m) j))
      + ((∑ j : Fin m, f (Fin.natAdd m (Fin.castAdd m j))) + ∑ j : Fin m, f (Fin.natAdd m (Fin.natAdd m j))) := by
  rw [Fin.sum_univ_add, Fin.sum_univ_add]

theorem sum_fin384 (f : Fin 384 → EReal) :
    ∑ j : Fin 384, f j = (∑ j : Fin 128, f ⟨j.val, by omega⟩)
      + ((∑ j : Fin 128, f ⟨128 + j.val, by omega⟩) + ∑ j : Fin 128, f ⟨256 + j.val, by omega⟩) := by
  refine (sum_split3 (m := 128) f).trans ?_
  refine congrArg₂ (· + ·) rfl (congrArg₂ (· + ·) rfl ?_)
  refine Finset.sum_congr rfl fun j _ => congrArg f (Fin.ext ?_)
  show 128 + (128 + j.val) = 256 + j.val
  omega

theorem cat_lo (a : Args) (b : Fin 4) (n : Fin 1024) (k : Fin 36) (j : Fin 128) :
    cat a b n k ⟨j.val, by omega⟩ = a.hV b n j := by
  simp [cat, j.isLt]

theorem cat_mid (a : Args) (b : Fin 4) (n : Fin 1024) (k : Fin 36) (j : Fin 128) :
    cat a b n k ⟨128 + j.val, by omega⟩ = a.hE b n k j := by
  simp [cat, show 128 + j.val < 256 by omega]

theorem cat_hi (a : Args) (b : Fin 4) (n : Fin 1024) (k : Fin 36) (j : Fin 128) :
    cat a b n k ⟨256 + j.val, by omega⟩ = a.hV b (a.idx b n k) j := by
  simp [cat, show ¬ (256 + j.val < 128) by omega, show ¬ (256 + j.val < 256) by omega]

theorem cat_isReal (a : Args) (hfin : a.Finite) (b : Fin 4) (n : Fin 1024) (k : Fin 36) (j : Fin 384) :
    IsReal (cat a b n k j) := by
  unfold cat
  split_ifs
  · exact hfin.hV _ _ _
  · exact hfin.hE _ _ _ _
  · exact hfin.hV _ _ _

/-! ## The aggregation over the neighbours -/

theorem agg_real (ma : Fin 36 → ℝ) (m2 : Fin 36 → Fin 128 → ℝ) (W3 : Fin 128 → ℝ) (b3 : ℝ) :
    ∑ k, ma k * ((∑ j, m2 k j * W3 j) + b3)
      = (∑ j, (∑ k, ma k * m2 k j) * W3 j) + (∑ k, ma k) * b3 := by
  simp only [mul_add, Finset.sum_add_distrib, Finset.mul_sum, Finset.sum_mul]
  rw [Finset.sum_comm]
  congr 1
  exact Finset.sum_congr rfl fun j _ => Finset.sum_congr rfl fun k _ => by ring

theorem dh_eq (ma : Fin 36 → EReal) (m2 : Fin 36 → Fin 128 → EReal) (W3 : Fin 128 → Fin 128 → EReal)
    (b3 : Fin 128 → EReal) (hma : ∀ k, IsReal (ma k)) (hm2 : ∀ k j, IsReal (m2 k j))
    (hW3 : ∀ i j, IsReal (W3 i j)) (hb3 : ∀ j, IsReal (b3 j)) (h : Fin 128) :
    ((∑ j, (∑ k, ma k * m2 k j) * W3 j h) + (∑ k, ma k) * b3 h) * inv36
      = Ideal.div (∑ k, ma k * ((∑ j, m2 k j * W3 j h) + b3 h)) w36 := by
  choose rma hma using hma
  choose rm2 hm2 using hm2
  choose rW3 hW3 using hW3
  choose rb3 hb3 using hb3
  simp only [hma, hm2, hW3, hb3]
  rw [w36_eq, Ideal.div_coe (by norm_num : (36 : ℝ) ≠ 0)]
  congr 1
  simp only [← EReal.coe_mul, ← coe_sum, ← EReal.coe_add]
  exact congrArg _ (agg_real rma rm2 (fun j => rW3 j h) (rb3 h)).symm

/-! ## The kernel's stages over the arguments -/

def qK (a : Args) (b : Fin 4) (n : Fin 1024) (h : Fin 128) : EReal :=
  (∑ j : Fin 128, a.hV b n j * a.W1 ⟨j.val, by omega⟩ h) + a.b1 h

def pre1K (a : Args) (b : Fin 4) (n : Fin 1024) (k : Fin 36) (h : Fin 128) : EReal :=
  ((∑ j : Fin 128, a.hE b n k j * a.W1 ⟨128 + j.val, by omega⟩ h) + ggK a b n k h) + qK a b n h

def m1K (a : Args) (b : Fin 4) (n : Fin 1024) (k : Fin 36) (h : Fin 128) : EReal :=
  geluK (pre1K a b n k h)

def m2K (a : Args) (b : Fin 4) (n : Fin 1024) (k : Fin 36) (h : Fin 128) : EReal :=
  geluK ((∑ j : Fin 128, m1K a b n k j * a.W2 j h) + a.b2 h)

def dhK (a : Args) (b : Fin 4) (n : Fin 1024) (h : Fin 128) : EReal :=
  ((∑ j : Fin 128, (∑ k : Fin 36, a.mA b n k * m2K a b n k j) * a.W3 j h)
    + (∑ k : Fin 36, a.mA b n k) * a.b3 h) * inv36

def x0K (a : Args) (b : Fin 4) (n : Fin 1024) (h : Fin 128) : EReal :=
  a.hV b n h + dhK a b n h

def x1K (a : Args) (b : Fin 4) (n : Fin 1024) : Fin 128 → EReal :=
  lnK a.g1 a.be1 (x0K a b n)

def ffnK (a : Args) (b : Fin 4) (n : Fin 1024) (h : Fin 128) : EReal :=
  (∑ j : Fin 512, geluK ((∑ i : Fin 128, x1K a b n i * a.Win i j) + a.bi j) * a.Wout j h) + a.bo h

def x2K (a : Args) (b : Fin 4) (n : Fin 1024) (h : Fin 128) : EReal :=
  x1K a b n h + ffnK a b n h

theorem outK_unfold (a : Args) (b : Fin 4) (n : Fin 1024) (h : Fin 128) :
    outK a b n h = lnK a.g2 a.be2 (x2K a b n) h * a.mV b n := rfl

/-! ## Stage by stage -/

section Stages

variable (a : Args) (hfin : a.Finite) (b : Fin 4) (n : Fin 1024)
include hfin

theorem pre1K_eq (k : Fin 36) (h : Fin 128) : pre1K a b n k h = pre1R a b n k h := by
  unfold pre1K pre1R qK ggK
  rw [sum_fin384]
  simp only [cat_lo, cat_mid, cat_hi]
  abel

theorem pre1R_isReal (k : Fin 36) (h : Fin 128) : IsReal (pre1R a b n k h) :=
  (IsReal.sum _ _ fun j _ => (cat_isReal a hfin b n k j).mul (hfin.W1 _ _)).add (hfin.b1 _)

theorem m1K_eq (k : Fin 36) (h : Fin 128) : m1K a b n k h = m1R a b n k h := by
  unfold m1K m1R
  rw [pre1K_eq a hfin, geluK_eq_geluR (pre1R_isReal a hfin b n k h)]

theorem m1R_isReal (k : Fin 36) (h : Fin 128) : IsReal (m1R a b n k h) :=
  geluR_isReal (pre1R_isReal a hfin b n k h)

theorem pre2R_isReal (k : Fin 36) (h : Fin 128) :
    IsReal ((∑ j : Fin 128, m1R a b n k j * a.W2 j h) + a.b2 h) :=
  (IsReal.sum _ _ fun j _ => (m1R_isReal a hfin b n k j).mul (hfin.W2 _ _)).add (hfin.b2 _)

theorem m2K_eq (k : Fin 36) (h : Fin 128) : m2K a b n k h = m2R a b n k h := by
  unfold m2K m2R
  simp only [m1K_eq a hfin]
  exact geluK_eq_geluR (pre2R_isReal a hfin b n k h)

theorem m2R_isReal (k : Fin 36) (h : Fin 128) : IsReal (m2R a b n k h) :=
  geluR_isReal (pre2R_isReal a hfin b n k h)

theorem msgR_isReal (k : Fin 36) (h : Fin 128) : IsReal (msgR a b n k h) :=
  (IsReal.sum _ _ fun j _ => (m2R_isReal a hfin b n k j).mul (hfin.W3 _ _)).add (hfin.b3 _)

theorem dhK_eq (h : Fin 128) : dhK a b n h = dhR a b n h := by
  unfold dhK dhR msgR
  simp only [m2K_eq a hfin]
  exact dh_eq (a.mA b n) (m2R a b n) a.W3 a.b3 (hfin.mA b n) (m2R_isReal a hfin b n) hfin.W3 hfin.b3 h

theorem dhR_isReal (h : Fin 128) : IsReal (dhR a b n h) :=
  (IsReal.sum _ _ fun k _ => (hfin.mA b n k).mul (msgR_isReal a hfin b n k h)).div36

theorem x0K_eq : x0K a b n = x0R a b n := by
  funext h
  unfold x0K x0R
  rw [dhK_eq a hfin]

theorem x0R_isReal (h : Fin 128) : IsReal (x0R a b n h) :=
  (hfin.hV b n h).add (dhR_isReal a hfin b n h)

theorem x1K_eq : x1K a b n = x1R a b n := by
  funext h
  unfold x1K x1R
  rw [x0K_eq a hfin]
  exact lnK_eq_lnR _ _ _ (x0R_isReal a hfin b n) h

theorem x1R_isReal (h : Fin 128) : IsReal (x1R a b n h) :=
  lnR_isReal _ _ _ hfin.g1 hfin.be1 (x0R_isReal a hfin b n) h

theorem preFR_isReal (j : Fin 512) : IsReal ((∑ i : Fin 128, x1R a b n i * a.Win i j) + a.bi j) :=
  (IsReal.sum _ _ fun i _ => (x1R_isReal a hfin b n i).mul (hfin.Win _ _)).add (hfin.bi _)

theorem ffnK_eq (h : Fin 128) : ffnK a b n h = ffnR a b n h := by
  unfold ffnK ffnR
  rw [x1K_eq a hfin]
  congr 1
  exact Finset.sum_congr rfl fun j _ => by rw [geluK_eq_geluR (preFR_isReal a hfin b n j)]

theorem ffnR_isReal (h : Fin 128) : IsReal (ffnR a b n h) :=
  (IsReal.sum _ _ fun j _ => (geluR_isReal (preFR_isReal a hfin b n j)).mul (hfin.Wout _ _)).add (hfin.bo _)

theorem x2K_eq : x2K a b n = x2R a b n := by
  funext h
  unfold x2K x2R
  rw [x1K_eq a hfin, ffnK_eq a hfin]

theorem x2R_isReal (h : Fin 128) : IsReal (x2R a b n h) :=
  (x1R_isReal a hfin b n h).add (ffnR_isReal a hfin b n h)

end Stages

/-- The kernel's arrangement and the reference's compute one value at every finite argument. -/
theorem outK_eq_out (a : Args) (hfin : a.Finite) (b : Fin 4) (n : Fin 1024) (h : Fin 128) :
    outK a b n h = out a b n h := by
  rw [outK_unfold, x2K_eq a hfin, lnK_eq_lnR _ _ _ (x2R_isReal a hfin b n) h, mul_comm]
  rfl

end Cert.Spec

end
-- ==== Proof.PreDecode.lean ====
import proofs.«215572_g25211458027672_cont_9to1_2008_46_alg».proof.Pre_input_domain
import Idealize.ShloMosaic.Lib.ReduceAll
import Idealize.ShloMosaic.PureOps.Ideal

noncomputable section

namespace Cert.PreDecode

open Idealize.ShloMosaic Cert.Pre_input_domain

variable [Facts]

instance : Subsingleton S_.Idx := ⟨fun a b => funext fun d => d.elim0⟩

/-- Entrywise: the absolute value compares below the +inf word. -/
def AbsLtInf {F : FTy → Type} [FloatOps F] {s : Shape} (x : FVec F s .f32) : Prop :=
  ∀ i, FloatOps.cmpf .olt (FloatOps.hostAbsf (x i)) (FloatOps.ofBits (F := F) .f32 0x7F800000#32) = 1#1

/-- Entrywise: the word compares signed within [0, 1023]. -/
def InRange (x : IVec S4x1024x36 32) : Prop :=
  ∀ i, IntOp.cmpi .sge (x i) 0#32 = 1#1 ∧ IntOp.cmpi .sle (x i) 1023#32 = 1#1

theorem ofBool_eq_one (b : Bool) : BitVec.ofBool b = 1#1 ↔ b = true := by cases b <;> decide

/-- The +inf word denotes the top element. -/
theorem inf_word : Ideal.ofBits .f32 0x7F800000#32 = (⊤ : EReal) := by
  simp [Ideal.ofBits, Ideal.ieee]

/-- A word that compares signed within [0, 1023] has its signed value there. -/
theorem toInt_of_cmp (w : BitVec 32) (h : IntOp.cmpi .sge w 0#32 = 1#1 ∧ IntOp.cmpi .sle w 1023#32 = 1#1) :
    (0 : Int) ≤ w.toInt ∧ w.toInt ≤ 1023 := by
  obtain ⟨h1, h2⟩ := h
  simp only [IntOp.cmpi, BitVec.sle, ofBool_eq_one, decide_eq_true_eq] at h1 h2
  have e0 : (0#32 : BitVec 32).toInt = 0 := by decide
  have e1 : (1023#32 : BitVec 32).toInt = 1023 := by decide
  rw [e0] at h1; rw [e1] at h2
  exact ⟨h1, h2⟩

/-- A word whose signed value is within [0, 1023] has its unsigned value there too. -/
theorem toNat_of_toInt (w : BitVec 32) (h : (0 : Int) ≤ w.toInt ∧ w.toInt ≤ 1023) : w.toNat ≤ 1023 := by
  obtain ⟨h1, h2⟩ := h
  have hlt := w.isLt
  rw [BitVec.toInt_eq_toNat_cond] at h1 h2
  split at h1 <;> omega

/-- An extended real whose absolute value is below the top element is neither infinity. -/
theorem ne_top_bot_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ (⊤ : EReal) ∧ x ≠ (⊥ : EReal) := by
  change Ideal.cmp .olt (max x (-x)) (Ideal.ofBits .f32 0x7F800000#32) = 1#1 at h
  rw [inf_word] at h
  simp only [Ideal.cmp, ofBool_eq_one, decide_eq_true_eq] at h
  constructor
  · rintro rfl; simp at h
  · rintro rfl; simp at h

section Generic
variable {F : FTy → Type} [FloatOps F] {a0 : FVec F S4x1024x128 .f32} {a1 : FVec F S4x1024x36x128 .f32} {a2 : IVec S4x1024x36 32} {a3 : FVec F S4x1024 .f32} {a4 : FVec F S4x1024x36 .f32} {a5 : FVec F S384x128 .f32} {a6 : FVec F S128 .f32} {a7 : FVec F S128x128 .f32} {a8 : FVec F S128 .f32} {a9 : FVec F S128x128 .f32} {a10 : FVec F S128 .f32} {a11 : FVec F S128x512 .f32} {a12 : FVec F S512 .f32} {a13 : FVec F S512x128 .f32} {a14 : FVec F S128 .f32} {a15 : FVec F S128 .f32} {a16 : FVec F S128 .f32} {a17 : FVec F S128 .f32} {a18 : FVec F S128 .f32}

/-- The precondition read back: each float array passes the finiteness compare entrywise, the index array the range compares. -/
theorem decode (h : fn a0 a1 a2 a3 a4 a5 a6 a7 a8 a9 a10 a11 a12 a13 a14 a15 a16 a17 a18 = (fun _ => 1#1)) :
    AbsLtInf a0 ∧ AbsLtInf a1 ∧ InRange a2 ∧ AbsLtInf a3 ∧ AbsLtInf a4 ∧ AbsLtInf a5 ∧ AbsLtInf a6 ∧ AbsLtInf a7 ∧ AbsLtInf a8 ∧ AbsLtInf a9 ∧ AbsLtInf a10 ∧ AbsLtInf a11 ∧ AbsLtInf a12 ∧ AbsLtInf a13 ∧ AbsLtInf a14 ∧ AbsLtInf a15 ∧ AbsLtInf a16 ∧ AbsLtInf a17 ∧ AbsLtInf a18 := by
  have h0 := congrFun h (fun d => d.elim0)
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨⟨hh0, hh1⟩, hh3⟩, hh4⟩, hh5⟩, hh6⟩, hh7⟩, hh8⟩, hh9⟩, hh10⟩, hh11⟩, hh12⟩, hh13⟩, hh14⟩, hh15⟩, hh16⟩, hh17⟩, hh18⟩, hh2⟩ := h0
  exact ⟨fun i => Host.reduce_andi_all _ _ _ _ _ hh0 i,
    fun i => Host.reduce_andi_all _ _ _ _ _ hh1 i,
    fun i => IntOp.andi_eq_one.1 (Host.reduce_andi_all _ _ _ _ _ hh2 i),
    fun i => Host.reduce_andi_all _ _ _ _ _ hh3 i,
    fun i => Host.reduce_andi_all _ _ _ _ _ hh4 i,
    fun i => Host.reduce_andi_all _ _ _ _ _ hh5 i,
    fun i => Host.reduce_andi_all _ _ _ _ _ hh6 i,
    fun i => Host.reduce_andi_all _ _ _ _ _ hh7 i,
    fun i => Host.reduce_andi_all _ _ _ _ _ hh8 i,
    fun i => Host.reduce_andi_all _ _ _ _ _ hh9 i,
    fun i => Host.reduce_andi_all _ _ _ _ _ hh10 i,
    fun i => Host.reduce_andi_all _ _ _ _ _ hh11 i,
    fun i => Host.reduce_andi_all _ _ _ _ _ hh12 i,
    fun i => Host.reduce_andi_all _ _ _ _ _ hh13 i,
    fun i => Host.reduce_andi_all _ _ _ _ _ hh14 i,
    fun i => Host.reduce_andi_all _ _ _ _ _ hh15 i,
    fun i => Host.reduce_andi_all _ _ _ _ _ hh16 i,
    fun i => Host.reduce_andi_all _ _ _ _ _ hh17 i,
    fun i => Host.reduce_andi_all _ _ _ _ _ hh18 i⟩

/-- Every entry of the index array is within [0, 1023] read signed. -/
theorem idx_range (h : fn a0 a1 a2 a3 a4 a5 a6 a7 a8 a9 a10 a11 a12 a13 a14 a15 a16 a17 a18 = (fun _ => 1#1)) :
    ∀ i : S4x1024x36.Idx, (0 : Int) ≤ (a2 i).toInt ∧ (a2 i).toInt ≤ 1023 :=
  fun i => toInt_of_cmp _ ((decode h).2.2.1 i)

/-- Every entry of the index array is at most 1023 read unsigned. -/
theorem idx_toNat (h : fn a0 a1 a2 a3 a4 a5 a6 a7 a8 a9 a10 a11 a12 a13 a14 a15 a16 a17 a18 = (fun _ => 1#1)) :
    ∀ i : S4x1024x36.Idx, (a2 i).toNat ≤ 1023 :=
  fun i => toNat_of_toInt _ (idx_range h i)

end Generic

/-- At the exact carrier, an array that passes the finiteness compare has neither infinity as an entry. -/
theorem finite_of_absLtInf {s : Shape} {x : FVec Ideal s .f32} (hx : AbsLtInf x) :
    ∀ i, (x i : EReal) ≠ (⊤ : EReal) ∧ (x i : EReal) ≠ (⊥ : EReal) :=
  fun i => ne_top_bot_of_abs_lt _ (hx i)

/-- At the exact carrier, every entry of an array that passes the finiteness compare is a real number. -/
theorem real_of_absLtInf {s : Shape} {x : FVec Ideal s .f32} (hx : AbsLtInf x) :
    ∀ i, ∃ r : ℝ, (x i : EReal) = (r : EReal) := fun i => by
  obtain ⟨h1, h2⟩ := finite_of_absLtInf hx i
  exact ⟨EReal.toReal (x i), (EReal.coe_toReal h1 h2).symm⟩

section AtIdeal
variable {a0 : FVec Ideal S4x1024x128 .f32} {a1 : FVec Ideal S4x1024x36x128 .f32} {a2 : IVec S4x1024x36 32} {a3 : FVec Ideal S4x1024 .f32} {a4 : FVec Ideal S4x1024x36 .f32} {a5 : FVec Ideal S384x128 .f32} {a6 : FVec Ideal S128 .f32} {a7 : FVec Ideal S128x128 .f32} {a8 : FVec Ideal S128 .f32} {a9 : FVec Ideal S128x128 .f32} {a10 : FVec Ideal S128 .f32} {a11 : FVec Ideal S128x512 .f32} {a12 : FVec Ideal S512 .f32} {a13 : FVec Ideal S512x128 .f32} {a14 : FVec Ideal S128 .f32} {a15 : FVec Ideal S128 .f32} {a16 : FVec Ideal S128 .f32} {a17 : FVec Ideal S128 .f32} {a18 : FVec Ideal S128 .f32}

/-- Argument 0 has no infinite entry. -/
theorem finite_0 (h : fn a0 a1 a2 a3 a4 a5 a6 a7 a8 a9 a10 a11 a12 a13 a14 a15 a16 a17 a18 = (fun _ => 1#1)) :
    ∀ i : S4x1024x128.Idx, (a0 i : EReal) ≠ (⊤ : EReal) ∧ (a0 i : EReal) ≠ (⊥ : EReal) :=
  finite_of_absLtInf (decode h).1

/-- Every entry of argument 0 is a real number. -/
theorem real_0 (h : fn a0 a1 a2 a3 a4 a5 a6 a7 a8 a9 a10 a11 a12 a13 a14 a15 a16 a17 a18 = (fun _ => 1#1)) :
    ∀ i : S4x1024x128.Idx, ∃ r : ℝ, (a0 i : EReal) = (r : EReal) :=
  real_of_absLtInf (decode h).1

/-- Argument 1 has no infinite entry. -/
theorem finite_1 (h : fn a0 a1 a2 a3 a4 a5 a6 a7 a8 a9 a10 a11 a12 a13 a14 a15 a16 a17 a18 = (fun _ => 1#1)) :
    ∀ i : S4x1024x36x128.Idx, (a1 i : EReal) ≠ (⊤ : EReal) ∧ (a1 i : EReal) ≠ (⊥ : EReal) :=
  finite_of_absLtInf (decode h).2.1

/-- Every entry of argument 1 is a real number. -/
theorem real_1 (h : fn a0 a1 a2 a3 a4 a5 a6 a7 a8 a9 a10 a11 a12 a13 a14 a15 a16 a17 a18 = (fun _ => 1#1)) :
    ∀ i : S4x1024x36x128.Idx, ∃ r : ℝ, (a1 i : EReal) = (r : EReal) :=
  real_of_absLtInf (decode h).2.1

/-- Argument 3 has no infinite entry. -/
theorem finite_3 (h : fn a0 a1 a2 a3 a4 a5 a6 a7 a8 a9 a10 a11 a12 a13 a14 a15 a16 a17 a18 = (fun _ => 1#1)) :
    ∀ i : S4x1024.Idx, (a3 i : EReal) ≠ (⊤ : EReal) ∧ (a3 i : EReal) ≠ (⊥ : EReal) :=
  finite_of_absLtInf (decode h).2.2.2.1

/-- Every entry of argument 3 is a real number. -/
theorem real_3 (h : fn a0 a1 a2 a3 a4 a5 a6 a7 a8 a9 a10 a11 a12 a13 a14 a15 a16 a17 a18 = (fun _ => 1#1)) :
    ∀ i : S4x1024.Idx, ∃ r : ℝ, (a3 i : EReal) = (r : EReal) :=
  real_of_absLtInf (decode h).2.2.2.1

/-- Argument 4 has no infinite entry. -/
theorem finite_4 (h : fn a0 a1 a2 a3 a4 a5 a6 a7 a8 a9 a10 a11 a12 a13 a14 a15 a16 a17 a18 = (fun _ => 1#1)) :
    ∀ i : S4x1024x36.Idx, (a4 i : EReal) ≠ (⊤ : EReal) ∧ (a4 i : EReal) ≠ (⊥ : EReal) :=
  finite_of_absLtInf (decode h).2.2.2.2.1

/-- Every entry of argument 4 is a real number. -/
theorem real_4 (h : fn a0 a1 a2 a3 a4 a5 a6 a7 a8 a9 a10 a11 a12 a13 a14 a15 a16 a17 a18 = (fun _ => 1#1)) :
    ∀ i : S4x1024x36.Idx, ∃ r : ℝ, (a4 i : EReal) = (r : EReal) :=
  real_of_absLtInf (decode h).2.2.2.2.1

/-- Argument 5 has no infinite entry. -/
theorem finite_5 (h : fn a0 a1 a2 a3 a4 a5 a6 a7 a8 a9 a10 a11 a12 a13 a14 a15 a16 a17 a18 = (fun _ => 1#1)) :
    ∀ i : S384x128.Idx, (a5 i : EReal) ≠ (⊤ : EReal) ∧ (a5 i : EReal) ≠ (⊥ : EReal) :=
  finite_of_absLtInf (decode h).2.2.2.2.2.1

/-- Every entry of argument 5 is a real number. -/
theorem real_5 (h : fn a0 a1 a2 a3 a4 a5 a6 a7 a8 a9 a10 a11 a12 a13 a14 a15 a16 a17 a18 = (fun _ => 1#1)) :
    ∀ i : S384x128.Idx, ∃ r : ℝ, (a5 i : EReal) = (r : EReal) :=
  real_of_absLtInf (decode h).2.2.2.2.2.1

/-- Argument 6 has no infinite entry. -/
theorem finite_6 (h : fn a0 a1 a2 a3 a4 a5 a6 a7 a8 a9 a10 a11 a12 a13 a14 a15 a16 a17 a18 = (fun _ => 1#1)) :
    ∀ i : S128.Idx, (a6 i : EReal) ≠ (⊤ : EReal) ∧ (a6 i : EReal) ≠ (⊥ : EReal) :=
  finite_of_absLtInf (decode h).2.2.2.2.2.2.1

/-- Every entry of argument 6 is a real number. -/
theorem real_6 (h : fn a0 a1 a2 a3 a4 a5 a6 a7 a8 a9 a10 a11 a12 a13 a14 a15 a16 a17 a18 = (fun _ => 1#1)) :
    ∀ i : S128.Idx, ∃ r : ℝ, (a6 i : EReal) = (r : EReal) :=
  real_of_absLtInf (decode h).2.2.2.2.2.2.1

/-- Argument 7 has no infinite entry. -/
theorem finite_7 (h : fn a0 a1 a2 a3 a4 a5 a6 a7 a8 a9 a10 a11 a12 a13 a14 a15 a16 a17 a18 = (fun _ => 1#1)) :
    ∀ i : S128x128.Idx, (a7 i : EReal) ≠ (⊤ : EReal) ∧ (a7 i : EReal) ≠ (⊥ : EReal) :=
  finite_of_absLtInf (decode h).2.2.2.2.2.2.2.1

/-- Every entry of argument 7 is a real number. -/
theorem real_7 (h : fn a0 a1 a2 a3 a4 a5 a6 a7 a8 a9 a10 a11 a12 a13 a14 a15 a16 a17 a18 = (fun _ => 1#1)) :
    ∀ i : S128x128.Idx, ∃ r : ℝ, (a7 i : EReal) = (r : EReal) :=
  real_of_absLtInf (decode h).2.2.2.2.2.2.2.1

/-- Argument 8 has no infinite entry. -/
theorem finite_8 (h : fn a0 a1 a2 a3 a4 a5 a6 a7 a8 a9 a10 a11 a12 a13 a14 a15 a16 a17 a18 = (fun _ => 1#1)) :
    ∀ i : S128.Idx, (a8 i : EReal) ≠ (⊤ : EReal) ∧ (a8 i : EReal) ≠ (⊥ : EReal) :=
  finite_of_absLtInf (decode h).2.2.2.2.2.2.2.2.1

/-- Every entry of argument 8 is a real number. -/
theorem real_8 (h : fn a0 a1 a2 a3 a4 a5 a6 a7 a8 a9 a10 a11 a12 a13 a14 a15 a16 a17 a18 = (fun _ => 1#1)) :
    ∀ i : S128.Idx, ∃ r : ℝ, (a8 i : EReal) = (r : EReal) :=
  real_of_absLtInf (decode h).2.2.2.2.2.2.2.2.1

/-- Argument 9 has no infinite entry. -/
theorem finite_9 (h : fn a0 a1 a2 a3 a4 a5 a6 a7 a8 a9 a10 a11 a12 a13 a14 a15 a16 a17 a18 = (fun _ => 1#1)) :
    ∀ i : S128x128.Idx, (a9 i : EReal) ≠ (⊤ : EReal) ∧ (a9 i : EReal) ≠ (⊥ : EReal) :=
  finite_of_absLtInf (decode h).2.2.2.2.2.2.2.2.2.1

/-- Every entry of argument 9 is a real number. -/
theorem real_9 (h : fn a0 a1 a2 a3 a4 a5 a6 a7 a8 a9 a10 a11 a12 a13 a14 a15 a16 a17 a18 = (fun _ => 1#1)) :
    ∀ i : S128x128.Idx, ∃ r : ℝ, (a9 i : EReal) = (r : EReal) :=
  real_of_absLtInf (decode h).2.2.2.2.2.2.2.2.2.1

/-- Argument 10 has no infinite entry. -/
theorem finite_10 (h : fn a0 a1 a2 a3 a4 a5 a6 a7 a8 a9 a10 a11 a12 a13 a14 a15 a16 a17 a18 = (fun _ => 1#1)) :
    ∀ i : S128.Idx, (a10 i : EReal) ≠ (⊤ : EReal) ∧ (a10 i : EReal) ≠ (⊥ : EReal) :=
  finite_of_absLtInf (decode h).2.2.2.2.2.2.2.2.2.2.1

/-- Every entry of argument 10 is a real number. -/
theorem real_10 (h : fn a0 a1 a2 a3 a4 a5 a6 a7 a8 a9 a10 a11 a12 a13 a14 a15 a16 a17 a18 = (fun _ => 1#1)) :
    ∀ i : S128.Idx, ∃ r : ℝ, (a10 i : EReal) = (r : EReal) :=
  real_of_absLtInf (decode h).2.2.2.2.2.2.2.2.2.2.1

/-- Argument 11 has no infinite entry. -/
theorem finite_11 (h : fn a0 a1 a2 a3 a4 a5 a6 a7 a8 a9 a10 a11 a12 a13 a14 a15 a16 a17 a18 = (fun _ => 1#1)) :
    ∀ i : S128x512.Idx, (a11 i : EReal) ≠ (⊤ : EReal) ∧ (a11 i : EReal) ≠ (⊥ : EReal) :=
  finite_of_absLtInf (decode h).2.2.2.2.2.2.2.2.2.2.2.1

/-- Every entry of argument 11 is a real number. -/
theorem real_11 (h : fn a0 a1 a2 a3 a4 a5 a6 a7 a8 a9 a10 a11 a12 a13 a14 a15 a16 a17 a18 = (fun _ => 1#1)) :
    ∀ i : S128x512.Idx, ∃ r : ℝ, (a11 i : EReal) = (r : EReal) :=
  real_of_absLtInf (decode h).2.2.2.2.2.2.2.2.2.2.2.1

/-- Argument 12 has no infinite entry. -/
theorem finite_12 (h : fn a0 a1 a2 a3 a4 a5 a6 a7 a8 a9 a10 a11 a12 a13 a14 a15 a16 a17 a18 = (fun _ => 1#1)) :
    ∀ i : S512.Idx, (a12 i : EReal) ≠ (⊤ : EReal) ∧ (a12 i : EReal) ≠ (⊥ : EReal) :=
  finite_of_absLtInf (decode h).2.2.2.2.2.2.2.2.2.2.2.2.1

/-- Every entry of argument 12 is a real number. -/
theorem real_12 (h : fn a0 a1 a2 a3 a4 a5 a6 a7 a8 a9 a10 a11 a12 a13 a14 a15 a16 a17 a18 = (fun _ => 1#1)) :
    ∀ i : S512.Idx, ∃ r : ℝ, (a12 i : EReal) = (r : EReal) :=
  real_of_absLtInf (decode h).2.2.2.2.2.2.2.2.2.2.2.2.1

/-- Argument 13 has no infinite entry. -/
theorem finite_13 (h : fn a0 a1 a2 a3 a4 a5 a6 a7 a8 a9 a10 a11 a12 a13 a14 a15 a16 a17 a18 = (fun _ => 1#1)) :
    ∀ i : S512x128.Idx, (a13 i : EReal) ≠ (⊤ : EReal) ∧ (a13 i : EReal) ≠ (⊥ : EReal) :=
  finite_of_absLtInf (decode h).2.2.2.2.2.2.2.2.2.2.2.2.2.1

/-- Every entry of argument 13 is a real number. -/
theorem real_13 (h : fn a0 a1 a2 a3 a4 a5 a6 a7 a8 a9 a10 a11 a12 a13 a14 a15 a16 a17 a18 = (fun _ => 1#1)) :
    ∀ i : S512x128.Idx, ∃ r : ℝ, (a13 i : EReal) = (r : EReal) :=
  real_of_absLtInf (decode h).2.2.2.2.2.2.2.2.2.2.2.2.2.1

/-- Argument 14 has no infinite entry. -/
theorem finite_14 (h : fn a0 a1 a2 a3 a4 a5 a6 a7 a8 a9 a10 a11 a12 a13 a14 a15 a16 a17 a18 = (fun _ => 1#1)) :
    ∀ i : S128.Idx, (a14 i : EReal) ≠ (⊤ : EReal) ∧ (a14 i : EReal) ≠ (⊥ : EReal) :=
  finite_of_absLtInf (decode h).2.2.2.2.2.2.2.2.2.2.2.2.2.2.1

/-- Every entry of argument 14 is a real number. -/
theorem real_14 (h : fn a0 a1 a2 a3 a4 a5 a6 a7 a8 a9 a10 a11 a12 a13 a14 a15 a16 a17 a18 = (fun _ => 1#1)) :
    ∀ i : S128.Idx, ∃ r : ℝ, (a14 i : EReal) = (r : EReal) :=
  real_of_absLtInf (decode h).2.2.2.2.2.2.2.2.2.2.2.2.2.2.1

/-- Argument 15 has no infinite entry. -/
theorem finite_15 (h : fn a0 a1 a2 a3 a4 a5 a6 a7 a8 a9 a10 a11 a12 a13 a14 a15 a16 a17 a18 = (fun _ => 1#1)) :
    ∀ i : S128.Idx, (a15 i : EReal) ≠ (⊤ : EReal) ∧ (a15 i : EReal) ≠ (⊥ : EReal) :=
  finite_of_absLtInf (decode h).2.2.2.2.2.2.2.2.2.2.2.2.2.2.2.1

/-- Every entry of argument 15 is a real number. -/
theorem real_15 (h : fn a0 a1 a2 a3 a4 a5 a6 a7 a8 a9 a10 a11 a12 a13 a14 a15 a16 a17 a18 = (fun _ => 1#1)) :
    ∀ i : S128.Idx, ∃ r : ℝ, (a15 i : EReal) = (r : EReal) :=
  real_of_absLtInf (decode h).2.2.2.2.2.2.2.2.2.2.2.2.2.2.2.1

/-- Argument 16 has no infinite entry. -/
theorem finite_16 (h : fn a0 a1 a2 a3 a4 a5 a6 a7 a8 a9 a10 a11 a12 a13 a14 a15 a16 a17 a18 = (fun _ => 1#1)) :
    ∀ i : S128.Idx, (a16 i : EReal) ≠ (⊤ : EReal) ∧ (a16 i : EReal) ≠ (⊥ : EReal) :=
  finite_of_absLtInf (decode h).2.2.2.2.2.2.2.2.2.2.2.2.2.2.2.2.1

/-- Every entry of argument 16 is a real number. -/
theorem real_16 (h : fn a0 a1 a2 a3 a4 a5 a6 a7 a8 a9 a10 a11 a12 a13 a14 a15 a16 a17 a18 = (fun _ => 1#1)) :
    ∀ i : S128.Idx, ∃ r : ℝ, (a16 i : EReal) = (r : EReal) :=
  real_of_absLtInf (decode h).2.2.2.2.2.2.2.2.2.2.2.2.2.2.2.2.1

/-- Argument 17 has no infinite entry. -/
theorem finite_17 (h : fn a0 a1 a2 a3 a4 a5 a6 a7 a8 a9 a10 a11 a12 a13 a14 a15 a16 a17 a18 = (fun _ => 1#1)) :
    ∀ i : S128.Idx, (a17 i : EReal) ≠ (⊤ : EReal) ∧ (a17 i : EReal) ≠ (⊥ : EReal) :=
  finite_of_absLtInf (decode h).2.2.2.2.2.2.2.2.2.2.2.2.2.2.2.2.2.1

/-- Every entry of argument 17 is a real number. -/
theorem real_17 (h : fn a0 a1 a2 a3 a4 a5 a6 a7 a8 a9 a10 a11 a12 a13 a14 a15 a16 a17 a18 = (fun _ => 1#1)) :
    ∀ i : S128.Idx, ∃ r : ℝ, (a17 i : EReal) = (r : EReal) :=
  real_of_absLtInf (decode h).2.2.2.2.2.2.2.2.2.2.2.2.2.2.2.2.2.1

/-- Argument 18 has no infinite entry. -/
theorem finite_18 (h : fn a0 a1 a2 a3 a4 a5 a6 a7 a8 a9 a10 a11 a12 a13 a14 a15 a16 a17 a18 = (fun _ => 1#1)) :
    ∀ i : S128.Idx, (a18 i : EReal) ≠ (⊤ : EReal) ∧ (a18 i : EReal) ≠ (⊥ : EReal) :=
  finite_of_absLtInf (decode h).2.2.2.2.2.2.2.2.2.2.2.2.2.2.2.2.2.2

/-- Every entry of argument 18 is a real number. -/
theorem real_18 (h : fn a0 a1 a2 a3 a4 a5 a6 a7 a8 a9 a10 a11 a12 a13 a14 a15 a16 a17 a18 = (fun _ => 1#1)) :
    ∀ i : S128.Idx, ∃ r : ℝ, (a18 i : EReal) = (r : EReal) :=
  real_of_absLtInf (decode h).2.2.2.2.2.2.2.2.2.2.2.2.2.2.2.2.2.2

end AtIdeal

end Cert.PreDecode
-- ==== Proof.RefValueLN.lean ====
/-
  The reference's stages from the first layer norm on, read at an index at the ideal values: the gelu on a
  (batch, node, 512) array, the row mean, the row variance, the layer norm (as the specification's `lnR` of the
  row), the feed-forward network, and the top of the result (the node mask times the second layer norm of the
  residual) in terms of the first-stage array.
-/
import proofs.«215572_g25211458027672_cont_9to1_2008_46_alg».proof.Proof.RefRun
import proofs.«215572_g25211458027672_cont_9to1_2008_46_alg».proof.Proof.Spec
import proofs.«215572_g25211458027672_cont_9to1_2008_46_alg».proof.Proof.SpecLaws
import Idealize.ShloMosaic.Lib.ValueIdx
import Idealize.ShloMosaic.Lib.Pipeline.Value
import Idealize.ShloMosaic.PureOps.Ideal.Laws

noncomputable section

namespace Cert.ReferenceIdeal.RefValueLN
open Cert.ReferenceIdeal Cert.ReferenceIdeal.Gen Cert.ReferenceIdeal.HandRun Idealize.ShloMosaic Idealize.ShloMosaic.ValueIdx
open scoped BigOperators

/-! ## Layout stages: a scalar, a feature vector and a row column read at an index -/

/-- A rank-zero value broadcast to any shape reads the value everywhere. -/
theorem bcast0_apply {α : Type} {t : Shape} (h : S_.BroadcastsInDim t (![] : Fin 0 → Fin t.rank)) (v : S_.Idx → α) (j : t.Idx) :
    broadcastInDim t ![] h v j = v ix0 :=
  broadcastInDim_apply _ h v j ix0 (fun a => a.elim0)

/-- A feature vector laid over (batch, node, feature) reads its feature coordinate. -/
theorem feat3_apply (v : FVec Ideal S128 .f32) (b : Fin 4) (n : Fin 1024) (h : Fin 128) :
    feat3 v (ix3 b n h) = v (ix1 h) := by
  unfold feat3
  refine (broadcastInDim_apply _ _ _ (ix3 b n h) (ix3 (0 : Fin 1) (0 : Fin 1) h) (fun a => ?_)).trans ?_
  · match a with
    | ⟨0, _⟩ => rfl
    | ⟨1, _⟩ => rfl
    | ⟨2, _⟩ => rfl
  · exact broadcastInDim_apply _ _ _ _ (ix1 h) (fun a => match a with | ⟨0, _⟩ => rfl)

/-- A per-row column (batch, node, 1) laid over the feature axis reads the row's entry. -/
theorem col3_apply {α : Type} (v : S4x1024x1.Idx → α) (b : Fin 4) (n : Fin 1024) (h : Fin 128) :
    broadcastInDim S4x1024x128 ![0, 1, 2] bcast_S4x1024x1_S4x1024x128_0_1_2 v (ix3 b n h) = v (ix3 b n (0 : Fin 1)) :=
  broadcastInDim_apply _ _ _ _ (ix3 b n (0 : Fin 1)) (fun a => match a with
    | ⟨0, _⟩ => rfl
    | ⟨1, _⟩ => rfl
    | ⟨2, _⟩ => rfl)

/-- A (batch, node) array given a trailing unit axis reads the same entry. -/
theorem unit2_apply {α : Type} (v : S4x1024.Idx → α) (b : Fin 4) (n : Fin 1024) :
    broadcastInDim S4x1024x1 ![0, 1] bcast_S4x1024_S4x1024x1_0_1 v (ix3 b n (0 : Fin 1)) = v (ix2 b n) :=
  broadcastInDim_apply _ _ _ _ (ix2 b n) (fun a => match a with
    | ⟨0, _⟩ => rfl
    | ⟨1, _⟩ => rfl)

/-! ## The gelu on a (batch, node, 512) array -/

theorem gelu3_apply (x : FVec Ideal S4x1024x512 .f32) (i : S4x1024x512.Idx) :
    gelu3 x i = Cert.Spec.geluR (x i) := by
  unfold gelu3 Cert.Spec.geluR
  show (broadcastInDim S4x1024x512 ![] bcast_S_S4x1024x512 (constant (F := Ideal) S_ .f32 0x3F000000#32) i * x i)
      * Ideal.erfc (-(x i) * broadcastInDim S4x1024x512 ![] bcast_S_S4x1024x512 (constant (F := Ideal) S_ .f32 0x3F3504F3#32) i) = _
  rw [bcast0_apply, bcast0_apply]
  rfl

/-! ## Row sums -/

/-- The host's sum over the feature axis from the zero word, read at a row: the plain sum of the row. -/
theorem rowSum_apply (x : FVec Ideal S4x1024x128 .f32) (b : Fin 4) (n : Fin 1024) :
    Host.reduceAdd x (constant (F := Ideal) S_ .f32 0x00000000#32) reducesTo_S4x1024x128_S4x1024_d2 h_S_ (ix2 b n)
      = ∑ j : Fin 128, x (ix3 b n j) := by
  have hR : S4x1024x128.Reduces [2] S4x1024 := by decide
  show Ideal.hostReduceAdd reducesTo_S4x1024x128_S4x1024_d2 x (Ideal.ofBits .f32 0x00000000#32) (ix2 b n) = _
  rw [Ideal.hostReduceAdd_single reducesTo_S4x1024x128_S4x1024_d2 hR, Ideal.ofBits_zero_f32, zero_add]
  refine Finset.sum_congr rfl fun j _ => congrArg x (funext fun a => Fin.ext ?_)
  match a with
  | ⟨0, _⟩ => rfl
  | ⟨1, _⟩ => rfl
  | ⟨2, _⟩ => rfl

/-- A 512-vector laid over (batch, node, 512) reads its last coordinate. -/
theorem feat512_apply (v : FVec Ideal S512 .f32) (b : Fin 4) (n : Fin 1024) (j : Fin 512) :
    broadcastInDim S4x1024x512 ![0, 1, 2] bcast_S1x1x512_S4x1024x512_0_1_2
      (broadcastInDim S1x1x512 ![2] bcast_S512_S1x1x512_2 v) (ix3 b n j) = v (ix1 j) := by
  refine (broadcastInDim_apply _ _ _ (ix3 b n j) (ix3 (0 : Fin 1) (0 : Fin 1) j) (fun a => ?_)).trans ?_
  · match a with
    | ⟨0, _⟩ => rfl
    | ⟨1, _⟩ => rfl
    | ⟨2, _⟩ => rfl
  · exact broadcastInDim_apply _ _ _ _ (ix1 j) (fun a => match a with | ⟨0, _⟩ => rfl)

/-! ## The mean, the variance and the layer norm of a row -/

/-- The row mean read at a row: the row's sum over the word 128. -/
theorem rowMean_apply (x : FVec Ideal S4x1024x128 .f32) (b : Fin 4) (n : Fin 1024) :
    rowMean x (ix3 b n (0 : Fin 1))
      = Ideal.div (∑ j : Fin 128, x (ix3 b n j)) (Ideal.ofBits .f32 0x43000000#32) := by
  unfold rowMean
  show Ideal.div (broadcastInDim (s := S4x1024) S4x1024x1 ![0, 1] bcast_S4x1024_S4x1024x1_0_1 _ (ix3 b n (0 : Fin 1)))
      (broadcastInDim (s := S_) S4x1024x1 ![] bcast_S_S4x1024x1 _ (ix3 b n (0 : Fin 1))) = _
  rw [unit2_apply, bcast0_apply, rowSum_apply]
  rfl

/-- The variance's divisor, 128 minus the correction 0, is the word 128. -/
theorem varCount_apply : varCount (F := Ideal) ix0 = Ideal.ofBits .f32 0x43000000#32 := by
  show Ideal.ofBits .f32 0x43000000#32 - ((((0#32 : BitVec 32).toInt : ℤ) : ℝ) : EReal) = _
  simp

/-- The divisor is positive, so the variance takes the quotient's branch. -/
theorem varCount_pos :
    cmpf .ogt (varCount (F := Ideal)) (constant (F := Ideal) S_ .f32 0x00000000#32) ix0 = 1#1 := by
  rw [cmpf_apply, varCount_apply]
  show Ideal.cmp .ogt (Ideal.ofBits .f32 0x43000000#32) (Ideal.ofBits .f32 0x00000000#32) = 1#1
  rw [Cert.Spec.w128_eq, Ideal.ofBits_zero_f32]
  have h : (0 : EReal) < ((128 : ℝ) : EReal) := by exact_mod_cast (by norm_num : (0 : ℝ) < 128)
  simp [Ideal.cmp, h]

/-- The row variance read at a row: the sum of the squared deviations from the row mean over the word 128. -/
theorem rowVar_apply (x : FVec Ideal S4x1024x128 .f32) (b : Fin 4) (n : Fin 1024) :
    rowVar x (ix3 b n (0 : Fin 1))
      = Ideal.div (∑ j : Fin 128,
          (x (ix3 b n j) - Ideal.div (∑ j : Fin 128, x (ix3 b n j)) (Ideal.ofBits .f32 0x43000000#32))
            * (x (ix3 b n j) - Ideal.div (∑ j : Fin 128, x (ix3 b n j)) (Ideal.ofBits .f32 0x43000000#32)))
          (Ideal.ofBits .f32 0x43000000#32) := by
  unfold rowVar
  rw [select_apply, bcast0_apply, varCount_pos, select_one]
  show Ideal.div (broadcastInDim (s := S4x1024) S4x1024x1 ![0, 1] bcast_S4x1024_S4x1024x1_0_1 _ (ix3 b n (0 : Fin 1)))
      (broadcastInDim (s := S_) S4x1024x1 ![] bcast_S_S4x1024x1 _ (ix3 b n (0 : Fin 1))) = _
  rw [unit2_apply, bcast0_apply, varCount_apply, rowSum_apply]
  congr 1
  refine Finset.sum_congr rfl fun j _ => ?_
  show (x (ix3 b n j) - broadcastInDim S4x1024x128 ![0, 1, 2] bcast_S4x1024x1_S4x1024x128_0_1_2 (rowMean x) (ix3 b n j))
      * (x (ix3 b n j) - broadcastInDim S4x1024x128 ![0, 1, 2] bcast_S4x1024x1_S4x1024x128_0_1_2 (rowMean x) (ix3 b n j)) = _
  rw [col3_apply, rowMean_apply]

/-- The reference's layer norm read at an entry is the specification's, of the row. -/
theorem layerNorm_apply (x : FVec Ideal S4x1024x128 .f32) (g be : FVec Ideal S128 .f32)
    (b : Fin 4) (n : Fin 1024) (h : Fin 128) :
    layerNorm x g be (ix3 b n h)
      = Cert.Spec.lnR (fun j => g (ix1 j)) (fun j => be (ix1 j)) (fun j => x (ix3 b n j)) h := by
  unfold layerNorm
  show Ideal.div (x (ix3 b n h) - broadcastInDim S4x1024x128 ![0, 1, 2] bcast_S4x1024x1_S4x1024x128_0_1_2 (rowMean x) (ix3 b n h))
        (broadcastInDim S4x1024x128 ![0, 1, 2] bcast_S4x1024x1_S4x1024x128_0_1_2
          (Host.sqrt (addf (rowVar x) (broadcastInDim S4x1024x1 ![] bcast_S_S4x1024x1 (constant (F := Ideal) S_ .f32 0x3727C5AC#32))))
          (ix3 b n h))
      * feat3 g (ix3 b n h) + feat3 be (ix3 b n h) = _
  rw [col3_apply, col3_apply, feat3_apply, feat3_apply, rowMean_apply]
  show Ideal.div _ (Ideal.sqrt (rowVar x (ix3 b n (0 : Fin 1))
        + broadcastInDim S4x1024x1 ![] bcast_S_S4x1024x1 (constant (F := Ideal) S_ .f32 0x3727C5AC#32) (ix3 b n (0 : Fin 1))))
      * _ + _ = _
  rw [rowVar_apply, bcast0_apply]
  rfl

/-! ## The two products of the feed-forward network -/

theorem dotIn_apply (x : FVec Ideal S4x1024x128 .f32) (W : FVec Ideal S128x512 .f32)
    (b : Fin 4) (n : Fin 1024) (j : Fin 512) :
    Host.dotGeneral dot_S4x1024x128_S128x512_S4x1024x512_2_0_01_1_n_n none x W (ix3 b n j) = ∑ i : Fin 128, x (ix3 b n i) * W (ix2 i j) := by
  show FloatOps.dotGeneral _ none _ x W (ix3 b n j) = _
  rw [Ideal.dotGeneral_apply, ← Equiv.sum_comp (contrEquiv1 dot_S4x1024x128_S128x512_S4x1024x512_2_0_01_1_n_n 128 rfl rfl).symm]
  refine Finset.sum_congr rfl fun c _ => ?_
  have c3 := contrEquiv1_symm_val dot_S4x1024x128_S128x512_S4x1024x512_2_0_01_1_n_n 128 rfl rfl c
  have l3 : (dot_S4x1024x128_S128x512_S4x1024x512_2_0_01_1_n_n).lhsIdx (ix3 b n j) ((contrEquiv1 _ 128 rfl rfl).symm c) = ix3 b n c := by
    funext ax; apply Fin.ext
    match ax with
    | ⟨0, _⟩ => simp [DotDims.lhsIdx, dot_S4x1024x128_S128x512_S4x1024x512_2_0_01_1_n_n]; rfl
    | ⟨1, _⟩ => simp [DotDims.lhsIdx, dot_S4x1024x128_S128x512_S4x1024x512_2_0_01_1_n_n]; rfl
    | ⟨2, _⟩ => simp [DotDims.lhsIdx, dot_S4x1024x128_S128x512_S4x1024x512_2_0_01_1_n_n]; exact c3
  have r3 : (dot_S4x1024x128_S128x512_S4x1024x512_2_0_01_1_n_n).rhsIdx (ix3 b n j) ((contrEquiv1 _ 128 rfl rfl).symm c) = ix2 c j := by
    funext ax; apply Fin.ext
    match ax with
    | ⟨0, _⟩ => simp [DotDims.rhsIdx, dot_S4x1024x128_S128x512_S4x1024x512_2_0_01_1_n_n]; exact c3
    | ⟨1, _⟩ => simp [DotDims.rhsIdx, dot_S4x1024x128_S128x512_S4x1024x512_2_0_01_1_n_n]; rfl
  rw [l3, r3]

theorem dotOut_apply (y : FVec Ideal S4x1024x512 .f32) (W : FVec Ideal S512x128 .f32)
    (b : Fin 4) (n : Fin 1024) (h : Fin 128) :
    Host.dotGeneral dot_S4x1024x512_S512x128_S4x1024x128_2_0_01_1_n_n none y W (ix3 b n h) = ∑ j : Fin 512, y (ix3 b n j) * W (ix2 j h) := by
  show FloatOps.dotGeneral _ none _ y W (ix3 b n h) = _
  rw [Ideal.dotGeneral_apply, ← Equiv.sum_comp (contrEquiv1 dot_S4x1024x512_S512x128_S4x1024x128_2_0_01_1_n_n 512 rfl rfl).symm]
  refine Finset.sum_congr rfl fun c _ => ?_
  have c3 := contrEquiv1_symm_val dot_S4x1024x512_S512x128_S4x1024x128_2_0_01_1_n_n 512 rfl rfl c
  have l3 : (dot_S4x1024x512_S512x128_S4x1024x128_2_0_01_1_n_n).lhsIdx (ix3 b n h) ((contrEquiv1 _ 512 rfl rfl).symm c) = ix3 b n c := by
    funext ax; apply Fin.ext
    match ax with
    | ⟨0, _⟩ => simp [DotDims.lhsIdx, dot_S4x1024x512_S512x128_S4x1024x128_2_0_01_1_n_n]; rfl
    | ⟨1, _⟩ => simp [DotDims.lhsIdx, dot_S4x1024x512_S512x128_S4x1024x128_2_0_01_1_n_n]; rfl
    | ⟨2, _⟩ => simp [DotDims.lhsIdx, dot_S4x1024x512_S512x128_S4x1024x128_2_0_01_1_n_n]; exact c3
  have r3 : (dot_S4x1024x512_S512x128_S4x1024x128_2_0_01_1_n_n).rhsIdx (ix3 b n h) ((contrEquiv1 _ 512 rfl rfl).symm c) = ix2 c h := by
    funext ax; apply Fin.ext
    match ax with
    | ⟨0, _⟩ => simp [DotDims.rhsIdx, dot_S4x1024x512_S512x128_S4x1024x128_2_0_01_1_n_n]; exact c3
    | ⟨1, _⟩ => simp [DotDims.rhsIdx, dot_S4x1024x512_S512x128_S4x1024x128_2_0_01_1_n_n]; rfl
  rw [l3, r3]

/-- The feed-forward network read at an entry. -/
theorem ffn_apply (x : FVec Ideal S4x1024x128 .f32) (Win : FVec Ideal S128x512 .f32) (bi : FVec Ideal S512 .f32)
    (Wout : FVec Ideal S512x128 .f32) (bo : FVec Ideal S128 .f32) (b : Fin 4) (n : Fin 1024) (h : Fin 128) :
    ffn x Win bi Wout bo (ix3 b n h)
      = (∑ j : Fin 512, Cert.Spec.geluR ((∑ i : Fin 128, x (ix3 b n i) * Win (ix2 i j)) + bi (ix1 j)) * Wout (ix2 j h))
        + bo (ix1 h) := by
  unfold ffn
  show Host.dotGeneral dot_S4x1024x512_S512x128_S4x1024x128_2_0_01_1_n_n none _ Wout (ix3 b n h) + feat3 bo (ix3 b n h) = _
  rw [dotOut_apply, feat3_apply]
  congr 1
  refine Finset.sum_congr rfl fun j _ => ?_
  rw [gelu3_apply]
  show Cert.Spec.geluR (Host.dotGeneral dot_S4x1024x128_S128x512_S4x1024x512_2_0_01_1_n_n none x Win (ix3 b n j)
      + broadcastInDim S4x1024x512 ![0, 1, 2] bcast_S1x1x512_S4x1024x512_0_1_2
          (broadcastInDim S1x1x512 ![2] bcast_S512_S1x1x512_2 bi) (ix3 b n j)) * _ = _
  rw [dotIn_apply, feat512_apply]

/-! ## The top of the result -/

/-- The node mask times the second layer norm of the residual, read at an entry, for any first-stage array. -/
theorem top_apply (x1 : FVec Ideal S4x1024x128 .f32) (maskV : FVec Ideal S4x1024 .f32)
    (Win : FVec Ideal S128x512 .f32) (bi : FVec Ideal S512 .f32) (Wout : FVec Ideal S512x128 .f32)
    (bo g2 be2 : FVec Ideal S128 .f32) (b : Fin 4) (n : Fin 1024) (h : Fin 128) :
    mulf
        (broadcastInDim S4x1024x128 ![0, 1, 2] bcast_S4x1024x1_S4x1024x128_0_1_2
          (broadcastInDim S4x1024x1 ![0, 1] bcast_S4x1024_S4x1024x1_0_1 maskV))
        (layerNorm (addf x1 (ffn x1 Win bi Wout bo)) g2 be2) (ix3 b n h)
      = maskV (ix2 b n) * Cert.Spec.lnR (fun j => g2 (ix1 j)) (fun j => be2 (ix1 j))
          (fun j => x1 (ix3 b n j)
            + ((∑ j' : Fin 512, Cert.Spec.geluR ((∑ i : Fin 128, x1 (ix3 b n i) * Win (ix2 i j')) + bi (ix1 j')) * Wout (ix2 j' j))
              + bo (ix1 j))) h := by
  show broadcastInDim (s := S4x1024x1) S4x1024x128 ![0, 1, 2] bcast_S4x1024x1_S4x1024x128_0_1_2 _ (ix3 b n h)
      * layerNorm (addf x1 (ffn x1 Win bi Wout bo)) g2 be2 (ix3 b n h) = _
  rw [col3_apply, unit2_apply, layerNorm_apply]
  congr 2
  funext j
  show x1 (ix3 b n j) + ffn x1 Win bi Wout bo (ix3 b n j) = _
  rw [ffn_apply]

/-- The result read at an entry, in terms of the first-stage array `res_x1`. -/
theorem res_top (hV : FVec Ideal S4x1024x128 .f32) (hE : FVec Ideal S4x1024x36x128 .f32) (eIdx : IVec S4x1024x36 32)
    (maskV : FVec Ideal S4x1024 .f32) (maskA : FVec Ideal S4x1024x36 .f32) (W1 : FVec Ideal S384x128 .f32)
    (b1 : FVec Ideal S128 .f32) (W2 : FVec Ideal S128x128 .f32) (b2 : FVec Ideal S128 .f32)
    (W3 : FVec Ideal S128x128 .f32) (b3 : FVec Ideal S128 .f32) (Win : FVec Ideal S128x512 .f32)
    (bi : FVec Ideal S512 .f32) (Wout : FVec Ideal S512x128 .f32) (bo : FVec Ideal S128 .f32)
    (g1 be1 g2 be2 : FVec Ideal S128 .f32) (b : Fin 4) (n : Fin 1024) (h : Fin 128) :
    res hV hE eIdx maskV maskA W1 b1 W2 b2 W3 b3 Win bi Wout bo g1 be1 g2 be2 (ix3 b n h)
      = maskV (ix2 b n) * Cert.Spec.lnR (fun j => g2 (ix1 j)) (fun j => be2 (ix1 j))
          (fun j => res_x1 hV hE eIdx maskA W1 b1 W2 b2 W3 b3 g1 be1 (ix3 b n j)
            + ((∑ j' : Fin 512, Cert.Spec.geluR
                  ((∑ i : Fin 128, res_x1 hV hE eIdx maskA W1 b1 W2 b2 W3 b3 g1 be1 (ix3 b n i) * Win (ix2 i j')) + bi (ix1 j'))
                  * Wout (ix2 j' j))
              + bo (ix1 j))) h := by
  unfold res
  exact top_apply _ maskV Win bi Wout bo g2 be2 b n h

end Cert.ReferenceIdeal.RefValueLN

end
-- ==== Proof.RefValue.lean ====
/-
  The reference's result read entry by entry at the ideal instance.

  Each stage of the reference's message step is read at an index over explicit coordinates: the neighbour index as
  the gather reads it (flattened over (node, neighbour), a negative index moved up by the row count), the in-range
  mask, the gather of rows within each batch, the 384-wide input of the message network (the node's row, the edge's
  row, the neighbour's row), its three layers with the gelu between them, and the masked sum over the 36 neighbours
  divided by the word 36. Composed with the layer norms and the feed-forward network (read in RefValueLN), the result
  at (b, n, h) is the specification's reference arrangement `Cert.Spec.out` of the arguments read entrywise.

  The one hypothesis is that every neighbour index word reads, signed, as a row number below 1024: then no index is
  moved, the mask is one everywhere, the gather's clamp is the identity, and entry (b, n, k, ·) of the gathered array
  is row `idx b n k` of batch `b`.
-/
import proofs.«215572_g25211458027672_cont_9to1_2008_46_alg».proof.ReferenceIdeal
import proofs.«215572_g25211458027672_cont_9to1_2008_46_alg».proof.Proof.Gen.ReferenceIdeal
import proofs.«215572_g25211458027672_cont_9to1_2008_46_alg».proof.Proof.Spec
import proofs.«215572_g25211458027672_cont_9to1_2008_46_alg».proof.Proof.RefRun
import proofs.«215572_g25211458027672_cont_9to1_2008_46_alg».proof.Proof.RefValueLN
import Idealize.ShloMosaic.Lib.ValueIdx
import Idealize.ShloMosaic.Lib.Pipeline.Value
import Idealize.ShloMosaic.PureOps.Ideal.Laws

noncomputable section

namespace Cert.ReferenceIdeal.RefValue
open Cert.ReferenceIdeal Cert.ReferenceIdeal.Gen Cert.ReferenceIdeal.HandRun Idealize.ShloMosaic Idealize.ShloMosaic.ValueIdx
open scoped BigOperators

/-! ## Layout stages: a scalar, a feature vector and a row column read at an index -/

/-- A rank-zero value broadcast to any shape reads the value everywhere. -/
theorem bcast0_apply {α : Type} {t : Shape} (h : S_.BroadcastsInDim t (![] : Fin 0 → Fin t.rank)) (v : S_.Idx → α) (j : t.Idx) :
    broadcastInDim t ![] h v j = v ix0 :=
  broadcastInDim_apply _ h v j ix0 (fun a => a.elim0)

/-- A feature vector laid over (batch, node, neighbour, feature) reads its feature coordinate. -/
theorem bias4_apply (v : FVec Ideal S128 .f32) (b : Fin 4) (n : Fin 1024) (k : Fin 36) (h : Fin 128) :
    bias4 v (ix4 b n k h) = v (ix1 h) := by
  unfold bias4
  refine (broadcastInDim_apply _ _ _ (ix4 b n k h) (ix4 (0 : Fin 1) (0 : Fin 1) (0 : Fin 1) h) (fun a => ?_)).trans ?_
  · match a with
    | ⟨0, _⟩ => rfl
    | ⟨1, _⟩ => rfl
    | ⟨2, _⟩ => rfl
    | ⟨3, _⟩ => rfl
  · exact broadcastInDim_apply _ _ _ _ (ix1 h) (fun a => match a with | ⟨0, _⟩ => rfl)

/-! ## The gelu stages -/

theorem gelu4_apply (x : FVec Ideal S4x1024x36x128 .f32) (i : S4x1024x36x128.Idx) :
    gelu4 x i = Cert.Spec.geluR (x i) := by
  unfold gelu4 Cert.Spec.geluR
  show (broadcastInDim S4x1024x36x128 ![] bcast_S_S4x1024x36x128 (constant (F := Ideal) S_ .f32 0x3F000000#32) i * x i)
      * Ideal.erfc (-(x i) * broadcastInDim S4x1024x36x128 ![] bcast_S_S4x1024x36x128 (constant (F := Ideal) S_ .f32 0x3F3504F3#32) i) = _
  rw [bcast0_apply, bcast0_apply]
  rfl

/-! ## The contractions of the message network at an index -/

/-- The 384-wide contraction: entry (b, n, k, h) sums the row (b, n, k, ·) against column h. -/
theorem dot384_apply (x : FVec Ideal S4x1024x36x384 .f32) (W : FVec Ideal S384x128 .f32)
    (b : Fin 4) (n : Fin 1024) (k : Fin 36) (h : Fin 128) :
    Host.dotGeneral dot_S4x1024x36x384_S384x128_S4x1024x36x128_3_0_012_1_n_n none x W (ix4 b n k h)
      = ∑ j : Fin 384, x (ix4 b n k j) * W (ix2 j h) := by
  show FloatOps.dotGeneral dot_S4x1024x36x384_S384x128_S4x1024x36x128_3_0_012_1_n_n none HostSchedule.single x W (ix4 b n k h) = _
  rw [Ideal.dotGeneral_apply,
    ← Equiv.sum_comp (contrEquiv1 dot_S4x1024x36x384_S384x128_S4x1024x36x128_3_0_012_1_n_n 384 rfl rfl).symm]
  refine Finset.sum_congr rfl fun j _ => ?_
  have hl : dot_S4x1024x36x384_S384x128_S4x1024x36x128_3_0_012_1_n_n.lhsIdx (ix4 b n k h)
      ((contrEquiv1 dot_S4x1024x36x384_S384x128_S4x1024x36x128_3_0_012_1_n_n 384 rfl rfl).symm j) = ix4 b n k j := by
    funext a
    refine Fin.ext ?_
    match a with
    | ⟨0, _⟩ => rfl
    | ⟨1, _⟩ => rfl
    | ⟨2, _⟩ => rfl
    | ⟨3, _⟩ =>
      exact (DotDims.lhsIdx_val_of_single _ (cl := (3 : Fin 4)) rfl _ _).trans (contrEquiv1_symm_val dot_S4x1024x36x384_S384x128_S4x1024x36x128_3_0_012_1_n_n 384 rfl rfl j)
  have hr : dot_S4x1024x36x384_S384x128_S4x1024x36x128_3_0_012_1_n_n.rhsIdx (ix4 b n k h)
      ((contrEquiv1 dot_S4x1024x36x384_S384x128_S4x1024x36x128_3_0_012_1_n_n 384 rfl rfl).symm j) = ix2 j h := by
    funext a
    refine Fin.ext ?_
    match a with
    | ⟨0, _⟩ =>
      exact (DotDims.rhsIdx_val_of_single _ (cr := (0 : Fin 2)) rfl _ _).trans (contrEquiv1_symm_val dot_S4x1024x36x384_S384x128_S4x1024x36x128_3_0_012_1_n_n 384 rfl rfl j)
    | ⟨1, _⟩ => rfl
  rw [hl, hr]

/-- A 128-wide contraction of a (batch, node, neighbour, feature) array against a 128 × 128 weight. -/
theorem dot128_apply (x : FVec Ideal S4x1024x36x128 .f32) (W : FVec Ideal S128x128 .f32)
    (b : Fin 4) (n : Fin 1024) (k : Fin 36) (h : Fin 128) :
    Host.dotGeneral dot_S4x1024x36x128_S128x128_S4x1024x36x128_3_0_012_1_n_n none x W (ix4 b n k h)
      = ∑ j : Fin 128, x (ix4 b n k j) * W (ix2 j h) := by
  show FloatOps.dotGeneral dot_S4x1024x36x128_S128x128_S4x1024x36x128_3_0_012_1_n_n none HostSchedule.single x W (ix4 b n k h) = _
  rw [Ideal.dotGeneral_apply,
    ← Equiv.sum_comp (contrEquiv1 dot_S4x1024x36x128_S128x128_S4x1024x36x128_3_0_012_1_n_n 128 rfl rfl).symm]
  refine Finset.sum_congr rfl fun j _ => ?_
  have hl : dot_S4x1024x36x128_S128x128_S4x1024x36x128_3_0_012_1_n_n.lhsIdx (ix4 b n k h)
      ((contrEquiv1 dot_S4x1024x36x128_S128x128_S4x1024x36x128_3_0_012_1_n_n 128 rfl rfl).symm j) = ix4 b n k j := by
    funext a
    refine Fin.ext ?_
    match a with
    | ⟨0, _⟩ => rfl
    | ⟨1, _⟩ => rfl
    | ⟨2, _⟩ => rfl
    | ⟨3, _⟩ =>
      exact (DotDims.lhsIdx_val_of_single _ (cl := (3 : Fin 4)) rfl _ _).trans (contrEquiv1_symm_val dot_S4x1024x36x128_S128x128_S4x1024x36x128_3_0_012_1_n_n 128 rfl rfl j)
  have hr : dot_S4x1024x36x128_S128x128_S4x1024x36x128_3_0_012_1_n_n.rhsIdx (ix4 b n k h)
      ((contrEquiv1 dot_S4x1024x36x128_S128x128_S4x1024x36x128_3_0_012_1_n_n 128 rfl rfl).symm j) = ix2 j h := by
    funext a
    refine Fin.ext ?_
    match a with
    | ⟨0, _⟩ =>
      exact (DotDims.rhsIdx_val_of_single _ (cr := (0 : Fin 2)) rfl _ _).trans (contrEquiv1_symm_val dot_S4x1024x36x128_S128x128_S4x1024x36x128_3_0_012_1_n_n 128 rfl rfl j)
    | ⟨1, _⟩ => rfl
  rw [hl, hr]

/-! ## The row gather with a batch axis, read at an index -/

/-- Result position (b, t, c) reads its start index at (b, t, 0). -/
theorem gatherRows_siIdx (b : Fin 4) (t : Fin 36864) (c : Fin 128)
    (q : Fin gather_S4x1024x128_S4x36864x1_S4x36864x128_2_1_0_0_1_2_11128.startIndexMap.length) :
    gather_S4x1024x128_S4x36864x1_S4x36864x128_2_1_0_0_1_2_11128.siIdx (ix3 b t c) q = ix3 b t (0 : Fin 1) := by
  funext a
  refine Fin.ext ?_
  match a with
  | ⟨0, _⟩ => rfl
  | ⟨1, _⟩ => rfl
  | ⟨2, _⟩ =>
    have hq : q.val < 1 := q.isLt
    show q.val = 0
    omega

/-- The gather of rows within each batch: entry (b, t, c) is the operand's row at the start index read at (b, t, 0)
    (signed, clamped into the 1024 rows), of the same batch b, at column c. -/
theorem gatherRows_apply {α : Type} (x : S4x1024x128.Idx → α) (idx : IVec S4x36864x1 32)
    (b : Fin 4) (t : Fin 36864) (c : Fin 128) :
    Host.gather gather_S4x1024x128_S4x36864x1_S4x36864x128_2_1_0_0_1_2_11128 x idx (ix3 b t c)
      = x (ix3 b (⟨min (idx (ix3 b t (0 : Fin 1))).toInt.toNat 1023, by omega⟩ : Fin 1024) c) := by
  unfold Host.gather
  congr 1
  funext a
  refine Fin.ext ?_
  match a with
  | ⟨0, _⟩ =>
    show gather_S4x1024x128_S4x36864x1_S4x36864x128_2_1_0_0_1_2_11128.start (ix3 b t c) idx 0
        + gather_S4x1024x128_S4x36864x1_S4x36864x128_2_1_0_0_1_2_11128.batchCoord (ix3 b t c) 0
        + gather_S4x1024x128_S4x36864x1_S4x36864x128_2_1_0_0_1_2_11128.offCoord (ix3 b t c) 0 = b.val
    rw [GatherDims.start_batching _ _ _ _ (List.mem_singleton.mpr rfl),
      GatherDims.offCoord_eq_zero _ _ _ (fun h => ((GatherDims.mem_sKept _ _).mp h).2 (List.mem_singleton.mpr rfl))]
    show 0 + b.val + 0 = b.val
    omega
  | ⟨1, _⟩ =>
    show gather_S4x1024x128_S4x36864x1_S4x36864x128_2_1_0_0_1_2_11128.start (ix3 b t c) idx 1
        + gather_S4x1024x128_S4x36864x1_S4x36864x128_2_1_0_0_1_2_11128.batchCoord (ix3 b t c) 1
        + gather_S4x1024x128_S4x36864x1_S4x36864x128_2_1_0_0_1_2_11128.offCoord (ix3 b t c) 1
      = min (idx (ix3 b t (0 : Fin 1))).toInt.toNat 1023
    rw [GatherDims.batchCoord_eq_zero _ _ _ (fun h => absurd (congrArg Fin.val (List.mem_singleton.mp h)) (by decide)),
      GatherDims.offCoord_eq_zero _ _ _ (fun h => ((GatherDims.mem_sKept _ _).mp h).1 (List.mem_singleton.mpr rfl))]
    unfold GatherDims.start
    rw [dif_pos (show (1 : Fin 3) ∈ gather_S4x1024x128_S4x36864x1_S4x36864x128_2_1_0_0_1_2_11128.startIndexMap from
        List.mem_singleton.mpr rfl), gatherRows_siIdx]
    rfl
  | ⟨2, _⟩ =>
    show gather_S4x1024x128_S4x36864x1_S4x36864x128_2_1_0_0_1_2_11128.start (ix3 b t c) idx 2
        + gather_S4x1024x128_S4x36864x1_S4x36864x128_2_1_0_0_1_2_11128.batchCoord (ix3 b t c) 2
        + gather_S4x1024x128_S4x36864x1_S4x36864x128_2_1_0_0_1_2_11128.offCoord (ix3 b t c) 2 = c.val
    rw [GatherDims.batchCoord_eq_zero _ _ _ (fun h => absurd (congrArg Fin.val (List.mem_singleton.mp h)) (by decide))]
    have hs : gather_S4x1024x128_S4x36864x1_S4x36864x128_2_1_0_0_1_2_11128.start (ix3 b t c) idx 2 = 0 := by
      unfold GatherDims.start
      rw [dif_neg]
      intro h
      exact absurd (congrArg Fin.val (List.mem_singleton.mp h)) (by decide)
    rw [hs]
    show 0 + 0 + c.val = c.val
    omega

/-! ## The neighbour index as the gather reads it -/

/-- The flattened (node, neighbour) position. -/
abbrev nk (n : Fin 1024) (k : Fin 36) : Fin 36864 := ⟨n.val * 36 + k.val, by have := n.isLt; have := k.isLt; omega⟩

/-- The index array flattened over (node, neighbour) and given a trailing unit axis reads the original entry. -/
theorem flatIdx_apply (eIdx : IVec S4x1024x36 32) (b : Fin 4) (n : Fin 1024) (k : Fin 36) :
    broadcastInDim S4x36864x1 ![0, 1] bcast_S4x36864_S4x36864x1_0_1
      (shapeCast S4x36864 eIdx shapeCasts_S4x1024x36_S4x36864) (ix3 b (nk n k) (0 : Fin 1)) = eIdx (ix3 b n k) := by
  refine (broadcastInDim_apply _ _ _ _ (ix2 b (nk n k)) (fun a => match a with
    | ⟨0, _⟩ => rfl
    | ⟨1, _⟩ => rfl)).trans ?_
  refine shapeCast_apply _ _ _ (ix3 b n k) ?_
  rw [Shape.rowMajor_val_three, Shape.rowMajor_val_two]
  show (b.val * 1024 + n.val) * 36 + k.val = b.val * 36864 + (n.val * 36 + k.val)
  omega

/-- A word that reads non-negative is not below zero. -/
theorem slt_zero_of_nonneg (w : BitVec 32) (h : 0 ≤ w.toInt) : IntOp.cmpi .slt w 0#32 = 0#1 := by
  show BitVec.ofBool (w.slt 0#32) = 0#1
  have e : w.slt 0#32 = false := by
    simp only [BitVec.slt]
    have z : (0#32 : BitVec 32).toInt = 0 := by decide
    rw [z]
    exact decide_eq_false (by omega)
  rw [e]
  rfl

theorem sge_zero_of_nonneg (w : BitVec 32) (h : 0 ≤ w.toInt) : IntOp.cmpi .sge w 0#32 = 1#1 := by
  show BitVec.ofBool ((0#32 : BitVec 32).sle w) = 1#1
  have e : (0#32 : BitVec 32).sle w = true := by
    simp only [BitVec.sle]
    have z : (0#32 : BitVec 32).toInt = 0 := by decide
    rw [z]
    exact decide_eq_true h
  rw [e]
  rfl

theorem sle_1023_of_le (w : BitVec 32) (h : w.toInt ≤ 1023) : IntOp.cmpi .sle w 1023#32 = 1#1 := by
  show BitVec.ofBool (w.sle 1023#32) = 1#1
  have e : w.sle 1023#32 = true := by
    simp only [BitVec.sle]
    have z : (1023#32 : BitVec 32).toInt = 1023 := by decide
    rw [z]
    exact decide_eq_true h
  rw [e]
  rfl

/-- Where the index is non-negative the gather's index is the index itself. -/
theorem takeIdx_apply (eIdx : IVec S4x1024x36 32) (b : Fin 4) (n : Fin 1024) (k : Fin 36)
    (h0 : 0 ≤ (eIdx (ix3 b n k)).toInt) :
    HandRun.takeIdx eIdx (ix3 b (nk n k) (0 : Fin 1)) = eIdx (ix3 b n k) := by
  unfold HandRun.takeIdx
  rw [select_apply]
  show Scalar.select (IntOp.cmpi .slt
      (broadcastInDim S4x36864x1 ![0, 1] bcast_S4x36864_S4x36864x1_0_1
        (shapeCast S4x36864 eIdx shapeCasts_S4x1024x36_S4x36864) (ix3 b (nk n k) (0 : Fin 1))) 0#32) _ _ = _
  rw [flatIdx_apply, slt_zero_of_nonneg _ h0, select_zero]

/-- A fold by `and` from 1 over words that are all 1 is 1. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  generalize (((List.finRange s.numel).map s.rowMajor.symm).filter fun i => h.drop i = j) = l
  have e : IntOp.andi (1#1 : BitVec 1) 1#1 = 1#1 := by decide
  induction l with
  | nil => rfl
  | cons a l ih => rw [List.foldl_cons, hx a, e]; exact ih

/-- Where every index is a row of the table, every read is in range. -/
theorem inRange_apply (eIdx : IVec S4x1024x36 32)
    (hlo : ∀ b n k, 0 ≤ (eIdx (ix3 b n k)).toInt) (hhi : ∀ b n k, (eIdx (ix3 b n k)).toInt ≤ 1023)
    (j : S4x36864.Idx) : inRange eIdx j = 1#1 := by
  unfold inRange
  refine reduce_andi_one _ _ _ _ j (fun i => ?_) rfl
  obtain ⟨b, t, z, rfl⟩ : ∃ (b : Fin 4) (t : Fin 36864) (z : Fin 1), i = ix3 b t z := ⟨i 0, i 1, i 2, eq_ix3 i⟩
  obtain rfl : z = 0 := Subsingleton.elim _ _
  obtain ⟨n, k, rfl⟩ : ∃ (n : Fin 1024) (k : Fin 36), t = nk n k :=
    ⟨⟨t.val / 36, by have := t.isLt; omega⟩, ⟨t.val % 36, Nat.mod_lt _ (by decide)⟩, Fin.ext (by
      show t.val = t.val / 36 * 36 + t.val % 36
      omega)⟩
  show IntOp.andi (IntOp.cmpi .sge (HandRun.takeIdx eIdx (ix3 b (nk n k) (0 : Fin 1))) 0#32)
      (IntOp.cmpi .sle (HandRun.takeIdx eIdx (ix3 b (nk n k) (0 : Fin 1))) 1023#32) = 1#1
  rw [takeIdx_apply eIdx b n k (hlo b n k), sge_zero_of_nonneg _ (hlo b n k), sle_1023_of_le _ (hhi b n k)]
  decide

/-- Under the index range, the gathered array at (b, n, k, j) is row `idx b n k` of batch b at column j. -/
theorem gathered_apply (hV : FVec Ideal S4x1024x128 .f32) (eIdx : IVec S4x1024x36 32)
    (idx : Fin 4 → Fin 1024 → Fin 36 → Fin 1024)
    (hidx : ∀ b n k, (eIdx (ix3 b n k)).toInt = ((idx b n k).val : Int))
    (b : Fin 4) (n : Fin 1024) (k : Fin 36) (j : Fin 128) :
    gathered hV eIdx (ix4 b n k j) = hV (ix3 b (idx b n k) j) := by
  have hlo : ∀ b n k, 0 ≤ (eIdx (ix3 b n k)).toInt := fun b n k => by rw [hidx]; omega
  have hhi : ∀ b n k, (eIdx (ix3 b n k)).toInt ≤ 1023 := fun b n k => by
    rw [hidx]; have := (idx b n k).isLt; omega
  unfold gathered
  refine (shapeCast_apply _ _ _ (ix3 b (nk n k) j) ?_).trans ?_
  · rw [Shape.rowMajor_val_three, Shape.rowMajor_val_four]
    show (b.val * 36864 + (n.val * 36 + k.val)) * 128 + j.val = ((b.val * 1024 + n.val) * 36 + k.val) * 128 + j.val
    omega
  rw [select_apply]
  have hm : broadcastInDim S4x36864x128 ![0, 1] bcast_S4x36864_S4x36864x128_0_1 (inRange eIdx) (ix3 b (nk n k) j) = 1#1 :=
    (broadcastInDim_apply _ _ _ _ (ix2 b (nk n k)) (fun a => match a with
      | ⟨0, _⟩ => rfl
      | ⟨1, _⟩ => rfl)).trans (inRange_apply eIdx hlo hhi _)
  rw [hm, select_one, gatherRows_apply]
  refine congrArg hV (funext fun a => Fin.ext ?_)
  match a with
  | ⟨0, _⟩ => rfl
  | ⟨1, _⟩ =>
    show min (HandRun.takeIdx eIdx (ix3 b (nk n k) (0 : Fin 1))).toInt.toNat 1023 = (idx b n k).val
    rw [takeIdx_apply eIdx b n k (hlo b n k), hidx]
    have := (idx b n k).isLt
    omega
  | ⟨2, _⟩ => rfl

/-! ## The specification's arguments, read off the argument arrays -/

/-- The specification's arguments read entry by entry off the argument arrays; the neighbour index is given. -/
def argsOf (hV : FVec Ideal S4x1024x128 .f32) (hE : FVec Ideal S4x1024x36x128 .f32)
    (idx : Fin 4 → Fin 1024 → Fin 36 → Fin 1024) (maskV : FVec Ideal S4x1024 .f32) (maskA : FVec Ideal S4x1024x36 .f32)
    (W1 : FVec Ideal S384x128 .f32) (b1 : FVec Ideal S128 .f32) (W2 : FVec Ideal S128x128 .f32) (b2 : FVec Ideal S128 .f32)
    (W3 : FVec Ideal S128x128 .f32) (b3 : FVec Ideal S128 .f32) (Win : FVec Ideal S128x512 .f32) (bi : FVec Ideal S512 .f32)
    (Wout : FVec Ideal S512x128 .f32) (bo : FVec Ideal S128 .f32) (g1 be1 g2 be2 : FVec Ideal S128 .f32) :
    Cert.Spec.Args where
  hV := fun b n j => hV (ix3 b n j)
  hE := fun b n k j => hE (ix4 b n k j)
  idx := idx
  mV := fun b n => maskV (ix2 b n)
  mA := fun b n k => maskA (ix3 b n k)
  W1 := fun i h => W1 (ix2 i h)
  b1 := fun h => b1 (ix1 h)
  W2 := fun i h => W2 (ix2 i h)
  b2 := fun h => b2 (ix1 h)
  W3 := fun i h => W3 (ix2 i h)
  b3 := fun h => b3 (ix1 h)
  Win := fun i j => Win (ix2 i j)
  bi := fun j => bi (ix1 j)
  Wout := fun j h => Wout (ix2 j h)
  bo := fun h => bo (ix1 h)
  g1 := fun h => g1 (ix1 h)
  be1 := fun h => be1 (ix1 h)
  g2 := fun h => g2 (ix1 h)
  be2 := fun h => be2 (ix1 h)

section Message

variable (hV : FVec Ideal S4x1024x128 .f32) (hE : FVec Ideal S4x1024x36x128 .f32) (eIdx : IVec S4x1024x36 32)
  (idx : Fin 4 → Fin 1024 → Fin 36 → Fin 1024) (maskV : FVec Ideal S4x1024 .f32) (maskA : FVec Ideal S4x1024x36 .f32)
  (W1 : FVec Ideal S384x128 .f32) (b1 : FVec Ideal S128 .f32) (W2 : FVec Ideal S128x128 .f32) (b2 : FVec Ideal S128 .f32)
  (W3 : FVec Ideal S128x128 .f32) (b3 : FVec Ideal S128 .f32) (Win : FVec Ideal S128x512 .f32) (bi : FVec Ideal S512 .f32)
  (Wout : FVec Ideal S512x128 .f32) (bo : FVec Ideal S128 .f32) (g1 be1 g2 be2 : FVec Ideal S128 .f32)
  (hidx : ∀ b n k, (eIdx (ix3 b n k)).toInt = ((idx b n k).val : Int))

local notation "𝒂" => argsOf hV hE idx maskV maskA W1 b1 W2 b2 W3 b3 Win bi Wout bo g1 be1 g2 be2

include hidx in
/-- The message network's input at (b, n, k, c): the node's own row, the edge's row, the neighbour's row, by the
    column's third. -/
theorem edgeIn_apply (b : Fin 4) (n : Fin 1024) (k : Fin 36) (c : Fin 384) :
    edgeIn hV hE eIdx (ix4 b n k c) = Cert.Spec.cat 𝒂 b n k c := by
  unfold edgeIn Cert.Spec.cat
  by_cases h1 : c.val < 128
  · rw [dif_pos h1]
    refine (concatenate_pair_apply_left (t := S4x1024x36x384) (s₁ := S4x1024x36x128) (s₂ := S4x1024x36x256) (3 : Fin 4) _ _ _
      (ix4 b n k c) rfl (ix4 b n k (⟨c.val, h1⟩ : Fin 128)) (fun a => ?_)).trans ?_
    · match a with
      | ⟨0, _⟩ => rfl
      | ⟨1, _⟩ => rfl
      | ⟨2, _⟩ => rfl
      | ⟨3, _⟩ => rfl
    · refine (broadcastInDim_apply _ _ _ _ (ix4 b n (0 : Fin 1) (⟨c.val, h1⟩ : Fin 128)) (fun a => ?_)).trans ?_
      · match a with
        | ⟨0, _⟩ => rfl
        | ⟨1, _⟩ => rfl
        | ⟨2, _⟩ => rfl
        | ⟨3, _⟩ => rfl
      · exact broadcastInDim_apply _ _ _ _ (ix3 b n (⟨c.val, h1⟩ : Fin 128)) (fun a => match a with
          | ⟨0, _⟩ => rfl
          | ⟨1, _⟩ => rfl
          | ⟨2, _⟩ => rfl)
  · rw [dif_neg h1]
    have hc := c.isLt
    refine (concatenate_pair_apply_right (t := S4x1024x36x384) (s₁ := S4x1024x36x128) (s₂ := S4x1024x36x256) (3 : Fin 4) _ _ _
      (ix4 b n k c) rfl rfl (ix4 b n k (⟨c.val - 128, by omega⟩ : Fin 256)) (fun a ha => ?_) ?_).trans ?_
    · match a with
      | ⟨0, _⟩ => rfl
      | ⟨1, _⟩ => rfl
      | ⟨2, _⟩ => rfl
      | ⟨3, _⟩ => exact absurd (Fin.ext rfl) ha
    · show c.val - 128 + 128 = c.val
      omega
    · by_cases h2 : c.val < 256
      · rw [dif_pos h2]
        refine (concatenate_pair_apply_left (t := S4x1024x36x256) (s₁ := S4x1024x36x128) (s₂ := S4x1024x36x128) (3 : Fin 4) _ _ _
          (ix4 b n k (⟨c.val - 128, by omega⟩ : Fin 256)) rfl (ix4 b n k (⟨c.val - 128, by omega⟩ : Fin 128)) (fun a => ?_)).trans rfl
        match a with
        | ⟨0, _⟩ => rfl
        | ⟨1, _⟩ => rfl
        | ⟨2, _⟩ => rfl
        | ⟨3, _⟩ => rfl
      · rw [dif_neg h2]
        refine (concatenate_pair_apply_right (t := S4x1024x36x256) (s₁ := S4x1024x36x128) (s₂ := S4x1024x36x128) (3 : Fin 4) _ _ _
          (ix4 b n k (⟨c.val - 128, by omega⟩ : Fin 256)) rfl rfl (ix4 b n k (⟨c.val - 256, by omega⟩ : Fin 128)) (fun a ha => ?_) ?_).trans ?_
        · match a with
          | ⟨0, _⟩ => rfl
          | ⟨1, _⟩ => rfl
          | ⟨2, _⟩ => rfl
          | ⟨3, _⟩ => exact absurd (Fin.ext rfl) ha
        · show c.val - 256 + 128 = c.val - 128
          omega
        · exact gathered_apply hV eIdx idx hidx b n k _

include hidx in
/-- The first layer before its gelu. -/
theorem pre1_apply (b : Fin 4) (n : Fin 1024) (k : Fin 36) (h : Fin 128) :
    addf (Host.dotGeneral dot_S4x1024x36x384_S384x128_S4x1024x36x128_3_0_012_1_n_n none (edgeIn hV hE eIdx) W1) (bias4 b1)
        (ix4 b n k h)
      = Cert.Spec.pre1R 𝒂 b n k h := by
  unfold Cert.Spec.pre1R
  rw [addf_apply, dot384_apply, bias4_apply]
  refine congrArg (· + b1 (ix1 h)) (Finset.sum_congr rfl fun j _ => ?_)
  rw [edgeIn_apply hV hE eIdx idx maskV maskA W1 b1 W2 b2 W3 b3 Win bi Wout bo g1 be1 g2 be2 hidx]
  rfl

/-- A 128 → 128 layer of the message network at an index. -/
theorem dense4_apply (x : FVec Ideal S4x1024x36x128 .f32) (W : FVec Ideal S128x128 .f32) (v : FVec Ideal S128 .f32)
    (b : Fin 4) (n : Fin 1024) (k : Fin 36) (h : Fin 128) :
    dense4 x W v (ix4 b n k h) = (∑ j : Fin 128, x (ix4 b n k j) * W (ix2 j h)) + v (ix1 h) := by
  unfold dense4
  rw [addf_apply, dot128_apply, bias4_apply]

include hidx in
/-- The message of edge (b, n, k). -/
theorem message_apply (b : Fin 4) (n : Fin 1024) (k : Fin 36) (h : Fin 128) :
    message hV hE eIdx W1 b1 W2 b2 W3 b3 (ix4 b n k h) = Cert.Spec.msgR 𝒂 b n k h := by
  unfold message Cert.Spec.msgR
  rw [dense4_apply]
  refine congrArg (· + b3 (ix1 h)) (Finset.sum_congr rfl fun j _ => ?_)
  refine congrArg (· * W3 (ix2 j h)) ?_
  rw [gelu4_apply, dense4_apply]
  unfold Cert.Spec.m2R
  refine congrArg Cert.Spec.geluR (congrArg (· + b2 (ix1 j)) (Finset.sum_congr rfl fun i _ => ?_))
  refine congrArg (· * W2 (ix2 i j)) ?_
  rw [gelu4_apply, pre1_apply hV hE eIdx idx maskV maskA W1 b1 W2 b2 W3 b3 Win bi Wout bo g1 be1 g2 be2 hidx]
  rfl

end Message

/-- The masked messages summed over the neighbours and divided by the word 36. -/
theorem aggregate_apply (maskA : FVec Ideal S4x1024x36 .f32) (msg : FVec Ideal S4x1024x36x128 .f32)
    (b : Fin 4) (n : Fin 1024) (h : Fin 128) :
    aggregate maskA msg (ix3 b n h)
      = Ideal.div (∑ k : Fin 36, maskA (ix3 b n k) * msg (ix4 b n k h)) (Ideal.ofBits .f32 0x42100000#32) := by
  have hR : S4x1024x36x128.Reduces [2] S4x1024x128 := by decide
  unfold aggregate
  show Ideal.div (Ideal.hostReduceAdd reducesTo_S4x1024x36x128_S4x1024x128_d2 _ (Ideal.ofBits .f32 0x00000000#32) (ix3 b n h))
      (Ideal.ofBits .f32 0x42100000#32) = _
  rw [Ideal.hostReduceAdd_single _ hR, Ideal.ofBits_zero_f32, zero_add]
  refine congrArg (fun s => Ideal.div s (Ideal.ofBits .f32 0x42100000#32)) (Finset.sum_congr rfl fun (k : Fin 36) _ => ?_)
  have e : hR.lift (ix3 b n h) k = ix4 b n k h := by
    funext a
    refine Fin.ext ?_
    match a with
    | ⟨0, _⟩ => rfl
    | ⟨1, _⟩ => rfl
    | ⟨2, _⟩ => rfl
    | ⟨3, _⟩ => rfl
  rw [e, mulf_apply]
  refine congrArg (· * msg (ix4 b n k h)) ?_
  refine (broadcastInDim_apply _ _ _ _ (ix4 b n k (0 : Fin 1)) (fun a => ?_)).trans ?_
  · match a with
    | ⟨0, _⟩ => rfl
    | ⟨1, _⟩ => rfl
    | ⟨2, _⟩ => rfl
    | ⟨3, _⟩ => rfl
  · exact broadcastInDim_apply _ _ _ _ (ix3 b n k) (fun a => match a with
      | ⟨0, _⟩ => rfl
      | ⟨1, _⟩ => rfl
      | ⟨2, _⟩ => rfl)

section Compose

variable (hV : FVec Ideal S4x1024x128 .f32) (hE : FVec Ideal S4x1024x36x128 .f32) (eIdx : IVec S4x1024x36 32)
  (idx : Fin 4 → Fin 1024 → Fin 36 → Fin 1024) (maskV : FVec Ideal S4x1024 .f32) (maskA : FVec Ideal S4x1024x36 .f32)
  (W1 : FVec Ideal S384x128 .f32) (b1 : FVec Ideal S128 .f32) (W2 : FVec Ideal S128x128 .f32) (b2 : FVec Ideal S128 .f32)
  (W3 : FVec Ideal S128x128 .f32) (b3 : FVec Ideal S128 .f32) (Win : FVec Ideal S128x512 .f32) (bi : FVec Ideal S512 .f32)
  (Wout : FVec Ideal S512x128 .f32) (bo : FVec Ideal S128 .f32) (g1 be1 g2 be2 : FVec Ideal S128 .f32)
  (hidx : ∀ b n k, (eIdx (ix3 b n k)).toInt = ((idx b n k).val : Int))

local notation "𝒂" => argsOf hV hE idx maskV maskA W1 b1 W2 b2 W3 b3 Win bi Wout bo g1 be1 g2 be2

include hidx in
/-- The node features after the message step and the first normalization. -/
theorem res_x1_apply (b : Fin 4) (n : Fin 1024) (h : Fin 128) :
    res_x1 hV hE eIdx maskA W1 b1 W2 b2 W3 b3 g1 be1 (ix3 b n h) = Cert.Spec.x1R 𝒂 b n h := by
  unfold res_x1 Cert.Spec.x1R
  rw [RefValueLN.layerNorm_apply]
  have e : (fun j => addf hV (aggregate maskA (message hV hE eIdx W1 b1 W2 b2 W3 b3)) (ix3 b n j))
      = Cert.Spec.x0R 𝒂 b n := by
    funext j
    unfold Cert.Spec.x0R Cert.Spec.dhR
    rw [addf_apply, aggregate_apply]
    refine congrArg (hV (ix3 b n j) + ·)
      (congrArg (fun s => Ideal.div s (Ideal.ofBits .f32 0x42100000#32)) (Finset.sum_congr rfl fun k _ => ?_))
    rw [message_apply hV hE eIdx idx maskV maskA W1 b1 W2 b2 W3 b3 Win bi Wout bo g1 be1 g2 be2 hidx]
    rfl
  exact congrArg (fun f => Cert.Spec.lnR (fun j => g1 (ix1 j)) (fun j => be1 (ix1 j)) f h) e

include hidx in
/-- THE REFERENCE'S RESULT READ AT (b, n, h): the specification's reference arrangement of the arguments read
    entry by entry, for any neighbour index `idx` that the index words read as (signed). -/
theorem res_apply (b : Fin 4) (n : Fin 1024) (h : Fin 128) :
    res hV hE eIdx maskV maskA W1 b1 W2 b2 W3 b3 Win bi Wout bo g1 be1 g2 be2 (ix3 b n h) = Cert.Spec.out 𝒂 b n h := by
  rw [RefValueLN.res_top]
  unfold Cert.Spec.out
  have e : (fun j => res_x1 hV hE eIdx maskA W1 b1 W2 b2 W3 b3 g1 be1 (ix3 b n j)
        + ((∑ j' : Fin 512, Cert.Spec.geluR
              ((∑ i : Fin 128, res_x1 hV hE eIdx maskA W1 b1 W2 b2 W3 b3 g1 be1 (ix3 b n i) * Win (ix2 i j')) + bi (ix1 j'))
              * Wout (ix2 j' j))
          + bo (ix1 j)))
      = Cert.Spec.x2R 𝒂 b n := by
    funext j
    simp only [res_x1_apply hV hE eIdx idx maskV maskA W1 b1 W2 b2 W3 b3 Win bi Wout bo g1 be1 g2 be2 hidx]
    rfl
  exact congrArg (fun f => maskV (ix2 b n) * Cert.Spec.lnR (fun j => g2 (ix1 j)) (fun j => be2 (ix1 j)) f h) e

end Compose

/-! ## The neighbour index decoded from its word -/

/-- The neighbour index as a row number: the word's value, taken below 1024. -/
def decIdx (eIdx : IVec S4x1024x36 32) (b : Fin 4) (n : Fin 1024) (k : Fin 36) : Fin 1024 :=
  ⟨(eIdx (ix3 b n k)).toNat % 1024, Nat.mod_lt _ (by decide)⟩

/-- A word that reads (signed) between 0 and 1023 reads as its decoded row number. -/
theorem toInt_eq_decIdx (eIdx : IVec S4x1024x36 32) (b : Fin 4) (n : Fin 1024) (k : Fin 36)
    (hlo : 0 ≤ (eIdx (ix3 b n k)).toInt) (hhi : (eIdx (ix3 b n k)).toInt ≤ 1023) :
    (eIdx (ix3 b n k)).toInt = ((decIdx eIdx b n k).val : Int) := by
  have hw := (eIdx (ix3 b n k)).isLt
  rw [BitVec.toInt_eq_toNat_cond] at hlo hhi ⊢
  show _ = (((eIdx (ix3 b n k)).toNat % 1024 : Nat) : Int)
  split at hlo <;> split <;> omega

end Cert.ReferenceIdeal.RefValue

end
-- ==== Proof.KSetup.lean ====
/-
  The kernel program as the SparseCore launch theorem sees it: its configuration, body table, variants and
  facts; the ghost state (the handshakes' rounds, the pipelines' rounds, the transfers' counters) and its
  embeddings; the arrays the two gather calls move; what the proof asks of the launch memory; and the
  gather as a pure function of the table and the index array.
-/
import proofs.«215572_g25211458027672_cont_9to1_2008_46_alg».proof.Proof.Gen.KernelIdeal
import proofs.«215572_g25211458027672_cont_9to1_2008_46_alg».proof.Proof.Gen.KernelIdeal.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.ValueIdx
import Idealize.ShloMosaic.Lib.Tactic

noncomputable section

namespace Cert.KernelIdeal.KS

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
theorem nSub_eq (q : Fin 2) : (K (F := F)).nSub q = 16 := by
  match q with | 0 => rfl | 1 => rfl
theorem nCore_eq (q : Fin 2) : (K (F := F)).nCore q = 2 := by
  match q with | 0 => rfl | 1 => rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR
instance EP_landsIn : (EP : Emb UP (MT nD τ sig (HIx 2) (Elt F) ℕ UU ℕ)).LandsIn (upEmb : UEmb _ (MT nD τ sig (HIx 2) (Elt F) ℕ UU ℕ)) := by
  unfold EP; infer_instance

/-- The pipelines hold no prefetched table: each is its configuration, pinned at nothing. -/
abbrev adm [FloatOps F] [Named F] : (p : Fin 3) → (pcfgs (F := F) p).Adm := fun p => (cfgs p).toPCfg_adm
theorem pin_eq [FloatOps F] [Named F] (p : Fin 3) : Pipeline.pin (pcfgs (F := F)) adm p = cfgs p := rfl

/-! ## The launch memory and the arrays the gather calls move -/

abbrev a2Loc (d : Dev nD) : Loc nD τ sig := (SparseCore.T d).loc main_arg2
abbrev pLoc (d : Dev nD) : Loc nD τ sig := (SparseCore.T d).loc main_v22
abbrev i0Loc (d : Dev nD) : Loc nD τ sig := (SparseCore.T d).loc main_v24
abbrev g0Loc (d : Dev nD) : Loc nD τ sig := (SparseCore.T d).loc main_v25
abbrev i1Loc (d : Dev nD) : Loc nD τ sig := (SparseCore.T d).loc main_v43
abbrev g1Loc (d : Dev nD) : Loc nD τ sig := (SparseCore.T d).loc main_v44
abbrev outLoc (d : Dev nD) : Loc nD τ sig := (SparseCore.T d).loc main_v61

/-- What the proof asks of the launch memory: every word of the neighbour-index array names a node, 0 … 1023. -/
def PreOK (m : (ℓ : Loc nD τ sig) → Buf (Elt F) ℓ) : Prop := ∀ (d : Dev nD) (j : S4x1024x36.Idx), (m (a2Loc d) j).toNat < 1024

/-! ## The gather, as a pure function -/

/-- Row (w * 18 + ch) * 128 + l of the result is row idx[w, ch, l] + (bb + w / 16) * 1024 of the table: worker w of 32,
    chunk ch of 18, lane l of 128; the sum is the machine's 32-bit one, and the row number is read modulo the table's
    4096 rows (it is below 4096 whenever every index is below 1024 and bb + 1 < 4). -/
def gatherVal (bb : Nat) (p : (⟨S4096x128, .f32⟩ : BufTy).Contents (Elt F)) (ix : (⟨S32x18x128, .i32⟩ : BufTy).Contents (Elt F)) :
    (⟨S73728x128, .f32⟩ : BufTy).Contents (Elt F) :=
  fun j =>
    p (ix2 ⟨((ix (ix3 ⟨(j 0).val / 2304, by have : (j 0).val < 73728 := (j 0).isLt; omega⟩ ⟨(j 0).val / 128 % 18, Nat.mod_lt _ (by decide)⟩ ⟨(j 0).val % 128, Nat.mod_lt _ (by decide)⟩)
        + BitVec.ofNat 32 ((bb + (j 0).val / 2304 / 16) * 1024)).toNat) % 4096, Nat.mod_lt _ (by decide)⟩ (j 1))

end Cert.KernelIdeal.KS

end
-- ==== Proof.KSetupBits.lean ====
/-
  The kernel program as the SparseCore launch theorem sees it: its configuration, body table, variants and
  facts; the ghost state (the handshakes' rounds, the pipelines' rounds, the transfers' counters) and its
  embeddings; the arrays the two gather calls move; what the proof asks of the launch memory; and the
  gather as a pure function of the table and the index array.
-/
import proofs.«215572_g25211458027672_cont_9to1_2008_46_alg».proof.Proof.Gen.Kernel
import proofs.«215572_g25211458027672_cont_9to1_2008_46_alg».proof.Proof.Gen.Kernel.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.ValueIdx
import Idealize.ShloMosaic.Lib.Tactic

noncomputable section

namespace Cert.Kernel.KS

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
theorem nSub_eq (q : Fin 2) : (K (F := F)).nSub q = 16 := by
  match q with | 0 => rfl | 1 => rfl
theorem nCore_eq (q : Fin 2) : (K (F := F)).nCore q = 2 := by
  match q with | 0 => rfl | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) := (Emb.inl : Emb UP (UP × Counters)).trans embR
instance EP_landsIn : (EP : Emb UP (MT nD τ sig (HIx 2) (Elt F) ℕ UU ℕ)).LandsIn (upEmb : UEmb _ (MT nD τ sig (HIx 2) (Elt F) ℕ UU ℕ)) := by
  unfold EP; infer_instance

/-- The pipelines hold no prefetched table: each is its configuration, pinned at nothing. -/
abbrev adm [FloatOps F] : (p : Fin 3) → (pcfgs (F := F) p).Adm := fun p => (cfgs p).toPCfg_adm
theorem pin_eq [FloatOps F] (p : Fin 3) : Pipeline.pin (pcfgs (F := F)) adm p = cfgs p := rfl

/-! ## The launch memory and the arrays the gather calls move -/

abbrev a2Loc (d : Dev nD) : Loc nD τ sig := (SparseCore.T d).loc main_arg2
abbrev pLoc (d : Dev nD) : Loc nD τ sig := (SparseCore.T d).loc main_v22
abbrev i0Loc (d : Dev nD) : Loc nD τ sig := (SparseCore.T d).loc main_v24
abbrev g0Loc (d : Dev nD) : Loc nD τ sig := (SparseCore.T d).loc main_v25
abbrev i1Loc (d : Dev nD) : Loc nD τ sig := (SparseCore.T d).loc main_v43
abbrev g1Loc (d : Dev nD) : Loc nD τ sig := (SparseCore.T d).loc main_v44
abbrev outLoc (d : Dev nD) : Loc nD τ sig := (SparseCore.T d).loc main_v61

/-- What the proof asks of the launch memory: every word of the neighbour-index array names a node, 0 … 1023. -/
def PreOK (m : (ℓ : Loc nD τ sig) → Buf (Elt F) ℓ) : Prop := ∀ (d : Dev nD) (j : S4x1024x36.Idx), (m (a2Loc d) j).toNat < 1024

/-! ## The gather, as a pure function -/

/-- Row (w * 18 + ch) * 128 + l of the result is row idx[w, ch, l] + (bb + w / 16) * 1024 of the table: worker w of 32,
    chunk ch of 18, lane l of 128; the sum is the machine's 32-bit one, and the row number is read modulo the table's
    4096 rows (it is below 4096 whenever every index is below 1024 and bb + 1 < 4). -/
def gatherVal (bb : Nat) (p : (⟨S4096x128, .f32⟩ : BufTy).Contents (Elt F)) (ix : (⟨S32x18x128, .i32⟩ : BufTy).Contents (Elt F)) :
    (⟨S73728x128, .f32⟩ : BufTy).Contents (Elt F) :=
  fun j =>
    p (ix2 ⟨((ix (ix3 ⟨(j 0).val / 2304, by have : (j 0).val < 73728 := (j 0).isLt; omega⟩ ⟨(j 0).val / 128 % 18, Nat.mod_lt _ (by decide)⟩ ⟨(j 0).val % 128, Nat.mod_lt _ (by decide)⟩)
        + BitVec.ofNat 32 ((bb + (j 0).val / 2304 / 16) * 1024)).toNat) % 4096, Nat.mod_lt _ (by decide)⟩ (j 1))

end Cert.Kernel.KS

end
-- ==== Proof.Algebraic.lean ====
/-
  The join of the two sides at the ideal instance: under the precondition (every float entry finite, every
  neighbour index between 0 and 1023) the reference's result and the kernel's result are one array.

  Entry (b, n, h) of the reference's result is the specification's reference arrangement of the arguments read
  entrywise (RefValue), entry (b, n, h) of the kernel's result is the kernel arrangement of the same arguments, and
  the two arrangements agree at finite arguments (SpecLaws). The precondition supplies both hypotheses: each float
  entry is a real number, and each index word reads as a row number below 1024.
-/
import proofs.«215572_g25211458027672_cont_9to1_2008_46_alg».proof.Defs
import proofs.«215572_g25211458027672_cont_9to1_2008_46_alg».proof.Proof.Spec
import proofs.«215572_g25211458027672_cont_9to1_2008_46_alg».proof.Proof.SpecLaws
import proofs.«215572_g25211458027672_cont_9to1_2008_46_alg».proof.Proof.PreDecode
import proofs.«215572_g25211458027672_cont_9to1_2008_46_alg».proof.Proof.RefRun
import proofs.«215572_g25211458027672_cont_9to1_2008_46_alg».proof.Proof.RefValue
import proofs.«215572_g25211458027672_cont_9to1_2008_46_alg».proof.Proof.KSetup
import proofs.«215572_g25211458027672_cont_9to1_2008_46_alg».proof.Proof.KSetupBits
import Idealize.ShloMosaic.Lib.ValueIdx

noncomputable section

namespace Cert.Proof.Algebraic

open Cert.ReferenceIdeal Cert.ReferenceIdeal.RefValue Idealize.ShloMosaic Idealize.ShloMosaic.ValueIdx

variable [Cert.Pre_input_domain.Facts]

/-! ## What the precondition gives -/

section Generic
variable {F : FTy → Type} [FloatOps F] {a0 : FVec F S4x1024x128 .f32} {a1 : FVec F S4x1024x36x128 .f32} {a2 : IVec S4x1024x36 32} {a3 : FVec F S4x1024 .f32} {a4 : FVec F S4x1024x36 .f32} {a5 : FVec F S384x128 .f32} {a6 : FVec F S128 .f32} {a7 : FVec F S128x128 .f32} {a8 : FVec F S128 .f32} {a9 : FVec F S128x128 .f32} {a10 : FVec F S128 .f32} {a11 : FVec F S128x512 .f32} {a12 : FVec F S512 .f32} {a13 : FVec F S512x128 .f32} {a14 : FVec F S128 .f32} {a15 : FVec F S128 .f32} {a16 : FVec F S128 .f32} {a17 : FVec F S128 .f32} {a18 : FVec F S128 .f32}

/-- Every neighbour index word, read unsigned, is below 1024. -/
theorem idx_lt (h : Cert.Pre_input_domain.fn a0 a1 a2 a3 a4 a5 a6 a7 a8 a9 a10 a11 a12 a13 a14 a15 a16 a17 a18 = (fun _ => 1#1)) :
    ∀ j : S4x1024x36.Idx, (a2 j).toNat < 1024 :=
  fun j => Nat.lt_succ_of_le (Cert.PreDecode.idx_toNat h j)

end Generic

/-- The launch memory of the idealized kernel meets what its gather asks: every index word names a node. -/
theorem preOK_of_pre (m : (ℓ : Loc Cert.KernelIdeal.nD Cert.KernelIdeal.τ Cert.KernelIdeal.sig) → Buf (Elt Ideal) ℓ)
    (h : Cert.Pre_KernelIdeal m) : Cert.KernelIdeal.KS.PreOK m :=
  fun d j => idx_lt (h d) j

/-- The same for the word-level kernel. -/
theorem preOK_of_pre_bits (m : (ℓ : Loc Cert.Kernel.nD Cert.Kernel.τ Cert.Kernel.sig) → Buf (Elt Bits) ℓ)
    (h : Cert.Pre_Kernel m) : Cert.Kernel.KS.PreOK m :=
  fun d j => idx_lt (h d) j

section AtIdeal
variable (a0 : FVec Ideal S4x1024x128 .f32) (a1 : FVec Ideal S4x1024x36x128 .f32) (a2 : IVec S4x1024x36 32) (a3 : FVec Ideal S4x1024 .f32) (a4 : FVec Ideal S4x1024x36 .f32) (a5 : FVec Ideal S384x128 .f32) (a6 : FVec Ideal S128 .f32) (a7 : FVec Ideal S128x128 .f32) (a8 : FVec Ideal S128 .f32) (a9 : FVec Ideal S128x128 .f32) (a10 : FVec Ideal S128 .f32) (a11 : FVec Ideal S128x512 .f32) (a12 : FVec Ideal S512 .f32) (a13 : FVec Ideal S512x128 .f32) (a14 : FVec Ideal S128 .f32) (a15 : FVec Ideal S128 .f32) (a16 : FVec Ideal S128 .f32) (a17 : FVec Ideal S128 .f32) (a18 : FVec Ideal S128 .f32)

/-- Under the precondition every index word reads, signed, as its decoded row number. -/
theorem hidx_of_pre (h : Cert.Pre_input_domain.fn a0 a1 a2 a3 a4 a5 a6 a7 a8 a9 a10 a11 a12 a13 a14 a15 a16 a17 a18 = (fun _ => 1#1)) :
    ∀ b n k, (a2 (ix3 b n k)).toInt = ((decIdx a2 b n k).val : Int) :=
  fun b n k => toInt_eq_decIdx a2 b n k (Cert.PreDecode.idx_range h _).1 (Cert.PreDecode.idx_range h _).2

/-- Under the precondition every entry of the specification's arguments is a real number. -/
theorem finite_of_pre (h : Cert.Pre_input_domain.fn a0 a1 a2 a3 a4 a5 a6 a7 a8 a9 a10 a11 a12 a13 a14 a15 a16 a17 a18 = (fun _ => 1#1)) :
    (argsOf a0 a1 (decIdx a2) a3 a4 a5 a6 a7 a8 a9 a10 a11 a12 a13 a14 a15 a16 a17 a18).Finite where
  hV := fun b n j => Cert.PreDecode.real_0 h _
  hE := fun b n k j => Cert.PreDecode.real_1 h _
  mV := fun b n => Cert.PreDecode.real_3 h _
  mA := fun b n k => Cert.PreDecode.real_4 h _
  W1 := fun i j => Cert.PreDecode.real_5 h _
  b1 := fun j => Cert.PreDecode.real_6 h _
  W2 := fun i j => Cert.PreDecode.real_7 h _
  b2 := fun j => Cert.PreDecode.real_8 h _
  W3 := fun i j => Cert.PreDecode.real_9 h _
  b3 := fun j => Cert.PreDecode.real_10 h _
  Win := fun i j => Cert.PreDecode.real_11 h _
  bi := fun j => Cert.PreDecode.real_12 h _
  Wout := fun i j => Cert.PreDecode.real_13 h _
  bo := fun j => Cert.PreDecode.real_14 h _
  g1 := fun j => Cert.PreDecode.real_15 h _
  be1 := fun j => Cert.PreDecode.real_16 h _
  g2 := fun j => Cert.PreDecode.real_17 h _
  be2 := fun j => Cert.PreDecode.real_18 h _

/-- THE REFERENCE'S RESULT UNDER THE PRECONDITION, entry by entry: the kernel arrangement of the arguments. -/
theorem res_eq_outK (h : Cert.Pre_input_domain.fn a0 a1 a2 a3 a4 a5 a6 a7 a8 a9 a10 a11 a12 a13 a14 a15 a16 a17 a18 = (fun _ => 1#1)) (b : Fin 4) (n : Fin 1024) (j : Fin 128) :
    HandRun.res a0 a1 a2 a3 a4 a5 a6 a7 a8 a9 a10 a11 a12 a13 a14 a15 a16 a17 a18 (ix3 b n j) = Cert.Spec.outK (argsOf a0 a1 (decIdx a2) a3 a4 a5 a6 a7 a8 a9 a10 a11 a12 a13 a14 a15 a16 a17 a18) b n j := by
  rw [res_apply a0 a1 a2 (decIdx a2) a3 a4 a5 a6 a7 a8 a9 a10 a11 a12 a13 a14 a15 a16 a17 a18 (hidx_of_pre a0 a1 a2 a3 a4 a5 a6 a7 a8 a9 a10 a11 a12 a13 a14 a15 a16 a17 a18 h),
    Cert.Spec.outK_eq_out _ (finite_of_pre a0 a1 a2 a3 a4 a5 a6 a7 a8 a9 a10 a11 a12 a13 a14 a15 a16 a17 a18 h)]

/-! ## The join, for any kernel-side result that reads as the kernel arrangement -/

section Join
variable (kres : FVec Ideal S4x1024x128 .f32 → FVec Ideal S4x1024x36x128 .f32 → IVec S4x1024x36 32 → FVec Ideal S4x1024 .f32 → FVec Ideal S4x1024x36 .f32 → FVec Ideal S384x128 .f32 → FVec Ideal S128 .f32 → FVec Ideal S128x128 .f32 → FVec Ideal S128 .f32 → FVec Ideal S128x128 .f32 → FVec Ideal S128 .f32 → FVec Ideal S128x512 .f32 → FVec Ideal S512 .f32 → FVec Ideal S512x128 .f32 → FVec Ideal S128 .f32 → FVec Ideal S128 .f32 → FVec Ideal S128 .f32 → FVec Ideal S128 .f32 → FVec Ideal S128 .f32 → FVec Ideal S4x1024x128 .f32)
  (kres_apply : ∀ (a0 : FVec Ideal S4x1024x128 .f32) (a1 : FVec Ideal S4x1024x36x128 .f32) (a2 : IVec S4x1024x36 32) (a3 : FVec Ideal S4x1024 .f32) (a4 : FVec Ideal S4x1024x36 .f32) (a5 : FVec Ideal S384x128 .f32) (a6 : FVec Ideal S128 .f32) (a7 : FVec Ideal S128x128 .f32) (a8 : FVec Ideal S128 .f32) (a9 : FVec Ideal S128x128 .f32) (a10 : FVec Ideal S128 .f32) (a11 : FVec Ideal S128x512 .f32) (a12 : FVec Ideal S512 .f32) (a13 : FVec Ideal S512x128 .f32) (a14 : FVec Ideal S128 .f32) (a15 : FVec Ideal S128 .f32) (a16 : FVec Ideal S128 .f32) (a17 : FVec Ideal S128 .f32) (a18 : FVec Ideal S128 .f32) (idx : Fin 4 → Fin 1024 → Fin 36 → Fin 1024)
    (hidx : ∀ b n k, (a2 (ix3 b n k)).toInt = ((idx b n k).val : Int)) (b : Fin 4) (n : Fin 1024) (h : Fin 128),
    kres a0 a1 a2 a3 a4 a5 a6 a7 a8 a9 a10 a11 a12 a13 a14 a15 a16 a17 a18 (ix3 b n h)
      = Cert.Spec.outK (argsOf a0 a1 idx a3 a4 a5 a6 a7 a8 a9 a10 a11 a12 a13 a14 a15 a16 a17 a18) b n h)

include kres_apply in
/-- Under the precondition the reference's result and the kernel's result are one array. -/
theorem result_eq_of (h : Cert.Pre_input_domain.fn a0 a1 a2 a3 a4 a5 a6 a7 a8 a9 a10 a11 a12 a13 a14 a15 a16 a17 a18 = (fun _ => 1#1)) :
    HandRun.res a0 a1 a2 a3 a4 a5 a6 a7 a8 a9 a10 a11 a12 a13 a14 a15 a16 a17 a18 = kres a0 a1 a2 a3 a4 a5 a6 a7 a8 a9 a10 a11 a12 a13 a14 a15 a16 a17 a18 := by
  funext i
  obtain ⟨b, n, j, rfl⟩ : ∃ (b : Fin 4) (n : Fin 1024) (j : Fin 128), i = ix3 b n j := ⟨i 0, i 1, i 2, eq_ix3 i⟩
  rw [res_eq_outK a0 a1 a2 a3 a4 a5 a6 a7 a8 a9 a10 a11 a12 a13 a14 a15 a16 a17 a18 h, kres_apply a0 a1 a2 a3 a4 a5 a6 a7 a8 a9 a10 a11 a12 a13 a14 a15 a16 a17 a18 (decIdx a2) (hidx_of_pre a0 a1 a2 a3 a4 a5 a6 a7 a8 a9 a10 a11 a12 a13 a14 a15 a16 a17 a18 h)]

include kres_apply in
/-- The same over two families of arguments that agree: the reference run on one, the kernel run on the other. -/
theorem result_eq_of' (a0' : FVec Ideal S4x1024x128 .f32) (a1' : FVec Ideal S4x1024x36x128 .f32) (a2' : IVec S4x1024x36 32) (a3' : FVec Ideal S4x1024 .f32) (a4' : FVec Ideal S4x1024x36 .f32) (a5' : FVec Ideal S384x128 .f32) (a6' : FVec Ideal S128 .f32) (a7' : FVec Ideal S128x128 .f32) (a8' : FVec Ideal S128 .f32) (a9' : FVec Ideal S128x128 .f32) (a10' : FVec Ideal S128 .f32) (a11' : FVec Ideal S128x512 .f32) (a12' : FVec Ideal S512 .f32) (a13' : FVec Ideal S512x128 .f32) (a14' : FVec Ideal S128 .f32) (a15' : FVec Ideal S128 .f32) (a16' : FVec Ideal S128 .f32) (a17' : FVec Ideal S128 .f32) (a18' : FVec Ideal S128 .f32)
    (e0 : a0' = a0) (e1 : a1' = a1) (e2 : a2' = a2) (e3 : a3' = a3) (e4 : a4' = a4) (e5 : a5' = a5) (e6 : a6' = a6) (e7 : a7' = a7) (e8 : a8' = a8) (e9 : a9' = a9) (e10 : a10' = a10) (e11 : a11' = a11) (e12 : a12' = a12) (e13 : a13' = a13) (e14 : a14' = a14) (e15 : a15' = a15) (e16 : a16' = a16) (e17 : a17' = a17) (e18 : a18' = a18)
    (h : Cert.Pre_input_domain.fn a0 a1 a2 a3 a4 a5 a6 a7 a8 a9 a10 a11 a12 a13 a14 a15 a16 a17 a18 = (fun _ => 1#1)) :
    HandRun.res a0' a1' a2' a3' a4' a5' a6' a7' a8' a9' a10' a11' a12' a13' a14' a15' a16' a17' a18' = kres a0 a1 a2 a3 a4 a5 a6 a7 a8 a9 a10 a11 a12 a13 a14 a15 a16 a17 a18 := by
  subst e0 e1 e2 e3 e4 e5 e6 e7 e8 e9 e10 e11 e12 e13 e14 e15 e16 e17 e18
  exact result_eq_of a0' a1' a2' a3' a4' a5' a6' a7' a8' a9' a10' a11' a12' a13' a14' a15' a16' a17' a18' kres kres_apply h

include kres_apply in
/-- The same with the agreement as one conjunction, argument by argument in order. -/
theorem result_eq_of_agree (a0' : FVec Ideal S4x1024x128 .f32) (a1' : FVec Ideal S4x1024x36x128 .f32) (a2' : IVec S4x1024x36 32) (a3' : FVec Ideal S4x1024 .f32) (a4' : FVec Ideal S4x1024x36 .f32) (a5' : FVec Ideal S384x128 .f32) (a6' : FVec Ideal S128 .f32) (a7' : FVec Ideal S128x128 .f32) (a8' : FVec Ideal S128 .f32) (a9' : FVec Ideal S128x128 .f32) (a10' : FVec Ideal S128 .f32) (a11' : FVec Ideal S128x512 .f32) (a12' : FVec Ideal S512 .f32) (a13' : FVec Ideal S512x128 .f32) (a14' : FVec Ideal S128 .f32) (a15' : FVec Ideal S128 .f32) (a16' : FVec Ideal S128 .f32) (a17' : FVec Ideal S128 .f32) (a18' : FVec Ideal S128 .f32)
    (hag : a0' = a0 ∧ a1' = a1 ∧ a2' = a2 ∧ a3' = a3 ∧ a4' = a4 ∧ a5' = a5 ∧ a6' = a6 ∧ a7' = a7 ∧ a8' = a8 ∧ a9' = a9 ∧ a10' = a10 ∧ a11' = a11 ∧ a12' = a12 ∧ a13' = a13 ∧ a14' = a14 ∧ a15' = a15 ∧ a16' = a16 ∧ a17' = a17 ∧ a18' = a18)
    (h : Cert.Pre_input_domain.fn a0 a1 a2 a3 a4 a5 a6 a7 a8 a9 a10 a11 a12 a13 a14 a15 a16 a17 a18 = (fun _ => 1#1)) :
    HandRun.res a0' a1' a2' a3' a4' a5' a6' a7' a8' a9' a10' a11' a12' a13' a14' a15' a16' a17' a18' = kres a0 a1 a2 a3 a4 a5 a6 a7 a8 a9 a10 a11 a12 a13 a14 a15 a16 a17 a18 := by
  obtain ⟨e0, e1, e2, e3, e4, e5, e6, e7, e8, e9, e10, e11, e12, e13, e14, e15, e16, e17, e18⟩ := hag
  exact result_eq_of' a0 a1 a2 a3 a4 a5 a6 a7 a8 a9 a10 a11 a12 a13 a14 a15 a16 a17 a18 kres kres_apply a0' a1' a2' a3' a4' a5' a6' a7' a8' a9' a10' a11' a12' a13' a14' a15' a16' a17' a18' e0 e1 e2 e3 e4 e5 e6 e7 e8 e9 e10 e11 e12 e13 e14 e15 e16 e17 e18 h

end Join

end AtIdeal

end Cert.Proof.Algebraic

end
-- ==== Proof.KBodyDef.lean ====
import proofs.«215572_g25211458027672_cont_9to1_2008_46_alg».proof.Proof.SkeletonKernelIdeal

set_option synthInstance.maxSize 4096

noncomputable section

namespace Cert.KernelIdeal.BodyVal

open Cert.KernelIdeal.Gen Cert.KernelIdeal.GenP

open Idealize.ShloMosaic Idealize.SL.Sem

variable {F : FTy → Type} [FloatOps F] [Named F]

/-- What the body `cc2_body` stores, as one function of the blocks it loads: the payloads `k2_pay1` … `k2_pay11`
    composed as the four parts of the body pass them on. `c46` is the scalar `%cst_46` by which the aggregated
    message is scaled; the scalar `%cst_26` of the first GELU is its printed word. -/
def bodyOut (c46 : F .f32)
    (v0 : Vec F S1x128x128 .f32) (v2 : Vec F S1x36x128x128 .f32) (v6 : Vec F S36x128x128 .f32) (v9 : Vec F S1x128x36 .f32)
    (v11 : Vec F S1x1x1x4608 .bf16) (v149 : Vec F S1x1x1x128 .f32) (v53 : Vec F S128x4608 .bf16) (v20 : Vec F S4608x128 .bf16)
    (v13 : Vec F S128x128 .f32) (v16 : Vec F S1x128 .f32) (v24 : Vec F S128x128 .bf16) (v38 : Vec F S128x128 .bf16)
    (v41 : Vec F S1x128 .f32) (v61 : Vec F S128x128 .f32) (v63 : Vec F S1x128 .f32) (v99 : Vec F S128x512 .bf16)
    (v102 : Vec F S1x512 .f32) (v115 : Vec F S512x128 .bf16) (v118 : Vec F S1x128 .f32) (v72 : Vec F S1x128 .f32)
    (v74 : Vec F S1x128 .f32) (v123 : Vec F S1x128 .f32) (v125 : Vec F S1x128 .f32) : FVec F S1x128x128 .f32 :=
  have v68 : FVec F S128x128 .f32 :=
    k2_pay6 (k2_pay3 v9) (k2_pay4 v11) (k2_pay5 v0 v2 v6 v13 v16 v20 v24) (Scalar.ofBits .f32 0x3F3504F3#32) v38 v41 v53 v61 v63
  k2_pay1 (k2_pay11 (k2_pay7 (k2_pay2 v0) v68 c46 v72 v74) (k2_pay8 (k2_pay2 v0) v68 c46 v72 v74 v99 v102)
    (k2_pay9 (k2_pay2 v0) v68 c46 v72 v74 v99 v102) (k2_pay10 (F := F)) v115 v118 v123 v125 v149)

end Cert.KernelIdeal.BodyVal

end
-- ==== Proof.KBodyDef4.lean ====
import proofs.«215572_g25211458027672_cont_9to1_2008_46_alg».proof.Proof.SkeletonKernelIdeal

set_option synthInstance.maxSize 4096

noncomputable section

namespace Cert.KernelIdeal.BodyVal

open Cert.KernelIdeal.Gen Cert.KernelIdeal.GenP

open Idealize.ShloMosaic Idealize.SL.Sem

variable {F : FTy → Type} [FloatOps F] [Named F]

/-- What the body `cc4_body` stores, as one function of the blocks it loads: the payloads `k4_pay1` … `k4_pay11`
    composed as the four parts of the body pass them on. `c46` is the scalar `%cst_46` by which the aggregated
    message is scaled; the scalar `%cst_26` of the first GELU is its printed word. -/
def bodyOut4 (c46 : F .f32)
    (v0 : Vec F S1x128x128 .f32) (v2 : Vec F S1x36x128x128 .f32) (v6 : Vec F S36x128x128 .f32) (v9 : Vec F S1x128x36 .f32)
    (v11 : Vec F S1x1x1x4608 .bf16) (v149 : Vec F S1x1x1x128 .f32) (v53 : Vec F S128x4608 .bf16) (v20 : Vec F S4608x128 .bf16)
    (v13 : Vec F S128x128 .f32) (v16 : Vec F S1x128 .f32) (v24 : Vec F S128x128 .bf16) (v38 : Vec F S128x128 .bf16)
    (v41 : Vec F S1x128 .f32) (v61 : Vec F S128x128 .f32) (v63 : Vec F S1x128 .f32) (v99 : Vec F S128x512 .bf16)
    (v102 : Vec F S1x512 .f32) (v115 : Vec F S512x128 .bf16) (v118 : Vec F S1x128 .f32) (v72 : Vec F S1x128 .f32)
    (v74 : Vec F S1x128 .f32) (v123 : Vec F S1x128 .f32) (v125 : Vec F S1x128 .f32) : FVec F S1x128x128 .f32 :=
  have v68 : FVec F S128x128 .f32 :=
    k4_pay6 (k4_pay3 v9) (k4_pay4 v11) (k4_pay5 v0 v2 v6 v13 v16 v20 v24) (Scalar.ofBits .f32 0x3F3504F3#32) v38 v41 v53 v61 v63
  k4_pay1 (k4_pay11 (k4_pay7 (k4_pay2 v0) v68 c46 v72 v74) (k4_pay8 (k4_pay2 v0) v68 c46 v72 v74 v99 v102)
    (k4_pay9 (k4_pay2 v0) v68 c46 v72 v74 v99 v102) (k4_pay10 (F := F)) v115 v118 v123 v125 v149)

end Cert.KernelIdeal.BodyVal

end
-- ==== Proof.KHostVal.lean ====
/-
  The arrays the kernel program's @main computes on the host, each as a pure term of the values it is
  computed from, exactly as the printed operations compose it, and each read at an index.
-/
import proofs.«215572_g25211458027672_cont_9to1_2008_46_alg».proof.Proof.Gen.KernelIdeal
import Idealize.ShloMosaic.Lib.ValueIdx
import Idealize.ShloMosaic.Lib.ValueLayout
import Idealize.ShloMosaic.Lib.IdealHost
import Idealize.ShloMosaic.Lib.WordArith
import Idealize.ShloMosaic.Lib.Pipeline.Value

noncomputable section

namespace Cert.KernelIdeal.HostVal

open Idealize.ShloMosaic Idealize.ShloMosaic.ValueIdx
open Cert.KernelIdeal
open Cert.KernelIdeal.Facts₀

variable {F : FTy → Type} [FloatOps F] [Named F]

/-! ## The three row blocks of W1 -/

/-- Rows 0 to 127 of W1. -/
def val_v0 (a5 : Vec F S384x128 .f32) : Vec F S128x128 .f32 :=
  extractStridedSlice S128x128 ![0, 0] a5 slices_S384x128_S128x128_0_0

/-- Rows 128 to 255 of W1. -/
def val_v1 (a5 : Vec F S384x128 .f32) : Vec F S128x128 .f32 :=
  extractStridedSlice S128x128 ![128, 0] a5 slices_S384x128_S128x128_128_0

/-- Rows 256 to 383 of W1. -/
def val_v2 (a5 : Vec F S384x128 .f32) : Vec F S128x128 .f32 :=
  extractStridedSlice S128x128 ![256, 0] a5 slices_S384x128_S128x128_256_0

theorem val_v0_apply (a5 : Vec F S384x128 .f32) (i j : Fin 128) :
    val_v0 a5 (ix2 i j) = a5 (ix2 ⟨i.val, by omega⟩ j) :=
  slice2_axis0_apply 0 a5 _ i j _ (by show i.val = 0 + i.val; omega)

theorem val_v1_apply (a5 : Vec F S384x128 .f32) (i j : Fin 128) :
    val_v1 a5 (ix2 i j) = a5 (ix2 ⟨128 + i.val, by omega⟩ j) :=
  slice2_axis0_apply 128 a5 _ i j _ rfl

theorem val_v2_apply (a5 : Vec F S384x128 .f32) (i j : Fin 128) :
    val_v2 a5 (ix2 i j) = a5 (ix2 ⟨256 + i.val, by omega⟩ j) :=
  slice2_axis0_apply 256 a5 _ i j _ rfl

/-! ## The edge features, neighbour axis in front of the node axis -/

/-- h_E with axes (batch, neighbour, node, feature). -/
def val_v3 (a1 : Vec F S4x1024x36x128 .f32) : Vec F S4x36x1024x128 .f32 :=
  transpose S4x36x1024x128 [0, 2, 1, 3] a1 transposes_S4x1024x36x128_S4x36x1024x128_0_2_1_3

theorem val_v3_apply (a1 : Vec F S4x1024x36x128 .f32) (b : Fin 4) (k : Fin 36) (n : Fin 1024) (j : Fin 128) :
    val_v3 a1 (ix4 b k n j) = a1 (ix4 b n k j) :=
  transpose_apply _ a1 _ _ _ fun c => match c with | ⟨0, _⟩ => rfl | ⟨1, _⟩ => rfl | ⟨2, _⟩ => rfl | ⟨3, _⟩ => rfl

/-! ## The neighbour indices, neighbour-major and flattened -/

/-- E_idx with axes (batch, neighbour, node). -/
def val_v4 (a2 : Vec F S4x1024x36 .i32) : Vec F S4x36x1024 .i32 :=
  transpose S4x36x1024 [0, 2, 1] a2 transposes_S4x1024x36_S4x36x1024_0_2_1

theorem val_v4_apply (a2 : Vec F S4x1024x36 .i32) (b : Fin 4) (k : Fin 36) (n : Fin 1024) :
    val_v4 a2 (ix3 b k n) = a2 (ix3 b n k) :=
  transpose_ix3_021_apply a2 _ b k n

/-- The same, the neighbour and node axes flattened row-major. -/
def val_v5 (a2 : Vec F S4x1024x36 .i32) : Vec F S4x36864 .i32 :=
  shapeCast S4x36864 (val_v4 a2) shapeCasts_S4x36x1024_S4x36864

theorem val_v5_apply (a2 : Vec F S4x1024x36 .i32) (b : Fin 4) (k : Fin 36) (n : Fin 1024) (f : Fin 36864)
    (hf : f.val = k.val * 1024 + n.val) :
    val_v5 a2 (ix2 b f) = a2 (ix3 b n k) := by
  unfold val_v5
  rw [shapeCast_apply (val_v4 a2) shapeCasts_S4x36x1024_S4x36864 (ix2 b f) (ix3 b k n) (by
    rw [Shape.rowMajor_val_three, Shape.rowMajor_val_two]
    show (b.val * 36 + k.val) * 1024 + n.val = b.val * 36864 + f.val
    omega)]
  exact val_v4_apply a2 b k n

/-! ## The attention mask, laid out one node tile per row -/

/-- mask_attend with axes (batch, neighbour, node). -/
def val_v6 (a4 : Vec F S4x1024x36 .f32) : Vec F S4x36x1024 .f32 :=
  transpose S4x36x1024 [0, 2, 1] a4 transposes_S4x1024x36_S4x36x1024_0_2_1

theorem val_v6_apply (a4 : Vec F S4x1024x36 .f32) (b : Fin 4) (k : Fin 36) (n : Fin 1024) :
    val_v6 a4 (ix3 b k n) = a4 (ix3 b n k) :=
  transpose_ix3_021_apply a4 _ b k n

/-- The node axis split into 8 tiles of 128 nodes. -/
def val_v7 (a4 : Vec F S4x1024x36 .f32) : Vec F S4x36x8x128 .f32 :=
  shapeCast S4x36x8x128 (val_v6 a4) shapeCasts_S4x36x1024_S4x36x8x128

theorem val_v7_apply (a4 : Vec F S4x1024x36 .f32) (b : Fin 4) (k : Fin 36) (t : Fin 8) (i : Fin 128) (n : Fin 1024)
    (hn : n.val = t.val * 128 + i.val) :
    val_v7 a4 (ix4 b k t i) = a4 (ix3 b n k) := by
  unfold val_v7
  rw [shapeCast_apply (val_v6 a4) shapeCasts_S4x36x1024_S4x36x8x128 (ix4 b k t i) (ix3 b k n) (by
    rw [Shape.rowMajor_val_three, Shape.rowMajor_val_four]
    show (b.val * 36 + k.val) * 1024 + n.val = ((b.val * 36 + k.val) * 8 + t.val) * 128 + i.val
    omega)]
  exact val_v6_apply a4 b k n

/-- The tile axis in front of the neighbour axis. -/
def val_v8 (a4 : Vec F S4x1024x36 .f32) : Vec F S4x8x36x128 .f32 :=
  transpose S4x8x36x128 [0, 2, 1, 3] (val_v7 a4) transposes_S4x36x8x128_S4x8x36x128_0_2_1_3

theorem val_v8_apply (a4 : Vec F S4x1024x36 .f32) (b : Fin 4) (t : Fin 8) (k : Fin 36) (i : Fin 128) (n : Fin 1024)
    (hn : n.val = t.val * 128 + i.val) :
    val_v8 a4 (ix4 b t k i) = a4 (ix3 b n k) := by
  unfold val_v8
  rw [transpose_apply _ (val_v7 a4) transposes_S4x36x8x128_S4x8x36x128_0_2_1_3 (ix4 b t k i) (ix4 b k t i)
    (fun c => match c with | ⟨0, _⟩ => rfl | ⟨1, _⟩ => rfl | ⟨2, _⟩ => rfl | ⟨3, _⟩ => rfl)]
  exact val_v7_apply a4 b k t i n hn

/-- Each tile's (neighbour, node) block flattened into one row of 4608. -/
def val_v9 (a4 : Vec F S4x1024x36 .f32) : Vec F S4x8x1x4608 .f32 :=
  shapeCast S4x8x1x4608 (val_v8 a4) shapeCasts_S4x8x36x128_S4x8x1x4608

theorem val_v9_apply (a4 : Vec F S4x1024x36 .f32) (b : Fin 4) (t : Fin 8) (u : Fin 1) (jj : Fin 4608)
    (k : Fin 36) (i : Fin 128) (n : Fin 1024) (hjj : jj.val = k.val * 128 + i.val) (hn : n.val = t.val * 128 + i.val) :
    val_v9 a4 (ix4 b t u jj) = a4 (ix3 b n k) := by
  unfold val_v9
  have hu : u.val = 0 := by omega
  rw [shapeCast_apply (val_v8 a4) shapeCasts_S4x8x36x128_S4x8x1x4608 (ix4 b t u jj) (ix4 b t k i) (by
    rw [Shape.rowMajor_val_four, Shape.rowMajor_val_four]
    show ((b.val * 8 + t.val) * 36 + k.val) * 128 + i.val = ((b.val * 8 + t.val) * 1 + u.val) * 4608 + jj.val
    omega)]
  exact val_v8_apply a4 b t k i n hn

/-- The same narrowed to bf16. -/
def val_v10 (a4 : Vec F S4x1024x36 .f32) : Vec F S4x8x1x4608 .bf16 :=
  truncf .bf16 (val_v9 a4) bitsLt_bf16_f32

theorem val_v10_apply (a4 : Vec F S4x1024x36 .f32) (b : Fin 4) (t : Fin 8) (u : Fin 1) (jj : Fin 4608)
    (k : Fin 36) (i : Fin 128) (n : Fin 1024) (hjj : jj.val = k.val * 128 + i.val) (hn : n.val = t.val * 128 + i.val) :
    val_v10 a4 (ix4 b t u jj) = FloatOps.truncf .bf16 bitsLt_bf16_f32 (a4 (ix3 b n k)) := by
  show FloatOps.truncf .bf16 bitsLt_bf16_f32 (val_v9 a4 (ix4 b t u jj)) = _
  rw [val_v9_apply a4 b t u jj k i n hjj hn]

/-! ## Words: the facts about 32-bit words the remainder chain needs -/

theorem w128_ne_zero : ¬ ((128#32 : BitVec 32) = 0#32) := by
  intro h; have := congrArg BitVec.toNat h; simp at this

theorem w128_ne_neg_one : ¬ ((128#32 : BitVec 32) = -1) := by
  intro h; have := congrArg BitVec.toNat h; simp at this

theorem w128_msb : (128#32 : BitVec 32).msb = false := by
  rw [BitVec.msb_eq_false_iff_two_mul_lt]; simp

theorem ofNat_msb_of_lt (m : Nat) (hm : m < 4608) : (BitVec.ofNat 32 m).msb = false := by
  rw [BitVec.msb_eq_false_iff_two_mul_lt, BitVec.toNat_ofNat]
  omega

theorem cmpi_eq_w128_zero : IntOp.cmpi .eq (128#32) (0#32) = 0#1 := by
  simp [IntOp.cmpi]

theorem cmpi_slt_w128_zero : IntOp.cmpi .slt (128#32) (0#32) = 0#1 := by
  show BitVec.ofBool ((128#32 : BitVec 32).slt (0#32)) = 0#1
  rw [BitVec.slt_zero_eq_msb, w128_msb]; rfl

theorem cmpi_slt_ofNat_zero (m : Nat) (hm : m < 4608) : IntOp.cmpi .slt (BitVec.ofNat 32 m) (0#32) = 0#1 := by
  show BitVec.ofBool ((BitVec.ofNat 32 m).slt (0#32)) = 0#1
  rw [BitVec.slt_zero_eq_msb, ofNat_msb_of_lt m hm]; rfl

theorem cmpi_ne_zero_zero : IntOp.cmpi .ne (0#1) (0#1) = 0#1 := by simp [IntOp.cmpi]

theorem andi_zero_left (x : BitVec 1) : IntOp.andi (0#1) x = 0#1 := by simp [IntOp.andi]

/-- The host's signed remainder of a small natural by 128 is the natural remainder. -/
theorem remsi_host_w128 (j : Nat) (hj : j < 4608) :
    IntOp.remsi .host (BitVec.ofNat 32 j) (128#32) = BitVec.ofNat 32 (j % 128) := by
  unfold IntOp.remsi
  rw [if_neg (by
    unfold IntOp.SDivCorner
    intro h
    rcases h with h | ⟨_, h⟩
    · exact w128_ne_zero h
    · exact w128_ne_neg_one h)]
  unfold BitVec.srem
  rw [ofNat_msb_of_lt j hj, w128_msb]
  apply BitVec.eq_of_toNat_eq
  show (BitVec.ofNat 32 j % 128#32).toNat = _
  have hj32 : j % 2 ^ 32 = j := Nat.mod_eq_of_lt (Nat.lt_trans hj (by norm_num))
  have hm32 : j % 128 % 2 ^ 32 = j % 128 :=
    Nat.mod_eq_of_lt (Nat.lt_trans (Nat.mod_lt j (by norm_num)) (by norm_num))
  have h128 : 128 % 2 ^ 32 = 128 := by norm_num
  rw [BitVec.toNat_umod, BitVec.toNat_ofNat, BitVec.toNat_ofNat, BitVec.toNat_ofNat, h128, hj32, hm32]

/-- Equality of the words of two naturals below 2^32 is equality of the naturals. -/
theorem cmpi_eq_ofNat (a b : Nat) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · rw [if_neg h]
    have : ¬ (BitVec.ofNat 32 a = BitVec.ofNat 32 b) := by
      intro e; have := congrArg BitVec.toNat e
      rw [BitVec.toNat_ofNat, BitVec.toNat_ofNat, Nat.mod_eq_of_lt ha, Nat.mod_eq_of_lt hb] at this
      exact h this
    have hb : (BitVec.ofNat 32 a == BitVec.ofNat 32 b) = false := by
      rw [beq_eq_false_iff_ne]; exact this
    rw [hb]; rfl

/-! ## The column number modulo 128 (the call of @remainder, value by value) -/

/-- The column numbers 0 … 4607. -/
def val_v11 : IVec S4608 32 := iotaInDim S4608 32 0
/-- The divisor 128. -/
def val_c : IVec S_ 32 := constantI S_ 32 128#32
def val_call0_v0 : IVec S_ 32 := id val_c
def val_call0_c : IVec S_ 32 := constantI S_ 32 0#32
def val_call0_v1 : IVec S_ 1 := cmpi .eq val_call0_v0 val_call0_c
def val_call0_c_0 : IVec S_ 32 := constantI S_ 32 1#32
/-- The divisor, a zero one replaced by one. -/
def val_call0_v2 : IVec S_ 32 := select val_call0_v1 val_call0_c_0 val_call0_v0
def val_call0_v3 : IVec S4608 32 := broadcastInDim S4608 ![] bcast_S_S4608 val_call0_v2
/-- The truncated remainder. -/
def val_call0_v4 : IVec S4608 32 := Host.remsi val_v11 val_call0_v3
def val_call0_c_1 : IVec S_ 32 := constantI S_ 32 0#32
def val_call0_v5 : IVec S4608 32 := broadcastInDim S4608 ![] bcast_S_S4608 val_call0_c_1
def val_call0_v6 : IVec S4608 1 := cmpi .ne val_call0_v4 val_call0_v5
def val_call0_c_2 : IVec S_ 32 := constantI S_ 32 0#32
def val_call0_v7 : IVec S4608 32 := broadcastInDim S4608 ![] bcast_S_S4608 val_call0_c_2
def val_call0_v8 : IVec S4608 1 := cmpi .slt val_call0_v4 val_call0_v7
def val_call0_c_3 : IVec S_ 32 := constantI S_ 32 0#32
def val_call0_v9 : IVec S_ 1 := cmpi .slt val_call0_v2 val_call0_c_3
def val_call0_v10 : IVec S4608 1 := broadcastInDim S4608 ![] bcast_S_S4608 val_call0_v9
def val_call0_v11 : IVec S4608 1 := cmpi .ne val_call0_v8 val_call0_v10
def val_call0_v12 : IVec S4608 1 := andi val_call0_v11 val_call0_v6
def val_call0_v13 : IVec S4608 32 := broadcastInDim S4608 ![] bcast_S_S4608 val_call0_v2
def val_call0_v14 : IVec S4608 32 := addi val_call0_v4 val_call0_v13
/-- The floored remainder: the truncated one moved by the divisor where the signs differ. -/
def val_v12 : IVec S4608 32 := select val_call0_v12 val_call0_v14 val_call0_v4

theorem val_v11_apply (jj : Fin 4608) : val_v11 (ix1 jj) = BitVec.ofNat 32 jj.val := rfl

theorem val_call0_v2_apply (i : S_.Idx) : val_call0_v2 i = 128#32 := by
  show Scalar.select (IntOp.cmpi .eq (128#32) (0#32)) (1#32) (128#32) = 128#32
  rw [cmpi_eq_w128_zero]; exact select_zero _ _

theorem val_call0_v3_apply (j : S4608.Idx) : val_call0_v3 j = 128#32 := by
  unfold val_call0_v3
  rw [broadcastInDim_scalar_apply]; exact val_call0_v2_apply _

theorem val_call0_v4_apply (jj : Fin 4608) : val_call0_v4 (ix1 jj) = BitVec.ofNat 32 (jj.val % 128) := by
  show IntOp.remsi .host (val_v11 (ix1 jj)) (val_call0_v3 (ix1 jj)) = _
  rw [val_call0_v3_apply, val_v11_apply]
  exact remsi_host_w128 jj.val jj.isLt

theorem val_call0_v8_apply (jj : Fin 4608) : val_call0_v8 (ix1 jj) = 0#1 := by
  show IntOp.cmpi .slt (val_call0_v4 (ix1 jj)) (val_call0_v7 (ix1 jj)) = 0#1
  rw [val_call0_v4_apply]
  have h7 : val_call0_v7 (ix1 jj) = 0#32 := by
    unfold val_call0_v7; rw [broadcastInDim_scalar_apply]; rfl
  rw [h7]
  exact cmpi_slt_ofNat_zero _ (by have := jj.isLt; omega)

theorem val_call0_v10_apply (j : S4608.Idx) : val_call0_v10 j = 0#1 := by
  unfold val_call0_v10
  rw [broadcastInDim_scalar_apply]
  show IntOp.cmpi .slt (val_call0_v2 ix0) (0#32) = 0#1
  rw [val_call0_v2_apply]; exact cmpi_slt_w128_zero

theorem val_call0_v12_apply (jj : Fin 4608) : val_call0_v12 (ix1 jj) = 0#1 := by
  show IntOp.andi (IntOp.cmpi .ne (val_call0_v8 (ix1 jj)) (val_call0_v10 (ix1 jj))) (val_call0_v6 (ix1 jj)) = 0#1
  rw [val_call0_v8_apply, val_call0_v10_apply, cmpi_ne_zero_zero, andi_zero_left]

/-- Column jj's position within its neighbour block, as a word. -/
theorem val_v12_apply (jj : Fin 4608) : val_v12 (ix1 jj) = BitVec.ofNat 32 (jj.val % 128) := by
  show Scalar.select (val_call0_v12 (ix1 jj)) (val_call0_v14 (ix1 jj)) (val_call0_v4 (ix1 jj)) = _
  rw [val_call0_v12_apply, select_zero]
  exact val_call0_v4_apply jj

/-! ## The aggregation matrix A2 and its transpose -/

/-- The row numbers 0 … 127. -/
def val_v13 : IVec S128 32 := iotaInDim S128 32 0
def val_v14 : IVec S128x1 32 := broadcastInDim S128x1 ![0] bcast_S128_S128x1_0 val_v13
def val_v15 : IVec S1x4608 32 := broadcastInDim S1x4608 ![1] bcast_S4608_S1x4608_1 val_v12
def val_v16 : IVec S128x4608 32 := broadcastInDim S128x4608 ![0, 1] bcast_S128x1_S128x4608_0_1 val_v14
def val_v17 : IVec S128x4608 32 := broadcastInDim S128x4608 ![0, 1] bcast_S1x4608_S128x4608_0_1 val_v15
/-- Row i meets column jj where i is jj's position within its neighbour block. -/
def val_v18 : IVec S128x4608 1 := cmpi .eq val_v16 val_v17
/-- A2: the bit as a bf16 number. -/
def val_v19 : FVec F S128x4608 .bf16 := uitofp .bf16 val_v18
/-- A2 transposed. -/
def val_v20 : FVec F S4608x128 .bf16 :=
  transpose S4608x128 [1, 0] (val_v19 (F := F)) transposes_S128x4608_S4608x128_1_0

theorem val_v13_apply (i : Fin 128) : val_v13 (ix1 i) = BitVec.ofNat 32 i.val := rfl

theorem val_v14_apply (i : Fin 128) (u : Fin 1) : val_v14 (ix2 i u) = BitVec.ofNat 32 i.val := by
  unfold val_v14
  rw [broadcastInDim_apply _ bcast_S128_S128x1_0 val_v13 (ix2 i u) (ix1 i)
    (fun a => match a with | ⟨0, _⟩ => rfl)]
  rfl

theorem val_v15_apply (u : Fin 1) (jj : Fin 4608) : val_v15 (ix2 u jj) = BitVec.ofNat 32 (jj.val % 128) := by
  unfold val_v15
  rw [broadcastInDim_apply _ bcast_S4608_S1x4608_1 val_v12 (ix2 u jj) (ix1 jj)
    (fun a => match a with | ⟨0, _⟩ => rfl)]
  exact val_v12_apply jj

theorem val_v16_apply (i : Fin 128) (jj : Fin 4608) : val_v16 (ix2 i jj) = BitVec.ofNat 32 i.val := by
  unfold val_v16
  rw [broadcastInDim_apply _ bcast_S128x1_S128x4608_0_1 val_v14 (ix2 i jj) (ix2 i (0 : Fin 1))
    (fun a => match a with | ⟨0, _⟩ => rfl | ⟨1, _⟩ => rfl)]
  exact val_v14_apply i 0

theorem val_v17_apply (i : Fin 128) (jj : Fin 4608) : val_v17 (ix2 i jj) = BitVec.ofNat 32 (jj.val % 128) := by
  unfold val_v17
  rw [broadcastInDim_apply _ bcast_S1x4608_S128x4608_0_1 val_v15 (ix2 i jj) (ix2 (0 : Fin 1) jj)
    (fun a => match a with | ⟨0, _⟩ => rfl | ⟨1, _⟩ => rfl)]
  exact val_v15_apply 0 jj

theorem val_v18_apply (i : Fin 128) (jj : Fin 4608) :
    val_v18 (ix2 i jj) = if i.val = jj.val % 128 then 1#1 else 0#1 := by
  show IntOp.cmpi .eq (val_v16 (ix2 i jj)) (val_v17 (ix2 i jj)) = _
  rw [val_v16_apply, val_v17_apply]
  exact cmpi_eq_ofNat _ _ (by have := i.isLt; omega) (by have := jj.isLt; omega)

theorem val_v19_apply (i : Fin 128) (jj : Fin 4608) :
    val_v19 (F := F) (ix2 i jj) = FloatOps.uitofp .bf16 (if i.val = jj.val % 128 then 1#1 else (0#1 : BitVec 1)) := by
  show FloatOps.uitofp .bf16 (val_v18 (ix2 i jj)) = _
  rw [val_v18_apply]

theorem val_v20_apply (jj : Fin 4608) (i : Fin 128) :
    val_v20 (F := F) (ix2 jj i) = FloatOps.uitofp .bf16 (if i.val = jj.val % 128 then 1#1 else (0#1 : BitVec 1)) := by
  unfold val_v20
  rw [transpose_ix2_apply]
  exact val_v19_apply i jj

/-! ## The node features, batch and node flattened (the projection's left operand) -/

def val_v21 (a0 : Vec F S4x1024x128 .f32) : Vec F S4096x128 .f32 :=
  shapeCast S4096x128 a0 shapeCasts_S4x1024x128_S4096x128

theorem val_v21_apply (a0 : Vec F S4x1024x128 .f32) (b : Fin 4) (n : Fin 1024) (j : Fin 128) (r : Fin 4096)
    (hr : r.val = b.val * 1024 + n.val) :
    val_v21 a0 (ix2 r j) = a0 (ix3 b n j) :=
  shapeCast_apply a0 shapeCasts_S4x1024x128_S4096x128 (ix2 r j) (ix3 b n j) (by
    rw [Shape.rowMajor_val_three, Shape.rowMajor_val_two]
    show (b.val * 1024 + n.val) * 128 + j.val = r.val * 128 + j.val
    omega)

/-! ## The index lists of the two gathers: each half of the batch, cut into 32 x 18 chunks of 128 -/

/-- Batches 0 and 1 of the flattened neighbour indices. -/
def val_v23 (a2 : Vec F S4x1024x36 .i32) : Vec F S2x36864 .i32 :=
  extractStridedSlice S2x36864 ![0, 0] (val_v5 a2) slices_S4x36864_S2x36864_0_0

/-- Batches 2 and 3 of the flattened neighbour indices. -/
def val_v42 (a2 : Vec F S4x1024x36 .i32) : Vec F S2x36864 .i32 :=
  extractStridedSlice S2x36864 ![2, 0] (val_v5 a2) slices_S4x36864_S2x36864_2_0

theorem val_v23_apply (a2 : Vec F S4x1024x36 .i32) (bl : Fin 2) (f : Fin 36864) :
    val_v23 a2 (ix2 bl f) = val_v5 a2 (ix2 ⟨bl.val, by omega⟩ f) :=
  slice2_axis0_apply 0 (val_v5 a2) _ bl f _ (by show bl.val = 0 + bl.val; omega)

theorem val_v42_apply (a2 : Vec F S4x1024x36 .i32) (bl : Fin 2) (f : Fin 36864) :
    val_v42 a2 (ix2 bl f) = val_v5 a2 (ix2 ⟨2 + bl.val, by omega⟩ f) :=
  slice2_axis0_apply 2 (val_v5 a2) _ bl f _ rfl

/-- The first gather's index list: subcore w's chunk ch, lane l. -/
def val_v24 (a2 : Vec F S4x1024x36 .i32) : Vec F S32x18x128 .i32 :=
  shapeCast S32x18x128 (val_v23 a2) shapeCasts_S2x36864_S32x18x128

/-- The second gather's index list. -/
def val_v43 (a2 : Vec F S4x1024x36 .i32) : Vec F S32x18x128 .i32 :=
  shapeCast S32x18x128 (val_v42 a2) shapeCasts_S2x36864_S32x18x128

theorem val_v24_apply (a2 : Vec F S4x1024x36 .i32) (w : Fin 32) (ch : Fin 18) (l : Fin 128) (bl : Fin 2) (f : Fin 36864)
    (h : bl.val * 36864 + f.val = w.val * 2304 + ch.val * 128 + l.val) :
    val_v24 a2 (ix3 w ch l) = val_v5 a2 (ix2 ⟨bl.val, by omega⟩ f) := by
  unfold val_v24
  rw [shapeCast_apply (val_v23 a2) shapeCasts_S2x36864_S32x18x128 (ix3 w ch l) (ix2 bl f) (by
    rw [Shape.rowMajor_val_three, Shape.rowMajor_val_two]
    show bl.val * 36864 + f.val = (w.val * 18 + ch.val) * 128 + l.val
    omega)]
  exact val_v23_apply a2 bl f

theorem val_v43_apply (a2 : Vec F S4x1024x36 .i32) (w : Fin 32) (ch : Fin 18) (l : Fin 128) (bl : Fin 2) (f : Fin 36864)
    (h : bl.val * 36864 + f.val = w.val * 2304 + ch.val * 128 + l.val) :
    val_v43 a2 (ix3 w ch l) = val_v5 a2 (ix2 ⟨2 + bl.val, by omega⟩ f) := by
  unfold val_v43
  rw [shapeCast_apply (val_v42 a2) shapeCasts_S2x36864_S32x18x128 (ix3 w ch l) (ix2 bl f) (by
    rw [Shape.rowMajor_val_three, Shape.rowMajor_val_two]
    show bl.val * 36864 + f.val = (w.val * 18 + ch.val) * 128 + l.val
    omega)]
  exact val_v42_apply a2 bl f

/-- The first list's entry is the neighbour index of node n, neighbour k in batch bl. -/
theorem val_v24_apply_arg (a2 : Vec F S4x1024x36 .i32) (w : Fin 32) (ch : Fin 18) (l : Fin 128) (bl : Fin 2)
    (k : Fin 36) (n : Fin 1024)
    (h : bl.val * 36864 + k.val * 1024 + n.val = w.val * 2304 + ch.val * 128 + l.val) :
    val_v24 a2 (ix3 w ch l) = a2 (ix3 ⟨bl.val, by omega⟩ n k) := by
  obtain ⟨f, hf⟩ : ∃ f : Fin 36864, f.val = k.val * 1024 + n.val := ⟨⟨k.val * 1024 + n.val, by omega⟩, rfl⟩
  rw [val_v24_apply a2 w ch l bl f (by rw [hf, ← Nat.add_assoc]; exact h)]
  exact val_v5_apply a2 _ k n f hf

/-- The second list's entry is the neighbour index of node n, neighbour k in batch 2 + bl. -/
theorem val_v43_apply_arg (a2 : Vec F S4x1024x36 .i32) (w : Fin 32) (ch : Fin 18) (l : Fin 128) (bl : Fin 2)
    (k : Fin 36) (n : Fin 1024)
    (h : bl.val * 36864 + k.val * 1024 + n.val = w.val * 2304 + ch.val * 128 + l.val) :
    val_v43 a2 (ix3 w ch l) = a2 (ix3 ⟨2 + bl.val, by omega⟩ n k) := by
  obtain ⟨f, hf⟩ : ∃ f : Fin 36864, f.val = k.val * 1024 + n.val := ⟨⟨k.val * 1024 + n.val, by omega⟩, rfl⟩
  rw [val_v43_apply a2 w ch l bl f (by rw [hf, ← Nat.add_assoc]; exact h)]
  exact val_v5_apply a2 _ k n f hf

/-! ## The gathered rows, one [1024, 128] slab per (batch, neighbour) -/

/-- A gather's result (either call's) viewed as 72 slabs of 1024 rows. -/
def val_v26 (g : Vec F S73728x128 .f32) : Vec F S72x1024x128 .f32 :=
  shapeCast S72x1024x128 g shapeCasts_S73728x128_S72x1024x128

theorem val_v26_apply (g : Vec F S73728x128 .f32) (bk : Fin 72) (n : Fin 1024) (h : Fin 128) (r : Fin 73728)
    (hr : r.val = bk.val * 1024 + n.val) :
    val_v26 g (ix3 bk n h) = g (ix2 r h) :=
  shapeCast_apply g shapeCasts_S73728x128_S72x1024x128 (ix3 bk n h) (ix2 r h) (by
    rw [Shape.rowMajor_val_three, Shape.rowMajor_val_two]
    show r.val * 128 + h.val = (bk.val * 1024 + n.val) * 128 + h.val
    omega)

/-! ## The node mask, one node tile per row -/

def val_v27 (a3 : Vec F S4x1024 .f32) : Vec F S4x8x1x128 .f32 :=
  shapeCast S4x8x1x128 a3 shapeCasts_S4x1024_S4x8x1x128

theorem val_v27_apply (a3 : Vec F S4x1024 .f32) (b : Fin 4) (t : Fin 8) (u : Fin 1) (i : Fin 128) (n : Fin 1024)
    (hn : n.val = t.val * 128 + i.val) :
    val_v27 a3 (ix4 b t u i) = a3 (ix2 b n) :=
  shapeCast_apply a3 shapeCasts_S4x1024_S4x8x1x128 (ix4 b t u i) (ix2 b n) (by
    have hu : u.val = 0 := by omega
    rw [Shape.rowMajor_val_four, Shape.rowMajor_val_two]
    show b.val * 1024 + n.val = ((b.val * 8 + t.val) * 1 + u.val) * 128 + i.val
    omega)

/-! ## Vectors as one-row matrices (the biases and the LayerNorm parameters) -/

/-- A 128-vector as a [1, 128] row. -/
def val_row128 (a : Vec F S128 .f32) : Vec F S1x128 .f32 :=
  shapeCast S1x128 a shapeCasts_S128_S1x128

theorem val_row128_apply (a : Vec F S128 .f32) (u : Fin 1) (i : Fin 128) :
    val_row128 a (ix2 u i) = a (ix1 i) :=
  shapeCast_a_1a_apply a shapeCasts_S128_S1x128 u i

/-- A 512-vector as a [1, 512] row. -/
def val_row512 (a : Vec F S512 .f32) : Vec F S1x512 .f32 :=
  shapeCast S1x512 a shapeCasts_S512_S1x512

theorem val_row512_apply (a : Vec F S512 .f32) (u : Fin 1) (i : Fin 512) :
    val_row512 a (ix2 u i) = a (ix1 i) :=
  shapeCast_a_1a_apply a shapeCasts_S512_S1x512 u i

/-! ## The weights narrowed to bf16 (the identity at the ideal values) -/

def val_bf16_128x128 (a : Vec F S128x128 .f32) : Vec F S128x128 .bf16 := truncf .bf16 a bitsLt_bf16_f32
def val_bf16_128x512 (a : Vec F S128x512 .f32) : Vec F S128x512 .bf16 := truncf .bf16 a bitsLt_bf16_f32
def val_bf16_512x128 (a : Vec F S512x128 .f32) : Vec F S512x128 .bf16 := truncf .bf16 a bitsLt_bf16_f32

theorem val_bf16_128x128_apply (a : Vec F S128x128 .f32) (i : S128x128.Idx) :
    val_bf16_128x128 a i = FloatOps.truncf .bf16 bitsLt_bf16_f32 (a i) := rfl
theorem val_bf16_128x512_apply (a : Vec F S128x512 .f32) (i : S128x512.Idx) :
    val_bf16_128x512 a i = FloatOps.truncf .bf16 bitsLt_bf16_f32 (a i) := rfl
theorem val_bf16_512x128_apply (a : Vec F S512x128 .f32) (i : S512x128.Idx) :
    val_bf16_512x128 a i = FloatOps.truncf .bf16 bitsLt_bf16_f32 (a i) := rfl

/-- Rows 128 to 255 of W1, narrowed. -/
def val_v29 (a5 : Vec F S384x128 .f32) : Vec F S128x128 .bf16 := val_bf16_128x128 (val_v1 a5)

/-! ## The two halves of the batch put back together -/

def val_v61 (x y : Vec F S2x1024x128 .f32) : Vec F S4x1024x128 .f32 :=
  concatenate S4x1024x128 0 [⟨S2x1024x128, x⟩, ⟨S2x1024x128, y⟩] concatenates_S2x1024x128_S2x1024x128_S4x1024x128_d0

theorem val_v61_apply_lo (x y : Vec F S2x1024x128 .f32) (b : Fin 4) (n : Fin 1024) (h : Fin 128) (hb : b.val < 2) :
    val_v61 x y (ix3 b n h) = x (ix3 ⟨b.val, hb⟩ n h) :=
  concatenate_pair_apply_left 0 x y concatenates_S2x1024x128_S2x1024x128_S4x1024x128_d0 (ix3 b n h) rfl
    (ix3 ⟨b.val, hb⟩ n h) (fun c => match c with | ⟨0, _⟩ => rfl | ⟨1, _⟩ => rfl | ⟨2, _⟩ => rfl)

theorem val_v61_apply_hi (x y : Vec F S2x1024x128 .f32) (b : Fin 4) (n : Fin 1024) (h : Fin 128) (hb : 2 ≤ b.val) :
    val_v61 x y (ix3 b n h) = y (ix3 ⟨b.val - 2, by omega⟩ n h) :=
  concatenate_pair_apply_right 0 x y concatenates_S2x1024x128_S2x1024x128_S4x1024x128_d0 (ix3 b n h) rfl rfl
    (ix3 ⟨b.val - 2, by omega⟩ n h)
    (fun c hc => match c, hc with
      | ⟨0, _⟩, hc => absurd rfl hc
      | ⟨1, _⟩, _ => rfl
      | ⟨2, _⟩, _ => rfl)
    (by show (b.val - 2) + 2 = b.val; omega)

theorem val_v61_apply (x y : Vec F S2x1024x128 .f32) (b : Fin 4) (n : Fin 1024) (h : Fin 128) :
    val_v61 x y (ix3 b n h)
      = if hb : b.val < 2 then x (ix3 ⟨b.val, hb⟩ n h) else y (ix3 ⟨b.val - 2, by omega⟩ n h) := by
  by_cases hb : b.val < 2
  · rw [dif_pos hb]; exact val_v61_apply_lo x y b n h hb
  · rw [dif_neg hb]; exact val_v61_apply_hi x y b n h (by omega)

end Cert.KernelIdeal.HostVal
-- ==== Proof.KResDef.lean ====
/-
  The kernel program's result as a pure function of its argument arrays: each layer region's whole output as the
  body's value on the input blocks of the grid point that covers an index, the blocks spelt through the windows'
  own views; the two gathers and the host-computed operands composed in; the two halves concatenated.
-/
import proofs.«215572_g25211458027672_cont_9to1_2008_46_alg».proof.Proof.KBodyDef
import proofs.«215572_g25211458027672_cont_9to1_2008_46_alg».proof.Proof.KBodyDef4
import proofs.«215572_g25211458027672_cont_9to1_2008_46_alg».proof.Proof.KHostVal
import proofs.«215572_g25211458027672_cont_9to1_2008_46_alg».proof.Proof.KSetup
import proofs.«215572_g25211458027672_cont_9to1_2008_46_alg».proof.Proof.Gen.KernelIdeal.Launch
import Idealize.ShloMosaic.Lib.ValueIdx
import Idealize.ShloMosaic.Lib.Pipeline.Value

noncomputable section

namespace Cert.KernelIdeal.KValue

open Cert.KernelIdeal Cert.KernelIdeal.Gen Cert.KernelIdeal.HostVal
open Idealize.ShloMosaic Idealize.ShloMosaic.ValueIdx

variable {F : FTy → Type} [FloatOps F] [Named F]

/-- Where an index of a region's result sits inside its tile's block. -/
def inTile (i : S2x1024x128.Idx) : S1x128x128.Idx :=
  ix3 (0 : Fin 1) ⟨(i 1).val % 128, Nat.mod_lt _ (by decide)⟩ ⟨(i 2).val, (i 2).isLt⟩

/-! ## The layer region of custom call 2 -/

/-- The grid point that computes an index of the region's result: row-major, the node-tile axis fastest. -/
def pt2 (i : S2x1024x128.Idx) : Fin cfg2.N :=
  ⟨(i 0).val * 8 + (i 1).val / 128, by
    have h0 : (i 0).val < 2 := (i 0).isLt
    have h1 : (i 1).val < 1024 := (i 1).isLt
    show _ < grid2.N
    rw [N_2]; omega⟩

/-- The region's whole result: entry (bl, n, h) is the body's value on the 23 input blocks of grid point
    (bl, n / 128), read at (0, n % 128, h). -/
def regionOut2 (c46 : F .f32) (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) :
    Vec F S2x1024x128 .f32 :=
  fun i =>
    BodyVal.bodyOut c46
      (((cfg2.win 0).blk (pt2 i)).view.read (Elt F) A0)
      (((cfg2.win 1).blk (pt2 i)).view.read (Elt F) A1)
      (((cfg2.win 2).blk (pt2 i)).view.read (Elt F) A2)
      (((cfg2.win 3).blk (pt2 i)).view.read (Elt F) A3)
      (((cfg2.win 4).blk (pt2 i)).view.read (Elt F) A4)
      (((cfg2.win 5).blk (pt2 i)).view.read (Elt F) A5)
      (((cfg2.win 6).blk (pt2 i)).view.read (Elt F) A6)
      (((cfg2.win 7).blk (pt2 i)).view.read (Elt F) A7)
      (((cfg2.win 8).blk (pt2 i)).view.read (Elt F) A8)
      (((cfg2.win 9).blk (pt2 i)).view.read (Elt F) A9)
      (((cfg2.win 10).blk (pt2 i)).view.read (Elt F) A10)
      (((cfg2.win 11).blk (pt2 i)).view.read (Elt F) A11)
      (((cfg2.win 12).blk (pt2 i)).view.read (Elt F) A12)
      (((cfg2.win 13).blk (pt2 i)).view.read (Elt F) A13)
      (((cfg2.win 14).blk (pt2 i)).view.read (Elt F) A14)
      (((cfg2.win 15).blk (pt2 i)).view.read (Elt F) A15)
      (((cfg2.win 16).blk (pt2 i)).view.read (Elt F) A16)
      (((cfg2.win 17).blk (pt2 i)).view.read (Elt F) A17)
      (((cfg2.win 18).blk (pt2 i)).view.read (Elt F) A18)
      (((cfg2.win 19).blk (pt2 i)).view.read (Elt F) A19)
      (((cfg2.win 20).blk (pt2 i)).view.read (Elt F) A20)
      (((cfg2.win 21).blk (pt2 i)).view.read (Elt F) A21)
      (((cfg2.win 22).blk (pt2 i)).view.read (Elt F) A22)
      (inTile i)

/-- The output window's block index at point `t` is (t / 8, t % 8, 0). -/
theorem idx2_out : ∀ t : Fin cfg2.N, win2_23.index t (0 : Fin 3) = t.val / 8 ∧ win2_23.index t (1 : Fin 3) = t.val % 8
    ∧ win2_23.index t (2 : Fin 3) = 0 :=
  (by decide +kernel : ∀ t : Fin grid2.N, _)

/-- The point of an index under point `t`'s output block is `t`. -/
theorem pt2_emb (t : Fin cfg2.N) (y : S1x128x128.Idx) : pt2 (((cfg2.win 23).blk t).view.emb y) = t := by
  obtain ⟨e0, e1, e2⟩ := idx2_out t
  have ht : t.val < 16 := Nat.lt_of_lt_of_eq (show t.val < grid2.N from t.isLt) N_2
  have hy0 : (y 0).val < 1 := (y 0).isLt
  have hy1 : (y 1).val < 128 := (y 1).isLt
  apply Fin.ext
  show (win2_23.index t (0 : Fin 3) * 1 + 1 * (y 0).val) * 8 + (win2_23.index t (1 : Fin 3) * 128 + 1 * (y 1).val) / 128 = t.val
  omega

/-- An index under point `t`'s output block sits in its tile where the block says. -/
theorem inTile_emb2 (t : Fin cfg2.N) (y : S1x128x128.Idx) : inTile (((cfg2.win 23).blk t).view.emb y) = y := by
  obtain ⟨e0, e1, e2⟩ := idx2_out t
  have hy0 : (y 0).val < 1 := (y 0).isLt
  have hy1 : (y 1).val < 128 := (y 1).isLt
  funext a
  apply Fin.ext
  match a with
  | ⟨0, _⟩ => show 0 = (y 0).val; omega
  | ⟨1, _⟩ => show (win2_23.index t (1 : Fin 3) * 128 + 1 * (y 1).val) % 128 = (y 1).val; omega
  | ⟨2, _⟩ => show win2_23.index t (2 : Fin 3) * 128 + 1 * (y 2).val = (y 2).val; omega

/-- BLOCK `t` OF THE REGION'S RESULT is the body's value on the input blocks of point `t`. -/
theorem read_blk_regionOut2 (c46 : F .f32) (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) (t : Fin cfg2.N) :
    ((cfg2.win 23).blk t).view.read (Elt F) (regionOut2 c46 A0 A1 A2 A3 A4 A5 A6 A7 A8 A9 A10 A11 A12 A13 A14 A15 A16 A17 A18 A19 A20 A21 A22)
      = BodyVal.bodyOut c46
      (((cfg2.win 0).blk t).view.read (Elt F) A0)
      (((cfg2.win 1).blk t).view.read (Elt F) A1)
      (((cfg2.win 2).blk t).view.read (Elt F) A2)
      (((cfg2.win 3).blk t).view.read (Elt F) A3)
      (((cfg2.win 4).blk t).view.read (Elt F) A4)
      (((cfg2.win 5).blk t).view.read (Elt F) A5)
      (((cfg2.win 6).blk t).view.read (Elt F) A6)
      (((cfg2.win 7).blk t).view.read (Elt F) A7)
      (((cfg2.win 8).blk t).view.read (Elt F) A8)
      (((cfg2.win 9).blk t).view.read (Elt F) A9)
      (((cfg2.win 10).blk t).view.read (Elt F) A10)
      (((cfg2.win 11).blk t).view.read (Elt F) A11)
      (((cfg2.win 12).blk t).view.read (Elt F) A12)
      (((cfg2.win 13).blk t).view.read (Elt F) A13)
      (((cfg2.win 14).blk t).view.read (Elt F) A14)
      (((cfg2.win 15).blk t).view.read (Elt F) A15)
      (((cfg2.win 16).blk t).view.read (Elt F) A16)
      (((cfg2.win 17).blk t).view.read (Elt F) A17)
      (((cfg2.win 18).blk t).view.read (Elt F) A18)
      (((cfg2.win 19).blk t).view.read (Elt F) A19)
      (((cfg2.win 20).blk t).view.read (Elt F) A20)
      (((cfg2.win 21).blk t).view.read (Elt F) A21)
      (((cfg2.win 22).blk t).view.read (Elt F) A22) := by
  funext y
  show regionOut2 c46 A0 A1 A2 A3 A4 A5 A6 A7 A8 A9 A10 A11 A12 A13 A14 A15 A16 A17 A18 A19 A20 A21 A22 (((cfg2.win 23).blk t).view.emb y) = _
  have key : ∀ (t' : Fin cfg2.N) (y' : S1x128x128.Idx), t' = t → y' = y →
      BodyVal.bodyOut c46
      (((cfg2.win 0).blk t').view.read (Elt F) A0)
      (((cfg2.win 1).blk t').view.read (Elt F) A1)
      (((cfg2.win 2).blk t').view.read (Elt F) A2)
      (((cfg2.win 3).blk t').view.read (Elt F) A3)
      (((cfg2.win 4).blk t').view.read (Elt F) A4)
      (((cfg2.win 5).blk t').view.read (Elt F) A5)
      (((cfg2.win 6).blk t').view.read (Elt F) A6)
      (((cfg2.win 7).blk t').view.read (Elt F) A7)
      (((cfg2.win 8).blk t').view.read (Elt F) A8)
      (((cfg2.win 9).blk t').view.read (Elt F) A9)
      (((cfg2.win 10).blk t').view.read (Elt F) A10)
      (((cfg2.win 11).blk t').view.read (Elt F) A11)
      (((cfg2.win 12).blk t').view.read (Elt F) A12)
      (((cfg2.win 13).blk t').view.read (Elt F) A13)
      (((cfg2.win 14).blk t').view.read (Elt F) A14)
      (((cfg2.win 15).blk t').view.read (Elt F) A15)
      (((cfg2.win 16).blk t').view.read (Elt F) A16)
      (((cfg2.win 17).blk t').view.read (Elt F) A17)
      (((cfg2.win 18).blk t').view.read (Elt F) A18)
      (((cfg2.win 19).blk t').view.read (Elt F) A19)
      (((cfg2.win 20).blk t').view.read (Elt F) A20)
      (((cfg2.win 21).blk t').view.read (Elt F) A21)
      (((cfg2.win 22).blk t').view.read (Elt F) A22) y'
      = BodyVal.bodyOut c46
      (((cfg2.win 0).blk t).view.read (Elt F) A0)
      (((cfg2.win 1).blk t).view.read (Elt F) A1)
      (((cfg2.win 2).blk t).view.read (Elt F) A2)
      (((cfg2.win 3).blk t).view.read (Elt F) A3)
      (((cfg2.win 4).blk t).view.read (Elt F) A4)
      (((cfg2.win 5).blk t).view.read (Elt F) A5)
      (((cfg2.win 6).blk t).view.read (Elt F) A6)
      (((cfg2.win 7).blk t).view.read (Elt F) A7)
      (((cfg2.win 8).blk t).view.read (Elt F) A8)
      (((cfg2.win 9).blk t).view.read (Elt F) A9)
      (((cfg2.win 10).blk t).view.read (Elt F) A10)
      (((cfg2.win 11).blk t).view.read (Elt F) A11)
      (((cfg2.win 12).blk t).view.read (Elt F) A12)
      (((cfg2.win 13).blk t).view.read (Elt F) A13)
      (((cfg2.win 14).blk t).view.read (Elt F) A14)
      (((cfg2.win 15).blk t).view.read (Elt F) A15)
      (((cfg2.win 16).blk t).view.read (Elt F) A16)
      (((cfg2.win 17).blk t).view.read (Elt F) A17)
      (((cfg2.win 18).blk t).view.read (Elt F) A18)
      (((cfg2.win 19).blk t).view.read (Elt F) A19)
      (((cfg2.win 20).blk t).view.read (Elt F) A20)
      (((cfg2.win 21).blk t).view.read (Elt F) A21)
      (((cfg2.win 22).blk t).view.read (Elt F) A22) y := by
    intro t' y' h1 h2; subst h1; subst h2; rfl
  exact key _ _ (pt2_emb t y) (inTile_emb2 t y)

/-- Every index of the region's result is under the output block of its point. -/
theorem mem_blk_pt2 (i : S2x1024x128.Idx) : i ∈ ((cfg2.win 23).blk (pt2 i)).view.set := by
  obtain ⟨e0, e1, e2⟩ := idx2_out (pt2 i)
  have tv : (pt2 i).val = (i 0).val * 8 + (i 1).val / 128 := rfl
  have h0 : (i 0).val < 2 := (i 0).isLt
  have h1 : (i 1).val < 1024 := (i 1).isLt
  have h2 : (i 2).val < 128 := (i 2).isLt
  show i ∈ ((View.whole main_v41).slice (win2_23.rect (pt2 i))).set
  rw [View.set_slice_whole, Rect.mem_set_unit]
  intro a
  match a with
  | ⟨0, _⟩ => show win2_23.index (pt2 i) (0 : Fin 3) * 1 ≤ (i 0).val ∧ (i 0).val < win2_23.index (pt2 i) (0 : Fin 3) * 1 + 1; omega
  | ⟨1, _⟩ => show win2_23.index (pt2 i) (1 : Fin 3) * 128 ≤ (i 1).val ∧ (i 1).val < win2_23.index (pt2 i) (1 : Fin 3) * 128 + 128; omega
  | ⟨2, _⟩ => show win2_23.index (pt2 i) (2 : Fin 3) * 128 ≤ (i 2).val ∧ (i 2).val < win2_23.index (pt2 i) (2 : Fin 3) * 128 + 128; omega

/-! ## The layer region of custom call 4 -/

/-- The grid point that computes an index of the region's result: row-major, the node-tile axis fastest. -/
def pt4 (i : S2x1024x128.Idx) : Fin cfg4.N :=
  ⟨(i 0).val * 8 + (i 1).val / 128, by
    have h0 : (i 0).val < 2 := (i 0).isLt
    have h1 : (i 1).val < 1024 := (i 1).isLt
    show _ < grid4.N
    rw [N_4]; omega⟩

/-- The region's whole result: entry (bl, n, h) is the body's value on the 23 input blocks of grid point
    (bl, n / 128), read at (0, n % 128, h). -/
def regionOut4 (c46 : F .f32) (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) :
    Vec F S2x1024x128 .f32 :=
  fun i =>
    BodyVal.bodyOut4 c46
      (((cfg4.win 0).blk (pt4 i)).view.read (Elt F) A0)
      (((cfg4.win 1).blk (pt4 i)).view.read (Elt F) A1)
      (((cfg4.win 2).blk (pt4 i)).view.read (Elt F) A2)
      (((cfg4.win 3).blk (pt4 i)).view.read (Elt F) A3)
      (((cfg4.win 4).blk (pt4 i)).view.read (Elt F) A4)
      (((cfg4.win 5).blk (pt4 i)).view.read (Elt F) A5)
      (((cfg4.win 6).blk (pt4 i)).view.read (Elt F) A6)
      (((cfg4.win 7).blk (pt4 i)).view.read (Elt F) A7)
      (((cfg4.win 8).blk (pt4 i)).view.read (Elt F) A8)
      (((cfg4.win 9).blk (pt4 i)).view.read (Elt F) A9)
      (((cfg4.win 10).blk (pt4 i)).view.read (Elt F) A10)
      (((cfg4.win 11).blk (pt4 i)).view.read (Elt F) A11)
      (((cfg4.win 12).blk (pt4 i)).view.read (Elt F) A12)
      (((cfg4.win 13).blk (pt4 i)).view.read (Elt F) A13)
      (((cfg4.win 14).blk (pt4 i)).view.read (Elt F) A14)
      (((cfg4.win 15).blk (pt4 i)).view.read (Elt F) A15)
      (((cfg4.win 16).blk (pt4 i)).view.read (Elt F) A16)
      (((cfg4.win 17).blk (pt4 i)).view.read (Elt F) A17)
      (((cfg4.win 18).blk (pt4 i)).view.read (Elt F) A18)
      (((cfg4.win 19).blk (pt4 i)).view.read (Elt F) A19)
      (((cfg4.win 20).blk (pt4 i)).view.read (Elt F) A20)
      (((cfg4.win 21).blk (pt4 i)).view.read (Elt F) A21)
      (((cfg4.win 22).blk (pt4 i)).view.read (Elt F) A22)
      (inTile i)

/-- The output window's block index at point `t` is (t / 8, t % 8, 0). -/
theorem idx4_out : ∀ t : Fin cfg4.N, win4_23.index t (0 : Fin 3) = t.val / 8 ∧ win4_23.index t (1 : Fin 3) = t.val % 8
    ∧ win4_23.index t (2 : Fin 3) = 0 :=
  (by decide +kernel : ∀ t : Fin grid4.N, _)

/-- The point of an index under point `t`'s output block is `t`. -/
theorem pt4_emb (t : Fin cfg4.N) (y : S1x128x128.Idx) : pt4 (((cfg4.win 23).blk t).view.emb y) = t := by
  obtain ⟨e0, e1, e2⟩ := idx4_out t
  have ht : t.val < 16 := Nat.lt_of_lt_of_eq (show t.val < grid4.N from t.isLt) N_4
  have hy0 : (y 0).val < 1 := (y 0).isLt
  have hy1 : (y 1).val < 128 := (y 1).isLt
  apply Fin.ext
  show (win4_23.index t (0 : Fin 3) * 1 + 1 * (y 0).val) * 8 + (win4_23.index t (1 : Fin 3) * 128 + 1 * (y 1).val) / 128 = t.val
  omega

/-- An index under point `t`'s output block sits in its tile where the block says. -/
theorem inTile_emb4 (t : Fin cfg4.N) (y : S1x128x128.Idx) : inTile (((cfg4.win 23).blk t).view.emb y) = y := by
  obtain ⟨e0, e1, e2⟩ := idx4_out t
  have hy0 : (y 0).val < 1 := (y 0).isLt
  have hy1 : (y 1).val < 128 := (y 1).isLt
  funext a
  apply Fin.ext
  match a with
  | ⟨0, _⟩ => show 0 = (y 0).val; omega
  | ⟨1, _⟩ => show (win4_23.index t (1 : Fin 3) * 128 + 1 * (y 1).val) % 128 = (y 1).val; omega
  | ⟨2, _⟩ => show win4_23.index t (2 : Fin 3) * 128 + 1 * (y 2).val = (y 2).val; omega

/-- BLOCK `t` OF THE REGION'S RESULT is the body's value on the input blocks of point `t`. -/
theorem read_blk_regionOut4 (c46 : F .f32) (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) (t : Fin cfg4.N) :
    ((cfg4.win 23).blk t).view.read (Elt F) (regionOut4 c46 A0 A1 A2 A3 A4 A5 A6 A7 A8 A9 A10 A11 A12 A13 A14 A15 A16 A17 A18 A19 A20 A21 A22)
      = BodyVal.bodyOut4 c46
      (((cfg4.win 0).blk t).view.read (Elt F) A0)
      (((cfg4.win 1).blk t).view.read (Elt F) A1)
      (((cfg4.win 2).blk t).view.read (Elt F) A2)
      (((cfg4.win 3).blk t).view.read (Elt F) A3)
      (((cfg4.win 4).blk t).view.read (Elt F) A4)
      (((cfg4.win 5).blk t).view.read (Elt F) A5)
      (((cfg4.win 6).blk t).view.read (Elt F) A6)
      (((cfg4.win 7).blk t).view.read (Elt F) A7)
      (((cfg4.win 8).blk t).view.read (Elt F) A8)
      (((cfg4.win 9).blk t).view.read (Elt F) A9)
      (((cfg4.win 10).blk t).view.read (Elt F) A10)
      (((cfg4.win 11).blk t).view.read (Elt F) A11)
      (((cfg4.win 12).blk t).view.read (Elt F) A12)
      (((cfg4.win 13).blk t).view.read (Elt F) A13)
      (((cfg4.win 14).blk t).view.read (Elt F) A14)
      (((cfg4.win 15).blk t).view.read (Elt F) A15)
      (((cfg4.win 16).blk t).view.read (Elt F) A16)
      (((cfg4.win 17).blk t).view.read (Elt F) A17)
      (((cfg4.win 18).blk t).view.read (Elt F) A18)
      (((cfg4.win 19).blk t).view.read (Elt F) A19)
      (((cfg4.win 20).blk t).view.read (Elt F) A20)
      (((cfg4.win 21).blk t).view.read (Elt F) A21)
      (((cfg4.win 22).blk t).view.read (Elt F) A22) := by
  funext y
  show regionOut4 c46 A0 A1 A2 A3 A4 A5 A6 A7 A8 A9 A10 A11 A12 A13 A14 A15 A16 A17 A18 A19 A20 A21 A22 (((cfg4.win 23).blk t).view.emb y) = _
  have key : ∀ (t' : Fin cfg4.N) (y' : S1x128x128.Idx), t' = t → y' = y →
      BodyVal.bodyOut4 c46
      (((cfg4.win 0).blk t').view.read (Elt F) A0)
      (((cfg4.win 1).blk t').view.read (Elt F) A1)
      (((cfg4.win 2).blk t').view.read (Elt F) A2)
      (((cfg4.win 3).blk t').view.read (Elt F) A3)
      (((cfg4.win 4).blk t').view.read (Elt F) A4)
      (((cfg4.win 5).blk t').view.read (Elt F) A5)
      (((cfg4.win 6).blk t').view.read (Elt F) A6)
      (((cfg4.win 7).blk t').view.read (Elt F) A7)
      (((cfg4.win 8).blk t').view.read (Elt F) A8)
      (((cfg4.win 9).blk t').view.read (Elt F) A9)
      (((cfg4.win 10).blk t').view.read (Elt F) A10)
      (((cfg4.win 11).blk t').view.read (Elt F) A11)
      (((cfg4.win 12).blk t').view.read (Elt F) A12)
      (((cfg4.win 13).blk t').view.read (Elt F) A13)
      (((cfg4.win 14).blk t').view.read (Elt F) A14)
      (((cfg4.win 15).blk t').view.read (Elt F) A15)
      (((cfg4.win 16).blk t').view.read (Elt F) A16)
      (((cfg4.win 17).blk t').view.read (Elt F) A17)
      (((cfg4.win 18).blk t').view.read (Elt F) A18)
      (((cfg4.win 19).blk t').view.read (Elt F) A19)
      (((cfg4.win 20).blk t').view.read (Elt F) A20)
      (((cfg4.win 21).blk t').view.read (Elt F) A21)
      (((cfg4.win 22).blk t').view.read (Elt F) A22) y'
      = BodyVal.bodyOut4 c46
      (((cfg4.win 0).blk t).view.read (Elt F) A0)
      (((cfg4.win 1).blk t).view.read (Elt F) A1)
      (((cfg4.win 2).blk t).view.read (Elt F) A2)
      (((cfg4.win 3).blk t).view.read (Elt F) A3)
      (((cfg4.win 4).blk t).view.read (Elt F) A4)
      (((cfg4.win 5).blk t).view.read (Elt F) A5)
      (((cfg4.win 6).blk t).view.read (Elt F) A6)
      (((cfg4.win 7).blk t).view.read (Elt F) A7)
      (((cfg4.win 8).blk t).view.read (Elt F) A8)
      (((cfg4.win 9).blk t).view.read (Elt F) A9)
      (((cfg4.win 10).blk t).view.read (Elt F) A10)
      (((cfg4.win 11).blk t).view.read (Elt F) A11)
      (((cfg4.win 12).blk t).view.read (Elt F) A12)
      (((cfg4.win 13).blk t).view.read (Elt F) A13)
      (((cfg4.win 14).blk t).view.read (Elt F) A14)
      (((cfg4.win 15).blk t).view.read (Elt F) A15)
      (((cfg4.win 16).blk t).view.read (Elt F) A16)
      (((cfg4.win 17).blk t).view.read (Elt F) A17)
      (((cfg4.win 18).blk t).view.read (Elt F) A18)
      (((cfg4.win 19).blk t).view.read (Elt F) A19)
      (((cfg4.win 20).blk t).view.read (Elt F) A20)
      (((cfg4.win 21).blk t).view.read (Elt F) A21)
      (((cfg4.win 22).blk t).view.read (Elt F) A22) y := by
    intro t' y' h1 h2; subst h1; subst h2; rfl
  exact key _ _ (pt4_emb t y) (inTile_emb4 t y)

/-- Every index of the region's result is under the output block of its point. -/
theorem mem_blk_pt4 (i : S2x1024x128.Idx) : i ∈ ((cfg4.win 23).blk (pt4 i)).view.set := by
  obtain ⟨e0, e1, e2⟩ := idx4_out (pt4 i)
  have tv : (pt4 i).val = (i 0).val * 8 + (i 1).val / 128 := rfl
  have h0 : (i 0).val < 2 := (i 0).isLt
  have h1 : (i 1).val < 1024 := (i 1).isLt
  have h2 : (i 2).val < 128 := (i 2).isLt
  show i ∈ ((View.whole main_v60).slice (win4_23.rect (pt4 i))).set
  rw [View.set_slice_whole, Rect.mem_set_unit]
  intro a
  match a with
  | ⟨0, _⟩ => show win4_23.index (pt4 i) (0 : Fin 3) * 1 ≤ (i 0).val ∧ (i 0).val < win4_23.index (pt4 i) (0 : Fin 3) * 1 + 1; omega
  | ⟨1, _⟩ => show win4_23.index (pt4 i) (1 : Fin 3) * 128 ≤ (i 1).val ∧ (i 1).val < win4_23.index (pt4 i) (1 : Fin 3) * 128 + 128; omega
  | ⟨2, _⟩ => show win4_23.index (pt4 i) (2 : Fin 3) * 128 ≤ (i 2).val ∧ (i 2).val < win4_23.index (pt4 i) (2 : Fin 3) * 128 + 128; omega

/-! ## The program's result -/

/-- The projected node features: every node's row times rows 256 to 383 of the first weight. -/
def proj (a0 : Vec F S4x1024x128 .f32) (a5 : Vec F S384x128 .f32) : Vec F S4096x128 .f32 :=
  GenP.k0_pay1 (val_v21 a0) (val_v2 a5)

/-- The rows the first gather call fetches, as 72 slabs. -/
def gath0 (a0 : Vec F S4x1024x128 .f32) (a2 : Vec F S4x1024x36 .i32) (a5 : Vec F S384x128 .f32) : Vec F S73728x128 .f32 :=
  KS.gatherVal 0 (proj a0 a5) (val_v24 a2)

/-- The rows the second gather call fetches. -/
def gath1 (a0 : Vec F S4x1024x128 .f32) (a2 : Vec F S4x1024x36 .i32) (a5 : Vec F S384x128 .f32) : Vec F S73728x128 .f32 :=
  KS.gatherVal 2 (proj a0 a5) (val_v43 a2)

/-- The layer on batches 0 and 1, of the argument arrays. -/
def half0 (c46 : F .f32) (a0 : Vec F S4x1024x128 .f32) (a1 : Vec F S4x1024x36x128 .f32) (a2 : Vec F S4x1024x36 .i32) (a3 : Vec F S4x1024 .f32) (a4 : Vec F S4x1024x36 .f32) (a5 : Vec F S384x128 .f32) (a6 : Vec F S128 .f32) (a7 : Vec F S128x128 .f32) (a8 : Vec F S128 .f32) (a9 : Vec F S128x128 .f32) (a10 : Vec F S128 .f32) (a11 : Vec F S128x512 .f32) (a12 : Vec F S512 .f32) (a13 : Vec F S512x128 .f32) (a14 : Vec F S128 .f32) (a15 : Vec F S128 .f32) (a16 : Vec F S128 .f32) (a17 : Vec F S128 .f32) (a18 : Vec F S128 .f32) : Vec F S2x1024x128 .f32 :=
  regionOut2 c46 a0 (val_v3 a1) (val_v26 (gath0 a0 a2 a5)) a4 (val_v10 a4) (val_v27 a3)
      (val_v19 (F := F)) (val_v20 (F := F)) (val_v0 a5) (val_row128 a6) (val_v29 a5) (val_bf16_128x128 a7) (val_row128 a8) a9 (val_row128 a10)
      (val_bf16_128x512 a11) (val_row512 a12) (val_bf16_512x128 a13) (val_row128 a14) (val_row128 a15) (val_row128 a16) (val_row128 a17) (val_row128 a18)

/-- The layer on batches 2 and 3, of the argument arrays. -/
def half1 (c46 : F .f32) (a0 : Vec F S4x1024x128 .f32) (a1 : Vec F S4x1024x36x128 .f32) (a2 : Vec F S4x1024x36 .i32) (a3 : Vec F S4x1024 .f32) (a4 : Vec F S4x1024x36 .f32) (a5 : Vec F S384x128 .f32) (a6 : Vec F S128 .f32) (a7 : Vec F S128x128 .f32) (a8 : Vec F S128 .f32) (a9 : Vec F S128x128 .f32) (a10 : Vec F S128 .f32) (a11 : Vec F S128x512 .f32) (a12 : Vec F S512 .f32) (a13 : Vec F S512x128 .f32) (a14 : Vec F S128 .f32) (a15 : Vec F S128 .f32) (a16 : Vec F S128 .f32) (a17 : Vec F S128 .f32) (a18 : Vec F S128 .f32) : Vec F S2x1024x128 .f32 :=
  regionOut4 c46 a0 (val_v3 a1) (val_v26 (gath1 a0 a2 a5)) a4 (val_v10 a4) (val_v27 a3)
      (val_v19 (F := F)) (val_v20 (F := F)) (val_v0 a5) (val_row128 a6) (val_v29 a5) (val_bf16_128x128 a7) (val_row128 a8) a9 (val_row128 a10)
      (val_bf16_128x512 a11) (val_row512 a12) (val_bf16_512x128 a13) (val_row128 a14) (val_row128 a15) (val_row128 a16) (val_row128 a17) (val_row128 a18)

/-- The program's result as one function of its argument arrays: the two halves of the batch, concatenated. -/
def kres (c46 : F .f32) (a0 : Vec F S4x1024x128 .f32) (a1 : Vec F S4x1024x36x128 .f32) (a2 : Vec F S4x1024x36 .i32) (a3 : Vec F S4x1024 .f32) (a4 : Vec F S4x1024x36 .f32) (a5 : Vec F S384x128 .f32) (a6 : Vec F S128 .f32) (a7 : Vec F S128x128 .f32) (a8 : Vec F S128 .f32) (a9 : Vec F S128x128 .f32) (a10 : Vec F S128 .f32) (a11 : Vec F S128x512 .f32) (a12 : Vec F S512 .f32) (a13 : Vec F S512x128 .f32) (a14 : Vec F S128 .f32) (a15 : Vec F S128 .f32) (a16 : Vec F S128 .f32) (a17 : Vec F S128 .f32) (a18 : Vec F S128 .f32) : Vec F S4x1024x128 .f32 :=
  val_v61 (half0 c46 a0 a1 a2 a3 a4 a5 a6 a7 a8 a9 a10 a11 a12 a13 a14 a15 a16 a17 a18)
    (half1 c46 a0 a1 a2 a3 a4 a5 a6 a7 a8 a9 a10 a11 a12 a13 a14 a15 a16 a17 a18)

end Cert.KernelIdeal.KValue

end
-- ==== Proof.KConst.lean ====
import proofs.«215572_g25211458027672_cont_9to1_2008_46_alg».proof.Proof.Gen.KernelIdeal

noncomputable section

namespace Cert.KernelIdeal.KConst

open Cert.KernelIdeal.Gen
open Idealize.ShloMosaic

variable {F : FTy → Type} [FloatOps F] [Named F]

/-- The layer's constant 1/36, as the printed program spells it. -/
def inv36 : F .f32 := Named.named κ "inv_36" 0x3CE38E39#32

end Cert.KernelIdeal.KConst

end
-- ==== Proof.KBodyLemmas.lean ====
/-
  Tools for reading the TensorCore body's value at an index, at the ideal instance, shared by the two bodies
  `cc2_body` and `cc4_body` (the same text on the two halves of the batch): a plain matrix product at an index (in
  general and for the five dimension records of the body); the keepdims layout forms (a column `[a] → [a, 1] → [a, b]`,
  a `[1, 1, 1, a]` block as a vector or a row, a `[36, 128, 128]` stack as `4608` rows); a lane sum at a row; the two
  one-hot sums (a one-hot row picks an entry; a one-hot selector over the 4608 rows, weighted, sums one row of each of
  the 36 slabs); the second message layer at a row; the node function's weights out of the weight blocks; the named
  scalar `1/36`.
-/
import proofs.«215572_g25211458027672_cont_9to1_2008_46_alg».proof.Proof.SkeletonKernelIdeal
import proofs.«215572_g25211458027672_cont_9to1_2008_46_alg».proof.Proof.KConst
import proofs.«215572_g25211458027672_cont_9to1_2008_46_alg».proof.Proof.Spec
import Idealize.ShloMosaic.Lib.ValueLayout
import Idealize.ShloMosaic.PureOps.Ideal.Laws

set_option synthInstance.maxSize 4096

noncomputable section

namespace Cert.KernelIdeal.BodyVal

open Cert.KernelIdeal Cert.KernelIdeal.Gen Cert.KernelIdeal.GenP
open Idealize.ShloMosaic Idealize.SL.Sem Idealize.ShloMosaic.ValueIdx
open scoped BigOperators

/-- The f32 word of `0.5`. -/
local notation "half" => (Ideal.ofBits FTy.f32 0x3F000000#32 : EReal)
/-- The f32 word nearest `1/√2`. -/
local notation "cG" => (Ideal.ofBits FTy.f32 0x3F3504F3#32 : EReal)
/-- The f32 word of the layer norms' `ε`. -/
local notation "eps" => (Ideal.ofBits FTy.f32 0x3727C5AC#32 : EReal)
/-- The f32 word of `128`. -/
local notation "w128" => (Ideal.ofBits FTy.f32 0x43000000#32 : EReal)

/-! ## A plain matrix product read at an index -/

section Plain
variable {M K N : ℕ} (d : DotDims ⟨2, ![M, K]⟩ ⟨2, ![K, N]⟩ ⟨2, ![M, N]⟩)

theorem lhs_axis0 (hlb : d.lhsBatch = []) (hln : d.lhsNonContracting = [0]) (j : (⟨2, ![M, N]⟩ : Shape).Idx) (k : d.contr.Idx) :
    (d.lhsIdx j k 0).val = (j 0).val := by
  have hb : (0 : Fin (⟨2, ![M, K]⟩ : Shape).rank) ∉ d.lhsBatch := by rw [hlb]; simp
  have hn : (0 : Fin (⟨2, ![M, K]⟩ : Shape).rank) ∈ d.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

theorem rhs_axis1 (hlb : d.lhsBatch = []) (hln : d.lhsNonContracting = [0]) (hrb : d.rhsBatch = []) (hrn : d.rhsNonContracting = [1])
    (j : (⟨2, ![M, N]⟩ : Shape).Idx) (k : d.contr.Idx) :
    (d.rhsIdx j k 1).val = (j 1).val := by
  have hb : (1 : Fin (⟨2, ![K, N]⟩ : Shape).rank) ∉ d.rhsBatch := by rw [hrb]; simp
  have hn : (1 : Fin (⟨2, ![K, N]⟩ : Shape).rank) ∈ d.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

theorem plain_matmul_apply {φ₁ φ₂ : FTy} (hlc : d.lhsContracting = [1]) (hln : d.lhsNonContracting = [0]) (hlb : d.lhsBatch = [])
    (hrc : d.rhsContracting = [0]) (hrn : d.rhsNonContracting = [1]) (hrb : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := by rw [d.rank_contr, hlc]; rfl
  have hs : d.contr.size ⟨0, by omega⟩ = K := by
    have := d.size_contr 0 (by rw [hlc]; exact Nat.one_pos)
    rw [this]; simp [hlc]
  rw [← Equiv.sum_comp (contrEquiv1 d K hr hs).symm]
  refine Finset.sum_congr rfl fun k _ => ?_
  have hL : d.lhsIdx (ix2 p q) ((contrEquiv1 d K hr hs).symm k) = ix2 p k := by
    funext a; apply Fin.ext
    match a with
    | ⟨0, _⟩ => exact lhs_axis0 d hlb hln _ _
    | ⟨1, _⟩ => exact (d.lhsIdx_val_of_single hlc _ _).trans (contrEquiv1_symm_val d K hr hs k)
  have hR : d.rhsIdx (ix2 p q) ((contrEquiv1 d K hr hs).symm k) = ix2 k q := by
    funext a; apply Fin.ext
    match a with
    | ⟨0, _⟩ => exact (d.rhsIdx_val_of_single hrc _ _).trans (contrEquiv1_symm_val d K hr hs k)
    | ⟨1, _⟩ => exact rhs_axis1 d hlb hln hrb hrn _ _
  rw [hL, hR]

end Plain

section Layout
variable {α : Type}

/-! ## Layout operations read at an index -/

/-- A column `[a]` cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1, a]` block cast to `[a]` reads, at `p`, the operand at `(0, 0, 0, p)`. -/
theorem shapeCast_111a_a_apply {a : ℕ} (x : (⟨4, ![1, 1, 1, a]⟩ : Shape).Idx → α) (h : (⟨4, ![1, 1, 1, a]⟩ : Shape).ShapeCasts ⟨1, ![a]⟩)
    (p : Fin a) : shapeCast ⟨1, ![a]⟩ x h (ix1 p) = x (ix4 (0 : Fin 1) (0 : Fin 1) (0 : Fin 1) p) :=
  shapeCast_apply x h _ _ (by
    rw [Shape.rowMajor_val_four, Shape.rowMajor_val_one]
    show ((0 * 1 + 0) * 1 + 0) * a + p.val = p.val
    simp only [Nat.zero_mul, Nat.zero_add, Nat.add_zero])

/-- A `[1, 1, 1, a]` block cast to `[1, a]` reads, at `(u, p)`, the operand at `(0, 0, 0, p)`. -/
theorem shapeCast_111a_1a_apply {a : ℕ} (x : (⟨4, ![1, 1, 1, a]⟩ : Shape).Idx → α) (h : (⟨4, ![1, 1, 1, a]⟩ : Shape).ShapeCasts ⟨2, ![1, a]⟩)
    (u : Fin 1) (p : Fin a) : shapeCast ⟨2, ![1, a]⟩ x h (ix2 u p) = x (ix4 (0 : Fin 1) (0 : Fin 1) (0 : Fin 1) p) :=
  shapeCast_apply x h _ _ (by
    have hu : u.val = 0 := by omega
    rw [Shape.rowMajor_val_four, Shape.rowMajor_val_two]
    show ((0 * 1 + 0) * 1 + 0) * a + p.val = u.val * a + p.val
    rw [hu])

/-- A stack `[m, a, b]` cast to `[m * a, b]` rows reads, at row `k * a + i`, the operand at `(k, i, ·)`. -/
theorem shapeCast_mab_rows_apply {m a b n : ℕ} (x : (⟨3, ![m, a, b]⟩ : Shape).Idx → α) (h : (⟨3, ![m, a, b]⟩ : Shape).ShapeCasts ⟨2, ![n, b]⟩)
    (k : Fin m) (i : Fin a) (j : Fin b) (hlt : k.val * a + i.val < n) :
    shapeCast ⟨2, ![n, b]⟩ x h (ix2 ⟨k.val * a + i.val, hlt⟩ j) = x (ix3 k i j) :=
  shapeCast_apply x h _ _ (by
    rw [Shape.rowMajor_val_three, Shape.rowMajor_val_two]
    rfl)

/-- A lane sum over the second axis of a matrix, read at a row. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  match c with
  | ⟨0, _⟩ => rfl
  | ⟨1, _⟩ => rfl

end Layout

/-- The reciprocal square root at an index. -/
theorem rsqrt_apply {s : Shape} {φ : FTy} (a : FVec Ideal s φ) (i : s.Idx) : rsqrt a i = Ideal.rsqrt (a i) := rfl
/-- The error function at an index. -/
theorem erf_apply {s : Shape} {φ : FTy} (a : FVec Ideal s φ) (i : s.Idx) : erf a i = Ideal.erf (a i) := rfl

/-! ## The five products of the body, each read at an index -/

theorem mm_128_128_128 {φ₁ φ₂ : FTy} (prec : Option ContractPrecision) (lhs : FVec Ideal S128x128 φ₁) (rhs : FVec Ideal S128x128 φ₂) (p q : Fin 128) :
    FloatOps.matmul dot_S128x128_S128x128_S128x128_1_0_0_1_n_n prec lhs rhs (constant S128x128 .f32 0x00000000#32) (ix2 p q)
      = ∑ k : Fin 128, lhs (ix2 p k) * rhs (ix2 k q) :=
  plain_matmul_apply _ rfl rfl rfl rfl rfl rfl prec lhs rhs p q

theorem mm_4608_128_128 {φ₁ φ₂ : FTy} (prec : Option ContractPrecision) (lhs : FVec Ideal S4608x128 φ₁) (rhs : FVec Ideal S128x128 φ₂) (p : Fin 4608) (q : Fin 128) :
    FloatOps.matmul dot_S4608x128_S128x128_S4608x128_1_0_0_1_n_n prec lhs rhs (constant S4608x128 .f32 0x00000000#32) (ix2 p q)
      = ∑ k : Fin 128, lhs (ix2 p k) * rhs (ix2 k q) :=
  plain_matmul_apply _ rfl rfl rfl rfl rfl rfl prec lhs rhs p q

theorem mm_128_4608_128 {φ₁ φ₂ : FTy} (prec : Option ContractPrecision) (lhs : FVec Ideal S128x4608 φ₁) (rhs : FVec Ideal S4608x128 φ₂) (p q : Fin 128) :
    FloatOps.matmul dot_S128x4608_S4608x128_S128x128_1_0_0_1_n_n prec lhs rhs (constant S128x128 .f32 0x00000000#32) (ix2 p q)
      = ∑ k : Fin 4608, lhs (ix2 p k) * rhs (ix2 k q) :=
  plain_matmul_apply _ rfl rfl rfl rfl rfl rfl prec lhs rhs p q

theorem mm_128_128_512 {φ₁ φ₂ : FTy} (prec : Option ContractPrecision) (lhs : FVec Ideal S128x128 φ₁) (rhs : FVec Ideal S128x512 φ₂) (p : Fin 128) (q : Fin 512) :
    FloatOps.matmul dot_S128x128_S128x512_S128x512_1_0_0_1_n_n prec lhs rhs (constant S128x512 .f32 0x00000000#32) (ix2 p q)
      = ∑ k : Fin 128, lhs (ix2 p k) * rhs (ix2 k q) :=
  plain_matmul_apply _ rfl rfl rfl rfl rfl rfl prec lhs rhs p q

theorem mm_128_512_128 {φ₁ φ₂ : FTy} (prec : Option ContractPrecision) (lhs : FVec Ideal S128x512 φ₁) (rhs : FVec Ideal S512x128 φ₂) (p q : Fin 128) :
    FloatOps.matmul dot_S128x512_S512x128_S128x128_1_0_0_1_n_n prec lhs rhs (constant S128x128 .f32 0x00000000#32) (ix2 p q)
      = ∑ k : Fin 512, lhs (ix2 p k) * rhs (ix2 k q) :=
  plain_matmul_apply _ rfl rfl rfl rfl rfl rfl prec lhs rhs p q

/-! ## One-hot sums -/

/-- Row `k * 128 + r` of a 4608-row matrix. -/
def row (k : Fin 36) (r : Fin 128) : Fin 4608 :=
  ⟨k.val * 128 + r.val, by have := k.isLt; have := r.isLt; omega⟩

theorem row_val (k : Fin 36) (r : Fin 128) : (row k r).val = k.val * 128 + r.val := rfl

/-- The 4608 rows are the 36 slabs of 128 rows. -/
def rowEquiv : Fin 36 × Fin 128 ≃ Fin 4608 where
  toFun p := row p.1 p.2
  invFun jj := (⟨jj.val / 128, by have := jj.isLt; omega⟩, ⟨jj.val % 128, Nat.mod_lt _ (by norm_num)⟩)
  left_inv p := by
    have h1 := p.1.isLt; have h2 := p.2.isLt
    refine Prod.ext (Fin.ext ?_) (Fin.ext ?_)
    · show (p.1.val * 128 + p.2.val) / 128 = p.1.val; omega
    · show (p.1.val * 128 + p.2.val) % 128 = p.2.val; omega
  right_inv jj := Fin.ext (by show jj.val / 128 * 128 + jj.val % 128 = jj.val; omega)

theorem rowEquiv_apply (k : Fin 36) (r : Fin 128) : rowEquiv (k, r) = row k r := rfl

/-- A one-hot row times a column picks one entry. -/
theorem sum_onehot_row (k : Fin 36) (r : Fin 128) (R Q : Fin 128 → EReal)
    (hR : ∀ i : Fin 128, R i = if i.val = (row k r).val % 128 then (1 : EReal) else 0) :
    ∑ i : Fin 128, R i * Q i = Q r := by
  have hn : (row k r).val % 128 = r.val := by have := r.isLt; rw [row_val]; omega
  rw [Finset.sum_eq_single r]
  · rw [hR, if_pos hn.symm, one_mul]
  · intro i _ hi
    rw [hR, if_neg (fun h => hi (Fin.ext (h.trans hn))), zero_mul]
  · intro h; exact absurd (Finset.mem_univ r) h

/-- A one-hot selector over the 4608 rows, weighted, sums one row of each slab. -/
theorem sum_onehot_col (r : Fin 128) (A f g : Fin 4608 → EReal)
    (hA : ∀ jj : Fin 4608, A jj = if r.val = jj.val % 128 then (1 : EReal) else 0) :
    ∑ jj : Fin 4608, (A jj * f jj) * g jj = ∑ k : Fin 36, f (row k r) * g (row k r) := by
  rw [← Equiv.sum_comp rowEquiv, Fintype.sum_prod_type]
  refine Finset.sum_congr rfl fun k _ => ?_
  rw [Finset.sum_eq_single r]
  · rw [rowEquiv_apply, hA, if_pos (by have := r.isLt; rw [row_val]; omega), one_mul]
  · intro i _ hi
    rw [rowEquiv_apply, hA, if_neg (by
      have := r.isLt; have := i.isLt; rw [row_val]
      intro h; exact hi (Fin.ext (by omega))), zero_mul, zero_mul]
  · intro h; exact absurd (Finset.mem_univ r) h

/-- Row `row k r` of a `[36, 128, 128]` stack cast to `[4608, 128]` is its `(k, r)` row. -/
theorem shapeCast_rows {φ : FTy} (x : FVec Ideal S36x128x128 φ) (hc : S36x128x128.ShapeCasts S4608x128) (k : Fin 36) (r j : Fin 128) :
    shapeCast S4608x128 x hc (ix2 (row k r) j) = x (ix3 k r j) :=
  shapeCast_mab_rows_apply x hc k r j _

/-- The second message layer at a row of the 4608-row matrices: the GELU of the first layer, through the second weight,
    and its GELU. `c` is the first GELU's scalar. -/
def secondLayerRow (c : EReal) (v28 : FVec Ideal S4608x128 .f32) (v38 : FVec Ideal S128x128 .bf16) (v41 : FVec Ideal S1x128 .f32)
    (jj : Fin 4608) (j : Fin 128) : EReal :=
  Cert.Spec.geluK ((∑ i : Fin 128, (v28 (ix2 jj i) * (half + half * Ideal.erf (v28 (ix2 jj i) * c))) * v38 (ix2 i j)) + v41 (ix2 0 j))

/-! ## The named scalar and the weights -/

/-- The named scalar `1/36` at the ideal instance. -/
theorem c46_named : (KConst.inv36 (F := Ideal)) = ((1 / 36 : ℝ) : EReal) := rfl

/-- The weights of the node function, entry by entry out of the weight blocks the body loads. -/
def wts (v13 : FVec Ideal S128x128 .f32) (v16 : FVec Ideal S1x128 .f32) (v24 v38 : FVec Ideal S128x128 .bf16)
    (v41 : FVec Ideal S1x128 .f32) (v61 : FVec Ideal S128x128 .f32) (v63 : FVec Ideal S1x128 .f32) (v99 : FVec Ideal S128x512 .bf16)
    (v102 : FVec Ideal S1x512 .f32) (v115 : FVec Ideal S512x128 .bf16) (v118 v72 v74 v123 v125 : FVec Ideal S1x128 .f32) :
    Cert.Spec.WtsK where
  W1a := fun j h => v13 (ix2 j h)
  W1b := fun j h => v24 (ix2 j h)
  b1 := fun h => v16 (ix2 0 h)
  W2 := fun j h => v38 (ix2 j h)
  b2 := fun h => v41 (ix2 0 h)
  W3 := fun j h => v61 (ix2 j h)
  b3 := fun h => v63 (ix2 0 h)
  Win := fun i j => v99 (ix2 i j)
  bi := fun j => v102 (ix2 0 j)
  Wout := fun j h => v115 (ix2 j h)
  bo := fun h => v118 (ix2 0 h)
  g1 := fun h => v72 (ix2 0 h)
  be1 := fun h => v74 (ix2 0 h)
  g2 := fun h => v123 (ix2 0 h)
  be2 := fun h => v125 (ix2 0 h)

end Cert.KernelIdeal.BodyVal

end
-- ==== Proof.KBodyVal.lean ====
/-
  The value the body `cc2_body` stores, read at an index, at the ideal instance: each payload `k2_pay1` … `k2_pay11`
  at a point as a formula over the blocks the body loads (the replication of the node's own projection over its 36
  edges and the masked aggregation over the edges collapsed by the one-hot hypotheses), and their composition
  `bodyOut` as the specification's per-node function `Cert.Spec.nodeK`, row by row.
-/
import proofs.«215572_g25211458027672_cont_9to1_2008_46_alg».proof.Proof.KBodyDef
import proofs.«215572_g25211458027672_cont_9to1_2008_46_alg».proof.Proof.KBodyLemmas

set_option synthInstance.maxSize 4096

noncomputable section

namespace Cert.KernelIdeal.BodyVal

open Cert.KernelIdeal Cert.KernelIdeal.Gen Cert.KernelIdeal.GenP
open Idealize.ShloMosaic Idealize.SL.Sem Idealize.ShloMosaic.ValueIdx
open scoped BigOperators

/-- The f32 word of `0.5`. -/
local notation "half" => (Ideal.ofBits FTy.f32 0x3F000000#32 : EReal)
/-- The f32 word nearest `1/√2`. -/
local notation "cG" => (Ideal.ofBits FTy.f32 0x3F3504F3#32 : EReal)

/-! ## The payloads of `cc2_body` read at an index -/

theorem k2_pay7_apply (v1 v68 : FVec Ideal S128x128 .f32) (c : Ideal .f32) (v72 v74 : FVec Ideal S1x128 .f32) (r h : Fin 128) :
    k2_pay7 v1 v68 c v72 v74 (ix2 r h)
      = Cert.Spec.lnK (fun j => v72 (ix2 0 j)) (fun j => v74 (ix2 0 j)) (fun j => v1 (ix2 r j) + v68 (ix2 r j) * c) h := by
  unfold k2_pay7 Cert.Spec.lnK
  repeat (first | rw [rowSum_apply] | simp only [addf_apply, mulf_apply, subf_apply, divf_apply, rsqrt_apply, erf_apply, truncf_apply, broadcast_apply, shapeCast_self, broadcastTo_1b_ab_apply, broadcastTo_a1_ab_apply, shapeCast_a_a1_apply])
  rfl

theorem k2_pay8_apply (v1 v68 : FVec Ideal S128x128 .f32) (c : Ideal .f32) (v72 v74 : FVec Ideal S1x128 .f32)
    (v99 : FVec Ideal S128x512 .bf16) (v102 : FVec Ideal S1x512 .f32) (r : Fin 128) (q : Fin 512) :
    k2_pay8 v1 v68 c v72 v74 v99 v102 (ix2 r q)
      = (∑ i : Fin 128, k2_pay7 v1 v68 c v72 v74 (ix2 r i) * v99 (ix2 i q)) + v102 (ix2 0 q) := by
  unfold k2_pay8
  simp only [matmul, addf_apply, shapeCast_self, broadcastTo_1b_ab_apply]
  rw [mm_128_128_512]
  rfl

theorem k2_pay9_apply (v1 v68 : FVec Ideal S128x128 .f32) (c : Ideal .f32) (v72 v74 : FVec Ideal S1x128 .f32)
    (v99 : FVec Ideal S128x512 .bf16) (v102 : FVec Ideal S1x512 .f32) (r : Fin 128) (q : Fin 512) :
    k2_pay9 v1 v68 c v72 v74 v99 v102 (ix2 r q)
      = half * Ideal.erf (k2_pay8 v1 v68 c v72 v74 v99 v102 (ix2 r q) * cG) := rfl

theorem k2_pay10_apply (r : Fin 128) (q : Fin 512) : (k2_pay10 (F := Ideal)) (ix2 r q) = half := rfl

theorem k2_pay11_apply (v97 : FVec Ideal S128x128 .f32) (v105 v110 v111 : FVec Ideal S128x512 .f32) (v115 : FVec Ideal S512x128 .bf16)
    (v118 v123 v125 : FVec Ideal S1x128 .f32) (v149 : FVec Ideal S1x1x1x128 .f32) (r h : Fin 128) :
    k2_pay11 v97 v105 v110 v111 v115 v118 v123 v125 v149 (ix2 r h)
      = Cert.Spec.lnK (fun j => v123 (ix2 0 j)) (fun j => v125 (ix2 0 j))
          (fun j => v97 (ix2 r j) + ((∑ q : Fin 512, (v105 (ix2 r q) * (v111 (ix2 r q) + v110 (ix2 r q))) * v115 (ix2 q j)) + v118 (ix2 0 j))) h
        * v149 (ix4 0 0 0 r) := by
  unfold k2_pay11 Cert.Spec.lnK
  simp only [matmul]
  repeat (first | rw [rowSum_apply] | simp only [addf_apply, mulf_apply, subf_apply, divf_apply, rsqrt_apply, erf_apply, truncf_apply, broadcast_apply, shapeCast_self, broadcastTo_1b_ab_apply, broadcastTo_a1_ab_apply, shapeCast_a_a1_apply, shapeCast_111a_a_apply, mm_128_128_128, mm_4608_128_128, mm_128_4608_128, mm_128_128_512, mm_128_512_128])
  rfl

theorem k2_pay5_apply (v0 : FVec Ideal S1x128x128 .f32) (v2 : FVec Ideal S1x36x128x128 .f32) (v6 : FVec Ideal S36x128x128 .f32)
    (v13 : FVec Ideal S128x128 .f32) (v16 : FVec Ideal S1x128 .f32) (v20 : FVec Ideal S4608x128 .bf16) (v24 : FVec Ideal S128x128 .bf16)
    (hR : ∀ (jj : Fin 4608) (i : Fin 128), v20 (ix2 jj i) = if i.val = jj.val % 128 then (1 : EReal) else 0)
    (k : Fin 36) (r h : Fin 128) :
    k2_pay5 v0 v2 v6 v13 v16 v20 v24 (ix2 (row k r) h)
      = ((∑ j : Fin 128, v2 (ix4 0 k r j) * v24 (ix2 j h)) + v6 (ix3 k r h))
        + ((∑ j : Fin 128, v0 (ix3 0 r j) * v13 (ix2 j h)) + v16 (ix2 0 h)) := by
  unfold k2_pay5 k2_pay2
  simp only [matmul, addf_apply, mulf_apply, subf_apply, divf_apply, rsqrt_apply, erf_apply, truncf_apply, broadcast_apply, shapeCast_self, broadcastTo_1b_ab_apply, broadcastTo_a1_ab_apply, shapeCast_a_a1_apply, mm_128_128_128, mm_4608_128_128, mm_128_4608_128, mm_128_128_512, mm_128_512_128, shapeCast_1ab_ab_apply, shapeCast_1abc_abc_apply, shapeCast_rows]
  have hsel := sum_onehot_row k r (fun i => v20 (ix2 (row k r) i))
    (fun i => (∑ j : Fin 128, v0 (ix3 0 i j) * v13 (ix2 j h)) + v16 (ix2 0 h)) (fun i => hR (row k r) i)
  rw [hsel]

theorem k2_pay6_apply (v10 : FVec Ideal S128x36 .f32) (v12 : FVec Ideal S1x4608 .bf16) (v28 : FVec Ideal S4608x128 .f32) (c : Ideal .f32)
    (v38 : FVec Ideal S128x128 .bf16) (v41 : FVec Ideal S1x128 .f32) (v53 : FVec Ideal S128x4608 .bf16) (v61 : FVec Ideal S128x128 .f32)
    (v63 : FVec Ideal S1x128 .f32)
    (hA : ∀ (i : Fin 128) (jj : Fin 4608), v53 (ix2 i jj) = if i.val = jj.val % 128 then (1 : EReal) else 0)
    (r h : Fin 128) :
    k2_pay6 v10 v12 v28 c v38 v41 v53 v61 v63 (ix2 r h)
      = (∑ j : Fin 128, (∑ k : Fin 36, v12 (ix2 0 (row k r)) * secondLayerRow c v28 v38 v41 (row k r) j) * v61 (ix2 j h))
        + (∑ k : Fin 36, v10 (ix2 r k)) * v63 (ix2 0 h) := by
  unfold k2_pay6
  simp only [matmul]
  repeat (first | rw [rowSum_apply] | simp only [addf_apply, mulf_apply, subf_apply, divf_apply, rsqrt_apply, erf_apply, truncf_apply, broadcast_apply, shapeCast_self, broadcastTo_1b_ab_apply, broadcastTo_a1_ab_apply, shapeCast_a_a1_apply, mm_128_128_128, mm_4608_128_128, mm_128_4608_128, mm_128_128_512, mm_128_512_128])
  refine congrArg (· + (∑ k : Fin 36, v10 (ix2 r k)) * v63 (ix2 0 h)) (Finset.sum_congr rfl fun j _ => congrArg (· * v61 (ix2 j h)) ?_)
  exact sum_onehot_col r (fun jj => v53 (ix2 r jj)) (fun jj => v12 (ix2 0 jj)) (fun jj => secondLayerRow c v28 v38 v41 jj j) (fun jj => hA r jj)

/-! ## The body's result is the specification's node function -/

theorem k2_pay2_apply (v0 : FVec Ideal S1x128x128 .f32) (r j : Fin 128) : k2_pay2 v0 (ix2 r j) = v0 (ix3 0 r j) := by
  unfold k2_pay2; rw [shapeCast_1ab_ab_apply]

theorem k2_pay3_apply (v9 : FVec Ideal S1x128x36 .f32) (r : Fin 128) (k : Fin 36) : k2_pay3 v9 (ix2 r k) = v9 (ix3 0 r k) := by
  unfold k2_pay3; rw [shapeCast_1ab_ab_apply]

theorem k2_pay4_apply (v11 : FVec Ideal S1x1x1x4608 .bf16) (jj : Fin 4608) : k2_pay4 v11 (ix2 0 jj) = v11 (ix4 0 0 0 jj) := by
  unfold k2_pay4; rw [shapeCast_111a_1a_apply]

theorem k2_pay1_apply (v153 : FVec Ideal S128x128 .f32) (r h : Fin 128) : k2_pay1 v153 (ix3 0 r h) = v153 (ix2 r h) := by
  unfold k2_pay1; rw [shapeCast_ab_1ab_apply]

theorem bodyOut_apply (c46 : Ideal .f32) (hc : c46 = ((1 / 36 : ℝ) : EReal))
    (v0 : FVec Ideal S1x128x128 .f32) (v2 : FVec Ideal S1x36x128x128 .f32) (v6 : FVec Ideal S36x128x128 .f32) (v9 : FVec Ideal S1x128x36 .f32)
    (v11 : FVec Ideal S1x1x1x4608 .bf16) (v149 : FVec Ideal S1x1x1x128 .f32) (v53 : FVec Ideal S128x4608 .bf16) (v20 : FVec Ideal S4608x128 .bf16)
    (v13 : FVec Ideal S128x128 .f32) (v16 : FVec Ideal S1x128 .f32) (v24 : FVec Ideal S128x128 .bf16) (v38 : FVec Ideal S128x128 .bf16)
    (v41 : FVec Ideal S1x128 .f32) (v61 : FVec Ideal S128x128 .f32) (v63 : FVec Ideal S1x128 .f32) (v99 : FVec Ideal S128x512 .bf16)
    (v102 : FVec Ideal S1x512 .f32) (v115 : FVec Ideal S512x128 .bf16) (v118 : FVec Ideal S1x128 .f32) (v72 : FVec Ideal S1x128 .f32)
    (v74 : FVec Ideal S1x128 .f32) (v123 : FVec Ideal S1x128 .f32) (v125 : FVec Ideal S1x128 .f32)
    (hA : ∀ (i : Fin 128) (jj : Fin 4608), v53 (ix2 i jj) = if i.val = jj.val % 128 then (1 : EReal) else 0)
    (hR : ∀ (jj : Fin 4608) (i : Fin 128), v20 (ix2 jj i) = if i.val = jj.val % 128 then (1 : EReal) else 0)
    (hmaf : ∀ (k : Fin 36) (r : Fin 128), v11 (ix4 0 0 0 (row k r)) = v9 (ix3 0 r k))
    (r h : Fin 128) :
    bodyOut c46 v0 v2 v6 v9 v11 v149 v53 v20 v13 v16 v24 v38 v41 v61 v63 v99 v102 v115 v118 v72 v74 v123 v125 (ix3 0 r h)
      = Cert.Spec.nodeK (wts v13 v16 v24 v38 v41 v61 v63 v99 v102 v115 v118 v72 v74 v123 v125)
          (fun j => v0 (ix3 0 r j)) (fun k j => v2 (ix4 0 k r j)) (fun k j => v6 (ix3 k r j)) (fun k => v9 (ix3 0 r k))
          (v149 (ix4 0 0 0 r)) h := by
  subst hc
  unfold bodyOut
  rw [k2_pay1_apply, k2_pay11_apply]
  simp only [k2_pay9_apply, k2_pay10_apply, k2_pay8_apply, k2_pay7_apply, k2_pay6_apply _ _ _ _ _ _ _ _ _ hA, secondLayerRow,
    k2_pay5_apply _ _ _ _ _ _ _ hR, k2_pay2_apply, k2_pay3_apply, k2_pay4_apply, hmaf]
  rfl

end Cert.KernelIdeal.BodyVal

end
-- ==== Proof.KBodyVal4.lean ====
/-
  The value the body `cc4_body` stores, read at an index, at the ideal instance: each payload `k4_pay1` … `k4_pay11`
  at a point as a formula over the blocks the body loads (the replication of the node's own projection over its 36
  edges and the masked aggregation over the edges collapsed by the one-hot hypotheses), and their composition
  `bodyOut4` as the specification's per-node function `Cert.Spec.nodeK`, row by row.
-/
import proofs.«215572_g25211458027672_cont_9to1_2008_46_alg».proof.Proof.KBodyDef4
import proofs.«215572_g25211458027672_cont_9to1_2008_46_alg».proof.Proof.KBodyLemmas

set_option synthInstance.maxSize 4096

noncomputable section

namespace Cert.KernelIdeal.BodyVal

open Cert.KernelIdeal Cert.KernelIdeal.Gen Cert.KernelIdeal.GenP
open Idealize.ShloMosaic Idealize.SL.Sem Idealize.ShloMosaic.ValueIdx
open scoped BigOperators

/-- The f32 word of `0.5`. -/
local notation "half" => (Ideal.ofBits FTy.f32 0x3F000000#32 : EReal)
/-- The f32 word nearest `1/√2`. -/
local notation "cG" => (Ideal.ofBits FTy.f32 0x3F3504F3#32 : EReal)

/-! ## The payloads of `cc4_body` read at an index -/

theorem k4_pay7_apply (v1 v68 : FVec Ideal S128x128 .f32) (c : Ideal .f32) (v72 v74 : FVec Ideal S1x128 .f32) (r h : Fin 128) :
    k4_pay7 v1 v68 c v72 v74 (ix2 r h)
      = Cert.Spec.lnK (fun j => v72 (ix2 0 j)) (fun j => v74 (ix2 0 j)) (fun j => v1 (ix2 r j) + v68 (ix2 r j) * c) h := by
  unfold k4_pay7 Cert.Spec.lnK
  repeat (first | rw [rowSum_apply] | simp only [addf_apply, mulf_apply, subf_apply, divf_apply, rsqrt_apply, erf_apply, truncf_apply, broadcast_apply, shapeCast_self, broadcastTo_1b_ab_apply, broadcastTo_a1_ab_apply, shapeCast_a_a1_apply])
  rfl

theorem k4_pay8_apply (v1 v68 : FVec Ideal S128x128 .f32) (c : Ideal .f32) (v72 v74 : FVec Ideal S1x128 .f32)
    (v99 : FVec Ideal S128x512 .bf16) (v102 : FVec Ideal S1x512 .f32) (r : Fin 128) (q : Fin 512) :
    k4_pay8 v1 v68 c v72 v74 v99 v102 (ix2 r q)
      = (∑ i : Fin 128, k4_pay7 v1 v68 c v72 v74 (ix2 r i) * v99 (ix2 i q)) + v102 (ix2 0 q) := by
  unfold k4_pay8
  simp only [matmul, addf_apply, shapeCast_self, broadcastTo_1b_ab_apply]
  rw [mm_128_128_512]
  rfl

theorem k4_pay9_apply (v1 v68 : FVec Ideal S128x128 .f32) (c : Ideal .f32) (v72 v74 : FVec Ideal S1x128 .f32)
    (v99 : FVec Ideal S128x512 .bf16) (v102 : FVec Ideal S1x512 .f32) (r : Fin 128) (q : Fin 512) :
    k4_pay9 v1 v68 c v72 v74 v99 v102 (ix2 r q)
      = half * Ideal.erf (k4_pay8 v1 v68 c v72 v74 v99 v102 (ix2 r q) * cG) := rfl

theorem k4_pay10_apply (r : Fin 128) (q : Fin 512) : (k4_pay10 (F := Ideal)) (ix2 r q) = half := rfl

theorem k4_pay11_apply (v97 : FVec Ideal S128x128 .f32) (v105 v110 v111 : FVec Ideal S128x512 .f32) (v115 : FVec Ideal S512x128 .bf16)
    (v118 v123 v125 : FVec Ideal S1x128 .f32) (v149 : FVec Ideal S1x1x1x128 .f32) (r h : Fin 128) :
    k4_pay11 v97 v105 v110 v111 v115 v118 v123 v125 v149 (ix2 r h)
      = Cert.Spec.lnK (fun j => v123 (ix2 0 j)) (fun j => v125 (ix2 0 j))
          (fun j => v97 (ix2 r j) + ((∑ q : Fin 512, (v105 (ix2 r q) * (v111 (ix2 r q) + v110 (ix2 r q))) * v115 (ix2 q j)) + v118 (ix2 0 j))) h
        * v149 (ix4 0 0 0 r) := by
  unfold k4_pay11 Cert.Spec.lnK
  simp only [matmul]
  repeat (first | rw [rowSum_apply] | simp only [addf_apply, mulf_apply, subf_apply, divf_apply, rsqrt_apply, erf_apply, truncf_apply, broadcast_apply, shapeCast_self, broadcastTo_1b_ab_apply, broadcastTo_a1_ab_apply, shapeCast_a_a1_apply, shapeCast_111a_a_apply, mm_128_128_128, mm_4608_128_128, mm_128_4608_128, mm_128_128_512, mm_128_512_128])
  rfl

theorem k4_pay5_apply (v0 : FVec Ideal S1x128x128 .f32) (v2 : FVec Ideal S1x36x128x128 .f32) (v6 : FVec Ideal S36x128x128 .f32)
    (v13 : FVec Ideal S128x128 .f32) (v16 : FVec Ideal S1x128 .f32) (v20 : FVec Ideal S4608x128 .bf16) (v24 : FVec Ideal S128x128 .bf16)
    (hR : ∀ (jj : Fin 4608) (i : Fin 128), v20 (ix2 jj i) = if i.val = jj.val % 128 then (1 : EReal) else 0)
    (k : Fin 36) (r h : Fin 128) :
    k4_pay5 v0 v2 v6 v13 v16 v20 v24 (ix2 (row k r) h)
      = ((∑ j : Fin 128, v2 (ix4 0 k r j) * v24 (ix2 j h)) + v6 (ix3 k r h))
        + ((∑ j : Fin 128, v0 (ix3 0 r j) * v13 (ix2 j h)) + v16 (ix2 0 h)) := by
  unfold k4_pay5 k4_pay2
  simp only [matmul, addf_apply, mulf_apply, subf_apply, divf_apply, rsqrt_apply, erf_apply, truncf_apply, broadcast_apply, shapeCast_self, broadcastTo_1b_ab_apply, broadcastTo_a1_ab_apply, shapeCast_a_a1_apply, mm_128_128_128, mm_4608_128_128, mm_128_4608_128, mm_128_128_512, mm_128_512_128, shapeCast_1ab_ab_apply, shapeCast_1abc_abc_apply, shapeCast_rows]
  have hsel := sum_onehot_row k r (fun i => v20 (ix2 (row k r) i))
    (fun i => (∑ j : Fin 128, v0 (ix3 0 i j) * v13 (ix2 j h)) + v16 (ix2 0 h)) (fun i => hR (row k r) i)
  rw [hsel]

theorem k4_pay6_apply (v10 : FVec Ideal S128x36 .f32) (v12 : FVec Ideal S1x4608 .bf16) (v28 : FVec Ideal S4608x128 .f32) (c : Ideal .f32)
    (v38 : FVec Ideal S128x128 .bf16) (v41 : FVec Ideal S1x128 .f32) (v53 : FVec Ideal S128x4608 .bf16) (v61 : FVec Ideal S128x128 .f32)
    (v63 : FVec Ideal S1x128 .f32)
    (hA : ∀ (i : Fin 128) (jj : Fin 4608), v53 (ix2 i jj) = if i.val = jj.val % 128 then (1 : EReal) else 0)
    (r h : Fin 128) :
    k4_pay6 v10 v12 v28 c v38 v41 v53 v61 v63 (ix2 r h)
      = (∑ j : Fin 128, (∑ k : Fin 36, v12 (ix2 0 (row k r)) * secondLayerRow c v28 v38 v41 (row k r) j) * v61 (ix2 j h))
        + (∑ k : Fin 36, v10 (ix2 r k)) * v63 (ix2 0 h) := by
  unfold k4_pay6
  simp only [matmul]
  repeat (first | rw [rowSum_apply] | simp only [addf_apply, mulf_apply, subf_apply, divf_apply, rsqrt_apply, erf_apply, truncf_apply, broadcast_apply, shapeCast_self, broadcastTo_1b_ab_apply, broadcastTo_a1_ab_apply, shapeCast_a_a1_apply, mm_128_128_128, mm_4608_128_128, mm_128_4608_128, mm_128_128_512, mm_128_512_128])
  refine congrArg (· + (∑ k : Fin 36, v10 (ix2 r k)) * v63 (ix2 0 h)) (Finset.sum_congr rfl fun j _ => congrArg (· * v61 (ix2 j h)) ?_)
  exact sum_onehot_col r (fun jj => v53 (ix2 r jj)) (fun jj => v12 (ix2 0 jj)) (fun jj => secondLayerRow c v28 v38 v41 jj j) (fun jj => hA r jj)

/-! ## The body's result is the specification's node function -/

theorem k4_pay2_apply (v0 : FVec Ideal S1x128x128 .f32) (r j : Fin 128) : k4_pay2 v0 (ix2 r j) = v0 (ix3 0 r j) := by
  unfold k4_pay2; rw [shapeCast_1ab_ab_apply]

theorem k4_pay3_apply (v9 : FVec Ideal S1x128x36 .f32) (r : Fin 128) (k : Fin 36) : k4_pay3 v9 (ix2 r k) = v9 (ix3 0 r k) := by
  unfold k4_pay3; rw [shapeCast_1ab_ab_apply]

theorem k4_pay4_apply (v11 : FVec Ideal S1x1x1x4608 .bf16) (jj : Fin 4608) : k4_pay4 v11 (ix2 0 jj) = v11 (ix4 0 0 0 jj) := by
  unfold k4_pay4; rw [shapeCast_111a_1a_apply]

theorem k4_pay1_apply (v153 : FVec Ideal S128x128 .f32) (r h : Fin 128) : k4_pay1 v153 (ix3 0 r h) = v153 (ix2 r h) := by
  unfold k4_pay1; rw [shapeCast_ab_1ab_apply]

theorem bodyOut4_apply (c46 : Ideal .f32) (hc : c46 = ((1 / 36 : ℝ) : EReal))
    (v0 : FVec Ideal S1x128x128 .f32) (v2 : FVec Ideal S1x36x128x128 .f32) (v6 : FVec Ideal S36x128x128 .f32) (v9 : FVec Ideal S1x128x36 .f32)
    (v11 : FVec Ideal S1x1x1x4608 .bf16) (v149 : FVec Ideal S1x1x1x128 .f32) (v53 : FVec Ideal S128x4608 .bf16) (v20 : FVec Ideal S4608x128 .bf16)
    (v13 : FVec Ideal S128x128 .f32) (v16 : FVec Ideal S1x128 .f32) (v24 : FVec Ideal S128x128 .bf16) (v38 : FVec Ideal S128x128 .bf16)
    (v41 : FVec Ideal S1x128 .f32) (v61 : FVec Ideal S128x128 .f32) (v63 : FVec Ideal S1x128 .f32) (v99 : FVec Ideal S128x512 .bf16)
    (v102 : FVec Ideal S1x512 .f32) (v115 : FVec Ideal S512x128 .bf16) (v118 : FVec Ideal S1x128 .f32) (v72 : FVec Ideal S1x128 .f32)
    (v74 : FVec Ideal S1x128 .f32) (v123 : FVec Ideal S1x128 .f32) (v125 : FVec Ideal S1x128 .f32)
    (hA : ∀ (i : Fin 128) (jj : Fin 4608), v53 (ix2 i jj) = if i.val = jj.val % 128 then (1 : EReal) else 0)
    (hR : ∀ (jj : Fin 4608) (i : Fin 128), v20 (ix2 jj i) = if i.val = jj.val % 128 then (1 : EReal) else 0)
    (hmaf : ∀ (k : Fin 36) (r : Fin 128), v11 (ix4 0 0 0 (row k r)) = v9 (ix3 0 r k))
    (r h : Fin 128) :
    bodyOut4 c46 v0 v2 v6 v9 v11 v149 v53 v20 v13 v16 v24 v38 v41 v61 v63 v99 v102 v115 v118 v72 v74 v123 v125 (ix3 0 r h)
      = Cert.Spec.nodeK (wts v13 v16 v24 v38 v41 v61 v63 v99 v102 v115 v118 v72 v74 v123 v125)
          (fun j => v0 (ix3 0 r j)) (fun k j => v2 (ix4 0 k r j)) (fun k j => v6 (ix3 k r j)) (fun k => v9 (ix3 0 r k))
          (v149 (ix4 0 0 0 r)) h := by
  subst hc
  unfold bodyOut4
  rw [k4_pay1_apply, k4_pay11_apply]
  simp only [k4_pay9_apply, k4_pay10_apply, k4_pay8_apply, k4_pay7_apply, k4_pay6_apply _ _ _ _ _ _ _ _ _ hA, secondLayerRow,
    k4_pay5_apply _ _ _ _ _ _ _ hR, k4_pay2_apply, k4_pay3_apply, k4_pay4_apply, hmaf]
  rfl

end Cert.KernelIdeal.BodyVal

end
-- ==== Proof.KHostValIdeal.lean ====
/-
  The host-computed arrays of the kernel program read at an index AT THE IDEAL VALUES, and the
  projection call's value as a sum of products.
-/
import proofs.«215572_g25211458027672_cont_9to1_2008_46_alg».proof.Proof.KHostVal
import proofs.«215572_g25211458027672_cont_9to1_2008_46_alg».proof.Proof.SkeletonKernelIdeal
import Idealize.ShloMosaic.PureOps.Ideal.Laws

noncomputable section

namespace Cert.KernelIdeal.HostVal

open Idealize.ShloMosaic Idealize.ShloMosaic.ValueIdx
open Cert.KernelIdeal
open Cert.KernelIdeal.Facts₀

/-- At the ideal values the narrowing is the identity. -/
theorem val_v10_apply_ideal (a4 : Vec Ideal S4x1024x36 .f32) (b : Fin 4) (t : Fin 8) (u : Fin 1) (jj : Fin 4608)
    (k : Fin 36) (i : Fin 128) (n : Fin 1024) (hjj : jj.val = k.val * 128 + i.val) (hn : n.val = t.val * 128 + i.val) :
    val_v10 a4 (ix4 b t u jj) = a4 (ix3 b n k) :=
  val_v9_apply a4 b t u jj k i n hjj hn

/-- At the ideal values A2 is the 0/1 matrix of "row i is column jj's position within its block". -/
theorem val_v19_apply_ideal (i : Fin 128) (jj : Fin 4608) :
    val_v19 (F := Ideal) (ix2 i jj) = if i.val = jj.val % 128 then (1 : EReal) else 0 := by
  rw [val_v19_apply]
  by_cases h : i.val = jj.val % 128
  · rw [if_pos h, if_pos h]
    show (((1#1 : BitVec 1).toNat : ℝ) : EReal) = 1
    simp
  · rw [if_neg h, if_neg h]
    show (((0#1 : BitVec 1).toNat : ℝ) : EReal) = 0
    simp

theorem val_v20_apply_ideal (jj : Fin 4608) (i : Fin 128) :
    val_v20 (F := Ideal) (ix2 jj i) = if i.val = jj.val % 128 then (1 : EReal) else 0 := by
  unfold val_v20
  rw [transpose_ix2_apply]
  exact val_v19_apply_ideal i jj

theorem val_bf16_128x128_apply_ideal (a : Vec Ideal S128x128 .f32) (i : S128x128.Idx) : val_bf16_128x128 a i = a i := rfl
theorem val_bf16_128x512_apply_ideal (a : Vec Ideal S128x512 .f32) (i : S128x512.Idx) : val_bf16_128x512 a i = a i := rfl
theorem val_bf16_512x128_apply_ideal (a : Vec Ideal S512x128 .f32) (i : S512x128.Idx) : val_bf16_512x128 a i = a i := rfl

theorem val_v29_apply_ideal (a5 : Vec Ideal S384x128 .f32) (i j : Fin 128) :
    val_v29 a5 (ix2 i j) = a5 (ix2 ⟨128 + i.val, by omega⟩ j) :=
  val_v1_apply a5 i j

/-! ## The projection P = reshape(h_V) @ W1[256:384] at the ideal values -/

/-- The projection's left operand index at output (r, h) and contraction index j is (r, j). -/
theorem k0_lhsIdx (r : Fin 4096) (h j : Fin 128) :
    dot_S4096x128_S128x128_S4096x128_1_0_0_1_n_n.lhsIdx (ix2 r h)
      ((contrEquiv1 dot_S4096x128_S128x128_S4096x128_1_0_0_1_n_n 128 rfl rfl).symm j) = ix2 r j := by
  funext a
  apply Fin.ext
  match a with
  | ⟨0, _⟩ => rfl
  | ⟨1, _⟩ => exact contrEquiv1_symm_val dot_S4096x128_S128x128_S4096x128_1_0_0_1_n_n 128 rfl rfl j

/-- The projection's right operand index at output (r, h) and contraction index j is (j, h). -/
theorem k0_rhsIdx (r : Fin 4096) (h j : Fin 128) :
    dot_S4096x128_S128x128_S4096x128_1_0_0_1_n_n.rhsIdx (ix2 r h)
      ((contrEquiv1 dot_S4096x128_S128x128_S4096x128_1_0_0_1_n_n 128 rfl rfl).symm j) = ix2 j h := by
  funext a
  apply Fin.ext
  match a with
  | ⟨0, _⟩ => exact contrEquiv1_symm_val dot_S4096x128_S128x128_S4096x128_1_0_0_1_n_n 128 rfl rfl j
  | ⟨1, _⟩ => rfl

/-- The projection call's payload at (r, h): the row r of the left operand against column h of the right one. -/
theorem k0_pay1_apply_ideal (x : Vec Ideal S4096x128 .f32) (w : Vec Ideal S128x128 .f32) (r : Fin 4096) (h : Fin 128) :
    GenP.k0_pay1 x w (ix2 r h) = ∑ j : Fin 128, x (ix2 r j) * w (ix2 j h) := by
  unfold GenP.k0_pay1
  simp only [matmul, shapeCast_self]
  rw [Ideal.matmul_constant_zero_apply,
    ← Equiv.sum_comp (contrEquiv1 dot_S4096x128_S128x128_S4096x128_1_0_0_1_n_n 128 rfl rfl).symm]
  refine Finset.sum_congr rfl fun j _ => ?_
  rw [k0_lhsIdx, k0_rhsIdx]

/-- P at row b*1024 + n: node (b, n)'s features against rows 256 to 383 of W1. -/
theorem proj_apply_ideal (a0 : Vec Ideal S4x1024x128 .f32) (a5 : Vec Ideal S384x128 .f32)
    (b : Fin 4) (n : Fin 1024) (h : Fin 128) (r : Fin 4096) (hr : r.val = b.val * 1024 + n.val) :
    GenP.k0_pay1 (val_v21 a0) (val_v2 a5) (ix2 r h)
      = ∑ j : Fin 128, a0 (ix3 b n j) * a5 (ix2 ⟨256 + j.val, by omega⟩ h) := by
  rw [k0_pay1_apply_ideal]
  refine Finset.sum_congr rfl fun j _ => ?_
  rw [val_v21_apply a0 b n j r hr, val_v2_apply]

end Cert.KernelIdeal.HostVal
-- ==== Proof.KGatherVal.lean ====
/-
  The host-computed arrays read at indices computed from a node number, and the gather call's result
  read at a row: the gathered row of the projection as a sum of products at the ideal values.
-/
import proofs.«215572_g25211458027672_cont_9to1_2008_46_alg».proof.Proof.KSetup
import proofs.«215572_g25211458027672_cont_9to1_2008_46_alg».proof.Proof.KHostValIdeal

noncomputable section

namespace Cert.KernelIdeal.HostVal

open Idealize.ShloMosaic Idealize.ShloMosaic.ValueIdx
open Cert.KernelIdeal
open Cert.KernelIdeal.Facts₀

variable {F : FTy → Type} [FloatOps F] [Named F]

/-! ## The masks and the gathered slabs at a node's own tile and lane -/

/-- Node n sits in tile n / 128 at lane n % 128; neighbour k's mask word is at column k * 128 + n % 128. -/
theorem val_v9_at_node (a4 : Vec F S4x1024x36 .f32) (b : Fin 4) (n : Fin 1024) (k : Fin 36) :
    val_v9 a4 (ix4 b ⟨n.val / 128, by omega⟩ (0 : Fin 1) ⟨k.val * 128 + n.val % 128, by omega⟩) = a4 (ix3 b n k) :=
  val_v9_apply a4 b ⟨n.val / 128, by omega⟩ 0 ⟨k.val * 128 + n.val % 128, by omega⟩ k ⟨n.val % 128, Nat.mod_lt _ (by norm_num)⟩ n
    rfl (by dsimp only; omega)

theorem val_v10_at_node (a4 : Vec F S4x1024x36 .f32) (b : Fin 4) (n : Fin 1024) (k : Fin 36) :
    val_v10 a4 (ix4 b ⟨n.val / 128, by omega⟩ (0 : Fin 1) ⟨k.val * 128 + n.val % 128, by omega⟩)
      = FloatOps.truncf .bf16 bitsLt_bf16_f32 (a4 (ix3 b n k)) :=
  val_v10_apply a4 b ⟨n.val / 128, by omega⟩ 0 ⟨k.val * 128 + n.val % 128, by omega⟩ k ⟨n.val % 128, Nat.mod_lt _ (by norm_num)⟩ n
    rfl (by dsimp only; omega)

theorem val_v10_at_node_ideal (a4 : Vec Ideal S4x1024x36 .f32) (b : Fin 4) (n : Fin 1024) (k : Fin 36) :
    val_v10 a4 (ix4 b ⟨n.val / 128, by omega⟩ (0 : Fin 1) ⟨k.val * 128 + n.val % 128, by omega⟩) = a4 (ix3 b n k) :=
  val_v9_at_node a4 b n k

theorem val_v27_at_node (a3 : Vec F S4x1024 .f32) (b : Fin 4) (n : Fin 1024) :
    val_v27 a3 (ix4 b ⟨n.val / 128, by omega⟩ (0 : Fin 1) ⟨n.val % 128, Nat.mod_lt _ (by norm_num)⟩) = a3 (ix2 b n) :=
  val_v27_apply a3 b ⟨n.val / 128, by omega⟩ 0 ⟨n.val % 128, Nat.mod_lt _ (by norm_num)⟩ n (by dsimp only; omega)

/-- Slab bl * 36 + k of a gather's result holds its rows (bl * 36 + k) * 1024 … + 1023. -/
theorem val_v26_at_slab (g : Vec F S73728x128 .f32) (bl : Fin 2) (k : Fin 36) (n : Fin 1024) (h : Fin 128) :
    val_v26 g (ix3 ⟨bl.val * 36 + k.val, by omega⟩ n h) = g (ix2 ⟨(bl.val * 36 + k.val) * 1024 + n.val, by omega⟩ h) :=
  val_v26_apply g ⟨bl.val * 36 + k.val, by omega⟩ n h ⟨(bl.val * 36 + k.val) * 1024 + n.val, by omega⟩ rfl

/-! ## A gather's result at a row -/

/-- The 32-bit sum of a node number and a batch's row offset does not wrap, and stays below the table's 4096 rows. -/
theorem word_row (x : BitVec 32) (m c : Nat) (hx : x.toNat = m) (hm : m < 1024) (hc : c < 4) :
    (x + BitVec.ofNat 32 (c * 1024)).toNat % 4096 = c * 1024 + m := by
  have h32 : (2 : Nat) ^ 32 = 4294967296 := by norm_num
  rw [BitVec.toNat_add, BitVec.toNat_ofNat, hx, h32]
  omega

/-- The first gather at row (bl * 36 + k) * 1024 + n: the table's row bl * 1024 + E_idx[bl, n, k]. -/
theorem gatherVal_v24_apply (p : Vec F S4096x128 .f32) (a2 : Vec F S4x1024x36 .i32)
    (bl : Fin 2) (k : Fin 36) (n : Fin 1024) (h : Fin 128) (r : Fin 73728)
    (hr : r.val = (bl.val * 36 + k.val) * 1024 + n.val)
    (m : Fin 1024) (hm : (a2 (ix3 ⟨bl.val, by omega⟩ n k)).toNat = m.val)
    (row : Fin 4096) (hrow : row.val = bl.val * 1024 + m.val) :
    KS.gatherVal 0 p (val_v24 a2) (ix2 r h) = p (ix2 row h) := by
  have hr' : bl.val * 36864 + k.val * 1024 + n.val = r.val / 2304 * 2304 + r.val / 128 % 18 * 128 + r.val % 128 := by omega
  have hb : r.val / 2304 / 16 = bl.val := by omega
  have hx : val_v24 a2 (ix3 ⟨r.val / 2304, by omega⟩ ⟨r.val / 128 % 18, Nat.mod_lt _ (by norm_num)⟩
      ⟨r.val % 128, Nat.mod_lt _ (by norm_num)⟩) = a2 (ix3 ⟨bl.val, by omega⟩ n k) :=
    val_v24_apply_arg a2 _ _ _ bl k n hr'
  refine congrArg (fun q : Fin 4096 => p (ix2 q h)) (Fin.ext ?_)
  show (val_v24 a2 (ix3 ⟨r.val / 2304, _⟩ ⟨r.val / 128 % 18, _⟩ ⟨r.val % 128, _⟩)
      + BitVec.ofNat 32 ((0 + r.val / 2304 / 16) * 1024)).toNat % 4096 = row.val
  rw [hx, hb, word_row _ m.val (0 + bl.val) hm m.isLt (by omega), hrow]
  omega

/-- The second gather at row (bl * 36 + k) * 1024 + n: the table's row (2 + bl) * 1024 + E_idx[2 + bl, n, k]. -/
theorem gatherVal_v43_apply (p : Vec F S4096x128 .f32) (a2 : Vec F S4x1024x36 .i32)
    (bl : Fin 2) (k : Fin 36) (n : Fin 1024) (h : Fin 128) (r : Fin 73728)
    (hr : r.val = (bl.val * 36 + k.val) * 1024 + n.val)
    (m : Fin 1024) (hm : (a2 (ix3 ⟨2 + bl.val, by omega⟩ n k)).toNat = m.val)
    (row : Fin 4096) (hrow : row.val = (2 + bl.val) * 1024 + m.val) :
    KS.gatherVal 2 p (val_v43 a2) (ix2 r h) = p (ix2 row h) := by
  have hr' : bl.val * 36864 + k.val * 1024 + n.val = r.val / 2304 * 2304 + r.val / 128 % 18 * 128 + r.val % 128 := by omega
  have hb : r.val / 2304 / 16 = bl.val := by omega
  have hx : val_v43 a2 (ix3 ⟨r.val / 2304, by omega⟩ ⟨r.val / 128 % 18, Nat.mod_lt _ (by norm_num)⟩
      ⟨r.val % 128, Nat.mod_lt _ (by norm_num)⟩) = a2 (ix3 ⟨2 + bl.val, by omega⟩ n k) :=
    val_v43_apply_arg a2 _ _ _ bl k n hr'
  refine congrArg (fun q : Fin 4096 => p (ix2 q h)) (Fin.ext ?_)
  show (val_v43 a2 (ix3 ⟨r.val / 2304, _⟩ ⟨r.val / 128 % 18, _⟩ ⟨r.val % 128, _⟩)
      + BitVec.ofNat 32 ((2 + r.val / 2304 / 16) * 1024)).toNat % 4096 = row.val
  rw [hx, hb, word_row _ m.val (2 + bl.val) hm m.isLt (by omega), hrow]

/-! ## The gathered row of the projection, at the ideal values -/

/-- Batches 0 and 1: the gathered row for node n's neighbour k is the projection of node E_idx[bl, n, k] of batch bl. -/
theorem gathered_apply_ideal_lo (a0 : Vec Ideal S4x1024x128 .f32) (a2 : Vec Ideal S4x1024x36 .i32) (a5 : Vec Ideal S384x128 .f32)
    (bl : Fin 2) (k : Fin 36) (n : Fin 1024) (h : Fin 128) (r : Fin 73728)
    (hr : r.val = (bl.val * 36 + k.val) * 1024 + n.val)
    (m : Fin 1024) (hm : (a2 (ix3 ⟨bl.val, by omega⟩ n k)).toNat = m.val) :
    KS.gatherVal 0 (GenP.k0_pay1 (val_v21 a0) (val_v2 a5)) (val_v24 a2) (ix2 r h)
      = ∑ j : Fin 128, a0 (ix3 ⟨bl.val, by omega⟩ m j) * a5 (ix2 ⟨256 + j.val, by omega⟩ h) := by
  rw [gatherVal_v24_apply _ a2 bl k n h r hr m hm ⟨bl.val * 1024 + m.val, by omega⟩ rfl]
  exact proj_apply_ideal a0 a5 ⟨bl.val, by omega⟩ m h _ rfl

/-- Batches 2 and 3 likewise. -/
theorem gathered_apply_ideal_hi (a0 : Vec Ideal S4x1024x128 .f32) (a2 : Vec Ideal S4x1024x36 .i32) (a5 : Vec Ideal S384x128 .f32)
    (bl : Fin 2) (k : Fin 36) (n : Fin 1024) (h : Fin 128) (r : Fin 73728)
    (hr : r.val = (bl.val * 36 + k.val) * 1024 + n.val)
    (m : Fin 1024) (hm : (a2 (ix3 ⟨2 + bl.val, by omega⟩ n k)).toNat = m.val) :
    KS.gatherVal 2 (GenP.k0_pay1 (val_v21 a0) (val_v2 a5)) (val_v43 a2) (ix2 r h)
      = ∑ j : Fin 128, a0 (ix3 ⟨2 + bl.val, by omega⟩ m j) * a5 (ix2 ⟨256 + j.val, by omega⟩ h) := by
  rw [gatherVal_v43_apply _ a2 bl k n h r hr m hm ⟨(2 + bl.val) * 1024 + m.val, by omega⟩ rfl]
  exact proj_apply_ideal a0 a5 ⟨2 + bl.val, by omega⟩ m h _ rfl

end Cert.KernelIdeal.HostVal
-- ==== Proof.KValue.lean ====
/-
  The kernel program's result read at an index, at the ideal values: each layer region's result is the
  specification's node function of the node's rows read off the whole operand arrays (a block's coordinate is the
  block index times the block size plus the coordinate inside the block), and the program's result is the
  specification's kernel arrangement of the argument arrays.
-/
import proofs.«215572_g25211458027672_cont_9to1_2008_46_alg».proof.Proof.KResDef
import proofs.«215572_g25211458027672_cont_9to1_2008_46_alg».proof.Proof.KBodyVal
import proofs.«215572_g25211458027672_cont_9to1_2008_46_alg».proof.Proof.KBodyVal4
import proofs.«215572_g25211458027672_cont_9to1_2008_46_alg».proof.Proof.KHostValIdeal
import proofs.«215572_g25211458027672_cont_9to1_2008_46_alg».proof.Proof.KGatherVal
import proofs.«215572_g25211458027672_cont_9to1_2008_46_alg».proof.Proof.RefValue
import proofs.«215572_g25211458027672_cont_9to1_2008_46_alg».proof.Proof.Spec

noncomputable section

namespace Cert.KernelIdeal.KValue

open Cert.KernelIdeal Cert.KernelIdeal.Gen Cert.KernelIdeal.HostVal
open Idealize.ShloMosaic Idealize.ShloMosaic.ValueIdx
open scoped BigOperators

variable {F : FTy → Type} [FloatOps F] [Named F]

/-- The node function at equal arguments. -/
theorem nodeK_congr {w w' : Cert.Spec.WtsK} {hv hv' : Fin 128 → EReal} {he he' gg gg' : Fin 36 → Fin 128 → EReal}
    {ma ma' : Fin 36 → EReal} {mv mv' : EReal} (h : Fin 128)
    (e1 : w = w') (e2 : hv = hv') (e3 : he = he') (e4 : gg = gg') (e5 : ma = ma') (e6 : mv = mv') :
    Cert.Spec.nodeK w hv he gg ma mv h = Cert.Spec.nodeK w' hv' he' gg' ma' mv' h := by
  subst e1 e2 e3 e4 e5 e6; rfl

/-! ## The layer region of custom call 2 at an index -/

/-- The printed index maps of the tiled inputs, decided once over the grid: point `t` reads batch 0 + t / 8, node tile t % 8. -/
theorem idx2_in : ∀ t : Fin cfg2.N,
    win2_0.index t (0 : Fin 3) = 0 + t.val / 8 ∧ win2_0.index t (1 : Fin 3) = t.val % 8 ∧ win2_0.index t (2 : Fin 3) = 0
    ∧ win2_1.index t (0 : Fin 4) = 0 + t.val / 8 ∧ win2_1.index t (1 : Fin 4) = 0 ∧ win2_1.index t (2 : Fin 4) = t.val % 8 ∧ win2_1.index t (3 : Fin 4) = 0
    ∧ win2_2.index t (0 : Fin 3) = t.val / 8 ∧ win2_2.index t (1 : Fin 3) = t.val % 8 ∧ win2_2.index t (2 : Fin 3) = 0
    ∧ win2_3.index t (0 : Fin 3) = 0 + t.val / 8 ∧ win2_3.index t (1 : Fin 3) = t.val % 8 ∧ win2_3.index t (2 : Fin 3) = 0
    ∧ win2_4.index t (0 : Fin 4) = 0 + t.val / 8 ∧ win2_4.index t (1 : Fin 4) = t.val % 8 ∧ win2_4.index t (2 : Fin 4) = 0 ∧ win2_4.index t (3 : Fin 4) = 0
    ∧ win2_5.index t (0 : Fin 4) = 0 + t.val / 8 ∧ win2_5.index t (1 : Fin 4) = t.val % 8 ∧ win2_5.index t (2 : Fin 4) = 0 ∧ win2_5.index t (3 : Fin 4) = 0 :=
  (by decide +kernel : ∀ t : Fin grid2.N, _)

theorem blkW2_6 (A : Vec F S128x4608 .bf16) (t : Fin cfg2.N) : ((cfg2.win 6).blk t).view.read (Elt F) A = A := by
  have e : ∀ t : Fin cfg2.N, win2_6.index t (0 : Fin 2) = 0 ∧ win2_6.index t (1 : Fin 2) = 0 :=
    (by decide +kernel : ∀ t : Fin grid2.N, _)
  obtain ⟨e0, e1⟩ := e t
  funext y
  show A (((cfg2.win 6).blk t).view.emb y) = A y
  congr 1
  funext a; apply Fin.ext
  match a with
  | ⟨0, _⟩ => show win2_6.index t (0 : Fin 2) * 128 + 1 * (y 0).val = (y 0).val; omega
  | ⟨1, _⟩ => show win2_6.index t (1 : Fin 2) * 4608 + 1 * (y 1).val = (y 1).val; omega

theorem blkW2_7 (A : Vec F S4608x128 .bf16) (t : Fin cfg2.N) : ((cfg2.win 7).blk t).view.read (Elt F) A = A := by
  have e : ∀ t : Fin cfg2.N, win2_7.index t (0 : Fin 2) = 0 ∧ win2_7.index t (1 : Fin 2) = 0 :=
    (by decide +kernel : ∀ t : Fin grid2.N, _)
  obtain ⟨e0, e1⟩ := e t
  funext y
  show A (((cfg2.win 7).blk t).view.emb y) = A y
  congr 1
  funext a; apply Fin.ext
  match a with
  | ⟨0, _⟩ => show win2_7.index t (0 : Fin 2) * 4608 + 1 * (y 0).val = (y 0).val; omega
  | ⟨1, _⟩ => show win2_7.index t (1 : Fin 2) * 128 + 1 * (y 1).val = (y 1).val; omega

theorem blkW2_8 (A : Vec F S128x128 .f32) (t : Fin cfg2.N) : ((cfg2.win 8).blk t).view.read (Elt F) A = A := by
  have e : ∀ t : Fin cfg2.N, win2_8.index t (0 : Fin 2) = 0 ∧ win2_8.index t (1 : Fin 2) = 0 :=
    (by decide +kernel : ∀ t : Fin grid2.N, _)
  obtain ⟨e0, e1⟩ := e t
  funext y
  show A (((cfg2.win 8).blk t).view.emb y) = A y
  congr 1
  funext a; apply Fin.ext
  match a with
  | ⟨0, _⟩ => show win2_8.index t (0 : Fin 2) * 128 + 1 * (y 0).val = (y 0).val; omega
  | ⟨1, _⟩ => show win2_8.index t (1 : Fin 2) * 128 + 1 * (y 1).val = (y 1).val; omega

theorem blkW2_9 (A : Vec F S1x128 .f32) (t : Fin cfg2.N) : ((cfg2.win 9).blk t).view.read (Elt F) A = A := by
  have e : ∀ t : Fin cfg2.N, win2_9.index t (0 : Fin 2) = 0 ∧ win2_9.index t (1 : Fin 2) = 0 :=
    (by decide +kernel : ∀ t : Fin grid2.N, _)
  obtain ⟨e0, e1⟩ := e t
  funext y
  show A (((cfg2.win 9).blk t).view.emb y) = A y
  congr 1
  funext a; apply Fin.ext
  match a with
  | ⟨0, _⟩ => show win2_9.index t (0 : Fin 2) * 1 + 1 * (y 0).val = (y 0).val; omega
  | ⟨1, _⟩ => show win2_9.index t (1 : Fin 2) * 128 + 1 * (y 1).val = (y 1).val; omega

theorem blkW2_10 (A : Vec F S128x128 .bf16) (t : Fin cfg2.N) : ((cfg2.win 10).blk t).view.read (Elt F) A = A := by
  have e : ∀ t : Fin cfg2.N, win2_10.index t (0 : Fin 2) = 0 ∧ win2_10.index t (1 : Fin 2) = 0 :=
    (by decide +kernel : ∀ t : Fin grid2.N, _)
  obtain ⟨e0, e1⟩ := e t
  funext y
  show A (((cfg2.win 10).blk t).view.emb y) = A y
  congr 1
  funext a; apply Fin.ext
  match a with
  | ⟨0, _⟩ => show win2_10.index t (0 : Fin 2) * 128 + 1 * (y 0).val = (y 0).val; omega
  | ⟨1, _⟩ => show win2_10.index t (1 : Fin 2) * 128 + 1 * (y 1).val = (y 1).val; omega

theorem blkW2_11 (A : Vec F S128x128 .bf16) (t : Fin cfg2.N) : ((cfg2.win 11).blk t).view.read (Elt F) A = A := by
  have e : ∀ t : Fin cfg2.N, win2_11.index t (0 : Fin 2) = 0 ∧ win2_11.index t (1 : Fin 2) = 0 :=
    (by decide +kernel : ∀ t : Fin grid2.N, _)
  obtain ⟨e0, e1⟩ := e t
  funext y
  show A (((cfg2.win 11).blk t).view.emb y) = A y
  congr 1
  funext a; apply Fin.ext
  match a with
  | ⟨0, _⟩ => show win2_11.index t (0 : Fin 2) * 128 + 1 * (y 0).val = (y 0).val; omega
  | ⟨1, _⟩ => show win2_11.index t (1 : Fin 2) * 128 + 1 * (y 1).val = (y 1).val; omega

theorem blkW2_12 (A : Vec F S1x128 .f32) (t : Fin cfg2.N) : ((cfg2.win 12).blk t).view.read (Elt F) A = A := by
  have e : ∀ t : Fin cfg2.N, win2_12.index t (0 : Fin 2) = 0 ∧ win2_12.index t (1 : Fin 2) = 0 :=
    (by decide +kernel : ∀ t : Fin grid2.N, _)
  obtain ⟨e0, e1⟩ := e t
  funext y
  show A (((cfg2.win 12).blk t).view.emb y) = A y
  congr 1
  funext a; apply Fin.ext
  match a with
  | ⟨0, _⟩ => show win2_12.index t (0 : Fin 2) * 1 + 1 * (y 0).val = (y 0).val; omega
  | ⟨1, _⟩ => show win2_12.index t (1 : Fin 2) * 128 + 1 * (y 1).val = (y 1).val; omega

theorem blkW2_13 (A : Vec F S128x128 .f32) (t : Fin cfg2.N) : ((cfg2.win 13).blk t).view.read (Elt F) A = A := by
  have e : ∀ t : Fin cfg2.N, win2_13.index t (0 : Fin 2) = 0 ∧ win2_13.index t (1 : Fin 2) = 0 :=
    (by decide +kernel : ∀ t : Fin grid2.N, _)
  obtain ⟨e0, e1⟩ := e t
  funext y
  show A (((cfg2.win 13).blk t).view.emb y) = A y
  congr 1
  funext a; apply Fin.ext
  match a with
  | ⟨0, _⟩ => show win2_13.index t (0 : Fin 2) * 128 + 1 * (y 0).val = (y 0).val; omega
  | ⟨1, _⟩ => show win2_13.index t (1 : Fin 2) * 128 + 1 * (y 1).val = (y 1).val; omega

theorem blkW2_14 (A : Vec F S1x128 .f32) (t : Fin cfg2.N) : ((cfg2.win 14).blk t).view.read (Elt F) A = A := by
  have e : ∀ t : Fin cfg2.N, win2_14.index t (0 : Fin 2) = 0 ∧ win2_14.index t (1 : Fin 2) = 0 :=
    (by decide +kernel : ∀ t : Fin grid2.N, _)
  obtain ⟨e0, e1⟩ := e t
  funext y
  show A (((cfg2.win 14).blk t).view.emb y) = A y
  congr 1
  funext a; apply Fin.ext
  match a with
  | ⟨0, _⟩ => show win2_14.index t (0 : Fin 2) * 1 + 1 * (y 0).val = (y 0).val; omega
  | ⟨1, _⟩ => show win2_14.index t (1 : Fin 2) * 128 + 1 * (y 1).val = (y 1).val; omega

theorem blkW2_15 (A : Vec F S128x512 .bf16) (t : Fin cfg2.N) : ((cfg2.win 15).blk t).view.read (Elt F) A = A := by
  have e : ∀ t : Fin cfg2.N, win2_15.index t (0 : Fin 2) = 0 ∧ win2_15.index t (1 : Fin 2) = 0 :=
    (by decide +kernel : ∀ t : Fin grid2.N, _)
  obtain ⟨e0, e1⟩ := e t
  funext y
  show A (((cfg2.win 15).blk t).view.emb y) = A y
  congr 1
  funext a; apply Fin.ext
  match a with
  | ⟨0, _⟩ => show win2_15.index t (0 : Fin 2) * 128 + 1 * (y 0).val = (y 0).val; omega
  | ⟨1, _⟩ => show win2_15.index t (1 : Fin 2) * 512 + 1 * (y 1).val = (y 1).val; omega

theorem blkW2_16 (A : Vec F S1x512 .f32) (t : Fin cfg2.N) : ((cfg2.win 16).blk t).view.read (Elt F) A = A := by
  have e : ∀ t : Fin cfg2.N, win2_16.index t (0 : Fin 2) = 0 ∧ win2_16.index t (1 : Fin 2) = 0 :=
    (by decide +kernel : ∀ t : Fin grid2.N, _)
  obtain ⟨e0, e1⟩ := e t
  funext y
  show A (((cfg2.win 16).blk t).view.emb y) = A y
  congr 1
  funext a; apply Fin.ext
  match a with
  | ⟨0, _⟩ => show win2_16.index t (0 : Fin 2) * 1 + 1 * (y 0).val = (y 0).val; omega
  | ⟨1, _⟩ => show win2_16.index t (1 : Fin 2) * 512 + 1 * (y 1).val = (y 1).val; omega

theorem blkW2_17 (A : Vec F S512x128 .bf16) (t : Fin cfg2.N) : ((cfg2.win 17).blk t).view.read (Elt F) A = A := by
  have e : ∀ t : Fin cfg2.N, win2_17.index t (0 : Fin 2) = 0 ∧ win2_17.index t (1 : Fin 2) = 0 :=
    (by decide +kernel : ∀ t : Fin grid2.N, _)
  obtain ⟨e0, e1⟩ := e t
  funext y
  show A (((cfg2.win 17).blk t).view.emb y) = A y
  congr 1
  funext a; apply Fin.ext
  match a with
  | ⟨0, _⟩ => show win2_17.index t (0 : Fin 2) * 512 + 1 * (y 0).val = (y 0).val; omega
  | ⟨1, _⟩ => show win2_17.index t (1 : Fin 2) * 128 + 1 * (y 1).val = (y 1).val; omega

theorem blkW2_18 (A : Vec F S1x128 .f32) (t : Fin cfg2.N) : ((cfg2.win 18).blk t).view.read (Elt F) A = A := by
  have e : ∀ t : Fin cfg2.N, win2_18.index t (0 : Fin 2) = 0 ∧ win2_18.index t (1 : Fin 2) = 0 :=
    (by decide +kernel : ∀ t : Fin grid2.N, _)
  obtain ⟨e0, e1⟩ := e t
  funext y
  show A (((cfg2.win 18).blk t).view.emb y) = A y
  congr 1
  funext a; apply Fin.ext
  match a with
  | ⟨0, _⟩ => show win2_18.index t (0 : Fin 2) * 1 + 1 * (y 0).val = (y 0).val; omega
  | ⟨1, _⟩ => show win2_18.index t (1 : Fin 2) * 128 + 1 * (y 1).val = (y 1).val; omega

theorem blkW2_19 (A : Vec F S1x128 .f32) (t : Fin cfg2.N) : ((cfg2.win 19).blk t).view.read (Elt F) A = A := by
  have e : ∀ t : Fin cfg2.N, win2_19.index t (0 : Fin 2) = 0 ∧ win2_19.index t (1 : Fin 2) = 0 :=
    (by decide +kernel : ∀ t : Fin grid2.N, _)
  obtain ⟨e0, e1⟩ := e t
  funext y
  show A (((cfg2.win 19).blk t).view.emb y) = A y
  congr 1
  funext a; apply Fin.ext
  match a with
  | ⟨0, _⟩ => show win2_19.index t (0 : Fin 2) * 1 + 1 * (y 0).val = (y 0).val; omega
  | ⟨1, _⟩ => show win2_19.index t (1 : Fin 2) * 128 + 1 * (y 1).val = (y 1).val; omega

theorem blkW2_20 (A : Vec F S1x128 .f32) (t : Fin cfg2.N) : ((cfg2.win 20).blk t).view.read (Elt F) A = A := by
  have e : ∀ t : Fin cfg2.N, win2_20.index t (0 : Fin 2) = 0 ∧ win2_20.index t (1 : Fin 2) = 0 :=
    (by decide +kernel : ∀ t : Fin grid2.N, _)
  obtain ⟨e0, e1⟩ := e t
  funext y
  show A (((cfg2.win 20).blk t).view.emb y) = A y
  congr 1
  funext a; apply Fin.ext
  match a with
  | ⟨0, _⟩ => show win2_20.index t (0 : Fin 2) * 1 + 1 * (y 0).val = (y 0).val; omega
  | ⟨1, _⟩ => show win2_20.index t (1 : Fin 2) * 128 + 1 * (y 1).val = (y 1).val; omega

theorem blkW2_21 (A : Vec F S1x128 .f32) (t : Fin cfg2.N) : ((cfg2.win 21).blk t).view.read (Elt F) A = A := by
  have e : ∀ t : Fin cfg2.N, win2_21.index t (0 : Fin 2) = 0 ∧ win2_21.index t (1 : Fin 2) = 0 :=
    (by decide +kernel : ∀ t : Fin grid2.N, _)
  obtain ⟨e0, e1⟩ := e t
  funext y
  show A (((cfg2.win 21).blk t).view.emb y) = A y
  congr 1
  funext a; apply Fin.ext
  match a with
  | ⟨0, _⟩ => show win2_21.index t (0 : Fin 2) * 1 + 1 * (y 0).val = (y 0).val; omega
  | ⟨1, _⟩ => show win2_21.index t (1 : Fin 2) * 128 + 1 * (y 1).val = (y 1).val; omega

theorem blkW2_22 (A : Vec F S1x128 .f32) (t : Fin cfg2.N) : ((cfg2.win 22).blk t).view.read (Elt F) A = A := by
  have e : ∀ t : Fin cfg2.N, win2_22.index t (0 : Fin 2) = 0 ∧ win2_22.index t (1 : Fin 2) = 0 :=
    (by decide +kernel : ∀ t : Fin grid2.N, _)
  obtain ⟨e0, e1⟩ := e t
  funext y
  show A (((cfg2.win 22).blk t).view.emb y) = A y
  congr 1
  funext a; apply Fin.ext
  match a with
  | ⟨0, _⟩ => show win2_22.index t (0 : Fin 2) * 1 + 1 * (y 0).val = (y 0).val; omega
  | ⟨1, _⟩ => show win2_22.index t (1 : Fin 2) * 128 + 1 * (y 1).val = (y 1).val; omega

/-- The node-feature block of point `t` read at (0, r, j): the array at (batch, node, j). -/
theorem blk2_0_apply (A : Vec F S4x1024x128 .f32) (t : Fin cfg2.N) (bl : Fin 2) (tl : Fin 8) (ht : t.val = bl.val * 8 + tl.val) (r j : Fin 128) (b : Fin 4) (n : Fin 1024)
    (hb : b.val = 0 + bl.val) (hn : n.val = tl.val * 128 + r.val) :
    ((cfg2.win 0).blk t).view.read (Elt F) A (ix3 0 r j) = A (ix3 b n j) := by
  obtain ⟨a00, a01, a02, a10, a11, a12, a13, a20, a21, a22, a30, a31, a32, a40, a41, a42, a43, a50, a51, a52, a53⟩ := idx2_in t
  have hbl := bl.isLt; have htl := tl.isLt
  show A (((cfg2.win 0).blk t).view.emb (ix3 0 r j)) = A (ix3 b n j)
  congr 1
  funext a; apply Fin.ext
  match a with
  | ⟨0, _⟩ => show win2_0.index t (0 : Fin 3) * 1 + 1 * 0 = b.val; omega
  | ⟨1, _⟩ => show win2_0.index t (1 : Fin 3) * 128 + 1 * r.val = n.val; omega
  | ⟨2, _⟩ => show win2_0.index t (2 : Fin 3) * 128 + 1 * j.val = j.val; omega

/-- The edge-feature block read at (0, k, r, j). -/
theorem blk2_1_apply (A : Vec F S4x36x1024x128 .f32) (t : Fin cfg2.N) (bl : Fin 2) (tl : Fin 8) (ht : t.val = bl.val * 8 + tl.val) (k : Fin 36) (r j : Fin 128) (b : Fin 4) (n : Fin 1024)
    (hb : b.val = 0 + bl.val) (hn : n.val = tl.val * 128 + r.val) :
    ((cfg2.win 1).blk t).view.read (Elt F) A (ix4 0 k r j) = A (ix4 b k n j) := by
  obtain ⟨a00, a01, a02, a10, a11, a12, a13, a20, a21, a22, a30, a31, a32, a40, a41, a42, a43, a50, a51, a52, a53⟩ := idx2_in t
  have hbl := bl.isLt; have htl := tl.isLt
  show A (((cfg2.win 1).blk t).view.emb (ix4 0 k r j)) = A (ix4 b k n j)
  congr 1
  funext a; apply Fin.ext
  match a with
  | ⟨0, _⟩ => show win2_1.index t (0 : Fin 4) * 1 + 1 * 0 = b.val; omega
  | ⟨1, _⟩ => show win2_1.index t (1 : Fin 4) * 36 + 1 * k.val = k.val; omega
  | ⟨2, _⟩ => show win2_1.index t (2 : Fin 4) * 128 + 1 * r.val = n.val; omega
  | ⟨3, _⟩ => show win2_1.index t (3 : Fin 4) * 128 + 1 * j.val = j.val; omega

/-- The gathered block read at (k, r, j): slab bl * 36 + k of the gathered rows. -/
theorem blk2_2_apply (A : Vec F S72x1024x128 .f32) (t : Fin cfg2.N) (bl : Fin 2) (tl : Fin 8) (ht : t.val = bl.val * 8 + tl.val) (k : Fin 36) (r j : Fin 128) (sl : Fin 72) (n : Fin 1024)
    (hs : sl.val = bl.val * 36 + k.val) (hn : n.val = tl.val * 128 + r.val) :
    ((cfg2.win 2).blk t).view.read (Elt F) A (ix3 k r j) = A (ix3 sl n j) := by
  obtain ⟨a00, a01, a02, a10, a11, a12, a13, a20, a21, a22, a30, a31, a32, a40, a41, a42, a43, a50, a51, a52, a53⟩ := idx2_in t
  have hbl := bl.isLt; have htl := tl.isLt
  show A (((cfg2.win 2).blk t).view.emb (ix3 k r j)) = A (ix3 sl n j)
  congr 1
  funext a; apply Fin.ext
  match a with
  | ⟨0, _⟩ => show win2_2.index t (0 : Fin 3) * 36 + 1 * k.val = sl.val; omega
  | ⟨1, _⟩ => show win2_2.index t (1 : Fin 3) * 128 + 1 * r.val = n.val; omega
  | ⟨2, _⟩ => show win2_2.index t (2 : Fin 3) * 128 + 1 * j.val = j.val; omega

/-- The attention-mask block read at (0, r, k). -/
theorem blk2_3_apply (A : Vec F S4x1024x36 .f32) (t : Fin cfg2.N) (bl : Fin 2) (tl : Fin 8) (ht : t.val = bl.val * 8 + tl.val) (r : Fin 128) (k : Fin 36) (b : Fin 4) (n : Fin 1024)
    (hb : b.val = 0 + bl.val) (hn : n.val = tl.val * 128 + r.val) :
    ((cfg2.win 3).blk t).view.read (Elt F) A (ix3 0 r k) = A (ix3 b n k) := by
  obtain ⟨a00, a01, a02, a10, a11, a12, a13, a20, a21, a22, a30, a31, a32, a40, a41, a42, a43, a50, a51, a52, a53⟩ := idx2_in t
  have hbl := bl.isLt; have htl := tl.isLt
  show A (((cfg2.win 3).blk t).view.emb (ix3 0 r k)) = A (ix3 b n k)
  congr 1
  funext a; apply Fin.ext
  match a with
  | ⟨0, _⟩ => show win2_3.index t (0 : Fin 3) * 1 + 1 * 0 = b.val; omega
  | ⟨1, _⟩ => show win2_3.index t (1 : Fin 3) * 128 + 1 * r.val = n.val; omega
  | ⟨2, _⟩ => show win2_3.index t (2 : Fin 3) * 36 + 1 * k.val = k.val; omega

/-- The relaid attention-mask block read at (0, 0, 0, jj). -/
theorem blk2_4_apply (A : Vec F S4x8x1x4608 .bf16) (t : Fin cfg2.N) (bl : Fin 2) (tl : Fin 8) (ht : t.val = bl.val * 8 + tl.val) (jj : Fin 4608) (b : Fin 4)
    (hb : b.val = 0 + bl.val) :
    ((cfg2.win 4).blk t).view.read (Elt F) A (ix4 0 0 0 jj) = A (ix4 b tl 0 jj) := by
  obtain ⟨a00, a01, a02, a10, a11, a12, a13, a20, a21, a22, a30, a31, a32, a40, a41, a42, a43, a50, a51, a52, a53⟩ := idx2_in t
  have hbl := bl.isLt; have htl := tl.isLt
  show A (((cfg2.win 4).blk t).view.emb (ix4 0 0 0 jj)) = A (ix4 b tl 0 jj)
  congr 1
  funext a; apply Fin.ext
  match a with
  | ⟨0, _⟩ => show win2_4.index t (0 : Fin 4) * 1 + 1 * 0 = b.val; omega
  | ⟨1, _⟩ => show win2_4.index t (1 : Fin 4) * 1 + 1 * 0 = tl.val; omega
  | ⟨2, _⟩ => show win2_4.index t (2 : Fin 4) * 1 + 1 * 0 = 0; omega
  | ⟨3, _⟩ => show win2_4.index t (3 : Fin 4) * 4608 + 1 * jj.val = jj.val; omega

/-- The node-mask block read at (0, 0, 0, r). -/
theorem blk2_5_apply (A : Vec F S4x8x1x128 .f32) (t : Fin cfg2.N) (bl : Fin 2) (tl : Fin 8) (ht : t.val = bl.val * 8 + tl.val) (r : Fin 128) (b : Fin 4)
    (hb : b.val = 0 + bl.val) :
    ((cfg2.win 5).blk t).view.read (Elt F) A (ix4 0 0 0 r) = A (ix4 b tl 0 r) := by
  obtain ⟨a00, a01, a02, a10, a11, a12, a13, a20, a21, a22, a30, a31, a32, a40, a41, a42, a43, a50, a51, a52, a53⟩ := idx2_in t
  have hbl := bl.isLt; have htl := tl.isLt
  show A (((cfg2.win 5).blk t).view.emb (ix4 0 0 0 r)) = A (ix4 b tl 0 r)
  congr 1
  funext a; apply Fin.ext
  match a with
  | ⟨0, _⟩ => show win2_5.index t (0 : Fin 4) * 1 + 1 * 0 = b.val; omega
  | ⟨1, _⟩ => show win2_5.index t (1 : Fin 4) * 1 + 1 * 0 = tl.val; omega
  | ⟨2, _⟩ => show win2_5.index t (2 : Fin 4) * 1 + 1 * 0 = 0; omega
  | ⟨3, _⟩ => show win2_5.index t (3 : Fin 4) * 128 + 1 * r.val = r.val; omega

/-- THE REGION'S RESULT AT AN INDEX: the specification's node function of the node's rows read off the whole operand
    arrays, when the two one-hot operands are the one-hot matrices and the relaid mask is the mask. -/
theorem regionOut2_apply (c46 : Ideal .f32) (hc : c46 = ((1 / 36 : ℝ) : EReal)) (A0 : Vec Ideal S4x1024x128 .f32) (A1 : Vec Ideal S4x36x1024x128 .f32) (A2 : Vec Ideal S72x1024x128 .f32) (A3 : Vec Ideal S4x1024x36 .f32) (A4 : Vec Ideal S4x8x1x4608 .bf16) (A5 : Vec Ideal S4x8x1x128 .f32) (A6 : Vec Ideal S128x4608 .bf16) (A7 : Vec Ideal S4608x128 .bf16) (A8 : Vec Ideal S128x128 .f32) (A9 : Vec Ideal S1x128 .f32) (A10 : Vec Ideal S128x128 .bf16) (A11 : Vec Ideal S128x128 .bf16) (A12 : Vec Ideal S1x128 .f32) (A13 : Vec Ideal S128x128 .f32) (A14 : Vec Ideal S1x128 .f32) (A15 : Vec Ideal S128x512 .bf16) (A16 : Vec Ideal S1x512 .f32) (A17 : Vec Ideal S512x128 .bf16) (A18 : Vec Ideal S1x128 .f32) (A19 : Vec Ideal S1x128 .f32) (A20 : Vec Ideal S1x128 .f32) (A21 : Vec Ideal S1x128 .f32) (A22 : Vec Ideal S1x128 .f32)
    (hA : ∀ (i : Fin 128) (jj : Fin 4608), A6 (ix2 i jj) = if i.val = jj.val % 128 then (1 : EReal) else 0)
    (hR : ∀ (jj : Fin 4608) (i : Fin 128), A7 (ix2 jj i) = if i.val = jj.val % 128 then (1 : EReal) else 0)
    (hmaf : ∀ (b : Fin 4) (tl : Fin 8) (k : Fin 36) (r : Fin 128) (n : Fin 1024), n.val = tl.val * 128 + r.val →
      A4 (ix4 b tl 0 (BodyVal.row k r)) = A3 (ix3 b n k))
    (bl : Fin 2) (b : Fin 4) (hb : b.val = 0 + bl.val) (n : Fin 1024) (h : Fin 128) :
    regionOut2 c46 A0 A1 A2 A3 A4 A5 A6 A7 A8 A9 A10 A11 A12 A13 A14 A15 A16 A17 A18 A19 A20 A21 A22 (ix3 bl n h)
      = Cert.Spec.nodeK (BodyVal.wts A8 A9 A10 A11 A12 A13 A14 A15 A16 A17 A18 A19 A20 A21 A22)
          (fun j => A0 (ix3 b n j)) (fun k j => A1 (ix4 b k n j))
          (fun k j => A2 (ix3 ⟨bl.val * 36 + k.val, by have := bl.isLt; have := k.isLt; omega⟩ n j))
          (fun k => A3 (ix3 b n k))
          (A5 (ix4 b ⟨n.val / 128, by have := n.isLt; omega⟩ 0 ⟨n.val % 128, Nat.mod_lt _ (by decide)⟩)) h := by
  have hn := n.isLt
  have tv : (pt2 (ix3 bl n h)).val = bl.val * 8 + (⟨n.val / 128, by omega⟩ : Fin 8).val := rfl
  have hnn : n.val = (⟨n.val / 128, by omega⟩ : Fin 8).val * 128 + (⟨n.val % 128, Nat.mod_lt _ (by decide)⟩ : Fin 128).val := by
    show n.val = n.val / 128 * 128 + n.val % 128; omega
  have E6 := blkW2_6 (F := Ideal) A6 (pt2 (ix3 bl n h))
  have E7 := blkW2_7 (F := Ideal) A7 (pt2 (ix3 bl n h))
  have E8 := blkW2_8 (F := Ideal) A8 (pt2 (ix3 bl n h))
  have E9 := blkW2_9 (F := Ideal) A9 (pt2 (ix3 bl n h))
  have E10 := blkW2_10 (F := Ideal) A10 (pt2 (ix3 bl n h))
  have E11 := blkW2_11 (F := Ideal) A11 (pt2 (ix3 bl n h))
  have E12 := blkW2_12 (F := Ideal) A12 (pt2 (ix3 bl n h))
  have E13 := blkW2_13 (F := Ideal) A13 (pt2 (ix3 bl n h))
  have E14 := blkW2_14 (F := Ideal) A14 (pt2 (ix3 bl n h))
  have E15 := blkW2_15 (F := Ideal) A15 (pt2 (ix3 bl n h))
  have E16 := blkW2_16 (F := Ideal) A16 (pt2 (ix3 bl n h))
  have E17 := blkW2_17 (F := Ideal) A17 (pt2 (ix3 bl n h))
  have E18 := blkW2_18 (F := Ideal) A18 (pt2 (ix3 bl n h))
  have E19 := blkW2_19 (F := Ideal) A19 (pt2 (ix3 bl n h))
  have E20 := blkW2_20 (F := Ideal) A20 (pt2 (ix3 bl n h))
  have E21 := blkW2_21 (F := Ideal) A21 (pt2 (ix3 bl n h))
  have E22 := blkW2_22 (F := Ideal) A22 (pt2 (ix3 bl n h))
  refine (BodyVal.bodyOut_apply c46 hc
      (((cfg2.win 0).blk (pt2 (ix3 bl n h))).view.read (Elt Ideal) A0)
      (((cfg2.win 1).blk (pt2 (ix3 bl n h))).view.read (Elt Ideal) A1)
      (((cfg2.win 2).blk (pt2 (ix3 bl n h))).view.read (Elt Ideal) A2)
      (((cfg2.win 3).blk (pt2 (ix3 bl n h))).view.read (Elt Ideal) A3)
      (((cfg2.win 4).blk (pt2 (ix3 bl n h))).view.read (Elt Ideal) A4)
      (((cfg2.win 5).blk (pt2 (ix3 bl n h))).view.read (Elt Ideal) A5)
      (((cfg2.win 6).blk (pt2 (ix3 bl n h))).view.read (Elt Ideal) A6)
      (((cfg2.win 7).blk (pt2 (ix3 bl n h))).view.read (Elt Ideal) A7)
      (((cfg2.win 8).blk (pt2 (ix3 bl n h))).view.read (Elt Ideal) A8)
      (((cfg2.win 9).blk (pt2 (ix3 bl n h))).view.read (Elt Ideal) A9)
      (((cfg2.win 10).blk (pt2 (ix3 bl n h))).view.read (Elt Ideal) A10)
      (((cfg2.win 11).blk (pt2 (ix3 bl n h))).view.read (Elt Ideal) A11)
      (((cfg2.win 12).blk (pt2 (ix3 bl n h))).view.read (Elt Ideal) A12)
      (((cfg2.win 13).blk (pt2 (ix3 bl n h))).view.read (Elt Ideal) A13)
      (((cfg2.win 14).blk (pt2 (ix3 bl n h))).view.read (Elt Ideal) A14)
      (((cfg2.win 15).blk (pt2 (ix3 bl n h))).view.read (Elt Ideal) A15)
      (((cfg2.win 16).blk (pt2 (ix3 bl n h))).view.read (Elt Ideal) A16)
      (((cfg2.win 17).blk (pt2 (ix3 bl n h))).view.read (Elt Ideal) A17)
      (((cfg2.win 18).blk (pt2 (ix3 bl n h))).view.read (Elt Ideal) A18)
      (((cfg2.win 19).blk (pt2 (ix3 bl n h))).view.read (Elt Ideal) A19)
      (((cfg2.win 20).blk (pt2 (ix3 bl n h))).view.read (Elt Ideal) A20)
      (((cfg2.win 21).blk (pt2 (ix3 bl n h))).view.read (Elt Ideal) A21)
      (((cfg2.win 22).blk (pt2 (ix3 bl n h))).view.read (Elt Ideal) A22)
      ?_ ?_ ?_ ⟨n.val % 128, Nat.mod_lt _ (by decide)⟩ h).trans ?_
  · intro i jj; rw [E6]; exact hA i jj
  · intro jj i; rw [E7]; exact hR jj i
  · intro k r
    rw [blk2_4_apply A4 _ bl ⟨n.val / 128, by omega⟩ tv (BodyVal.row k r) b hb,
      blk2_3_apply A3 _ bl ⟨n.val / 128, by omega⟩ tv r k b ⟨n.val / 128 * 128 + r.val, by have := r.isLt; omega⟩ hb rfl]
    exact hmaf b _ k r _ rfl
  · refine nodeK_congr h ?_ ?_ ?_ ?_ ?_ ?_
    · rw [E8, E9, E10, E11, E12, E13, E14, E15, E16, E17, E18, E19, E20, E21, E22]
    · funext j; exact blk2_0_apply A0 _ bl _ tv _ j b n hb hnn
    · funext k j; exact blk2_1_apply A1 _ bl _ tv k _ j b n hb hnn
    · funext k j; exact blk2_2_apply A2 _ bl _ tv k _ j _ n rfl hnn
    · funext k; exact blk2_3_apply A3 _ bl _ tv _ k b n hb hnn
    · exact blk2_5_apply A5 _ bl _ tv _ b hb

/-! ## The layer region of custom call 4 at an index -/

/-- The printed index maps of the tiled inputs, decided once over the grid: point `t` reads batch 2 + t / 8, node tile t % 8. -/
theorem idx4_in : ∀ t : Fin cfg4.N,
    win4_0.index t (0 : Fin 3) = 2 + t.val / 8 ∧ win4_0.index t (1 : Fin 3) = t.val % 8 ∧ win4_0.index t (2 : Fin 3) = 0
    ∧ win4_1.index t (0 : Fin 4) = 2 + t.val / 8 ∧ win4_1.index t (1 : Fin 4) = 0 ∧ win4_1.index t (2 : Fin 4) = t.val % 8 ∧ win4_1.index t (3 : Fin 4) = 0
    ∧ win4_2.index t (0 : Fin 3) = t.val / 8 ∧ win4_2.index t (1 : Fin 3) = t.val % 8 ∧ win4_2.index t (2 : Fin 3) = 0
    ∧ win4_3.index t (0 : Fin 3) = 2 + t.val / 8 ∧ win4_3.index t (1 : Fin 3) = t.val % 8 ∧ win4_3.index t (2 : Fin 3) = 0
    ∧ win4_4.index t (0 : Fin 4) = 2 + t.val / 8 ∧ win4_4.index t (1 : Fin 4) = t.val % 8 ∧ win4_4.index t (2 : Fin 4) = 0 ∧ win4_4.index t (3 : Fin 4) = 0
    ∧ win4_5.index t (0 : Fin 4) = 2 + t.val / 8 ∧ win4_5.index t (1 : Fin 4) = t.val % 8 ∧ win4_5.index t (2 : Fin 4) = 0 ∧ win4_5.index t (3 : Fin 4) = 0 :=
  (by decide +kernel : ∀ t : Fin grid4.N, _)

theorem blkW4_6 (A : Vec F S128x4608 .bf16) (t : Fin cfg4.N) : ((cfg4.win 6).blk t).view.read (Elt F) A = A := by
  have e : ∀ t : Fin cfg4.N, win4_6.index t (0 : Fin 2) = 0 ∧ win4_6.index t (1 : Fin 2) = 0 :=
    (by decide +kernel : ∀ t : Fin grid4.N, _)
  obtain ⟨e0, e1⟩ := e t
  funext y
  show A (((cfg4.win 6).blk t).view.emb y) = A y
  congr 1
  funext a; apply Fin.ext
  match a with
  | ⟨0, _⟩ => show win4_6.index t (0 : Fin 2) * 128 + 1 * (y 0).val = (y 0).val; omega
  | ⟨1, _⟩ => show win4_6.index t (1 : Fin 2) * 4608 + 1 * (y 1).val = (y 1).val; omega

theorem blkW4_7 (A : Vec F S4608x128 .bf16) (t : Fin cfg4.N) : ((cfg4.win 7).blk t).view.read (Elt F) A = A := by
  have e : ∀ t : Fin cfg4.N, win4_7.index t (0 : Fin 2) = 0 ∧ win4_7.index t (1 : Fin 2) = 0 :=
    (by decide +kernel : ∀ t : Fin grid4.N, _)
  obtain ⟨e0, e1⟩ := e t
  funext y
  show A (((cfg4.win 7).blk t).view.emb y) = A y
  congr 1
  funext a; apply Fin.ext
  match a with
  | ⟨0, _⟩ => show win4_7.index t (0 : Fin 2) * 4608 + 1 * (y 0).val = (y 0).val; omega
  | ⟨1, _⟩ => show win4_7.index t (1 : Fin 2) * 128 + 1 * (y 1).val = (y 1).val; omega

theorem blkW4_8 (A : Vec F S128x128 .f32) (t : Fin cfg4.N) : ((cfg4.win 8).blk t).view.read (Elt F) A = A := by
  have e : ∀ t : Fin cfg4.N, win4_8.index t (0 : Fin 2) = 0 ∧ win4_8.index t (1 : Fin 2) = 0 :=
    (by decide +kernel : ∀ t : Fin grid4.N, _)
  obtain ⟨e0, e1⟩ := e t
  funext y
  show A (((cfg4.win 8).blk t).view.emb y) = A y
  congr 1
  funext a; apply Fin.ext
  match a with
  | ⟨0, _⟩ => show win4_8.index t (0 : Fin 2) * 128 + 1 * (y 0).val = (y 0).val; omega
  | ⟨1, _⟩ => show win4_8.index t (1 : Fin 2) * 128 + 1 * (y 1).val = (y 1).val; omega

theorem blkW4_9 (A : Vec F S1x128 .f32) (t : Fin cfg4.N) : ((cfg4.win 9).blk t).view.read (Elt F) A = A := by
  have e : ∀ t : Fin cfg4.N, win4_9.index t (0 : Fin 2) = 0 ∧ win4_9.index t (1 : Fin 2) = 0 :=
    (by decide +kernel : ∀ t : Fin grid4.N, _)
  obtain ⟨e0, e1⟩ := e t
  funext y
  show A (((cfg4.win 9).blk t).view.emb y) = A y
  congr 1
  funext a; apply Fin.ext
  match a with
  | ⟨0, _⟩ => show win4_9.index t (0 : Fin 2) * 1 + 1 * (y 0).val = (y 0).val; omega
  | ⟨1, _⟩ => show win4_9.index t (1 : Fin 2) * 128 + 1 * (y 1).val = (y 1).val; omega

theorem blkW4_10 (A : Vec F S128x128 .bf16) (t : Fin cfg4.N) : ((cfg4.win 10).blk t).view.read (Elt F) A = A := by
  have e : ∀ t : Fin cfg4.N, win4_10.index t (0 : Fin 2) = 0 ∧ win4_10.index t (1 : Fin 2) = 0 :=
    (by decide +kernel : ∀ t : Fin grid4.N, _)
  obtain ⟨e0, e1⟩ := e t
  funext y
  show A (((cfg4.win 10).blk t).view.emb y) = A y
  congr 1
  funext a; apply Fin.ext
  match a with
  | ⟨0, _⟩ => show win4_10.index t (0 : Fin 2) * 128 + 1 * (y 0).val = (y 0).val; omega
  | ⟨1, _⟩ => show win4_10.index t (1 : Fin 2) * 128 + 1 * (y 1).val = (y 1).val; omega

theorem blkW4_11 (A : Vec F S128x128 .bf16) (t : Fin cfg4.N) : ((cfg4.win 11).blk t).view.read (Elt F) A = A := by
  have e : ∀ t : Fin cfg4.N, win4_11.index t (0 : Fin 2) = 0 ∧ win4_11.index t (1 : Fin 2) = 0 :=
    (by decide +kernel : ∀ t : Fin grid4.N, _)
  obtain ⟨e0, e1⟩ := e t
  funext y
  show A (((cfg4.win 11).blk t).view.emb y) = A y
  congr 1
  funext a; apply Fin.ext
  match a with
  | ⟨0, _⟩ => show win4_11.index t (0 : Fin 2) * 128 + 1 * (y 0).val = (y 0).val; omega
  | ⟨1, _⟩ => show win4_11.index t (1 : Fin 2) * 128 + 1 * (y 1).val = (y 1).val; omega

theorem blkW4_12 (A : Vec F S1x128 .f32) (t : Fin cfg4.N) : ((cfg4.win 12).blk t).view.read (Elt F) A = A := by
  have e : ∀ t : Fin cfg4.N, win4_12.index t (0 : Fin 2) = 0 ∧ win4_12.index t (1 : Fin 2) = 0 :=
    (by decide +kernel : ∀ t : Fin grid4.N, _)
  obtain ⟨e0, e1⟩ := e t
  funext y
  show A (((cfg4.win 12).blk t).view.emb y) = A y
  congr 1
  funext a; apply Fin.ext
  match a with
  | ⟨0, _⟩ => show win4_12.index t (0 : Fin 2) * 1 + 1 * (y 0).val = (y 0).val; omega
  | ⟨1, _⟩ => show win4_12.index t (1 : Fin 2) * 128 + 1 * (y 1).val = (y 1).val; omega

theorem blkW4_13 (A : Vec F S128x128 .f32) (t : Fin cfg4.N) : ((cfg4.win 13).blk t).view.read (Elt F) A = A := by
  have e : ∀ t : Fin cfg4.N, win4_13.index t (0 : Fin 2) = 0 ∧ win4_13.index t (1 : Fin 2) = 0 :=
    (by decide +kernel : ∀ t : Fin grid4.N, _)
  obtain ⟨e0, e1⟩ := e t
  funext y
  show A (((cfg4.win 13).blk t).view.emb y) = A y
  congr 1
  funext a; apply Fin.ext
  match a with
  | ⟨0, _⟩ => show win4_13.index t (0 : Fin 2) * 128 + 1 * (y 0).val = (y 0).val; omega
  | ⟨1, _⟩ => show win4_13.index t (1 : Fin 2) * 128 + 1 * (y 1).val = (y 1).val; omega

theorem blkW4_14 (A : Vec F S1x128 .f32) (t : Fin cfg4.N) : ((cfg4.win 14).blk t).view.read (Elt F) A = A := by
  have e : ∀ t : Fin cfg4.N, win4_14.index t (0 : Fin 2) = 0 ∧ win4_14.index t (1 : Fin 2) = 0 :=
    (by decide +kernel : ∀ t : Fin grid4.N, _)
  obtain ⟨e0, e1⟩ := e t
  funext y
  show A (((cfg4.win 14).blk t).view.emb y) = A y
  congr 1
  funext a; apply Fin.ext
  match a with
  | ⟨0, _⟩ => show win4_14.index t (0 : Fin 2) * 1 + 1 * (y 0).val = (y 0).val; omega
  | ⟨1, _⟩ => show win4_14.index t (1 : Fin 2) * 128 + 1 * (y 1).val = (y 1).val; omega

theorem blkW4_15 (A : Vec F S128x512 .bf16) (t : Fin cfg4.N) : ((cfg4.win 15).blk t).view.read (Elt F) A = A := by
  have e : ∀ t : Fin cfg4.N, win4_15.index t (0 : Fin 2) = 0 ∧ win4_15.index t (1 : Fin 2) = 0 :=
    (by decide +kernel : ∀ t : Fin grid4.N, _)
  obtain ⟨e0, e1⟩ := e t
  funext y
  show A (((cfg4.win 15).blk t).view.emb y) = A y
  congr 1
  funext a; apply Fin.ext
  match a with
  | ⟨0, _⟩ => show win4_15.index t (0 : Fin 2) * 128 + 1 * (y 0).val = (y 0).val; omega
  | ⟨1, _⟩ => show win4_15.index t (1 : Fin 2) * 512 + 1 * (y 1).val = (y 1).val; omega

theorem blkW4_16 (A : Vec F S1x512 .f32) (t : Fin cfg4.N) : ((cfg4.win 16).blk t).view.read (Elt F) A = A := by
  have e : ∀ t : Fin cfg4.N, win4_16.index t (0 : Fin 2) = 0 ∧ win4_16.index t (1 : Fin 2) = 0 :=
    (by decide +kernel : ∀ t : Fin grid4.N, _)
  obtain ⟨e0, e1⟩ := e t
  funext y
  show A (((cfg4.win 16).blk t).view.emb y) = A y
  congr 1
  funext a; apply Fin.ext
  match a with
  | ⟨0, _⟩ => show win4_16.index t (0 : Fin 2) * 1 + 1 * (y 0).val = (y 0).val; omega
  | ⟨1, _⟩ => show win4_16.index t (1 : Fin 2) * 512 + 1 * (y 1).val = (y 1).val; omega

theorem blkW4_17 (A : Vec F S512x128 .bf16) (t : Fin cfg4.N) : ((cfg4.win 17).blk t).view.read (Elt F) A = A := by
  have e : ∀ t : Fin cfg4.N, win4_17.index t (0 : Fin 2) = 0 ∧ win4_17.index t (1 : Fin 2) = 0 :=
    (by decide +kernel : ∀ t : Fin grid4.N, _)
  obtain ⟨e0, e1⟩ := e t
  funext y
  show A (((cfg4.win 17).blk t).view.emb y) = A y
  congr 1
  funext a; apply Fin.ext
  match a with
  | ⟨0, _⟩ => show win4_17.index t (0 : Fin 2) * 512 + 1 * (y 0).val = (y 0).val; omega
  | ⟨1, _⟩ => show win4_17.index t (1 : Fin 2) * 128 + 1 * (y 1).val = (y 1).val; omega

theorem blkW4_18 (A : Vec F S1x128 .f32) (t : Fin cfg4.N) : ((cfg4.win 18).blk t).view.read (Elt F) A = A := by
  have e : ∀ t : Fin cfg4.N, win4_18.index t (0 : Fin 2) = 0 ∧ win4_18.index t (1 : Fin 2) = 0 :=
    (by decide +kernel : ∀ t : Fin grid4.N, _)
  obtain ⟨e0, e1⟩ := e t
  funext y
  show A (((cfg4.win 18).blk t).view.emb y) = A y
  congr 1
  funext a; apply Fin.ext
  match a with
  | ⟨0, _⟩ => show win4_18.index t (0 : Fin 2) * 1 + 1 * (y 0).val = (y 0).val; omega
  | ⟨1, _⟩ => show win4_18.index t (1 : Fin 2) * 128 + 1 * (y 1).val = (y 1).val; omega

theorem blkW4_19 (A : Vec F S1x128 .f32) (t : Fin cfg4.N) : ((cfg4.win 19).blk t).view.read (Elt F) A = A := by
  have e : ∀ t : Fin cfg4.N, win4_19.index t (0 : Fin 2) = 0 ∧ win4_19.index t (1 : Fin 2) = 0 :=
    (by decide +kernel : ∀ t : Fin grid4.N, _)
  obtain ⟨e0, e1⟩ := e t
  funext y
  show A (((cfg4.win 19).blk t).view.emb y) = A y
  congr 1
  funext a; apply Fin.ext
  match a with
  | ⟨0, _⟩ => show win4_19.index t (0 : Fin 2) * 1 + 1 * (y 0).val = (y 0).val; omega
  | ⟨1, _⟩ => show win4_19.index t (1 : Fin 2) * 128 + 1 * (y 1).val = (y 1).val; omega

theorem blkW4_20 (A : Vec F S1x128 .f32) (t : Fin cfg4.N) : ((cfg4.win 20).blk t).view.read (Elt F) A = A := by
  have e : ∀ t : Fin cfg4.N, win4_20.index t (0 : Fin 2) = 0 ∧ win4_20.index t (1 : Fin 2) = 0 :=
    (by decide +kernel : ∀ t : Fin grid4.N, _)
  obtain ⟨e0, e1⟩ := e t
  funext y
  show A (((cfg4.win 20).blk t).view.emb y) = A y
  congr 1
  funext a; apply Fin.ext
  match a with
  | ⟨0, _⟩ => show win4_20.index t (0 : Fin 2) * 1 + 1 * (y 0).val = (y 0).val; omega
  | ⟨1, _⟩ => show win4_20.index t (1 : Fin 2) * 128 + 1 * (y 1).val = (y 1).val; omega

theorem blkW4_21 (A : Vec F S1x128 .f32) (t : Fin cfg4.N) : ((cfg4.win 21).blk t).view.read (Elt F) A = A := by
  have e : ∀ t : Fin cfg4.N, win4_21.index t (0 : Fin 2) = 0 ∧ win4_21.index t (1 : Fin 2) = 0 :=
    (by decide +kernel : ∀ t : Fin grid4.N, _)
  obtain ⟨e0, e1⟩ := e t
  funext y
  show A (((cfg4.win 21).blk t).view.emb y) = A y
  congr 1
  funext a; apply Fin.ext
  match a with
  | ⟨0, _⟩ => show win4_21.index t (0 : Fin 2) * 1 + 1 * (y 0).val = (y 0).val; omega
  | ⟨1, _⟩ => show win4_21.index t (1 : Fin 2) * 128 + 1 * (y 1).val = (y 1).val; omega

theorem blkW4_22 (A : Vec F S1x128 .f32) (t : Fin cfg4.N) : ((cfg4.win 22).blk t).view.read (Elt F) A = A := by
  have e : ∀ t : Fin cfg4.N, win4_22.index t (0 : Fin 2) = 0 ∧ win4_22.index t (1 : Fin 2) = 0 :=
    (by decide +kernel : ∀ t : Fin grid4.N, _)
  obtain ⟨e0, e1⟩ := e t
  funext y
  show A (((cfg4.win 22).blk t).view.emb y) = A y
  congr 1
  funext a; apply Fin.ext
  match a with
  | ⟨0, _⟩ => show win4_22.index t (0 : Fin 2) * 1 + 1 * (y 0).val = (y 0).val; omega
  | ⟨1, _⟩ => show win4_22.index t (1 : Fin 2) * 128 + 1 * (y 1).val = (y 1).val; omega

/-- The node-feature block of point `t` read at (0, r, j): the array at (batch, node, j). -/
theorem blk4_0_apply (A : Vec F S4x1024x128 .f32) (t : Fin cfg4.N) (bl : Fin 2) (tl : Fin 8) (ht : t.val = bl.val * 8 + tl.val) (r j : Fin 128) (b : Fin 4) (n : Fin 1024)
    (hb : b.val = 2 + bl.val) (hn : n.val = tl.val * 128 + r.val) :
    ((cfg4.win 0).blk t).view.read (Elt F) A (ix3 0 r j) = A (ix3 b n j) := by
  obtain ⟨a00, a01, a02, a10, a11, a12, a13, a20, a21, a22, a30, a31, a32, a40, a41, a42, a43, a50, a51, a52, a53⟩ := idx4_in t
  have hbl := bl.isLt; have htl := tl.isLt
  show A (((cfg4.win 0).blk t).view.emb (ix3 0 r j)) = A (ix3 b n j)
  congr 1
  funext a; apply Fin.ext
  match a with
  | ⟨0, _⟩ => show win4_0.index t (0 : Fin 3) * 1 + 1 * 0 = b.val; omega
  | ⟨1, _⟩ => show win4_0.index t (1 : Fin 3) * 128 + 1 * r.val = n.val; omega
  | ⟨2, _⟩ => show win4_0.index t (2 : Fin 3) * 128 + 1 * j.val = j.val; omega

/-- The edge-feature block read at (0, k, r, j). -/
theorem blk4_1_apply (A : Vec F S4x36x1024x128 .f32) (t : Fin cfg4.N) (bl : Fin 2) (tl : Fin 8) (ht : t.val = bl.val * 8 + tl.val) (k : Fin 36) (r j : Fin 128) (b : Fin 4) (n : Fin 1024)
    (hb : b.val = 2 + bl.val) (hn : n.val = tl.val * 128 + r.val) :
    ((cfg4.win 1).blk t).view.read (Elt F) A (ix4 0 k r j) = A (ix4 b k n j) := by
  obtain ⟨a00, a01, a02, a10, a11, a12, a13, a20, a21, a22, a30, a31, a32, a40, a41, a42, a43, a50, a51, a52, a53⟩ := idx4_in t
  have hbl := bl.isLt; have htl := tl.isLt
  show A (((cfg4.win 1).blk t).view.emb (ix4 0 k r j)) = A (ix4 b k n j)
  congr 1
  funext a; apply Fin.ext
  match a with
  | ⟨0, _⟩ => show win4_1.index t (0 : Fin 4) * 1 + 1 * 0 = b.val; omega
  | ⟨1, _⟩ => show win4_1.index t (1 : Fin 4) * 36 + 1 * k.val = k.val; omega
  | ⟨2, _⟩ => show win4_1.index t (2 : Fin 4) * 128 + 1 * r.val = n.val; omega
  | ⟨3, _⟩ => show win4_1.index t (3 : Fin 4) * 128 + 1 * j.val = j.val; omega

/-- The gathered block read at (k, r, j): slab bl * 36 + k of the gathered rows. -/
theorem blk4_2_apply (A : Vec F S72x1024x128 .f32) (t : Fin cfg4.N) (bl : Fin 2) (tl : Fin 8) (ht : t.val = bl.val * 8 + tl.val) (k : Fin 36) (r j : Fin 128) (sl : Fin 72) (n : Fin 1024)
    (hs : sl.val = bl.val * 36 + k.val) (hn : n.val = tl.val * 128 + r.val) :
    ((cfg4.win 2).blk t).view.read (Elt F) A (ix3 k r j) = A (ix3 sl n j) := by
  obtain ⟨a00, a01, a02, a10, a11, a12, a13, a20, a21, a22, a30, a31, a32, a40, a41, a42, a43, a50, a51, a52, a53⟩ := idx4_in t
  have hbl := bl.isLt; have htl := tl.isLt
  show A (((cfg4.win 2).blk t).view.emb (ix3 k r j)) = A (ix3 sl n j)
  congr 1
  funext a; apply Fin.ext
  match a with
  | ⟨0, _⟩ => show win4_2.index t (0 : Fin 3) * 36 + 1 * k.val = sl.val; omega
  | ⟨1, _⟩ => show win4_2.index t (1 : Fin 3) * 128 + 1 * r.val = n.val; omega
  | ⟨2, _⟩ => show win4_2.index t (2 : Fin 3) * 128 + 1 * j.val = j.val; omega

/-- The attention-mask block read at (0, r, k). -/
theorem blk4_3_apply (A : Vec F S4x1024x36 .f32) (t : Fin cfg4.N) (bl : Fin 2) (tl : Fin 8) (ht : t.val = bl.val * 8 + tl.val) (r : Fin 128) (k : Fin 36) (b : Fin 4) (n : Fin 1024)
    (hb : b.val = 2 + bl.val) (hn : n.val = tl.val * 128 + r.val) :
    ((cfg4.win 3).blk t).view.read (Elt F) A (ix3 0 r k) = A (ix3 b n k) := by
  obtain ⟨a00, a01, a02, a10, a11, a12, a13, a20, a21, a22, a30, a31, a32, a40, a41, a42, a43, a50, a51, a52, a53⟩ := idx4_in t
  have hbl := bl.isLt; have htl := tl.isLt
  show A (((cfg4.win 3).blk t).view.emb (ix3 0 r k)) = A (ix3 b n k)
  congr 1
  funext a; apply Fin.ext
  match a with
  | ⟨0, _⟩ => show win4_3.index t (0 : Fin 3) * 1 + 1 * 0 = b.val; omega
  | ⟨1, _⟩ => show win4_3.index t (1 : Fin 3) * 128 + 1 * r.val = n.val; omega
  | ⟨2, _⟩ => show win4_3.index t (2 : Fin 3) * 36 + 1 * k.val = k.val; omega

/-- The relaid attention-mask block read at (0, 0, 0, jj). -/
theorem blk4_4_apply (A : Vec F S4x8x1x4608 .bf16) (t : Fin cfg4.N) (bl : Fin 2) (tl : Fin 8) (ht : t.val = bl.val * 8 + tl.val) (jj : Fin 4608) (b : Fin 4)
    (hb : b.val = 2 + bl.val) :
    ((cfg4.win 4).blk t).view.read (Elt F) A (ix4 0 0 0 jj) = A (ix4 b tl 0 jj) := by
  obtain ⟨a00, a01, a02, a10, a11, a12, a13, a20, a21, a22, a30, a31, a32, a40, a41, a42, a43, a50, a51, a52, a53⟩ := idx4_in t
  have hbl := bl.isLt; have htl := tl.isLt
  show A (((cfg4.win 4).blk t).view.emb (ix4 0 0 0 jj)) = A (ix4 b tl 0 jj)
  congr 1
  funext a; apply Fin.ext
  match a with
  | ⟨0, _⟩ => show win4_4.index t (0 : Fin 4) * 1 + 1 * 0 = b.val; omega
  | ⟨1, _⟩ => show win4_4.index t (1 : Fin 4) * 1 + 1 * 0 = tl.val; omega
  | ⟨2, _⟩ => show win4_4.index t (2 : Fin 4) * 1 + 1 * 0 = 0; omega
  | ⟨3, _⟩ => show win4_4.index t (3 : Fin 4) * 4608 + 1 * jj.val = jj.val; omega

/-- The node-mask block read at (0, 0, 0, r). -/
theorem blk4_5_apply (A : Vec F S4x8x1x128 .f32) (t : Fin cfg4.N) (bl : Fin 2) (tl : Fin 8) (ht : t.val = bl.val * 8 + tl.val) (r : Fin 128) (b : Fin 4)
    (hb : b.val = 2 + bl.val) :
    ((cfg4.win 5).blk t).view.read (Elt F) A (ix4 0 0 0 r) = A (ix4 b tl 0 r) := by
  obtain ⟨a00, a01, a02, a10, a11, a12, a13, a20, a21, a22, a30, a31, a32, a40, a41, a42, a43, a50, a51, a52, a53⟩ := idx4_in t
  have hbl := bl.isLt; have htl := tl.isLt
  show A (((cfg4.win 5).blk t).view.emb (ix4 0 0 0 r)) = A (ix4 b tl 0 r)
  congr 1
  funext a; apply Fin.ext
  match a with
  | ⟨0, _⟩ => show win4_5.index t (0 : Fin 4) * 1 + 1 * 0 = b.val; omega
  | ⟨1, _⟩ => show win4_5.index t (1 : Fin 4) * 1 + 1 * 0 = tl.val; omega
  | ⟨2, _⟩ => show win4_5.index t (2 : Fin 4) * 1 + 1 * 0 = 0; omega
  | ⟨3, _⟩ => show win4_5.index t (3 : Fin 4) * 128 + 1 * r.val = r.val; omega

/-- THE REGION'S RESULT AT AN INDEX: the specification's node function of the node's rows read off the whole operand
    arrays, when the two one-hot operands are the one-hot matrices and the relaid mask is the mask. -/
theorem regionOut4_apply (c46 : Ideal .f32) (hc : c46 = ((1 / 36 : ℝ) : EReal)) (A0 : Vec Ideal S4x1024x128 .f32) (A1 : Vec Ideal S4x36x1024x128 .f32) (A2 : Vec Ideal S72x1024x128 .f32) (A3 : Vec Ideal S4x1024x36 .f32) (A4 : Vec Ideal S4x8x1x4608 .bf16) (A5 : Vec Ideal S4x8x1x128 .f32) (A6 : Vec Ideal S128x4608 .bf16) (A7 : Vec Ideal S4608x128 .bf16) (A8 : Vec Ideal S128x128 .f32) (A9 : Vec Ideal S1x128 .f32) (A10 : Vec Ideal S128x128 .bf16) (A11 : Vec Ideal S128x128 .bf16) (A12 : Vec Ideal S1x128 .f32) (A13 : Vec Ideal S128x128 .f32) (A14 : Vec Ideal S1x128 .f32) (A15 : Vec Ideal S128x512 .bf16) (A16 : Vec Ideal S1x512 .f32) (A17 : Vec Ideal S512x128 .bf16) (A18 : Vec Ideal S1x128 .f32) (A19 : Vec Ideal S1x128 .f32) (A20 : Vec Ideal S1x128 .f32) (A21 : Vec Ideal S1x128 .f32) (A22 : Vec Ideal S1x128 .f32)
    (hA : ∀ (i : Fin 128) (jj : Fin 4608), A6 (ix2 i jj) = if i.val = jj.val % 128 then (1 : EReal) else 0)
    (hR : ∀ (jj : Fin 4608) (i : Fin 128), A7 (ix2 jj i) = if i.val = jj.val % 128 then (1 : EReal) else 0)
    (hmaf : ∀ (b : Fin 4) (tl : Fin 8) (k : Fin 36) (r : Fin 128) (n : Fin 1024), n.val = tl.val * 128 + r.val →
      A4 (ix4 b tl 0 (BodyVal.row k r)) = A3 (ix3 b n k))
    (bl : Fin 2) (b : Fin 4) (hb : b.val = 2 + bl.val) (n : Fin 1024) (h : Fin 128) :
    regionOut4 c46 A0 A1 A2 A3 A4 A5 A6 A7 A8 A9 A10 A11 A12 A13 A14 A15 A16 A17 A18 A19 A20 A21 A22 (ix3 bl n h)
      = Cert.Spec.nodeK (BodyVal.wts A8 A9 A10 A11 A12 A13 A14 A15 A16 A17 A18 A19 A20 A21 A22)
          (fun j => A0 (ix3 b n j)) (fun k j => A1 (ix4 b k n j))
          (fun k j => A2 (ix3 ⟨bl.val * 36 + k.val, by have := bl.isLt; have := k.isLt; omega⟩ n j))
          (fun k => A3 (ix3 b n k))
          (A5 (ix4 b ⟨n.val / 128, by have := n.isLt; omega⟩ 0 ⟨n.val % 128, Nat.mod_lt _ (by decide)⟩)) h := by
  have hn := n.isLt
  have tv : (pt4 (ix3 bl n h)).val = bl.val * 8 + (⟨n.val / 128, by omega⟩ : Fin 8).val := rfl
  have hnn : n.val = (⟨n.val / 128, by omega⟩ : Fin 8).val * 128 + (⟨n.val % 128, Nat.mod_lt _ (by decide)⟩ : Fin 128).val := by
    show n.val = n.val / 128 * 128 + n.val % 128; omega
  have E6 := blkW4_6 (F := Ideal) A6 (pt4 (ix3 bl n h))
  have E7 := blkW4_7 (F := Ideal) A7 (pt4 (ix3 bl n h))
  have E8 := blkW4_8 (F := Ideal) A8 (pt4 (ix3 bl n h))
  have E9 := blkW4_9 (F := Ideal) A9 (pt4 (ix3 bl n h))
  have E10 := blkW4_10 (F := Ideal) A10 (pt4 (ix3 bl n h))
  have E11 := blkW4_11 (F := Ideal) A11 (pt4 (ix3 bl n h))
  have E12 := blkW4_12 (F := Ideal) A12 (pt4 (ix3 bl n h))
  have E13 := blkW4_13 (F := Ideal) A13 (pt4 (ix3 bl n h))
  have E14 := blkW4_14 (F := Ideal) A14 (pt4 (ix3 bl n h))
  have E15 := blkW4_15 (F := Ideal) A15 (pt4 (ix3 bl n h))
  have E16 := blkW4_16 (F := Ideal) A16 (pt4 (ix3 bl n h))
  have E17 := blkW4_17 (F := Ideal) A17 (pt4 (ix3 bl n h))
  have E18 := blkW4_18 (F := Ideal) A18 (pt4 (ix3 bl n h))
  have E19 := blkW4_19 (F := Ideal) A19 (pt4 (ix3 bl n h))
  have E20 := blkW4_20 (F := Ideal) A20 (pt4 (ix3 bl n h))
  have E21 := blkW4_21 (F := Ideal) A21 (pt4 (ix3 bl n h))
  have E22 := blkW4_22 (F := Ideal) A22 (pt4 (ix3 bl n h))
  refine (BodyVal.bodyOut4_apply c46 hc
      (((cfg4.win 0).blk (pt4 (ix3 bl n h))).view.read (Elt Ideal) A0)
      (((cfg4.win 1).blk (pt4 (ix3 bl n h))).view.read (Elt Ideal) A1)
      (((cfg4.win 2).blk (pt4 (ix3 bl n h))).view.read (Elt Ideal) A2)
      (((cfg4.win 3).blk (pt4 (ix3 bl n h))).view.read (Elt Ideal) A3)
      (((cfg4.win 4).blk (pt4 (ix3 bl n h))).view.read (Elt Ideal) A4)
      (((cfg4.win 5).blk (pt4 (ix3 bl n h))).view.read (Elt Ideal) A5)
      (((cfg4.win 6).blk (pt4 (ix3 bl n h))).view.read (Elt Ideal) A6)
      (((cfg4.win 7).blk (pt4 (ix3 bl n h))).view.read (Elt Ideal) A7)
      (((cfg4.win 8).blk (pt4 (ix3 bl n h))).view.read (Elt Ideal) A8)
      (((cfg4.win 9).blk (pt4 (ix3 bl n h))).view.read (Elt Ideal) A9)
      (((cfg4.win 10).blk (pt4 (ix3 bl n h))).view.read (Elt Ideal) A10)
      (((cfg4.win 11).blk (pt4 (ix3 bl n h))).view.read (Elt Ideal) A11)
      (((cfg4.win 12).blk (pt4 (ix3 bl n h))).view.read (Elt Ideal) A12)
      (((cfg4.win 13).blk (pt4 (ix3 bl n h))).view.read (Elt Ideal) A13)
      (((cfg4.win 14).blk (pt4 (ix3 bl n h))).view.read (Elt Ideal) A14)
      (((cfg4.win 15).blk (pt4 (ix3 bl n h))).view.read (Elt Ideal) A15)
      (((cfg4.win 16).blk (pt4 (ix3 bl n h))).view.read (Elt Ideal) A16)
      (((cfg4.win 17).blk (pt4 (ix3 bl n h))).view.read (Elt Ideal) A17)
      (((cfg4.win 18).blk (pt4 (ix3 bl n h))).view.read (Elt Ideal) A18)
      (((cfg4.win 19).blk (pt4 (ix3 bl n h))).view.read (Elt Ideal) A19)
      (((cfg4.win 20).blk (pt4 (ix3 bl n h))).view.read (Elt Ideal) A20)
      (((cfg4.win 21).blk (pt4 (ix3 bl n h))).view.read (Elt Ideal) A21)
      (((cfg4.win 22).blk (pt4 (ix3 bl n h))).view.read (Elt Ideal) A22)
      ?_ ?_ ?_ ⟨n.val % 128, Nat.mod_lt _ (by decide)⟩ h).trans ?_
  · intro i jj; rw [E6]; exact hA i jj
  · intro jj i; rw [E7]; exact hR jj i
  · intro k r
    rw [blk4_4_apply A4 _ bl ⟨n.val / 128, by omega⟩ tv (BodyVal.row k r) b hb,
      blk4_3_apply A3 _ bl ⟨n.val / 128, by omega⟩ tv r k b ⟨n.val / 128 * 128 + r.val, by have := r.isLt; omega⟩ hb rfl]
    exact hmaf b _ k r _ rfl
  · refine nodeK_congr h ?_ ?_ ?_ ?_ ?_ ?_
    · rw [E8, E9, E10, E11, E12, E13, E14, E15, E16, E17, E18, E19, E20, E21, E22]
    · funext j; exact blk4_0_apply A0 _ bl _ tv _ j b n hb hnn
    · funext k j; exact blk4_1_apply A1 _ bl _ tv k _ j b n hb hnn
    · funext k j; exact blk4_2_apply A2 _ bl _ tv k _ j _ n rfl hnn
    · funext k; exact blk4_3_apply A3 _ bl _ tv _ k b n hb hnn
    · exact blk4_5_apply A5 _ bl _ tv _ b hb

/-! ## The program's result at an index -/

/-- Two weight records with equal fields are equal. -/
theorem wtsK_ext (w w' : Cert.Spec.WtsK) (h1 : w.W1a = w'.W1a) (h2 : w.W1b = w'.W1b) (h3 : w.b1 = w'.b1) (h4 : w.W2 = w'.W2)
    (h5 : w.b2 = w'.b2) (h6 : w.W3 = w'.W3) (h7 : w.b3 = w'.b3) (h8 : w.Win = w'.Win) (h9 : w.bi = w'.bi) (h10 : w.Wout = w'.Wout)
    (h11 : w.bo = w'.bo) (h12 : w.g1 = w'.g1) (h13 : w.be1 = w'.be1) (h14 : w.g2 = w'.g2) (h15 : w.be2 = w'.be2) : w = w' := by
  cases w; cases w'
  simp only [Cert.Spec.WtsK.mk.injEq]
  exact ⟨h1, h2, h3, h4, h5, h6, h7, h8, h9, h10, h11, h12, h13, h14, h15⟩

/-- A word whose signed value is a node number has that node number as its unsigned value. -/
theorem toNat_of_toInt_eq (x : BitVec 32) (m : Nat) (hm : m < 1024) (h : x.toInt = (m : Int)) : x.toNat = m := by
  have hlt := x.isLt
  rw [BitVec.toInt_eq_toNat_cond] at h
  split at h <;> omega

section Result

variable (c46 : Ideal .f32) (hc : c46 = ((1 / 36 : ℝ) : EReal)) (a0 : Vec Ideal S4x1024x128 .f32) (a1 : Vec Ideal S4x1024x36x128 .f32) (a2 : Vec Ideal S4x1024x36 .i32) (a3 : Vec Ideal S4x1024 .f32) (a4 : Vec Ideal S4x1024x36 .f32) (a5 : Vec Ideal S384x128 .f32) (a6 : Vec Ideal S128 .f32) (a7 : Vec Ideal S128x128 .f32) (a8 : Vec Ideal S128 .f32) (a9 : Vec Ideal S128x128 .f32) (a10 : Vec Ideal S128 .f32) (a11 : Vec Ideal S128x512 .f32) (a12 : Vec Ideal S512 .f32) (a13 : Vec Ideal S512x128 .f32) (a14 : Vec Ideal S128 .f32) (a15 : Vec Ideal S128 .f32) (a16 : Vec Ideal S128 .f32) (a17 : Vec Ideal S128 .f32) (a18 : Vec Ideal S128 .f32)
  (idx : Fin 4 → Fin 1024 → Fin 36 → Fin 1024)
  (hidx : ∀ (b : Fin 4) (n : Fin 1024) (k : Fin 36), BitVec.toInt (a2 (ix3 b n k)) = ((idx b n k).val : Int))

/-- The weights the layer regions load are the specification's kernel weights of the arguments. -/
theorem wts_args :
    BodyVal.wts (val_v0 a5) (val_row128 a6) (val_v29 a5) (val_bf16_128x128 a7) (val_row128 a8) a9 (val_row128 a10) (val_bf16_128x512 a11) (val_row512 a12) (val_bf16_512x128 a13) (val_row128 a14) (val_row128 a15) (val_row128 a16) (val_row128 a17) (val_row128 a18)
      = Cert.Spec.wtsK (Cert.ReferenceIdeal.RefValue.argsOf a0 a1 idx a3 a4 a5 a6 a7 a8 a9 a10 a11 a12 a13 a14 a15 a16 a17 a18) := by
  refine wtsK_ext _ _ ?_ ?_ ?_ ?_ ?_ ?_ ?_ ?_ ?_ ?_ ?_ ?_ ?_ ?_ ?_
  · funext j h; exact val_v0_apply a5 j h
  · funext j h; exact val_v29_apply_ideal a5 j h
  · funext h; exact val_row128_apply a6 0 h
  · rfl
  · funext h; exact val_row128_apply a8 0 h
  · rfl
  · funext h; exact val_row128_apply a10 0 h
  · rfl
  · funext j; exact val_row512_apply a12 0 j
  · rfl
  · funext h; exact val_row128_apply a14 0 h
  · funext h; exact val_row128_apply a15 0 h
  · funext h; exact val_row128_apply a16 0 h
  · funext h; exact val_row128_apply a17 0 h
  · funext h; exact val_row128_apply a18 0 h

include hc hidx in
/-- Batches 0 and 1. -/
theorem kres_apply_lo (bl : Fin 2) (n : Fin 1024) (h : Fin 128) :
    kres c46 a0 a1 a2 a3 a4 a5 a6 a7 a8 a9 a10 a11 a12 a13 a14 a15 a16 a17 a18 (ix3 ⟨bl.val, by omega⟩ n h)
      = Cert.Spec.outK (Cert.ReferenceIdeal.RefValue.argsOf a0 a1 idx a3 a4 a5 a6 a7 a8 a9 a10 a11 a12 a13 a14 a15 a16 a17 a18) ⟨bl.val, by omega⟩ n h := by
  have hbl := bl.isLt
  unfold kres
  rw [val_v61_apply_lo _ _ _ n h (show (⟨bl.val, by omega⟩ : Fin 4).val < 2 from hbl)]
  unfold half0
  refine (regionOut2_apply c46 hc a0 (val_v3 a1) (val_v26 (gath0 a0 a2 a5)) a4 (val_v10 a4) (val_v27 a3)
      (val_v19 (F := Ideal)) (val_v20 (F := Ideal)) (val_v0 a5) (val_row128 a6) (val_v29 a5) (val_bf16_128x128 a7) (val_row128 a8) a9 (val_row128 a10)
      (val_bf16_128x512 a11) (val_row512 a12) (val_bf16_512x128 a13) (val_row128 a14) (val_row128 a15) (val_row128 a16) (val_row128 a17) (val_row128 a18)
    (fun i jj => val_v19_apply_ideal i jj) (fun jj i => val_v20_apply_ideal jj i)
    (fun b tl k r n hn => val_v10_apply_ideal a4 b tl 0 (BodyVal.row k r) k r n (BodyVal.row_val k r) hn)
    bl ⟨bl.val, by omega⟩ (by show bl.val = 0 + bl.val; omega) n h).trans ?_
  unfold Cert.Spec.outK
  refine nodeK_congr h (wts_args a0 a1 a3 a4 a5 a6 a7 a8 a9 a10 a11 a12 a13 a14 a15 a16 a17 a18 idx) ?_ ?_ ?_ ?_ ?_
  · rfl
  · funext k j; exact val_v3_apply a1 _ k n j
  · funext k j
    rw [val_v26_at_slab _ bl k n j]
    exact gathered_apply_ideal_lo a0 a2 a5 bl k n j ⟨(bl.val * 36 + k.val) * 1024 + n.val, by omega⟩ rfl (idx ⟨bl.val, by omega⟩ n k)
      (toNat_of_toInt_eq _ _ (idx ⟨bl.val, by omega⟩ n k).isLt (hidx ⟨bl.val, by omega⟩ n k))
  · rfl
  · exact val_v27_at_node a3 _ n

include hc hidx in
/-- Batches 2 and 3. -/
theorem kres_apply_hi (bl : Fin 2) (n : Fin 1024) (h : Fin 128) :
    kres c46 a0 a1 a2 a3 a4 a5 a6 a7 a8 a9 a10 a11 a12 a13 a14 a15 a16 a17 a18 (ix3 ⟨2 + bl.val, by omega⟩ n h)
      = Cert.Spec.outK (Cert.ReferenceIdeal.RefValue.argsOf a0 a1 idx a3 a4 a5 a6 a7 a8 a9 a10 a11 a12 a13 a14 a15 a16 a17 a18) ⟨2 + bl.val, by omega⟩ n h := by
  have hbl := bl.isLt
  unfold kres
  rw [val_v61_apply_hi _ _ _ n h (show 2 ≤ (⟨2 + bl.val, by omega⟩ : Fin 4).val from Nat.le_add_right 2 bl.val)]
  have key : ∀ bb : Fin 2, bl = bb →
      half1 c46 a0 a1 a2 a3 a4 a5 a6 a7 a8 a9 a10 a11 a12 a13 a14 a15 a16 a17 a18 (ix3 bb n h)
        = Cert.Spec.outK (Cert.ReferenceIdeal.RefValue.argsOf a0 a1 idx a3 a4 a5 a6 a7 a8 a9 a10 a11 a12 a13 a14 a15 a16 a17 a18) ⟨2 + bl.val, by omega⟩ n h := by
    intro bb e; subst e
    unfold half1
    refine (regionOut4_apply c46 hc a0 (val_v3 a1) (val_v26 (gath1 a0 a2 a5)) a4 (val_v10 a4) (val_v27 a3)
      (val_v19 (F := Ideal)) (val_v20 (F := Ideal)) (val_v0 a5) (val_row128 a6) (val_v29 a5) (val_bf16_128x128 a7) (val_row128 a8) a9 (val_row128 a10)
      (val_bf16_128x512 a11) (val_row512 a12) (val_bf16_512x128 a13) (val_row128 a14) (val_row128 a15) (val_row128 a16) (val_row128 a17) (val_row128 a18)
      (fun i jj => val_v19_apply_ideal i jj) (fun jj i => val_v20_apply_ideal jj i)
      (fun b tl k r n hn => val_v10_apply_ideal a4 b tl 0 (BodyVal.row k r) k r n (BodyVal.row_val k r) hn)
      bl ⟨2 + bl.val, by omega⟩ (by show 2 + bl.val = 2 + bl.val; omega) n h).trans ?_
    unfold Cert.Spec.outK
    refine nodeK_congr h (wts_args a0 a1 a3 a4 a5 a6 a7 a8 a9 a10 a11 a12 a13 a14 a15 a16 a17 a18 idx) ?_ ?_ ?_ ?_ ?_
    · rfl
    · funext k j; exact val_v3_apply a1 _ k n j
    · funext k j
      rw [val_v26_at_slab _ bl k n j]
      exact gathered_apply_ideal_hi a0 a2 a5 bl k n j ⟨(bl.val * 36 + k.val) * 1024 + n.val, by omega⟩ rfl (idx ⟨2 + bl.val, by omega⟩ n k)
        (toNat_of_toInt_eq _ _ (idx ⟨2 + bl.val, by omega⟩ n k).isLt (hidx ⟨2 + bl.val, by omega⟩ n k))
    · rfl
    · exact val_v27_at_node a3 _ n
  exact key _ (Fin.ext (by show bl.val = 2 + bl.val - 2; omega))

include hc hidx in
/-- THE PROGRAM'S RESULT AT AN INDEX is the specification's kernel arrangement of the argument arrays. -/
theorem kres_apply (b : Fin 4) (n : Fin 1024) (h : Fin 128) :
    kres c46 a0 a1 a2 a3 a4 a5 a6 a7 a8 a9 a10 a11 a12 a13 a14 a15 a16 a17 a18 (ix3 b n h)
      = Cert.Spec.outK (Cert.ReferenceIdeal.RefValue.argsOf a0 a1 idx a3 a4 a5 a6 a7 a8 a9 a10 a11 a12 a13 a14 a15 a16 a17 a18) b n h := by
  match b with
  | ⟨0, _⟩ => exact kres_apply_lo c46 hc a0 a1 a2 a3 a4 a5 a6 a7 a8 a9 a10 a11 a12 a13 a14 a15 a16 a17 a18 idx hidx (0 : Fin 2) n h
  | ⟨1, _⟩ => exact kres_apply_lo c46 hc a0 a1 a2 a3 a4 a5 a6 a7 a8 a9 a10 a11 a12 a13 a14 a15 a16 a17 a18 idx hidx (1 : Fin 2) n h
  | ⟨2, _⟩ => exact kres_apply_hi c46 hc a0 a1 a2 a3 a4 a5 a6 a7 a8 a9 a10 a11 a12 a13 a14 a15 a16 a17 a18 idx hidx (0 : Fin 2) n h
  | ⟨3, _⟩ => exact kres_apply_hi c46 hc a0 a1 a2 a3 a4 a5 a6 a7 a8 a9 a10 a11 a12 a13 a14 a15 a16 a17 a18 idx hidx (1 : Fin 2) n h

end Result

end Cert.KernelIdeal.KValue

end
-- ==== Proof.KFinal.lean ====
/-
  The kernel program's result is the specification's layer, on arguments that meet the precondition: the decoded
  precondition makes every float argument entry a real number and every neighbour index a node number; the
  kernel's arrangement then equals the reference's.
-/
import proofs.«215572_g25211458027672_cont_9to1_2008_46_alg».proof.Proof.KValue
import proofs.«215572_g25211458027672_cont_9to1_2008_46_alg».proof.Proof.PreDecode
import proofs.«215572_g25211458027672_cont_9to1_2008_46_alg».proof.Proof.SpecLaws

noncomputable section

namespace Cert.KernelIdeal.KValue

open Cert.KernelIdeal Cert.KernelIdeal.Gen Cert.KernelIdeal.HostVal
open Idealize.ShloMosaic Idealize.ShloMosaic.ValueIdx

variable [Cert.Pre_input_domain.Facts]

section Final

variable (a0 : Vec Ideal S4x1024x128 .f32) (a1 : Vec Ideal S4x1024x36x128 .f32) (a2 : Vec Ideal S4x1024x36 .i32) (a3 : Vec Ideal S4x1024 .f32) (a4 : Vec Ideal S4x1024x36 .f32) (a5 : Vec Ideal S384x128 .f32) (a6 : Vec Ideal S128 .f32) (a7 : Vec Ideal S128x128 .f32) (a8 : Vec Ideal S128 .f32) (a9 : Vec Ideal S128x128 .f32) (a10 : Vec Ideal S128 .f32) (a11 : Vec Ideal S128x512 .f32) (a12 : Vec Ideal S512 .f32) (a13 : Vec Ideal S512x128 .f32) (a14 : Vec Ideal S128 .f32) (a15 : Vec Ideal S128 .f32) (a16 : Vec Ideal S128 .f32) (a17 : Vec Ideal S128 .f32) (a18 : Vec Ideal S128 .f32)
  (hpre : Cert.Pre_input_domain.fn (F := Ideal) a0 a1 a2 a3 a4 a5 a6 a7 a8 a9 a10 a11 a12 a13 a14 a15 a16 a17 a18 = (fun _ => 1#1))

include hpre in
/-- Under the precondition every neighbour index reads, signed, as its decoded node number. -/
theorem hidx_of_pre (b : Fin 4) (n : Fin 1024) (k : Fin 36) :
    BitVec.toInt (a2 (ix3 b n k)) = ((Cert.ReferenceIdeal.RefValue.decIdx a2 b n k).val : Int) :=
  Cert.ReferenceIdeal.RefValue.toInt_eq_decIdx a2 b n k (Cert.PreDecode.idx_range hpre (ix3 b n k)).1
    (Cert.PreDecode.idx_range hpre (ix3 b n k)).2

include hpre in
/-- Under the precondition the specification's arguments are finite. -/
theorem argsOf_finite (idx : Fin 4 → Fin 1024 → Fin 36 → Fin 1024) :
    (Cert.ReferenceIdeal.RefValue.argsOf a0 a1 idx a3 a4 a5 a6 a7 a8 a9 a10 a11 a12 a13 a14 a15 a16 a17 a18).Finite where
  hV := fun b n j => Cert.PreDecode.real_0 hpre (ix3 b n j)
  hE := fun b n k j => Cert.PreDecode.real_1 hpre (ix4 b n k j)
  mV := fun b n => Cert.PreDecode.real_3 hpre (ix2 b n)
  mA := fun b n k => Cert.PreDecode.real_4 hpre (ix3 b n k)
  W1 := fun i j => Cert.PreDecode.real_5 hpre (ix2 i j)
  b1 := fun j => Cert.PreDecode.real_6 hpre (ix1 j)
  W2 := fun i j => Cert.PreDecode.real_7 hpre (ix2 i j)
  b2 := fun j => Cert.PreDecode.real_8 hpre (ix1 j)
  W3 := fun i j => Cert.PreDecode.real_9 hpre (ix2 i j)
  b3 := fun j => Cert.PreDecode.real_10 hpre (ix1 j)
  Win := fun i j => Cert.PreDecode.real_11 hpre (ix2 i j)
  bi := fun j => Cert.PreDecode.real_12 hpre (ix1 j)
  Wout := fun i j => Cert.PreDecode.real_13 hpre (ix2 i j)
  bo := fun j => Cert.PreDecode.real_14 hpre (ix1 j)
  g1 := fun j => Cert.PreDecode.real_15 hpre (ix1 j)
  be1 := fun j => Cert.PreDecode.real_16 hpre (ix1 j)
  g2 := fun j => Cert.PreDecode.real_17 hpre (ix1 j)
  be2 := fun j => Cert.PreDecode.real_18 hpre (ix1 j)

include hpre in
/-- THE KERNEL PROGRAM'S RESULT IS THE SPECIFICATION'S LAYER of the argument arrays, at every index. -/
theorem kres_eq_out (c46 : Ideal .f32) (hc : c46 = ((1 / 36 : ℝ) : EReal)) (b : Fin 4) (n : Fin 1024) (h : Fin 128) :
    kres c46 a0 a1 a2 a3 a4 a5 a6 a7 a8 a9 a10 a11 a12 a13 a14 a15 a16 a17 a18 (ix3 b n h)
      = Cert.Spec.out (Cert.ReferenceIdeal.RefValue.argsOf a0 a1 (Cert.ReferenceIdeal.RefValue.decIdx a2) a3 a4 a5 a6 a7 a8 a9 a10 a11 a12 a13
          a14 a15 a16 a17 a18) b n h := by
  rw [kres_apply c46 hc a0 a1 a2 a3 a4 a5 a6 a7 a8 a9 a10 a11 a12 a13 a14 a15 a16 a17 a18 (Cert.ReferenceIdeal.RefValue.decIdx a2) (hidx_of_pre a0 a1 a2 a3 a4 a5 a6 a7 a8 a9 a10 a11 a12 a13 a14 a15 a16 a17 a18 hpre) b n h]
  exact Cert.Spec.outK_eq_out _ (argsOf_finite a0 a1 a2 a3 a4 a5 a6 a7 a8 a9 a10 a11 a12 a13 a14 a15 a16 a17 a18 hpre _) b n h

end Final

end Cert.KernelIdeal.KValue

end
-- ==== Proof.KPay.lean ====
/-
  What the handshakes of the two gather calls carry: per call and SparseCore, its sixteen tasks' resources; per task,
  a read share of the projected array, its slab of the index array and its rows of the result, the rows coming back
  at the gathered values. The contents the calls see are parameters.
-/
import proofs.«215572_g25211458027672_cont_9to1_2008_46_alg».proof.Proof.KSetup

noncomputable section

namespace Cert.KernelIdeal.KPay

open Cert.KernelIdeal Cert.KernelIdeal.Gen Cert.KernelIdeal.KS

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

local notation "iV" => (Memref.whole Cert.KernelIdeal.main_v24_scv : Memref Cert.KernelIdeal.sig Kind.scVector Space.hbm Cert.KernelIdeal.S32x18x128 EltTy.i32)
local notation "oV" => (Memref.whole Cert.KernelIdeal.main_v25_scv : Memref Cert.KernelIdeal.sig Kind.scVector Space.hbm Cert.KernelIdeal.S73728x128 EltTy.f32)

theorem idiv : 32 ∣ S32x18x128.size 0 := ⟨1, rfl⟩
theorem odiv : 32 ∣ S73728x128.size 0 := ⟨2304, rfl⟩
/-- Slab w of an index array and rows [2304 w, 2304 w + 2304) of a result. -/
abbrev irow (w : Fin 32) : Rect S32x18x128 := Rect.part (s := S32x18x128) (a₀ := 0) idiv w
abbrev orow (w : Fin 32) : Rect S73728x128 := Rect.part (s := S73728x128) (a₀ := 0) odiv w
abbrev iSet (w : Fin 32) : Finset S32x18x128.Idx := ((iV).view.slice (irow w)).set
abbrev oSet (w : Fin 32) : Finset S73728x128.Idx := ((oV).view.slice (orow w)).set

/-- The task number of vector subcore i of SparseCore c: 2 i + c. -/
def wid (q : Fin 2) (c : Fin ((K (F := F)).nCore q)) (i : Fin ((K (F := F)).nSub q)) : Fin 32 :=
  ⟨2 * i.val + c.val, by
    have hc := c.isLt; have hi := i.isLt; have e1 := nCore_eq (F := F) q; have e2 := nSub_eq (F := F) q; omega⟩

/-- Task w's read share of the projected array: the w-th of 32 read tokens of the full share. -/
abbrev xq (w : Fin 32) : PosShare TreeShare := Transfers.shareTok fullShare 32 w

/-- The contents the two calls see, per device: the projected array, the call's index array, the call's result's prior
    contents (call 0: main_v22, main_v24, main_v25; call 1: main_v22, main_v43, main_v44). -/
structure CallData (F : FTy → Type) where
  p0 : (d : Dev nD) → Buf (Elt F) (pLoc d)
  ix0 : (d : Dev nD) → Buf (Elt F) (i0Loc d)
  fo0 : (d : Dev nD) → Buf (Elt F) (g0Loc d)
  p1 : (d : Dev nD) → Buf (Elt F) (pLoc d)
  ix1 : (d : Dev nD) → Buf (Elt F) (i1Loc d)
  fo1 : (d : Dev nD) → Buf (Elt F) (g1Loc d)

/-- The gathered results. -/
def gat0 (X : CallData F) (d : Dev nD) : Buf (Elt F) (g0Loc d) := gatherVal 0 (X.p0 d) (X.ix0 d)
def gat1 (X : CallData F) (d : Dev nD) : Buf (Elt F) (g1Loc d) := gatherVal 2 (X.p1 d) (X.ix1 d)

/-- One task's resources: its read share of the projected array, its slab of the index array, its rows of the result at contents f. -/
abbrev tileRes0 (X : CallData F) (d : Dev nD) (w : Fin 32) (f : Buf (Elt F) (g0Loc d)) : sProp 𝕄 :=
  iprop((pLoc d ↦{xq w} X.p0 d) ∗ (i0Loc d ↦[iSet w]{fullShare} X.ix0 d) ∗ (g0Loc d ↦[oSet w]{fullShare} f))
abbrev tileRes1 (X : CallData F) (d : Dev nD) (w : Fin 32) (f : Buf (Elt F) (g1Loc d)) : sProp 𝕄 :=
  iprop((pLoc d ↦{xq w} X.p1 d) ∗ (i1Loc d ↦[iSet w]{fullShare} X.ix1 d) ∗ (g1Loc d ↦[oSet w]{fullShare} f))

/-- Each call takes, per SparseCore, its sixteen tasks' resources, the result's rows at their prior contents, and brings
    them back with the rows at the gathered values. -/
def P (X : CallData F) : (K (F := F)).Pay (nD := nD) (Val := Elt F) (Name := ℕ) (U := UU) where
  st := fun q d c => match q with
    | 0 => bigSep Finset.univ fun i : Fin ((K (F := F)).nSub 0) => tileRes0 X d (wid 0 c i) (X.fo0 d)
    | 1 => bigSep Finset.univ fun i : Fin ((K (F := F)).nSub 1) => tileRes1 X d (wid 1 c i) (X.fo1 d)
  dn := fun q d c => match q with
    | 0 => bigSep Finset.univ fun i : Fin ((K (F := F)).nSub 0) => tileRes0 X d (wid 0 c i) (gat0 X d)
    | 1 => bigSep Finset.univ fun i : Fin ((K (F := F)).nSub 1) => tileRes1 X d (wid 1 c i) (gat1 X d)
  go := fun q d c i => match q with
    | 0 => tileRes0 X d (wid 0 c i) (X.fo0 d)
    | 1 => tileRes1 X d (wid 1 c i) (X.fo1 d)
  td := fun q d c i => match q with
    | 0 => tileRes0 X d (wid 0 c i) (gat0 X d)
    | 1 => tileRes1 X d (wid 1 c i) (gat1 X d)
  x := fun _ _ => iprop(emp)

instance P_storable (X : CallData F) : (P X).IsStorable where
  st q d c := match q with
    | 0 => (inferInstance : BI.Storable (upEmb : UEmb _ 𝕄) (bigSep Finset.univ fun i : Fin ((K (F := F)).nSub 0) => tileRes0 X d (wid 0 c i) (X.fo0 d)))
    | 1 => (inferInstance : BI.Storable (upEmb : UEmb _ 𝕄) (bigSep Finset.univ fun i : Fin ((K (F := F)).nSub 1) => tileRes1 X d (wid 1 c i) (X.fo1 d)))
  dn q d c := match q with
    | 0 => (inferInstance : BI.Storable (upEmb : UEmb _ 𝕄) (bigSep Finset.univ fun i : Fin ((K (F := F)).nSub 0) => tileRes0 X d (wid 0 c i) (gat0 X d)))
    | 1 => (inferInstance : BI.Storable (upEmb : UEmb _ 𝕄) (bigSep Finset.univ fun i : Fin ((K (F := F)).nSub 1) => tileRes1 X d (wid 1 c i) (gat1 X d)))
  go q d c i := match q with
    | 0 => (inferInstance : BI.Storable (upEmb : UEmb _ 𝕄) (tileRes0 X d (wid 0 c i) (X.fo0 d)))
    | 1 => (inferInstance : BI.Storable (upEmb : UEmb _ 𝕄) (tileRes1 X d (wid 1 c i) (X.fo1 d)))
  td q d c i := match q with
    | 0 => (inferInstance : BI.Storable (upEmb : UEmb _ 𝕄) (tileRes0 X d (wid 0 c i) (gat0 X d)))
    | 1 => (inferInstance : BI.Storable (upEmb : UEmb _ 𝕄) (tileRes1 X d (wid 1 c i) (gat1 X d)))

/-- A call's operands split into its tasks' and its results gather from theirs: by definition. -/
theorem vecSplit (X : CallData F) (q : Fin 2) : (K (F := F)).VecSplit' (P X) q := by
  intro d c
  match q with
  | 0 =>
    show (bigSep Finset.univ fun i : Fin ((K (F := F)).nSub 0) => tileRes0 X d (wid 0 c i) (X.fo0 d))
      ⊢ |={Set.univ}=> iprop((bigSep Finset.univ fun i : Fin ((K (F := F)).nSub 0) => tileRes0 X d (wid 0 c i) (X.fo0 d))
        ∗ ((bigSep Finset.univ fun i : Fin ((K (F := F)).nSub 0) => tileRes0 X d (wid 0 c i) (gat0 X d))
            -∗ (bigSep Finset.univ fun i : Fin ((K (F := F)).nSub 0) => tileRes0 X d (wid 0 c i) (gat0 X d))))
    iintro H; imodintro
    isplitl [H]; · iexact H
    iintro H; iexact H
  | 1 =>
    show (bigSep Finset.univ fun i : Fin ((K (F := F)).nSub 1) => tileRes1 X d (wid 1 c i) (X.fo1 d))
      ⊢ |={Set.univ}=> iprop((bigSep Finset.univ fun i : Fin ((K (F := F)).nSub 1) => tileRes1 X d (wid 1 c i) (X.fo1 d))
        ∗ ((bigSep Finset.univ fun i : Fin ((K (F := F)).nSub 1) => tileRes1 X d (wid 1 c i) (gat1 X d))
            -∗ (bigSep Finset.univ fun i : Fin ((K (F := F)).nSub 1) => tileRes1 X d (wid 1 c i) (gat1 X d))))
    iintro H; imodintro
    isplitl [H]; · iexact H
    iintro H; iexact H

end Cert.KernelIdeal.KPay

end
-- ==== Proof.KMainA.lean ====
/-
  @main of the kernel program as six stretches of host operations around its three kernel regions and two
  SparseCore calls; the TensorCore's unscoped buffers as the set the stretches run over.
-/
import proofs.«215572_g25211458027672_cont_9to1_2008_46_alg».proof.Proof.KSetup
import proofs.«215572_g25211458027672_cont_9to1_2008_46_alg».proof.Proof.KPay

noncomputable section

namespace Cert.KernelIdeal.KMain

open Cert.KernelIdeal Cert.KernelIdeal.Gen Cert.KernelIdeal.KS Cert.KernelIdeal.KPay

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within wp_seq seq after)

variable {F : FTy → Type} [FloatOps F] [Named F]

local notation "𝕄" => MT nD τ sig (HIx 2) (Elt F) ℕ UU ℕ

/-! ## @main as stretches of host operations around its three kernel regions and two SparseCore calls -/

/-- Host operations, stretch 1 of 6 of @main, in order. -/
def opsA : List (HloOp τ sig (Elt F)) :=
  [StableHlo.unary main_arg5 main_v0 ((extractStridedSlice S128x128 ![0, 0] · slices_S384x128_S128x128_0_0) : (⟨S384x128, .f32⟩ : BufTy).Contents (Elt F) → (⟨S128x128, .f32⟩ : BufTy).Contents (Elt F)),
   StableHlo.unary main_arg5 main_v1 ((extractStridedSlice S128x128 ![128, 0] · slices_S384x128_S128x128_128_0) : (⟨S384x128, .f32⟩ : BufTy).Contents (Elt F) → (⟨S128x128, .f32⟩ : BufTy).Contents (Elt F)),
   StableHlo.unary main_arg5 main_v2 ((extractStridedSlice S128x128 ![256, 0] · slices_S384x128_S128x128_256_0) : (⟨S384x128, .f32⟩ : BufTy).Contents (Elt F) → (⟨S128x128, .f32⟩ : BufTy).Contents (Elt F)),
   StableHlo.unary main_arg1 main_v3 ((transpose S4x36x1024x128 [0, 2, 1, 3] · transposes_S4x1024x36x128_S4x36x1024x128_0_2_1_3) : (⟨S4x1024x36x128, .f32⟩ : BufTy).Contents (Elt F) → (⟨S4x36x1024x128, .f32⟩ : BufTy).Contents (Elt F)),
   StableHlo.unary main_arg2 main_v4 ((transpose S4x36x1024 [0, 2, 1] · transposes_S4x1024x36_S4x36x1024_0_2_1) : (⟨S4x1024x36, .i32⟩ : BufTy).Contents (Elt F) → (⟨S4x36x1024, .i32⟩ : BufTy).Contents (Elt F)),
   StableHlo.reshape main_v4 main_v5 rfl shapeCasts_S4x36x1024_S4x36864,
   StableHlo.unary main_arg4 main_v6 ((transpose S4x36x1024 [0, 2, 1] · transposes_S4x1024x36_S4x36x1024_0_2_1) : (⟨S4x1024x36, .f32⟩ : BufTy).Contents (Elt F) → (⟨S4x36x1024, .f32⟩ : BufTy).Contents (Elt F)),
   StableHlo.reshape main_v6 main_v7 rfl shapeCasts_S4x36x1024_S4x36x8x128,
   StableHlo.unary main_v7 main_v8 ((transpose S4x8x36x128 [0, 2, 1, 3] · transposes_S4x36x8x128_S4x8x36x128_0_2_1_3) : (⟨S4x36x8x128, .f32⟩ : BufTy).Contents (Elt F) → (⟨S4x8x36x128, .f32⟩ : BufTy).Contents (Elt F)),
   StableHlo.reshape main_v8 main_v9 rfl shapeCasts_S4x8x36x128_S4x8x1x4608,
   StableHlo.unary main_v9 main_v10 ((truncf .bf16 · bitsLt_bf16_f32) : (⟨S4x8x1x4608, .f32⟩ : BufTy).Contents (Elt F) → (⟨S4x8x1x4608, .bf16⟩ : BufTy).Contents (Elt F)),
   StableHlo.nullary main_v11 (iotaInDim S4608 32 0),
   StableHlo.nullary main_c (constantI S_ 32 128#32),
   StableHlo.TRef.unary (.of main_c) main_call0.v0 id,
   StableHlo.TRef.nullary main_call0.c (constantI S_ 32 0#32),
   StableHlo.TRef.binary main_call0.v0 main_call0.c main_call0.v1 (cmpi .eq),
   StableHlo.TRef.nullary main_call0.c_0 (constantI S_ 32 1#32),
   StableHlo.TRef.ternary main_call0.v1 main_call0.c_0 main_call0.v0 main_call0.call0.v0 select,
   StableHlo.TRef.unary main_call0.call0.v0 main_call0.v3 (broadcastInDim S4608 ![] bcast_S_S4608),
   StableHlo.TRef.binary (.of main_v11) main_call0.v3 main_call0.v4 Host.remsi,
   StableHlo.TRef.nullary main_call0.c_1 (constantI S_ 32 0#32),
   StableHlo.TRef.unary main_call0.c_1 main_call0.v5 (broadcastInDim S4608 ![] bcast_S_S4608),
   StableHlo.TRef.binary main_call0.v4 main_call0.v5 main_call0.v6 (cmpi .ne),
   StableHlo.TRef.nullary main_call0.c_2 (constantI S_ 32 0#32),
   StableHlo.TRef.unary main_call0.c_2 main_call0.v7 (broadcastInDim S4608 ![] bcast_S_S4608),
   StableHlo.TRef.binary main_call0.v4 main_call0.v7 main_call0.v8 (cmpi .slt),
   StableHlo.TRef.nullary main_call0.c_3 (constantI S_ 32 0#32),
   StableHlo.TRef.binary main_call0.call0.v0 main_call0.c_3 main_call0.v9 (cmpi .slt),
   StableHlo.TRef.unary main_call0.v9 main_call0.v10 (broadcastInDim S4608 ![] bcast_S_S4608),
   StableHlo.TRef.binary main_call0.v8 main_call0.v10 main_call0.v11 (cmpi .ne),
   StableHlo.TRef.binary main_call0.v11 main_call0.v6 main_call0.v12 andi,
   StableHlo.TRef.unary main_call0.call0.v0 main_call0.v13 (broadcastInDim S4608 ![] bcast_S_S4608),
   StableHlo.TRef.binary main_call0.v4 main_call0.v13 main_call0.v14 addi,
   StableHlo.TRef.ternary main_call0.v12 main_call0.v14 main_call0.v4 main_call0.v15 select,
   StableHlo.nullary main_v13 (iotaInDim S128 32 0),
   StableHlo.unary main_v13 main_v14 (broadcastInDim S128x1 ![0] bcast_S128_S128x1_0 : (⟨S128, .i32⟩ : BufTy).Contents (Elt F) → (⟨S128x1, .i32⟩ : BufTy).Contents (Elt F)),
   StableHlo.unary main_v12 main_v15 (broadcastInDim S1x4608 ![1] bcast_S4608_S1x4608_1 : (⟨S4608, .i32⟩ : BufTy).Contents (Elt F) → (⟨S1x4608, .i32⟩ : BufTy).Contents (Elt F)),
   StableHlo.unary main_v14 main_v16 (broadcastInDim S128x4608 ![0, 1] bcast_S128x1_S128x4608_0_1 : (⟨S128x1, .i32⟩ : BufTy).Contents (Elt F) → (⟨S128x4608, .i32⟩ : BufTy).Contents (Elt F)),
   StableHlo.unary main_v15 main_v17 (broadcastInDim S128x4608 ![0, 1] bcast_S1x4608_S128x4608_0_1 : (⟨S1x4608, .i32⟩ : BufTy).Contents (Elt F) → (⟨S128x4608, .i32⟩ : BufTy).Contents (Elt F)),
   StableHlo.binary main_v16 main_v17 main_v18 (cmpi .eq : (⟨S128x4608, .i32⟩ : BufTy).Contents (Elt F) → (⟨S128x4608, .i32⟩ : BufTy).Contents (Elt F) → (⟨S128x4608, .i1⟩ : BufTy).Contents (Elt F)),
   StableHlo.unary main_v18 main_v19 (uitofp .bf16 : (⟨S128x4608, .i1⟩ : BufTy).Contents (Elt F) → (⟨S128x4608, .bf16⟩ : BufTy).Contents (Elt F)),
   StableHlo.unary main_v19 main_v20 ((transpose S4608x128 [1, 0] · transposes_S128x4608_S4608x128_1_0) : (⟨S128x4608, .bf16⟩ : BufTy).Contents (Elt F) → (⟨S4608x128, .bf16⟩ : BufTy).Contents (Elt F)),
   StableHlo.reshape main_arg0 main_v21 rfl shapeCasts_S4x1024x128_S4096x128]

/-- Host operations, stretch 2 of 6 of @main, in order. -/
def opsB : List (HloOp τ sig (Elt F)) :=
  [StableHlo.unary main_v5 main_v23 ((extractStridedSlice S2x36864 ![0, 0] · slices_S4x36864_S2x36864_0_0) : (⟨S4x36864, .i32⟩ : BufTy).Contents (Elt F) → (⟨S2x36864, .i32⟩ : BufTy).Contents (Elt F)),
   StableHlo.reshape main_v23 main_v24 rfl shapeCasts_S2x36864_S32x18x128]

/-- Host operations, stretch 3 of 6 of @main, in order. -/
def opsC : List (HloOp τ sig (Elt F)) :=
  [StableHlo.reshape main_v25 main_v26 rfl shapeCasts_S73728x128_S72x1024x128,
   StableHlo.reshape main_arg3 main_v27 rfl shapeCasts_S4x1024_S4x8x1x128,
   StableHlo.reshape main_arg6 main_v28 rfl shapeCasts_S128_S1x128,
   StableHlo.unary main_v1 main_v29 ((truncf .bf16 · bitsLt_bf16_f32) : (⟨S128x128, .f32⟩ : BufTy).Contents (Elt F) → (⟨S128x128, .bf16⟩ : BufTy).Contents (Elt F)),
   StableHlo.unary main_arg7 main_v30 ((truncf .bf16 · bitsLt_bf16_f32) : (⟨S128x128, .f32⟩ : BufTy).Contents (Elt F) → (⟨S128x128, .bf16⟩ : BufTy).Contents (Elt F)),
   StableHlo.reshape main_arg8 main_v31 rfl shapeCasts_S128_S1x128,
   StableHlo.reshape main_arg10 main_v32 rfl shapeCasts_S128_S1x128,
   StableHlo.unary main_arg11 main_v33 ((truncf .bf16 · bitsLt_bf16_f32) : (⟨S128x512, .f32⟩ : BufTy).Contents (Elt F) → (⟨S128x512, .bf16⟩ : BufTy).Contents (Elt F)),
   StableHlo.reshape main_arg12 main_v34 rfl shapeCasts_S512_S1x512,
   StableHlo.unary main_arg13 main_v35 ((truncf .bf16 · bitsLt_bf16_f32) : (⟨S512x128, .f32⟩ : BufTy).Contents (Elt F) → (⟨S512x128, .bf16⟩ : BufTy).Contents (Elt F)),
   StableHlo.reshape main_arg14 main_v36 rfl shapeCasts_S128_S1x128,
   StableHlo.reshape main_arg15 main_v37 rfl shapeCasts_S128_S1x128,
   StableHlo.reshape main_arg16 main_v38 rfl shapeCasts_S128_S1x128,
   StableHlo.reshape main_arg17 main_v39 rfl shapeCasts_S128_S1x128,
   StableHlo.reshape main_arg18 main_v40 rfl shapeCasts_S128_S1x128]

/-- Host operations, stretch 4 of 6 of @main, in order. -/
def opsD : List (HloOp τ sig (Elt F)) :=
  [StableHlo.unary main_v5 main_v42 ((extractStridedSlice S2x36864 ![2, 0] · slices_S4x36864_S2x36864_2_0) : (⟨S4x36864, .i32⟩ : BufTy).Contents (Elt F) → (⟨S2x36864, .i32⟩ : BufTy).Contents (Elt F)),
   StableHlo.reshape main_v42 main_v43 rfl shapeCasts_S2x36864_S32x18x128]

/-- Host operations, stretch 5 of 6 of @main, in order. -/
def opsE : List (HloOp τ sig (Elt F)) :=
  [StableHlo.reshape main_v44 main_v45 rfl shapeCasts_S73728x128_S72x1024x128,
   StableHlo.reshape main_arg3 main_v46 rfl shapeCasts_S4x1024_S4x8x1x128,
   StableHlo.reshape main_arg6 main_v47 rfl shapeCasts_S128_S1x128,
   StableHlo.unary main_v1 main_v48 ((truncf .bf16 · bitsLt_bf16_f32) : (⟨S128x128, .f32⟩ : BufTy).Contents (Elt F) → (⟨S128x128, .bf16⟩ : BufTy).Contents (Elt F)),
   StableHlo.unary main_arg7 main_v49 ((truncf .bf16 · bitsLt_bf16_f32) : (⟨S128x128, .f32⟩ : BufTy).Contents (Elt F) → (⟨S128x128, .bf16⟩ : BufTy).Contents (Elt F)),
   StableHlo.reshape main_arg8 main_v50 rfl shapeCasts_S128_S1x128,
   StableHlo.reshape main_arg10 main_v51 rfl shapeCasts_S128_S1x128,
   StableHlo.unary main_arg11 main_v52 ((truncf .bf16 · bitsLt_bf16_f32) : (⟨S128x512, .f32⟩ : BufTy).Contents (Elt F) → (⟨S128x512, .bf16⟩ : BufTy).Contents (Elt F)),
   StableHlo.reshape main_arg12 main_v53 rfl shapeCasts_S512_S1x512,
   StableHlo.unary main_arg13 main_v54 ((truncf .bf16 · bitsLt_bf16_f32) : (⟨S512x128, .f32⟩ : BufTy).Contents (Elt F) → (⟨S512x128, .bf16⟩ : BufTy).Contents (Elt F)),
   StableHlo.reshape main_arg14 main_v55 rfl shapeCasts_S128_S1x128,
   StableHlo.reshape main_arg15 main_v56 rfl shapeCasts_S128_S1x128,
   StableHlo.reshape main_arg16 main_v57 rfl shapeCasts_S128_S1x128,
   StableHlo.reshape main_arg17 main_v58 rfl shapeCasts_S128_S1x128,
   StableHlo.reshape main_arg18 main_v59 rfl shapeCasts_S128_S1x128]

/-- Host operations, stretch 6 of 6 of @main, in order. -/
def opsF : List (HloOp τ sig (Elt F)) :=
  [StableHlo.binary main_v41 main_v60 main_v61 ((fun a b => concatenate S4x1024x128 0 [⟨S2x1024x128, a⟩, ⟨S2x1024x128, b⟩] concatenates_S2x1024x128_S2x1024x128_S4x1024x128_d0) : (⟨S2x1024x128, .f32⟩ : BufTy).Contents (Elt F) → (⟨S2x1024x128, .f32⟩ : BufTy).Contents (Elt F) → (⟨S4x1024x128, .f32⟩ : BufTy).Contents (Elt F))]

set_option maxRecDepth 65536 in
theorem main_eq (d : Dev nD) : main (F := F) d =
    (seq (opsA (F := F)) >>= fun _ => Prog.lift (.customCall (SparseCore.inner (Pipeline.entry 0)) ()) >>= fun _ =>
     seq (opsB (F := F)) >>= fun _ => (sc (F := F)).run d 0 >>= fun _ =>
     seq (opsC (F := F)) >>= fun _ => Prog.lift (.customCall (SparseCore.inner (Pipeline.entry 1)) ()) >>= fun _ =>
     seq (opsD (F := F)) >>= fun _ => (sc (F := F)).run d 1 >>= fun _ =>
     seq (opsE (F := F)) >>= fun _ => Prog.lift (.customCall (SparseCore.inner (Pipeline.entry 2)) ()) >>= fun _ =>
     seq (opsF (F := F))) := by
  chain_rfl

/-! ## The TensorCore's arrays, held whole at a valuation -/

def devRefEmb : Ref sig .tc ↪ DevRef τ sig := ⟨Proc.devRef (τ := τ) (sig := sig) .tc, Proc.devRef_injective _⟩

/-- The TensorCore's unscoped buffers: @main's arrays. -/
def SU : Finset (DevRef τ sig) := (Finset.univ.filter fun b : Ref sig .tc => ¬ b.isScoped).map devRefEmb

omit [FloatOps F] [Named F] in
theorem sub_SU (op : HloOp τ sig (Elt F)) (h : op.bufs ⊆ StableHlo.tcRefs τ sig) : op.bufs ⊆ SU := by
  intro b hb
  obtain ⟨x, -, rfl⟩ := Finset.mem_map.mp (h hb)
  refine Finset.mem_map.mpr ⟨x, Finset.mem_filter.mpr ⟨Finset.mem_univ _, ?_⟩, rfl⟩
  have h2 := op.no_scoped _ hb
  rw [show (x : Ref sig .tc).isScoped = (Proc.devRef (τ := τ) .tc x).isScoped from rfl]
  simpa using h2

/-- The launch valuation. -/
def V0 (m : (ℓ : Loc nD τ sig) → Buf (Elt F) ℓ) (d : Dev nD) : Valuation τ sig (Elt F) := fun b => m (d, b)

omit [FloatOps F] [Named F] in
theorem unscoped_held (m : (ℓ : Loc nD τ sig) → Buf (Elt F) ℓ) (d : Dev nD) :
    (unscopedBufs d (fun b => m ((SparseCore.T d).loc b)) : sProp 𝕄) = held (SparseCore.T d) SU (V0 m d) := by
  unfold unscopedBufs held SU
  rw [bigSep_map]; rfl

theorem hTA : (opsA (F := F)).Forall fun op => op.bufs ⊆ StableHlo.tcRefs τ sig := by
  simp [opsA, List.Forall]
theorem hTB : (opsB (F := F)).Forall fun op => op.bufs ⊆ StableHlo.tcRefs τ sig := by
  simp [opsB, List.Forall]
theorem hTC : (opsC (F := F)).Forall fun op => op.bufs ⊆ StableHlo.tcRefs τ sig := by
  simp [opsC, List.Forall]
theorem hTD : (opsD (F := F)).Forall fun op => op.bufs ⊆ StableHlo.tcRefs τ sig := by
  simp [opsD, List.Forall]
theorem hTE : (opsE (F := F)).Forall fun op => op.bufs ⊆ StableHlo.tcRefs τ sig := by
  simp [opsE, List.Forall]
theorem hTF : (opsF (F := F)).Forall fun op => op.bufs ⊆ StableHlo.tcRefs τ sig := by
  simp [opsF, List.Forall]

theorem hS_of {ops : List (HloOp τ sig (Elt F))} (h : ops.Forall fun op => op.bufs ⊆ StableHlo.tcRefs τ sig) :
    ∀ op ∈ ops, op.bufs ⊆ SU := fun op hop => sub_SU op (List.forall_iff_forall_mem.mp h op hop)

theorem hfA : ∀ op ∈ opsA (F := F), op.fresh = ∅ := by
  intro _ h; unfold opsA at h; (repeat (cases h with | head => rfl | tail _ h => ?_)); exact nomatch h
theorem hfB : ∀ op ∈ opsB (F := F), op.fresh = ∅ := by
  intro _ h; unfold opsB at h; (repeat (cases h with | head => rfl | tail _ h => ?_)); exact nomatch h
theorem hfC : ∀ op ∈ opsC (F := F), op.fresh = ∅ := by
  intro _ h; unfold opsC at h; (repeat (cases h with | head => rfl | tail _ h => ?_)); exact nomatch h
theorem hfD : ∀ op ∈ opsD (F := F), op.fresh = ∅ := by
  intro _ h; unfold opsD at h; (repeat (cases h with | head => rfl | tail _ h => ?_)); exact nomatch h
theorem hfE : ∀ op ∈ opsE (F := F), op.fresh = ∅ := by
  intro _ h; unfold opsE at h; (repeat (cases h with | head => rfl | tail _ h => ?_)); exact nomatch h
theorem hfF : ∀ op ∈ opsF (F := F), op.fresh = ∅ := by
  intro _ h; unfold opsF at h; (repeat (cases h with | head => rfl | tail _ h => ?_)); exact nomatch h

end Cert.KernelIdeal.KMain

end
-- ==== Proof.KMainB.lean ====
/-
  The valuations of @main's arrays along the program, the program's result as a pure term of the launch memory,
  a kernel region as a step on the valuation, and the launch element of the ghost state.
-/
import proofs.«215572_g25211458027672_cont_9to1_2008_46_alg».proof.Proof.KMainA

noncomputable section

namespace Cert.KernelIdeal.KMain

open Cert.KernelIdeal Cert.KernelIdeal.Gen Cert.KernelIdeal.KS Cert.KernelIdeal.KPay

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within wp_seq seq after)

variable {F : FTy → Type} [FloatOps F] [Named F]

local notation "𝕄" => MT nD τ sig (HIx 2) (Elt F) ℕ UU ℕ

/-! ## The valuations along @main -/

abbrev rV (y : Ref sig .tc) : DevRef τ sig := Proc.devRef (τ := τ) .tc y

/-- The three kernel regions' results as functions of the valuation at their entry. -/
structure Outs (F : FTy → Type) where
  o0 : Valuation τ sig (Elt F) → (⟨S4096x128, .f32⟩ : BufTy).Contents (Elt F)
  o1 : Valuation τ sig (Elt F) → (⟨S2x1024x128, .f32⟩ : BufTy).Contents (Elt F)
  o2 : Valuation τ sig (Elt F) → (⟨S2x1024x128, .f32⟩ : BufTy).Contents (Elt F)

section Vals

variable (Ω : Outs F) (m : (ℓ : Loc nD τ sig) → Buf (Elt F) ℓ) (d : Dev nD)

def V1 : Valuation τ sig (Elt F) := after (opsA (F := F)) (V0 m d)
def V2 : Valuation τ sig (Elt F) := Function.update (V1 m d) (rV main_v22) (Ω.o0 (V1 m d))
def V3 : Valuation τ sig (Elt F) := after (opsB (F := F)) (V2 Ω m d)
def V4 : Valuation τ sig (Elt F) := Function.update (V3 Ω m d) (rV main_v25) (gatherVal 0 (V3 Ω m d (rV main_v22)) (V3 Ω m d (rV main_v24)))
def V5 : Valuation τ sig (Elt F) := after (opsC (F := F)) (V4 Ω m d)
def V6 : Valuation τ sig (Elt F) := Function.update (V5 Ω m d) (rV main_v41) (Ω.o1 (V5 Ω m d))
def V7 : Valuation τ sig (Elt F) := after (opsD (F := F)) (V6 Ω m d)
def V8 : Valuation τ sig (Elt F) := Function.update (V7 Ω m d) (rV main_v44) (gatherVal 2 (V7 Ω m d (rV main_v22)) (V7 Ω m d (rV main_v43)))
def V9 : Valuation τ sig (Elt F) := after (opsE (F := F)) (V8 Ω m d)
def V10 : Valuation τ sig (Elt F) := Function.update (V9 Ω m d) (rV main_v60) (Ω.o2 (V9 Ω m d))
def V11 : Valuation τ sig (Elt F) := after (opsF (F := F)) (V10 Ω m d)

/-- The program's result, a pure term of the launch memory. -/
def RES : Buf (Elt F) (outLoc d) := V11 Ω m d (rV main_v61)

end Vals

/-- What the two gather calls see. -/
abbrev XD (Ω : Outs F) (m : (ℓ : Loc nD τ sig) → Buf (Elt F) ℓ) : CallData F where
  p0 d := V3 Ω m d (rV main_v22)
  ix0 d := V3 Ω m d (rV main_v24)
  fo0 d := V3 Ω m d (rV main_v25)
  p1 d := V7 Ω m d (rV main_v22)
  ix1 d := V7 Ω m d (rV main_v43)
  fo1 d := V7 Ω m d (rV main_v44)

/-! ## A kernel region as a step on the valuation -/

/-- The TensorCore's debts before SparseCore call n, its recorded pairs bounded. -/
abbrev owesTc (d : Dev nD) (n : ℕ) : sProp 𝕄 :=
  iprop(∃ W, ⌜(K (F := F)).WBelow (SparseCore.T d) W (8 * n)⌝ ∗ owes (SparseCore.T d) ((K (F := F)).Otc d n) W)

/-- Region p, entered before SparseCore call n with @main's arrays held at V, leaves them at V with its result y
    rewritten to o V. -/
def RegionStep (p : Fin 3) (n : ℕ) (y : Ref sig .tc) (o : Valuation τ sig (Elt F) → (rV y).ty.Contents (Elt F)) : Prop :=
  ∀ (d : Dev nD) (V : Valuation τ sig (Elt F)) {α : Type} (k : PUnit → Prog (TpuEff nD τ sig (Elt F) (ΛP (F := F)) .tc) α) (Q : α → sProp 𝕄),
    iprop((iprop(boundary (SparseCore.T d) ∗ held (SparseCore.T d) SU (Function.update V (rV y) (o V)) ∗ owesTc d n)
            -∗ wp frame (wpE (D (F := F)) 𝒱 (SparseCore.T d) none) Set.univ (k ⟨⟩) Q)
        ∗ boundary (SparseCore.T d) ∗ held (SparseCore.T d) SU V ∗ owesTc d n ∗ levAts (K (F := F)).L (K (F := F)).lev
        ∗ Pipeline.cellsGhost cfgs EP p d ∗ Pipeline.toksInit cfgs EP p d)
      ⊢ wp frame (wpE (D (F := F)) 𝒱 (SparseCore.T d) none) Set.univ (.op (.customCall (Pipeline.entry p) ()) k) Q

/-! ## The launch element of the ghost state -/

/-- What the launch deals each TensorCore for its three pipelines. -/
def G (d : Dev nD) : sProp 𝕄 :=
  bigSep Finset.univ fun p : Fin 3 => iprop(Pipeline.cellsGhost cfgs EP p d ∗ Pipeline.toksInit cfgs EP p d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] [Named F] in
theorem bigSep_emp' {I : Type} (s : Finset I) : (bigSep s fun _ => iprop(emp)) = (iprop(emp) : sProp 𝕄) := bigSep_emp_const s

theorem hu₀ (X : CallData F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P X).x q thr) := by
  unfold u₀
  iintro Hu
  ihave H := (ownU_pair _ _) $$ Hu
  icases H with ⟨HH, HR⟩
  ihave H2 := (own_pair_emb (embR (A := UH) (B := UP × Counters) (nD := nD) (τ := τ) (sig := sig) (Ix := HIx 2) (Val := Elt F) (Name := ℕ) (Lvl := ℕ)) _ _) $$ HR
  icases H2 with ⟨HP, -⟩
  ihave HP' := (show (BI.own (((Emb.inl : Emb UP (UP × Counters)).trans embR)
      (initOf (Pipeline.cells (nD := nD) (τ := τ) cfgs cellOf_inj) (Pipeline.launchToks (nD := nD) (τ := τ) cfgs cellOf_inj))) : sProp 𝕄)
      ⊢ BI.own ((EP (F := F)) (initOf (Pipeline.cells (nD := nD) (τ := τ) cfgs cellOf_inj) (Pipeline.launchToks (nD := nD) (τ := τ) cfgs cellOf_inj)))
      from BI.Entails.refl _) $$ HP
  imod (Pipeline.fund_ghost cfgs (EP (F := F)) cellOf_inj) $$ HP' with ⟨Hg, Ht⟩
  imodintro
  isplitl [HH]; · iexact HH
  isplitl [Hg Ht]
  · unfold G
    simp only [bigSep_sep']
    isplitl [Hg]; · iexact Hg
    iexact Ht
  rw [show (bigSep Finset.univ fun thr : Thread nD τ => bigSep Finset.univ fun q : Fin 2 => (P (F := F) X).x q thr) = bigSep Finset.univ fun _ => iprop(emp) from
    bigSep_congr fun _ _ => bigSep_emp' _, bigSep_emp']
  iempintro

end Cert.KernelIdeal.KMain

end
-- ==== Proof.KSplit.lean ====
/-
  The two gather calls' operands between the TensorCore and the tasks: an index array is its thirty-two slabs, a
  result its thirty-two blocks of 2304 rows, the projected array's full share the tasks' thirty-two read shares and a
  remainder; the thirty-two tasks are two SparseCores' sixteen; and one task's proof, at its place in the grid, is the
  launch theorem's obligation for a tile.
-/
import proofs.«215572_g25211458027672_cont_9to1_2008_46_alg».proof.Proof.KPay
import Idealize.ShloMosaic.Lib.Transfers
import Idealize.ShloMosaic.Lib.SparseCore.Launch
import Idealize.ShloMosaic.Lib.Pipeline.Kit
import Idealize.ShloMosaic.Lib.Tactic

noncomputable section

namespace Cert.KernelIdeal.KSplit

open Cert.KernelIdeal Cert.KernelIdeal.Gen Cert.KernelIdeal.KS Cert.KernelIdeal.KPay

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

/-! ## The thirty-two slabs and row blocks: disjoint, and all of the array -/

theorem iSet_eq (w : Fin 32) : iSet w = (irow w).set := View.set_slice_whole _ _
theorem oSet_eq (w : Fin 32) : oSet w = (orow w).set := View.set_slice_whole _ _

theorem iSets_disjoint : ∀ w ∈ (Finset.univ : Finset (Fin 32)), ∀ w' ∈ (Finset.univ : Finset (Fin 32)), w ≠ w' → Disjoint (iSet w) (iSet w') :=
  fun w _ w' _ h => by rw [iSet_eq, iSet_eq]; exact Rect.part_disjoint idiv h
theorem oSets_disjoint : ∀ w ∈ (Finset.univ : Finset (Fin 32)), ∀ w' ∈ (Finset.univ : Finset (Fin 32)), w ≠ w' → Disjoint (oSet w) (oSet w') :=
  fun w _ w' _ h => by rw [oSet_eq, oSet_eq]; exact Rect.part_disjoint odiv h
theorem iSets_cover : (Finset.univ : Finset (Fin 32)).biUnion iSet = Finset.univ :=
  (Finset.biUnion_congr rfl fun w _ => iSet_eq w).trans (Rect.biUnion_part idiv)
theorem oSets_cover : (Finset.univ : Finset (Fin 32)).biUnion oSet = Finset.univ :=
  (Finset.biUnion_congr rfl fun w _ => oSet_eq w).trans (Rect.biUnion_part odiv)

/-- An index array held whole is its thirty-two slabs held. -/
theorem i0_slabs (d : Dev nD) (q : PosShare TreeShare) (f : Buf (Elt F) (i0Loc d)) :
    (i0Loc d ↦{q} f : sProp 𝕄) = bigSep Finset.univ fun w : Fin 32 => i0Loc d ↦[iSet w]{q} f := by
  rw [← pointsTo_biUnion Finset.univ (ℓ := i0Loc d) iSet iSets_disjoint, iSets_cover]
theorem i1_slabs (d : Dev nD) (q : PosShare TreeShare) (f : Buf (Elt F) (i1Loc d)) :
    (i1Loc d ↦{q} f : sProp 𝕄) = bigSep Finset.univ fun w : Fin 32 => i1Loc d ↦[iSet w]{q} f := by
  rw [← pointsTo_biUnion Finset.univ (ℓ := i1Loc d) iSet iSets_disjoint, iSets_cover]
/-- A result held whole is its thirty-two row blocks held. -/
theorem g0_blocks (d : Dev nD) (q : PosShare TreeShare) (f : Buf (Elt F) (g0Loc d)) :
    (g0Loc d ↦{q} f : sProp 𝕄) = bigSep Finset.univ fun w : Fin 32 => g0Loc d ↦[oSet w]{q} f := by
  rw [← pointsTo_biUnion Finset.univ (ℓ := g0Loc d) oSet oSets_disjoint, oSets_cover]
theorem g1_blocks (d : Dev nD) (q : PosShare TreeShare) (f : Buf (Elt F) (g1Loc d)) :
    (g1Loc d ↦{q} f : sProp 𝕄) = bigSep Finset.univ fun w : Fin 32 => g1Loc d ↦[oSet w]{q} f := by
  rw [← pointsTo_biUnion Finset.univ (ℓ := g1Loc d) oSet oSets_disjoint, oSets_cover]

/-! ## The thirty-two tasks as two SparseCores' sixteen -/

/-- Task `2 i + c` is vector subcore `i` of SparseCore `c`: a bijection. -/
def tileEquiv (q : Fin 2) : Fin ((K (F := F)).nCore q) × Fin ((K (F := F)).nSub q) ≃ Fin 32 where
  toFun p := wid q p.1 p.2
  invFun w := (⟨w.val % 2, by rw [nCore_eq]; omega⟩, ⟨w.val / 2, by rw [nSub_eq]; omega⟩)
  left_inv p := by
    obtain ⟨c, i⟩ := p
    have hc : c.val < 2 := lt_of_lt_of_eq c.isLt (nCore_eq q)
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

theorem bigSep_tiles (q : Fin 2) (Φ : Fin 32 → sProp 𝕄) :
    bigSep Finset.univ Φ
      = bigSep Finset.univ fun c : Fin ((K (F := F)).nCore q) => bigSep Finset.univ fun i : Fin ((K (F := F)).nSub q) => Φ (wid q c i) := by
  rw [bigSep_univ_equiv (tileEquiv (F := F) q) Φ, bigSep_univ_prod]
  rfl

/-! ## A call's operands, whole, are its tasks' resources and the TensorCore's remainder of the read share -/

theorem tiles0_eq (X : CallData F) (d : Dev nD) (f : Buf (Elt F) (g0Loc d)) :
    (bigSep Finset.univ fun w : Fin 32 => tileRes0 X d w f)
      = iprop((bigSep Finset.univ fun w : Fin 32 => pLoc d ↦{xq w} X.p0 d) ∗ (i0Loc d ↦{fullShare} X.ix0 d) ∗ (g0Loc d ↦{fullShare} f)) := by
  show (bigSep Finset.univ fun w : Fin 32 => iprop((pLoc d ↦{xq w} X.p0 d) ∗ (i0Loc d ↦[iSet w]{fullShare} X.ix0 d) ∗ (g0Loc d ↦[oSet w]{fullShare} f))) = _
  rw [bigSep_sep', bigSep_sep', i0_slabs, g0_blocks]
theorem tiles1_eq (X : CallData F) (d : Dev nD) (f : Buf (Elt F) (g1Loc d)) :
    (bigSep Finset.univ fun w : Fin 32 => tileRes1 X d w f)
      = iprop((bigSep Finset.univ fun w : Fin 32 => pLoc d ↦{xq w} X.p1 d) ∗ (i1Loc d ↦{fullShare} X.ix1 d) ∗ (g1Loc d ↦{fullShare} f)) := by
  show (bigSep Finset.univ fun w : Fin 32 => iprop((pLoc d ↦{xq w} X.p1 d) ∗ (i1Loc d ↦[iSet w]{fullShare} X.ix1 d) ∗ (g1Loc d ↦[oSet w]{fullShare} f))) = _
  rw [bigSep_sep', bigSep_sep', i1_slabs, g1_blocks]

theorem call_split0 (X : CallData F) (d : Dev nD) (f : Buf (Elt F) (g0Loc d)) :
    (iprop((pLoc d ↦{fullShare} X.p0 d) ∗ (i0Loc d ↦{fullShare} X.ix0 d) ∗ (g0Loc d ↦{fullShare} f)) : sProp 𝕄)
      ⊣⊢ iprop((pLoc d ↦{Transfers.shareDrop fullShare 32} X.p0 d)
          ∗ bigSep Finset.univ fun c : Fin ((K (F := F)).nCore 0) => bigSep Finset.univ fun i : Fin ((K (F := F)).nSub 0) =>
              tileRes0 X d (wid 0 c i) f) := by
  rw [← bigSep_tiles (F := F) 0 (fun w => tileRes0 X d w f), tiles0_eq]
  have h : (pLoc d ↦{fullShare} X.p0 d : sProp 𝕄) ⊣⊢ iprop((pLoc d ↦{Transfers.shareDrop fullShare 32} X.p0 d)
      ∗ bigSep Finset.univ fun w : Fin 32 => pLoc d ↦{xq w} X.p0 d) := Transfers.pointsTo_toks fullShare 32
  constructor
  · iintro ⟨Hp, Hi, Ho⟩
    ihave Hp' := h.1 $$ Hp
    icases Hp' with ⟨Hr, Ht⟩
    isplitl [Hr]; · iexact Hr
    isplitl [Ht]; · iexact Ht
    isplitl [Hi]; · iexact Hi
    iexact Ho
  · iintro ⟨Hr, Ht, Hi, Ho⟩
    isplitl [Hr Ht]
    · iapply h.2; isplitl [Hr]; · iexact Hr
      iexact Ht
    isplitl [Hi]; · iexact Hi
    iexact Ho

theorem call_split1 (X : CallData F) (d : Dev nD) (f : Buf (Elt F) (g1Loc d)) :
    (iprop((pLoc d ↦{fullShare} X.p1 d) ∗ (i1Loc d ↦{fullShare} X.ix1 d) ∗ (g1Loc d ↦{fullShare} f)) : sProp 𝕄)
      ⊣⊢ iprop((pLoc d ↦{Transfers.shareDrop fullShare 32} X.p1 d)
          ∗ bigSep Finset.univ fun c : Fin ((K (F := F)).nCore 1) => bigSep Finset.univ fun i : Fin ((K (F := F)).nSub 1) =>
              tileRes1 X d (wid 1 c i) f) := by
  rw [← bigSep_tiles (F := F) 1 (fun w => tileRes1 X d w f), tiles1_eq]
  have h : (pLoc d ↦{fullShare} X.p1 d : sProp 𝕄) ⊣⊢ iprop((pLoc d ↦{Transfers.shareDrop fullShare 32} X.p1 d)
      ∗ bigSep Finset.univ fun w : Fin 32 => pLoc d ↦{xq w} X.p1 d) := Transfers.pointsTo_toks fullShare 32
  constructor
  · iintro ⟨Hp, Hi, Ho⟩
    ihave Hp' := h.1 $$ Hp
    icases Hp' with ⟨Hr, Ht⟩
    isplitl [Hr]; · iexact Hr
    isplitl [Ht]; · iexact Ht
    isplitl [Hi]; · iexact Hi
    iexact Ho
  · iintro ⟨Hr, Ht, Hi, Ho⟩
    isplitl [Hr Ht]
    · iapply h.2; isplitl [Hr]; · iexact Hr
      iexact Ht
    isplitl [Hi]; · iexact Hi
    iexact Ho

/-! ## One task's proof is the launch theorem's obligation for a tile -/

section Obl

variable [FloatOps F] [Named F]

local notation "pV" => (Memref.whole Cert.KernelIdeal.main_v22_scv : Memref Cert.KernelIdeal.sig Kind.scVector Space.hbm Cert.KernelIdeal.S4096x128 EltTy.f32)
local notation "i0V" => (Memref.whole Cert.KernelIdeal.main_v24_scv : Memref Cert.KernelIdeal.sig Kind.scVector Space.hbm Cert.KernelIdeal.S32x18x128 EltTy.i32)
local notation "o0V" => (Memref.whole Cert.KernelIdeal.main_v25_scv : Memref Cert.KernelIdeal.sig Kind.scVector Space.hbm Cert.KernelIdeal.S73728x128 EltTy.f32)
local notation "i1V" => (Memref.whole Cert.KernelIdeal.main_v43_scv : Memref Cert.KernelIdeal.sig Kind.scVector Space.hbm Cert.KernelIdeal.S32x18x128 EltTy.i32)
local notation "o1V" => (Memref.whole Cert.KernelIdeal.main_v44_scv : Memref Cert.KernelIdeal.sig Kind.scVector Space.hbm Cert.KernelIdeal.S73728x128 EltTy.f32)
local notation "s1V" => (Memref.whole Cert.KernelIdeal.cc1_scratch0 : Memref Cert.KernelIdeal.sig Kind.scVector Space.vmem Cert.KernelIdeal.S18x128 EltTy.i32)
local notation "a1V" => (Memref.whole Cert.KernelIdeal.cc1_scratch1 : Memref Cert.KernelIdeal.sig Kind.scVector Space.vmem Cert.KernelIdeal.S128x128 EltTy.f32)
local notation "b1V" => (Memref.whole Cert.KernelIdeal.cc1_scratch2 : Memref Cert.KernelIdeal.sig Kind.scVector Space.vmem Cert.KernelIdeal.S128x128 EltTy.f32)
local notation "s3V" => (Memref.whole Cert.KernelIdeal.cc3_scratch0 : Memref Cert.KernelIdeal.sig Kind.scVector Space.vmem Cert.KernelIdeal.S18x128 EltTy.i32)
local notation "a3V" => (Memref.whole Cert.KernelIdeal.cc3_scratch1 : Memref Cert.KernelIdeal.sig Kind.scVector Space.vmem Cert.KernelIdeal.S128x128 EltTy.f32)
local notation "b3V" => (Memref.whole Cert.KernelIdeal.cc3_scratch2 : Memref Cert.KernelIdeal.sig Kind.scVector Space.vmem Cert.KernelIdeal.S128x128 EltTy.f32)

/-- A task's place in the first call's grid, and its number `2 s + c`. -/
abbrev cV1 (L : grid1.Coords) : Fin τ.nSC := (L 0).castLE hcore1
abbrev jV1 (L : grid1.Coords) : Fin τ.nSub := (L 1).castLE hsub1
abbrev thr1 (d : Dev nD) (L : grid1.Coords) : Thread nD τ := V d (cV1 L) (jV1 L)
def wid1 (L : grid1.Coords) : Fin 32 := ⟨2 * (L 1).val + (L 0).val, by
  have h0 : (L 0).val < 2 := (L 0).isLt; have h1 : (L 1).val < 16 := (L 1).isLt; omega⟩
/-- The same in the second call's grid. -/
abbrev cV3 (L : grid3.Coords) : Fin τ.nSC := (L 0).castLE hcore3
abbrev jV3 (L : grid3.Coords) : Fin τ.nSub := (L 1).castLE hsub3
abbrev thr3 (d : Dev nD) (L : grid3.Coords) : Thread nD τ := V d (cV3 L) (jV3 L)
def wid3 (L : grid3.Coords) : Fin 32 := ⟨2 * (L 1).val + (L 0).val, by
  have h0 : (L 0).val < 2 := (L 0).isLt; have h1 : (L 1).val < 16 := (L 1).isLt; omega⟩

/-- What one task of the first call is proved to do, at a symbolic place. -/
def TileBody0 : Prop :=
  ∀ (d : Dev nD) (L : grid1.Coords), (K (F := F)).Facts → ∀ (O : CellTallies nD τ sig (HIx 2)) (W : Waits sig (HIx 2)), (∀ g, O g none = 0) →
    ∀ (q : PosShare TreeShare) (p : Buf (Elt F) (pLoc d)) (ix : Buf (Elt F) (i0Loc d)) (fo : Buf (Elt F) (g0Loc d)),
    (∀ j : S32x18x128.Idx, ((ix j : BitVec 32)).toNat < 1024) →
    iprop(levAts (K (F := F)).L (K (F := F)).lev
        ∗ ((pLoc d ↦{q} p) ∗ (i0Loc d ↦[iSet (wid1 L)]{fullShare} ix) ∗ (g0Loc d ↦[oSet (wid1 L)]{fullShare} fo))
        ∗ scopedBufs (thr1 d L) ∗ scopedSems0 (thr1 d L) ∗ owes (thr1 d L) O W)
      ⊢ (wp frame (wpE (defs₀ (F := F)) 𝒱₀ (thr1 d L) none) Set.univ
          (cc1_gk L pV (Memref.isWhole_whole _) i0V (Memref.isWhole_whole _) o0V (Memref.isWhole_whole _)
            s1V (Memref.isWhole_whole _) a1V (Memref.isWhole_whole _) b1V (Memref.isWhole_whole _)
            cc1_scratch3 cc1_scratch4 cc1_scoped0 cc1_scoped1 cc1_scoped2)
          fun _ => iprop(((pLoc d ↦{q} p) ∗ (i0Loc d ↦[iSet (wid1 L)]{fullShare} ix) ∗ (g0Loc d ↦[oSet (wid1 L)]{fullShare} gatherVal 0 p ix))
            ∗ scopedBufs (thr1 d L) ∗ scopedSems0 (thr1 d L)
            ∗ ∃ W', ⌜∀ x ∈ W', x ∈ W ∨ x.2 = none⌝ ∗ owes (thr1 d L) O W') : sProp 𝕄)

/-- What one task of the second call is proved to do: the same over the second index array and result, from batch 2. -/
def TileBody1 : Prop :=
  ∀ (d : Dev nD) (L : grid3.Coords), (K (F := F)).Facts → ∀ (O : CellTallies nD τ sig (HIx 2)) (W : Waits sig (HIx 2)), (∀ g, O g none = 0) →
    ∀ (q : PosShare TreeShare) (p : Buf (Elt F) (pLoc d)) (ix : Buf (Elt F) (i1Loc d)) (fo : Buf (Elt F) (g1Loc d)),
    (∀ j : S32x18x128.Idx, ((ix j : BitVec 32)).toNat < 1024) →
    iprop(levAts (K (F := F)).L (K (F := F)).lev
        ∗ ((pLoc d ↦{q} p) ∗ (i1Loc d ↦[iSet (wid3 L)]{fullShare} ix) ∗ (g1Loc d ↦[oSet (wid3 L)]{fullShare} fo))
        ∗ scopedBufs (thr3 d L) ∗ scopedSems0 (thr3 d L) ∗ owes (thr3 d L) O W)
      ⊢ (wp frame (wpE (defs₀ (F := F)) 𝒱₀ (thr3 d L) none) Set.univ
          (cc3_gk L pV (Memref.isWhole_whole _) i1V (Memref.isWhole_whole _) o1V (Memref.isWhole_whole _)
            s3V (Memref.isWhole_whole _) a3V (Memref.isWhole_whole _) b3V (Memref.isWhole_whole _)
            cc3_scratch3 cc3_scratch4 cc3_scoped0 cc3_scoped1 cc3_scoped2)
          fun _ => iprop(((pLoc d ↦{q} p) ∗ (i1Loc d ↦[iSet (wid3 L)]{fullShare} ix) ∗ (g1Loc d ↦[oSet (wid3 L)]{fullShare} gatherVal 2 p ix))
            ∗ scopedBufs (thr3 d L) ∗ scopedSems0 (thr3 d L)
            ∗ ∃ W', ⌜∀ x ∈ W', x ∈ W ∨ x.2 = none⌝ ∗ owes (thr3 d L) O W') : sProp 𝕄)

def coordsV1 (c : Fin (grid1.bound 0)) (s : Fin (grid1.bound 1)) : grid1.Coords :=
  fun | 0 => c | 1 => s | ⟨_ + 2, h⟩ => absurd h (Nat.not_lt.2 (Nat.le_add_left _ _))
def coordsV3 (c : Fin (grid3.bound 0)) (s : Fin (grid3.bound 1)) : grid3.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1_gk (coordsV1 c s)
          pV (Memref.isWhole_whole _) i0V (Memref.isWhole_whole _) o0V (Memref.isWhole_whole _)
          s1V (Memref.isWhole_whole _) a1V (Memref.isWhole_whole _) b1V (Memref.isWhole_whole _)
          cc1_scratch3 cc1_scratch4 cc1_scoped0 cc1_scoped1 cc1_scoped2) ⟨⟩ c s := rfl

theorem defs₀_vector3 (c : Fin τ.nSC) (s : Fin τ.nSub) :
    defs₀ (F := F) (.scVector c s) 3 ()
      = SparseCore.onTile hcore3 hsub3 (fun c s => cc3_gk (coordsV3 c s)
          pV (Memref.isWhole_whole _) i1V (Memref.isWhole_whole _) o1V (Memref.isWhole_whole _)
          s3V (Memref.isWhole_whole _) a3V (Memref.isWhole_whole _) b3V (Memref.isWhole_whole _)
          cc3_scratch3 cc3_scratch4 cc3_scoped0 cc3_scoped1 cc3_scoped2) ⟨⟩ c s := rfl

omit [FloatOps F] [Named F] in
theorem obl_pre {L G B C E : sProp 𝕄} : iprop(L ∗ emp ∗ G ∗ B ∗ C ∗ E) ⊢ iprop(L ∗ G ∗ B ∗ C ∗ E) := by
  iintro ⟨HL, _, HG, HB, HC, HE⟩
  isplitl [HL]; · iexact HL
  isplitl [HG]; · iexact HG
  isplitl [HB]; · iexact HB
  isplitl [HC]; · iexact HC
  iexact HE

omit [FloatOps F] [Named F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hbody : TileBody0 (F := F)) (hF : (K (F := F)).Facts) (X : CallData F)
    (hix : ∀ (d : Dev nD) (j : S32x18x128.Idx), ((X.ix0 d j : BitVec 32)).toNat < 1024) :
    (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact obl_pre.trans ((hbody d (coordsV1 ⟨_, hc.1⟩ ⟨_, hc.2⟩) hF O W hO (xq (wid 0 c i)) (X.p0 d) (X.ix0 d) (X.fo0 d) (hix d)).trans
    (wp_mono frame _ _ fun _ => obl_post))

theorem tileObl1 (hbody : TileBody1 (F := F)) (hF : (K (F := F)).Facts) (X : CallData F)
    (hix : ∀ (d : Dev nD) (j : S32x18x128.Idx), ((X.ix1 d j : BitVec 32)).toNat < 1024) :
    (K (F := F)).TileObl (D (F := F)) 𝒱 (P X) v₀ 1 := by
  intro d c i O W hO _ _
  simp only [show (P X).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  exact obl_pre.trans ((hbody d (coordsV3 ⟨_, hc.1⟩ ⟨_, hc.2⟩) hF O W hO (xq (wid 1 c i)) (X.p1 d) (X.ix1 d) (X.fo1 d) (hix d)).trans
    (wp_mono frame _ _ fun _ => obl_post))

end Obl

end Cert.KernelIdeal.KSplit

end
-- ==== Proof.KMainC.lean ====
/-
  The launch of the kernel program: @main on the TensorCore, stretch by stretch, region by region, call by call;
  the final memory; the program's run.
-/
import proofs.«215572_g25211458027672_cont_9to1_2008_46_alg».proof.Proof.KMainB
import proofs.«215572_g25211458027672_cont_9to1_2008_46_alg».proof.Proof.KSplit

noncomputable section

namespace Cert.KernelIdeal.KMain

open Cert.KernelIdeal Cert.KernelIdeal.Gen Cert.KernelIdeal.KS Cert.KernelIdeal.KPay Cert.KernelIdeal.KSplit

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.StableHlo (held held_split held_sdiff_result wp_hlo_within wp_seq seq after)

variable {F : FTy → Type} [FloatOps F] [Named F]

local notation "𝕄" => MT nD τ sig (HIx 2) (Elt F) ℕ UU ℕ

/-! ## Three buffers out of the held set, and back -/

omit [FloatOps F] [Named F] in
theorem mem_SU (x : Ref sig .tc) (h : x.isScoped = false) : rV x ∈ SU :=
  Finset.mem_map.mpr ⟨x, Finset.mem_filter.mpr ⟨Finset.mem_univ _, by rw [h]; exact Bool.false_ne_true⟩, rfl⟩

omit [FloatOps F] [Named F] in
theorem held3 (d : Dev nD) (V : Valuation τ sig (Elt F)) (a b c : DevRef τ sig) (hab : a ≠ b) (hac : a ≠ c) (hbc : b ≠ c) :
    (held (SparseCore.T d) ({a, b, c} : Finset (DevRef τ sig)) V : sProp 𝕄)
      = iprop((((d, a) : Loc nD τ sig) ↦{fullShare} V a) ∗ (((d, b) : Loc nD τ sig) ↦{fullShare} V b) ∗ (((d, c) : Loc nD τ sig) ↦{fullShare} V c)) := by
  unfold held
  rw [bigSep_insert (by simp [hab, hac]), bigSep_insert (by simp [hbc]), bigSep_singleton]
  rfl

omit [FloatOps F] [Named F] in
theorem held_take3 (d : Dev nD) (V : Valuation τ sig (Elt F)) (a b c : DevRef τ sig) (hab : a ≠ b) (hac : a ≠ c) (hbc : b ≠ c)
    (hsub : ({a, b, c} : Finset (DevRef τ sig)) ⊆ SU) :
    (held (SparseCore.T d) SU V : sProp 𝕄)
      = iprop(((((d, a) : Loc nD τ sig) ↦{fullShare} V a) ∗ (((d, b) : Loc nD τ sig) ↦{fullShare} V b) ∗ (((d, c) : Loc nD τ sig) ↦{fullShare} V c))
          ∗ held (SparseCore.T d) (SU \ {a, b, c}) V) := by
  rw [StableHlo.held_sub_split (SparseCore.T d) hsub V, held3 d V a b c hab hac hbc]

omit [FloatOps F] [Named F] in
theorem held_update3 (d : Dev nD) (V : Valuation τ sig (Elt F)) (a b c : DevRef τ sig) (hab : a ≠ b) (hac : a ≠ c) (hbc : b ≠ c)
    (hsub : ({a, b, c} : Finset (DevRef τ sig)) ⊆ SU) (v : c.ty.Contents (Elt F)) :
    (held (SparseCore.T d) SU (Function.update V c v) : sProp 𝕄)
      = iprop(((((d, a) : Loc nD τ sig) ↦{fullShare} V a) ∗ (((d, b) : Loc nD τ sig) ↦{fullShare} V b) ∗ (((d, c) : Loc nD τ sig) ↦{fullShare} v))
          ∗ held (SparseCore.T d) (SU \ {a, b, c}) V) := by
  have hrest : (held (SparseCore.T d) (SU \ {a, b, c}) (Function.update V c v) : sProp 𝕄) = held (SparseCore.T d) (SU \ {a, b, c}) V :=
    StableHlo.held_congr (SparseCore.T d) (S := SU \ {a, b, c}) (V := Function.update V c v) (V' := V) fun x hx =>
      Function.update_of_ne (fun e => (Finset.mem_sdiff.mp hx).2 (by rw [e]; simp)) _ _
  rw [held_take3 d (Function.update V c v) a b c hab hac hbc hsub, hrest, Function.update_of_ne hac, Function.update_of_ne hbc, Function.update_self]

omit [FloatOps F] [Named F] in
/-- The held arrays, read against the state interpretation: the memory holds the valuation's contents. -/
theorem held_read (d : Dev nD) (V : Valuation τ sig (Elt F)) (s' : Phys nD τ sig (Elt F)) :
    iprop(held (SparseCore.T d) SU V ∗ SI s')
      ⊢ (⌜∀ b : Ref sig .tc, b.isScoped = false → s'.mem.mem ((SparseCore.T d).loc b) = V (rV b)⌝ : sProp 𝕄) := by
  unfold held
  refine (pointsTo_read_all SU (fun b => ((d, b) : Loc nD τ sig)) (fun b => V b) s').trans ?_
  iintro ⟨%h, -⟩
  ipureintro
  exact fun b hb => h (rV b) (mem_SU b hb)

/-! ## The steps of @main -/

/-- A kernel region inside the SparseCore program, from its step on the valuation. -/
theorem step_region (p : Fin 3) (n : ℕ) (y : Ref sig .tc) (o : Valuation τ sig (Elt F) → (rV y).ty.Contents (Elt F))
    (hR : RegionStep (F := F) p n y o) (d : Dev nD) (V : Valuation τ sig (Elt F)) {α : Type}
    (k : PUnit → Prog (TpuEff nD τ sig (Elt F) (SparseCore.Sig (ΛP (F := F)) 2) .tc) α) (Q : α → sProp 𝕄) :
    iprop((iprop(boundary (SparseCore.T d) ∗ held (SparseCore.T d) SU (Function.update V (rV y) (o V)) ∗ owesTc (F := F) d n)
            -∗ wp frame (wpE ((K (F := F)).defs (D (F := F))) 𝒱 (SparseCore.T d) none) Set.univ (k ⟨⟩) Q)
        ∗ boundary (SparseCore.T d) ∗ held (SparseCore.T d) SU V ∗ owesTc (F := F) d n ∗ levAts (K (F := F)).L (K (F := F)).lev
        ∗ Pipeline.cellsGhost cfgs EP p d ∗ Pipeline.toksInit cfgs EP p d)
      ⊢ wp frame (wpE ((K (F := F)).defs (D (F := F))) 𝒱 (SparseCore.T d) none) Set.univ
          (Prog.lift (.customCall (SparseCore.inner (Pipeline.entry p)) ()) >>= k) Q := by
  rw [wp_bind]
  refine BIBase.Entails.trans ?_ ((K (F := F)).wp_liftProg (D (F := F)) 𝒱 (SparseCore.T d) Set.univ none
    (Prog.lift (.customCall (Pipeline.entry p) ()) : Prog (TpuEff nD τ sig (Elt F) (ΛP (F := F)) .tc) PUnit) _)
  refine BIBase.Entails.trans ?_ (hR d V (fun u => .ret u) _)
  iintro ⟨Hk, Hrest⟩
  isplitl [Hk]
  · iintro H
    rw [wp_ret]; imodintro
    iapply Hk; iexact H
  · iexact Hrest

omit [FloatOps F] [Named F] in
theorem st0_eq (X : CallData F) (d : Dev nD) : (bigSep Finset.univ fun c : Fin ((K (F := F)).nCore 0) => (P X).st 0 d c)
    = (bigSep Finset.univ fun c : Fin ((K (F := F)).nCore 0) => bigSep Finset.univ fun i : Fin ((K (F := F)).nSub 0) => tileRes0 X d (wid 0 c i) (X.fo0 d) : sProp 𝕄) := rfl
omit [FloatOps F] [Named F] in
theorem dn0_eq (X : CallData F) (d : Dev nD) : (bigSep Finset.univ fun c : Fin ((K (F := F)).nCore 0) => (P X).dn 0 d c)
    = (bigSep Finset.univ fun c : Fin ((K (F := F)).nCore 0) => bigSep Finset.univ fun i : Fin ((K (F := F)).nSub 0) => tileRes0 X d (wid 0 c i) (gat0 X d) : sProp 𝕄) := rfl
omit [FloatOps F] [Named F] in
theorem st1_eq (X : CallData F) (d : Dev nD) : (bigSep Finset.univ fun c : Fin ((K (F := F)).nCore 1) => (P X).st 1 d c)
    = (bigSep Finset.univ fun c : Fin ((K (F := F)).nCore 1) => bigSep Finset.univ fun i : Fin ((K (F := F)).nSub 1) => tileRes1 X d (wid 1 c i) (X.fo1 d) : sProp 𝕄) := rfl
omit [FloatOps F] [Named F] in
theorem dn1_eq (X : CallData F) (d : Dev nD) : (bigSep Finset.univ fun c : Fin ((K (F := F)).nCore 1) => (P X).dn 1 d c)
    = (bigSep Finset.univ fun c : Fin ((K (F := F)).nCore 1) => bigSep Finset.univ fun i : Fin ((K (F := F)).nSub 1) => tileRes1 X d (wid 1 c i) (gat1 X d) : sProp 𝕄) := rfl

section Calls

variable (Ω : Outs F) (m : (ℓ : Loc nD τ sig) → Buf (Elt F) ℓ)

omit [FloatOps F] [Named F] in
theorem sub3_0 : ({rV main_v22, rV main_v24, rV main_v25} : Finset (DevRef τ sig)) ⊆ SU := by
  intro x hx
  simp only [Finset.mem_insert, Finset.mem_singleton] at hx
  rcases hx with rfl | rfl | rfl
  · exact mem_SU _ rfl
  · exact mem_SU _ rfl
  · exact mem_SU _ rfl

/-- SparseCore call 0: the projected array, the call's index array and its result leave the held set, split into the
    tasks' resources, and come back with the result at the gathered values. -/
theorem step_run0 (κ : GSem nD τ sig → ℕ) (d : Dev nD) {Φ : PUnit → sProp 𝕄} :
    iprop((K (F := F)).ctx EH (P (XD Ω m)) κ ∗ (K (F := F)).tcSt EH d 0 ∗ held (SparseCore.T d) SU (V3 Ω m d)
        ∗ (((K (F := F)).tcSt EH d 1 ∗ held (SparseCore.T d) SU (V4 Ω m d)) -∗ Φ ⟨⟩))
      ⊢ wp frame (wpE ((K (F := F)).defs (D (F := F))) 𝒱 (SparseCore.T d) none) Set.univ ((K (F := F)).run d 0) Φ := by
  have hne1 : rV main_v22 ≠ rV main_v24 := by decide
  have hne2 : rV main_v22 ≠ rV main_v25 := by decide
  have hne3 : rV main_v24 ≠ rV main_v25 := by decide
  unfold V4
  rw [held_take3 d (V3 Ω m d) _ _ _ hne1 hne2 hne3 sub3_0, held_update3 d (V3 Ω m d) _ _ _ hne1 hne2 hne3 sub3_0]
  iintro ⟨#Hctx, Hst, ⟨⟨Hp, Hi, Ho⟩, Hrest⟩, Hk⟩
  ihave Hs := (call_split0 (XD Ω m) d ((XD Ω m).fo0 d)).1 $$ [Hp Hi Ho]
  · isplitl [Hp]; · iexact Hp
    isplitl [Hi]; · iexact Hi
    iexact Ho
  icases Hs with ⟨Hr, Htiles⟩
  iapply ((K (F := F)).wp_run (D (F := F)) 𝒱 (EH := EH) (P := P (XD Ω m)) κ d 0) $$ [Hst Htiles Hr Hrest Hk]
  isplitr; · iexact Hctx
  isplitl [Hst]; · iexact Hst
  isplitl [Htiles]
  · iapply (Entails.of_eq (st0_eq (XD Ω m) d).symm); iexact Htiles
  iintro ⟨Hst, Hdn⟩
  ihave Hdn' := (Entails.of_eq (dn0_eq (XD Ω m) d)) $$ Hdn
  ihave Hj := (call_split0 (XD Ω m) d (gat0 (XD Ω m) d)).2 $$ [Hr Hdn']
  · isplitl [Hr]; · iexact Hr
    iexact Hdn'
  icases Hj with ⟨Hp, Hi, Ho⟩
  iapply Hk
  isplitl [Hst]; · iexact Hst
  isplitl [Hp Hi Ho]
  · isplitl [Hp]; · iexact Hp
    isplitl [Hi]; · iexact Hi
    iexact Ho
  iexact Hrest

omit [FloatOps F] [Named F] in
theorem sub3_1 : ({rV main_v22, rV main_v43, rV main_v44} : Finset (DevRef τ sig)) ⊆ SU := by
  intro x hx
  simp only [Finset.mem_insert, Finset.mem_singleton] at hx
  rcases hx with rfl | rfl | rfl
  · exact mem_SU _ rfl
  · exact mem_SU _ rfl
  · exact mem_SU _ rfl

/-- SparseCore call 1: the projected array, the call's index array and its result leave the held set, split into the
    tasks' resources, and come back with the result at the gathered values. -/
theorem step_run1 (κ : GSem nD τ sig → ℕ) (d : Dev nD) {Φ : PUnit → sProp 𝕄} :
    iprop((K (F := F)).ctx EH (P (XD Ω m)) κ ∗ (K (F := F)).tcSt EH d 1 ∗ held (SparseCore.T d) SU (V7 Ω m d)
        ∗ (((K (F := F)).tcSt EH d 2 ∗ held (SparseCore.T d) SU (V8 Ω m d)) -∗ Φ ⟨⟩))
      ⊢ wp frame (wpE ((K (F := F)).defs (D (F := F))) 𝒱 (SparseCore.T d) none) Set.univ ((K (F := F)).run d 1) Φ := by
  have hne1 : rV main_v22 ≠ rV main_v43 := by decide
  have hne2 : rV main_v22 ≠ rV main_v44 := by decide
  have hne3 : rV main_v43 ≠ rV main_v44 := by decide
  unfold V8
  rw [held_take3 d (V7 Ω m d) _ _ _ hne1 hne2 hne3 sub3_1, held_update3 d (V7 Ω m d) _ _ _ hne1 hne2 hne3 sub3_1]
  iintro ⟨#Hctx, Hst, ⟨⟨Hp, Hi, Ho⟩, Hrest⟩, Hk⟩
  ihave Hs := (call_split1 (XD Ω m) d ((XD Ω m).fo1 d)).1 $$ [Hp Hi Ho]
  · isplitl [Hp]; · iexact Hp
    isplitl [Hi]; · iexact Hi
    iexact Ho
  icases Hs with ⟨Hr, Htiles⟩
  iapply ((K (F := F)).wp_run (D (F := F)) 𝒱 (EH := EH) (P := P (XD Ω m)) κ d 1) $$ [Hst Htiles Hr Hrest Hk]
  isplitr; · iexact Hctx
  isplitl [Hst]; · iexact Hst
  isplitl [Htiles]
  · iapply (Entails.of_eq (st1_eq (XD Ω m) d).symm); iexact Htiles
  iintro ⟨Hst, Hdn⟩
  ihave Hdn' := (Entails.of_eq (dn1_eq (XD Ω m) d)) $$ Hdn
  ihave Hj := (call_split1 (XD Ω m) d (gat1 (XD Ω m) d)).2 $$ [Hr Hdn']
  · isplitl [Hr]; · iexact Hr
    iexact Hdn'
  icases Hj with ⟨Hp, Hi, Ho⟩
  iapply Hk
  isplitl [Hst]; · iexact Hst
  isplitl [Hp Hi Ho]
  · isplitl [Hp]; · iexact Hp
    isplitl [Hi]; · iexact Hi
    iexact Ho
  iexact Hrest

end Calls

/-! ## @main on the TensorCore -/

section Main

variable (Ω : Outs F) (m : (ℓ : Loc nD τ sig) → Buf (Elt F) ℓ) (ρ : Dev nD → PrngReg)

/-- What @main leaves the claim: its arrays held at the last valuation. -/
abbrev FIN (d : Dev nD) : sProp 𝕄 := held (SparseCore.T d) SU (V11 Ω m d)

set_option maxHeartbeats 8000000 in
set_option backward.isDefEq.respectTransparency.types false in
/-- @main on device d's TensorCore: six stretches of host operations, the three kernel regions as steps on the
    valuation, the two SparseCore calls. -/
theorem hmain (hR0 : RegionStep (F := F) 0 0 main_v22 Ω.o0) (hR1 : RegionStep (F := F) 1 1 main_v41 Ω.o1)
    (hR2 : RegionStep (F := F) 2 2 main_v60 Ω.o2) (κ : GSem nD τ sig → ℕ) (d : Dev nD) :
    iprop((K (F := F)).ctx EH (P (XD Ω m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN Ω m d) := by
  obtain ⟨R0, e0⟩ : ∃ R : sProp 𝕄, (K (F := F)).tcSt EH d 0 = iprop(owesTc (F := F) d 0 ∗ R) := ⟨_, rfl⟩
  obtain ⟨R1, e1⟩ : ∃ R : sProp 𝕄, (K (F := F)).tcSt EH d 1 = iprop(owesTc (F := F) d 1 ∗ R) := ⟨_, rfl⟩
  obtain ⟨R2, e2⟩ : ∃ R : sProp 𝕄, (K (F := F)).tcSt EH d 2 = iprop(owesTc (F := F) d 2 ∗ R) := ⟨_, rfl⟩
  unfold SparseCore.Cfg.tcRes G
  rw [unscoped_held, main_eq, bigSep_W0,
    show (seq (opsF (F := F)) : Prog (TpuEff nD τ sig (Elt F) (SparseCore.Sig (ΛP (F := F)) 2) .tc) PUnit)
      = (seq (opsF (F := F)) >>= fun _ => pure ⟨⟩) from (Prog.bind_pure _).symm]
  iintro ⟨#Hctx, Hst, ⟨Hb, Hheld, -, -⟩, ⟨Hg0, Ht0⟩, ⟨Hg1, Ht1⟩, ⟨Hg2, Ht2⟩⟩
  -- stretch 1
  iapply (wp_seq 𝒱 none Set.univ d SU _ (opsA (F := F)) (hS_of hTA) hfA (V0 m d)) $$ [Hb Hheld]
  · isplitl [Hb]; · iexact Hb
    iexact Hheld
  iintro ⟨Hb, Hheld⟩
  -- region 0
  ihave Hst' := (Entails.of_eq e0) $$ Hst
  icases Hst' with ⟨HO, HR⟩
  ihave Hlev := (SparseCore.Cfg.ctx_levAts κ) $$ Hctx
  iapply (step_region 0 0 main_v22 Ω.o0 hR0 d (V1 m d) _ _)
  isplitr [Hb Hheld HO Hlev Hg0 Ht0]
  swap
  · isplitl [Hb]; · iexact Hb
    isplitl [Hheld]; · iexact Hheld
    isplitl [HO]; · iexact HO
    isplitl [Hlev]; · iexact Hlev
    isplitl [Hg0]; · iexact Hg0
    iexact Ht0
  iintro ⟨Hb, Hheld, HO⟩
  -- stretch 2
  iapply (wp_seq 𝒱 none Set.univ d SU _ (opsB (F := F)) (hS_of hTB) hfB (V2 Ω m d)) $$ [Hb Hheld]
  · isplitl [Hb]; · iexact Hb
    iexact Hheld
  iintro ⟨Hb, Hheld⟩
  -- SparseCore call 0
  rw [wp_bind]
  iapply (step_run0 Ω m κ d)
  isplitr; · iexact Hctx
  isplitl [HO HR]
  · iapply (Entails.of_eq e0.symm)
    isplitl [HO]; · iexact HO
    iexact HR
  isplitl [Hheld]; · iexact Hheld
  iintro ⟨Hst, Hheld⟩
  -- stretch 3
  iapply (wp_seq 𝒱 none Set.univ d SU _ (opsC (F := F)) (hS_of hTC) hfC (V4 Ω m d)) $$ [Hb Hheld]
  · isplitl [Hb]; · iexact Hb
    iexact Hheld
  iintro ⟨Hb, Hheld⟩
  -- region 1
  ihave Hst' := (Entails.of_eq e1) $$ Hst
  icases Hst' with ⟨HO, HR⟩
  ihave Hlev := (SparseCore.Cfg.ctx_levAts κ) $$ Hctx
  iapply (step_region 1 1 main_v41 Ω.o1 hR1 d (V5 Ω m d) _ _)
  isplitr [Hb Hheld HO Hlev Hg1 Ht1]
  swap
  · isplitl [Hb]; · iexact Hb
    isplitl [Hheld]; · iexact Hheld
    isplitl [HO]; · iexact HO
    isplitl [Hlev]; · iexact Hlev
    isplitl [Hg1]; · iexact Hg1
    iexact Ht1
  iintro ⟨Hb, Hheld, HO⟩
  -- stretch 4
  iapply (wp_seq 𝒱 none Set.univ d SU _ (opsD (F := F)) (hS_of hTD) hfD (V6 Ω m d)) $$ [Hb Hheld]
  · isplitl [Hb]; · iexact Hb
    iexact Hheld
  iintro ⟨Hb, Hheld⟩
  -- SparseCore call 1
  rw [wp_bind]
  iapply (step_run1 Ω m κ d)
  isplitr; · iexact Hctx
  isplitl [HO HR]
  · iapply (Entails.of_eq e1.symm)
    isplitl [HO]; · iexact HO
    iexact HR
  isplitl [Hheld]; · iexact Hheld
  iintro ⟨Hst, Hheld⟩
  -- stretch 5
  iapply (wp_seq 𝒱 none Set.univ d SU _ (opsE (F := F)) (hS_of hTE) hfE (V8 Ω m d)) $$ [Hb Hheld]
  · isplitl [Hb]; · iexact Hb
    iexact Hheld
  iintro ⟨Hb, Hheld⟩
  -- region 2
  ihave Hst' := (Entails.of_eq e2) $$ Hst
  icases Hst' with ⟨HO, HR⟩
  ihave Hlev := (SparseCore.Cfg.ctx_levAts κ) $$ Hctx
  iapply (step_region 2 2 main_v60 Ω.o2 hR2 d (V9 Ω m d) _ _)
  isplitr [Hb Hheld HO Hlev Hg2 Ht2]
  swap
  · isplitl [Hb]; · iexact Hb
    isplitl [Hheld]; · iexact Hheld
    isplitl [HO]; · iexact HO
    isplitl [Hlev]; · iexact Hlev
    isplitl [Hg2]; · iexact Hg2
    iexact Ht2
  iintro ⟨Hb, Hheld, HO⟩
  -- stretch 6 and the return
  iapply (wp_seq 𝒱 none Set.univ d SU _ (opsF (F := F)) (hS_of hTF) hfF (V10 Ω m d)) $$ [Hb Hheld]
  · isplitl [Hb]; · iexact Hb
    iexact Hheld
  iintro ⟨Hb, Hheld⟩
  rw [wp_pure]; imodintro
  isplitl [HO HR]
  · iapply (Entails.of_eq e2.symm)
    isplitl [HO]; · iexact HO
    iexact HR
  iexact Hheld

/-! ## The final memory -/

/-- What the final memory says on device d: every array of @main holds the last valuation's contents. -/
def fq (d : Dev nD) (s' : Phys nD τ sig (Elt F)) : Prop :=
  ∀ b : Ref sig .tc, b.isScoped = false → s'.mem.mem ((SparseCore.T d).loc b) = V11 Ω m d (rV b)

theorem hfin (d : Dev nD) (s' : Phys nD τ sig (Elt F)) : iprop(FIN Ω m d ∗ SI s') ⊢ (⌜fq Ω m d s'⌝ : sProp 𝕄) :=
  held_read d (V11 Ω m d) s'

end Main

/-! ## The program's run -/

section Run

variable (Ω : Outs F) (m : (ℓ : Loc nD τ sig) → Buf (Elt F) ℓ) (g : Dev nD → PrngReg)

/-- Every array of @main ends at the last valuation's contents: its arguments, which no operation writes, and its
    result among them. -/
def QC : PUnit × MemSt nD τ sig (Elt F) → Prop :=
  fun r => ∀ (c : Dev nD) (b : Ref sig .tc), b.isScoped = false → r.2.mem ((SparseCore.T c).loc b) = V11 Ω m c (rV b)

theorem run_main [∀ e, Nonempty (Elt F e)]
    (hR0 : RegionStep (F := F) 0 0 main_v22 Ω.o0) (hR1 : RegionStep (F := F) 1 1 main_v41 Ω.o1)
    (hR2 : RegionStep (F := F) 2 2 main_v60 Ω.o2)
    (htile0 : (K (F := F)).TileObl (D (F := F)) 𝒱 (P (XD Ω m)) v₀ 0) (htile1 : (K (F := F)).TileObl (D (F := F)) 𝒱 (P (XD Ω m)) v₀ 1) :
    θ_run (Cert.KernelIdeal.defs (F := F)) (Cert.KernelIdeal.threads (F := F)) ⟨m, fun _ => 0, g⟩ (QC Ω m) :=
  SparseCore.Cfg.θ_run_sc (K := K (F := F)) (D := D (F := F)) (𝒱 := 𝒱) (EH := EH) (P := P (XD Ω m)) facts v₀
    (fun q hq => match q with | 0 => nomatch hq | 1 => nomatch hq)
    (fun q _ => match q with | 0 => htile0 | 1 => htile1)
    (fun q _ => SparseCore.Cfg.VecSplit.of_plain (vecSplit (XD Ω m) q))
    m g main (fun d => G (F := F) d) (FIN Ω m) (u₀ (F := F)) (sep_elim_left.trans (hu₀ (XD Ω m))) (hmain Ω m g hR0 hR1 hR2)
    (fq Ω m) (hfin Ω m) (QC Ω m) (fun _ h => h)

end Run

end Cert.KernelIdeal.KMain

end
-- ==== Proof.KMainD.lean ====
/-
  No operation, region or call of @main writes an argument array: the last valuation holds each at its launch
  contents. The program's run, stated of the result and the arguments.
-/
import proofs.«215572_g25211458027672_cont_9to1_2008_46_alg».proof.Proof.KMainC

noncomputable section

namespace Cert.KernelIdeal.KMain

open Cert.KernelIdeal Cert.KernelIdeal.Gen Cert.KernelIdeal.KS Cert.KernelIdeal.KPay Cert.KernelIdeal.KSplit

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within wp_seq seq after)

variable {F : FTy → Type} [FloatOps F] [Named F]

local notation "𝕄" => MT nD τ sig (HIx 2) (Elt F) ℕ UU ℕ

/-- The arrays @main's operations, regions and calls write. -/
def WR : List (Ref sig .tc) :=
  [main_v0, main_v1, main_v2, main_v3, main_v4, main_v5, main_v6, main_v7, main_v8, main_v9, main_v10, main_v11, main_c, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_call0.v15.ref, main_v13, main_v14, main_v15, main_v16, main_v17, main_v18, main_v19, main_v20, main_v21, main_v23, main_v24, main_v26, main_v27, main_v28, main_v29, main_v30, main_v31, main_v32, main_v33, main_v34, main_v35, main_v36, main_v37, main_v38, main_v39, main_v40, main_v42, main_v43, main_v45, main_v46, main_v47, main_v48, main_v49, main_v50, main_v51, main_v52, main_v53, main_v54, main_v55, main_v56, main_v57, main_v58, main_v59, main_v61, main_v22, main_v25, main_v41, main_v44, main_v60]

omit [FloatOps F] [Named F] in
theorem w_of {ops : List (HloOp τ sig (Elt F))} (h : ∀ op ∈ ops, ∃ y : Ref sig .tc, y ∈ WR ∧ op.writes = {rV y}) :
    ops.Forall fun op => op.writes ⊆ (WR.map (Proc.devRef (τ := τ) .tc)).toFinset :=
  List.forall_iff_forall_mem.mpr fun op hop => by
    obtain ⟨y, hy, e⟩ := h op hop
    rw [e, Finset.singleton_subset_iff, List.mem_toFinset]
    exact List.mem_map.mpr ⟨y, hy, rfl⟩

theorem wA' : ∀ op ∈ opsA (F := F), ∃ y : Ref sig .tc, y ∈ WR ∧ op.writes = {rV y} := by
  intro _ h; unfold opsA at h
  (repeat (cases h with | head => exact ⟨_, by decide, rfl⟩ | tail _ h => ?_)); exact nomatch h
theorem wA : (opsA (F := F)).Forall fun op => op.writes ⊆ (WR.map (Proc.devRef (τ := τ) .tc)).toFinset := w_of wA'
theorem wB' : ∀ op ∈ opsB (F := F), ∃ y : Ref sig .tc, y ∈ WR ∧ op.writes = {rV y} := by
  intro _ h; unfold opsB at h
  (repeat (cases h with | head => exact ⟨_, by decide, rfl⟩ | tail _ h => ?_)); exact nomatch h
theorem wB : (opsB (F := F)).Forall fun op => op.writes ⊆ (WR.map (Proc.devRef (τ := τ) .tc)).toFinset := w_of wB'
theorem wC' : ∀ op ∈ opsC (F := F), ∃ y : Ref sig .tc, y ∈ WR ∧ op.writes = {rV y} := by
  intro _ h; unfold opsC at h
  (repeat (cases h with | head => exact ⟨_, by decide, rfl⟩ | tail _ h => ?_)); exact nomatch h
theorem wC : (opsC (F := F)).Forall fun op => op.writes ⊆ (WR.map (Proc.devRef (τ := τ) .tc)).toFinset := w_of wC'
theorem wD' : ∀ op ∈ opsD (F := F), ∃ y : Ref sig .tc, y ∈ WR ∧ op.writes = {rV y} := by
  intro _ h; unfold opsD at h
  (repeat (cases h with | head => exact ⟨_, by decide, rfl⟩ | tail _ h => ?_)); exact nomatch h
theorem wD : (opsD (F := F)).Forall fun op => op.writes ⊆ (WR.map (Proc.devRef (τ := τ) .tc)).toFinset := w_of wD'
theorem wE' : ∀ op ∈ opsE (F := F), ∃ y : Ref sig .tc, y ∈ WR ∧ op.writes = {rV y} := by
  intro _ h; unfold opsE at h
  (repeat (cases h with | head => exact ⟨_, by decide, rfl⟩ | tail _ h => ?_)); exact nomatch h
theorem wE : (opsE (F := F)).Forall fun op => op.writes ⊆ (WR.map (Proc.devRef (τ := τ) .tc)).toFinset := w_of wE'
theorem wF' : ∀ op ∈ opsF (F := F), ∃ y : Ref sig .tc, y ∈ WR ∧ op.writes = {rV y} := by
  intro _ h; unfold opsF at h
  (repeat (cases h with | head => exact ⟨_, by decide, rfl⟩ | tail _ h => ?_)); exact nomatch h
theorem wF : (opsF (F := F)).Forall fun op => op.writes ⊆ (WR.map (Proc.devRef (τ := τ) .tc)).toFinset := w_of wF'

/-- An array outside the written ones keeps its launch contents to the end. -/
theorem kept (Ω : Outs F) (m : (ℓ : Loc nD τ sig) → Buf (Elt F) ℓ) (d : Dev nD) (r : Ref sig .tc) (hr : r ∉ WR) :
    V11 Ω m d (rV r) = m ((SparseCore.T d).loc r) := by
  have h22 : rV r ≠ rV main_v22 := StableHlo.devRef_ne_of_ne fun e => hr (by rw [e]; decide)
  have h25 : rV r ≠ rV main_v25 := StableHlo.devRef_ne_of_ne fun e => hr (by rw [e]; decide)
  have h41 : rV r ≠ rV main_v41 := StableHlo.devRef_ne_of_ne fun e => hr (by rw [e]; decide)
  have h44 : rV r ≠ rV main_v44 := StableHlo.devRef_ne_of_ne fun e => hr (by rw [e]; decide)
  have h60 : rV r ≠ rV main_v60 := StableHlo.devRef_ne_of_ne fun e => hr (by rw [e]; decide)
  unfold V11
  rw [StableHlo.after_of_writes_sub (opsF (F := F)) _ wF hr]
  unfold V10
  rw [Function.update_of_ne h60]
  unfold V9
  rw [StableHlo.after_of_writes_sub (opsE (F := F)) _ wE hr]
  unfold V8
  rw [Function.update_of_ne h44]
  unfold V7
  rw [StableHlo.after_of_writes_sub (opsD (F := F)) _ wD hr]
  unfold V6
  rw [Function.update_of_ne h41]
  unfold V5
  rw [StableHlo.after_of_writes_sub (opsC (F := F)) _ wC hr]
  unfold V4
  rw [Function.update_of_ne h25]
  unfold V3
  rw [StableHlo.after_of_writes_sub (opsB (F := F)) _ wB hr]
  unfold V2
  rw [Function.update_of_ne h22]
  unfold V1
  rw [StableHlo.after_of_writes_sub (opsA (F := F)) _ wA hr]
  rfl

/-- The program's run: the result at the pure term RES, every argument unchanged. -/
theorem run_main' [∀ e, Nonempty (Elt F e)] (Ω : Outs F) (m : (ℓ : Loc nD τ sig) → Buf (Elt F) ℓ) (g : Dev nD → PrngReg)
    (hR0 : RegionStep (F := F) 0 0 main_v22 Ω.o0) (hR1 : RegionStep (F := F) 1 1 main_v41 Ω.o1)
    (hR2 : RegionStep (F := F) 2 2 main_v60 Ω.o2)
    (htile0 : (K (F := F)).TileObl (D (F := F)) 𝒱 (P (XD Ω m)) v₀ 0) (htile1 : (K (F := F)).TileObl (D (F := F)) 𝒱 (P (XD Ω m)) v₀ 1) :
    θ_run (Cert.KernelIdeal.defs (F := F)) (Cert.KernelIdeal.threads (F := F)) ⟨m, fun _ => 0, g⟩ (fun r => ∀ c : Dev nD,
      r.2.mem ((c.tc : Thread nD τ).loc main_v61) = RES Ω m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run Cert.KernelIdeal.defs _ _).mono (fun _ h c =>
    ⟨h c main_v61 rfl,
     (h c main_arg0 rfl).trans (kept Ω m c main_arg0 (by decide)),
     (h c main_arg1 rfl).trans (kept Ω m c main_arg1 (by decide)),
     (h c main_arg2 rfl).trans (kept Ω m c main_arg2 (by decide)),
     (h c main_arg3 rfl).trans (kept Ω m c main_arg3 (by decide)),
     (h c main_arg4 rfl).trans (kept Ω m c main_arg4 (by decide)),
     (h c main_arg5 rfl).trans (kept Ω m c main_arg5 (by decide)),
     (h c main_arg6 rfl).trans (kept Ω m c main_arg6 (by decide)),
     (h c main_arg7 rfl).trans (kept Ω m c main_arg7 (by decide)),
     (h c main_arg8 rfl).trans (kept Ω m c main_arg8 (by decide)),
     (h c main_arg9 rfl).trans (kept Ω m c main_arg9 (by decide)),
     (h c main_arg10 rfl).trans (kept Ω m c main_arg10 (by decide)),
     (h c main_arg11 rfl).trans (kept Ω m c main_arg11 (by decide)),
     (h c main_arg12 rfl).trans (kept Ω m c main_arg12 (by decide)),
     (h c main_arg13 rfl).trans (kept Ω m c main_arg13 (by decide)),
     (h c main_arg14 rfl).trans (kept Ω m c main_arg14 (by decide)),
     (h c main_arg15 rfl).trans (kept Ω m c main_arg15 (by decide)),
     (h c main_arg16 rfl).trans (kept Ω m c main_arg16 (by decide)),
     (h c main_arg17 rfl).trans (kept Ω m c main_arg17 (by decide)),
     (h c main_arg18 rfl).trans (kept Ω m c main_arg18 (by decide))⟩)
    (run_main Ω m g hR0 hR1 hR2 htile0 htile1)

end Cert.KernelIdeal.KMain

end
-- ==== Proof.KOuts.lean ====
/-
  The three kernel regions' results as functions of the valuation of @main's arrays at their entry: the projection of
  the node rows, and the layer on each half of the batch, each read off the arrays the region's windows stage, in the
  windows' order.
-/
import proofs.«215572_g25211458027672_cont_9to1_2008_46_alg».proof.Proof.KMainB
import proofs.«215572_g25211458027672_cont_9to1_2008_46_alg».proof.Proof.KResDef
import proofs.«215572_g25211458027672_cont_9to1_2008_46_alg».proof.Proof.KConst
import proofs.«215572_g25211458027672_cont_9to1_2008_46_alg».proof.Proof.SkeletonKernelIdeal

noncomputable section

namespace Cert.KernelIdeal.KMain

open Cert.KernelIdeal Cert.KernelIdeal.Gen Cert.KernelIdeal.KS

open Idealize.ShloMosaic

variable {F : FTy → Type} [FloatOps F] [Named F]

/-- Region 0: the node rows times rows 256 to 383 of the first weight. -/
def o0 (V : Valuation τ sig (Elt F)) : (rV main_v22).ty.Contents (Elt F) :=
  GenP.k0_pay1 (V (rV main_v21)) (V (rV main_v2))

/-- Region 1: the layer on batches 0 and 1. -/
def o1 (V : Valuation τ sig (Elt F)) : (rV main_v41).ty.Contents (Elt F) :=
  KValue.regionOut2 (KConst.inv36 (F := F)) (V (rV main_arg0)) (V (rV main_v3)) (V (rV main_v26)) (V (rV main_arg4)) (V (rV main_v10)) (V (rV main_v27)) (V (rV main_v19)) (V (rV main_v20)) (V (rV main_v0)) (V (rV main_v28)) (V (rV main_v29)) (V (rV main_v30)) (V (rV main_v31)) (V (rV main_arg9)) (V (rV main_v32)) (V (rV main_v33)) (V (rV main_v34)) (V (rV main_v35)) (V (rV main_v36)) (V (rV main_v37)) (V (rV main_v38)) (V (rV main_v39)) (V (rV main_v40))

/-- Region 2: the layer on batches 2 and 3. -/
def o2 (V : Valuation τ sig (Elt F)) : (rV main_v60).ty.Contents (Elt F) :=
  KValue.regionOut4 (KConst.inv36 (F := F)) (V (rV main_arg0)) (V (rV main_v3)) (V (rV main_v45)) (V (rV main_arg4)) (V (rV main_v10)) (V (rV main_v46)) (V (rV main_v19)) (V (rV main_v20)) (V (rV main_v0)) (V (rV main_v47)) (V (rV main_v48)) (V (rV main_v49)) (V (rV main_v50)) (V (rV main_arg9)) (V (rV main_v51)) (V (rV main_v52)) (V (rV main_v53)) (V (rV main_v54)) (V (rV main_v55)) (V (rV main_v56)) (V (rV main_v57)) (V (rV main_v58)) (V (rV main_v59))

/-- What the three kernel regions leave. -/
def OmegaK : Outs F := ⟨o0, o1, o2⟩

end Cert.KernelIdeal.KMain

end
-- ==== Proof.KRegBody.lean ====
import proofs.«215572_g25211458027672_cont_9to1_2008_46_alg».proof.Proof.Gen.KernelIdeal.Launch
import proofs.«215572_g25211458027672_cont_9to1_2008_46_alg».proof.Proof.Gen.KernelIdeal.Points
import proofs.«215572_g25211458027672_cont_9to1_2008_46_alg».proof.Proof.SkeletonKernelIdeal
import proofs.«215572_g25211458027672_cont_9to1_2008_46_alg».proof.Proof.KConst
import proofs.«215572_g25211458027672_cont_9to1_2008_46_alg».proof.Proof.KBodyDef
import proofs.«215572_g25211458027672_cont_9to1_2008_46_alg».proof.Proof.KBodyDef4
import Idealize.ShloMosaic.Lib.Pipeline.FrameBody
import Idealize.ShloMosaic.Lib.Pipeline.Regions
import Idealize.ShloMosaic.Lib.Tactic

set_option maxRecDepth 16384

noncomputable section

namespace Cert.KernelIdeal.Regions

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-! ## Region 0: the projection P = reshape(h_V) · W1[256:384] -/

/-- The whole-array rectangles the projection body loads and stores through. -/
abbrev rP : Rect S4096x128 := Rect.unit (s := S4096x128) ![0, 0] S4096x128.size inb_S4096x128_S4096x128_0_0
abbrev rW : Rect S128x128 := Rect.unit (s := S128x128) ![0, 0] S128x128.size inb_S128x128_S128x128_0_0

/-- What the projection body leaves in its output buffer, from the two input blocks. -/
def out0 (x0 : Vec F S4096x128 .f32) (x1 : Vec F S128x128 .f32) : Vec F S4096x128 .f32 :=
  View.canon [⟨rP, k0_pay1 (View.ld x0 rP) (View.ld x1 rW)⟩]

theorem cover0 (p0 : Vec F S4096x128 .f32) (y : S4096x128.Idx) :
    ∃ pc ∈ ([⟨rP, p0⟩] : List (View.Piece (Elt F) S4096x128 .f32)), y ∈ pc.1.set :=
  View.cover_of_tiled [⟨rP, p0⟩] S4096x128.size (by rfl) y

set_option maxHeartbeats 1000000 in
/-- The projection body on whole staging memrefs: inputs kept, the output at `out0` of the inputs. -/
theorem sound_kernel0 (𝒱₀ : Variants) (c : Dev nD) (E : Set Name)
    (arg0 : Memref sig .tc .vmem S4096x128 .f32) (harg0 : arg0.IsWhole) (arg1 : Memref sig .tc .vmem S128x128 .f32) (harg1 : arg1.IsWhole)
    (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0 x0 x1)) -∗ K ⟨⟩))
      ⊢ wp frame (wpE (defs₀ (F := F)) 𝒱₀ c none) E (cc0__proj_body arg0 harg0 arg1 harg1 arg2 harg2) K := by
  simp only [cc0__proj_body_eq_skeleton]; unfold cc0__proj_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

section Data0

variable (V : (c : Dev nD) → (b : Ref sig .tc) → Buf (Elt F) ((c : Thread nD τ).loc b))
  (O : Dev nD → CellTallies nD τ sig Ix) (Rc : Dev nD → Set (SemLoc sig × Ix))

/-- Window `w`'s block at point `t`, read off the contents `V` the region finds in the window's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: the arrays as the region finds them; after the body each input's buffer at
    its block and the output's at `out0` of the input blocks; the invariant the scoped buffers no window stages; the
    core owing `O c` throughout, its recorded pairs within `Rc c`. -/
def dat0 (c : Dev nD) : Dat τ (Elt F) Ix Name U Lvl cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.scopedRest spec0 c
  q _ := fullShare
  owed _ := O c
  recorded _ := Rc c

theorem A0_eq (c : Dev nD) (w : Fin cfg0.W) : (dat0 (Name := Name) (U := U) (Lvl := Lvl) V O Rc c).A w = V c (Pipeline.arrRef spec0 w) := by
  dsimp only [dat0]

theorem after0_0 (c : Dev nD) (t : Fin cfg0.N) : (dat0 (Name := Name) (U := U) (Lvl := Lvl) V O Rc c).after 0 t = iblk0 V c 0 t := by dsimp only [dat0]
theorem after0_1 (c : Dev nD) (t : Fin cfg0.N) : (dat0 (Name := Name) (U := U) (Lvl := Lvl) V O Rc c).after 1 t = iblk0 V c 1 t := by dsimp only [dat0]
theorem after0_2 (c : Dev nD) (t : Fin cfg0.N) : (dat0 (Name := Name) (U := U) (Lvl := Lvl) V O Rc c).after 2 t = out0 (iblk0 V c 0 t) (iblk0 V c 1 t) := by dsimp only [dat0]

/-- Each input's current staging buffer holds its block at every point. -/
theorem before0_0 (c : Dev nD) (t : Fin cfg0.N) (d) : (dat0 (Name := Name) (U := U) (Lvl := Lvl) V O Rc c).before 0 t d = iblk0 V c 0 t :=
  ((dat0 V O Rc c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 (Name := Name) (U := U) (Lvl := Lvl) V O Rc c).before 1 t d = iblk0 V c 1 t :=
  ((dat0 V O Rc c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-- The body obligation of region 0, at every point. -/
theorem body_obligation0 (𝒱₀ : Variants) (ι : Ix) (c : Dev nD) :
    BodyObligation (dat0 (Name := Name) (U := U) (Lvl := Lvl) V O Rc c) (defs₀ (F := F)) 𝒱₀ ι Set.univ := fun t => by
  rw [bigSep_W0, bigSep_W0]
  simp only [before0_0, before0_1]
  rw [show (dat0 V O Rc c).Φ t.succ = (dat0 V O Rc c).Φ t.castSucc from rfl,
    show (dat0 V O Rc c).owesAt ι t.succ = (dat0 V O Rc c).owesAt ι t.castSucc from rfl,
    after0_0, after0_1, after0_2]
  iintro ⟨HΦ, Ho, ⟨%d0, H0⟩, ⟨%d1, H1⟩, ⟨%d2, H2⟩⟩
  iapply (sound_kernel0 𝒱₀ c Set.univ (win0_0.stage (cfg0.slots t 0)) (hstage0_0 0) (win0_1.stage (cfg0.slots t 1)) (hstage0_1 0) (win0_2.stage (cfg0.slots t 2)) (hstage0_2 0) (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Data0

/-! ## Regions 1 and 2: the layer on 128 nodes -/

/-- The whole-block rectangles the layer body loads and stores through, one per block shape. -/
abbrev r_S1x128x128 : Rect S1x128x128 := Rect.unit (s := S1x128x128) ![0, 0, 0] S1x128x128.size inb_S1x128x128_S1x128x128_0_0_0
abbrev r_S1x36x128x128 : Rect S1x36x128x128 := Rect.unit (s := S1x36x128x128) ![0, 0, 0, 0] S1x36x128x128.size inb_S1x36x128x128_S1x36x128x128_0_0_0_0
abbrev r_S36x128x128 : Rect S36x128x128 := Rect.unit (s := S36x128x128) ![0, 0, 0] S36x128x128.size inb_S36x128x128_S36x128x128_0_0_0
abbrev r_S1x128x36 : Rect S1x128x36 := Rect.unit (s := S1x128x36) ![0, 0, 0] S1x128x36.size inb_S1x128x36_S1x128x36_0_0_0
abbrev r_S1x1x1x4608 : Rect S1x1x1x4608 := Rect.unit (s := S1x1x1x4608) ![0, 0, 0, 0] S1x1x1x4608.size inb_S1x1x1x4608_S1x1x1x4608_0_0_0_0
abbrev r_S1x1x1x128 : Rect S1x1x1x128 := Rect.unit (s := S1x1x1x128) ![0, 0, 0, 0] S1x1x1x128.size inb_S1x1x1x128_S1x1x1x128_0_0_0_0
abbrev r_S128x4608 : Rect S128x4608 := Rect.unit (s := S128x4608) ![0, 0] S128x4608.size inb_S128x4608_S128x4608_0_0
abbrev r_S4608x128 : Rect S4608x128 := Rect.unit (s := S4608x128) ![0, 0] S4608x128.size inb_S4608x128_S4608x128_0_0
abbrev r_S128x128 : Rect S128x128 := Rect.unit (s := S128x128) ![0, 0] S128x128.size inb_S128x128_S128x128_0_0
abbrev r_S1x128 : Rect S1x128 := Rect.unit (s := S1x128) ![0, 0] S1x128.size inb_S1x128_S1x128_0_0
abbrev r_S128x512 : Rect S128x512 := Rect.unit (s := S128x512) ![0, 0] S128x512.size inb_S128x512_S128x512_0_0
abbrev r_S1x512 : Rect S1x512 := Rect.unit (s := S1x512) ![0, 0] S1x512.size inb_S1x512_S1x512_0_0
abbrev r_S512x128 : Rect S512x128 := Rect.unit (s := S512x128) ![0, 0] S512x128.size inb_S512x128_S512x128_0_0

/-- What the layer body leaves in its output buffer, from the 23 input blocks (in window order): the layer's value
    `BodyVal.bodyOut` of the blocks as loaded, stored over the whole buffer. -/
def out2 (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) : Vec F S1x128x128 .f32 :=
  View.canon [⟨r_S1x128x128, BodyVal.bodyOut (KConst.inv36 (F := F)) (View.ld x0 r_S1x128x128) (View.ld x1 r_S1x36x128x128) (View.ld x2 r_S36x128x128) (View.ld x3 r_S1x128x36) (View.ld x4 r_S1x1x1x4608) (View.ld x5 r_S1x1x1x128) (View.ld x6 r_S128x4608) (View.ld x7 r_S4608x128) (View.ld x8 r_S128x128) (View.ld x9 r_S1x128) (View.ld x10 r_S128x128) (View.ld x11 r_S128x128) (View.ld x12 r_S1x128) (View.ld x13 r_S128x128) (View.ld x14 r_S1x128) (View.ld x15 r_S128x512) (View.ld x16 r_S1x512) (View.ld x17 r_S512x128) (View.ld x18 r_S1x128) (View.ld x19 r_S1x128) (View.ld x20 r_S1x128) (View.ld x21 r_S1x128) (View.ld x22 r_S1x128)⟩]

theorem cover2 (p0 : Vec F S1x128x128 .f32) (y : S1x128x128.Idx) :
    ∃ pc ∈ ([⟨r_S1x128x128, p0⟩] : List (View.Piece (Elt F) S1x128x128 .f32)), y ∈ pc.1.set :=
  View.cover_of_tiled [⟨r_S1x128x128, p0⟩] S1x128x128.size (by rfl) y

/-- What the second half's layer body leaves in its output buffer: `BodyVal.bodyOut4` of the blocks as loaded. -/
def out4 (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) : Vec F S1x128x128 .f32 :=
  View.canon [⟨r_S1x128x128, BodyVal.bodyOut4 (KConst.inv36 (F := F)) (View.ld x0 r_S1x128x128) (View.ld x1 r_S1x36x128x128) (View.ld x2 r_S36x128x128) (View.ld x3 r_S1x128x36) (View.ld x4 r_S1x1x1x4608) (View.ld x5 r_S1x1x1x128) (View.ld x6 r_S128x4608) (View.ld x7 r_S4608x128) (View.ld x8 r_S128x128) (View.ld x9 r_S1x128) (View.ld x10 r_S128x128) (View.ld x11 r_S128x128) (View.ld x12 r_S1x128) (View.ld x13 r_S128x128) (View.ld x14 r_S1x128) (View.ld x15 r_S128x512) (View.ld x16 r_S1x512) (View.ld x17 r_S512x128) (View.ld x18 r_S1x128) (View.ld x19 r_S1x128) (View.ld x20 r_S1x128) (View.ld x21 r_S1x128) (View.ld x22 r_S1x128)⟩]

set_option maxHeartbeats 4000000 in
/-- The layer body on whole staging memrefs: the inputs kept, the output at `out2` of the inputs. -/
theorem sound_kernel2 (𝒱₀ : Variants) (c : Dev nD) (E : Set Name) (i : grid2.Coords) (arg2 : Memref sig .tc .vmem S1x128x128 .f32) (harg2 : arg2.IsWhole) (arg3 : Memref sig .tc .vmem S1x36x128x128 .f32) (harg3 : arg3.IsWhole) (arg4 : Memref sig .tc .vmem S36x128x128 .f32) (harg4 : arg4.IsWhole) (arg5 : Memref sig .tc .vmem S1x128x36 .f32) (harg5 : arg5.IsWhole) (arg6 : Memref sig .tc .vmem S1x1x1x4608 .bf16) (harg6 : arg6.IsWhole) (arg7 : Memref sig .tc .vmem S1x1x1x128 .f32) (harg7 : arg7.IsWhole) (arg8 : Memref sig .tc .vmem S128x4608 .bf16) (harg8 : arg8.IsWhole) (arg9 : Memref sig .tc .vmem S4608x128 .bf16) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x512 .bf16) (harg17 : arg17.IsWhole) (arg18 : Memref sig .tc .vmem S1x512 .f32) (harg18 : arg18.IsWhole) (arg19 : Memref sig .tc .vmem S512x128 .bf16) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128x128 .f32) (harg25 : arg25.IsWhole)
    (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare (out2 x0 x1 x2 x3 x4 x5 x6 x7 x8 x9 x10 x11 x12 x13 x14 x15 x16 x17 x18 x19 x20 x21 x22)) -∗ K ⟨⟩))
      ⊢ wp frame (wpE (defs₀ (F := F)) 𝒱₀ c none) E (cc2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc2_body_eq_skeleton]; unfold cc2_body_skel
  simp only [k2_part1_eq_skeleton, k2_part2_eq_skeleton, k2_part3_eq_skeleton, k2_part4_eq_skeleton]
  unfold k2_part1_skel k2_part2_skel k2_part3_skel k2_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  exact View.read_writes_eq_canon _ _ _ (cover2 _)

section Data2

variable (V : (c : Dev nD) → (b : Ref sig .tc) → Buf (Elt F) ((c : Thread nD τ).loc b))
  (O : Dev nD → CellTallies nD τ sig Ix) (Rc : Dev nD → Set (SemLoc sig × Ix))

/-- Window `w`'s block at point `t`, read off the contents `V` the region finds in the window's array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The layer's value at point `t`, from the 23 input blocks there. -/
def outAt2 (c : Dev nD) (t : Fin cfg2.N) : Vec F S1x128x128 .f32 :=
  out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t)

/-- The proof data of the region on core `c`: the arrays as the region finds them; after the body each input's buffer
    at its block and the output's at the layer's value of the input blocks; the invariant the scoped buffers no window
    stages; the core owing `O c` throughout, its recorded pairs within `Rc c`. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => outAt2 V c t
    | ⟨_ + 24, h⟩ => absurd h (Nat.not_lt.2 (Nat.le_add_left _ _))
  Φ _ := Pipeline.scopedRest spec2 c
  q _ := fullShare
  owed _ := O c
  recorded _ := Rc c

theorem A2_eq (c : Dev nD) (w : Fin cfg2.W) : (dat2 (Name := Name) (U := U) (Lvl := Lvl) V O Rc c).A w = V c (Pipeline.arrRef spec2 w) := by
  dsimp only [dat2]

theorem after2_0 (c : Dev nD) (t : Fin cfg2.N) : (dat2 (Name := Name) (U := U) (Lvl := Lvl) V O Rc c).after 0 t = iblk2 V c 0 t := by dsimp only [dat2]
theorem after2_1 (c : Dev nD) (t : Fin cfg2.N) : (dat2 (Name := Name) (U := U) (Lvl := Lvl) V O Rc c).after 1 t = iblk2 V c 1 t := by dsimp only [dat2]
theorem after2_2 (c : Dev nD) (t : Fin cfg2.N) : (dat2 (Name := Name) (U := U) (Lvl := Lvl) V O Rc c).after 2 t = iblk2 V c 2 t := by dsimp only [dat2]
theorem after2_3 (c : Dev nD) (t : Fin cfg2.N) : (dat2 (Name := Name) (U := U) (Lvl := Lvl) V O Rc c).after 3 t = iblk2 V c 3 t := by dsimp only [dat2]
theorem after2_4 (c : Dev nD) (t : Fin cfg2.N) : (dat2 (Name := Name) (U := U) (Lvl := Lvl) V O Rc c).after 4 t = iblk2 V c 4 t := by dsimp only [dat2]
theorem after2_5 (c : Dev nD) (t : Fin cfg2.N) : (dat2 (Name := Name) (U := U) (Lvl := Lvl) V O Rc c).after 5 t = iblk2 V c 5 t := by dsimp only [dat2]
theorem after2_6 (c : Dev nD) (t : Fin cfg2.N) : (dat2 (Name := Name) (U := U) (Lvl := Lvl) V O Rc c).after 6 t = iblk2 V c 6 t := by dsimp only [dat2]
theorem after2_7 (c : Dev nD) (t : Fin cfg2.N) : (dat2 (Name := Name) (U := U) (Lvl := Lvl) V O Rc c).after 7 t = iblk2 V c 7 t := by dsimp only [dat2]
theorem after2_8 (c : Dev nD) (t : Fin cfg2.N) : (dat2 (Name := Name) (U := U) (Lvl := Lvl) V O Rc c).after 8 t = iblk2 V c 8 t := by dsimp only [dat2]
theorem after2_9 (c : Dev nD) (t : Fin cfg2.N) : (dat2 (Name := Name) (U := U) (Lvl := Lvl) V O Rc c).after 9 t = iblk2 V c 9 t := by dsimp only [dat2]
theorem after2_10 (c : Dev nD) (t : Fin cfg2.N) : (dat2 (Name := Name) (U := U) (Lvl := Lvl) V O Rc c).after 10 t = iblk2 V c 10 t := by dsimp only [dat2]
theorem after2_11 (c : Dev nD) (t : Fin cfg2.N) : (dat2 (Name := Name) (U := U) (Lvl := Lvl) V O Rc c).after 11 t = iblk2 V c 11 t := by dsimp only [dat2]
theorem after2_12 (c : Dev nD) (t : Fin cfg2.N) : (dat2 (Name := Name) (U := U) (Lvl := Lvl) V O Rc c).after 12 t = iblk2 V c 12 t := by dsimp only [dat2]
theorem after2_13 (c : Dev nD) (t : Fin cfg2.N) : (dat2 (Name := Name) (U := U) (Lvl := Lvl) V O Rc c).after 13 t = iblk2 V c 13 t := by dsimp only [dat2]
theorem after2_14 (c : Dev nD) (t : Fin cfg2.N) : (dat2 (Name := Name) (U := U) (Lvl := Lvl) V O Rc c).after 14 t = iblk2 V c 14 t := by dsimp only [dat2]
theorem after2_15 (c : Dev nD) (t : Fin cfg2.N) : (dat2 (Name := Name) (U := U) (Lvl := Lvl) V O Rc c).after 15 t = iblk2 V c 15 t := by dsimp only [dat2]
theorem after2_16 (c : Dev nD) (t : Fin cfg2.N) : (dat2 (Name := Name) (U := U) (Lvl := Lvl) V O Rc c).after 16 t = iblk2 V c 16 t := by dsimp only [dat2]
theorem after2_17 (c : Dev nD) (t : Fin cfg2.N) : (dat2 (Name := Name) (U := U) (Lvl := Lvl) V O Rc c).after 17 t = iblk2 V c 17 t := by dsimp only [dat2]
theorem after2_18 (c : Dev nD) (t : Fin cfg2.N) : (dat2 (Name := Name) (U := U) (Lvl := Lvl) V O Rc c).after 18 t = iblk2 V c 18 t := by dsimp only [dat2]
theorem after2_19 (c : Dev nD) (t : Fin cfg2.N) : (dat2 (Name := Name) (U := U) (Lvl := Lvl) V O Rc c).after 19 t = iblk2 V c 19 t := by dsimp only [dat2]
theorem after2_20 (c : Dev nD) (t : Fin cfg2.N) : (dat2 (Name := Name) (U := U) (Lvl := Lvl) V O Rc c).after 20 t = iblk2 V c 20 t := by dsimp only [dat2]
theorem after2_21 (c : Dev nD) (t : Fin cfg2.N) : (dat2 (Name := Name) (U := U) (Lvl := Lvl) V O Rc c).after 21 t = iblk2 V c 21 t := by dsimp only [dat2]
theorem after2_22 (c : Dev nD) (t : Fin cfg2.N) : (dat2 (Name := Name) (U := U) (Lvl := Lvl) V O Rc c).after 22 t = iblk2 V c 22 t := by dsimp only [dat2]
theorem after2_23 (c : Dev nD) (t : Fin cfg2.N) : (dat2 (Name := Name) (U := U) (Lvl := Lvl) V O Rc c).after 23 t = outAt2 V c t := by dsimp only [dat2]

/-- Each input's current staging buffer holds its block at every point, fetched there or not. -/
theorem before2_0 (c : Dev nD) (t : Fin cfg2.N) (d) : (dat2 (Name := Name) (U := U) (Lvl := Lvl) V O Rc c).before 0 t d = iblk2 V c 0 t :=
  ((dat2 V O Rc c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 (Name := Name) (U := U) (Lvl := Lvl) V O Rc c).before 1 t d = iblk2 V c 1 t :=
  ((dat2 V O Rc c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 (Name := Name) (U := U) (Lvl := Lvl) V O Rc c).before 2 t d = iblk2 V c 2 t :=
  ((dat2 V O Rc c).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 (Name := Name) (U := U) (Lvl := Lvl) V O Rc c).before 3 t d = iblk2 V c 3 t :=
  ((dat2 V O Rc c).before_in_eq_fetched 3 rfl (fun _ => rfl) (fun _ _ _ => rfl) (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 (Name := Name) (U := U) (Lvl := Lvl) V O Rc c).before 4 t d = iblk2 V c 4 t :=
  ((dat2 V O Rc c).before_in_eq_fetched 4 rfl (fun _ => rfl) (fun _ _ _ => rfl) (fun t => by rw [after2_4]; unfold Dat.blockOf iblk2; rw [A2_eq]; try rfl) t d).trans
    (by unfold Dat.fetched Dat.blockOf iblk2; rw [A2_eq]; try rfl)
theorem before2_5 (c : Dev nD) (t : Fin cfg2.N) (d) : (dat2 (Name := Name) (U := U) (Lvl := Lvl) V O Rc c).before 5 t d = iblk2 V c 5 t :=
  ((dat2 V O Rc c).before_in_eq_fetched 5 rfl (fun _ => rfl) (fun _ _ _ => rfl) (fun t => by rw [after2_5]; unfold Dat.blockOf iblk2; rw [A2_eq]; try rfl) t d).trans
    (by unfold Dat.fetched Dat.blockOf iblk2; rw [A2_eq]; try rfl)
theorem before2_6 (c : Dev nD) (t : Fin cfg2.N) (d) : (dat2 (Name := Name) (U := U) (Lvl := Lvl) V O Rc c).before 6 t d = iblk2 V c 6 t :=
  ((dat2 V O Rc c).before_in_eq_fetched 6 rfl (fun _ => rfl) (fun _ _ _ => rfl) (fun t => by rw [after2_6]; unfold Dat.blockOf iblk2; rw [A2_eq]; try rfl) t d).trans
    (by unfold Dat.fetched Dat.blockOf iblk2; rw [A2_eq]; try rfl)
theorem before2_7 (c : Dev nD) (t : Fin cfg2.N) (d) : (dat2 (Name := Name) (U := U) (Lvl := Lvl) V O Rc c).before 7 t d = iblk2 V c 7 t :=
  ((dat2 V O Rc c).before_in_eq_fetched 7 rfl (fun _ => rfl) (fun _ _ _ => rfl) (fun t => by rw [after2_7]; unfold Dat.blockOf iblk2; rw [A2_eq]; try rfl) t d).trans
    (by unfold Dat.fetched Dat.blockOf iblk2; rw [A2_eq]; try rfl)
theorem before2_8 (c : Dev nD) (t : Fin cfg2.N) (d) : (dat2 (Name := Name) (U := U) (Lvl := Lvl) V O Rc c).before 8 t d = iblk2 V c 8 t :=
  ((dat2 V O Rc c).before_in_eq_fetched 8 rfl (fun _ => rfl) (fun _ _ _ => rfl) (fun t => by rw [after2_8]; unfold Dat.blockOf iblk2; rw [A2_eq]; try rfl) t d).trans
    (by unfold Dat.fetched Dat.blockOf iblk2; rw [A2_eq]; try rfl)
theorem before2_9 (c : Dev nD) (t : Fin cfg2.N) (d) : (dat2 (Name := Name) (U := U) (Lvl := Lvl) V O Rc c).before 9 t d = iblk2 V c 9 t :=
  ((dat2 V O Rc c).before_in_eq_fetched 9 rfl (fun _ => rfl) (fun _ _ _ => rfl) (fun t => by rw [after2_9]; unfold Dat.blockOf iblk2; rw [A2_eq]; try rfl) t d).trans
    (by unfold Dat.fetched Dat.blockOf iblk2; rw [A2_eq]; try rfl)
theorem before2_10 (c : Dev nD) (t : Fin cfg2.N) (d) : (dat2 (Name := Name) (U := U) (Lvl := Lvl) V O Rc c).before 10 t d = iblk2 V c 10 t :=
  ((dat2 V O Rc c).before_in_eq_fetched 10 rfl (fun _ => rfl) (fun _ _ _ => rfl) (fun t => by rw [after2_10]; unfold Dat.blockOf iblk2; rw [A2_eq]; try rfl) t d).trans
    (by unfold Dat.fetched Dat.blockOf iblk2; rw [A2_eq]; try rfl)
theorem before2_11 (c : Dev nD) (t : Fin cfg2.N) (d) : (dat2 (Name := Name) (U := U) (Lvl := Lvl) V O Rc c).before 11 t d = iblk2 V c 11 t :=
  ((dat2 V O Rc c).before_in_eq_fetched 11 rfl (fun _ => rfl) (fun _ _ _ => rfl) (fun t => by rw [after2_11]; unfold Dat.blockOf iblk2; rw [A2_eq]; try rfl) t d).trans
    (by unfold Dat.fetched Dat.blockOf iblk2; rw [A2_eq]; try rfl)
theorem before2_12 (c : Dev nD) (t : Fin cfg2.N) (d) : (dat2 (Name := Name) (U := U) (Lvl := Lvl) V O Rc c).before 12 t d = iblk2 V c 12 t :=
  ((dat2 V O Rc c).before_in_eq_fetched 12 rfl (fun _ => rfl) (fun _ _ _ => rfl) (fun t => by rw [after2_12]; unfold Dat.blockOf iblk2; rw [A2_eq]; try rfl) t d).trans
    (by unfold Dat.fetched Dat.blockOf iblk2; rw [A2_eq]; try rfl)
theorem before2_13 (c : Dev nD) (t : Fin cfg2.N) (d) : (dat2 (Name := Name) (U := U) (Lvl := Lvl) V O Rc c).before 13 t d = iblk2 V c 13 t :=
  ((dat2 V O Rc c).before_in_eq_fetched 13 rfl (fun _ => rfl) (fun _ _ _ => rfl) (fun t => by rw [after2_13]; unfold Dat.blockOf iblk2; rw [A2_eq]; try rfl) t d).trans
    (by unfold Dat.fetched Dat.blockOf iblk2; rw [A2_eq]; try rfl)
theorem before2_14 (c : Dev nD) (t : Fin cfg2.N) (d) : (dat2 (Name := Name) (U := U) (Lvl := Lvl) V O Rc c).before 14 t d = iblk2 V c 14 t :=
  ((dat2 V O Rc c).before_in_eq_fetched 14 rfl (fun _ => rfl) (fun _ _ _ => rfl) (fun t => by rw [after2_14]; unfold Dat.blockOf iblk2; rw [A2_eq]; try rfl) t d).trans
    (by unfold Dat.fetched Dat.blockOf iblk2; rw [A2_eq]; try rfl)
theorem before2_15 (c : Dev nD) (t : Fin cfg2.N) (d) : (dat2 (Name := Name) (U := U) (Lvl := Lvl) V O Rc c).before 15 t d = iblk2 V c 15 t :=
  ((dat2 V O Rc c).before_in_eq_fetched 15 rfl (fun _ => rfl) (fun _ _ _ => rfl) (fun t => by rw [after2_15]; unfold Dat.blockOf iblk2; rw [A2_eq]; try rfl) t d).trans
    (by unfold Dat.fetched Dat.blockOf iblk2; rw [A2_eq]; try rfl)
theorem before2_16 (c : Dev nD) (t : Fin cfg2.N) (d) : (dat2 (Name := Name) (U := U) (Lvl := Lvl) V O Rc c).before 16 t d = iblk2 V c 16 t :=
  ((dat2 V O Rc c).before_in_eq_fetched 16 rfl (fun _ => rfl) (fun _ _ _ => rfl) (fun t => by rw [after2_16]; unfold Dat.blockOf iblk2; rw [A2_eq]; try rfl) t d).trans
    (by unfold Dat.fetched Dat.blockOf iblk2; rw [A2_eq]; try rfl)
theorem before2_17 (c : Dev nD) (t : Fin cfg2.N) (d) : (dat2 (Name := Name) (U := U) (Lvl := Lvl) V O Rc c).before 17 t d = iblk2 V c 17 t :=
  ((dat2 V O Rc c).before_in_eq_fetched 17 rfl (fun _ => rfl) (fun _ _ _ => rfl) (fun t => by rw [after2_17]; unfold Dat.blockOf iblk2; rw [A2_eq]; try rfl) t d).trans
    (by unfold Dat.fetched Dat.blockOf iblk2; rw [A2_eq]; try rfl)
theorem before2_18 (c : Dev nD) (t : Fin cfg2.N) (d) : (dat2 (Name := Name) (U := U) (Lvl := Lvl) V O Rc c).before 18 t d = iblk2 V c 18 t :=
  ((dat2 V O Rc c).before_in_eq_fetched 18 rfl (fun _ => rfl) (fun _ _ _ => rfl) (fun t => by rw [after2_18]; unfold Dat.blockOf iblk2; rw [A2_eq]; try rfl) t d).trans
    (by unfold Dat.fetched Dat.blockOf iblk2; rw [A2_eq]; try rfl)
theorem before2_19 (c : Dev nD) (t : Fin cfg2.N) (d) : (dat2 (Name := Name) (U := U) (Lvl := Lvl) V O Rc c).before 19 t d = iblk2 V c 19 t :=
  ((dat2 V O Rc c).before_in_eq_fetched 19 rfl (fun _ => rfl) (fun _ _ _ => rfl) (fun t => by rw [after2_19]; unfold Dat.blockOf iblk2; rw [A2_eq]; try rfl) t d).trans
    (by unfold Dat.fetched Dat.blockOf iblk2; rw [A2_eq]; try rfl)
theorem before2_20 (c : Dev nD) (t : Fin cfg2.N) (d) : (dat2 (Name := Name) (U := U) (Lvl := Lvl) V O Rc c).before 20 t d = iblk2 V c 20 t :=
  ((dat2 V O Rc c).before_in_eq_fetched 20 rfl (fun _ => rfl) (fun _ _ _ => rfl) (fun t => by rw [after2_20]; unfold Dat.blockOf iblk2; rw [A2_eq]; try rfl) t d).trans
    (by unfold Dat.fetched Dat.blockOf iblk2; rw [A2_eq]; try rfl)
theorem before2_21 (c : Dev nD) (t : Fin cfg2.N) (d) : (dat2 (Name := Name) (U := U) (Lvl := Lvl) V O Rc c).before 21 t d = iblk2 V c 21 t :=
  ((dat2 V O Rc c).before_in_eq_fetched 21 rfl (fun _ => rfl) (fun _ _ _ => rfl) (fun t => by rw [after2_21]; unfold Dat.blockOf iblk2; rw [A2_eq]; try rfl) t d).trans
    (by unfold Dat.fetched Dat.blockOf iblk2; rw [A2_eq]; try rfl)
theorem before2_22 (c : Dev nD) (t : Fin cfg2.N) (d) : (dat2 (Name := Name) (U := U) (Lvl := Lvl) V O Rc c).before 22 t d = iblk2 V c 22 t :=
  ((dat2 V O Rc c).before_in_eq_fetched 22 rfl (fun _ => rfl) (fun _ _ _ => rfl) (fun t => by rw [after2_22]; unfold Dat.blockOf iblk2; rw [A2_eq]; try rfl) t d).trans
    (by unfold Dat.fetched Dat.blockOf iblk2; rw [A2_eq]; try rfl)

set_option maxHeartbeats 2000000 in
/-- The body obligation of the region, at every point. -/
theorem body_obligation2 (𝒱₀ : Variants) (ι : Ix) (c : Dev nD) :
    BodyObligation (dat2 (Name := Name) (U := U) (Lvl := Lvl) V O Rc c) (defs₀ (F := F)) 𝒱₀ ι Set.univ := fun t => by
  rw [bigSep_W2, bigSep_W2]
  simp only [before2_0, before2_1, before2_2, before2_3, before2_4, before2_5, before2_6, before2_7, before2_8, before2_9, before2_10, before2_11, before2_12, before2_13, before2_14, before2_15, before2_16, before2_17, before2_18, before2_19, before2_20, before2_21, before2_22]
  rw [show (dat2 V O Rc c).Φ t.succ = (dat2 V O Rc c).Φ t.castSucc from rfl,
    show (dat2 V O Rc c).owesAt ι t.succ = (dat2 V O Rc c).owesAt ι t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22, after2_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel2 𝒱₀ c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (win2_12.stage (cfg2.slots t 12)) (hstage2_12 ((cfg2.slots t 12).cast nbuf2_12)) (win2_13.stage (cfg2.slots t 13)) (hstage2_13 ((cfg2.slots t 13).cast nbuf2_13)) (win2_14.stage (cfg2.slots t 14)) (hstage2_14 ((cfg2.slots t 14).cast nbuf2_14)) (win2_15.stage (cfg2.slots t 15)) (hstage2_15 ((cfg2.slots t 15).cast nbuf2_15)) (win2_16.stage (cfg2.slots t 16)) (hstage2_16 ((cfg2.slots t 16).cast nbuf2_16)) (win2_17.stage (cfg2.slots t 17)) (hstage2_17 ((cfg2.slots t 17).cast nbuf2_17)) (win2_18.stage (cfg2.slots t 18)) (hstage2_18 ((cfg2.slots t 18).cast nbuf2_18)) (win2_19.stage (cfg2.slots t 19)) (hstage2_19 ((cfg2.slots t 19).cast nbuf2_19)) (win2_20.stage (cfg2.slots t 20)) (hstage2_20 ((cfg2.slots t 20).cast nbuf2_20)) (win2_21.stage (cfg2.slots t 21)) (hstage2_21 ((cfg2.slots t 21).cast nbuf2_21)) (win2_22.stage (cfg2.slots t 22)) (hstage2_22 ((cfg2.slots t 22).cast nbuf2_22)) (win2_23.stage (cfg2.slots t 23)) (hstage2_23 ((cfg2.slots t 23).cast nbuf2_23))
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Data2

set_option maxHeartbeats 4000000 in
/-- The layer body on whole staging memrefs: the inputs kept, the output at `out4` of the inputs. -/
theorem sound_kernel4 (𝒱₀ : Variants) (c : Dev nD) (E : Set Name) (i : grid4.Coords) (arg2 : Memref sig .tc .vmem S1x128x128 .f32) (harg2 : arg2.IsWhole) (arg3 : Memref sig .tc .vmem S1x36x128x128 .f32) (harg3 : arg3.IsWhole) (arg4 : Memref sig .tc .vmem S36x128x128 .f32) (harg4 : arg4.IsWhole) (arg5 : Memref sig .tc .vmem S1x128x36 .f32) (harg5 : arg5.IsWhole) (arg6 : Memref sig .tc .vmem S1x1x1x4608 .bf16) (harg6 : arg6.IsWhole) (arg7 : Memref sig .tc .vmem S1x1x1x128 .f32) (harg7 : arg7.IsWhole) (arg8 : Memref sig .tc .vmem S128x4608 .bf16) (harg8 : arg8.IsWhole) (arg9 : Memref sig .tc .vmem S4608x128 .bf16) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x512 .bf16) (harg17 : arg17.IsWhole) (arg18 : Memref sig .tc .vmem S1x512 .f32) (harg18 : arg18.IsWhole) (arg19 : Memref sig .tc .vmem S512x128 .bf16) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128x128 .f32) (harg25 : arg25.IsWhole)
    (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare (out4 x0 x1 x2 x3 x4 x5 x6 x7 x8 x9 x10 x11 x12 x13 x14 x15 x16 x17 x18 x19 x20 x21 x22)) -∗ K ⟨⟩))
      ⊢ wp frame (wpE (defs₀ (F := F)) 𝒱₀ c none) E (cc4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc4_body_eq_skeleton]; unfold cc4_body_skel
  simp only [k4_part1_eq_skeleton, k4_part2_eq_skeleton, k4_part3_eq_skeleton, k4_part4_eq_skeleton]
  unfold k4_part1_skel k4_part2_skel k4_part3_skel k4_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  exact View.read_writes_eq_canon _ _ _ (cover2 _)

section Data4

variable (V : (c : Dev nD) → (b : Ref sig .tc) → Buf (Elt F) ((c : Thread nD τ).loc b))
  (O : Dev nD → CellTallies nD τ sig Ix) (Rc : Dev nD → Set (SemLoc sig × Ix))

/-- Window `w`'s block at point `t`, read off the contents `V` the region finds in the window's array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The layer's value at point `t`, from the 23 input blocks there. -/
def outAt4 (c : Dev nD) (t : Fin cfg4.N) : Vec F S1x128x128 .f32 :=
  out4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) (iblk4 V c 20 t) (iblk4 V c 21 t) (iblk4 V c 22 t)

/-- The proof data of the region on core `c`: the arrays as the region finds them; after the body each input's buffer
    at its block and the output's at the layer's value of the input blocks; the invariant the scoped buffers no window
    stages; the core owing `O c` throughout, its recorded pairs within `Rc c`. -/
def dat4 (c : Dev nD) : Dat τ (Elt F) Ix Name U Lvl cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => iblk4 V c 19 t
    | ⟨20, _⟩ => iblk4 V c 20 t
    | ⟨21, _⟩ => iblk4 V c 21 t
    | ⟨22, _⟩ => iblk4 V c 22 t
    | ⟨23, _⟩ => outAt4 V c t
    | ⟨_ + 24, h⟩ => absurd h (Nat.not_lt.2 (Nat.le_add_left _ _))
  Φ _ := Pipeline.scopedRest spec4 c
  q _ := fullShare
  owed _ := O c
  recorded _ := Rc c

theorem A4_eq (c : Dev nD) (w : Fin cfg4.W) : (dat4 (Name := Name) (U := U) (Lvl := Lvl) V O Rc c).A w = V c (Pipeline.arrRef spec4 w) := by
  dsimp only [dat4]

theorem after4_0 (c : Dev nD) (t : Fin cfg4.N) : (dat4 (Name := Name) (U := U) (Lvl := Lvl) V O Rc c).after 0 t = iblk4 V c 0 t := by dsimp only [dat4]
theorem after4_1 (c : Dev nD) (t : Fin cfg4.N) : (dat4 (Name := Name) (U := U) (Lvl := Lvl) V O Rc c).after 1 t = iblk4 V c 1 t := by dsimp only [dat4]
theorem after4_2 (c : Dev nD) (t : Fin cfg4.N) : (dat4 (Name := Name) (U := U) (Lvl := Lvl) V O Rc c).after 2 t = iblk4 V c 2 t := by dsimp only [dat4]
theorem after4_3 (c : Dev nD) (t : Fin cfg4.N) : (dat4 (Name := Name) (U := U) (Lvl := Lvl) V O Rc c).after 3 t = iblk4 V c 3 t := by dsimp only [dat4]
theorem after4_4 (c : Dev nD) (t : Fin cfg4.N) : (dat4 (Name := Name) (U := U) (Lvl := Lvl) V O Rc c).after 4 t = iblk4 V c 4 t := by dsimp only [dat4]
theorem after4_5 (c : Dev nD) (t : Fin cfg4.N) : (dat4 (Name := Name) (U := U) (Lvl := Lvl) V O Rc c).after 5 t = iblk4 V c 5 t := by dsimp only [dat4]
theorem after4_6 (c : Dev nD) (t : Fin cfg4.N) : (dat4 (Name := Name) (U := U) (Lvl := Lvl) V O Rc c).after 6 t = iblk4 V c 6 t := by dsimp only [dat4]
theorem after4_7 (c : Dev nD) (t : Fin cfg4.N) : (dat4 (Name := Name) (U := U) (Lvl := Lvl) V O Rc c).after 7 t = iblk4 V c 7 t := by dsimp only [dat4]
theorem after4_8 (c : Dev nD) (t : Fin cfg4.N) : (dat4 (Name := Name) (U := U) (Lvl := Lvl) V O Rc c).after 8 t = iblk4 V c 8 t := by dsimp only [dat4]
theorem after4_9 (c : Dev nD) (t : Fin cfg4.N) : (dat4 (Name := Name) (U := U) (Lvl := Lvl) V O Rc c).after 9 t = iblk4 V c 9 t := by dsimp only [dat4]
theorem after4_10 (c : Dev nD) (t : Fin cfg4.N) : (dat4 (Name := Name) (U := U) (Lvl := Lvl) V O Rc c).after 10 t = iblk4 V c 10 t := by dsimp only [dat4]
theorem after4_11 (c : Dev nD) (t : Fin cfg4.N) : (dat4 (Name := Name) (U := U) (Lvl := Lvl) V O Rc c).after 11 t = iblk4 V c 11 t := by dsimp only [dat4]
theorem after4_12 (c : Dev nD) (t : Fin cfg4.N) : (dat4 (Name := Name) (U := U) (Lvl := Lvl) V O Rc c).after 12 t = iblk4 V c 12 t := by dsimp only [dat4]
theorem after4_13 (c : Dev nD) (t : Fin cfg4.N) : (dat4 (Name := Name) (U := U) (Lvl := Lvl) V O Rc c).after 13 t = iblk4 V c 13 t := by dsimp only [dat4]
theorem after4_14 (c : Dev nD) (t : Fin cfg4.N) : (dat4 (Name := Name) (U := U) (Lvl := Lvl) V O Rc c).after 14 t = iblk4 V c 14 t := by dsimp only [dat4]
theorem after4_15 (c : Dev nD) (t : Fin cfg4.N) : (dat4 (Name := Name) (U := U) (Lvl := Lvl) V O Rc c).after 15 t = iblk4 V c 15 t := by dsimp only [dat4]
theorem after4_16 (c : Dev nD) (t : Fin cfg4.N) : (dat4 (Name := Name) (U := U) (Lvl := Lvl) V O Rc c).after 16 t = iblk4 V c 16 t := by dsimp only [dat4]
theorem after4_17 (c : Dev nD) (t : Fin cfg4.N) : (dat4 (Name := Name) (U := U) (Lvl := Lvl) V O Rc c).after 17 t = iblk4 V c 17 t := by dsimp only [dat4]
theorem after4_18 (c : Dev nD) (t : Fin cfg4.N) : (dat4 (Name := Name) (U := U) (Lvl := Lvl) V O Rc c).after 18 t = iblk4 V c 18 t := by dsimp only [dat4]
theorem after4_19 (c : Dev nD) (t : Fin cfg4.N) : (dat4 (Name := Name) (U := U) (Lvl := Lvl) V O Rc c).after 19 t = iblk4 V c 19 t := by dsimp only [dat4]
theorem after4_20 (c : Dev nD) (t : Fin cfg4.N) : (dat4 (Name := Name) (U := U) (Lvl := Lvl) V O Rc c).after 20 t = iblk4 V c 20 t := by dsimp only [dat4]
theorem after4_21 (c : Dev nD) (t : Fin cfg4.N) : (dat4 (Name := Name) (U := U) (Lvl := Lvl) V O Rc c).after 21 t = iblk4 V c 21 t := by dsimp only [dat4]
theorem after4_22 (c : Dev nD) (t : Fin cfg4.N) : (dat4 (Name := Name) (U := U) (Lvl := Lvl) V O Rc c).after 22 t = iblk4 V c 22 t := by dsimp only [dat4]
theorem after4_23 (c : Dev nD) (t : Fin cfg4.N) : (dat4 (Name := Name) (U := U) (Lvl := Lvl) V O Rc c).after 23 t = outAt4 V c t := by dsimp only [dat4]

/-- Each input's current staging buffer holds its block at every point, fetched there or not. -/
theorem before4_0 (c : Dev nD) (t : Fin cfg4.N) (d) : (dat4 (Name := Name) (U := U) (Lvl := Lvl) V O Rc c).before 0 t d = iblk4 V c 0 t :=
  ((dat4 V O Rc c).before_in_eq_fetched 0 rfl (fun _ => rfl) (fun _ _ _ => rfl) (fun t => by rw [after4_0]; unfold Dat.blockOf iblk4; rw [A4_eq]; try rfl) t d).trans
    (by unfold Dat.fetched Dat.blockOf iblk4; rw [A4_eq]; try rfl)
theorem before4_1 (c : Dev nD) (t : Fin cfg4.N) (d) : (dat4 (Name := Name) (U := U) (Lvl := Lvl) V O Rc c).before 1 t d = iblk4 V c 1 t :=
  ((dat4 V O Rc c).before_in_eq_fetched 1 rfl (fun _ => rfl) (fun _ _ _ => rfl) (fun t => by rw [after4_1]; unfold Dat.blockOf iblk4; rw [A4_eq]; try rfl) t d).trans
    (by unfold Dat.fetched Dat.blockOf iblk4; rw [A4_eq]; try rfl)
theorem before4_2 (c : Dev nD) (t : Fin cfg4.N) (d) : (dat4 (Name := Name) (U := U) (Lvl := Lvl) V O Rc c).before 2 t d = iblk4 V c 2 t :=
  ((dat4 V O Rc c).before_in_eq_fetched 2 rfl (fun _ => rfl) (fun _ _ _ => rfl) (fun t => by rw [after4_2]; unfold Dat.blockOf iblk4; rw [A4_eq]; try rfl) t d).trans
    (by unfold Dat.fetched Dat.blockOf iblk4; rw [A4_eq]; try rfl)
theorem before4_3 (c : Dev nD) (t : Fin cfg4.N) (d) : (dat4 (Name := Name) (U := U) (Lvl := Lvl) V O Rc c).before 3 t d = iblk4 V c 3 t :=
  ((dat4 V O Rc c).before_in_eq_fetched 3 rfl (fun _ => rfl) (fun _ _ _ => rfl) (fun t => by rw [after4_3]; unfold Dat.blockOf iblk4; rw [A4_eq]; try rfl) t d).trans
    (by unfold Dat.fetched Dat.blockOf iblk4; rw [A4_eq]; try rfl)
theorem before4_4 (c : Dev nD) (t : Fin cfg4.N) (d) : (dat4 (Name := Name) (U := U) (Lvl := Lvl) V O Rc c).before 4 t d = iblk4 V c 4 t :=
  ((dat4 V O Rc c).before_in_eq_fetched 4 rfl (fun _ => rfl) (fun _ _ _ => rfl) (fun t => by rw [after4_4]; unfold Dat.blockOf iblk4; rw [A4_eq]; try rfl) t d).trans
    (by unfold Dat.fetched Dat.blockOf iblk4; rw [A4_eq]; try rfl)
theorem before4_5 (c : Dev nD) (t : Fin cfg4.N) (d) : (dat4 (Name := Name) (U := U) (Lvl := Lvl) V O Rc c).before 5 t d = iblk4 V c 5 t :=
  ((dat4 V O Rc c).before_in_eq_fetched 5 rfl (fun _ => rfl) (fun _ _ _ => rfl) (fun t => by rw [after4_5]; unfold Dat.blockOf iblk4; rw [A4_eq]; try rfl) t d).trans
    (by unfold Dat.fetched Dat.blockOf iblk4; rw [A4_eq]; try rfl)
theorem before4_6 (c : Dev nD) (t : Fin cfg4.N) (d) : (dat4 (Name := Name) (U := U) (Lvl := Lvl) V O Rc c).before 6 t d = iblk4 V c 6 t :=
  ((dat4 V O Rc c).before_in_eq_fetched 6 rfl (fun _ => rfl) (fun _ _ _ => rfl) (fun t => by rw [after4_6]; unfold Dat.blockOf iblk4; rw [A4_eq]; try rfl) t d).trans
    (by unfold Dat.fetched Dat.blockOf iblk4; rw [A4_eq]; try rfl)
theorem before4_7 (c : Dev nD) (t : Fin cfg4.N) (d) : (dat4 (Name := Name) (U := U) (Lvl := Lvl) V O Rc c).before 7 t d = iblk4 V c 7 t :=
  ((dat4 V O Rc c).before_in_eq_fetched 7 rfl (fun _ => rfl) (fun _ _ _ => rfl) (fun t => by rw [after4_7]; unfold Dat.blockOf iblk4; rw [A4_eq]; try rfl) t d).trans
    (by unfold Dat.fetched Dat.blockOf iblk4; rw [A4_eq]; try rfl)
theorem before4_8 (c : Dev nD) (t : Fin cfg4.N) (d) : (dat4 (Name := Name) (U := U) (Lvl := Lvl) V O Rc c).before 8 t d = iblk4 V c 8 t :=
  ((dat4 V O Rc c).before_in_eq_fetched 8 rfl (fun _ => rfl) (fun _ _ _ => rfl) (fun t => by rw [after4_8]; unfold Dat.blockOf iblk4; rw [A4_eq]; try rfl) t d).trans
    (by unfold Dat.fetched Dat.blockOf iblk4; rw [A4_eq]; try rfl)
theorem before4_9 (c : Dev nD) (t : Fin cfg4.N) (d) : (dat4 (Name := Name) (U := U) (Lvl := Lvl) V O Rc c).before 9 t d = iblk4 V c 9 t :=
  ((dat4 V O Rc c).before_in_eq_fetched 9 rfl (fun _ => rfl) (fun _ _ _ => rfl) (fun t => by rw [after4_9]; unfold Dat.blockOf iblk4; rw [A4_eq]; try rfl) t d).trans
    (by unfold Dat.fetched Dat.blockOf iblk4; rw [A4_eq]; try rfl)
theorem before4_10 (c : Dev nD) (t : Fin cfg4.N) (d) : (dat4 (Name := Name) (U := U) (Lvl := Lvl) V O Rc c).before 10 t d = iblk4 V c 10 t :=
  ((dat4 V O Rc c).before_in_eq_fetched 10 rfl (fun _ => rfl) (fun _ _ _ => rfl) (fun t => by rw [after4_10]; unfold Dat.blockOf iblk4; rw [A4_eq]; try rfl) t d).trans
    (by unfold Dat.fetched Dat.blockOf iblk4; rw [A4_eq]; try rfl)
theorem before4_11 (c : Dev nD) (t : Fin cfg4.N) (d) : (dat4 (Name := Name) (U := U) (Lvl := Lvl) V O Rc c).before 11 t d = iblk4 V c 11 t :=
  ((dat4 V O Rc c).before_in_eq_fetched 11 rfl (fun _ => rfl) (fun _ _ _ => rfl) (fun t => by rw [after4_11]; unfold Dat.blockOf iblk4; rw [A4_eq]; try rfl) t d).trans
    (by unfold Dat.fetched Dat.blockOf iblk4; rw [A4_eq]; try rfl)
theorem before4_12 (c : Dev nD) (t : Fin cfg4.N) (d) : (dat4 (Name := Name) (U := U) (Lvl := Lvl) V O Rc c).before 12 t d = iblk4 V c 12 t :=
  ((dat4 V O Rc c).before_in_eq_fetched 12 rfl (fun _ => rfl) (fun _ _ _ => rfl) (fun t => by rw [after4_12]; unfold Dat.blockOf iblk4; rw [A4_eq]; try rfl) t d).trans
    (by unfold Dat.fetched Dat.blockOf iblk4; rw [A4_eq]; try rfl)
theorem before4_13 (c : Dev nD) (t : Fin cfg4.N) (d) : (dat4 (Name := Name) (U := U) (Lvl := Lvl) V O Rc c).before 13 t d = iblk4 V c 13 t :=
  ((dat4 V O Rc c).before_in_eq_fetched 13 rfl (fun _ => rfl) (fun _ _ _ => rfl) (fun t => by rw [after4_13]; unfold Dat.blockOf iblk4; rw [A4_eq]; try rfl) t d).trans
    (by unfold Dat.fetched Dat.blockOf iblk4; rw [A4_eq]; try rfl)
theorem before4_14 (c : Dev nD) (t : Fin cfg4.N) (d) : (dat4 (Name := Name) (U := U) (Lvl := Lvl) V O Rc c).before 14 t d = iblk4 V c 14 t :=
  ((dat4 V O Rc c).before_in_eq_fetched 14 rfl (fun _ => rfl) (fun _ _ _ => rfl) (fun t => by rw [after4_14]; unfold Dat.blockOf iblk4; rw [A4_eq]; try rfl) t d).trans
    (by unfold Dat.fetched Dat.blockOf iblk4; rw [A4_eq]; try rfl)
theorem before4_15 (c : Dev nD) (t : Fin cfg4.N) (d) : (dat4 (Name := Name) (U := U) (Lvl := Lvl) V O Rc c).before 15 t d = iblk4 V c 15 t :=
  ((dat4 V O Rc c).before_in_eq_fetched 15 rfl (fun _ => rfl) (fun _ _ _ => rfl) (fun t => by rw [after4_15]; unfold Dat.blockOf iblk4; rw [A4_eq]; try rfl) t d).trans
    (by unfold Dat.fetched Dat.blockOf iblk4; rw [A4_eq]; try rfl)
theorem before4_16 (c : Dev nD) (t : Fin cfg4.N) (d) : (dat4 (Name := Name) (U := U) (Lvl := Lvl) V O Rc c).before 16 t d = iblk4 V c 16 t :=
  ((dat4 V O Rc c).before_in_eq_fetched 16 rfl (fun _ => rfl) (fun _ _ _ => rfl) (fun t => by rw [after4_16]; unfold Dat.blockOf iblk4; rw [A4_eq]; try rfl) t d).trans
    (by unfold Dat.fetched Dat.blockOf iblk4; rw [A4_eq]; try rfl)
theorem before4_17 (c : Dev nD) (t : Fin cfg4.N) (d) : (dat4 (Name := Name) (U := U) (Lvl := Lvl) V O Rc c).before 17 t d = iblk4 V c 17 t :=
  ((dat4 V O Rc c).before_in_eq_fetched 17 rfl (fun _ => rfl) (fun _ _ _ => rfl) (fun t => by rw [after4_17]; unfold Dat.blockOf iblk4; rw [A4_eq]; try rfl) t d).trans
    (by unfold Dat.fetched Dat.blockOf iblk4; rw [A4_eq]; try rfl)
theorem before4_18 (c : Dev nD) (t : Fin cfg4.N) (d) : (dat4 (Name := Name) (U := U) (Lvl := Lvl) V O Rc c).before 18 t d = iblk4 V c 18 t :=
  ((dat4 V O Rc c).before_in_eq_fetched 18 rfl (fun _ => rfl) (fun _ _ _ => rfl) (fun t => by rw [after4_18]; unfold Dat.blockOf iblk4; rw [A4_eq]; try rfl) t d).trans
    (by unfold Dat.fetched Dat.blockOf iblk4; rw [A4_eq]; try rfl)
theorem before4_19 (c : Dev nD) (t : Fin cfg4.N) (d) : (dat4 (Name := Name) (U := U) (Lvl := Lvl) V O Rc c).before 19 t d = iblk4 V c 19 t :=
  ((dat4 V O Rc c).before_in_eq_fetched 19 rfl (fun _ => rfl) (fun _ _ _ => rfl) (fun t => by rw [after4_19]; unfold Dat.blockOf iblk4; rw [A4_eq]; try rfl) t d).trans
    (by unfold Dat.fetched Dat.blockOf iblk4; rw [A4_eq]; try rfl)
theorem before4_20 (c : Dev nD) (t : Fin cfg4.N) (d) : (dat4 (Name := Name) (U := U) (Lvl := Lvl) V O Rc c).before 20 t d = iblk4 V c 20 t :=
  ((dat4 V O Rc c).before_in_eq_fetched 20 rfl (fun _ => rfl) (fun _ _ _ => rfl) (fun t => by rw [after4_20]; unfold Dat.blockOf iblk4; rw [A4_eq]; try rfl) t d).trans
    (by unfold Dat.fetched Dat.blockOf iblk4; rw [A4_eq]; try rfl)
theorem before4_21 (c : Dev nD) (t : Fin cfg4.N) (d) : (dat4 (Name := Name) (U := U) (Lvl := Lvl) V O Rc c).before 21 t d = iblk4 V c 21 t :=
  ((dat4 V O Rc c).before_in_eq_fetched 21 rfl (fun _ => rfl) (fun _ _ _ => rfl) (fun t => by rw [after4_21]; unfold Dat.blockOf iblk4; rw [A4_eq]; try rfl) t d).trans
    (by unfold Dat.fetched Dat.blockOf iblk4; rw [A4_eq]; try rfl)
theorem before4_22 (c : Dev nD) (t : Fin cfg4.N) (d) : (dat4 (Name := Name) (U := U) (Lvl := Lvl) V O Rc c).before 22 t d = iblk4 V c 22 t :=
  ((dat4 V O Rc c).before_in_eq_fetched 22 rfl (fun _ => rfl) (fun _ _ _ => rfl) (fun t => by rw [after4_22]; unfold Dat.blockOf iblk4; rw [A4_eq]; try rfl) t d).trans
    (by unfold Dat.fetched Dat.blockOf iblk4; rw [A4_eq]; try rfl)

set_option maxHeartbeats 2000000 in
/-- The body obligation of the region, at every point. -/
theorem body_obligation4 (𝒱₀ : Variants) (ι : Ix) (c : Dev nD) :
    BodyObligation (dat4 (Name := Name) (U := U) (Lvl := Lvl) V O Rc c) (defs₀ (F := F)) 𝒱₀ ι Set.univ := fun t => by
  rw [bigSep_W4, bigSep_W4]
  simp only [before4_0, before4_1, before4_2, before4_3, before4_4, before4_5, before4_6, before4_7, before4_8, before4_9, before4_10, before4_11, before4_12, before4_13, before4_14, before4_15, before4_16, before4_17, before4_18, before4_19, before4_20, before4_21, before4_22]
  rw [show (dat4 V O Rc c).Φ t.succ = (dat4 V O Rc c).Φ t.castSucc from rfl,
    show (dat4 V O Rc c).owesAt ι t.succ = (dat4 V O Rc c).owesAt ι t.castSucc from rfl,
    after4_0, after4_1, after4_2, after4_3, after4_4, after4_5, after4_6, after4_7, after4_8, after4_9, after4_10, after4_11, after4_12, after4_13, after4_14, after4_15, after4_16, after4_17, after4_18, after4_19, after4_20, after4_21, after4_22, after4_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel4 𝒱₀ c Set.univ (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (win4_10.stage (cfg4.slots t 10)) (hstage4_10 ((cfg4.slots t 10).cast nbuf4_10)) (win4_11.stage (cfg4.slots t 11)) (hstage4_11 ((cfg4.slots t 11).cast nbuf4_11)) (win4_12.stage (cfg4.slots t 12)) (hstage4_12 ((cfg4.slots t 12).cast nbuf4_12)) (win4_13.stage (cfg4.slots t 13)) (hstage4_13 ((cfg4.slots t 13).cast nbuf4_13)) (win4_14.stage (cfg4.slots t 14)) (hstage4_14 ((cfg4.slots t 14).cast nbuf4_14)) (win4_15.stage (cfg4.slots t 15)) (hstage4_15 ((cfg4.slots t 15).cast nbuf4_15)) (win4_16.stage (cfg4.slots t 16)) (hstage4_16 ((cfg4.slots t 16).cast nbuf4_16)) (win4_17.stage (cfg4.slots t 17)) (hstage4_17 ((cfg4.slots t 17).cast nbuf4_17)) (win4_18.stage (cfg4.slots t 18)) (hstage4_18 ((cfg4.slots t 18).cast nbuf4_18)) (win4_19.stage (cfg4.slots t 19)) (hstage4_19 ((cfg4.slots t 19).cast nbuf4_19)) (win4_20.stage (cfg4.slots t 20)) (hstage4_20 ((cfg4.slots t 20).cast nbuf4_20)) (win4_21.stage (cfg4.slots t 21)) (hstage4_21 ((cfg4.slots t 21).cast nbuf4_21)) (win4_22.stage (cfg4.slots t 22)) (hstage4_22 ((cfg4.slots t 22).cast nbuf4_22)) (win4_23.stage (cfg4.slots t 23)) (hstage4_23 ((cfg4.slots t 23).cast nbuf4_23))
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) (iblk4 V c 20 t) (iblk4 V c 21 t) (iblk4 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Data4

end Cert.KernelIdeal.Regions

end
-- ==== Proof.KRegions.lean ====
import proofs.«215572_g25211458027672_cont_9to1_2008_46_alg».proof.Proof.KRegBody
import Idealize.ShloMosaic.Lib.Pipeline.Value
import Idealize.ShloMosaic.Lib.Pipeline.Regions

set_option maxRecDepth 16384

noncomputable section

namespace Cert.KernelIdeal.Regions

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- Every block of the output array is some point's. -/
theorem idx_onto2_23 : ∀ (q0 : Fin 2) (q1 : Fin 8), ∃ t : Fin cfg2.N, win2_23.index t = ![q0.val, q1.val, 0] :=
  (by decide +kernel : ∀ (q0 : Fin 2) (q1 : Fin 8), ∃ t : Fin grid2.N, win2_23.index t = ![q0.val, q1.val, 0])

/-- An index of the output array is in point `t`'s block iff each coordinate is in the block's range on its axis. -/
theorem mem_blk2_23 (t : Fin cfg2.N) (i : S2x1024x128.Idx) :
    i ∈ ((cfg2.win 23).blk t).view.set ↔ ∀ a : Fin 3, win2_23.index t a * S1x128x128.size a ≤ (i a).val ∧ (i a).val < win2_23.index t a * S1x128x128.size a + S1x128x128.size a := by
  show i ∈ ((View.whole main_v41).slice (win2_23.rect t)).set ↔ _
  rw [View.set_slice_whole, Rect.mem_set_unit]
  exact Iff.rfl

/-- The output's blocks tile its array. -/
theorem cover2_23 (i : S2x1024x128.Idx) : ∃ t : Fin cfg2.N, (cfg2.win 23).flush t = true ∧ i ∈ ((cfg2.win 23).blk t).view.set := by
  have hi0 : (i 0).val < 2 := (i 0).isLt
  have hi1 : (i 1).val < 1024 := (i 1).isLt
  have hi2 : (i 2).val < 128 := (i 2).isLt
  obtain ⟨t, ht⟩ := idx_onto2_23 ⟨(i 0).val, hi0⟩ ⟨(i 1).val / 128, by omega⟩
  have q0 : win2_23.index t (0 : Fin 3) = (i 0).val := congrFun ht 0
  have q1 : win2_23.index t (1 : Fin 3) = (i 1).val / 128 := congrFun ht 1
  have q2 : win2_23.index t (2 : Fin 3) = 0 := congrFun ht 2
  refine ⟨t, flush2_23 t, ?_⟩
  rw [mem_blk2_23]
  intro a
  match a with
  | ⟨0, _⟩ => show win2_23.index t (0 : Fin 3) * 1 ≤ (i 0).val ∧ (i 0).val < win2_23.index t (0 : Fin 3) * 1 + 1; omega
  | ⟨1, _⟩ => show win2_23.index t (1 : Fin 3) * 128 ≤ (i 1).val ∧ (i 1).val < win2_23.index t (1 : Fin 3) * 128 + 128; omega
  | ⟨2, _⟩ => show win2_23.index t (2 : Fin 3) * 128 ≤ (i 2).val ∧ (i 2).val < win2_23.index t (2 : Fin 3) * 128 + 128; omega

/-- Every block of the output array is some point's. -/
theorem idx_onto4_23 : ∀ (q0 : Fin 2) (q1 : Fin 8), ∃ t : Fin cfg4.N, win4_23.index t = ![q0.val, q1.val, 0] :=
  (by decide +kernel : ∀ (q0 : Fin 2) (q1 : Fin 8), ∃ t : Fin grid4.N, win4_23.index t = ![q0.val, q1.val, 0])

/-- An index of the output array is in point `t`'s block iff each coordinate is in the block's range on its axis. -/
theorem mem_blk4_23 (t : Fin cfg4.N) (i : S2x1024x128.Idx) :
    i ∈ ((cfg4.win 23).blk t).view.set ↔ ∀ a : Fin 3, win4_23.index t a * S1x128x128.size a ≤ (i a).val ∧ (i a).val < win4_23.index t a * S1x128x128.size a + S1x128x128.size a := by
  show i ∈ ((View.whole main_v60).slice (win4_23.rect t)).set ↔ _
  rw [View.set_slice_whole, Rect.mem_set_unit]
  exact Iff.rfl

/-- The output's blocks tile its array. -/
theorem cover4_23 (i : S2x1024x128.Idx) : ∃ t : Fin cfg4.N, (cfg4.win 23).flush t = true ∧ i ∈ ((cfg4.win 23).blk t).view.set := by
  have hi0 : (i 0).val < 2 := (i 0).isLt
  have hi1 : (i 1).val < 1024 := (i 1).isLt
  have hi2 : (i 2).val < 128 := (i 2).isLt
  obtain ⟨t, ht⟩ := idx_onto4_23 ⟨(i 0).val, hi0⟩ ⟨(i 1).val / 128, by omega⟩
  have q0 : win4_23.index t (0 : Fin 3) = (i 0).val := congrFun ht 0
  have q1 : win4_23.index t (1 : Fin 3) = (i 1).val / 128 := congrFun ht 1
  have q2 : win4_23.index t (2 : Fin 3) = 0 := congrFun ht 2
  refine ⟨t, flush4_23 t, ?_⟩
  rw [mem_blk4_23]
  intro a
  match a with
  | ⟨0, _⟩ => show win4_23.index t (0 : Fin 3) * 1 ≤ (i 0).val ∧ (i 0).val < win4_23.index t (0 : Fin 3) * 1 + 1; omega
  | ⟨1, _⟩ => show win4_23.index t (1 : Fin 3) * 128 ≤ (i 1).val ∧ (i 1).val < win4_23.index t (1 : Fin 3) * 128 + 128; omega
  | ⟨2, _⟩ => show win4_23.index t (2 : Fin 3) * 128 ≤ (i 2).val ∧ (i 2).val < win4_23.index t (2 : Fin 3) * 128 + 128; omega

/-! ## The stored values through the whole-block rectangles, and what each point writes back -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A whole-block load reads the block and a whole-block store leaves its payload: the projection's stored value is its
    payload of the two blocks. -/
theorem out0_eq (x0 : Vec F S4096x128 .f32) (x1 : Vec F S128x128 .f32) : out0 x0 x1 = k0_pay1 x0 x1 := by
  unfold out0
  rw [View.canon_unit_zero hz2]
  simp only [View.ld_unit_zero (S := S4096x128) hz2, View.ld_unit_zero (S := S128x128) hz2]

/-- The layer's stored value is `BodyVal.bodyOut` of the 23 blocks, in window order. -/
theorem out2_eq (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) :
    out2 x0 x1 x2 x3 x4 x5 x6 x7 x8 x9 x10 x11 x12 x13 x14 x15 x16 x17 x18 x19 x20 x21 x22 = BodyVal.bodyOut (KConst.inv36 (F := F)) x0 x1 x2 x3 x4 x5 x6 x7 x8 x9 x10 x11 x12 x13 x14 x15 x16 x17 x18 x19 x20 x21 x22 := by
  unfold out2
  rw [View.canon_unit_zero hz3]
  simp only [View.ld_unit_zero (S := S1x128x128) hz3, View.ld_unit_zero (S := S1x36x128x128) hz4, View.ld_unit_zero (S := S36x128x128) hz3, View.ld_unit_zero (S := S1x128x36) hz3, View.ld_unit_zero (S := S1x1x1x4608) hz4, View.ld_unit_zero (S := S1x1x1x128) hz4, View.ld_unit_zero (S := S128x4608) hz2, View.ld_unit_zero (S := S4608x128) hz2, View.ld_unit_zero (S := S128x128) hz2, View.ld_unit_zero (S := S1x128) hz2, View.ld_unit_zero (S := S128x512) hz2, View.ld_unit_zero (S := S1x512) hz2, View.ld_unit_zero (S := S512x128) hz2]

theorem out4_eq (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) :
    out4 x0 x1 x2 x3 x4 x5 x6 x7 x8 x9 x10 x11 x12 x13 x14 x15 x16 x17 x18 x19 x20 x21 x22 = BodyVal.bodyOut4 (KConst.inv36 (F := F)) x0 x1 x2 x3 x4 x5 x6 x7 x8 x9 x10 x11 x12 x13 x14 x15 x16 x17 x18 x19 x20 x21 x22 := by
  unfold out4
  rw [View.canon_unit_zero hz3]
  simp only [View.ld_unit_zero (S := S1x128x128) hz3, View.ld_unit_zero (S := S1x36x128x128) hz4, View.ld_unit_zero (S := S36x128x128) hz3, View.ld_unit_zero (S := S1x128x36) hz3, View.ld_unit_zero (S := S1x1x1x4608) hz4, View.ld_unit_zero (S := S1x1x1x128) hz4, View.ld_unit_zero (S := S128x4608) hz2, View.ld_unit_zero (S := S4608x128) hz2, View.ld_unit_zero (S := S128x128) hz2, View.ld_unit_zero (S := S1x128) hz2, View.ld_unit_zero (S := S128x512) hz2, View.ld_unit_zero (S := S1x512) hz2, View.ld_unit_zero (S := S512x128) hz2]

section Flushed

variable (V : (c : Dev nD) → (b : Ref sig .tc) → Buf (Elt F) ((c : Thread nD τ).loc b))
  (O : Dev nD → CellTallies nD τ sig Ix) (Rc : Dev nD → Set (SemLoc sig × Ix))

/-- What each point writes back of the output window: the body's stored value of the input blocks there. -/
theorem flushed0_2 (c : Dev nD) (t : Fin cfg0.N) :
    (dat0 (Name := Name) (U := U) (Lvl := Lvl) V O Rc c).flushed 2 t = out0 (iblk0 V c 0 t) (iblk0 V c 1 t) := by
  show (cfg0.win 2).cut (grid0.coords t) ((dat0 V O Rc c).after 2 t) = _
  rw [after0_2]; rfl
theorem flushed2_23 (c : Dev nD) (t : Fin cfg2.N) :
    (dat2 (Name := Name) (U := U) (Lvl := Lvl) V O Rc c).flushed 23 t = outAt2 V c t := by
  show (cfg2.win 23).cut (grid2.coords t) ((dat2 V O Rc c).after 23 t) = _
  rw [after2_23]; rfl
theorem flushed4_23 (c : Dev nD) (t : Fin cfg4.N) :
    (dat4 (Name := Name) (U := U) (Lvl := Lvl) V O Rc c).flushed 23 t = outAt4 V c t := by
  show (cfg4.win 23).cut (grid4.coords t) ((dat4 V O Rc c).after 23 t) = _
  rw [after4_23]; rfl

/-- THE REGION'S RESULT: an array that reads, at every point's block, the body's stored value of the input blocks there is
    what the output array holds after the region. -/
theorem arrAt2_out (c : Dev nD) (G : Buf (Elt F) ((cfg2.win 23).arr.view.loc (c.tc : Thread nD τ)))
    (hG : ∀ t : Fin cfg2.N, outAt2 V c t = ((cfg2.win 23).blk t).view.read (Elt F) G) :
    (dat2 (Name := Name) (U := U) (Lvl := Lvl) V O Rc c).arrAt 23 cfg2.N = G :=
  (dat2 V O Rc c).arrAt_eq_of_cover 23 G (fun t _ => (flushed2_23 V O Rc c t).trans (hG t)) cover2_23
theorem arrAt4_out (c : Dev nD) (G : Buf (Elt F) ((cfg4.win 23).arr.view.loc (c.tc : Thread nD τ)))
    (hG : ∀ t : Fin cfg4.N, outAt4 V c t = ((cfg4.win 23).blk t).view.read (Elt F) G) :
    (dat4 (Name := Name) (U := U) (Lvl := Lvl) V O Rc c).arrAt 23 cfg4.N = G :=
  (dat4 V O Rc c).arrAt_eq_of_cover 23 G (fun t _ => (flushed4_23 V O Rc c t).trans (hG t)) cover4_23

end Flushed

/-! ## The proof data of the three regions, and the regions as the rule takes them -/

section Regs

variable (V₀ V₁ V₂ : (c : Dev nD) → (b : Ref sig .tc) → Buf (Elt F) ((c : Thread nD τ).loc b))
  (O₀ O₁ O₂ : Dev nD → CellTallies nD τ sig Ix) (Rc₀ Rc₁ Rc₂ : Dev nD → Set (SemLoc sig × Ix))

/-- No pipeline prefetches a table. -/
abbrev adm : (p : Fin 3) → (pcfgs (F := F) p).Adm := fun p => (cfgs p).toPCfg_adm

/-- The three pipelines' proof data, each region's arrays stated directly. -/
def pdats : (p : Fin 3) → (c : Dev nD) → Dat τ (Elt F) Ix Name U Lvl (Pipeline.pin (pcfgs (F := F)) adm p) c
  | ⟨0, _⟩ => dat0 V₀ O₀ Rc₀
  | ⟨1, _⟩ => dat2 V₁ O₁ Rc₁
  | ⟨2, _⟩ => dat4 V₂ O₂ Rc₂

theorem pdats_0 (c : Dev nD) : pdats (Name := Name) (U := U) (Lvl := Lvl) V₀ V₁ V₂ O₀ O₁ O₂ Rc₀ Rc₁ Rc₂ 0 c = dat0 V₀ O₀ Rc₀ c := rfl
theorem pdats_1 (c : Dev nD) : pdats (Name := Name) (U := U) (Lvl := Lvl) V₀ V₁ V₂ O₀ O₁ O₂ Rc₀ Rc₁ Rc₂ 1 c = dat2 V₁ O₁ Rc₁ c := rfl
theorem pdats_2 (c : Dev nD) : pdats (Name := Name) (U := U) (Lvl := Lvl) V₀ V₁ V₂ O₀ O₁ O₂ Rc₀ Rc₁ Rc₂ 2 c = dat4 V₂ O₂ Rc₂ c := rfl

/-- Every array is held at the full share. -/
theorem share0 (c : Dev nD) (w : Fin cfg0.W) : (pdats (Name := Name) (U := U) (Lvl := Lvl) V₀ V₁ V₂ O₀ O₁ O₂ Rc₀ Rc₁ Rc₂ 0 c).share w = fullShare := (dat0 V₀ O₀ Rc₀ c).share_full (fun _ => rfl) w
theorem share2 (c : Dev nD) (w : Fin cfg2.W) : (pdats (Name := Name) (U := U) (Lvl := Lvl) V₀ V₁ V₂ O₀ O₁ O₂ Rc₀ Rc₁ Rc₂ 1 c).share w = fullShare := (dat2 V₁ O₁ Rc₁ c).share_full (fun _ => rfl) w
theorem share4 (c : Dev nD) (w : Fin cfg4.W) : (pdats (Name := Name) (U := U) (Lvl := Lvl) V₀ V₁ V₂ O₀ O₁ O₂ Rc₀ Rc₁ Rc₂ 2 c).share w = fullShare := (dat4 V₂ O₂ Rc₂ c).share_full (fun _ => rfl) w

/-- The entry contents are the parameters'. -/
theorem pdats_A0 (c : Dev nD) (w : Fin cfg0.W) : (pdats (Name := Name) (U := U) (Lvl := Lvl) V₀ V₁ V₂ O₀ O₁ O₂ Rc₀ Rc₁ Rc₂ 0 c).A w = V₀ c (Pipeline.arrRef spec0 w) := A0_eq V₀ O₀ Rc₀ c w
theorem pdats_A2 (c : Dev nD) (w : Fin cfg2.W) : (pdats (Name := Name) (U := U) (Lvl := Lvl) V₀ V₁ V₂ O₀ O₁ O₂ Rc₀ Rc₁ Rc₂ 1 c).A w = V₁ c (Pipeline.arrRef spec2 w) := A2_eq V₁ O₁ Rc₁ c w
theorem pdats_A4 (c : Dev nD) (w : Fin cfg4.W) : (pdats (Name := Name) (U := U) (Lvl := Lvl) V₀ V₁ V₂ O₀ O₁ O₂ Rc₀ Rc₁ Rc₂ 2 c).A w = V₂ c (Pipeline.arrRef spec4 w) := A4_eq V₂ O₂ Rc₂ c w

/-- What each proof data owes and bounds, spelt out. -/
theorem pdats_owed0 (c : Dev nD) (t : Fin ((Pipeline.pin (pcfgs (F := F)) adm 0).N + 1)) : (pdats (Name := Name) (U := U) (Lvl := Lvl) V₀ V₁ V₂ O₀ O₁ O₂ Rc₀ Rc₁ Rc₂ 0 c).owed t = O₀ c := rfl
theorem pdats_owed2 (c : Dev nD) (t : Fin ((Pipeline.pin (pcfgs (F := F)) adm 1).N + 1)) : (pdats (Name := Name) (U := U) (Lvl := Lvl) V₀ V₁ V₂ O₀ O₁ O₂ Rc₀ Rc₁ Rc₂ 1 c).owed t = O₁ c := rfl
theorem pdats_owed4 (c : Dev nD) (t : Fin ((Pipeline.pin (pcfgs (F := F)) adm 2).N + 1)) : (pdats (Name := Name) (U := U) (Lvl := Lvl) V₀ V₁ V₂ O₀ O₁ O₂ Rc₀ Rc₁ Rc₂ 2 c).owed t = O₂ c := rfl
theorem pdats_recorded0 (c : Dev nD) (t : Fin ((Pipeline.pin (pcfgs (F := F)) adm 0).N + 1)) : (pdats (Name := Name) (U := U) (Lvl := Lvl) V₀ V₁ V₂ O₀ O₁ O₂ Rc₀ Rc₁ Rc₂ 0 c).recorded t = Rc₀ c := rfl
theorem pdats_recorded2 (c : Dev nD) (t : Fin ((Pipeline.pin (pcfgs (F := F)) adm 1).N + 1)) : (pdats (Name := Name) (U := U) (Lvl := Lvl) V₀ V₁ V₂ O₀ O₁ O₂ Rc₀ Rc₁ Rc₂ 1 c).recorded t = Rc₁ c := rfl
theorem pdats_recorded4 (c : Dev nD) (t : Fin ((Pipeline.pin (pcfgs (F := F)) adm 2).N + 1)) : (pdats (Name := Name) (U := U) (Lvl := Lvl) V₀ V₁ V₂ O₀ O₁ O₂ Rc₀ Rc₁ Rc₂ 2 c).recorded t = Rc₂ c := rfl
theorem owesAt0 (ι : Ix) (c : Dev nD) (t : Fin ((Pipeline.pin (pcfgs (F := F)) adm 0).N + 1)) :
    ((pdats (Name := Name) (U := U) (Lvl := Lvl) V₀ V₁ V₂ O₀ O₁ O₂ Rc₀ Rc₁ Rc₂ 0 c).owesAt ι t : sProp 𝕄) = Pipeline.owesWithin c (O₀ c) (Rc₀ c ∪ (Pipeline.pin (pcfgs (F := F)) adm 0).waitPairs ι) := rfl
theorem owesAt2 (ι : Ix) (c : Dev nD) (t : Fin ((Pipeline.pin (pcfgs (F := F)) adm 1).N + 1)) :
    ((pdats (Name := Name) (U := U) (Lvl := Lvl) V₀ V₁ V₂ O₀ O₁ O₂ Rc₀ Rc₁ Rc₂ 1 c).owesAt ι t : sProp 𝕄) = Pipeline.owesWithin c (O₁ c) (Rc₁ c ∪ (Pipeline.pin (pcfgs (F := F)) adm 1).waitPairs ι) := rfl
theorem owesAt4 (ι : Ix) (c : Dev nD) (t : Fin ((Pipeline.pin (pcfgs (F := F)) adm 2).N + 1)) :
    ((pdats (Name := Name) (U := U) (Lvl := Lvl) V₀ V₁ V₂ O₀ O₁ O₂ Rc₀ Rc₁ Rc₂ 2 c).owesAt ι t : sProp 𝕄) = Pipeline.owesWithin c (O₂ c) (Rc₂ c ∪ (Pipeline.pin (pcfgs (F := F)) adm 2).waitPairs ι) := rfl

/-- The scoped buffers no window stages, at the pinned pipeline, are the configuration's. -/
theorem pin_eq (p : Fin 3) : Pipeline.pin (pcfgs (F := F)) adm p = cfgs p := Pipeline.Cfg.toPCfg_at (cfgs p) (adm p)
theorem scopedRest_pin (p : Fin 3) (c : Dev nD) :
    (Pipeline.scopedRest (Ix := Ix) (Name := Name) (U := U) (Lvl := Lvl) (Val := Elt F) (Pipeline.pin (pcfgs (F := F)) adm p).spec c : sProp 𝕄)
      = Pipeline.scopedRest (cfgs p).spec c :=
  congrArg (fun cfg : Pipeline.Cfg sig Λ₀ => (Pipeline.scopedRest (Ix := Ix) (Name := Name) (U := U) (Lvl := Lvl) (Val := Elt F) cfg.spec c : sProp 𝕄)) (pin_eq p)

/-- No pipeline has a prefetched table to hold. -/
theorem bigSep_Fin0 {M : Type} [URA M] (Φ : Fin 0 → sProp M) : bigSep Finset.univ Φ = (BI.emp : sProp M) :=
  bigSep_univ_eq_bigSepL [] (by decide) (by decide) Φ
theorem prefHeld0 (c : Dev nD) (q) (pf) : (Pipeline.prefHeld (Ix := Ix) (Name := Name) (U := U) (Lvl := Lvl) (Val := Elt F) (pcfgs (F := F) 0).pre c q pf : sProp 𝕄) = BI.emp :=
  bigSep_Fin0 _
theorem prefHeld2 (c : Dev nD) (q) (pf) : (Pipeline.prefHeld (Ix := Ix) (Name := Name) (U := U) (Lvl := Lvl) (Val := Elt F) (pcfgs (F := F) 1).pre c q pf : sProp 𝕄) = BI.emp :=
  bigSep_Fin0 _
theorem prefHeld4 (c : Dev nD) (q) (pf) : (Pipeline.prefHeld (Ix := Ix) (Name := Name) (U := U) (Lvl := Lvl) (Val := Elt F) (pcfgs (F := F) 2).pre c q pf : sProp 𝕄) = BI.emp :=
  bigSep_Fin0 _
set_option maxHeartbeats 2000000 in
/-- Region 0 as the regions rule takes it: entered holding the windows' arrays at `V₀`, the core's debt within its
    recorded bound, and whatever bypasses the region (`Z`); left holding the arrays after the write-backs, the debt within
    the bound widened by the pipeline's own waits, and `Z`. -/
def reg0 (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 0 c) :
    Pipeline.RegionSeg (pcfgs (F := F)) adm (pdats (Name := Name) (U := U) (Lvl := Lvl) V₀ V₁ V₂ O₀ O₁ O₂ Rc₀ Rc₁ Rc₂) ι defs₀ 𝒱₀ L lv 0 where
  win := winFacts0.to₀
  block_pos := block_pos0
  stage_whole := stage_whole0
  K := PEmpty
  osem k := k.elim
  ho := Pipeline.OwnSemFacts.none _
  hbody c := (body_obligation0 V₀ O₀ Rc₀ 𝒱₀ ι c).loose
  hwaits := hwaits
  pre c := iprop((pdats (Name := Name) (U := U) (Lvl := Lvl) V₀ V₁ V₂ O₀ O₁ O₂ Rc₀ Rc₁ Rc₂ 0 c).arrays ((pdats (Name := Name) (U := U) (Lvl := Lvl) V₀ V₁ V₂ O₀ O₁ O₂ Rc₀ Rc₁ Rc₂ 0 c).arrAt · 0) ∗ Pipeline.owesWithin c (O₀ c) (Rc₀ c) ∗ Z c)
  post c := iprop((pdats (Name := Name) (U := U) (Lvl := Lvl) V₀ V₁ V₂ O₀ O₁ O₂ Rc₀ Rc₁ Rc₂ 0 c).arrays ((pdats (Name := Name) (U := U) (Lvl := Lvl) V₀ V₁ V₂ O₀ O₁ O₂ Rc₀ Rc₁ Rc₂ 0 c).arrAt · cfg0.N) ∗ (pdats (Name := Name) (U := U) (Lvl := Lvl) V₀ V₁ V₂ O₀ O₁ O₂ Rc₀ Rc₁ Rc₂ 0 c).owesAt ι (Fin.last cfg0.N) ∗ Z c)
  X _ := BI.emp
  Y _ := BI.emp
  Z := Z
  hentry c := by
    rw [Pipeline.ownSems0_none, prefHeld0]
    iintro ⟨⟨Ha, HO, HZ⟩, -, -⟩
    imodintro
    isplitl [Ha]; · iexact Ha
    isplitr; · iempintro
    isplitl [HO]
    · iapply (Pipeline.owesWithin_mono (c : Dev nD) (O₀ c) (Set.subset_union_left (s := Rc₀ c) (t := cfg0.waitPairs ι))); iexact HO
    isplitr; · iempintro
    iexact HZ
  hin c := by
    rw [scopedRest_pin 0, show (pdats (Name := Name) (U := U) (Lvl := Lvl) V₀ V₁ V₂ O₀ O₁ O₂ Rc₀ Rc₁ Rc₂ 0 c).Φ 0 = Pipeline.scopedRest (cfgs 0).spec c from rfl]
    iintro ⟨-, -, HR⟩; iexact HR
  hout c := by
    rw [scopedRest_pin 0, show (pdats (Name := Name) (U := U) (Lvl := Lvl) V₀ V₁ V₂ O₀ O₁ O₂ Rc₀ Rc₁ Rc₂ 0 c).Φ (Fin.last _) = Pipeline.scopedRest (cfgs 0).spec c from rfl, Pipeline.ownSems0_none]
    iintro HR
    isplitr; · iempintro
    isplitr; · iempintro
    iexact HR
  hexit c := by
    iintro ⟨Ha, HO, -, HZ⟩
    imodintro
    isplitl [Ha]; · iexact Ha
    isplitl [HO]; · iexact HO
    iexact HZ

set_option maxHeartbeats 2000000 in
/-- Region 1 as the regions rule takes it: entered holding the windows' arrays at `V₁`, the core's debt within its
    recorded bound, and whatever bypasses the region (`Z`); left holding the arrays after the write-backs, the debt within
    the bound widened by the pipeline's own waits, and `Z`. -/
def reg2 (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 1 c) :
    Pipeline.RegionSeg (pcfgs (F := F)) adm (pdats (Name := Name) (U := U) (Lvl := Lvl) V₀ V₁ V₂ O₀ O₁ O₂ Rc₀ Rc₁ Rc₂) ι defs₀ 𝒱₀ L lv 1 where
  win := winFacts2.to₀
  block_pos := block_pos2
  stage_whole := stage_whole2
  K := PEmpty
  osem k := k.elim
  ho := Pipeline.OwnSemFacts.none _
  hbody c := (body_obligation2 V₁ O₁ Rc₁ 𝒱₀ ι c).loose
  hwaits := hwaits
  pre c := iprop((pdats (Name := Name) (U := U) (Lvl := Lvl) V₀ V₁ V₂ O₀ O₁ O₂ Rc₀ Rc₁ Rc₂ 1 c).arrays ((pdats (Name := Name) (U := U) (Lvl := Lvl) V₀ V₁ V₂ O₀ O₁ O₂ Rc₀ Rc₁ Rc₂ 1 c).arrAt · 0) ∗ Pipeline.owesWithin c (O₁ c) (Rc₁ c) ∗ Z c)
  post c := iprop((pdats (Name := Name) (U := U) (Lvl := Lvl) V₀ V₁ V₂ O₀ O₁ O₂ Rc₀ Rc₁ Rc₂ 1 c).arrays ((pdats (Name := Name) (U := U) (Lvl := Lvl) V₀ V₁ V₂ O₀ O₁ O₂ Rc₀ Rc₁ Rc₂ 1 c).arrAt · cfg2.N) ∗ (pdats (Name := Name) (U := U) (Lvl := Lvl) V₀ V₁ V₂ O₀ O₁ O₂ Rc₀ Rc₁ Rc₂ 1 c).owesAt ι (Fin.last cfg2.N) ∗ Z c)
  X _ := BI.emp
  Y _ := BI.emp
  Z := Z
  hentry c := by
    rw [Pipeline.ownSems0_none, prefHeld2]
    iintro ⟨⟨Ha, HO, HZ⟩, -, -⟩
    imodintro
    isplitl [Ha]; · iexact Ha
    isplitr; · iempintro
    isplitl [HO]
    · iapply (Pipeline.owesWithin_mono (c : Dev nD) (O₁ c) (Set.subset_union_left (s := Rc₁ c) (t := cfg2.waitPairs ι))); iexact HO
    isplitr; · iempintro
    iexact HZ
  hin c := by
    rw [scopedRest_pin 1, show (pdats (Name := Name) (U := U) (Lvl := Lvl) V₀ V₁ V₂ O₀ O₁ O₂ Rc₀ Rc₁ Rc₂ 1 c).Φ 0 = Pipeline.scopedRest (cfgs 1).spec c from rfl]
    iintro ⟨-, -, HR⟩; iexact HR
  hout c := by
    rw [scopedRest_pin 1, show (pdats (Name := Name) (U := U) (Lvl := Lvl) V₀ V₁ V₂ O₀ O₁ O₂ Rc₀ Rc₁ Rc₂ 1 c).Φ (Fin.last _) = Pipeline.scopedRest (cfgs 1).spec c from rfl, Pipeline.ownSems0_none]
    iintro HR
    isplitr; · iempintro
    isplitr; · iempintro
    iexact HR
  hexit c := by
    iintro ⟨Ha, HO, -, HZ⟩
    imodintro
    isplitl [Ha]; · iexact Ha
    isplitl [HO]; · iexact HO
    iexact HZ

set_option maxHeartbeats 2000000 in
/-- Region 2 as the regions rule takes it: entered holding the windows' arrays at `V₂`, the core's debt within its
    recorded bound, and whatever bypasses the region (`Z`); left holding the arrays after the write-backs, the debt within
    the bound widened by the pipeline's own waits, and `Z`. -/
def reg4 (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 2 c) :
    Pipeline.RegionSeg (pcfgs (F := F)) adm (pdats (Name := Name) (U := U) (Lvl := Lvl) V₀ V₁ V₂ O₀ O₁ O₂ Rc₀ Rc₁ Rc₂) ι defs₀ 𝒱₀ L lv 2 where
  win := winFacts4.to₀
  block_pos := block_pos4
  stage_whole := stage_whole4
  K := PEmpty
  osem k := k.elim
  ho := Pipeline.OwnSemFacts.none _
  hbody c := (body_obligation4 V₂ O₂ Rc₂ 𝒱₀ ι c).loose
  hwaits := hwaits
  pre c := iprop((pdats (Name := Name) (U := U) (Lvl := Lvl) V₀ V₁ V₂ O₀ O₁ O₂ Rc₀ Rc₁ Rc₂ 2 c).arrays ((pdats (Name := Name) (U := U) (Lvl := Lvl) V₀ V₁ V₂ O₀ O₁ O₂ Rc₀ Rc₁ Rc₂ 2 c).arrAt · 0) ∗ Pipeline.owesWithin c (O₂ c) (Rc₂ c) ∗ Z c)
  post c := iprop((pdats (Name := Name) (U := U) (Lvl := Lvl) V₀ V₁ V₂ O₀ O₁ O₂ Rc₀ Rc₁ Rc₂ 2 c).arrays ((pdats (Name := Name) (U := U) (Lvl := Lvl) V₀ V₁ V₂ O₀ O₁ O₂ Rc₀ Rc₁ Rc₂ 2 c).arrAt · cfg4.N) ∗ (pdats (Name := Name) (U := U) (Lvl := Lvl) V₀ V₁ V₂ O₀ O₁ O₂ Rc₀ Rc₁ Rc₂ 2 c).owesAt ι (Fin.last cfg4.N) ∗ Z c)
  X _ := BI.emp
  Y _ := BI.emp
  Z := Z
  hentry c := by
    rw [Pipeline.ownSems0_none, prefHeld4]
    iintro ⟨⟨Ha, HO, HZ⟩, -, -⟩
    imodintro
    isplitl [Ha]; · iexact Ha
    isplitr; · iempintro
    isplitl [HO]
    · iapply (Pipeline.owesWithin_mono (c : Dev nD) (O₂ c) (Set.subset_union_left (s := Rc₂ c) (t := cfg4.waitPairs ι))); iexact HO
    isplitr; · iempintro
    iexact HZ
  hin c := by
    rw [scopedRest_pin 2, show (pdats (Name := Name) (U := U) (Lvl := Lvl) V₀ V₁ V₂ O₀ O₁ O₂ Rc₀ Rc₁ Rc₂ 2 c).Φ 0 = Pipeline.scopedRest (cfgs 2).spec c from rfl]
    iintro ⟨-, -, HR⟩; iexact HR
  hout c := by
    rw [scopedRest_pin 2, show (pdats (Name := Name) (U := U) (Lvl := Lvl) V₀ V₁ V₂ O₀ O₁ O₂ Rc₀ Rc₁ Rc₂ 2 c).Φ (Fin.last _) = Pipeline.scopedRest (cfgs 2).spec c from rfl, Pipeline.ownSems0_none]
    iintro HR
    isplitr; · iempintro
    isplitr; · iempintro
    iexact HR
  hexit c := by
    iintro ⟨Ha, HO, -, HZ⟩
    imodintro
    isplitl [Ha]; · iexact Ha
    isplitl [HO]; · iexact HO
    iexact HZ

theorem reg0_pre (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 0 c) (c : Dev nD) :
    (reg0 V₀ V₁ V₂ O₀ O₁ O₂ Rc₀ Rc₁ Rc₂ ι 𝒱₀ L lv Z hwaits).pre c
      = iprop((pdats (Name := Name) (U := U) (Lvl := Lvl) V₀ V₁ V₂ O₀ O₁ O₂ Rc₀ Rc₁ Rc₂ 0 c).arrays ((pdats (Name := Name) (U := U) (Lvl := Lvl) V₀ V₁ V₂ O₀ O₁ O₂ Rc₀ Rc₁ Rc₂ 0 c).arrAt · 0) ∗ Pipeline.owesWithin c (O₀ c) (Rc₀ c) ∗ Z c) := rfl
theorem reg0_post (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 0 c) (c : Dev nD) :
    (reg0 V₀ V₁ V₂ O₀ O₁ O₂ Rc₀ Rc₁ Rc₂ ι 𝒱₀ L lv Z hwaits).post c
      = iprop((pdats (Name := Name) (U := U) (Lvl := Lvl) V₀ V₁ V₂ O₀ O₁ O₂ Rc₀ Rc₁ Rc₂ 0 c).arrays ((pdats (Name := Name) (U := U) (Lvl := Lvl) V₀ V₁ V₂ O₀ O₁ O₂ Rc₀ Rc₁ Rc₂ 0 c).arrAt · cfg0.N) ∗ (pdats (Name := Name) (U := U) (Lvl := Lvl) V₀ V₁ V₂ O₀ O₁ O₂ Rc₀ Rc₁ Rc₂ 0 c).owesAt ι (Fin.last cfg0.N) ∗ Z c) := rfl

theorem reg2_pre (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 1 c) (c : Dev nD) :
    (reg2 V₀ V₁ V₂ O₀ O₁ O₂ Rc₀ Rc₁ Rc₂ ι 𝒱₀ L lv Z hwaits).pre c
      = iprop((pdats (Name := Name) (U := U) (Lvl := Lvl) V₀ V₁ V₂ O₀ O₁ O₂ Rc₀ Rc₁ Rc₂ 1 c).arrays ((pdats (Name := Name) (U := U) (Lvl := Lvl) V₀ V₁ V₂ O₀ O₁ O₂ Rc₀ Rc₁ Rc₂ 1 c).arrAt · 0) ∗ Pipeline.owesWithin c (O₁ c) (Rc₁ c) ∗ Z c) := rfl
theorem reg2_post (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 1 c) (c : Dev nD) :
    (reg2 V₀ V₁ V₂ O₀ O₁ O₂ Rc₀ Rc₁ Rc₂ ι 𝒱₀ L lv Z hwaits).post c
      = iprop((pdats (Name := Name) (U := U) (Lvl := Lvl) V₀ V₁ V₂ O₀ O₁ O₂ Rc₀ Rc₁ Rc₂ 1 c).arrays ((pdats (Name := Name) (U := U) (Lvl := Lvl) V₀ V₁ V₂ O₀ O₁ O₂ Rc₀ Rc₁ Rc₂ 1 c).arrAt · cfg2.N) ∗ (pdats (Name := Name) (U := U) (Lvl := Lvl) V₀ V₁ V₂ O₀ O₁ O₂ Rc₀ Rc₁ Rc₂ 1 c).owesAt ι (Fin.last cfg2.N) ∗ Z c) := rfl

theorem reg4_pre (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 2 c) (c : Dev nD) :
    (reg4 V₀ V₁ V₂ O₀ O₁ O₂ Rc₀ Rc₁ Rc₂ ι 𝒱₀ L lv Z hwaits).pre c
      = iprop((pdats (Name := Name) (U := U) (Lvl := Lvl) V₀ V₁ V₂ O₀ O₁ O₂ Rc₀ Rc₁ Rc₂ 2 c).arrays ((pdats (Name := Name) (U := U) (Lvl := Lvl) V₀ V₁ V₂ O₀ O₁ O₂ Rc₀ Rc₁ Rc₂ 2 c).arrAt · 0) ∗ Pipeline.owesWithin c (O₂ c) (Rc₂ c) ∗ Z c) := rfl
theorem reg4_post (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 2 c) (c : Dev nD) :
    (reg4 V₀ V₁ V₂ O₀ O₁ O₂ Rc₀ Rc₁ Rc₂ ι 𝒱₀ L lv Z hwaits).post c
      = iprop((pdats (Name := Name) (U := U) (Lvl := Lvl) V₀ V₁ V₂ O₀ O₁ O₂ Rc₀ Rc₁ Rc₂ 2 c).arrays ((pdats (Name := Name) (U := U) (Lvl := Lvl) V₀ V₁ V₂ O₀ O₁ O₂ Rc₀ Rc₁ Rc₂ 2 c).arrAt · cfg4.N) ∗ (pdats (Name := Name) (U := U) (Lvl := Lvl) V₀ V₁ V₂ O₀ O₁ O₂ Rc₀ Rc₁ Rc₂ 2 c).owesAt ι (Fin.last cfg4.N) ∗ Z c) := rfl

end Regs

end Cert.KernelIdeal.Regions

end
-- ==== Proof.KRegionSteps.lean ====
/-
  The three kernel regions of @main as steps on the valuation of @main's arrays: a region entered with the
  TensorCore's unscoped arrays held at a valuation and the core owing what it owes before SparseCore call n leaves the
  arrays at the valuation with the region's result rewritten, the core owing the same. The region rule gives the step
  from the region's record; the arrays of its entry come out of the held arrays, the rest of them bypasses the region,
  and the held arrays are put together again at its exit; the core's recorded pairs stay below the call's level, the
  pipeline's own waits being at level 0.
-/
import proofs.«215572_g25211458027672_cont_9to1_2008_46_alg».proof.Proof.KMainB
import proofs.«215572_g25211458027672_cont_9to1_2008_46_alg».proof.Proof.KOuts
import proofs.«215572_g25211458027672_cont_9to1_2008_46_alg».proof.Proof.KRegions
import proofs.«215572_g25211458027672_cont_9to1_2008_46_alg».proof.Proof.KResDef
import proofs.«215572_g25211458027672_cont_9to1_2008_46_alg».proof.Proof.KConst

set_option maxRecDepth 16384

noncomputable section

namespace Cert.KernelIdeal.RegionSteps

open Cert.KernelIdeal Cert.KernelIdeal.Gen Cert.KernelIdeal.KS Cert.KernelIdeal.KPay Cert.KernelIdeal.KMain

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within wp_seq seq after)

variable {F : FTy → Type} [FloatOps F] [Named F]

local notation "𝕄" => MT nD τ sig (HIx 2) (Elt F) ℕ UU ℕ

/-! ## The valuation read by the TensorCore's references; the core's debts within a bound -/

/-- A valuation of @main's arrays, read by the TensorCore's references on core `c`. -/
abbrev onTc (V : Valuation τ sig (Elt F)) (c : Dev nD) : (b : Ref sig .tc) → Buf (Elt F) ((Dev.tc c : Thread nD τ).loc b) :=
  fun b => V (rV b)

/-- The TensorCore's unscoped buffers at a valuation are @main's arrays held at it. -/
theorem unscoped_held' (V : Valuation τ sig (Elt F)) (d : Dev nD) :
    (unscopedBufs d (onTc V d) : sProp 𝕄) = held (SparseCore.T d) SU V := by
  unfold unscopedBufs held SU
  rw [bigSep_map]; rfl

/-- The pairs at or below the level of call `n`. -/
def recB (d : Dev nD) (n : ℕ) : Set (SemLoc sig × HIx 2) := {x | (K (F := F)).lev (SparseCore.T d, x.1) x.2 ≤ 8 * n}

/-- Entering: the debts with their recorded pairs below the call's level are debts within that bound. -/
theorem owesTc_within (d : Dev nD) (n : ℕ) :
    (owesTc (F := F) d n : sProp 𝕄) ⊢ Pipeline.owesWithin d ((K (F := F)).Otc d n) (recB (F := F) d n) := by
  iintro ⟨%W, %hW, HO⟩
  iexists W
  isplitr
  · ipureintro; exact fun x hx => hW x (Finset.mem_coe.mp hx)
  iexact HO

/-- Leaving: the bound widened by a pipeline's own waits (index `none`, level 0) is still below the call's level. -/
theorem within_owesTc (d : Dev nD) (n : ℕ) (cfg : Pipeline.Cfg sig Λ₀) :
    (Pipeline.owesWithin d ((K (F := F)).Otc d n) (recB (F := F) d n ∪ cfg.waitPairs (none : HIx 2)) : sProp 𝕄)
      ⊢ owesTc (F := F) d n := by
  iintro ⟨%W, %hW, HO⟩
  iexists W
  isplitr
  · ipureintro
    intro x hx
    rcases hW (Finset.mem_coe.mpr hx) with h | ⟨w, s, rfl⟩
    · exact h
    · exact Nat.zero_le _
  iexact HO

/-- Before any call the TensorCore owes nothing at index `none`. -/
theorem Otc_none (d : Dev nD) (n : ℕ) (g : GSem nD τ sig) : (K (F := F)).Otc d n g none = 0 := by
  by_contra h
  have h1 := SparseCore.Cfg.lev_of_Otc_pos (K := K (F := F)) (d := d) (n := n) (g := g) (ι := none) (Nat.pos_of_ne_zero h)
  have h0 : (K (F := F)).lev g none = 0 := rfl
  omega

/-! ## The arrays of a region out of the held arrays, and back -/

section Arrays

variable {p : Fin 3} (d : Dev nD) (V : Valuation τ sig (Elt F))
  (pdats : (p : Fin 3) → (c : Dev nD) → Pipeline.Dat τ (Elt F) (HIx 2) ℕ UU ℕ (Pipeline.pin (pcfgs (F := F)) adm p) c)
  (hw : Pipeline.WinFacts (Pipeline.pin (pcfgs (F := F)) adm p).spec) (harr : ∀ w, ((Pipeline.pin (pcfgs (F := F)) adm p).spec w).arr.IsWhole)
  (hshare : ∀ w, (pdats p d).share w = fullShare)

include hw harr hshare in
/-- Entering: the held arrays are the region's arrays at its entry contents and the rest. -/
theorem entry_arrays (hA : ∀ w, (pdats p d).A w = onTc V d (Pipeline.arrRef (Pipeline.pin (pcfgs (F := F)) adm p).spec w)) :
    (held (SparseCore.T d) SU V : sProp 𝕄)
      ⊢ iprop((pdats p d).arrays ((pdats p d).arrAt · 0) ∗ Pipeline.unscopedRest (Pipeline.pin (pcfgs (F := F)) adm p).spec d (onTc V d)) := by
  rw [← unscoped_held' V d]
  exact Pipeline.arrays_of_unscopedBufs (pcs := pcfgs (F := F)) (a := adm) (pdats := pdats) hw harr d hshare (onTc V d) hA

include hw harr hshare in
/-- Leaving: the region's arrays at their final contents and the rest are the arrays held at the valuation with the
    region's result rewritten, when that is what the final contents read and the result is one of the region's arrays. -/
theorem exit_held (y : Ref sig .tc) (v : (rV y).ty.Contents (Elt F))
    (hN : ∀ w, (pdats p d).arrAt w (Pipeline.pin (pcfgs (F := F)) adm p).N = onTc (Function.update V (rV y) v) d (Pipeline.arrRef (Pipeline.pin (pcfgs (F := F)) adm p).spec w))
    (hy : ∃ w, Pipeline.arrRef (Pipeline.pin (pcfgs (F := F)) adm p).spec w = y) :
    iprop((pdats p d).arrays ((pdats p d).arrAt · (Pipeline.pin (pcfgs (F := F)) adm p).N) ∗ Pipeline.unscopedRest (Pipeline.pin (pcfgs (F := F)) adm p).spec d (onTc V d))
      ⊢ (held (SparseCore.T d) SU (Function.update V (rV y) v) : sProp 𝕄) := by
  rw [← unscoped_held' (Function.update V (rV y) v) d,
    Pipeline.unscopedBufs_split (Pipeline.pin (pcfgs (F := F)) adm) p hw.arr_unscoped hw.arr_inj d (onTc (Function.update V (rV y) v) d),
    Pipeline.arrays_eq (Pipeline.pin (pcfgs (F := F)) adm) pdats p d harr hshare]
  refine sep_mono (Entails.of_eq (bigSep_congr fun w _ => by rw [hN w])) (Entails.of_eq ?_)
  unfold Pipeline.unscopedRest
  refine bigSep_congr fun b hb => ?_
  obtain ⟨wy, hwy⟩ := hy
  have hb' : b ∉ Finset.univ.image (Pipeline.arrRef (Pipeline.pin (pcfgs (F := F)) adm p).spec) := (Finset.mem_sdiff.mp hb).2
  have hne : rV b ≠ rV y := fun e =>
    hb' (Finset.mem_image.mpr ⟨wy, Finset.mem_univ _, hwy.trans (Proc.devRef_injective _ e).symm⟩)
  have e : onTc (Function.update V (rV y) v) d b = onTc V d b := Function.update_of_ne hne v V
  rw [e]

/-- An input window's array, never written back, reads the rewritten valuation when it is not the rewritten array. -/
theorem arrAt_input (y : Ref sig .tc) (v : (rV y).ty.Contents (Elt F))
    (hA : ∀ w, (pdats p d).A w = onTc V d (Pipeline.arrRef (Pipeline.pin (pcfgs (F := F)) adm p).spec w))
    (w : Fin (Pipeline.pin (pcfgs (F := F)) adm p).W) (hin : ((Pipeline.pin (pcfgs (F := F)) adm p).win w).isOut = false) (hne : Pipeline.arrRef (Pipeline.pin (pcfgs (F := F)) adm p).spec w ≠ y) (t : ℕ) :
    (pdats p d).arrAt w t = onTc (Function.update V (rV y) v) d (Pipeline.arrRef (Pipeline.pin (pcfgs (F := F)) adm p).spec w) := by
  rw [(pdats p d).arrAt_in w hin t, hA w]
  exact (Function.update_of_ne (fun e => hne (Proc.devRef_injective _ e)) v V).symm

end Arrays

/-! ## A region's record gives its step -/

/-- A region whose record is entered from its arrays, the core's debts within the call's bound and the rest of @main's
    arrays, and left with its arrays after the write-backs, the debts within the bound widened by the pipeline's own
    waits and the rest, steps the valuation: its result rewritten, everything else kept. -/
theorem step_of {p : Fin 3} (n : ℕ) (y : Ref sig .tc) (o : Valuation τ sig (Elt F) → (rV y).ty.Contents (Elt F))
    (d : Dev nD) (V : Valuation τ sig (Elt F))
    (pdats : (p : Fin 3) → (c : Dev nD) → Pipeline.Dat τ (Elt F) (HIx 2) ℕ UU ℕ (Pipeline.pin (pcfgs (F := F)) adm p) c)
    (R : Pipeline.RegionSeg (pcfgs (F := F)) adm pdats (none : HIx 2) defs₀ 𝒱₀ (K (F := F)).L (K (F := F)).lev p)
    (hw : Pipeline.WinFacts (Pipeline.pin (pcfgs (F := F)) adm p).spec) (harr : ∀ w, ((Pipeline.pin (pcfgs (F := F)) adm p).spec w).arr.IsWhole)
    (hshare : ∀ w, (pdats p d).share w = fullShare)
    (hA : ∀ w, (pdats p d).A w = onTc V d (Pipeline.arrRef (Pipeline.pin (pcfgs (F := F)) adm p).spec w))
    (hN : ∀ w, (pdats p d).arrAt w (Pipeline.pin (pcfgs (F := F)) adm p).N = onTc (Function.update V (rV y) (o V)) d (Pipeline.arrRef (Pipeline.pin (pcfgs (F := F)) adm p).spec w))
    (hy : ∃ w, Pipeline.arrRef (Pipeline.pin (pcfgs (F := F)) adm p).spec w = y)
    (hpre : R.pre d = iprop((pdats p d).arrays ((pdats p d).arrAt · 0)
        ∗ Pipeline.owesWithin d ((K (F := F)).Otc d n) (recB (F := F) d n)
        ∗ Pipeline.unscopedRest (Pipeline.pin (pcfgs (F := F)) adm p).spec d (onTc V d)))
    (hpost : R.post d = iprop((pdats p d).arrays ((pdats p d).arrAt · (Pipeline.pin (pcfgs (F := F)) adm p).N)
        ∗ (pdats p d).owesAt (none : HIx 2) (Fin.last (Pipeline.pin (pcfgs (F := F)) adm p).N)
        ∗ Pipeline.unscopedRest (Pipeline.pin (pcfgs (F := F)) adm p).spec d (onTc V d)))
    (howes : ((pdats p d).owesAt (none : HIx 2) (Fin.last (Pipeline.pin (pcfgs (F := F)) adm p).N) : sProp 𝕄)
        = Pipeline.owesWithin d ((K (F := F)).Otc d n) (recB (F := F) d n ∪ (Pipeline.pin (pcfgs (F := F)) adm p).waitPairs (none : HIx 2)))
    {α : Type} (k : PUnit → Prog (TpuEff nD τ sig (Elt F) (ΛP (F := F)) .tc) α) (Q : α → sProp 𝕄) :
    iprop((iprop(boundary (SparseCore.T d) ∗ held (SparseCore.T d) SU (Function.update V (rV y) (o V)) ∗ owesTc d n)
            -∗ wp frame (wpE (D (F := F)) 𝒱 (SparseCore.T d) none) Set.univ (k ⟨⟩) Q)
        ∗ boundary (SparseCore.T d) ∗ held (SparseCore.T d) SU V ∗ owesTc d n ∗ levAts (K (F := F)).L (K (F := F)).lev
        ∗ Pipeline.cellsGhost cfgs EP p d ∗ Pipeline.toksInit cfgs EP p d)
      ⊢ wp frame (wpE (D (F := F)) 𝒱 (SparseCore.T d) none) Set.univ (.op (.customCall (Pipeline.entry p) ()) k) Q := by
  have key := Pipeline.RegionSeg.wp (pcfgs (F := F)) adm pdats (none : HIx 2) cellOf_inj EP defs₀ 𝒱₀
    (K (F := F)).L (K (F := F)).lev R d none (by simp) k Q
  iintro ⟨Hk, Hbd, Hh, Ho, Hl, Hg, Ht⟩
  iapply key
  isplitl [Hk]
  · iintro ⟨Hbd', Hpost⟩
    iapply Hk
    ihave Hp := (Entails.of_eq hpost) $$ Hpost
    icases Hp with ⟨Ha, HO, Hr⟩
    isplitl [Hbd']; · iexact Hbd'
    isplitl [Ha Hr]
    · iapply (exit_held d V pdats hw harr hshare y (o V) hN hy)
      isplitl [Ha]; · iexact Ha
      iexact Hr
    · iapply (within_owesTc d n (Pipeline.pin (pcfgs (F := F)) adm p))
      iapply (Entails.of_eq howes)
      iexact HO
  isplitl [Hbd]; · iexact Hbd
  isplitl [Hh Ho]
  · iapply (Entails.of_eq hpre.symm)
    ihave He := (entry_arrays d V pdats hw harr hshare hA) $$ Hh
    icases He with ⟨Ha, Hr⟩
    isplitl [Ha]; · iexact Ha
    isplitl [Ho]
    · iapply (owesTc_within d n); iexact Ho
    iexact Hr
  isplitl [Hl]; · iexact Hl
  isplitl [Hg]; · iexact Hg
  iexact Ht

/-! ## The three regions' records at a valuation and a call count -/

section Inst

variable (V : Valuation τ sig (Elt F)) (n : ℕ)

/-- The parameters of the regions' proof data: the valuation on every core, the TensorCore's debts before call `n`,
    the pairs below that call's level. -/
abbrev Vt : (c : Dev nD) → (b : Ref sig .tc) → Buf (Elt F) ((Dev.tc c : Thread nD τ).loc b) := fun c => onTc V c
abbrev Ot : Dev nD → CellTallies nD τ sig (HIx 2) := fun c => (K (F := F)).Otc c n
abbrev Rt : Dev nD → Set (SemLoc sig × HIx 2) := fun c => recB (F := F) c n

/-- The three pipelines' proof data at them. -/
abbrev pd : (p : Fin 3) → (c : Dev nD) → Pipeline.Dat τ (Elt F) (HIx 2) ℕ UU ℕ (Pipeline.pin (pcfgs (F := F)) adm p) c :=
  Regions.pdats (F := F) (Ix := HIx 2) (Name := ℕ) (U := UU) (Lvl := ℕ) (Vt V) (Vt V) (Vt V) (Ot (F := F) n) (Ot (F := F) n) (Ot (F := F) n) (Rt (F := F) n) (Rt (F := F) n) (Rt (F := F) n)

/-- What bypasses region `p`: the arrays of @main that are none of its windows'. -/
abbrev Zt (p : Fin 3) : Dev nD → sProp 𝕄 := fun c => Pipeline.unscopedRest (Pipeline.pin (pcfgs (F := F)) adm p).spec c (onTc V c)

/-- The pipelines' own waits, at index `none`, sit below everything the TensorCore owes. -/
theorem hwaits0 (c : Dev nD) : (levAts (K (F := F)).L (K (F := F)).lev : sProp 𝕄)
    ⊢ Pipeline.cellsWaits (Pipeline.pin (pcfgs (F := F)) adm) (pd V n) (none : HIx 2) 0 c :=
  Pipeline.cellsWaits_intro (Pipeline.pin (pcfgs (F := F)) adm) (pd V n) (none : HIx 2) 0 c fun w s t =>
    (K (F := F)).mayWait_none _ (fun g => Otc_none (F := F) c n g)
theorem hwaits1 (c : Dev nD) : (levAts (K (F := F)).L (K (F := F)).lev : sProp 𝕄)
    ⊢ Pipeline.cellsWaits (Pipeline.pin (pcfgs (F := F)) adm) (pd V n) (none : HIx 2) 1 c :=
  Pipeline.cellsWaits_intro (Pipeline.pin (pcfgs (F := F)) adm) (pd V n) (none : HIx 2) 1 c fun w s t =>
    (K (F := F)).mayWait_none _ (fun g => Otc_none (F := F) c n g)
theorem hwaits2 (c : Dev nD) : (levAts (K (F := F)).L (K (F := F)).lev : sProp 𝕄)
    ⊢ Pipeline.cellsWaits (Pipeline.pin (pcfgs (F := F)) adm) (pd V n) (none : HIx 2) 2 c :=
  Pipeline.cellsWaits_intro (Pipeline.pin (pcfgs (F := F)) adm) (pd V n) (none : HIx 2) 2 c fun w s t =>
    (K (F := F)).mayWait_none _ (fun g => Otc_none (F := F) c n g)

end Inst

/-! ## The three steps -/

/-- Every window of region 0 but the last is an input. -/
theorem inputs0 : ∀ w : Fin 3, w ≠ 2 → (cfg0.win w).isOut = false := by decide

/-- Region 0's arrays after its write-backs are the valuation with the result rewritten. -/
theorem hN0 (final0 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat0 (Name := ℕ) (U := UU) (Lvl := ℕ) V O Rc c).arrAt 2 cfg0.N = GenP.k0_pay1 (V c (Pipeline.arrRef spec0 0)) (V c (Pipeline.arrRef spec0 1)))
    (n : ℕ) (d : Dev nD) (V : Valuation τ sig (Elt F)) (w : Fin 3) :
    (pd V n 0 d).arrAt w (Pipeline.pin (pcfgs (F := F)) adm 0).N
      = onTc (Function.update V (rV main_v22) (o0 V)) d (Pipeline.arrRef (Pipeline.pin (pcfgs (F := F)) adm 0).spec w) := by
  by_cases hw : w = 2
  · subst hw
    exact (final0 (Vt V) (Ot (F := F) n) (Rt (F := F) n) d).trans (Function.update_self (rV main_v22) (o0 V) V).symm
  · exact arrAt_input (p := 0) d V (pd V n) main_v22 (o0 V) (Regions.pdats_A0 (Vt V) (Vt V) (Vt V) (Ot (F := F) n) (Ot (F := F) n) (Ot (F := F) n) (Rt (F := F) n) (Rt (F := F) n) (Rt (F := F) n) d) w (inputs0 w hw)
      (fun e => hw (winFacts0.arr_inj e)) _

/-- Region 0 as a step on the valuation. -/
theorem hR0 (final0 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat0 (Name := ℕ) (U := UU) (Lvl := ℕ) V O Rc c).arrAt 2 cfg0.N = GenP.k0_pay1 (V c (Pipeline.arrRef spec0 0)) (V c (Pipeline.arrRef spec0 1))) :
    RegionStep (F := F) 0 0 main_v22 o0 := by
  unfold RegionStep
  intro d V α k Q
  exact step_of (p := 0) 0 main_v22 o0 d V (pd V 0)
    (Regions.reg0 (Vt V) (Vt V) (Vt V) (Ot (F := F) 0) (Ot (F := F) 0) (Ot (F := F) 0) (Rt (F := F) 0) (Rt (F := F) 0) (Rt (F := F) 0) (none : HIx 2) 𝒱₀ (K (F := F)).L (K (F := F)).lev (Zt V 0) (hwaits0 V 0))
    winFacts0 arr_whole0
    (Regions.share0 (Vt V) (Vt V) (Vt V) (Ot (F := F) 0) (Ot (F := F) 0) (Ot (F := F) 0) (Rt (F := F) 0) (Rt (F := F) 0) (Rt (F := F) 0) d)
    (Regions.pdats_A0 (Vt V) (Vt V) (Vt V) (Ot (F := F) 0) (Ot (F := F) 0) (Ot (F := F) 0) (Rt (F := F) 0) (Rt (F := F) 0) (Rt (F := F) 0) d)
    (hN0 final0 0 d V)
    ⟨2, rfl⟩
    (Regions.reg0_pre (Vt V) (Vt V) (Vt V) (Ot (F := F) 0) (Ot (F := F) 0) (Ot (F := F) 0) (Rt (F := F) 0) (Rt (F := F) 0) (Rt (F := F) 0) (none : HIx 2) 𝒱₀ (K (F := F)).L (K (F := F)).lev (Zt V 0) (hwaits0 V 0) d)
    (Regions.reg0_post (Vt V) (Vt V) (Vt V) (Ot (F := F) 0) (Ot (F := F) 0) (Ot (F := F) 0) (Rt (F := F) 0) (Rt (F := F) 0) (Rt (F := F) 0) (none : HIx 2) 𝒱₀ (K (F := F)).L (K (F := F)).lev (Zt V 0) (hwaits0 V 0) d)
    (Regions.owesAt0 (Vt V) (Vt V) (Vt V) (Ot (F := F) 0) (Ot (F := F) 0) (Ot (F := F) 0) (Rt (F := F) 0) (Rt (F := F) 0) (Rt (F := F) 0) (none : HIx 2) d _)
    k Q

/-- Every window of region 1 but the last is an input. -/
theorem inputs1 : ∀ w : Fin 24, w ≠ 23 → (cfg2.win w).isOut = false := by decide

/-- Region 1's arrays after its write-backs are the valuation with the result rewritten. -/
theorem hN1 (final2 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat2 (Name := ℕ) (U := UU) (Lvl := ℕ) V O Rc c).arrAt 23 cfg2.N = KValue.regionOut2 (KConst.inv36 (F := F)) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22)))
    (n : ℕ) (d : Dev nD) (V : Valuation τ sig (Elt F)) (w : Fin 24) :
    (pd V n 1 d).arrAt w (Pipeline.pin (pcfgs (F := F)) adm 1).N
      = onTc (Function.update V (rV main_v41) (o1 V)) d (Pipeline.arrRef (Pipeline.pin (pcfgs (F := F)) adm 1).spec w) := by
  by_cases hw : w = 23
  · subst hw
    exact (final2 (Vt V) (Ot (F := F) n) (Rt (F := F) n) d).trans (Function.update_self (rV main_v41) (o1 V) V).symm
  · exact arrAt_input (p := 1) d V (pd V n) main_v41 (o1 V) (Regions.pdats_A2 (Vt V) (Vt V) (Vt V) (Ot (F := F) n) (Ot (F := F) n) (Ot (F := F) n) (Rt (F := F) n) (Rt (F := F) n) (Rt (F := F) n) d) w (inputs1 w hw)
      (fun e => hw (winFacts2.arr_inj e)) _

/-- Region 1 as a step on the valuation. -/
theorem hR1 (final2 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat2 (Name := ℕ) (U := UU) (Lvl := ℕ) V O Rc c).arrAt 23 cfg2.N = KValue.regionOut2 (KConst.inv36 (F := F)) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22))) :
    RegionStep (F := F) 1 1 main_v41 o1 := by
  unfold RegionStep
  intro d V α k Q
  exact step_of (p := 1) 1 main_v41 o1 d V (pd V 1)
    (Regions.reg2 (Vt V) (Vt V) (Vt V) (Ot (F := F) 1) (Ot (F := F) 1) (Ot (F := F) 1) (Rt (F := F) 1) (Rt (F := F) 1) (Rt (F := F) 1) (none : HIx 2) 𝒱₀ (K (F := F)).L (K (F := F)).lev (Zt V 1) (hwaits1 V 1))
    winFacts2 arr_whole2
    (Regions.share2 (Vt V) (Vt V) (Vt V) (Ot (F := F) 1) (Ot (F := F) 1) (Ot (F := F) 1) (Rt (F := F) 1) (Rt (F := F) 1) (Rt (F := F) 1) d)
    (Regions.pdats_A2 (Vt V) (Vt V) (Vt V) (Ot (F := F) 1) (Ot (F := F) 1) (Ot (F := F) 1) (Rt (F := F) 1) (Rt (F := F) 1) (Rt (F := F) 1) d)
    (hN1 final2 1 d V)
    ⟨23, rfl⟩
    (Regions.reg2_pre (Vt V) (Vt V) (Vt V) (Ot (F := F) 1) (Ot (F := F) 1) (Ot (F := F) 1) (Rt (F := F) 1) (Rt (F := F) 1) (Rt (F := F) 1) (none : HIx 2) 𝒱₀ (K (F := F)).L (K (F := F)).lev (Zt V 1) (hwaits1 V 1) d)
    (Regions.reg2_post (Vt V) (Vt V) (Vt V) (Ot (F := F) 1) (Ot (F := F) 1) (Ot (F := F) 1) (Rt (F := F) 1) (Rt (F := F) 1) (Rt (F := F) 1) (none : HIx 2) 𝒱₀ (K (F := F)).L (K (F := F)).lev (Zt V 1) (hwaits1 V 1) d)
    (Regions.owesAt2 (Vt V) (Vt V) (Vt V) (Ot (F := F) 1) (Ot (F := F) 1) (Ot (F := F) 1) (Rt (F := F) 1) (Rt (F := F) 1) (Rt (F := F) 1) (none : HIx 2) d _)
    k Q

/-- Every window of region 2 but the last is an input. -/
theorem inputs2 : ∀ w : Fin 24, w ≠ 23 → (cfg4.win w).isOut = false := by decide

/-- Region 2's arrays after its write-backs are the valuation with the result rewritten. -/
theorem hN2 (final4 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat4 (Name := ℕ) (U := UU) (Lvl := ℕ) V O Rc c).arrAt 23 cfg4.N = KValue.regionOut4 (KConst.inv36 (F := F)) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22)))
    (n : ℕ) (d : Dev nD) (V : Valuation τ sig (Elt F)) (w : Fin 24) :
    (pd V n 2 d).arrAt w (Pipeline.pin (pcfgs (F := F)) adm 2).N
      = onTc (Function.update V (rV main_v60) (o2 V)) d (Pipeline.arrRef (Pipeline.pin (pcfgs (F := F)) adm 2).spec w) := by
  by_cases hw : w = 23
  · subst hw
    exact (final4 (Vt V) (Ot (F := F) n) (Rt (F := F) n) d).trans (Function.update_self (rV main_v60) (o2 V) V).symm
  · exact arrAt_input (p := 2) d V (pd V n) main_v60 (o2 V) (Regions.pdats_A4 (Vt V) (Vt V) (Vt V) (Ot (F := F) n) (Ot (F := F) n) (Ot (F := F) n) (Rt (F := F) n) (Rt (F := F) n) (Rt (F := F) n) d) w (inputs2 w hw)
      (fun e => hw (winFacts4.arr_inj e)) _

/-- Region 2 as a step on the valuation. -/
theorem hR2 (final4 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat4 (Name := ℕ) (U := UU) (Lvl := ℕ) V O Rc c).arrAt 23 cfg4.N = KValue.regionOut4 (KConst.inv36 (F := F)) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22))) :
    RegionStep (F := F) 2 2 main_v60 o2 := by
  unfold RegionStep
  intro d V α k Q
  exact step_of (p := 2) 2 main_v60 o2 d V (pd V 2)
    (Regions.reg4 (Vt V) (Vt V) (Vt V) (Ot (F := F) 2) (Ot (F := F) 2) (Ot (F := F) 2) (Rt (F := F) 2) (Rt (F := F) 2) (Rt (F := F) 2) (none : HIx 2) 𝒱₀ (K (F := F)).L (K (F := F)).lev (Zt V 2) (hwaits2 V 2))
    winFacts4 arr_whole4
    (Regions.share4 (Vt V) (Vt V) (Vt V) (Ot (F := F) 2) (Ot (F := F) 2) (Ot (F := F) 2) (Rt (F := F) 2) (Rt (F := F) 2) (Rt (F := F) 2) d)
    (Regions.pdats_A4 (Vt V) (Vt V) (Vt V) (Ot (F := F) 2) (Ot (F := F) 2) (Ot (F := F) 2) (Rt (F := F) 2) (Rt (F := F) 2) (Rt (F := F) 2) d)
    (hN2 final4 2 d V)
    ⟨23, rfl⟩
    (Regions.reg4_pre (Vt V) (Vt V) (Vt V) (Ot (F := F) 2) (Ot (F := F) 2) (Ot (F := F) 2) (Rt (F := F) 2) (Rt (F := F) 2) (Rt (F := F) 2) (none : HIx 2) 𝒱₀ (K (F := F)).L (K (F := F)).lev (Zt V 2) (hwaits2 V 2) d)
    (Regions.reg4_post (Vt V) (Vt V) (Vt V) (Ot (F := F) 2) (Ot (F := F) 2) (Ot (F := F) 2) (Rt (F := F) 2) (Rt (F := F) 2) (Rt (F := F) 2) (none : HIx 2) 𝒱₀ (K (F := F)).L (K (F := F)).lev (Zt V 2) (hwaits2 V 2) d)
    (Regions.owesAt4 (Vt V) (Vt V) (Vt V) (Ot (F := F) 2) (Ot (F := F) 2) (Ot (F := F) 2) (Rt (F := F) 2) (Rt (F := F) 2) (Rt (F := F) 2) (none : HIx 2) d _)
    k Q

end Cert.KernelIdeal.RegionSteps

end
-- ==== Proof.KRegionVal.lean ====
/-
  The three TensorCore regions' output arrays after each region, in closed form: the projection's as the
  product of the two arrays it finds, each layer region's as the layer's value, tile by tile, of the 23 arrays
  it finds. What a grid point writes back is the body's value of the input blocks at that point; the points'
  output blocks cover the output array.
-/
import proofs.«215572_g25211458027672_cont_9to1_2008_46_alg».proof.Proof.KRegions
import proofs.«215572_g25211458027672_cont_9to1_2008_46_alg».proof.Proof.KResDef
import Idealize.ShloMosaic.Lib.Pipeline.Value

set_option maxRecDepth 16384

noncomputable section

namespace Cert.KernelIdeal.RegionVal

open Cert.KernelIdeal Cert.KernelIdeal.Gen Cert.KernelIdeal.GenP Cert.KernelIdeal.Regions
open Idealize.ShloMosaic Idealize.ShloMosaic.TcCoe
open Idealize.SL Idealize.SL.RA Idealize.SL.BI
open Idealize.SL.Sem
open Idealize.ShloMosaic.Rounds
open Idealize.ShloMosaic.Pipeline (Dat Cfg Window)

variable {F : FTy → Type} [FloatOps F] [Named F]
variable {Ix : Type} [DecidableEq Ix] {Name : Type} [DecidableEq Name] {U : Type} [URA U] {Lvl : Type} [Preorder Lvl]

/-! ## Call 0: the projection, one point over whole arrays -/

section Call0

variable (V : (c : Dev nD) → (b : Ref sig .tc) → Buf (Elt F) ((c : Thread nD τ).loc b))
  (O : Dev nD → CellTallies nD τ sig Ix) (Rc : Dev nD → Set (SemLoc sig × Ix))

/-- Every window of the projection sits at block (0, 0): decided over the grid's one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The left operand's block is the whole array. -/
theorem iblk0_0_eq (c : Dev nD) (t : Fin cfg0.N) :
    (iblk0 V c 0 t : Vec F S4096x128 .f32) = V c (Pipeline.arrRef spec0 0) := by
  obtain ⟨e0, e1, e2, e3, e4, e5⟩ := idx0 t
  funext y
  show V c (Pipeline.arrRef spec0 0) (((cfg0.win 0).blk t).view.emb y) = V c (Pipeline.arrRef spec0 0) y
  refine congrArg (V c (Pipeline.arrRef spec0 0)) (funext fun a => Fin.ext ?_)
  match a with
  | ⟨0, _⟩ => show win0_0.index t (0 : Fin 2) * 4096 + 1 * (y 0).val = (y 0).val; omega
  | ⟨1, _⟩ => show win0_0.index t (1 : Fin 2) * 128 + 1 * (y 1).val = (y 1).val; omega

/-- The right operand's block is the whole array. -/
theorem iblk0_1_eq (c : Dev nD) (t : Fin cfg0.N) :
    (iblk0 V c 1 t : Vec F S128x128 .f32) = V c (Pipeline.arrRef spec0 1) := by
  obtain ⟨e0, e1, e2, e3, e4, e5⟩ := idx0 t
  funext y
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is the product of the two whole arrays, read through the output's block. -/
theorem flushed0_2_read (c : Dev nD) (t : Fin cfg0.N) :
    (dat0 (Name := Name) (U := U) (Lvl := Lvl) V O Rc c).flushed 2 t
      = ((cfg0.win 2).blk t).view.read (Elt F) (k0_pay1 (V c (Pipeline.arrRef spec0 0)) (V c (Pipeline.arrRef spec0 1))) := by
  rw [flushed0_2, out0_eq, iblk0_0_eq, iblk0_1_eq]
  obtain ⟨e0, e1, e2, e3, e4, e5⟩ := idx0 t
  funext y
  show k0_pay1 (V c (Pipeline.arrRef spec0 0)) (V c (Pipeline.arrRef spec0 1)) y
    = k0_pay1 (V c (Pipeline.arrRef spec0 0)) (V c (Pipeline.arrRef spec0 1)) (((cfg0.win 2).blk t).view.emb y)
  refine congrArg (k0_pay1 (V c (Pipeline.arrRef spec0 0)) (V c (Pipeline.arrRef spec0 1))) (funext fun a => Fin.ext ?_)
  match a with
  | ⟨0, _⟩ => show (y 0).val = win0_2.index t (0 : Fin 2) * 4096 + 1 * (y 0).val; omega
  | ⟨1, _⟩ => show (y 1).val = win0_2.index t (1 : Fin 2) * 128 + 1 * (y 1).val; omega

/-- The one point's output block is the whole array. -/
theorem cover0_2 (i : S4096x128.Idx) :
    ∃ t : Fin cfg0.N, (cfg0.win 2).flush t = true ∧ i ∈ ((cfg0.win 2).blk t).view.set := by
  have hN : 0 < cfg0.N := by show 0 < grid0.N; rw [N_0]; omega
  refine ⟨⟨0, hN⟩, flush0_2 _, ?_⟩
  obtain ⟨e0, e1, e2, e3, e4, e5⟩ := idx0 ⟨0, hN⟩
  have h0 : (i 0).val < 4096 := (i 0).isLt
  have h1 : (i 1).val < 128 := (i 1).isLt
  show i ∈ ((View.whole main_v22).slice (win0_2.rect ⟨0, hN⟩)).set
  rw [View.set_slice_whole, Rect.mem_set_unit]
  intro a
  match a with
  | ⟨0, _⟩ => show win0_2.index ⟨0, hN⟩ (0 : Fin 2) * 4096 ≤ (i 0).val ∧ (i 0).val < win0_2.index ⟨0, hN⟩ (0 : Fin 2) * 4096 + 4096; omega
  | ⟨1, _⟩ => show win0_2.index ⟨0, hN⟩ (1 : Fin 2) * 128 ≤ (i 1).val ∧ (i 1).val < win0_2.index ⟨0, hN⟩ (1 : Fin 2) * 128 + 128; omega

/-- THE PROJECTION'S ARRAY AFTER THE REGION: the product of the two arrays the region finds. -/
theorem final0 (c : Dev nD) :
    (dat0 (Name := Name) (U := U) (Lvl := Lvl) V O Rc c).arrAt 2 cfg0.N
      = k0_pay1 (V c (Pipeline.arrRef spec0 0)) (V c (Pipeline.arrRef spec0 1)) :=
  (dat0 (Name := Name) (U := U) (Lvl := Lvl) V O Rc c).arrAt_eq_of_cover 2 _
    (fun t _ => flushed0_2_read V O Rc c t) cover0_2

end Call0

/-! ## Call 2: the layer region's output array -/

section Final2

/-- Over any 23 arrays: the body's stored value of their blocks at point t is block t of the region's closed form. -/
theorem out2_read_blk (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) (t : Fin cfg2.N) :
    out2 (((cfg2.win 0).blk t).view.read (Elt F) A0) (((cfg2.win 1).blk t).view.read (Elt F) A1) (((cfg2.win 2).blk t).view.read (Elt F) A2) (((cfg2.win 3).blk t).view.read (Elt F) A3) (((cfg2.win 4).blk t).view.read (Elt F) A4) (((cfg2.win 5).blk t).view.read (Elt F) A5) (((cfg2.win 6).blk t).view.read (Elt F) A6) (((cfg2.win 7).blk t).view.read (Elt F) A7) (((cfg2.win 8).blk t).view.read (Elt F) A8) (((cfg2.win 9).blk t).view.read (Elt F) A9) (((cfg2.win 10).blk t).view.read (Elt F) A10) (((cfg2.win 11).blk t).view.read (Elt F) A11) (((cfg2.win 12).blk t).view.read (Elt F) A12) (((cfg2.win 13).blk t).view.read (Elt F) A13) (((cfg2.win 14).blk t).view.read (Elt F) A14) (((cfg2.win 15).blk t).view.read (Elt F) A15) (((cfg2.win 16).blk t).view.read (Elt F) A16) (((cfg2.win 17).blk t).view.read (Elt F) A17) (((cfg2.win 18).blk t).view.read (Elt F) A18) (((cfg2.win 19).blk t).view.read (Elt F) A19) (((cfg2.win 20).blk t).view.read (Elt F) A20) (((cfg2.win 21).blk t).view.read (Elt F) A21) (((cfg2.win 22).blk t).view.read (Elt F) A22)
      = ((cfg2.win 23).blk t).view.read (Elt F) (KValue.regionOut2 (KConst.inv36 (F := F)) A0 A1 A2 A3 A4 A5 A6 A7 A8 A9 A10 A11 A12 A13 A14 A15 A16 A17 A18 A19 A20 A21 A22) :=
  (out2_eq _ _ _ _ _ _ _ _ _ _ _ _ _ _ _ _ _ _ _ _ _ _ _).trans (KValue.read_blk_regionOut2 (KConst.inv36 (F := F)) A0 A1 A2 A3 A4 A5 A6 A7 A8 A9 A10 A11 A12 A13 A14 A15 A16 A17 A18 A19 A20 A21 A22 t).symm

variable (V : (c : Dev nD) → (b : Ref sig .tc) → Buf (Elt F) ((c : Thread nD τ).loc b))
  (O : Dev nD → CellTallies nD τ sig Ix) (Rc : Dev nD → Set (SemLoc sig × Ix))

set_option maxHeartbeats 2000000 in
/-- What point t stores is block t of the region's closed form of the arrays the region finds. -/
theorem outAt2_read (c : Dev nD) (t : Fin cfg2.N) :
    outAt2 V c t = ((cfg2.win 23).blk t).view.read (Elt F)
      (KValue.regionOut2 (KConst.inv36 (F := F)) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22))) :=
  out2_read_blk (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22)) t

set_option maxHeartbeats 2000000 in
/-- THE OUTPUT ARRAY AFTER THE REGION: the layer's value, tile by tile, of the arrays the region finds. -/
theorem final2 (c : Dev nD) :
    (dat2 (Name := Name) (U := U) (Lvl := Lvl) V O Rc c).arrAt 23 cfg2.N
      = KValue.regionOut2 (KConst.inv36 (F := F)) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22)) :=
  arrAt2_out V O Rc c _ (outAt2_read V c)

end Final2

/-! ## Call 4: the layer region's output array -/

section Final4

/-- Over any 23 arrays: the body's stored value of their blocks at point t is block t of the region's closed form. -/
theorem out4_read_blk (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) (t : Fin cfg4.N) :
    out4 (((cfg4.win 0).blk t).view.read (Elt F) A0) (((cfg4.win 1).blk t).view.read (Elt F) A1) (((cfg4.win 2).blk t).view.read (Elt F) A2) (((cfg4.win 3).blk t).view.read (Elt F) A3) (((cfg4.win 4).blk t).view.read (Elt F) A4) (((cfg4.win 5).blk t).view.read (Elt F) A5) (((cfg4.win 6).blk t).view.read (Elt F) A6) (((cfg4.win 7).blk t).view.read (Elt F) A7) (((cfg4.win 8).blk t).view.read (Elt F) A8) (((cfg4.win 9).blk t).view.read (Elt F) A9) (((cfg4.win 10).blk t).view.read (Elt F) A10) (((cfg4.win 11).blk t).view.read (Elt F) A11) (((cfg4.win 12).blk t).view.read (Elt F) A12) (((cfg4.win 13).blk t).view.read (Elt F) A13) (((cfg4.win 14).blk t).view.read (Elt F) A14) (((cfg4.win 15).blk t).view.read (Elt F) A15) (((cfg4.win 16).blk t).view.read (Elt F) A16) (((cfg4.win 17).blk t).view.read (Elt F) A17) (((cfg4.win 18).blk t).view.read (Elt F) A18) (((cfg4.win 19).blk t).view.read (Elt F) A19) (((cfg4.win 20).blk t).view.read (Elt F) A20) (((cfg4.win 21).blk t).view.read (Elt F) A21) (((cfg4.win 22).blk t).view.read (Elt F) A22)
      = ((cfg4.win 23).blk t).view.read (Elt F) (KValue.regionOut4 (KConst.inv36 (F := F)) A0 A1 A2 A3 A4 A5 A6 A7 A8 A9 A10 A11 A12 A13 A14 A15 A16 A17 A18 A19 A20 A21 A22) :=
  (out4_eq _ _ _ _ _ _ _ _ _ _ _ _ _ _ _ _ _ _ _ _ _ _ _).trans (KValue.read_blk_regionOut4 (KConst.inv36 (F := F)) A0 A1 A2 A3 A4 A5 A6 A7 A8 A9 A10 A11 A12 A13 A14 A15 A16 A17 A18 A19 A20 A21 A22 t).symm

variable (V : (c : Dev nD) → (b : Ref sig .tc) → Buf (Elt F) ((c : Thread nD τ).loc b))
  (O : Dev nD → CellTallies nD τ sig Ix) (Rc : Dev nD → Set (SemLoc sig × Ix))

set_option maxHeartbeats 2000000 in
/-- What point t stores is block t of the region's closed form of the arrays the region finds. -/
theorem outAt4_read (c : Dev nD) (t : Fin cfg4.N) :
    outAt4 V c t = ((cfg4.win 23).blk t).view.read (Elt F)
      (KValue.regionOut4 (KConst.inv36 (F := F)) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22))) :=
  out4_read_blk (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22)) t

set_option maxHeartbeats 2000000 in
/-- THE OUTPUT ARRAY AFTER THE REGION: the layer's value, tile by tile, of the arrays the region finds. -/
theorem final4 (c : Dev nD) :
    (dat4 (Name := Name) (U := U) (Lvl := Lvl) V O Rc c).arrAt 23 cfg4.N
      = KValue.regionOut4 (KConst.inv36 (F := F)) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22)) :=
  arrAt4_out V O Rc c _ (outAt4_read V c)

end Final4

end Cert.KernelIdeal.RegionVal

end
-- ==== Proof.KRegionStepsFinal.lean ====
/-
  The three kernel regions as steps on the valuation, their closed forms supplied: each region's result is the pure
  function of the valuation at its entry that the region's value lemma names.
-/
import proofs.«215572_g25211458027672_cont_9to1_2008_46_alg».proof.Proof.KRegionSteps
import proofs.«215572_g25211458027672_cont_9to1_2008_46_alg».proof.Proof.KRegionVal

noncomputable section

namespace Cert.KernelIdeal.RegionSteps

open Cert.KernelIdeal Cert.KernelIdeal.Gen Cert.KernelIdeal.KS Cert.KernelIdeal.KPay Cert.KernelIdeal.KMain

open Idealize.ShloMosaic
open Idealize.ShloMosaic.SparseCore.Cfg (HIx)

variable {F : FTy → Type} [FloatOps F] [Named F]

/-- Region 0 rewrites the projection's array. -/
theorem step0 : RegionStep (F := F) 0 0 main_v22 o0 :=
  hR0 fun V O Rc c => RegionVal.final0 (Name := ℕ) (U := UU) (Lvl := ℕ) V O Rc c

/-- Region 1 rewrites the first half's result. -/
theorem step1 : RegionStep (F := F) 1 1 main_v41 o1 :=
  hR1 fun V O Rc c => RegionVal.final2 (Name := ℕ) (U := UU) (Lvl := ℕ) V O Rc c

/-- Region 2 rewrites the second half's result. -/
theorem step2 : RegionStep (F := F) 2 2 main_v60 o2 :=
  hR2 fun V O Rc c => RegionVal.final4 (Name := ℕ) (U := UU) (Lvl := ℕ) V O Rc c

end Cert.KernelIdeal.RegionSteps

end
-- ==== Proof.ScTileVal.lean ====
/-
  Pure facts about one vector subcore's task of a gather call: what the task's squeezed slab of the index
  array reads, which rows of the result its part is, the batch offset it adds in closed form, and the value of
  one indirect gather through a row of the index scratch.
-/
import proofs.«215572_g25211458027672_cont_9to1_2008_46_alg».proof.Proof.SkeletonKernelIdeal
import proofs.«215572_g25211458027672_cont_9to1_2008_46_alg».proof.Proof.KSetup
import Idealize.ShloMosaic.Lib.ValueIdx
import Idealize.ShloMosaic.Lib.Decide

noncomputable section

namespace Cert.KernelIdeal.ScTileVal

open Cert.KernelIdeal Cert.KernelIdeal.Gen Idealize.ShloMosaic Idealize.ShloMosaic.ValueIdx

variable {F : FTy → Type}

/-! ## The index slab and the result's rows -/

/-- The task's slab of the index array, read through the squeezed slice: word `j` of the slab is
    word `(2 s + c, j₀, j₁)` of the array. -/
theorem slab_read (L : grid1.Coords) (ix : S32x18x128.Idx → Elt F .i32) (j : S18x128.Idx) :
    ((((Memref.whole main_v24_scv : Memref sig .scVector .hbm S32x18x128 .i32).slice
        (Rect.unit (s := S32x18x128) (k1_off1 L) S1x18x128.size (k1_off1_inb L)) (fun _ => rfl)).squeeze S18x128
        squeezes_S1x18x128_S18x128).view.read (Elt F) ix j)
      = ix (ix3 (⟨2 * (L 1).val + (L 0).val, by
          have h0 : (L 0).val < 2 := (L 0).isLt; have h1 : (L 1).val < 16 := (L 1).isLt; omega⟩ : Fin 32) (j 0) (j 1)) := by
  rw [View.read_apply, cast_eq]
  congr 1
  funext (a : Fin 3)
  apply Fin.ext
  show ((Rect.unit (s := S32x18x128) (k1_off1 L) S1x18x128.size (k1_off1_inb L)).emb
      (Shape.reshapeEquiv squeezes_S1x18x128_S18x128.numel_eq j) a : Nat) = _
  rw [Shape.reshapeEquiv_cons_one, Rect.emb_apply, Rect.off_unit, Rect.stride_unit]
  have e0 : k1_off1 L 0 = 2 * (L 1).val + (L 0).val := congrFun (k1_off1_eq L) 0
  have e1 : k1_off1 L 1 = 0 := congrFun (k1_off1_eq L) 1
  have e2 : k1_off1 L 2 = 0 := congrFun (k1_off1_eq L) 2
  match a with
  | ⟨0, _⟩ => show k1_off1 L 0 + 1 * 0 = 2 * (L 1).val + (L 0).val; omega
  | ⟨1, _⟩ => show k1_off1 L 1 + 1 * (j 0).val = (j 0).val; omega
  | ⟨2, _⟩ => show k1_off1 L 2 + 1 * (j 1).val = (j 1).val; omega

/-- Part `w` of the result's rows, cut in 32 along the rows, is rows `[2304 w, 2304 w + 2304)`. -/
theorem mem_oSet (w : Fin 32) (j : S73728x128.Idx) :
    j ∈ ((Memref.whole main_v25_scv : Memref sig .scVector .hbm S73728x128 .f32).view.slice
        (Rect.part (s := S73728x128) (a₀ := 0) (⟨2304, rfl⟩ : 32 ∣ S73728x128.size 0) w)).set
      ↔ 2304 * w.val ≤ (j 0).val ∧ (j 0).val < 2304 * w.val + 2304 := by
  show j ∈ ((View.whole main_v25_scv).slice
        (Rect.part (s := S73728x128) (a₀ := 0) (⟨2304, rfl⟩ : 32 ∣ S73728x128.size 0) w)).set ↔ _
  rw [View.set_slice_whole, Rect.mem_set_unit]
  have h1 : (j 1).val < 128 := (j 1).isLt
  constructor
  · intro h
    have h0 := h 0
    change w.val * (73728 / 32) ≤ (j 0).val ∧ (j 0).val < w.val * (73728 / 32) + 73728 / 32 at h0
    omega
  · intro h a
    match a with
    | ⟨0, _⟩ =>
      show w.val * (73728 / 32) ≤ (j 0).val ∧ (j 0).val < w.val * (73728 / 32) + 73728 / 32
      omega
    | ⟨1, _⟩ =>
      show 0 * 128 ≤ (j 1).val ∧ (j 1).val < 0 * 128 + 128
      omega

/-! ## The batch offset -/

/-- The batch offset the task adds to every word of its slab, as the program computes it from the
    grid's coordinates. -/
def k1_boffW (i : grid1.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v3 : BitVec 32 := Scalar.divsi v1 16#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v1 16#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.addi 0#32 v19
  let v21 : BitVec 32 := Scalar.muli v20 1024#32
  v21

/-- The batch offset in closed form: `1024` times the batch `0 + (2 s + c) / 16`. -/
theorem k1_boffW_eq : ∀ i : grid1.Coords,
    k1_boffW i = BitVec.ofNat 32 ((0 + (2 * (i 1).val + (i 0).val) / 16) * 1024) := by decide +kernel

section Pay
variable [FloatOps F] [Named F]
/-- The offset's addition to one sixteen-lane piece, over the batch offset as a word. -/
theorem k1_pay1_eq (i : grid1.Coords) (v34 : Vec F S1x16 .i32) :
    Cert.KernelIdeal.GenP.k1_pay1 i v34
      = shapeCast S1x16 (addi (shapeCast S16 v34 shapeCasts_S1x16_S16) (broadcast S16 (k1_boffW i))) shapeCasts_S16_S1x16 := rfl
end Pay

/-! ## One indirect gather's value -/

/-- Position `k` of a rank-one shape in row-major order is the index whose coordinate is `k`. -/
theorem rowMajor_symm_one {o : ℕ} (hn : S128.numel = o) (k : Fin o) :
    ((S128.rowMajor.symm (k.cast hn.symm)) 0).val = k.val := by
  have h := Shape.rowMajor_val_one (S128.rowMajor.symm (k.cast hn.symm))
  rw [Equiv.apply_symm_apply] at h
  exact h.symm

/-- Row `c` of the index scratch read through the squeezed slice: word `y` of the list is word `(c, y₀)`
    of the scratch. -/
theorem list_read (fI : S18x128.Idx → BitVec 32) (c : ℕ) (hc18 : c < 18)
    (inb : ∀ a, (![c, 0] : Fin 2 → ℕ) a + S1x128.size a ≤ S18x128.size a) (y : S128.Idx) :
    (((Memref.whole cc1_scratch0 : Memref sig .scVector .vmem S18x128 .i32).slice
        (Rect.unit (s := S18x128) ![c, 0] S1x128.size inb) (fun _ => rfl)).squeeze S128 squeezes_S1x128_S128).view.read (Elt F) fI y
      = fI (ix2 (⟨c % 18, Nat.mod_lt _ (by decide)⟩ : Fin 18) (y 0)) := by
  rw [View.read_apply, cast_eq]
  congr 1
  funext (a : Fin 2)
  apply Fin.ext
  show ((Rect.unit (s := S18x128) ![c, 0] S1x128.size inb).emb
      (Shape.reshapeEquiv squeezes_S1x128_S128.numel_eq y) a : Nat) = _
  rw [Shape.reshapeEquiv_cons_one, Rect.emb_apply, Rect.off_unit, Rect.stride_unit]
  match a with
  | ⟨0, _⟩ => show c + 1 * 0 = c % 18; omega
  | ⟨1, _⟩ => show 0 + 1 * (y 0).val = (y 0).val; omega

/-- The row the list names for position `k`: the number in word `(c, k)` of the scratch. -/
theorem rows_list (fI : S18x128.Idx → BitVec 32) (c : ℕ) (hc18 : c < 18)
    (inb : ∀ a, (![c, 0] : Fin 2 → ℕ) a + S1x128.size a ≤ S18x128.size a)
    (hin : ∀ x, ((((Memref.whole cc1_scratch0 : Memref sig .scVector .vmem S18x128 .i32).slice
        (Rect.unit (s := S18x128) ![c, 0] S1x128.size inb) (fun _ => rfl)).squeeze S128 squeezes_S1x128_S128).view.read (Elt F) fI x).toNat
          < S4096x128.size gathers_S4096x128_S128x128.axis)
    (k : Fin (S128x128.size gathers_S4096x128_S128x128.axis')) :
    (SparseCore.rows ((((Memref.whole cc1_scratch0 : Memref sig .scVector .vmem S18x128 .i32).slice
        (Rect.unit (s := S18x128) ![c, 0] S1x128.size inb) (fun _ => rfl)).squeeze S128 squeezes_S1x128_S128).view.read (Elt F) fI) rfl hin k).val
      = (fI (ix2 (⟨c % 18, Nat.mod_lt _ (by decide)⟩ : Fin 18) k)).toNat := by
  show ((((Memref.whole cc1_scratch0 : Memref sig .scVector .vmem S18x128 .i32).slice
        (Rect.unit (s := S18x128) ![c, 0] S1x128.size inb) (fun _ => rfl)).squeeze S128 squeezes_S1x128_S128).view.read (Elt F) fI (S128.rowMajor.symm (k.cast _))).toNat = _
  rw [list_read (F := F) fI c hc18 inb]
  have hk : (S128.rowMajor.symm (k.cast
      (rfl : S128.numel = S128x128.size gathers_S4096x128_S128x128.axis').symm)) 0 = k :=
    Fin.ext (rowMajor_symm_one rfl k)
  exact congrArg (fun t : Fin 128 => (fI (ix2 (⟨c % 18, Nat.mod_lt _ (by decide)⟩ : Fin 18) t)).toNat) hk

/-- One indirect gather's value: row `j₀` of the row buffer is the projected array's row named by word
    `(c, j₀)` of the index scratch. -/
theorem gath_eq (p : S4096x128.Idx → Elt F .f32) (fI : S18x128.Idx → BitVec 32) (off : Fin 2 → ℕ)
    (inb : ∀ a, off a + S1x128.size a ≤ S18x128.size a) (c : ℕ) (hc : off = ![c, 0]) (hc18 : c < 18)
    (hin : ∀ x, ((((Memref.whole cc1_scratch0 : Memref sig .scVector .vmem S18x128 .i32).slice
        (Rect.unit (s := S18x128) off S1x128.size inb) (fun _ => rfl)).squeeze S128 squeezes_S1x128_S128).view.read (Elt F) fI x).toNat
          < S4096x128.size gathers_S4096x128_S128x128.axis) :
    SparseCore.gatherPayload gathers_S4096x128_S128x128
        (((Memref.whole main_v22_scv : Memref sig .scVector .hbm S4096x128 .f32).slice
          (Rect.unit (s := S4096x128) ![0, 0] S4096x128.size inb_S4096x128_S4096x128_0_0) (fun _ => rfl)).view.read (Elt F) p)
        (SparseCore.rows ((((Memref.whole cc1_scratch0 : Memref sig .scVector .vmem S18x128 .i32).slice
        (Rect.unit (s := S18x128) off S1x128.size inb) (fun _ => rfl)).squeeze S128 squeezes_S1x128_S128).view.read (Elt F) fI) rfl hin)
      = fun j : S128x128.Idx => p (ix2 (⟨(fI (ix2 (⟨c % 18, Nat.mod_lt _ (by decide)⟩ : Fin 18) (j 0))).toNat % 4096,
          Nat.mod_lt _ (by decide)⟩ : Fin 4096) (j 1)) := by
  subst hc
  funext j
  have hrow := rows_list (F := F) fI c hc18 inb hin (j gathers_S4096x128_S128x128.axis')
  have hlt0 := hin (ix1 (j 0))
  rw [list_read (F := F) fI c hc18 inb] at hlt0
  have hlt : (fI (ix2 (⟨c % 18, Nat.mod_lt _ (by decide)⟩ : Fin 18) (j 0))).toNat < 4096 := hlt0
  unfold SparseCore.gatherPayload
  rw [View.read_apply, cast_eq]
  congr 1
  funext (b : Fin 2)
  apply Fin.ext
  show ((Rect.unit (s := S4096x128) ![0, 0] S4096x128.size inb_S4096x128_S4096x128_0_0).emb
      (gathers_S4096x128_S128x128.idx _ j) b : Nat) = _
  rw [Rect.emb_apply, Rect.off_unit, Rect.stride_unit]
  match b with
  | ⟨0, _⟩ =>
    show 0 + 1 * (gathers_S4096x128_S128x128.idx _ j gathers_S4096x128_S128x128.axis).val
      = (fI (ix2 (⟨c % 18, Nat.mod_lt _ (by decide)⟩ : Fin 18) (j 0))).toNat % 4096
    rw [Shape.Gathers.idx_axis, Nat.mod_eq_of_lt hlt, Nat.zero_add, Nat.one_mul]
    exact hrow
  | ⟨1, _⟩ =>
    show 0 + 1 * (gathers_S4096x128_S128x128.idx _ j ⟨1, by decide⟩).val = (j 1).val
    rw [Shape.Gathers.idx_of_ne gathers_S4096x128_S128x128 _ j ⟨1, by decide⟩ (by decide)]
    show 0 + 1 * (j 1).val = (j 1).val
    omega

end Cert.KernelIdeal.ScTileVal
-- ==== Proof.ScTile.lean ====
/-
  One vector subcore's task of the gather kernel `cc1_gk`, at a symbolic place, generic in the float instance.
  The task copies its [18,128] slab of row numbers into its index scratch, adds the batch offset to every word,
  and then streams eighteen chunks of 128 rows of the projected array through two row buffers, one gather
  outstanding per semaphore, each chunk copied out to the task's rows of the result once it has landed.
  The statement carries the value: after the task its 2304 rows of the result hold, row by row, the projected
  array's row named by the slab's word plus the batch offset.
-/
import proofs.«215572_g25211458027672_cont_9to1_2008_46_alg».proof.Proof.SkeletonKernelIdeal
import proofs.«215572_g25211458027672_cont_9to1_2008_46_alg».proof.Proof.KSetup
import proofs.«215572_g25211458027672_cont_9to1_2008_46_alg».proof.Proof.ScTileVal
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import Idealize.ShloMosaic.Lib.ValueIdx
import Idealize.ShloMosaic.Lib.Writes

noncomputable section

namespace Cert.KernelIdeal.ScTile

open Cert.KernelIdeal Cert.KernelIdeal.Gen Cert.KernelIdeal.GenP Cert.KernelIdeal.KS

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable [FloatOps F] [Named F]

/-! ## The arrays and the scratch, as a vector subcore names them -/

local notation "pV" => (Memref.whole Cert.KernelIdeal.main_v22_scv : Memref Cert.KernelIdeal.sig Kind.scVector Space.hbm Cert.KernelIdeal.S4096x128 EltTy.f32)
local notation "iV" => (Memref.whole Cert.KernelIdeal.main_v24_scv : Memref Cert.KernelIdeal.sig Kind.scVector Space.hbm Cert.KernelIdeal.S32x18x128 EltTy.i32)
local notation "oV" => (Memref.whole Cert.KernelIdeal.main_v25_scv : Memref Cert.KernelIdeal.sig Kind.scVector Space.hbm Cert.KernelIdeal.S73728x128 EltTy.f32)
local notation "sV" => (Memref.whole Cert.KernelIdeal.cc1_scratch0 : Memref Cert.KernelIdeal.sig Kind.scVector Space.vmem Cert.KernelIdeal.S18x128 EltTy.i32)
local notation "aV" => (Memref.whole Cert.KernelIdeal.cc1_scratch1 : Memref Cert.KernelIdeal.sig Kind.scVector Space.vmem Cert.KernelIdeal.S128x128 EltTy.f32)
local notation "bV" => (Memref.whole Cert.KernelIdeal.cc1_scratch2 : Memref Cert.KernelIdeal.sig Kind.scVector Space.vmem Cert.KernelIdeal.S128x128 EltTy.f32)

theorem idiv : 32 ∣ S32x18x128.size 0 := ⟨1, rfl⟩
theorem odiv : 32 ∣ S73728x128.size 0 := ⟨2304, rfl⟩
/-- Slab `w` of the index array and rows `[2304 w, 2304 w + 2304)` of the result. -/
abbrev irow (w : Fin 32) : Rect S32x18x128 := Rect.part (s := S32x18x128) (a₀ := 0) idiv w
abbrev orow (w : Fin 32) : Rect S73728x128 := Rect.part (s := S73728x128) (a₀ := 0) odiv w
abbrev iSet (w : Fin 32) : Finset S32x18x128.Idx := ((iV).view.slice (irow w)).set
abbrev oSet (w : Fin 32) : Finset S73728x128.Idx := ((oV).view.slice (orow w)).set

/-! ## The value -/

/-- The first batch of the call (the sibling call's is 2). -/
def k1_baseb : ℕ := 0

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The task's number: `2 s + c`. -/
def wid (L : grid1.Coords) : Fin 32 := ⟨2 * (L 1).val + (L 0).val, by
  have h0 : (L 0).val < 2 := (L 0).isLt; have h1 : (L 1).val < 16 := (L 1).isLt; omega⟩

/-- The task's thread. -/
abbrev thr (d : Dev nD) (L : grid1.Coords) : Thread nD τ := V d (cV L) (jV L)

theorem mem_own (a : DmaSem sig) (h : (SemLoc.dma a : SemLoc sig).isScoped .scVector = true) :
    ((thr d L, SemLoc.dma a) : GSem nD τ sig) ∈ ownCells (thr d L) := (mem_ownCells (g := (thr d L, SemLoc.dma a))).mpr ⟨rfl, h⟩
theorem gsem_ne {a b : DmaSem sig} (h : a ≠ b) : ((thr d L, SemLoc.dma a) : GSem nD τ sig) ≠ (thr d L, SemLoc.dma b) :=
  fun e => h (by injection e with _ e2; injection e2)

theorem ownSems0_V :
    (ownSems0 (thr d L) : sProp 𝕄)
      = iprop(semVal (thr d L, SemLoc.dma cc1_scratch3.sem) 0 ∗ semVal (thr d L, SemLoc.dma cc1_scratch4.sem) 0
          ∗ semVal (thr d L, SemLoc.dma cc1_scoped0.sem) 0 ∗ semVal (thr d L, SemLoc.dma cc1_scoped1.sem) 0 ∗ semVal (thr d L, SemLoc.dma cc1_scoped2.sem) 0
          ∗ bigSep (((((ownCells (thr d L)).erase (thr d L, SemLoc.dma cc1_scratch3.sem)).erase (thr d L, SemLoc.dma cc1_scratch4.sem)).erase
              (thr d L, SemLoc.dma cc1_scoped0.sem)).erase (thr d L, SemLoc.dma cc1_scoped1.sem) |>.erase (thr d L, SemLoc.dma cc1_scoped2.sem)) fun g => semVal g 0) := by
  unfold SparseCore.Cfg.ownSems0
  have m3 := mem_own d L cc1_scratch3.sem (by decide)
  have m4 := mem_own d L cc1_scratch4.sem (by decide)
  have m5 := mem_own d L cc1_scoped0.sem (by decide)
  have m6 := mem_own d L cc1_scoped1.sem (by decide)
  have m7 := mem_own d L cc1_scoped2.sem (by decide)
  have n34 := gsem_ne d L (show cc1_scratch3.sem ≠ cc1_scratch4.sem by decide)
  have n35 := gsem_ne d L (show cc1_scratch3.sem ≠ cc1_scoped0.sem by decide)
  have n36 := gsem_ne d L (show cc1_scratch3.sem ≠ cc1_scoped1.sem by decide)
  have n37 := gsem_ne d L (show cc1_scratch3.sem ≠ cc1_scoped2.sem by decide)
  have n45 := gsem_ne d L (show cc1_scratch4.sem ≠ cc1_scoped0.sem by decide)
  have n46 := gsem_ne d L (show cc1_scratch4.sem ≠ cc1_scoped1.sem by decide)
  have n47 := gsem_ne d L (show cc1_scratch4.sem ≠ cc1_scoped2.sem by decide)
  have n56 := gsem_ne d L (show cc1_scoped0.sem ≠ cc1_scoped1.sem by decide)
  have n57 := gsem_ne d L (show cc1_scoped0.sem ≠ cc1_scoped2.sem by decide)
  have n67 := gsem_ne d L (show cc1_scoped1.sem ≠ cc1_scoped2.sem by decide)
  rw [SparseCore.bigSep_erase' m3,
    SparseCore.bigSep_erase' (Finset.mem_erase.mpr ⟨n34.symm, m4⟩),
    SparseCore.bigSep_erase' (Finset.mem_erase.mpr ⟨n45.symm, Finset.mem_erase.mpr ⟨n35.symm, m5⟩⟩),
    SparseCore.bigSep_erase' (Finset.mem_erase.mpr ⟨n56.symm, Finset.mem_erase.mpr ⟨n46.symm, Finset.mem_erase.mpr ⟨n36.symm, m6⟩⟩⟩),
    SparseCore.bigSep_erase' (Finset.mem_erase.mpr ⟨n67.symm, Finset.mem_erase.mpr ⟨n57.symm, Finset.mem_erase.mpr ⟨n47.symm, Finset.mem_erase.mpr ⟨n37.symm, m7⟩⟩⟩⟩)]

theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc1_scratch0) rfl
  have m1 := SparseCore.Cfg.mem_ownRefs_of_owner (p := Proc.scVector (cV L) (jV L)) (b := (Proc.scVector (cV L) (jV L)).devRef cc1_scratch1) rfl
  have m2 := SparseCore.Cfg.mem_ownRefs_of_owner (p := Proc.scVector (cV L) (jV L)) (b := (Proc.scVector (cV L) (jV L)).devRef cc1_scratch2) rfl
  have n10 : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  have n20 : (Proc.scVector (cV L) (jV L)).devRef cc1_scratch2 ≠ (Proc.scVector (cV L) (jV L)).devRef cc1_scratch0 :=
    fun e => absurd (Proc.devRef_injective _ e) (show (cc1_scratch2 : Ref sig .scVector) ≠ cc1_scratch0 by decide)
  have n21 : (Proc.scVector (cV L) (jV L)).devRef cc1_scratch2 ≠ (Proc.scVector (cV L) (jV L)).devRef cc1_scratch1 :=
    fun e => absurd (Proc.devRef_injective _ e) (show (cc1_scratch2 : Ref sig .scVector) ≠ cc1_scratch1 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-- Slab `wid L` of the index array, squeezed, as the task addresses it. -/
abbrev irowK (L : grid1.Coords) : Rect S32x18x128 := Rect.unit (s := S32x18x128) (k1_off1 L) S1x18x128.size (k1_off1_inb L)
abbrev iSlabK (L : grid1.Coords) : Memref sig .scVector .hbm S18x128 .i32 := ((iV).slice (irowK L) (fun _ => rfl)).squeeze S18x128 squeezes_S1x18x128_S18x128
/-- All of the projected array, as the task addresses it. -/
abbrev pAllK : Memref sig .scVector .hbm S4096x128 .f32 := (pV).slice (Rect.unit (s := S4096x128) ![0, 0] S4096x128.size inb_S4096x128_S4096x128_0_0) (fun _ => rfl)

theorem irowK_eq : irowK L = irow (wid L) := by
  unfold irowK irow Rect.part Rect.block
  congr 1 <;> funext a
  · rw [k1_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_iSlabK : (iSlabK L).view.set = iSet (wid L) := by
  show (((iV).view.slice (irowK L)).reshape S18x128 squeezes_S1x18x128_S18x128.numel_eq).set = ((iV).view.slice (irow (wid L))).set
  rw [View.set_reshape]
  exact irowK_eq L ▸ rfl

theorem pts_iSlabK (f : Buf (Elt F) (i0Loc d)) :
    ((iSlabK L).view.loc (thr d L) ↦[(iSlabK L).view.set]{fullShare} f : sProp 𝕄) = i0Loc d ↦[iSet (wid L)]{fullShare} f := by
  rw [set_iSlabK]
theorem pts_pV (q : PosShare TreeShare) (f : Buf (Elt F) (pLoc d)) :
    ((pV).view.loc (thr d L) ↦{q} f : sProp 𝕄) = pLoc d ↦{q} f := rfl
theorem pts_sV (f : Buf (Elt F) ((thr d L).loc cc1_scratch0)) :
    ((sV).view.loc (thr d L) ↦{fullShare} f : sProp 𝕄) = (thr d L).loc cc1_scratch0 ↦{fullShare} f := rfl
theorem pts_aV (f : Buf (Elt F) ((thr d L).loc cc1_scratch1)) :
    ((aV).view.loc (thr d L) ↦{fullShare} f : sProp 𝕄) = (thr d L).loc cc1_scratch1 ↦{fullShare} f := rfl
theorem pts_bV (f : Buf (Elt F) ((thr d L).loc cc1_scratch2)) :
    ((bV).view.loc (thr d L) ↦{fullShare} f : sProp 𝕄) = (thr d L).loc cc1_scratch2 ↦{fullShare} f := rfl

/-! ## The offset's addition: the scratch after `n` sixteen-lane pieces -/

/-- Words `128 j₀ + j₁ < 16 n` of `g` have had `bo` added; the others are `g`'s. -/
def addN (g : S18x128.Idx → BitVec 32) (bo : BitVec 32) (n : ℕ) : S18x128.Idx → BitVec 32 :=
  fun j => if 128 * (j 0).val + (j 1).val < 16 * n then g j + bo else g j

theorem addN_zero (g : S18x128.Idx → BitVec 32) (bo : BitVec 32) : addN g bo 0 = g := by
  funext j; unfold addN; rw [if_neg (by omega)]

/-- The inner loop's invariant at row `t1`, piece `k`; the outer's at row `k`. -/
def invIn (g : S18x128.Idx → BitVec 32) (bo : BitVec 32) (t1 : ℕ) (k : ℕ) (_ : BitVec 32) : sProp 𝕄 :=
  (sV).view.loc (thr d L) ↦{fullShare} (addN g bo (8 * t1 + k) : Buf (Elt F) ((sV).view.loc (thr d L)))
def invOut (g : S18x128.Idx → BitVec 32) (bo : BitVec 32) (k : ℕ) (_ : BitVec 32) : sProp 𝕄 :=
  (sV).view.loc (thr d L) ↦{fullShare} (addN g bo (8 * k) : Buf (Elt F) ((sV).view.loc (thr d L)))

theorem pay_apply (v : S1x16.Idx → BitVec 32) (bo : BitVec 32) (x : S1x16.Idx) :
    shapeCast S1x16 (addi (shapeCast S16 v shapeCasts_S1x16_S16) (broadcast S16 bo)) shapeCasts_S16_S1x16 x = v x + bo := by
  unfold shapeCast addi broadcast
  show IntOp.addi (v ((Shape.reshapeEquiv shapeCasts_S1x16_S16) ((Shape.reshapeEquiv shapeCasts_S16_S1x16) x))) bo = v x + bo
  rw [Shape.reshapeEquiv_reshapeEquiv, Shape.reshapeEquiv_self]
  rfl

/-- One trip of the inner loop: piece `8 t1 + t2` gets the offset. -/
theorem add_step (g : S18x128.Idx → BitVec 32) (bo : BitVec 32) (t1 : Fin k1_t1_loop.trips) (t2 : Fin k1_t2_loop.trips) :
    ((sV).view.writes (Elt F) (addN g bo (8 * t1.val + t2.val))
      [⟨Rect.unit (s := S18x128) (k1_off2 t1 t2) S1x16.size (k1_off2_inb t1 t2),
        shapeCast S1x16 (addi (shapeCast S16 ((sV).view.readAt (Elt F) (Rect.unit (s := S18x128) (k1_off2 t1 t2) S1x16.size (k1_off2_inb t1 t2)).toLoadRect
          (addN g bo (8 * t1.val + t2.val))) shapeCasts_S1x16_S16) (broadcast S16 bo)) shapeCasts_S16_S1x16⟩])
      = addN g bo (8 * t1.val + (t2.val + 1)) := by
  have h1 : t1.val < 18 := Nat.lt_of_lt_of_le t1.isLt k1_t1_abs.2.1
  have h2 : t2.val < 8 := Nat.lt_of_lt_of_le t2.isLt k1_t2_abs.2.1
  funext i
  rw [View.writes_singleton]
  have hi1 : (i 1).val < 128 := (i 1).isLt
  by_cases hi : i ∈ (Rect.unit (s := S18x128) (k1_off2 t1 t2) S1x16.size (k1_off2_inb t1 t2)).set
  · obtain ⟨x, hx⟩ := LoadRect.exists_idx_of_mem _ hi
    have hm := Rect.mem_set_unit.mp hi
    have e : ((sV).view.slice (Rect.unit (s := S18x128) (k1_off2 t1 t2) S1x16.size (k1_off2_inb t1 t2))).emb x = i := hx
    have e0 : k1_off2 t1 t2 0 = t1.val := by rw [k1_off2_eq]; rfl
    have e1 : k1_off2 t1 t2 1 = 16 * t2.val := by rw [k1_off2_eq]; rfl
    have ha := hm 0
    have hb := hm 1
    rw [e0] at ha; rw [e1] at hb
    change t1.val ≤ (i 0).val ∧ (i 0).val < t1.val + 1 at ha
    change 16 * t2.val ≤ (i 1).val ∧ (i 1).val < 16 * t2.val + 16 at hb
    conv_lhs => rw [← e]
    rw [View.write_emb_of_mem _ _ (Finset.mem_univ _), pay_apply, cast_eq, View.readAt_apply, hx]
    show addN g bo (8 * t1.val + t2.val) i + bo = addN g bo (8 * t1.val + (t2.val + 1)) i
    unfold addN
    rw [if_neg (by omega), if_pos (by omega)]
  · rw [View.write_of_not_mem _ _ _ (by rwa [View.setOn_univ, View.set_slice_whole])]
    have hm := fun h => hi (Rect.mem_set_unit.mpr h)
    have key : ¬ (16 * (8 * t1.val + t2.val) ≤ 128 * (i 0).val + (i 1).val ∧ 128 * (i 0).val + (i 1).val < 16 * (8 * t1.val + t2.val) + 16) :=
      fun ⟨ha, hb⟩ => hm (by
        intro a; rw [k1_off2_eq]
        match a with
        | ⟨0, _⟩ => exact (show t1.val ≤ (i 0).val ∧ (i 0).val < t1.val + 1 by omega)
        | ⟨1, _⟩ => exact (show 16 * t2.val ≤ (i 1).val ∧ (i 1).val < 16 * t2.val + 16 by omega))
    show addN g bo (8 * t1.val + t2.val) i = addN g bo (8 * t1.val + (t2.val + 1)) i
    unfold addN
    by_cases c1 : 128 * (i 0).val + (i 1).val < 16 * (8 * t1.val + t2.val)
    · rw [if_pos c1, if_pos (by omega)]
    · rw [if_neg c1, if_neg (by omega)]

theorem trips_t1 : Scf.trips k1_t1_loop.lb k1_t1_loop.ub k1_t1_loop.st = 18 := by decide
theorem trips_t2 : Scf.trips k1_t2_loop.lb k1_t2_loop.ub k1_t2_loop.st = 8 := by decide
theorem trips_t3 : Scf.trips k1_t3_loop.lb k1_t3_loop.ub k1_t3_loop.st = 18 := by decide

/-! ## The chunk loop: rows of the scratch, the gathered rows, the result so far -/

theorem cond1_iff : ∀ k : Fin k1_t3_loop.trips, k1_cond1 k = 1#1 ↔ (k.val % 2 = 0 ∧ k.val + 1 < 18) := by decide +kernel
theorem cond2_iff : ∀ k : Fin k1_t3_loop.trips, k1_cond2 k = 1#1 ↔ (k.val % 2 = 1 ∧ k.val + 1 < 18) := by decide +kernel
theorem cond3_iff : ∀ k : Fin k1_t3_loop.trips, k1_cond3 k = 1#1 ↔ k.val % 2 = 0 := by decide +kernel
theorem cond4_iff : ∀ k : Fin k1_t3_loop.trips, k1_cond4 k = 1#1 ↔ k.val % 2 = 1 := by decide +kernel

/-- Row `c` of the index scratch (empty for `c ≥ 18`). -/
def rowSet (c : ℕ) : Finset S18x128.Idx := Finset.univ.filter fun j => (j 0).val = c

/-- A row of the scratch as an offset list, as the task addresses it. -/
abbrev offsK (off : Fin 2 → ℕ) (inb : ∀ a, off a + S1x128.size a ≤ S18x128.size a) : Memref sig .scVector .vmem S128 .i32 :=
  ((sV).slice (Rect.unit (s := S18x128) off S1x128.size inb) (fun _ => rfl)).squeeze S128 squeezes_S1x128_S128

theorem set_offsK (off : Fin 2 → ℕ) (inb : ∀ a, off a + S1x128.size a ≤ S18x128.size a) (c : ℕ) (h : off = ![c, 0]) :
    (offsK off inb).view.set = rowSet c := by
  show (((sV).view.slice (Rect.unit (s := S18x128) off S1x128.size inb)).reshape S128 squeezes_S1x128_S128.numel_eq).set = _
  rw [View.set_reshape, View.set_slice_whole]
  subst h
  ext j
  rw [Rect.mem_set_unit]
  unfold rowSet
  rw [Finset.mem_filter]
  constructor
  · intro hj
    have h0 := hj 0
    change c ≤ (j 0).val ∧ (j 0).val < c + 1 at h0
    exact ⟨Finset.mem_univ _, by omega⟩
  · rintro ⟨-, hj⟩ a
    match a with
    | ⟨0, _⟩ => exact (show c ≤ (j 0).val ∧ (j 0).val < c + 1 by omega)
    | ⟨1, _⟩ => exact (show 0 ≤ (j 1).val ∧ (j 1).val < 0 + 128 from ⟨Nat.zero_le _, by have h : (j 1).val < 128 := (j 1).isLt; omega⟩)

/-- The rows chunk `c` gathers: row `l` is the projected array's row named by word `(c, l)` of the scratch. -/
def gath (p : S4096x128.Idx → Elt F .f32) (fI : S18x128.Idx → BitVec 32) (c : ℕ) : S128x128.Idx → Elt F .f32 :=
  fun j => p (ix2 (⟨(fI (ix2 (⟨c % 18, Nat.mod_lt _ (by decide)⟩ : Fin 18) (j 0))).toNat % 4096, Nat.mod_lt _ (by decide)⟩ : Fin 4096) (j 1))

/-- The result after the chunks below `c` are written: rows below `base + 128 c` gathered, the others as they were. -/
def outN (p : S4096x128.Idx → Elt F .f32) (fI : S18x128.Idx → BitVec 32) (fo : S73728x128.Idx → Elt F .f32) (base c : ℕ) :
    S73728x128.Idx → Elt F .f32 :=
  fun j => if base ≤ (j 0).val ∧ (j 0).val < base + 128 * c then
      p (ix2 (⟨(fI (ix2 (⟨(j 0).val / 128 % 18, Nat.mod_lt _ (by decide)⟩ : Fin 18) (⟨(j 0).val % 128, Nat.mod_lt _ (by decide)⟩ : Fin 128))).toNat % 4096,
        Nat.mod_lt _ (by decide)⟩ : Fin 4096) (j 1))
    else fo j

/-- The two row buffers held by their elements. -/
abbrev aPts (f : S128x128.Idx → Elt F .f32) : sProp 𝕄 := (aV).view.loc (thr d L) ↦[(aV).view.set]{fullShare} (f : Buf (Elt F) ((aV).view.loc (thr d L)))
abbrev bPts (f : S128x128.Idx → Elt F .f32) : sProp 𝕄 := (bV).view.loc (thr d L) ↦[(bV).view.set]{fullShare} (f : Buf (Elt F) ((bV).view.loc (thr d L)))

/-- What a landed gather of chunk `c` delivers: the row buffer at the gathered rows, the share of the projected array,
    row `c` of the scratch. -/
def slotD (X : (S128x128.Idx → Elt F .f32) → sProp 𝕄) (qh : PosShare TreeShare) (p : S4096x128.Idx → Elt F .f32)
    (fI : S18x128.Idx → BitVec 32) (c : ℕ) : sProp 𝕄 :=
  iprop(X (gath p fI c)
    ∗ ((pAllK).view.loc (thr d L) ↦[(pAllK).view.set]{qh} (p : Buf (Elt F) ((pAllK).view.loc (thr d L))))
    ∗ ((sV).view.loc (thr d L) ↦[rowSet c]{fullShare} (fI : Buf (Elt F) ((sV).view.loc (thr d L)))))

/-- A row buffer with the gather of chunk `c` outstanding on its semaphore. -/
def slotP (X : (S128x128.Idx → Elt F .f32) → sProp 𝕄) (sem : DmaSem sig) (N : ℕ) (qh : PosShare TreeShare) (p : S4096x128.Idx → Elt F .f32)
    (fI : S18x128.Idx → BitVec 32) (c : ℕ) : sProp 𝕄 :=
  Transfers.Flight countersEmb (thr d L) (.dma sem) (default : HIx 2) N (slotD (F := F) d L X qh p fI c)

/-- A free row buffer: the buffer at some contents, the share of the projected array, the semaphore at zero. -/
def slotF (X : (S128x128.Idx → Elt F .f32) → sProp 𝕄) (sem : DmaSem sig) (qh : PosShare TreeShare) (p : S4096x128.Idx → Elt F .f32) : sProp 𝕄 :=
  iprop((∃ f, X f)
    ∗ ((pAllK).view.loc (thr d L) ↦[(pAllK).view.set]{qh} (p : Buf (Elt F) ((pAllK).view.loc (thr d L))))
    ∗ semVal (thr d L, SemLoc.dma sem) 0)

theorem slotP_eq (X : (S128x128.Idx → Elt F .f32) → sProp 𝕄) (sem : DmaSem sig) (N : ℕ) (qh : PosShare TreeShare) (p : S4096x128.Idx → Elt F .f32)
    (fI : S18x128.Idx → BitVec 32) (c : ℕ) :
    slotP (F := F) d L X sem N qh p fI c
      = Transfers.Flight countersEmb (thr d L) (.dma sem) (default : HIx 2) N (slotD (F := F) d L X qh p fI c) := rfl

theorem slotD_eq (X : (S128x128.Idx → Elt F .f32) → sProp 𝕄) (qh : PosShare TreeShare) (p : S4096x128.Idx → Elt F .f32)
    (fI : S18x128.Idx → BitVec 32) (c : ℕ) :
    slotD (F := F) d L X qh p fI c
      = iprop(X (gath p fI c)
          ∗ ((pAllK).view.loc (thr d L) ↦[(pAllK).view.set]{qh} (p : Buf (Elt F) ((pAllK).view.loc (thr d L))))
          ∗ ((sV).view.loc (thr d L) ↦[rowSet c]{fullShare} (fI : Buf (Elt F) ((sV).view.loc (thr d L))))) := rfl

/-- The chunk loop's invariant before trip `c`: the gather of chunk `c` outstanding on the buffer of `c`'s parity
    (none at `c = 18`), the other buffer free; every row of the scratch but row `c`; the result with the chunks
    below `c` written; the copy-out semaphores at zero; the task's `owes`. -/
def inv3 (q : PosShare TreeShare) (p : S4096x128.Idx → Elt F .f32) (fI : S18x128.Idx → BitVec 32) (fo : S73728x128.Idx → Elt F .f32)
    (O : CellTallies nD τ sig (HIx 2)) (W0 : Waits sig (HIx 2)) (c : ℕ) (_ : BitVec 32) : sProp 𝕄 :=
  iprop(Transfers.MayWaits (thr d L) (default : HIx 2) O
    ∗ (if c % 2 = 0 then
        iprop((if c < 18 then slotP (F := F) d L (aPts d L) cc1_scratch3.sem (aV).view.dmaCredit q.left p fI c else slotF (F := F) d L (aPts d L) cc1_scratch3.sem q.left p)
          ∗ slotF (F := F) d L (bPts d L) cc1_scratch4.sem q.right p)
      else
        iprop(slotF (F := F) d L (aPts d L) cc1_scratch3.sem q.left p
          ∗ (if c < 18 then slotP (F := F) d L (bPts d L) cc1_scratch4.sem (bV).view.dmaCredit q.right p fI c else slotF (F := F) d L (bPts d L) cc1_scratch4.sem q.right p)))
    ∗ ((sV).view.loc (thr d L) ↦[Finset.univ \ rowSet c]{fullShare} (fI : Buf (Elt F) ((sV).view.loc (thr d L))))
    ∗ (g0Loc d ↦[oSet (wid L)]{fullShare} (outN p fI fo ((wid L).val * 2304) c : Buf (Elt F) (g0Loc d)))
    ∗ semVal (thr d L, SemLoc.dma cc1_scoped1.sem) 0 ∗ semVal (thr d L, SemLoc.dma cc1_scoped2.sem) 0
    ∗ ∃ W', ⌜∀ x ∈ W', x ∈ W0 ∨ x.2 = none⌝ ∗ owes (thr d L) O W')

theorem hin_of (fI : S18x128.Idx → BitVec 32) (hfI : ∀ j, (fI j).toNat < 4096) (off : Fin 2 → ℕ) (inb : ∀ a, off a + S1x128.size a ≤ S18x128.size a) :
    ∀ x, ((offsK off inb).view.read (Elt F) fI x).toNat < S4096x128.size gathers_S4096x128_S128x128.axis := fun x => by
  rw [View.read_apply, cast_eq]; exact hfI _

theorem outN_zero (p : S4096x128.Idx → Elt F .f32) (fI : S18x128.Idx → BitVec 32) (fo : S73728x128.Idx → Elt F .f32) (base : ℕ) :
    outN p fI fo base 0 = fo := by
  funext j; unfold outN; rw [if_neg (by omega)]

/-- The value of one gather. -/
theorem gath_eq (p : S4096x128.Idx → Elt F .f32) (fI : S18x128.Idx → BitVec 32) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    SparseCore.gatherPayload gathers_S4096x128_S128x128 ((pAllK).view.read (Elt F) p) (SparseCore.rows ((offsK off inb).view.read (Elt F) fI) rfl hin)
      = gath p fI c :=
  Cert.KernelIdeal.ScTileVal.gath_eq p fI off inb c hc hc18 hin

theorem deliver_a (qh : PosShare TreeShare) (p : S4096x128.Idx → Elt F .f32) (fI : S18x128.Idx → BitVec 32)
    (fd : Buf (Elt F) ((aV).view.loc (thr d L))) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    iprop(((aV).view.loc (thr d L) ↦[(aV).view.set]{fullShare}
          ((aV).view.write (Elt F) fd (SparseCore.gatherPayload gathers_S4096x128_S128x128 ((pAllK).view.read (Elt F) p)
            (SparseCore.rows ((offsK off inb).view.read (Elt F) fI) rfl hin)) Finset.univ))
        ∗ ((pAllK).view.loc (thr d L) ↦[(pAllK).view.set]{qh} (p : Buf (Elt F) ((pAllK).view.loc (thr d L))))
        ∗ ((offsK off inb).view.loc (thr d L) ↦[(offsK off inb).view.set]{fullShare} (fI : Buf (Elt F) ((offsK off inb).view.loc (thr d L)))))
      ⊢ (slotD (F := F) d L (aPts d L) qh p fI c : sProp 𝕄) := by
  unfold slotD
  rw [set_offsK off inb c hc, gath_eq (F := F) p fI off inb c hc hc18 hin, View.write_whole_univ]

theorem deliver_b (qh : PosShare TreeShare) (p : S4096x128.Idx → Elt F .f32) (fI : S18x128.Idx → BitVec 32)
    (fd : Buf (Elt F) ((bV).view.loc (thr d L))) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    iprop(((bV).view.loc (thr d L) ↦[(bV).view.set]{fullShare}
          ((bV).view.write (Elt F) fd (SparseCore.gatherPayload gathers_S4096x128_S128x128 ((pAllK).view.read (Elt F) p)
            (SparseCore.rows ((offsK off inb).view.read (Elt F) fI) rfl hin)) Finset.univ))
        ∗ ((pAllK).view.loc (thr d L) ↦[(pAllK).view.set]{qh} (p : Buf (Elt F) ((pAllK).view.loc (thr d L))))
        ∗ ((offsK off inb).view.loc (thr d L) ↦[(offsK off inb).view.set]{fullShare} (fI : Buf (Elt F) ((offsK off inb).view.loc (thr d L)))))
      ⊢ (slotD (F := F) d L (bPts d L) qh p fI c : sProp 𝕄) := by
  unfold slotD
  rw [set_offsK off inb c hc, gath_eq (F := F) p fI off inb c hc hc18 hin, View.write_whole_univ]

/-! ## Rows of the scratch and chunks of the result, as sets -/

theorem rowSet_sub (a b : ℕ) (h : a ≠ b) : rowSet a ⊆ Finset.univ \ rowSet b := by
  intro j hj
  rw [Finset.mem_sdiff]
  refine ⟨Finset.mem_univ _, fun hb => ?_⟩
  unfold rowSet at hj hb
  rw [Finset.mem_filter] at hj hb
  exact h (hj.2.symm.trans hb.2)

theorem rows_swap (a b : ℕ) (h : a ≠ b) :
    ((Finset.univ : Finset S18x128.Idx) \ rowSet a) \ rowSet b ∪ rowSet a = Finset.univ \ rowSet b := by
  ext j
  simp only [Finset.mem_union, Finset.mem_sdiff, Finset.mem_univ, true_and]
  constructor
  · rintro (⟨_, hb⟩ | ha)
    · exact hb
    · intro hb
      unfold rowSet at ha hb
      rw [Finset.mem_filter] at ha hb
      exact h (ha.2.symm.trans hb.2)
  · intro hb
    by_cases ha : j ∈ rowSet a
    · exact Or.inr ha
    · exact Or.inl ⟨ha, hb⟩

theorem rows_swap_disj (a b : ℕ) : Disjoint (((Finset.univ : Finset S18x128.Idx) \ rowSet a) \ rowSet b) (rowSet a) := by
  rw [Finset.disjoint_left]
  intro j hj ha
  rw [Finset.mem_sdiff, Finset.mem_sdiff] at hj
  exact hj.1.2 ha

theorem rowSet_ge (c : ℕ) (h : 18 ≤ c) : rowSet c = ∅ := by
  unfold rowSet
  rw [Finset.filter_eq_empty_iff]
  intro j _ hj
  have h0 : (j 0).val < 18 := (j 0).isLt
  omega

/-- Rows `[r, r + 128)` of the result. -/
def chunkSet (r : ℕ) : Finset S73728x128.Idx := Finset.univ.filter fun j => r ≤ (j 0).val ∧ (j 0).val < r + 128

/-- A chunk of the result, as the task addresses it. -/
abbrev ochK (off : Fin 2 → ℕ) (inb : ∀ a, off a + S128x128.size a ≤ S73728x128.size a) : Memref sig .scVector .hbm S128x128 .f32 :=
  (oV).slice (Rect.unit (s := S73728x128) off S128x128.size inb) (fun _ => rfl)

theorem set_ochK (off : Fin 2 → ℕ) (inb : ∀ a, off a + S128x128.size a ≤ S73728x128.size a) (r : ℕ) (h : off = ![r, 0]) :
    (ochK off inb).view.set = chunkSet r := by
  show ((oV).view.slice (Rect.unit (s := S73728x128) off S128x128.size inb)).set = _
  rw [View.set_slice_whole]
  subst h
  ext j
  rw [Rect.mem_set_unit]
  unfold chunkSet
  rw [Finset.mem_filter]
  constructor
  · intro hj
    have h0 := hj 0
    change r ≤ (j 0).val ∧ (j 0).val < r + 128 at h0
    exact ⟨Finset.mem_univ _, h0⟩
  · rintro ⟨-, hj⟩ a
    match a with
    | ⟨0, _⟩ => exact hj
    | ⟨1, _⟩ => exact (show 0 ≤ (j 1).val ∧ (j 1).val < 0 + 128 from ⟨Nat.zero_le _, by have h : (j 1).val < 128 := (j 1).isLt; omega⟩)

/-- The task's rows of the result as a unit-stride rectangle. -/
abbrev orowU (w : Fin 32) : Rect S73728x128 := Rect.unit (s := S73728x128) ![w.val * 2304, 0] ![2304, 128] (fun a => by
  match a with
  | ⟨0, _⟩ => exact (show w.val * 2304 + 2304 ≤ 73728 by have := w.isLt; omega)
  | ⟨1, _⟩ => exact (show 0 + 128 ≤ 128 by omega))

theorem orow_eq (w : Fin 32) : orow w = orowU w := by
  unfold orow orowU Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem mem_oSet (w : Fin 32) (j : S73728x128.Idx) : j ∈ oSet w ↔ w.val * 2304 ≤ (j 0).val ∧ (j 0).val < w.val * 2304 + 2304 := by
  show j ∈ ((oV).view.slice (orow w)).set ↔ _
  rw [View.set_slice_whole, orow_eq, Rect.mem_set_unit]
  constructor
  · intro h; exact h 0
  · intro h a
    match a with
    | ⟨0, _⟩ => exact h
    | ⟨1, _⟩ => exact (show 0 ≤ (j 1).val ∧ (j 1).val < 0 + 128 from ⟨Nat.zero_le _, by have h1 : (j 1).val < 128 := (j 1).isLt; omega⟩)

theorem chunk_sub (w : Fin 32) (k : ℕ) (hk : k < 18) : chunkSet (w.val * 2304 + 128 * k) ⊆ oSet w := by
  intro j hj
  unfold chunkSet at hj
  rw [Finset.mem_filter] at hj
  obtain ⟨-, h1, h2⟩ := hj
  rw [mem_oSet]
  constructor <;> omega

/-- Off chunk `k` the result is the same before and after the chunk's copy. -/
theorem out_miss (p : S4096x128.Idx → Elt F .f32) (fI : S18x128.Idx → BitVec 32) (fo : S73728x128.Idx → Elt F .f32) (B k : ℕ) :
    ∀ j, j ∉ chunkSet (B + 128 * k) → outN p fI fo B k j = outN p fI fo B (k + 1) j := by
  intro j hj
  have hj' : ¬ (B + 128 * k ≤ (j 0).val ∧ (j 0).val < B + 128 * k + 128) := fun h => hj (by
    unfold chunkSet; rw [Finset.mem_filter]; exact ⟨Finset.mem_univ _, h⟩)
  unfold outN
  by_cases c1 : B ≤ (j 0).val ∧ (j 0).val < B + 128 * k
  · rw [if_pos c1, if_pos ⟨c1.1, by omega⟩]
  · rw [if_neg c1, if_neg (by omega)]

/-- On chunk `k` the copy writes the chunk's gathered rows: the result after the chunk. -/
theorem out_hit (p : S4096x128.Idx → Elt F .f32) (fI : S18x128.Idx → BitVec 32) (fo : S73728x128.Idx → Elt F .f32) (w k : ℕ) (hk : k < 18)
    (off : Fin 2 → ℕ) (inb : ∀ a, off a + S128x128.size a ≤ S73728x128.size a) (h : off = ![w * 2304 + 128 * k, 0])
    (f0 : Buf (Elt F) ((ochK off inb).view.loc (thr d L))) (pay : S128x128.Idx → Elt F .f32) (hpay : pay = gath p fI k) :
    ∀ j ∈ (ochK off inb).view.set, ((ochK off inb).view.writes (Elt F) f0 [⟨Rect.whole S128x128, pay⟩]) j = outN p fI fo (w * 2304) (k + 1) j := by
  subst h hpay
  intro j hj
  obtain ⟨x, -, rfl⟩ := Finset.mem_map.mp hj
  rw [View.writes_singleton]
  have e : ((ochK ![w * 2304 + 128 * k, 0] inb).view.slice (Rect.whole S128x128)).emb x = (ochK ![w * 2304 + 128 * k, 0] inb).view.emb x :=
    congrArg (ochK ![w * 2304 + 128 * k, 0] inb).view.emb (Rect.emb_whole_apply S128x128 x)
  conv_lhs => rw [← e]
  rw [View.write_emb_of_mem _ _ (Finset.mem_univ x), cast_eq]
  have e0 : (((ochK ![w * 2304 + 128 * k, 0] inb).view.emb x) 0).val = (w * 2304 + 128 * k) + 1 * (x 0).val := rfl
  have e1 : (((ochK ![w * 2304 + 128 * k, 0] inb).view.emb x) 1).val = 0 + 1 * (x 1).val := rfl
  have hx0 : (x 0).val < 128 := (x 0).isLt
  generalize ((ochK ![w * 2304 + 128 * k, 0] inb).view.emb x) = j at e0 e1 ⊢
  unfold outN gath
  rw [if_pos ⟨by omega, by omega⟩]
  have hix : (ix2 (⟨k % 18, Nat.mod_lt _ (by decide)⟩ : Fin 18) (x 0) : S18x128.Idx)
      = ix2 (⟨(j 0).val / 128 % 18, Nat.mod_lt _ (by decide)⟩ : Fin 18) (⟨(j 0).val % 128, Nat.mod_lt _ (by decide)⟩ : Fin 128) := by
    funext a
    match a with
    | ⟨0, _⟩ => exact Fin.ext (by show k % 18 = (j 0).val / 128 % 18; omega)
    | ⟨1, _⟩ => exact Fin.ext (by show (x 0).val = (j 0).val % 128; omega)
  have hcol : (x 1 : Fin 128) = j 1 := Fin.ext (by show (x 1).val = (j 1).val; omega)
  refine (congrArg (fun i : S18x128.Idx => p (ix2 (⟨(fI i).toNat % 4096, Nat.mod_lt _ (by decide)⟩ : Fin 4096) (x 1))) hix).trans ?_
  exact congrArg (fun c : Fin 128 => p (ix2 (⟨(fI (ix2 (⟨(j 0).val / 128 % 18, Nat.mod_lt _ (by decide)⟩ : Fin 18)
    (⟨(j 0).val % 128, Nat.mod_lt _ (by decide)⟩ : Fin 128))).toNat % 4096, Nat.mod_lt _ (by decide)⟩ : Fin 4096) c)) hcol

theorem sdiff_swap {ι : Type} [DecidableEq ι] (U A B : Finset ι) (hA : A ⊆ U) (hAB : Disjoint A B) : (U \ A) \ B ∪ A = U \ B := by
  ext j
  simp only [Finset.mem_union, Finset.mem_sdiff]
  constructor
  · rintro (⟨⟨hU, _⟩, hB⟩ | hA')
    · exact ⟨hU, hB⟩
    · exact ⟨hA hA', fun hB => Finset.disjoint_left.mp hAB hA' hB⟩
  · rintro ⟨hU, hB⟩
    by_cases hA' : j ∈ A
    · exact Or.inr hA'
    · exact Or.inl ⟨⟨hU, hA'⟩, hB⟩

theorem sdiff_swap_disj {ι : Type} [DecidableEq ι] (U A B : Finset ι) : Disjoint ((U \ A) \ B) A := by
  rw [Finset.disjoint_left]
  intro j hj ha
  rw [Finset.mem_sdiff, Finset.mem_sdiff] at hj
  exact hj.1.2 ha

theorem rowSet_disj (a b : ℕ) (h : a ≠ b) : Disjoint (rowSet a) (rowSet b) := by
  rw [Finset.disjoint_left]
  intro j ha hb
  unfold rowSet at ha hb
  rw [Finset.mem_filter] at ha hb
  exact h (ha.2.symm.trans hb.2)

/-- Row `a` back, row `b` still out: every row but `b`. -/
theorem rows_join (fI : S18x128.Idx → BitVec 32) (a b : ℕ) (h : a ≠ b) :
    iprop(((sV).view.loc (thr d L) ↦[(Finset.univ \ rowSet a) \ rowSet b]{fullShare} (fI : Buf (Elt F) ((sV).view.loc (thr d L))))
        ∗ ((sV).view.loc (thr d L) ↦[rowSet a]{fullShare} (fI : Buf (Elt F) ((sV).view.loc (thr d L)))))
      ⊢ ((sV).view.loc (thr d L) ↦[Finset.univ \ rowSet b]{fullShare} (fI : Buf (Elt F) ((sV).view.loc (thr d L))) : sProp 𝕄) := by
  have hsw := sdiff_swap (Finset.univ : Finset (Idx ((sV).view.loc (thr d L)))) (rowSet a) (rowSet b) (Finset.subset_univ _) (rowSet_disj a b h)
  rw [← hsw]
  exact (pointsTo_union (sdiff_swap_disj _ _ _)).2

/-- The last row back: the scratch whole. -/
theorem rows_last (fI : S18x128.Idx → BitVec 32) (a : ℕ) (h : 18 ≤ a + 1) :
    iprop(((sV).view.loc (thr d L) ↦[rowSet a]{fullShare} (fI : Buf (Elt F) ((sV).view.loc (thr d L))))
        ∗ ((sV).view.loc (thr d L) ↦[Finset.univ \ rowSet a]{fullShare} (fI : Buf (Elt F) ((sV).view.loc (thr d L)))))
      ⊢ ((sV).view.loc (thr d L) ↦[Finset.univ \ rowSet (a + 1)]{fullShare} (fI : Buf (Elt F) ((sV).view.loc (thr d L))) : sProp 𝕄) := by
  rw [rowSet_ge (a + 1) h, Finset.sdiff_empty]
  exact (pointsTo_split_subset (Finset.subset_univ (rowSet a))).2

/-! ## The scratch after the additions, and the result after the last chunk -/

/-- The batch offset as the kernel computes it. -/
def k1_boffW (i : grid1.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v3 : BitVec 32 := Scalar.divsi v1 16#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v1 16#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.addi 0#32 v19
  let v21 : BitVec 32 := Scalar.muli v20 1024#32
  v21

theorem k1_boffW_eq : ∀ i : grid1.Coords, k1_boffW i = BitVec.ofNat 32 ((0 + (2 * (i 1).val + (i 0).val) / 16) * 1024) := by decide +kernel

/-- The slab as the scratch receives it, word by word. -/
theorem slab_read (ix : S32x18x128.Idx → Elt F .i32) (j : S18x128.Idx) :
    (iSlabK L).view.read (Elt F) ix j = ix (ix3 (wid L) (j 0) (j 1)) :=
  Cert.KernelIdeal.ScTileVal.slab_read L ix j

theorem fI_apply (ix : S32x18x128.Idx → Elt F .i32) (fs : Buf (Elt F) ((sV).view.loc (thr d L))) (j : S18x128.Idx) :
    addN (View.write (Elt F) (sV).view fs ((iSlabK L).view.read (Elt F) ix) Finset.univ) (k1_boffW L) (8 * 18) j
      = (ix (ix3 (wid L) (j 0) (j 1)) : BitVec 32) + BitVec.ofNat 32 ((k1_baseb + (wid L).val / 16) * 1024) := by
  have h0 : (j 0).val < 18 := (j 0).isLt
  have h1 : (j 1).val < 128 := (j 1).isLt
  unfold addN
  rw [if_pos (by omega), View.write_whole_univ, slab_read, k1_boffW_eq]
  rfl

theorem fI_lt (ix : S32x18x128.Idx → Elt F .i32) (hix : ∀ j : S32x18x128.Idx, ((ix j : BitVec 32)).toNat < 1024)
    (fs : Buf (Elt F) ((sV).view.loc (thr d L))) :
    ∀ j, (addN (View.write (Elt F) (sV).view fs ((iSlabK L).view.read (Elt F) ix) Finset.univ) (k1_boffW L) (8 * 18) j).toNat < 4096 := by
  intro j
  rw [fI_apply]
  have h1 := hix (ix3 (wid L) (j 0) (j 1))
  have hw : (wid L).val < 32 := (wid L).isLt
  have hb : (BitVec.ofNat 32 ((k1_baseb + (wid L).val / 16) * 1024)).toNat ≤ 3072 := by
    rw [BitVec.toNat_ofNat]
    refine le_trans (Nat.mod_le _ _) ?_
    have hb0 : k1_baseb ≤ 2 := by decide
    omega
  calc ((ix (ix3 (wid L) (j 0) (j 1)) : BitVec 32) + BitVec.ofNat 32 ((k1_baseb + (wid L).val / 16) * 1024)).toNat
      = ((ix (ix3 (wid L) (j 0) (j 1)) : BitVec 32).toNat + (BitVec.ofNat 32 ((k1_baseb + (wid L).val / 16) * 1024)).toNat) % 2 ^ 32 := BitVec.toNat_add _ _
    _ ≤ (ix (ix3 (wid L) (j 0) (j 1)) : BitVec 32).toNat + (BitVec.ofNat 32 ((k1_baseb + (wid L).val / 16) * 1024)).toNat := Nat.mod_le _ _
    _ < 4096 := by omega

/-- After the last chunk the task's rows hold the gather's value. -/
theorem final_val (p : S4096x128.Idx → Elt F .f32) (ix : S32x18x128.Idx → Elt F .i32) (fo : S73728x128.Idx → Elt F .f32)
    (fs : Buf (Elt F) ((sV).view.loc (thr d L))) :
    ∀ j ∈ oSet (wid L), outN p (addN (View.write (Elt F) (sV).view fs ((iSlabK L).view.read (Elt F) ix) Finset.univ) (k1_boffW L) (8 * 18)) fo
        ((wid L).val * 2304) 18 j = gatherVal k1_baseb p ix j := by
  intro j hj
  rw [mem_oSet] at hj
  have hw : (j 0).val / 2304 = (wid L).val := by omega
  have hwF : wid L = (⟨(j 0).val / 2304, by have : (j 0).val < 73728 := (j 0).isLt; omega⟩ : Fin 32) := Fin.ext hw.symm
  unfold outN
  rw [if_pos ⟨hj.1, by omega⟩]
  have hfi := fI_apply (F := F) d L ix fs (ix2 (⟨(j 0).val / 128 % 18, Nat.mod_lt _ (by decide)⟩ : Fin 18) (⟨(j 0).val % 128, Nat.mod_lt _ (by decide)⟩ : Fin 128))
  refine (congrArg (fun v : BitVec 32 => p (ix2 (⟨v.toNat % 4096, Nat.mod_lt _ (by decide)⟩ : Fin 4096) (j 1))) hfi).trans ?_
  exact congrArg (fun w : Fin 32 => p (ix2 (⟨((ix (ix3 w (⟨(j 0).val / 128 % 18, Nat.mod_lt _ (by decide)⟩ : Fin 18) (⟨(j 0).val % 128, Nat.mod_lt _ (by decide)⟩ : Fin 128)) : BitVec 32)
    + BitVec.ofNat 32 ((k1_baseb + w.val / 16) * 1024)).toNat % 4096, Nat.mod_lt _ (by decide)⟩ : Fin 4096) (j 1))) hwF

/-- The same, of the points-to. -/
theorem final_pts (p : S4096x128.Idx → Elt F .f32) (ix : S32x18x128.Idx → Elt F .i32) (fo : S73728x128.Idx → Elt F .f32)
    (fs : Buf (Elt F) ((sV).view.loc (thr d L))) :
    (g0Loc d ↦[oSet (wid L)]{fullShare} (outN p (addN (View.write (Elt F) (sV).view fs ((iSlabK L).view.read (Elt F) ix) Finset.univ) (k1_boffW L) (8 * 18)) fo
        ((wid L).val * 2304) 18 : Buf (Elt F) (g0Loc d)) : sProp 𝕄)
      = (g0Loc d ↦[oSet (wid L)]{fullShare} (gatherVal k1_baseb p ix : Buf (Elt F) (g0Loc d))) :=
  pointsTo_congr (final_val (F := F) d L p ix fo fs)

set_option maxHeartbeats 8000000 in
theorem trip_even (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k1_t3_loop.trips) (acc : BitVec 32) (hpar : k.val % 2 = 0) :
    inv3 (F := F) d L q p fI fo O W k.val acc
      ⊢ (wp frame (wpE (defs₀ (F := F)) 𝒱₀ (thr d L) none) Set.univ
          (k1_t3_body L pV (Memref.isWhole_whole _) iV (Memref.isWhole_whole _) oV (Memref.isWhole_whole _)
            sV (Memref.isWhole_whole _) aV (Memref.isWhole_whole _) bV (Memref.isWhole_whole _) cc1_scratch3 cc1_scratch4 cc1_scoped0 cc1_scoped1 cc1_scoped2 k acc)
          (inv3 (F := F) d L q p fI fo O W (k.val + 1)) : sProp 𝕄) := by
  have hk18 : k.val < 18 := Nat.lt_of_lt_of_le k.isLt k1_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)

  have hk1 : k.val + 1 < 18 := by omega
  have k1_h1 : k1_cond1 k = 1#1 := (cond1_iff k).mpr ⟨hpar, hk1⟩
  have k1_h2 : ¬ k1_cond2 k = 1#1 := fun h => by have := (cond2_iff k).mp h; omega
  have k1_h3 : k1_cond3 k = 1#1 := (cond3_iff k).mpr hpar
  have k1_h4 : ¬ k1_cond4 k = 1#1 := fun h => by have := (cond4_iff k).mp h; omega
  unfold inv3 slotF
  rw [if_pos hpar, if_pos hk18, if_neg (show ¬ (k.val + 1) % 2 = 0 by omega), if_pos hk1]
  iintro ⟨#Hmw, ⟨Hfl, ⟨%fb, Hb⟩, HpR, Hsem1⟩, Hsrest, Ho, HsemB, HsemC, %W', %hW', HO⟩
  sl_unfold [k1_t3_body]
  sl_exec
  -- the next chunk's gather: row k + 1 of the scratch out of the rest, the free buffer, its share, its semaphore
  have hoff := k1_off3_eq k
  have hsetk := set_offsK (k1_off3 k) (k1_off3_inb k k1_h1) (k.val + 1) hoff
  ihave H2 := (pointsTo_split_subset (q := fullShare) (f := (fI : Buf (Elt F) ((sV).view.loc (thr d L)))) (S := Finset.univ \ rowSet k.val)
    (rowSet_sub (k.val + 1) k.val (by omega))).1 $$ Hsrest
  icases H2 with ⟨Hrow, Hsrest⟩
  ihave Hrow' := (Entails.of_eq (show ((sV).view.loc (thr d L) ↦[rowSet (k.val + 1)]{fullShare} (fI : Buf (Elt F) ((sV).view.loc (thr d L))) : sProp 𝕄)
      = ((offsK (k1_off3 k) (k1_off3_inb k k1_h1)).view.loc (thr d L) ↦[(offsK (k1_off3 k) (k1_off3_inb k k1_h1)).view.set]{fullShare}
          (fI : Buf (Elt F) ((sV).view.loc (thr d L)))) by rw [hsetk])) $$ Hrow
  iapply (SparseCore.wp_indirectGatherLocal countersEmb 𝒱₀ (thr d L) none (hg := gathers_S4096x128_S128x128) (default : HIx 2)
      (bV).view.dmaCredit hNb (by decide) (hin_of (F := F) fI hfI _ _)) $$ [HpR Hb Hrow' Hsem1]
  · isplitl [HpR]; · iexact HpR
    isplitl [Hb]; · iexact Hb
    isplitl [Hrow']; · iexact Hrow'
    iexact Hsem1
  iintro Hfl1
  ihave Hfl1' := (Transfers.Flight_mono countersEmb (thr d L) (deliver_b (F := F) d L q.right p fI fb _ _ (k.val + 1) hoff hk1 _)) $$ Hfl1
  sl_exec
  -- the wait for chunk k, then its copy out
  ihave Hfl := (Entails.of_eq (slotP_eq (F := F) d L (aPts d L) cc1_scratch3.sem (aV).view.dmaCredit q.left p fI k.val)) $$ Hfl
  iapply (Transfers.wp_waitLocalO countersEmb 𝒱₀ (thr d L) none (default : HIx 2) (rfl : (aV).view.dmaCredit = _)) $$ [Hfl HO]
  · isplitl [Hfl]; · iexact Hfl
    isplitl [HO]; · iexact HO
    iapply (Transfers.MayWaits.elim (SemLoc.dma cc1_scratch3.sem)) $$ Hmw
  iintro ⟨HD, Hsem0, HO⟩
  ihave HD := (Entails.of_eq (slotD_eq (F := F) d L (aPts d L) q.left p fI k.val)) $$ HD
  icases HD with ⟨Ha, HpL, Hrowk⟩
  have hr : 4608 * (L 1).val + 2304 * (L 0).val + 128 * k.val = (wid L).val * 2304 + 128 * k.val := by
    have hw : (wid L).val = 2 * (L 1).val + (L 0).val := rfl
    omega
  have hoffc : k1_off6 L k = ![(wid L).val * 2304 + 128 * k.val, 0] := by rw [k1_off6_eq, hr]
  have hsetc := set_ochK (k1_off6 L k) (k1_off6_inb L k k1_h3) _ hoffc
  ihave Ho2 := (pointsTo_split_subset (ℓ := g0Loc d) (q := fullShare) (f := (outN p fI fo ((wid L).val * 2304) k.val : Buf (Elt F) (g0Loc d))) (I := chunkSet ((wid L).val * 2304 + 128 * k.val)) (S := oSet (wid L))
    (chunk_sub (wid L) k.val hk18)).1 $$ Ho
  icases Ho2 with ⟨Hch, Horest⟩
  ihave Hch' := (Entails.of_eq (show (g0Loc d ↦[chunkSet ((wid L).val * 2304 + 128 * k.val)]{fullShare} (outN p fI fo ((wid L).val * 2304) k.val : Buf (Elt F) (g0Loc d)) : sProp 𝕄)
      = ((ochK (k1_off6 L k) (k1_off6_inb L k k1_h3)).view.loc (thr d L) ↦[(ochK (k1_off6 L k) (k1_off6_inb L k k1_h3)).view.set]{fullShare}
          (outN p fI fo ((wid L).val * 2304) k.val : Buf (Elt F) (g0Loc d))) by rw [hsetc])) $$ Hch
  sl_exec
  sl_step
  ihave Hch2 := (Entails.of_eq ((pointsTo_congr (ℓ := (ochK (k1_off6 L k) (k1_off6_inb L k k1_h3)).view.loc (thr d L)) (q := fullShare)
        (out_hit (F := F) d L p fI fo (wid L).val k.val hk18 (k1_off6 L k) (k1_off6_inb L k k1_h3) hoffc _ (trip_even.sl.dma0 p fI k) rfl)).trans
      (show ((ochK (k1_off6 L k) (k1_off6_inb L k k1_h3)).view.loc (thr d L) ↦[(ochK (k1_off6 L k) (k1_off6_inb L k k1_h3)).view.set]{fullShare}
          (outN p fI fo ((wid L).val * 2304) (k.val + 1) : Buf (Elt F) (g0Loc d)) : sProp 𝕄)
        = (g0Loc d ↦[chunkSet ((wid L).val * 2304 + 128 * k.val)]{fullShare} (outN p fI fo ((wid L).val * 2304) (k.val + 1) : Buf (Elt F) (g0Loc d))) by rw [hsetc]))) $$ Hch'
  ihave Horest2 := (Entails.of_eq (pointsTo_congr (ℓ := g0Loc d) (q := fullShare) (I := oSet (wid L) \ chunkSet ((wid L).val * 2304 + 128 * k.val))
      (f := (outN p fI fo ((wid L).val * 2304) k.val : Buf (Elt F) (g0Loc d))) (g := (outN p fI fo ((wid L).val * 2304) (k.val + 1) : Buf (Elt F) (g0Loc d)))
      (fun j hj => out_miss (F := F) p fI fo ((wid L).val * 2304) k.val j (Finset.mem_sdiff.mp hj).2))) $$ Horest
  ihave Ho' := (pointsTo_split_subset (ℓ := g0Loc d) (q := fullShare) (f := (outN p fI fo ((wid L).val * 2304) (k.val + 1) : Buf (Elt F) (g0Loc d))) (I := chunkSet ((wid L).val * 2304 + 128 * k.val)) (S := oSet (wid L))
    (chunk_sub (wid L) k.val hk18)).2 $$ [Hch2 Horest2]
  · isplitl [Hch2] <;> iassumption

  -- the invariant at trip k + 1
  isplitl []; · iexact Hmw
  isplitl [Ha HpL Hsem0 Hfl1']
  · isplitl [Ha HpL Hsem0]
    · isplitl [Ha]; · iexists _; iexact Ha
      isplitl [HpL]; · iexact HpL
      iexact Hsem0
    iapply (Entails.of_eq (slotP_eq (F := F) d L (bPts d L) cc1_scratch4.sem (bV).view.dmaCredit q.right p fI (k.val + 1)).symm)
    iexact Hfl1'
  isplitl [Hrowk Hsrest]
  · iapply (rows_join (F := F) d L fI k.val (k.val + 1) (by omega))
    isplitl [Hsrest]; · iexact Hsrest
    iexact Hrowk
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 8000000 in
theorem trip_odd (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k1_t3_loop.trips) (acc : BitVec 32) (hpar : k.val % 2 = 1) (hk1 : k.val + 1 < 18) :
    inv3 (F := F) d L q p fI fo O W k.val acc
      ⊢ (wp frame (wpE (defs₀ (F := F)) 𝒱₀ (thr d L) none) Set.univ
          (k1_t3_body L pV (Memref.isWhole_whole _) iV (Memref.isWhole_whole _) oV (Memref.isWhole_whole _)
            sV (Memref.isWhole_whole _) aV (Memref.isWhole_whole _) bV (Memref.isWhole_whole _) cc1_scratch3 cc1_scratch4 cc1_scoped0 cc1_scoped1 cc1_scoped2 k acc)
          (inv3 (F := F) d L q p fI fo O W (k.val + 1)) : sProp 𝕄) := by
  have hk18 : k.val < 18 := Nat.lt_of_lt_of_le k.isLt k1_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)

  have hk1 : k.val + 1 < 18 := by omega
  have k1_h2 : k1_cond2 k = 1#1 := (cond2_iff k).mpr ⟨hpar, hk1⟩
  have k1_h1 : ¬ k1_cond1 k = 1#1 := fun h => by have := (cond1_iff k).mp h; omega
  have k1_h4 : k1_cond4 k = 1#1 := (cond4_iff k).mpr hpar
  have k1_h3 : ¬ k1_cond3 k = 1#1 := fun h => by have := (cond3_iff k).mp h; omega
  unfold inv3 slotF
  rw [if_neg (show ¬ k.val % 2 = 0 by omega), if_pos hk18, if_pos (show (k.val + 1) % 2 = 0 by omega), if_pos hk1]
  iintro ⟨#Hmw, ⟨⟨⟨%fa, Ha⟩, HpL, Hsem0⟩, Hfl⟩, Hsrest, Ho, HsemB, HsemC, %W', %hW', HO⟩
  sl_unfold [k1_t3_body]
  sl_exec
  -- the next chunk's gather: row k + 1 of the scratch out of the rest, the free buffer, its share, its semaphore
  have hoff := k1_off4_eq k
  have hsetk := set_offsK (k1_off4 k) (k1_off4_inb k k1_h2) (k.val + 1) hoff
  ihave H2 := (pointsTo_split_subset (q := fullShare) (f := (fI : Buf (Elt F) ((sV).view.loc (thr d L)))) (S := Finset.univ \ rowSet k.val)
    (rowSet_sub (k.val + 1) k.val (by omega))).1 $$ Hsrest
  icases H2 with ⟨Hrow, Hsrest⟩
  ihave Hrow' := (Entails.of_eq (show ((sV).view.loc (thr d L) ↦[rowSet (k.val + 1)]{fullShare} (fI : Buf (Elt F) ((sV).view.loc (thr d L))) : sProp 𝕄)
      = ((offsK (k1_off4 k) (k1_off4_inb k k1_h2)).view.loc (thr d L) ↦[(offsK (k1_off4 k) (k1_off4_inb k k1_h2)).view.set]{fullShare}
          (fI : Buf (Elt F) ((sV).view.loc (thr d L)))) by rw [hsetk])) $$ Hrow
  iapply (SparseCore.wp_indirectGatherLocal countersEmb 𝒱₀ (thr d L) none (hg := gathers_S4096x128_S128x128) (default : HIx 2)
      (aV).view.dmaCredit hNa (by decide) (hin_of (F := F) fI hfI _ _)) $$ [HpL Ha Hrow' Hsem0]
  · isplitl [HpL]; · iexact HpL
    isplitl [Ha]; · iexact Ha
    isplitl [Hrow']; · iexact Hrow'
    iexact Hsem0
  iintro Hfl1
  ihave Hfl1' := (Transfers.Flight_mono countersEmb (thr d L) (deliver_a (F := F) d L q.left p fI fa _ _ (k.val + 1) hoff hk1 _)) $$ Hfl1
  sl_exec
  -- the wait for chunk k, then its copy out
  ihave Hfl := (Entails.of_eq (slotP_eq (F := F) d L (bPts d L) cc1_scratch4.sem (bV).view.dmaCredit q.right p fI k.val)) $$ Hfl
  iapply (Transfers.wp_waitLocalO countersEmb 𝒱₀ (thr d L) none (default : HIx 2) (rfl : (bV).view.dmaCredit = _)) $$ [Hfl HO]
  · isplitl [Hfl]; · iexact Hfl
    isplitl [HO]; · iexact HO
    iapply (Transfers.MayWaits.elim (SemLoc.dma cc1_scratch4.sem)) $$ Hmw
  iintro ⟨HD, Hsem1, HO⟩
  ihave HD := (Entails.of_eq (slotD_eq (F := F) d L (bPts d L) q.right p fI k.val)) $$ HD
  icases HD with ⟨Hb, HpR, Hrowk⟩
  have hr : 4608 * (L 1).val + 2304 * (L 0).val + 128 * k.val = (wid L).val * 2304 + 128 * k.val := by
    have hw : (wid L).val = 2 * (L 1).val + (L 0).val := rfl
    omega
  have hoffc : k1_off8 L k = ![(wid L).val * 2304 + 128 * k.val, 0] := by rw [k1_off8_eq, hr]
  have hsetc := set_ochK (k1_off8 L k) (k1_off8_inb L k k1_h4) _ hoffc
  ihave Ho2 := (pointsTo_split_subset (ℓ := g0Loc d) (q := fullShare) (f := (outN p fI fo ((wid L).val * 2304) k.val : Buf (Elt F) (g0Loc d))) (I := chunkSet ((wid L).val * 2304 + 128 * k.val)) (S := oSet (wid L))
    (chunk_sub (wid L) k.val hk18)).1 $$ Ho
  icases Ho2 with ⟨Hch, Horest⟩
  ihave Hch' := (Entails.of_eq (show (g0Loc d ↦[chunkSet ((wid L).val * 2304 + 128 * k.val)]{fullShare} (outN p fI fo ((wid L).val * 2304) k.val : Buf (Elt F) (g0Loc d)) : sProp 𝕄)
      = ((ochK (k1_off8 L k) (k1_off8_inb L k k1_h4)).view.loc (thr d L) ↦[(ochK (k1_off8 L k) (k1_off8_inb L k k1_h4)).view.set]{fullShare}
          (outN p fI fo ((wid L).val * 2304) k.val : Buf (Elt F) (g0Loc d))) by rw [hsetc])) $$ Hch
  sl_exec
  sl_step
  ihave Hch2 := (Entails.of_eq ((pointsTo_congr (ℓ := (ochK (k1_off8 L k) (k1_off8_inb L k k1_h4)).view.loc (thr d L)) (q := fullShare)
        (out_hit (F := F) d L p fI fo (wid L).val k.val hk18 (k1_off8 L k) (k1_off8_inb L k k1_h4) hoffc _ (trip_odd.sl.dma0 p fI k) rfl)).trans
      (show ((ochK (k1_off8 L k) (k1_off8_inb L k k1_h4)).view.loc (thr d L) ↦[(ochK (k1_off8 L k) (k1_off8_inb L k k1_h4)).view.set]{fullShare}
          (outN p fI fo ((wid L).val * 2304) (k.val + 1) : Buf (Elt F) (g0Loc d)) : sProp 𝕄)
        = (g0Loc d ↦[chunkSet ((wid L).val * 2304 + 128 * k.val)]{fullShare} (outN p fI fo ((wid L).val * 2304) (k.val + 1) : Buf (Elt F) (g0Loc d))) by rw [hsetc]))) $$ Hch'
  ihave Horest2 := (Entails.of_eq (pointsTo_congr (ℓ := g0Loc d) (q := fullShare) (I := oSet (wid L) \ chunkSet ((wid L).val * 2304 + 128 * k.val))
      (f := (outN p fI fo ((wid L).val * 2304) k.val : Buf (Elt F) (g0Loc d))) (g := (outN p fI fo ((wid L).val * 2304) (k.val + 1) : Buf (Elt F) (g0Loc d)))
      (fun j hj => out_miss (F := F) p fI fo ((wid L).val * 2304) k.val j (Finset.mem_sdiff.mp hj).2))) $$ Horest
  ihave Ho' := (pointsTo_split_subset (ℓ := g0Loc d) (q := fullShare) (f := (outN p fI fo ((wid L).val * 2304) (k.val + 1) : Buf (Elt F) (g0Loc d))) (I := chunkSet ((wid L).val * 2304 + 128 * k.val)) (S := oSet (wid L))
    (chunk_sub (wid L) k.val hk18)).2 $$ [Hch2 Horest2]
  · isplitl [Hch2] <;> iassumption

  -- the invariant at trip k + 1
  isplitl []; · iexact Hmw
  isplitl [Hb HpR Hsem1 Hfl1']
  · isplitl [Hfl1']
    · iapply (Entails.of_eq (slotP_eq (F := F) d L (aPts d L) cc1_scratch3.sem (aV).view.dmaCredit q.left p fI (k.val + 1)).symm)
      iexact Hfl1'
    isplitl [Hb]; · iexists _; iexact Hb
    isplitl [HpR]; · iexact HpR
    iexact Hsem1
  isplitl [Hrowk Hsrest]
  · iapply (rows_join (F := F) d L fI k.val (k.val + 1) (by omega))
    isplitl [Hsrest]; · iexact Hsrest
    iexact Hrowk
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 8000000 in
theorem trip_last (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k1_t3_loop.trips) (acc : BitVec 32) (hpar : k.val % 2 = 1) (hk1 : ¬ k.val + 1 < 18) :
    inv3 (F := F) d L q p fI fo O W k.val acc
      ⊢ (wp frame (wpE (defs₀ (F := F)) 𝒱₀ (thr d L) none) Set.univ
          (k1_t3_body L pV (Memref.isWhole_whole _) iV (Memref.isWhole_whole _) oV (Memref.isWhole_whole _)
            sV (Memref.isWhole_whole _) aV (Memref.isWhole_whole _) bV (Memref.isWhole_whole _) cc1_scratch3 cc1_scratch4 cc1_scoped0 cc1_scoped1 cc1_scoped2 k acc)
          (inv3 (F := F) d L q p fI fo O W (k.val + 1)) : sProp 𝕄) := by
  have hk18 : k.val < 18 := Nat.lt_of_lt_of_le k.isLt k1_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)
  have k1_h1 : ¬ k1_cond1 k = 1#1 := fun h => by have := (cond1_iff k).mp h; omega
  have k1_h2 : ¬ k1_cond2 k = 1#1 := fun h => by have := (cond2_iff k).mp h; omega
  have k1_h3 : ¬ k1_cond3 k = 1#1 := fun h => by have := (cond3_iff k).mp h; omega
  have k1_h4 : k1_cond4 k = 1#1 := (cond4_iff k).mpr hpar
  unfold inv3 slotF
  rw [if_neg (show ¬ k.val % 2 = 0 by omega), if_pos hk18, if_pos (show (k.val + 1) % 2 = 0 by omega), if_neg hk1]
  iintro ⟨#Hmw, ⟨⟨⟨%fa, Ha⟩, HpL, Hsem0⟩, Hfl⟩, Hsrest, Ho, HsemB, HsemC, %W', %hW', HO⟩
  sl_unfold [k1_t3_body]
  sl_exec
  -- the wait for chunk k, then its copy out
  ihave Hfl := (Entails.of_eq (slotP_eq (F := F) d L (bPts d L) cc1_scratch4.sem (bV).view.dmaCredit q.right p fI k.val)) $$ Hfl
  iapply (Transfers.wp_waitLocalO countersEmb 𝒱₀ (thr d L) none (default : HIx 2) (rfl : (bV).view.dmaCredit = _)) $$ [Hfl HO]
  · isplitl [Hfl]; · iexact Hfl
    isplitl [HO]; · iexact HO
    iapply (Transfers.MayWaits.elim (SemLoc.dma cc1_scratch4.sem)) $$ Hmw
  iintro ⟨HD, Hsem1, HO⟩
  ihave HD := (Entails.of_eq (slotD_eq (F := F) d L (bPts d L) q.right p fI k.val)) $$ HD
  icases HD with ⟨Hb, HpR, Hrowk⟩
  have hr : 4608 * (L 1).val + 2304 * (L 0).val + 128 * k.val = (wid L).val * 2304 + 128 * k.val := by
    have hw : (wid L).val = 2 * (L 1).val + (L 0).val := rfl
    omega
  have hoffc : k1_off8 L k = ![(wid L).val * 2304 + 128 * k.val, 0] := by rw [k1_off8_eq, hr]
  have hsetc := set_ochK (k1_off8 L k) (k1_off8_inb L k k1_h4) _ hoffc
  ihave Ho2 := (pointsTo_split_subset (ℓ := g0Loc d) (q := fullShare) (f := (outN p fI fo ((wid L).val * 2304) k.val : Buf (Elt F) (g0Loc d))) (I := chunkSet ((wid L).val * 2304 + 128 * k.val)) (S := oSet (wid L))
    (chunk_sub (wid L) k.val hk18)).1 $$ Ho
  icases Ho2 with ⟨Hch, Horest⟩
  ihave Hch' := (Entails.of_eq (show (g0Loc d ↦[chunkSet ((wid L).val * 2304 + 128 * k.val)]{fullShare} (outN p fI fo ((wid L).val * 2304) k.val : Buf (Elt F) (g0Loc d)) : sProp 𝕄)
      = ((ochK (k1_off8 L k) (k1_off8_inb L k k1_h4)).view.loc (thr d L) ↦[(ochK (k1_off8 L k) (k1_off8_inb L k k1_h4)).view.set]{fullShare}
          (outN p fI fo ((wid L).val * 2304) k.val : Buf (Elt F) (g0Loc d))) by rw [hsetc])) $$ Hch
  sl_exec
  sl_step
  ihave Hch2 := (Entails.of_eq ((pointsTo_congr (ℓ := (ochK (k1_off8 L k) (k1_off8_inb L k k1_h4)).view.loc (thr d L)) (q := fullShare)
        (out_hit (F := F) d L p fI fo (wid L).val k.val hk18 (k1_off8 L k) (k1_off8_inb L k k1_h4) hoffc _ (trip_last.sl.dma0 p fI k) rfl)).trans
      (show ((ochK (k1_off8 L k) (k1_off8_inb L k k1_h4)).view.loc (thr d L) ↦[(ochK (k1_off8 L k) (k1_off8_inb L k k1_h4)).view.set]{fullShare}
          (outN p fI fo ((wid L).val * 2304) (k.val + 1) : Buf (Elt F) (g0Loc d)) : sProp 𝕄)
        = (g0Loc d ↦[chunkSet ((wid L).val * 2304 + 128 * k.val)]{fullShare} (outN p fI fo ((wid L).val * 2304) (k.val + 1) : Buf (Elt F) (g0Loc d))) by rw [hsetc]))) $$ Hch'
  ihave Horest2 := (Entails.of_eq (pointsTo_congr (ℓ := g0Loc d) (q := fullShare) (I := oSet (wid L) \ chunkSet ((wid L).val * 2304 + 128 * k.val))
      (f := (outN p fI fo ((wid L).val * 2304) k.val : Buf (Elt F) (g0Loc d))) (g := (outN p fI fo ((wid L).val * 2304) (k.val + 1) : Buf (Elt F) (g0Loc d)))
      (fun j hj => out_miss (F := F) p fI fo ((wid L).val * 2304) k.val j (Finset.mem_sdiff.mp hj).2))) $$ Horest
  ihave Ho' := (pointsTo_split_subset (ℓ := g0Loc d) (q := fullShare) (f := (outN p fI fo ((wid L).val * 2304) (k.val + 1) : Buf (Elt F) (g0Loc d))) (I := chunkSet ((wid L).val * 2304 + 128 * k.val)) (S := oSet (wid L))
    (chunk_sub (wid L) k.val hk18)).2 $$ [Hch2 Horest2]
  · isplitl [Hch2] <;> iassumption

  isplitl []; · iexact Hmw
  isplitl [Ha HpL Hsem0 Hb HpR Hsem1]
  · isplitl [Ha HpL Hsem0]
    · isplitl [Ha]; · iexists _; iexact Ha
      isplitl [HpL]; · iexact HpL
      iexact Hsem0
    isplitl [Hb]; · iexists _; iexact Hb
    isplitl [HpR]; · iexact HpR
    iexact Hsem1
  isplitl [Hrowk Hsrest]
  · iapply (rows_last (F := F) d L fI k.val (by omega))
    isplitl [Hrowk]; · iexact Hrowk
    iexact Hsrest
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 4000000 in
/-- The chunk phase: the first gather's issue and the eighteen trips. -/
theorem chunk_phase (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096)
    (fa : Buf (Elt F) ((aV).view.loc (thr d L))) (fb : Buf (Elt F) ((bV).view.loc (thr d L))) :
    iprop(Transfers.MayWaits (thr d L) (default : HIx 2) O
        ∗ ((pV).view.loc (thr d L) ↦{q} (p : Buf (Elt F) ((pV).view.loc (thr d L))))
        ∗ ((sV).view.loc (thr d L) ↦{fullShare} (fI : Buf (Elt F) ((sV).view.loc (thr d L))))
        ∗ ((aV).view.loc (thr d L) ↦{fullShare} fa) ∗ ((bV).view.loc (thr d L) ↦{fullShare} fb)
        ∗ (g0Loc d ↦[oSet (wid L)]{fullShare} (fo : Buf (Elt F) (g0Loc d)))
        ∗ semVal (thr d L, SemLoc.dma cc1_scratch3.sem) 0 ∗ semVal (thr d L, SemLoc.dma cc1_scratch4.sem) 0
        ∗ semVal (thr d L, SemLoc.dma cc1_scoped1.sem) 0 ∗ semVal (thr d L, SemLoc.dma cc1_scoped2.sem) 0
        ∗ owes (thr d L) O W)
      ⊢ (wp frame (wpE (defs₀ (F := F)) 𝒱₀ (thr d L) none) Set.univ
          (do
            SparseCore.enqueueIndirectGather rfl (pAllK) aV gathers_S4096x128_S128x128 (offsK ![0, 0] inb_S18x128_S1x128_0_0) rfl
              cc1_scratch3.sem (View.wordExact_bits rfl) rfl (Or.inl rfl)
            let _ ← Scf.Loop.for k1_t3_loop k1_t3_ok 0#32 (k1_t3_body L pV (Memref.isWhole_whole _) iV (Memref.isWhole_whole _) oV (Memref.isWhole_whole _)
              sV (Memref.isWhole_whole _) aV (Memref.isWhole_whole _) bV (Memref.isWhole_whole _) cc1_scratch3 cc1_scratch4 cc1_scoped0 cc1_scoped1 cc1_scoped2)
            pure PUnit.unit)
          fun _ => iprop(((pV).view.loc (thr d L) ↦{q} (p : Buf (Elt F) ((pV).view.loc (thr d L))))
            ∗ ((sV).view.loc (thr d L) ↦{fullShare} (fI : Buf (Elt F) ((sV).view.loc (thr d L))))
            ∗ (∃ f, (aV).view.loc (thr d L) ↦{fullShare} f) ∗ (∃ f, (bV).view.loc (thr d L) ↦{fullShare} f)
            ∗ (g0Loc d ↦[oSet (wid L)]{fullShare} (outN p fI fo ((wid L).val * 2304) 18 : Buf (Elt F) (g0Loc d)))
            ∗ semVal (thr d L, SemLoc.dma cc1_scratch3.sem) 0 ∗ semVal (thr d L, SemLoc.dma cc1_scratch4.sem) 0
            ∗ semVal (thr d L, SemLoc.dma cc1_scoped1.sem) 0 ∗ semVal (thr d L, SemLoc.dma cc1_scoped2.sem) 0
            ∗ ∃ W', ⌜∀ x ∈ W', x ∈ W ∨ x.2 = none⌝ ∗ owes (thr d L) O W') : sProp 𝕄) := by
  iintro ⟨#Hmw, Hp, Hs, Ha, Hb, Ho, Hsem0, Hsem1, HsemB, HsemC, HO⟩
  ihave Hp2 := (pointsTo_share (PosShare.mem_left_op_right q)).1 $$ Hp
  icases Hp2 with ⟨HpL, HpR⟩
  ihave HpL2 := (pointsTo_split_subset (q := q.left) (f := (p : Buf (Elt F) ((pV).view.loc (thr d L)))) (S := Finset.univ) (Finset.subset_univ (pAllK).view.set)).1 $$ HpL
  icases HpL2 with ⟨HpL, HpLr⟩
  ihave HpR2 := (pointsTo_split_subset (q := q.right) (f := (p : Buf (Elt F) ((pV).view.loc (thr d L)))) (S := Finset.univ) (Finset.subset_univ (pAllK).view.set)).1 $$ HpR
  icases HpR2 with ⟨HpR, HpRr⟩
  ihave Hs2 := (pointsTo_split_subset (q := fullShare) (f := (fI : Buf (Elt F) ((sV).view.loc (thr d L)))) (S := Finset.univ) (Finset.subset_univ (rowSet 0))).1 $$ Hs
  icases Hs2 with ⟨Hrow, Hsrest⟩
  have hset0 := set_offsK ![0, 0] inb_S18x128_S1x128_0_0 0 rfl
  ihave Hrow' := (Entails.of_eq (show ((sV).view.loc (thr d L) ↦[rowSet 0]{fullShare} (fI : Buf (Elt F) ((sV).view.loc (thr d L))) : sProp 𝕄)
      = ((offsK ![0, 0] inb_S18x128_S1x128_0_0).view.loc (thr d L) ↦[(offsK ![0, 0] inb_S18x128_S1x128_0_0).view.set]{fullShare} (fI : Buf (Elt F) ((sV).view.loc (thr d L)))) by rw [hset0])) $$ Hrow
  have has : (aV).view.set = Finset.univ := View.set_whole _
  have hbs : (bV).view.set = Finset.univ := View.set_whole _
  ihave Ha' := (Entails.of_eq (show ((aV).view.loc (thr d L) ↦{fullShare} fa : sProp 𝕄) = (aV).view.loc (thr d L) ↦[(aV).view.set]{fullShare} fa by rw [has])) $$ Ha
  ihave Hb' := (Entails.of_eq (show ((bV).view.loc (thr d L) ↦{fullShare} fb : sProp 𝕄) = (bV).view.loc (thr d L) ↦[(bV).view.set]{fullShare} fb by rw [hbs])) $$ Hb
  ihave Ho0 := (Entails.of_eq (show (g0Loc d ↦[oSet (wid L)]{fullShare} (fo : Buf (Elt F) (g0Loc d)) : sProp 𝕄)
      = (g0Loc d ↦[oSet (wid L)]{fullShare} (outN p fI fo ((wid L).val * 2304) 0 : Buf (Elt F) (g0Loc d))) by rw [outN_zero])) $$ Ho
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)
  iapply (SparseCore.wp_indirectGatherLocal countersEmb 𝒱₀ (thr d L) none (hg := gathers_S4096x128_S128x128) (default : HIx 2)
      (aV).view.dmaCredit hNa (by decide) (hin_of (F := F) fI hfI _ _)) $$ [HpL Ha' Hrow' Hsem0]
  · isplitl [HpL]; · iexact HpL
    isplitl [Ha']; · iexact Ha'
    isplitl [Hrow']; · iexact Hrow'
    iexact Hsem0
  iintro Hfl
  ihave Hfl' := (Transfers.Flight_mono countersEmb (thr d L) (deliver_a (F := F) d L q.left p fI fa _ _ 0 rfl (by decide) _)) $$ Hfl
  first | sl_exec | skip
  sl_for (inv3 (F := F) d L q p fI fo O W) $$ [Hfl' Hb' HpR Hsem1 Hsrest Ho0 HsemB HsemC HO]
  case region =>
    intro k acc
    rcases Nat.mod_two_eq_zero_or_one k.val with hpar | hpar
    · exact trip_even (F := F) d L O W q p fI fo hfI k acc hpar
    · by_cases hk1 : k.val + 1 < 18
      · exact trip_odd (F := F) d L O W q p fI fo hfI k acc hpar hk1
      · exact trip_last (F := F) d L O W q p fI fo hfI k acc hpar hk1
  · unfold inv3 slotF
    rw [if_pos (show (0 : ℕ) % 2 = 0 by decide), if_pos (show (0 : ℕ) < 18 by decide)]
    isplitl []; · iexact Hmw
    isplitl [Hfl' Hb' HpR Hsem1]
    · isplitl [Hfl']
      · iapply (Entails.of_eq (slotP_eq (F := F) d L (aPts d L) cc1_scratch3.sem (aV).view.dmaCredit q.left p fI 0).symm)
        iexact Hfl'
      isplitl [Hb']; · iexists _; iexact Hb'
      isplitl [HpR]; · iexact HpR
      iexact Hsem1
    isplitl [Hsrest]; · iexact Hsrest
    isplitl [Ho0]; · iexact Ho0
    isplitl [HsemB]; · iexact HsemB
    isplitl [HsemC]; · iexact HsemC
    iexists W; isplitr
    · ipureintro; exact fun x hx => .inl hx
    · iexact HO
  iintro %acc HI
  rw [trips_t3]
  unfold inv3 slotF
  rw [if_pos (show (18 : ℕ) % 2 = 0 by decide), if_neg (show ¬ (18 : ℕ) < 18 by decide)]
  icases HI with ⟨-, ⟨⟨⟨%fa', Ha⟩, HpL, Hsem0⟩, ⟨%fb', Hb⟩, HpR, Hsem1⟩, Hs, Ho, HsemB, HsemC, %W', %hW', HO⟩
  first | sl_exec | skip
  sl_step
  ihave HpLj := (pointsTo_split_subset (ℓ := (pV).view.loc (thr d L)) (q := q.left) (f := (p : Buf (Elt F) ((pV).view.loc (thr d L)))) (I := (pAllK).view.set) (S := Finset.univ) (Finset.subset_univ _)).2 $$ [HpL HpLr]
  · isplitl [HpL] <;> iassumption
  ihave HpRj := (pointsTo_split_subset (ℓ := (pV).view.loc (thr d L)) (q := q.right) (f := (p : Buf (Elt F) ((pV).view.loc (thr d L)))) (I := (pAllK).view.set) (S := Finset.univ) (Finset.subset_univ _)).2 $$ [HpR HpRr]
  · isplitl [HpR] <;> iassumption
  ihave Hpj := (pointsTo_share (ℓ := (pV).view.loc (thr d L)) (I := Finset.univ) (f := (p : Buf (Elt F) ((pV).view.loc (thr d L)))) (PosShare.mem_left_op_right q)).2 $$ [HpLj HpRj]
  · isplitl [HpLj] <;> iassumption
  isplitl [Hpj]; · iexact Hpj
  isplitl [Hs]
  · iapply (Entails.of_eq (show ((sV).view.loc (thr d L) ↦[Finset.univ \ rowSet 18]{fullShare} (fI : Buf (Elt F) ((sV).view.loc (thr d L))) : sProp 𝕄)
        = ((sV).view.loc (thr d L) ↦{fullShare} (fI : Buf (Elt F) ((sV).view.loc (thr d L)))) by rw [rowSet_ge 18 (le_refl _), Finset.sdiff_empty]))
    iexact Hs
  isplitl [Ha]
  · iexists fa'
    iapply (Entails.of_eq (show ((aV).view.loc (thr d L) ↦[(aV).view.set]{fullShare} fa' : sProp 𝕄) = (aV).view.loc (thr d L) ↦{fullShare} fa' by rw [has]))
    iexact Ha
  isplitl [Hb]
  · iexists fb'
    iapply (Entails.of_eq (show ((bV).view.loc (thr d L) ↦[(bV).view.set]{fullShare} fb' : sProp 𝕄) = (bV).view.loc (thr d L) ↦{fullShare} fb' by rw [hbs]))
    iexact Hb
  isplitl [Ho]; · iexact Ho
  isplitl [Hsem0]; · iexact Hsem0
  isplitl [Hsem1]; · iexact Hsem1
  isplitl [HsemB]; · iexact HsemB
  isplitl [HsemC]; · iexact HsemC
  iexists W'; isplitr
  · ipureintro; exact hW'
  · iexact HO

set_option maxHeartbeats 4000000 in
theorem tile_body (hF : (K (F := F)).Facts) (O : CellTallies nD τ sig (HIx 2)) (W : Waits sig (HIx 2)) (hO : ∀ g, O g none = 0)
    (q : PosShare TreeShare) (p : Buf (Elt F) (pLoc d)) (ix : Buf (Elt F) (i0Loc d)) (fo : Buf (Elt F) (g0Loc d))
    (hix : ∀ j : S32x18x128.Idx, ((ix j : BitVec 32)).toNat < 1024) :
    iprop(levAts (K (F := F)).L (K (F := F)).lev
        ∗ ((pLoc d ↦{q} p) ∗ (i0Loc d ↦[iSet (wid L)]{fullShare} ix) ∗ (g0Loc d ↦[oSet (wid L)]{fullShare} fo))
        ∗ scopedBufs (thr d L) ∗ scopedSems0 (thr d L) ∗ owes (thr d L) O W)
      ⊢ (wp frame (wpE (defs₀ (F := F)) 𝒱₀ (thr d L) none) Set.univ
          (cc1_gk L pV (Memref.isWhole_whole _) iV (Memref.isWhole_whole _) oV (Memref.isWhole_whole _)
            sV (Memref.isWhole_whole _) aV (Memref.isWhole_whole _) bV (Memref.isWhole_whole _)
            cc1_scratch3 cc1_scratch4 cc1_scoped0 cc1_scoped1 cc1_scoped2)
          fun _ => iprop(((pLoc d ↦{q} p) ∗ (i0Loc d ↦[iSet (wid L)]{fullShare} ix) ∗ (g0Loc d ↦[oSet (wid L)]{fullShare} gatherVal k1_baseb p ix))
            ∗ scopedBufs (thr d L) ∗ scopedSems0 (thr d L)
            ∗ ∃ W', ⌜∀ x ∈ W', x ∈ W ∨ x.2 = none⌝ ∗ owes (thr d L) O W') : sProp 𝕄) := by
  simp only [cc1_gk_eq_skeleton]; unfold cc1_gk_skel
  rw [(K (F := F)).scopedBufs_V hF d (cV L) (jV L), SparseCore.Cfg.scopedSems0_V (Val := Elt F) d (cV L) (jV L), ownSems0_V, ownBufs_V]
  iintro ⟨#Hlv, ⟨Hp, Hi, Ho⟩, ⟨⟨%fs, Hs⟩, ⟨%fa, Ha⟩, ⟨%fb, Hb⟩, Hbufs⟩, ⟨Hsem0, Hsem1, HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  ihave Hi' := (Entails.of_eq (pts_iSlabK (F := F) d L _).symm) $$ Hi
  ihave Hp' := (Entails.of_eq (pts_pV (F := F) d L _ _).symm) $$ Hp
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  sl_unfold [k1_part1]
  sl_exec
  sl_rw [Prog.bind_assoc]
  sl_for (invOut (F := F) d L (View.write (Elt F) (sV).view fs (tile_body.sl.dma0 d L ix) Finset.univ) (tile_body.sl.v21 L)) $$ [Hs']
  case region =>
    intro k acc
    unfold invOut
    iintro Hs
    sl_exec
    sl_for (invIn (F := F) d L (View.write (Elt F) (sV).view fs (tile_body.sl.dma0 d L ix) Finset.univ) (tile_body.sl.v21 L) k.val) $$ [Hs]
    case region =>
      intro k2 acc2
      unfold invIn
      iintro Hs
      sl_exec
      sl_step
      irw [← add_step (F := F) _ _ k k2]
      iexact Hs
    · unfold invIn; iexact Hs
    iintro %acc3 HI
    unfold invIn
    sl_exec
    sl_step
    rw [trips_t2, show 8 * k.val + 8 = 8 * (k.val + 1) by omega]
    iexact HI
  · unfold invOut; rw [addN_zero]; iexact Hs'
  iintro %acc4 HI
  unfold invOut
  rw [trips_t1]
  sl_exec
  have hb : ∀ i : grid1.Coords, tile_body.sl.v21 i = k1_boffW i := by decide +kernel
  have hd : tile_body.sl.dma0 d L ix = (iSlabK L).view.read (Elt F) ix := rfl
  rw [hb L, hd]
  have hfI := fI_lt (F := F) d L ix hix fs
  iapply (wp_wand_r Idealize.ShloMosaic.frame _ _)
  isplitl [Hp' HI Ha' Hb' Ho Hsem0 Hsem1 HsemB HsemC HO]
  · iapply (chunk_phase (F := F) d L O _ q p _ fo hfI fa fb)
    isplitl []; · iexact Hmw
    isplitl [Hp']; · iexact Hp'
    isplitl [HI]; · iexact HI
    isplitl [Ha']; · iexact Ha'
    isplitl [Hb']; · iexact Hb'
    isplitl [Ho]; · iexact Ho
    isplitl [Hsem0]; · iexact Hsem0
    isplitl [Hsem1]; · iexact Hsem1
    isplitl [HsemB]; · iexact HsemB
    isplitl [HsemC]; · iexact HsemC
    iexact HO
  iintro %_ ⟨Hp, Hs, ⟨%fa2, Ha⟩, ⟨%fb2, Hb⟩, Ho, Hsem0, Hsem1, HsemB, HsemC, %W', %hW', HO⟩
  isplitl [Hp Hi' Ho]
  · isplitl [Hp]; · iapply (Entails.of_eq (pts_pV (F := F) d L _ _)); iexact Hp
    isplitl [Hi']; · iapply (Entails.of_eq (pts_iSlabK (F := F) d L _)); iexact Hi'
    iapply (Entails.of_eq (final_pts (F := F) d L p ix fo fs))
    iexact Ho
  isplitl [Hs Ha Hb Hbufs]
  · isplitl [Hs]; · iexists _; iexact Hs
    isplitl [Ha]; · iexists _; iexact Ha
    isplitl [Hb]; · iexists _; iexact Hb
    iexact Hbufs
  isplitl [Hsem0 Hsem1 HsemA HsemB HsemC Hsems]
  · isplitl [Hsem0]; · iexact Hsem0
    isplitl [Hsem1]; · iexact Hsem1
    isplitl [HsemA]; · iexact HsemA
    isplitl [HsemB]; · iexact HsemB
    isplitl [HsemC]; · iexact HsemC
    iexact Hsems
  iexists _; isplitr
  swap; · iexact HO
  ipureintro; intro x hx
  rcases hW' x hx with hx | hx
  · rcases Finset.mem_insert.mp hx with hx | hx
    · exact .inr (hx ▸ rfl)
    · exact .inl hx
  · exact .inr hx

end Tile

end Cert.KernelIdeal.ScTile

end
-- ==== Proof.ScTileVal3.lean ====
/-
  Pure facts about one vector subcore's task of a gather call: what the task's squeezed slab of the index
  array reads, which rows of the result its part is, the batch offset it adds in closed form, and the value of
  one indirect gather through a row of the index scratch.
-/
import proofs.«215572_g25211458027672_cont_9to1_2008_46_alg».proof.Proof.SkeletonKernelIdeal
import proofs.«215572_g25211458027672_cont_9to1_2008_46_alg».proof.Proof.KSetup
import Idealize.ShloMosaic.Lib.ValueIdx
import Idealize.ShloMosaic.Lib.Decide

noncomputable section

namespace Cert.KernelIdeal.ScTileVal3

open Cert.KernelIdeal Cert.KernelIdeal.Gen Idealize.ShloMosaic Idealize.ShloMosaic.ValueIdx

variable {F : FTy → Type}

/-! ## The index slab and the result's rows -/

/-- The task's slab of the index array, read through the squeezed slice: word `j` of the slab is
    word `(2 s + c, j₀, j₁)` of the array. -/
theorem slab_read (L : grid3.Coords) (ix : S32x18x128.Idx → Elt F .i32) (j : S18x128.Idx) :
    ((((Memref.whole main_v43_scv : Memref sig .scVector .hbm S32x18x128 .i32).slice
        (Rect.unit (s := S32x18x128) (k3_off1 L) S1x18x128.size (k3_off1_inb L)) (fun _ => rfl)).squeeze S18x128
        squeezes_S1x18x128_S18x128).view.read (Elt F) ix j)
      = ix (ix3 (⟨2 * (L 1).val + (L 0).val, by
          have h0 : (L 0).val < 2 := (L 0).isLt; have h1 : (L 1).val < 16 := (L 1).isLt; omega⟩ : Fin 32) (j 0) (j 1)) := by
  rw [View.read_apply, cast_eq]
  congr 1
  funext (a : Fin 3)
  apply Fin.ext
  show ((Rect.unit (s := S32x18x128) (k3_off1 L) S1x18x128.size (k3_off1_inb L)).emb
      (Shape.reshapeEquiv squeezes_S1x18x128_S18x128.numel_eq j) a : Nat) = _
  rw [Shape.reshapeEquiv_cons_one, Rect.emb_apply, Rect.off_unit, Rect.stride_unit]
  have e0 : k3_off1 L 0 = 2 * (L 1).val + (L 0).val := congrFun (k3_off1_eq L) 0
  have e1 : k3_off1 L 1 = 0 := congrFun (k3_off1_eq L) 1
  have e2 : k3_off1 L 2 = 0 := congrFun (k3_off1_eq L) 2
  match a with
  | ⟨0, _⟩ => show k3_off1 L 0 + 1 * 0 = 2 * (L 1).val + (L 0).val; omega
  | ⟨1, _⟩ => show k3_off1 L 1 + 1 * (j 0).val = (j 0).val; omega
  | ⟨2, _⟩ => show k3_off1 L 2 + 1 * (j 1).val = (j 1).val; omega

/-- Part `w` of the result's rows, cut in 32 along the rows, is rows `[2304 w, 2304 w + 2304)`. -/
theorem mem_oSet (w : Fin 32) (j : S73728x128.Idx) :
    j ∈ ((Memref.whole main_v44_scv : Memref sig .scVector .hbm S73728x128 .f32).view.slice
        (Rect.part (s := S73728x128) (a₀ := 0) (⟨2304, rfl⟩ : 32 ∣ S73728x128.size 0) w)).set
      ↔ 2304 * w.val ≤ (j 0).val ∧ (j 0).val < 2304 * w.val + 2304 := by
  show j ∈ ((View.whole main_v44_scv).slice
        (Rect.part (s := S73728x128) (a₀ := 0) (⟨2304, rfl⟩ : 32 ∣ S73728x128.size 0) w)).set ↔ _
  rw [View.set_slice_whole, Rect.mem_set_unit]
  have h1 : (j 1).val < 128 := (j 1).isLt
  constructor
  · intro h
    have h0 := h 0
    change w.val * (73728 / 32) ≤ (j 0).val ∧ (j 0).val < w.val * (73728 / 32) + 73728 / 32 at h0
    omega
  · intro h a
    match a with
    | ⟨0, _⟩ =>
      show w.val * (73728 / 32) ≤ (j 0).val ∧ (j 0).val < w.val * (73728 / 32) + 73728 / 32
      omega
    | ⟨1, _⟩ =>
      show 0 * 128 ≤ (j 1).val ∧ (j 1).val < 0 * 128 + 128
      omega

/-! ## The batch offset -/

/-- The batch offset the task adds to every word of its slab, as the program computes it from the
    grid's coordinates. -/
def k3_boffW (i : grid3.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v3 : BitVec 32 := Scalar.divsi v1 16#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v1 16#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.addi 2#32 v19
  let v21 : BitVec 32 := Scalar.muli v20 1024#32
  v21

/-- The batch offset in closed form: `1024` times the batch `2 + (2 s + c) / 16`. -/
theorem k3_boffW_eq : ∀ i : grid3.Coords,
    k3_boffW i = BitVec.ofNat 32 ((2 + (2 * (i 1).val + (i 0).val) / 16) * 1024) := by decide +kernel

section Pay
variable [FloatOps F] [Named F]
/-- The offset's addition to one sixteen-lane piece, over the batch offset as a word. -/
theorem k3_pay1_eq (i : grid3.Coords) (v34 : Vec F S1x16 .i32) :
    Cert.KernelIdeal.GenP.k3_pay1 i v34
      = shapeCast S1x16 (addi (shapeCast S16 v34 shapeCasts_S1x16_S16) (broadcast S16 (k3_boffW i))) shapeCasts_S16_S1x16 := rfl
end Pay

/-! ## One indirect gather's value -/

/-- Position `k` of a rank-one shape in row-major order is the index whose coordinate is `k`. -/
theorem rowMajor_symm_one {o : ℕ} (hn : S128.numel = o) (k : Fin o) :
    ((S128.rowMajor.symm (k.cast hn.symm)) 0).val = k.val := by
  have h := Shape.rowMajor_val_one (S128.rowMajor.symm (k.cast hn.symm))
  rw [Equiv.apply_symm_apply] at h
  exact h.symm

/-- Row `c` of the index scratch read through the squeezed slice: word `y` of the list is word `(c, y₀)`
    of the scratch. -/
theorem list_read (fI : S18x128.Idx → BitVec 32) (c : ℕ) (hc18 : c < 18)
    (inb : ∀ a, (![c, 0] : Fin 2 → ℕ) a + S1x128.size a ≤ S18x128.size a) (y : S128.Idx) :
    (((Memref.whole cc3_scratch0 : Memref sig .scVector .vmem S18x128 .i32).slice
        (Rect.unit (s := S18x128) ![c, 0] S1x128.size inb) (fun _ => rfl)).squeeze S128 squeezes_S1x128_S128).view.read (Elt F) fI y
      = fI (ix2 (⟨c % 18, Nat.mod_lt _ (by decide)⟩ : Fin 18) (y 0)) := by
  rw [View.read_apply, cast_eq]
  congr 1
  funext (a : Fin 2)
  apply Fin.ext
  show ((Rect.unit (s := S18x128) ![c, 0] S1x128.size inb).emb
      (Shape.reshapeEquiv squeezes_S1x128_S128.numel_eq y) a : Nat) = _
  rw [Shape.reshapeEquiv_cons_one, Rect.emb_apply, Rect.off_unit, Rect.stride_unit]
  match a with
  | ⟨0, _⟩ => show c + 1 * 0 = c % 18; omega
  | ⟨1, _⟩ => show 0 + 1 * (y 0).val = (y 0).val; omega

/-- The row the list names for position `k`: the number in word `(c, k)` of the scratch. -/
theorem rows_list (fI : S18x128.Idx → BitVec 32) (c : ℕ) (hc18 : c < 18)
    (inb : ∀ a, (![c, 0] : Fin 2 → ℕ) a + S1x128.size a ≤ S18x128.size a)
    (hin : ∀ x, ((((Memref.whole cc3_scratch0 : Memref sig .scVector .vmem S18x128 .i32).slice
        (Rect.unit (s := S18x128) ![c, 0] S1x128.size inb) (fun _ => rfl)).squeeze S128 squeezes_S1x128_S128).view.read (Elt F) fI x).toNat
          < S4096x128.size gathers_S4096x128_S128x128.axis)
    (k : Fin (S128x128.size gathers_S4096x128_S128x128.axis')) :
    (SparseCore.rows ((((Memref.whole cc3_scratch0 : Memref sig .scVector .vmem S18x128 .i32).slice
        (Rect.unit (s := S18x128) ![c, 0] S1x128.size inb) (fun _ => rfl)).squeeze S128 squeezes_S1x128_S128).view.read (Elt F) fI) rfl hin k).val
      = (fI (ix2 (⟨c % 18, Nat.mod_lt _ (by decide)⟩ : Fin 18) k)).toNat := by
  show ((((Memref.whole cc3_scratch0 : Memref sig .scVector .vmem S18x128 .i32).slice
        (Rect.unit (s := S18x128) ![c, 0] S1x128.size inb) (fun _ => rfl)).squeeze S128 squeezes_S1x128_S128).view.read (Elt F) fI (S128.rowMajor.symm (k.cast _))).toNat = _
  rw [list_read (F := F) fI c hc18 inb]
  have hk : (S128.rowMajor.symm (k.cast
      (rfl : S128.numel = S128x128.size gathers_S4096x128_S128x128.axis').symm)) 0 = k :=
    Fin.ext (rowMajor_symm_one rfl k)
  exact congrArg (fun t : Fin 128 => (fI (ix2 (⟨c % 18, Nat.mod_lt _ (by decide)⟩ : Fin 18) t)).toNat) hk

/-- One indirect gather's value: row `j₀` of the row buffer is the projected array's row named by word
    `(c, j₀)` of the index scratch. -/
theorem gath_eq (p : S4096x128.Idx → Elt F .f32) (fI : S18x128.Idx → BitVec 32) (off : Fin 2 → ℕ)
    (inb : ∀ a, off a + S1x128.size a ≤ S18x128.size a) (c : ℕ) (hc : off = ![c, 0]) (hc18 : c < 18)
    (hin : ∀ x, ((((Memref.whole cc3_scratch0 : Memref sig .scVector .vmem S18x128 .i32).slice
        (Rect.unit (s := S18x128) off S1x128.size inb) (fun _ => rfl)).squeeze S128 squeezes_S1x128_S128).view.read (Elt F) fI x).toNat
          < S4096x128.size gathers_S4096x128_S128x128.axis) :
    SparseCore.gatherPayload gathers_S4096x128_S128x128
        (((Memref.whole main_v22_scv : Memref sig .scVector .hbm S4096x128 .f32).slice
          (Rect.unit (s := S4096x128) ![0, 0] S4096x128.size inb_S4096x128_S4096x128_0_0) (fun _ => rfl)).view.read (Elt F) p)
        (SparseCore.rows ((((Memref.whole cc3_scratch0 : Memref sig .scVector .vmem S18x128 .i32).slice
        (Rect.unit (s := S18x128) off S1x128.size inb) (fun _ => rfl)).squeeze S128 squeezes_S1x128_S128).view.read (Elt F) fI) rfl hin)
      = fun j : S128x128.Idx => p (ix2 (⟨(fI (ix2 (⟨c % 18, Nat.mod_lt _ (by decide)⟩ : Fin 18) (j 0))).toNat % 4096,
          Nat.mod_lt _ (by decide)⟩ : Fin 4096) (j 1)) := by
  subst hc
  funext j
  have hrow := rows_list (F := F) fI c hc18 inb hin (j gathers_S4096x128_S128x128.axis')
  have hlt0 := hin (ix1 (j 0))
  rw [list_read (F := F) fI c hc18 inb] at hlt0
  have hlt : (fI (ix2 (⟨c % 18, Nat.mod_lt _ (by decide)⟩ : Fin 18) (j 0))).toNat < 4096 := hlt0
  unfold SparseCore.gatherPayload
  rw [View.read_apply, cast_eq]
  congr 1
  funext (b : Fin 2)
  apply Fin.ext
  show ((Rect.unit (s := S4096x128) ![0, 0] S4096x128.size inb_S4096x128_S4096x128_0_0).emb
      (gathers_S4096x128_S128x128.idx _ j) b : Nat) = _
  rw [Rect.emb_apply, Rect.off_unit, Rect.stride_unit]
  match b with
  | ⟨0, _⟩ =>
    show 0 + 1 * (gathers_S4096x128_S128x128.idx _ j gathers_S4096x128_S128x128.axis).val
      = (fI (ix2 (⟨c % 18, Nat.mod_lt _ (by decide)⟩ : Fin 18) (j 0))).toNat % 4096
    rw [Shape.Gathers.idx_axis, Nat.mod_eq_of_lt hlt, Nat.zero_add, Nat.one_mul]
    exact hrow
  | ⟨1, _⟩ =>
    show 0 + 1 * (gathers_S4096x128_S128x128.idx _ j ⟨1, by decide⟩).val = (j 1).val
    rw [Shape.Gathers.idx_of_ne gathers_S4096x128_S128x128 _ j ⟨1, by decide⟩ (by decide)]
    show 0 + 1 * (j 1).val = (j 1).val
    omega

end Cert.KernelIdeal.ScTileVal3
-- ==== Proof.ScTile3.lean ====
/-
  One vector subcore's task of the gather kernel `cc3_gk`, at a symbolic place, generic in the float instance.
  The task copies its [18,128] slab of row numbers into its index scratch, adds the batch offset to every word,
  and then streams eighteen chunks of 128 rows of the projected array through two row buffers, one gather
  outstanding per semaphore, each chunk copied out to the task's rows of the result once it has landed.
  The statement carries the value: after the task its 2304 rows of the result hold, row by row, the projected
  array's row named by the slab's word plus the batch offset.
-/
import proofs.«215572_g25211458027672_cont_9to1_2008_46_alg».proof.Proof.SkeletonKernelIdeal
import proofs.«215572_g25211458027672_cont_9to1_2008_46_alg».proof.Proof.KSetup
import proofs.«215572_g25211458027672_cont_9to1_2008_46_alg».proof.Proof.ScTileVal3
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import Idealize.ShloMosaic.Lib.ValueIdx
import Idealize.ShloMosaic.Lib.Writes

noncomputable section

namespace Cert.KernelIdeal.ScTile3

open Cert.KernelIdeal Cert.KernelIdeal.Gen Cert.KernelIdeal.GenP Cert.KernelIdeal.KS

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable [FloatOps F] [Named F]

/-! ## The arrays and the scratch, as a vector subcore names them -/

local notation "pV" => (Memref.whole Cert.KernelIdeal.main_v22_scv : Memref Cert.KernelIdeal.sig Kind.scVector Space.hbm Cert.KernelIdeal.S4096x128 EltTy.f32)
local notation "iV" => (Memref.whole Cert.KernelIdeal.main_v43_scv : Memref Cert.KernelIdeal.sig Kind.scVector Space.hbm Cert.KernelIdeal.S32x18x128 EltTy.i32)
local notation "oV" => (Memref.whole Cert.KernelIdeal.main_v44_scv : Memref Cert.KernelIdeal.sig Kind.scVector Space.hbm Cert.KernelIdeal.S73728x128 EltTy.f32)
local notation "sV" => (Memref.whole Cert.KernelIdeal.cc3_scratch0 : Memref Cert.KernelIdeal.sig Kind.scVector Space.vmem Cert.KernelIdeal.S18x128 EltTy.i32)
local notation "aV" => (Memref.whole Cert.KernelIdeal.cc3_scratch1 : Memref Cert.KernelIdeal.sig Kind.scVector Space.vmem Cert.KernelIdeal.S128x128 EltTy.f32)
local notation "bV" => (Memref.whole Cert.KernelIdeal.cc3_scratch2 : Memref Cert.KernelIdeal.sig Kind.scVector Space.vmem Cert.KernelIdeal.S128x128 EltTy.f32)

theorem idiv : 32 ∣ S32x18x128.size 0 := ⟨1, rfl⟩
theorem odiv : 32 ∣ S73728x128.size 0 := ⟨2304, rfl⟩
/-- Slab `w` of the index array and rows `[2304 w, 2304 w + 2304)` of the result. -/
abbrev irow (w : Fin 32) : Rect S32x18x128 := Rect.part (s := S32x18x128) (a₀ := 0) idiv w
abbrev orow (w : Fin 32) : Rect S73728x128 := Rect.part (s := S73728x128) (a₀ := 0) odiv w
abbrev iSet (w : Fin 32) : Finset S32x18x128.Idx := ((iV).view.slice (irow w)).set
abbrev oSet (w : Fin 32) : Finset S73728x128.Idx := ((oV).view.slice (orow w)).set

/-! ## The value -/

/-- The first batch of the call (the sibling call’s is 0). -/
def k3_baseb : ℕ := 2

/-! ## The task -/

section Tile

variable (d : Dev nD) (L : grid3.Coords)

abbrev cV (L : grid3.Coords) : Fin τ.nSC := (L 0).castLE hcore3
abbrev jV (L : grid3.Coords) : Fin τ.nSub := (L 1).castLE hsub3
theorem bound_zero : grid3.bound 0 = 2 := rfl
theorem bound_one : grid3.bound 1 = 16 := rfl
/-- The task's number: `2 s + c`. -/
def wid (L : grid3.Coords) : Fin 32 := ⟨2 * (L 1).val + (L 0).val, by
  have h0 : (L 0).val < 2 := (L 0).isLt; have h1 : (L 1).val < 16 := (L 1).isLt; omega⟩

/-- The task's thread. -/
abbrev thr (d : Dev nD) (L : grid3.Coords) : Thread nD τ := V d (cV L) (jV L)

theorem mem_own (a : DmaSem sig) (h : (SemLoc.dma a : SemLoc sig).isScoped .scVector = true) :
    ((thr d L, SemLoc.dma a) : GSem nD τ sig) ∈ ownCells (thr d L) := (mem_ownCells (g := (thr d L, SemLoc.dma a))).mpr ⟨rfl, h⟩
theorem gsem_ne {a b : DmaSem sig} (h : a ≠ b) : ((thr d L, SemLoc.dma a) : GSem nD τ sig) ≠ (thr d L, SemLoc.dma b) :=
  fun e => h (by injection e with _ e2; injection e2)

theorem ownSems0_V :
    (ownSems0 (thr d L) : sProp 𝕄)
      = iprop(semVal (thr d L, SemLoc.dma cc3_scratch3.sem) 0 ∗ semVal (thr d L, SemLoc.dma cc3_scratch4.sem) 0
          ∗ semVal (thr d L, SemLoc.dma cc3_scoped0.sem) 0 ∗ semVal (thr d L, SemLoc.dma cc3_scoped1.sem) 0 ∗ semVal (thr d L, SemLoc.dma cc3_scoped2.sem) 0
          ∗ bigSep (((((ownCells (thr d L)).erase (thr d L, SemLoc.dma cc3_scratch3.sem)).erase (thr d L, SemLoc.dma cc3_scratch4.sem)).erase
              (thr d L, SemLoc.dma cc3_scoped0.sem)).erase (thr d L, SemLoc.dma cc3_scoped1.sem) |>.erase (thr d L, SemLoc.dma cc3_scoped2.sem)) fun g => semVal g 0) := by
  unfold SparseCore.Cfg.ownSems0
  have m3 := mem_own d L cc3_scratch3.sem (by decide)
  have m4 := mem_own d L cc3_scratch4.sem (by decide)
  have m5 := mem_own d L cc3_scoped0.sem (by decide)
  have m6 := mem_own d L cc3_scoped1.sem (by decide)
  have m7 := mem_own d L cc3_scoped2.sem (by decide)
  have n34 := gsem_ne d L (show cc3_scratch3.sem ≠ cc3_scratch4.sem by decide)
  have n35 := gsem_ne d L (show cc3_scratch3.sem ≠ cc3_scoped0.sem by decide)
  have n36 := gsem_ne d L (show cc3_scratch3.sem ≠ cc3_scoped1.sem by decide)
  have n37 := gsem_ne d L (show cc3_scratch3.sem ≠ cc3_scoped2.sem by decide)
  have n45 := gsem_ne d L (show cc3_scratch4.sem ≠ cc3_scoped0.sem by decide)
  have n46 := gsem_ne d L (show cc3_scratch4.sem ≠ cc3_scoped1.sem by decide)
  have n47 := gsem_ne d L (show cc3_scratch4.sem ≠ cc3_scoped2.sem by decide)
  have n56 := gsem_ne d L (show cc3_scoped0.sem ≠ cc3_scoped1.sem by decide)
  have n57 := gsem_ne d L (show cc3_scoped0.sem ≠ cc3_scoped2.sem by decide)
  have n67 := gsem_ne d L (show cc3_scoped1.sem ≠ cc3_scoped2.sem by decide)
  rw [SparseCore.bigSep_erase' m3,
    SparseCore.bigSep_erase' (Finset.mem_erase.mpr ⟨n34.symm, m4⟩),
    SparseCore.bigSep_erase' (Finset.mem_erase.mpr ⟨n45.symm, Finset.mem_erase.mpr ⟨n35.symm, m5⟩⟩),
    SparseCore.bigSep_erase' (Finset.mem_erase.mpr ⟨n56.symm, Finset.mem_erase.mpr ⟨n46.symm, Finset.mem_erase.mpr ⟨n36.symm, m6⟩⟩⟩),
    SparseCore.bigSep_erase' (Finset.mem_erase.mpr ⟨n67.symm, Finset.mem_erase.mpr ⟨n57.symm, Finset.mem_erase.mpr ⟨n47.symm, Finset.mem_erase.mpr ⟨n37.symm, m7⟩⟩⟩⟩)]

theorem ownBufs_V :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc3_scratch0) rfl
  have m1 := SparseCore.Cfg.mem_ownRefs_of_owner (p := Proc.scVector (cV L) (jV L)) (b := (Proc.scVector (cV L) (jV L)).devRef cc3_scratch1) rfl
  have m2 := SparseCore.Cfg.mem_ownRefs_of_owner (p := Proc.scVector (cV L) (jV L)) (b := (Proc.scVector (cV L) (jV L)).devRef cc3_scratch2) rfl
  have n10 : (Proc.scVector (cV L) (jV L)).devRef cc3_scratch1 ≠ (Proc.scVector (cV L) (jV L)).devRef cc3_scratch0 :=
    fun e => absurd (Proc.devRef_injective _ e) (show (cc3_scratch1 : Ref sig .scVector) ≠ cc3_scratch0 by decide)
  have n20 : (Proc.scVector (cV L) (jV L)).devRef cc3_scratch2 ≠ (Proc.scVector (cV L) (jV L)).devRef cc3_scratch0 :=
    fun e => absurd (Proc.devRef_injective _ e) (show (cc3_scratch2 : Ref sig .scVector) ≠ cc3_scratch0 by decide)
  have n21 : (Proc.scVector (cV L) (jV L)).devRef cc3_scratch2 ≠ (Proc.scVector (cV L) (jV L)).devRef cc3_scratch1 :=
    fun e => absurd (Proc.devRef_injective _ e) (show (cc3_scratch2 : Ref sig .scVector) ≠ cc3_scratch1 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-- Slab `wid L` of the index array, squeezed, as the task addresses it. -/
abbrev irowK (L : grid3.Coords) : Rect S32x18x128 := Rect.unit (s := S32x18x128) (k3_off1 L) S1x18x128.size (k3_off1_inb L)
abbrev iSlabK (L : grid3.Coords) : Memref sig .scVector .hbm S18x128 .i32 := ((iV).slice (irowK L) (fun _ => rfl)).squeeze S18x128 squeezes_S1x18x128_S18x128
/-- All of the projected array, as the task addresses it. -/
abbrev pAllK : Memref sig .scVector .hbm S4096x128 .f32 := (pV).slice (Rect.unit (s := S4096x128) ![0, 0] S4096x128.size inb_S4096x128_S4096x128_0_0) (fun _ => rfl)

theorem irowK_eq : irowK L = irow (wid L) := by
  unfold irowK irow Rect.part Rect.block
  congr 1 <;> funext a
  · rw [k3_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_iSlabK : (iSlabK L).view.set = iSet (wid L) := by
  show (((iV).view.slice (irowK L)).reshape S18x128 squeezes_S1x18x128_S18x128.numel_eq).set = ((iV).view.slice (irow (wid L))).set
  rw [View.set_reshape]
  exact irowK_eq L ▸ rfl

theorem pts_iSlabK (f : Buf (Elt F) (i1Loc d)) :
    ((iSlabK L).view.loc (thr d L) ↦[(iSlabK L).view.set]{fullShare} f : sProp 𝕄) = i1Loc d ↦[iSet (wid L)]{fullShare} f := by
  rw [set_iSlabK]
theorem pts_pV (q : PosShare TreeShare) (f : Buf (Elt F) (pLoc d)) :
    ((pV).view.loc (thr d L) ↦{q} f : sProp 𝕄) = pLoc d ↦{q} f := rfl
theorem pts_sV (f : Buf (Elt F) ((thr d L).loc cc3_scratch0)) :
    ((sV).view.loc (thr d L) ↦{fullShare} f : sProp 𝕄) = (thr d L).loc cc3_scratch0 ↦{fullShare} f := rfl
theorem pts_aV (f : Buf (Elt F) ((thr d L).loc cc3_scratch1)) :
    ((aV).view.loc (thr d L) ↦{fullShare} f : sProp 𝕄) = (thr d L).loc cc3_scratch1 ↦{fullShare} f := rfl
theorem pts_bV (f : Buf (Elt F) ((thr d L).loc cc3_scratch2)) :
    ((bV).view.loc (thr d L) ↦{fullShare} f : sProp 𝕄) = (thr d L).loc cc3_scratch2 ↦{fullShare} f := rfl

/-! ## The offset's addition: the scratch after `n` sixteen-lane pieces -/

/-- Words `128 j₀ + j₁ < 16 n` of `g` have had `bo` added; the others are `g`'s. -/
def addN (g : S18x128.Idx → BitVec 32) (bo : BitVec 32) (n : ℕ) : S18x128.Idx → BitVec 32 :=
  fun j => if 128 * (j 0).val + (j 1).val < 16 * n then g j + bo else g j

theorem addN_zero (g : S18x128.Idx → BitVec 32) (bo : BitVec 32) : addN g bo 0 = g := by
  funext j; unfold addN; rw [if_neg (by omega)]

/-- The inner loop's invariant at row `t1`, piece `k`; the outer's at row `k`. -/
def invIn (g : S18x128.Idx → BitVec 32) (bo : BitVec 32) (t1 : ℕ) (k : ℕ) (_ : BitVec 32) : sProp 𝕄 :=
  (sV).view.loc (thr d L) ↦{fullShare} (addN g bo (8 * t1 + k) : Buf (Elt F) ((sV).view.loc (thr d L)))
def invOut (g : S18x128.Idx → BitVec 32) (bo : BitVec 32) (k : ℕ) (_ : BitVec 32) : sProp 𝕄 :=
  (sV).view.loc (thr d L) ↦{fullShare} (addN g bo (8 * k) : Buf (Elt F) ((sV).view.loc (thr d L)))

theorem pay_apply (v : S1x16.Idx → BitVec 32) (bo : BitVec 32) (x : S1x16.Idx) :
    shapeCast S1x16 (addi (shapeCast S16 v shapeCasts_S1x16_S16) (broadcast S16 bo)) shapeCasts_S16_S1x16 x = v x + bo := by
  unfold shapeCast addi broadcast
  show IntOp.addi (v ((Shape.reshapeEquiv shapeCasts_S1x16_S16) ((Shape.reshapeEquiv shapeCasts_S16_S1x16) x))) bo = v x + bo
  rw [Shape.reshapeEquiv_reshapeEquiv, Shape.reshapeEquiv_self]
  rfl

/-- One trip of the inner loop: piece `8 t1 + t2` gets the offset. -/
theorem add_step (g : S18x128.Idx → BitVec 32) (bo : BitVec 32) (t1 : Fin k3_t1_loop.trips) (t2 : Fin k3_t2_loop.trips) :
    ((sV).view.writes (Elt F) (addN g bo (8 * t1.val + t2.val))
      [⟨Rect.unit (s := S18x128) (k3_off2 t1 t2) S1x16.size (k3_off2_inb t1 t2),
        shapeCast S1x16 (addi (shapeCast S16 ((sV).view.readAt (Elt F) (Rect.unit (s := S18x128) (k3_off2 t1 t2) S1x16.size (k3_off2_inb t1 t2)).toLoadRect
          (addN g bo (8 * t1.val + t2.val))) shapeCasts_S1x16_S16) (broadcast S16 bo)) shapeCasts_S16_S1x16⟩])
      = addN g bo (8 * t1.val + (t2.val + 1)) := by
  have h1 : t1.val < 18 := Nat.lt_of_lt_of_le t1.isLt k3_t1_abs.2.1
  have h2 : t2.val < 8 := Nat.lt_of_lt_of_le t2.isLt k3_t2_abs.2.1
  funext i
  rw [View.writes_singleton]
  have hi1 : (i 1).val < 128 := (i 1).isLt
  by_cases hi : i ∈ (Rect.unit (s := S18x128) (k3_off2 t1 t2) S1x16.size (k3_off2_inb t1 t2)).set
  · obtain ⟨x, hx⟩ := LoadRect.exists_idx_of_mem _ hi
    have hm := Rect.mem_set_unit.mp hi
    have e : ((sV).view.slice (Rect.unit (s := S18x128) (k3_off2 t1 t2) S1x16.size (k3_off2_inb t1 t2))).emb x = i := hx
    have e0 : k3_off2 t1 t2 0 = t1.val := by rw [k3_off2_eq]; rfl
    have e1 : k3_off2 t1 t2 1 = 16 * t2.val := by rw [k3_off2_eq]; rfl
    have ha := hm 0
    have hb := hm 1
    rw [e0] at ha; rw [e1] at hb
    change t1.val ≤ (i 0).val ∧ (i 0).val < t1.val + 1 at ha
    change 16 * t2.val ≤ (i 1).val ∧ (i 1).val < 16 * t2.val + 16 at hb
    conv_lhs => rw [← e]
    rw [View.write_emb_of_mem _ _ (Finset.mem_univ _), pay_apply, cast_eq, View.readAt_apply, hx]
    show addN g bo (8 * t1.val + t2.val) i + bo = addN g bo (8 * t1.val + (t2.val + 1)) i
    unfold addN
    rw [if_neg (by omega), if_pos (by omega)]
  · rw [View.write_of_not_mem _ _ _ (by rwa [View.setOn_univ, View.set_slice_whole])]
    have hm := fun h => hi (Rect.mem_set_unit.mpr h)
    have key : ¬ (16 * (8 * t1.val + t2.val) ≤ 128 * (i 0).val + (i 1).val ∧ 128 * (i 0).val + (i 1).val < 16 * (8 * t1.val + t2.val) + 16) :=
      fun ⟨ha, hb⟩ => hm (by
        intro a; rw [k3_off2_eq]
        match a with
        | ⟨0, _⟩ => exact (show t1.val ≤ (i 0).val ∧ (i 0).val < t1.val + 1 by omega)
        | ⟨1, _⟩ => exact (show 16 * t2.val ≤ (i 1).val ∧ (i 1).val < 16 * t2.val + 16 by omega))
    show addN g bo (8 * t1.val + t2.val) i = addN g bo (8 * t1.val + (t2.val + 1)) i
    unfold addN
    by_cases c1 : 128 * (i 0).val + (i 1).val < 16 * (8 * t1.val + t2.val)
    · rw [if_pos c1, if_pos (by omega)]
    · rw [if_neg c1, if_neg (by omega)]

theorem trips_t1 : Scf.trips k3_t1_loop.lb k3_t1_loop.ub k3_t1_loop.st = 18 := by decide
theorem trips_t2 : Scf.trips k3_t2_loop.lb k3_t2_loop.ub k3_t2_loop.st = 8 := by decide
theorem trips_t3 : Scf.trips k3_t3_loop.lb k3_t3_loop.ub k3_t3_loop.st = 18 := by decide

/-! ## The chunk loop: rows of the scratch, the gathered rows, the result so far -/

theorem cond1_iff : ∀ k : Fin k3_t3_loop.trips, k3_cond1 k = 1#1 ↔ (k.val % 2 = 0 ∧ k.val + 1 < 18) := by decide +kernel
theorem cond2_iff : ∀ k : Fin k3_t3_loop.trips, k3_cond2 k = 1#1 ↔ (k.val % 2 = 1 ∧ k.val + 1 < 18) := by decide +kernel
theorem cond3_iff : ∀ k : Fin k3_t3_loop.trips, k3_cond3 k = 1#1 ↔ k.val % 2 = 0 := by decide +kernel
theorem cond4_iff : ∀ k : Fin k3_t3_loop.trips, k3_cond4 k = 1#1 ↔ k.val % 2 = 1 := by decide +kernel

/-- Row `c` of the index scratch (empty for `c ≥ 18`). -/
def rowSet (c : ℕ) : Finset S18x128.Idx := Finset.univ.filter fun j => (j 0).val = c

/-- A row of the scratch as an offset list, as the task addresses it. -/
abbrev offsK (off : Fin 2 → ℕ) (inb : ∀ a, off a + S1x128.size a ≤ S18x128.size a) : Memref sig .scVector .vmem S128 .i32 :=
  ((sV).slice (Rect.unit (s := S18x128) off S1x128.size inb) (fun _ => rfl)).squeeze S128 squeezes_S1x128_S128

theorem set_offsK (off : Fin 2 → ℕ) (inb : ∀ a, off a + S1x128.size a ≤ S18x128.size a) (c : ℕ) (h : off = ![c, 0]) :
    (offsK off inb).view.set = rowSet c := by
  show (((sV).view.slice (Rect.unit (s := S18x128) off S1x128.size inb)).reshape S128 squeezes_S1x128_S128.numel_eq).set = _
  rw [View.set_reshape, View.set_slice_whole]
  subst h
  ext j
  rw [Rect.mem_set_unit]
  unfold rowSet
  rw [Finset.mem_filter]
  constructor
  · intro hj
    have h0 := hj 0
    change c ≤ (j 0).val ∧ (j 0).val < c + 1 at h0
    exact ⟨Finset.mem_univ _, by omega⟩
  · rintro ⟨-, hj⟩ a
    match a with
    | ⟨0, _⟩ => exact (show c ≤ (j 0).val ∧ (j 0).val < c + 1 by omega)
    | ⟨1, _⟩ => exact (show 0 ≤ (j 1).val ∧ (j 1).val < 0 + 128 from ⟨Nat.zero_le _, by have h : (j 1).val < 128 := (j 1).isLt; omega⟩)

/-- The rows chunk `c` gathers: row `l` is the projected array's row named by word `(c, l)` of the scratch. -/
def gath (p : S4096x128.Idx → Elt F .f32) (fI : S18x128.Idx → BitVec 32) (c : ℕ) : S128x128.Idx → Elt F .f32 :=
  fun j => p (ix2 (⟨(fI (ix2 (⟨c % 18, Nat.mod_lt _ (by decide)⟩ : Fin 18) (j 0))).toNat % 4096, Nat.mod_lt _ (by decide)⟩ : Fin 4096) (j 1))

/-- The result after the chunks below `c` are written: rows below `base + 128 c` gathered, the others as they were. -/
def outN (p : S4096x128.Idx → Elt F .f32) (fI : S18x128.Idx → BitVec 32) (fo : S73728x128.Idx → Elt F .f32) (base c : ℕ) :
    S73728x128.Idx → Elt F .f32 :=
  fun j => if base ≤ (j 0).val ∧ (j 0).val < base + 128 * c then
      p (ix2 (⟨(fI (ix2 (⟨(j 0).val / 128 % 18, Nat.mod_lt _ (by decide)⟩ : Fin 18) (⟨(j 0).val % 128, Nat.mod_lt _ (by decide)⟩ : Fin 128))).toNat % 4096,
        Nat.mod_lt _ (by decide)⟩ : Fin 4096) (j 1))
    else fo j

/-- The two row buffers held by their elements. -/
abbrev aPts (f : S128x128.Idx → Elt F .f32) : sProp 𝕄 := (aV).view.loc (thr d L) ↦[(aV).view.set]{fullShare} (f : Buf (Elt F) ((aV).view.loc (thr d L)))
abbrev bPts (f : S128x128.Idx → Elt F .f32) : sProp 𝕄 := (bV).view.loc (thr d L) ↦[(bV).view.set]{fullShare} (f : Buf (Elt F) ((bV).view.loc (thr d L)))

/-- What a landed gather of chunk `c` delivers: the row buffer at the gathered rows, the share of the projected array,
    row `c` of the scratch. -/
def slotD (X : (S128x128.Idx → Elt F .f32) → sProp 𝕄) (qh : PosShare TreeShare) (p : S4096x128.Idx → Elt F .f32)
    (fI : S18x128.Idx → BitVec 32) (c : ℕ) : sProp 𝕄 :=
  iprop(X (gath p fI c)
    ∗ ((pAllK).view.loc (thr d L) ↦[(pAllK).view.set]{qh} (p : Buf (Elt F) ((pAllK).view.loc (thr d L))))
    ∗ ((sV).view.loc (thr d L) ↦[rowSet c]{fullShare} (fI : Buf (Elt F) ((sV).view.loc (thr d L)))))

/-- A row buffer with the gather of chunk `c` outstanding on its semaphore. -/
def slotP (X : (S128x128.Idx → Elt F .f32) → sProp 𝕄) (sem : DmaSem sig) (N : ℕ) (qh : PosShare TreeShare) (p : S4096x128.Idx → Elt F .f32)
    (fI : S18x128.Idx → BitVec 32) (c : ℕ) : sProp 𝕄 :=
  Transfers.Flight countersEmb (thr d L) (.dma sem) (default : HIx 2) N (slotD (F := F) d L X qh p fI c)

/-- A free row buffer: the buffer at some contents, the share of the projected array, the semaphore at zero. -/
def slotF (X : (S128x128.Idx → Elt F .f32) → sProp 𝕄) (sem : DmaSem sig) (qh : PosShare TreeShare) (p : S4096x128.Idx → Elt F .f32) : sProp 𝕄 :=
  iprop((∃ f, X f)
    ∗ ((pAllK).view.loc (thr d L) ↦[(pAllK).view.set]{qh} (p : Buf (Elt F) ((pAllK).view.loc (thr d L))))
    ∗ semVal (thr d L, SemLoc.dma sem) 0)

theorem slotP_eq (X : (S128x128.Idx → Elt F .f32) → sProp 𝕄) (sem : DmaSem sig) (N : ℕ) (qh : PosShare TreeShare) (p : S4096x128.Idx → Elt F .f32)
    (fI : S18x128.Idx → BitVec 32) (c : ℕ) :
    slotP (F := F) d L X sem N qh p fI c
      = Transfers.Flight countersEmb (thr d L) (.dma sem) (default : HIx 2) N (slotD (F := F) d L X qh p fI c) := rfl

theorem slotD_eq (X : (S128x128.Idx → Elt F .f32) → sProp 𝕄) (qh : PosShare TreeShare) (p : S4096x128.Idx → Elt F .f32)
    (fI : S18x128.Idx → BitVec 32) (c : ℕ) :
    slotD (F := F) d L X qh p fI c
      = iprop(X (gath p fI c)
          ∗ ((pAllK).view.loc (thr d L) ↦[(pAllK).view.set]{qh} (p : Buf (Elt F) ((pAllK).view.loc (thr d L))))
          ∗ ((sV).view.loc (thr d L) ↦[rowSet c]{fullShare} (fI : Buf (Elt F) ((sV).view.loc (thr d L))))) := rfl

/-- The chunk loop's invariant before trip `c`: the gather of chunk `c` outstanding on the buffer of `c`'s parity
    (none at `c = 18`), the other buffer free; every row of the scratch but row `c`; the result with the chunks
    below `c` written; the copy-out semaphores at zero; the task's `owes`. -/
def inv3 (q : PosShare TreeShare) (p : S4096x128.Idx → Elt F .f32) (fI : S18x128.Idx → BitVec 32) (fo : S73728x128.Idx → Elt F .f32)
    (O : CellTallies nD τ sig (HIx 2)) (W0 : Waits sig (HIx 2)) (c : ℕ) (_ : BitVec 32) : sProp 𝕄 :=
  iprop(Transfers.MayWaits (thr d L) (default : HIx 2) O
    ∗ (if c % 2 = 0 then
        iprop((if c < 18 then slotP (F := F) d L (aPts d L) cc3_scratch3.sem (aV).view.dmaCredit q.left p fI c else slotF (F := F) d L (aPts d L) cc3_scratch3.sem q.left p)
          ∗ slotF (F := F) d L (bPts d L) cc3_scratch4.sem q.right p)
      else
        iprop(slotF (F := F) d L (aPts d L) cc3_scratch3.sem q.left p
          ∗ (if c < 18 then slotP (F := F) d L (bPts d L) cc3_scratch4.sem (bV).view.dmaCredit q.right p fI c else slotF (F := F) d L (bPts d L) cc3_scratch4.sem q.right p)))
    ∗ ((sV).view.loc (thr d L) ↦[Finset.univ \ rowSet c]{fullShare} (fI : Buf (Elt F) ((sV).view.loc (thr d L))))
    ∗ (g1Loc d ↦[oSet (wid L)]{fullShare} (outN p fI fo ((wid L).val * 2304) c : Buf (Elt F) (g1Loc d)))
    ∗ semVal (thr d L, SemLoc.dma cc3_scoped1.sem) 0 ∗ semVal (thr d L, SemLoc.dma cc3_scoped2.sem) 0
    ∗ ∃ W', ⌜∀ x ∈ W', x ∈ W0 ∨ x.2 = none⌝ ∗ owes (thr d L) O W')

theorem hin_of (fI : S18x128.Idx → BitVec 32) (hfI : ∀ j, (fI j).toNat < 4096) (off : Fin 2 → ℕ) (inb : ∀ a, off a + S1x128.size a ≤ S18x128.size a) :
    ∀ x, ((offsK off inb).view.read (Elt F) fI x).toNat < S4096x128.size gathers_S4096x128_S128x128.axis := fun x => by
  rw [View.read_apply, cast_eq]; exact hfI _

theorem outN_zero (p : S4096x128.Idx → Elt F .f32) (fI : S18x128.Idx → BitVec 32) (fo : S73728x128.Idx → Elt F .f32) (base : ℕ) :
    outN p fI fo base 0 = fo := by
  funext j; unfold outN; rw [if_neg (by omega)]

/-- The value of one gather. -/
theorem gath_eq (p : S4096x128.Idx → Elt F .f32) (fI : S18x128.Idx → BitVec 32) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    SparseCore.gatherPayload gathers_S4096x128_S128x128 ((pAllK).view.read (Elt F) p) (SparseCore.rows ((offsK off inb).view.read (Elt F) fI) rfl hin)
      = gath p fI c :=
  Cert.KernelIdeal.ScTileVal3.gath_eq p fI off inb c hc hc18 hin

theorem deliver_a (qh : PosShare TreeShare) (p : S4096x128.Idx → Elt F .f32) (fI : S18x128.Idx → BitVec 32)
    (fd : Buf (Elt F) ((aV).view.loc (thr d L))) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    iprop(((aV).view.loc (thr d L) ↦[(aV).view.set]{fullShare}
          ((aV).view.write (Elt F) fd (SparseCore.gatherPayload gathers_S4096x128_S128x128 ((pAllK).view.read (Elt F) p)
            (SparseCore.rows ((offsK off inb).view.read (Elt F) fI) rfl hin)) Finset.univ))
        ∗ ((pAllK).view.loc (thr d L) ↦[(pAllK).view.set]{qh} (p : Buf (Elt F) ((pAllK).view.loc (thr d L))))
        ∗ ((offsK off inb).view.loc (thr d L) ↦[(offsK off inb).view.set]{fullShare} (fI : Buf (Elt F) ((offsK off inb).view.loc (thr d L)))))
      ⊢ (slotD (F := F) d L (aPts d L) qh p fI c : sProp 𝕄) := by
  unfold slotD
  rw [set_offsK off inb c hc, gath_eq (F := F) p fI off inb c hc hc18 hin, View.write_whole_univ]

theorem deliver_b (qh : PosShare TreeShare) (p : S4096x128.Idx → Elt F .f32) (fI : S18x128.Idx → BitVec 32)
    (fd : Buf (Elt F) ((bV).view.loc (thr d L))) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    iprop(((bV).view.loc (thr d L) ↦[(bV).view.set]{fullShare}
          ((bV).view.write (Elt F) fd (SparseCore.gatherPayload gathers_S4096x128_S128x128 ((pAllK).view.read (Elt F) p)
            (SparseCore.rows ((offsK off inb).view.read (Elt F) fI) rfl hin)) Finset.univ))
        ∗ ((pAllK).view.loc (thr d L) ↦[(pAllK).view.set]{qh} (p : Buf (Elt F) ((pAllK).view.loc (thr d L))))
        ∗ ((offsK off inb).view.loc (thr d L) ↦[(offsK off inb).view.set]{fullShare} (fI : Buf (Elt F) ((offsK off inb).view.loc (thr d L)))))
      ⊢ (slotD (F := F) d L (bPts d L) qh p fI c : sProp 𝕄) := by
  unfold slotD
  rw [set_offsK off inb c hc, gath_eq (F := F) p fI off inb c hc hc18 hin, View.write_whole_univ]

/-! ## Rows of the scratch and chunks of the result, as sets -/

theorem rowSet_sub (a b : ℕ) (h : a ≠ b) : rowSet a ⊆ Finset.univ \ rowSet b := by
  intro j hj
  rw [Finset.mem_sdiff]
  refine ⟨Finset.mem_univ _, fun hb => ?_⟩
  unfold rowSet at hj hb
  rw [Finset.mem_filter] at hj hb
  exact h (hj.2.symm.trans hb.2)

theorem rows_swap (a b : ℕ) (h : a ≠ b) :
    ((Finset.univ : Finset S18x128.Idx) \ rowSet a) \ rowSet b ∪ rowSet a = Finset.univ \ rowSet b := by
  ext j
  simp only [Finset.mem_union, Finset.mem_sdiff, Finset.mem_univ, true_and]
  constructor
  · rintro (⟨_, hb⟩ | ha)
    · exact hb
    · intro hb
      unfold rowSet at ha hb
      rw [Finset.mem_filter] at ha hb
      exact h (ha.2.symm.trans hb.2)
  · intro hb
    by_cases ha : j ∈ rowSet a
    · exact Or.inr ha
    · exact Or.inl ⟨ha, hb⟩

theorem rows_swap_disj (a b : ℕ) : Disjoint (((Finset.univ : Finset S18x128.Idx) \ rowSet a) \ rowSet b) (rowSet a) := by
  rw [Finset.disjoint_left]
  intro j hj ha
  rw [Finset.mem_sdiff, Finset.mem_sdiff] at hj
  exact hj.1.2 ha

theorem rowSet_ge (c : ℕ) (h : 18 ≤ c) : rowSet c = ∅ := by
  unfold rowSet
  rw [Finset.filter_eq_empty_iff]
  intro j _ hj
  have h0 : (j 0).val < 18 := (j 0).isLt
  omega

/-- Rows `[r, r + 128)` of the result. -/
def chunkSet (r : ℕ) : Finset S73728x128.Idx := Finset.univ.filter fun j => r ≤ (j 0).val ∧ (j 0).val < r + 128

/-- A chunk of the result, as the task addresses it. -/
abbrev ochK (off : Fin 2 → ℕ) (inb : ∀ a, off a + S128x128.size a ≤ S73728x128.size a) : Memref sig .scVector .hbm S128x128 .f32 :=
  (oV).slice (Rect.unit (s := S73728x128) off S128x128.size inb) (fun _ => rfl)

theorem set_ochK (off : Fin 2 → ℕ) (inb : ∀ a, off a + S128x128.size a ≤ S73728x128.size a) (r : ℕ) (h : off = ![r, 0]) :
    (ochK off inb).view.set = chunkSet r := by
  show ((oV).view.slice (Rect.unit (s := S73728x128) off S128x128.size inb)).set = _
  rw [View.set_slice_whole]
  subst h
  ext j
  rw [Rect.mem_set_unit]
  unfold chunkSet
  rw [Finset.mem_filter]
  constructor
  · intro hj
    have h0 := hj 0
    change r ≤ (j 0).val ∧ (j 0).val < r + 128 at h0
    exact ⟨Finset.mem_univ _, h0⟩
  · rintro ⟨-, hj⟩ a
    match a with
    | ⟨0, _⟩ => exact hj
    | ⟨1, _⟩ => exact (show 0 ≤ (j 1).val ∧ (j 1).val < 0 + 128 from ⟨Nat.zero_le _, by have h : (j 1).val < 128 := (j 1).isLt; omega⟩)

/-- The task's rows of the result as a unit-stride rectangle. -/
abbrev orowU (w : Fin 32) : Rect S73728x128 := Rect.unit (s := S73728x128) ![w.val * 2304, 0] ![2304, 128] (fun a => by
  match a with
  | ⟨0, _⟩ => exact (show w.val * 2304 + 2304 ≤ 73728 by have := w.isLt; omega)
  | ⟨1, _⟩ => exact (show 0 + 128 ≤ 128 by omega))

theorem orow_eq (w : Fin 32) : orow w = orowU w := by
  unfold orow orowU Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem mem_oSet (w : Fin 32) (j : S73728x128.Idx) : j ∈ oSet w ↔ w.val * 2304 ≤ (j 0).val ∧ (j 0).val < w.val * 2304 + 2304 := by
  show j ∈ ((oV).view.slice (orow w)).set ↔ _
  rw [View.set_slice_whole, orow_eq, Rect.mem_set_unit]
  constructor
  · intro h; exact h 0
  · intro h a
    match a with
    | ⟨0, _⟩ => exact h
    | ⟨1, _⟩ => exact (show 0 ≤ (j 1).val ∧ (j 1).val < 0 + 128 from ⟨Nat.zero_le _, by have h1 : (j 1).val < 128 := (j 1).isLt; omega⟩)

theorem chunk_sub (w : Fin 32) (k : ℕ) (hk : k < 18) : chunkSet (w.val * 2304 + 128 * k) ⊆ oSet w := by
  intro j hj
  unfold chunkSet at hj
  rw [Finset.mem_filter] at hj
  obtain ⟨-, h1, h2⟩ := hj
  rw [mem_oSet]
  constructor <;> omega

/-- Off chunk `k` the result is the same before and after the chunk's copy. -/
theorem out_miss (p : S4096x128.Idx → Elt F .f32) (fI : S18x128.Idx → BitVec 32) (fo : S73728x128.Idx → Elt F .f32) (B k : ℕ) :
    ∀ j, j ∉ chunkSet (B + 128 * k) → outN p fI fo B k j = outN p fI fo B (k + 1) j := by
  intro j hj
  have hj' : ¬ (B + 128 * k ≤ (j 0).val ∧ (j 0).val < B + 128 * k + 128) := fun h => hj (by
    unfold chunkSet; rw [Finset.mem_filter]; exact ⟨Finset.mem_univ _, h⟩)
  unfold outN
  by_cases c1 : B ≤ (j 0).val ∧ (j 0).val < B + 128 * k
  · rw [if_pos c1, if_pos ⟨c1.1, by omega⟩]
  · rw [if_neg c1, if_neg (by omega)]

/-- On chunk `k` the copy writes the chunk's gathered rows: the result after the chunk. -/
theorem out_hit (p : S4096x128.Idx → Elt F .f32) (fI : S18x128.Idx → BitVec 32) (fo : S73728x128.Idx → Elt F .f32) (w k : ℕ) (hk : k < 18)
    (off : Fin 2 → ℕ) (inb : ∀ a, off a + S128x128.size a ≤ S73728x128.size a) (h : off = ![w * 2304 + 128 * k, 0])
    (f0 : Buf (Elt F) ((ochK off inb).view.loc (thr d L))) (pay : S128x128.Idx → Elt F .f32) (hpay : pay = gath p fI k) :
    ∀ j ∈ (ochK off inb).view.set, ((ochK off inb).view.writes (Elt F) f0 [⟨Rect.whole S128x128, pay⟩]) j = outN p fI fo (w * 2304) (k + 1) j := by
  subst h hpay
  intro j hj
  obtain ⟨x, -, rfl⟩ := Finset.mem_map.mp hj
  rw [View.writes_singleton]
  have e : ((ochK ![w * 2304 + 128 * k, 0] inb).view.slice (Rect.whole S128x128)).emb x = (ochK ![w * 2304 + 128 * k, 0] inb).view.emb x :=
    congrArg (ochK ![w * 2304 + 128 * k, 0] inb).view.emb (Rect.emb_whole_apply S128x128 x)
  conv_lhs => rw [← e]
  rw [View.write_emb_of_mem _ _ (Finset.mem_univ x), cast_eq]
  have e0 : (((ochK ![w * 2304 + 128 * k, 0] inb).view.emb x) 0).val = (w * 2304 + 128 * k) + 1 * (x 0).val := rfl
  have e1 : (((ochK ![w * 2304 + 128 * k, 0] inb).view.emb x) 1).val = 0 + 1 * (x 1).val := rfl
  have hx0 : (x 0).val < 128 := (x 0).isLt
  generalize ((ochK ![w * 2304 + 128 * k, 0] inb).view.emb x) = j at e0 e1 ⊢
  unfold outN gath
  rw [if_pos ⟨by omega, by omega⟩]
  have hix : (ix2 (⟨k % 18, Nat.mod_lt _ (by decide)⟩ : Fin 18) (x 0) : S18x128.Idx)
      = ix2 (⟨(j 0).val / 128 % 18, Nat.mod_lt _ (by decide)⟩ : Fin 18) (⟨(j 0).val % 128, Nat.mod_lt _ (by decide)⟩ : Fin 128) := by
    funext a
    match a with
    | ⟨0, _⟩ => exact Fin.ext (by show k % 18 = (j 0).val / 128 % 18; omega)
    | ⟨1, _⟩ => exact Fin.ext (by show (x 0).val = (j 0).val % 128; omega)
  have hcol : (x 1 : Fin 128) = j 1 := Fin.ext (by show (x 1).val = (j 1).val; omega)
  refine (congrArg (fun i : S18x128.Idx => p (ix2 (⟨(fI i).toNat % 4096, Nat.mod_lt _ (by decide)⟩ : Fin 4096) (x 1))) hix).trans ?_
  exact congrArg (fun c : Fin 128 => p (ix2 (⟨(fI (ix2 (⟨(j 0).val / 128 % 18, Nat.mod_lt _ (by decide)⟩ : Fin 18)
    (⟨(j 0).val % 128, Nat.mod_lt _ (by decide)⟩ : Fin 128))).toNat % 4096, Nat.mod_lt _ (by decide)⟩ : Fin 4096) c)) hcol

theorem sdiff_swap {ι : Type} [DecidableEq ι] (U A B : Finset ι) (hA : A ⊆ U) (hAB : Disjoint A B) : (U \ A) \ B ∪ A = U \ B := by
  ext j
  simp only [Finset.mem_union, Finset.mem_sdiff]
  constructor
  · rintro (⟨⟨hU, _⟩, hB⟩ | hA')
    · exact ⟨hU, hB⟩
    · exact ⟨hA hA', fun hB => Finset.disjoint_left.mp hAB hA' hB⟩
  · rintro ⟨hU, hB⟩
    by_cases hA' : j ∈ A
    · exact Or.inr hA'
    · exact Or.inl ⟨⟨hU, hA'⟩, hB⟩

theorem sdiff_swap_disj {ι : Type} [DecidableEq ι] (U A B : Finset ι) : Disjoint ((U \ A) \ B) A := by
  rw [Finset.disjoint_left]
  intro j hj ha
  rw [Finset.mem_sdiff, Finset.mem_sdiff] at hj
  exact hj.1.2 ha

theorem rowSet_disj (a b : ℕ) (h : a ≠ b) : Disjoint (rowSet a) (rowSet b) := by
  rw [Finset.disjoint_left]
  intro j ha hb
  unfold rowSet at ha hb
  rw [Finset.mem_filter] at ha hb
  exact h (ha.2.symm.trans hb.2)

/-- Row `a` back, row `b` still out: every row but `b`. -/
theorem rows_join (fI : S18x128.Idx → BitVec 32) (a b : ℕ) (h : a ≠ b) :
    iprop(((sV).view.loc (thr d L) ↦[(Finset.univ \ rowSet a) \ rowSet b]{fullShare} (fI : Buf (Elt F) ((sV).view.loc (thr d L))))
        ∗ ((sV).view.loc (thr d L) ↦[rowSet a]{fullShare} (fI : Buf (Elt F) ((sV).view.loc (thr d L)))))
      ⊢ ((sV).view.loc (thr d L) ↦[Finset.univ \ rowSet b]{fullShare} (fI : Buf (Elt F) ((sV).view.loc (thr d L))) : sProp 𝕄) := by
  have hsw := sdiff_swap (Finset.univ : Finset (Idx ((sV).view.loc (thr d L)))) (rowSet a) (rowSet b) (Finset.subset_univ _) (rowSet_disj a b h)
  rw [← hsw]
  exact (pointsTo_union (sdiff_swap_disj _ _ _)).2

/-- The last row back: the scratch whole. -/
theorem rows_last (fI : S18x128.Idx → BitVec 32) (a : ℕ) (h : 18 ≤ a + 1) :
    iprop(((sV).view.loc (thr d L) ↦[rowSet a]{fullShare} (fI : Buf (Elt F) ((sV).view.loc (thr d L))))
        ∗ ((sV).view.loc (thr d L) ↦[Finset.univ \ rowSet a]{fullShare} (fI : Buf (Elt F) ((sV).view.loc (thr d L)))))
      ⊢ ((sV).view.loc (thr d L) ↦[Finset.univ \ rowSet (a + 1)]{fullShare} (fI : Buf (Elt F) ((sV).view.loc (thr d L))) : sProp 𝕄) := by
  rw [rowSet_ge (a + 1) h, Finset.sdiff_empty]
  exact (pointsTo_split_subset (Finset.subset_univ (rowSet a))).2

/-! ## The scratch after the additions, and the result after the last chunk -/

/-- The batch offset as the kernel computes it. -/
def k3_boffW (i : grid3.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v3 : BitVec 32 := Scalar.divsi v1 16#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v1 16#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.addi 2#32 v19
  let v21 : BitVec 32 := Scalar.muli v20 1024#32
  v21

theorem k3_boffW_eq : ∀ i : grid3.Coords, k3_boffW i = BitVec.ofNat 32 ((2 + (2 * (i 1).val + (i 0).val) / 16) * 1024) := by decide +kernel

/-- The slab as the scratch receives it, word by word. -/
theorem slab_read (ix : S32x18x128.Idx → Elt F .i32) (j : S18x128.Idx) :
    (iSlabK L).view.read (Elt F) ix j = ix (ix3 (wid L) (j 0) (j 1)) :=
  Cert.KernelIdeal.ScTileVal3.slab_read L ix j

theorem fI_apply (ix : S32x18x128.Idx → Elt F .i32) (fs : Buf (Elt F) ((sV).view.loc (thr d L))) (j : S18x128.Idx) :
    addN (View.write (Elt F) (sV).view fs ((iSlabK L).view.read (Elt F) ix) Finset.univ) (k3_boffW L) (8 * 18) j
      = (ix (ix3 (wid L) (j 0) (j 1)) : BitVec 32) + BitVec.ofNat 32 ((k3_baseb + (wid L).val / 16) * 1024) := by
  have h0 : (j 0).val < 18 := (j 0).isLt
  have h1 : (j 1).val < 128 := (j 1).isLt
  unfold addN
  rw [if_pos (by omega), View.write_whole_univ, slab_read, k3_boffW_eq]
  rfl

theorem fI_lt (ix : S32x18x128.Idx → Elt F .i32) (hix : ∀ j : S32x18x128.Idx, ((ix j : BitVec 32)).toNat < 1024)
    (fs : Buf (Elt F) ((sV).view.loc (thr d L))) :
    ∀ j, (addN (View.write (Elt F) (sV).view fs ((iSlabK L).view.read (Elt F) ix) Finset.univ) (k3_boffW L) (8 * 18) j).toNat < 4096 := by
  intro j
  rw [fI_apply]
  have h1 := hix (ix3 (wid L) (j 0) (j 1))
  have hw : (wid L).val < 32 := (wid L).isLt
  have hb : (BitVec.ofNat 32 ((k3_baseb + (wid L).val / 16) * 1024)).toNat ≤ 3072 := by
    rw [BitVec.toNat_ofNat]
    refine le_trans (Nat.mod_le _ _) ?_
    have hb0 : k3_baseb ≤ 2 := by decide
    omega
  calc ((ix (ix3 (wid L) (j 0) (j 1)) : BitVec 32) + BitVec.ofNat 32 ((k3_baseb + (wid L).val / 16) * 1024)).toNat
      = ((ix (ix3 (wid L) (j 0) (j 1)) : BitVec 32).toNat + (BitVec.ofNat 32 ((k3_baseb + (wid L).val / 16) * 1024)).toNat) % 2 ^ 32 := BitVec.toNat_add _ _
    _ ≤ (ix (ix3 (wid L) (j 0) (j 1)) : BitVec 32).toNat + (BitVec.ofNat 32 ((k3_baseb + (wid L).val / 16) * 1024)).toNat := Nat.mod_le _ _
    _ < 4096 := by omega

/-- After the last chunk the task's rows hold the gather's value. -/
theorem final_val (p : S4096x128.Idx → Elt F .f32) (ix : S32x18x128.Idx → Elt F .i32) (fo : S73728x128.Idx → Elt F .f32)
    (fs : Buf (Elt F) ((sV).view.loc (thr d L))) :
    ∀ j ∈ oSet (wid L), outN p (addN (View.write (Elt F) (sV).view fs ((iSlabK L).view.read (Elt F) ix) Finset.univ) (k3_boffW L) (8 * 18)) fo
        ((wid L).val * 2304) 18 j = gatherVal k3_baseb p ix j := by
  intro j hj
  rw [mem_oSet] at hj
  have hw : (j 0).val / 2304 = (wid L).val := by omega
  have hwF : wid L = (⟨(j 0).val / 2304, by have : (j 0).val < 73728 := (j 0).isLt; omega⟩ : Fin 32) := Fin.ext hw.symm
  unfold outN
  rw [if_pos ⟨hj.1, by omega⟩]
  have hfi := fI_apply (F := F) d L ix fs (ix2 (⟨(j 0).val / 128 % 18, Nat.mod_lt _ (by decide)⟩ : Fin 18) (⟨(j 0).val % 128, Nat.mod_lt _ (by decide)⟩ : Fin 128))
  refine (congrArg (fun v : BitVec 32 => p (ix2 (⟨v.toNat % 4096, Nat.mod_lt _ (by decide)⟩ : Fin 4096) (j 1))) hfi).trans ?_
  exact congrArg (fun w : Fin 32 => p (ix2 (⟨((ix (ix3 w (⟨(j 0).val / 128 % 18, Nat.mod_lt _ (by decide)⟩ : Fin 18) (⟨(j 0).val % 128, Nat.mod_lt _ (by decide)⟩ : Fin 128)) : BitVec 32)
    + BitVec.ofNat 32 ((k3_baseb + w.val / 16) * 1024)).toNat % 4096, Nat.mod_lt _ (by decide)⟩ : Fin 4096) (j 1))) hwF

/-- The same, of the points-to. -/
theorem final_pts (p : S4096x128.Idx → Elt F .f32) (ix : S32x18x128.Idx → Elt F .i32) (fo : S73728x128.Idx → Elt F .f32)
    (fs : Buf (Elt F) ((sV).view.loc (thr d L))) :
    (g1Loc d ↦[oSet (wid L)]{fullShare} (outN p (addN (View.write (Elt F) (sV).view fs ((iSlabK L).view.read (Elt F) ix) Finset.univ) (k3_boffW L) (8 * 18)) fo
        ((wid L).val * 2304) 18 : Buf (Elt F) (g1Loc d)) : sProp 𝕄)
      = (g1Loc d ↦[oSet (wid L)]{fullShare} (gatherVal k3_baseb p ix : Buf (Elt F) (g1Loc d))) :=
  pointsTo_congr (final_val (F := F) d L p ix fo fs)

set_option maxHeartbeats 8000000 in
theorem trip_even (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k3_t3_loop.trips) (acc : BitVec 32) (hpar : k.val % 2 = 0) :
    inv3 (F := F) d L q p fI fo O W k.val acc
      ⊢ (wp frame (wpE (defs₀ (F := F)) 𝒱₀ (thr d L) none) Set.univ
          (k3_t3_body L pV (Memref.isWhole_whole _) iV (Memref.isWhole_whole _) oV (Memref.isWhole_whole _)
            sV (Memref.isWhole_whole _) aV (Memref.isWhole_whole _) bV (Memref.isWhole_whole _) cc3_scratch3 cc3_scratch4 cc3_scoped0 cc3_scoped1 cc3_scoped2 k acc)
          (inv3 (F := F) d L q p fI fo O W (k.val + 1)) : sProp 𝕄) := by
  have hk18 : k.val < 18 := Nat.lt_of_lt_of_le k.isLt k3_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)

  have hk1 : k.val + 1 < 18 := by omega
  have k3_h1 : k3_cond1 k = 1#1 := (cond1_iff k).mpr ⟨hpar, hk1⟩
  have k3_h2 : ¬ k3_cond2 k = 1#1 := fun h => by have := (cond2_iff k).mp h; omega
  have k3_h3 : k3_cond3 k = 1#1 := (cond3_iff k).mpr hpar
  have k3_h4 : ¬ k3_cond4 k = 1#1 := fun h => by have := (cond4_iff k).mp h; omega
  unfold inv3 slotF
  rw [if_pos hpar, if_pos hk18, if_neg (show ¬ (k.val + 1) % 2 = 0 by omega), if_pos hk1]
  iintro ⟨#Hmw, ⟨Hfl, ⟨%fb, Hb⟩, HpR, Hsem1⟩, Hsrest, Ho, HsemB, HsemC, %W', %hW', HO⟩
  sl_unfold [k3_t3_body]
  sl_exec
  -- the next chunk's gather: row k + 1 of the scratch out of the rest, the free buffer, its share, its semaphore
  have hoff := k3_off3_eq k
  have hsetk := set_offsK (k3_off3 k) (k3_off3_inb k k3_h1) (k.val + 1) hoff
  ihave H2 := (pointsTo_split_subset (q := fullShare) (f := (fI : Buf (Elt F) ((sV).view.loc (thr d L)))) (S := Finset.univ \ rowSet k.val)
    (rowSet_sub (k.val + 1) k.val (by omega))).1 $$ Hsrest
  icases H2 with ⟨Hrow, Hsrest⟩
  ihave Hrow' := (Entails.of_eq (show ((sV).view.loc (thr d L) ↦[rowSet (k.val + 1)]{fullShare} (fI : Buf (Elt F) ((sV).view.loc (thr d L))) : sProp 𝕄)
      = ((offsK (k3_off3 k) (k3_off3_inb k k3_h1)).view.loc (thr d L) ↦[(offsK (k3_off3 k) (k3_off3_inb k k3_h1)).view.set]{fullShare}
          (fI : Buf (Elt F) ((sV).view.loc (thr d L)))) by rw [hsetk])) $$ Hrow
  iapply (SparseCore.wp_indirectGatherLocal countersEmb 𝒱₀ (thr d L) none (hg := gathers_S4096x128_S128x128) (default : HIx 2)
      (bV).view.dmaCredit hNb (by decide) (hin_of (F := F) fI hfI _ _)) $$ [HpR Hb Hrow' Hsem1]
  · isplitl [HpR]; · iexact HpR
    isplitl [Hb]; · iexact Hb
    isplitl [Hrow']; · iexact Hrow'
    iexact Hsem1
  iintro Hfl1
  ihave Hfl1' := (Transfers.Flight_mono countersEmb (thr d L) (deliver_b (F := F) d L q.right p fI fb _ _ (k.val + 1) hoff hk1 _)) $$ Hfl1
  sl_exec
  -- the wait for chunk k, then its copy out
  ihave Hfl := (Entails.of_eq (slotP_eq (F := F) d L (aPts d L) cc3_scratch3.sem (aV).view.dmaCredit q.left p fI k.val)) $$ Hfl
  iapply (Transfers.wp_waitLocalO countersEmb 𝒱₀ (thr d L) none (default : HIx 2) (rfl : (aV).view.dmaCredit = _)) $$ [Hfl HO]
  · isplitl [Hfl]; · iexact Hfl
    isplitl [HO]; · iexact HO
    iapply (Transfers.MayWaits.elim (SemLoc.dma cc3_scratch3.sem)) $$ Hmw
  iintro ⟨HD, Hsem0, HO⟩
  ihave HD := (Entails.of_eq (slotD_eq (F := F) d L (aPts d L) q.left p fI k.val)) $$ HD
  icases HD with ⟨Ha, HpL, Hrowk⟩
  have hr : 4608 * (L 1).val + 2304 * (L 0).val + 128 * k.val = (wid L).val * 2304 + 128 * k.val := by
    have hw : (wid L).val = 2 * (L 1).val + (L 0).val := rfl
    omega
  have hoffc : k3_off6 L k = ![(wid L).val * 2304 + 128 * k.val, 0] := by rw [k3_off6_eq, hr]
  have hsetc := set_ochK (k3_off6 L k) (k3_off6_inb L k k3_h3) _ hoffc
  ihave Ho2 := (pointsTo_split_subset (ℓ := g1Loc d) (q := fullShare) (f := (outN p fI fo ((wid L).val * 2304) k.val : Buf (Elt F) (g1Loc d))) (I := chunkSet ((wid L).val * 2304 + 128 * k.val)) (S := oSet (wid L))
    (chunk_sub (wid L) k.val hk18)).1 $$ Ho
  icases Ho2 with ⟨Hch, Horest⟩
  ihave Hch' := (Entails.of_eq (show (g1Loc d ↦[chunkSet ((wid L).val * 2304 + 128 * k.val)]{fullShare} (outN p fI fo ((wid L).val * 2304) k.val : Buf (Elt F) (g1Loc d)) : sProp 𝕄)
      = ((ochK (k3_off6 L k) (k3_off6_inb L k k3_h3)).view.loc (thr d L) ↦[(ochK (k3_off6 L k) (k3_off6_inb L k k3_h3)).view.set]{fullShare}
          (outN p fI fo ((wid L).val * 2304) k.val : Buf (Elt F) (g1Loc d))) by rw [hsetc])) $$ Hch
  sl_exec
  sl_step
  ihave Hch2 := (Entails.of_eq ((pointsTo_congr (ℓ := (ochK (k3_off6 L k) (k3_off6_inb L k k3_h3)).view.loc (thr d L)) (q := fullShare)
        (out_hit (F := F) d L p fI fo (wid L).val k.val hk18 (k3_off6 L k) (k3_off6_inb L k k3_h3) hoffc _ (trip_even.sl.dma0 p fI k) rfl)).trans
      (show ((ochK (k3_off6 L k) (k3_off6_inb L k k3_h3)).view.loc (thr d L) ↦[(ochK (k3_off6 L k) (k3_off6_inb L k k3_h3)).view.set]{fullShare}
          (outN p fI fo ((wid L).val * 2304) (k.val + 1) : Buf (Elt F) (g1Loc d)) : sProp 𝕄)
        = (g1Loc d ↦[chunkSet ((wid L).val * 2304 + 128 * k.val)]{fullShare} (outN p fI fo ((wid L).val * 2304) (k.val + 1) : Buf (Elt F) (g1Loc d))) by rw [hsetc]))) $$ Hch'
  ihave Horest2 := (Entails.of_eq (pointsTo_congr (ℓ := g1Loc d) (q := fullShare) (I := oSet (wid L) \ chunkSet ((wid L).val * 2304 + 128 * k.val))
      (f := (outN p fI fo ((wid L).val * 2304) k.val : Buf (Elt F) (g1Loc d))) (g := (outN p fI fo ((wid L).val * 2304) (k.val + 1) : Buf (Elt F) (g1Loc d)))
      (fun j hj => out_miss (F := F) p fI fo ((wid L).val * 2304) k.val j (Finset.mem_sdiff.mp hj).2))) $$ Horest
  ihave Ho' := (pointsTo_split_subset (ℓ := g1Loc d) (q := fullShare) (f := (outN p fI fo ((wid L).val * 2304) (k.val + 1) : Buf (Elt F) (g1Loc d))) (I := chunkSet ((wid L).val * 2304 + 128 * k.val)) (S := oSet (wid L))
    (chunk_sub (wid L) k.val hk18)).2 $$ [Hch2 Horest2]
  · isplitl [Hch2] <;> iassumption

  -- the invariant at trip k + 1
  isplitl []; · iexact Hmw
  isplitl [Ha HpL Hsem0 Hfl1']
  · isplitl [Ha HpL Hsem0]
    · isplitl [Ha]; · iexists _; iexact Ha
      isplitl [HpL]; · iexact HpL
      iexact Hsem0
    iapply (Entails.of_eq (slotP_eq (F := F) d L (bPts d L) cc3_scratch4.sem (bV).view.dmaCredit q.right p fI (k.val + 1)).symm)
    iexact Hfl1'
  isplitl [Hrowk Hsrest]
  · iapply (rows_join (F := F) d L fI k.val (k.val + 1) (by omega))
    isplitl [Hsrest]; · iexact Hsrest
    iexact Hrowk
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 8000000 in
theorem trip_odd (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k3_t3_loop.trips) (acc : BitVec 32) (hpar : k.val % 2 = 1) (hk1 : k.val + 1 < 18) :
    inv3 (F := F) d L q p fI fo O W k.val acc
      ⊢ (wp frame (wpE (defs₀ (F := F)) 𝒱₀ (thr d L) none) Set.univ
          (k3_t3_body L pV (Memref.isWhole_whole _) iV (Memref.isWhole_whole _) oV (Memref.isWhole_whole _)
            sV (Memref.isWhole_whole _) aV (Memref.isWhole_whole _) bV (Memref.isWhole_whole _) cc3_scratch3 cc3_scratch4 cc3_scoped0 cc3_scoped1 cc3_scoped2 k acc)
          (inv3 (F := F) d L q p fI fo O W (k.val + 1)) : sProp 𝕄) := by
  have hk18 : k.val < 18 := Nat.lt_of_lt_of_le k.isLt k3_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)

  have hk1 : k.val + 1 < 18 := by omega
  have k3_h2 : k3_cond2 k = 1#1 := (cond2_iff k).mpr ⟨hpar, hk1⟩
  have k3_h1 : ¬ k3_cond1 k = 1#1 := fun h => by have := (cond1_iff k).mp h; omega
  have k3_h4 : k3_cond4 k = 1#1 := (cond4_iff k).mpr hpar
  have k3_h3 : ¬ k3_cond3 k = 1#1 := fun h => by have := (cond3_iff k).mp h; omega
  unfold inv3 slotF
  rw [if_neg (show ¬ k.val % 2 = 0 by omega), if_pos hk18, if_pos (show (k.val + 1) % 2 = 0 by omega), if_pos hk1]
  iintro ⟨#Hmw, ⟨⟨⟨%fa, Ha⟩, HpL, Hsem0⟩, Hfl⟩, Hsrest, Ho, HsemB, HsemC, %W', %hW', HO⟩
  sl_unfold [k3_t3_body]
  sl_exec
  -- the next chunk's gather: row k + 1 of the scratch out of the rest, the free buffer, its share, its semaphore
  have hoff := k3_off4_eq k
  have hsetk := set_offsK (k3_off4 k) (k3_off4_inb k k3_h2) (k.val + 1) hoff
  ihave H2 := (pointsTo_split_subset (q := fullShare) (f := (fI : Buf (Elt F) ((sV).view.loc (thr d L)))) (S := Finset.univ \ rowSet k.val)
    (rowSet_sub (k.val + 1) k.val (by omega))).1 $$ Hsrest
  icases H2 with ⟨Hrow, Hsrest⟩
  ihave Hrow' := (Entails.of_eq (show ((sV).view.loc (thr d L) ↦[rowSet (k.val + 1)]{fullShare} (fI : Buf (Elt F) ((sV).view.loc (thr d L))) : sProp 𝕄)
      = ((offsK (k3_off4 k) (k3_off4_inb k k3_h2)).view.loc (thr d L) ↦[(offsK (k3_off4 k) (k3_off4_inb k k3_h2)).view.set]{fullShare}
          (fI : Buf (Elt F) ((sV).view.loc (thr d L)))) by rw [hsetk])) $$ Hrow
  iapply (SparseCore.wp_indirectGatherLocal countersEmb 𝒱₀ (thr d L) none (hg := gathers_S4096x128_S128x128) (default : HIx 2)
      (aV).view.dmaCredit hNa (by decide) (hin_of (F := F) fI hfI _ _)) $$ [HpL Ha Hrow' Hsem0]
  · isplitl [HpL]; · iexact HpL
    isplitl [Ha]; · iexact Ha
    isplitl [Hrow']; · iexact Hrow'
    iexact Hsem0
  iintro Hfl1
  ihave Hfl1' := (Transfers.Flight_mono countersEmb (thr d L) (deliver_a (F := F) d L q.left p fI fa _ _ (k.val + 1) hoff hk1 _)) $$ Hfl1
  sl_exec
  -- the wait for chunk k, then its copy out
  ihave Hfl := (Entails.of_eq (slotP_eq (F := F) d L (bPts d L) cc3_scratch4.sem (bV).view.dmaCredit q.right p fI k.val)) $$ Hfl
  iapply (Transfers.wp_waitLocalO countersEmb 𝒱₀ (thr d L) none (default : HIx 2) (rfl : (bV).view.dmaCredit = _)) $$ [Hfl HO]
  · isplitl [Hfl]; · iexact Hfl
    isplitl [HO]; · iexact HO
    iapply (Transfers.MayWaits.elim (SemLoc.dma cc3_scratch4.sem)) $$ Hmw
  iintro ⟨HD, Hsem1, HO⟩
  ihave HD := (Entails.of_eq (slotD_eq (F := F) d L (bPts d L) q.right p fI k.val)) $$ HD
  icases HD with ⟨Hb, HpR, Hrowk⟩
  have hr : 4608 * (L 1).val + 2304 * (L 0).val + 128 * k.val = (wid L).val * 2304 + 128 * k.val := by
    have hw : (wid L).val = 2 * (L 1).val + (L 0).val := rfl
    omega
  have hoffc : k3_off8 L k = ![(wid L).val * 2304 + 128 * k.val, 0] := by rw [k3_off8_eq, hr]
  have hsetc := set_ochK (k3_off8 L k) (k3_off8_inb L k k3_h4) _ hoffc
  ihave Ho2 := (pointsTo_split_subset (ℓ := g1Loc d) (q := fullShare) (f := (outN p fI fo ((wid L).val * 2304) k.val : Buf (Elt F) (g1Loc d))) (I := chunkSet ((wid L).val * 2304 + 128 * k.val)) (S := oSet (wid L))
    (chunk_sub (wid L) k.val hk18)).1 $$ Ho
  icases Ho2 with ⟨Hch, Horest⟩
  ihave Hch' := (Entails.of_eq (show (g1Loc d ↦[chunkSet ((wid L).val * 2304 + 128 * k.val)]{fullShare} (outN p fI fo ((wid L).val * 2304) k.val : Buf (Elt F) (g1Loc d)) : sProp 𝕄)
      = ((ochK (k3_off8 L k) (k3_off8_inb L k k3_h4)).view.loc (thr d L) ↦[(ochK (k3_off8 L k) (k3_off8_inb L k k3_h4)).view.set]{fullShare}
          (outN p fI fo ((wid L).val * 2304) k.val : Buf (Elt F) (g1Loc d))) by rw [hsetc])) $$ Hch
  sl_exec
  sl_step
  ihave Hch2 := (Entails.of_eq ((pointsTo_congr (ℓ := (ochK (k3_off8 L k) (k3_off8_inb L k k3_h4)).view.loc (thr d L)) (q := fullShare)
        (out_hit (F := F) d L p fI fo (wid L).val k.val hk18 (k3_off8 L k) (k3_off8_inb L k k3_h4) hoffc _ (trip_odd.sl.dma0 p fI k) rfl)).trans
      (show ((ochK (k3_off8 L k) (k3_off8_inb L k k3_h4)).view.loc (thr d L) ↦[(ochK (k3_off8 L k) (k3_off8_inb L k k3_h4)).view.set]{fullShare}
          (outN p fI fo ((wid L).val * 2304) (k.val + 1) : Buf (Elt F) (g1Loc d)) : sProp 𝕄)
        = (g1Loc d ↦[chunkSet ((wid L).val * 2304 + 128 * k.val)]{fullShare} (outN p fI fo ((wid L).val * 2304) (k.val + 1) : Buf (Elt F) (g1Loc d))) by rw [hsetc]))) $$ Hch'
  ihave Horest2 := (Entails.of_eq (pointsTo_congr (ℓ := g1Loc d) (q := fullShare) (I := oSet (wid L) \ chunkSet ((wid L).val * 2304 + 128 * k.val))
      (f := (outN p fI fo ((wid L).val * 2304) k.val : Buf (Elt F) (g1Loc d))) (g := (outN p fI fo ((wid L).val * 2304) (k.val + 1) : Buf (Elt F) (g1Loc d)))
      (fun j hj => out_miss (F := F) p fI fo ((wid L).val * 2304) k.val j (Finset.mem_sdiff.mp hj).2))) $$ Horest
  ihave Ho' := (pointsTo_split_subset (ℓ := g1Loc d) (q := fullShare) (f := (outN p fI fo ((wid L).val * 2304) (k.val + 1) : Buf (Elt F) (g1Loc d))) (I := chunkSet ((wid L).val * 2304 + 128 * k.val)) (S := oSet (wid L))
    (chunk_sub (wid L) k.val hk18)).2 $$ [Hch2 Horest2]
  · isplitl [Hch2] <;> iassumption

  -- the invariant at trip k + 1
  isplitl []; · iexact Hmw
  isplitl [Hb HpR Hsem1 Hfl1']
  · isplitl [Hfl1']
    · iapply (Entails.of_eq (slotP_eq (F := F) d L (aPts d L) cc3_scratch3.sem (aV).view.dmaCredit q.left p fI (k.val + 1)).symm)
      iexact Hfl1'
    isplitl [Hb]; · iexists _; iexact Hb
    isplitl [HpR]; · iexact HpR
    iexact Hsem1
  isplitl [Hrowk Hsrest]
  · iapply (rows_join (F := F) d L fI k.val (k.val + 1) (by omega))
    isplitl [Hsrest]; · iexact Hsrest
    iexact Hrowk
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 8000000 in
theorem trip_last (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k3_t3_loop.trips) (acc : BitVec 32) (hpar : k.val % 2 = 1) (hk1 : ¬ k.val + 1 < 18) :
    inv3 (F := F) d L q p fI fo O W k.val acc
      ⊢ (wp frame (wpE (defs₀ (F := F)) 𝒱₀ (thr d L) none) Set.univ
          (k3_t3_body L pV (Memref.isWhole_whole _) iV (Memref.isWhole_whole _) oV (Memref.isWhole_whole _)
            sV (Memref.isWhole_whole _) aV (Memref.isWhole_whole _) bV (Memref.isWhole_whole _) cc3_scratch3 cc3_scratch4 cc3_scoped0 cc3_scoped1 cc3_scoped2 k acc)
          (inv3 (F := F) d L q p fI fo O W (k.val + 1)) : sProp 𝕄) := by
  have hk18 : k.val < 18 := Nat.lt_of_lt_of_le k.isLt k3_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)
  have k3_h1 : ¬ k3_cond1 k = 1#1 := fun h => by have := (cond1_iff k).mp h; omega
  have k3_h2 : ¬ k3_cond2 k = 1#1 := fun h => by have := (cond2_iff k).mp h; omega
  have k3_h3 : ¬ k3_cond3 k = 1#1 := fun h => by have := (cond3_iff k).mp h; omega
  have k3_h4 : k3_cond4 k = 1#1 := (cond4_iff k).mpr hpar
  unfold inv3 slotF
  rw [if_neg (show ¬ k.val % 2 = 0 by omega), if_pos hk18, if_pos (show (k.val + 1) % 2 = 0 by omega), if_neg hk1]
  iintro ⟨#Hmw, ⟨⟨⟨%fa, Ha⟩, HpL, Hsem0⟩, Hfl⟩, Hsrest, Ho, HsemB, HsemC, %W', %hW', HO⟩
  sl_unfold [k3_t3_body]
  sl_exec
  -- the wait for chunk k, then its copy out
  ihave Hfl := (Entails.of_eq (slotP_eq (F := F) d L (bPts d L) cc3_scratch4.sem (bV).view.dmaCredit q.right p fI k.val)) $$ Hfl
  iapply (Transfers.wp_waitLocalO countersEmb 𝒱₀ (thr d L) none (default : HIx 2) (rfl : (bV).view.dmaCredit = _)) $$ [Hfl HO]
  · isplitl [Hfl]; · iexact Hfl
    isplitl [HO]; · iexact HO
    iapply (Transfers.MayWaits.elim (SemLoc.dma cc3_scratch4.sem)) $$ Hmw
  iintro ⟨HD, Hsem1, HO⟩
  ihave HD := (Entails.of_eq (slotD_eq (F := F) d L (bPts d L) q.right p fI k.val)) $$ HD
  icases HD with ⟨Hb, HpR, Hrowk⟩
  have hr : 4608 * (L 1).val + 2304 * (L 0).val + 128 * k.val = (wid L).val * 2304 + 128 * k.val := by
    have hw : (wid L).val = 2 * (L 1).val + (L 0).val := rfl
    omega
  have hoffc : k3_off8 L k = ![(wid L).val * 2304 + 128 * k.val, 0] := by rw [k3_off8_eq, hr]
  have hsetc := set_ochK (k3_off8 L k) (k3_off8_inb L k k3_h4) _ hoffc
  ihave Ho2 := (pointsTo_split_subset (ℓ := g1Loc d) (q := fullShare) (f := (outN p fI fo ((wid L).val * 2304) k.val : Buf (Elt F) (g1Loc d))) (I := chunkSet ((wid L).val * 2304 + 128 * k.val)) (S := oSet (wid L))
    (chunk_sub (wid L) k.val hk18)).1 $$ Ho
  icases Ho2 with ⟨Hch, Horest⟩
  ihave Hch' := (Entails.of_eq (show (g1Loc d ↦[chunkSet ((wid L).val * 2304 + 128 * k.val)]{fullShare} (outN p fI fo ((wid L).val * 2304) k.val : Buf (Elt F) (g1Loc d)) : sProp 𝕄)
      = ((ochK (k3_off8 L k) (k3_off8_inb L k k3_h4)).view.loc (thr d L) ↦[(ochK (k3_off8 L k) (k3_off8_inb L k k3_h4)).view.set]{fullShare}
          (outN p fI fo ((wid L).val * 2304) k.val : Buf (Elt F) (g1Loc d))) by rw [hsetc])) $$ Hch
  sl_exec
  sl_step
  ihave Hch2 := (Entails.of_eq ((pointsTo_congr (ℓ := (ochK (k3_off8 L k) (k3_off8_inb L k k3_h4)).view.loc (thr d L)) (q := fullShare)
        (out_hit (F := F) d L p fI fo (wid L).val k.val hk18 (k3_off8 L k) (k3_off8_inb L k k3_h4) hoffc _ (trip_last.sl.dma0 p fI k) rfl)).trans
      (show ((ochK (k3_off8 L k) (k3_off8_inb L k k3_h4)).view.loc (thr d L) ↦[(ochK (k3_off8 L k) (k3_off8_inb L k k3_h4)).view.set]{fullShare}
          (outN p fI fo ((wid L).val * 2304) (k.val + 1) : Buf (Elt F) (g1Loc d)) : sProp 𝕄)
        = (g1Loc d ↦[chunkSet ((wid L).val * 2304 + 128 * k.val)]{fullShare} (outN p fI fo ((wid L).val * 2304) (k.val + 1) : Buf (Elt F) (g1Loc d))) by rw [hsetc]))) $$ Hch'
  ihave Horest2 := (Entails.of_eq (pointsTo_congr (ℓ := g1Loc d) (q := fullShare) (I := oSet (wid L) \ chunkSet ((wid L).val * 2304 + 128 * k.val))
      (f := (outN p fI fo ((wid L).val * 2304) k.val : Buf (Elt F) (g1Loc d))) (g := (outN p fI fo ((wid L).val * 2304) (k.val + 1) : Buf (Elt F) (g1Loc d)))
      (fun j hj => out_miss (F := F) p fI fo ((wid L).val * 2304) k.val j (Finset.mem_sdiff.mp hj).2))) $$ Horest
  ihave Ho' := (pointsTo_split_subset (ℓ := g1Loc d) (q := fullShare) (f := (outN p fI fo ((wid L).val * 2304) (k.val + 1) : Buf (Elt F) (g1Loc d))) (I := chunkSet ((wid L).val * 2304 + 128 * k.val)) (S := oSet (wid L))
    (chunk_sub (wid L) k.val hk18)).2 $$ [Hch2 Horest2]
  · isplitl [Hch2] <;> iassumption

  isplitl []; · iexact Hmw
  isplitl [Ha HpL Hsem0 Hb HpR Hsem1]
  · isplitl [Ha HpL Hsem0]
    · isplitl [Ha]; · iexists _; iexact Ha
      isplitl [HpL]; · iexact HpL
      iexact Hsem0
    isplitl [Hb]; · iexists _; iexact Hb
    isplitl [HpR]; · iexact HpR
    iexact Hsem1
  isplitl [Hrowk Hsrest]
  · iapply (rows_last (F := F) d L fI k.val (by omega))
    isplitl [Hrowk]; · iexact Hrowk
    iexact Hsrest
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 4000000 in
/-- The chunk phase: the first gather's issue and the eighteen trips. -/
theorem chunk_phase (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096)
    (fa : Buf (Elt F) ((aV).view.loc (thr d L))) (fb : Buf (Elt F) ((bV).view.loc (thr d L))) :
    iprop(Transfers.MayWaits (thr d L) (default : HIx 2) O
        ∗ ((pV).view.loc (thr d L) ↦{q} (p : Buf (Elt F) ((pV).view.loc (thr d L))))
        ∗ ((sV).view.loc (thr d L) ↦{fullShare} (fI : Buf (Elt F) ((sV).view.loc (thr d L))))
        ∗ ((aV).view.loc (thr d L) ↦{fullShare} fa) ∗ ((bV).view.loc (thr d L) ↦{fullShare} fb)
        ∗ (g1Loc d ↦[oSet (wid L)]{fullShare} (fo : Buf (Elt F) (g1Loc d)))
        ∗ semVal (thr d L, SemLoc.dma cc3_scratch3.sem) 0 ∗ semVal (thr d L, SemLoc.dma cc3_scratch4.sem) 0
        ∗ semVal (thr d L, SemLoc.dma cc3_scoped1.sem) 0 ∗ semVal (thr d L, SemLoc.dma cc3_scoped2.sem) 0
        ∗ owes (thr d L) O W)
      ⊢ (wp frame (wpE (defs₀ (F := F)) 𝒱₀ (thr d L) none) Set.univ
          (do
            SparseCore.enqueueIndirectGather rfl (pAllK) aV gathers_S4096x128_S128x128 (offsK ![0, 0] inb_S18x128_S1x128_0_0) rfl
              cc3_scratch3.sem (View.wordExact_bits rfl) rfl (Or.inl rfl)
            let _ ← Scf.Loop.for k3_t3_loop k3_t3_ok 0#32 (k3_t3_body L pV (Memref.isWhole_whole _) iV (Memref.isWhole_whole _) oV (Memref.isWhole_whole _)
              sV (Memref.isWhole_whole _) aV (Memref.isWhole_whole _) bV (Memref.isWhole_whole _) cc3_scratch3 cc3_scratch4 cc3_scoped0 cc3_scoped1 cc3_scoped2)
            pure PUnit.unit)
          fun _ => iprop(((pV).view.loc (thr d L) ↦{q} (p : Buf (Elt F) ((pV).view.loc (thr d L))))
            ∗ ((sV).view.loc (thr d L) ↦{fullShare} (fI : Buf (Elt F) ((sV).view.loc (thr d L))))
            ∗ (∃ f, (aV).view.loc (thr d L) ↦{fullShare} f) ∗ (∃ f, (bV).view.loc (thr d L) ↦{fullShare} f)
            ∗ (g1Loc d ↦[oSet (wid L)]{fullShare} (outN p fI fo ((wid L).val * 2304) 18 : Buf (Elt F) (g1Loc d)))
            ∗ semVal (thr d L, SemLoc.dma cc3_scratch3.sem) 0 ∗ semVal (thr d L, SemLoc.dma cc3_scratch4.sem) 0
            ∗ semVal (thr d L, SemLoc.dma cc3_scoped1.sem) 0 ∗ semVal (thr d L, SemLoc.dma cc3_scoped2.sem) 0
            ∗ ∃ W', ⌜∀ x ∈ W', x ∈ W ∨ x.2 = none⌝ ∗ owes (thr d L) O W') : sProp 𝕄) := by
  iintro ⟨#Hmw, Hp, Hs, Ha, Hb, Ho, Hsem0, Hsem1, HsemB, HsemC, HO⟩
  ihave Hp2 := (pointsTo_share (PosShare.mem_left_op_right q)).1 $$ Hp
  icases Hp2 with ⟨HpL, HpR⟩
  ihave HpL2 := (pointsTo_split_subset (q := q.left) (f := (p : Buf (Elt F) ((pV).view.loc (thr d L)))) (S := Finset.univ) (Finset.subset_univ (pAllK).view.set)).1 $$ HpL
  icases HpL2 with ⟨HpL, HpLr⟩
  ihave HpR2 := (pointsTo_split_subset (q := q.right) (f := (p : Buf (Elt F) ((pV).view.loc (thr d L)))) (S := Finset.univ) (Finset.subset_univ (pAllK).view.set)).1 $$ HpR
  icases HpR2 with ⟨HpR, HpRr⟩
  ihave Hs2 := (pointsTo_split_subset (q := fullShare) (f := (fI : Buf (Elt F) ((sV).view.loc (thr d L)))) (S := Finset.univ) (Finset.subset_univ (rowSet 0))).1 $$ Hs
  icases Hs2 with ⟨Hrow, Hsrest⟩
  have hset0 := set_offsK ![0, 0] inb_S18x128_S1x128_0_0 0 rfl
  ihave Hrow' := (Entails.of_eq (show ((sV).view.loc (thr d L) ↦[rowSet 0]{fullShare} (fI : Buf (Elt F) ((sV).view.loc (thr d L))) : sProp 𝕄)
      = ((offsK ![0, 0] inb_S18x128_S1x128_0_0).view.loc (thr d L) ↦[(offsK ![0, 0] inb_S18x128_S1x128_0_0).view.set]{fullShare} (fI : Buf (Elt F) ((sV).view.loc (thr d L)))) by rw [hset0])) $$ Hrow
  have has : (aV).view.set = Finset.univ := View.set_whole _
  have hbs : (bV).view.set = Finset.univ := View.set_whole _
  ihave Ha' := (Entails.of_eq (show ((aV).view.loc (thr d L) ↦{fullShare} fa : sProp 𝕄) = (aV).view.loc (thr d L) ↦[(aV).view.set]{fullShare} fa by rw [has])) $$ Ha
  ihave Hb' := (Entails.of_eq (show ((bV).view.loc (thr d L) ↦{fullShare} fb : sProp 𝕄) = (bV).view.loc (thr d L) ↦[(bV).view.set]{fullShare} fb by rw [hbs])) $$ Hb
  ihave Ho0 := (Entails.of_eq (show (g1Loc d ↦[oSet (wid L)]{fullShare} (fo : Buf (Elt F) (g1Loc d)) : sProp 𝕄)
      = (g1Loc d ↦[oSet (wid L)]{fullShare} (outN p fI fo ((wid L).val * 2304) 0 : Buf (Elt F) (g1Loc d))) by rw [outN_zero])) $$ Ho
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)
  iapply (SparseCore.wp_indirectGatherLocal countersEmb 𝒱₀ (thr d L) none (hg := gathers_S4096x128_S128x128) (default : HIx 2)
      (aV).view.dmaCredit hNa (by decide) (hin_of (F := F) fI hfI _ _)) $$ [HpL Ha' Hrow' Hsem0]
  · isplitl [HpL]; · iexact HpL
    isplitl [Ha']; · iexact Ha'
    isplitl [Hrow']; · iexact Hrow'
    iexact Hsem0
  iintro Hfl
  ihave Hfl' := (Transfers.Flight_mono countersEmb (thr d L) (deliver_a (F := F) d L q.left p fI fa _ _ 0 rfl (by decide) _)) $$ Hfl
  first | sl_exec | skip
  sl_for (inv3 (F := F) d L q p fI fo O W) $$ [Hfl' Hb' HpR Hsem1 Hsrest Ho0 HsemB HsemC HO]
  case region =>
    intro k acc
    rcases Nat.mod_two_eq_zero_or_one k.val with hpar | hpar
    · exact trip_even (F := F) d L O W q p fI fo hfI k acc hpar
    · by_cases hk1 : k.val + 1 < 18
      · exact trip_odd (F := F) d L O W q p fI fo hfI k acc hpar hk1
      · exact trip_last (F := F) d L O W q p fI fo hfI k acc hpar hk1
  · unfold inv3 slotF
    rw [if_pos (show (0 : ℕ) % 2 = 0 by decide), if_pos (show (0 : ℕ) < 18 by decide)]
    isplitl []; · iexact Hmw
    isplitl [Hfl' Hb' HpR Hsem1]
    · isplitl [Hfl']
      · iapply (Entails.of_eq (slotP_eq (F := F) d L (aPts d L) cc3_scratch3.sem (aV).view.dmaCredit q.left p fI 0).symm)
        iexact Hfl'
      isplitl [Hb']; · iexists _; iexact Hb'
      isplitl [HpR]; · iexact HpR
      iexact Hsem1
    isplitl [Hsrest]; · iexact Hsrest
    isplitl [Ho0]; · iexact Ho0
    isplitl [HsemB]; · iexact HsemB
    isplitl [HsemC]; · iexact HsemC
    iexists W; isplitr
    · ipureintro; exact fun x hx => .inl hx
    · iexact HO
  iintro %acc HI
  rw [trips_t3]
  unfold inv3 slotF
  rw [if_pos (show (18 : ℕ) % 2 = 0 by decide), if_neg (show ¬ (18 : ℕ) < 18 by decide)]
  icases HI with ⟨-, ⟨⟨⟨%fa', Ha⟩, HpL, Hsem0⟩, ⟨%fb', Hb⟩, HpR, Hsem1⟩, Hs, Ho, HsemB, HsemC, %W', %hW', HO⟩
  first | sl_exec | skip
  sl_step
  ihave HpLj := (pointsTo_split_subset (ℓ := (pV).view.loc (thr d L)) (q := q.left) (f := (p : Buf (Elt F) ((pV).view.loc (thr d L)))) (I := (pAllK).view.set) (S := Finset.univ) (Finset.subset_univ _)).2 $$ [HpL HpLr]
  · isplitl [HpL] <;> iassumption
  ihave HpRj := (pointsTo_split_subset (ℓ := (pV).view.loc (thr d L)) (q := q.right) (f := (p : Buf (Elt F) ((pV).view.loc (thr d L)))) (I := (pAllK).view.set) (S := Finset.univ) (Finset.subset_univ _)).2 $$ [HpR HpRr]
  · isplitl [HpR] <;> iassumption
  ihave Hpj := (pointsTo_share (ℓ := (pV).view.loc (thr d L)) (I := Finset.univ) (f := (p : Buf (Elt F) ((pV).view.loc (thr d L)))) (PosShare.mem_left_op_right q)).2 $$ [HpLj HpRj]
  · isplitl [HpLj] <;> iassumption
  isplitl [Hpj]; · iexact Hpj
  isplitl [Hs]
  · iapply (Entails.of_eq (show ((sV).view.loc (thr d L) ↦[Finset.univ \ rowSet 18]{fullShare} (fI : Buf (Elt F) ((sV).view.loc (thr d L))) : sProp 𝕄)
        = ((sV).view.loc (thr d L) ↦{fullShare} (fI : Buf (Elt F) ((sV).view.loc (thr d L)))) by rw [rowSet_ge 18 (le_refl _), Finset.sdiff_empty]))
    iexact Hs
  isplitl [Ha]
  · iexists fa'
    iapply (Entails.of_eq (show ((aV).view.loc (thr d L) ↦[(aV).view.set]{fullShare} fa' : sProp 𝕄) = (aV).view.loc (thr d L) ↦{fullShare} fa' by rw [has]))
    iexact Ha
  isplitl [Hb]
  · iexists fb'
    iapply (Entails.of_eq (show ((bV).view.loc (thr d L) ↦[(bV).view.set]{fullShare} fb' : sProp 𝕄) = (bV).view.loc (thr d L) ↦{fullShare} fb' by rw [hbs]))
    iexact Hb
  isplitl [Ho]; · iexact Ho
  isplitl [Hsem0]; · iexact Hsem0
  isplitl [Hsem1]; · iexact Hsem1
  isplitl [HsemB]; · iexact HsemB
  isplitl [HsemC]; · iexact HsemC
  iexists W'; isplitr
  · ipureintro; exact hW'
  · iexact HO

set_option maxHeartbeats 4000000 in
theorem tile_body (hF : (K (F := F)).Facts) (O : CellTallies nD τ sig (HIx 2)) (W : Waits sig (HIx 2)) (hO : ∀ g, O g none = 0)
    (q : PosShare TreeShare) (p : Buf (Elt F) (pLoc d)) (ix : Buf (Elt F) (i1Loc d)) (fo : Buf (Elt F) (g1Loc d))
    (hix : ∀ j : S32x18x128.Idx, ((ix j : BitVec 32)).toNat < 1024) :
    iprop(levAts (K (F := F)).L (K (F := F)).lev
        ∗ ((pLoc d ↦{q} p) ∗ (i1Loc d ↦[iSet (wid L)]{fullShare} ix) ∗ (g1Loc d ↦[oSet (wid L)]{fullShare} fo))
        ∗ scopedBufs (thr d L) ∗ scopedSems0 (thr d L) ∗ owes (thr d L) O W)
      ⊢ (wp frame (wpE (defs₀ (F := F)) 𝒱₀ (thr d L) none) Set.univ
          (cc3_gk L pV (Memref.isWhole_whole _) iV (Memref.isWhole_whole _) oV (Memref.isWhole_whole _)
            sV (Memref.isWhole_whole _) aV (Memref.isWhole_whole _) bV (Memref.isWhole_whole _)
            cc3_scratch3 cc3_scratch4 cc3_scoped0 cc3_scoped1 cc3_scoped2)
          fun _ => iprop(((pLoc d ↦{q} p) ∗ (i1Loc d ↦[iSet (wid L)]{fullShare} ix) ∗ (g1Loc d ↦[oSet (wid L)]{fullShare} gatherVal k3_baseb p ix))
            ∗ scopedBufs (thr d L) ∗ scopedSems0 (thr d L)
            ∗ ∃ W', ⌜∀ x ∈ W', x ∈ W ∨ x.2 = none⌝ ∗ owes (thr d L) O W') : sProp 𝕄) := by
  simp only [cc3_gk_eq_skeleton]; unfold cc3_gk_skel
  rw [(K (F := F)).scopedBufs_V hF d (cV L) (jV L), SparseCore.Cfg.scopedSems0_V (Val := Elt F) d (cV L) (jV L), ownSems0_V, ownBufs_V]
  iintro ⟨#Hlv, ⟨Hp, Hi, Ho⟩, ⟨⟨%fs, Hs⟩, ⟨%fa, Ha⟩, ⟨%fb, Hb⟩, Hbufs⟩, ⟨Hsem0, Hsem1, HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  ihave Hi' := (Entails.of_eq (pts_iSlabK (F := F) d L _).symm) $$ Hi
  ihave Hp' := (Entails.of_eq (pts_pV (F := F) d L _ _).symm) $$ Hp
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  sl_unfold [k3_part1]
  sl_exec
  sl_rw [Prog.bind_assoc]
  sl_for (invOut (F := F) d L (View.write (Elt F) (sV).view fs (tile_body.sl.dma0 d L ix) Finset.univ) (tile_body.sl.v21 L)) $$ [Hs']
  case region =>
    intro k acc
    unfold invOut
    iintro Hs
    sl_exec
    sl_for (invIn (F := F) d L (View.write (Elt F) (sV).view fs (tile_body.sl.dma0 d L ix) Finset.univ) (tile_body.sl.v21 L) k.val) $$ [Hs]
    case region =>
      intro k2 acc2
      unfold invIn
      iintro Hs
      sl_exec
      sl_step
      irw [← add_step (F := F) _ _ k k2]
      iexact Hs
    · unfold invIn; iexact Hs
    iintro %acc3 HI
    unfold invIn
    sl_exec
    sl_step
    rw [trips_t2, show 8 * k.val + 8 = 8 * (k.val + 1) by omega]
    iexact HI
  · unfold invOut; rw [addN_zero]; iexact Hs'
  iintro %acc4 HI
  unfold invOut
  rw [trips_t1]
  sl_exec
  have hb : ∀ i : grid3.Coords, tile_body.sl.v21 i = k3_boffW i := by decide +kernel
  have hd : tile_body.sl.dma0 d L ix = (iSlabK L).view.read (Elt F) ix := rfl
  rw [hb L, hd]
  have hfI := fI_lt (F := F) d L ix hix fs
  iapply (wp_wand_r Idealize.ShloMosaic.frame _ _)
  isplitl [Hp' HI Ha' Hb' Ho Hsem0 Hsem1 HsemB HsemC HO]
  · iapply (chunk_phase (F := F) d L O _ q p _ fo hfI fa fb)
    isplitl []; · iexact Hmw
    isplitl [Hp']; · iexact Hp'
    isplitl [HI]; · iexact HI
    isplitl [Ha']; · iexact Ha'
    isplitl [Hb']; · iexact Hb'
    isplitl [Ho]; · iexact Ho
    isplitl [Hsem0]; · iexact Hsem0
    isplitl [Hsem1]; · iexact Hsem1
    isplitl [HsemB]; · iexact HsemB
    isplitl [HsemC]; · iexact HsemC
    iexact HO
  iintro %_ ⟨Hp, Hs, ⟨%fa2, Ha⟩, ⟨%fb2, Hb⟩, Ho, Hsem0, Hsem1, HsemB, HsemC, %W', %hW', HO⟩
  isplitl [Hp Hi' Ho]
  · isplitl [Hp]; · iapply (Entails.of_eq (pts_pV (F := F) d L _ _)); iexact Hp
    isplitl [Hi']; · iapply (Entails.of_eq (pts_iSlabK (F := F) d L _)); iexact Hi'
    iapply (Entails.of_eq (final_pts (F := F) d L p ix fo fs))
    iexact Ho
  isplitl [Hs Ha Hb Hbufs]
  · isplitl [Hs]; · iexists _; iexact Hs
    isplitl [Ha]; · iexists _; iexact Ha
    isplitl [Hb]; · iexists _; iexact Hb
    iexact Hbufs
  isplitl [Hsem0 Hsem1 HsemA HsemB HsemC Hsems]
  · isplitl [Hsem0]; · iexact Hsem0
    isplitl [Hsem1]; · iexact Hsem1
    isplitl [HsemA]; · iexact HsemA
    isplitl [HsemB]; · iexact HsemB
    isplitl [HsemC]; · iexact HsemC
    iexact Hsems
  iexists _; isplitr
  swap; · iexact HO
  ipureintro; intro x hx
  rcases hW' x hx with hx | hx
  · rcases Finset.mem_insert.mp hx with hx | hx
    · exact .inr (hx ▸ rfl)
    · exact .inl hx
  · exact .inr hx

end Tile

end Cert.KernelIdeal.ScTile3

end
-- ==== Proof.KBridge.lean ====
/-
  The bridge between the kernel program's run and its result as a function of the argument arrays.

  Along @main the arrays go through eleven valuations: six stretches of host operations, three kernel regions, two
  gather calls. Here each stretch is read over ANY contents at its entry (what it writes, what it keeps, and the
  value it leaves in each array a later stage reads), the three regions' results are stated as functions of the
  valuation at their entry, and the chain is composed: the index lists and the projected table the gather calls
  read, the two halves of the layer, and the program's result, each a pure term of the launch memory. Last, every
  index the gather calls read is an entry of the neighbour-index argument, so it names a node whenever every entry
  of that argument does.
-/
import proofs.«215572_g25211458027672_cont_9to1_2008_46_alg».proof.Proof.KMainB
import proofs.«215572_g25211458027672_cont_9to1_2008_46_alg».proof.Proof.KOuts
import proofs.«215572_g25211458027672_cont_9to1_2008_46_alg».proof.Proof.KHostVal
import proofs.«215572_g25211458027672_cont_9to1_2008_46_alg».proof.Proof.KResDef
import proofs.«215572_g25211458027672_cont_9to1_2008_46_alg».proof.Proof.KConst
import proofs.«215572_g25211458027672_cont_9to1_2008_46_alg».proof.Proof.SkeletonKernelIdeal

noncomputable section

namespace Cert.KernelIdeal.KMain

open Cert.KernelIdeal Cert.KernelIdeal.Gen Cert.KernelIdeal.KS Cert.KernelIdeal.KPay Cert.KernelIdeal.HostVal

open Idealize.ShloMosaic
open Idealize.ShloMosaic.SparseCore (S V T)
open Idealize.ShloMosaic.ValueIdx
open Idealize.ShloMosaic.StableHlo (after)

variable {F : FTy → Type} [FloatOps F] [Named F]

/-! ## What each stretch of host operations writes, and what it keeps -/

theorem wsub {Wl : List (Ref sig .tc)} {op : HloOp τ sig (Elt F)} (y : Ref sig .tc)
    (hw : op.writes = {Proc.devRef .tc y}) (hy : y ∈ Wl) :
    op.writes ⊆ (Wl.map (Proc.devRef (τ := τ) .tc)).toFinset := by
  rw [hw, Finset.singleton_subset_iff, List.mem_toFinset]
  exact List.mem_map.mpr ⟨y, hy, rfl⟩

/-- The arrays stretch A writes. -/
abbrev wrA : List (Ref sig .tc) :=
  [main_v0, main_v1, main_v2, main_v3, main_v4, main_v5, main_v6, main_v7, main_v8, main_v9, main_v10, main_v11, main_c, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_call0.v15.ref, main_v13, main_v14, main_v15, main_v16, main_v17, main_v18, main_v19, main_v20, main_v21]

set_option maxRecDepth 8192 in
theorem wA_own : (opsA (F := F)).Forall fun op => op.writes ⊆ (wrA.map (Proc.devRef (τ := τ) .tc)).toFinset := by
  unfold opsA
  exact ⟨wsub main_v0 rfl (by decide),
    wsub main_v1 rfl (by decide),
    wsub main_v2 rfl (by decide),
    wsub main_v3 rfl (by decide),
    wsub main_v4 rfl (by decide),
    wsub main_v5 rfl (by decide),
    wsub main_v6 rfl (by decide),
    wsub main_v7 rfl (by decide),
    wsub main_v8 rfl (by decide),
    wsub main_v9 rfl (by decide),
    wsub main_v10 rfl (by decide),
    wsub main_v11 rfl (by decide),
    wsub main_c rfl (by decide),
    wsub (main_call0.v0.ref) rfl (by decide),
    wsub (main_call0.c.ref) rfl (by decide),
    wsub (main_call0.v1.ref) rfl (by decide),
    wsub (main_call0.c_0.ref) rfl (by decide),
    wsub (main_call0.call0.v0.ref) rfl (by decide),
    wsub (main_call0.v3.ref) rfl (by decide),
    wsub (main_call0.v4.ref) rfl (by decide),
    wsub (main_call0.c_1.ref) rfl (by decide),
    wsub (main_call0.v5.ref) rfl (by decide),
    wsub (main_call0.v6.ref) rfl (by decide),
    wsub (main_call0.c_2.ref) rfl (by decide),
    wsub (main_call0.v7.ref) rfl (by decide),
    wsub (main_call0.v8.ref) rfl (by decide),
    wsub (main_call0.c_3.ref) rfl (by decide),
    wsub (main_call0.v9.ref) rfl (by decide),
    wsub (main_call0.v10.ref) rfl (by decide),
    wsub (main_call0.v11.ref) rfl (by decide),
    wsub (main_call0.v12.ref) rfl (by decide),
    wsub (main_call0.v13.ref) rfl (by decide),
    wsub (main_call0.v14.ref) rfl (by decide),
    wsub (main_call0.v15.ref) rfl (by decide),
    wsub main_v13 rfl (by decide),
    wsub main_v14 rfl (by decide),
    wsub main_v15 rfl (by decide),
    wsub main_v16 rfl (by decide),
    wsub main_v17 rfl (by decide),
    wsub main_v18 rfl (by decide),
    wsub main_v19 rfl (by decide),
    wsub main_v20 rfl (by decide),
    wsub main_v21 rfl (by decide)⟩

/-- An array stretch A does not write keeps its contents through it. -/
theorem keepA (W : Valuation τ sig (Elt F)) (r : Ref sig .tc) (hr : r ∉ wrA) :
    after (opsA (F := F)) W (rV r) = W (rV r) :=
  StableHlo.after_of_writes_sub (opsA (F := F)) W wA_own hr

/-- The arrays stretch B writes. -/
abbrev wrB : List (Ref sig .tc) :=
  [main_v23, main_v24]

set_option maxRecDepth 8192 in
theorem wB_own : (opsB (F := F)).Forall fun op => op.writes ⊆ (wrB.map (Proc.devRef (τ := τ) .tc)).toFinset := by
  unfold opsB
  exact ⟨wsub main_v23 rfl (by decide),
    wsub main_v24 rfl (by decide)⟩

/-- An array stretch B does not write keeps its contents through it. -/
theorem keepB (W : Valuation τ sig (Elt F)) (r : Ref sig .tc) (hr : r ∉ wrB) :
    after (opsB (F := F)) W (rV r) = W (rV r) :=
  StableHlo.after_of_writes_sub (opsB (F := F)) W wB_own hr

/-- The arrays stretch C writes. -/
abbrev wrC : List (Ref sig .tc) :=
  [main_v26, main_v27, main_v28, main_v29, main_v30, main_v31, main_v32, main_v33, main_v34, main_v35, main_v36, main_v37, main_v38, main_v39, main_v40]

set_option maxRecDepth 8192 in
theorem wC_own : (opsC (F := F)).Forall fun op => op.writes ⊆ (wrC.map (Proc.devRef (τ := τ) .tc)).toFinset := by
  unfold opsC
  exact ⟨wsub main_v26 rfl (by decide),
    wsub main_v27 rfl (by decide),
    wsub main_v28 rfl (by decide),
    wsub main_v29 rfl (by decide),
    wsub main_v30 rfl (by decide),
    wsub main_v31 rfl (by decide),
    wsub main_v32 rfl (by decide),
    wsub main_v33 rfl (by decide),
    wsub main_v34 rfl (by decide),
    wsub main_v35 rfl (by decide),
    wsub main_v36 rfl (by decide),
    wsub main_v37 rfl (by decide),
    wsub main_v38 rfl (by decide),
    wsub main_v39 rfl (by decide),
    wsub main_v40 rfl (by decide)⟩

/-- An array stretch C does not write keeps its contents through it. -/
theorem keepC (W : Valuation τ sig (Elt F)) (r : Ref sig .tc) (hr : r ∉ wrC) :
    after (opsC (F := F)) W (rV r) = W (rV r) :=
  StableHlo.after_of_writes_sub (opsC (F := F)) W wC_own hr

/-- The arrays stretch D writes. -/
abbrev wrD : List (Ref sig .tc) :=
  [main_v42, main_v43]

set_option maxRecDepth 8192 in
theorem wD_own : (opsD (F := F)).Forall fun op => op.writes ⊆ (wrD.map (Proc.devRef (τ := τ) .tc)).toFinset := by
  unfold opsD
  exact ⟨wsub main_v42 rfl (by decide),
    wsub main_v43 rfl (by decide)⟩

/-- An array stretch D does not write keeps its contents through it. -/
theorem keepD (W : Valuation τ sig (Elt F)) (r : Ref sig .tc) (hr : r ∉ wrD) :
    after (opsD (F := F)) W (rV r) = W (rV r) :=
  StableHlo.after_of_writes_sub (opsD (F := F)) W wD_own hr

/-- The arrays stretch E writes. -/
abbrev wrE : List (Ref sig .tc) :=
  [main_v45, main_v46, main_v47, main_v48, main_v49, main_v50, main_v51, main_v52, main_v53, main_v54, main_v55, main_v56, main_v57, main_v58, main_v59]

set_option maxRecDepth 8192 in
theorem wE_own : (opsE (F := F)).Forall fun op => op.writes ⊆ (wrE.map (Proc.devRef (τ := τ) .tc)).toFinset := by
  unfold opsE
  exact ⟨wsub main_v45 rfl (by decide),
    wsub main_v46 rfl (by decide),
    wsub main_v47 rfl (by decide),
    wsub main_v48 rfl (by decide),
    wsub main_v49 rfl (by decide),
    wsub main_v50 rfl (by decide),
    wsub main_v51 rfl (by decide),
    wsub main_v52 rfl (by decide),
    wsub main_v53 rfl (by decide),
    wsub main_v54 rfl (by decide),
    wsub main_v55 rfl (by decide),
    wsub main_v56 rfl (by decide),
    wsub main_v57 rfl (by decide),
    wsub main_v58 rfl (by decide),
    wsub main_v59 rfl (by decide)⟩

/-- An array stretch E does not write keeps its contents through it. -/
theorem keepE (W : Valuation τ sig (Elt F)) (r : Ref sig .tc) (hr : r ∉ wrE) :
    after (opsE (F := F)) W (rV r) = W (rV r) :=
  StableHlo.after_of_writes_sub (opsE (F := F)) W wE_own hr

/-- The arrays stretch F writes. -/
abbrev wrF : List (Ref sig .tc) :=
  [main_v61]

theorem wF_own : (opsF (F := F)).Forall fun op => op.writes ⊆ (wrF.map (Proc.devRef (τ := τ) .tc)).toFinset := by
  unfold opsF
  exact wsub main_v61 rfl (by decide)

theorem keepF (W : Valuation τ sig (Elt F)) (r : Ref sig .tc) (hr : r ∉ wrF) :
    after (opsF (F := F)) W (rV r) = W (rV r) :=
  StableHlo.after_of_writes_sub (opsF (F := F)) W wF_own hr

/-! ## What each stretch computes, over any contents at its entry -/

section Stages
variable (W : Valuation τ sig (Elt F))

theorem A_v0 : after (opsA (F := F)) W (rV main_v0) = val_v0 (W (rV main_arg5)) := by
  unfold opsA
  after_results_simp <;> (try simp only [StableHlo.TRef.ofBuf, StableHlo.TRef.toBuf, cast_eq]) <;> rfl
theorem A_v1 : after (opsA (F := F)) W (rV main_v1) = val_v1 (W (rV main_arg5)) := by
  unfold opsA
  after_results_simp <;> (try simp only [StableHlo.TRef.ofBuf, StableHlo.TRef.toBuf, cast_eq]) <;> rfl
theorem A_v2 : after (opsA (F := F)) W (rV main_v2) = val_v2 (W (rV main_arg5)) := by
  unfold opsA
  after_results_simp <;> (try simp only [StableHlo.TRef.ofBuf, StableHlo.TRef.toBuf, cast_eq]) <;> rfl
theorem A_v3 : after (opsA (F := F)) W (rV main_v3) = val_v3 (W (rV main_arg1)) := by
  unfold opsA
  after_results_simp <;> (try simp only [StableHlo.TRef.ofBuf, StableHlo.TRef.toBuf, cast_eq]) <;> rfl
theorem A_v5 : after (opsA (F := F)) W (rV main_v5) = val_v5 (W (rV main_arg2)) := by
  unfold opsA
  after_results_simp <;> (try simp only [StableHlo.TRef.ofBuf, StableHlo.TRef.toBuf, cast_eq]) <;> rfl
theorem A_v10 : after (opsA (F := F)) W (rV main_v10) = val_v10 (W (rV main_arg4)) := by
  unfold opsA
  after_results_simp <;> (try simp only [StableHlo.TRef.ofBuf, StableHlo.TRef.toBuf, cast_eq]) <;> rfl
theorem A_v19 : after (opsA (F := F)) W (rV main_v19) = val_v19 (F := F) := by
  unfold opsA
  after_results_simp <;> (try simp only [StableHlo.TRef.ofBuf, StableHlo.TRef.toBuf, cast_eq]) <;> rfl
theorem A_v20 : after (opsA (F := F)) W (rV main_v20) = val_v20 (F := F) := by
  unfold opsA
  after_results_simp <;> (try simp only [StableHlo.TRef.ofBuf, StableHlo.TRef.toBuf, cast_eq]) <;> rfl
theorem A_v21 : after (opsA (F := F)) W (rV main_v21) = val_v21 (W (rV main_arg0)) := by
  unfold opsA
  after_results_simp <;> (try simp only [StableHlo.TRef.ofBuf, StableHlo.TRef.toBuf, cast_eq]) <;> rfl

/-- The first index list: the flattened neighbour indices of batches 0 and 1, cut into 32 workers' 18 chunks. -/
theorem B_v24 (a2 : Vec F S4x1024x36 .i32) (h5 : W (rV main_v5) = val_v5 a2) :
    after (opsB (F := F)) W (rV main_v24) = val_v24 a2 := by
  unfold opsB
  after_results_simp
  rw [h5]
  rfl

/-- The second index list: batches 2 and 3. -/
theorem D_v43 (a2 : Vec F S4x1024x36 .i32) (h5 : W (rV main_v5) = val_v5 a2) :
    after (opsD (F := F)) W (rV main_v43) = val_v43 a2 := by
  unfold opsD
  after_results_simp
  rw [h5]
  rfl

/-- The first layer region's result after the stretch that prepares its operands. -/
theorem C_o1 : o1 (after (opsC (F := F)) W)
    = KValue.regionOut2 (KConst.inv36 (F := F)) (W (rV main_arg0)) (W (rV main_v3)) (val_v26 (W (rV main_v25))) (W (rV main_arg4)) (W (rV main_v10)) (val_v27 (W (rV main_arg3))) (W (rV main_v19)) (W (rV main_v20)) (W (rV main_v0)) (val_row128 (W (rV main_arg6))) (val_bf16_128x128 (W (rV main_v1))) (val_bf16_128x128 (W (rV main_arg7))) (val_row128 (W (rV main_arg8))) (W (rV main_arg9)) (val_row128 (W (rV main_arg10))) (val_bf16_128x512 (W (rV main_arg11))) (val_row512 (W (rV main_arg12))) (val_bf16_512x128 (W (rV main_arg13))) (val_row128 (W (rV main_arg14))) (val_row128 (W (rV main_arg15))) (val_row128 (W (rV main_arg16))) (val_row128 (W (rV main_arg17))) (val_row128 (W (rV main_arg18))) := by
  unfold o1 opsC
  after_results_simp <;> rfl

/-- The second layer region's result after the stretch that prepares its operands. -/
theorem E_o2 : o2 (after (opsE (F := F)) W)
    = KValue.regionOut4 (KConst.inv36 (F := F)) (W (rV main_arg0)) (W (rV main_v3)) (val_v26 (W (rV main_v44))) (W (rV main_arg4)) (W (rV main_v10)) (val_v27 (W (rV main_arg3))) (W (rV main_v19)) (W (rV main_v20)) (W (rV main_v0)) (val_row128 (W (rV main_arg6))) (val_bf16_128x128 (W (rV main_v1))) (val_bf16_128x128 (W (rV main_arg7))) (val_row128 (W (rV main_arg8))) (W (rV main_arg9)) (val_row128 (W (rV main_arg10))) (val_bf16_128x512 (W (rV main_arg11))) (val_row512 (W (rV main_arg12))) (val_bf16_512x128 (W (rV main_arg13))) (val_row128 (W (rV main_arg14))) (val_row128 (W (rV main_arg15))) (val_row128 (W (rV main_arg16))) (val_row128 (W (rV main_arg17))) (val_row128 (W (rV main_arg18))) := by
  unfold o2 opsE
  after_results_simp <;> rfl

/-- The last operation joins the two halves. -/
theorem F_v61 : after (opsF (F := F)) W (rV main_v61) = val_v61 (W (rV main_v41)) (W (rV main_v60)) := by
  unfold opsF
  after_results_simp <;> rfl

end Stages

/-! ## The valuations along @main, read at the arrays the later stages use -/

section Chain
variable (Ω : Outs F) (m : (ℓ : Loc nD τ sig) → Buf (Elt F) ℓ) (d : Dev nD)

/-- An array the first stretch does not write holds its launch contents after it. -/
theorem V1_keep (r : Ref sig .tc) (hr : r ∉ wrA) : V1 m d (rV r) = m ((SparseCore.T d).loc r) := by
  unfold V1
  rw [keepA _ r hr]
  rfl

theorem V1_v0 : V1 m d (rV main_v0) = val_v0 (m ((SparseCore.T d).loc main_arg5)) := by unfold V1; rw [A_v0]; rfl
theorem V1_v1 : V1 m d (rV main_v1) = val_v1 (m ((SparseCore.T d).loc main_arg5)) := by unfold V1; rw [A_v1]; rfl
theorem V1_v2 : V1 m d (rV main_v2) = val_v2 (m ((SparseCore.T d).loc main_arg5)) := by unfold V1; rw [A_v2]; rfl
theorem V1_v3 : V1 m d (rV main_v3) = val_v3 (m ((SparseCore.T d).loc main_arg1)) := by unfold V1; rw [A_v3]; rfl
theorem V1_v5 : V1 m d (rV main_v5) = val_v5 (m ((SparseCore.T d).loc main_arg2)) := by unfold V1; rw [A_v5]; rfl
theorem V1_v10 : V1 m d (rV main_v10) = val_v10 (m ((SparseCore.T d).loc main_arg4)) := by unfold V1; rw [A_v10]; rfl
theorem V1_v19 : V1 m d (rV main_v19) = val_v19 (F := F) := by unfold V1; rw [A_v19]
theorem V1_v20 : V1 m d (rV main_v20) = val_v20 (F := F) := by unfold V1; rw [A_v20]
theorem V1_v21 : V1 m d (rV main_v21) = val_v21 (m ((SparseCore.T d).loc main_arg0)) := by unfold V1; rw [A_v21]; rfl

/-- An array written only by the first stretch holds, later on, what that stretch left. -/
theorem V3_of_V1 (r : Ref sig .tc) (h22 : r ≠ main_v22) (hB : r ∉ wrB) : V3 Ω m d (rV r) = V1 m d (rV r) := by
  unfold V3 V2
  rw [keepB _ r hB, Function.update_of_ne (StableHlo.devRef_ne_of_ne h22)]

theorem V4_of_V1 (r : Ref sig .tc) (h22 : r ≠ main_v22) (h25 : r ≠ main_v25) (hB : r ∉ wrB) :
    V4 Ω m d (rV r) = V1 m d (rV r) := by
  unfold V4
  rw [Function.update_of_ne (StableHlo.devRef_ne_of_ne h25), V3_of_V1 Ω m d r h22 hB]

theorem V5_of_V1 (r : Ref sig .tc) (h22 : r ≠ main_v22) (h25 : r ≠ main_v25) (hB : r ∉ wrB) (hC : r ∉ wrC) :
    V5 Ω m d (rV r) = V1 m d (rV r) := by
  unfold V5
  rw [keepC _ r hC, V4_of_V1 Ω m d r h22 h25 hB]

theorem V7_of_V1 (r : Ref sig .tc) (h22 : r ≠ main_v22) (h25 : r ≠ main_v25) (h41 : r ≠ main_v41)
    (hB : r ∉ wrB) (hC : r ∉ wrC) (hD : r ∉ wrD) : V7 Ω m d (rV r) = V1 m d (rV r) := by
  unfold V7 V6
  rw [keepD _ r hD, Function.update_of_ne (StableHlo.devRef_ne_of_ne h41), V5_of_V1 Ω m d r h22 h25 hB hC]

theorem V8_of_V1 (r : Ref sig .tc) (h22 : r ≠ main_v22) (h25 : r ≠ main_v25) (h41 : r ≠ main_v41) (h44 : r ≠ main_v44)
    (hB : r ∉ wrB) (hC : r ∉ wrC) (hD : r ∉ wrD) : V8 Ω m d (rV r) = V1 m d (rV r) := by
  unfold V8
  rw [Function.update_of_ne (StableHlo.devRef_ne_of_ne h44), V7_of_V1 Ω m d r h22 h25 h41 hB hC hD]

/-- The first index list the gather calls read. -/
theorem V3_v24 : V3 Ω m d (rV main_v24) = val_v24 (m ((SparseCore.T d).loc main_arg2)) := by
  unfold V3
  refine B_v24 _ _ ?_
  unfold V2
  rw [Function.update_of_ne (StableHlo.devRef_ne_of_ne (by decide : main_v5 ≠ main_v22)), V1_v5]

/-- The second index list. -/
theorem V7_v43 : V7 Ω m d (rV main_v43) = val_v43 (m ((SparseCore.T d).loc main_arg2)) := by
  unfold V7
  refine D_v43 _ _ ?_
  unfold V6
  rw [Function.update_of_ne (StableHlo.devRef_ne_of_ne (by decide : main_v5 ≠ main_v41)),
    V5_of_V1 Ω m d main_v5 (by decide) (by decide) (by decide) (by decide), V1_v5]

/-- The projected table, where the first gather call reads it. -/
theorem V3_v22 : V3 OmegaK m d (rV main_v22) = KValue.proj (m ((SparseCore.T d).loc main_arg0)) (m ((SparseCore.T d).loc main_arg5)) := by
  unfold V3
  rw [keepB _ main_v22 (by decide)]
  unfold V2
  rw [Function.update_self]
  show o0 (V1 m d) = _
  unfold o0 KValue.proj
  rw [V1_v21, V1_v2]

/-- The projected table, where the second gather call reads it. -/
theorem V7_v22 : V7 OmegaK m d (rV main_v22) = KValue.proj (m ((SparseCore.T d).loc main_arg0)) (m ((SparseCore.T d).loc main_arg5)) := by
  unfold V7
  rw [keepD _ main_v22 (by decide)]
  unfold V6
  rw [Function.update_of_ne (StableHlo.devRef_ne_of_ne (by decide : main_v22 ≠ main_v41))]
  unfold V5
  rw [keepC _ main_v22 (by decide)]
  unfold V4
  rw [Function.update_of_ne (StableHlo.devRef_ne_of_ne (by decide : main_v22 ≠ main_v25)), V3_v22]

/-- What the first gather call leaves. -/
theorem V4_v25 : V4 OmegaK m d (rV main_v25) = KValue.gath0 (m ((SparseCore.T d).loc main_arg0)) (m ((SparseCore.T d).loc main_arg2)) (m ((SparseCore.T d).loc main_arg5)) := by
  unfold V4
  rw [Function.update_self, V3_v22, V3_v24]
  rfl

/-- What the second gather call leaves. -/
theorem V8_v44 : V8 OmegaK m d (rV main_v44) = KValue.gath1 (m ((SparseCore.T d).loc main_arg0)) (m ((SparseCore.T d).loc main_arg2)) (m ((SparseCore.T d).loc main_arg5)) := by
  unfold V8
  rw [Function.update_self, V7_v22, V7_v43]
  rfl

set_option maxHeartbeats 4000000 in
/-- The first layer region's result: the layer on batches 0 and 1, of the argument arrays. -/
theorem o1_V5 : o1 (V5 OmegaK m d) = KValue.half0 (KConst.inv36 (F := F)) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) := by
  unfold V5
  rw [C_o1, V4_v25,
    V4_of_V1 OmegaK m d main_v3 (by decide) (by decide) (by decide), V1_v3 m d,
    V4_of_V1 OmegaK m d main_v10 (by decide) (by decide) (by decide), V1_v10 m d,
    V4_of_V1 OmegaK m d main_v19 (by decide) (by decide) (by decide), V1_v19 m d,
    V4_of_V1 OmegaK m d main_v20 (by decide) (by decide) (by decide), V1_v20 m d,
    V4_of_V1 OmegaK m d main_v0 (by decide) (by decide) (by decide), V1_v0 m d,
    V4_of_V1 OmegaK m d main_v1 (by decide) (by decide) (by decide), V1_v1 m d,
    V4_of_V1 OmegaK m d main_arg0 (by decide) (by decide) (by decide), V1_keep m d main_arg0 (by decide),
    V4_of_V1 OmegaK m d main_arg4 (by decide) (by decide) (by decide), V1_keep m d main_arg4 (by decide),
    V4_of_V1 OmegaK m d main_arg3 (by decide) (by decide) (by decide), V1_keep m d main_arg3 (by decide),
    V4_of_V1 OmegaK m d main_arg6 (by decide) (by decide) (by decide), V1_keep m d main_arg6 (by decide),
    V4_of_V1 OmegaK m d main_arg7 (by decide) (by decide) (by decide), V1_keep m d main_arg7 (by decide),
    V4_of_V1 OmegaK m d main_arg8 (by decide) (by decide) (by decide), V1_keep m d main_arg8 (by decide),
    V4_of_V1 OmegaK m d main_arg9 (by decide) (by decide) (by decide), V1_keep m d main_arg9 (by decide),
    V4_of_V1 OmegaK m d main_arg10 (by decide) (by decide) (by decide), V1_keep m d main_arg10 (by decide),
    V4_of_V1 OmegaK m d main_arg11 (by decide) (by decide) (by decide), V1_keep m d main_arg11 (by decide),
    V4_of_V1 OmegaK m d main_arg12 (by decide) (by decide) (by decide), V1_keep m d main_arg12 (by decide),
    V4_of_V1 OmegaK m d main_arg13 (by decide) (by decide) (by decide), V1_keep m d main_arg13 (by decide),
    V4_of_V1 OmegaK m d main_arg14 (by decide) (by decide) (by decide), V1_keep m d main_arg14 (by decide),
    V4_of_V1 OmegaK m d main_arg15 (by decide) (by decide) (by decide), V1_keep m d main_arg15 (by decide),
    V4_of_V1 OmegaK m d main_arg16 (by decide) (by decide) (by decide), V1_keep m d main_arg16 (by decide),
    V4_of_V1 OmegaK m d main_arg17 (by decide) (by decide) (by decide), V1_keep m d main_arg17 (by decide),
    V4_of_V1 OmegaK m d main_arg18 (by decide) (by decide) (by decide), V1_keep m d main_arg18 (by decide)]
  rfl

set_option maxHeartbeats 4000000 in
/-- The second layer region's result: the layer on batches 2 and 3. -/
theorem o2_V9 : o2 (V9 OmegaK m d) = KValue.half1 (KConst.inv36 (F := F)) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) := by
  unfold V9
  rw [E_o2, V8_v44,
    V8_of_V1 OmegaK m d main_v3 (by decide) (by decide) (by decide) (by decide) (by decide) (by decide) (by decide), V1_v3 m d,
    V8_of_V1 OmegaK m d main_v10 (by decide) (by decide) (by decide) (by decide) (by decide) (by decide) (by decide), V1_v10 m d,
    V8_of_V1 OmegaK m d main_v19 (by decide) (by decide) (by decide) (by decide) (by decide) (by decide) (by decide), V1_v19 m d,
    V8_of_V1 OmegaK m d main_v20 (by decide) (by decide) (by decide) (by decide) (by decide) (by decide) (by decide), V1_v20 m d,
    V8_of_V1 OmegaK m d main_v0 (by decide) (by decide) (by decide) (by decide) (by decide) (by decide) (by decide), V1_v0 m d,
    V8_of_V1 OmegaK m d main_v1 (by decide) (by decide) (by decide) (by decide) (by decide) (by decide) (by decide), V1_v1 m d,
    V8_of_V1 OmegaK m d main_arg0 (by decide) (by decide) (by decide) (by decide) (by decide) (by decide) (by decide), V1_keep m d main_arg0 (by decide),
    V8_of_V1 OmegaK m d main_arg4 (by decide) (by decide) (by decide) (by decide) (by decide) (by decide) (by decide), V1_keep m d main_arg4 (by decide),
    V8_of_V1 OmegaK m d main_arg3 (by decide) (by decide) (by decide) (by decide) (by decide) (by decide) (by decide), V1_keep m d main_arg3 (by decide),
    V8_of_V1 OmegaK m d main_arg6 (by decide) (by decide) (by decide) (by decide) (by decide) (by decide) (by decide), V1_keep m d main_arg6 (by decide),
    V8_of_V1 OmegaK m d main_arg7 (by decide) (by decide) (by decide) (by decide) (by decide) (by decide) (by decide), V1_keep m d main_arg7 (by decide),
    V8_of_V1 OmegaK m d main_arg8 (by decide) (by decide) (by decide) (by decide) (by decide) (by decide) (by decide), V1_keep m d main_arg8 (by decide),
    V8_of_V1 OmegaK m d main_arg9 (by decide) (by decide) (by decide) (by decide) (by decide) (by decide) (by decide), V1_keep m d main_arg9 (by decide),
    V8_of_V1 OmegaK m d main_arg10 (by decide) (by decide) (by decide) (by decide) (by decide) (by decide) (by decide), V1_keep m d main_arg10 (by decide),
    V8_of_V1 OmegaK m d main_arg11 (by decide) (by decide) (by decide) (by decide) (by decide) (by decide) (by decide), V1_keep m d main_arg11 (by decide),
    V8_of_V1 OmegaK m d main_arg12 (by decide) (by decide) (by decide) (by decide) (by decide) (by decide) (by decide), V1_keep m d main_arg12 (by decide),
    V8_of_V1 OmegaK m d main_arg13 (by decide) (by decide) (by decide) (by decide) (by decide) (by decide) (by decide), V1_keep m d main_arg13 (by decide),
    V8_of_V1 OmegaK m d main_arg14 (by decide) (by decide) (by decide) (by decide) (by decide) (by decide) (by decide), V1_keep m d main_arg14 (by decide),
    V8_of_V1 OmegaK m d main_arg15 (by decide) (by decide) (by decide) (by decide) (by decide) (by decide) (by decide), V1_keep m d main_arg15 (by decide),
    V8_of_V1 OmegaK m d main_arg16 (by decide) (by decide) (by decide) (by decide) (by decide) (by decide) (by decide), V1_keep m d main_arg16 (by decide),
    V8_of_V1 OmegaK m d main_arg17 (by decide) (by decide) (by decide) (by decide) (by decide) (by decide) (by decide), V1_keep m d main_arg17 (by decide),
    V8_of_V1 OmegaK m d main_arg18 (by decide) (by decide) (by decide) (by decide) (by decide) (by decide) (by decide), V1_keep m d main_arg18 (by decide)]
  rfl

/-- THE PROGRAM'S RESULT, a pure term of the launch memory: the two halves of the batch, joined. -/
theorem RES_eq : RES OmegaK m d = KValue.kres (KConst.inv36 (F := F)) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) := by
  have h41 : V9 OmegaK m d (rV main_v41) = KValue.half0 (KConst.inv36 (F := F)) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) := by
    unfold V9
    rw [keepE _ main_v41 (by decide)]
    unfold V8
    rw [Function.update_of_ne (StableHlo.devRef_ne_of_ne (by decide : main_v41 ≠ main_v44))]
    unfold V7
    rw [keepD _ main_v41 (by decide)]
    unfold V6
    rw [Function.update_self]
    exact o1_V5 m d
  unfold RES V11
  rw [F_v61]
  unfold V10
  rw [Function.update_self, Function.update_of_ne (StableHlo.devRef_ne_of_ne (by decide : main_v41 ≠ main_v60)), h41]
  show val_v61 _ (o2 (V9 OmegaK m d)) = _
  rw [o2_V9]
  rfl

/-- What the first gather call's index operand is. -/
theorem ix0_eq : (XD OmegaK m).ix0 d = val_v24 (m ((SparseCore.T d).loc main_arg2)) := V3_v24 OmegaK m d
/-- What the second gather call's index operand is. -/
theorem ix1_eq : (XD OmegaK m).ix1 d = val_v43 (m ((SparseCore.T d).loc main_arg2)) := V7_v43 OmegaK m d
/-- The table both gather calls read. -/
theorem p0_eq : (XD OmegaK m).p0 d = KValue.proj (m ((SparseCore.T d).loc main_arg0)) (m ((SparseCore.T d).loc main_arg5)) := V3_v22 m d
theorem p1_eq : (XD OmegaK m).p1 d = KValue.proj (m ((SparseCore.T d).loc main_arg0)) (m ((SparseCore.T d).loc main_arg5)) := V7_v22 m d

end Chain

/-! ## Every index the gather calls read names a node -/

/-- A position of a 32 × 18 × 128 index list, as batch half, neighbour and node. -/
theorem split_pos (w : Fin 32) (ch : Fin 18) (l : Fin 128) :
    ∃ (bl : Fin 2) (k : Fin 36) (n : Fin 1024),
      bl.val * 36864 + k.val * 1024 + n.val = w.val * 2304 + ch.val * 128 + l.val := by
  have hw := w.isLt
  have hch := ch.isLt
  have hl := l.isLt
  refine ⟨⟨(w.val * 2304 + ch.val * 128 + l.val) / 36864, by omega⟩,
    ⟨(w.val * 2304 + ch.val * 128 + l.val) % 36864 / 1024, by omega⟩,
    ⟨(w.val * 2304 + ch.val * 128 + l.val) % 1024, Nat.mod_lt _ (by decide)⟩, ?_⟩
  show (w.val * 2304 + ch.val * 128 + l.val) / 36864 * 36864 + (w.val * 2304 + ch.val * 128 + l.val) % 36864 / 1024 * 1024
      + (w.val * 2304 + ch.val * 128 + l.val) % 1024 = w.val * 2304 + ch.val * 128 + l.val
  omega

theorem hix0 (m : (ℓ : Loc nD τ sig) → Buf (Elt F) ℓ) (hpre : KS.PreOK m) :
    ∀ (d : Dev nD) (j : S32x18x128.Idx), ((XD OmegaK m).ix0 d j : BitVec 32).toNat < 1024 := by
  intro d j
  obtain ⟨w, ch, l, rfl⟩ : ∃ (w : Fin 32) (ch : Fin 18) (l : Fin 128), j = ix3 w ch l := ⟨j 0, j 1, j 2, eq_ix3 j⟩
  obtain ⟨bl, k, n, h⟩ := split_pos w ch l
  have e : (XD OmegaK m).ix0 d (ix3 w ch l) = m (a2Loc d) (ix3 ⟨bl.val, by omega⟩ n k) := by
    rw [ix0_eq]
    exact val_v24_apply_arg _ w ch l bl k n h
  rw [e]
  exact hpre d _

theorem hix1 (m : (ℓ : Loc nD τ sig) → Buf (Elt F) ℓ) (hpre : KS.PreOK m) :
    ∀ (d : Dev nD) (j : S32x18x128.Idx), ((XD OmegaK m).ix1 d j : BitVec 32).toNat < 1024 := by
  intro d j
  obtain ⟨w, ch, l, rfl⟩ : ∃ (w : Fin 32) (ch : Fin 18) (l : Fin 128), j = ix3 w ch l := ⟨j 0, j 1, j 2, eq_ix3 j⟩
  obtain ⟨bl, k, n, h⟩ := split_pos w ch l
  have e : (XD OmegaK m).ix1 d (ix3 w ch l) = m (a2Loc d) (ix3 ⟨2 + bl.val, by omega⟩ n k) := by
    rw [ix1_eq]
    exact val_v43_apply_arg _ w ch l bl k n h
  rw [e]
  exact hpre d _

end Cert.KernelIdeal.KMain

end
-- ==== Proof.KRun.lean ====
/-
  The kernel program's run, stated of the result and the arguments: from any launch memory whose neighbour indices
  name nodes, every weakly fair execution of @main on the TensorCores and of the two gather calls on the vector
  subcores terminates, nothing faulting, with the result array at the program's result as one function of the
  argument arrays and every argument array unchanged. The three pipelined regions enter as steps on @main's
  valuation, each leaving its whole output array at the region's result; the two gather calls' tasks enter as the
  tile obligations, each leaving its rows of the gathered array at the gathered rows.
-/
import proofs.«215572_g25211458027672_cont_9to1_2008_46_alg».proof.Proof.KMainD
import proofs.«215572_g25211458027672_cont_9to1_2008_46_alg».proof.Proof.KRegionStepsFinal
import proofs.«215572_g25211458027672_cont_9to1_2008_46_alg».proof.Proof.KSplit
import proofs.«215572_g25211458027672_cont_9to1_2008_46_alg».proof.Proof.ScTile
import proofs.«215572_g25211458027672_cont_9to1_2008_46_alg».proof.Proof.ScTile3
import proofs.«215572_g25211458027672_cont_9to1_2008_46_alg».proof.Proof.KBridge

noncomputable section

namespace Cert.KernelIdeal.KRun

open Cert.KernelIdeal Cert.KernelIdeal.Gen Cert.KernelIdeal.KS Cert.KernelIdeal.KPay Cert.KernelIdeal.KSplit Cert.KernelIdeal.KMain

open Idealize.ShloMosaic
open Idealize.ShloMosaic.SparseCore (S V T)
open Idealize.SL Idealize.SL.Sem

variable {F : FTy → Type} [FloatOps F] [Named F]

/-- The first gather call's task, as the split of the call's operands among its tasks states it. -/
theorem tileBody0 : TileBody0 (F := F) :=
  fun d L hF O W hO q p ix fo hix => ScTile.tile_body d L hF O W hO q p ix fo hix

/-- The second gather call's task. -/
theorem tileBody1 : TileBody1 (F := F) :=
  fun d L hF O W hO q p ix fo hix => ScTile3.tile_body d L hF O W hO q p ix fo hix

/-- THE RUN: the result at the program's result of the argument arrays, every argument unchanged. -/
theorem run [∀ e, Nonempty (Elt F e)] (m : (ℓ : Loc nD τ sig) → Buf (Elt F) ℓ) (g : Dev nD → PrngReg) (hpre : KS.PreOK m) :
    θ_run (Cert.KernelIdeal.defs (F := F)) (Cert.KernelIdeal.threads (F := F)) ⟨m, fun _ => 0, g⟩ (fun r => ∀ c : Dev nD,
      r.2.mem ((c.tc : Thread nD τ).loc main_v61) = KValue.kres (KConst.inv36 (F := F)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (Cert.KernelIdeal.defs (F := F)) _ _).mono (fun r h c => ⟨(h c).1.trans (RES_eq m c), (h c).2⟩)
    (run_main' OmegaK m g RegionSteps.step0 RegionSteps.step1 RegionSteps.step2
      (tileObl0 tileBody0 KS.facts (XD OmegaK m) (hix0 m hpre))
      (tileObl1 tileBody1 KS.facts (XD OmegaK m) (hix1 m hpre)))

end Cert.KernelIdeal.KRun

end
-- ==== Proof.KPayBits.lean ====
/-
  What the handshakes of the two gather calls carry: per call and SparseCore, its sixteen tasks' resources; per task,
  a read share of the projected array, its slab of the index array and its rows of the result, the rows coming back
  at the gathered values. The contents the calls see are parameters.
-/
import proofs.«215572_g25211458027672_cont_9to1_2008_46_alg».proof.Proof.KSetupBits

noncomputable section

namespace Cert.Kernel.KPay

open Cert.Kernel Cert.Kernel.Gen Cert.Kernel.KS

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

local notation "iV" => (Memref.whole Cert.Kernel.main_v24_scv : Memref Cert.Kernel.sig Kind.scVector Space.hbm Cert.Kernel.S32x18x128 EltTy.i32)
local notation "oV" => (Memref.whole Cert.Kernel.main_v25_scv : Memref Cert.Kernel.sig Kind.scVector Space.hbm Cert.Kernel.S73728x128 EltTy.f32)

theorem idiv : 32 ∣ S32x18x128.size 0 := ⟨1, rfl⟩
theorem odiv : 32 ∣ S73728x128.size 0 := ⟨2304, rfl⟩
/-- Slab w of an index array and rows [2304 w, 2304 w + 2304) of a result. -/
abbrev irow (w : Fin 32) : Rect S32x18x128 := Rect.part (s := S32x18x128) (a₀ := 0) idiv w
abbrev orow (w : Fin 32) : Rect S73728x128 := Rect.part (s := S73728x128) (a₀ := 0) odiv w
abbrev iSet (w : Fin 32) : Finset S32x18x128.Idx := ((iV).view.slice (irow w)).set
abbrev oSet (w : Fin 32) : Finset S73728x128.Idx := ((oV).view.slice (orow w)).set

/-- The task number of vector subcore i of SparseCore c: 2 i + c. -/
def wid (q : Fin 2) (c : Fin ((K (F := F)).nCore q)) (i : Fin ((K (F := F)).nSub q)) : Fin 32 :=
  ⟨2 * i.val + c.val, by
    have hc := c.isLt; have hi := i.isLt; have e1 := nCore_eq (F := F) q; have e2 := nSub_eq (F := F) q; omega⟩

/-- Task w's read share of the projected array: the w-th of 32 read tokens of the full share. -/
abbrev xq (w : Fin 32) : PosShare TreeShare := Transfers.shareTok fullShare 32 w

/-- The contents the two calls see, per device: the projected array, the call's index array, the call's result's prior
    contents (call 0: main_v22, main_v24, main_v25; call 1: main_v22, main_v43, main_v44). -/
structure CallData (F : FTy → Type) where
  p0 : (d : Dev nD) → Buf (Elt F) (pLoc d)
  ix0 : (d : Dev nD) → Buf (Elt F) (i0Loc d)
  fo0 : (d : Dev nD) → Buf (Elt F) (g0Loc d)
  p1 : (d : Dev nD) → Buf (Elt F) (pLoc d)
  ix1 : (d : Dev nD) → Buf (Elt F) (i1Loc d)
  fo1 : (d : Dev nD) → Buf (Elt F) (g1Loc d)

/-- The gathered results. -/
def gat0 (X : CallData F) (d : Dev nD) : Buf (Elt F) (g0Loc d) := gatherVal 0 (X.p0 d) (X.ix0 d)
def gat1 (X : CallData F) (d : Dev nD) : Buf (Elt F) (g1Loc d) := gatherVal 2 (X.p1 d) (X.ix1 d)

/-- One task's resources: its read share of the projected array, its slab of the index array, its rows of the result at contents f. -/
abbrev tileRes0 (X : CallData F) (d : Dev nD) (w : Fin 32) (f : Buf (Elt F) (g0Loc d)) : sProp 𝕄 :=
  iprop((pLoc d ↦{xq w} X.p0 d) ∗ (i0Loc d ↦[iSet w]{fullShare} X.ix0 d) ∗ (g0Loc d ↦[oSet w]{fullShare} f))
abbrev tileRes1 (X : CallData F) (d : Dev nD) (w : Fin 32) (f : Buf (Elt F) (g1Loc d)) : sProp 𝕄 :=
  iprop((pLoc d ↦{xq w} X.p1 d) ∗ (i1Loc d ↦[iSet w]{fullShare} X.ix1 d) ∗ (g1Loc d ↦[oSet w]{fullShare} f))

/-- Each call takes, per SparseCore, its sixteen tasks' resources, the result's rows at their prior contents, and brings
    them back with the rows at the gathered values. -/
def P (X : CallData F) : (K (F := F)).Pay (nD := nD) (Val := Elt F) (Name := ℕ) (U := UU) where
  st := fun q d c => match q with
    | 0 => bigSep Finset.univ fun i : Fin ((K (F := F)).nSub 0) => tileRes0 X d (wid 0 c i) (X.fo0 d)
    | 1 => bigSep Finset.univ fun i : Fin ((K (F := F)).nSub 1) => tileRes1 X d (wid 1 c i) (X.fo1 d)
  dn := fun q d c => match q with
    | 0 => bigSep Finset.univ fun i : Fin ((K (F := F)).nSub 0) => tileRes0 X d (wid 0 c i) (gat0 X d)
    | 1 => bigSep Finset.univ fun i : Fin ((K (F := F)).nSub 1) => tileRes1 X d (wid 1 c i) (gat1 X d)
  go := fun q d c i => match q with
    | 0 => tileRes0 X d (wid 0 c i) (X.fo0 d)
    | 1 => tileRes1 X d (wid 1 c i) (X.fo1 d)
  td := fun q d c i => match q with
    | 0 => tileRes0 X d (wid 0 c i) (gat0 X d)
    | 1 => tileRes1 X d (wid 1 c i) (gat1 X d)
  x := fun _ _ => iprop(emp)

instance P_storable (X : CallData F) : (P X).IsStorable where
  st q d c := match q with
    | 0 => (inferInstance : BI.Storable (upEmb : UEmb _ 𝕄) (bigSep Finset.univ fun i : Fin ((K (F := F)).nSub 0) => tileRes0 X d (wid 0 c i) (X.fo0 d)))
    | 1 => (inferInstance : BI.Storable (upEmb : UEmb _ 𝕄) (bigSep Finset.univ fun i : Fin ((K (F := F)).nSub 1) => tileRes1 X d (wid 1 c i) (X.fo1 d)))
  dn q d c := match q with
    | 0 => (inferInstance : BI.Storable (upEmb : UEmb _ 𝕄) (bigSep Finset.univ fun i : Fin ((K (F := F)).nSub 0) => tileRes0 X d (wid 0 c i) (gat0 X d)))
    | 1 => (inferInstance : BI.Storable (upEmb : UEmb _ 𝕄) (bigSep Finset.univ fun i : Fin ((K (F := F)).nSub 1) => tileRes1 X d (wid 1 c i) (gat1 X d)))
  go q d c i := match q with
    | 0 => (inferInstance : BI.Storable (upEmb : UEmb _ 𝕄) (tileRes0 X d (wid 0 c i) (X.fo0 d)))
    | 1 => (inferInstance : BI.Storable (upEmb : UEmb _ 𝕄) (tileRes1 X d (wid 1 c i) (X.fo1 d)))
  td q d c i := match q with
    | 0 => (inferInstance : BI.Storable (upEmb : UEmb _ 𝕄) (tileRes0 X d (wid 0 c i) (gat0 X d)))
    | 1 => (inferInstance : BI.Storable (upEmb : UEmb _ 𝕄) (tileRes1 X d (wid 1 c i) (gat1 X d)))

/-- A call's operands split into its tasks' and its results gather from theirs: by definition. -/
theorem vecSplit (X : CallData F) (q : Fin 2) : (K (F := F)).VecSplit' (P X) q := by
  intro d c
  match q with
  | 0 =>
    show (bigSep Finset.univ fun i : Fin ((K (F := F)).nSub 0) => tileRes0 X d (wid 0 c i) (X.fo0 d))
      ⊢ |={Set.univ}=> iprop((bigSep Finset.univ fun i : Fin ((K (F := F)).nSub 0) => tileRes0 X d (wid 0 c i) (X.fo0 d))
        ∗ ((bigSep Finset.univ fun i : Fin ((K (F := F)).nSub 0) => tileRes0 X d (wid 0 c i) (gat0 X d))
            -∗ (bigSep Finset.univ fun i : Fin ((K (F := F)).nSub 0) => tileRes0 X d (wid 0 c i) (gat0 X d))))
    iintro H; imodintro
    isplitl [H]; · iexact H
    iintro H; iexact H
  | 1 =>
    show (bigSep Finset.univ fun i : Fin ((K (F := F)).nSub 1) => tileRes1 X d (wid 1 c i) (X.fo1 d))
      ⊢ |={Set.univ}=> iprop((bigSep Finset.univ fun i : Fin ((K (F := F)).nSub 1) => tileRes1 X d (wid 1 c i) (X.fo1 d))
        ∗ ((bigSep Finset.univ fun i : Fin ((K (F := F)).nSub 1) => tileRes1 X d (wid 1 c i) (gat1 X d))
            -∗ (bigSep Finset.univ fun i : Fin ((K (F := F)).nSub 1) => tileRes1 X d (wid 1 c i) (gat1 X d))))
    iintro H; imodintro
    isplitl [H]; · iexact H
    iintro H; iexact H

end Cert.Kernel.KPay

end
-- ==== Proof.KMainABits.lean ====
/-
  @main of the kernel program as six stretches of host operations around its three kernel regions and two
  SparseCore calls; the TensorCore's unscoped buffers as the set the stretches run over.
-/
import proofs.«215572_g25211458027672_cont_9to1_2008_46_alg».proof.Proof.KSetupBits
import proofs.«215572_g25211458027672_cont_9to1_2008_46_alg».proof.Proof.KPayBits

noncomputable section

namespace Cert.Kernel.KMain

open Cert.Kernel Cert.Kernel.Gen Cert.Kernel.KS Cert.Kernel.KPay

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within wp_seq seq after)

variable {F : FTy → Type} [FloatOps F]

local notation "𝕄" => MT nD τ sig (HIx 2) (Elt F) ℕ UU ℕ

/-! ## @main as stretches of host operations around its three kernel regions and two SparseCore calls -/

/-- Host operations, stretch 1 of 6 of @main, in order. -/
def opsA : List (HloOp τ sig (Elt F)) :=
  [StableHlo.unary main_arg5 main_v0 ((extractStridedSlice S128x128 ![0, 0] · slices_S384x128_S128x128_0_0) : (⟨S384x128, .f32⟩ : BufTy).Contents (Elt F) → (⟨S128x128, .f32⟩ : BufTy).Contents (Elt F)),
   StableHlo.unary main_arg5 main_v1 ((extractStridedSlice S128x128 ![128, 0] · slices_S384x128_S128x128_128_0) : (⟨S384x128, .f32⟩ : BufTy).Contents (Elt F) → (⟨S128x128, .f32⟩ : BufTy).Contents (Elt F)),
   StableHlo.unary main_arg5 main_v2 ((extractStridedSlice S128x128 ![256, 0] · slices_S384x128_S128x128_256_0) : (⟨S384x128, .f32⟩ : BufTy).Contents (Elt F) → (⟨S128x128, .f32⟩ : BufTy).Contents (Elt F)),
   StableHlo.unary main_arg1 main_v3 ((transpose S4x36x1024x128 [0, 2, 1, 3] · transposes_S4x1024x36x128_S4x36x1024x128_0_2_1_3) : (⟨S4x1024x36x128, .f32⟩ : BufTy).Contents (Elt F) → (⟨S4x36x1024x128, .f32⟩ : BufTy).Contents (Elt F)),
   StableHlo.unary main_arg2 main_v4 ((transpose S4x36x1024 [0, 2, 1] · transposes_S4x1024x36_S4x36x1024_0_2_1) : (⟨S4x1024x36, .i32⟩ : BufTy).Contents (Elt F) → (⟨S4x36x1024, .i32⟩ : BufTy).Contents (Elt F)),
   StableHlo.reshape main_v4 main_v5 rfl shapeCasts_S4x36x1024_S4x36864,
   StableHlo.unary main_arg4 main_v6 ((transpose S4x36x1024 [0, 2, 1] · transposes_S4x1024x36_S4x36x1024_0_2_1) : (⟨S4x1024x36, .f32⟩ : BufTy).Contents (Elt F) → (⟨S4x36x1024, .f32⟩ : BufTy).Contents (Elt F)),
   StableHlo.reshape main_v6 main_v7 rfl shapeCasts_S4x36x1024_S4x36x8x128,
   StableHlo.unary main_v7 main_v8 ((transpose S4x8x36x128 [0, 2, 1, 3] · transposes_S4x36x8x128_S4x8x36x128_0_2_1_3) : (⟨S4x36x8x128, .f32⟩ : BufTy).Contents (Elt F) → (⟨S4x8x36x128, .f32⟩ : BufTy).Contents (Elt F)),
   StableHlo.reshape main_v8 main_v9 rfl shapeCasts_S4x8x36x128_S4x8x1x4608,
   StableHlo.unary main_v9 main_v10 ((truncf .bf16 · bitsLt_bf16_f32) : (⟨S4x8x1x4608, .f32⟩ : BufTy).Contents (Elt F) → (⟨S4x8x1x4608, .bf16⟩ : BufTy).Contents (Elt F)),
   StableHlo.nullary main_v11 (iotaInDim S4608 32 0),
   StableHlo.nullary main_c (constantI S_ 32 128#32),
   StableHlo.TRef.unary (.of main_c) main_call0.v0 id,
   StableHlo.TRef.nullary main_call0.c (constantI S_ 32 0#32),
   StableHlo.TRef.binary main_call0.v0 main_call0.c main_call0.v1 (cmpi .eq),
   StableHlo.TRef.nullary main_call0.c_0 (constantI S_ 32 1#32),
   StableHlo.TRef.ternary main_call0.v1 main_call0.c_0 main_call0.v0 main_call0.call0.v0 select,
   StableHlo.TRef.unary main_call0.call0.v0 main_call0.v3 (broadcastInDim S4608 ![] bcast_S_S4608),
   StableHlo.TRef.binary (.of main_v11) main_call0.v3 main_call0.v4 Host.remsi,
   StableHlo.TRef.nullary main_call0.c_1 (constantI S_ 32 0#32),
   StableHlo.TRef.unary main_call0.c_1 main_call0.v5 (broadcastInDim S4608 ![] bcast_S_S4608),
   StableHlo.TRef.binary main_call0.v4 main_call0.v5 main_call0.v6 (cmpi .ne),
   StableHlo.TRef.nullary main_call0.c_2 (constantI S_ 32 0#32),
   StableHlo.TRef.unary main_call0.c_2 main_call0.v7 (broadcastInDim S4608 ![] bcast_S_S4608),
   StableHlo.TRef.binary main_call0.v4 main_call0.v7 main_call0.v8 (cmpi .slt),
   StableHlo.TRef.nullary main_call0.c_3 (constantI S_ 32 0#32),
   StableHlo.TRef.binary main_call0.call0.v0 main_call0.c_3 main_call0.v9 (cmpi .slt),
   StableHlo.TRef.unary main_call0.v9 main_call0.v10 (broadcastInDim S4608 ![] bcast_S_S4608),
   StableHlo.TRef.binary main_call0.v8 main_call0.v10 main_call0.v11 (cmpi .ne),
   StableHlo.TRef.binary main_call0.v11 main_call0.v6 main_call0.v12 andi,
   StableHlo.TRef.unary main_call0.call0.v0 main_call0.v13 (broadcastInDim S4608 ![] bcast_S_S4608),
   StableHlo.TRef.binary main_call0.v4 main_call0.v13 main_call0.v14 addi,
   StableHlo.TRef.ternary main_call0.v12 main_call0.v14 main_call0.v4 main_call0.v15 select,
   StableHlo.nullary main_v13 (iotaInDim S128 32 0),
   StableHlo.unary main_v13 main_v14 (broadcastInDim S128x1 ![0] bcast_S128_S128x1_0 : (⟨S128, .i32⟩ : BufTy).Contents (Elt F) → (⟨S128x1, .i32⟩ : BufTy).Contents (Elt F)),
   StableHlo.unary main_v12 main_v15 (broadcastInDim S1x4608 ![1] bcast_S4608_S1x4608_1 : (⟨S4608, .i32⟩ : BufTy).Contents (Elt F) → (⟨S1x4608, .i32⟩ : BufTy).Contents (Elt F)),
   StableHlo.unary main_v14 main_v16 (broadcastInDim S128x4608 ![0, 1] bcast_S128x1_S128x4608_0_1 : (⟨S128x1, .i32⟩ : BufTy).Contents (Elt F) → (⟨S128x4608, .i32⟩ : BufTy).Contents (Elt F)),
   StableHlo.unary main_v15 main_v17 (broadcastInDim S128x4608 ![0, 1] bcast_S1x4608_S128x4608_0_1 : (⟨S1x4608, .i32⟩ : BufTy).Contents (Elt F) → (⟨S128x4608, .i32⟩ : BufTy).Contents (Elt F)),
   StableHlo.binary main_v16 main_v17 main_v18 (cmpi .eq : (⟨S128x4608, .i32⟩ : BufTy).Contents (Elt F) → (⟨S128x4608, .i32⟩ : BufTy).Contents (Elt F) → (⟨S128x4608, .i1⟩ : BufTy).Contents (Elt F)),
   StableHlo.unary main_v18 main_v19 (uitofp .bf16 : (⟨S128x4608, .i1⟩ : BufTy).Contents (Elt F) → (⟨S128x4608, .bf16⟩ : BufTy).Contents (Elt F)),
   StableHlo.unary main_v19 main_v20 ((transpose S4608x128 [1, 0] · transposes_S128x4608_S4608x128_1_0) : (⟨S128x4608, .bf16⟩ : BufTy).Contents (Elt F) → (⟨S4608x128, .bf16⟩ : BufTy).Contents (Elt F)),
   StableHlo.reshape main_arg0 main_v21 rfl shapeCasts_S4x1024x128_S4096x128]

/-- Host operations, stretch 2 of 6 of @main, in order. -/
def opsB : List (HloOp τ sig (Elt F)) :=
  [StableHlo.unary main_v5 main_v23 ((extractStridedSlice S2x36864 ![0, 0] · slices_S4x36864_S2x36864_0_0) : (⟨S4x36864, .i32⟩ : BufTy).Contents (Elt F) → (⟨S2x36864, .i32⟩ : BufTy).Contents (Elt F)),
   StableHlo.reshape main_v23 main_v24 rfl shapeCasts_S2x36864_S32x18x128]

/-- Host operations, stretch 3 of 6 of @main, in order. -/
def opsC : List (HloOp τ sig (Elt F)) :=
  [StableHlo.reshape main_v25 main_v26 rfl shapeCasts_S73728x128_S72x1024x128,
   StableHlo.reshape main_arg3 main_v27 rfl shapeCasts_S4x1024_S4x8x1x128,
   StableHlo.reshape main_arg6 main_v28 rfl shapeCasts_S128_S1x128,
   StableHlo.unary main_v1 main_v29 ((truncf .bf16 · bitsLt_bf16_f32) : (⟨S128x128, .f32⟩ : BufTy).Contents (Elt F) → (⟨S128x128, .bf16⟩ : BufTy).Contents (Elt F)),
   StableHlo.unary main_arg7 main_v30 ((truncf .bf16 · bitsLt_bf16_f32) : (⟨S128x128, .f32⟩ : BufTy).Contents (Elt F) → (⟨S128x128, .bf16⟩ : BufTy).Contents (Elt F)),
   StableHlo.reshape main_arg8 main_v31 rfl shapeCasts_S128_S1x128,
   StableHlo.reshape main_arg10 main_v32 rfl shapeCasts_S128_S1x128,
   StableHlo.unary main_arg11 main_v33 ((truncf .bf16 · bitsLt_bf16_f32) : (⟨S128x512, .f32⟩ : BufTy).Contents (Elt F) → (⟨S128x512, .bf16⟩ : BufTy).Contents (Elt F)),
   StableHlo.reshape main_arg12 main_v34 rfl shapeCasts_S512_S1x512,
   StableHlo.unary main_arg13 main_v35 ((truncf .bf16 · bitsLt_bf16_f32) : (⟨S512x128, .f32⟩ : BufTy).Contents (Elt F) → (⟨S512x128, .bf16⟩ : BufTy).Contents (Elt F)),
   StableHlo.reshape main_arg14 main_v36 rfl shapeCasts_S128_S1x128,
   StableHlo.reshape main_arg15 main_v37 rfl shapeCasts_S128_S1x128,
   StableHlo.reshape main_arg16 main_v38 rfl shapeCasts_S128_S1x128,
   StableHlo.reshape main_arg17 main_v39 rfl shapeCasts_S128_S1x128,
   StableHlo.reshape main_arg18 main_v40 rfl shapeCasts_S128_S1x128]

/-- Host operations, stretch 4 of 6 of @main, in order. -/
def opsD : List (HloOp τ sig (Elt F)) :=
  [StableHlo.unary main_v5 main_v42 ((extractStridedSlice S2x36864 ![2, 0] · slices_S4x36864_S2x36864_2_0) : (⟨S4x36864, .i32⟩ : BufTy).Contents (Elt F) → (⟨S2x36864, .i32⟩ : BufTy).Contents (Elt F)),
   StableHlo.reshape main_v42 main_v43 rfl shapeCasts_S2x36864_S32x18x128]

/-- Host operations, stretch 5 of 6 of @main, in order. -/
def opsE : List (HloOp τ sig (Elt F)) :=
  [StableHlo.reshape main_v44 main_v45 rfl shapeCasts_S73728x128_S72x1024x128,
   StableHlo.reshape main_arg3 main_v46 rfl shapeCasts_S4x1024_S4x8x1x128,
   StableHlo.reshape main_arg6 main_v47 rfl shapeCasts_S128_S1x128,
   StableHlo.unary main_v1 main_v48 ((truncf .bf16 · bitsLt_bf16_f32) : (⟨S128x128, .f32⟩ : BufTy).Contents (Elt F) → (⟨S128x128, .bf16⟩ : BufTy).Contents (Elt F)),
   StableHlo.unary main_arg7 main_v49 ((truncf .bf16 · bitsLt_bf16_f32) : (⟨S128x128, .f32⟩ : BufTy).Contents (Elt F) → (⟨S128x128, .bf16⟩ : BufTy).Contents (Elt F)),
   StableHlo.reshape main_arg8 main_v50 rfl shapeCasts_S128_S1x128,
   StableHlo.reshape main_arg10 main_v51 rfl shapeCasts_S128_S1x128,
   StableHlo.unary main_arg11 main_v52 ((truncf .bf16 · bitsLt_bf16_f32) : (⟨S128x512, .f32⟩ : BufTy).Contents (Elt F) → (⟨S128x512, .bf16⟩ : BufTy).Contents (Elt F)),
   StableHlo.reshape main_arg12 main_v53 rfl shapeCasts_S512_S1x512,
   StableHlo.unary main_arg13 main_v54 ((truncf .bf16 · bitsLt_bf16_f32) : (⟨S512x128, .f32⟩ : BufTy).Contents (Elt F) → (⟨S512x128, .bf16⟩ : BufTy).Contents (Elt F)),
   StableHlo.reshape main_arg14 main_v55 rfl shapeCasts_S128_S1x128,
   StableHlo.reshape main_arg15 main_v56 rfl shapeCasts_S128_S1x128,
   StableHlo.reshape main_arg16 main_v57 rfl shapeCasts_S128_S1x128,
   StableHlo.reshape main_arg17 main_v58 rfl shapeCasts_S128_S1x128,
   StableHlo.reshape main_arg18 main_v59 rfl shapeCasts_S128_S1x128]

/-- Host operations, stretch 6 of 6 of @main, in order. -/
def opsF : List (HloOp τ sig (Elt F)) :=
  [StableHlo.binary main_v41 main_v60 main_v61 ((fun a b => concatenate S4x1024x128 0 [⟨S2x1024x128, a⟩, ⟨S2x1024x128, b⟩] concatenates_S2x1024x128_S2x1024x128_S4x1024x128_d0) : (⟨S2x1024x128, .f32⟩ : BufTy).Contents (Elt F) → (⟨S2x1024x128, .f32⟩ : BufTy).Contents (Elt F) → (⟨S4x1024x128, .f32⟩ : BufTy).Contents (Elt F))]

set_option maxRecDepth 65536 in
theorem main_eq (d : Dev nD) : main (F := F) d =
    (seq (opsA (F := F)) >>= fun _ => Prog.lift (.customCall (SparseCore.inner (Pipeline.entry 0)) ()) >>= fun _ =>
     seq (opsB (F := F)) >>= fun _ => (sc (F := F)).run d 0 >>= fun _ =>
     seq (opsC (F := F)) >>= fun _ => Prog.lift (.customCall (SparseCore.inner (Pipeline.entry 1)) ()) >>= fun _ =>
     seq (opsD (F := F)) >>= fun _ => (sc (F := F)).run d 1 >>= fun _ =>
     seq (opsE (F := F)) >>= fun _ => Prog.lift (.customCall (SparseCore.inner (Pipeline.entry 2)) ()) >>= fun _ =>
     seq (opsF (F := F))) := by
  chain_rfl

/-! ## The TensorCore's arrays, held whole at a valuation -/

def devRefEmb : Ref sig .tc ↪ DevRef τ sig := ⟨Proc.devRef (τ := τ) (sig := sig) .tc, Proc.devRef_injective _⟩

/-- The TensorCore's unscoped buffers: @main's arrays. -/
def SU : Finset (DevRef τ sig) := (Finset.univ.filter fun b : Ref sig .tc => ¬ b.isScoped).map devRefEmb

omit [FloatOps F] in
theorem sub_SU (op : HloOp τ sig (Elt F)) (h : op.bufs ⊆ StableHlo.tcRefs τ sig) : op.bufs ⊆ SU := by
  intro b hb
  obtain ⟨x, -, rfl⟩ := Finset.mem_map.mp (h hb)
  refine Finset.mem_map.mpr ⟨x, Finset.mem_filter.mpr ⟨Finset.mem_univ _, ?_⟩, rfl⟩
  have h2 := op.no_scoped _ hb
  rw [show (x : Ref sig .tc).isScoped = (Proc.devRef (τ := τ) .tc x).isScoped from rfl]
  simpa using h2

/-- The launch valuation. -/
def V0 (m : (ℓ : Loc nD τ sig) → Buf (Elt F) ℓ) (d : Dev nD) : Valuation τ sig (Elt F) := fun b => m (d, b)

omit [FloatOps F] in
theorem unscoped_held (m : (ℓ : Loc nD τ sig) → Buf (Elt F) ℓ) (d : Dev nD) :
    (unscopedBufs d (fun b => m ((SparseCore.T d).loc b)) : sProp 𝕄) = held (SparseCore.T d) SU (V0 m d) := by
  unfold unscopedBufs held SU
  rw [bigSep_map]; rfl

theorem hTA : (opsA (F := F)).Forall fun op => op.bufs ⊆ StableHlo.tcRefs τ sig := by
  simp [opsA, List.Forall]
theorem hTB : (opsB (F := F)).Forall fun op => op.bufs ⊆ StableHlo.tcRefs τ sig := by
  simp [opsB, List.Forall]
theorem hTC : (opsC (F := F)).Forall fun op => op.bufs ⊆ StableHlo.tcRefs τ sig := by
  simp [opsC, List.Forall]
theorem hTD : (opsD (F := F)).Forall fun op => op.bufs ⊆ StableHlo.tcRefs τ sig := by
  simp [opsD, List.Forall]
theorem hTE : (opsE (F := F)).Forall fun op => op.bufs ⊆ StableHlo.tcRefs τ sig := by
  simp [opsE, List.Forall]
theorem hTF : (opsF (F := F)).Forall fun op => op.bufs ⊆ StableHlo.tcRefs τ sig := by
  simp [opsF, List.Forall]

theorem hS_of {ops : List (HloOp τ sig (Elt F))} (h : ops.Forall fun op => op.bufs ⊆ StableHlo.tcRefs τ sig) :
    ∀ op ∈ ops, op.bufs ⊆ SU := fun op hop => sub_SU op (List.forall_iff_forall_mem.mp h op hop)

theorem hfA : ∀ op ∈ opsA (F := F), op.fresh = ∅ := by
  intro _ h; unfold opsA at h; (repeat (cases h with | head => rfl | tail _ h => ?_)); exact nomatch h
theorem hfB : ∀ op ∈ opsB (F := F), op.fresh = ∅ := by
  intro _ h; unfold opsB at h; (repeat (cases h with | head => rfl | tail _ h => ?_)); exact nomatch h
theorem hfC : ∀ op ∈ opsC (F := F), op.fresh = ∅ := by
  intro _ h; unfold opsC at h; (repeat (cases h with | head => rfl | tail _ h => ?_)); exact nomatch h
theorem hfD : ∀ op ∈ opsD (F := F), op.fresh = ∅ := by
  intro _ h; unfold opsD at h; (repeat (cases h with | head => rfl | tail _ h => ?_)); exact nomatch h
theorem hfE : ∀ op ∈ opsE (F := F), op.fresh = ∅ := by
  intro _ h; unfold opsE at h; (repeat (cases h with | head => rfl | tail _ h => ?_)); exact nomatch h
theorem hfF : ∀ op ∈ opsF (F := F), op.fresh = ∅ := by
  intro _ h; unfold opsF at h; (repeat (cases h with | head => rfl | tail _ h => ?_)); exact nomatch h

end Cert.Kernel.KMain

end
-- ==== Proof.KMainBBits.lean ====
/-
  The valuations of @main's arrays along the program, the program's result as a pure term of the launch memory,
  a kernel region as a step on the valuation, and the launch element of the ghost state.
-/
import proofs.«215572_g25211458027672_cont_9to1_2008_46_alg».proof.Proof.KMainABits

noncomputable section

namespace Cert.Kernel.KMain

open Cert.Kernel Cert.Kernel.Gen Cert.Kernel.KS Cert.Kernel.KPay

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within wp_seq seq after)

variable {F : FTy → Type} [FloatOps F]

local notation "𝕄" => MT nD τ sig (HIx 2) (Elt F) ℕ UU ℕ

/-! ## The valuations along @main -/

abbrev rV (y : Ref sig .tc) : DevRef τ sig := Proc.devRef (τ := τ) .tc y

/-- The three kernel regions' results as functions of the valuation at their entry. -/
structure Outs (F : FTy → Type) where
  o0 : Valuation τ sig (Elt F) → (⟨S4096x128, .f32⟩ : BufTy).Contents (Elt F)
  o1 : Valuation τ sig (Elt F) → (⟨S2x1024x128, .f32⟩ : BufTy).Contents (Elt F)
  o2 : Valuation τ sig (Elt F) → (⟨S2x1024x128, .f32⟩ : BufTy).Contents (Elt F)

section Vals

variable (Ω : Outs F) (m : (ℓ : Loc nD τ sig) → Buf (Elt F) ℓ) (d : Dev nD)

def V1 : Valuation τ sig (Elt F) := after (opsA (F := F)) (V0 m d)
def V2 : Valuation τ sig (Elt F) := Function.update (V1 m d) (rV main_v22) (Ω.o0 (V1 m d))
def V3 : Valuation τ sig (Elt F) := after (opsB (F := F)) (V2 Ω m d)
def V4 : Valuation τ sig (Elt F) := Function.update (V3 Ω m d) (rV main_v25) (gatherVal 0 (V3 Ω m d (rV main_v22)) (V3 Ω m d (rV main_v24)))
def V5 : Valuation τ sig (Elt F) := after (opsC (F := F)) (V4 Ω m d)
def V6 : Valuation τ sig (Elt F) := Function.update (V5 Ω m d) (rV main_v41) (Ω.o1 (V5 Ω m d))
def V7 : Valuation τ sig (Elt F) := after (opsD (F := F)) (V6 Ω m d)
def V8 : Valuation τ sig (Elt F) := Function.update (V7 Ω m d) (rV main_v44) (gatherVal 2 (V7 Ω m d (rV main_v22)) (V7 Ω m d (rV main_v43)))
def V9 : Valuation τ sig (Elt F) := after (opsE (F := F)) (V8 Ω m d)
def V10 : Valuation τ sig (Elt F) := Function.update (V9 Ω m d) (rV main_v60) (Ω.o2 (V9 Ω m d))
def V11 : Valuation τ sig (Elt F) := after (opsF (F := F)) (V10 Ω m d)

/-- The program's result, a pure term of the launch memory. -/
def RES : Buf (Elt F) (outLoc d) := V11 Ω m d (rV main_v61)

end Vals

/-- What the two gather calls see. -/
abbrev XD (Ω : Outs F) (m : (ℓ : Loc nD τ sig) → Buf (Elt F) ℓ) : CallData F where
  p0 d := V3 Ω m d (rV main_v22)
  ix0 d := V3 Ω m d (rV main_v24)
  fo0 d := V3 Ω m d (rV main_v25)
  p1 d := V7 Ω m d (rV main_v22)
  ix1 d := V7 Ω m d (rV main_v43)
  fo1 d := V7 Ω m d (rV main_v44)

/-! ## A kernel region as a step on the valuation -/

/-- The TensorCore's debts before SparseCore call n, its recorded pairs bounded. -/
abbrev owesTc (d : Dev nD) (n : ℕ) : sProp 𝕄 :=
  iprop(∃ W, ⌜(K (F := F)).WBelow (SparseCore.T d) W (8 * n)⌝ ∗ owes (SparseCore.T d) ((K (F := F)).Otc d n) W)

/-- Region p, entered before SparseCore call n with @main's arrays held at V, leaves them at V with its result y
    rewritten to o V. -/
def RegionStep (p : Fin 3) (n : ℕ) (y : Ref sig .tc) (o : Valuation τ sig (Elt F) → (rV y).ty.Contents (Elt F)) : Prop :=
  ∀ (d : Dev nD) (V : Valuation τ sig (Elt F)) {α : Type} (k : PUnit → Prog (TpuEff nD τ sig (Elt F) (ΛP (F := F)) .tc) α) (Q : α → sProp 𝕄),
    iprop((iprop(boundary (SparseCore.T d) ∗ held (SparseCore.T d) SU (Function.update V (rV y) (o V)) ∗ owesTc d n)
            -∗ wp frame (wpE (D (F := F)) 𝒱 (SparseCore.T d) none) Set.univ (k ⟨⟩) Q)
        ∗ boundary (SparseCore.T d) ∗ held (SparseCore.T d) SU V ∗ owesTc d n ∗ levAts (K (F := F)).L (K (F := F)).lev
        ∗ Pipeline.cellsGhost cfgs EP p d ∗ Pipeline.toksInit cfgs EP p d)
      ⊢ wp frame (wpE (D (F := F)) 𝒱 (SparseCore.T d) none) Set.univ (.op (.customCall (Pipeline.entry p) ()) k) Q

/-! ## The launch element of the ghost state -/

/-- What the launch deals each TensorCore for its three pipelines. -/
def G (d : Dev nD) : sProp 𝕄 :=
  bigSep Finset.univ fun p : Fin 3 => iprop(Pipeline.cellsGhost cfgs EP p d ∗ Pipeline.toksInit cfgs EP p d)

def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ (X : CallData F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P X).x q thr) := by
  unfold u₀
  iintro Hu
  ihave H := (ownU_pair _ _) $$ Hu
  icases H with ⟨HH, HR⟩
  ihave H2 := (own_pair_emb (embR (A := UH) (B := UP × Counters) (nD := nD) (τ := τ) (sig := sig) (Ix := HIx 2) (Val := Elt F) (Name := ℕ) (Lvl := ℕ)) _ _) $$ HR
  icases H2 with ⟨HP, -⟩
  ihave HP' := (show (BI.own (((Emb.inl : Emb UP (UP × Counters)).trans embR)
      (initOf (Pipeline.cells (nD := nD) (τ := τ) cfgs cellOf_inj) (Pipeline.launchToks (nD := nD) (τ := τ) cfgs cellOf_inj))) : sProp 𝕄)
      ⊢ BI.own ((EP (F := F)) (initOf (Pipeline.cells (nD := nD) (τ := τ) cfgs cellOf_inj) (Pipeline.launchToks (nD := nD) (τ := τ) cfgs cellOf_inj)))
      from BI.Entails.refl _) $$ HP
  imod (Pipeline.fund_ghost cfgs (EP (F := F)) cellOf_inj) $$ HP' with ⟨Hg, Ht⟩
  imodintro
  isplitl [HH]; · iexact HH
  isplitl [Hg Ht]
  · unfold G
    simp only [bigSep_sep']
    isplitl [Hg]; · iexact Hg
    iexact Ht
  rw [show (bigSep Finset.univ fun thr : Thread nD τ => bigSep Finset.univ fun q : Fin 2 => (P (F := F) X).x q thr) = bigSep Finset.univ fun _ => iprop(emp) from
    bigSep_congr fun _ _ => bigSep_emp' _, bigSep_emp']
  iempintro

end Cert.Kernel.KMain

end
-- ==== Proof.KSplitBits.lean ====
/-
  The two gather calls' operands between the TensorCore and the tasks: an index array is its thirty-two slabs, a
  result its thirty-two blocks of 2304 rows, the projected array's full share the tasks' thirty-two read shares and a
  remainder; the thirty-two tasks are two SparseCores' sixteen; and one task's proof, at its place in the grid, is the
  launch theorem's obligation for a tile.
-/
import proofs.«215572_g25211458027672_cont_9to1_2008_46_alg».proof.Proof.KPayBits
import Idealize.ShloMosaic.Lib.Transfers
import Idealize.ShloMosaic.Lib.SparseCore.Launch
import Idealize.ShloMosaic.Lib.Pipeline.Kit
import Idealize.ShloMosaic.Lib.Tactic

noncomputable section

namespace Cert.Kernel.KSplit

open Cert.Kernel Cert.Kernel.Gen Cert.Kernel.KS Cert.Kernel.KPay

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

/-! ## The thirty-two slabs and row blocks: disjoint, and all of the array -/

theorem iSet_eq (w : Fin 32) : iSet w = (irow w).set := View.set_slice_whole _ _
theorem oSet_eq (w : Fin 32) : oSet w = (orow w).set := View.set_slice_whole _ _

theorem iSets_disjoint : ∀ w ∈ (Finset.univ : Finset (Fin 32)), ∀ w' ∈ (Finset.univ : Finset (Fin 32)), w ≠ w' → Disjoint (iSet w) (iSet w') :=
  fun w _ w' _ h => by rw [iSet_eq, iSet_eq]; exact Rect.part_disjoint idiv h
theorem oSets_disjoint : ∀ w ∈ (Finset.univ : Finset (Fin 32)), ∀ w' ∈ (Finset.univ : Finset (Fin 32)), w ≠ w' → Disjoint (oSet w) (oSet w') :=
  fun w _ w' _ h => by rw [oSet_eq, oSet_eq]; exact Rect.part_disjoint odiv h
theorem iSets_cover : (Finset.univ : Finset (Fin 32)).biUnion iSet = Finset.univ :=
  (Finset.biUnion_congr rfl fun w _ => iSet_eq w).trans (Rect.biUnion_part idiv)
theorem oSets_cover : (Finset.univ : Finset (Fin 32)).biUnion oSet = Finset.univ :=
  (Finset.biUnion_congr rfl fun w _ => oSet_eq w).trans (Rect.biUnion_part odiv)

/-- An index array held whole is its thirty-two slabs held. -/
theorem i0_slabs (d : Dev nD) (q : PosShare TreeShare) (f : Buf (Elt F) (i0Loc d)) :
    (i0Loc d ↦{q} f : sProp 𝕄) = bigSep Finset.univ fun w : Fin 32 => i0Loc d ↦[iSet w]{q} f := by
  rw [← pointsTo_biUnion Finset.univ (ℓ := i0Loc d) iSet iSets_disjoint, iSets_cover]
theorem i1_slabs (d : Dev nD) (q : PosShare TreeShare) (f : Buf (Elt F) (i1Loc d)) :
    (i1Loc d ↦{q} f : sProp 𝕄) = bigSep Finset.univ fun w : Fin 32 => i1Loc d ↦[iSet w]{q} f := by
  rw [← pointsTo_biUnion Finset.univ (ℓ := i1Loc d) iSet iSets_disjoint, iSets_cover]
/-- A result held whole is its thirty-two row blocks held. -/
theorem g0_blocks (d : Dev nD) (q : PosShare TreeShare) (f : Buf (Elt F) (g0Loc d)) :
    (g0Loc d ↦{q} f : sProp 𝕄) = bigSep Finset.univ fun w : Fin 32 => g0Loc d ↦[oSet w]{q} f := by
  rw [← pointsTo_biUnion Finset.univ (ℓ := g0Loc d) oSet oSets_disjoint, oSets_cover]
theorem g1_blocks (d : Dev nD) (q : PosShare TreeShare) (f : Buf (Elt F) (g1Loc d)) :
    (g1Loc d ↦{q} f : sProp 𝕄) = bigSep Finset.univ fun w : Fin 32 => g1Loc d ↦[oSet w]{q} f := by
  rw [← pointsTo_biUnion Finset.univ (ℓ := g1Loc d) oSet oSets_disjoint, oSets_cover]

/-! ## The thirty-two tasks as two SparseCores' sixteen -/

/-- Task `2 i + c` is vector subcore `i` of SparseCore `c`: a bijection. -/
def tileEquiv (q : Fin 2) : Fin ((K (F := F)).nCore q) × Fin ((K (F := F)).nSub q) ≃ Fin 32 where
  toFun p := wid q p.1 p.2
  invFun w := (⟨w.val % 2, by rw [nCore_eq]; omega⟩, ⟨w.val / 2, by rw [nSub_eq]; omega⟩)
  left_inv p := by
    obtain ⟨c, i⟩ := p
    have hc : c.val < 2 := lt_of_lt_of_eq c.isLt (nCore_eq q)
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

theorem bigSep_tiles (q : Fin 2) (Φ : Fin 32 → sProp 𝕄) :
    bigSep Finset.univ Φ
      = bigSep Finset.univ fun c : Fin ((K (F := F)).nCore q) => bigSep Finset.univ fun i : Fin ((K (F := F)).nSub q) => Φ (wid q c i) := by
  rw [bigSep_univ_equiv (tileEquiv (F := F) q) Φ, bigSep_univ_prod]
  rfl

/-! ## A call's operands, whole, are its tasks' resources and the TensorCore's remainder of the read share -/

theorem tiles0_eq (X : CallData F) (d : Dev nD) (f : Buf (Elt F) (g0Loc d)) :
    (bigSep Finset.univ fun w : Fin 32 => tileRes0 X d w f)
      = iprop((bigSep Finset.univ fun w : Fin 32 => pLoc d ↦{xq w} X.p0 d) ∗ (i0Loc d ↦{fullShare} X.ix0 d) ∗ (g0Loc d ↦{fullShare} f)) := by
  show (bigSep Finset.univ fun w : Fin 32 => iprop((pLoc d ↦{xq w} X.p0 d) ∗ (i0Loc d ↦[iSet w]{fullShare} X.ix0 d) ∗ (g0Loc d ↦[oSet w]{fullShare} f))) = _
  rw [bigSep_sep', bigSep_sep', i0_slabs, g0_blocks]
theorem tiles1_eq (X : CallData F) (d : Dev nD) (f : Buf (Elt F) (g1Loc d)) :
    (bigSep Finset.univ fun w : Fin 32 => tileRes1 X d w f)
      = iprop((bigSep Finset.univ fun w : Fin 32 => pLoc d ↦{xq w} X.p1 d) ∗ (i1Loc d ↦{fullShare} X.ix1 d) ∗ (g1Loc d ↦{fullShare} f)) := by
  show (bigSep Finset.univ fun w : Fin 32 => iprop((pLoc d ↦{xq w} X.p1 d) ∗ (i1Loc d ↦[iSet w]{fullShare} X.ix1 d) ∗ (g1Loc d ↦[oSet w]{fullShare} f))) = _
  rw [bigSep_sep', bigSep_sep', i1_slabs, g1_blocks]

theorem call_split0 (X : CallData F) (d : Dev nD) (f : Buf (Elt F) (g0Loc d)) :
    (iprop((pLoc d ↦{fullShare} X.p0 d) ∗ (i0Loc d ↦{fullShare} X.ix0 d) ∗ (g0Loc d ↦{fullShare} f)) : sProp 𝕄)
      ⊣⊢ iprop((pLoc d ↦{Transfers.shareDrop fullShare 32} X.p0 d)
          ∗ bigSep Finset.univ fun c : Fin ((K (F := F)).nCore 0) => bigSep Finset.univ fun i : Fin ((K (F := F)).nSub 0) =>
              tileRes0 X d (wid 0 c i) f) := by
  rw [← bigSep_tiles (F := F) 0 (fun w => tileRes0 X d w f), tiles0_eq]
  have h : (pLoc d ↦{fullShare} X.p0 d : sProp 𝕄) ⊣⊢ iprop((pLoc d ↦{Transfers.shareDrop fullShare 32} X.p0 d)
      ∗ bigSep Finset.univ fun w : Fin 32 => pLoc d ↦{xq w} X.p0 d) := Transfers.pointsTo_toks fullShare 32
  constructor
  · iintro ⟨Hp, Hi, Ho⟩
    ihave Hp' := h.1 $$ Hp
    icases Hp' with ⟨Hr, Ht⟩
    isplitl [Hr]; · iexact Hr
    isplitl [Ht]; · iexact Ht
    isplitl [Hi]; · iexact Hi
    iexact Ho
  · iintro ⟨Hr, Ht, Hi, Ho⟩
    isplitl [Hr Ht]
    · iapply h.2; isplitl [Hr]; · iexact Hr
      iexact Ht
    isplitl [Hi]; · iexact Hi
    iexact Ho

theorem call_split1 (X : CallData F) (d : Dev nD) (f : Buf (Elt F) (g1Loc d)) :
    (iprop((pLoc d ↦{fullShare} X.p1 d) ∗ (i1Loc d ↦{fullShare} X.ix1 d) ∗ (g1Loc d ↦{fullShare} f)) : sProp 𝕄)
      ⊣⊢ iprop((pLoc d ↦{Transfers.shareDrop fullShare 32} X.p1 d)
          ∗ bigSep Finset.univ fun c : Fin ((K (F := F)).nCore 1) => bigSep Finset.univ fun i : Fin ((K (F := F)).nSub 1) =>
              tileRes1 X d (wid 1 c i) f) := by
  rw [← bigSep_tiles (F := F) 1 (fun w => tileRes1 X d w f), tiles1_eq]
  have h : (pLoc d ↦{fullShare} X.p1 d : sProp 𝕄) ⊣⊢ iprop((pLoc d ↦{Transfers.shareDrop fullShare 32} X.p1 d)
      ∗ bigSep Finset.univ fun w : Fin 32 => pLoc d ↦{xq w} X.p1 d) := Transfers.pointsTo_toks fullShare 32
  constructor
  · iintro ⟨Hp, Hi, Ho⟩
    ihave Hp' := h.1 $$ Hp
    icases Hp' with ⟨Hr, Ht⟩
    isplitl [Hr]; · iexact Hr
    isplitl [Ht]; · iexact Ht
    isplitl [Hi]; · iexact Hi
    iexact Ho
  · iintro ⟨Hr, Ht, Hi, Ho⟩
    isplitl [Hr Ht]
    · iapply h.2; isplitl [Hr]; · iexact Hr
      iexact Ht
    isplitl [Hi]; · iexact Hi
    iexact Ho

/-! ## One task's proof is the launch theorem's obligation for a tile -/

section Obl

variable [FloatOps F]

local notation "pV" => (Memref.whole Cert.Kernel.main_v22_scv : Memref Cert.Kernel.sig Kind.scVector Space.hbm Cert.Kernel.S4096x128 EltTy.f32)
local notation "i0V" => (Memref.whole Cert.Kernel.main_v24_scv : Memref Cert.Kernel.sig Kind.scVector Space.hbm Cert.Kernel.S32x18x128 EltTy.i32)
local notation "o0V" => (Memref.whole Cert.Kernel.main_v25_scv : Memref Cert.Kernel.sig Kind.scVector Space.hbm Cert.Kernel.S73728x128 EltTy.f32)
local notation "i1V" => (Memref.whole Cert.Kernel.main_v43_scv : Memref Cert.Kernel.sig Kind.scVector Space.hbm Cert.Kernel.S32x18x128 EltTy.i32)
local notation "o1V" => (Memref.whole Cert.Kernel.main_v44_scv : Memref Cert.Kernel.sig Kind.scVector Space.hbm Cert.Kernel.S73728x128 EltTy.f32)
local notation "s1V" => (Memref.whole Cert.Kernel.cc1_scratch0 : Memref Cert.Kernel.sig Kind.scVector Space.vmem Cert.Kernel.S18x128 EltTy.i32)
local notation "a1V" => (Memref.whole Cert.Kernel.cc1_scratch1 : Memref Cert.Kernel.sig Kind.scVector Space.vmem Cert.Kernel.S128x128 EltTy.f32)
local notation "b1V" => (Memref.whole Cert.Kernel.cc1_scratch2 : Memref Cert.Kernel.sig Kind.scVector Space.vmem Cert.Kernel.S128x128 EltTy.f32)
local notation "s3V" => (Memref.whole Cert.Kernel.cc3_scratch0 : Memref Cert.Kernel.sig Kind.scVector Space.vmem Cert.Kernel.S18x128 EltTy.i32)
local notation "a3V" => (Memref.whole Cert.Kernel.cc3_scratch1 : Memref Cert.Kernel.sig Kind.scVector Space.vmem Cert.Kernel.S128x128 EltTy.f32)
local notation "b3V" => (Memref.whole Cert.Kernel.cc3_scratch2 : Memref Cert.Kernel.sig Kind.scVector Space.vmem Cert.Kernel.S128x128 EltTy.f32)

/-- A task's place in the first call's grid, and its number `2 s + c`. -/
abbrev cV1 (L : grid1.Coords) : Fin τ.nSC := (L 0).castLE hcore1
abbrev jV1 (L : grid1.Coords) : Fin τ.nSub := (L 1).castLE hsub1
abbrev thr1 (d : Dev nD) (L : grid1.Coords) : Thread nD τ := V d (cV1 L) (jV1 L)
def wid1 (L : grid1.Coords) : Fin 32 := ⟨2 * (L 1).val + (L 0).val, by
  have h0 : (L 0).val < 2 := (L 0).isLt; have h1 : (L 1).val < 16 := (L 1).isLt; omega⟩
/-- The same in the second call's grid. -/
abbrev cV3 (L : grid3.Coords) : Fin τ.nSC := (L 0).castLE hcore3
abbrev jV3 (L : grid3.Coords) : Fin τ.nSub := (L 1).castLE hsub3
abbrev thr3 (d : Dev nD) (L : grid3.Coords) : Thread nD τ := V d (cV3 L) (jV3 L)
def wid3 (L : grid3.Coords) : Fin 32 := ⟨2 * (L 1).val + (L 0).val, by
  have h0 : (L 0).val < 2 := (L 0).isLt; have h1 : (L 1).val < 16 := (L 1).isLt; omega⟩

/-- What one task of the first call is proved to do, at a symbolic place. -/
def TileBody0 : Prop :=
  ∀ (d : Dev nD) (L : grid1.Coords), (K (F := F)).Facts → ∀ (O : CellTallies nD τ sig (HIx 2)) (W : Waits sig (HIx 2)), (∀ g, O g none = 0) →
    ∀ (q : PosShare TreeShare) (p : Buf (Elt F) (pLoc d)) (ix : Buf (Elt F) (i0Loc d)) (fo : Buf (Elt F) (g0Loc d)),
    (∀ j : S32x18x128.Idx, ((ix j : BitVec 32)).toNat < 1024) →
    iprop(levAts (K (F := F)).L (K (F := F)).lev
        ∗ ((pLoc d ↦{q} p) ∗ (i0Loc d ↦[iSet (wid1 L)]{fullShare} ix) ∗ (g0Loc d ↦[oSet (wid1 L)]{fullShare} fo))
        ∗ scopedBufs (thr1 d L) ∗ scopedSems0 (thr1 d L) ∗ owes (thr1 d L) O W)
      ⊢ (wp frame (wpE (defs₀ (F := F)) 𝒱₀ (thr1 d L) none) Set.univ
          (cc1_gk L pV (Memref.isWhole_whole _) i0V (Memref.isWhole_whole _) o0V (Memref.isWhole_whole _)
            s1V (Memref.isWhole_whole _) a1V (Memref.isWhole_whole _) b1V (Memref.isWhole_whole _)
            cc1_scratch3 cc1_scratch4 cc1_scoped0 cc1_scoped1 cc1_scoped2)
          fun _ => iprop(((pLoc d ↦{q} p) ∗ (i0Loc d ↦[iSet (wid1 L)]{fullShare} ix) ∗ (g0Loc d ↦[oSet (wid1 L)]{fullShare} gatherVal 0 p ix))
            ∗ scopedBufs (thr1 d L) ∗ scopedSems0 (thr1 d L)
            ∗ ∃ W', ⌜∀ x ∈ W', x ∈ W ∨ x.2 = none⌝ ∗ owes (thr1 d L) O W') : sProp 𝕄)

/-- What one task of the second call is proved to do: the same over the second index array and result, from batch 2. -/
def TileBody1 : Prop :=
  ∀ (d : Dev nD) (L : grid3.Coords), (K (F := F)).Facts → ∀ (O : CellTallies nD τ sig (HIx 2)) (W : Waits sig (HIx 2)), (∀ g, O g none = 0) →
    ∀ (q : PosShare TreeShare) (p : Buf (Elt F) (pLoc d)) (ix : Buf (Elt F) (i1Loc d)) (fo : Buf (Elt F) (g1Loc d)),
    (∀ j : S32x18x128.Idx, ((ix j : BitVec 32)).toNat < 1024) →
    iprop(levAts (K (F := F)).L (K (F := F)).lev
        ∗ ((pLoc d ↦{q} p) ∗ (i1Loc d ↦[iSet (wid3 L)]{fullShare} ix) ∗ (g1Loc d ↦[oSet (wid3 L)]{fullShare} fo))
        ∗ scopedBufs (thr3 d L) ∗ scopedSems0 (thr3 d L) ∗ owes (thr3 d L) O W)
      ⊢ (wp frame (wpE (defs₀ (F := F)) 𝒱₀ (thr3 d L) none) Set.univ
          (cc3_gk L pV (Memref.isWhole_whole _) i1V (Memref.isWhole_whole _) o1V (Memref.isWhole_whole _)
            s3V (Memref.isWhole_whole _) a3V (Memref.isWhole_whole _) b3V (Memref.isWhole_whole _)
            cc3_scratch3 cc3_scratch4 cc3_scoped0 cc3_scoped1 cc3_scoped2)
          fun _ => iprop(((pLoc d ↦{q} p) ∗ (i1Loc d ↦[iSet (wid3 L)]{fullShare} ix) ∗ (g1Loc d ↦[oSet (wid3 L)]{fullShare} gatherVal 2 p ix))
            ∗ scopedBufs (thr3 d L) ∗ scopedSems0 (thr3 d L)
            ∗ ∃ W', ⌜∀ x ∈ W', x ∈ W ∨ x.2 = none⌝ ∗ owes (thr3 d L) O W') : sProp 𝕄)

def coordsV1 (c : Fin (grid1.bound 0)) (s : Fin (grid1.bound 1)) : grid1.Coords :=
  fun | 0 => c | 1 => s | ⟨_ + 2, h⟩ => absurd h (Nat.not_lt.2 (Nat.le_add_left _ _))
def coordsV3 (c : Fin (grid3.bound 0)) (s : Fin (grid3.bound 1)) : grid3.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1_gk (coordsV1 c s)
          pV (Memref.isWhole_whole _) i0V (Memref.isWhole_whole _) o0V (Memref.isWhole_whole _)
          s1V (Memref.isWhole_whole _) a1V (Memref.isWhole_whole _) b1V (Memref.isWhole_whole _)
          cc1_scratch3 cc1_scratch4 cc1_scoped0 cc1_scoped1 cc1_scoped2) ⟨⟩ c s := rfl

theorem defs₀_vector3 (c : Fin τ.nSC) (s : Fin τ.nSub) :
    defs₀ (F := F) (.scVector c s) 3 ()
      = SparseCore.onTile hcore3 hsub3 (fun c s => cc3_gk (coordsV3 c s)
          pV (Memref.isWhole_whole _) i1V (Memref.isWhole_whole _) o1V (Memref.isWhole_whole _)
          s3V (Memref.isWhole_whole _) a3V (Memref.isWhole_whole _) b3V (Memref.isWhole_whole _)
          cc3_scratch3 cc3_scratch4 cc3_scoped0 cc3_scoped1 cc3_scoped2) ⟨⟩ c s := rfl

omit [FloatOps F] in
theorem obl_pre {L G B C E : sProp 𝕄} : iprop(L ∗ emp ∗ G ∗ B ∗ C ∗ E) ⊢ iprop(L ∗ G ∗ B ∗ C ∗ E) := by
  iintro ⟨HL, _, HG, HB, HC, HE⟩
  isplitl [HL]; · iexact HL
  isplitl [HG]; · iexact HG
  isplitl [HB]; · iexact HB
  isplitl [HC]; · iexact HC
  iexact HE

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hbody : TileBody0 (F := F)) (hF : (K (F := F)).Facts) (X : CallData F)
    (hix : ∀ (d : Dev nD) (j : S32x18x128.Idx), ((X.ix0 d j : BitVec 32)).toNat < 1024) :
    (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact obl_pre.trans ((hbody d (coordsV1 ⟨_, hc.1⟩ ⟨_, hc.2⟩) hF O W hO (xq (wid 0 c i)) (X.p0 d) (X.ix0 d) (X.fo0 d) (hix d)).trans
    (wp_mono frame _ _ fun _ => obl_post))

theorem tileObl1 (hbody : TileBody1 (F := F)) (hF : (K (F := F)).Facts) (X : CallData F)
    (hix : ∀ (d : Dev nD) (j : S32x18x128.Idx), ((X.ix1 d j : BitVec 32)).toNat < 1024) :
    (K (F := F)).TileObl (D (F := F)) 𝒱 (P X) v₀ 1 := by
  intro d c i O W hO _ _
  simp only [show (P X).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  exact obl_pre.trans ((hbody d (coordsV3 ⟨_, hc.1⟩ ⟨_, hc.2⟩) hF O W hO (xq (wid 1 c i)) (X.p1 d) (X.ix1 d) (X.fo1 d) (hix d)).trans
    (wp_mono frame _ _ fun _ => obl_post))

end Obl

end Cert.Kernel.KSplit

end
-- ==== Proof.KMainCBits.lean ====
/-
  The launch of the kernel program: @main on the TensorCore, stretch by stretch, region by region, call by call;
  the final memory; the program's run.
-/
import proofs.«215572_g25211458027672_cont_9to1_2008_46_alg».proof.Proof.KMainBBits
import proofs.«215572_g25211458027672_cont_9to1_2008_46_alg».proof.Proof.KSplitBits

noncomputable section

namespace Cert.Kernel.KMain

open Cert.Kernel Cert.Kernel.Gen Cert.Kernel.KS Cert.Kernel.KPay Cert.Kernel.KSplit

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open Idealize.ShloMosaic.StableHlo (held held_split held_sdiff_result wp_hlo_within wp_seq seq after)

variable {F : FTy → Type} [FloatOps F]

local notation "𝕄" => MT nD τ sig (HIx 2) (Elt F) ℕ UU ℕ

/-! ## Three buffers out of the held set, and back -/

omit [FloatOps F] in
theorem mem_SU (x : Ref sig .tc) (h : x.isScoped = false) : rV x ∈ SU :=
  Finset.mem_map.mpr ⟨x, Finset.mem_filter.mpr ⟨Finset.mem_univ _, by rw [h]; exact Bool.false_ne_true⟩, rfl⟩

omit [FloatOps F] in
theorem held3 (d : Dev nD) (V : Valuation τ sig (Elt F)) (a b c : DevRef τ sig) (hab : a ≠ b) (hac : a ≠ c) (hbc : b ≠ c) :
    (held (SparseCore.T d) ({a, b, c} : Finset (DevRef τ sig)) V : sProp 𝕄)
      = iprop((((d, a) : Loc nD τ sig) ↦{fullShare} V a) ∗ (((d, b) : Loc nD τ sig) ↦{fullShare} V b) ∗ (((d, c) : Loc nD τ sig) ↦{fullShare} V c)) := by
  unfold held
  rw [bigSep_insert (by simp [hab, hac]), bigSep_insert (by simp [hbc]), bigSep_singleton]
  rfl

omit [FloatOps F] in
theorem held_take3 (d : Dev nD) (V : Valuation τ sig (Elt F)) (a b c : DevRef τ sig) (hab : a ≠ b) (hac : a ≠ c) (hbc : b ≠ c)
    (hsub : ({a, b, c} : Finset (DevRef τ sig)) ⊆ SU) :
    (held (SparseCore.T d) SU V : sProp 𝕄)
      = iprop(((((d, a) : Loc nD τ sig) ↦{fullShare} V a) ∗ (((d, b) : Loc nD τ sig) ↦{fullShare} V b) ∗ (((d, c) : Loc nD τ sig) ↦{fullShare} V c))
          ∗ held (SparseCore.T d) (SU \ {a, b, c}) V) := by
  rw [StableHlo.held_sub_split (SparseCore.T d) hsub V, held3 d V a b c hab hac hbc]

omit [FloatOps F] in
theorem held_update3 (d : Dev nD) (V : Valuation τ sig (Elt F)) (a b c : DevRef τ sig) (hab : a ≠ b) (hac : a ≠ c) (hbc : b ≠ c)
    (hsub : ({a, b, c} : Finset (DevRef τ sig)) ⊆ SU) (v : c.ty.Contents (Elt F)) :
    (held (SparseCore.T d) SU (Function.update V c v) : sProp 𝕄)
      = iprop(((((d, a) : Loc nD τ sig) ↦{fullShare} V a) ∗ (((d, b) : Loc nD τ sig) ↦{fullShare} V b) ∗ (((d, c) : Loc nD τ sig) ↦{fullShare} v))
          ∗ held (SparseCore.T d) (SU \ {a, b, c}) V) := by
  have hrest : (held (SparseCore.T d) (SU \ {a, b, c}) (Function.update V c v) : sProp 𝕄) = held (SparseCore.T d) (SU \ {a, b, c}) V :=
    StableHlo.held_congr (SparseCore.T d) (S := SU \ {a, b, c}) (V := Function.update V c v) (V' := V) fun x hx =>
      Function.update_of_ne (fun e => (Finset.mem_sdiff.mp hx).2 (by rw [e]; simp)) _ _
  rw [held_take3 d (Function.update V c v) a b c hab hac hbc hsub, hrest, Function.update_of_ne hac, Function.update_of_ne hbc, Function.update_self]

omit [FloatOps F] in
/-- The held arrays, read against the state interpretation: the memory holds the valuation's contents. -/
theorem held_read (d : Dev nD) (V : Valuation τ sig (Elt F)) (s' : Phys nD τ sig (Elt F)) :
    iprop(held (SparseCore.T d) SU V ∗ SI s')
      ⊢ (⌜∀ b : Ref sig .tc, b.isScoped = false → s'.mem.mem ((SparseCore.T d).loc b) = V (rV b)⌝ : sProp 𝕄) := by
  unfold held
  refine (pointsTo_read_all SU (fun b => ((d, b) : Loc nD τ sig)) (fun b => V b) s').trans ?_
  iintro ⟨%h, -⟩
  ipureintro
  exact fun b hb => h (rV b) (mem_SU b hb)

/-! ## The steps of @main -/

/-- A kernel region inside the SparseCore program, from its step on the valuation. -/
theorem step_region (p : Fin 3) (n : ℕ) (y : Ref sig .tc) (o : Valuation τ sig (Elt F) → (rV y).ty.Contents (Elt F))
    (hR : RegionStep (F := F) p n y o) (d : Dev nD) (V : Valuation τ sig (Elt F)) {α : Type}
    (k : PUnit → Prog (TpuEff nD τ sig (Elt F) (SparseCore.Sig (ΛP (F := F)) 2) .tc) α) (Q : α → sProp 𝕄) :
    iprop((iprop(boundary (SparseCore.T d) ∗ held (SparseCore.T d) SU (Function.update V (rV y) (o V)) ∗ owesTc (F := F) d n)
            -∗ wp frame (wpE ((K (F := F)).defs (D (F := F))) 𝒱 (SparseCore.T d) none) Set.univ (k ⟨⟩) Q)
        ∗ boundary (SparseCore.T d) ∗ held (SparseCore.T d) SU V ∗ owesTc (F := F) d n ∗ levAts (K (F := F)).L (K (F := F)).lev
        ∗ Pipeline.cellsGhost cfgs EP p d ∗ Pipeline.toksInit cfgs EP p d)
      ⊢ wp frame (wpE ((K (F := F)).defs (D (F := F))) 𝒱 (SparseCore.T d) none) Set.univ
          (Prog.lift (.customCall (SparseCore.inner (Pipeline.entry p)) ()) >>= k) Q := by
  rw [wp_bind]
  refine BIBase.Entails.trans ?_ ((K (F := F)).wp_liftProg (D (F := F)) 𝒱 (SparseCore.T d) Set.univ none
    (Prog.lift (.customCall (Pipeline.entry p) ()) : Prog (TpuEff nD τ sig (Elt F) (ΛP (F := F)) .tc) PUnit) _)
  refine BIBase.Entails.trans ?_ (hR d V (fun u => .ret u) _)
  iintro ⟨Hk, Hrest⟩
  isplitl [Hk]
  · iintro H
    rw [wp_ret]; imodintro
    iapply Hk; iexact H
  · iexact Hrest

omit [FloatOps F] in
theorem st0_eq (X : CallData F) (d : Dev nD) : (bigSep Finset.univ fun c : Fin ((K (F := F)).nCore 0) => (P X).st 0 d c)
    = (bigSep Finset.univ fun c : Fin ((K (F := F)).nCore 0) => bigSep Finset.univ fun i : Fin ((K (F := F)).nSub 0) => tileRes0 X d (wid 0 c i) (X.fo0 d) : sProp 𝕄) := rfl
omit [FloatOps F] in
theorem dn0_eq (X : CallData F) (d : Dev nD) : (bigSep Finset.univ fun c : Fin ((K (F := F)).nCore 0) => (P X).dn 0 d c)
    = (bigSep Finset.univ fun c : Fin ((K (F := F)).nCore 0) => bigSep Finset.univ fun i : Fin ((K (F := F)).nSub 0) => tileRes0 X d (wid 0 c i) (gat0 X d) : sProp 𝕄) := rfl
omit [FloatOps F] in
theorem st1_eq (X : CallData F) (d : Dev nD) : (bigSep Finset.univ fun c : Fin ((K (F := F)).nCore 1) => (P X).st 1 d c)
    = (bigSep Finset.univ fun c : Fin ((K (F := F)).nCore 1) => bigSep Finset.univ fun i : Fin ((K (F := F)).nSub 1) => tileRes1 X d (wid 1 c i) (X.fo1 d) : sProp 𝕄) := rfl
omit [FloatOps F] in
theorem dn1_eq (X : CallData F) (d : Dev nD) : (bigSep Finset.univ fun c : Fin ((K (F := F)).nCore 1) => (P X).dn 1 d c)
    = (bigSep Finset.univ fun c : Fin ((K (F := F)).nCore 1) => bigSep Finset.univ fun i : Fin ((K (F := F)).nSub 1) => tileRes1 X d (wid 1 c i) (gat1 X d) : sProp 𝕄) := rfl

section Calls

variable (Ω : Outs F) (m : (ℓ : Loc nD τ sig) → Buf (Elt F) ℓ)

omit [FloatOps F] in
theorem sub3_0 : ({rV main_v22, rV main_v24, rV main_v25} : Finset (DevRef τ sig)) ⊆ SU := by
  intro x hx
  simp only [Finset.mem_insert, Finset.mem_singleton] at hx
  rcases hx with rfl | rfl | rfl
  · exact mem_SU _ rfl
  · exact mem_SU _ rfl
  · exact mem_SU _ rfl

/-- SparseCore call 0: the projected array, the call's index array and its result leave the held set, split into the
    tasks' resources, and come back with the result at the gathered values. -/
theorem step_run0 (κ : GSem nD τ sig → ℕ) (d : Dev nD) {Φ : PUnit → sProp 𝕄} :
    iprop((K (F := F)).ctx EH (P (XD Ω m)) κ ∗ (K (F := F)).tcSt EH d 0 ∗ held (SparseCore.T d) SU (V3 Ω m d)
        ∗ (((K (F := F)).tcSt EH d 1 ∗ held (SparseCore.T d) SU (V4 Ω m d)) -∗ Φ ⟨⟩))
      ⊢ wp frame (wpE ((K (F := F)).defs (D (F := F))) 𝒱 (SparseCore.T d) none) Set.univ ((K (F := F)).run d 0) Φ := by
  have hne1 : rV main_v22 ≠ rV main_v24 := by decide
  have hne2 : rV main_v22 ≠ rV main_v25 := by decide
  have hne3 : rV main_v24 ≠ rV main_v25 := by decide
  unfold V4
  rw [held_take3 d (V3 Ω m d) _ _ _ hne1 hne2 hne3 sub3_0, held_update3 d (V3 Ω m d) _ _ _ hne1 hne2 hne3 sub3_0]
  iintro ⟨#Hctx, Hst, ⟨⟨Hp, Hi, Ho⟩, Hrest⟩, Hk⟩
  ihave Hs := (call_split0 (XD Ω m) d ((XD Ω m).fo0 d)).1 $$ [Hp Hi Ho]
  · isplitl [Hp]; · iexact Hp
    isplitl [Hi]; · iexact Hi
    iexact Ho
  icases Hs with ⟨Hr, Htiles⟩
  iapply ((K (F := F)).wp_run (D (F := F)) 𝒱 (EH := EH) (P := P (XD Ω m)) κ d 0) $$ [Hst Htiles Hr Hrest Hk]
  isplitr; · iexact Hctx
  isplitl [Hst]; · iexact Hst
  isplitl [Htiles]
  · iapply (Entails.of_eq (st0_eq (XD Ω m) d).symm); iexact Htiles
  iintro ⟨Hst, Hdn⟩
  ihave Hdn' := (Entails.of_eq (dn0_eq (XD Ω m) d)) $$ Hdn
  ihave Hj := (call_split0 (XD Ω m) d (gat0 (XD Ω m) d)).2 $$ [Hr Hdn']
  · isplitl [Hr]; · iexact Hr
    iexact Hdn'
  icases Hj with ⟨Hp, Hi, Ho⟩
  iapply Hk
  isplitl [Hst]; · iexact Hst
  isplitl [Hp Hi Ho]
  · isplitl [Hp]; · iexact Hp
    isplitl [Hi]; · iexact Hi
    iexact Ho
  iexact Hrest

omit [FloatOps F] in
theorem sub3_1 : ({rV main_v22, rV main_v43, rV main_v44} : Finset (DevRef τ sig)) ⊆ SU := by
  intro x hx
  simp only [Finset.mem_insert, Finset.mem_singleton] at hx
  rcases hx with rfl | rfl | rfl
  · exact mem_SU _ rfl
  · exact mem_SU _ rfl
  · exact mem_SU _ rfl

/-- SparseCore call 1: the projected array, the call's index array and its result leave the held set, split into the
    tasks' resources, and come back with the result at the gathered values. -/
theorem step_run1 (κ : GSem nD τ sig → ℕ) (d : Dev nD) {Φ : PUnit → sProp 𝕄} :
    iprop((K (F := F)).ctx EH (P (XD Ω m)) κ ∗ (K (F := F)).tcSt EH d 1 ∗ held (SparseCore.T d) SU (V7 Ω m d)
        ∗ (((K (F := F)).tcSt EH d 2 ∗ held (SparseCore.T d) SU (V8 Ω m d)) -∗ Φ ⟨⟩))
      ⊢ wp frame (wpE ((K (F := F)).defs (D (F := F))) 𝒱 (SparseCore.T d) none) Set.univ ((K (F := F)).run d 1) Φ := by
  have hne1 : rV main_v22 ≠ rV main_v43 := by decide
  have hne2 : rV main_v22 ≠ rV main_v44 := by decide
  have hne3 : rV main_v43 ≠ rV main_v44 := by decide
  unfold V8
  rw [held_take3 d (V7 Ω m d) _ _ _ hne1 hne2 hne3 sub3_1, held_update3 d (V7 Ω m d) _ _ _ hne1 hne2 hne3 sub3_1]
  iintro ⟨#Hctx, Hst, ⟨⟨Hp, Hi, Ho⟩, Hrest⟩, Hk⟩
  ihave Hs := (call_split1 (XD Ω m) d ((XD Ω m).fo1 d)).1 $$ [Hp Hi Ho]
  · isplitl [Hp]; · iexact Hp
    isplitl [Hi]; · iexact Hi
    iexact Ho
  icases Hs with ⟨Hr, Htiles⟩
  iapply ((K (F := F)).wp_run (D (F := F)) 𝒱 (EH := EH) (P := P (XD Ω m)) κ d 1) $$ [Hst Htiles Hr Hrest Hk]
  isplitr; · iexact Hctx
  isplitl [Hst]; · iexact Hst
  isplitl [Htiles]
  · iapply (Entails.of_eq (st1_eq (XD Ω m) d).symm); iexact Htiles
  iintro ⟨Hst, Hdn⟩
  ihave Hdn' := (Entails.of_eq (dn1_eq (XD Ω m) d)) $$ Hdn
  ihave Hj := (call_split1 (XD Ω m) d (gat1 (XD Ω m) d)).2 $$ [Hr Hdn']
  · isplitl [Hr]; · iexact Hr
    iexact Hdn'
  icases Hj with ⟨Hp, Hi, Ho⟩
  iapply Hk
  isplitl [Hst]; · iexact Hst
  isplitl [Hp Hi Ho]
  · isplitl [Hp]; · iexact Hp
    isplitl [Hi]; · iexact Hi
    iexact Ho
  iexact Hrest

end Calls

/-! ## @main on the TensorCore -/

section Main

variable (Ω : Outs F) (m : (ℓ : Loc nD τ sig) → Buf (Elt F) ℓ) (ρ : Dev nD → PrngReg)

/-- What @main leaves the claim: its arrays held at the last valuation. -/
abbrev FIN (d : Dev nD) : sProp 𝕄 := held (SparseCore.T d) SU (V11 Ω m d)

set_option maxHeartbeats 8000000 in
set_option backward.isDefEq.respectTransparency.types false in
/-- @main on device d's TensorCore: six stretches of host operations, the three kernel regions as steps on the
    valuation, the two SparseCore calls. -/
theorem hmain (hR0 : RegionStep (F := F) 0 0 main_v22 Ω.o0) (hR1 : RegionStep (F := F) 1 1 main_v41 Ω.o1)
    (hR2 : RegionStep (F := F) 2 2 main_v60 Ω.o2) (κ : GSem nD τ sig → ℕ) (d : Dev nD) :
    iprop((K (F := F)).ctx EH (P (XD Ω m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN Ω m d) := by
  obtain ⟨R0, e0⟩ : ∃ R : sProp 𝕄, (K (F := F)).tcSt EH d 0 = iprop(owesTc (F := F) d 0 ∗ R) := ⟨_, rfl⟩
  obtain ⟨R1, e1⟩ : ∃ R : sProp 𝕄, (K (F := F)).tcSt EH d 1 = iprop(owesTc (F := F) d 1 ∗ R) := ⟨_, rfl⟩
  obtain ⟨R2, e2⟩ : ∃ R : sProp 𝕄, (K (F := F)).tcSt EH d 2 = iprop(owesTc (F := F) d 2 ∗ R) := ⟨_, rfl⟩
  unfold SparseCore.Cfg.tcRes G
  rw [unscoped_held, main_eq, bigSep_W0,
    show (seq (opsF (F := F)) : Prog (TpuEff nD τ sig (Elt F) (SparseCore.Sig (ΛP (F := F)) 2) .tc) PUnit)
      = (seq (opsF (F := F)) >>= fun _ => pure ⟨⟩) from (Prog.bind_pure _).symm]
  iintro ⟨#Hctx, Hst, ⟨Hb, Hheld, -, -⟩, ⟨Hg0, Ht0⟩, ⟨Hg1, Ht1⟩, ⟨Hg2, Ht2⟩⟩
  -- stretch 1
  iapply (wp_seq 𝒱 none Set.univ d SU _ (opsA (F := F)) (hS_of hTA) hfA (V0 m d)) $$ [Hb Hheld]
  · isplitl [Hb]; · iexact Hb
    iexact Hheld
  iintro ⟨Hb, Hheld⟩
  -- region 0
  ihave Hst' := (Entails.of_eq e0) $$ Hst
  icases Hst' with ⟨HO, HR⟩
  ihave Hlev := (SparseCore.Cfg.ctx_levAts κ) $$ Hctx
  iapply (step_region 0 0 main_v22 Ω.o0 hR0 d (V1 m d) _ _)
  isplitr [Hb Hheld HO Hlev Hg0 Ht0]
  swap
  · isplitl [Hb]; · iexact Hb
    isplitl [Hheld]; · iexact Hheld
    isplitl [HO]; · iexact HO
    isplitl [Hlev]; · iexact Hlev
    isplitl [Hg0]; · iexact Hg0
    iexact Ht0
  iintro ⟨Hb, Hheld, HO⟩
  -- stretch 2
  iapply (wp_seq 𝒱 none Set.univ d SU _ (opsB (F := F)) (hS_of hTB) hfB (V2 Ω m d)) $$ [Hb Hheld]
  · isplitl [Hb]; · iexact Hb
    iexact Hheld
  iintro ⟨Hb, Hheld⟩
  -- SparseCore call 0
  rw [wp_bind]
  iapply (step_run0 Ω m κ d)
  isplitr; · iexact Hctx
  isplitl [HO HR]
  · iapply (Entails.of_eq e0.symm)
    isplitl [HO]; · iexact HO
    iexact HR
  isplitl [Hheld]; · iexact Hheld
  iintro ⟨Hst, Hheld⟩
  -- stretch 3
  iapply (wp_seq 𝒱 none Set.univ d SU _ (opsC (F := F)) (hS_of hTC) hfC (V4 Ω m d)) $$ [Hb Hheld]
  · isplitl [Hb]; · iexact Hb
    iexact Hheld
  iintro ⟨Hb, Hheld⟩
  -- region 1
  ihave Hst' := (Entails.of_eq e1) $$ Hst
  icases Hst' with ⟨HO, HR⟩
  ihave Hlev := (SparseCore.Cfg.ctx_levAts κ) $$ Hctx
  iapply (step_region 1 1 main_v41 Ω.o1 hR1 d (V5 Ω m d) _ _)
  isplitr [Hb Hheld HO Hlev Hg1 Ht1]
  swap
  · isplitl [Hb]; · iexact Hb
    isplitl [Hheld]; · iexact Hheld
    isplitl [HO]; · iexact HO
    isplitl [Hlev]; · iexact Hlev
    isplitl [Hg1]; · iexact Hg1
    iexact Ht1
  iintro ⟨Hb, Hheld, HO⟩
  -- stretch 4
  iapply (wp_seq 𝒱 none Set.univ d SU _ (opsD (F := F)) (hS_of hTD) hfD (V6 Ω m d)) $$ [Hb Hheld]
  · isplitl [Hb]; · iexact Hb
    iexact Hheld
  iintro ⟨Hb, Hheld⟩
  -- SparseCore call 1
  rw [wp_bind]
  iapply (step_run1 Ω m κ d)
  isplitr; · iexact Hctx
  isplitl [HO HR]
  · iapply (Entails.of_eq e1.symm)
    isplitl [HO]; · iexact HO
    iexact HR
  isplitl [Hheld]; · iexact Hheld
  iintro ⟨Hst, Hheld⟩
  -- stretch 5
  iapply (wp_seq 𝒱 none Set.univ d SU _ (opsE (F := F)) (hS_of hTE) hfE (V8 Ω m d)) $$ [Hb Hheld]
  · isplitl [Hb]; · iexact Hb
    iexact Hheld
  iintro ⟨Hb, Hheld⟩
  -- region 2
  ihave Hst' := (Entails.of_eq e2) $$ Hst
  icases Hst' with ⟨HO, HR⟩
  ihave Hlev := (SparseCore.Cfg.ctx_levAts κ) $$ Hctx
  iapply (step_region 2 2 main_v60 Ω.o2 hR2 d (V9 Ω m d) _ _)
  isplitr [Hb Hheld HO Hlev Hg2 Ht2]
  swap
  · isplitl [Hb]; · iexact Hb
    isplitl [Hheld]; · iexact Hheld
    isplitl [HO]; · iexact HO
    isplitl [Hlev]; · iexact Hlev
    isplitl [Hg2]; · iexact Hg2
    iexact Ht2
  iintro ⟨Hb, Hheld, HO⟩
  -- stretch 6 and the return
  iapply (wp_seq 𝒱 none Set.univ d SU _ (opsF (F := F)) (hS_of hTF) hfF (V10 Ω m d)) $$ [Hb Hheld]
  · isplitl [Hb]; · iexact Hb
    iexact Hheld
  iintro ⟨Hb, Hheld⟩
  rw [wp_pure]; imodintro
  isplitl [HO HR]
  · iapply (Entails.of_eq e2.symm)
    isplitl [HO]; · iexact HO
    iexact HR
  iexact Hheld

/-! ## The final memory -/

/-- What the final memory says on device d: every array of @main holds the last valuation's contents. -/
def fq (d : Dev nD) (s' : Phys nD τ sig (Elt F)) : Prop :=
  ∀ b : Ref sig .tc, b.isScoped = false → s'.mem.mem ((SparseCore.T d).loc b) = V11 Ω m d (rV b)

theorem hfin (d : Dev nD) (s' : Phys nD τ sig (Elt F)) : iprop(FIN Ω m d ∗ SI s') ⊢ (⌜fq Ω m d s'⌝ : sProp 𝕄) :=
  held_read d (V11 Ω m d) s'

end Main

/-! ## The program's run -/

section Run

variable (Ω : Outs F) (m : (ℓ : Loc nD τ sig) → Buf (Elt F) ℓ) (g : Dev nD → PrngReg)

/-- Every array of @main ends at the last valuation's contents: its arguments, which no operation writes, and its
    result among them. -/
def QC : PUnit × MemSt nD τ sig (Elt F) → Prop :=
  fun r => ∀ (c : Dev nD) (b : Ref sig .tc), b.isScoped = false → r.2.mem ((SparseCore.T c).loc b) = V11 Ω m c (rV b)

theorem run_main [∀ e, Nonempty (Elt F e)]
    (hR0 : RegionStep (F := F) 0 0 main_v22 Ω.o0) (hR1 : RegionStep (F := F) 1 1 main_v41 Ω.o1)
    (hR2 : RegionStep (F := F) 2 2 main_v60 Ω.o2)
    (htile0 : (K (F := F)).TileObl (D (F := F)) 𝒱 (P (XD Ω m)) v₀ 0) (htile1 : (K (F := F)).TileObl (D (F := F)) 𝒱 (P (XD Ω m)) v₀ 1) :
    θ_run (Cert.Kernel.defs (F := F)) (Cert.Kernel.threads (F := F)) ⟨m, fun _ => 0, g⟩ (QC Ω m) :=
  SparseCore.Cfg.θ_run_sc (K := K (F := F)) (D := D (F := F)) (𝒱 := 𝒱) (EH := EH) (P := P (XD Ω m)) facts v₀
    (fun q hq => match q with | 0 => nomatch hq | 1 => nomatch hq)
    (fun q _ => match q with | 0 => htile0 | 1 => htile1)
    (fun q _ => SparseCore.Cfg.VecSplit.of_plain (vecSplit (XD Ω m) q))
    m g main (fun d => G (F := F) d) (FIN Ω m) (u₀ (F := F)) (sep_elim_left.trans (hu₀ (XD Ω m))) (hmain Ω m g hR0 hR1 hR2)
    (fq Ω m) (hfin Ω m) (QC Ω m) (fun _ h => h)

end Run

end Cert.Kernel.KMain

end
-- ==== Proof.KMainDBits.lean ====
/-
  No operation, region or call of @main writes an argument array: the last valuation holds each at its launch
  contents. The program's run, stated of the result and the arguments.
-/
import proofs.«215572_g25211458027672_cont_9to1_2008_46_alg».proof.Proof.KMainCBits

noncomputable section

namespace Cert.Kernel.KMain

open Cert.Kernel Cert.Kernel.Gen Cert.Kernel.KS Cert.Kernel.KPay Cert.Kernel.KSplit

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within wp_seq seq after)

variable {F : FTy → Type} [FloatOps F]

local notation "𝕄" => MT nD τ sig (HIx 2) (Elt F) ℕ UU ℕ

/-- The arrays @main's operations, regions and calls write. -/
def WR : List (Ref sig .tc) :=
  [main_v0, main_v1, main_v2, main_v3, main_v4, main_v5, main_v6, main_v7, main_v8, main_v9, main_v10, main_v11, main_c, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_call0.v15.ref, main_v13, main_v14, main_v15, main_v16, main_v17, main_v18, main_v19, main_v20, main_v21, main_v23, main_v24, main_v26, main_v27, main_v28, main_v29, main_v30, main_v31, main_v32, main_v33, main_v34, main_v35, main_v36, main_v37, main_v38, main_v39, main_v40, main_v42, main_v43, main_v45, main_v46, main_v47, main_v48, main_v49, main_v50, main_v51, main_v52, main_v53, main_v54, main_v55, main_v56, main_v57, main_v58, main_v59, main_v61, main_v22, main_v25, main_v41, main_v44, main_v60]

omit [FloatOps F] in
theorem w_of {ops : List (HloOp τ sig (Elt F))} (h : ∀ op ∈ ops, ∃ y : Ref sig .tc, y ∈ WR ∧ op.writes = {rV y}) :
    ops.Forall fun op => op.writes ⊆ (WR.map (Proc.devRef (τ := τ) .tc)).toFinset :=
  List.forall_iff_forall_mem.mpr fun op hop => by
    obtain ⟨y, hy, e⟩ := h op hop
    rw [e, Finset.singleton_subset_iff, List.mem_toFinset]
    exact List.mem_map.mpr ⟨y, hy, rfl⟩

theorem wA' : ∀ op ∈ opsA (F := F), ∃ y : Ref sig .tc, y ∈ WR ∧ op.writes = {rV y} := by
  intro _ h; unfold opsA at h
  (repeat (cases h with | head => exact ⟨_, by decide, rfl⟩ | tail _ h => ?_)); exact nomatch h
theorem wA : (opsA (F := F)).Forall fun op => op.writes ⊆ (WR.map (Proc.devRef (τ := τ) .tc)).toFinset := w_of wA'
theorem wB' : ∀ op ∈ opsB (F := F), ∃ y : Ref sig .tc, y ∈ WR ∧ op.writes = {rV y} := by
  intro _ h; unfold opsB at h
  (repeat (cases h with | head => exact ⟨_, by decide, rfl⟩ | tail _ h => ?_)); exact nomatch h
theorem wB : (opsB (F := F)).Forall fun op => op.writes ⊆ (WR.map (Proc.devRef (τ := τ) .tc)).toFinset := w_of wB'
theorem wC' : ∀ op ∈ opsC (F := F), ∃ y : Ref sig .tc, y ∈ WR ∧ op.writes = {rV y} := by
  intro _ h; unfold opsC at h
  (repeat (cases h with | head => exact ⟨_, by decide, rfl⟩ | tail _ h => ?_)); exact nomatch h
theorem wC : (opsC (F := F)).Forall fun op => op.writes ⊆ (WR.map (Proc.devRef (τ := τ) .tc)).toFinset := w_of wC'
theorem wD' : ∀ op ∈ opsD (F := F), ∃ y : Ref sig .tc, y ∈ WR ∧ op.writes = {rV y} := by
  intro _ h; unfold opsD at h
  (repeat (cases h with | head => exact ⟨_, by decide, rfl⟩ | tail _ h => ?_)); exact nomatch h
theorem wD : (opsD (F := F)).Forall fun op => op.writes ⊆ (WR.map (Proc.devRef (τ := τ) .tc)).toFinset := w_of wD'
theorem wE' : ∀ op ∈ opsE (F := F), ∃ y : Ref sig .tc, y ∈ WR ∧ op.writes = {rV y} := by
  intro _ h; unfold opsE at h
  (repeat (cases h with | head => exact ⟨_, by decide, rfl⟩ | tail _ h => ?_)); exact nomatch h
theorem wE : (opsE (F := F)).Forall fun op => op.writes ⊆ (WR.map (Proc.devRef (τ := τ) .tc)).toFinset := w_of wE'
theorem wF' : ∀ op ∈ opsF (F := F), ∃ y : Ref sig .tc, y ∈ WR ∧ op.writes = {rV y} := by
  intro _ h; unfold opsF at h
  (repeat (cases h with | head => exact ⟨_, by decide, rfl⟩ | tail _ h => ?_)); exact nomatch h
theorem wF : (opsF (F := F)).Forall fun op => op.writes ⊆ (WR.map (Proc.devRef (τ := τ) .tc)).toFinset := w_of wF'

/-- An array outside the written ones keeps its launch contents to the end. -/
theorem kept (Ω : Outs F) (m : (ℓ : Loc nD τ sig) → Buf (Elt F) ℓ) (d : Dev nD) (r : Ref sig .tc) (hr : r ∉ WR) :
    V11 Ω m d (rV r) = m ((SparseCore.T d).loc r) := by
  have h22 : rV r ≠ rV main_v22 := StableHlo.devRef_ne_of_ne fun e => hr (by rw [e]; decide)
  have h25 : rV r ≠ rV main_v25 := StableHlo.devRef_ne_of_ne fun e => hr (by rw [e]; decide)
  have h41 : rV r ≠ rV main_v41 := StableHlo.devRef_ne_of_ne fun e => hr (by rw [e]; decide)
  have h44 : rV r ≠ rV main_v44 := StableHlo.devRef_ne_of_ne fun e => hr (by rw [e]; decide)
  have h60 : rV r ≠ rV main_v60 := StableHlo.devRef_ne_of_ne fun e => hr (by rw [e]; decide)
  unfold V11
  rw [StableHlo.after_of_writes_sub (opsF (F := F)) _ wF hr]
  unfold V10
  rw [Function.update_of_ne h60]
  unfold V9
  rw [StableHlo.after_of_writes_sub (opsE (F := F)) _ wE hr]
  unfold V8
  rw [Function.update_of_ne h44]
  unfold V7
  rw [StableHlo.after_of_writes_sub (opsD (F := F)) _ wD hr]
  unfold V6
  rw [Function.update_of_ne h41]
  unfold V5
  rw [StableHlo.after_of_writes_sub (opsC (F := F)) _ wC hr]
  unfold V4
  rw [Function.update_of_ne h25]
  unfold V3
  rw [StableHlo.after_of_writes_sub (opsB (F := F)) _ wB hr]
  unfold V2
  rw [Function.update_of_ne h22]
  unfold V1
  rw [StableHlo.after_of_writes_sub (opsA (F := F)) _ wA hr]
  rfl

/-- The program's run: the result at the pure term RES, every argument unchanged. -/
theorem run_main' [∀ e, Nonempty (Elt F e)] (Ω : Outs F) (m : (ℓ : Loc nD τ sig) → Buf (Elt F) ℓ) (g : Dev nD → PrngReg)
    (hR0 : RegionStep (F := F) 0 0 main_v22 Ω.o0) (hR1 : RegionStep (F := F) 1 1 main_v41 Ω.o1)
    (hR2 : RegionStep (F := F) 2 2 main_v60 Ω.o2)
    (htile0 : (K (F := F)).TileObl (D (F := F)) 𝒱 (P (XD Ω m)) v₀ 0) (htile1 : (K (F := F)).TileObl (D (F := F)) 𝒱 (P (XD Ω m)) v₀ 1) :
    θ_run (Cert.Kernel.defs (F := F)) (Cert.Kernel.threads (F := F)) ⟨m, fun _ => 0, g⟩ (fun r => ∀ c : Dev nD,
      r.2.mem ((c.tc : Thread nD τ).loc main_v61) = RES Ω m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run Cert.Kernel.defs _ _).mono (fun _ h c =>
    ⟨h c main_v61 rfl,
     (h c main_arg0 rfl).trans (kept Ω m c main_arg0 (by decide)),
     (h c main_arg1 rfl).trans (kept Ω m c main_arg1 (by decide)),
     (h c main_arg2 rfl).trans (kept Ω m c main_arg2 (by decide)),
     (h c main_arg3 rfl).trans (kept Ω m c main_arg3 (by decide)),
     (h c main_arg4 rfl).trans (kept Ω m c main_arg4 (by decide)),
     (h c main_arg5 rfl).trans (kept Ω m c main_arg5 (by decide)),
     (h c main_arg6 rfl).trans (kept Ω m c main_arg6 (by decide)),
     (h c main_arg7 rfl).trans (kept Ω m c main_arg7 (by decide)),
     (h c main_arg8 rfl).trans (kept Ω m c main_arg8 (by decide)),
     (h c main_arg9 rfl).trans (kept Ω m c main_arg9 (by decide)),
     (h c main_arg10 rfl).trans (kept Ω m c main_arg10 (by decide)),
     (h c main_arg11 rfl).trans (kept Ω m c main_arg11 (by decide)),
     (h c main_arg12 rfl).trans (kept Ω m c main_arg12 (by decide)),
     (h c main_arg13 rfl).trans (kept Ω m c main_arg13 (by decide)),
     (h c main_arg14 rfl).trans (kept Ω m c main_arg14 (by decide)),
     (h c main_arg15 rfl).trans (kept Ω m c main_arg15 (by decide)),
     (h c main_arg16 rfl).trans (kept Ω m c main_arg16 (by decide)),
     (h c main_arg17 rfl).trans (kept Ω m c main_arg17 (by decide)),
     (h c main_arg18 rfl).trans (kept Ω m c main_arg18 (by decide))⟩)
    (run_main Ω m g hR0 hR1 hR2 htile0 htile1)

end Cert.Kernel.KMain

end
-- ==== Proof.KBodyDefBits.lean ====
import proofs.«215572_g25211458027672_cont_9to1_2008_46_alg».proof.Proof.SkeletonKernel

set_option synthInstance.maxSize 4096

noncomputable section

namespace Cert.Kernel.BodyVal

open Cert.Kernel.Gen Cert.Kernel.GenP

open Idealize.ShloMosaic Idealize.SL.Sem

variable {F : FTy → Type} [FloatOps F]

/-- What the body `cc2_body` stores, as one function of the blocks it loads: the payloads `k2_pay1` … `k2_pay11`
    composed as the four parts of the body pass them on. `c46` is the scalar `%cst_46` by which the aggregated
    message is scaled; the scalar `%cst_26` of the first GELU is its printed word. -/
def bodyOut (c46 : F .f32)
    (v0 : Vec F S1x128x128 .f32) (v2 : Vec F S1x36x128x128 .f32) (v6 : Vec F S36x128x128 .f32) (v9 : Vec F S1x128x36 .f32)
    (v11 : Vec F S1x1x1x4608 .bf16) (v149 : Vec F S1x1x1x128 .f32) (v53 : Vec F S128x4608 .bf16) (v20 : Vec F S4608x128 .bf16)
    (v13 : Vec F S128x128 .f32) (v16 : Vec F S1x128 .f32) (v24 : Vec F S128x128 .bf16) (v38 : Vec F S128x128 .bf16)
    (v41 : Vec F S1x128 .f32) (v61 : Vec F S128x128 .f32) (v63 : Vec F S1x128 .f32) (v99 : Vec F S128x512 .bf16)
    (v102 : Vec F S1x512 .f32) (v115 : Vec F S512x128 .bf16) (v118 : Vec F S1x128 .f32) (v72 : Vec F S1x128 .f32)
    (v74 : Vec F S1x128 .f32) (v123 : Vec F S1x128 .f32) (v125 : Vec F S1x128 .f32) : FVec F S1x128x128 .f32 :=
  have v68 : FVec F S128x128 .f32 :=
    k2_pay6 (k2_pay3 v9) (k2_pay4 v11) (k2_pay5 v0 v2 v6 v13 v16 v20 v24) (Scalar.ofBits .f32 0x3F3504F3#32) v38 v41 v53 v61 v63
  k2_pay1 (k2_pay11 (k2_pay7 (k2_pay2 v0) v68 c46 v72 v74) (k2_pay8 (k2_pay2 v0) v68 c46 v72 v74 v99 v102)
    (k2_pay9 (k2_pay2 v0) v68 c46 v72 v74 v99 v102) (k2_pay10 (F := F)) v115 v118 v123 v125 v149)

end Cert.Kernel.BodyVal

end
-- ==== Proof.KBodyDef4Bits.lean ====
import proofs.«215572_g25211458027672_cont_9to1_2008_46_alg».proof.Proof.SkeletonKernel

set_option synthInstance.maxSize 4096

noncomputable section

namespace Cert.Kernel.BodyVal

open Cert.Kernel.Gen Cert.Kernel.GenP

open Idealize.ShloMosaic Idealize.SL.Sem

variable {F : FTy → Type} [FloatOps F]

/-- What the body `cc4_body` stores, as one function of the blocks it loads: the payloads `k4_pay1` … `k4_pay11`
    composed as the four parts of the body pass them on. `c46` is the scalar `%cst_46` by which the aggregated
    message is scaled; the scalar `%cst_26` of the first GELU is its printed word. -/
def bodyOut4 (c46 : F .f32)
    (v0 : Vec F S1x128x128 .f32) (v2 : Vec F S1x36x128x128 .f32) (v6 : Vec F S36x128x128 .f32) (v9 : Vec F S1x128x36 .f32)
    (v11 : Vec F S1x1x1x4608 .bf16) (v149 : Vec F S1x1x1x128 .f32) (v53 : Vec F S128x4608 .bf16) (v20 : Vec F S4608x128 .bf16)
    (v13 : Vec F S128x128 .f32) (v16 : Vec F S1x128 .f32) (v24 : Vec F S128x128 .bf16) (v38 : Vec F S128x128 .bf16)
    (v41 : Vec F S1x128 .f32) (v61 : Vec F S128x128 .f32) (v63 : Vec F S1x128 .f32) (v99 : Vec F S128x512 .bf16)
    (v102 : Vec F S1x512 .f32) (v115 : Vec F S512x128 .bf16) (v118 : Vec F S1x128 .f32) (v72 : Vec F S1x128 .f32)
    (v74 : Vec F S1x128 .f32) (v123 : Vec F S1x128 .f32) (v125 : Vec F S1x128 .f32) : FVec F S1x128x128 .f32 :=
  have v68 : FVec F S128x128 .f32 :=
    k4_pay6 (k4_pay3 v9) (k4_pay4 v11) (k4_pay5 v0 v2 v6 v13 v16 v20 v24) (Scalar.ofBits .f32 0x3F3504F3#32) v38 v41 v53 v61 v63
  k4_pay1 (k4_pay11 (k4_pay7 (k4_pay2 v0) v68 c46 v72 v74) (k4_pay8 (k4_pay2 v0) v68 c46 v72 v74 v99 v102)
    (k4_pay9 (k4_pay2 v0) v68 c46 v72 v74 v99 v102) (k4_pay10 (F := F)) v115 v118 v123 v125 v149)

end Cert.Kernel.BodyVal

end
-- ==== Proof.KHostValBits.lean ====
/-
  The arrays the kernel program's @main computes on the host, each as a pure term of the values it is
  computed from, exactly as the printed operations compose it, and each read at an index.
-/
import proofs.«215572_g25211458027672_cont_9to1_2008_46_alg».proof.Proof.Gen.Kernel
import Idealize.ShloMosaic.Lib.ValueIdx
import Idealize.ShloMosaic.Lib.ValueLayout
import Idealize.ShloMosaic.Lib.IdealHost
import Idealize.ShloMosaic.Lib.WordArith
import Idealize.ShloMosaic.Lib.Pipeline.Value

noncomputable section

namespace Cert.Kernel.HostVal

open Idealize.ShloMosaic Idealize.ShloMosaic.ValueIdx
open Cert.Kernel
open Cert.Kernel.Facts₀

variable {F : FTy → Type} [FloatOps F]

/-! ## The three row blocks of W1 -/

/-- Rows 0 to 127 of W1. -/
def val_v0 (a5 : Vec F S384x128 .f32) : Vec F S128x128 .f32 :=
  extractStridedSlice S128x128 ![0, 0] a5 slices_S384x128_S128x128_0_0

/-- Rows 128 to 255 of W1. -/
def val_v1 (a5 : Vec F S384x128 .f32) : Vec F S128x128 .f32 :=
  extractStridedSlice S128x128 ![128, 0] a5 slices_S384x128_S128x128_128_0

/-- Rows 256 to 383 of W1. -/
def val_v2 (a5 : Vec F S384x128 .f32) : Vec F S128x128 .f32 :=
  extractStridedSlice S128x128 ![256, 0] a5 slices_S384x128_S128x128_256_0

theorem val_v0_apply (a5 : Vec F S384x128 .f32) (i j : Fin 128) :
    val_v0 a5 (ix2 i j) = a5 (ix2 ⟨i.val, by omega⟩ j) :=
  slice2_axis0_apply 0 a5 _ i j _ (by show i.val = 0 + i.val; omega)

theorem val_v1_apply (a5 : Vec F S384x128 .f32) (i j : Fin 128) :
    val_v1 a5 (ix2 i j) = a5 (ix2 ⟨128 + i.val, by omega⟩ j) :=
  slice2_axis0_apply 128 a5 _ i j _ rfl

theorem val_v2_apply (a5 : Vec F S384x128 .f32) (i j : Fin 128) :
    val_v2 a5 (ix2 i j) = a5 (ix2 ⟨256 + i.val, by omega⟩ j) :=
  slice2_axis0_apply 256 a5 _ i j _ rfl

/-! ## The edge features, neighbour axis in front of the node axis -/

/-- h_E with axes (batch, neighbour, node, feature). -/
def val_v3 (a1 : Vec F S4x1024x36x128 .f32) : Vec F S4x36x1024x128 .f32 :=
  transpose S4x36x1024x128 [0, 2, 1, 3] a1 transposes_S4x1024x36x128_S4x36x1024x128_0_2_1_3

theorem val_v3_apply (a1 : Vec F S4x1024x36x128 .f32) (b : Fin 4) (k : Fin 36) (n : Fin 1024) (j : Fin 128) :
    val_v3 a1 (ix4 b k n j) = a1 (ix4 b n k j) :=
  transpose_apply _ a1 _ _ _ fun c => match c with | ⟨0, _⟩ => rfl | ⟨1, _⟩ => rfl | ⟨2, _⟩ => rfl | ⟨3, _⟩ => rfl

/-! ## The neighbour indices, neighbour-major and flattened -/

/-- E_idx with axes (batch, neighbour, node). -/
def val_v4 (a2 : Vec F S4x1024x36 .i32) : Vec F S4x36x1024 .i32 :=
  transpose S4x36x1024 [0, 2, 1] a2 transposes_S4x1024x36_S4x36x1024_0_2_1

theorem val_v4_apply (a2 : Vec F S4x1024x36 .i32) (b : Fin 4) (k : Fin 36) (n : Fin 1024) :
    val_v4 a2 (ix3 b k n) = a2 (ix3 b n k) :=
  transpose_ix3_021_apply a2 _ b k n

/-- The same, the neighbour and node axes flattened row-major. -/
def val_v5 (a2 : Vec F S4x1024x36 .i32) : Vec F S4x36864 .i32 :=
  shapeCast S4x36864 (val_v4 a2) shapeCasts_S4x36x1024_S4x36864

theorem val_v5_apply (a2 : Vec F S4x1024x36 .i32) (b : Fin 4) (k : Fin 36) (n : Fin 1024) (f : Fin 36864)
    (hf : f.val = k.val * 1024 + n.val) :
    val_v5 a2 (ix2 b f) = a2 (ix3 b n k) := by
  unfold val_v5
  rw [shapeCast_apply (val_v4 a2) shapeCasts_S4x36x1024_S4x36864 (ix2 b f) (ix3 b k n) (by
    rw [Shape.rowMajor_val_three, Shape.rowMajor_val_two]
    show (b.val * 36 + k.val) * 1024 + n.val = b.val * 36864 + f.val
    omega)]
  exact val_v4_apply a2 b k n

/-! ## The attention mask, laid out one node tile per row -/

/-- mask_attend with axes (batch, neighbour, node). -/
def val_v6 (a4 : Vec F S4x1024x36 .f32) : Vec F S4x36x1024 .f32 :=
  transpose S4x36x1024 [0, 2, 1] a4 transposes_S4x1024x36_S4x36x1024_0_2_1

theorem val_v6_apply (a4 : Vec F S4x1024x36 .f32) (b : Fin 4) (k : Fin 36) (n : Fin 1024) :
    val_v6 a4 (ix3 b k n) = a4 (ix3 b n k) :=
  transpose_ix3_021_apply a4 _ b k n

/-- The node axis split into 8 tiles of 128 nodes. -/
def val_v7 (a4 : Vec F S4x1024x36 .f32) : Vec F S4x36x8x128 .f32 :=
  shapeCast S4x36x8x128 (val_v6 a4) shapeCasts_S4x36x1024_S4x36x8x128

theorem val_v7_apply (a4 : Vec F S4x1024x36 .f32) (b : Fin 4) (k : Fin 36) (t : Fin 8) (i : Fin 128) (n : Fin 1024)
    (hn : n.val = t.val * 128 + i.val) :
    val_v7 a4 (ix4 b k t i) = a4 (ix3 b n k) := by
  unfold val_v7
  rw [shapeCast_apply (val_v6 a4) shapeCasts_S4x36x1024_S4x36x8x128 (ix4 b k t i) (ix3 b k n) (by
    rw [Shape.rowMajor_val_three, Shape.rowMajor_val_four]
    show (b.val * 36 + k.val) * 1024 + n.val = ((b.val * 36 + k.val) * 8 + t.val) * 128 + i.val
    omega)]
  exact val_v6_apply a4 b k n

/-- The tile axis in front of the neighbour axis. -/
def val_v8 (a4 : Vec F S4x1024x36 .f32) : Vec F S4x8x36x128 .f32 :=
  transpose S4x8x36x128 [0, 2, 1, 3] (val_v7 a4) transposes_S4x36x8x128_S4x8x36x128_0_2_1_3

theorem val_v8_apply (a4 : Vec F S4x1024x36 .f32) (b : Fin 4) (t : Fin 8) (k : Fin 36) (i : Fin 128) (n : Fin 1024)
    (hn : n.val = t.val * 128 + i.val) :
    val_v8 a4 (ix4 b t k i) = a4 (ix3 b n k) := by
  unfold val_v8
  rw [transpose_apply _ (val_v7 a4) transposes_S4x36x8x128_S4x8x36x128_0_2_1_3 (ix4 b t k i) (ix4 b k t i)
    (fun c => match c with | ⟨0, _⟩ => rfl | ⟨1, _⟩ => rfl | ⟨2, _⟩ => rfl | ⟨3, _⟩ => rfl)]
  exact val_v7_apply a4 b k t i n hn

/-- Each tile's (neighbour, node) block flattened into one row of 4608. -/
def val_v9 (a4 : Vec F S4x1024x36 .f32) : Vec F S4x8x1x4608 .f32 :=
  shapeCast S4x8x1x4608 (val_v8 a4) shapeCasts_S4x8x36x128_S4x8x1x4608

theorem val_v9_apply (a4 : Vec F S4x1024x36 .f32) (b : Fin 4) (t : Fin 8) (u : Fin 1) (jj : Fin 4608)
    (k : Fin 36) (i : Fin 128) (n : Fin 1024) (hjj : jj.val = k.val * 128 + i.val) (hn : n.val = t.val * 128 + i.val) :
    val_v9 a4 (ix4 b t u jj) = a4 (ix3 b n k) := by
  unfold val_v9
  have hu : u.val = 0 := by omega
  rw [shapeCast_apply (val_v8 a4) shapeCasts_S4x8x36x128_S4x8x1x4608 (ix4 b t u jj) (ix4 b t k i) (by
    rw [Shape.rowMajor_val_four, Shape.rowMajor_val_four]
    show ((b.val * 8 + t.val) * 36 + k.val) * 128 + i.val = ((b.val * 8 + t.val) * 1 + u.val) * 4608 + jj.val
    omega)]
  exact val_v8_apply a4 b t k i n hn

/-- The same narrowed to bf16. -/
def val_v10 (a4 : Vec F S4x1024x36 .f32) : Vec F S4x8x1x4608 .bf16 :=
  truncf .bf16 (val_v9 a4) bitsLt_bf16_f32

theorem val_v10_apply (a4 : Vec F S4x1024x36 .f32) (b : Fin 4) (t : Fin 8) (u : Fin 1) (jj : Fin 4608)
    (k : Fin 36) (i : Fin 128) (n : Fin 1024) (hjj : jj.val = k.val * 128 + i.val) (hn : n.val = t.val * 128 + i.val) :
    val_v10 a4 (ix4 b t u jj) = FloatOps.truncf .bf16 bitsLt_bf16_f32 (a4 (ix3 b n k)) := by
  show FloatOps.truncf .bf16 bitsLt_bf16_f32 (val_v9 a4 (ix4 b t u jj)) = _
  rw [val_v9_apply a4 b t u jj k i n hjj hn]

/-! ## Words: the facts about 32-bit words the remainder chain needs -/

theorem w128_ne_zero : ¬ ((128#32 : BitVec 32) = 0#32) := by
  intro h; have := congrArg BitVec.toNat h; simp at this

theorem w128_ne_neg_one : ¬ ((128#32 : BitVec 32) = -1) := by
  intro h; have := congrArg BitVec.toNat h; simp at this

theorem w128_msb : (128#32 : BitVec 32).msb = false := by
  rw [BitVec.msb_eq_false_iff_two_mul_lt]; simp

theorem ofNat_msb_of_lt (m : Nat) (hm : m < 4608) : (BitVec.ofNat 32 m).msb = false := by
  rw [BitVec.msb_eq_false_iff_two_mul_lt, BitVec.toNat_ofNat]
  omega

theorem cmpi_eq_w128_zero : IntOp.cmpi .eq (128#32) (0#32) = 0#1 := by
  simp [IntOp.cmpi]

theorem cmpi_slt_w128_zero : IntOp.cmpi .slt (128#32) (0#32) = 0#1 := by
  show BitVec.ofBool ((128#32 : BitVec 32).slt (0#32)) = 0#1
  rw [BitVec.slt_zero_eq_msb, w128_msb]; rfl

theorem cmpi_slt_ofNat_zero (m : Nat) (hm : m < 4608) : IntOp.cmpi .slt (BitVec.ofNat 32 m) (0#32) = 0#1 := by
  show BitVec.ofBool ((BitVec.ofNat 32 m).slt (0#32)) = 0#1
  rw [BitVec.slt_zero_eq_msb, ofNat_msb_of_lt m hm]; rfl

theorem cmpi_ne_zero_zero : IntOp.cmpi .ne (0#1) (0#1) = 0#1 := by simp [IntOp.cmpi]

theorem andi_zero_left (x : BitVec 1) : IntOp.andi (0#1) x = 0#1 := by simp [IntOp.andi]

/-- The host's signed remainder of a small natural by 128 is the natural remainder. -/
theorem remsi_host_w128 (j : Nat) (hj : j < 4608) :
    IntOp.remsi .host (BitVec.ofNat 32 j) (128#32) = BitVec.ofNat 32 (j % 128) := by
  unfold IntOp.remsi
  rw [if_neg (by
    unfold IntOp.SDivCorner
    intro h
    rcases h with h | ⟨_, h⟩
    · exact w128_ne_zero h
    · exact w128_ne_neg_one h)]
  unfold BitVec.srem
  rw [ofNat_msb_of_lt j hj, w128_msb]
  apply BitVec.eq_of_toNat_eq
  show (BitVec.ofNat 32 j % 128#32).toNat = _
  have hj32 : j % 2 ^ 32 = j := Nat.mod_eq_of_lt (Nat.lt_trans hj (by norm_num))
  have hm32 : j % 128 % 2 ^ 32 = j % 128 :=
    Nat.mod_eq_of_lt (Nat.lt_trans (Nat.mod_lt j (by norm_num)) (by norm_num))
  have h128 : 128 % 2 ^ 32 = 128 := by norm_num
  rw [BitVec.toNat_umod, BitVec.toNat_ofNat, BitVec.toNat_ofNat, BitVec.toNat_ofNat, h128, hj32, hm32]

/-- Equality of the words of two naturals below 2^32 is equality of the naturals. -/
theorem cmpi_eq_ofNat (a b : Nat) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · rw [if_neg h]
    have : ¬ (BitVec.ofNat 32 a = BitVec.ofNat 32 b) := by
      intro e; have := congrArg BitVec.toNat e
      rw [BitVec.toNat_ofNat, BitVec.toNat_ofNat, Nat.mod_eq_of_lt ha, Nat.mod_eq_of_lt hb] at this
      exact h this
    have hb : (BitVec.ofNat 32 a == BitVec.ofNat 32 b) = false := by
      rw [beq_eq_false_iff_ne]; exact this
    rw [hb]; rfl

/-! ## The column number modulo 128 (the call of @remainder, value by value) -/

/-- The column numbers 0 … 4607. -/
def val_v11 : IVec S4608 32 := iotaInDim S4608 32 0
/-- The divisor 128. -/
def val_c : IVec S_ 32 := constantI S_ 32 128#32
def val_call0_v0 : IVec S_ 32 := id val_c
def val_call0_c : IVec S_ 32 := constantI S_ 32 0#32
def val_call0_v1 : IVec S_ 1 := cmpi .eq val_call0_v0 val_call0_c
def val_call0_c_0 : IVec S_ 32 := constantI S_ 32 1#32
/-- The divisor, a zero one replaced by one. -/
def val_call0_v2 : IVec S_ 32 := select val_call0_v1 val_call0_c_0 val_call0_v0
def val_call0_v3 : IVec S4608 32 := broadcastInDim S4608 ![] bcast_S_S4608 val_call0_v2
/-- The truncated remainder. -/
def val_call0_v4 : IVec S4608 32 := Host.remsi val_v11 val_call0_v3
def val_call0_c_1 : IVec S_ 32 := constantI S_ 32 0#32
def val_call0_v5 : IVec S4608 32 := broadcastInDim S4608 ![] bcast_S_S4608 val_call0_c_1
def val_call0_v6 : IVec S4608 1 := cmpi .ne val_call0_v4 val_call0_v5
def val_call0_c_2 : IVec S_ 32 := constantI S_ 32 0#32
def val_call0_v7 : IVec S4608 32 := broadcastInDim S4608 ![] bcast_S_S4608 val_call0_c_2
def val_call0_v8 : IVec S4608 1 := cmpi .slt val_call0_v4 val_call0_v7
def val_call0_c_3 : IVec S_ 32 := constantI S_ 32 0#32
def val_call0_v9 : IVec S_ 1 := cmpi .slt val_call0_v2 val_call0_c_3
def val_call0_v10 : IVec S4608 1 := broadcastInDim S4608 ![] bcast_S_S4608 val_call0_v9
def val_call0_v11 : IVec S4608 1 := cmpi .ne val_call0_v8 val_call0_v10
def val_call0_v12 : IVec S4608 1 := andi val_call0_v11 val_call0_v6
def val_call0_v13 : IVec S4608 32 := broadcastInDim S4608 ![] bcast_S_S4608 val_call0_v2
def val_call0_v14 : IVec S4608 32 := addi val_call0_v4 val_call0_v13
/-- The floored remainder: the truncated one moved by the divisor where the signs differ. -/
def val_v12 : IVec S4608 32 := select val_call0_v12 val_call0_v14 val_call0_v4

theorem val_v11_apply (jj : Fin 4608) : val_v11 (ix1 jj) = BitVec.ofNat 32 jj.val := rfl

theorem val_call0_v2_apply (i : S_.Idx) : val_call0_v2 i = 128#32 := by
  show Scalar.select (IntOp.cmpi .eq (128#32) (0#32)) (1#32) (128#32) = 128#32
  rw [cmpi_eq_w128_zero]; exact select_zero _ _

theorem val_call0_v3_apply (j : S4608.Idx) : val_call0_v3 j = 128#32 := by
  unfold val_call0_v3
  rw [broadcastInDim_scalar_apply]; exact val_call0_v2_apply _

theorem val_call0_v4_apply (jj : Fin 4608) : val_call0_v4 (ix1 jj) = BitVec.ofNat 32 (jj.val % 128) := by
  show IntOp.remsi .host (val_v11 (ix1 jj)) (val_call0_v3 (ix1 jj)) = _
  rw [val_call0_v3_apply, val_v11_apply]
  exact remsi_host_w128 jj.val jj.isLt

theorem val_call0_v8_apply (jj : Fin 4608) : val_call0_v8 (ix1 jj) = 0#1 := by
  show IntOp.cmpi .slt (val_call0_v4 (ix1 jj)) (val_call0_v7 (ix1 jj)) = 0#1
  rw [val_call0_v4_apply]
  have h7 : val_call0_v7 (ix1 jj) = 0#32 := by
    unfold val_call0_v7; rw [broadcastInDim_scalar_apply]; rfl
  rw [h7]
  exact cmpi_slt_ofNat_zero _ (by have := jj.isLt; omega)

theorem val_call0_v10_apply (j : S4608.Idx) : val_call0_v10 j = 0#1 := by
  unfold val_call0_v10
  rw [broadcastInDim_scalar_apply]
  show IntOp.cmpi .slt (val_call0_v2 ix0) (0#32) = 0#1
  rw [val_call0_v2_apply]; exact cmpi_slt_w128_zero

theorem val_call0_v12_apply (jj : Fin 4608) : val_call0_v12 (ix1 jj) = 0#1 := by
  show IntOp.andi (IntOp.cmpi .ne (val_call0_v8 (ix1 jj)) (val_call0_v10 (ix1 jj))) (val_call0_v6 (ix1 jj)) = 0#1
  rw [val_call0_v8_apply, val_call0_v10_apply, cmpi_ne_zero_zero, andi_zero_left]

/-- Column jj's position within its neighbour block, as a word. -/
theorem val_v12_apply (jj : Fin 4608) : val_v12 (ix1 jj) = BitVec.ofNat 32 (jj.val % 128) := by
  show Scalar.select (val_call0_v12 (ix1 jj)) (val_call0_v14 (ix1 jj)) (val_call0_v4 (ix1 jj)) = _
  rw [val_call0_v12_apply, select_zero]
  exact val_call0_v4_apply jj

/-! ## The aggregation matrix A2 and its transpose -/

/-- The row numbers 0 … 127. -/
def val_v13 : IVec S128 32 := iotaInDim S128 32 0
def val_v14 : IVec S128x1 32 := broadcastInDim S128x1 ![0] bcast_S128_S128x1_0 val_v13
def val_v15 : IVec S1x4608 32 := broadcastInDim S1x4608 ![1] bcast_S4608_S1x4608_1 val_v12
def val_v16 : IVec S128x4608 32 := broadcastInDim S128x4608 ![0, 1] bcast_S128x1_S128x4608_0_1 val_v14
def val_v17 : IVec S128x4608 32 := broadcastInDim S128x4608 ![0, 1] bcast_S1x4608_S128x4608_0_1 val_v15
/-- Row i meets column jj where i is jj's position within its neighbour block. -/
def val_v18 : IVec S128x4608 1 := cmpi .eq val_v16 val_v17
/-- A2: the bit as a bf16 number. -/
def val_v19 : FVec F S128x4608 .bf16 := uitofp .bf16 val_v18
/-- A2 transposed. -/
def val_v20 : FVec F S4608x128 .bf16 :=
  transpose S4608x128 [1, 0] (val_v19 (F := F)) transposes_S128x4608_S4608x128_1_0

theorem val_v13_apply (i : Fin 128) : val_v13 (ix1 i) = BitVec.ofNat 32 i.val := rfl

theorem val_v14_apply (i : Fin 128) (u : Fin 1) : val_v14 (ix2 i u) = BitVec.ofNat 32 i.val := by
  unfold val_v14
  rw [broadcastInDim_apply _ bcast_S128_S128x1_0 val_v13 (ix2 i u) (ix1 i)
    (fun a => match a with | ⟨0, _⟩ => rfl)]
  rfl

theorem val_v15_apply (u : Fin 1) (jj : Fin 4608) : val_v15 (ix2 u jj) = BitVec.ofNat 32 (jj.val % 128) := by
  unfold val_v15
  rw [broadcastInDim_apply _ bcast_S4608_S1x4608_1 val_v12 (ix2 u jj) (ix1 jj)
    (fun a => match a with | ⟨0, _⟩ => rfl)]
  exact val_v12_apply jj

theorem val_v16_apply (i : Fin 128) (jj : Fin 4608) : val_v16 (ix2 i jj) = BitVec.ofNat 32 i.val := by
  unfold val_v16
  rw [broadcastInDim_apply _ bcast_S128x1_S128x4608_0_1 val_v14 (ix2 i jj) (ix2 i (0 : Fin 1))
    (fun a => match a with | ⟨0, _⟩ => rfl | ⟨1, _⟩ => rfl)]
  exact val_v14_apply i 0

theorem val_v17_apply (i : Fin 128) (jj : Fin 4608) : val_v17 (ix2 i jj) = BitVec.ofNat 32 (jj.val % 128) := by
  unfold val_v17
  rw [broadcastInDim_apply _ bcast_S1x4608_S128x4608_0_1 val_v15 (ix2 i jj) (ix2 (0 : Fin 1) jj)
    (fun a => match a with | ⟨0, _⟩ => rfl | ⟨1, _⟩ => rfl)]
  exact val_v15_apply 0 jj

theorem val_v18_apply (i : Fin 128) (jj : Fin 4608) :
    val_v18 (ix2 i jj) = if i.val = jj.val % 128 then 1#1 else 0#1 := by
  show IntOp.cmpi .eq (val_v16 (ix2 i jj)) (val_v17 (ix2 i jj)) = _
  rw [val_v16_apply, val_v17_apply]
  exact cmpi_eq_ofNat _ _ (by have := i.isLt; omega) (by have := jj.isLt; omega)

theorem val_v19_apply (i : Fin 128) (jj : Fin 4608) :
    val_v19 (F := F) (ix2 i jj) = FloatOps.uitofp .bf16 (if i.val = jj.val % 128 then 1#1 else (0#1 : BitVec 1)) := by
  show FloatOps.uitofp .bf16 (val_v18 (ix2 i jj)) = _
  rw [val_v18_apply]

theorem val_v20_apply (jj : Fin 4608) (i : Fin 128) :
    val_v20 (F := F) (ix2 jj i) = FloatOps.uitofp .bf16 (if i.val = jj.val % 128 then 1#1 else (0#1 : BitVec 1)) := by
  unfold val_v20
  rw [transpose_ix2_apply]
  exact val_v19_apply i jj

/-! ## The node features, batch and node flattened (the projection's left operand) -/

def val_v21 (a0 : Vec F S4x1024x128 .f32) : Vec F S4096x128 .f32 :=
  shapeCast S4096x128 a0 shapeCasts_S4x1024x128_S4096x128

theorem val_v21_apply (a0 : Vec F S4x1024x128 .f32) (b : Fin 4) (n : Fin 1024) (j : Fin 128) (r : Fin 4096)
    (hr : r.val = b.val * 1024 + n.val) :
    val_v21 a0 (ix2 r j) = a0 (ix3 b n j) :=
  shapeCast_apply a0 shapeCasts_S4x1024x128_S4096x128 (ix2 r j) (ix3 b n j) (by
    rw [Shape.rowMajor_val_three, Shape.rowMajor_val_two]
    show (b.val * 1024 + n.val) * 128 + j.val = r.val * 128 + j.val
    omega)

/-! ## The index lists of the two gathers: each half of the batch, cut into 32 x 18 chunks of 128 -/

/-- Batches 0 and 1 of the flattened neighbour indices. -/
def val_v23 (a2 : Vec F S4x1024x36 .i32) : Vec F S2x36864 .i32 :=
  extractStridedSlice S2x36864 ![0, 0] (val_v5 a2) slices_S4x36864_S2x36864_0_0

/-- Batches 2 and 3 of the flattened neighbour indices. -/
def val_v42 (a2 : Vec F S4x1024x36 .i32) : Vec F S2x36864 .i32 :=
  extractStridedSlice S2x36864 ![2, 0] (val_v5 a2) slices_S4x36864_S2x36864_2_0

theorem val_v23_apply (a2 : Vec F S4x1024x36 .i32) (bl : Fin 2) (f : Fin 36864) :
    val_v23 a2 (ix2 bl f) = val_v5 a2 (ix2 ⟨bl.val, by omega⟩ f) :=
  slice2_axis0_apply 0 (val_v5 a2) _ bl f _ (by show bl.val = 0 + bl.val; omega)

theorem val_v42_apply (a2 : Vec F S4x1024x36 .i32) (bl : Fin 2) (f : Fin 36864) :
    val_v42 a2 (ix2 bl f) = val_v5 a2 (ix2 ⟨2 + bl.val, by omega⟩ f) :=
  slice2_axis0_apply 2 (val_v5 a2) _ bl f _ rfl

/-- The first gather's index list: subcore w's chunk ch, lane l. -/
def val_v24 (a2 : Vec F S4x1024x36 .i32) : Vec F S32x18x128 .i32 :=
  shapeCast S32x18x128 (val_v23 a2) shapeCasts_S2x36864_S32x18x128

/-- The second gather's index list. -/
def val_v43 (a2 : Vec F S4x1024x36 .i32) : Vec F S32x18x128 .i32 :=
  shapeCast S32x18x128 (val_v42 a2) shapeCasts_S2x36864_S32x18x128

theorem val_v24_apply (a2 : Vec F S4x1024x36 .i32) (w : Fin 32) (ch : Fin 18) (l : Fin 128) (bl : Fin 2) (f : Fin 36864)
    (h : bl.val * 36864 + f.val = w.val * 2304 + ch.val * 128 + l.val) :
    val_v24 a2 (ix3 w ch l) = val_v5 a2 (ix2 ⟨bl.val, by omega⟩ f) := by
  unfold val_v24
  rw [shapeCast_apply (val_v23 a2) shapeCasts_S2x36864_S32x18x128 (ix3 w ch l) (ix2 bl f) (by
    rw [Shape.rowMajor_val_three, Shape.rowMajor_val_two]
    show bl.val * 36864 + f.val = (w.val * 18 + ch.val) * 128 + l.val
    omega)]
  exact val_v23_apply a2 bl f

theorem val_v43_apply (a2 : Vec F S4x1024x36 .i32) (w : Fin 32) (ch : Fin 18) (l : Fin 128) (bl : Fin 2) (f : Fin 36864)
    (h : bl.val * 36864 + f.val = w.val * 2304 + ch.val * 128 + l.val) :
    val_v43 a2 (ix3 w ch l) = val_v5 a2 (ix2 ⟨2 + bl.val, by omega⟩ f) := by
  unfold val_v43
  rw [shapeCast_apply (val_v42 a2) shapeCasts_S2x36864_S32x18x128 (ix3 w ch l) (ix2 bl f) (by
    rw [Shape.rowMajor_val_three, Shape.rowMajor_val_two]
    show bl.val * 36864 + f.val = (w.val * 18 + ch.val) * 128 + l.val
    omega)]
  exact val_v42_apply a2 bl f

/-- The first list's entry is the neighbour index of node n, neighbour k in batch bl. -/
theorem val_v24_apply_arg (a2 : Vec F S4x1024x36 .i32) (w : Fin 32) (ch : Fin 18) (l : Fin 128) (bl : Fin 2)
    (k : Fin 36) (n : Fin 1024)
    (h : bl.val * 36864 + k.val * 1024 + n.val = w.val * 2304 + ch.val * 128 + l.val) :
    val_v24 a2 (ix3 w ch l) = a2 (ix3 ⟨bl.val, by omega⟩ n k) := by
  obtain ⟨f, hf⟩ : ∃ f : Fin 36864, f.val = k.val * 1024 + n.val := ⟨⟨k.val * 1024 + n.val, by omega⟩, rfl⟩
  rw [val_v24_apply a2 w ch l bl f (by rw [hf, ← Nat.add_assoc]; exact h)]
  exact val_v5_apply a2 _ k n f hf

/-- The second list's entry is the neighbour index of node n, neighbour k in batch 2 + bl. -/
theorem val_v43_apply_arg (a2 : Vec F S4x1024x36 .i32) (w : Fin 32) (ch : Fin 18) (l : Fin 128) (bl : Fin 2)
    (k : Fin 36) (n : Fin 1024)
    (h : bl.val * 36864 + k.val * 1024 + n.val = w.val * 2304 + ch.val * 128 + l.val) :
    val_v43 a2 (ix3 w ch l) = a2 (ix3 ⟨2 + bl.val, by omega⟩ n k) := by
  obtain ⟨f, hf⟩ : ∃ f : Fin 36864, f.val = k.val * 1024 + n.val := ⟨⟨k.val * 1024 + n.val, by omega⟩, rfl⟩
  rw [val_v43_apply a2 w ch l bl f (by rw [hf, ← Nat.add_assoc]; exact h)]
  exact val_v5_apply a2 _ k n f hf

/-! ## The gathered rows, one [1024, 128] slab per (batch, neighbour) -/

/-- A gather's result (either call's) viewed as 72 slabs of 1024 rows. -/
def val_v26 (g : Vec F S73728x128 .f32) : Vec F S72x1024x128 .f32 :=
  shapeCast S72x1024x128 g shapeCasts_S73728x128_S72x1024x128

theorem val_v26_apply (g : Vec F S73728x128 .f32) (bk : Fin 72) (n : Fin 1024) (h : Fin 128) (r : Fin 73728)
    (hr : r.val = bk.val * 1024 + n.val) :
    val_v26 g (ix3 bk n h) = g (ix2 r h) :=
  shapeCast_apply g shapeCasts_S73728x128_S72x1024x128 (ix3 bk n h) (ix2 r h) (by
    rw [Shape.rowMajor_val_three, Shape.rowMajor_val_two]
    show r.val * 128 + h.val = (bk.val * 1024 + n.val) * 128 + h.val
    omega)

/-! ## The node mask, one node tile per row -/

def val_v27 (a3 : Vec F S4x1024 .f32) : Vec F S4x8x1x128 .f32 :=
  shapeCast S4x8x1x128 a3 shapeCasts_S4x1024_S4x8x1x128

theorem val_v27_apply (a3 : Vec F S4x1024 .f32) (b : Fin 4) (t : Fin 8) (u : Fin 1) (i : Fin 128) (n : Fin 1024)
    (hn : n.val = t.val * 128 + i.val) :
    val_v27 a3 (ix4 b t u i) = a3 (ix2 b n) :=
  shapeCast_apply a3 shapeCasts_S4x1024_S4x8x1x128 (ix4 b t u i) (ix2 b n) (by
    have hu : u.val = 0 := by omega
    rw [Shape.rowMajor_val_four, Shape.rowMajor_val_two]
    show b.val * 1024 + n.val = ((b.val * 8 + t.val) * 1 + u.val) * 128 + i.val
    omega)

/-! ## Vectors as one-row matrices (the biases and the LayerNorm parameters) -/

/-- A 128-vector as a [1, 128] row. -/
def val_row128 (a : Vec F S128 .f32) : Vec F S1x128 .f32 :=
  shapeCast S1x128 a shapeCasts_S128_S1x128

theorem val_row128_apply (a : Vec F S128 .f32) (u : Fin 1) (i : Fin 128) :
    val_row128 a (ix2 u i) = a (ix1 i) :=
  shapeCast_a_1a_apply a shapeCasts_S128_S1x128 u i

/-- A 512-vector as a [1, 512] row. -/
def val_row512 (a : Vec F S512 .f32) : Vec F S1x512 .f32 :=
  shapeCast S1x512 a shapeCasts_S512_S1x512

theorem val_row512_apply (a : Vec F S512 .f32) (u : Fin 1) (i : Fin 512) :
    val_row512 a (ix2 u i) = a (ix1 i) :=
  shapeCast_a_1a_apply a shapeCasts_S512_S1x512 u i

/-! ## The weights narrowed to bf16 (the identity at the ideal values) -/

def val_bf16_128x128 (a : Vec F S128x128 .f32) : Vec F S128x128 .bf16 := truncf .bf16 a bitsLt_bf16_f32
def val_bf16_128x512 (a : Vec F S128x512 .f32) : Vec F S128x512 .bf16 := truncf .bf16 a bitsLt_bf16_f32
def val_bf16_512x128 (a : Vec F S512x128 .f32) : Vec F S512x128 .bf16 := truncf .bf16 a bitsLt_bf16_f32

theorem val_bf16_128x128_apply (a : Vec F S128x128 .f32) (i : S128x128.Idx) :
    val_bf16_128x128 a i = FloatOps.truncf .bf16 bitsLt_bf16_f32 (a i) := rfl
theorem val_bf16_128x512_apply (a : Vec F S128x512 .f32) (i : S128x512.Idx) :
    val_bf16_128x512 a i = FloatOps.truncf .bf16 bitsLt_bf16_f32 (a i) := rfl
theorem val_bf16_512x128_apply (a : Vec F S512x128 .f32) (i : S512x128.Idx) :
    val_bf16_512x128 a i = FloatOps.truncf .bf16 bitsLt_bf16_f32 (a i) := rfl

/-- Rows 128 to 255 of W1, narrowed. -/
def val_v29 (a5 : Vec F S384x128 .f32) : Vec F S128x128 .bf16 := val_bf16_128x128 (val_v1 a5)

/-! ## The two halves of the batch put back together -/

def val_v61 (x y : Vec F S2x1024x128 .f32) : Vec F S4x1024x128 .f32 :=
  concatenate S4x1024x128 0 [⟨S2x1024x128, x⟩, ⟨S2x1024x128, y⟩] concatenates_S2x1024x128_S2x1024x128_S4x1024x128_d0

theorem val_v61_apply_lo (x y : Vec F S2x1024x128 .f32) (b : Fin 4) (n : Fin 1024) (h : Fin 128) (hb : b.val < 2) :
    val_v61 x y (ix3 b n h) = x (ix3 ⟨b.val, hb⟩ n h) :=
  concatenate_pair_apply_left 0 x y concatenates_S2x1024x128_S2x1024x128_S4x1024x128_d0 (ix3 b n h) rfl
    (ix3 ⟨b.val, hb⟩ n h) (fun c => match c with | ⟨0, _⟩ => rfl | ⟨1, _⟩ => rfl | ⟨2, _⟩ => rfl)

theorem val_v61_apply_hi (x y : Vec F S2x1024x128 .f32) (b : Fin 4) (n : Fin 1024) (h : Fin 128) (hb : 2 ≤ b.val) :
    val_v61 x y (ix3 b n h) = y (ix3 ⟨b.val - 2, by omega⟩ n h) :=
  concatenate_pair_apply_right 0 x y concatenates_S2x1024x128_S2x1024x128_S4x1024x128_d0 (ix3 b n h) rfl rfl
    (ix3 ⟨b.val - 2, by omega⟩ n h)
    (fun c hc => match c, hc with
      | ⟨0, _⟩, hc => absurd rfl hc
      | ⟨1, _⟩, _ => rfl
      | ⟨2, _⟩, _ => rfl)
    (by show (b.val - 2) + 2 = b.val; omega)

theorem val_v61_apply (x y : Vec F S2x1024x128 .f32) (b : Fin 4) (n : Fin 1024) (h : Fin 128) :
    val_v61 x y (ix3 b n h)
      = if hb : b.val < 2 then x (ix3 ⟨b.val, hb⟩ n h) else y (ix3 ⟨b.val - 2, by omega⟩ n h) := by
  by_cases hb : b.val < 2
  · rw [dif_pos hb]; exact val_v61_apply_lo x y b n h hb
  · rw [dif_neg hb]; exact val_v61_apply_hi x y b n h (by omega)

end Cert.Kernel.HostVal
-- ==== Proof.KResDefBits.lean ====
/-
  The kernel program's result as a pure function of its argument arrays: each layer region's whole output as the
  body's value on the input blocks of the grid point that covers an index, the blocks spelt through the windows'
  own views; the two gathers and the host-computed operands composed in; the two halves concatenated.
-/
import proofs.«215572_g25211458027672_cont_9to1_2008_46_alg».proof.Proof.KBodyDefBits
import proofs.«215572_g25211458027672_cont_9to1_2008_46_alg».proof.Proof.KBodyDef4Bits
import proofs.«215572_g25211458027672_cont_9to1_2008_46_alg».proof.Proof.KHostValBits
import proofs.«215572_g25211458027672_cont_9to1_2008_46_alg».proof.Proof.KSetupBits
import proofs.«215572_g25211458027672_cont_9to1_2008_46_alg».proof.Proof.Gen.Kernel.Launch
import Idealize.ShloMosaic.Lib.ValueIdx
import Idealize.ShloMosaic.Lib.Pipeline.Value

noncomputable section

namespace Cert.Kernel.KValue

open Cert.Kernel Cert.Kernel.Gen Cert.Kernel.HostVal
open Idealize.ShloMosaic Idealize.ShloMosaic.ValueIdx

variable {F : FTy → Type} [FloatOps F]

/-- Where an index of a region's result sits inside its tile's block. -/
def inTile (i : S2x1024x128.Idx) : S1x128x128.Idx :=
  ix3 (0 : Fin 1) ⟨(i 1).val % 128, Nat.mod_lt _ (by decide)⟩ ⟨(i 2).val, (i 2).isLt⟩

/-! ## The layer region of custom call 2 -/

/-- The grid point that computes an index of the region's result: row-major, the node-tile axis fastest. -/
def pt2 (i : S2x1024x128.Idx) : Fin cfg2.N :=
  ⟨(i 0).val * 8 + (i 1).val / 128, by
    have h0 : (i 0).val < 2 := (i 0).isLt
    have h1 : (i 1).val < 1024 := (i 1).isLt
    show _ < grid2.N
    rw [N_2]; omega⟩

/-- The region's whole result: entry (bl, n, h) is the body's value on the 23 input blocks of grid point
    (bl, n / 128), read at (0, n % 128, h). -/
def regionOut2 (c46 : F .f32) (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) :
    Vec F S2x1024x128 .f32 :=
  fun i =>
    BodyVal.bodyOut c46
      (((cfg2.win 0).blk (pt2 i)).view.read (Elt F) A0)
      (((cfg2.win 1).blk (pt2 i)).view.read (Elt F) A1)
      (((cfg2.win 2).blk (pt2 i)).view.read (Elt F) A2)
      (((cfg2.win 3).blk (pt2 i)).view.read (Elt F) A3)
      (((cfg2.win 4).blk (pt2 i)).view.read (Elt F) A4)
      (((cfg2.win 5).blk (pt2 i)).view.read (Elt F) A5)
      (((cfg2.win 6).blk (pt2 i)).view.read (Elt F) A6)
      (((cfg2.win 7).blk (pt2 i)).view.read (Elt F) A7)
      (((cfg2.win 8).blk (pt2 i)).view.read (Elt F) A8)
      (((cfg2.win 9).blk (pt2 i)).view.read (Elt F) A9)
      (((cfg2.win 10).blk (pt2 i)).view.read (Elt F) A10)
      (((cfg2.win 11).blk (pt2 i)).view.read (Elt F) A11)
      (((cfg2.win 12).blk (pt2 i)).view.read (Elt F) A12)
      (((cfg2.win 13).blk (pt2 i)).view.read (Elt F) A13)
      (((cfg2.win 14).blk (pt2 i)).view.read (Elt F) A14)
      (((cfg2.win 15).blk (pt2 i)).view.read (Elt F) A15)
      (((cfg2.win 16).blk (pt2 i)).view.read (Elt F) A16)
      (((cfg2.win 17).blk (pt2 i)).view.read (Elt F) A17)
      (((cfg2.win 18).blk (pt2 i)).view.read (Elt F) A18)
      (((cfg2.win 19).blk (pt2 i)).view.read (Elt F) A19)
      (((cfg2.win 20).blk (pt2 i)).view.read (Elt F) A20)
      (((cfg2.win 21).blk (pt2 i)).view.read (Elt F) A21)
      (((cfg2.win 22).blk (pt2 i)).view.read (Elt F) A22)
      (inTile i)

/-- The output window's block index at point `t` is (t / 8, t % 8, 0). -/
theorem idx2_out : ∀ t : Fin cfg2.N, win2_23.index t (0 : Fin 3) = t.val / 8 ∧ win2_23.index t (1 : Fin 3) = t.val % 8
    ∧ win2_23.index t (2 : Fin 3) = 0 :=
  (by decide +kernel : ∀ t : Fin grid2.N, _)

/-- The point of an index under point `t`'s output block is `t`. -/
theorem pt2_emb (t : Fin cfg2.N) (y : S1x128x128.Idx) : pt2 (((cfg2.win 23).blk t).view.emb y) = t := by
  obtain ⟨e0, e1, e2⟩ := idx2_out t
  have ht : t.val < 16 := Nat.lt_of_lt_of_eq (show t.val < grid2.N from t.isLt) N_2
  have hy0 : (y 0).val < 1 := (y 0).isLt
  have hy1 : (y 1).val < 128 := (y 1).isLt
  apply Fin.ext
  show (win2_23.index t (0 : Fin 3) * 1 + 1 * (y 0).val) * 8 + (win2_23.index t (1 : Fin 3) * 128 + 1 * (y 1).val) / 128 = t.val
  omega

/-- An index under point `t`'s output block sits in its tile where the block says. -/
theorem inTile_emb2 (t : Fin cfg2.N) (y : S1x128x128.Idx) : inTile (((cfg2.win 23).blk t).view.emb y) = y := by
  obtain ⟨e0, e1, e2⟩ := idx2_out t
  have hy0 : (y 0).val < 1 := (y 0).isLt
  have hy1 : (y 1).val < 128 := (y 1).isLt
  funext a
  apply Fin.ext
  match a with
  | ⟨0, _⟩ => show 0 = (y 0).val; omega
  | ⟨1, _⟩ => show (win2_23.index t (1 : Fin 3) * 128 + 1 * (y 1).val) % 128 = (y 1).val; omega
  | ⟨2, _⟩ => show win2_23.index t (2 : Fin 3) * 128 + 1 * (y 2).val = (y 2).val; omega

/-- BLOCK `t` OF THE REGION'S RESULT is the body's value on the input blocks of point `t`. -/
theorem read_blk_regionOut2 (c46 : F .f32) (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) (t : Fin cfg2.N) :
    ((cfg2.win 23).blk t).view.read (Elt F) (regionOut2 c46 A0 A1 A2 A3 A4 A5 A6 A7 A8 A9 A10 A11 A12 A13 A14 A15 A16 A17 A18 A19 A20 A21 A22)
      = BodyVal.bodyOut c46
      (((cfg2.win 0).blk t).view.read (Elt F) A0)
      (((cfg2.win 1).blk t).view.read (Elt F) A1)
      (((cfg2.win 2).blk t).view.read (Elt F) A2)
      (((cfg2.win 3).blk t).view.read (Elt F) A3)
      (((cfg2.win 4).blk t).view.read (Elt F) A4)
      (((cfg2.win 5).blk t).view.read (Elt F) A5)
      (((cfg2.win 6).blk t).view.read (Elt F) A6)
      (((cfg2.win 7).blk t).view.read (Elt F) A7)
      (((cfg2.win 8).blk t).view.read (Elt F) A8)
      (((cfg2.win 9).blk t).view.read (Elt F) A9)
      (((cfg2.win 10).blk t).view.read (Elt F) A10)
      (((cfg2.win 11).blk t).view.read (Elt F) A11)
      (((cfg2.win 12).blk t).view.read (Elt F) A12)
      (((cfg2.win 13).blk t).view.read (Elt F) A13)
      (((cfg2.win 14).blk t).view.read (Elt F) A14)
      (((cfg2.win 15).blk t).view.read (Elt F) A15)
      (((cfg2.win 16).blk t).view.read (Elt F) A16)
      (((cfg2.win 17).blk t).view.read (Elt F) A17)
      (((cfg2.win 18).blk t).view.read (Elt F) A18)
      (((cfg2.win 19).blk t).view.read (Elt F) A19)
      (((cfg2.win 20).blk t).view.read (Elt F) A20)
      (((cfg2.win 21).blk t).view.read (Elt F) A21)
      (((cfg2.win 22).blk t).view.read (Elt F) A22) := by
  funext y
  show regionOut2 c46 A0 A1 A2 A3 A4 A5 A6 A7 A8 A9 A10 A11 A12 A13 A14 A15 A16 A17 A18 A19 A20 A21 A22 (((cfg2.win 23).blk t).view.emb y) = _
  have key : ∀ (t' : Fin cfg2.N) (y' : S1x128x128.Idx), t' = t → y' = y →
      BodyVal.bodyOut c46
      (((cfg2.win 0).blk t').view.read (Elt F) A0)
      (((cfg2.win 1).blk t').view.read (Elt F) A1)
      (((cfg2.win 2).blk t').view.read (Elt F) A2)
      (((cfg2.win 3).blk t').view.read (Elt F) A3)
      (((cfg2.win 4).blk t').view.read (Elt F) A4)
      (((cfg2.win 5).blk t').view.read (Elt F) A5)
      (((cfg2.win 6).blk t').view.read (Elt F) A6)
      (((cfg2.win 7).blk t').view.read (Elt F) A7)
      (((cfg2.win 8).blk t').view.read (Elt F) A8)
      (((cfg2.win 9).blk t').view.read (Elt F) A9)
      (((cfg2.win 10).blk t').view.read (Elt F) A10)
      (((cfg2.win 11).blk t').view.read (Elt F) A11)
      (((cfg2.win 12).blk t').view.read (Elt F) A12)
      (((cfg2.win 13).blk t').view.read (Elt F) A13)
      (((cfg2.win 14).blk t').view.read (Elt F) A14)
      (((cfg2.win 15).blk t').view.read (Elt F) A15)
      (((cfg2.win 16).blk t').view.read (Elt F) A16)
      (((cfg2.win 17).blk t').view.read (Elt F) A17)
      (((cfg2.win 18).blk t').view.read (Elt F) A18)
      (((cfg2.win 19).blk t').view.read (Elt F) A19)
      (((cfg2.win 20).blk t').view.read (Elt F) A20)
      (((cfg2.win 21).blk t').view.read (Elt F) A21)
      (((cfg2.win 22).blk t').view.read (Elt F) A22) y'
      = BodyVal.bodyOut c46
      (((cfg2.win 0).blk t).view.read (Elt F) A0)
      (((cfg2.win 1).blk t).view.read (Elt F) A1)
      (((cfg2.win 2).blk t).view.read (Elt F) A2)
      (((cfg2.win 3).blk t).view.read (Elt F) A3)
      (((cfg2.win 4).blk t).view.read (Elt F) A4)
      (((cfg2.win 5).blk t).view.read (Elt F) A5)
      (((cfg2.win 6).blk t).view.read (Elt F) A6)
      (((cfg2.win 7).blk t).view.read (Elt F) A7)
      (((cfg2.win 8).blk t).view.read (Elt F) A8)
      (((cfg2.win 9).blk t).view.read (Elt F) A9)
      (((cfg2.win 10).blk t).view.read (Elt F) A10)
      (((cfg2.win 11).blk t).view.read (Elt F) A11)
      (((cfg2.win 12).blk t).view.read (Elt F) A12)
      (((cfg2.win 13).blk t).view.read (Elt F) A13)
      (((cfg2.win 14).blk t).view.read (Elt F) A14)
      (((cfg2.win 15).blk t).view.read (Elt F) A15)
      (((cfg2.win 16).blk t).view.read (Elt F) A16)
      (((cfg2.win 17).blk t).view.read (Elt F) A17)
      (((cfg2.win 18).blk t).view.read (Elt F) A18)
      (((cfg2.win 19).blk t).view.read (Elt F) A19)
      (((cfg2.win 20).blk t).view.read (Elt F) A20)
      (((cfg2.win 21).blk t).view.read (Elt F) A21)
      (((cfg2.win 22).blk t).view.read (Elt F) A22) y := by
    intro t' y' h1 h2; subst h1; subst h2; rfl
  exact key _ _ (pt2_emb t y) (inTile_emb2 t y)

/-- Every index of the region's result is under the output block of its point. -/
theorem mem_blk_pt2 (i : S2x1024x128.Idx) : i ∈ ((cfg2.win 23).blk (pt2 i)).view.set := by
  obtain ⟨e0, e1, e2⟩ := idx2_out (pt2 i)
  have tv : (pt2 i).val = (i 0).val * 8 + (i 1).val / 128 := rfl
  have h0 : (i 0).val < 2 := (i 0).isLt
  have h1 : (i 1).val < 1024 := (i 1).isLt
  have h2 : (i 2).val < 128 := (i 2).isLt
  show i ∈ ((View.whole main_v41).slice (win2_23.rect (pt2 i))).set
  rw [View.set_slice_whole, Rect.mem_set_unit]
  intro a
  match a with
  | ⟨0, _⟩ => show win2_23.index (pt2 i) (0 : Fin 3) * 1 ≤ (i 0).val ∧ (i 0).val < win2_23.index (pt2 i) (0 : Fin 3) * 1 + 1; omega
  | ⟨1, _⟩ => show win2_23.index (pt2 i) (1 : Fin 3) * 128 ≤ (i 1).val ∧ (i 1).val < win2_23.index (pt2 i) (1 : Fin 3) * 128 + 128; omega
  | ⟨2, _⟩ => show win2_23.index (pt2 i) (2 : Fin 3) * 128 ≤ (i 2).val ∧ (i 2).val < win2_23.index (pt2 i) (2 : Fin 3) * 128 + 128; omega

/-! ## The layer region of custom call 4 -/

/-- The grid point that computes an index of the region's result: row-major, the node-tile axis fastest. -/
def pt4 (i : S2x1024x128.Idx) : Fin cfg4.N :=
  ⟨(i 0).val * 8 + (i 1).val / 128, by
    have h0 : (i 0).val < 2 := (i 0).isLt
    have h1 : (i 1).val < 1024 := (i 1).isLt
    show _ < grid4.N
    rw [N_4]; omega⟩

/-- The region's whole result: entry (bl, n, h) is the body's value on the 23 input blocks of grid point
    (bl, n / 128), read at (0, n % 128, h). -/
def regionOut4 (c46 : F .f32) (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) :
    Vec F S2x1024x128 .f32 :=
  fun i =>
    BodyVal.bodyOut4 c46
      (((cfg4.win 0).blk (pt4 i)).view.read (Elt F) A0)
      (((cfg4.win 1).blk (pt4 i)).view.read (Elt F) A1)
      (((cfg4.win 2).blk (pt4 i)).view.read (Elt F) A2)
      (((cfg4.win 3).blk (pt4 i)).view.read (Elt F) A3)
      (((cfg4.win 4).blk (pt4 i)).view.read (Elt F) A4)
      (((cfg4.win 5).blk (pt4 i)).view.read (Elt F) A5)
      (((cfg4.win 6).blk (pt4 i)).view.read (Elt F) A6)
      (((cfg4.win 7).blk (pt4 i)).view.read (Elt F) A7)
      (((cfg4.win 8).blk (pt4 i)).view.read (Elt F) A8)
      (((cfg4.win 9).blk (pt4 i)).view.read (Elt F) A9)
      (((cfg4.win 10).blk (pt4 i)).view.read (Elt F) A10)
      (((cfg4.win 11).blk (pt4 i)).view.read (Elt F) A11)
      (((cfg4.win 12).blk (pt4 i)).view.read (Elt F) A12)
      (((cfg4.win 13).blk (pt4 i)).view.read (Elt F) A13)
      (((cfg4.win 14).blk (pt4 i)).view.read (Elt F) A14)
      (((cfg4.win 15).blk (pt4 i)).view.read (Elt F) A15)
      (((cfg4.win 16).blk (pt4 i)).view.read (Elt F) A16)
      (((cfg4.win 17).blk (pt4 i)).view.read (Elt F) A17)
      (((cfg4.win 18).blk (pt4 i)).view.read (Elt F) A18)
      (((cfg4.win 19).blk (pt4 i)).view.read (Elt F) A19)
      (((cfg4.win 20).blk (pt4 i)).view.read (Elt F) A20)
      (((cfg4.win 21).blk (pt4 i)).view.read (Elt F) A21)
      (((cfg4.win 22).blk (pt4 i)).view.read (Elt F) A22)
      (inTile i)

/-- The output window's block index at point `t` is (t / 8, t % 8, 0). -/
theorem idx4_out : ∀ t : Fin cfg4.N, win4_23.index t (0 : Fin 3) = t.val / 8 ∧ win4_23.index t (1 : Fin 3) = t.val % 8
    ∧ win4_23.index t (2 : Fin 3) = 0 :=
  (by decide +kernel : ∀ t : Fin grid4.N, _)

/-- The point of an index under point `t`'s output block is `t`. -/
theorem pt4_emb (t : Fin cfg4.N) (y : S1x128x128.Idx) : pt4 (((cfg4.win 23).blk t).view.emb y) = t := by
  obtain ⟨e0, e1, e2⟩ := idx4_out t
  have ht : t.val < 16 := Nat.lt_of_lt_of_eq (show t.val < grid4.N from t.isLt) N_4
  have hy0 : (y 0).val < 1 := (y 0).isLt
  have hy1 : (y 1).val < 128 := (y 1).isLt
  apply Fin.ext
  show (win4_23.index t (0 : Fin 3) * 1 + 1 * (y 0).val) * 8 + (win4_23.index t (1 : Fin 3) * 128 + 1 * (y 1).val) / 128 = t.val
  omega

/-- An index under point `t`'s output block sits in its tile where the block says. -/
theorem inTile_emb4 (t : Fin cfg4.N) (y : S1x128x128.Idx) : inTile (((cfg4.win 23).blk t).view.emb y) = y := by
  obtain ⟨e0, e1, e2⟩ := idx4_out t
  have hy0 : (y 0).val < 1 := (y 0).isLt
  have hy1 : (y 1).val < 128 := (y 1).isLt
  funext a
  apply Fin.ext
  match a with
  | ⟨0, _⟩ => show 0 = (y 0).val; omega
  | ⟨1, _⟩ => show (win4_23.index t (1 : Fin 3) * 128 + 1 * (y 1).val) % 128 = (y 1).val; omega
  | ⟨2, _⟩ => show win4_23.index t (2 : Fin 3) * 128 + 1 * (y 2).val = (y 2).val; omega

/-- BLOCK `t` OF THE REGION'S RESULT is the body's value on the input blocks of point `t`. -/
theorem read_blk_regionOut4 (c46 : F .f32) (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) (t : Fin cfg4.N) :
    ((cfg4.win 23).blk t).view.read (Elt F) (regionOut4 c46 A0 A1 A2 A3 A4 A5 A6 A7 A8 A9 A10 A11 A12 A13 A14 A15 A16 A17 A18 A19 A20 A21 A22)
      = BodyVal.bodyOut4 c46
      (((cfg4.win 0).blk t).view.read (Elt F) A0)
      (((cfg4.win 1).blk t).view.read (Elt F) A1)
      (((cfg4.win 2).blk t).view.read (Elt F) A2)
      (((cfg4.win 3).blk t).view.read (Elt F) A3)
      (((cfg4.win 4).blk t).view.read (Elt F) A4)
      (((cfg4.win 5).blk t).view.read (Elt F) A5)
      (((cfg4.win 6).blk t).view.read (Elt F) A6)
      (((cfg4.win 7).blk t).view.read (Elt F) A7)
      (((cfg4.win 8).blk t).view.read (Elt F) A8)
      (((cfg4.win 9).blk t).view.read (Elt F) A9)
      (((cfg4.win 10).blk t).view.read (Elt F) A10)
      (((cfg4.win 11).blk t).view.read (Elt F) A11)
      (((cfg4.win 12).blk t).view.read (Elt F) A12)
      (((cfg4.win 13).blk t).view.read (Elt F) A13)
      (((cfg4.win 14).blk t).view.read (Elt F) A14)
      (((cfg4.win 15).blk t).view.read (Elt F) A15)
      (((cfg4.win 16).blk t).view.read (Elt F) A16)
      (((cfg4.win 17).blk t).view.read (Elt F) A17)
      (((cfg4.win 18).blk t).view.read (Elt F) A18)
      (((cfg4.win 19).blk t).view.read (Elt F) A19)
      (((cfg4.win 20).blk t).view.read (Elt F) A20)
      (((cfg4.win 21).blk t).view.read (Elt F) A21)
      (((cfg4.win 22).blk t).view.read (Elt F) A22) := by
  funext y
  show regionOut4 c46 A0 A1 A2 A3 A4 A5 A6 A7 A8 A9 A10 A11 A12 A13 A14 A15 A16 A17 A18 A19 A20 A21 A22 (((cfg4.win 23).blk t).view.emb y) = _
  have key : ∀ (t' : Fin cfg4.N) (y' : S1x128x128.Idx), t' = t → y' = y →
      BodyVal.bodyOut4 c46
      (((cfg4.win 0).blk t').view.read (Elt F) A0)
      (((cfg4.win 1).blk t').view.read (Elt F) A1)
      (((cfg4.win 2).blk t').view.read (Elt F) A2)
      (((cfg4.win 3).blk t').view.read (Elt F) A3)
      (((cfg4.win 4).blk t').view.read (Elt F) A4)
      (((cfg4.win 5).blk t').view.read (Elt F) A5)
      (((cfg4.win 6).blk t').view.read (Elt F) A6)
      (((cfg4.win 7).blk t').view.read (Elt F) A7)
      (((cfg4.win 8).blk t').view.read (Elt F) A8)
      (((cfg4.win 9).blk t').view.read (Elt F) A9)
      (((cfg4.win 10).blk t').view.read (Elt F) A10)
      (((cfg4.win 11).blk t').view.read (Elt F) A11)
      (((cfg4.win 12).blk t').view.read (Elt F) A12)
      (((cfg4.win 13).blk t').view.read (Elt F) A13)
      (((cfg4.win 14).blk t').view.read (Elt F) A14)
      (((cfg4.win 15).blk t').view.read (Elt F) A15)
      (((cfg4.win 16).blk t').view.read (Elt F) A16)
      (((cfg4.win 17).blk t').view.read (Elt F) A17)
      (((cfg4.win 18).blk t').view.read (Elt F) A18)
      (((cfg4.win 19).blk t').view.read (Elt F) A19)
      (((cfg4.win 20).blk t').view.read (Elt F) A20)
      (((cfg4.win 21).blk t').view.read (Elt F) A21)
      (((cfg4.win 22).blk t').view.read (Elt F) A22) y'
      = BodyVal.bodyOut4 c46
      (((cfg4.win 0).blk t).view.read (Elt F) A0)
      (((cfg4.win 1).blk t).view.read (Elt F) A1)
      (((cfg4.win 2).blk t).view.read (Elt F) A2)
      (((cfg4.win 3).blk t).view.read (Elt F) A3)
      (((cfg4.win 4).blk t).view.read (Elt F) A4)
      (((cfg4.win 5).blk t).view.read (Elt F) A5)
      (((cfg4.win 6).blk t).view.read (Elt F) A6)
      (((cfg4.win 7).blk t).view.read (Elt F) A7)
      (((cfg4.win 8).blk t).view.read (Elt F) A8)
      (((cfg4.win 9).blk t).view.read (Elt F) A9)
      (((cfg4.win 10).blk t).view.read (Elt F) A10)
      (((cfg4.win 11).blk t).view.read (Elt F) A11)
      (((cfg4.win 12).blk t).view.read (Elt F) A12)
      (((cfg4.win 13).blk t).view.read (Elt F) A13)
      (((cfg4.win 14).blk t).view.read (Elt F) A14)
      (((cfg4.win 15).blk t).view.read (Elt F) A15)
      (((cfg4.win 16).blk t).view.read (Elt F) A16)
      (((cfg4.win 17).blk t).view.read (Elt F) A17)
      (((cfg4.win 18).blk t).view.read (Elt F) A18)
      (((cfg4.win 19).blk t).view.read (Elt F) A19)
      (((cfg4.win 20).blk t).view.read (Elt F) A20)
      (((cfg4.win 21).blk t).view.read (Elt F) A21)
      (((cfg4.win 22).blk t).view.read (Elt F) A22) y := by
    intro t' y' h1 h2; subst h1; subst h2; rfl
  exact key _ _ (pt4_emb t y) (inTile_emb4 t y)

/-- Every index of the region's result is under the output block of its point. -/
theorem mem_blk_pt4 (i : S2x1024x128.Idx) : i ∈ ((cfg4.win 23).blk (pt4 i)).view.set := by
  obtain ⟨e0, e1, e2⟩ := idx4_out (pt4 i)
  have tv : (pt4 i).val = (i 0).val * 8 + (i 1).val / 128 := rfl
  have h0 : (i 0).val < 2 := (i 0).isLt
  have h1 : (i 1).val < 1024 := (i 1).isLt
  have h2 : (i 2).val < 128 := (i 2).isLt
  show i ∈ ((View.whole main_v60).slice (win4_23.rect (pt4 i))).set
  rw [View.set_slice_whole, Rect.mem_set_unit]
  intro a
  match a with
  | ⟨0, _⟩ => show win4_23.index (pt4 i) (0 : Fin 3) * 1 ≤ (i 0).val ∧ (i 0).val < win4_23.index (pt4 i) (0 : Fin 3) * 1 + 1; omega
  | ⟨1, _⟩ => show win4_23.index (pt4 i) (1 : Fin 3) * 128 ≤ (i 1).val ∧ (i 1).val < win4_23.index (pt4 i) (1 : Fin 3) * 128 + 128; omega
  | ⟨2, _⟩ => show win4_23.index (pt4 i) (2 : Fin 3) * 128 ≤ (i 2).val ∧ (i 2).val < win4_23.index (pt4 i) (2 : Fin 3) * 128 + 128; omega

/-! ## The program's result -/

/-- The projected node features: every node's row times rows 256 to 383 of the first weight. -/
def proj (a0 : Vec F S4x1024x128 .f32) (a5 : Vec F S384x128 .f32) : Vec F S4096x128 .f32 :=
  GenP.k0_pay1 (val_v21 a0) (val_v2 a5)

/-- The rows the first gather call fetches, as 72 slabs. -/
def gath0 (a0 : Vec F S4x1024x128 .f32) (a2 : Vec F S4x1024x36 .i32) (a5 : Vec F S384x128 .f32) : Vec F S73728x128 .f32 :=
  KS.gatherVal 0 (proj a0 a5) (val_v24 a2)

/-- The rows the second gather call fetches. -/
def gath1 (a0 : Vec F S4x1024x128 .f32) (a2 : Vec F S4x1024x36 .i32) (a5 : Vec F S384x128 .f32) : Vec F S73728x128 .f32 :=
  KS.gatherVal 2 (proj a0 a5) (val_v43 a2)

/-- The layer on batches 0 and 1, of the argument arrays. -/
def half0 (c46 : F .f32) (a0 : Vec F S4x1024x128 .f32) (a1 : Vec F S4x1024x36x128 .f32) (a2 : Vec F S4x1024x36 .i32) (a3 : Vec F S4x1024 .f32) (a4 : Vec F S4x1024x36 .f32) (a5 : Vec F S384x128 .f32) (a6 : Vec F S128 .f32) (a7 : Vec F S128x128 .f32) (a8 : Vec F S128 .f32) (a9 : Vec F S128x128 .f32) (a10 : Vec F S128 .f32) (a11 : Vec F S128x512 .f32) (a12 : Vec F S512 .f32) (a13 : Vec F S512x128 .f32) (a14 : Vec F S128 .f32) (a15 : Vec F S128 .f32) (a16 : Vec F S128 .f32) (a17 : Vec F S128 .f32) (a18 : Vec F S128 .f32) : Vec F S2x1024x128 .f32 :=
  regionOut2 c46 a0 (val_v3 a1) (val_v26 (gath0 a0 a2 a5)) a4 (val_v10 a4) (val_v27 a3)
      (val_v19 (F := F)) (val_v20 (F := F)) (val_v0 a5) (val_row128 a6) (val_v29 a5) (val_bf16_128x128 a7) (val_row128 a8) a9 (val_row128 a10)
      (val_bf16_128x512 a11) (val_row512 a12) (val_bf16_512x128 a13) (val_row128 a14) (val_row128 a15) (val_row128 a16) (val_row128 a17) (val_row128 a18)

/-- The layer on batches 2 and 3, of the argument arrays. -/
def half1 (c46 : F .f32) (a0 : Vec F S4x1024x128 .f32) (a1 : Vec F S4x1024x36x128 .f32) (a2 : Vec F S4x1024x36 .i32) (a3 : Vec F S4x1024 .f32) (a4 : Vec F S4x1024x36 .f32) (a5 : Vec F S384x128 .f32) (a6 : Vec F S128 .f32) (a7 : Vec F S128x128 .f32) (a8 : Vec F S128 .f32) (a9 : Vec F S128x128 .f32) (a10 : Vec F S128 .f32) (a11 : Vec F S128x512 .f32) (a12 : Vec F S512 .f32) (a13 : Vec F S512x128 .f32) (a14 : Vec F S128 .f32) (a15 : Vec F S128 .f32) (a16 : Vec F S128 .f32) (a17 : Vec F S128 .f32) (a18 : Vec F S128 .f32) : Vec F S2x1024x128 .f32 :=
  regionOut4 c46 a0 (val_v3 a1) (val_v26 (gath1 a0 a2 a5)) a4 (val_v10 a4) (val_v27 a3)
      (val_v19 (F := F)) (val_v20 (F := F)) (val_v0 a5) (val_row128 a6) (val_v29 a5) (val_bf16_128x128 a7) (val_row128 a8) a9 (val_row128 a10)
      (val_bf16_128x512 a11) (val_row512 a12) (val_bf16_512x128 a13) (val_row128 a14) (val_row128 a15) (val_row128 a16) (val_row128 a17) (val_row128 a18)

/-- The program's result as one function of its argument arrays: the two halves of the batch, concatenated. -/
def kres (c46 : F .f32) (a0 : Vec F S4x1024x128 .f32) (a1 : Vec F S4x1024x36x128 .f32) (a2 : Vec F S4x1024x36 .i32) (a3 : Vec F S4x1024 .f32) (a4 : Vec F S4x1024x36 .f32) (a5 : Vec F S384x128 .f32) (a6 : Vec F S128 .f32) (a7 : Vec F S128x128 .f32) (a8 : Vec F S128 .f32) (a9 : Vec F S128x128 .f32) (a10 : Vec F S128 .f32) (a11 : Vec F S128x512 .f32) (a12 : Vec F S512 .f32) (a13 : Vec F S512x128 .f32) (a14 : Vec F S128 .f32) (a15 : Vec F S128 .f32) (a16 : Vec F S128 .f32) (a17 : Vec F S128 .f32) (a18 : Vec F S128 .f32) : Vec F S4x1024x128 .f32 :=
  val_v61 (half0 c46 a0 a1 a2 a3 a4 a5 a6 a7 a8 a9 a10 a11 a12 a13 a14 a15 a16 a17 a18)
    (half1 c46 a0 a1 a2 a3 a4 a5 a6 a7 a8 a9 a10 a11 a12 a13 a14 a15 a16 a17 a18)

end Cert.Kernel.KValue

end
-- ==== Proof.KConstBits.lean ====
import proofs.«215572_g25211458027672_cont_9to1_2008_46_alg».proof.Proof.Gen.Kernel

noncomputable section

namespace Cert.Kernel.KConst

open Cert.Kernel.Gen
open Idealize.ShloMosaic

variable {F : FTy → Type} [FloatOps F]

/-- The layer's constant 1/36, as the printed program spells it: the f32 word nearest to 1/36. -/
def inv36 : F .f32 := Scalar.ofBits .f32 0x3CE38E39#32

end Cert.Kernel.KConst

end
-- ==== Proof.KOutsBits.lean ====
/-
  The three kernel regions' results as functions of the valuation of @main's arrays at their entry: the projection of
  the node rows, and the layer on each half of the batch, each read off the arrays the region's windows stage, in the
  windows' order.
-/
import proofs.«215572_g25211458027672_cont_9to1_2008_46_alg».proof.Proof.KMainBBits
import proofs.«215572_g25211458027672_cont_9to1_2008_46_alg».proof.Proof.KResDefBits
import proofs.«215572_g25211458027672_cont_9to1_2008_46_alg».proof.Proof.KConstBits
import proofs.«215572_g25211458027672_cont_9to1_2008_46_alg».proof.Proof.SkeletonKernel

noncomputable section

namespace Cert.Kernel.KMain

open Cert.Kernel Cert.Kernel.Gen Cert.Kernel.KS

open Idealize.ShloMosaic

variable {F : FTy → Type} [FloatOps F]

/-- Region 0: the node rows times rows 256 to 383 of the first weight. -/
def o0 (V : Valuation τ sig (Elt F)) : (rV main_v22).ty.Contents (Elt F) :=
  GenP.k0_pay1 (V (rV main_v21)) (V (rV main_v2))

/-- Region 1: the layer on batches 0 and 1. -/
def o1 (V : Valuation τ sig (Elt F)) : (rV main_v41).ty.Contents (Elt F) :=
  KValue.regionOut2 (KConst.inv36 (F := F)) (V (rV main_arg0)) (V (rV main_v3)) (V (rV main_v26)) (V (rV main_arg4)) (V (rV main_v10)) (V (rV main_v27)) (V (rV main_v19)) (V (rV main_v20)) (V (rV main_v0)) (V (rV main_v28)) (V (rV main_v29)) (V (rV main_v30)) (V (rV main_v31)) (V (rV main_arg9)) (V (rV main_v32)) (V (rV main_v33)) (V (rV main_v34)) (V (rV main_v35)) (V (rV main_v36)) (V (rV main_v37)) (V (rV main_v38)) (V (rV main_v39)) (V (rV main_v40))

/-- Region 2: the layer on batches 2 and 3. -/
def o2 (V : Valuation τ sig (Elt F)) : (rV main_v60).ty.Contents (Elt F) :=
  KValue.regionOut4 (KConst.inv36 (F := F)) (V (rV main_arg0)) (V (rV main_v3)) (V (rV main_v45)) (V (rV main_arg4)) (V (rV main_v10)) (V (rV main_v46)) (V (rV main_v19)) (V (rV main_v20)) (V (rV main_v0)) (V (rV main_v47)) (V (rV main_v48)) (V (rV main_v49)) (V (rV main_v50)) (V (rV main_arg9)) (V (rV main_v51)) (V (rV main_v52)) (V (rV main_v53)) (V (rV main_v54)) (V (rV main_v55)) (V (rV main_v56)) (V (rV main_v57)) (V (rV main_v58)) (V (rV main_v59))

/-- What the three kernel regions leave. -/
def OmegaK : Outs F := ⟨o0, o1, o2⟩

end Cert.Kernel.KMain

end
-- ==== Proof.KRegBodyBits.lean ====
import proofs.«215572_g25211458027672_cont_9to1_2008_46_alg».proof.Proof.Gen.Kernel.Launch
import proofs.«215572_g25211458027672_cont_9to1_2008_46_alg».proof.Proof.Gen.Kernel.Points
import proofs.«215572_g25211458027672_cont_9to1_2008_46_alg».proof.Proof.SkeletonKernel
import proofs.«215572_g25211458027672_cont_9to1_2008_46_alg».proof.Proof.KConstBits
import proofs.«215572_g25211458027672_cont_9to1_2008_46_alg».proof.Proof.KBodyDefBits
import proofs.«215572_g25211458027672_cont_9to1_2008_46_alg».proof.Proof.KBodyDef4Bits
import Idealize.ShloMosaic.Lib.Pipeline.FrameBody
import Idealize.ShloMosaic.Lib.Pipeline.Regions
import Idealize.ShloMosaic.Lib.Tactic

set_option maxRecDepth 16384

noncomputable section

namespace Cert.Kernel.Regions

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Region 0: the projection P = reshape(h_V) · W1[256:384] -/

/-- The whole-array rectangles the projection body loads and stores through. -/
abbrev rP : Rect S4096x128 := Rect.unit (s := S4096x128) ![0, 0] S4096x128.size inb_S4096x128_S4096x128_0_0
abbrev rW : Rect S128x128 := Rect.unit (s := S128x128) ![0, 0] S128x128.size inb_S128x128_S128x128_0_0

/-- What the projection body leaves in its output buffer, from the two input blocks. -/
def out0 (x0 : Vec F S4096x128 .f32) (x1 : Vec F S128x128 .f32) : Vec F S4096x128 .f32 :=
  View.canon [⟨rP, k0_pay1 (View.ld x0 rP) (View.ld x1 rW)⟩]

theorem cover0 (p0 : Vec F S4096x128 .f32) (y : S4096x128.Idx) :
    ∃ pc ∈ ([⟨rP, p0⟩] : List (View.Piece (Elt F) S4096x128 .f32)), y ∈ pc.1.set :=
  View.cover_of_tiled [⟨rP, p0⟩] S4096x128.size (by rfl) y

set_option maxHeartbeats 1000000 in
/-- The projection body on whole staging memrefs: inputs kept, the output at `out0` of the inputs. -/
theorem sound_kernel0 (𝒱₀ : Variants) (c : Dev nD) (E : Set Name)
    (arg0 : Memref sig .tc .vmem S4096x128 .f32) (harg0 : arg0.IsWhole) (arg1 : Memref sig .tc .vmem S128x128 .f32) (harg1 : arg1.IsWhole)
    (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0 x0 x1)) -∗ K ⟨⟩))
      ⊢ wp frame (wpE (defs₀ (F := F)) 𝒱₀ c none) E (cc0__proj_body arg0 harg0 arg1 harg1 arg2 harg2) K := by
  simp only [cc0__proj_body_eq_skeleton]; unfold cc0__proj_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

section Data0

variable (V : (c : Dev nD) → (b : Ref sig .tc) → Buf (Elt F) ((c : Thread nD τ).loc b))
  (O : Dev nD → CellTallies nD τ sig Ix) (Rc : Dev nD → Set (SemLoc sig × Ix))

/-- Window `w`'s block at point `t`, read off the contents `V` the region finds in the window's array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: the arrays as the region finds them; after the body each input's buffer at
    its block and the output's at `out0` of the input blocks; the invariant the scoped buffers no window stages; the
    core owing `O c` throughout, its recorded pairs within `Rc c`. -/
def dat0 (c : Dev nD) : Dat τ (Elt F) Ix Name U Lvl cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.scopedRest spec0 c
  q _ := fullShare
  owed _ := O c
  recorded _ := Rc c

theorem A0_eq (c : Dev nD) (w : Fin cfg0.W) : (dat0 (Name := Name) (U := U) (Lvl := Lvl) V O Rc c).A w = V c (Pipeline.arrRef spec0 w) := by
  dsimp only [dat0]

theorem after0_0 (c : Dev nD) (t : Fin cfg0.N) : (dat0 (Name := Name) (U := U) (Lvl := Lvl) V O Rc c).after 0 t = iblk0 V c 0 t := by dsimp only [dat0]
theorem after0_1 (c : Dev nD) (t : Fin cfg0.N) : (dat0 (Name := Name) (U := U) (Lvl := Lvl) V O Rc c).after 1 t = iblk0 V c 1 t := by dsimp only [dat0]
theorem after0_2 (c : Dev nD) (t : Fin cfg0.N) : (dat0 (Name := Name) (U := U) (Lvl := Lvl) V O Rc c).after 2 t = out0 (iblk0 V c 0 t) (iblk0 V c 1 t) := by dsimp only [dat0]

/-- Each input's current staging buffer holds its block at every point. -/
theorem before0_0 (c : Dev nD) (t : Fin cfg0.N) (d) : (dat0 (Name := Name) (U := U) (Lvl := Lvl) V O Rc c).before 0 t d = iblk0 V c 0 t :=
  ((dat0 V O Rc c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 (Name := Name) (U := U) (Lvl := Lvl) V O Rc c).before 1 t d = iblk0 V c 1 t :=
  ((dat0 V O Rc c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

/-- The body obligation of region 0, at every point. -/
theorem body_obligation0 (𝒱₀ : Variants) (ι : Ix) (c : Dev nD) :
    BodyObligation (dat0 (Name := Name) (U := U) (Lvl := Lvl) V O Rc c) (defs₀ (F := F)) 𝒱₀ ι Set.univ := fun t => by
  rw [bigSep_W0, bigSep_W0]
  simp only [before0_0, before0_1]
  rw [show (dat0 V O Rc c).Φ t.succ = (dat0 V O Rc c).Φ t.castSucc from rfl,
    show (dat0 V O Rc c).owesAt ι t.succ = (dat0 V O Rc c).owesAt ι t.castSucc from rfl,
    after0_0, after0_1, after0_2]
  iintro ⟨HΦ, Ho, ⟨%d0, H0⟩, ⟨%d1, H1⟩, ⟨%d2, H2⟩⟩
  iapply (sound_kernel0 𝒱₀ c Set.univ (win0_0.stage (cfg0.slots t 0)) (hstage0_0 0) (win0_1.stage (cfg0.slots t 1)) (hstage0_1 0) (win0_2.stage (cfg0.slots t 2)) (hstage0_2 0) (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Data0

/-! ## Regions 1 and 2: the layer on 128 nodes -/

/-- The whole-block rectangles the layer body loads and stores through, one per block shape. -/
abbrev r_S1x128x128 : Rect S1x128x128 := Rect.unit (s := S1x128x128) ![0, 0, 0] S1x128x128.size inb_S1x128x128_S1x128x128_0_0_0
abbrev r_S1x36x128x128 : Rect S1x36x128x128 := Rect.unit (s := S1x36x128x128) ![0, 0, 0, 0] S1x36x128x128.size inb_S1x36x128x128_S1x36x128x128_0_0_0_0
abbrev r_S36x128x128 : Rect S36x128x128 := Rect.unit (s := S36x128x128) ![0, 0, 0] S36x128x128.size inb_S36x128x128_S36x128x128_0_0_0
abbrev r_S1x128x36 : Rect S1x128x36 := Rect.unit (s := S1x128x36) ![0, 0, 0] S1x128x36.size inb_S1x128x36_S1x128x36_0_0_0
abbrev r_S1x1x1x4608 : Rect S1x1x1x4608 := Rect.unit (s := S1x1x1x4608) ![0, 0, 0, 0] S1x1x1x4608.size inb_S1x1x1x4608_S1x1x1x4608_0_0_0_0
abbrev r_S1x1x1x128 : Rect S1x1x1x128 := Rect.unit (s := S1x1x1x128) ![0, 0, 0, 0] S1x1x1x128.size inb_S1x1x1x128_S1x1x1x128_0_0_0_0
abbrev r_S128x4608 : Rect S128x4608 := Rect.unit (s := S128x4608) ![0, 0] S128x4608.size inb_S128x4608_S128x4608_0_0
abbrev r_S4608x128 : Rect S4608x128 := Rect.unit (s := S4608x128) ![0, 0] S4608x128.size inb_S4608x128_S4608x128_0_0
abbrev r_S128x128 : Rect S128x128 := Rect.unit (s := S128x128) ![0, 0] S128x128.size inb_S128x128_S128x128_0_0
abbrev r_S1x128 : Rect S1x128 := Rect.unit (s := S1x128) ![0, 0] S1x128.size inb_S1x128_S1x128_0_0
abbrev r_S128x512 : Rect S128x512 := Rect.unit (s := S128x512) ![0, 0] S128x512.size inb_S128x512_S128x512_0_0
abbrev r_S1x512 : Rect S1x512 := Rect.unit (s := S1x512) ![0, 0] S1x512.size inb_S1x512_S1x512_0_0
abbrev r_S512x128 : Rect S512x128 := Rect.unit (s := S512x128) ![0, 0] S512x128.size inb_S512x128_S512x128_0_0

/-- What the layer body leaves in its output buffer, from the 23 input blocks (in window order): the layer's value
    `BodyVal.bodyOut` of the blocks as loaded, stored over the whole buffer. -/
def out2 (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) : Vec F S1x128x128 .f32 :=
  View.canon [⟨r_S1x128x128, BodyVal.bodyOut (KConst.inv36 (F := F)) (View.ld x0 r_S1x128x128) (View.ld x1 r_S1x36x128x128) (View.ld x2 r_S36x128x128) (View.ld x3 r_S1x128x36) (View.ld x4 r_S1x1x1x4608) (View.ld x5 r_S1x1x1x128) (View.ld x6 r_S128x4608) (View.ld x7 r_S4608x128) (View.ld x8 r_S128x128) (View.ld x9 r_S1x128) (View.ld x10 r_S128x128) (View.ld x11 r_S128x128) (View.ld x12 r_S1x128) (View.ld x13 r_S128x128) (View.ld x14 r_S1x128) (View.ld x15 r_S128x512) (View.ld x16 r_S1x512) (View.ld x17 r_S512x128) (View.ld x18 r_S1x128) (View.ld x19 r_S1x128) (View.ld x20 r_S1x128) (View.ld x21 r_S1x128) (View.ld x22 r_S1x128)⟩]

theorem cover2 (p0 : Vec F S1x128x128 .f32) (y : S1x128x128.Idx) :
    ∃ pc ∈ ([⟨r_S1x128x128, p0⟩] : List (View.Piece (Elt F) S1x128x128 .f32)), y ∈ pc.1.set :=
  View.cover_of_tiled [⟨r_S1x128x128, p0⟩] S1x128x128.size (by rfl) y

/-- What the second half's layer body leaves in its output buffer: `BodyVal.bodyOut4` of the blocks as loaded. -/
def out4 (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) : Vec F S1x128x128 .f32 :=
  View.canon [⟨r_S1x128x128, BodyVal.bodyOut4 (KConst.inv36 (F := F)) (View.ld x0 r_S1x128x128) (View.ld x1 r_S1x36x128x128) (View.ld x2 r_S36x128x128) (View.ld x3 r_S1x128x36) (View.ld x4 r_S1x1x1x4608) (View.ld x5 r_S1x1x1x128) (View.ld x6 r_S128x4608) (View.ld x7 r_S4608x128) (View.ld x8 r_S128x128) (View.ld x9 r_S1x128) (View.ld x10 r_S128x128) (View.ld x11 r_S128x128) (View.ld x12 r_S1x128) (View.ld x13 r_S128x128) (View.ld x14 r_S1x128) (View.ld x15 r_S128x512) (View.ld x16 r_S1x512) (View.ld x17 r_S512x128) (View.ld x18 r_S1x128) (View.ld x19 r_S1x128) (View.ld x20 r_S1x128) (View.ld x21 r_S1x128) (View.ld x22 r_S1x128)⟩]

set_option maxHeartbeats 4000000 in
/-- The layer body on whole staging memrefs: the inputs kept, the output at `out2` of the inputs. -/
theorem sound_kernel2 (𝒱₀ : Variants) (c : Dev nD) (E : Set Name) (i : grid2.Coords) (arg2 : Memref sig .tc .vmem S1x128x128 .f32) (harg2 : arg2.IsWhole) (arg3 : Memref sig .tc .vmem S1x36x128x128 .f32) (harg3 : arg3.IsWhole) (arg4 : Memref sig .tc .vmem S36x128x128 .f32) (harg4 : arg4.IsWhole) (arg5 : Memref sig .tc .vmem S1x128x36 .f32) (harg5 : arg5.IsWhole) (arg6 : Memref sig .tc .vmem S1x1x1x4608 .bf16) (harg6 : arg6.IsWhole) (arg7 : Memref sig .tc .vmem S1x1x1x128 .f32) (harg7 : arg7.IsWhole) (arg8 : Memref sig .tc .vmem S128x4608 .bf16) (harg8 : arg8.IsWhole) (arg9 : Memref sig .tc .vmem S4608x128 .bf16) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x512 .bf16) (harg17 : arg17.IsWhole) (arg18 : Memref sig .tc .vmem S1x512 .f32) (harg18 : arg18.IsWhole) (arg19 : Memref sig .tc .vmem S512x128 .bf16) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128x128 .f32) (harg25 : arg25.IsWhole)
    (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare (out2 x0 x1 x2 x3 x4 x5 x6 x7 x8 x9 x10 x11 x12 x13 x14 x15 x16 x17 x18 x19 x20 x21 x22)) -∗ K ⟨⟩))
      ⊢ wp frame (wpE (defs₀ (F := F)) 𝒱₀ c none) E (cc2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc2_body_eq_skeleton]; unfold cc2_body_skel
  simp only [k2_part1_eq_skeleton, k2_part2_eq_skeleton, k2_part3_eq_skeleton, k2_part4_eq_skeleton]
  unfold k2_part1_skel k2_part2_skel k2_part3_skel k2_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  exact View.read_writes_eq_canon _ _ _ (cover2 _)

section Data2

variable (V : (c : Dev nD) → (b : Ref sig .tc) → Buf (Elt F) ((c : Thread nD τ).loc b))
  (O : Dev nD → CellTallies nD τ sig Ix) (Rc : Dev nD → Set (SemLoc sig × Ix))

/-- Window `w`'s block at point `t`, read off the contents `V` the region finds in the window's array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The layer's value at point `t`, from the 23 input blocks there. -/
def outAt2 (c : Dev nD) (t : Fin cfg2.N) : Vec F S1x128x128 .f32 :=
  out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t)

/-- The proof data of the region on core `c`: the arrays as the region finds them; after the body each input's buffer
    at its block and the output's at the layer's value of the input blocks; the invariant the scoped buffers no window
    stages; the core owing `O c` throughout, its recorded pairs within `Rc c`. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => iblk2 V c 22 t
    | ⟨23, _⟩ => outAt2 V c t
    | ⟨_ + 24, h⟩ => absurd h (Nat.not_lt.2 (Nat.le_add_left _ _))
  Φ _ := Pipeline.scopedRest spec2 c
  q _ := fullShare
  owed _ := O c
  recorded _ := Rc c

theorem A2_eq (c : Dev nD) (w : Fin cfg2.W) : (dat2 (Name := Name) (U := U) (Lvl := Lvl) V O Rc c).A w = V c (Pipeline.arrRef spec2 w) := by
  dsimp only [dat2]

theorem after2_0 (c : Dev nD) (t : Fin cfg2.N) : (dat2 (Name := Name) (U := U) (Lvl := Lvl) V O Rc c).after 0 t = iblk2 V c 0 t := by dsimp only [dat2]
theorem after2_1 (c : Dev nD) (t : Fin cfg2.N) : (dat2 (Name := Name) (U := U) (Lvl := Lvl) V O Rc c).after 1 t = iblk2 V c 1 t := by dsimp only [dat2]
theorem after2_2 (c : Dev nD) (t : Fin cfg2.N) : (dat2 (Name := Name) (U := U) (Lvl := Lvl) V O Rc c).after 2 t = iblk2 V c 2 t := by dsimp only [dat2]
theorem after2_3 (c : Dev nD) (t : Fin cfg2.N) : (dat2 (Name := Name) (U := U) (Lvl := Lvl) V O Rc c).after 3 t = iblk2 V c 3 t := by dsimp only [dat2]
theorem after2_4 (c : Dev nD) (t : Fin cfg2.N) : (dat2 (Name := Name) (U := U) (Lvl := Lvl) V O Rc c).after 4 t = iblk2 V c 4 t := by dsimp only [dat2]
theorem after2_5 (c : Dev nD) (t : Fin cfg2.N) : (dat2 (Name := Name) (U := U) (Lvl := Lvl) V O Rc c).after 5 t = iblk2 V c 5 t := by dsimp only [dat2]
theorem after2_6 (c : Dev nD) (t : Fin cfg2.N) : (dat2 (Name := Name) (U := U) (Lvl := Lvl) V O Rc c).after 6 t = iblk2 V c 6 t := by dsimp only [dat2]
theorem after2_7 (c : Dev nD) (t : Fin cfg2.N) : (dat2 (Name := Name) (U := U) (Lvl := Lvl) V O Rc c).after 7 t = iblk2 V c 7 t := by dsimp only [dat2]
theorem after2_8 (c : Dev nD) (t : Fin cfg2.N) : (dat2 (Name := Name) (U := U) (Lvl := Lvl) V O Rc c).after 8 t = iblk2 V c 8 t := by dsimp only [dat2]
theorem after2_9 (c : Dev nD) (t : Fin cfg2.N) : (dat2 (Name := Name) (U := U) (Lvl := Lvl) V O Rc c).after 9 t = iblk2 V c 9 t := by dsimp only [dat2]
theorem after2_10 (c : Dev nD) (t : Fin cfg2.N) : (dat2 (Name := Name) (U := U) (Lvl := Lvl) V O Rc c).after 10 t = iblk2 V c 10 t := by dsimp only [dat2]
theorem after2_11 (c : Dev nD) (t : Fin cfg2.N) : (dat2 (Name := Name) (U := U) (Lvl := Lvl) V O Rc c).after 11 t = iblk2 V c 11 t := by dsimp only [dat2]
theorem after2_12 (c : Dev nD) (t : Fin cfg2.N) : (dat2 (Name := Name) (U := U) (Lvl := Lvl) V O Rc c).after 12 t = iblk2 V c 12 t := by dsimp only [dat2]
theorem after2_13 (c : Dev nD) (t : Fin cfg2.N) : (dat2 (Name := Name) (U := U) (Lvl := Lvl) V O Rc c).after 13 t = iblk2 V c 13 t := by dsimp only [dat2]
theorem after2_14 (c : Dev nD) (t : Fin cfg2.N) : (dat2 (Name := Name) (U := U) (Lvl := Lvl) V O Rc c).after 14 t = iblk2 V c 14 t := by dsimp only [dat2]
theorem after2_15 (c : Dev nD) (t : Fin cfg2.N) : (dat2 (Name := Name) (U := U) (Lvl := Lvl) V O Rc c).after 15 t = iblk2 V c 15 t := by dsimp only [dat2]
theorem after2_16 (c : Dev nD) (t : Fin cfg2.N) : (dat2 (Name := Name) (U := U) (Lvl := Lvl) V O Rc c).after 16 t = iblk2 V c 16 t := by dsimp only [dat2]
theorem after2_17 (c : Dev nD) (t : Fin cfg2.N) : (dat2 (Name := Name) (U := U) (Lvl := Lvl) V O Rc c).after 17 t = iblk2 V c 17 t := by dsimp only [dat2]
theorem after2_18 (c : Dev nD) (t : Fin cfg2.N) : (dat2 (Name := Name) (U := U) (Lvl := Lvl) V O Rc c).after 18 t = iblk2 V c 18 t := by dsimp only [dat2]
theorem after2_19 (c : Dev nD) (t : Fin cfg2.N) : (dat2 (Name := Name) (U := U) (Lvl := Lvl) V O Rc c).after 19 t = iblk2 V c 19 t := by dsimp only [dat2]
theorem after2_20 (c : Dev nD) (t : Fin cfg2.N) : (dat2 (Name := Name) (U := U) (Lvl := Lvl) V O Rc c).after 20 t = iblk2 V c 20 t := by dsimp only [dat2]
theorem after2_21 (c : Dev nD) (t : Fin cfg2.N) : (dat2 (Name := Name) (U := U) (Lvl := Lvl) V O Rc c).after 21 t = iblk2 V c 21 t := by dsimp only [dat2]
theorem after2_22 (c : Dev nD) (t : Fin cfg2.N) : (dat2 (Name := Name) (U := U) (Lvl := Lvl) V O Rc c).after 22 t = iblk2 V c 22 t := by dsimp only [dat2]
theorem after2_23 (c : Dev nD) (t : Fin cfg2.N) : (dat2 (Name := Name) (U := U) (Lvl := Lvl) V O Rc c).after 23 t = outAt2 V c t := by dsimp only [dat2]

/-- Each input's current staging buffer holds its block at every point, fetched there or not. -/
theorem before2_0 (c : Dev nD) (t : Fin cfg2.N) (d) : (dat2 (Name := Name) (U := U) (Lvl := Lvl) V O Rc c).before 0 t d = iblk2 V c 0 t :=
  ((dat2 V O Rc c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 (Name := Name) (U := U) (Lvl := Lvl) V O Rc c).before 1 t d = iblk2 V c 1 t :=
  ((dat2 V O Rc c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 (Name := Name) (U := U) (Lvl := Lvl) V O Rc c).before 2 t d = iblk2 V c 2 t :=
  ((dat2 V O Rc c).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 (Name := Name) (U := U) (Lvl := Lvl) V O Rc c).before 3 t d = iblk2 V c 3 t :=
  ((dat2 V O Rc c).before_in_eq_fetched 3 rfl (fun _ => rfl) (fun _ _ _ => rfl) (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 (Name := Name) (U := U) (Lvl := Lvl) V O Rc c).before 4 t d = iblk2 V c 4 t :=
  ((dat2 V O Rc c).before_in_eq_fetched 4 rfl (fun _ => rfl) (fun _ _ _ => rfl) (fun t => by rw [after2_4]; unfold Dat.blockOf iblk2; rw [A2_eq]; try rfl) t d).trans
    (by unfold Dat.fetched Dat.blockOf iblk2; rw [A2_eq]; try rfl)
theorem before2_5 (c : Dev nD) (t : Fin cfg2.N) (d) : (dat2 (Name := Name) (U := U) (Lvl := Lvl) V O Rc c).before 5 t d = iblk2 V c 5 t :=
  ((dat2 V O Rc c).before_in_eq_fetched 5 rfl (fun _ => rfl) (fun _ _ _ => rfl) (fun t => by rw [after2_5]; unfold Dat.blockOf iblk2; rw [A2_eq]; try rfl) t d).trans
    (by unfold Dat.fetched Dat.blockOf iblk2; rw [A2_eq]; try rfl)
theorem before2_6 (c : Dev nD) (t : Fin cfg2.N) (d) : (dat2 (Name := Name) (U := U) (Lvl := Lvl) V O Rc c).before 6 t d = iblk2 V c 6 t :=
  ((dat2 V O Rc c).before_in_eq_fetched 6 rfl (fun _ => rfl) (fun _ _ _ => rfl) (fun t => by rw [after2_6]; unfold Dat.blockOf iblk2; rw [A2_eq]; try rfl) t d).trans
    (by unfold Dat.fetched Dat.blockOf iblk2; rw [A2_eq]; try rfl)
theorem before2_7 (c : Dev nD) (t : Fin cfg2.N) (d) : (dat2 (Name := Name) (U := U) (Lvl := Lvl) V O Rc c).before 7 t d = iblk2 V c 7 t :=
  ((dat2 V O Rc c).before_in_eq_fetched 7 rfl (fun _ => rfl) (fun _ _ _ => rfl) (fun t => by rw [after2_7]; unfold Dat.blockOf iblk2; rw [A2_eq]; try rfl) t d).trans
    (by unfold Dat.fetched Dat.blockOf iblk2; rw [A2_eq]; try rfl)
theorem before2_8 (c : Dev nD) (t : Fin cfg2.N) (d) : (dat2 (Name := Name) (U := U) (Lvl := Lvl) V O Rc c).before 8 t d = iblk2 V c 8 t :=
  ((dat2 V O Rc c).before_in_eq_fetched 8 rfl (fun _ => rfl) (fun _ _ _ => rfl) (fun t => by rw [after2_8]; unfold Dat.blockOf iblk2; rw [A2_eq]; try rfl) t d).trans
    (by unfold Dat.fetched Dat.blockOf iblk2; rw [A2_eq]; try rfl)
theorem before2_9 (c : Dev nD) (t : Fin cfg2.N) (d) : (dat2 (Name := Name) (U := U) (Lvl := Lvl) V O Rc c).before 9 t d = iblk2 V c 9 t :=
  ((dat2 V O Rc c).before_in_eq_fetched 9 rfl (fun _ => rfl) (fun _ _ _ => rfl) (fun t => by rw [after2_9]; unfold Dat.blockOf iblk2; rw [A2_eq]; try rfl) t d).trans
    (by unfold Dat.fetched Dat.blockOf iblk2; rw [A2_eq]; try rfl)
theorem before2_10 (c : Dev nD) (t : Fin cfg2.N) (d) : (dat2 (Name := Name) (U := U) (Lvl := Lvl) V O Rc c).before 10 t d = iblk2 V c 10 t :=
  ((dat2 V O Rc c).before_in_eq_fetched 10 rfl (fun _ => rfl) (fun _ _ _ => rfl) (fun t => by rw [after2_10]; unfold Dat.blockOf iblk2; rw [A2_eq]; try rfl) t d).trans
    (by unfold Dat.fetched Dat.blockOf iblk2; rw [A2_eq]; try rfl)
theorem before2_11 (c : Dev nD) (t : Fin cfg2.N) (d) : (dat2 (Name := Name) (U := U) (Lvl := Lvl) V O Rc c).before 11 t d = iblk2 V c 11 t :=
  ((dat2 V O Rc c).before_in_eq_fetched 11 rfl (fun _ => rfl) (fun _ _ _ => rfl) (fun t => by rw [after2_11]; unfold Dat.blockOf iblk2; rw [A2_eq]; try rfl) t d).trans
    (by unfold Dat.fetched Dat.blockOf iblk2; rw [A2_eq]; try rfl)
theorem before2_12 (c : Dev nD) (t : Fin cfg2.N) (d) : (dat2 (Name := Name) (U := U) (Lvl := Lvl) V O Rc c).before 12 t d = iblk2 V c 12 t :=
  ((dat2 V O Rc c).before_in_eq_fetched 12 rfl (fun _ => rfl) (fun _ _ _ => rfl) (fun t => by rw [after2_12]; unfold Dat.blockOf iblk2; rw [A2_eq]; try rfl) t d).trans
    (by unfold Dat.fetched Dat.blockOf iblk2; rw [A2_eq]; try rfl)
theorem before2_13 (c : Dev nD) (t : Fin cfg2.N) (d) : (dat2 (Name := Name) (U := U) (Lvl := Lvl) V O Rc c).before 13 t d = iblk2 V c 13 t :=
  ((dat2 V O Rc c).before_in_eq_fetched 13 rfl (fun _ => rfl) (fun _ _ _ => rfl) (fun t => by rw [after2_13]; unfold Dat.blockOf iblk2; rw [A2_eq]; try rfl) t d).trans
    (by unfold Dat.fetched Dat.blockOf iblk2; rw [A2_eq]; try rfl)
theorem before2_14 (c : Dev nD) (t : Fin cfg2.N) (d) : (dat2 (Name := Name) (U := U) (Lvl := Lvl) V O Rc c).before 14 t d = iblk2 V c 14 t :=
  ((dat2 V O Rc c).before_in_eq_fetched 14 rfl (fun _ => rfl) (fun _ _ _ => rfl) (fun t => by rw [after2_14]; unfold Dat.blockOf iblk2; rw [A2_eq]; try rfl) t d).trans
    (by unfold Dat.fetched Dat.blockOf iblk2; rw [A2_eq]; try rfl)
theorem before2_15 (c : Dev nD) (t : Fin cfg2.N) (d) : (dat2 (Name := Name) (U := U) (Lvl := Lvl) V O Rc c).before 15 t d = iblk2 V c 15 t :=
  ((dat2 V O Rc c).before_in_eq_fetched 15 rfl (fun _ => rfl) (fun _ _ _ => rfl) (fun t => by rw [after2_15]; unfold Dat.blockOf iblk2; rw [A2_eq]; try rfl) t d).trans
    (by unfold Dat.fetched Dat.blockOf iblk2; rw [A2_eq]; try rfl)
theorem before2_16 (c : Dev nD) (t : Fin cfg2.N) (d) : (dat2 (Name := Name) (U := U) (Lvl := Lvl) V O Rc c).before 16 t d = iblk2 V c 16 t :=
  ((dat2 V O Rc c).before_in_eq_fetched 16 rfl (fun _ => rfl) (fun _ _ _ => rfl) (fun t => by rw [after2_16]; unfold Dat.blockOf iblk2; rw [A2_eq]; try rfl) t d).trans
    (by unfold Dat.fetched Dat.blockOf iblk2; rw [A2_eq]; try rfl)
theorem before2_17 (c : Dev nD) (t : Fin cfg2.N) (d) : (dat2 (Name := Name) (U := U) (Lvl := Lvl) V O Rc c).before 17 t d = iblk2 V c 17 t :=
  ((dat2 V O Rc c).before_in_eq_fetched 17 rfl (fun _ => rfl) (fun _ _ _ => rfl) (fun t => by rw [after2_17]; unfold Dat.blockOf iblk2; rw [A2_eq]; try rfl) t d).trans
    (by unfold Dat.fetched Dat.blockOf iblk2; rw [A2_eq]; try rfl)
theorem before2_18 (c : Dev nD) (t : Fin cfg2.N) (d) : (dat2 (Name := Name) (U := U) (Lvl := Lvl) V O Rc c).before 18 t d = iblk2 V c 18 t :=
  ((dat2 V O Rc c).before_in_eq_fetched 18 rfl (fun _ => rfl) (fun _ _ _ => rfl) (fun t => by rw [after2_18]; unfold Dat.blockOf iblk2; rw [A2_eq]; try rfl) t d).trans
    (by unfold Dat.fetched Dat.blockOf iblk2; rw [A2_eq]; try rfl)
theorem before2_19 (c : Dev nD) (t : Fin cfg2.N) (d) : (dat2 (Name := Name) (U := U) (Lvl := Lvl) V O Rc c).before 19 t d = iblk2 V c 19 t :=
  ((dat2 V O Rc c).before_in_eq_fetched 19 rfl (fun _ => rfl) (fun _ _ _ => rfl) (fun t => by rw [after2_19]; unfold Dat.blockOf iblk2; rw [A2_eq]; try rfl) t d).trans
    (by unfold Dat.fetched Dat.blockOf iblk2; rw [A2_eq]; try rfl)
theorem before2_20 (c : Dev nD) (t : Fin cfg2.N) (d) : (dat2 (Name := Name) (U := U) (Lvl := Lvl) V O Rc c).before 20 t d = iblk2 V c 20 t :=
  ((dat2 V O Rc c).before_in_eq_fetched 20 rfl (fun _ => rfl) (fun _ _ _ => rfl) (fun t => by rw [after2_20]; unfold Dat.blockOf iblk2; rw [A2_eq]; try rfl) t d).trans
    (by unfold Dat.fetched Dat.blockOf iblk2; rw [A2_eq]; try rfl)
theorem before2_21 (c : Dev nD) (t : Fin cfg2.N) (d) : (dat2 (Name := Name) (U := U) (Lvl := Lvl) V O Rc c).before 21 t d = iblk2 V c 21 t :=
  ((dat2 V O Rc c).before_in_eq_fetched 21 rfl (fun _ => rfl) (fun _ _ _ => rfl) (fun t => by rw [after2_21]; unfold Dat.blockOf iblk2; rw [A2_eq]; try rfl) t d).trans
    (by unfold Dat.fetched Dat.blockOf iblk2; rw [A2_eq]; try rfl)
theorem before2_22 (c : Dev nD) (t : Fin cfg2.N) (d) : (dat2 (Name := Name) (U := U) (Lvl := Lvl) V O Rc c).before 22 t d = iblk2 V c 22 t :=
  ((dat2 V O Rc c).before_in_eq_fetched 22 rfl (fun _ => rfl) (fun _ _ _ => rfl) (fun t => by rw [after2_22]; unfold Dat.blockOf iblk2; rw [A2_eq]; try rfl) t d).trans
    (by unfold Dat.fetched Dat.blockOf iblk2; rw [A2_eq]; try rfl)

set_option maxHeartbeats 2000000 in
/-- The body obligation of the region, at every point. -/
theorem body_obligation2 (𝒱₀ : Variants) (ι : Ix) (c : Dev nD) :
    BodyObligation (dat2 (Name := Name) (U := U) (Lvl := Lvl) V O Rc c) (defs₀ (F := F)) 𝒱₀ ι Set.univ := fun t => by
  rw [bigSep_W2, bigSep_W2]
  simp only [before2_0, before2_1, before2_2, before2_3, before2_4, before2_5, before2_6, before2_7, before2_8, before2_9, before2_10, before2_11, before2_12, before2_13, before2_14, before2_15, before2_16, before2_17, before2_18, before2_19, before2_20, before2_21, before2_22]
  rw [show (dat2 V O Rc c).Φ t.succ = (dat2 V O Rc c).Φ t.castSucc from rfl,
    show (dat2 V O Rc c).owesAt ι t.succ = (dat2 V O Rc c).owesAt ι t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22, after2_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel2 𝒱₀ c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (win2_12.stage (cfg2.slots t 12)) (hstage2_12 ((cfg2.slots t 12).cast nbuf2_12)) (win2_13.stage (cfg2.slots t 13)) (hstage2_13 ((cfg2.slots t 13).cast nbuf2_13)) (win2_14.stage (cfg2.slots t 14)) (hstage2_14 ((cfg2.slots t 14).cast nbuf2_14)) (win2_15.stage (cfg2.slots t 15)) (hstage2_15 ((cfg2.slots t 15).cast nbuf2_15)) (win2_16.stage (cfg2.slots t 16)) (hstage2_16 ((cfg2.slots t 16).cast nbuf2_16)) (win2_17.stage (cfg2.slots t 17)) (hstage2_17 ((cfg2.slots t 17).cast nbuf2_17)) (win2_18.stage (cfg2.slots t 18)) (hstage2_18 ((cfg2.slots t 18).cast nbuf2_18)) (win2_19.stage (cfg2.slots t 19)) (hstage2_19 ((cfg2.slots t 19).cast nbuf2_19)) (win2_20.stage (cfg2.slots t 20)) (hstage2_20 ((cfg2.slots t 20).cast nbuf2_20)) (win2_21.stage (cfg2.slots t 21)) (hstage2_21 ((cfg2.slots t 21).cast nbuf2_21)) (win2_22.stage (cfg2.slots t 22)) (hstage2_22 ((cfg2.slots t 22).cast nbuf2_22)) (win2_23.stage (cfg2.slots t 23)) (hstage2_23 ((cfg2.slots t 23).cast nbuf2_23))
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Data2

set_option maxHeartbeats 4000000 in
/-- The layer body on whole staging memrefs: the inputs kept, the output at `out4` of the inputs. -/
theorem sound_kernel4 (𝒱₀ : Variants) (c : Dev nD) (E : Set Name) (i : grid4.Coords) (arg2 : Memref sig .tc .vmem S1x128x128 .f32) (harg2 : arg2.IsWhole) (arg3 : Memref sig .tc .vmem S1x36x128x128 .f32) (harg3 : arg3.IsWhole) (arg4 : Memref sig .tc .vmem S36x128x128 .f32) (harg4 : arg4.IsWhole) (arg5 : Memref sig .tc .vmem S1x128x36 .f32) (harg5 : arg5.IsWhole) (arg6 : Memref sig .tc .vmem S1x1x1x4608 .bf16) (harg6 : arg6.IsWhole) (arg7 : Memref sig .tc .vmem S1x1x1x128 .f32) (harg7 : arg7.IsWhole) (arg8 : Memref sig .tc .vmem S128x4608 .bf16) (harg8 : arg8.IsWhole) (arg9 : Memref sig .tc .vmem S4608x128 .bf16) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x512 .bf16) (harg17 : arg17.IsWhole) (arg18 : Memref sig .tc .vmem S1x512 .f32) (harg18 : arg18.IsWhole) (arg19 : Memref sig .tc .vmem S512x128 .bf16) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128x128 .f32) (harg25 : arg25.IsWhole)
    (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare (out4 x0 x1 x2 x3 x4 x5 x6 x7 x8 x9 x10 x11 x12 x13 x14 x15 x16 x17 x18 x19 x20 x21 x22)) -∗ K ⟨⟩))
      ⊢ wp frame (wpE (defs₀ (F := F)) 𝒱₀ c none) E (cc4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc4_body_eq_skeleton]; unfold cc4_body_skel
  simp only [k4_part1_eq_skeleton, k4_part2_eq_skeleton, k4_part3_eq_skeleton, k4_part4_eq_skeleton]
  unfold k4_part1_skel k4_part2_skel k4_part3_skel k4_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  exact View.read_writes_eq_canon _ _ _ (cover2 _)

section Data4

variable (V : (c : Dev nD) → (b : Ref sig .tc) → Buf (Elt F) ((c : Thread nD τ).loc b))
  (O : Dev nD → CellTallies nD τ sig Ix) (Rc : Dev nD → Set (SemLoc sig × Ix))

/-- Window `w`'s block at point `t`, read off the contents `V` the region finds in the window's array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The layer's value at point `t`, from the 23 input blocks there. -/
def outAt4 (c : Dev nD) (t : Fin cfg4.N) : Vec F S1x128x128 .f32 :=
  out4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) (iblk4 V c 20 t) (iblk4 V c 21 t) (iblk4 V c 22 t)

/-- The proof data of the region on core `c`: the arrays as the region finds them; after the body each input's buffer
    at its block and the output's at the layer's value of the input blocks; the invariant the scoped buffers no window
    stages; the core owing `O c` throughout, its recorded pairs within `Rc c`. -/
def dat4 (c : Dev nD) : Dat τ (Elt F) Ix Name U Lvl cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => iblk4 V c 16 t
    | ⟨17, _⟩ => iblk4 V c 17 t
    | ⟨18, _⟩ => iblk4 V c 18 t
    | ⟨19, _⟩ => iblk4 V c 19 t
    | ⟨20, _⟩ => iblk4 V c 20 t
    | ⟨21, _⟩ => iblk4 V c 21 t
    | ⟨22, _⟩ => iblk4 V c 22 t
    | ⟨23, _⟩ => outAt4 V c t
    | ⟨_ + 24, h⟩ => absurd h (Nat.not_lt.2 (Nat.le_add_left _ _))
  Φ _ := Pipeline.scopedRest spec4 c
  q _ := fullShare
  owed _ := O c
  recorded _ := Rc c

theorem A4_eq (c : Dev nD) (w : Fin cfg4.W) : (dat4 (Name := Name) (U := U) (Lvl := Lvl) V O Rc c).A w = V c (Pipeline.arrRef spec4 w) := by
  dsimp only [dat4]

theorem after4_0 (c : Dev nD) (t : Fin cfg4.N) : (dat4 (Name := Name) (U := U) (Lvl := Lvl) V O Rc c).after 0 t = iblk4 V c 0 t := by dsimp only [dat4]
theorem after4_1 (c : Dev nD) (t : Fin cfg4.N) : (dat4 (Name := Name) (U := U) (Lvl := Lvl) V O Rc c).after 1 t = iblk4 V c 1 t := by dsimp only [dat4]
theorem after4_2 (c : Dev nD) (t : Fin cfg4.N) : (dat4 (Name := Name) (U := U) (Lvl := Lvl) V O Rc c).after 2 t = iblk4 V c 2 t := by dsimp only [dat4]
theorem after4_3 (c : Dev nD) (t : Fin cfg4.N) : (dat4 (Name := Name) (U := U) (Lvl := Lvl) V O Rc c).after 3 t = iblk4 V c 3 t := by dsimp only [dat4]
theorem after4_4 (c : Dev nD) (t : Fin cfg4.N) : (dat4 (Name := Name) (U := U) (Lvl := Lvl) V O Rc c).after 4 t = iblk4 V c 4 t := by dsimp only [dat4]
theorem after4_5 (c : Dev nD) (t : Fin cfg4.N) : (dat4 (Name := Name) (U := U) (Lvl := Lvl) V O Rc c).after 5 t = iblk4 V c 5 t := by dsimp only [dat4]
theorem after4_6 (c : Dev nD) (t : Fin cfg4.N) : (dat4 (Name := Name) (U := U) (Lvl := Lvl) V O Rc c).after 6 t = iblk4 V c 6 t := by dsimp only [dat4]
theorem after4_7 (c : Dev nD) (t : Fin cfg4.N) : (dat4 (Name := Name) (U := U) (Lvl := Lvl) V O Rc c).after 7 t = iblk4 V c 7 t := by dsimp only [dat4]
theorem after4_8 (c : Dev nD) (t : Fin cfg4.N) : (dat4 (Name := Name) (U := U) (Lvl := Lvl) V O Rc c).after 8 t = iblk4 V c 8 t := by dsimp only [dat4]
theorem after4_9 (c : Dev nD) (t : Fin cfg4.N) : (dat4 (Name := Name) (U := U) (Lvl := Lvl) V O Rc c).after 9 t = iblk4 V c 9 t := by dsimp only [dat4]
theorem after4_10 (c : Dev nD) (t : Fin cfg4.N) : (dat4 (Name := Name) (U := U) (Lvl := Lvl) V O Rc c).after 10 t = iblk4 V c 10 t := by dsimp only [dat4]
theorem after4_11 (c : Dev nD) (t : Fin cfg4.N) : (dat4 (Name := Name) (U := U) (Lvl := Lvl) V O Rc c).after 11 t = iblk4 V c 11 t := by dsimp only [dat4]
theorem after4_12 (c : Dev nD) (t : Fin cfg4.N) : (dat4 (Name := Name) (U := U) (Lvl := Lvl) V O Rc c).after 12 t = iblk4 V c 12 t := by dsimp only [dat4]
theorem after4_13 (c : Dev nD) (t : Fin cfg4.N) : (dat4 (Name := Name) (U := U) (Lvl := Lvl) V O Rc c).after 13 t = iblk4 V c 13 t := by dsimp only [dat4]
theorem after4_14 (c : Dev nD) (t : Fin cfg4.N) : (dat4 (Name := Name) (U := U) (Lvl := Lvl) V O Rc c).after 14 t = iblk4 V c 14 t := by dsimp only [dat4]
theorem after4_15 (c : Dev nD) (t : Fin cfg4.N) : (dat4 (Name := Name) (U := U) (Lvl := Lvl) V O Rc c).after 15 t = iblk4 V c 15 t := by dsimp only [dat4]
theorem after4_16 (c : Dev nD) (t : Fin cfg4.N) : (dat4 (Name := Name) (U := U) (Lvl := Lvl) V O Rc c).after 16 t = iblk4 V c 16 t := by dsimp only [dat4]
theorem after4_17 (c : Dev nD) (t : Fin cfg4.N) : (dat4 (Name := Name) (U := U) (Lvl := Lvl) V O Rc c).after 17 t = iblk4 V c 17 t := by dsimp only [dat4]
theorem after4_18 (c : Dev nD) (t : Fin cfg4.N) : (dat4 (Name := Name) (U := U) (Lvl := Lvl) V O Rc c).after 18 t = iblk4 V c 18 t := by dsimp only [dat4]
theorem after4_19 (c : Dev nD) (t : Fin cfg4.N) : (dat4 (Name := Name) (U := U) (Lvl := Lvl) V O Rc c).after 19 t = iblk4 V c 19 t := by dsimp only [dat4]
theorem after4_20 (c : Dev nD) (t : Fin cfg4.N) : (dat4 (Name := Name) (U := U) (Lvl := Lvl) V O Rc c).after 20 t = iblk4 V c 20 t := by dsimp only [dat4]
theorem after4_21 (c : Dev nD) (t : Fin cfg4.N) : (dat4 (Name := Name) (U := U) (Lvl := Lvl) V O Rc c).after 21 t = iblk4 V c 21 t := by dsimp only [dat4]
theorem after4_22 (c : Dev nD) (t : Fin cfg4.N) : (dat4 (Name := Name) (U := U) (Lvl := Lvl) V O Rc c).after 22 t = iblk4 V c 22 t := by dsimp only [dat4]
theorem after4_23 (c : Dev nD) (t : Fin cfg4.N) : (dat4 (Name := Name) (U := U) (Lvl := Lvl) V O Rc c).after 23 t = outAt4 V c t := by dsimp only [dat4]

/-- Each input's current staging buffer holds its block at every point, fetched there or not. -/
theorem before4_0 (c : Dev nD) (t : Fin cfg4.N) (d) : (dat4 (Name := Name) (U := U) (Lvl := Lvl) V O Rc c).before 0 t d = iblk4 V c 0 t :=
  ((dat4 V O Rc c).before_in_eq_fetched 0 rfl (fun _ => rfl) (fun _ _ _ => rfl) (fun t => by rw [after4_0]; unfold Dat.blockOf iblk4; rw [A4_eq]; try rfl) t d).trans
    (by unfold Dat.fetched Dat.blockOf iblk4; rw [A4_eq]; try rfl)
theorem before4_1 (c : Dev nD) (t : Fin cfg4.N) (d) : (dat4 (Name := Name) (U := U) (Lvl := Lvl) V O Rc c).before 1 t d = iblk4 V c 1 t :=
  ((dat4 V O Rc c).before_in_eq_fetched 1 rfl (fun _ => rfl) (fun _ _ _ => rfl) (fun t => by rw [after4_1]; unfold Dat.blockOf iblk4; rw [A4_eq]; try rfl) t d).trans
    (by unfold Dat.fetched Dat.blockOf iblk4; rw [A4_eq]; try rfl)
theorem before4_2 (c : Dev nD) (t : Fin cfg4.N) (d) : (dat4 (Name := Name) (U := U) (Lvl := Lvl) V O Rc c).before 2 t d = iblk4 V c 2 t :=
  ((dat4 V O Rc c).before_in_eq_fetched 2 rfl (fun _ => rfl) (fun _ _ _ => rfl) (fun t => by rw [after4_2]; unfold Dat.blockOf iblk4; rw [A4_eq]; try rfl) t d).trans
    (by unfold Dat.fetched Dat.blockOf iblk4; rw [A4_eq]; try rfl)
theorem before4_3 (c : Dev nD) (t : Fin cfg4.N) (d) : (dat4 (Name := Name) (U := U) (Lvl := Lvl) V O Rc c).before 3 t d = iblk4 V c 3 t :=
  ((dat4 V O Rc c).before_in_eq_fetched 3 rfl (fun _ => rfl) (fun _ _ _ => rfl) (fun t => by rw [after4_3]; unfold Dat.blockOf iblk4; rw [A4_eq]; try rfl) t d).trans
    (by unfold Dat.fetched Dat.blockOf iblk4; rw [A4_eq]; try rfl)
theorem before4_4 (c : Dev nD) (t : Fin cfg4.N) (d) : (dat4 (Name := Name) (U := U) (Lvl := Lvl) V O Rc c).before 4 t d = iblk4 V c 4 t :=
  ((dat4 V O Rc c).before_in_eq_fetched 4 rfl (fun _ => rfl) (fun _ _ _ => rfl) (fun t => by rw [after4_4]; unfold Dat.blockOf iblk4; rw [A4_eq]; try rfl) t d).trans
    (by unfold Dat.fetched Dat.blockOf iblk4; rw [A4_eq]; try rfl)
theorem before4_5 (c : Dev nD) (t : Fin cfg4.N) (d) : (dat4 (Name := Name) (U := U) (Lvl := Lvl) V O Rc c).before 5 t d = iblk4 V c 5 t :=
  ((dat4 V O Rc c).before_in_eq_fetched 5 rfl (fun _ => rfl) (fun _ _ _ => rfl) (fun t => by rw [after4_5]; unfold Dat.blockOf iblk4; rw [A4_eq]; try rfl) t d).trans
    (by unfold Dat.fetched Dat.blockOf iblk4; rw [A4_eq]; try rfl)
theorem before4_6 (c : Dev nD) (t : Fin cfg4.N) (d) : (dat4 (Name := Name) (U := U) (Lvl := Lvl) V O Rc c).before 6 t d = iblk4 V c 6 t :=
  ((dat4 V O Rc c).before_in_eq_fetched 6 rfl (fun _ => rfl) (fun _ _ _ => rfl) (fun t => by rw [after4_6]; unfold Dat.blockOf iblk4; rw [A4_eq]; try rfl) t d).trans
    (by unfold Dat.fetched Dat.blockOf iblk4; rw [A4_eq]; try rfl)
theorem before4_7 (c : Dev nD) (t : Fin cfg4.N) (d) : (dat4 (Name := Name) (U := U) (Lvl := Lvl) V O Rc c).before 7 t d = iblk4 V c 7 t :=
  ((dat4 V O Rc c).before_in_eq_fetched 7 rfl (fun _ => rfl) (fun _ _ _ => rfl) (fun t => by rw [after4_7]; unfold Dat.blockOf iblk4; rw [A4_eq]; try rfl) t d).trans
    (by unfold Dat.fetched Dat.blockOf iblk4; rw [A4_eq]; try rfl)
theorem before4_8 (c : Dev nD) (t : Fin cfg4.N) (d) : (dat4 (Name := Name) (U := U) (Lvl := Lvl) V O Rc c).before 8 t d = iblk4 V c 8 t :=
  ((dat4 V O Rc c).before_in_eq_fetched 8 rfl (fun _ => rfl) (fun _ _ _ => rfl) (fun t => by rw [after4_8]; unfold Dat.blockOf iblk4; rw [A4_eq]; try rfl) t d).trans
    (by unfold Dat.fetched Dat.blockOf iblk4; rw [A4_eq]; try rfl)
theorem before4_9 (c : Dev nD) (t : Fin cfg4.N) (d) : (dat4 (Name := Name) (U := U) (Lvl := Lvl) V O Rc c).before 9 t d = iblk4 V c 9 t :=
  ((dat4 V O Rc c).before_in_eq_fetched 9 rfl (fun _ => rfl) (fun _ _ _ => rfl) (fun t => by rw [after4_9]; unfold Dat.blockOf iblk4; rw [A4_eq]; try rfl) t d).trans
    (by unfold Dat.fetched Dat.blockOf iblk4; rw [A4_eq]; try rfl)
theorem before4_10 (c : Dev nD) (t : Fin cfg4.N) (d) : (dat4 (Name := Name) (U := U) (Lvl := Lvl) V O Rc c).before 10 t d = iblk4 V c 10 t :=
  ((dat4 V O Rc c).before_in_eq_fetched 10 rfl (fun _ => rfl) (fun _ _ _ => rfl) (fun t => by rw [after4_10]; unfold Dat.blockOf iblk4; rw [A4_eq]; try rfl) t d).trans
    (by unfold Dat.fetched Dat.blockOf iblk4; rw [A4_eq]; try rfl)
theorem before4_11 (c : Dev nD) (t : Fin cfg4.N) (d) : (dat4 (Name := Name) (U := U) (Lvl := Lvl) V O Rc c).before 11 t d = iblk4 V c 11 t :=
  ((dat4 V O Rc c).before_in_eq_fetched 11 rfl (fun _ => rfl) (fun _ _ _ => rfl) (fun t => by rw [after4_11]; unfold Dat.blockOf iblk4; rw [A4_eq]; try rfl) t d).trans
    (by unfold Dat.fetched Dat.blockOf iblk4; rw [A4_eq]; try rfl)
theorem before4_12 (c : Dev nD) (t : Fin cfg4.N) (d) : (dat4 (Name := Name) (U := U) (Lvl := Lvl) V O Rc c).before 12 t d = iblk4 V c 12 t :=
  ((dat4 V O Rc c).before_in_eq_fetched 12 rfl (fun _ => rfl) (fun _ _ _ => rfl) (fun t => by rw [after4_12]; unfold Dat.blockOf iblk4; rw [A4_eq]; try rfl) t d).trans
    (by unfold Dat.fetched Dat.blockOf iblk4; rw [A4_eq]; try rfl)
theorem before4_13 (c : Dev nD) (t : Fin cfg4.N) (d) : (dat4 (Name := Name) (U := U) (Lvl := Lvl) V O Rc c).before 13 t d = iblk4 V c 13 t :=
  ((dat4 V O Rc c).before_in_eq_fetched 13 rfl (fun _ => rfl) (fun _ _ _ => rfl) (fun t => by rw [after4_13]; unfold Dat.blockOf iblk4; rw [A4_eq]; try rfl) t d).trans
    (by unfold Dat.fetched Dat.blockOf iblk4; rw [A4_eq]; try rfl)
theorem before4_14 (c : Dev nD) (t : Fin cfg4.N) (d) : (dat4 (Name := Name) (U := U) (Lvl := Lvl) V O Rc c).before 14 t d = iblk4 V c 14 t :=
  ((dat4 V O Rc c).before_in_eq_fetched 14 rfl (fun _ => rfl) (fun _ _ _ => rfl) (fun t => by rw [after4_14]; unfold Dat.blockOf iblk4; rw [A4_eq]; try rfl) t d).trans
    (by unfold Dat.fetched Dat.blockOf iblk4; rw [A4_eq]; try rfl)
theorem before4_15 (c : Dev nD) (t : Fin cfg4.N) (d) : (dat4 (Name := Name) (U := U) (Lvl := Lvl) V O Rc c).before 15 t d = iblk4 V c 15 t :=
  ((dat4 V O Rc c).before_in_eq_fetched 15 rfl (fun _ => rfl) (fun _ _ _ => rfl) (fun t => by rw [after4_15]; unfold Dat.blockOf iblk4; rw [A4_eq]; try rfl) t d).trans
    (by unfold Dat.fetched Dat.blockOf iblk4; rw [A4_eq]; try rfl)
theorem before4_16 (c : Dev nD) (t : Fin cfg4.N) (d) : (dat4 (Name := Name) (U := U) (Lvl := Lvl) V O Rc c).before 16 t d = iblk4 V c 16 t :=
  ((dat4 V O Rc c).before_in_eq_fetched 16 rfl (fun _ => rfl) (fun _ _ _ => rfl) (fun t => by rw [after4_16]; unfold Dat.blockOf iblk4; rw [A4_eq]; try rfl) t d).trans
    (by unfold Dat.fetched Dat.blockOf iblk4; rw [A4_eq]; try rfl)
theorem before4_17 (c : Dev nD) (t : Fin cfg4.N) (d) : (dat4 (Name := Name) (U := U) (Lvl := Lvl) V O Rc c).before 17 t d = iblk4 V c 17 t :=
  ((dat4 V O Rc c).before_in_eq_fetched 17 rfl (fun _ => rfl) (fun _ _ _ => rfl) (fun t => by rw [after4_17]; unfold Dat.blockOf iblk4; rw [A4_eq]; try rfl) t d).trans
    (by unfold Dat.fetched Dat.blockOf iblk4; rw [A4_eq]; try rfl)
theorem before4_18 (c : Dev nD) (t : Fin cfg4.N) (d) : (dat4 (Name := Name) (U := U) (Lvl := Lvl) V O Rc c).before 18 t d = iblk4 V c 18 t :=
  ((dat4 V O Rc c).before_in_eq_fetched 18 rfl (fun _ => rfl) (fun _ _ _ => rfl) (fun t => by rw [after4_18]; unfold Dat.blockOf iblk4; rw [A4_eq]; try rfl) t d).trans
    (by unfold Dat.fetched Dat.blockOf iblk4; rw [A4_eq]; try rfl)
theorem before4_19 (c : Dev nD) (t : Fin cfg4.N) (d) : (dat4 (Name := Name) (U := U) (Lvl := Lvl) V O Rc c).before 19 t d = iblk4 V c 19 t :=
  ((dat4 V O Rc c).before_in_eq_fetched 19 rfl (fun _ => rfl) (fun _ _ _ => rfl) (fun t => by rw [after4_19]; unfold Dat.blockOf iblk4; rw [A4_eq]; try rfl) t d).trans
    (by unfold Dat.fetched Dat.blockOf iblk4; rw [A4_eq]; try rfl)
theorem before4_20 (c : Dev nD) (t : Fin cfg4.N) (d) : (dat4 (Name := Name) (U := U) (Lvl := Lvl) V O Rc c).before 20 t d = iblk4 V c 20 t :=
  ((dat4 V O Rc c).before_in_eq_fetched 20 rfl (fun _ => rfl) (fun _ _ _ => rfl) (fun t => by rw [after4_20]; unfold Dat.blockOf iblk4; rw [A4_eq]; try rfl) t d).trans
    (by unfold Dat.fetched Dat.blockOf iblk4; rw [A4_eq]; try rfl)
theorem before4_21 (c : Dev nD) (t : Fin cfg4.N) (d) : (dat4 (Name := Name) (U := U) (Lvl := Lvl) V O Rc c).before 21 t d = iblk4 V c 21 t :=
  ((dat4 V O Rc c).before_in_eq_fetched 21 rfl (fun _ => rfl) (fun _ _ _ => rfl) (fun t => by rw [after4_21]; unfold Dat.blockOf iblk4; rw [A4_eq]; try rfl) t d).trans
    (by unfold Dat.fetched Dat.blockOf iblk4; rw [A4_eq]; try rfl)
theorem before4_22 (c : Dev nD) (t : Fin cfg4.N) (d) : (dat4 (Name := Name) (U := U) (Lvl := Lvl) V O Rc c).before 22 t d = iblk4 V c 22 t :=
  ((dat4 V O Rc c).before_in_eq_fetched 22 rfl (fun _ => rfl) (fun _ _ _ => rfl) (fun t => by rw [after4_22]; unfold Dat.blockOf iblk4; rw [A4_eq]; try rfl) t d).trans
    (by unfold Dat.fetched Dat.blockOf iblk4; rw [A4_eq]; try rfl)

set_option maxHeartbeats 2000000 in
/-- The body obligation of the region, at every point. -/
theorem body_obligation4 (𝒱₀ : Variants) (ι : Ix) (c : Dev nD) :
    BodyObligation (dat4 (Name := Name) (U := U) (Lvl := Lvl) V O Rc c) (defs₀ (F := F)) 𝒱₀ ι Set.univ := fun t => by
  rw [bigSep_W4, bigSep_W4]
  simp only [before4_0, before4_1, before4_2, before4_3, before4_4, before4_5, before4_6, before4_7, before4_8, before4_9, before4_10, before4_11, before4_12, before4_13, before4_14, before4_15, before4_16, before4_17, before4_18, before4_19, before4_20, before4_21, before4_22]
  rw [show (dat4 V O Rc c).Φ t.succ = (dat4 V O Rc c).Φ t.castSucc from rfl,
    show (dat4 V O Rc c).owesAt ι t.succ = (dat4 V O Rc c).owesAt ι t.castSucc from rfl,
    after4_0, after4_1, after4_2, after4_3, after4_4, after4_5, after4_6, after4_7, after4_8, after4_9, after4_10, after4_11, after4_12, after4_13, after4_14, after4_15, after4_16, after4_17, after4_18, after4_19, after4_20, after4_21, after4_22, after4_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel4 𝒱₀ c Set.univ (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (win4_10.stage (cfg4.slots t 10)) (hstage4_10 ((cfg4.slots t 10).cast nbuf4_10)) (win4_11.stage (cfg4.slots t 11)) (hstage4_11 ((cfg4.slots t 11).cast nbuf4_11)) (win4_12.stage (cfg4.slots t 12)) (hstage4_12 ((cfg4.slots t 12).cast nbuf4_12)) (win4_13.stage (cfg4.slots t 13)) (hstage4_13 ((cfg4.slots t 13).cast nbuf4_13)) (win4_14.stage (cfg4.slots t 14)) (hstage4_14 ((cfg4.slots t 14).cast nbuf4_14)) (win4_15.stage (cfg4.slots t 15)) (hstage4_15 ((cfg4.slots t 15).cast nbuf4_15)) (win4_16.stage (cfg4.slots t 16)) (hstage4_16 ((cfg4.slots t 16).cast nbuf4_16)) (win4_17.stage (cfg4.slots t 17)) (hstage4_17 ((cfg4.slots t 17).cast nbuf4_17)) (win4_18.stage (cfg4.slots t 18)) (hstage4_18 ((cfg4.slots t 18).cast nbuf4_18)) (win4_19.stage (cfg4.slots t 19)) (hstage4_19 ((cfg4.slots t 19).cast nbuf4_19)) (win4_20.stage (cfg4.slots t 20)) (hstage4_20 ((cfg4.slots t 20).cast nbuf4_20)) (win4_21.stage (cfg4.slots t 21)) (hstage4_21 ((cfg4.slots t 21).cast nbuf4_21)) (win4_22.stage (cfg4.slots t 22)) (hstage4_22 ((cfg4.slots t 22).cast nbuf4_22)) (win4_23.stage (cfg4.slots t 23)) (hstage4_23 ((cfg4.slots t 23).cast nbuf4_23))
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) (iblk4 V c 20 t) (iblk4 V c 21 t) (iblk4 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

end Data4

end Cert.Kernel.Regions

end
-- ==== Proof.KRegionsBits.lean ====
import proofs.«215572_g25211458027672_cont_9to1_2008_46_alg».proof.Proof.KRegBodyBits
import Idealize.ShloMosaic.Lib.Pipeline.Value
import Idealize.ShloMosaic.Lib.Pipeline.Regions

set_option maxRecDepth 16384

noncomputable section

namespace Cert.Kernel.Regions

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- Every block of the output array is some point's. -/
theorem idx_onto2_23 : ∀ (q0 : Fin 2) (q1 : Fin 8), ∃ t : Fin cfg2.N, win2_23.index t = ![q0.val, q1.val, 0] :=
  (by decide +kernel : ∀ (q0 : Fin 2) (q1 : Fin 8), ∃ t : Fin grid2.N, win2_23.index t = ![q0.val, q1.val, 0])

/-- An index of the output array is in point `t`'s block iff each coordinate is in the block's range on its axis. -/
theorem mem_blk2_23 (t : Fin cfg2.N) (i : S2x1024x128.Idx) :
    i ∈ ((cfg2.win 23).blk t).view.set ↔ ∀ a : Fin 3, win2_23.index t a * S1x128x128.size a ≤ (i a).val ∧ (i a).val < win2_23.index t a * S1x128x128.size a + S1x128x128.size a := by
  show i ∈ ((View.whole main_v41).slice (win2_23.rect t)).set ↔ _
  rw [View.set_slice_whole, Rect.mem_set_unit]
  exact Iff.rfl

/-- The output's blocks tile its array. -/
theorem cover2_23 (i : S2x1024x128.Idx) : ∃ t : Fin cfg2.N, (cfg2.win 23).flush t = true ∧ i ∈ ((cfg2.win 23).blk t).view.set := by
  have hi0 : (i 0).val < 2 := (i 0).isLt
  have hi1 : (i 1).val < 1024 := (i 1).isLt
  have hi2 : (i 2).val < 128 := (i 2).isLt
  obtain ⟨t, ht⟩ := idx_onto2_23 ⟨(i 0).val, hi0⟩ ⟨(i 1).val / 128, by omega⟩
  have q0 : win2_23.index t (0 : Fin 3) = (i 0).val := congrFun ht 0
  have q1 : win2_23.index t (1 : Fin 3) = (i 1).val / 128 := congrFun ht 1
  have q2 : win2_23.index t (2 : Fin 3) = 0 := congrFun ht 2
  refine ⟨t, flush2_23 t, ?_⟩
  rw [mem_blk2_23]
  intro a
  match a with
  | ⟨0, _⟩ => show win2_23.index t (0 : Fin 3) * 1 ≤ (i 0).val ∧ (i 0).val < win2_23.index t (0 : Fin 3) * 1 + 1; omega
  | ⟨1, _⟩ => show win2_23.index t (1 : Fin 3) * 128 ≤ (i 1).val ∧ (i 1).val < win2_23.index t (1 : Fin 3) * 128 + 128; omega
  | ⟨2, _⟩ => show win2_23.index t (2 : Fin 3) * 128 ≤ (i 2).val ∧ (i 2).val < win2_23.index t (2 : Fin 3) * 128 + 128; omega

/-- Every block of the output array is some point's. -/
theorem idx_onto4_23 : ∀ (q0 : Fin 2) (q1 : Fin 8), ∃ t : Fin cfg4.N, win4_23.index t = ![q0.val, q1.val, 0] :=
  (by decide +kernel : ∀ (q0 : Fin 2) (q1 : Fin 8), ∃ t : Fin grid4.N, win4_23.index t = ![q0.val, q1.val, 0])

/-- An index of the output array is in point `t`'s block iff each coordinate is in the block's range on its axis. -/
theorem mem_blk4_23 (t : Fin cfg4.N) (i : S2x1024x128.Idx) :
    i ∈ ((cfg4.win 23).blk t).view.set ↔ ∀ a : Fin 3, win4_23.index t a * S1x128x128.size a ≤ (i a).val ∧ (i a).val < win4_23.index t a * S1x128x128.size a + S1x128x128.size a := by
  show i ∈ ((View.whole main_v60).slice (win4_23.rect t)).set ↔ _
  rw [View.set_slice_whole, Rect.mem_set_unit]
  exact Iff.rfl

/-- The output's blocks tile its array. -/
theorem cover4_23 (i : S2x1024x128.Idx) : ∃ t : Fin cfg4.N, (cfg4.win 23).flush t = true ∧ i ∈ ((cfg4.win 23).blk t).view.set := by
  have hi0 : (i 0).val < 2 := (i 0).isLt
  have hi1 : (i 1).val < 1024 := (i 1).isLt
  have hi2 : (i 2).val < 128 := (i 2).isLt
  obtain ⟨t, ht⟩ := idx_onto4_23 ⟨(i 0).val, hi0⟩ ⟨(i 1).val / 128, by omega⟩
  have q0 : win4_23.index t (0 : Fin 3) = (i 0).val := congrFun ht 0
  have q1 : win4_23.index t (1 : Fin 3) = (i 1).val / 128 := congrFun ht 1
  have q2 : win4_23.index t (2 : Fin 3) = 0 := congrFun ht 2
  refine ⟨t, flush4_23 t, ?_⟩
  rw [mem_blk4_23]
  intro a
  match a with
  | ⟨0, _⟩ => show win4_23.index t (0 : Fin 3) * 1 ≤ (i 0).val ∧ (i 0).val < win4_23.index t (0 : Fin 3) * 1 + 1; omega
  | ⟨1, _⟩ => show win4_23.index t (1 : Fin 3) * 128 ≤ (i 1).val ∧ (i 1).val < win4_23.index t (1 : Fin 3) * 128 + 128; omega
  | ⟨2, _⟩ => show win4_23.index t (2 : Fin 3) * 128 ≤ (i 2).val ∧ (i 2).val < win4_23.index t (2 : Fin 3) * 128 + 128; omega

/-! ## The stored values through the whole-block rectangles, and what each point writes back -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A whole-block load reads the block and a whole-block store leaves its payload: the projection's stored value is its
    payload of the two blocks. -/
theorem out0_eq (x0 : Vec F S4096x128 .f32) (x1 : Vec F S128x128 .f32) : out0 x0 x1 = k0_pay1 x0 x1 := by
  unfold out0
  rw [View.canon_unit_zero hz2]
  simp only [View.ld_unit_zero (S := S4096x128) hz2, View.ld_unit_zero (S := S128x128) hz2]

/-- The layer's stored value is `BodyVal.bodyOut` of the 23 blocks, in window order. -/
theorem out2_eq (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) :
    out2 x0 x1 x2 x3 x4 x5 x6 x7 x8 x9 x10 x11 x12 x13 x14 x15 x16 x17 x18 x19 x20 x21 x22 = BodyVal.bodyOut (KConst.inv36 (F := F)) x0 x1 x2 x3 x4 x5 x6 x7 x8 x9 x10 x11 x12 x13 x14 x15 x16 x17 x18 x19 x20 x21 x22 := by
  unfold out2
  rw [View.canon_unit_zero hz3]
  simp only [View.ld_unit_zero (S := S1x128x128) hz3, View.ld_unit_zero (S := S1x36x128x128) hz4, View.ld_unit_zero (S := S36x128x128) hz3, View.ld_unit_zero (S := S1x128x36) hz3, View.ld_unit_zero (S := S1x1x1x4608) hz4, View.ld_unit_zero (S := S1x1x1x128) hz4, View.ld_unit_zero (S := S128x4608) hz2, View.ld_unit_zero (S := S4608x128) hz2, View.ld_unit_zero (S := S128x128) hz2, View.ld_unit_zero (S := S1x128) hz2, View.ld_unit_zero (S := S128x512) hz2, View.ld_unit_zero (S := S1x512) hz2, View.ld_unit_zero (S := S512x128) hz2]

theorem out4_eq (x0 : Vec F S1x128x128 .f32) (x1 : Vec F S1x36x128x128 .f32) (x2 : Vec F S36x128x128 .f32) (x3 : Vec F S1x128x36 .f32) (x4 : Vec F S1x1x1x4608 .bf16) (x5 : Vec F S1x1x1x128 .f32) (x6 : Vec F S128x4608 .bf16) (x7 : Vec F S4608x128 .bf16) (x8 : Vec F S128x128 .f32) (x9 : Vec F S1x128 .f32) (x10 : Vec F S128x128 .bf16) (x11 : Vec F S128x128 .bf16) (x12 : Vec F S1x128 .f32) (x13 : Vec F S128x128 .f32) (x14 : Vec F S1x128 .f32) (x15 : Vec F S128x512 .bf16) (x16 : Vec F S1x512 .f32) (x17 : Vec F S512x128 .bf16) (x18 : Vec F S1x128 .f32) (x19 : Vec F S1x128 .f32) (x20 : Vec F S1x128 .f32) (x21 : Vec F S1x128 .f32) (x22 : Vec F S1x128 .f32) :
    out4 x0 x1 x2 x3 x4 x5 x6 x7 x8 x9 x10 x11 x12 x13 x14 x15 x16 x17 x18 x19 x20 x21 x22 = BodyVal.bodyOut4 (KConst.inv36 (F := F)) x0 x1 x2 x3 x4 x5 x6 x7 x8 x9 x10 x11 x12 x13 x14 x15 x16 x17 x18 x19 x20 x21 x22 := by
  unfold out4
  rw [View.canon_unit_zero hz3]
  simp only [View.ld_unit_zero (S := S1x128x128) hz3, View.ld_unit_zero (S := S1x36x128x128) hz4, View.ld_unit_zero (S := S36x128x128) hz3, View.ld_unit_zero (S := S1x128x36) hz3, View.ld_unit_zero (S := S1x1x1x4608) hz4, View.ld_unit_zero (S := S1x1x1x128) hz4, View.ld_unit_zero (S := S128x4608) hz2, View.ld_unit_zero (S := S4608x128) hz2, View.ld_unit_zero (S := S128x128) hz2, View.ld_unit_zero (S := S1x128) hz2, View.ld_unit_zero (S := S128x512) hz2, View.ld_unit_zero (S := S1x512) hz2, View.ld_unit_zero (S := S512x128) hz2]

section Flushed

variable (V : (c : Dev nD) → (b : Ref sig .tc) → Buf (Elt F) ((c : Thread nD τ).loc b))
  (O : Dev nD → CellTallies nD τ sig Ix) (Rc : Dev nD → Set (SemLoc sig × Ix))

/-- What each point writes back of the output window: the body's stored value of the input blocks there. -/
theorem flushed0_2 (c : Dev nD) (t : Fin cfg0.N) :
    (dat0 (Name := Name) (U := U) (Lvl := Lvl) V O Rc c).flushed 2 t = out0 (iblk0 V c 0 t) (iblk0 V c 1 t) := by
  show (cfg0.win 2).cut (grid0.coords t) ((dat0 V O Rc c).after 2 t) = _
  rw [after0_2]; rfl
theorem flushed2_23 (c : Dev nD) (t : Fin cfg2.N) :
    (dat2 (Name := Name) (U := U) (Lvl := Lvl) V O Rc c).flushed 23 t = outAt2 V c t := by
  show (cfg2.win 23).cut (grid2.coords t) ((dat2 V O Rc c).after 23 t) = _
  rw [after2_23]; rfl
theorem flushed4_23 (c : Dev nD) (t : Fin cfg4.N) :
    (dat4 (Name := Name) (U := U) (Lvl := Lvl) V O Rc c).flushed 23 t = outAt4 V c t := by
  show (cfg4.win 23).cut (grid4.coords t) ((dat4 V O Rc c).after 23 t) = _
  rw [after4_23]; rfl

/-- THE REGION'S RESULT: an array that reads, at every point's block, the body's stored value of the input blocks there is
    what the output array holds after the region. -/
theorem arrAt2_out (c : Dev nD) (G : Buf (Elt F) ((cfg2.win 23).arr.view.loc (c.tc : Thread nD τ)))
    (hG : ∀ t : Fin cfg2.N, outAt2 V c t = ((cfg2.win 23).blk t).view.read (Elt F) G) :
    (dat2 (Name := Name) (U := U) (Lvl := Lvl) V O Rc c).arrAt 23 cfg2.N = G :=
  (dat2 V O Rc c).arrAt_eq_of_cover 23 G (fun t _ => (flushed2_23 V O Rc c t).trans (hG t)) cover2_23
theorem arrAt4_out (c : Dev nD) (G : Buf (Elt F) ((cfg4.win 23).arr.view.loc (c.tc : Thread nD τ)))
    (hG : ∀ t : Fin cfg4.N, outAt4 V c t = ((cfg4.win 23).blk t).view.read (Elt F) G) :
    (dat4 (Name := Name) (U := U) (Lvl := Lvl) V O Rc c).arrAt 23 cfg4.N = G :=
  (dat4 V O Rc c).arrAt_eq_of_cover 23 G (fun t _ => (flushed4_23 V O Rc c t).trans (hG t)) cover4_23

end Flushed

/-! ## The proof data of the three regions, and the regions as the rule takes them -/

section Regs

variable (V₀ V₁ V₂ : (c : Dev nD) → (b : Ref sig .tc) → Buf (Elt F) ((c : Thread nD τ).loc b))
  (O₀ O₁ O₂ : Dev nD → CellTallies nD τ sig Ix) (Rc₀ Rc₁ Rc₂ : Dev nD → Set (SemLoc sig × Ix))

/-- No pipeline prefetches a table. -/
abbrev adm : (p : Fin 3) → (pcfgs (F := F) p).Adm := fun p => (cfgs p).toPCfg_adm

/-- The three pipelines' proof data, each region's arrays stated directly. -/
def pdats : (p : Fin 3) → (c : Dev nD) → Dat τ (Elt F) Ix Name U Lvl (Pipeline.pin (pcfgs (F := F)) adm p) c
  | ⟨0, _⟩ => dat0 V₀ O₀ Rc₀
  | ⟨1, _⟩ => dat2 V₁ O₁ Rc₁
  | ⟨2, _⟩ => dat4 V₂ O₂ Rc₂

theorem pdats_0 (c : Dev nD) : pdats (Name := Name) (U := U) (Lvl := Lvl) V₀ V₁ V₂ O₀ O₁ O₂ Rc₀ Rc₁ Rc₂ 0 c = dat0 V₀ O₀ Rc₀ c := rfl
theorem pdats_1 (c : Dev nD) : pdats (Name := Name) (U := U) (Lvl := Lvl) V₀ V₁ V₂ O₀ O₁ O₂ Rc₀ Rc₁ Rc₂ 1 c = dat2 V₁ O₁ Rc₁ c := rfl
theorem pdats_2 (c : Dev nD) : pdats (Name := Name) (U := U) (Lvl := Lvl) V₀ V₁ V₂ O₀ O₁ O₂ Rc₀ Rc₁ Rc₂ 2 c = dat4 V₂ O₂ Rc₂ c := rfl

/-- Every array is held at the full share. -/
theorem share0 (c : Dev nD) (w : Fin cfg0.W) : (pdats (Name := Name) (U := U) (Lvl := Lvl) V₀ V₁ V₂ O₀ O₁ O₂ Rc₀ Rc₁ Rc₂ 0 c).share w = fullShare := (dat0 V₀ O₀ Rc₀ c).share_full (fun _ => rfl) w
theorem share2 (c : Dev nD) (w : Fin cfg2.W) : (pdats (Name := Name) (U := U) (Lvl := Lvl) V₀ V₁ V₂ O₀ O₁ O₂ Rc₀ Rc₁ Rc₂ 1 c).share w = fullShare := (dat2 V₁ O₁ Rc₁ c).share_full (fun _ => rfl) w
theorem share4 (c : Dev nD) (w : Fin cfg4.W) : (pdats (Name := Name) (U := U) (Lvl := Lvl) V₀ V₁ V₂ O₀ O₁ O₂ Rc₀ Rc₁ Rc₂ 2 c).share w = fullShare := (dat4 V₂ O₂ Rc₂ c).share_full (fun _ => rfl) w

/-- The entry contents are the parameters'. -/
theorem pdats_A0 (c : Dev nD) (w : Fin cfg0.W) : (pdats (Name := Name) (U := U) (Lvl := Lvl) V₀ V₁ V₂ O₀ O₁ O₂ Rc₀ Rc₁ Rc₂ 0 c).A w = V₀ c (Pipeline.arrRef spec0 w) := A0_eq V₀ O₀ Rc₀ c w
theorem pdats_A2 (c : Dev nD) (w : Fin cfg2.W) : (pdats (Name := Name) (U := U) (Lvl := Lvl) V₀ V₁ V₂ O₀ O₁ O₂ Rc₀ Rc₁ Rc₂ 1 c).A w = V₁ c (Pipeline.arrRef spec2 w) := A2_eq V₁ O₁ Rc₁ c w
theorem pdats_A4 (c : Dev nD) (w : Fin cfg4.W) : (pdats (Name := Name) (U := U) (Lvl := Lvl) V₀ V₁ V₂ O₀ O₁ O₂ Rc₀ Rc₁ Rc₂ 2 c).A w = V₂ c (Pipeline.arrRef spec4 w) := A4_eq V₂ O₂ Rc₂ c w

/-- What each proof data owes and bounds, spelt out. -/
theorem pdats_owed0 (c : Dev nD) (t : Fin ((Pipeline.pin (pcfgs (F := F)) adm 0).N + 1)) : (pdats (Name := Name) (U := U) (Lvl := Lvl) V₀ V₁ V₂ O₀ O₁ O₂ Rc₀ Rc₁ Rc₂ 0 c).owed t = O₀ c := rfl
theorem pdats_owed2 (c : Dev nD) (t : Fin ((Pipeline.pin (pcfgs (F := F)) adm 1).N + 1)) : (pdats (Name := Name) (U := U) (Lvl := Lvl) V₀ V₁ V₂ O₀ O₁ O₂ Rc₀ Rc₁ Rc₂ 1 c).owed t = O₁ c := rfl
theorem pdats_owed4 (c : Dev nD) (t : Fin ((Pipeline.pin (pcfgs (F := F)) adm 2).N + 1)) : (pdats (Name := Name) (U := U) (Lvl := Lvl) V₀ V₁ V₂ O₀ O₁ O₂ Rc₀ Rc₁ Rc₂ 2 c).owed t = O₂ c := rfl
theorem pdats_recorded0 (c : Dev nD) (t : Fin ((Pipeline.pin (pcfgs (F := F)) adm 0).N + 1)) : (pdats (Name := Name) (U := U) (Lvl := Lvl) V₀ V₁ V₂ O₀ O₁ O₂ Rc₀ Rc₁ Rc₂ 0 c).recorded t = Rc₀ c := rfl
theorem pdats_recorded2 (c : Dev nD) (t : Fin ((Pipeline.pin (pcfgs (F := F)) adm 1).N + 1)) : (pdats (Name := Name) (U := U) (Lvl := Lvl) V₀ V₁ V₂ O₀ O₁ O₂ Rc₀ Rc₁ Rc₂ 1 c).recorded t = Rc₁ c := rfl
theorem pdats_recorded4 (c : Dev nD) (t : Fin ((Pipeline.pin (pcfgs (F := F)) adm 2).N + 1)) : (pdats (Name := Name) (U := U) (Lvl := Lvl) V₀ V₁ V₂ O₀ O₁ O₂ Rc₀ Rc₁ Rc₂ 2 c).recorded t = Rc₂ c := rfl
theorem owesAt0 (ι : Ix) (c : Dev nD) (t : Fin ((Pipeline.pin (pcfgs (F := F)) adm 0).N + 1)) :
    ((pdats (Name := Name) (U := U) (Lvl := Lvl) V₀ V₁ V₂ O₀ O₁ O₂ Rc₀ Rc₁ Rc₂ 0 c).owesAt ι t : sProp 𝕄) = Pipeline.owesWithin c (O₀ c) (Rc₀ c ∪ (Pipeline.pin (pcfgs (F := F)) adm 0).waitPairs ι) := rfl
theorem owesAt2 (ι : Ix) (c : Dev nD) (t : Fin ((Pipeline.pin (pcfgs (F := F)) adm 1).N + 1)) :
    ((pdats (Name := Name) (U := U) (Lvl := Lvl) V₀ V₁ V₂ O₀ O₁ O₂ Rc₀ Rc₁ Rc₂ 1 c).owesAt ι t : sProp 𝕄) = Pipeline.owesWithin c (O₁ c) (Rc₁ c ∪ (Pipeline.pin (pcfgs (F := F)) adm 1).waitPairs ι) := rfl
theorem owesAt4 (ι : Ix) (c : Dev nD) (t : Fin ((Pipeline.pin (pcfgs (F := F)) adm 2).N + 1)) :
    ((pdats (Name := Name) (U := U) (Lvl := Lvl) V₀ V₁ V₂ O₀ O₁ O₂ Rc₀ Rc₁ Rc₂ 2 c).owesAt ι t : sProp 𝕄) = Pipeline.owesWithin c (O₂ c) (Rc₂ c ∪ (Pipeline.pin (pcfgs (F := F)) adm 2).waitPairs ι) := rfl

/-- The scoped buffers no window stages, at the pinned pipeline, are the configuration's. -/
theorem pin_eq (p : Fin 3) : Pipeline.pin (pcfgs (F := F)) adm p = cfgs p := Pipeline.Cfg.toPCfg_at (cfgs p) (adm p)
theorem scopedRest_pin (p : Fin 3) (c : Dev nD) :
    (Pipeline.scopedRest (Ix := Ix) (Name := Name) (U := U) (Lvl := Lvl) (Val := Elt F) (Pipeline.pin (pcfgs (F := F)) adm p).spec c : sProp 𝕄)
      = Pipeline.scopedRest (cfgs p).spec c :=
  congrArg (fun cfg : Pipeline.Cfg sig Λ₀ => (Pipeline.scopedRest (Ix := Ix) (Name := Name) (U := U) (Lvl := Lvl) (Val := Elt F) cfg.spec c : sProp 𝕄)) (pin_eq p)

/-- No pipeline has a prefetched table to hold. -/
theorem bigSep_Fin0 {M : Type} [URA M] (Φ : Fin 0 → sProp M) : bigSep Finset.univ Φ = (BI.emp : sProp M) :=
  bigSep_univ_eq_bigSepL [] (by decide) (by decide) Φ
theorem prefHeld0 (c : Dev nD) (q) (pf) : (Pipeline.prefHeld (Ix := Ix) (Name := Name) (U := U) (Lvl := Lvl) (Val := Elt F) (pcfgs (F := F) 0).pre c q pf : sProp 𝕄) = BI.emp :=
  bigSep_Fin0 _
theorem prefHeld2 (c : Dev nD) (q) (pf) : (Pipeline.prefHeld (Ix := Ix) (Name := Name) (U := U) (Lvl := Lvl) (Val := Elt F) (pcfgs (F := F) 1).pre c q pf : sProp 𝕄) = BI.emp :=
  bigSep_Fin0 _
theorem prefHeld4 (c : Dev nD) (q) (pf) : (Pipeline.prefHeld (Ix := Ix) (Name := Name) (U := U) (Lvl := Lvl) (Val := Elt F) (pcfgs (F := F) 2).pre c q pf : sProp 𝕄) = BI.emp :=
  bigSep_Fin0 _
set_option maxHeartbeats 2000000 in
/-- Region 0 as the regions rule takes it: entered holding the windows' arrays at `V₀`, the core's debt within its
    recorded bound, and whatever bypasses the region (`Z`); left holding the arrays after the write-backs, the debt within
    the bound widened by the pipeline's own waits, and `Z`. -/
def reg0 (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 0 c) :
    Pipeline.RegionSeg (pcfgs (F := F)) adm (pdats (Name := Name) (U := U) (Lvl := Lvl) V₀ V₁ V₂ O₀ O₁ O₂ Rc₀ Rc₁ Rc₂) ι defs₀ 𝒱₀ L lv 0 where
  win := winFacts0.to₀
  block_pos := block_pos0
  stage_whole := stage_whole0
  K := PEmpty
  osem k := k.elim
  ho := Pipeline.OwnSemFacts.none _
  hbody c := (body_obligation0 V₀ O₀ Rc₀ 𝒱₀ ι c).loose
  hwaits := hwaits
  pre c := iprop((pdats (Name := Name) (U := U) (Lvl := Lvl) V₀ V₁ V₂ O₀ O₁ O₂ Rc₀ Rc₁ Rc₂ 0 c).arrays ((pdats (Name := Name) (U := U) (Lvl := Lvl) V₀ V₁ V₂ O₀ O₁ O₂ Rc₀ Rc₁ Rc₂ 0 c).arrAt · 0) ∗ Pipeline.owesWithin c (O₀ c) (Rc₀ c) ∗ Z c)
  post c := iprop((pdats (Name := Name) (U := U) (Lvl := Lvl) V₀ V₁ V₂ O₀ O₁ O₂ Rc₀ Rc₁ Rc₂ 0 c).arrays ((pdats (Name := Name) (U := U) (Lvl := Lvl) V₀ V₁ V₂ O₀ O₁ O₂ Rc₀ Rc₁ Rc₂ 0 c).arrAt · cfg0.N) ∗ (pdats (Name := Name) (U := U) (Lvl := Lvl) V₀ V₁ V₂ O₀ O₁ O₂ Rc₀ Rc₁ Rc₂ 0 c).owesAt ι (Fin.last cfg0.N) ∗ Z c)
  X _ := BI.emp
  Y _ := BI.emp
  Z := Z
  hentry c := by
    rw [Pipeline.ownSems0_none, prefHeld0]
    iintro ⟨⟨Ha, HO, HZ⟩, -, -⟩
    imodintro
    isplitl [Ha]; · iexact Ha
    isplitr; · iempintro
    isplitl [HO]
    · iapply (Pipeline.owesWithin_mono (c : Dev nD) (O₀ c) (Set.subset_union_left (s := Rc₀ c) (t := cfg0.waitPairs ι))); iexact HO
    isplitr; · iempintro
    iexact HZ
  hin c := by
    rw [scopedRest_pin 0, show (pdats (Name := Name) (U := U) (Lvl := Lvl) V₀ V₁ V₂ O₀ O₁ O₂ Rc₀ Rc₁ Rc₂ 0 c).Φ 0 = Pipeline.scopedRest (cfgs 0).spec c from rfl]
    iintro ⟨-, -, HR⟩; iexact HR
  hout c := by
    rw [scopedRest_pin 0, show (pdats (Name := Name) (U := U) (Lvl := Lvl) V₀ V₁ V₂ O₀ O₁ O₂ Rc₀ Rc₁ Rc₂ 0 c).Φ (Fin.last _) = Pipeline.scopedRest (cfgs 0).spec c from rfl, Pipeline.ownSems0_none]
    iintro HR
    isplitr; · iempintro
    isplitr; · iempintro
    iexact HR
  hexit c := by
    iintro ⟨Ha, HO, -, HZ⟩
    imodintro
    isplitl [Ha]; · iexact Ha
    isplitl [HO]; · iexact HO
    iexact HZ

set_option maxHeartbeats 2000000 in
/-- Region 1 as the regions rule takes it: entered holding the windows' arrays at `V₁`, the core's debt within its
    recorded bound, and whatever bypasses the region (`Z`); left holding the arrays after the write-backs, the debt within
    the bound widened by the pipeline's own waits, and `Z`. -/
def reg2 (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 1 c) :
    Pipeline.RegionSeg (pcfgs (F := F)) adm (pdats (Name := Name) (U := U) (Lvl := Lvl) V₀ V₁ V₂ O₀ O₁ O₂ Rc₀ Rc₁ Rc₂) ι defs₀ 𝒱₀ L lv 1 where
  win := winFacts2.to₀
  block_pos := block_pos2
  stage_whole := stage_whole2
  K := PEmpty
  osem k := k.elim
  ho := Pipeline.OwnSemFacts.none _
  hbody c := (body_obligation2 V₁ O₁ Rc₁ 𝒱₀ ι c).loose
  hwaits := hwaits
  pre c := iprop((pdats (Name := Name) (U := U) (Lvl := Lvl) V₀ V₁ V₂ O₀ O₁ O₂ Rc₀ Rc₁ Rc₂ 1 c).arrays ((pdats (Name := Name) (U := U) (Lvl := Lvl) V₀ V₁ V₂ O₀ O₁ O₂ Rc₀ Rc₁ Rc₂ 1 c).arrAt · 0) ∗ Pipeline.owesWithin c (O₁ c) (Rc₁ c) ∗ Z c)
  post c := iprop((pdats (Name := Name) (U := U) (Lvl := Lvl) V₀ V₁ V₂ O₀ O₁ O₂ Rc₀ Rc₁ Rc₂ 1 c).arrays ((pdats (Name := Name) (U := U) (Lvl := Lvl) V₀ V₁ V₂ O₀ O₁ O₂ Rc₀ Rc₁ Rc₂ 1 c).arrAt · cfg2.N) ∗ (pdats (Name := Name) (U := U) (Lvl := Lvl) V₀ V₁ V₂ O₀ O₁ O₂ Rc₀ Rc₁ Rc₂ 1 c).owesAt ι (Fin.last cfg2.N) ∗ Z c)
  X _ := BI.emp
  Y _ := BI.emp
  Z := Z
  hentry c := by
    rw [Pipeline.ownSems0_none, prefHeld2]
    iintro ⟨⟨Ha, HO, HZ⟩, -, -⟩
    imodintro
    isplitl [Ha]; · iexact Ha
    isplitr; · iempintro
    isplitl [HO]
    · iapply (Pipeline.owesWithin_mono (c : Dev nD) (O₁ c) (Set.subset_union_left (s := Rc₁ c) (t := cfg2.waitPairs ι))); iexact HO
    isplitr; · iempintro
    iexact HZ
  hin c := by
    rw [scopedRest_pin 1, show (pdats (Name := Name) (U := U) (Lvl := Lvl) V₀ V₁ V₂ O₀ O₁ O₂ Rc₀ Rc₁ Rc₂ 1 c).Φ 0 = Pipeline.scopedRest (cfgs 1).spec c from rfl]
    iintro ⟨-, -, HR⟩; iexact HR
  hout c := by
    rw [scopedRest_pin 1, show (pdats (Name := Name) (U := U) (Lvl := Lvl) V₀ V₁ V₂ O₀ O₁ O₂ Rc₀ Rc₁ Rc₂ 1 c).Φ (Fin.last _) = Pipeline.scopedRest (cfgs 1).spec c from rfl, Pipeline.ownSems0_none]
    iintro HR
    isplitr; · iempintro
    isplitr; · iempintro
    iexact HR
  hexit c := by
    iintro ⟨Ha, HO, -, HZ⟩
    imodintro
    isplitl [Ha]; · iexact Ha
    isplitl [HO]; · iexact HO
    iexact HZ

set_option maxHeartbeats 2000000 in
/-- Region 2 as the regions rule takes it: entered holding the windows' arrays at `V₂`, the core's debt within its
    recorded bound, and whatever bypasses the region (`Z`); left holding the arrays after the write-backs, the debt within
    the bound widened by the pipeline's own waits, and `Z`. -/
def reg4 (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 2 c) :
    Pipeline.RegionSeg (pcfgs (F := F)) adm (pdats (Name := Name) (U := U) (Lvl := Lvl) V₀ V₁ V₂ O₀ O₁ O₂ Rc₀ Rc₁ Rc₂) ι defs₀ 𝒱₀ L lv 2 where
  win := winFacts4.to₀
  block_pos := block_pos4
  stage_whole := stage_whole4
  K := PEmpty
  osem k := k.elim
  ho := Pipeline.OwnSemFacts.none _
  hbody c := (body_obligation4 V₂ O₂ Rc₂ 𝒱₀ ι c).loose
  hwaits := hwaits
  pre c := iprop((pdats (Name := Name) (U := U) (Lvl := Lvl) V₀ V₁ V₂ O₀ O₁ O₂ Rc₀ Rc₁ Rc₂ 2 c).arrays ((pdats (Name := Name) (U := U) (Lvl := Lvl) V₀ V₁ V₂ O₀ O₁ O₂ Rc₀ Rc₁ Rc₂ 2 c).arrAt · 0) ∗ Pipeline.owesWithin c (O₂ c) (Rc₂ c) ∗ Z c)
  post c := iprop((pdats (Name := Name) (U := U) (Lvl := Lvl) V₀ V₁ V₂ O₀ O₁ O₂ Rc₀ Rc₁ Rc₂ 2 c).arrays ((pdats (Name := Name) (U := U) (Lvl := Lvl) V₀ V₁ V₂ O₀ O₁ O₂ Rc₀ Rc₁ Rc₂ 2 c).arrAt · cfg4.N) ∗ (pdats (Name := Name) (U := U) (Lvl := Lvl) V₀ V₁ V₂ O₀ O₁ O₂ Rc₀ Rc₁ Rc₂ 2 c).owesAt ι (Fin.last cfg4.N) ∗ Z c)
  X _ := BI.emp
  Y _ := BI.emp
  Z := Z
  hentry c := by
    rw [Pipeline.ownSems0_none, prefHeld4]
    iintro ⟨⟨Ha, HO, HZ⟩, -, -⟩
    imodintro
    isplitl [Ha]; · iexact Ha
    isplitr; · iempintro
    isplitl [HO]
    · iapply (Pipeline.owesWithin_mono (c : Dev nD) (O₂ c) (Set.subset_union_left (s := Rc₂ c) (t := cfg4.waitPairs ι))); iexact HO
    isplitr; · iempintro
    iexact HZ
  hin c := by
    rw [scopedRest_pin 2, show (pdats (Name := Name) (U := U) (Lvl := Lvl) V₀ V₁ V₂ O₀ O₁ O₂ Rc₀ Rc₁ Rc₂ 2 c).Φ 0 = Pipeline.scopedRest (cfgs 2).spec c from rfl]
    iintro ⟨-, -, HR⟩; iexact HR
  hout c := by
    rw [scopedRest_pin 2, show (pdats (Name := Name) (U := U) (Lvl := Lvl) V₀ V₁ V₂ O₀ O₁ O₂ Rc₀ Rc₁ Rc₂ 2 c).Φ (Fin.last _) = Pipeline.scopedRest (cfgs 2).spec c from rfl, Pipeline.ownSems0_none]
    iintro HR
    isplitr; · iempintro
    isplitr; · iempintro
    iexact HR
  hexit c := by
    iintro ⟨Ha, HO, -, HZ⟩
    imodintro
    isplitl [Ha]; · iexact Ha
    isplitl [HO]; · iexact HO
    iexact HZ

theorem reg0_pre (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 0 c) (c : Dev nD) :
    (reg0 V₀ V₁ V₂ O₀ O₁ O₂ Rc₀ Rc₁ Rc₂ ι 𝒱₀ L lv Z hwaits).pre c
      = iprop((pdats (Name := Name) (U := U) (Lvl := Lvl) V₀ V₁ V₂ O₀ O₁ O₂ Rc₀ Rc₁ Rc₂ 0 c).arrays ((pdats (Name := Name) (U := U) (Lvl := Lvl) V₀ V₁ V₂ O₀ O₁ O₂ Rc₀ Rc₁ Rc₂ 0 c).arrAt · 0) ∗ Pipeline.owesWithin c (O₀ c) (Rc₀ c) ∗ Z c) := rfl
theorem reg0_post (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 0 c) (c : Dev nD) :
    (reg0 V₀ V₁ V₂ O₀ O₁ O₂ Rc₀ Rc₁ Rc₂ ι 𝒱₀ L lv Z hwaits).post c
      = iprop((pdats (Name := Name) (U := U) (Lvl := Lvl) V₀ V₁ V₂ O₀ O₁ O₂ Rc₀ Rc₁ Rc₂ 0 c).arrays ((pdats (Name := Name) (U := U) (Lvl := Lvl) V₀ V₁ V₂ O₀ O₁ O₂ Rc₀ Rc₁ Rc₂ 0 c).arrAt · cfg0.N) ∗ (pdats (Name := Name) (U := U) (Lvl := Lvl) V₀ V₁ V₂ O₀ O₁ O₂ Rc₀ Rc₁ Rc₂ 0 c).owesAt ι (Fin.last cfg0.N) ∗ Z c) := rfl

theorem reg2_pre (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 1 c) (c : Dev nD) :
    (reg2 V₀ V₁ V₂ O₀ O₁ O₂ Rc₀ Rc₁ Rc₂ ι 𝒱₀ L lv Z hwaits).pre c
      = iprop((pdats (Name := Name) (U := U) (Lvl := Lvl) V₀ V₁ V₂ O₀ O₁ O₂ Rc₀ Rc₁ Rc₂ 1 c).arrays ((pdats (Name := Name) (U := U) (Lvl := Lvl) V₀ V₁ V₂ O₀ O₁ O₂ Rc₀ Rc₁ Rc₂ 1 c).arrAt · 0) ∗ Pipeline.owesWithin c (O₁ c) (Rc₁ c) ∗ Z c) := rfl
theorem reg2_post (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 1 c) (c : Dev nD) :
    (reg2 V₀ V₁ V₂ O₀ O₁ O₂ Rc₀ Rc₁ Rc₂ ι 𝒱₀ L lv Z hwaits).post c
      = iprop((pdats (Name := Name) (U := U) (Lvl := Lvl) V₀ V₁ V₂ O₀ O₁ O₂ Rc₀ Rc₁ Rc₂ 1 c).arrays ((pdats (Name := Name) (U := U) (Lvl := Lvl) V₀ V₁ V₂ O₀ O₁ O₂ Rc₀ Rc₁ Rc₂ 1 c).arrAt · cfg2.N) ∗ (pdats (Name := Name) (U := U) (Lvl := Lvl) V₀ V₁ V₂ O₀ O₁ O₂ Rc₀ Rc₁ Rc₂ 1 c).owesAt ι (Fin.last cfg2.N) ∗ Z c) := rfl

theorem reg4_pre (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 2 c) (c : Dev nD) :
    (reg4 V₀ V₁ V₂ O₀ O₁ O₂ Rc₀ Rc₁ Rc₂ ι 𝒱₀ L lv Z hwaits).pre c
      = iprop((pdats (Name := Name) (U := U) (Lvl := Lvl) V₀ V₁ V₂ O₀ O₁ O₂ Rc₀ Rc₁ Rc₂ 2 c).arrays ((pdats (Name := Name) (U := U) (Lvl := Lvl) V₀ V₁ V₂ O₀ O₁ O₂ Rc₀ Rc₁ Rc₂ 2 c).arrAt · 0) ∗ Pipeline.owesWithin c (O₂ c) (Rc₂ c) ∗ Z c) := rfl
theorem reg4_post (ι : Ix) (𝒱₀ : Variants) (L : GSem nD τ sig → Finset Ix) (lv : GSem nD τ sig → Ix → Lvl) (Z : Dev nD → sProp 𝕄)
    (hwaits : ∀ c, (levAts L lv : sProp 𝕄) ⊢ Pipeline.cellsWaits (Pipeline.pin (pcfgs (F := F)) adm) (pdats (Name := Name) (U := U) (Lvl := Lvl) V₀ V₁ V₂ O₀ O₁ O₂ Rc₀ Rc₁ Rc₂) ι 2 c) (c : Dev nD) :
    (reg4 V₀ V₁ V₂ O₀ O₁ O₂ Rc₀ Rc₁ Rc₂ ι 𝒱₀ L lv Z hwaits).post c
      = iprop((pdats (Name := Name) (U := U) (Lvl := Lvl) V₀ V₁ V₂ O₀ O₁ O₂ Rc₀ Rc₁ Rc₂ 2 c).arrays ((pdats (Name := Name) (U := U) (Lvl := Lvl) V₀ V₁ V₂ O₀ O₁ O₂ Rc₀ Rc₁ Rc₂ 2 c).arrAt · cfg4.N) ∗ (pdats (Name := Name) (U := U) (Lvl := Lvl) V₀ V₁ V₂ O₀ O₁ O₂ Rc₀ Rc₁ Rc₂ 2 c).owesAt ι (Fin.last cfg4.N) ∗ Z c) := rfl

end Regs

end Cert.Kernel.Regions

end
-- ==== Proof.KRegionStepsBits.lean ====
/-
  The three kernel regions of @main as steps on the valuation of @main's arrays: a region entered with the
  TensorCore's unscoped arrays held at a valuation and the core owing what it owes before SparseCore call n leaves the
  arrays at the valuation with the region's result rewritten, the core owing the same. The region rule gives the step
  from the region's record; the arrays of its entry come out of the held arrays, the rest of them bypasses the region,
  and the held arrays are put together again at its exit; the core's recorded pairs stay below the call's level, the
  pipeline's own waits being at level 0.
-/
import proofs.«215572_g25211458027672_cont_9to1_2008_46_alg».proof.Proof.KMainBBits
import proofs.«215572_g25211458027672_cont_9to1_2008_46_alg».proof.Proof.KOutsBits
import proofs.«215572_g25211458027672_cont_9to1_2008_46_alg».proof.Proof.KRegionsBits
import proofs.«215572_g25211458027672_cont_9to1_2008_46_alg».proof.Proof.KResDefBits
import proofs.«215572_g25211458027672_cont_9to1_2008_46_alg».proof.Proof.KConstBits

set_option maxRecDepth 16384

noncomputable section

namespace Cert.Kernel.RegionSteps

open Cert.Kernel Cert.Kernel.Gen Cert.Kernel.KS Cert.Kernel.KPay Cert.Kernel.KMain

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within wp_seq seq after)

variable {F : FTy → Type} [FloatOps F]

local notation "𝕄" => MT nD τ sig (HIx 2) (Elt F) ℕ UU ℕ

/-! ## The valuation read by the TensorCore's references; the core's debts within a bound -/

/-- A valuation of @main's arrays, read by the TensorCore's references on core `c`. -/
abbrev onTc (V : Valuation τ sig (Elt F)) (c : Dev nD) : (b : Ref sig .tc) → Buf (Elt F) ((Dev.tc c : Thread nD τ).loc b) :=
  fun b => V (rV b)

/-- The TensorCore's unscoped buffers at a valuation are @main's arrays held at it. -/
theorem unscoped_held' (V : Valuation τ sig (Elt F)) (d : Dev nD) :
    (unscopedBufs d (onTc V d) : sProp 𝕄) = held (SparseCore.T d) SU V := by
  unfold unscopedBufs held SU
  rw [bigSep_map]; rfl

/-- The pairs at or below the level of call `n`. -/
def recB (d : Dev nD) (n : ℕ) : Set (SemLoc sig × HIx 2) := {x | (K (F := F)).lev (SparseCore.T d, x.1) x.2 ≤ 8 * n}

/-- Entering: the debts with their recorded pairs below the call's level are debts within that bound. -/
theorem owesTc_within (d : Dev nD) (n : ℕ) :
    (owesTc (F := F) d n : sProp 𝕄) ⊢ Pipeline.owesWithin d ((K (F := F)).Otc d n) (recB (F := F) d n) := by
  iintro ⟨%W, %hW, HO⟩
  iexists W
  isplitr
  · ipureintro; exact fun x hx => hW x (Finset.mem_coe.mp hx)
  iexact HO

/-- Leaving: the bound widened by a pipeline's own waits (index `none`, level 0) is still below the call's level. -/
theorem within_owesTc (d : Dev nD) (n : ℕ) (cfg : Pipeline.Cfg sig Λ₀) :
    (Pipeline.owesWithin d ((K (F := F)).Otc d n) (recB (F := F) d n ∪ cfg.waitPairs (none : HIx 2)) : sProp 𝕄)
      ⊢ owesTc (F := F) d n := by
  iintro ⟨%W, %hW, HO⟩
  iexists W
  isplitr
  · ipureintro
    intro x hx
    rcases hW (Finset.mem_coe.mpr hx) with h | ⟨w, s, rfl⟩
    · exact h
    · exact Nat.zero_le _
  iexact HO

/-- Before any call the TensorCore owes nothing at index `none`. -/
theorem Otc_none (d : Dev nD) (n : ℕ) (g : GSem nD τ sig) : (K (F := F)).Otc d n g none = 0 := by
  by_contra h
  have h1 := SparseCore.Cfg.lev_of_Otc_pos (K := K (F := F)) (d := d) (n := n) (g := g) (ι := none) (Nat.pos_of_ne_zero h)
  have h0 : (K (F := F)).lev g none = 0 := rfl
  omega

/-! ## The arrays of a region out of the held arrays, and back -/

section Arrays

variable {p : Fin 3} (d : Dev nD) (V : Valuation τ sig (Elt F))
  (pdats : (p : Fin 3) → (c : Dev nD) → Pipeline.Dat τ (Elt F) (HIx 2) ℕ UU ℕ (Pipeline.pin (pcfgs (F := F)) adm p) c)
  (hw : Pipeline.WinFacts (Pipeline.pin (pcfgs (F := F)) adm p).spec) (harr : ∀ w, ((Pipeline.pin (pcfgs (F := F)) adm p).spec w).arr.IsWhole)
  (hshare : ∀ w, (pdats p d).share w = fullShare)

include hw harr hshare in
/-- Entering: the held arrays are the region's arrays at its entry contents and the rest. -/
theorem entry_arrays (hA : ∀ w, (pdats p d).A w = onTc V d (Pipeline.arrRef (Pipeline.pin (pcfgs (F := F)) adm p).spec w)) :
    (held (SparseCore.T d) SU V : sProp 𝕄)
      ⊢ iprop((pdats p d).arrays ((pdats p d).arrAt · 0) ∗ Pipeline.unscopedRest (Pipeline.pin (pcfgs (F := F)) adm p).spec d (onTc V d)) := by
  rw [← unscoped_held' V d]
  exact Pipeline.arrays_of_unscopedBufs (pcs := pcfgs (F := F)) (a := adm) (pdats := pdats) hw harr d hshare (onTc V d) hA

include hw harr hshare in
/-- Leaving: the region's arrays at their final contents and the rest are the arrays held at the valuation with the
    region's result rewritten, when that is what the final contents read and the result is one of the region's arrays. -/
theorem exit_held (y : Ref sig .tc) (v : (rV y).ty.Contents (Elt F))
    (hN : ∀ w, (pdats p d).arrAt w (Pipeline.pin (pcfgs (F := F)) adm p).N = onTc (Function.update V (rV y) v) d (Pipeline.arrRef (Pipeline.pin (pcfgs (F := F)) adm p).spec w))
    (hy : ∃ w, Pipeline.arrRef (Pipeline.pin (pcfgs (F := F)) adm p).spec w = y) :
    iprop((pdats p d).arrays ((pdats p d).arrAt · (Pipeline.pin (pcfgs (F := F)) adm p).N) ∗ Pipeline.unscopedRest (Pipeline.pin (pcfgs (F := F)) adm p).spec d (onTc V d))
      ⊢ (held (SparseCore.T d) SU (Function.update V (rV y) v) : sProp 𝕄) := by
  rw [← unscoped_held' (Function.update V (rV y) v) d,
    Pipeline.unscopedBufs_split (Pipeline.pin (pcfgs (F := F)) adm) p hw.arr_unscoped hw.arr_inj d (onTc (Function.update V (rV y) v) d),
    Pipeline.arrays_eq (Pipeline.pin (pcfgs (F := F)) adm) pdats p d harr hshare]
  refine sep_mono (Entails.of_eq (bigSep_congr fun w _ => by rw [hN w])) (Entails.of_eq ?_)
  unfold Pipeline.unscopedRest
  refine bigSep_congr fun b hb => ?_
  obtain ⟨wy, hwy⟩ := hy
  have hb' : b ∉ Finset.univ.image (Pipeline.arrRef (Pipeline.pin (pcfgs (F := F)) adm p).spec) := (Finset.mem_sdiff.mp hb).2
  have hne : rV b ≠ rV y := fun e =>
    hb' (Finset.mem_image.mpr ⟨wy, Finset.mem_univ _, hwy.trans (Proc.devRef_injective _ e).symm⟩)
  have e : onTc (Function.update V (rV y) v) d b = onTc V d b := Function.update_of_ne hne v V
  rw [e]

/-- An input window's array, never written back, reads the rewritten valuation when it is not the rewritten array. -/
theorem arrAt_input (y : Ref sig .tc) (v : (rV y).ty.Contents (Elt F))
    (hA : ∀ w, (pdats p d).A w = onTc V d (Pipeline.arrRef (Pipeline.pin (pcfgs (F := F)) adm p).spec w))
    (w : Fin (Pipeline.pin (pcfgs (F := F)) adm p).W) (hin : ((Pipeline.pin (pcfgs (F := F)) adm p).win w).isOut = false) (hne : Pipeline.arrRef (Pipeline.pin (pcfgs (F := F)) adm p).spec w ≠ y) (t : ℕ) :
    (pdats p d).arrAt w t = onTc (Function.update V (rV y) v) d (Pipeline.arrRef (Pipeline.pin (pcfgs (F := F)) adm p).spec w) := by
  rw [(pdats p d).arrAt_in w hin t, hA w]
  exact (Function.update_of_ne (fun e => hne (Proc.devRef_injective _ e)) v V).symm

end Arrays

/-! ## A region's record gives its step -/

/-- A region whose record is entered from its arrays, the core's debts within the call's bound and the rest of @main's
    arrays, and left with its arrays after the write-backs, the debts within the bound widened by the pipeline's own
    waits and the rest, steps the valuation: its result rewritten, everything else kept. -/
theorem step_of {p : Fin 3} (n : ℕ) (y : Ref sig .tc) (o : Valuation τ sig (Elt F) → (rV y).ty.Contents (Elt F))
    (d : Dev nD) (V : Valuation τ sig (Elt F))
    (pdats : (p : Fin 3) → (c : Dev nD) → Pipeline.Dat τ (Elt F) (HIx 2) ℕ UU ℕ (Pipeline.pin (pcfgs (F := F)) adm p) c)
    (R : Pipeline.RegionSeg (pcfgs (F := F)) adm pdats (none : HIx 2) defs₀ 𝒱₀ (K (F := F)).L (K (F := F)).lev p)
    (hw : Pipeline.WinFacts (Pipeline.pin (pcfgs (F := F)) adm p).spec) (harr : ∀ w, ((Pipeline.pin (pcfgs (F := F)) adm p).spec w).arr.IsWhole)
    (hshare : ∀ w, (pdats p d).share w = fullShare)
    (hA : ∀ w, (pdats p d).A w = onTc V d (Pipeline.arrRef (Pipeline.pin (pcfgs (F := F)) adm p).spec w))
    (hN : ∀ w, (pdats p d).arrAt w (Pipeline.pin (pcfgs (F := F)) adm p).N = onTc (Function.update V (rV y) (o V)) d (Pipeline.arrRef (Pipeline.pin (pcfgs (F := F)) adm p).spec w))
    (hy : ∃ w, Pipeline.arrRef (Pipeline.pin (pcfgs (F := F)) adm p).spec w = y)
    (hpre : R.pre d = iprop((pdats p d).arrays ((pdats p d).arrAt · 0)
        ∗ Pipeline.owesWithin d ((K (F := F)).Otc d n) (recB (F := F) d n)
        ∗ Pipeline.unscopedRest (Pipeline.pin (pcfgs (F := F)) adm p).spec d (onTc V d)))
    (hpost : R.post d = iprop((pdats p d).arrays ((pdats p d).arrAt · (Pipeline.pin (pcfgs (F := F)) adm p).N)
        ∗ (pdats p d).owesAt (none : HIx 2) (Fin.last (Pipeline.pin (pcfgs (F := F)) adm p).N)
        ∗ Pipeline.unscopedRest (Pipeline.pin (pcfgs (F := F)) adm p).spec d (onTc V d)))
    (howes : ((pdats p d).owesAt (none : HIx 2) (Fin.last (Pipeline.pin (pcfgs (F := F)) adm p).N) : sProp 𝕄)
        = Pipeline.owesWithin d ((K (F := F)).Otc d n) (recB (F := F) d n ∪ (Pipeline.pin (pcfgs (F := F)) adm p).waitPairs (none : HIx 2)))
    {α : Type} (k : PUnit → Prog (TpuEff nD τ sig (Elt F) (ΛP (F := F)) .tc) α) (Q : α → sProp 𝕄) :
    iprop((iprop(boundary (SparseCore.T d) ∗ held (SparseCore.T d) SU (Function.update V (rV y) (o V)) ∗ owesTc d n)
            -∗ wp frame (wpE (D (F := F)) 𝒱 (SparseCore.T d) none) Set.univ (k ⟨⟩) Q)
        ∗ boundary (SparseCore.T d) ∗ held (SparseCore.T d) SU V ∗ owesTc d n ∗ levAts (K (F := F)).L (K (F := F)).lev
        ∗ Pipeline.cellsGhost cfgs EP p d ∗ Pipeline.toksInit cfgs EP p d)
      ⊢ wp frame (wpE (D (F := F)) 𝒱 (SparseCore.T d) none) Set.univ (.op (.customCall (Pipeline.entry p) ()) k) Q := by
  have key := Pipeline.RegionSeg.wp (pcfgs (F := F)) adm pdats (none : HIx 2) cellOf_inj EP defs₀ 𝒱₀
    (K (F := F)).L (K (F := F)).lev R d none (by simp) k Q
  iintro ⟨Hk, Hbd, Hh, Ho, Hl, Hg, Ht⟩
  iapply key
  isplitl [Hk]
  · iintro ⟨Hbd', Hpost⟩
    iapply Hk
    ihave Hp := (Entails.of_eq hpost) $$ Hpost
    icases Hp with ⟨Ha, HO, Hr⟩
    isplitl [Hbd']; · iexact Hbd'
    isplitl [Ha Hr]
    · iapply (exit_held d V pdats hw harr hshare y (o V) hN hy)
      isplitl [Ha]; · iexact Ha
      iexact Hr
    · iapply (within_owesTc d n (Pipeline.pin (pcfgs (F := F)) adm p))
      iapply (Entails.of_eq howes)
      iexact HO
  isplitl [Hbd]; · iexact Hbd
  isplitl [Hh Ho]
  · iapply (Entails.of_eq hpre.symm)
    ihave He := (entry_arrays d V pdats hw harr hshare hA) $$ Hh
    icases He with ⟨Ha, Hr⟩
    isplitl [Ha]; · iexact Ha
    isplitl [Ho]
    · iapply (owesTc_within d n); iexact Ho
    iexact Hr
  isplitl [Hl]; · iexact Hl
  isplitl [Hg]; · iexact Hg
  iexact Ht

/-! ## The three regions' records at a valuation and a call count -/

section Inst

variable (V : Valuation τ sig (Elt F)) (n : ℕ)

/-- The parameters of the regions' proof data: the valuation on every core, the TensorCore's debts before call `n`,
    the pairs below that call's level. -/
abbrev Vt : (c : Dev nD) → (b : Ref sig .tc) → Buf (Elt F) ((Dev.tc c : Thread nD τ).loc b) := fun c => onTc V c
abbrev Ot : Dev nD → CellTallies nD τ sig (HIx 2) := fun c => (K (F := F)).Otc c n
abbrev Rt : Dev nD → Set (SemLoc sig × HIx 2) := fun c => recB (F := F) c n

/-- The three pipelines' proof data at them. -/
abbrev pd : (p : Fin 3) → (c : Dev nD) → Pipeline.Dat τ (Elt F) (HIx 2) ℕ UU ℕ (Pipeline.pin (pcfgs (F := F)) adm p) c :=
  Regions.pdats (F := F) (Ix := HIx 2) (Name := ℕ) (U := UU) (Lvl := ℕ) (Vt V) (Vt V) (Vt V) (Ot (F := F) n) (Ot (F := F) n) (Ot (F := F) n) (Rt (F := F) n) (Rt (F := F) n) (Rt (F := F) n)

/-- What bypasses region `p`: the arrays of @main that are none of its windows'. -/
abbrev Zt (p : Fin 3) : Dev nD → sProp 𝕄 := fun c => Pipeline.unscopedRest (Pipeline.pin (pcfgs (F := F)) adm p).spec c (onTc V c)

/-- The pipelines' own waits, at index `none`, sit below everything the TensorCore owes. -/
theorem hwaits0 (c : Dev nD) : (levAts (K (F := F)).L (K (F := F)).lev : sProp 𝕄)
    ⊢ Pipeline.cellsWaits (Pipeline.pin (pcfgs (F := F)) adm) (pd V n) (none : HIx 2) 0 c :=
  Pipeline.cellsWaits_intro (Pipeline.pin (pcfgs (F := F)) adm) (pd V n) (none : HIx 2) 0 c fun w s t =>
    (K (F := F)).mayWait_none _ (fun g => Otc_none (F := F) c n g)
theorem hwaits1 (c : Dev nD) : (levAts (K (F := F)).L (K (F := F)).lev : sProp 𝕄)
    ⊢ Pipeline.cellsWaits (Pipeline.pin (pcfgs (F := F)) adm) (pd V n) (none : HIx 2) 1 c :=
  Pipeline.cellsWaits_intro (Pipeline.pin (pcfgs (F := F)) adm) (pd V n) (none : HIx 2) 1 c fun w s t =>
    (K (F := F)).mayWait_none _ (fun g => Otc_none (F := F) c n g)
theorem hwaits2 (c : Dev nD) : (levAts (K (F := F)).L (K (F := F)).lev : sProp 𝕄)
    ⊢ Pipeline.cellsWaits (Pipeline.pin (pcfgs (F := F)) adm) (pd V n) (none : HIx 2) 2 c :=
  Pipeline.cellsWaits_intro (Pipeline.pin (pcfgs (F := F)) adm) (pd V n) (none : HIx 2) 2 c fun w s t =>
    (K (F := F)).mayWait_none _ (fun g => Otc_none (F := F) c n g)

end Inst

/-! ## The three steps -/

/-- Every window of region 0 but the last is an input. -/
theorem inputs0 : ∀ w : Fin 3, w ≠ 2 → (cfg0.win w).isOut = false := by decide

/-- Region 0's arrays after its write-backs are the valuation with the result rewritten. -/
theorem hN0 (final0 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat0 (Name := ℕ) (U := UU) (Lvl := ℕ) V O Rc c).arrAt 2 cfg0.N = GenP.k0_pay1 (V c (Pipeline.arrRef spec0 0)) (V c (Pipeline.arrRef spec0 1)))
    (n : ℕ) (d : Dev nD) (V : Valuation τ sig (Elt F)) (w : Fin 3) :
    (pd V n 0 d).arrAt w (Pipeline.pin (pcfgs (F := F)) adm 0).N
      = onTc (Function.update V (rV main_v22) (o0 V)) d (Pipeline.arrRef (Pipeline.pin (pcfgs (F := F)) adm 0).spec w) := by
  by_cases hw : w = 2
  · subst hw
    exact (final0 (Vt V) (Ot (F := F) n) (Rt (F := F) n) d).trans (Function.update_self (rV main_v22) (o0 V) V).symm
  · exact arrAt_input (p := 0) d V (pd V n) main_v22 (o0 V) (Regions.pdats_A0 (Vt V) (Vt V) (Vt V) (Ot (F := F) n) (Ot (F := F) n) (Ot (F := F) n) (Rt (F := F) n) (Rt (F := F) n) (Rt (F := F) n) d) w (inputs0 w hw)
      (fun e => hw (winFacts0.arr_inj e)) _

/-- Region 0 as a step on the valuation. -/
theorem hR0 (final0 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat0 (Name := ℕ) (U := UU) (Lvl := ℕ) V O Rc c).arrAt 2 cfg0.N = GenP.k0_pay1 (V c (Pipeline.arrRef spec0 0)) (V c (Pipeline.arrRef spec0 1))) :
    RegionStep (F := F) 0 0 main_v22 o0 := by
  unfold RegionStep
  intro d V α k Q
  exact step_of (p := 0) 0 main_v22 o0 d V (pd V 0)
    (Regions.reg0 (Vt V) (Vt V) (Vt V) (Ot (F := F) 0) (Ot (F := F) 0) (Ot (F := F) 0) (Rt (F := F) 0) (Rt (F := F) 0) (Rt (F := F) 0) (none : HIx 2) 𝒱₀ (K (F := F)).L (K (F := F)).lev (Zt V 0) (hwaits0 V 0))
    winFacts0 arr_whole0
    (Regions.share0 (Vt V) (Vt V) (Vt V) (Ot (F := F) 0) (Ot (F := F) 0) (Ot (F := F) 0) (Rt (F := F) 0) (Rt (F := F) 0) (Rt (F := F) 0) d)
    (Regions.pdats_A0 (Vt V) (Vt V) (Vt V) (Ot (F := F) 0) (Ot (F := F) 0) (Ot (F := F) 0) (Rt (F := F) 0) (Rt (F := F) 0) (Rt (F := F) 0) d)
    (hN0 final0 0 d V)
    ⟨2, rfl⟩
    (Regions.reg0_pre (Vt V) (Vt V) (Vt V) (Ot (F := F) 0) (Ot (F := F) 0) (Ot (F := F) 0) (Rt (F := F) 0) (Rt (F := F) 0) (Rt (F := F) 0) (none : HIx 2) 𝒱₀ (K (F := F)).L (K (F := F)).lev (Zt V 0) (hwaits0 V 0) d)
    (Regions.reg0_post (Vt V) (Vt V) (Vt V) (Ot (F := F) 0) (Ot (F := F) 0) (Ot (F := F) 0) (Rt (F := F) 0) (Rt (F := F) 0) (Rt (F := F) 0) (none : HIx 2) 𝒱₀ (K (F := F)).L (K (F := F)).lev (Zt V 0) (hwaits0 V 0) d)
    (Regions.owesAt0 (Vt V) (Vt V) (Vt V) (Ot (F := F) 0) (Ot (F := F) 0) (Ot (F := F) 0) (Rt (F := F) 0) (Rt (F := F) 0) (Rt (F := F) 0) (none : HIx 2) d _)
    k Q

/-- Every window of region 1 but the last is an input. -/
theorem inputs1 : ∀ w : Fin 24, w ≠ 23 → (cfg2.win w).isOut = false := by decide

/-- Region 1's arrays after its write-backs are the valuation with the result rewritten. -/
theorem hN1 (final2 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat2 (Name := ℕ) (U := UU) (Lvl := ℕ) V O Rc c).arrAt 23 cfg2.N = KValue.regionOut2 (KConst.inv36 (F := F)) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22)))
    (n : ℕ) (d : Dev nD) (V : Valuation τ sig (Elt F)) (w : Fin 24) :
    (pd V n 1 d).arrAt w (Pipeline.pin (pcfgs (F := F)) adm 1).N
      = onTc (Function.update V (rV main_v41) (o1 V)) d (Pipeline.arrRef (Pipeline.pin (pcfgs (F := F)) adm 1).spec w) := by
  by_cases hw : w = 23
  · subst hw
    exact (final2 (Vt V) (Ot (F := F) n) (Rt (F := F) n) d).trans (Function.update_self (rV main_v41) (o1 V) V).symm
  · exact arrAt_input (p := 1) d V (pd V n) main_v41 (o1 V) (Regions.pdats_A2 (Vt V) (Vt V) (Vt V) (Ot (F := F) n) (Ot (F := F) n) (Ot (F := F) n) (Rt (F := F) n) (Rt (F := F) n) (Rt (F := F) n) d) w (inputs1 w hw)
      (fun e => hw (winFacts2.arr_inj e)) _

/-- Region 1 as a step on the valuation. -/
theorem hR1 (final2 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat2 (Name := ℕ) (U := UU) (Lvl := ℕ) V O Rc c).arrAt 23 cfg2.N = KValue.regionOut2 (KConst.inv36 (F := F)) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22))) :
    RegionStep (F := F) 1 1 main_v41 o1 := by
  unfold RegionStep
  intro d V α k Q
  exact step_of (p := 1) 1 main_v41 o1 d V (pd V 1)
    (Regions.reg2 (Vt V) (Vt V) (Vt V) (Ot (F := F) 1) (Ot (F := F) 1) (Ot (F := F) 1) (Rt (F := F) 1) (Rt (F := F) 1) (Rt (F := F) 1) (none : HIx 2) 𝒱₀ (K (F := F)).L (K (F := F)).lev (Zt V 1) (hwaits1 V 1))
    winFacts2 arr_whole2
    (Regions.share2 (Vt V) (Vt V) (Vt V) (Ot (F := F) 1) (Ot (F := F) 1) (Ot (F := F) 1) (Rt (F := F) 1) (Rt (F := F) 1) (Rt (F := F) 1) d)
    (Regions.pdats_A2 (Vt V) (Vt V) (Vt V) (Ot (F := F) 1) (Ot (F := F) 1) (Ot (F := F) 1) (Rt (F := F) 1) (Rt (F := F) 1) (Rt (F := F) 1) d)
    (hN1 final2 1 d V)
    ⟨23, rfl⟩
    (Regions.reg2_pre (Vt V) (Vt V) (Vt V) (Ot (F := F) 1) (Ot (F := F) 1) (Ot (F := F) 1) (Rt (F := F) 1) (Rt (F := F) 1) (Rt (F := F) 1) (none : HIx 2) 𝒱₀ (K (F := F)).L (K (F := F)).lev (Zt V 1) (hwaits1 V 1) d)
    (Regions.reg2_post (Vt V) (Vt V) (Vt V) (Ot (F := F) 1) (Ot (F := F) 1) (Ot (F := F) 1) (Rt (F := F) 1) (Rt (F := F) 1) (Rt (F := F) 1) (none : HIx 2) 𝒱₀ (K (F := F)).L (K (F := F)).lev (Zt V 1) (hwaits1 V 1) d)
    (Regions.owesAt2 (Vt V) (Vt V) (Vt V) (Ot (F := F) 1) (Ot (F := F) 1) (Ot (F := F) 1) (Rt (F := F) 1) (Rt (F := F) 1) (Rt (F := F) 1) (none : HIx 2) d _)
    k Q

/-- Every window of region 2 but the last is an input. -/
theorem inputs2 : ∀ w : Fin 24, w ≠ 23 → (cfg4.win w).isOut = false := by decide

/-- Region 2's arrays after its write-backs are the valuation with the result rewritten. -/
theorem hN2 (final4 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat4 (Name := ℕ) (U := UU) (Lvl := ℕ) V O Rc c).arrAt 23 cfg4.N = KValue.regionOut4 (KConst.inv36 (F := F)) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22)))
    (n : ℕ) (d : Dev nD) (V : Valuation τ sig (Elt F)) (w : Fin 24) :
    (pd V n 2 d).arrAt w (Pipeline.pin (pcfgs (F := F)) adm 2).N
      = onTc (Function.update V (rV main_v60) (o2 V)) d (Pipeline.arrRef (Pipeline.pin (pcfgs (F := F)) adm 2).spec w) := by
  by_cases hw : w = 23
  · subst hw
    exact (final4 (Vt V) (Ot (F := F) n) (Rt (F := F) n) d).trans (Function.update_self (rV main_v60) (o2 V) V).symm
  · exact arrAt_input (p := 2) d V (pd V n) main_v60 (o2 V) (Regions.pdats_A4 (Vt V) (Vt V) (Vt V) (Ot (F := F) n) (Ot (F := F) n) (Ot (F := F) n) (Rt (F := F) n) (Rt (F := F) n) (Rt (F := F) n) d) w (inputs2 w hw)
      (fun e => hw (winFacts4.arr_inj e)) _

/-- Region 2 as a step on the valuation. -/
theorem hR2 (final4 : ∀ (V : (c : Dev nD) → (b : Ref sig .tc) → Buf (Elt F) ((Dev.tc c : Thread nD τ).loc b)) (O : Dev nD → CellTallies nD τ sig (HIx 2)) (Rc : Dev nD → Set (SemLoc sig × HIx 2)) (c : Dev nD),
      (Regions.dat4 (Name := ℕ) (U := UU) (Lvl := ℕ) V O Rc c).arrAt 23 cfg4.N = KValue.regionOut4 (KConst.inv36 (F := F)) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22))) :
    RegionStep (F := F) 2 2 main_v60 o2 := by
  unfold RegionStep
  intro d V α k Q
  exact step_of (p := 2) 2 main_v60 o2 d V (pd V 2)
    (Regions.reg4 (Vt V) (Vt V) (Vt V) (Ot (F := F) 2) (Ot (F := F) 2) (Ot (F := F) 2) (Rt (F := F) 2) (Rt (F := F) 2) (Rt (F := F) 2) (none : HIx 2) 𝒱₀ (K (F := F)).L (K (F := F)).lev (Zt V 2) (hwaits2 V 2))
    winFacts4 arr_whole4
    (Regions.share4 (Vt V) (Vt V) (Vt V) (Ot (F := F) 2) (Ot (F := F) 2) (Ot (F := F) 2) (Rt (F := F) 2) (Rt (F := F) 2) (Rt (F := F) 2) d)
    (Regions.pdats_A4 (Vt V) (Vt V) (Vt V) (Ot (F := F) 2) (Ot (F := F) 2) (Ot (F := F) 2) (Rt (F := F) 2) (Rt (F := F) 2) (Rt (F := F) 2) d)
    (hN2 final4 2 d V)
    ⟨23, rfl⟩
    (Regions.reg4_pre (Vt V) (Vt V) (Vt V) (Ot (F := F) 2) (Ot (F := F) 2) (Ot (F := F) 2) (Rt (F := F) 2) (Rt (F := F) 2) (Rt (F := F) 2) (none : HIx 2) 𝒱₀ (K (F := F)).L (K (F := F)).lev (Zt V 2) (hwaits2 V 2) d)
    (Regions.reg4_post (Vt V) (Vt V) (Vt V) (Ot (F := F) 2) (Ot (F := F) 2) (Ot (F := F) 2) (Rt (F := F) 2) (Rt (F := F) 2) (Rt (F := F) 2) (none : HIx 2) 𝒱₀ (K (F := F)).L (K (F := F)).lev (Zt V 2) (hwaits2 V 2) d)
    (Regions.owesAt4 (Vt V) (Vt V) (Vt V) (Ot (F := F) 2) (Ot (F := F) 2) (Ot (F := F) 2) (Rt (F := F) 2) (Rt (F := F) 2) (Rt (F := F) 2) (none : HIx 2) d _)
    k Q

end Cert.Kernel.RegionSteps

end
-- ==== Proof.KRegionValBits.lean ====
/-
  The three TensorCore regions' output arrays after each region, in closed form: the projection's as the
  product of the two arrays it finds, each layer region's as the layer's value, tile by tile, of the 23 arrays
  it finds. What a grid point writes back is the body's value of the input blocks at that point; the points'
  output blocks cover the output array.
-/
import proofs.«215572_g25211458027672_cont_9to1_2008_46_alg».proof.Proof.KRegionsBits
import proofs.«215572_g25211458027672_cont_9to1_2008_46_alg».proof.Proof.KResDefBits
import Idealize.ShloMosaic.Lib.Pipeline.Value

set_option maxRecDepth 16384

noncomputable section

namespace Cert.Kernel.RegionVal

open Cert.Kernel Cert.Kernel.Gen Cert.Kernel.GenP Cert.Kernel.Regions
open Idealize.ShloMosaic Idealize.ShloMosaic.TcCoe
open Idealize.SL Idealize.SL.RA Idealize.SL.BI
open Idealize.SL.Sem
open Idealize.ShloMosaic.Rounds
open Idealize.ShloMosaic.Pipeline (Dat Cfg Window)

variable {F : FTy → Type} [FloatOps F]
variable {Ix : Type} [DecidableEq Ix] {Name : Type} [DecidableEq Name] {U : Type} [URA U] {Lvl : Type} [Preorder Lvl]

/-! ## Call 0: the projection, one point over whole arrays -/

section Call0

variable (V : (c : Dev nD) → (b : Ref sig .tc) → Buf (Elt F) ((c : Thread nD τ).loc b))
  (O : Dev nD → CellTallies nD τ sig Ix) (Rc : Dev nD → Set (SemLoc sig × Ix))

/-- Every window of the projection sits at block (0, 0): decided over the grid's one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The left operand's block is the whole array. -/
theorem iblk0_0_eq (c : Dev nD) (t : Fin cfg0.N) :
    (iblk0 V c 0 t : Vec F S4096x128 .f32) = V c (Pipeline.arrRef spec0 0) := by
  obtain ⟨e0, e1, e2, e3, e4, e5⟩ := idx0 t
  funext y
  show V c (Pipeline.arrRef spec0 0) (((cfg0.win 0).blk t).view.emb y) = V c (Pipeline.arrRef spec0 0) y
  refine congrArg (V c (Pipeline.arrRef spec0 0)) (funext fun a => Fin.ext ?_)
  match a with
  | ⟨0, _⟩ => show win0_0.index t (0 : Fin 2) * 4096 + 1 * (y 0).val = (y 0).val; omega
  | ⟨1, _⟩ => show win0_0.index t (1 : Fin 2) * 128 + 1 * (y 1).val = (y 1).val; omega

/-- The right operand's block is the whole array. -/
theorem iblk0_1_eq (c : Dev nD) (t : Fin cfg0.N) :
    (iblk0 V c 1 t : Vec F S128x128 .f32) = V c (Pipeline.arrRef spec0 1) := by
  obtain ⟨e0, e1, e2, e3, e4, e5⟩ := idx0 t
  funext y
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is the product of the two whole arrays, read through the output's block. -/
theorem flushed0_2_read (c : Dev nD) (t : Fin cfg0.N) :
    (dat0 (Name := Name) (U := U) (Lvl := Lvl) V O Rc c).flushed 2 t
      = ((cfg0.win 2).blk t).view.read (Elt F) (k0_pay1 (V c (Pipeline.arrRef spec0 0)) (V c (Pipeline.arrRef spec0 1))) := by
  rw [flushed0_2, out0_eq, iblk0_0_eq, iblk0_1_eq]
  obtain ⟨e0, e1, e2, e3, e4, e5⟩ := idx0 t
  funext y
  show k0_pay1 (V c (Pipeline.arrRef spec0 0)) (V c (Pipeline.arrRef spec0 1)) y
    = k0_pay1 (V c (Pipeline.arrRef spec0 0)) (V c (Pipeline.arrRef spec0 1)) (((cfg0.win 2).blk t).view.emb y)
  refine congrArg (k0_pay1 (V c (Pipeline.arrRef spec0 0)) (V c (Pipeline.arrRef spec0 1))) (funext fun a => Fin.ext ?_)
  match a with
  | ⟨0, _⟩ => show (y 0).val = win0_2.index t (0 : Fin 2) * 4096 + 1 * (y 0).val; omega
  | ⟨1, _⟩ => show (y 1).val = win0_2.index t (1 : Fin 2) * 128 + 1 * (y 1).val; omega

/-- The one point's output block is the whole array. -/
theorem cover0_2 (i : S4096x128.Idx) :
    ∃ t : Fin cfg0.N, (cfg0.win 2).flush t = true ∧ i ∈ ((cfg0.win 2).blk t).view.set := by
  have hN : 0 < cfg0.N := by show 0 < grid0.N; rw [N_0]; omega
  refine ⟨⟨0, hN⟩, flush0_2 _, ?_⟩
  obtain ⟨e0, e1, e2, e3, e4, e5⟩ := idx0 ⟨0, hN⟩
  have h0 : (i 0).val < 4096 := (i 0).isLt
  have h1 : (i 1).val < 128 := (i 1).isLt
  show i ∈ ((View.whole main_v22).slice (win0_2.rect ⟨0, hN⟩)).set
  rw [View.set_slice_whole, Rect.mem_set_unit]
  intro a
  match a with
  | ⟨0, _⟩ => show win0_2.index ⟨0, hN⟩ (0 : Fin 2) * 4096 ≤ (i 0).val ∧ (i 0).val < win0_2.index ⟨0, hN⟩ (0 : Fin 2) * 4096 + 4096; omega
  | ⟨1, _⟩ => show win0_2.index ⟨0, hN⟩ (1 : Fin 2) * 128 ≤ (i 1).val ∧ (i 1).val < win0_2.index ⟨0, hN⟩ (1 : Fin 2) * 128 + 128; omega

/-- THE PROJECTION'S ARRAY AFTER THE REGION: the product of the two arrays the region finds. -/
theorem final0 (c : Dev nD) :
    (dat0 (Name := Name) (U := U) (Lvl := Lvl) V O Rc c).arrAt 2 cfg0.N
      = k0_pay1 (V c (Pipeline.arrRef spec0 0)) (V c (Pipeline.arrRef spec0 1)) :=
  (dat0 (Name := Name) (U := U) (Lvl := Lvl) V O Rc c).arrAt_eq_of_cover 2 _
    (fun t _ => flushed0_2_read V O Rc c t) cover0_2

end Call0

/-! ## Call 2: the layer region's output array -/

section Final2

/-- Over any 23 arrays: the body's stored value of their blocks at point t is block t of the region's closed form. -/
theorem out2_read_blk (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) (t : Fin cfg2.N) :
    out2 (((cfg2.win 0).blk t).view.read (Elt F) A0) (((cfg2.win 1).blk t).view.read (Elt F) A1) (((cfg2.win 2).blk t).view.read (Elt F) A2) (((cfg2.win 3).blk t).view.read (Elt F) A3) (((cfg2.win 4).blk t).view.read (Elt F) A4) (((cfg2.win 5).blk t).view.read (Elt F) A5) (((cfg2.win 6).blk t).view.read (Elt F) A6) (((cfg2.win 7).blk t).view.read (Elt F) A7) (((cfg2.win 8).blk t).view.read (Elt F) A8) (((cfg2.win 9).blk t).view.read (Elt F) A9) (((cfg2.win 10).blk t).view.read (Elt F) A10) (((cfg2.win 11).blk t).view.read (Elt F) A11) (((cfg2.win 12).blk t).view.read (Elt F) A12) (((cfg2.win 13).blk t).view.read (Elt F) A13) (((cfg2.win 14).blk t).view.read (Elt F) A14) (((cfg2.win 15).blk t).view.read (Elt F) A15) (((cfg2.win 16).blk t).view.read (Elt F) A16) (((cfg2.win 17).blk t).view.read (Elt F) A17) (((cfg2.win 18).blk t).view.read (Elt F) A18) (((cfg2.win 19).blk t).view.read (Elt F) A19) (((cfg2.win 20).blk t).view.read (Elt F) A20) (((cfg2.win 21).blk t).view.read (Elt F) A21) (((cfg2.win 22).blk t).view.read (Elt F) A22)
      = ((cfg2.win 23).blk t).view.read (Elt F) (KValue.regionOut2 (KConst.inv36 (F := F)) A0 A1 A2 A3 A4 A5 A6 A7 A8 A9 A10 A11 A12 A13 A14 A15 A16 A17 A18 A19 A20 A21 A22) :=
  (out2_eq _ _ _ _ _ _ _ _ _ _ _ _ _ _ _ _ _ _ _ _ _ _ _).trans (KValue.read_blk_regionOut2 (KConst.inv36 (F := F)) A0 A1 A2 A3 A4 A5 A6 A7 A8 A9 A10 A11 A12 A13 A14 A15 A16 A17 A18 A19 A20 A21 A22 t).symm

variable (V : (c : Dev nD) → (b : Ref sig .tc) → Buf (Elt F) ((c : Thread nD τ).loc b))
  (O : Dev nD → CellTallies nD τ sig Ix) (Rc : Dev nD → Set (SemLoc sig × Ix))

set_option maxHeartbeats 2000000 in
/-- What point t stores is block t of the region's closed form of the arrays the region finds. -/
theorem outAt2_read (c : Dev nD) (t : Fin cfg2.N) :
    outAt2 V c t = ((cfg2.win 23).blk t).view.read (Elt F)
      (KValue.regionOut2 (KConst.inv36 (F := F)) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22))) :=
  out2_read_blk (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22)) t

set_option maxHeartbeats 2000000 in
/-- THE OUTPUT ARRAY AFTER THE REGION: the layer's value, tile by tile, of the arrays the region finds. -/
theorem final2 (c : Dev nD) :
    (dat2 (Name := Name) (U := U) (Lvl := Lvl) V O Rc c).arrAt 23 cfg2.N
      = KValue.regionOut2 (KConst.inv36 (F := F)) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22)) :=
  arrAt2_out V O Rc c _ (outAt2_read V c)

end Final2

/-! ## Call 4: the layer region's output array -/

section Final4

/-- Over any 23 arrays: the body's stored value of their blocks at point t is block t of the region's closed form. -/
theorem out4_read_blk (A0 : Vec F S4x1024x128 .f32) (A1 : Vec F S4x36x1024x128 .f32) (A2 : Vec F S72x1024x128 .f32) (A3 : Vec F S4x1024x36 .f32) (A4 : Vec F S4x8x1x4608 .bf16) (A5 : Vec F S4x8x1x128 .f32) (A6 : Vec F S128x4608 .bf16) (A7 : Vec F S4608x128 .bf16) (A8 : Vec F S128x128 .f32) (A9 : Vec F S1x128 .f32) (A10 : Vec F S128x128 .bf16) (A11 : Vec F S128x128 .bf16) (A12 : Vec F S1x128 .f32) (A13 : Vec F S128x128 .f32) (A14 : Vec F S1x128 .f32) (A15 : Vec F S128x512 .bf16) (A16 : Vec F S1x512 .f32) (A17 : Vec F S512x128 .bf16) (A18 : Vec F S1x128 .f32) (A19 : Vec F S1x128 .f32) (A20 : Vec F S1x128 .f32) (A21 : Vec F S1x128 .f32) (A22 : Vec F S1x128 .f32) (t : Fin cfg4.N) :
    out4 (((cfg4.win 0).blk t).view.read (Elt F) A0) (((cfg4.win 1).blk t).view.read (Elt F) A1) (((cfg4.win 2).blk t).view.read (Elt F) A2) (((cfg4.win 3).blk t).view.read (Elt F) A3) (((cfg4.win 4).blk t).view.read (Elt F) A4) (((cfg4.win 5).blk t).view.read (Elt F) A5) (((cfg4.win 6).blk t).view.read (Elt F) A6) (((cfg4.win 7).blk t).view.read (Elt F) A7) (((cfg4.win 8).blk t).view.read (Elt F) A8) (((cfg4.win 9).blk t).view.read (Elt F) A9) (((cfg4.win 10).blk t).view.read (Elt F) A10) (((cfg4.win 11).blk t).view.read (Elt F) A11) (((cfg4.win 12).blk t).view.read (Elt F) A12) (((cfg4.win 13).blk t).view.read (Elt F) A13) (((cfg4.win 14).blk t).view.read (Elt F) A14) (((cfg4.win 15).blk t).view.read (Elt F) A15) (((cfg4.win 16).blk t).view.read (Elt F) A16) (((cfg4.win 17).blk t).view.read (Elt F) A17) (((cfg4.win 18).blk t).view.read (Elt F) A18) (((cfg4.win 19).blk t).view.read (Elt F) A19) (((cfg4.win 20).blk t).view.read (Elt F) A20) (((cfg4.win 21).blk t).view.read (Elt F) A21) (((cfg4.win 22).blk t).view.read (Elt F) A22)
      = ((cfg4.win 23).blk t).view.read (Elt F) (KValue.regionOut4 (KConst.inv36 (F := F)) A0 A1 A2 A3 A4 A5 A6 A7 A8 A9 A10 A11 A12 A13 A14 A15 A16 A17 A18 A19 A20 A21 A22) :=
  (out4_eq _ _ _ _ _ _ _ _ _ _ _ _ _ _ _ _ _ _ _ _ _ _ _).trans (KValue.read_blk_regionOut4 (KConst.inv36 (F := F)) A0 A1 A2 A3 A4 A5 A6 A7 A8 A9 A10 A11 A12 A13 A14 A15 A16 A17 A18 A19 A20 A21 A22 t).symm

variable (V : (c : Dev nD) → (b : Ref sig .tc) → Buf (Elt F) ((c : Thread nD τ).loc b))
  (O : Dev nD → CellTallies nD τ sig Ix) (Rc : Dev nD → Set (SemLoc sig × Ix))

set_option maxHeartbeats 2000000 in
/-- What point t stores is block t of the region's closed form of the arrays the region finds. -/
theorem outAt4_read (c : Dev nD) (t : Fin cfg4.N) :
    outAt4 V c t = ((cfg4.win 23).blk t).view.read (Elt F)
      (KValue.regionOut4 (KConst.inv36 (F := F)) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22))) :=
  out4_read_blk (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22)) t

set_option maxHeartbeats 2000000 in
/-- THE OUTPUT ARRAY AFTER THE REGION: the layer's value, tile by tile, of the arrays the region finds. -/
theorem final4 (c : Dev nD) :
    (dat4 (Name := Name) (U := U) (Lvl := Lvl) V O Rc c).arrAt 23 cfg4.N
      = KValue.regionOut4 (KConst.inv36 (F := F)) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22)) :=
  arrAt4_out V O Rc c _ (outAt4_read V c)

end Final4

end Cert.Kernel.RegionVal

end
-- ==== Proof.KRegionStepsFinalBits.lean ====
/-
  The three kernel regions as steps on the valuation, their closed forms supplied: each region's result is the pure
  function of the valuation at its entry that the region's value lemma names.
-/
import proofs.«215572_g25211458027672_cont_9to1_2008_46_alg».proof.Proof.KRegionStepsBits
import proofs.«215572_g25211458027672_cont_9to1_2008_46_alg».proof.Proof.KRegionValBits

noncomputable section

namespace Cert.Kernel.RegionSteps

open Cert.Kernel Cert.Kernel.Gen Cert.Kernel.KS Cert.Kernel.KPay Cert.Kernel.KMain

open Idealize.ShloMosaic
open Idealize.ShloMosaic.SparseCore.Cfg (HIx)

variable {F : FTy → Type} [FloatOps F]

/-- Region 0 rewrites the projection's array. -/
theorem step0 : RegionStep (F := F) 0 0 main_v22 o0 :=
  hR0 fun V O Rc c => RegionVal.final0 (Name := ℕ) (U := UU) (Lvl := ℕ) V O Rc c

/-- Region 1 rewrites the first half's result. -/
theorem step1 : RegionStep (F := F) 1 1 main_v41 o1 :=
  hR1 fun V O Rc c => RegionVal.final2 (Name := ℕ) (U := UU) (Lvl := ℕ) V O Rc c

/-- Region 2 rewrites the second half's result. -/
theorem step2 : RegionStep (F := F) 2 2 main_v60 o2 :=
  hR2 fun V O Rc c => RegionVal.final4 (Name := ℕ) (U := UU) (Lvl := ℕ) V O Rc c

end Cert.Kernel.RegionSteps

end
-- ==== Proof.ScTileValBits.lean ====
/-
  Pure facts about one vector subcore's task of a gather call: what the task's squeezed slab of the index
  array reads, which rows of the result its part is, the batch offset it adds in closed form, and the value of
  one indirect gather through a row of the index scratch.
-/
import proofs.«215572_g25211458027672_cont_9to1_2008_46_alg».proof.Proof.SkeletonKernel
import proofs.«215572_g25211458027672_cont_9to1_2008_46_alg».proof.Proof.KSetupBits
import Idealize.ShloMosaic.Lib.ValueIdx
import Idealize.ShloMosaic.Lib.Decide

noncomputable section

namespace Cert.Kernel.ScTileVal

open Cert.Kernel Cert.Kernel.Gen Idealize.ShloMosaic Idealize.ShloMosaic.ValueIdx

variable {F : FTy → Type}

/-! ## The index slab and the result's rows -/

/-- The task's slab of the index array, read through the squeezed slice: word `j` of the slab is
    word `(2 s + c, j₀, j₁)` of the array. -/
theorem slab_read (L : grid1.Coords) (ix : S32x18x128.Idx → Elt F .i32) (j : S18x128.Idx) :
    ((((Memref.whole main_v24_scv : Memref sig .scVector .hbm S32x18x128 .i32).slice
        (Rect.unit (s := S32x18x128) (k1_off1 L) S1x18x128.size (k1_off1_inb L)) (fun _ => rfl)).squeeze S18x128
        squeezes_S1x18x128_S18x128).view.read (Elt F) ix j)
      = ix (ix3 (⟨2 * (L 1).val + (L 0).val, by
          have h0 : (L 0).val < 2 := (L 0).isLt; have h1 : (L 1).val < 16 := (L 1).isLt; omega⟩ : Fin 32) (j 0) (j 1)) := by
  rw [View.read_apply, cast_eq]
  congr 1
  funext (a : Fin 3)
  apply Fin.ext
  show ((Rect.unit (s := S32x18x128) (k1_off1 L) S1x18x128.size (k1_off1_inb L)).emb
      (Shape.reshapeEquiv squeezes_S1x18x128_S18x128.numel_eq j) a : Nat) = _
  rw [Shape.reshapeEquiv_cons_one, Rect.emb_apply, Rect.off_unit, Rect.stride_unit]
  have e0 : k1_off1 L 0 = 2 * (L 1).val + (L 0).val := congrFun (k1_off1_eq L) 0
  have e1 : k1_off1 L 1 = 0 := congrFun (k1_off1_eq L) 1
  have e2 : k1_off1 L 2 = 0 := congrFun (k1_off1_eq L) 2
  match a with
  | ⟨0, _⟩ => show k1_off1 L 0 + 1 * 0 = 2 * (L 1).val + (L 0).val; omega
  | ⟨1, _⟩ => show k1_off1 L 1 + 1 * (j 0).val = (j 0).val; omega
  | ⟨2, _⟩ => show k1_off1 L 2 + 1 * (j 1).val = (j 1).val; omega

/-- Part `w` of the result's rows, cut in 32 along the rows, is rows `[2304 w, 2304 w + 2304)`. -/
theorem mem_oSet (w : Fin 32) (j : S73728x128.Idx) :
    j ∈ ((Memref.whole main_v25_scv : Memref sig .scVector .hbm S73728x128 .f32).view.slice
        (Rect.part (s := S73728x128) (a₀ := 0) (⟨2304, rfl⟩ : 32 ∣ S73728x128.size 0) w)).set
      ↔ 2304 * w.val ≤ (j 0).val ∧ (j 0).val < 2304 * w.val + 2304 := by
  show j ∈ ((View.whole main_v25_scv).slice
        (Rect.part (s := S73728x128) (a₀ := 0) (⟨2304, rfl⟩ : 32 ∣ S73728x128.size 0) w)).set ↔ _
  rw [View.set_slice_whole, Rect.mem_set_unit]
  have h1 : (j 1).val < 128 := (j 1).isLt
  constructor
  · intro h
    have h0 := h 0
    change w.val * (73728 / 32) ≤ (j 0).val ∧ (j 0).val < w.val * (73728 / 32) + 73728 / 32 at h0
    omega
  · intro h a
    match a with
    | ⟨0, _⟩ =>
      show w.val * (73728 / 32) ≤ (j 0).val ∧ (j 0).val < w.val * (73728 / 32) + 73728 / 32
      omega
    | ⟨1, _⟩ =>
      show 0 * 128 ≤ (j 1).val ∧ (j 1).val < 0 * 128 + 128
      omega

/-! ## The batch offset -/

/-- The batch offset the task adds to every word of its slab, as the program computes it from the
    grid's coordinates. -/
def k1_boffW (i : grid1.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v3 : BitVec 32 := Scalar.divsi v1 16#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v1 16#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.addi 0#32 v19
  let v21 : BitVec 32 := Scalar.muli v20 1024#32
  v21

/-- The batch offset in closed form: `1024` times the batch `0 + (2 s + c) / 16`. -/
theorem k1_boffW_eq : ∀ i : grid1.Coords,
    k1_boffW i = BitVec.ofNat 32 ((0 + (2 * (i 1).val + (i 0).val) / 16) * 1024) := by decide +kernel

section Pay
variable [FloatOps F]
/-- The offset's addition to one sixteen-lane piece, over the batch offset as a word. -/
theorem k1_pay1_eq (i : grid1.Coords) (v34 : Vec F S1x16 .i32) :
    Cert.Kernel.GenP.k1_pay1 i v34
      = shapeCast S1x16 (addi (shapeCast S16 v34 shapeCasts_S1x16_S16) (broadcast S16 (k1_boffW i))) shapeCasts_S16_S1x16 := rfl
end Pay

/-! ## One indirect gather's value -/

/-- Position `k` of a rank-one shape in row-major order is the index whose coordinate is `k`. -/
theorem rowMajor_symm_one {o : ℕ} (hn : S128.numel = o) (k : Fin o) :
    ((S128.rowMajor.symm (k.cast hn.symm)) 0).val = k.val := by
  have h := Shape.rowMajor_val_one (S128.rowMajor.symm (k.cast hn.symm))
  rw [Equiv.apply_symm_apply] at h
  exact h.symm

/-- Row `c` of the index scratch read through the squeezed slice: word `y` of the list is word `(c, y₀)`
    of the scratch. -/
theorem list_read (fI : S18x128.Idx → BitVec 32) (c : ℕ) (hc18 : c < 18)
    (inb : ∀ a, (![c, 0] : Fin 2 → ℕ) a + S1x128.size a ≤ S18x128.size a) (y : S128.Idx) :
    (((Memref.whole cc1_scratch0 : Memref sig .scVector .vmem S18x128 .i32).slice
        (Rect.unit (s := S18x128) ![c, 0] S1x128.size inb) (fun _ => rfl)).squeeze S128 squeezes_S1x128_S128).view.read (Elt F) fI y
      = fI (ix2 (⟨c % 18, Nat.mod_lt _ (by decide)⟩ : Fin 18) (y 0)) := by
  rw [View.read_apply, cast_eq]
  congr 1
  funext (a : Fin 2)
  apply Fin.ext
  show ((Rect.unit (s := S18x128) ![c, 0] S1x128.size inb).emb
      (Shape.reshapeEquiv squeezes_S1x128_S128.numel_eq y) a : Nat) = _
  rw [Shape.reshapeEquiv_cons_one, Rect.emb_apply, Rect.off_unit, Rect.stride_unit]
  match a with
  | ⟨0, _⟩ => show c + 1 * 0 = c % 18; omega
  | ⟨1, _⟩ => show 0 + 1 * (y 0).val = (y 0).val; omega

/-- The row the list names for position `k`: the number in word `(c, k)` of the scratch. -/
theorem rows_list (fI : S18x128.Idx → BitVec 32) (c : ℕ) (hc18 : c < 18)
    (inb : ∀ a, (![c, 0] : Fin 2 → ℕ) a + S1x128.size a ≤ S18x128.size a)
    (hin : ∀ x, ((((Memref.whole cc1_scratch0 : Memref sig .scVector .vmem S18x128 .i32).slice
        (Rect.unit (s := S18x128) ![c, 0] S1x128.size inb) (fun _ => rfl)).squeeze S128 squeezes_S1x128_S128).view.read (Elt F) fI x).toNat
          < S4096x128.size gathers_S4096x128_S128x128.axis)
    (k : Fin (S128x128.size gathers_S4096x128_S128x128.axis')) :
    (SparseCore.rows ((((Memref.whole cc1_scratch0 : Memref sig .scVector .vmem S18x128 .i32).slice
        (Rect.unit (s := S18x128) ![c, 0] S1x128.size inb) (fun _ => rfl)).squeeze S128 squeezes_S1x128_S128).view.read (Elt F) fI) rfl hin k).val
      = (fI (ix2 (⟨c % 18, Nat.mod_lt _ (by decide)⟩ : Fin 18) k)).toNat := by
  show ((((Memref.whole cc1_scratch0 : Memref sig .scVector .vmem S18x128 .i32).slice
        (Rect.unit (s := S18x128) ![c, 0] S1x128.size inb) (fun _ => rfl)).squeeze S128 squeezes_S1x128_S128).view.read (Elt F) fI (S128.rowMajor.symm (k.cast _))).toNat = _
  rw [list_read (F := F) fI c hc18 inb]
  have hk : (S128.rowMajor.symm (k.cast
      (rfl : S128.numel = S128x128.size gathers_S4096x128_S128x128.axis').symm)) 0 = k :=
    Fin.ext (rowMajor_symm_one rfl k)
  exact congrArg (fun t : Fin 128 => (fI (ix2 (⟨c % 18, Nat.mod_lt _ (by decide)⟩ : Fin 18) t)).toNat) hk

/-- One indirect gather's value: row `j₀` of the row buffer is the projected array's row named by word
    `(c, j₀)` of the index scratch. -/
theorem gath_eq (p : S4096x128.Idx → Elt F .f32) (fI : S18x128.Idx → BitVec 32) (off : Fin 2 → ℕ)
    (inb : ∀ a, off a + S1x128.size a ≤ S18x128.size a) (c : ℕ) (hc : off = ![c, 0]) (hc18 : c < 18)
    (hin : ∀ x, ((((Memref.whole cc1_scratch0 : Memref sig .scVector .vmem S18x128 .i32).slice
        (Rect.unit (s := S18x128) off S1x128.size inb) (fun _ => rfl)).squeeze S128 squeezes_S1x128_S128).view.read (Elt F) fI x).toNat
          < S4096x128.size gathers_S4096x128_S128x128.axis) :
    SparseCore.gatherPayload gathers_S4096x128_S128x128
        (((Memref.whole main_v22_scv : Memref sig .scVector .hbm S4096x128 .f32).slice
          (Rect.unit (s := S4096x128) ![0, 0] S4096x128.size inb_S4096x128_S4096x128_0_0) (fun _ => rfl)).view.read (Elt F) p)
        (SparseCore.rows ((((Memref.whole cc1_scratch0 : Memref sig .scVector .vmem S18x128 .i32).slice
        (Rect.unit (s := S18x128) off S1x128.size inb) (fun _ => rfl)).squeeze S128 squeezes_S1x128_S128).view.read (Elt F) fI) rfl hin)
      = fun j : S128x128.Idx => p (ix2 (⟨(fI (ix2 (⟨c % 18, Nat.mod_lt _ (by decide)⟩ : Fin 18) (j 0))).toNat % 4096,
          Nat.mod_lt _ (by decide)⟩ : Fin 4096) (j 1)) := by
  subst hc
  funext j
  have hrow := rows_list (F := F) fI c hc18 inb hin (j gathers_S4096x128_S128x128.axis')
  have hlt0 := hin (ix1 (j 0))
  rw [list_read (F := F) fI c hc18 inb] at hlt0
  have hlt : (fI (ix2 (⟨c % 18, Nat.mod_lt _ (by decide)⟩ : Fin 18) (j 0))).toNat < 4096 := hlt0
  unfold SparseCore.gatherPayload
  rw [View.read_apply, cast_eq]
  congr 1
  funext (b : Fin 2)
  apply Fin.ext
  show ((Rect.unit (s := S4096x128) ![0, 0] S4096x128.size inb_S4096x128_S4096x128_0_0).emb
      (gathers_S4096x128_S128x128.idx _ j) b : Nat) = _
  rw [Rect.emb_apply, Rect.off_unit, Rect.stride_unit]
  match b with
  | ⟨0, _⟩ =>
    show 0 + 1 * (gathers_S4096x128_S128x128.idx _ j gathers_S4096x128_S128x128.axis).val
      = (fI (ix2 (⟨c % 18, Nat.mod_lt _ (by decide)⟩ : Fin 18) (j 0))).toNat % 4096
    rw [Shape.Gathers.idx_axis, Nat.mod_eq_of_lt hlt, Nat.zero_add, Nat.one_mul]
    exact hrow
  | ⟨1, _⟩ =>
    show 0 + 1 * (gathers_S4096x128_S128x128.idx _ j ⟨1, by decide⟩).val = (j 1).val
    rw [Shape.Gathers.idx_of_ne gathers_S4096x128_S128x128 _ j ⟨1, by decide⟩ (by decide)]
    show 0 + 1 * (j 1).val = (j 1).val
    omega

end Cert.Kernel.ScTileVal
-- ==== Proof.ScTileBits.lean ====
/-
  One vector subcore's task of the gather kernel `cc1_gk`, at a symbolic place, generic in the float instance.
  The task copies its [18,128] slab of row numbers into its index scratch, adds the batch offset to every word,
  and then streams eighteen chunks of 128 rows of the projected array through two row buffers, one gather
  outstanding per semaphore, each chunk copied out to the task's rows of the result once it has landed.
  The statement carries the value: after the task its 2304 rows of the result hold, row by row, the projected
  array's row named by the slab's word plus the batch offset.
-/
import proofs.«215572_g25211458027672_cont_9to1_2008_46_alg».proof.Proof.SkeletonKernel
import proofs.«215572_g25211458027672_cont_9to1_2008_46_alg».proof.Proof.KSetupBits
import proofs.«215572_g25211458027672_cont_9to1_2008_46_alg».proof.Proof.ScTileValBits
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import Idealize.ShloMosaic.Lib.ValueIdx
import Idealize.ShloMosaic.Lib.Writes

noncomputable section

namespace Cert.Kernel.ScTile

open Cert.Kernel Cert.Kernel.Gen Cert.Kernel.GenP Cert.Kernel.KS

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable [FloatOps F]

/-! ## The arrays and the scratch, as a vector subcore names them -/

local notation "pV" => (Memref.whole Cert.Kernel.main_v22_scv : Memref Cert.Kernel.sig Kind.scVector Space.hbm Cert.Kernel.S4096x128 EltTy.f32)
local notation "iV" => (Memref.whole Cert.Kernel.main_v24_scv : Memref Cert.Kernel.sig Kind.scVector Space.hbm Cert.Kernel.S32x18x128 EltTy.i32)
local notation "oV" => (Memref.whole Cert.Kernel.main_v25_scv : Memref Cert.Kernel.sig Kind.scVector Space.hbm Cert.Kernel.S73728x128 EltTy.f32)
local notation "sV" => (Memref.whole Cert.Kernel.cc1_scratch0 : Memref Cert.Kernel.sig Kind.scVector Space.vmem Cert.Kernel.S18x128 EltTy.i32)
local notation "aV" => (Memref.whole Cert.Kernel.cc1_scratch1 : Memref Cert.Kernel.sig Kind.scVector Space.vmem Cert.Kernel.S128x128 EltTy.f32)
local notation "bV" => (Memref.whole Cert.Kernel.cc1_scratch2 : Memref Cert.Kernel.sig Kind.scVector Space.vmem Cert.Kernel.S128x128 EltTy.f32)

theorem idiv : 32 ∣ S32x18x128.size 0 := ⟨1, rfl⟩
theorem odiv : 32 ∣ S73728x128.size 0 := ⟨2304, rfl⟩
/-- Slab `w` of the index array and rows `[2304 w, 2304 w + 2304)` of the result. -/
abbrev irow (w : Fin 32) : Rect S32x18x128 := Rect.part (s := S32x18x128) (a₀ := 0) idiv w
abbrev orow (w : Fin 32) : Rect S73728x128 := Rect.part (s := S73728x128) (a₀ := 0) odiv w
abbrev iSet (w : Fin 32) : Finset S32x18x128.Idx := ((iV).view.slice (irow w)).set
abbrev oSet (w : Fin 32) : Finset S73728x128.Idx := ((oV).view.slice (orow w)).set

/-! ## The value -/

/-- The first batch of the call (the sibling call's is 2). -/
def k1_baseb : ℕ := 0

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The task's number: `2 s + c`. -/
def wid (L : grid1.Coords) : Fin 32 := ⟨2 * (L 1).val + (L 0).val, by
  have h0 : (L 0).val < 2 := (L 0).isLt; have h1 : (L 1).val < 16 := (L 1).isLt; omega⟩

/-- The task's thread. -/
abbrev thr (d : Dev nD) (L : grid1.Coords) : Thread nD τ := V d (cV L) (jV L)

theorem mem_own (a : DmaSem sig) (h : (SemLoc.dma a : SemLoc sig).isScoped .scVector = true) :
    ((thr d L, SemLoc.dma a) : GSem nD τ sig) ∈ ownCells (thr d L) := (mem_ownCells (g := (thr d L, SemLoc.dma a))).mpr ⟨rfl, h⟩
theorem gsem_ne {a b : DmaSem sig} (h : a ≠ b) : ((thr d L, SemLoc.dma a) : GSem nD τ sig) ≠ (thr d L, SemLoc.dma b) :=
  fun e => h (by injection e with _ e2; injection e2)

theorem ownSems0_V :
    (ownSems0 (thr d L) : sProp 𝕄)
      = iprop(semVal (thr d L, SemLoc.dma cc1_scratch3.sem) 0 ∗ semVal (thr d L, SemLoc.dma cc1_scratch4.sem) 0
          ∗ semVal (thr d L, SemLoc.dma cc1_scoped0.sem) 0 ∗ semVal (thr d L, SemLoc.dma cc1_scoped1.sem) 0 ∗ semVal (thr d L, SemLoc.dma cc1_scoped2.sem) 0
          ∗ bigSep (((((ownCells (thr d L)).erase (thr d L, SemLoc.dma cc1_scratch3.sem)).erase (thr d L, SemLoc.dma cc1_scratch4.sem)).erase
              (thr d L, SemLoc.dma cc1_scoped0.sem)).erase (thr d L, SemLoc.dma cc1_scoped1.sem) |>.erase (thr d L, SemLoc.dma cc1_scoped2.sem)) fun g => semVal g 0) := by
  unfold SparseCore.Cfg.ownSems0
  have m3 := mem_own d L cc1_scratch3.sem (by decide)
  have m4 := mem_own d L cc1_scratch4.sem (by decide)
  have m5 := mem_own d L cc1_scoped0.sem (by decide)
  have m6 := mem_own d L cc1_scoped1.sem (by decide)
  have m7 := mem_own d L cc1_scoped2.sem (by decide)
  have n34 := gsem_ne d L (show cc1_scratch3.sem ≠ cc1_scratch4.sem by decide)
  have n35 := gsem_ne d L (show cc1_scratch3.sem ≠ cc1_scoped0.sem by decide)
  have n36 := gsem_ne d L (show cc1_scratch3.sem ≠ cc1_scoped1.sem by decide)
  have n37 := gsem_ne d L (show cc1_scratch3.sem ≠ cc1_scoped2.sem by decide)
  have n45 := gsem_ne d L (show cc1_scratch4.sem ≠ cc1_scoped0.sem by decide)
  have n46 := gsem_ne d L (show cc1_scratch4.sem ≠ cc1_scoped1.sem by decide)
  have n47 := gsem_ne d L (show cc1_scratch4.sem ≠ cc1_scoped2.sem by decide)
  have n56 := gsem_ne d L (show cc1_scoped0.sem ≠ cc1_scoped1.sem by decide)
  have n57 := gsem_ne d L (show cc1_scoped0.sem ≠ cc1_scoped2.sem by decide)
  have n67 := gsem_ne d L (show cc1_scoped1.sem ≠ cc1_scoped2.sem by decide)
  rw [SparseCore.bigSep_erase' m3,
    SparseCore.bigSep_erase' (Finset.mem_erase.mpr ⟨n34.symm, m4⟩),
    SparseCore.bigSep_erase' (Finset.mem_erase.mpr ⟨n45.symm, Finset.mem_erase.mpr ⟨n35.symm, m5⟩⟩),
    SparseCore.bigSep_erase' (Finset.mem_erase.mpr ⟨n56.symm, Finset.mem_erase.mpr ⟨n46.symm, Finset.mem_erase.mpr ⟨n36.symm, m6⟩⟩⟩),
    SparseCore.bigSep_erase' (Finset.mem_erase.mpr ⟨n67.symm, Finset.mem_erase.mpr ⟨n57.symm, Finset.mem_erase.mpr ⟨n47.symm, Finset.mem_erase.mpr ⟨n37.symm, m7⟩⟩⟩⟩)]

theorem ownBufs_V :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc1_scratch0) rfl
  have m1 := SparseCore.Cfg.mem_ownRefs_of_owner (p := Proc.scVector (cV L) (jV L)) (b := (Proc.scVector (cV L) (jV L)).devRef cc1_scratch1) rfl
  have m2 := SparseCore.Cfg.mem_ownRefs_of_owner (p := Proc.scVector (cV L) (jV L)) (b := (Proc.scVector (cV L) (jV L)).devRef cc1_scratch2) rfl
  have n10 : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  have n20 : (Proc.scVector (cV L) (jV L)).devRef cc1_scratch2 ≠ (Proc.scVector (cV L) (jV L)).devRef cc1_scratch0 :=
    fun e => absurd (Proc.devRef_injective _ e) (show (cc1_scratch2 : Ref sig .scVector) ≠ cc1_scratch0 by decide)
  have n21 : (Proc.scVector (cV L) (jV L)).devRef cc1_scratch2 ≠ (Proc.scVector (cV L) (jV L)).devRef cc1_scratch1 :=
    fun e => absurd (Proc.devRef_injective _ e) (show (cc1_scratch2 : Ref sig .scVector) ≠ cc1_scratch1 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-- Slab `wid L` of the index array, squeezed, as the task addresses it. -/
abbrev irowK (L : grid1.Coords) : Rect S32x18x128 := Rect.unit (s := S32x18x128) (k1_off1 L) S1x18x128.size (k1_off1_inb L)
abbrev iSlabK (L : grid1.Coords) : Memref sig .scVector .hbm S18x128 .i32 := ((iV).slice (irowK L) (fun _ => rfl)).squeeze S18x128 squeezes_S1x18x128_S18x128
/-- All of the projected array, as the task addresses it. -/
abbrev pAllK : Memref sig .scVector .hbm S4096x128 .f32 := (pV).slice (Rect.unit (s := S4096x128) ![0, 0] S4096x128.size inb_S4096x128_S4096x128_0_0) (fun _ => rfl)

theorem irowK_eq : irowK L = irow (wid L) := by
  unfold irowK irow Rect.part Rect.block
  congr 1 <;> funext a
  · rw [k1_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_iSlabK : (iSlabK L).view.set = iSet (wid L) := by
  show (((iV).view.slice (irowK L)).reshape S18x128 squeezes_S1x18x128_S18x128.numel_eq).set = ((iV).view.slice (irow (wid L))).set
  rw [View.set_reshape]
  exact irowK_eq L ▸ rfl

theorem pts_iSlabK (f : Buf (Elt F) (i0Loc d)) :
    ((iSlabK L).view.loc (thr d L) ↦[(iSlabK L).view.set]{fullShare} f : sProp 𝕄) = i0Loc d ↦[iSet (wid L)]{fullShare} f := by
  rw [set_iSlabK]
theorem pts_pV (q : PosShare TreeShare) (f : Buf (Elt F) (pLoc d)) :
    ((pV).view.loc (thr d L) ↦{q} f : sProp 𝕄) = pLoc d ↦{q} f := rfl
theorem pts_sV (f : Buf (Elt F) ((thr d L).loc cc1_scratch0)) :
    ((sV).view.loc (thr d L) ↦{fullShare} f : sProp 𝕄) = (thr d L).loc cc1_scratch0 ↦{fullShare} f := rfl
theorem pts_aV (f : Buf (Elt F) ((thr d L).loc cc1_scratch1)) :
    ((aV).view.loc (thr d L) ↦{fullShare} f : sProp 𝕄) = (thr d L).loc cc1_scratch1 ↦{fullShare} f := rfl
theorem pts_bV (f : Buf (Elt F) ((thr d L).loc cc1_scratch2)) :
    ((bV).view.loc (thr d L) ↦{fullShare} f : sProp 𝕄) = (thr d L).loc cc1_scratch2 ↦{fullShare} f := rfl

/-! ## The offset's addition: the scratch after `n` sixteen-lane pieces -/

/-- Words `128 j₀ + j₁ < 16 n` of `g` have had `bo` added; the others are `g`'s. -/
def addN (g : S18x128.Idx → BitVec 32) (bo : BitVec 32) (n : ℕ) : S18x128.Idx → BitVec 32 :=
  fun j => if 128 * (j 0).val + (j 1).val < 16 * n then g j + bo else g j

theorem addN_zero (g : S18x128.Idx → BitVec 32) (bo : BitVec 32) : addN g bo 0 = g := by
  funext j; unfold addN; rw [if_neg (by omega)]

/-- The inner loop's invariant at row `t1`, piece `k`; the outer's at row `k`. -/
def invIn (g : S18x128.Idx → BitVec 32) (bo : BitVec 32) (t1 : ℕ) (k : ℕ) (_ : BitVec 32) : sProp 𝕄 :=
  (sV).view.loc (thr d L) ↦{fullShare} (addN g bo (8 * t1 + k) : Buf (Elt F) ((sV).view.loc (thr d L)))
def invOut (g : S18x128.Idx → BitVec 32) (bo : BitVec 32) (k : ℕ) (_ : BitVec 32) : sProp 𝕄 :=
  (sV).view.loc (thr d L) ↦{fullShare} (addN g bo (8 * k) : Buf (Elt F) ((sV).view.loc (thr d L)))

theorem pay_apply (v : S1x16.Idx → BitVec 32) (bo : BitVec 32) (x : S1x16.Idx) :
    shapeCast S1x16 (addi (shapeCast S16 v shapeCasts_S1x16_S16) (broadcast S16 bo)) shapeCasts_S16_S1x16 x = v x + bo := by
  unfold shapeCast addi broadcast
  show IntOp.addi (v ((Shape.reshapeEquiv shapeCasts_S1x16_S16) ((Shape.reshapeEquiv shapeCasts_S16_S1x16) x))) bo = v x + bo
  rw [Shape.reshapeEquiv_reshapeEquiv, Shape.reshapeEquiv_self]
  rfl

/-- One trip of the inner loop: piece `8 t1 + t2` gets the offset. -/
theorem add_step (g : S18x128.Idx → BitVec 32) (bo : BitVec 32) (t1 : Fin k1_t1_loop.trips) (t2 : Fin k1_t2_loop.trips) :
    ((sV).view.writes (Elt F) (addN g bo (8 * t1.val + t2.val))
      [⟨Rect.unit (s := S18x128) (k1_off2 t1 t2) S1x16.size (k1_off2_inb t1 t2),
        shapeCast S1x16 (addi (shapeCast S16 ((sV).view.readAt (Elt F) (Rect.unit (s := S18x128) (k1_off2 t1 t2) S1x16.size (k1_off2_inb t1 t2)).toLoadRect
          (addN g bo (8 * t1.val + t2.val))) shapeCasts_S1x16_S16) (broadcast S16 bo)) shapeCasts_S16_S1x16⟩])
      = addN g bo (8 * t1.val + (t2.val + 1)) := by
  have h1 : t1.val < 18 := Nat.lt_of_lt_of_le t1.isLt k1_t1_abs.2.1
  have h2 : t2.val < 8 := Nat.lt_of_lt_of_le t2.isLt k1_t2_abs.2.1
  funext i
  rw [View.writes_singleton]
  have hi1 : (i 1).val < 128 := (i 1).isLt
  by_cases hi : i ∈ (Rect.unit (s := S18x128) (k1_off2 t1 t2) S1x16.size (k1_off2_inb t1 t2)).set
  · obtain ⟨x, hx⟩ := LoadRect.exists_idx_of_mem _ hi
    have hm := Rect.mem_set_unit.mp hi
    have e : ((sV).view.slice (Rect.unit (s := S18x128) (k1_off2 t1 t2) S1x16.size (k1_off2_inb t1 t2))).emb x = i := hx
    have e0 : k1_off2 t1 t2 0 = t1.val := by rw [k1_off2_eq]; rfl
    have e1 : k1_off2 t1 t2 1 = 16 * t2.val := by rw [k1_off2_eq]; rfl
    have ha := hm 0
    have hb := hm 1
    rw [e0] at ha; rw [e1] at hb
    change t1.val ≤ (i 0).val ∧ (i 0).val < t1.val + 1 at ha
    change 16 * t2.val ≤ (i 1).val ∧ (i 1).val < 16 * t2.val + 16 at hb
    conv_lhs => rw [← e]
    rw [View.write_emb_of_mem _ _ (Finset.mem_univ _), pay_apply, cast_eq, View.readAt_apply, hx]
    show addN g bo (8 * t1.val + t2.val) i + bo = addN g bo (8 * t1.val + (t2.val + 1)) i
    unfold addN
    rw [if_neg (by omega), if_pos (by omega)]
  · rw [View.write_of_not_mem _ _ _ (by rwa [View.setOn_univ, View.set_slice_whole])]
    have hm := fun h => hi (Rect.mem_set_unit.mpr h)
    have key : ¬ (16 * (8 * t1.val + t2.val) ≤ 128 * (i 0).val + (i 1).val ∧ 128 * (i 0).val + (i 1).val < 16 * (8 * t1.val + t2.val) + 16) :=
      fun ⟨ha, hb⟩ => hm (by
        intro a; rw [k1_off2_eq]
        match a with
        | ⟨0, _⟩ => exact (show t1.val ≤ (i 0).val ∧ (i 0).val < t1.val + 1 by omega)
        | ⟨1, _⟩ => exact (show 16 * t2.val ≤ (i 1).val ∧ (i 1).val < 16 * t2.val + 16 by omega))
    show addN g bo (8 * t1.val + t2.val) i = addN g bo (8 * t1.val + (t2.val + 1)) i
    unfold addN
    by_cases c1 : 128 * (i 0).val + (i 1).val < 16 * (8 * t1.val + t2.val)
    · rw [if_pos c1, if_pos (by omega)]
    · rw [if_neg c1, if_neg (by omega)]

theorem trips_t1 : Scf.trips k1_t1_loop.lb k1_t1_loop.ub k1_t1_loop.st = 18 := by decide
theorem trips_t2 : Scf.trips k1_t2_loop.lb k1_t2_loop.ub k1_t2_loop.st = 8 := by decide
theorem trips_t3 : Scf.trips k1_t3_loop.lb k1_t3_loop.ub k1_t3_loop.st = 18 := by decide

/-! ## The chunk loop: rows of the scratch, the gathered rows, the result so far -/

theorem cond1_iff : ∀ k : Fin k1_t3_loop.trips, k1_cond1 k = 1#1 ↔ (k.val % 2 = 0 ∧ k.val + 1 < 18) := by decide +kernel
theorem cond2_iff : ∀ k : Fin k1_t3_loop.trips, k1_cond2 k = 1#1 ↔ (k.val % 2 = 1 ∧ k.val + 1 < 18) := by decide +kernel
theorem cond3_iff : ∀ k : Fin k1_t3_loop.trips, k1_cond3 k = 1#1 ↔ k.val % 2 = 0 := by decide +kernel
theorem cond4_iff : ∀ k : Fin k1_t3_loop.trips, k1_cond4 k = 1#1 ↔ k.val % 2 = 1 := by decide +kernel

/-- Row `c` of the index scratch (empty for `c ≥ 18`). -/
def rowSet (c : ℕ) : Finset S18x128.Idx := Finset.univ.filter fun j => (j 0).val = c

/-- A row of the scratch as an offset list, as the task addresses it. -/
abbrev offsK (off : Fin 2 → ℕ) (inb : ∀ a, off a + S1x128.size a ≤ S18x128.size a) : Memref sig .scVector .vmem S128 .i32 :=
  ((sV).slice (Rect.unit (s := S18x128) off S1x128.size inb) (fun _ => rfl)).squeeze S128 squeezes_S1x128_S128

theorem set_offsK (off : Fin 2 → ℕ) (inb : ∀ a, off a + S1x128.size a ≤ S18x128.size a) (c : ℕ) (h : off = ![c, 0]) :
    (offsK off inb).view.set = rowSet c := by
  show (((sV).view.slice (Rect.unit (s := S18x128) off S1x128.size inb)).reshape S128 squeezes_S1x128_S128.numel_eq).set = _
  rw [View.set_reshape, View.set_slice_whole]
  subst h
  ext j
  rw [Rect.mem_set_unit]
  unfold rowSet
  rw [Finset.mem_filter]
  constructor
  · intro hj
    have h0 := hj 0
    change c ≤ (j 0).val ∧ (j 0).val < c + 1 at h0
    exact ⟨Finset.mem_univ _, by omega⟩
  · rintro ⟨-, hj⟩ a
    match a with
    | ⟨0, _⟩ => exact (show c ≤ (j 0).val ∧ (j 0).val < c + 1 by omega)
    | ⟨1, _⟩ => exact (show 0 ≤ (j 1).val ∧ (j 1).val < 0 + 128 from ⟨Nat.zero_le _, by have h : (j 1).val < 128 := (j 1).isLt; omega⟩)

/-- The rows chunk `c` gathers: row `l` is the projected array's row named by word `(c, l)` of the scratch. -/
def gath (p : S4096x128.Idx → Elt F .f32) (fI : S18x128.Idx → BitVec 32) (c : ℕ) : S128x128.Idx → Elt F .f32 :=
  fun j => p (ix2 (⟨(fI (ix2 (⟨c % 18, Nat.mod_lt _ (by decide)⟩ : Fin 18) (j 0))).toNat % 4096, Nat.mod_lt _ (by decide)⟩ : Fin 4096) (j 1))

/-- The result after the chunks below `c` are written: rows below `base + 128 c` gathered, the others as they were. -/
def outN (p : S4096x128.Idx → Elt F .f32) (fI : S18x128.Idx → BitVec 32) (fo : S73728x128.Idx → Elt F .f32) (base c : ℕ) :
    S73728x128.Idx → Elt F .f32 :=
  fun j => if base ≤ (j 0).val ∧ (j 0).val < base + 128 * c then
      p (ix2 (⟨(fI (ix2 (⟨(j 0).val / 128 % 18, Nat.mod_lt _ (by decide)⟩ : Fin 18) (⟨(j 0).val % 128, Nat.mod_lt _ (by decide)⟩ : Fin 128))).toNat % 4096,
        Nat.mod_lt _ (by decide)⟩ : Fin 4096) (j 1))
    else fo j

/-- The two row buffers held by their elements. -/
abbrev aPts (f : S128x128.Idx → Elt F .f32) : sProp 𝕄 := (aV).view.loc (thr d L) ↦[(aV).view.set]{fullShare} (f : Buf (Elt F) ((aV).view.loc (thr d L)))
abbrev bPts (f : S128x128.Idx → Elt F .f32) : sProp 𝕄 := (bV).view.loc (thr d L) ↦[(bV).view.set]{fullShare} (f : Buf (Elt F) ((bV).view.loc (thr d L)))

/-- What a landed gather of chunk `c` delivers: the row buffer at the gathered rows, the share of the projected array,
    row `c` of the scratch. -/
def slotD (X : (S128x128.Idx → Elt F .f32) → sProp 𝕄) (qh : PosShare TreeShare) (p : S4096x128.Idx → Elt F .f32)
    (fI : S18x128.Idx → BitVec 32) (c : ℕ) : sProp 𝕄 :=
  iprop(X (gath p fI c)
    ∗ ((pAllK).view.loc (thr d L) ↦[(pAllK).view.set]{qh} (p : Buf (Elt F) ((pAllK).view.loc (thr d L))))
    ∗ ((sV).view.loc (thr d L) ↦[rowSet c]{fullShare} (fI : Buf (Elt F) ((sV).view.loc (thr d L)))))

/-- A row buffer with the gather of chunk `c` outstanding on its semaphore. -/
def slotP (X : (S128x128.Idx → Elt F .f32) → sProp 𝕄) (sem : DmaSem sig) (N : ℕ) (qh : PosShare TreeShare) (p : S4096x128.Idx → Elt F .f32)
    (fI : S18x128.Idx → BitVec 32) (c : ℕ) : sProp 𝕄 :=
  Transfers.Flight countersEmb (thr d L) (.dma sem) (default : HIx 2) N (slotD (F := F) d L X qh p fI c)

/-- A free row buffer: the buffer at some contents, the share of the projected array, the semaphore at zero. -/
def slotF (X : (S128x128.Idx → Elt F .f32) → sProp 𝕄) (sem : DmaSem sig) (qh : PosShare TreeShare) (p : S4096x128.Idx → Elt F .f32) : sProp 𝕄 :=
  iprop((∃ f, X f)
    ∗ ((pAllK).view.loc (thr d L) ↦[(pAllK).view.set]{qh} (p : Buf (Elt F) ((pAllK).view.loc (thr d L))))
    ∗ semVal (thr d L, SemLoc.dma sem) 0)

theorem slotP_eq (X : (S128x128.Idx → Elt F .f32) → sProp 𝕄) (sem : DmaSem sig) (N : ℕ) (qh : PosShare TreeShare) (p : S4096x128.Idx → Elt F .f32)
    (fI : S18x128.Idx → BitVec 32) (c : ℕ) :
    slotP (F := F) d L X sem N qh p fI c
      = Transfers.Flight countersEmb (thr d L) (.dma sem) (default : HIx 2) N (slotD (F := F) d L X qh p fI c) := rfl

theorem slotD_eq (X : (S128x128.Idx → Elt F .f32) → sProp 𝕄) (qh : PosShare TreeShare) (p : S4096x128.Idx → Elt F .f32)
    (fI : S18x128.Idx → BitVec 32) (c : ℕ) :
    slotD (F := F) d L X qh p fI c
      = iprop(X (gath p fI c)
          ∗ ((pAllK).view.loc (thr d L) ↦[(pAllK).view.set]{qh} (p : Buf (Elt F) ((pAllK).view.loc (thr d L))))
          ∗ ((sV).view.loc (thr d L) ↦[rowSet c]{fullShare} (fI : Buf (Elt F) ((sV).view.loc (thr d L))))) := rfl

/-- The chunk loop's invariant before trip `c`: the gather of chunk `c` outstanding on the buffer of `c`'s parity
    (none at `c = 18`), the other buffer free; every row of the scratch but row `c`; the result with the chunks
    below `c` written; the copy-out semaphores at zero; the task's `owes`. -/
def inv3 (q : PosShare TreeShare) (p : S4096x128.Idx → Elt F .f32) (fI : S18x128.Idx → BitVec 32) (fo : S73728x128.Idx → Elt F .f32)
    (O : CellTallies nD τ sig (HIx 2)) (W0 : Waits sig (HIx 2)) (c : ℕ) (_ : BitVec 32) : sProp 𝕄 :=
  iprop(Transfers.MayWaits (thr d L) (default : HIx 2) O
    ∗ (if c % 2 = 0 then
        iprop((if c < 18 then slotP (F := F) d L (aPts d L) cc1_scratch3.sem (aV).view.dmaCredit q.left p fI c else slotF (F := F) d L (aPts d L) cc1_scratch3.sem q.left p)
          ∗ slotF (F := F) d L (bPts d L) cc1_scratch4.sem q.right p)
      else
        iprop(slotF (F := F) d L (aPts d L) cc1_scratch3.sem q.left p
          ∗ (if c < 18 then slotP (F := F) d L (bPts d L) cc1_scratch4.sem (bV).view.dmaCredit q.right p fI c else slotF (F := F) d L (bPts d L) cc1_scratch4.sem q.right p)))
    ∗ ((sV).view.loc (thr d L) ↦[Finset.univ \ rowSet c]{fullShare} (fI : Buf (Elt F) ((sV).view.loc (thr d L))))
    ∗ (g0Loc d ↦[oSet (wid L)]{fullShare} (outN p fI fo ((wid L).val * 2304) c : Buf (Elt F) (g0Loc d)))
    ∗ semVal (thr d L, SemLoc.dma cc1_scoped1.sem) 0 ∗ semVal (thr d L, SemLoc.dma cc1_scoped2.sem) 0
    ∗ ∃ W', ⌜∀ x ∈ W', x ∈ W0 ∨ x.2 = none⌝ ∗ owes (thr d L) O W')

theorem hin_of (fI : S18x128.Idx → BitVec 32) (hfI : ∀ j, (fI j).toNat < 4096) (off : Fin 2 → ℕ) (inb : ∀ a, off a + S1x128.size a ≤ S18x128.size a) :
    ∀ x, ((offsK off inb).view.read (Elt F) fI x).toNat < S4096x128.size gathers_S4096x128_S128x128.axis := fun x => by
  rw [View.read_apply, cast_eq]; exact hfI _

theorem outN_zero (p : S4096x128.Idx → Elt F .f32) (fI : S18x128.Idx → BitVec 32) (fo : S73728x128.Idx → Elt F .f32) (base : ℕ) :
    outN p fI fo base 0 = fo := by
  funext j; unfold outN; rw [if_neg (by omega)]

/-- The value of one gather. -/
theorem gath_eq (p : S4096x128.Idx → Elt F .f32) (fI : S18x128.Idx → BitVec 32) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    SparseCore.gatherPayload gathers_S4096x128_S128x128 ((pAllK).view.read (Elt F) p) (SparseCore.rows ((offsK off inb).view.read (Elt F) fI) rfl hin)
      = gath p fI c :=
  Cert.Kernel.ScTileVal.gath_eq p fI off inb c hc hc18 hin

theorem deliver_a (qh : PosShare TreeShare) (p : S4096x128.Idx → Elt F .f32) (fI : S18x128.Idx → BitVec 32)
    (fd : Buf (Elt F) ((aV).view.loc (thr d L))) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    iprop(((aV).view.loc (thr d L) ↦[(aV).view.set]{fullShare}
          ((aV).view.write (Elt F) fd (SparseCore.gatherPayload gathers_S4096x128_S128x128 ((pAllK).view.read (Elt F) p)
            (SparseCore.rows ((offsK off inb).view.read (Elt F) fI) rfl hin)) Finset.univ))
        ∗ ((pAllK).view.loc (thr d L) ↦[(pAllK).view.set]{qh} (p : Buf (Elt F) ((pAllK).view.loc (thr d L))))
        ∗ ((offsK off inb).view.loc (thr d L) ↦[(offsK off inb).view.set]{fullShare} (fI : Buf (Elt F) ((offsK off inb).view.loc (thr d L)))))
      ⊢ (slotD (F := F) d L (aPts d L) qh p fI c : sProp 𝕄) := by
  unfold slotD
  rw [set_offsK off inb c hc, gath_eq (F := F) p fI off inb c hc hc18 hin, View.write_whole_univ]

theorem deliver_b (qh : PosShare TreeShare) (p : S4096x128.Idx → Elt F .f32) (fI : S18x128.Idx → BitVec 32)
    (fd : Buf (Elt F) ((bV).view.loc (thr d L))) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    iprop(((bV).view.loc (thr d L) ↦[(bV).view.set]{fullShare}
          ((bV).view.write (Elt F) fd (SparseCore.gatherPayload gathers_S4096x128_S128x128 ((pAllK).view.read (Elt F) p)
            (SparseCore.rows ((offsK off inb).view.read (Elt F) fI) rfl hin)) Finset.univ))
        ∗ ((pAllK).view.loc (thr d L) ↦[(pAllK).view.set]{qh} (p : Buf (Elt F) ((pAllK).view.loc (thr d L))))
        ∗ ((offsK off inb).view.loc (thr d L) ↦[(offsK off inb).view.set]{fullShare} (fI : Buf (Elt F) ((offsK off inb).view.loc (thr d L)))))
      ⊢ (slotD (F := F) d L (bPts d L) qh p fI c : sProp 𝕄) := by
  unfold slotD
  rw [set_offsK off inb c hc, gath_eq (F := F) p fI off inb c hc hc18 hin, View.write_whole_univ]

/-! ## Rows of the scratch and chunks of the result, as sets -/

theorem rowSet_sub (a b : ℕ) (h : a ≠ b) : rowSet a ⊆ Finset.univ \ rowSet b := by
  intro j hj
  rw [Finset.mem_sdiff]
  refine ⟨Finset.mem_univ _, fun hb => ?_⟩
  unfold rowSet at hj hb
  rw [Finset.mem_filter] at hj hb
  exact h (hj.2.symm.trans hb.2)

theorem rows_swap (a b : ℕ) (h : a ≠ b) :
    ((Finset.univ : Finset S18x128.Idx) \ rowSet a) \ rowSet b ∪ rowSet a = Finset.univ \ rowSet b := by
  ext j
  simp only [Finset.mem_union, Finset.mem_sdiff, Finset.mem_univ, true_and]
  constructor
  · rintro (⟨_, hb⟩ | ha)
    · exact hb
    · intro hb
      unfold rowSet at ha hb
      rw [Finset.mem_filter] at ha hb
      exact h (ha.2.symm.trans hb.2)
  · intro hb
    by_cases ha : j ∈ rowSet a
    · exact Or.inr ha
    · exact Or.inl ⟨ha, hb⟩

theorem rows_swap_disj (a b : ℕ) : Disjoint (((Finset.univ : Finset S18x128.Idx) \ rowSet a) \ rowSet b) (rowSet a) := by
  rw [Finset.disjoint_left]
  intro j hj ha
  rw [Finset.mem_sdiff, Finset.mem_sdiff] at hj
  exact hj.1.2 ha

theorem rowSet_ge (c : ℕ) (h : 18 ≤ c) : rowSet c = ∅ := by
  unfold rowSet
  rw [Finset.filter_eq_empty_iff]
  intro j _ hj
  have h0 : (j 0).val < 18 := (j 0).isLt
  omega

/-- Rows `[r, r + 128)` of the result. -/
def chunkSet (r : ℕ) : Finset S73728x128.Idx := Finset.univ.filter fun j => r ≤ (j 0).val ∧ (j 0).val < r + 128

/-- A chunk of the result, as the task addresses it. -/
abbrev ochK (off : Fin 2 → ℕ) (inb : ∀ a, off a + S128x128.size a ≤ S73728x128.size a) : Memref sig .scVector .hbm S128x128 .f32 :=
  (oV).slice (Rect.unit (s := S73728x128) off S128x128.size inb) (fun _ => rfl)

theorem set_ochK (off : Fin 2 → ℕ) (inb : ∀ a, off a + S128x128.size a ≤ S73728x128.size a) (r : ℕ) (h : off = ![r, 0]) :
    (ochK off inb).view.set = chunkSet r := by
  show ((oV).view.slice (Rect.unit (s := S73728x128) off S128x128.size inb)).set = _
  rw [View.set_slice_whole]
  subst h
  ext j
  rw [Rect.mem_set_unit]
  unfold chunkSet
  rw [Finset.mem_filter]
  constructor
  · intro hj
    have h0 := hj 0
    change r ≤ (j 0).val ∧ (j 0).val < r + 128 at h0
    exact ⟨Finset.mem_univ _, h0⟩
  · rintro ⟨-, hj⟩ a
    match a with
    | ⟨0, _⟩ => exact hj
    | ⟨1, _⟩ => exact (show 0 ≤ (j 1).val ∧ (j 1).val < 0 + 128 from ⟨Nat.zero_le _, by have h : (j 1).val < 128 := (j 1).isLt; omega⟩)

/-- The task's rows of the result as a unit-stride rectangle. -/
abbrev orowU (w : Fin 32) : Rect S73728x128 := Rect.unit (s := S73728x128) ![w.val * 2304, 0] ![2304, 128] (fun a => by
  match a with
  | ⟨0, _⟩ => exact (show w.val * 2304 + 2304 ≤ 73728 by have := w.isLt; omega)
  | ⟨1, _⟩ => exact (show 0 + 128 ≤ 128 by omega))

theorem orow_eq (w : Fin 32) : orow w = orowU w := by
  unfold orow orowU Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem mem_oSet (w : Fin 32) (j : S73728x128.Idx) : j ∈ oSet w ↔ w.val * 2304 ≤ (j 0).val ∧ (j 0).val < w.val * 2304 + 2304 := by
  show j ∈ ((oV).view.slice (orow w)).set ↔ _
  rw [View.set_slice_whole, orow_eq, Rect.mem_set_unit]
  constructor
  · intro h; exact h 0
  · intro h a
    match a with
    | ⟨0, _⟩ => exact h
    | ⟨1, _⟩ => exact (show 0 ≤ (j 1).val ∧ (j 1).val < 0 + 128 from ⟨Nat.zero_le _, by have h1 : (j 1).val < 128 := (j 1).isLt; omega⟩)

theorem chunk_sub (w : Fin 32) (k : ℕ) (hk : k < 18) : chunkSet (w.val * 2304 + 128 * k) ⊆ oSet w := by
  intro j hj
  unfold chunkSet at hj
  rw [Finset.mem_filter] at hj
  obtain ⟨-, h1, h2⟩ := hj
  rw [mem_oSet]
  constructor <;> omega

/-- Off chunk `k` the result is the same before and after the chunk's copy. -/
theorem out_miss (p : S4096x128.Idx → Elt F .f32) (fI : S18x128.Idx → BitVec 32) (fo : S73728x128.Idx → Elt F .f32) (B k : ℕ) :
    ∀ j, j ∉ chunkSet (B + 128 * k) → outN p fI fo B k j = outN p fI fo B (k + 1) j := by
  intro j hj
  have hj' : ¬ (B + 128 * k ≤ (j 0).val ∧ (j 0).val < B + 128 * k + 128) := fun h => hj (by
    unfold chunkSet; rw [Finset.mem_filter]; exact ⟨Finset.mem_univ _, h⟩)
  unfold outN
  by_cases c1 : B ≤ (j 0).val ∧ (j 0).val < B + 128 * k
  · rw [if_pos c1, if_pos ⟨c1.1, by omega⟩]
  · rw [if_neg c1, if_neg (by omega)]

/-- On chunk `k` the copy writes the chunk's gathered rows: the result after the chunk. -/
theorem out_hit (p : S4096x128.Idx → Elt F .f32) (fI : S18x128.Idx → BitVec 32) (fo : S73728x128.Idx → Elt F .f32) (w k : ℕ) (hk : k < 18)
    (off : Fin 2 → ℕ) (inb : ∀ a, off a + S128x128.size a ≤ S73728x128.size a) (h : off = ![w * 2304 + 128 * k, 0])
    (f0 : Buf (Elt F) ((ochK off inb).view.loc (thr d L))) (pay : S128x128.Idx → Elt F .f32) (hpay : pay = gath p fI k) :
    ∀ j ∈ (ochK off inb).view.set, ((ochK off inb).view.writes (Elt F) f0 [⟨Rect.whole S128x128, pay⟩]) j = outN p fI fo (w * 2304) (k + 1) j := by
  subst h hpay
  intro j hj
  obtain ⟨x, -, rfl⟩ := Finset.mem_map.mp hj
  rw [View.writes_singleton]
  have e : ((ochK ![w * 2304 + 128 * k, 0] inb).view.slice (Rect.whole S128x128)).emb x = (ochK ![w * 2304 + 128 * k, 0] inb).view.emb x :=
    congrArg (ochK ![w * 2304 + 128 * k, 0] inb).view.emb (Rect.emb_whole_apply S128x128 x)
  conv_lhs => rw [← e]
  rw [View.write_emb_of_mem _ _ (Finset.mem_univ x), cast_eq]
  have e0 : (((ochK ![w * 2304 + 128 * k, 0] inb).view.emb x) 0).val = (w * 2304 + 128 * k) + 1 * (x 0).val := rfl
  have e1 : (((ochK ![w * 2304 + 128 * k, 0] inb).view.emb x) 1).val = 0 + 1 * (x 1).val := rfl
  have hx0 : (x 0).val < 128 := (x 0).isLt
  generalize ((ochK ![w * 2304 + 128 * k, 0] inb).view.emb x) = j at e0 e1 ⊢
  unfold outN gath
  rw [if_pos ⟨by omega, by omega⟩]
  have hix : (ix2 (⟨k % 18, Nat.mod_lt _ (by decide)⟩ : Fin 18) (x 0) : S18x128.Idx)
      = ix2 (⟨(j 0).val / 128 % 18, Nat.mod_lt _ (by decide)⟩ : Fin 18) (⟨(j 0).val % 128, Nat.mod_lt _ (by decide)⟩ : Fin 128) := by
    funext a
    match a with
    | ⟨0, _⟩ => exact Fin.ext (by show k % 18 = (j 0).val / 128 % 18; omega)
    | ⟨1, _⟩ => exact Fin.ext (by show (x 0).val = (j 0).val % 128; omega)
  have hcol : (x 1 : Fin 128) = j 1 := Fin.ext (by show (x 1).val = (j 1).val; omega)
  refine (congrArg (fun i : S18x128.Idx => p (ix2 (⟨(fI i).toNat % 4096, Nat.mod_lt _ (by decide)⟩ : Fin 4096) (x 1))) hix).trans ?_
  exact congrArg (fun c : Fin 128 => p (ix2 (⟨(fI (ix2 (⟨(j 0).val / 128 % 18, Nat.mod_lt _ (by decide)⟩ : Fin 18)
    (⟨(j 0).val % 128, Nat.mod_lt _ (by decide)⟩ : Fin 128))).toNat % 4096, Nat.mod_lt _ (by decide)⟩ : Fin 4096) c)) hcol

theorem sdiff_swap {ι : Type} [DecidableEq ι] (U A B : Finset ι) (hA : A ⊆ U) (hAB : Disjoint A B) : (U \ A) \ B ∪ A = U \ B := by
  ext j
  simp only [Finset.mem_union, Finset.mem_sdiff]
  constructor
  · rintro (⟨⟨hU, _⟩, hB⟩ | hA')
    · exact ⟨hU, hB⟩
    · exact ⟨hA hA', fun hB => Finset.disjoint_left.mp hAB hA' hB⟩
  · rintro ⟨hU, hB⟩
    by_cases hA' : j ∈ A
    · exact Or.inr hA'
    · exact Or.inl ⟨⟨hU, hA'⟩, hB⟩

theorem sdiff_swap_disj {ι : Type} [DecidableEq ι] (U A B : Finset ι) : Disjoint ((U \ A) \ B) A := by
  rw [Finset.disjoint_left]
  intro j hj ha
  rw [Finset.mem_sdiff, Finset.mem_sdiff] at hj
  exact hj.1.2 ha

theorem rowSet_disj (a b : ℕ) (h : a ≠ b) : Disjoint (rowSet a) (rowSet b) := by
  rw [Finset.disjoint_left]
  intro j ha hb
  unfold rowSet at ha hb
  rw [Finset.mem_filter] at ha hb
  exact h (ha.2.symm.trans hb.2)

/-- Row `a` back, row `b` still out: every row but `b`. -/
theorem rows_join (fI : S18x128.Idx → BitVec 32) (a b : ℕ) (h : a ≠ b) :
    iprop(((sV).view.loc (thr d L) ↦[(Finset.univ \ rowSet a) \ rowSet b]{fullShare} (fI : Buf (Elt F) ((sV).view.loc (thr d L))))
        ∗ ((sV).view.loc (thr d L) ↦[rowSet a]{fullShare} (fI : Buf (Elt F) ((sV).view.loc (thr d L)))))
      ⊢ ((sV).view.loc (thr d L) ↦[Finset.univ \ rowSet b]{fullShare} (fI : Buf (Elt F) ((sV).view.loc (thr d L))) : sProp 𝕄) := by
  have hsw := sdiff_swap (Finset.univ : Finset (Idx ((sV).view.loc (thr d L)))) (rowSet a) (rowSet b) (Finset.subset_univ _) (rowSet_disj a b h)
  rw [← hsw]
  exact (pointsTo_union (sdiff_swap_disj _ _ _)).2

/-- The last row back: the scratch whole. -/
theorem rows_last (fI : S18x128.Idx → BitVec 32) (a : ℕ) (h : 18 ≤ a + 1) :
    iprop(((sV).view.loc (thr d L) ↦[rowSet a]{fullShare} (fI : Buf (Elt F) ((sV).view.loc (thr d L))))
        ∗ ((sV).view.loc (thr d L) ↦[Finset.univ \ rowSet a]{fullShare} (fI : Buf (Elt F) ((sV).view.loc (thr d L)))))
      ⊢ ((sV).view.loc (thr d L) ↦[Finset.univ \ rowSet (a + 1)]{fullShare} (fI : Buf (Elt F) ((sV).view.loc (thr d L))) : sProp 𝕄) := by
  rw [rowSet_ge (a + 1) h, Finset.sdiff_empty]
  exact (pointsTo_split_subset (Finset.subset_univ (rowSet a))).2

/-! ## The scratch after the additions, and the result after the last chunk -/

/-- The batch offset as the kernel computes it. -/
def k1_boffW (i : grid1.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v3 : BitVec 32 := Scalar.divsi v1 16#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v1 16#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.addi 0#32 v19
  let v21 : BitVec 32 := Scalar.muli v20 1024#32
  v21

theorem k1_boffW_eq : ∀ i : grid1.Coords, k1_boffW i = BitVec.ofNat 32 ((0 + (2 * (i 1).val + (i 0).val) / 16) * 1024) := by decide +kernel

/-- The slab as the scratch receives it, word by word. -/
theorem slab_read (ix : S32x18x128.Idx → Elt F .i32) (j : S18x128.Idx) :
    (iSlabK L).view.read (Elt F) ix j = ix (ix3 (wid L) (j 0) (j 1)) :=
  Cert.Kernel.ScTileVal.slab_read L ix j

theorem fI_apply (ix : S32x18x128.Idx → Elt F .i32) (fs : Buf (Elt F) ((sV).view.loc (thr d L))) (j : S18x128.Idx) :
    addN (View.write (Elt F) (sV).view fs ((iSlabK L).view.read (Elt F) ix) Finset.univ) (k1_boffW L) (8 * 18) j
      = (ix (ix3 (wid L) (j 0) (j 1)) : BitVec 32) + BitVec.ofNat 32 ((k1_baseb + (wid L).val / 16) * 1024) := by
  have h0 : (j 0).val < 18 := (j 0).isLt
  have h1 : (j 1).val < 128 := (j 1).isLt
  unfold addN
  rw [if_pos (by omega), View.write_whole_univ, slab_read, k1_boffW_eq]
  rfl

theorem fI_lt (ix : S32x18x128.Idx → Elt F .i32) (hix : ∀ j : S32x18x128.Idx, ((ix j : BitVec 32)).toNat < 1024)
    (fs : Buf (Elt F) ((sV).view.loc (thr d L))) :
    ∀ j, (addN (View.write (Elt F) (sV).view fs ((iSlabK L).view.read (Elt F) ix) Finset.univ) (k1_boffW L) (8 * 18) j).toNat < 4096 := by
  intro j
  rw [fI_apply]
  have h1 := hix (ix3 (wid L) (j 0) (j 1))
  have hw : (wid L).val < 32 := (wid L).isLt
  have hb : (BitVec.ofNat 32 ((k1_baseb + (wid L).val / 16) * 1024)).toNat ≤ 3072 := by
    rw [BitVec.toNat_ofNat]
    refine le_trans (Nat.mod_le _ _) ?_
    have hb0 : k1_baseb ≤ 2 := by decide
    omega
  calc ((ix (ix3 (wid L) (j 0) (j 1)) : BitVec 32) + BitVec.ofNat 32 ((k1_baseb + (wid L).val / 16) * 1024)).toNat
      = ((ix (ix3 (wid L) (j 0) (j 1)) : BitVec 32).toNat + (BitVec.ofNat 32 ((k1_baseb + (wid L).val / 16) * 1024)).toNat) % 2 ^ 32 := BitVec.toNat_add _ _
    _ ≤ (ix (ix3 (wid L) (j 0) (j 1)) : BitVec 32).toNat + (BitVec.ofNat 32 ((k1_baseb + (wid L).val / 16) * 1024)).toNat := Nat.mod_le _ _
    _ < 4096 := by omega

/-- After the last chunk the task's rows hold the gather's value. -/
theorem final_val (p : S4096x128.Idx → Elt F .f32) (ix : S32x18x128.Idx → Elt F .i32) (fo : S73728x128.Idx → Elt F .f32)
    (fs : Buf (Elt F) ((sV).view.loc (thr d L))) :
    ∀ j ∈ oSet (wid L), outN p (addN (View.write (Elt F) (sV).view fs ((iSlabK L).view.read (Elt F) ix) Finset.univ) (k1_boffW L) (8 * 18)) fo
        ((wid L).val * 2304) 18 j = gatherVal k1_baseb p ix j := by
  intro j hj
  rw [mem_oSet] at hj
  have hw : (j 0).val / 2304 = (wid L).val := by omega
  have hwF : wid L = (⟨(j 0).val / 2304, by have : (j 0).val < 73728 := (j 0).isLt; omega⟩ : Fin 32) := Fin.ext hw.symm
  unfold outN
  rw [if_pos ⟨hj.1, by omega⟩]
  have hfi := fI_apply (F := F) d L ix fs (ix2 (⟨(j 0).val / 128 % 18, Nat.mod_lt _ (by decide)⟩ : Fin 18) (⟨(j 0).val % 128, Nat.mod_lt _ (by decide)⟩ : Fin 128))
  refine (congrArg (fun v : BitVec 32 => p (ix2 (⟨v.toNat % 4096, Nat.mod_lt _ (by decide)⟩ : Fin 4096) (j 1))) hfi).trans ?_
  exact congrArg (fun w : Fin 32 => p (ix2 (⟨((ix (ix3 w (⟨(j 0).val / 128 % 18, Nat.mod_lt _ (by decide)⟩ : Fin 18) (⟨(j 0).val % 128, Nat.mod_lt _ (by decide)⟩ : Fin 128)) : BitVec 32)
    + BitVec.ofNat 32 ((k1_baseb + w.val / 16) * 1024)).toNat % 4096, Nat.mod_lt _ (by decide)⟩ : Fin 4096) (j 1))) hwF

/-- The same, of the points-to. -/
theorem final_pts (p : S4096x128.Idx → Elt F .f32) (ix : S32x18x128.Idx → Elt F .i32) (fo : S73728x128.Idx → Elt F .f32)
    (fs : Buf (Elt F) ((sV).view.loc (thr d L))) :
    (g0Loc d ↦[oSet (wid L)]{fullShare} (outN p (addN (View.write (Elt F) (sV).view fs ((iSlabK L).view.read (Elt F) ix) Finset.univ) (k1_boffW L) (8 * 18)) fo
        ((wid L).val * 2304) 18 : Buf (Elt F) (g0Loc d)) : sProp 𝕄)
      = (g0Loc d ↦[oSet (wid L)]{fullShare} (gatherVal k1_baseb p ix : Buf (Elt F) (g0Loc d))) :=
  pointsTo_congr (final_val (F := F) d L p ix fo fs)

set_option maxHeartbeats 8000000 in
theorem trip_even (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k1_t3_loop.trips) (acc : BitVec 32) (hpar : k.val % 2 = 0) :
    inv3 (F := F) d L q p fI fo O W k.val acc
      ⊢ (wp frame (wpE (defs₀ (F := F)) 𝒱₀ (thr d L) none) Set.univ
          (k1_t3_body L pV (Memref.isWhole_whole _) iV (Memref.isWhole_whole _) oV (Memref.isWhole_whole _)
            sV (Memref.isWhole_whole _) aV (Memref.isWhole_whole _) bV (Memref.isWhole_whole _) cc1_scratch3 cc1_scratch4 cc1_scoped0 cc1_scoped1 cc1_scoped2 k acc)
          (inv3 (F := F) d L q p fI fo O W (k.val + 1)) : sProp 𝕄) := by
  have hk18 : k.val < 18 := Nat.lt_of_lt_of_le k.isLt k1_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)

  have hk1 : k.val + 1 < 18 := by omega
  have k1_h1 : k1_cond1 k = 1#1 := (cond1_iff k).mpr ⟨hpar, hk1⟩
  have k1_h2 : ¬ k1_cond2 k = 1#1 := fun h => by have := (cond2_iff k).mp h; omega
  have k1_h3 : k1_cond3 k = 1#1 := (cond3_iff k).mpr hpar
  have k1_h4 : ¬ k1_cond4 k = 1#1 := fun h => by have := (cond4_iff k).mp h; omega
  unfold inv3 slotF
  rw [if_pos hpar, if_pos hk18, if_neg (show ¬ (k.val + 1) % 2 = 0 by omega), if_pos hk1]
  iintro ⟨#Hmw, ⟨Hfl, ⟨%fb, Hb⟩, HpR, Hsem1⟩, Hsrest, Ho, HsemB, HsemC, %W', %hW', HO⟩
  sl_unfold [k1_t3_body]
  sl_exec
  -- the next chunk's gather: row k + 1 of the scratch out of the rest, the free buffer, its share, its semaphore
  have hoff := k1_off3_eq k
  have hsetk := set_offsK (k1_off3 k) (k1_off3_inb k k1_h1) (k.val + 1) hoff
  ihave H2 := (pointsTo_split_subset (q := fullShare) (f := (fI : Buf (Elt F) ((sV).view.loc (thr d L)))) (S := Finset.univ \ rowSet k.val)
    (rowSet_sub (k.val + 1) k.val (by omega))).1 $$ Hsrest
  icases H2 with ⟨Hrow, Hsrest⟩
  ihave Hrow' := (Entails.of_eq (show ((sV).view.loc (thr d L) ↦[rowSet (k.val + 1)]{fullShare} (fI : Buf (Elt F) ((sV).view.loc (thr d L))) : sProp 𝕄)
      = ((offsK (k1_off3 k) (k1_off3_inb k k1_h1)).view.loc (thr d L) ↦[(offsK (k1_off3 k) (k1_off3_inb k k1_h1)).view.set]{fullShare}
          (fI : Buf (Elt F) ((sV).view.loc (thr d L)))) by rw [hsetk])) $$ Hrow
  iapply (SparseCore.wp_indirectGatherLocal countersEmb 𝒱₀ (thr d L) none (hg := gathers_S4096x128_S128x128) (default : HIx 2)
      (bV).view.dmaCredit hNb (by decide) (hin_of (F := F) fI hfI _ _)) $$ [HpR Hb Hrow' Hsem1]
  · isplitl [HpR]; · iexact HpR
    isplitl [Hb]; · iexact Hb
    isplitl [Hrow']; · iexact Hrow'
    iexact Hsem1
  iintro Hfl1
  ihave Hfl1' := (Transfers.Flight_mono countersEmb (thr d L) (deliver_b (F := F) d L q.right p fI fb _ _ (k.val + 1) hoff hk1 _)) $$ Hfl1
  sl_exec
  -- the wait for chunk k, then its copy out
  ihave Hfl := (Entails.of_eq (slotP_eq (F := F) d L (aPts d L) cc1_scratch3.sem (aV).view.dmaCredit q.left p fI k.val)) $$ Hfl
  iapply (Transfers.wp_waitLocalO countersEmb 𝒱₀ (thr d L) none (default : HIx 2) (rfl : (aV).view.dmaCredit = _)) $$ [Hfl HO]
  · isplitl [Hfl]; · iexact Hfl
    isplitl [HO]; · iexact HO
    iapply (Transfers.MayWaits.elim (SemLoc.dma cc1_scratch3.sem)) $$ Hmw
  iintro ⟨HD, Hsem0, HO⟩
  ihave HD := (Entails.of_eq (slotD_eq (F := F) d L (aPts d L) q.left p fI k.val)) $$ HD
  icases HD with ⟨Ha, HpL, Hrowk⟩
  have hr : 4608 * (L 1).val + 2304 * (L 0).val + 128 * k.val = (wid L).val * 2304 + 128 * k.val := by
    have hw : (wid L).val = 2 * (L 1).val + (L 0).val := rfl
    omega
  have hoffc : k1_off6 L k = ![(wid L).val * 2304 + 128 * k.val, 0] := by rw [k1_off6_eq, hr]
  have hsetc := set_ochK (k1_off6 L k) (k1_off6_inb L k k1_h3) _ hoffc
  ihave Ho2 := (pointsTo_split_subset (ℓ := g0Loc d) (q := fullShare) (f := (outN p fI fo ((wid L).val * 2304) k.val : Buf (Elt F) (g0Loc d))) (I := chunkSet ((wid L).val * 2304 + 128 * k.val)) (S := oSet (wid L))
    (chunk_sub (wid L) k.val hk18)).1 $$ Ho
  icases Ho2 with ⟨Hch, Horest⟩
  ihave Hch' := (Entails.of_eq (show (g0Loc d ↦[chunkSet ((wid L).val * 2304 + 128 * k.val)]{fullShare} (outN p fI fo ((wid L).val * 2304) k.val : Buf (Elt F) (g0Loc d)) : sProp 𝕄)
      = ((ochK (k1_off6 L k) (k1_off6_inb L k k1_h3)).view.loc (thr d L) ↦[(ochK (k1_off6 L k) (k1_off6_inb L k k1_h3)).view.set]{fullShare}
          (outN p fI fo ((wid L).val * 2304) k.val : Buf (Elt F) (g0Loc d))) by rw [hsetc])) $$ Hch
  sl_exec
  sl_step
  ihave Hch2 := (Entails.of_eq ((pointsTo_congr (ℓ := (ochK (k1_off6 L k) (k1_off6_inb L k k1_h3)).view.loc (thr d L)) (q := fullShare)
        (out_hit (F := F) d L p fI fo (wid L).val k.val hk18 (k1_off6 L k) (k1_off6_inb L k k1_h3) hoffc _ (trip_even.sl.dma0 p fI k) rfl)).trans
      (show ((ochK (k1_off6 L k) (k1_off6_inb L k k1_h3)).view.loc (thr d L) ↦[(ochK (k1_off6 L k) (k1_off6_inb L k k1_h3)).view.set]{fullShare}
          (outN p fI fo ((wid L).val * 2304) (k.val + 1) : Buf (Elt F) (g0Loc d)) : sProp 𝕄)
        = (g0Loc d ↦[chunkSet ((wid L).val * 2304 + 128 * k.val)]{fullShare} (outN p fI fo ((wid L).val * 2304) (k.val + 1) : Buf (Elt F) (g0Loc d))) by rw [hsetc]))) $$ Hch'
  ihave Horest2 := (Entails.of_eq (pointsTo_congr (ℓ := g0Loc d) (q := fullShare) (I := oSet (wid L) \ chunkSet ((wid L).val * 2304 + 128 * k.val))
      (f := (outN p fI fo ((wid L).val * 2304) k.val : Buf (Elt F) (g0Loc d))) (g := (outN p fI fo ((wid L).val * 2304) (k.val + 1) : Buf (Elt F) (g0Loc d)))
      (fun j hj => out_miss (F := F) p fI fo ((wid L).val * 2304) k.val j (Finset.mem_sdiff.mp hj).2))) $$ Horest
  ihave Ho' := (pointsTo_split_subset (ℓ := g0Loc d) (q := fullShare) (f := (outN p fI fo ((wid L).val * 2304) (k.val + 1) : Buf (Elt F) (g0Loc d))) (I := chunkSet ((wid L).val * 2304 + 128 * k.val)) (S := oSet (wid L))
    (chunk_sub (wid L) k.val hk18)).2 $$ [Hch2 Horest2]
  · isplitl [Hch2] <;> iassumption

  -- the invariant at trip k + 1
  isplitl []; · iexact Hmw
  isplitl [Ha HpL Hsem0 Hfl1']
  · isplitl [Ha HpL Hsem0]
    · isplitl [Ha]; · iexists _; iexact Ha
      isplitl [HpL]; · iexact HpL
      iexact Hsem0
    iapply (Entails.of_eq (slotP_eq (F := F) d L (bPts d L) cc1_scratch4.sem (bV).view.dmaCredit q.right p fI (k.val + 1)).symm)
    iexact Hfl1'
  isplitl [Hrowk Hsrest]
  · iapply (rows_join (F := F) d L fI k.val (k.val + 1) (by omega))
    isplitl [Hsrest]; · iexact Hsrest
    iexact Hrowk
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 8000000 in
theorem trip_odd (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k1_t3_loop.trips) (acc : BitVec 32) (hpar : k.val % 2 = 1) (hk1 : k.val + 1 < 18) :
    inv3 (F := F) d L q p fI fo O W k.val acc
      ⊢ (wp frame (wpE (defs₀ (F := F)) 𝒱₀ (thr d L) none) Set.univ
          (k1_t3_body L pV (Memref.isWhole_whole _) iV (Memref.isWhole_whole _) oV (Memref.isWhole_whole _)
            sV (Memref.isWhole_whole _) aV (Memref.isWhole_whole _) bV (Memref.isWhole_whole _) cc1_scratch3 cc1_scratch4 cc1_scoped0 cc1_scoped1 cc1_scoped2 k acc)
          (inv3 (F := F) d L q p fI fo O W (k.val + 1)) : sProp 𝕄) := by
  have hk18 : k.val < 18 := Nat.lt_of_lt_of_le k.isLt k1_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)

  have hk1 : k.val + 1 < 18 := by omega
  have k1_h2 : k1_cond2 k = 1#1 := (cond2_iff k).mpr ⟨hpar, hk1⟩
  have k1_h1 : ¬ k1_cond1 k = 1#1 := fun h => by have := (cond1_iff k).mp h; omega
  have k1_h4 : k1_cond4 k = 1#1 := (cond4_iff k).mpr hpar
  have k1_h3 : ¬ k1_cond3 k = 1#1 := fun h => by have := (cond3_iff k).mp h; omega
  unfold inv3 slotF
  rw [if_neg (show ¬ k.val % 2 = 0 by omega), if_pos hk18, if_pos (show (k.val + 1) % 2 = 0 by omega), if_pos hk1]
  iintro ⟨#Hmw, ⟨⟨⟨%fa, Ha⟩, HpL, Hsem0⟩, Hfl⟩, Hsrest, Ho, HsemB, HsemC, %W', %hW', HO⟩
  sl_unfold [k1_t3_body]
  sl_exec
  -- the next chunk's gather: row k + 1 of the scratch out of the rest, the free buffer, its share, its semaphore
  have hoff := k1_off4_eq k
  have hsetk := set_offsK (k1_off4 k) (k1_off4_inb k k1_h2) (k.val + 1) hoff
  ihave H2 := (pointsTo_split_subset (q := fullShare) (f := (fI : Buf (Elt F) ((sV).view.loc (thr d L)))) (S := Finset.univ \ rowSet k.val)
    (rowSet_sub (k.val + 1) k.val (by omega))).1 $$ Hsrest
  icases H2 with ⟨Hrow, Hsrest⟩
  ihave Hrow' := (Entails.of_eq (show ((sV).view.loc (thr d L) ↦[rowSet (k.val + 1)]{fullShare} (fI : Buf (Elt F) ((sV).view.loc (thr d L))) : sProp 𝕄)
      = ((offsK (k1_off4 k) (k1_off4_inb k k1_h2)).view.loc (thr d L) ↦[(offsK (k1_off4 k) (k1_off4_inb k k1_h2)).view.set]{fullShare}
          (fI : Buf (Elt F) ((sV).view.loc (thr d L)))) by rw [hsetk])) $$ Hrow
  iapply (SparseCore.wp_indirectGatherLocal countersEmb 𝒱₀ (thr d L) none (hg := gathers_S4096x128_S128x128) (default : HIx 2)
      (aV).view.dmaCredit hNa (by decide) (hin_of (F := F) fI hfI _ _)) $$ [HpL Ha Hrow' Hsem0]
  · isplitl [HpL]; · iexact HpL
    isplitl [Ha]; · iexact Ha
    isplitl [Hrow']; · iexact Hrow'
    iexact Hsem0
  iintro Hfl1
  ihave Hfl1' := (Transfers.Flight_mono countersEmb (thr d L) (deliver_a (F := F) d L q.left p fI fa _ _ (k.val + 1) hoff hk1 _)) $$ Hfl1
  sl_exec
  -- the wait for chunk k, then its copy out
  ihave Hfl := (Entails.of_eq (slotP_eq (F := F) d L (bPts d L) cc1_scratch4.sem (bV).view.dmaCredit q.right p fI k.val)) $$ Hfl
  iapply (Transfers.wp_waitLocalO countersEmb 𝒱₀ (thr d L) none (default : HIx 2) (rfl : (bV).view.dmaCredit = _)) $$ [Hfl HO]
  · isplitl [Hfl]; · iexact Hfl
    isplitl [HO]; · iexact HO
    iapply (Transfers.MayWaits.elim (SemLoc.dma cc1_scratch4.sem)) $$ Hmw
  iintro ⟨HD, Hsem1, HO⟩
  ihave HD := (Entails.of_eq (slotD_eq (F := F) d L (bPts d L) q.right p fI k.val)) $$ HD
  icases HD with ⟨Hb, HpR, Hrowk⟩
  have hr : 4608 * (L 1).val + 2304 * (L 0).val + 128 * k.val = (wid L).val * 2304 + 128 * k.val := by
    have hw : (wid L).val = 2 * (L 1).val + (L 0).val := rfl
    omega
  have hoffc : k1_off8 L k = ![(wid L).val * 2304 + 128 * k.val, 0] := by rw [k1_off8_eq, hr]
  have hsetc := set_ochK (k1_off8 L k) (k1_off8_inb L k k1_h4) _ hoffc
  ihave Ho2 := (pointsTo_split_subset (ℓ := g0Loc d) (q := fullShare) (f := (outN p fI fo ((wid L).val * 2304) k.val : Buf (Elt F) (g0Loc d))) (I := chunkSet ((wid L).val * 2304 + 128 * k.val)) (S := oSet (wid L))
    (chunk_sub (wid L) k.val hk18)).1 $$ Ho
  icases Ho2 with ⟨Hch, Horest⟩
  ihave Hch' := (Entails.of_eq (show (g0Loc d ↦[chunkSet ((wid L).val * 2304 + 128 * k.val)]{fullShare} (outN p fI fo ((wid L).val * 2304) k.val : Buf (Elt F) (g0Loc d)) : sProp 𝕄)
      = ((ochK (k1_off8 L k) (k1_off8_inb L k k1_h4)).view.loc (thr d L) ↦[(ochK (k1_off8 L k) (k1_off8_inb L k k1_h4)).view.set]{fullShare}
          (outN p fI fo ((wid L).val * 2304) k.val : Buf (Elt F) (g0Loc d))) by rw [hsetc])) $$ Hch
  sl_exec
  sl_step
  ihave Hch2 := (Entails.of_eq ((pointsTo_congr (ℓ := (ochK (k1_off8 L k) (k1_off8_inb L k k1_h4)).view.loc (thr d L)) (q := fullShare)
        (out_hit (F := F) d L p fI fo (wid L).val k.val hk18 (k1_off8 L k) (k1_off8_inb L k k1_h4) hoffc _ (trip_odd.sl.dma0 p fI k) rfl)).trans
      (show ((ochK (k1_off8 L k) (k1_off8_inb L k k1_h4)).view.loc (thr d L) ↦[(ochK (k1_off8 L k) (k1_off8_inb L k k1_h4)).view.set]{fullShare}
          (outN p fI fo ((wid L).val * 2304) (k.val + 1) : Buf (Elt F) (g0Loc d)) : sProp 𝕄)
        = (g0Loc d ↦[chunkSet ((wid L).val * 2304 + 128 * k.val)]{fullShare} (outN p fI fo ((wid L).val * 2304) (k.val + 1) : Buf (Elt F) (g0Loc d))) by rw [hsetc]))) $$ Hch'
  ihave Horest2 := (Entails.of_eq (pointsTo_congr (ℓ := g0Loc d) (q := fullShare) (I := oSet (wid L) \ chunkSet ((wid L).val * 2304 + 128 * k.val))
      (f := (outN p fI fo ((wid L).val * 2304) k.val : Buf (Elt F) (g0Loc d))) (g := (outN p fI fo ((wid L).val * 2304) (k.val + 1) : Buf (Elt F) (g0Loc d)))
      (fun j hj => out_miss (F := F) p fI fo ((wid L).val * 2304) k.val j (Finset.mem_sdiff.mp hj).2))) $$ Horest
  ihave Ho' := (pointsTo_split_subset (ℓ := g0Loc d) (q := fullShare) (f := (outN p fI fo ((wid L).val * 2304) (k.val + 1) : Buf (Elt F) (g0Loc d))) (I := chunkSet ((wid L).val * 2304 + 128 * k.val)) (S := oSet (wid L))
    (chunk_sub (wid L) k.val hk18)).2 $$ [Hch2 Horest2]
  · isplitl [Hch2] <;> iassumption

  -- the invariant at trip k + 1
  isplitl []; · iexact Hmw
  isplitl [Hb HpR Hsem1 Hfl1']
  · isplitl [Hfl1']
    · iapply (Entails.of_eq (slotP_eq (F := F) d L (aPts d L) cc1_scratch3.sem (aV).view.dmaCredit q.left p fI (k.val + 1)).symm)
      iexact Hfl1'
    isplitl [Hb]; · iexists _; iexact Hb
    isplitl [HpR]; · iexact HpR
    iexact Hsem1
  isplitl [Hrowk Hsrest]
  · iapply (rows_join (F := F) d L fI k.val (k.val + 1) (by omega))
    isplitl [Hsrest]; · iexact Hsrest
    iexact Hrowk
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 8000000 in
theorem trip_last (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k1_t3_loop.trips) (acc : BitVec 32) (hpar : k.val % 2 = 1) (hk1 : ¬ k.val + 1 < 18) :
    inv3 (F := F) d L q p fI fo O W k.val acc
      ⊢ (wp frame (wpE (defs₀ (F := F)) 𝒱₀ (thr d L) none) Set.univ
          (k1_t3_body L pV (Memref.isWhole_whole _) iV (Memref.isWhole_whole _) oV (Memref.isWhole_whole _)
            sV (Memref.isWhole_whole _) aV (Memref.isWhole_whole _) bV (Memref.isWhole_whole _) cc1_scratch3 cc1_scratch4 cc1_scoped0 cc1_scoped1 cc1_scoped2 k acc)
          (inv3 (F := F) d L q p fI fo O W (k.val + 1)) : sProp 𝕄) := by
  have hk18 : k.val < 18 := Nat.lt_of_lt_of_le k.isLt k1_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)
  have k1_h1 : ¬ k1_cond1 k = 1#1 := fun h => by have := (cond1_iff k).mp h; omega
  have k1_h2 : ¬ k1_cond2 k = 1#1 := fun h => by have := (cond2_iff k).mp h; omega
  have k1_h3 : ¬ k1_cond3 k = 1#1 := fun h => by have := (cond3_iff k).mp h; omega
  have k1_h4 : k1_cond4 k = 1#1 := (cond4_iff k).mpr hpar
  unfold inv3 slotF
  rw [if_neg (show ¬ k.val % 2 = 0 by omega), if_pos hk18, if_pos (show (k.val + 1) % 2 = 0 by omega), if_neg hk1]
  iintro ⟨#Hmw, ⟨⟨⟨%fa, Ha⟩, HpL, Hsem0⟩, Hfl⟩, Hsrest, Ho, HsemB, HsemC, %W', %hW', HO⟩
  sl_unfold [k1_t3_body]
  sl_exec
  -- the wait for chunk k, then its copy out
  ihave Hfl := (Entails.of_eq (slotP_eq (F := F) d L (bPts d L) cc1_scratch4.sem (bV).view.dmaCredit q.right p fI k.val)) $$ Hfl
  iapply (Transfers.wp_waitLocalO countersEmb 𝒱₀ (thr d L) none (default : HIx 2) (rfl : (bV).view.dmaCredit = _)) $$ [Hfl HO]
  · isplitl [Hfl]; · iexact Hfl
    isplitl [HO]; · iexact HO
    iapply (Transfers.MayWaits.elim (SemLoc.dma cc1_scratch4.sem)) $$ Hmw
  iintro ⟨HD, Hsem1, HO⟩
  ihave HD := (Entails.of_eq (slotD_eq (F := F) d L (bPts d L) q.right p fI k.val)) $$ HD
  icases HD with ⟨Hb, HpR, Hrowk⟩
  have hr : 4608 * (L 1).val + 2304 * (L 0).val + 128 * k.val = (wid L).val * 2304 + 128 * k.val := by
    have hw : (wid L).val = 2 * (L 1).val + (L 0).val := rfl
    omega
  have hoffc : k1_off8 L k = ![(wid L).val * 2304 + 128 * k.val, 0] := by rw [k1_off8_eq, hr]
  have hsetc := set_ochK (k1_off8 L k) (k1_off8_inb L k k1_h4) _ hoffc
  ihave Ho2 := (pointsTo_split_subset (ℓ := g0Loc d) (q := fullShare) (f := (outN p fI fo ((wid L).val * 2304) k.val : Buf (Elt F) (g0Loc d))) (I := chunkSet ((wid L).val * 2304 + 128 * k.val)) (S := oSet (wid L))
    (chunk_sub (wid L) k.val hk18)).1 $$ Ho
  icases Ho2 with ⟨Hch, Horest⟩
  ihave Hch' := (Entails.of_eq (show (g0Loc d ↦[chunkSet ((wid L).val * 2304 + 128 * k.val)]{fullShare} (outN p fI fo ((wid L).val * 2304) k.val : Buf (Elt F) (g0Loc d)) : sProp 𝕄)
      = ((ochK (k1_off8 L k) (k1_off8_inb L k k1_h4)).view.loc (thr d L) ↦[(ochK (k1_off8 L k) (k1_off8_inb L k k1_h4)).view.set]{fullShare}
          (outN p fI fo ((wid L).val * 2304) k.val : Buf (Elt F) (g0Loc d))) by rw [hsetc])) $$ Hch
  sl_exec
  sl_step
  ihave Hch2 := (Entails.of_eq ((pointsTo_congr (ℓ := (ochK (k1_off8 L k) (k1_off8_inb L k k1_h4)).view.loc (thr d L)) (q := fullShare)
        (out_hit (F := F) d L p fI fo (wid L).val k.val hk18 (k1_off8 L k) (k1_off8_inb L k k1_h4) hoffc _ (trip_last.sl.dma0 p fI k) rfl)).trans
      (show ((ochK (k1_off8 L k) (k1_off8_inb L k k1_h4)).view.loc (thr d L) ↦[(ochK (k1_off8 L k) (k1_off8_inb L k k1_h4)).view.set]{fullShare}
          (outN p fI fo ((wid L).val * 2304) (k.val + 1) : Buf (Elt F) (g0Loc d)) : sProp 𝕄)
        = (g0Loc d ↦[chunkSet ((wid L).val * 2304 + 128 * k.val)]{fullShare} (outN p fI fo ((wid L).val * 2304) (k.val + 1) : Buf (Elt F) (g0Loc d))) by rw [hsetc]))) $$ Hch'
  ihave Horest2 := (Entails.of_eq (pointsTo_congr (ℓ := g0Loc d) (q := fullShare) (I := oSet (wid L) \ chunkSet ((wid L).val * 2304 + 128 * k.val))
      (f := (outN p fI fo ((wid L).val * 2304) k.val : Buf (Elt F) (g0Loc d))) (g := (outN p fI fo ((wid L).val * 2304) (k.val + 1) : Buf (Elt F) (g0Loc d)))
      (fun j hj => out_miss (F := F) p fI fo ((wid L).val * 2304) k.val j (Finset.mem_sdiff.mp hj).2))) $$ Horest
  ihave Ho' := (pointsTo_split_subset (ℓ := g0Loc d) (q := fullShare) (f := (outN p fI fo ((wid L).val * 2304) (k.val + 1) : Buf (Elt F) (g0Loc d))) (I := chunkSet ((wid L).val * 2304 + 128 * k.val)) (S := oSet (wid L))
    (chunk_sub (wid L) k.val hk18)).2 $$ [Hch2 Horest2]
  · isplitl [Hch2] <;> iassumption

  isplitl []; · iexact Hmw
  isplitl [Ha HpL Hsem0 Hb HpR Hsem1]
  · isplitl [Ha HpL Hsem0]
    · isplitl [Ha]; · iexists _; iexact Ha
      isplitl [HpL]; · iexact HpL
      iexact Hsem0
    isplitl [Hb]; · iexists _; iexact Hb
    isplitl [HpR]; · iexact HpR
    iexact Hsem1
  isplitl [Hrowk Hsrest]
  · iapply (rows_last (F := F) d L fI k.val (by omega))
    isplitl [Hrowk]; · iexact Hrowk
    iexact Hsrest
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 4000000 in
/-- The chunk phase: the first gather's issue and the eighteen trips. -/
theorem chunk_phase (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096)
    (fa : Buf (Elt F) ((aV).view.loc (thr d L))) (fb : Buf (Elt F) ((bV).view.loc (thr d L))) :
    iprop(Transfers.MayWaits (thr d L) (default : HIx 2) O
        ∗ ((pV).view.loc (thr d L) ↦{q} (p : Buf (Elt F) ((pV).view.loc (thr d L))))
        ∗ ((sV).view.loc (thr d L) ↦{fullShare} (fI : Buf (Elt F) ((sV).view.loc (thr d L))))
        ∗ ((aV).view.loc (thr d L) ↦{fullShare} fa) ∗ ((bV).view.loc (thr d L) ↦{fullShare} fb)
        ∗ (g0Loc d ↦[oSet (wid L)]{fullShare} (fo : Buf (Elt F) (g0Loc d)))
        ∗ semVal (thr d L, SemLoc.dma cc1_scratch3.sem) 0 ∗ semVal (thr d L, SemLoc.dma cc1_scratch4.sem) 0
        ∗ semVal (thr d L, SemLoc.dma cc1_scoped1.sem) 0 ∗ semVal (thr d L, SemLoc.dma cc1_scoped2.sem) 0
        ∗ owes (thr d L) O W)
      ⊢ (wp frame (wpE (defs₀ (F := F)) 𝒱₀ (thr d L) none) Set.univ
          (do
            SparseCore.enqueueIndirectGather rfl (pAllK) aV gathers_S4096x128_S128x128 (offsK ![0, 0] inb_S18x128_S1x128_0_0) rfl
              cc1_scratch3.sem (View.wordExact_bits rfl) rfl (Or.inl rfl)
            let _ ← Scf.Loop.for k1_t3_loop k1_t3_ok 0#32 (k1_t3_body L pV (Memref.isWhole_whole _) iV (Memref.isWhole_whole _) oV (Memref.isWhole_whole _)
              sV (Memref.isWhole_whole _) aV (Memref.isWhole_whole _) bV (Memref.isWhole_whole _) cc1_scratch3 cc1_scratch4 cc1_scoped0 cc1_scoped1 cc1_scoped2)
            pure PUnit.unit)
          fun _ => iprop(((pV).view.loc (thr d L) ↦{q} (p : Buf (Elt F) ((pV).view.loc (thr d L))))
            ∗ ((sV).view.loc (thr d L) ↦{fullShare} (fI : Buf (Elt F) ((sV).view.loc (thr d L))))
            ∗ (∃ f, (aV).view.loc (thr d L) ↦{fullShare} f) ∗ (∃ f, (bV).view.loc (thr d L) ↦{fullShare} f)
            ∗ (g0Loc d ↦[oSet (wid L)]{fullShare} (outN p fI fo ((wid L).val * 2304) 18 : Buf (Elt F) (g0Loc d)))
            ∗ semVal (thr d L, SemLoc.dma cc1_scratch3.sem) 0 ∗ semVal (thr d L, SemLoc.dma cc1_scratch4.sem) 0
            ∗ semVal (thr d L, SemLoc.dma cc1_scoped1.sem) 0 ∗ semVal (thr d L, SemLoc.dma cc1_scoped2.sem) 0
            ∗ ∃ W', ⌜∀ x ∈ W', x ∈ W ∨ x.2 = none⌝ ∗ owes (thr d L) O W') : sProp 𝕄) := by
  iintro ⟨#Hmw, Hp, Hs, Ha, Hb, Ho, Hsem0, Hsem1, HsemB, HsemC, HO⟩
  ihave Hp2 := (pointsTo_share (PosShare.mem_left_op_right q)).1 $$ Hp
  icases Hp2 with ⟨HpL, HpR⟩
  ihave HpL2 := (pointsTo_split_subset (q := q.left) (f := (p : Buf (Elt F) ((pV).view.loc (thr d L)))) (S := Finset.univ) (Finset.subset_univ (pAllK).view.set)).1 $$ HpL
  icases HpL2 with ⟨HpL, HpLr⟩
  ihave HpR2 := (pointsTo_split_subset (q := q.right) (f := (p : Buf (Elt F) ((pV).view.loc (thr d L)))) (S := Finset.univ) (Finset.subset_univ (pAllK).view.set)).1 $$ HpR
  icases HpR2 with ⟨HpR, HpRr⟩
  ihave Hs2 := (pointsTo_split_subset (q := fullShare) (f := (fI : Buf (Elt F) ((sV).view.loc (thr d L)))) (S := Finset.univ) (Finset.subset_univ (rowSet 0))).1 $$ Hs
  icases Hs2 with ⟨Hrow, Hsrest⟩
  have hset0 := set_offsK ![0, 0] inb_S18x128_S1x128_0_0 0 rfl
  ihave Hrow' := (Entails.of_eq (show ((sV).view.loc (thr d L) ↦[rowSet 0]{fullShare} (fI : Buf (Elt F) ((sV).view.loc (thr d L))) : sProp 𝕄)
      = ((offsK ![0, 0] inb_S18x128_S1x128_0_0).view.loc (thr d L) ↦[(offsK ![0, 0] inb_S18x128_S1x128_0_0).view.set]{fullShare} (fI : Buf (Elt F) ((sV).view.loc (thr d L)))) by rw [hset0])) $$ Hrow
  have has : (aV).view.set = Finset.univ := View.set_whole _
  have hbs : (bV).view.set = Finset.univ := View.set_whole _
  ihave Ha' := (Entails.of_eq (show ((aV).view.loc (thr d L) ↦{fullShare} fa : sProp 𝕄) = (aV).view.loc (thr d L) ↦[(aV).view.set]{fullShare} fa by rw [has])) $$ Ha
  ihave Hb' := (Entails.of_eq (show ((bV).view.loc (thr d L) ↦{fullShare} fb : sProp 𝕄) = (bV).view.loc (thr d L) ↦[(bV).view.set]{fullShare} fb by rw [hbs])) $$ Hb
  ihave Ho0 := (Entails.of_eq (show (g0Loc d ↦[oSet (wid L)]{fullShare} (fo : Buf (Elt F) (g0Loc d)) : sProp 𝕄)
      = (g0Loc d ↦[oSet (wid L)]{fullShare} (outN p fI fo ((wid L).val * 2304) 0 : Buf (Elt F) (g0Loc d))) by rw [outN_zero])) $$ Ho
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)
  iapply (SparseCore.wp_indirectGatherLocal countersEmb 𝒱₀ (thr d L) none (hg := gathers_S4096x128_S128x128) (default : HIx 2)
      (aV).view.dmaCredit hNa (by decide) (hin_of (F := F) fI hfI _ _)) $$ [HpL Ha' Hrow' Hsem0]
  · isplitl [HpL]; · iexact HpL
    isplitl [Ha']; · iexact Ha'
    isplitl [Hrow']; · iexact Hrow'
    iexact Hsem0
  iintro Hfl
  ihave Hfl' := (Transfers.Flight_mono countersEmb (thr d L) (deliver_a (F := F) d L q.left p fI fa _ _ 0 rfl (by decide) _)) $$ Hfl
  first | sl_exec | skip
  sl_for (inv3 (F := F) d L q p fI fo O W) $$ [Hfl' Hb' HpR Hsem1 Hsrest Ho0 HsemB HsemC HO]
  case region =>
    intro k acc
    rcases Nat.mod_two_eq_zero_or_one k.val with hpar | hpar
    · exact trip_even (F := F) d L O W q p fI fo hfI k acc hpar
    · by_cases hk1 : k.val + 1 < 18
      · exact trip_odd (F := F) d L O W q p fI fo hfI k acc hpar hk1
      · exact trip_last (F := F) d L O W q p fI fo hfI k acc hpar hk1
  · unfold inv3 slotF
    rw [if_pos (show (0 : ℕ) % 2 = 0 by decide), if_pos (show (0 : ℕ) < 18 by decide)]
    isplitl []; · iexact Hmw
    isplitl [Hfl' Hb' HpR Hsem1]
    · isplitl [Hfl']
      · iapply (Entails.of_eq (slotP_eq (F := F) d L (aPts d L) cc1_scratch3.sem (aV).view.dmaCredit q.left p fI 0).symm)
        iexact Hfl'
      isplitl [Hb']; · iexists _; iexact Hb'
      isplitl [HpR]; · iexact HpR
      iexact Hsem1
    isplitl [Hsrest]; · iexact Hsrest
    isplitl [Ho0]; · iexact Ho0
    isplitl [HsemB]; · iexact HsemB
    isplitl [HsemC]; · iexact HsemC
    iexists W; isplitr
    · ipureintro; exact fun x hx => .inl hx
    · iexact HO
  iintro %acc HI
  rw [trips_t3]
  unfold inv3 slotF
  rw [if_pos (show (18 : ℕ) % 2 = 0 by decide), if_neg (show ¬ (18 : ℕ) < 18 by decide)]
  icases HI with ⟨-, ⟨⟨⟨%fa', Ha⟩, HpL, Hsem0⟩, ⟨%fb', Hb⟩, HpR, Hsem1⟩, Hs, Ho, HsemB, HsemC, %W', %hW', HO⟩
  first | sl_exec | skip
  sl_step
  ihave HpLj := (pointsTo_split_subset (ℓ := (pV).view.loc (thr d L)) (q := q.left) (f := (p : Buf (Elt F) ((pV).view.loc (thr d L)))) (I := (pAllK).view.set) (S := Finset.univ) (Finset.subset_univ _)).2 $$ [HpL HpLr]
  · isplitl [HpL] <;> iassumption
  ihave HpRj := (pointsTo_split_subset (ℓ := (pV).view.loc (thr d L)) (q := q.right) (f := (p : Buf (Elt F) ((pV).view.loc (thr d L)))) (I := (pAllK).view.set) (S := Finset.univ) (Finset.subset_univ _)).2 $$ [HpR HpRr]
  · isplitl [HpR] <;> iassumption
  ihave Hpj := (pointsTo_share (ℓ := (pV).view.loc (thr d L)) (I := Finset.univ) (f := (p : Buf (Elt F) ((pV).view.loc (thr d L)))) (PosShare.mem_left_op_right q)).2 $$ [HpLj HpRj]
  · isplitl [HpLj] <;> iassumption
  isplitl [Hpj]; · iexact Hpj
  isplitl [Hs]
  · iapply (Entails.of_eq (show ((sV).view.loc (thr d L) ↦[Finset.univ \ rowSet 18]{fullShare} (fI : Buf (Elt F) ((sV).view.loc (thr d L))) : sProp 𝕄)
        = ((sV).view.loc (thr d L) ↦{fullShare} (fI : Buf (Elt F) ((sV).view.loc (thr d L)))) by rw [rowSet_ge 18 (le_refl _), Finset.sdiff_empty]))
    iexact Hs
  isplitl [Ha]
  · iexists fa'
    iapply (Entails.of_eq (show ((aV).view.loc (thr d L) ↦[(aV).view.set]{fullShare} fa' : sProp 𝕄) = (aV).view.loc (thr d L) ↦{fullShare} fa' by rw [has]))
    iexact Ha
  isplitl [Hb]
  · iexists fb'
    iapply (Entails.of_eq (show ((bV).view.loc (thr d L) ↦[(bV).view.set]{fullShare} fb' : sProp 𝕄) = (bV).view.loc (thr d L) ↦{fullShare} fb' by rw [hbs]))
    iexact Hb
  isplitl [Ho]; · iexact Ho
  isplitl [Hsem0]; · iexact Hsem0
  isplitl [Hsem1]; · iexact Hsem1
  isplitl [HsemB]; · iexact HsemB
  isplitl [HsemC]; · iexact HsemC
  iexists W'; isplitr
  · ipureintro; exact hW'
  · iexact HO

set_option maxHeartbeats 4000000 in
theorem tile_body (hF : (K (F := F)).Facts) (O : CellTallies nD τ sig (HIx 2)) (W : Waits sig (HIx 2)) (hO : ∀ g, O g none = 0)
    (q : PosShare TreeShare) (p : Buf (Elt F) (pLoc d)) (ix : Buf (Elt F) (i0Loc d)) (fo : Buf (Elt F) (g0Loc d))
    (hix : ∀ j : S32x18x128.Idx, ((ix j : BitVec 32)).toNat < 1024) :
    iprop(levAts (K (F := F)).L (K (F := F)).lev
        ∗ ((pLoc d ↦{q} p) ∗ (i0Loc d ↦[iSet (wid L)]{fullShare} ix) ∗ (g0Loc d ↦[oSet (wid L)]{fullShare} fo))
        ∗ scopedBufs (thr d L) ∗ scopedSems0 (thr d L) ∗ owes (thr d L) O W)
      ⊢ (wp frame (wpE (defs₀ (F := F)) 𝒱₀ (thr d L) none) Set.univ
          (cc1_gk L pV (Memref.isWhole_whole _) iV (Memref.isWhole_whole _) oV (Memref.isWhole_whole _)
            sV (Memref.isWhole_whole _) aV (Memref.isWhole_whole _) bV (Memref.isWhole_whole _)
            cc1_scratch3 cc1_scratch4 cc1_scoped0 cc1_scoped1 cc1_scoped2)
          fun _ => iprop(((pLoc d ↦{q} p) ∗ (i0Loc d ↦[iSet (wid L)]{fullShare} ix) ∗ (g0Loc d ↦[oSet (wid L)]{fullShare} gatherVal k1_baseb p ix))
            ∗ scopedBufs (thr d L) ∗ scopedSems0 (thr d L)
            ∗ ∃ W', ⌜∀ x ∈ W', x ∈ W ∨ x.2 = none⌝ ∗ owes (thr d L) O W') : sProp 𝕄) := by
  simp only [cc1_gk_eq_skeleton]; unfold cc1_gk_skel
  rw [(K (F := F)).scopedBufs_V hF d (cV L) (jV L), SparseCore.Cfg.scopedSems0_V (Val := Elt F) d (cV L) (jV L), ownSems0_V, ownBufs_V]
  iintro ⟨#Hlv, ⟨Hp, Hi, Ho⟩, ⟨⟨%fs, Hs⟩, ⟨%fa, Ha⟩, ⟨%fb, Hb⟩, Hbufs⟩, ⟨Hsem0, Hsem1, HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  ihave Hi' := (Entails.of_eq (pts_iSlabK (F := F) d L _).symm) $$ Hi
  ihave Hp' := (Entails.of_eq (pts_pV (F := F) d L _ _).symm) $$ Hp
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  sl_unfold [k1_part1]
  sl_exec
  sl_rw [Prog.bind_assoc]
  sl_for (invOut (F := F) d L (View.write (Elt F) (sV).view fs (tile_body.sl.dma0 d L ix) Finset.univ) (tile_body.sl.v21 L)) $$ [Hs']
  case region =>
    intro k acc
    unfold invOut
    iintro Hs
    sl_exec
    sl_for (invIn (F := F) d L (View.write (Elt F) (sV).view fs (tile_body.sl.dma0 d L ix) Finset.univ) (tile_body.sl.v21 L) k.val) $$ [Hs]
    case region =>
      intro k2 acc2
      unfold invIn
      iintro Hs
      sl_exec
      sl_step
      irw [← add_step (F := F) _ _ k k2]
      iexact Hs
    · unfold invIn; iexact Hs
    iintro %acc3 HI
    unfold invIn
    sl_exec
    sl_step
    rw [trips_t2, show 8 * k.val + 8 = 8 * (k.val + 1) by omega]
    iexact HI
  · unfold invOut; rw [addN_zero]; iexact Hs'
  iintro %acc4 HI
  unfold invOut
  rw [trips_t1]
  sl_exec
  have hb : ∀ i : grid1.Coords, tile_body.sl.v21 i = k1_boffW i := by decide +kernel
  have hd : tile_body.sl.dma0 d L ix = (iSlabK L).view.read (Elt F) ix := rfl
  rw [hb L, hd]
  have hfI := fI_lt (F := F) d L ix hix fs
  iapply (wp_wand_r Idealize.ShloMosaic.frame _ _)
  isplitl [Hp' HI Ha' Hb' Ho Hsem0 Hsem1 HsemB HsemC HO]
  · iapply (chunk_phase (F := F) d L O _ q p _ fo hfI fa fb)
    isplitl []; · iexact Hmw
    isplitl [Hp']; · iexact Hp'
    isplitl [HI]; · iexact HI
    isplitl [Ha']; · iexact Ha'
    isplitl [Hb']; · iexact Hb'
    isplitl [Ho]; · iexact Ho
    isplitl [Hsem0]; · iexact Hsem0
    isplitl [Hsem1]; · iexact Hsem1
    isplitl [HsemB]; · iexact HsemB
    isplitl [HsemC]; · iexact HsemC
    iexact HO
  iintro %_ ⟨Hp, Hs, ⟨%fa2, Ha⟩, ⟨%fb2, Hb⟩, Ho, Hsem0, Hsem1, HsemB, HsemC, %W', %hW', HO⟩
  isplitl [Hp Hi' Ho]
  · isplitl [Hp]; · iapply (Entails.of_eq (pts_pV (F := F) d L _ _)); iexact Hp
    isplitl [Hi']; · iapply (Entails.of_eq (pts_iSlabK (F := F) d L _)); iexact Hi'
    iapply (Entails.of_eq (final_pts (F := F) d L p ix fo fs))
    iexact Ho
  isplitl [Hs Ha Hb Hbufs]
  · isplitl [Hs]; · iexists _; iexact Hs
    isplitl [Ha]; · iexists _; iexact Ha
    isplitl [Hb]; · iexists _; iexact Hb
    iexact Hbufs
  isplitl [Hsem0 Hsem1 HsemA HsemB HsemC Hsems]
  · isplitl [Hsem0]; · iexact Hsem0
    isplitl [Hsem1]; · iexact Hsem1
    isplitl [HsemA]; · iexact HsemA
    isplitl [HsemB]; · iexact HsemB
    isplitl [HsemC]; · iexact HsemC
    iexact Hsems
  iexists _; isplitr
  swap; · iexact HO
  ipureintro; intro x hx
  rcases hW' x hx with hx | hx
  · rcases Finset.mem_insert.mp hx with hx | hx
    · exact .inr (hx ▸ rfl)
    · exact .inl hx
  · exact .inr hx

end Tile

end Cert.Kernel.ScTile

end
-- ==== Proof.ScTileVal3Bits.lean ====
/-
  Pure facts about one vector subcore's task of a gather call: what the task's squeezed slab of the index
  array reads, which rows of the result its part is, the batch offset it adds in closed form, and the value of
  one indirect gather through a row of the index scratch.
-/
import proofs.«215572_g25211458027672_cont_9to1_2008_46_alg».proof.Proof.SkeletonKernel
import proofs.«215572_g25211458027672_cont_9to1_2008_46_alg».proof.Proof.KSetupBits
import Idealize.ShloMosaic.Lib.ValueIdx
import Idealize.ShloMosaic.Lib.Decide

noncomputable section

namespace Cert.Kernel.ScTileVal3

open Cert.Kernel Cert.Kernel.Gen Idealize.ShloMosaic Idealize.ShloMosaic.ValueIdx

variable {F : FTy → Type}

/-! ## The index slab and the result's rows -/

/-- The task's slab of the index array, read through the squeezed slice: word `j` of the slab is
    word `(2 s + c, j₀, j₁)` of the array. -/
theorem slab_read (L : grid3.Coords) (ix : S32x18x128.Idx → Elt F .i32) (j : S18x128.Idx) :
    ((((Memref.whole main_v43_scv : Memref sig .scVector .hbm S32x18x128 .i32).slice
        (Rect.unit (s := S32x18x128) (k3_off1 L) S1x18x128.size (k3_off1_inb L)) (fun _ => rfl)).squeeze S18x128
        squeezes_S1x18x128_S18x128).view.read (Elt F) ix j)
      = ix (ix3 (⟨2 * (L 1).val + (L 0).val, by
          have h0 : (L 0).val < 2 := (L 0).isLt; have h1 : (L 1).val < 16 := (L 1).isLt; omega⟩ : Fin 32) (j 0) (j 1)) := by
  rw [View.read_apply, cast_eq]
  congr 1
  funext (a : Fin 3)
  apply Fin.ext
  show ((Rect.unit (s := S32x18x128) (k3_off1 L) S1x18x128.size (k3_off1_inb L)).emb
      (Shape.reshapeEquiv squeezes_S1x18x128_S18x128.numel_eq j) a : Nat) = _
  rw [Shape.reshapeEquiv_cons_one, Rect.emb_apply, Rect.off_unit, Rect.stride_unit]
  have e0 : k3_off1 L 0 = 2 * (L 1).val + (L 0).val := congrFun (k3_off1_eq L) 0
  have e1 : k3_off1 L 1 = 0 := congrFun (k3_off1_eq L) 1
  have e2 : k3_off1 L 2 = 0 := congrFun (k3_off1_eq L) 2
  match a with
  | ⟨0, _⟩ => show k3_off1 L 0 + 1 * 0 = 2 * (L 1).val + (L 0).val; omega
  | ⟨1, _⟩ => show k3_off1 L 1 + 1 * (j 0).val = (j 0).val; omega
  | ⟨2, _⟩ => show k3_off1 L 2 + 1 * (j 1).val = (j 1).val; omega

/-- Part `w` of the result's rows, cut in 32 along the rows, is rows `[2304 w, 2304 w + 2304)`. -/
theorem mem_oSet (w : Fin 32) (j : S73728x128.Idx) :
    j ∈ ((Memref.whole main_v44_scv : Memref sig .scVector .hbm S73728x128 .f32).view.slice
        (Rect.part (s := S73728x128) (a₀ := 0) (⟨2304, rfl⟩ : 32 ∣ S73728x128.size 0) w)).set
      ↔ 2304 * w.val ≤ (j 0).val ∧ (j 0).val < 2304 * w.val + 2304 := by
  show j ∈ ((View.whole main_v44_scv).slice
        (Rect.part (s := S73728x128) (a₀ := 0) (⟨2304, rfl⟩ : 32 ∣ S73728x128.size 0) w)).set ↔ _
  rw [View.set_slice_whole, Rect.mem_set_unit]
  have h1 : (j 1).val < 128 := (j 1).isLt
  constructor
  · intro h
    have h0 := h 0
    change w.val * (73728 / 32) ≤ (j 0).val ∧ (j 0).val < w.val * (73728 / 32) + 73728 / 32 at h0
    omega
  · intro h a
    match a with
    | ⟨0, _⟩ =>
      show w.val * (73728 / 32) ≤ (j 0).val ∧ (j 0).val < w.val * (73728 / 32) + 73728 / 32
      omega
    | ⟨1, _⟩ =>
      show 0 * 128 ≤ (j 1).val ∧ (j 1).val < 0 * 128 + 128
      omega

/-! ## The batch offset -/

/-- The batch offset the task adds to every word of its slab, as the program computes it from the
    grid's coordinates. -/
def k3_boffW (i : grid3.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v3 : BitVec 32 := Scalar.divsi v1 16#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v1 16#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.addi 2#32 v19
  let v21 : BitVec 32 := Scalar.muli v20 1024#32
  v21

/-- The batch offset in closed form: `1024` times the batch `2 + (2 s + c) / 16`. -/
theorem k3_boffW_eq : ∀ i : grid3.Coords,
    k3_boffW i = BitVec.ofNat 32 ((2 + (2 * (i 1).val + (i 0).val) / 16) * 1024) := by decide +kernel

section Pay
variable [FloatOps F]
/-- The offset's addition to one sixteen-lane piece, over the batch offset as a word. -/
theorem k3_pay1_eq (i : grid3.Coords) (v34 : Vec F S1x16 .i32) :
    Cert.Kernel.GenP.k3_pay1 i v34
      = shapeCast S1x16 (addi (shapeCast S16 v34 shapeCasts_S1x16_S16) (broadcast S16 (k3_boffW i))) shapeCasts_S16_S1x16 := rfl
end Pay

/-! ## One indirect gather's value -/

/-- Position `k` of a rank-one shape in row-major order is the index whose coordinate is `k`. -/
theorem rowMajor_symm_one {o : ℕ} (hn : S128.numel = o) (k : Fin o) :
    ((S128.rowMajor.symm (k.cast hn.symm)) 0).val = k.val := by
  have h := Shape.rowMajor_val_one (S128.rowMajor.symm (k.cast hn.symm))
  rw [Equiv.apply_symm_apply] at h
  exact h.symm

/-- Row `c` of the index scratch read through the squeezed slice: word `y` of the list is word `(c, y₀)`
    of the scratch. -/
theorem list_read (fI : S18x128.Idx → BitVec 32) (c : ℕ) (hc18 : c < 18)
    (inb : ∀ a, (![c, 0] : Fin 2 → ℕ) a + S1x128.size a ≤ S18x128.size a) (y : S128.Idx) :
    (((Memref.whole cc3_scratch0 : Memref sig .scVector .vmem S18x128 .i32).slice
        (Rect.unit (s := S18x128) ![c, 0] S1x128.size inb) (fun _ => rfl)).squeeze S128 squeezes_S1x128_S128).view.read (Elt F) fI y
      = fI (ix2 (⟨c % 18, Nat.mod_lt _ (by decide)⟩ : Fin 18) (y 0)) := by
  rw [View.read_apply, cast_eq]
  congr 1
  funext (a : Fin 2)
  apply Fin.ext
  show ((Rect.unit (s := S18x128) ![c, 0] S1x128.size inb).emb
      (Shape.reshapeEquiv squeezes_S1x128_S128.numel_eq y) a : Nat) = _
  rw [Shape.reshapeEquiv_cons_one, Rect.emb_apply, Rect.off_unit, Rect.stride_unit]
  match a with
  | ⟨0, _⟩ => show c + 1 * 0 = c % 18; omega
  | ⟨1, _⟩ => show 0 + 1 * (y 0).val = (y 0).val; omega

/-- The row the list names for position `k`: the number in word `(c, k)` of the scratch. -/
theorem rows_list (fI : S18x128.Idx → BitVec 32) (c : ℕ) (hc18 : c < 18)
    (inb : ∀ a, (![c, 0] : Fin 2 → ℕ) a + S1x128.size a ≤ S18x128.size a)
    (hin : ∀ x, ((((Memref.whole cc3_scratch0 : Memref sig .scVector .vmem S18x128 .i32).slice
        (Rect.unit (s := S18x128) ![c, 0] S1x128.size inb) (fun _ => rfl)).squeeze S128 squeezes_S1x128_S128).view.read (Elt F) fI x).toNat
          < S4096x128.size gathers_S4096x128_S128x128.axis)
    (k : Fin (S128x128.size gathers_S4096x128_S128x128.axis')) :
    (SparseCore.rows ((((Memref.whole cc3_scratch0 : Memref sig .scVector .vmem S18x128 .i32).slice
        (Rect.unit (s := S18x128) ![c, 0] S1x128.size inb) (fun _ => rfl)).squeeze S128 squeezes_S1x128_S128).view.read (Elt F) fI) rfl hin k).val
      = (fI (ix2 (⟨c % 18, Nat.mod_lt _ (by decide)⟩ : Fin 18) k)).toNat := by
  show ((((Memref.whole cc3_scratch0 : Memref sig .scVector .vmem S18x128 .i32).slice
        (Rect.unit (s := S18x128) ![c, 0] S1x128.size inb) (fun _ => rfl)).squeeze S128 squeezes_S1x128_S128).view.read (Elt F) fI (S128.rowMajor.symm (k.cast _))).toNat = _
  rw [list_read (F := F) fI c hc18 inb]
  have hk : (S128.rowMajor.symm (k.cast
      (rfl : S128.numel = S128x128.size gathers_S4096x128_S128x128.axis').symm)) 0 = k :=
    Fin.ext (rowMajor_symm_one rfl k)
  exact congrArg (fun t : Fin 128 => (fI (ix2 (⟨c % 18, Nat.mod_lt _ (by decide)⟩ : Fin 18) t)).toNat) hk

/-- One indirect gather's value: row `j₀` of the row buffer is the projected array's row named by word
    `(c, j₀)` of the index scratch. -/
theorem gath_eq (p : S4096x128.Idx → Elt F .f32) (fI : S18x128.Idx → BitVec 32) (off : Fin 2 → ℕ)
    (inb : ∀ a, off a + S1x128.size a ≤ S18x128.size a) (c : ℕ) (hc : off = ![c, 0]) (hc18 : c < 18)
    (hin : ∀ x, ((((Memref.whole cc3_scratch0 : Memref sig .scVector .vmem S18x128 .i32).slice
        (Rect.unit (s := S18x128) off S1x128.size inb) (fun _ => rfl)).squeeze S128 squeezes_S1x128_S128).view.read (Elt F) fI x).toNat
          < S4096x128.size gathers_S4096x128_S128x128.axis) :
    SparseCore.gatherPayload gathers_S4096x128_S128x128
        (((Memref.whole main_v22_scv : Memref sig .scVector .hbm S4096x128 .f32).slice
          (Rect.unit (s := S4096x128) ![0, 0] S4096x128.size inb_S4096x128_S4096x128_0_0) (fun _ => rfl)).view.read (Elt F) p)
        (SparseCore.rows ((((Memref.whole cc3_scratch0 : Memref sig .scVector .vmem S18x128 .i32).slice
        (Rect.unit (s := S18x128) off S1x128.size inb) (fun _ => rfl)).squeeze S128 squeezes_S1x128_S128).view.read (Elt F) fI) rfl hin)
      = fun j : S128x128.Idx => p (ix2 (⟨(fI (ix2 (⟨c % 18, Nat.mod_lt _ (by decide)⟩ : Fin 18) (j 0))).toNat % 4096,
          Nat.mod_lt _ (by decide)⟩ : Fin 4096) (j 1)) := by
  subst hc
  funext j
  have hrow := rows_list (F := F) fI c hc18 inb hin (j gathers_S4096x128_S128x128.axis')
  have hlt0 := hin (ix1 (j 0))
  rw [list_read (F := F) fI c hc18 inb] at hlt0
  have hlt : (fI (ix2 (⟨c % 18, Nat.mod_lt _ (by decide)⟩ : Fin 18) (j 0))).toNat < 4096 := hlt0
  unfold SparseCore.gatherPayload
  rw [View.read_apply, cast_eq]
  congr 1
  funext (b : Fin 2)
  apply Fin.ext
  show ((Rect.unit (s := S4096x128) ![0, 0] S4096x128.size inb_S4096x128_S4096x128_0_0).emb
      (gathers_S4096x128_S128x128.idx _ j) b : Nat) = _
  rw [Rect.emb_apply, Rect.off_unit, Rect.stride_unit]
  match b with
  | ⟨0, _⟩ =>
    show 0 + 1 * (gathers_S4096x128_S128x128.idx _ j gathers_S4096x128_S128x128.axis).val
      = (fI (ix2 (⟨c % 18, Nat.mod_lt _ (by decide)⟩ : Fin 18) (j 0))).toNat % 4096
    rw [Shape.Gathers.idx_axis, Nat.mod_eq_of_lt hlt, Nat.zero_add, Nat.one_mul]
    exact hrow
  | ⟨1, _⟩ =>
    show 0 + 1 * (gathers_S4096x128_S128x128.idx _ j ⟨1, by decide⟩).val = (j 1).val
    rw [Shape.Gathers.idx_of_ne gathers_S4096x128_S128x128 _ j ⟨1, by decide⟩ (by decide)]
    show 0 + 1 * (j 1).val = (j 1).val
    omega

end Cert.Kernel.ScTileVal3
-- ==== Proof.ScTile3Bits.lean ====
/-
  One vector subcore's task of the gather kernel `cc3_gk`, at a symbolic place, generic in the float instance.
  The task copies its [18,128] slab of row numbers into its index scratch, adds the batch offset to every word,
  and then streams eighteen chunks of 128 rows of the projected array through two row buffers, one gather
  outstanding per semaphore, each chunk copied out to the task's rows of the result once it has landed.
  The statement carries the value: after the task its 2304 rows of the result hold, row by row, the projected
  array's row named by the slab's word plus the batch offset.
-/
import proofs.«215572_g25211458027672_cont_9to1_2008_46_alg».proof.Proof.SkeletonKernel
import proofs.«215572_g25211458027672_cont_9to1_2008_46_alg».proof.Proof.KSetupBits
import proofs.«215572_g25211458027672_cont_9to1_2008_46_alg».proof.Proof.ScTileVal3Bits
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic
import Idealize.ShloMosaic.Lib.ValueIdx
import Idealize.ShloMosaic.Lib.Writes

noncomputable section

namespace Cert.Kernel.ScTile3

open Cert.Kernel Cert.Kernel.Gen Cert.Kernel.GenP Cert.Kernel.KS

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

variable [FloatOps F]

/-! ## The arrays and the scratch, as a vector subcore names them -/

local notation "pV" => (Memref.whole Cert.Kernel.main_v22_scv : Memref Cert.Kernel.sig Kind.scVector Space.hbm Cert.Kernel.S4096x128 EltTy.f32)
local notation "iV" => (Memref.whole Cert.Kernel.main_v43_scv : Memref Cert.Kernel.sig Kind.scVector Space.hbm Cert.Kernel.S32x18x128 EltTy.i32)
local notation "oV" => (Memref.whole Cert.Kernel.main_v44_scv : Memref Cert.Kernel.sig Kind.scVector Space.hbm Cert.Kernel.S73728x128 EltTy.f32)
local notation "sV" => (Memref.whole Cert.Kernel.cc3_scratch0 : Memref Cert.Kernel.sig Kind.scVector Space.vmem Cert.Kernel.S18x128 EltTy.i32)
local notation "aV" => (Memref.whole Cert.Kernel.cc3_scratch1 : Memref Cert.Kernel.sig Kind.scVector Space.vmem Cert.Kernel.S128x128 EltTy.f32)
local notation "bV" => (Memref.whole Cert.Kernel.cc3_scratch2 : Memref Cert.Kernel.sig Kind.scVector Space.vmem Cert.Kernel.S128x128 EltTy.f32)

theorem idiv : 32 ∣ S32x18x128.size 0 := ⟨1, rfl⟩
theorem odiv : 32 ∣ S73728x128.size 0 := ⟨2304, rfl⟩
/-- Slab `w` of the index array and rows `[2304 w, 2304 w + 2304)` of the result. -/
abbrev irow (w : Fin 32) : Rect S32x18x128 := Rect.part (s := S32x18x128) (a₀ := 0) idiv w
abbrev orow (w : Fin 32) : Rect S73728x128 := Rect.part (s := S73728x128) (a₀ := 0) odiv w
abbrev iSet (w : Fin 32) : Finset S32x18x128.Idx := ((iV).view.slice (irow w)).set
abbrev oSet (w : Fin 32) : Finset S73728x128.Idx := ((oV).view.slice (orow w)).set

/-! ## The value -/

/-- The first batch of the call (the sibling call’s is 0). -/
def k3_baseb : ℕ := 2

/-! ## The task -/

section Tile

variable (d : Dev nD) (L : grid3.Coords)

abbrev cV (L : grid3.Coords) : Fin τ.nSC := (L 0).castLE hcore3
abbrev jV (L : grid3.Coords) : Fin τ.nSub := (L 1).castLE hsub3
theorem bound_zero : grid3.bound 0 = 2 := rfl
theorem bound_one : grid3.bound 1 = 16 := rfl
/-- The task's number: `2 s + c`. -/
def wid (L : grid3.Coords) : Fin 32 := ⟨2 * (L 1).val + (L 0).val, by
  have h0 : (L 0).val < 2 := (L 0).isLt; have h1 : (L 1).val < 16 := (L 1).isLt; omega⟩

/-- The task's thread. -/
abbrev thr (d : Dev nD) (L : grid3.Coords) : Thread nD τ := V d (cV L) (jV L)

theorem mem_own (a : DmaSem sig) (h : (SemLoc.dma a : SemLoc sig).isScoped .scVector = true) :
    ((thr d L, SemLoc.dma a) : GSem nD τ sig) ∈ ownCells (thr d L) := (mem_ownCells (g := (thr d L, SemLoc.dma a))).mpr ⟨rfl, h⟩
theorem gsem_ne {a b : DmaSem sig} (h : a ≠ b) : ((thr d L, SemLoc.dma a) : GSem nD τ sig) ≠ (thr d L, SemLoc.dma b) :=
  fun e => h (by injection e with _ e2; injection e2)

theorem ownSems0_V :
    (ownSems0 (thr d L) : sProp 𝕄)
      = iprop(semVal (thr d L, SemLoc.dma cc3_scratch3.sem) 0 ∗ semVal (thr d L, SemLoc.dma cc3_scratch4.sem) 0
          ∗ semVal (thr d L, SemLoc.dma cc3_scoped0.sem) 0 ∗ semVal (thr d L, SemLoc.dma cc3_scoped1.sem) 0 ∗ semVal (thr d L, SemLoc.dma cc3_scoped2.sem) 0
          ∗ bigSep (((((ownCells (thr d L)).erase (thr d L, SemLoc.dma cc3_scratch3.sem)).erase (thr d L, SemLoc.dma cc3_scratch4.sem)).erase
              (thr d L, SemLoc.dma cc3_scoped0.sem)).erase (thr d L, SemLoc.dma cc3_scoped1.sem) |>.erase (thr d L, SemLoc.dma cc3_scoped2.sem)) fun g => semVal g 0) := by
  unfold SparseCore.Cfg.ownSems0
  have m3 := mem_own d L cc3_scratch3.sem (by decide)
  have m4 := mem_own d L cc3_scratch4.sem (by decide)
  have m5 := mem_own d L cc3_scoped0.sem (by decide)
  have m6 := mem_own d L cc3_scoped1.sem (by decide)
  have m7 := mem_own d L cc3_scoped2.sem (by decide)
  have n34 := gsem_ne d L (show cc3_scratch3.sem ≠ cc3_scratch4.sem by decide)
  have n35 := gsem_ne d L (show cc3_scratch3.sem ≠ cc3_scoped0.sem by decide)
  have n36 := gsem_ne d L (show cc3_scratch3.sem ≠ cc3_scoped1.sem by decide)
  have n37 := gsem_ne d L (show cc3_scratch3.sem ≠ cc3_scoped2.sem by decide)
  have n45 := gsem_ne d L (show cc3_scratch4.sem ≠ cc3_scoped0.sem by decide)
  have n46 := gsem_ne d L (show cc3_scratch4.sem ≠ cc3_scoped1.sem by decide)
  have n47 := gsem_ne d L (show cc3_scratch4.sem ≠ cc3_scoped2.sem by decide)
  have n56 := gsem_ne d L (show cc3_scoped0.sem ≠ cc3_scoped1.sem by decide)
  have n57 := gsem_ne d L (show cc3_scoped0.sem ≠ cc3_scoped2.sem by decide)
  have n67 := gsem_ne d L (show cc3_scoped1.sem ≠ cc3_scoped2.sem by decide)
  rw [SparseCore.bigSep_erase' m3,
    SparseCore.bigSep_erase' (Finset.mem_erase.mpr ⟨n34.symm, m4⟩),
    SparseCore.bigSep_erase' (Finset.mem_erase.mpr ⟨n45.symm, Finset.mem_erase.mpr ⟨n35.symm, m5⟩⟩),
    SparseCore.bigSep_erase' (Finset.mem_erase.mpr ⟨n56.symm, Finset.mem_erase.mpr ⟨n46.symm, Finset.mem_erase.mpr ⟨n36.symm, m6⟩⟩⟩),
    SparseCore.bigSep_erase' (Finset.mem_erase.mpr ⟨n67.symm, Finset.mem_erase.mpr ⟨n57.symm, Finset.mem_erase.mpr ⟨n47.symm, Finset.mem_erase.mpr ⟨n37.symm, m7⟩⟩⟩⟩)]

theorem ownBufs_V :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc3_scratch0) rfl
  have m1 := SparseCore.Cfg.mem_ownRefs_of_owner (p := Proc.scVector (cV L) (jV L)) (b := (Proc.scVector (cV L) (jV L)).devRef cc3_scratch1) rfl
  have m2 := SparseCore.Cfg.mem_ownRefs_of_owner (p := Proc.scVector (cV L) (jV L)) (b := (Proc.scVector (cV L) (jV L)).devRef cc3_scratch2) rfl
  have n10 : (Proc.scVector (cV L) (jV L)).devRef cc3_scratch1 ≠ (Proc.scVector (cV L) (jV L)).devRef cc3_scratch0 :=
    fun e => absurd (Proc.devRef_injective _ e) (show (cc3_scratch1 : Ref sig .scVector) ≠ cc3_scratch0 by decide)
  have n20 : (Proc.scVector (cV L) (jV L)).devRef cc3_scratch2 ≠ (Proc.scVector (cV L) (jV L)).devRef cc3_scratch0 :=
    fun e => absurd (Proc.devRef_injective _ e) (show (cc3_scratch2 : Ref sig .scVector) ≠ cc3_scratch0 by decide)
  have n21 : (Proc.scVector (cV L) (jV L)).devRef cc3_scratch2 ≠ (Proc.scVector (cV L) (jV L)).devRef cc3_scratch1 :=
    fun e => absurd (Proc.devRef_injective _ e) (show (cc3_scratch2 : Ref sig .scVector) ≠ cc3_scratch1 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩)]

/-- Slab `wid L` of the index array, squeezed, as the task addresses it. -/
abbrev irowK (L : grid3.Coords) : Rect S32x18x128 := Rect.unit (s := S32x18x128) (k3_off1 L) S1x18x128.size (k3_off1_inb L)
abbrev iSlabK (L : grid3.Coords) : Memref sig .scVector .hbm S18x128 .i32 := ((iV).slice (irowK L) (fun _ => rfl)).squeeze S18x128 squeezes_S1x18x128_S18x128
/-- All of the projected array, as the task addresses it. -/
abbrev pAllK : Memref sig .scVector .hbm S4096x128 .f32 := (pV).slice (Rect.unit (s := S4096x128) ![0, 0] S4096x128.size inb_S4096x128_S4096x128_0_0) (fun _ => rfl)

theorem irowK_eq : irowK L = irow (wid L) := by
  unfold irowK irow Rect.part Rect.block
  congr 1 <;> funext a
  · rw [k3_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_iSlabK : (iSlabK L).view.set = iSet (wid L) := by
  show (((iV).view.slice (irowK L)).reshape S18x128 squeezes_S1x18x128_S18x128.numel_eq).set = ((iV).view.slice (irow (wid L))).set
  rw [View.set_reshape]
  exact irowK_eq L ▸ rfl

theorem pts_iSlabK (f : Buf (Elt F) (i1Loc d)) :
    ((iSlabK L).view.loc (thr d L) ↦[(iSlabK L).view.set]{fullShare} f : sProp 𝕄) = i1Loc d ↦[iSet (wid L)]{fullShare} f := by
  rw [set_iSlabK]
theorem pts_pV (q : PosShare TreeShare) (f : Buf (Elt F) (pLoc d)) :
    ((pV).view.loc (thr d L) ↦{q} f : sProp 𝕄) = pLoc d ↦{q} f := rfl
theorem pts_sV (f : Buf (Elt F) ((thr d L).loc cc3_scratch0)) :
    ((sV).view.loc (thr d L) ↦{fullShare} f : sProp 𝕄) = (thr d L).loc cc3_scratch0 ↦{fullShare} f := rfl
theorem pts_aV (f : Buf (Elt F) ((thr d L).loc cc3_scratch1)) :
    ((aV).view.loc (thr d L) ↦{fullShare} f : sProp 𝕄) = (thr d L).loc cc3_scratch1 ↦{fullShare} f := rfl
theorem pts_bV (f : Buf (Elt F) ((thr d L).loc cc3_scratch2)) :
    ((bV).view.loc (thr d L) ↦{fullShare} f : sProp 𝕄) = (thr d L).loc cc3_scratch2 ↦{fullShare} f := rfl

/-! ## The offset's addition: the scratch after `n` sixteen-lane pieces -/

/-- Words `128 j₀ + j₁ < 16 n` of `g` have had `bo` added; the others are `g`'s. -/
def addN (g : S18x128.Idx → BitVec 32) (bo : BitVec 32) (n : ℕ) : S18x128.Idx → BitVec 32 :=
  fun j => if 128 * (j 0).val + (j 1).val < 16 * n then g j + bo else g j

theorem addN_zero (g : S18x128.Idx → BitVec 32) (bo : BitVec 32) : addN g bo 0 = g := by
  funext j; unfold addN; rw [if_neg (by omega)]

/-- The inner loop's invariant at row `t1`, piece `k`; the outer's at row `k`. -/
def invIn (g : S18x128.Idx → BitVec 32) (bo : BitVec 32) (t1 : ℕ) (k : ℕ) (_ : BitVec 32) : sProp 𝕄 :=
  (sV).view.loc (thr d L) ↦{fullShare} (addN g bo (8 * t1 + k) : Buf (Elt F) ((sV).view.loc (thr d L)))
def invOut (g : S18x128.Idx → BitVec 32) (bo : BitVec 32) (k : ℕ) (_ : BitVec 32) : sProp 𝕄 :=
  (sV).view.loc (thr d L) ↦{fullShare} (addN g bo (8 * k) : Buf (Elt F) ((sV).view.loc (thr d L)))

theorem pay_apply (v : S1x16.Idx → BitVec 32) (bo : BitVec 32) (x : S1x16.Idx) :
    shapeCast S1x16 (addi (shapeCast S16 v shapeCasts_S1x16_S16) (broadcast S16 bo)) shapeCasts_S16_S1x16 x = v x + bo := by
  unfold shapeCast addi broadcast
  show IntOp.addi (v ((Shape.reshapeEquiv shapeCasts_S1x16_S16) ((Shape.reshapeEquiv shapeCasts_S16_S1x16) x))) bo = v x + bo
  rw [Shape.reshapeEquiv_reshapeEquiv, Shape.reshapeEquiv_self]
  rfl

/-- One trip of the inner loop: piece `8 t1 + t2` gets the offset. -/
theorem add_step (g : S18x128.Idx → BitVec 32) (bo : BitVec 32) (t1 : Fin k3_t1_loop.trips) (t2 : Fin k3_t2_loop.trips) :
    ((sV).view.writes (Elt F) (addN g bo (8 * t1.val + t2.val))
      [⟨Rect.unit (s := S18x128) (k3_off2 t1 t2) S1x16.size (k3_off2_inb t1 t2),
        shapeCast S1x16 (addi (shapeCast S16 ((sV).view.readAt (Elt F) (Rect.unit (s := S18x128) (k3_off2 t1 t2) S1x16.size (k3_off2_inb t1 t2)).toLoadRect
          (addN g bo (8 * t1.val + t2.val))) shapeCasts_S1x16_S16) (broadcast S16 bo)) shapeCasts_S16_S1x16⟩])
      = addN g bo (8 * t1.val + (t2.val + 1)) := by
  have h1 : t1.val < 18 := Nat.lt_of_lt_of_le t1.isLt k3_t1_abs.2.1
  have h2 : t2.val < 8 := Nat.lt_of_lt_of_le t2.isLt k3_t2_abs.2.1
  funext i
  rw [View.writes_singleton]
  have hi1 : (i 1).val < 128 := (i 1).isLt
  by_cases hi : i ∈ (Rect.unit (s := S18x128) (k3_off2 t1 t2) S1x16.size (k3_off2_inb t1 t2)).set
  · obtain ⟨x, hx⟩ := LoadRect.exists_idx_of_mem _ hi
    have hm := Rect.mem_set_unit.mp hi
    have e : ((sV).view.slice (Rect.unit (s := S18x128) (k3_off2 t1 t2) S1x16.size (k3_off2_inb t1 t2))).emb x = i := hx
    have e0 : k3_off2 t1 t2 0 = t1.val := by rw [k3_off2_eq]; rfl
    have e1 : k3_off2 t1 t2 1 = 16 * t2.val := by rw [k3_off2_eq]; rfl
    have ha := hm 0
    have hb := hm 1
    rw [e0] at ha; rw [e1] at hb
    change t1.val ≤ (i 0).val ∧ (i 0).val < t1.val + 1 at ha
    change 16 * t2.val ≤ (i 1).val ∧ (i 1).val < 16 * t2.val + 16 at hb
    conv_lhs => rw [← e]
    rw [View.write_emb_of_mem _ _ (Finset.mem_univ _), pay_apply, cast_eq, View.readAt_apply, hx]
    show addN g bo (8 * t1.val + t2.val) i + bo = addN g bo (8 * t1.val + (t2.val + 1)) i
    unfold addN
    rw [if_neg (by omega), if_pos (by omega)]
  · rw [View.write_of_not_mem _ _ _ (by rwa [View.setOn_univ, View.set_slice_whole])]
    have hm := fun h => hi (Rect.mem_set_unit.mpr h)
    have key : ¬ (16 * (8 * t1.val + t2.val) ≤ 128 * (i 0).val + (i 1).val ∧ 128 * (i 0).val + (i 1).val < 16 * (8 * t1.val + t2.val) + 16) :=
      fun ⟨ha, hb⟩ => hm (by
        intro a; rw [k3_off2_eq]
        match a with
        | ⟨0, _⟩ => exact (show t1.val ≤ (i 0).val ∧ (i 0).val < t1.val + 1 by omega)
        | ⟨1, _⟩ => exact (show 16 * t2.val ≤ (i 1).val ∧ (i 1).val < 16 * t2.val + 16 by omega))
    show addN g bo (8 * t1.val + t2.val) i = addN g bo (8 * t1.val + (t2.val + 1)) i
    unfold addN
    by_cases c1 : 128 * (i 0).val + (i 1).val < 16 * (8 * t1.val + t2.val)
    · rw [if_pos c1, if_pos (by omega)]
    · rw [if_neg c1, if_neg (by omega)]

theorem trips_t1 : Scf.trips k3_t1_loop.lb k3_t1_loop.ub k3_t1_loop.st = 18 := by decide
theorem trips_t2 : Scf.trips k3_t2_loop.lb k3_t2_loop.ub k3_t2_loop.st = 8 := by decide
theorem trips_t3 : Scf.trips k3_t3_loop.lb k3_t3_loop.ub k3_t3_loop.st = 18 := by decide

/-! ## The chunk loop: rows of the scratch, the gathered rows, the result so far -/

theorem cond1_iff : ∀ k : Fin k3_t3_loop.trips, k3_cond1 k = 1#1 ↔ (k.val % 2 = 0 ∧ k.val + 1 < 18) := by decide +kernel
theorem cond2_iff : ∀ k : Fin k3_t3_loop.trips, k3_cond2 k = 1#1 ↔ (k.val % 2 = 1 ∧ k.val + 1 < 18) := by decide +kernel
theorem cond3_iff : ∀ k : Fin k3_t3_loop.trips, k3_cond3 k = 1#1 ↔ k.val % 2 = 0 := by decide +kernel
theorem cond4_iff : ∀ k : Fin k3_t3_loop.trips, k3_cond4 k = 1#1 ↔ k.val % 2 = 1 := by decide +kernel

/-- Row `c` of the index scratch (empty for `c ≥ 18`). -/
def rowSet (c : ℕ) : Finset S18x128.Idx := Finset.univ.filter fun j => (j 0).val = c

/-- A row of the scratch as an offset list, as the task addresses it. -/
abbrev offsK (off : Fin 2 → ℕ) (inb : ∀ a, off a + S1x128.size a ≤ S18x128.size a) : Memref sig .scVector .vmem S128 .i32 :=
  ((sV).slice (Rect.unit (s := S18x128) off S1x128.size inb) (fun _ => rfl)).squeeze S128 squeezes_S1x128_S128

theorem set_offsK (off : Fin 2 → ℕ) (inb : ∀ a, off a + S1x128.size a ≤ S18x128.size a) (c : ℕ) (h : off = ![c, 0]) :
    (offsK off inb).view.set = rowSet c := by
  show (((sV).view.slice (Rect.unit (s := S18x128) off S1x128.size inb)).reshape S128 squeezes_S1x128_S128.numel_eq).set = _
  rw [View.set_reshape, View.set_slice_whole]
  subst h
  ext j
  rw [Rect.mem_set_unit]
  unfold rowSet
  rw [Finset.mem_filter]
  constructor
  · intro hj
    have h0 := hj 0
    change c ≤ (j 0).val ∧ (j 0).val < c + 1 at h0
    exact ⟨Finset.mem_univ _, by omega⟩
  · rintro ⟨-, hj⟩ a
    match a with
    | ⟨0, _⟩ => exact (show c ≤ (j 0).val ∧ (j 0).val < c + 1 by omega)
    | ⟨1, _⟩ => exact (show 0 ≤ (j 1).val ∧ (j 1).val < 0 + 128 from ⟨Nat.zero_le _, by have h : (j 1).val < 128 := (j 1).isLt; omega⟩)

/-- The rows chunk `c` gathers: row `l` is the projected array's row named by word `(c, l)` of the scratch. -/
def gath (p : S4096x128.Idx → Elt F .f32) (fI : S18x128.Idx → BitVec 32) (c : ℕ) : S128x128.Idx → Elt F .f32 :=
  fun j => p (ix2 (⟨(fI (ix2 (⟨c % 18, Nat.mod_lt _ (by decide)⟩ : Fin 18) (j 0))).toNat % 4096, Nat.mod_lt _ (by decide)⟩ : Fin 4096) (j 1))

/-- The result after the chunks below `c` are written: rows below `base + 128 c` gathered, the others as they were. -/
def outN (p : S4096x128.Idx → Elt F .f32) (fI : S18x128.Idx → BitVec 32) (fo : S73728x128.Idx → Elt F .f32) (base c : ℕ) :
    S73728x128.Idx → Elt F .f32 :=
  fun j => if base ≤ (j 0).val ∧ (j 0).val < base + 128 * c then
      p (ix2 (⟨(fI (ix2 (⟨(j 0).val / 128 % 18, Nat.mod_lt _ (by decide)⟩ : Fin 18) (⟨(j 0).val % 128, Nat.mod_lt _ (by decide)⟩ : Fin 128))).toNat % 4096,
        Nat.mod_lt _ (by decide)⟩ : Fin 4096) (j 1))
    else fo j

/-- The two row buffers held by their elements. -/
abbrev aPts (f : S128x128.Idx → Elt F .f32) : sProp 𝕄 := (aV).view.loc (thr d L) ↦[(aV).view.set]{fullShare} (f : Buf (Elt F) ((aV).view.loc (thr d L)))
abbrev bPts (f : S128x128.Idx → Elt F .f32) : sProp 𝕄 := (bV).view.loc (thr d L) ↦[(bV).view.set]{fullShare} (f : Buf (Elt F) ((bV).view.loc (thr d L)))

/-- What a landed gather of chunk `c` delivers: the row buffer at the gathered rows, the share of the projected array,
    row `c` of the scratch. -/
def slotD (X : (S128x128.Idx → Elt F .f32) → sProp 𝕄) (qh : PosShare TreeShare) (p : S4096x128.Idx → Elt F .f32)
    (fI : S18x128.Idx → BitVec 32) (c : ℕ) : sProp 𝕄 :=
  iprop(X (gath p fI c)
    ∗ ((pAllK).view.loc (thr d L) ↦[(pAllK).view.set]{qh} (p : Buf (Elt F) ((pAllK).view.loc (thr d L))))
    ∗ ((sV).view.loc (thr d L) ↦[rowSet c]{fullShare} (fI : Buf (Elt F) ((sV).view.loc (thr d L)))))

/-- A row buffer with the gather of chunk `c` outstanding on its semaphore. -/
def slotP (X : (S128x128.Idx → Elt F .f32) → sProp 𝕄) (sem : DmaSem sig) (N : ℕ) (qh : PosShare TreeShare) (p : S4096x128.Idx → Elt F .f32)
    (fI : S18x128.Idx → BitVec 32) (c : ℕ) : sProp 𝕄 :=
  Transfers.Flight countersEmb (thr d L) (.dma sem) (default : HIx 2) N (slotD (F := F) d L X qh p fI c)

/-- A free row buffer: the buffer at some contents, the share of the projected array, the semaphore at zero. -/
def slotF (X : (S128x128.Idx → Elt F .f32) → sProp 𝕄) (sem : DmaSem sig) (qh : PosShare TreeShare) (p : S4096x128.Idx → Elt F .f32) : sProp 𝕄 :=
  iprop((∃ f, X f)
    ∗ ((pAllK).view.loc (thr d L) ↦[(pAllK).view.set]{qh} (p : Buf (Elt F) ((pAllK).view.loc (thr d L))))
    ∗ semVal (thr d L, SemLoc.dma sem) 0)

theorem slotP_eq (X : (S128x128.Idx → Elt F .f32) → sProp 𝕄) (sem : DmaSem sig) (N : ℕ) (qh : PosShare TreeShare) (p : S4096x128.Idx → Elt F .f32)
    (fI : S18x128.Idx → BitVec 32) (c : ℕ) :
    slotP (F := F) d L X sem N qh p fI c
      = Transfers.Flight countersEmb (thr d L) (.dma sem) (default : HIx 2) N (slotD (F := F) d L X qh p fI c) := rfl

theorem slotD_eq (X : (S128x128.Idx → Elt F .f32) → sProp 𝕄) (qh : PosShare TreeShare) (p : S4096x128.Idx → Elt F .f32)
    (fI : S18x128.Idx → BitVec 32) (c : ℕ) :
    slotD (F := F) d L X qh p fI c
      = iprop(X (gath p fI c)
          ∗ ((pAllK).view.loc (thr d L) ↦[(pAllK).view.set]{qh} (p : Buf (Elt F) ((pAllK).view.loc (thr d L))))
          ∗ ((sV).view.loc (thr d L) ↦[rowSet c]{fullShare} (fI : Buf (Elt F) ((sV).view.loc (thr d L))))) := rfl

/-- The chunk loop's invariant before trip `c`: the gather of chunk `c` outstanding on the buffer of `c`'s parity
    (none at `c = 18`), the other buffer free; every row of the scratch but row `c`; the result with the chunks
    below `c` written; the copy-out semaphores at zero; the task's `owes`. -/
def inv3 (q : PosShare TreeShare) (p : S4096x128.Idx → Elt F .f32) (fI : S18x128.Idx → BitVec 32) (fo : S73728x128.Idx → Elt F .f32)
    (O : CellTallies nD τ sig (HIx 2)) (W0 : Waits sig (HIx 2)) (c : ℕ) (_ : BitVec 32) : sProp 𝕄 :=
  iprop(Transfers.MayWaits (thr d L) (default : HIx 2) O
    ∗ (if c % 2 = 0 then
        iprop((if c < 18 then slotP (F := F) d L (aPts d L) cc3_scratch3.sem (aV).view.dmaCredit q.left p fI c else slotF (F := F) d L (aPts d L) cc3_scratch3.sem q.left p)
          ∗ slotF (F := F) d L (bPts d L) cc3_scratch4.sem q.right p)
      else
        iprop(slotF (F := F) d L (aPts d L) cc3_scratch3.sem q.left p
          ∗ (if c < 18 then slotP (F := F) d L (bPts d L) cc3_scratch4.sem (bV).view.dmaCredit q.right p fI c else slotF (F := F) d L (bPts d L) cc3_scratch4.sem q.right p)))
    ∗ ((sV).view.loc (thr d L) ↦[Finset.univ \ rowSet c]{fullShare} (fI : Buf (Elt F) ((sV).view.loc (thr d L))))
    ∗ (g1Loc d ↦[oSet (wid L)]{fullShare} (outN p fI fo ((wid L).val * 2304) c : Buf (Elt F) (g1Loc d)))
    ∗ semVal (thr d L, SemLoc.dma cc3_scoped1.sem) 0 ∗ semVal (thr d L, SemLoc.dma cc3_scoped2.sem) 0
    ∗ ∃ W', ⌜∀ x ∈ W', x ∈ W0 ∨ x.2 = none⌝ ∗ owes (thr d L) O W')

theorem hin_of (fI : S18x128.Idx → BitVec 32) (hfI : ∀ j, (fI j).toNat < 4096) (off : Fin 2 → ℕ) (inb : ∀ a, off a + S1x128.size a ≤ S18x128.size a) :
    ∀ x, ((offsK off inb).view.read (Elt F) fI x).toNat < S4096x128.size gathers_S4096x128_S128x128.axis := fun x => by
  rw [View.read_apply, cast_eq]; exact hfI _

theorem outN_zero (p : S4096x128.Idx → Elt F .f32) (fI : S18x128.Idx → BitVec 32) (fo : S73728x128.Idx → Elt F .f32) (base : ℕ) :
    outN p fI fo base 0 = fo := by
  funext j; unfold outN; rw [if_neg (by omega)]

/-- The value of one gather. -/
theorem gath_eq (p : S4096x128.Idx → Elt F .f32) (fI : S18x128.Idx → BitVec 32) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    SparseCore.gatherPayload gathers_S4096x128_S128x128 ((pAllK).view.read (Elt F) p) (SparseCore.rows ((offsK off inb).view.read (Elt F) fI) rfl hin)
      = gath p fI c :=
  Cert.Kernel.ScTileVal3.gath_eq p fI off inb c hc hc18 hin

theorem deliver_a (qh : PosShare TreeShare) (p : S4096x128.Idx → Elt F .f32) (fI : S18x128.Idx → BitVec 32)
    (fd : Buf (Elt F) ((aV).view.loc (thr d L))) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    iprop(((aV).view.loc (thr d L) ↦[(aV).view.set]{fullShare}
          ((aV).view.write (Elt F) fd (SparseCore.gatherPayload gathers_S4096x128_S128x128 ((pAllK).view.read (Elt F) p)
            (SparseCore.rows ((offsK off inb).view.read (Elt F) fI) rfl hin)) Finset.univ))
        ∗ ((pAllK).view.loc (thr d L) ↦[(pAllK).view.set]{qh} (p : Buf (Elt F) ((pAllK).view.loc (thr d L))))
        ∗ ((offsK off inb).view.loc (thr d L) ↦[(offsK off inb).view.set]{fullShare} (fI : Buf (Elt F) ((offsK off inb).view.loc (thr d L)))))
      ⊢ (slotD (F := F) d L (aPts d L) qh p fI c : sProp 𝕄) := by
  unfold slotD
  rw [set_offsK off inb c hc, gath_eq (F := F) p fI off inb c hc hc18 hin, View.write_whole_univ]

theorem deliver_b (qh : PosShare TreeShare) (p : S4096x128.Idx → Elt F .f32) (fI : S18x128.Idx → BitVec 32)
    (fd : Buf (Elt F) ((bV).view.loc (thr d L))) (off : Fin 2 → ℕ) (inb : ∀ a, off a + S1x128.size a ≤ S18x128.size a)
    (c : ℕ) (hc : off = ![c, 0]) (hc18 : c < 18)
    (hin : ∀ x, ((offsK off inb).view.read (Elt F) fI x).toNat < S4096x128.size gathers_S4096x128_S128x128.axis) :
    iprop(((bV).view.loc (thr d L) ↦[(bV).view.set]{fullShare}
          ((bV).view.write (Elt F) fd (SparseCore.gatherPayload gathers_S4096x128_S128x128 ((pAllK).view.read (Elt F) p)
            (SparseCore.rows ((offsK off inb).view.read (Elt F) fI) rfl hin)) Finset.univ))
        ∗ ((pAllK).view.loc (thr d L) ↦[(pAllK).view.set]{qh} (p : Buf (Elt F) ((pAllK).view.loc (thr d L))))
        ∗ ((offsK off inb).view.loc (thr d L) ↦[(offsK off inb).view.set]{fullShare} (fI : Buf (Elt F) ((offsK off inb).view.loc (thr d L)))))
      ⊢ (slotD (F := F) d L (bPts d L) qh p fI c : sProp 𝕄) := by
  unfold slotD
  rw [set_offsK off inb c hc, gath_eq (F := F) p fI off inb c hc hc18 hin, View.write_whole_univ]

/-! ## Rows of the scratch and chunks of the result, as sets -/

theorem rowSet_sub (a b : ℕ) (h : a ≠ b) : rowSet a ⊆ Finset.univ \ rowSet b := by
  intro j hj
  rw [Finset.mem_sdiff]
  refine ⟨Finset.mem_univ _, fun hb => ?_⟩
  unfold rowSet at hj hb
  rw [Finset.mem_filter] at hj hb
  exact h (hj.2.symm.trans hb.2)

theorem rows_swap (a b : ℕ) (h : a ≠ b) :
    ((Finset.univ : Finset S18x128.Idx) \ rowSet a) \ rowSet b ∪ rowSet a = Finset.univ \ rowSet b := by
  ext j
  simp only [Finset.mem_union, Finset.mem_sdiff, Finset.mem_univ, true_and]
  constructor
  · rintro (⟨_, hb⟩ | ha)
    · exact hb
    · intro hb
      unfold rowSet at ha hb
      rw [Finset.mem_filter] at ha hb
      exact h (ha.2.symm.trans hb.2)
  · intro hb
    by_cases ha : j ∈ rowSet a
    · exact Or.inr ha
    · exact Or.inl ⟨ha, hb⟩

theorem rows_swap_disj (a b : ℕ) : Disjoint (((Finset.univ : Finset S18x128.Idx) \ rowSet a) \ rowSet b) (rowSet a) := by
  rw [Finset.disjoint_left]
  intro j hj ha
  rw [Finset.mem_sdiff, Finset.mem_sdiff] at hj
  exact hj.1.2 ha

theorem rowSet_ge (c : ℕ) (h : 18 ≤ c) : rowSet c = ∅ := by
  unfold rowSet
  rw [Finset.filter_eq_empty_iff]
  intro j _ hj
  have h0 : (j 0).val < 18 := (j 0).isLt
  omega

/-- Rows `[r, r + 128)` of the result. -/
def chunkSet (r : ℕ) : Finset S73728x128.Idx := Finset.univ.filter fun j => r ≤ (j 0).val ∧ (j 0).val < r + 128

/-- A chunk of the result, as the task addresses it. -/
abbrev ochK (off : Fin 2 → ℕ) (inb : ∀ a, off a + S128x128.size a ≤ S73728x128.size a) : Memref sig .scVector .hbm S128x128 .f32 :=
  (oV).slice (Rect.unit (s := S73728x128) off S128x128.size inb) (fun _ => rfl)

theorem set_ochK (off : Fin 2 → ℕ) (inb : ∀ a, off a + S128x128.size a ≤ S73728x128.size a) (r : ℕ) (h : off = ![r, 0]) :
    (ochK off inb).view.set = chunkSet r := by
  show ((oV).view.slice (Rect.unit (s := S73728x128) off S128x128.size inb)).set = _
  rw [View.set_slice_whole]
  subst h
  ext j
  rw [Rect.mem_set_unit]
  unfold chunkSet
  rw [Finset.mem_filter]
  constructor
  · intro hj
    have h0 := hj 0
    change r ≤ (j 0).val ∧ (j 0).val < r + 128 at h0
    exact ⟨Finset.mem_univ _, h0⟩
  · rintro ⟨-, hj⟩ a
    match a with
    | ⟨0, _⟩ => exact hj
    | ⟨1, _⟩ => exact (show 0 ≤ (j 1).val ∧ (j 1).val < 0 + 128 from ⟨Nat.zero_le _, by have h : (j 1).val < 128 := (j 1).isLt; omega⟩)

/-- The task's rows of the result as a unit-stride rectangle. -/
abbrev orowU (w : Fin 32) : Rect S73728x128 := Rect.unit (s := S73728x128) ![w.val * 2304, 0] ![2304, 128] (fun a => by
  match a with
  | ⟨0, _⟩ => exact (show w.val * 2304 + 2304 ≤ 73728 by have := w.isLt; omega)
  | ⟨1, _⟩ => exact (show 0 + 128 ≤ 128 by omega))

theorem orow_eq (w : Fin 32) : orow w = orowU w := by
  unfold orow orowU Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem mem_oSet (w : Fin 32) (j : S73728x128.Idx) : j ∈ oSet w ↔ w.val * 2304 ≤ (j 0).val ∧ (j 0).val < w.val * 2304 + 2304 := by
  show j ∈ ((oV).view.slice (orow w)).set ↔ _
  rw [View.set_slice_whole, orow_eq, Rect.mem_set_unit]
  constructor
  · intro h; exact h 0
  · intro h a
    match a with
    | ⟨0, _⟩ => exact h
    | ⟨1, _⟩ => exact (show 0 ≤ (j 1).val ∧ (j 1).val < 0 + 128 from ⟨Nat.zero_le _, by have h1 : (j 1).val < 128 := (j 1).isLt; omega⟩)

theorem chunk_sub (w : Fin 32) (k : ℕ) (hk : k < 18) : chunkSet (w.val * 2304 + 128 * k) ⊆ oSet w := by
  intro j hj
  unfold chunkSet at hj
  rw [Finset.mem_filter] at hj
  obtain ⟨-, h1, h2⟩ := hj
  rw [mem_oSet]
  constructor <;> omega

/-- Off chunk `k` the result is the same before and after the chunk's copy. -/
theorem out_miss (p : S4096x128.Idx → Elt F .f32) (fI : S18x128.Idx → BitVec 32) (fo : S73728x128.Idx → Elt F .f32) (B k : ℕ) :
    ∀ j, j ∉ chunkSet (B + 128 * k) → outN p fI fo B k j = outN p fI fo B (k + 1) j := by
  intro j hj
  have hj' : ¬ (B + 128 * k ≤ (j 0).val ∧ (j 0).val < B + 128 * k + 128) := fun h => hj (by
    unfold chunkSet; rw [Finset.mem_filter]; exact ⟨Finset.mem_univ _, h⟩)
  unfold outN
  by_cases c1 : B ≤ (j 0).val ∧ (j 0).val < B + 128 * k
  · rw [if_pos c1, if_pos ⟨c1.1, by omega⟩]
  · rw [if_neg c1, if_neg (by omega)]

/-- On chunk `k` the copy writes the chunk's gathered rows: the result after the chunk. -/
theorem out_hit (p : S4096x128.Idx → Elt F .f32) (fI : S18x128.Idx → BitVec 32) (fo : S73728x128.Idx → Elt F .f32) (w k : ℕ) (hk : k < 18)
    (off : Fin 2 → ℕ) (inb : ∀ a, off a + S128x128.size a ≤ S73728x128.size a) (h : off = ![w * 2304 + 128 * k, 0])
    (f0 : Buf (Elt F) ((ochK off inb).view.loc (thr d L))) (pay : S128x128.Idx → Elt F .f32) (hpay : pay = gath p fI k) :
    ∀ j ∈ (ochK off inb).view.set, ((ochK off inb).view.writes (Elt F) f0 [⟨Rect.whole S128x128, pay⟩]) j = outN p fI fo (w * 2304) (k + 1) j := by
  subst h hpay
  intro j hj
  obtain ⟨x, -, rfl⟩ := Finset.mem_map.mp hj
  rw [View.writes_singleton]
  have e : ((ochK ![w * 2304 + 128 * k, 0] inb).view.slice (Rect.whole S128x128)).emb x = (ochK ![w * 2304 + 128 * k, 0] inb).view.emb x :=
    congrArg (ochK ![w * 2304 + 128 * k, 0] inb).view.emb (Rect.emb_whole_apply S128x128 x)
  conv_lhs => rw [← e]
  rw [View.write_emb_of_mem _ _ (Finset.mem_univ x), cast_eq]
  have e0 : (((ochK ![w * 2304 + 128 * k, 0] inb).view.emb x) 0).val = (w * 2304 + 128 * k) + 1 * (x 0).val := rfl
  have e1 : (((ochK ![w * 2304 + 128 * k, 0] inb).view.emb x) 1).val = 0 + 1 * (x 1).val := rfl
  have hx0 : (x 0).val < 128 := (x 0).isLt
  generalize ((ochK ![w * 2304 + 128 * k, 0] inb).view.emb x) = j at e0 e1 ⊢
  unfold outN gath
  rw [if_pos ⟨by omega, by omega⟩]
  have hix : (ix2 (⟨k % 18, Nat.mod_lt _ (by decide)⟩ : Fin 18) (x 0) : S18x128.Idx)
      = ix2 (⟨(j 0).val / 128 % 18, Nat.mod_lt _ (by decide)⟩ : Fin 18) (⟨(j 0).val % 128, Nat.mod_lt _ (by decide)⟩ : Fin 128) := by
    funext a
    match a with
    | ⟨0, _⟩ => exact Fin.ext (by show k % 18 = (j 0).val / 128 % 18; omega)
    | ⟨1, _⟩ => exact Fin.ext (by show (x 0).val = (j 0).val % 128; omega)
  have hcol : (x 1 : Fin 128) = j 1 := Fin.ext (by show (x 1).val = (j 1).val; omega)
  refine (congrArg (fun i : S18x128.Idx => p (ix2 (⟨(fI i).toNat % 4096, Nat.mod_lt _ (by decide)⟩ : Fin 4096) (x 1))) hix).trans ?_
  exact congrArg (fun c : Fin 128 => p (ix2 (⟨(fI (ix2 (⟨(j 0).val / 128 % 18, Nat.mod_lt _ (by decide)⟩ : Fin 18)
    (⟨(j 0).val % 128, Nat.mod_lt _ (by decide)⟩ : Fin 128))).toNat % 4096, Nat.mod_lt _ (by decide)⟩ : Fin 4096) c)) hcol

theorem sdiff_swap {ι : Type} [DecidableEq ι] (U A B : Finset ι) (hA : A ⊆ U) (hAB : Disjoint A B) : (U \ A) \ B ∪ A = U \ B := by
  ext j
  simp only [Finset.mem_union, Finset.mem_sdiff]
  constructor
  · rintro (⟨⟨hU, _⟩, hB⟩ | hA')
    · exact ⟨hU, hB⟩
    · exact ⟨hA hA', fun hB => Finset.disjoint_left.mp hAB hA' hB⟩
  · rintro ⟨hU, hB⟩
    by_cases hA' : j ∈ A
    · exact Or.inr hA'
    · exact Or.inl ⟨⟨hU, hA'⟩, hB⟩

theorem sdiff_swap_disj {ι : Type} [DecidableEq ι] (U A B : Finset ι) : Disjoint ((U \ A) \ B) A := by
  rw [Finset.disjoint_left]
  intro j hj ha
  rw [Finset.mem_sdiff, Finset.mem_sdiff] at hj
  exact hj.1.2 ha

theorem rowSet_disj (a b : ℕ) (h : a ≠ b) : Disjoint (rowSet a) (rowSet b) := by
  rw [Finset.disjoint_left]
  intro j ha hb
  unfold rowSet at ha hb
  rw [Finset.mem_filter] at ha hb
  exact h (ha.2.symm.trans hb.2)

/-- Row `a` back, row `b` still out: every row but `b`. -/
theorem rows_join (fI : S18x128.Idx → BitVec 32) (a b : ℕ) (h : a ≠ b) :
    iprop(((sV).view.loc (thr d L) ↦[(Finset.univ \ rowSet a) \ rowSet b]{fullShare} (fI : Buf (Elt F) ((sV).view.loc (thr d L))))
        ∗ ((sV).view.loc (thr d L) ↦[rowSet a]{fullShare} (fI : Buf (Elt F) ((sV).view.loc (thr d L)))))
      ⊢ ((sV).view.loc (thr d L) ↦[Finset.univ \ rowSet b]{fullShare} (fI : Buf (Elt F) ((sV).view.loc (thr d L))) : sProp 𝕄) := by
  have hsw := sdiff_swap (Finset.univ : Finset (Idx ((sV).view.loc (thr d L)))) (rowSet a) (rowSet b) (Finset.subset_univ _) (rowSet_disj a b h)
  rw [← hsw]
  exact (pointsTo_union (sdiff_swap_disj _ _ _)).2

/-- The last row back: the scratch whole. -/
theorem rows_last (fI : S18x128.Idx → BitVec 32) (a : ℕ) (h : 18 ≤ a + 1) :
    iprop(((sV).view.loc (thr d L) ↦[rowSet a]{fullShare} (fI : Buf (Elt F) ((sV).view.loc (thr d L))))
        ∗ ((sV).view.loc (thr d L) ↦[Finset.univ \ rowSet a]{fullShare} (fI : Buf (Elt F) ((sV).view.loc (thr d L)))))
      ⊢ ((sV).view.loc (thr d L) ↦[Finset.univ \ rowSet (a + 1)]{fullShare} (fI : Buf (Elt F) ((sV).view.loc (thr d L))) : sProp 𝕄) := by
  rw [rowSet_ge (a + 1) h, Finset.sdiff_empty]
  exact (pointsTo_split_subset (Finset.subset_univ (rowSet a))).2

/-! ## The scratch after the additions, and the result after the last chunk -/

/-- The batch offset as the kernel computes it. -/
def k3_boffW (i : grid3.Coords) : BitVec 32 :=
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v3 : BitVec 32 := Scalar.divsi v1 16#32
  let v4 : BitVec 1 := Scalar.cmpi .sgt v1 0#32
  let v5 : BitVec 32 := Scalar.extui v4
  let v6 : BitVec 1 := Scalar.cmpi .slt v1 0#32
  let v7 : BitVec 32 := Scalar.extui v6
  let v8 : BitVec 32 := Scalar.subi v5 v7
  let v9 : BitVec 1 := Scalar.cmpi .sgt 16#32 0#32
  let v10 : BitVec 32 := Scalar.extui v9
  let v11 : BitVec 1 := Scalar.cmpi .slt 16#32 0#32
  let v12 : BitVec 32 := Scalar.extui v11
  let v13 : BitVec 32 := Scalar.subi v10 v12
  let v14 : BitVec 1 := Scalar.cmpi .ne v8 v13
  let v15 : BitVec 32 := Scalar.remsi v1 16#32
  let v16 : BitVec 1 := Scalar.cmpi .ne v15 0#32
  let v17 : BitVec 1 := Scalar.andi v14 v16
  let v18 : BitVec 32 := Scalar.subi v3 1#32
  let v19 : BitVec 32 := Scalar.select v17 v18 v3
  let v20 : BitVec 32 := Scalar.addi 2#32 v19
  let v21 : BitVec 32 := Scalar.muli v20 1024#32
  v21

theorem k3_boffW_eq : ∀ i : grid3.Coords, k3_boffW i = BitVec.ofNat 32 ((2 + (2 * (i 1).val + (i 0).val) / 16) * 1024) := by decide +kernel

/-- The slab as the scratch receives it, word by word. -/
theorem slab_read (ix : S32x18x128.Idx → Elt F .i32) (j : S18x128.Idx) :
    (iSlabK L).view.read (Elt F) ix j = ix (ix3 (wid L) (j 0) (j 1)) :=
  Cert.Kernel.ScTileVal3.slab_read L ix j

theorem fI_apply (ix : S32x18x128.Idx → Elt F .i32) (fs : Buf (Elt F) ((sV).view.loc (thr d L))) (j : S18x128.Idx) :
    addN (View.write (Elt F) (sV).view fs ((iSlabK L).view.read (Elt F) ix) Finset.univ) (k3_boffW L) (8 * 18) j
      = (ix (ix3 (wid L) (j 0) (j 1)) : BitVec 32) + BitVec.ofNat 32 ((k3_baseb + (wid L).val / 16) * 1024) := by
  have h0 : (j 0).val < 18 := (j 0).isLt
  have h1 : (j 1).val < 128 := (j 1).isLt
  unfold addN
  rw [if_pos (by omega), View.write_whole_univ, slab_read, k3_boffW_eq]
  rfl

theorem fI_lt (ix : S32x18x128.Idx → Elt F .i32) (hix : ∀ j : S32x18x128.Idx, ((ix j : BitVec 32)).toNat < 1024)
    (fs : Buf (Elt F) ((sV).view.loc (thr d L))) :
    ∀ j, (addN (View.write (Elt F) (sV).view fs ((iSlabK L).view.read (Elt F) ix) Finset.univ) (k3_boffW L) (8 * 18) j).toNat < 4096 := by
  intro j
  rw [fI_apply]
  have h1 := hix (ix3 (wid L) (j 0) (j 1))
  have hw : (wid L).val < 32 := (wid L).isLt
  have hb : (BitVec.ofNat 32 ((k3_baseb + (wid L).val / 16) * 1024)).toNat ≤ 3072 := by
    rw [BitVec.toNat_ofNat]
    refine le_trans (Nat.mod_le _ _) ?_
    have hb0 : k3_baseb ≤ 2 := by decide
    omega
  calc ((ix (ix3 (wid L) (j 0) (j 1)) : BitVec 32) + BitVec.ofNat 32 ((k3_baseb + (wid L).val / 16) * 1024)).toNat
      = ((ix (ix3 (wid L) (j 0) (j 1)) : BitVec 32).toNat + (BitVec.ofNat 32 ((k3_baseb + (wid L).val / 16) * 1024)).toNat) % 2 ^ 32 := BitVec.toNat_add _ _
    _ ≤ (ix (ix3 (wid L) (j 0) (j 1)) : BitVec 32).toNat + (BitVec.ofNat 32 ((k3_baseb + (wid L).val / 16) * 1024)).toNat := Nat.mod_le _ _
    _ < 4096 := by omega

/-- After the last chunk the task's rows hold the gather's value. -/
theorem final_val (p : S4096x128.Idx → Elt F .f32) (ix : S32x18x128.Idx → Elt F .i32) (fo : S73728x128.Idx → Elt F .f32)
    (fs : Buf (Elt F) ((sV).view.loc (thr d L))) :
    ∀ j ∈ oSet (wid L), outN p (addN (View.write (Elt F) (sV).view fs ((iSlabK L).view.read (Elt F) ix) Finset.univ) (k3_boffW L) (8 * 18)) fo
        ((wid L).val * 2304) 18 j = gatherVal k3_baseb p ix j := by
  intro j hj
  rw [mem_oSet] at hj
  have hw : (j 0).val / 2304 = (wid L).val := by omega
  have hwF : wid L = (⟨(j 0).val / 2304, by have : (j 0).val < 73728 := (j 0).isLt; omega⟩ : Fin 32) := Fin.ext hw.symm
  unfold outN
  rw [if_pos ⟨hj.1, by omega⟩]
  have hfi := fI_apply (F := F) d L ix fs (ix2 (⟨(j 0).val / 128 % 18, Nat.mod_lt _ (by decide)⟩ : Fin 18) (⟨(j 0).val % 128, Nat.mod_lt _ (by decide)⟩ : Fin 128))
  refine (congrArg (fun v : BitVec 32 => p (ix2 (⟨v.toNat % 4096, Nat.mod_lt _ (by decide)⟩ : Fin 4096) (j 1))) hfi).trans ?_
  exact congrArg (fun w : Fin 32 => p (ix2 (⟨((ix (ix3 w (⟨(j 0).val / 128 % 18, Nat.mod_lt _ (by decide)⟩ : Fin 18) (⟨(j 0).val % 128, Nat.mod_lt _ (by decide)⟩ : Fin 128)) : BitVec 32)
    + BitVec.ofNat 32 ((k3_baseb + w.val / 16) * 1024)).toNat % 4096, Nat.mod_lt _ (by decide)⟩ : Fin 4096) (j 1))) hwF

/-- The same, of the points-to. -/
theorem final_pts (p : S4096x128.Idx → Elt F .f32) (ix : S32x18x128.Idx → Elt F .i32) (fo : S73728x128.Idx → Elt F .f32)
    (fs : Buf (Elt F) ((sV).view.loc (thr d L))) :
    (g1Loc d ↦[oSet (wid L)]{fullShare} (outN p (addN (View.write (Elt F) (sV).view fs ((iSlabK L).view.read (Elt F) ix) Finset.univ) (k3_boffW L) (8 * 18)) fo
        ((wid L).val * 2304) 18 : Buf (Elt F) (g1Loc d)) : sProp 𝕄)
      = (g1Loc d ↦[oSet (wid L)]{fullShare} (gatherVal k3_baseb p ix : Buf (Elt F) (g1Loc d))) :=
  pointsTo_congr (final_val (F := F) d L p ix fo fs)

set_option maxHeartbeats 8000000 in
theorem trip_even (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k3_t3_loop.trips) (acc : BitVec 32) (hpar : k.val % 2 = 0) :
    inv3 (F := F) d L q p fI fo O W k.val acc
      ⊢ (wp frame (wpE (defs₀ (F := F)) 𝒱₀ (thr d L) none) Set.univ
          (k3_t3_body L pV (Memref.isWhole_whole _) iV (Memref.isWhole_whole _) oV (Memref.isWhole_whole _)
            sV (Memref.isWhole_whole _) aV (Memref.isWhole_whole _) bV (Memref.isWhole_whole _) cc3_scratch3 cc3_scratch4 cc3_scoped0 cc3_scoped1 cc3_scoped2 k acc)
          (inv3 (F := F) d L q p fI fo O W (k.val + 1)) : sProp 𝕄) := by
  have hk18 : k.val < 18 := Nat.lt_of_lt_of_le k.isLt k3_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)

  have hk1 : k.val + 1 < 18 := by omega
  have k3_h1 : k3_cond1 k = 1#1 := (cond1_iff k).mpr ⟨hpar, hk1⟩
  have k3_h2 : ¬ k3_cond2 k = 1#1 := fun h => by have := (cond2_iff k).mp h; omega
  have k3_h3 : k3_cond3 k = 1#1 := (cond3_iff k).mpr hpar
  have k3_h4 : ¬ k3_cond4 k = 1#1 := fun h => by have := (cond4_iff k).mp h; omega
  unfold inv3 slotF
  rw [if_pos hpar, if_pos hk18, if_neg (show ¬ (k.val + 1) % 2 = 0 by omega), if_pos hk1]
  iintro ⟨#Hmw, ⟨Hfl, ⟨%fb, Hb⟩, HpR, Hsem1⟩, Hsrest, Ho, HsemB, HsemC, %W', %hW', HO⟩
  sl_unfold [k3_t3_body]
  sl_exec
  -- the next chunk's gather: row k + 1 of the scratch out of the rest, the free buffer, its share, its semaphore
  have hoff := k3_off3_eq k
  have hsetk := set_offsK (k3_off3 k) (k3_off3_inb k k3_h1) (k.val + 1) hoff
  ihave H2 := (pointsTo_split_subset (q := fullShare) (f := (fI : Buf (Elt F) ((sV).view.loc (thr d L)))) (S := Finset.univ \ rowSet k.val)
    (rowSet_sub (k.val + 1) k.val (by omega))).1 $$ Hsrest
  icases H2 with ⟨Hrow, Hsrest⟩
  ihave Hrow' := (Entails.of_eq (show ((sV).view.loc (thr d L) ↦[rowSet (k.val + 1)]{fullShare} (fI : Buf (Elt F) ((sV).view.loc (thr d L))) : sProp 𝕄)
      = ((offsK (k3_off3 k) (k3_off3_inb k k3_h1)).view.loc (thr d L) ↦[(offsK (k3_off3 k) (k3_off3_inb k k3_h1)).view.set]{fullShare}
          (fI : Buf (Elt F) ((sV).view.loc (thr d L)))) by rw [hsetk])) $$ Hrow
  iapply (SparseCore.wp_indirectGatherLocal countersEmb 𝒱₀ (thr d L) none (hg := gathers_S4096x128_S128x128) (default : HIx 2)
      (bV).view.dmaCredit hNb (by decide) (hin_of (F := F) fI hfI _ _)) $$ [HpR Hb Hrow' Hsem1]
  · isplitl [HpR]; · iexact HpR
    isplitl [Hb]; · iexact Hb
    isplitl [Hrow']; · iexact Hrow'
    iexact Hsem1
  iintro Hfl1
  ihave Hfl1' := (Transfers.Flight_mono countersEmb (thr d L) (deliver_b (F := F) d L q.right p fI fb _ _ (k.val + 1) hoff hk1 _)) $$ Hfl1
  sl_exec
  -- the wait for chunk k, then its copy out
  ihave Hfl := (Entails.of_eq (slotP_eq (F := F) d L (aPts d L) cc3_scratch3.sem (aV).view.dmaCredit q.left p fI k.val)) $$ Hfl
  iapply (Transfers.wp_waitLocalO countersEmb 𝒱₀ (thr d L) none (default : HIx 2) (rfl : (aV).view.dmaCredit = _)) $$ [Hfl HO]
  · isplitl [Hfl]; · iexact Hfl
    isplitl [HO]; · iexact HO
    iapply (Transfers.MayWaits.elim (SemLoc.dma cc3_scratch3.sem)) $$ Hmw
  iintro ⟨HD, Hsem0, HO⟩
  ihave HD := (Entails.of_eq (slotD_eq (F := F) d L (aPts d L) q.left p fI k.val)) $$ HD
  icases HD with ⟨Ha, HpL, Hrowk⟩
  have hr : 4608 * (L 1).val + 2304 * (L 0).val + 128 * k.val = (wid L).val * 2304 + 128 * k.val := by
    have hw : (wid L).val = 2 * (L 1).val + (L 0).val := rfl
    omega
  have hoffc : k3_off6 L k = ![(wid L).val * 2304 + 128 * k.val, 0] := by rw [k3_off6_eq, hr]
  have hsetc := set_ochK (k3_off6 L k) (k3_off6_inb L k k3_h3) _ hoffc
  ihave Ho2 := (pointsTo_split_subset (ℓ := g1Loc d) (q := fullShare) (f := (outN p fI fo ((wid L).val * 2304) k.val : Buf (Elt F) (g1Loc d))) (I := chunkSet ((wid L).val * 2304 + 128 * k.val)) (S := oSet (wid L))
    (chunk_sub (wid L) k.val hk18)).1 $$ Ho
  icases Ho2 with ⟨Hch, Horest⟩
  ihave Hch' := (Entails.of_eq (show (g1Loc d ↦[chunkSet ((wid L).val * 2304 + 128 * k.val)]{fullShare} (outN p fI fo ((wid L).val * 2304) k.val : Buf (Elt F) (g1Loc d)) : sProp 𝕄)
      = ((ochK (k3_off6 L k) (k3_off6_inb L k k3_h3)).view.loc (thr d L) ↦[(ochK (k3_off6 L k) (k3_off6_inb L k k3_h3)).view.set]{fullShare}
          (outN p fI fo ((wid L).val * 2304) k.val : Buf (Elt F) (g1Loc d))) by rw [hsetc])) $$ Hch
  sl_exec
  sl_step
  ihave Hch2 := (Entails.of_eq ((pointsTo_congr (ℓ := (ochK (k3_off6 L k) (k3_off6_inb L k k3_h3)).view.loc (thr d L)) (q := fullShare)
        (out_hit (F := F) d L p fI fo (wid L).val k.val hk18 (k3_off6 L k) (k3_off6_inb L k k3_h3) hoffc _ (trip_even.sl.dma0 p fI k) rfl)).trans
      (show ((ochK (k3_off6 L k) (k3_off6_inb L k k3_h3)).view.loc (thr d L) ↦[(ochK (k3_off6 L k) (k3_off6_inb L k k3_h3)).view.set]{fullShare}
          (outN p fI fo ((wid L).val * 2304) (k.val + 1) : Buf (Elt F) (g1Loc d)) : sProp 𝕄)
        = (g1Loc d ↦[chunkSet ((wid L).val * 2304 + 128 * k.val)]{fullShare} (outN p fI fo ((wid L).val * 2304) (k.val + 1) : Buf (Elt F) (g1Loc d))) by rw [hsetc]))) $$ Hch'
  ihave Horest2 := (Entails.of_eq (pointsTo_congr (ℓ := g1Loc d) (q := fullShare) (I := oSet (wid L) \ chunkSet ((wid L).val * 2304 + 128 * k.val))
      (f := (outN p fI fo ((wid L).val * 2304) k.val : Buf (Elt F) (g1Loc d))) (g := (outN p fI fo ((wid L).val * 2304) (k.val + 1) : Buf (Elt F) (g1Loc d)))
      (fun j hj => out_miss (F := F) p fI fo ((wid L).val * 2304) k.val j (Finset.mem_sdiff.mp hj).2))) $$ Horest
  ihave Ho' := (pointsTo_split_subset (ℓ := g1Loc d) (q := fullShare) (f := (outN p fI fo ((wid L).val * 2304) (k.val + 1) : Buf (Elt F) (g1Loc d))) (I := chunkSet ((wid L).val * 2304 + 128 * k.val)) (S := oSet (wid L))
    (chunk_sub (wid L) k.val hk18)).2 $$ [Hch2 Horest2]
  · isplitl [Hch2] <;> iassumption

  -- the invariant at trip k + 1
  isplitl []; · iexact Hmw
  isplitl [Ha HpL Hsem0 Hfl1']
  · isplitl [Ha HpL Hsem0]
    · isplitl [Ha]; · iexists _; iexact Ha
      isplitl [HpL]; · iexact HpL
      iexact Hsem0
    iapply (Entails.of_eq (slotP_eq (F := F) d L (bPts d L) cc3_scratch4.sem (bV).view.dmaCredit q.right p fI (k.val + 1)).symm)
    iexact Hfl1'
  isplitl [Hrowk Hsrest]
  · iapply (rows_join (F := F) d L fI k.val (k.val + 1) (by omega))
    isplitl [Hsrest]; · iexact Hsrest
    iexact Hrowk
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 8000000 in
theorem trip_odd (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k3_t3_loop.trips) (acc : BitVec 32) (hpar : k.val % 2 = 1) (hk1 : k.val + 1 < 18) :
    inv3 (F := F) d L q p fI fo O W k.val acc
      ⊢ (wp frame (wpE (defs₀ (F := F)) 𝒱₀ (thr d L) none) Set.univ
          (k3_t3_body L pV (Memref.isWhole_whole _) iV (Memref.isWhole_whole _) oV (Memref.isWhole_whole _)
            sV (Memref.isWhole_whole _) aV (Memref.isWhole_whole _) bV (Memref.isWhole_whole _) cc3_scratch3 cc3_scratch4 cc3_scoped0 cc3_scoped1 cc3_scoped2 k acc)
          (inv3 (F := F) d L q p fI fo O W (k.val + 1)) : sProp 𝕄) := by
  have hk18 : k.val < 18 := Nat.lt_of_lt_of_le k.isLt k3_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)

  have hk1 : k.val + 1 < 18 := by omega
  have k3_h2 : k3_cond2 k = 1#1 := (cond2_iff k).mpr ⟨hpar, hk1⟩
  have k3_h1 : ¬ k3_cond1 k = 1#1 := fun h => by have := (cond1_iff k).mp h; omega
  have k3_h4 : k3_cond4 k = 1#1 := (cond4_iff k).mpr hpar
  have k3_h3 : ¬ k3_cond3 k = 1#1 := fun h => by have := (cond3_iff k).mp h; omega
  unfold inv3 slotF
  rw [if_neg (show ¬ k.val % 2 = 0 by omega), if_pos hk18, if_pos (show (k.val + 1) % 2 = 0 by omega), if_pos hk1]
  iintro ⟨#Hmw, ⟨⟨⟨%fa, Ha⟩, HpL, Hsem0⟩, Hfl⟩, Hsrest, Ho, HsemB, HsemC, %W', %hW', HO⟩
  sl_unfold [k3_t3_body]
  sl_exec
  -- the next chunk's gather: row k + 1 of the scratch out of the rest, the free buffer, its share, its semaphore
  have hoff := k3_off4_eq k
  have hsetk := set_offsK (k3_off4 k) (k3_off4_inb k k3_h2) (k.val + 1) hoff
  ihave H2 := (pointsTo_split_subset (q := fullShare) (f := (fI : Buf (Elt F) ((sV).view.loc (thr d L)))) (S := Finset.univ \ rowSet k.val)
    (rowSet_sub (k.val + 1) k.val (by omega))).1 $$ Hsrest
  icases H2 with ⟨Hrow, Hsrest⟩
  ihave Hrow' := (Entails.of_eq (show ((sV).view.loc (thr d L) ↦[rowSet (k.val + 1)]{fullShare} (fI : Buf (Elt F) ((sV).view.loc (thr d L))) : sProp 𝕄)
      = ((offsK (k3_off4 k) (k3_off4_inb k k3_h2)).view.loc (thr d L) ↦[(offsK (k3_off4 k) (k3_off4_inb k k3_h2)).view.set]{fullShare}
          (fI : Buf (Elt F) ((sV).view.loc (thr d L)))) by rw [hsetk])) $$ Hrow
  iapply (SparseCore.wp_indirectGatherLocal countersEmb 𝒱₀ (thr d L) none (hg := gathers_S4096x128_S128x128) (default : HIx 2)
      (aV).view.dmaCredit hNa (by decide) (hin_of (F := F) fI hfI _ _)) $$ [HpL Ha Hrow' Hsem0]
  · isplitl [HpL]; · iexact HpL
    isplitl [Ha]; · iexact Ha
    isplitl [Hrow']; · iexact Hrow'
    iexact Hsem0
  iintro Hfl1
  ihave Hfl1' := (Transfers.Flight_mono countersEmb (thr d L) (deliver_a (F := F) d L q.left p fI fa _ _ (k.val + 1) hoff hk1 _)) $$ Hfl1
  sl_exec
  -- the wait for chunk k, then its copy out
  ihave Hfl := (Entails.of_eq (slotP_eq (F := F) d L (bPts d L) cc3_scratch4.sem (bV).view.dmaCredit q.right p fI k.val)) $$ Hfl
  iapply (Transfers.wp_waitLocalO countersEmb 𝒱₀ (thr d L) none (default : HIx 2) (rfl : (bV).view.dmaCredit = _)) $$ [Hfl HO]
  · isplitl [Hfl]; · iexact Hfl
    isplitl [HO]; · iexact HO
    iapply (Transfers.MayWaits.elim (SemLoc.dma cc3_scratch4.sem)) $$ Hmw
  iintro ⟨HD, Hsem1, HO⟩
  ihave HD := (Entails.of_eq (slotD_eq (F := F) d L (bPts d L) q.right p fI k.val)) $$ HD
  icases HD with ⟨Hb, HpR, Hrowk⟩
  have hr : 4608 * (L 1).val + 2304 * (L 0).val + 128 * k.val = (wid L).val * 2304 + 128 * k.val := by
    have hw : (wid L).val = 2 * (L 1).val + (L 0).val := rfl
    omega
  have hoffc : k3_off8 L k = ![(wid L).val * 2304 + 128 * k.val, 0] := by rw [k3_off8_eq, hr]
  have hsetc := set_ochK (k3_off8 L k) (k3_off8_inb L k k3_h4) _ hoffc
  ihave Ho2 := (pointsTo_split_subset (ℓ := g1Loc d) (q := fullShare) (f := (outN p fI fo ((wid L).val * 2304) k.val : Buf (Elt F) (g1Loc d))) (I := chunkSet ((wid L).val * 2304 + 128 * k.val)) (S := oSet (wid L))
    (chunk_sub (wid L) k.val hk18)).1 $$ Ho
  icases Ho2 with ⟨Hch, Horest⟩
  ihave Hch' := (Entails.of_eq (show (g1Loc d ↦[chunkSet ((wid L).val * 2304 + 128 * k.val)]{fullShare} (outN p fI fo ((wid L).val * 2304) k.val : Buf (Elt F) (g1Loc d)) : sProp 𝕄)
      = ((ochK (k3_off8 L k) (k3_off8_inb L k k3_h4)).view.loc (thr d L) ↦[(ochK (k3_off8 L k) (k3_off8_inb L k k3_h4)).view.set]{fullShare}
          (outN p fI fo ((wid L).val * 2304) k.val : Buf (Elt F) (g1Loc d))) by rw [hsetc])) $$ Hch
  sl_exec
  sl_step
  ihave Hch2 := (Entails.of_eq ((pointsTo_congr (ℓ := (ochK (k3_off8 L k) (k3_off8_inb L k k3_h4)).view.loc (thr d L)) (q := fullShare)
        (out_hit (F := F) d L p fI fo (wid L).val k.val hk18 (k3_off8 L k) (k3_off8_inb L k k3_h4) hoffc _ (trip_odd.sl.dma0 p fI k) rfl)).trans
      (show ((ochK (k3_off8 L k) (k3_off8_inb L k k3_h4)).view.loc (thr d L) ↦[(ochK (k3_off8 L k) (k3_off8_inb L k k3_h4)).view.set]{fullShare}
          (outN p fI fo ((wid L).val * 2304) (k.val + 1) : Buf (Elt F) (g1Loc d)) : sProp 𝕄)
        = (g1Loc d ↦[chunkSet ((wid L).val * 2304 + 128 * k.val)]{fullShare} (outN p fI fo ((wid L).val * 2304) (k.val + 1) : Buf (Elt F) (g1Loc d))) by rw [hsetc]))) $$ Hch'
  ihave Horest2 := (Entails.of_eq (pointsTo_congr (ℓ := g1Loc d) (q := fullShare) (I := oSet (wid L) \ chunkSet ((wid L).val * 2304 + 128 * k.val))
      (f := (outN p fI fo ((wid L).val * 2304) k.val : Buf (Elt F) (g1Loc d))) (g := (outN p fI fo ((wid L).val * 2304) (k.val + 1) : Buf (Elt F) (g1Loc d)))
      (fun j hj => out_miss (F := F) p fI fo ((wid L).val * 2304) k.val j (Finset.mem_sdiff.mp hj).2))) $$ Horest
  ihave Ho' := (pointsTo_split_subset (ℓ := g1Loc d) (q := fullShare) (f := (outN p fI fo ((wid L).val * 2304) (k.val + 1) : Buf (Elt F) (g1Loc d))) (I := chunkSet ((wid L).val * 2304 + 128 * k.val)) (S := oSet (wid L))
    (chunk_sub (wid L) k.val hk18)).2 $$ [Hch2 Horest2]
  · isplitl [Hch2] <;> iassumption

  -- the invariant at trip k + 1
  isplitl []; · iexact Hmw
  isplitl [Hb HpR Hsem1 Hfl1']
  · isplitl [Hfl1']
    · iapply (Entails.of_eq (slotP_eq (F := F) d L (aPts d L) cc3_scratch3.sem (aV).view.dmaCredit q.left p fI (k.val + 1)).symm)
      iexact Hfl1'
    isplitl [Hb]; · iexists _; iexact Hb
    isplitl [HpR]; · iexact HpR
    iexact Hsem1
  isplitl [Hrowk Hsrest]
  · iapply (rows_join (F := F) d L fI k.val (k.val + 1) (by omega))
    isplitl [Hsrest]; · iexact Hsrest
    iexact Hrowk
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 8000000 in
theorem trip_last (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096) (k : Fin k3_t3_loop.trips) (acc : BitVec 32) (hpar : k.val % 2 = 1) (hk1 : ¬ k.val + 1 < 18) :
    inv3 (F := F) d L q p fI fo O W k.val acc
      ⊢ (wp frame (wpE (defs₀ (F := F)) 𝒱₀ (thr d L) none) Set.univ
          (k3_t3_body L pV (Memref.isWhole_whole _) iV (Memref.isWhole_whole _) oV (Memref.isWhole_whole _)
            sV (Memref.isWhole_whole _) aV (Memref.isWhole_whole _) bV (Memref.isWhole_whole _) cc3_scratch3 cc3_scratch4 cc3_scoped0 cc3_scoped1 cc3_scoped2 k acc)
          (inv3 (F := F) d L q p fI fo O W (k.val + 1)) : sProp 𝕄) := by
  have hk18 : k.val < 18 := Nat.lt_of_lt_of_le k.isLt k3_t3_abs.2.1
  have has : (aV).view.set = Finset.univ := View.set_whole _
  have hbs : (bV).view.set = Finset.univ := View.set_whole _
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)
  have k3_h1 : ¬ k3_cond1 k = 1#1 := fun h => by have := (cond1_iff k).mp h; omega
  have k3_h2 : ¬ k3_cond2 k = 1#1 := fun h => by have := (cond2_iff k).mp h; omega
  have k3_h3 : ¬ k3_cond3 k = 1#1 := fun h => by have := (cond3_iff k).mp h; omega
  have k3_h4 : k3_cond4 k = 1#1 := (cond4_iff k).mpr hpar
  unfold inv3 slotF
  rw [if_neg (show ¬ k.val % 2 = 0 by omega), if_pos hk18, if_pos (show (k.val + 1) % 2 = 0 by omega), if_neg hk1]
  iintro ⟨#Hmw, ⟨⟨⟨%fa, Ha⟩, HpL, Hsem0⟩, Hfl⟩, Hsrest, Ho, HsemB, HsemC, %W', %hW', HO⟩
  sl_unfold [k3_t3_body]
  sl_exec
  -- the wait for chunk k, then its copy out
  ihave Hfl := (Entails.of_eq (slotP_eq (F := F) d L (bPts d L) cc3_scratch4.sem (bV).view.dmaCredit q.right p fI k.val)) $$ Hfl
  iapply (Transfers.wp_waitLocalO countersEmb 𝒱₀ (thr d L) none (default : HIx 2) (rfl : (bV).view.dmaCredit = _)) $$ [Hfl HO]
  · isplitl [Hfl]; · iexact Hfl
    isplitl [HO]; · iexact HO
    iapply (Transfers.MayWaits.elim (SemLoc.dma cc3_scratch4.sem)) $$ Hmw
  iintro ⟨HD, Hsem1, HO⟩
  ihave HD := (Entails.of_eq (slotD_eq (F := F) d L (bPts d L) q.right p fI k.val)) $$ HD
  icases HD with ⟨Hb, HpR, Hrowk⟩
  have hr : 4608 * (L 1).val + 2304 * (L 0).val + 128 * k.val = (wid L).val * 2304 + 128 * k.val := by
    have hw : (wid L).val = 2 * (L 1).val + (L 0).val := rfl
    omega
  have hoffc : k3_off8 L k = ![(wid L).val * 2304 + 128 * k.val, 0] := by rw [k3_off8_eq, hr]
  have hsetc := set_ochK (k3_off8 L k) (k3_off8_inb L k k3_h4) _ hoffc
  ihave Ho2 := (pointsTo_split_subset (ℓ := g1Loc d) (q := fullShare) (f := (outN p fI fo ((wid L).val * 2304) k.val : Buf (Elt F) (g1Loc d))) (I := chunkSet ((wid L).val * 2304 + 128 * k.val)) (S := oSet (wid L))
    (chunk_sub (wid L) k.val hk18)).1 $$ Ho
  icases Ho2 with ⟨Hch, Horest⟩
  ihave Hch' := (Entails.of_eq (show (g1Loc d ↦[chunkSet ((wid L).val * 2304 + 128 * k.val)]{fullShare} (outN p fI fo ((wid L).val * 2304) k.val : Buf (Elt F) (g1Loc d)) : sProp 𝕄)
      = ((ochK (k3_off8 L k) (k3_off8_inb L k k3_h4)).view.loc (thr d L) ↦[(ochK (k3_off8 L k) (k3_off8_inb L k k3_h4)).view.set]{fullShare}
          (outN p fI fo ((wid L).val * 2304) k.val : Buf (Elt F) (g1Loc d))) by rw [hsetc])) $$ Hch
  sl_exec
  sl_step
  ihave Hch2 := (Entails.of_eq ((pointsTo_congr (ℓ := (ochK (k3_off8 L k) (k3_off8_inb L k k3_h4)).view.loc (thr d L)) (q := fullShare)
        (out_hit (F := F) d L p fI fo (wid L).val k.val hk18 (k3_off8 L k) (k3_off8_inb L k k3_h4) hoffc _ (trip_last.sl.dma0 p fI k) rfl)).trans
      (show ((ochK (k3_off8 L k) (k3_off8_inb L k k3_h4)).view.loc (thr d L) ↦[(ochK (k3_off8 L k) (k3_off8_inb L k k3_h4)).view.set]{fullShare}
          (outN p fI fo ((wid L).val * 2304) (k.val + 1) : Buf (Elt F) (g1Loc d)) : sProp 𝕄)
        = (g1Loc d ↦[chunkSet ((wid L).val * 2304 + 128 * k.val)]{fullShare} (outN p fI fo ((wid L).val * 2304) (k.val + 1) : Buf (Elt F) (g1Loc d))) by rw [hsetc]))) $$ Hch'
  ihave Horest2 := (Entails.of_eq (pointsTo_congr (ℓ := g1Loc d) (q := fullShare) (I := oSet (wid L) \ chunkSet ((wid L).val * 2304 + 128 * k.val))
      (f := (outN p fI fo ((wid L).val * 2304) k.val : Buf (Elt F) (g1Loc d))) (g := (outN p fI fo ((wid L).val * 2304) (k.val + 1) : Buf (Elt F) (g1Loc d)))
      (fun j hj => out_miss (F := F) p fI fo ((wid L).val * 2304) k.val j (Finset.mem_sdiff.mp hj).2))) $$ Horest
  ihave Ho' := (pointsTo_split_subset (ℓ := g1Loc d) (q := fullShare) (f := (outN p fI fo ((wid L).val * 2304) (k.val + 1) : Buf (Elt F) (g1Loc d))) (I := chunkSet ((wid L).val * 2304 + 128 * k.val)) (S := oSet (wid L))
    (chunk_sub (wid L) k.val hk18)).2 $$ [Hch2 Horest2]
  · isplitl [Hch2] <;> iassumption

  isplitl []; · iexact Hmw
  isplitl [Ha HpL Hsem0 Hb HpR Hsem1]
  · isplitl [Ha HpL Hsem0]
    · isplitl [Ha]; · iexists _; iexact Ha
      isplitl [HpL]; · iexact HpL
      iexact Hsem0
    isplitl [Hb]; · iexists _; iexact Hb
    isplitl [HpR]; · iexact HpR
    iexact Hsem1
  isplitl [Hrowk Hsrest]
  · iapply (rows_last (F := F) d L fI k.val (by omega))
    isplitl [Hrowk]; · iexact Hrowk
    iexact Hsrest
  isplitl [Ho']; · iexact Ho'
  isplitl [HsemB]; · iexact HsemB
  isplitl [HsemC]; · iexact HsemC
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

set_option maxHeartbeats 4000000 in
/-- The chunk phase: the first gather's issue and the eighteen trips. -/
theorem chunk_phase (O : CellTallies nD τ sig (HIx 2)) (W : Waits sig (HIx 2)) (q : PosShare TreeShare)
    (p : S4096x128.Idx → Elt F .f32) (fI : S18x128.Idx → BitVec 32) (fo : S73728x128.Idx → Elt F .f32)
    (hfI : ∀ j, (fI j).toNat < 4096)
    (fa : Buf (Elt F) ((aV).view.loc (thr d L))) (fb : Buf (Elt F) ((bV).view.loc (thr d L))) :
    iprop(Transfers.MayWaits (thr d L) (default : HIx 2) O
        ∗ ((pV).view.loc (thr d L) ↦{q} (p : Buf (Elt F) ((pV).view.loc (thr d L))))
        ∗ ((sV).view.loc (thr d L) ↦{fullShare} (fI : Buf (Elt F) ((sV).view.loc (thr d L))))
        ∗ ((aV).view.loc (thr d L) ↦{fullShare} fa) ∗ ((bV).view.loc (thr d L) ↦{fullShare} fb)
        ∗ (g1Loc d ↦[oSet (wid L)]{fullShare} (fo : Buf (Elt F) (g1Loc d)))
        ∗ semVal (thr d L, SemLoc.dma cc3_scratch3.sem) 0 ∗ semVal (thr d L, SemLoc.dma cc3_scratch4.sem) 0
        ∗ semVal (thr d L, SemLoc.dma cc3_scoped1.sem) 0 ∗ semVal (thr d L, SemLoc.dma cc3_scoped2.sem) 0
        ∗ owes (thr d L) O W)
      ⊢ (wp frame (wpE (defs₀ (F := F)) 𝒱₀ (thr d L) none) Set.univ
          (do
            SparseCore.enqueueIndirectGather rfl (pAllK) aV gathers_S4096x128_S128x128 (offsK ![0, 0] inb_S18x128_S1x128_0_0) rfl
              cc3_scratch3.sem (View.wordExact_bits rfl) rfl (Or.inl rfl)
            let _ ← Scf.Loop.for k3_t3_loop k3_t3_ok 0#32 (k3_t3_body L pV (Memref.isWhole_whole _) iV (Memref.isWhole_whole _) oV (Memref.isWhole_whole _)
              sV (Memref.isWhole_whole _) aV (Memref.isWhole_whole _) bV (Memref.isWhole_whole _) cc3_scratch3 cc3_scratch4 cc3_scoped0 cc3_scoped1 cc3_scoped2)
            pure PUnit.unit)
          fun _ => iprop(((pV).view.loc (thr d L) ↦{q} (p : Buf (Elt F) ((pV).view.loc (thr d L))))
            ∗ ((sV).view.loc (thr d L) ↦{fullShare} (fI : Buf (Elt F) ((sV).view.loc (thr d L))))
            ∗ (∃ f, (aV).view.loc (thr d L) ↦{fullShare} f) ∗ (∃ f, (bV).view.loc (thr d L) ↦{fullShare} f)
            ∗ (g1Loc d ↦[oSet (wid L)]{fullShare} (outN p fI fo ((wid L).val * 2304) 18 : Buf (Elt F) (g1Loc d)))
            ∗ semVal (thr d L, SemLoc.dma cc3_scratch3.sem) 0 ∗ semVal (thr d L, SemLoc.dma cc3_scratch4.sem) 0
            ∗ semVal (thr d L, SemLoc.dma cc3_scoped1.sem) 0 ∗ semVal (thr d L, SemLoc.dma cc3_scoped2.sem) 0
            ∗ ∃ W', ⌜∀ x ∈ W', x ∈ W ∨ x.2 = none⌝ ∗ owes (thr d L) O W') : sProp 𝕄) := by
  iintro ⟨#Hmw, Hp, Hs, Ha, Hb, Ho, Hsem0, Hsem1, HsemB, HsemC, HO⟩
  ihave Hp2 := (pointsTo_share (PosShare.mem_left_op_right q)).1 $$ Hp
  icases Hp2 with ⟨HpL, HpR⟩
  ihave HpL2 := (pointsTo_split_subset (q := q.left) (f := (p : Buf (Elt F) ((pV).view.loc (thr d L)))) (S := Finset.univ) (Finset.subset_univ (pAllK).view.set)).1 $$ HpL
  icases HpL2 with ⟨HpL, HpLr⟩
  ihave HpR2 := (pointsTo_split_subset (q := q.right) (f := (p : Buf (Elt F) ((pV).view.loc (thr d L)))) (S := Finset.univ) (Finset.subset_univ (pAllK).view.set)).1 $$ HpR
  icases HpR2 with ⟨HpR, HpRr⟩
  ihave Hs2 := (pointsTo_split_subset (q := fullShare) (f := (fI : Buf (Elt F) ((sV).view.loc (thr d L)))) (S := Finset.univ) (Finset.subset_univ (rowSet 0))).1 $$ Hs
  icases Hs2 with ⟨Hrow, Hsrest⟩
  have hset0 := set_offsK ![0, 0] inb_S18x128_S1x128_0_0 0 rfl
  ihave Hrow' := (Entails.of_eq (show ((sV).view.loc (thr d L) ↦[rowSet 0]{fullShare} (fI : Buf (Elt F) ((sV).view.loc (thr d L))) : sProp 𝕄)
      = ((offsK ![0, 0] inb_S18x128_S1x128_0_0).view.loc (thr d L) ↦[(offsK ![0, 0] inb_S18x128_S1x128_0_0).view.set]{fullShare} (fI : Buf (Elt F) ((sV).view.loc (thr d L)))) by rw [hset0])) $$ Hrow
  have has : (aV).view.set = Finset.univ := View.set_whole _
  have hbs : (bV).view.set = Finset.univ := View.set_whole _
  ihave Ha' := (Entails.of_eq (show ((aV).view.loc (thr d L) ↦{fullShare} fa : sProp 𝕄) = (aV).view.loc (thr d L) ↦[(aV).view.set]{fullShare} fa by rw [has])) $$ Ha
  ihave Hb' := (Entails.of_eq (show ((bV).view.loc (thr d L) ↦{fullShare} fb : sProp 𝕄) = (bV).view.loc (thr d L) ↦[(bV).view.set]{fullShare} fb by rw [hbs])) $$ Hb
  ihave Ho0 := (Entails.of_eq (show (g1Loc d ↦[oSet (wid L)]{fullShare} (fo : Buf (Elt F) (g1Loc d)) : sProp 𝕄)
      = (g1Loc d ↦[oSet (wid L)]{fullShare} (outN p fI fo ((wid L).val * 2304) 0 : Buf (Elt F) (g1Loc d))) by rw [outN_zero])) $$ Ho
  have hNa : ∑ j, ((aV).slice (S128x128.rowRect gathers_S4096x128_S128x128.axis' j) (S128x128.stride_rowRect gathers_S4096x128_S128x128.axis' j)).view.dmaCredit
      = (aV).view.dmaCredit := SparseCore.sum_rowCredit_eq_dmaCredit (aV) _ (fun _ => rfl)
  have hNb : ∑ j, ((bV).slice (S128x128.rowRect gathers_S4096x128_S128x128.axis' j) (S128x128.stride_rowRect gathers_S4096x128_S128x128.axis' j)).view.dmaCredit
      = (bV).view.dmaCredit := SparseCore.sum_rowCredit_eq_dmaCredit (bV) _ (fun _ => rfl)
  iapply (SparseCore.wp_indirectGatherLocal countersEmb 𝒱₀ (thr d L) none (hg := gathers_S4096x128_S128x128) (default : HIx 2)
      (aV).view.dmaCredit hNa (by decide) (hin_of (F := F) fI hfI _ _)) $$ [HpL Ha' Hrow' Hsem0]
  · isplitl [HpL]; · iexact HpL
    isplitl [Ha']; · iexact Ha'
    isplitl [Hrow']; · iexact Hrow'
    iexact Hsem0
  iintro Hfl
  ihave Hfl' := (Transfers.Flight_mono countersEmb (thr d L) (deliver_a (F := F) d L q.left p fI fa _ _ 0 rfl (by decide) _)) $$ Hfl
  first | sl_exec | skip
  sl_for (inv3 (F := F) d L q p fI fo O W) $$ [Hfl' Hb' HpR Hsem1 Hsrest Ho0 HsemB HsemC HO]
  case region =>
    intro k acc
    rcases Nat.mod_two_eq_zero_or_one k.val with hpar | hpar
    · exact trip_even (F := F) d L O W q p fI fo hfI k acc hpar
    · by_cases hk1 : k.val + 1 < 18
      · exact trip_odd (F := F) d L O W q p fI fo hfI k acc hpar hk1
      · exact trip_last (F := F) d L O W q p fI fo hfI k acc hpar hk1
  · unfold inv3 slotF
    rw [if_pos (show (0 : ℕ) % 2 = 0 by decide), if_pos (show (0 : ℕ) < 18 by decide)]
    isplitl []; · iexact Hmw
    isplitl [Hfl' Hb' HpR Hsem1]
    · isplitl [Hfl']
      · iapply (Entails.of_eq (slotP_eq (F := F) d L (aPts d L) cc3_scratch3.sem (aV).view.dmaCredit q.left p fI 0).symm)
        iexact Hfl'
      isplitl [Hb']; · iexists _; iexact Hb'
      isplitl [HpR]; · iexact HpR
      iexact Hsem1
    isplitl [Hsrest]; · iexact Hsrest
    isplitl [Ho0]; · iexact Ho0
    isplitl [HsemB]; · iexact HsemB
    isplitl [HsemC]; · iexact HsemC
    iexists W; isplitr
    · ipureintro; exact fun x hx => .inl hx
    · iexact HO
  iintro %acc HI
  rw [trips_t3]
  unfold inv3 slotF
  rw [if_pos (show (18 : ℕ) % 2 = 0 by decide), if_neg (show ¬ (18 : ℕ) < 18 by decide)]
  icases HI with ⟨-, ⟨⟨⟨%fa', Ha⟩, HpL, Hsem0⟩, ⟨%fb', Hb⟩, HpR, Hsem1⟩, Hs, Ho, HsemB, HsemC, %W', %hW', HO⟩
  first | sl_exec | skip
  sl_step
  ihave HpLj := (pointsTo_split_subset (ℓ := (pV).view.loc (thr d L)) (q := q.left) (f := (p : Buf (Elt F) ((pV).view.loc (thr d L)))) (I := (pAllK).view.set) (S := Finset.univ) (Finset.subset_univ _)).2 $$ [HpL HpLr]
  · isplitl [HpL] <;> iassumption
  ihave HpRj := (pointsTo_split_subset (ℓ := (pV).view.loc (thr d L)) (q := q.right) (f := (p : Buf (Elt F) ((pV).view.loc (thr d L)))) (I := (pAllK).view.set) (S := Finset.univ) (Finset.subset_univ _)).2 $$ [HpR HpRr]
  · isplitl [HpR] <;> iassumption
  ihave Hpj := (pointsTo_share (ℓ := (pV).view.loc (thr d L)) (I := Finset.univ) (f := (p : Buf (Elt F) ((pV).view.loc (thr d L)))) (PosShare.mem_left_op_right q)).2 $$ [HpLj HpRj]
  · isplitl [HpLj] <;> iassumption
  isplitl [Hpj]; · iexact Hpj
  isplitl [Hs]
  · iapply (Entails.of_eq (show ((sV).view.loc (thr d L) ↦[Finset.univ \ rowSet 18]{fullShare} (fI : Buf (Elt F) ((sV).view.loc (thr d L))) : sProp 𝕄)
        = ((sV).view.loc (thr d L) ↦{fullShare} (fI : Buf (Elt F) ((sV).view.loc (thr d L)))) by rw [rowSet_ge 18 (le_refl _), Finset.sdiff_empty]))
    iexact Hs
  isplitl [Ha]
  · iexists fa'
    iapply (Entails.of_eq (show ((aV).view.loc (thr d L) ↦[(aV).view.set]{fullShare} fa' : sProp 𝕄) = (aV).view.loc (thr d L) ↦{fullShare} fa' by rw [has]))
    iexact Ha
  isplitl [Hb]
  · iexists fb'
    iapply (Entails.of_eq (show ((bV).view.loc (thr d L) ↦[(bV).view.set]{fullShare} fb' : sProp 𝕄) = (bV).view.loc (thr d L) ↦{fullShare} fb' by rw [hbs]))
    iexact Hb
  isplitl [Ho]; · iexact Ho
  isplitl [Hsem0]; · iexact Hsem0
  isplitl [Hsem1]; · iexact Hsem1
  isplitl [HsemB]; · iexact HsemB
  isplitl [HsemC]; · iexact HsemC
  iexists W'; isplitr
  · ipureintro; exact hW'
  · iexact HO

set_option maxHeartbeats 4000000 in
theorem tile_body (hF : (K (F := F)).Facts) (O : CellTallies nD τ sig (HIx 2)) (W : Waits sig (HIx 2)) (hO : ∀ g, O g none = 0)
    (q : PosShare TreeShare) (p : Buf (Elt F) (pLoc d)) (ix : Buf (Elt F) (i1Loc d)) (fo : Buf (Elt F) (g1Loc d))
    (hix : ∀ j : S32x18x128.Idx, ((ix j : BitVec 32)).toNat < 1024) :
    iprop(levAts (K (F := F)).L (K (F := F)).lev
        ∗ ((pLoc d ↦{q} p) ∗ (i1Loc d ↦[iSet (wid L)]{fullShare} ix) ∗ (g1Loc d ↦[oSet (wid L)]{fullShare} fo))
        ∗ scopedBufs (thr d L) ∗ scopedSems0 (thr d L) ∗ owes (thr d L) O W)
      ⊢ (wp frame (wpE (defs₀ (F := F)) 𝒱₀ (thr d L) none) Set.univ
          (cc3_gk L pV (Memref.isWhole_whole _) iV (Memref.isWhole_whole _) oV (Memref.isWhole_whole _)
            sV (Memref.isWhole_whole _) aV (Memref.isWhole_whole _) bV (Memref.isWhole_whole _)
            cc3_scratch3 cc3_scratch4 cc3_scoped0 cc3_scoped1 cc3_scoped2)
          fun _ => iprop(((pLoc d ↦{q} p) ∗ (i1Loc d ↦[iSet (wid L)]{fullShare} ix) ∗ (g1Loc d ↦[oSet (wid L)]{fullShare} gatherVal k3_baseb p ix))
            ∗ scopedBufs (thr d L) ∗ scopedSems0 (thr d L)
            ∗ ∃ W', ⌜∀ x ∈ W', x ∈ W ∨ x.2 = none⌝ ∗ owes (thr d L) O W') : sProp 𝕄) := by
  simp only [cc3_gk_eq_skeleton]; unfold cc3_gk_skel
  rw [(K (F := F)).scopedBufs_V hF d (cV L) (jV L), SparseCore.Cfg.scopedSems0_V (Val := Elt F) d (cV L) (jV L), ownSems0_V, ownBufs_V]
  iintro ⟨#Hlv, ⟨Hp, Hi, Ho⟩, ⟨⟨%fs, Hs⟩, ⟨%fa, Ha⟩, ⟨%fb, Hb⟩, Hbufs⟩, ⟨Hsem0, Hsem1, HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  ihave Hi' := (Entails.of_eq (pts_iSlabK (F := F) d L _).symm) $$ Hi
  ihave Hp' := (Entails.of_eq (pts_pV (F := F) d L _ _).symm) $$ Hp
  ihave Hs' := (Entails.of_eq (pts_sV (F := F) d L _).symm) $$ Hs
  ihave Ha' := (Entails.of_eq (pts_aV (F := F) d L _).symm) $$ Ha
  ihave Hb' := (Entails.of_eq (pts_bV (F := F) d L _).symm) $$ Hb
  sl_unfold [k3_part1]
  sl_exec
  sl_rw [Prog.bind_assoc]
  sl_for (invOut (F := F) d L (View.write (Elt F) (sV).view fs (tile_body.sl.dma0 d L ix) Finset.univ) (tile_body.sl.v21 L)) $$ [Hs']
  case region =>
    intro k acc
    unfold invOut
    iintro Hs
    sl_exec
    sl_for (invIn (F := F) d L (View.write (Elt F) (sV).view fs (tile_body.sl.dma0 d L ix) Finset.univ) (tile_body.sl.v21 L) k.val) $$ [Hs]
    case region =>
      intro k2 acc2
      unfold invIn
      iintro Hs
      sl_exec
      sl_step
      irw [← add_step (F := F) _ _ k k2]
      iexact Hs
    · unfold invIn; iexact Hs
    iintro %acc3 HI
    unfold invIn
    sl_exec
    sl_step
    rw [trips_t2, show 8 * k.val + 8 = 8 * (k.val + 1) by omega]
    iexact HI
  · unfold invOut; rw [addN_zero]; iexact Hs'
  iintro %acc4 HI
  unfold invOut
  rw [trips_t1]
  sl_exec
  have hb : ∀ i : grid3.Coords, tile_body.sl.v21 i = k3_boffW i := by decide +kernel
  have hd : tile_body.sl.dma0 d L ix = (iSlabK L).view.read (Elt F) ix := rfl
  rw [hb L, hd]
  have hfI := fI_lt (F := F) d L ix hix fs
  iapply (wp_wand_r Idealize.ShloMosaic.frame _ _)
  isplitl [Hp' HI Ha' Hb' Ho Hsem0 Hsem1 HsemB HsemC HO]
  · iapply (chunk_phase (F := F) d L O _ q p _ fo hfI fa fb)
    isplitl []; · iexact Hmw
    isplitl [Hp']; · iexact Hp'
    isplitl [HI]; · iexact HI
    isplitl [Ha']; · iexact Ha'
    isplitl [Hb']; · iexact Hb'
    isplitl [Ho]; · iexact Ho
    isplitl [Hsem0]; · iexact Hsem0
    isplitl [Hsem1]; · iexact Hsem1
    isplitl [HsemB]; · iexact HsemB
    isplitl [HsemC]; · iexact HsemC
    iexact HO
  iintro %_ ⟨Hp, Hs, ⟨%fa2, Ha⟩, ⟨%fb2, Hb⟩, Ho, Hsem0, Hsem1, HsemB, HsemC, %W', %hW', HO⟩
  isplitl [Hp Hi' Ho]
  · isplitl [Hp]; · iapply (Entails.of_eq (pts_pV (F := F) d L _ _)); iexact Hp
    isplitl [Hi']; · iapply (Entails.of_eq (pts_iSlabK (F := F) d L _)); iexact Hi'
    iapply (Entails.of_eq (final_pts (F := F) d L p ix fo fs))
    iexact Ho
  isplitl [Hs Ha Hb Hbufs]
  · isplitl [Hs]; · iexists _; iexact Hs
    isplitl [Ha]; · iexists _; iexact Ha
    isplitl [Hb]; · iexists _; iexact Hb
    iexact Hbufs
  isplitl [Hsem0 Hsem1 HsemA HsemB HsemC Hsems]
  · isplitl [Hsem0]; · iexact Hsem0
    isplitl [Hsem1]; · iexact Hsem1
    isplitl [HsemA]; · iexact HsemA
    isplitl [HsemB]; · iexact HsemB
    isplitl [HsemC]; · iexact HsemC
    iexact Hsems
  iexists _; isplitr
  swap; · iexact HO
  ipureintro; intro x hx
  rcases hW' x hx with hx | hx
  · rcases Finset.mem_insert.mp hx with hx | hx
    · exact .inr (hx ▸ rfl)
    · exact .inl hx
  · exact .inr hx

end Tile

end Cert.Kernel.ScTile3

end
-- ==== Proof.KBridgeBits.lean ====
/-
  The bridge between the kernel program's run and its result as a function of the argument arrays.

  Along @main the arrays go through eleven valuations: six stretches of host operations, three kernel regions, two
  gather calls. Here each stretch is read over ANY contents at its entry (what it writes, what it keeps, and the
  value it leaves in each array a later stage reads), the three regions' results are stated as functions of the
  valuation at their entry, and the chain is composed: the index lists and the projected table the gather calls
  read, the two halves of the layer, and the program's result, each a pure term of the launch memory. Last, every
  index the gather calls read is an entry of the neighbour-index argument, so it names a node whenever every entry
  of that argument does.
-/
import proofs.«215572_g25211458027672_cont_9to1_2008_46_alg».proof.Proof.KMainBBits
import proofs.«215572_g25211458027672_cont_9to1_2008_46_alg».proof.Proof.KOutsBits
import proofs.«215572_g25211458027672_cont_9to1_2008_46_alg».proof.Proof.KHostValBits
import proofs.«215572_g25211458027672_cont_9to1_2008_46_alg».proof.Proof.KResDefBits
import proofs.«215572_g25211458027672_cont_9to1_2008_46_alg».proof.Proof.KConstBits
import proofs.«215572_g25211458027672_cont_9to1_2008_46_alg».proof.Proof.SkeletonKernel

noncomputable section

namespace Cert.Kernel.KMain

open Cert.Kernel Cert.Kernel.Gen Cert.Kernel.KS Cert.Kernel.KPay Cert.Kernel.HostVal

open Idealize.ShloMosaic
open Idealize.ShloMosaic.SparseCore (S V T)
open Idealize.ShloMosaic.ValueIdx
open Idealize.ShloMosaic.StableHlo (after)

variable {F : FTy → Type} [FloatOps F]

/-! ## What each stretch of host operations writes, and what it keeps -/

theorem wsub {Wl : List (Ref sig .tc)} {op : HloOp τ sig (Elt F)} (y : Ref sig .tc)
    (hw : op.writes = {Proc.devRef .tc y}) (hy : y ∈ Wl) :
    op.writes ⊆ (Wl.map (Proc.devRef (τ := τ) .tc)).toFinset := by
  rw [hw, Finset.singleton_subset_iff, List.mem_toFinset]
  exact List.mem_map.mpr ⟨y, hy, rfl⟩

/-- The arrays stretch A writes. -/
abbrev wrA : List (Ref sig .tc) :=
  [main_v0, main_v1, main_v2, main_v3, main_v4, main_v5, main_v6, main_v7, main_v8, main_v9, main_v10, main_v11, main_c, main_call0.v0.ref, main_call0.c.ref, main_call0.v1.ref, main_call0.c_0.ref, main_call0.call0.v0.ref, main_call0.v3.ref, main_call0.v4.ref, main_call0.c_1.ref, main_call0.v5.ref, main_call0.v6.ref, main_call0.c_2.ref, main_call0.v7.ref, main_call0.v8.ref, main_call0.c_3.ref, main_call0.v9.ref, main_call0.v10.ref, main_call0.v11.ref, main_call0.v12.ref, main_call0.v13.ref, main_call0.v14.ref, main_call0.v15.ref, main_v13, main_v14, main_v15, main_v16, main_v17, main_v18, main_v19, main_v20, main_v21]

set_option maxRecDepth 8192 in
theorem wA_own : (opsA (F := F)).Forall fun op => op.writes ⊆ (wrA.map (Proc.devRef (τ := τ) .tc)).toFinset := by
  unfold opsA
  exact ⟨wsub main_v0 rfl (by decide),
    wsub main_v1 rfl (by decide),
    wsub main_v2 rfl (by decide),
    wsub main_v3 rfl (by decide),
    wsub main_v4 rfl (by decide),
    wsub main_v5 rfl (by decide),
    wsub main_v6 rfl (by decide),
    wsub main_v7 rfl (by decide),
    wsub main_v8 rfl (by decide),
    wsub main_v9 rfl (by decide),
    wsub main_v10 rfl (by decide),
    wsub main_v11 rfl (by decide),
    wsub main_c rfl (by decide),
    wsub (main_call0.v0.ref) rfl (by decide),
    wsub (main_call0.c.ref) rfl (by decide),
    wsub (main_call0.v1.ref) rfl (by decide),
    wsub (main_call0.c_0.ref) rfl (by decide),
    wsub (main_call0.call0.v0.ref) rfl (by decide),
    wsub (main_call0.v3.ref) rfl (by decide),
    wsub (main_call0.v4.ref) rfl (by decide),
    wsub (main_call0.c_1.ref) rfl (by decide),
    wsub (main_call0.v5.ref) rfl (by decide),
    wsub (main_call0.v6.ref) rfl (by decide),
    wsub (main_call0.c_2.ref) rfl (by decide),
    wsub (main_call0.v7.ref) rfl (by decide),
    wsub (main_call0.v8.ref) rfl (by decide),
    wsub (main_call0.c_3.ref) rfl (by decide),
    wsub (main_call0.v9.ref) rfl (by decide),
    wsub (main_call0.v10.ref) rfl (by decide),
    wsub (main_call0.v11.ref) rfl (by decide),
    wsub (main_call0.v12.ref) rfl (by decide),
    wsub (main_call0.v13.ref) rfl (by decide),
    wsub (main_call0.v14.ref) rfl (by decide),
    wsub (main_call0.v15.ref) rfl (by decide),
    wsub main_v13 rfl (by decide),
    wsub main_v14 rfl (by decide),
    wsub main_v15 rfl (by decide),
    wsub main_v16 rfl (by decide),
    wsub main_v17 rfl (by decide),
    wsub main_v18 rfl (by decide),
    wsub main_v19 rfl (by decide),
    wsub main_v20 rfl (by decide),
    wsub main_v21 rfl (by decide)⟩

/-- An array stretch A does not write keeps its contents through it. -/
theorem keepA (W : Valuation τ sig (Elt F)) (r : Ref sig .tc) (hr : r ∉ wrA) :
    after (opsA (F := F)) W (rV r) = W (rV r) :=
  StableHlo.after_of_writes_sub (opsA (F := F)) W wA_own hr

/-- The arrays stretch B writes. -/
abbrev wrB : List (Ref sig .tc) :=
  [main_v23, main_v24]

set_option maxRecDepth 8192 in
theorem wB_own : (opsB (F := F)).Forall fun op => op.writes ⊆ (wrB.map (Proc.devRef (τ := τ) .tc)).toFinset := by
  unfold opsB
  exact ⟨wsub main_v23 rfl (by decide),
    wsub main_v24 rfl (by decide)⟩

/-- An array stretch B does not write keeps its contents through it. -/
theorem keepB (W : Valuation τ sig (Elt F)) (r : Ref sig .tc) (hr : r ∉ wrB) :
    after (opsB (F := F)) W (rV r) = W (rV r) :=
  StableHlo.after_of_writes_sub (opsB (F := F)) W wB_own hr

/-- The arrays stretch C writes. -/
abbrev wrC : List (Ref sig .tc) :=
  [main_v26, main_v27, main_v28, main_v29, main_v30, main_v31, main_v32, main_v33, main_v34, main_v35, main_v36, main_v37, main_v38, main_v39, main_v40]

set_option maxRecDepth 8192 in
theorem wC_own : (opsC (F := F)).Forall fun op => op.writes ⊆ (wrC.map (Proc.devRef (τ := τ) .tc)).toFinset := by
  unfold opsC
  exact ⟨wsub main_v26 rfl (by decide),
    wsub main_v27 rfl (by decide),
    wsub main_v28 rfl (by decide),
    wsub main_v29 rfl (by decide),
    wsub main_v30 rfl (by decide),
    wsub main_v31 rfl (by decide),
    wsub main_v32 rfl (by decide),
    wsub main_v33 rfl (by decide),
    wsub main_v34 rfl (by decide),
    wsub main_v35 rfl (by decide),
    wsub main_v36 rfl (by decide),
    wsub main_v37 rfl (by decide),
    wsub main_v38 rfl (by decide),
    wsub main_v39 rfl (by decide),
    wsub main_v40 rfl (by decide)⟩

/-- An array stretch C does not write keeps its contents through it. -/
theorem keepC (W : Valuation τ sig (Elt F)) (r : Ref sig .tc) (hr : r ∉ wrC) :
    after (opsC (F := F)) W (rV r) = W (rV r) :=
  StableHlo.after_of_writes_sub (opsC (F := F)) W wC_own hr

/-- The arrays stretch D writes. -/
abbrev wrD : List (Ref sig .tc) :=
  [main_v42, main_v43]

set_option maxRecDepth 8192 in
theorem wD_own : (opsD (F := F)).Forall fun op => op.writes ⊆ (wrD.map (Proc.devRef (τ := τ) .tc)).toFinset := by
  unfold opsD
  exact ⟨wsub main_v42 rfl (by decide),
    wsub main_v43 rfl (by decide)⟩

/-- An array stretch D does not write keeps its contents through it. -/
theorem keepD (W : Valuation τ sig (Elt F)) (r : Ref sig .tc) (hr : r ∉ wrD) :
    after (opsD (F := F)) W (rV r) = W (rV r) :=
  StableHlo.after_of_writes_sub (opsD (F := F)) W wD_own hr

/-- The arrays stretch E writes. -/
abbrev wrE : List (Ref sig .tc) :=
  [main_v45, main_v46, main_v47, main_v48, main_v49, main_v50, main_v51, main_v52, main_v53, main_v54, main_v55, main_v56, main_v57, main_v58, main_v59]

set_option maxRecDepth 8192 in
theorem wE_own : (opsE (F := F)).Forall fun op => op.writes ⊆ (wrE.map (Proc.devRef (τ := τ) .tc)).toFinset := by
  unfold opsE
  exact ⟨wsub main_v45 rfl (by decide),
    wsub main_v46 rfl (by decide),
    wsub main_v47 rfl (by decide),
    wsub main_v48 rfl (by decide),
    wsub main_v49 rfl (by decide),
    wsub main_v50 rfl (by decide),
    wsub main_v51 rfl (by decide),
    wsub main_v52 rfl (by decide),
    wsub main_v53 rfl (by decide),
    wsub main_v54 rfl (by decide),
    wsub main_v55 rfl (by decide),
    wsub main_v56 rfl (by decide),
    wsub main_v57 rfl (by decide),
    wsub main_v58 rfl (by decide),
    wsub main_v59 rfl (by decide)⟩

/-- An array stretch E does not write keeps its contents through it. -/
theorem keepE (W : Valuation τ sig (Elt F)) (r : Ref sig .tc) (hr : r ∉ wrE) :
    after (opsE (F := F)) W (rV r) = W (rV r) :=
  StableHlo.after_of_writes_sub (opsE (F := F)) W wE_own hr

/-- The arrays stretch F writes. -/
abbrev wrF : List (Ref sig .tc) :=
  [main_v61]

theorem wF_own : (opsF (F := F)).Forall fun op => op.writes ⊆ (wrF.map (Proc.devRef (τ := τ) .tc)).toFinset := by
  unfold opsF
  exact wsub main_v61 rfl (by decide)

theorem keepF (W : Valuation τ sig (Elt F)) (r : Ref sig .tc) (hr : r ∉ wrF) :
    after (opsF (F := F)) W (rV r) = W (rV r) :=
  StableHlo.after_of_writes_sub (opsF (F := F)) W wF_own hr

/-! ## What each stretch computes, over any contents at its entry -/

section Stages
variable (W : Valuation τ sig (Elt F))

theorem A_v0 : after (opsA (F := F)) W (rV main_v0) = val_v0 (W (rV main_arg5)) := by
  unfold opsA
  after_results_simp <;> (try simp only [StableHlo.TRef.ofBuf, StableHlo.TRef.toBuf, cast_eq]) <;> rfl
theorem A_v1 : after (opsA (F := F)) W (rV main_v1) = val_v1 (W (rV main_arg5)) := by
  unfold opsA
  after_results_simp <;> (try simp only [StableHlo.TRef.ofBuf, StableHlo.TRef.toBuf, cast_eq]) <;> rfl
theorem A_v2 : after (opsA (F := F)) W (rV main_v2) = val_v2 (W (rV main_arg5)) := by
  unfold opsA
  after_results_simp <;> (try simp only [StableHlo.TRef.ofBuf, StableHlo.TRef.toBuf, cast_eq]) <;> rfl
theorem A_v3 : after (opsA (F := F)) W (rV main_v3) = val_v3 (W (rV main_arg1)) := by
  unfold opsA
  after_results_simp <;> (try simp only [StableHlo.TRef.ofBuf, StableHlo.TRef.toBuf, cast_eq]) <;> rfl
theorem A_v5 : after (opsA (F := F)) W (rV main_v5) = val_v5 (W (rV main_arg2)) := by
  unfold opsA
  after_results_simp <;> (try simp only [StableHlo.TRef.ofBuf, StableHlo.TRef.toBuf, cast_eq]) <;> rfl
theorem A_v10 : after (opsA (F := F)) W (rV main_v10) = val_v10 (W (rV main_arg4)) := by
  unfold opsA
  after_results_simp <;> (try simp only [StableHlo.TRef.ofBuf, StableHlo.TRef.toBuf, cast_eq]) <;> rfl
theorem A_v19 : after (opsA (F := F)) W (rV main_v19) = val_v19 (F := F) := by
  unfold opsA
  after_results_simp <;> (try simp only [StableHlo.TRef.ofBuf, StableHlo.TRef.toBuf, cast_eq]) <;> rfl
theorem A_v20 : after (opsA (F := F)) W (rV main_v20) = val_v20 (F := F) := by
  unfold opsA
  after_results_simp <;> (try simp only [StableHlo.TRef.ofBuf, StableHlo.TRef.toBuf, cast_eq]) <;> rfl
theorem A_v21 : after (opsA (F := F)) W (rV main_v21) = val_v21 (W (rV main_arg0)) := by
  unfold opsA
  after_results_simp <;> (try simp only [StableHlo.TRef.ofBuf, StableHlo.TRef.toBuf, cast_eq]) <;> rfl

/-- The first index list: the flattened neighbour indices of batches 0 and 1, cut into 32 workers' 18 chunks. -/
theorem B_v24 (a2 : Vec F S4x1024x36 .i32) (h5 : W (rV main_v5) = val_v5 a2) :
    after (opsB (F := F)) W (rV main_v24) = val_v24 a2 := by
  unfold opsB
  after_results_simp
  rw [h5]
  rfl

/-- The second index list: batches 2 and 3. -/
theorem D_v43 (a2 : Vec F S4x1024x36 .i32) (h5 : W (rV main_v5) = val_v5 a2) :
    after (opsD (F := F)) W (rV main_v43) = val_v43 a2 := by
  unfold opsD
  after_results_simp
  rw [h5]
  rfl

/-- The first layer region's result after the stretch that prepares its operands. -/
theorem C_o1 : o1 (after (opsC (F := F)) W)
    = KValue.regionOut2 (KConst.inv36 (F := F)) (W (rV main_arg0)) (W (rV main_v3)) (val_v26 (W (rV main_v25))) (W (rV main_arg4)) (W (rV main_v10)) (val_v27 (W (rV main_arg3))) (W (rV main_v19)) (W (rV main_v20)) (W (rV main_v0)) (val_row128 (W (rV main_arg6))) (val_bf16_128x128 (W (rV main_v1))) (val_bf16_128x128 (W (rV main_arg7))) (val_row128 (W (rV main_arg8))) (W (rV main_arg9)) (val_row128 (W (rV main_arg10))) (val_bf16_128x512 (W (rV main_arg11))) (val_row512 (W (rV main_arg12))) (val_bf16_512x128 (W (rV main_arg13))) (val_row128 (W (rV main_arg14))) (val_row128 (W (rV main_arg15))) (val_row128 (W (rV main_arg16))) (val_row128 (W (rV main_arg17))) (val_row128 (W (rV main_arg18))) := by
  unfold o1 opsC
  after_results_simp <;> rfl

/-- The second layer region's result after the stretch that prepares its operands. -/
theorem E_o2 : o2 (after (opsE (F := F)) W)
    = KValue.regionOut4 (KConst.inv36 (F := F)) (W (rV main_arg0)) (W (rV main_v3)) (val_v26 (W (rV main_v44))) (W (rV main_arg4)) (W (rV main_v10)) (val_v27 (W (rV main_arg3))) (W (rV main_v19)) (W (rV main_v20)) (W (rV main_v0)) (val_row128 (W (rV main_arg6))) (val_bf16_128x128 (W (rV main_v1))) (val_bf16_128x128 (W (rV main_arg7))) (val_row128 (W (rV main_arg8))) (W (rV main_arg9)) (val_row128 (W (rV main_arg10))) (val_bf16_128x512 (W (rV main_arg11))) (val_row512 (W (rV main_arg12))) (val_bf16_512x128 (W (rV main_arg13))) (val_row128 (W (rV main_arg14))) (val_row128 (W (rV main_arg15))) (val_row128 (W (rV main_arg16))) (val_row128 (W (rV main_arg17))) (val_row128 (W (rV main_arg18))) := by
  unfold o2 opsE
  after_results_simp <;> rfl

/-- The last operation joins the two halves. -/
theorem F_v61 : after (opsF (F := F)) W (rV main_v61) = val_v61 (W (rV main_v41)) (W (rV main_v60)) := by
  unfold opsF
  after_results_simp <;> rfl

end Stages

/-! ## The valuations along @main, read at the arrays the later stages use -/

section Chain
variable (Ω : Outs F) (m : (ℓ : Loc nD τ sig) → Buf (Elt F) ℓ) (d : Dev nD)

/-- An array the first stretch does not write holds its launch contents after it. -/
theorem V1_keep (r : Ref sig .tc) (hr : r ∉ wrA) : V1 m d (rV r) = m ((SparseCore.T d).loc r) := by
  unfold V1
  rw [keepA _ r hr]
  rfl

theorem V1_v0 : V1 m d (rV main_v0) = val_v0 (m ((SparseCore.T d).loc main_arg5)) := by unfold V1; rw [A_v0]; rfl
theorem V1_v1 : V1 m d (rV main_v1) = val_v1 (m ((SparseCore.T d).loc main_arg5)) := by unfold V1; rw [A_v1]; rfl
theorem V1_v2 : V1 m d (rV main_v2) = val_v2 (m ((SparseCore.T d).loc main_arg5)) := by unfold V1; rw [A_v2]; rfl
theorem V1_v3 : V1 m d (rV main_v3) = val_v3 (m ((SparseCore.T d).loc main_arg1)) := by unfold V1; rw [A_v3]; rfl
theorem V1_v5 : V1 m d (rV main_v5) = val_v5 (m ((SparseCore.T d).loc main_arg2)) := by unfold V1; rw [A_v5]; rfl
theorem V1_v10 : V1 m d (rV main_v10) = val_v10 (m ((SparseCore.T d).loc main_arg4)) := by unfold V1; rw [A_v10]; rfl
theorem V1_v19 : V1 m d (rV main_v19) = val_v19 (F := F) := by unfold V1; rw [A_v19]
theorem V1_v20 : V1 m d (rV main_v20) = val_v20 (F := F) := by unfold V1; rw [A_v20]
theorem V1_v21 : V1 m d (rV main_v21) = val_v21 (m ((SparseCore.T d).loc main_arg0)) := by unfold V1; rw [A_v21]; rfl

/-- An array written only by the first stretch holds, later on, what that stretch left. -/
theorem V3_of_V1 (r : Ref sig .tc) (h22 : r ≠ main_v22) (hB : r ∉ wrB) : V3 Ω m d (rV r) = V1 m d (rV r) := by
  unfold V3 V2
  rw [keepB _ r hB, Function.update_of_ne (StableHlo.devRef_ne_of_ne h22)]

theorem V4_of_V1 (r : Ref sig .tc) (h22 : r ≠ main_v22) (h25 : r ≠ main_v25) (hB : r ∉ wrB) :
    V4 Ω m d (rV r) = V1 m d (rV r) := by
  unfold V4
  rw [Function.update_of_ne (StableHlo.devRef_ne_of_ne h25), V3_of_V1 Ω m d r h22 hB]

theorem V5_of_V1 (r : Ref sig .tc) (h22 : r ≠ main_v22) (h25 : r ≠ main_v25) (hB : r ∉ wrB) (hC : r ∉ wrC) :
    V5 Ω m d (rV r) = V1 m d (rV r) := by
  unfold V5
  rw [keepC _ r hC, V4_of_V1 Ω m d r h22 h25 hB]

theorem V7_of_V1 (r : Ref sig .tc) (h22 : r ≠ main_v22) (h25 : r ≠ main_v25) (h41 : r ≠ main_v41)
    (hB : r ∉ wrB) (hC : r ∉ wrC) (hD : r ∉ wrD) : V7 Ω m d (rV r) = V1 m d (rV r) := by
  unfold V7 V6
  rw [keepD _ r hD, Function.update_of_ne (StableHlo.devRef_ne_of_ne h41), V5_of_V1 Ω m d r h22 h25 hB hC]

theorem V8_of_V1 (r : Ref sig .tc) (h22 : r ≠ main_v22) (h25 : r ≠ main_v25) (h41 : r ≠ main_v41) (h44 : r ≠ main_v44)
    (hB : r ∉ wrB) (hC : r ∉ wrC) (hD : r ∉ wrD) : V8 Ω m d (rV r) = V1 m d (rV r) := by
  unfold V8
  rw [Function.update_of_ne (StableHlo.devRef_ne_of_ne h44), V7_of_V1 Ω m d r h22 h25 h41 hB hC hD]

/-- The first index list the gather calls read. -/
theorem V3_v24 : V3 Ω m d (rV main_v24) = val_v24 (m ((SparseCore.T d).loc main_arg2)) := by
  unfold V3
  refine B_v24 _ _ ?_
  unfold V2
  rw [Function.update_of_ne (StableHlo.devRef_ne_of_ne (by decide : main_v5 ≠ main_v22)), V1_v5]

/-- The second index list. -/
theorem V7_v43 : V7 Ω m d (rV main_v43) = val_v43 (m ((SparseCore.T d).loc main_arg2)) := by
  unfold V7
  refine D_v43 _ _ ?_
  unfold V6
  rw [Function.update_of_ne (StableHlo.devRef_ne_of_ne (by decide : main_v5 ≠ main_v41)),
    V5_of_V1 Ω m d main_v5 (by decide) (by decide) (by decide) (by decide), V1_v5]

/-- The projected table, where the first gather call reads it. -/
theorem V3_v22 : V3 OmegaK m d (rV main_v22) = KValue.proj (m ((SparseCore.T d).loc main_arg0)) (m ((SparseCore.T d).loc main_arg5)) := by
  unfold V3
  rw [keepB _ main_v22 (by decide)]
  unfold V2
  rw [Function.update_self]
  show o0 (V1 m d) = _
  unfold o0 KValue.proj
  rw [V1_v21, V1_v2]

/-- The projected table, where the second gather call reads it. -/
theorem V7_v22 : V7 OmegaK m d (rV main_v22) = KValue.proj (m ((SparseCore.T d).loc main_arg0)) (m ((SparseCore.T d).loc main_arg5)) := by
  unfold V7
  rw [keepD _ main_v22 (by decide)]
  unfold V6
  rw [Function.update_of_ne (StableHlo.devRef_ne_of_ne (by decide : main_v22 ≠ main_v41))]
  unfold V5
  rw [keepC _ main_v22 (by decide)]
  unfold V4
  rw [Function.update_of_ne (StableHlo.devRef_ne_of_ne (by decide : main_v22 ≠ main_v25)), V3_v22]

/-- What the first gather call leaves. -/
theorem V4_v25 : V4 OmegaK m d (rV main_v25) = KValue.gath0 (m ((SparseCore.T d).loc main_arg0)) (m ((SparseCore.T d).loc main_arg2)) (m ((SparseCore.T d).loc main_arg5)) := by
  unfold V4
  rw [Function.update_self, V3_v22, V3_v24]
  rfl

/-- What the second gather call leaves. -/
theorem V8_v44 : V8 OmegaK m d (rV main_v44) = KValue.gath1 (m ((SparseCore.T d).loc main_arg0)) (m ((SparseCore.T d).loc main_arg2)) (m ((SparseCore.T d).loc main_arg5)) := by
  unfold V8
  rw [Function.update_self, V7_v22, V7_v43]
  rfl

set_option maxHeartbeats 4000000 in
/-- The first layer region's result: the layer on batches 0 and 1, of the argument arrays. -/
theorem o1_V5 : o1 (V5 OmegaK m d) = KValue.half0 (KConst.inv36 (F := F)) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) := by
  unfold V5
  rw [C_o1, V4_v25,
    V4_of_V1 OmegaK m d main_v3 (by decide) (by decide) (by decide), V1_v3 m d,
    V4_of_V1 OmegaK m d main_v10 (by decide) (by decide) (by decide), V1_v10 m d,
    V4_of_V1 OmegaK m d main_v19 (by decide) (by decide) (by decide), V1_v19 m d,
    V4_of_V1 OmegaK m d main_v20 (by decide) (by decide) (by decide), V1_v20 m d,
    V4_of_V1 OmegaK m d main_v0 (by decide) (by decide) (by decide), V1_v0 m d,
    V4_of_V1 OmegaK m d main_v1 (by decide) (by decide) (by decide), V1_v1 m d,
    V4_of_V1 OmegaK m d main_arg0 (by decide) (by decide) (by decide), V1_keep m d main_arg0 (by decide),
    V4_of_V1 OmegaK m d main_arg4 (by decide) (by decide) (by decide), V1_keep m d main_arg4 (by decide),
    V4_of_V1 OmegaK m d main_arg3 (by decide) (by decide) (by decide), V1_keep m d main_arg3 (by decide),
    V4_of_V1 OmegaK m d main_arg6 (by decide) (by decide) (by decide), V1_keep m d main_arg6 (by decide),
    V4_of_V1 OmegaK m d main_arg7 (by decide) (by decide) (by decide), V1_keep m d main_arg7 (by decide),
    V4_of_V1 OmegaK m d main_arg8 (by decide) (by decide) (by decide), V1_keep m d main_arg8 (by decide),
    V4_of_V1 OmegaK m d main_arg9 (by decide) (by decide) (by decide), V1_keep m d main_arg9 (by decide),
    V4_of_V1 OmegaK m d main_arg10 (by decide) (by decide) (by decide), V1_keep m d main_arg10 (by decide),
    V4_of_V1 OmegaK m d main_arg11 (by decide) (by decide) (by decide), V1_keep m d main_arg11 (by decide),
    V4_of_V1 OmegaK m d main_arg12 (by decide) (by decide) (by decide), V1_keep m d main_arg12 (by decide),
    V4_of_V1 OmegaK m d main_arg13 (by decide) (by decide) (by decide), V1_keep m d main_arg13 (by decide),
    V4_of_V1 OmegaK m d main_arg14 (by decide) (by decide) (by decide), V1_keep m d main_arg14 (by decide),
    V4_of_V1 OmegaK m d main_arg15 (by decide) (by decide) (by decide), V1_keep m d main_arg15 (by decide),
    V4_of_V1 OmegaK m d main_arg16 (by decide) (by decide) (by decide), V1_keep m d main_arg16 (by decide),
    V4_of_V1 OmegaK m d main_arg17 (by decide) (by decide) (by decide), V1_keep m d main_arg17 (by decide),
    V4_of_V1 OmegaK m d main_arg18 (by decide) (by decide) (by decide), V1_keep m d main_arg18 (by decide)]
  rfl

set_option maxHeartbeats 4000000 in
/-- The second layer region's result: the layer on batches 2 and 3. -/
theorem o2_V9 : o2 (V9 OmegaK m d) = KValue.half1 (KConst.inv36 (F := F)) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) := by
  unfold V9
  rw [E_o2, V8_v44,
    V8_of_V1 OmegaK m d main_v3 (by decide) (by decide) (by decide) (by decide) (by decide) (by decide) (by decide), V1_v3 m d,
    V8_of_V1 OmegaK m d main_v10 (by decide) (by decide) (by decide) (by decide) (by decide) (by decide) (by decide), V1_v10 m d,
    V8_of_V1 OmegaK m d main_v19 (by decide) (by decide) (by decide) (by decide) (by decide) (by decide) (by decide), V1_v19 m d,
    V8_of_V1 OmegaK m d main_v20 (by decide) (by decide) (by decide) (by decide) (by decide) (by decide) (by decide), V1_v20 m d,
    V8_of_V1 OmegaK m d main_v0 (by decide) (by decide) (by decide) (by decide) (by decide) (by decide) (by decide), V1_v0 m d,
    V8_of_V1 OmegaK m d main_v1 (by decide) (by decide) (by decide) (by decide) (by decide) (by decide) (by decide), V1_v1 m d,
    V8_of_V1 OmegaK m d main_arg0 (by decide) (by decide) (by decide) (by decide) (by decide) (by decide) (by decide), V1_keep m d main_arg0 (by decide),
    V8_of_V1 OmegaK m d main_arg4 (by decide) (by decide) (by decide) (by decide) (by decide) (by decide) (by decide), V1_keep m d main_arg4 (by decide),
    V8_of_V1 OmegaK m d main_arg3 (by decide) (by decide) (by decide) (by decide) (by decide) (by decide) (by decide), V1_keep m d main_arg3 (by decide),
    V8_of_V1 OmegaK m d main_arg6 (by decide) (by decide) (by decide) (by decide) (by decide) (by decide) (by decide), V1_keep m d main_arg6 (by decide),
    V8_of_V1 OmegaK m d main_arg7 (by decide) (by decide) (by decide) (by decide) (by decide) (by decide) (by decide), V1_keep m d main_arg7 (by decide),
    V8_of_V1 OmegaK m d main_arg8 (by decide) (by decide) (by decide) (by decide) (by decide) (by decide) (by decide), V1_keep m d main_arg8 (by decide),
    V8_of_V1 OmegaK m d main_arg9 (by decide) (by decide) (by decide) (by decide) (by decide) (by decide) (by decide), V1_keep m d main_arg9 (by decide),
    V8_of_V1 OmegaK m d main_arg10 (by decide) (by decide) (by decide) (by decide) (by decide) (by decide) (by decide), V1_keep m d main_arg10 (by decide),
    V8_of_V1 OmegaK m d main_arg11 (by decide) (by decide) (by decide) (by decide) (by decide) (by decide) (by decide), V1_keep m d main_arg11 (by decide),
    V8_of_V1 OmegaK m d main_arg12 (by decide) (by decide) (by decide) (by decide) (by decide) (by decide) (by decide), V1_keep m d main_arg12 (by decide),
    V8_of_V1 OmegaK m d main_arg13 (by decide) (by decide) (by decide) (by decide) (by decide) (by decide) (by decide), V1_keep m d main_arg13 (by decide),
    V8_of_V1 OmegaK m d main_arg14 (by decide) (by decide) (by decide) (by decide) (by decide) (by decide) (by decide), V1_keep m d main_arg14 (by decide),
    V8_of_V1 OmegaK m d main_arg15 (by decide) (by decide) (by decide) (by decide) (by decide) (by decide) (by decide), V1_keep m d main_arg15 (by decide),
    V8_of_V1 OmegaK m d main_arg16 (by decide) (by decide) (by decide) (by decide) (by decide) (by decide) (by decide), V1_keep m d main_arg16 (by decide),
    V8_of_V1 OmegaK m d main_arg17 (by decide) (by decide) (by decide) (by decide) (by decide) (by decide) (by decide), V1_keep m d main_arg17 (by decide),
    V8_of_V1 OmegaK m d main_arg18 (by decide) (by decide) (by decide) (by decide) (by decide) (by decide) (by decide), V1_keep m d main_arg18 (by decide)]
  rfl

/-- THE PROGRAM'S RESULT, a pure term of the launch memory: the two halves of the batch, joined. -/
theorem RES_eq : RES OmegaK m d = KValue.kres (KConst.inv36 (F := F)) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) := by
  have h41 : V9 OmegaK m d (rV main_v41) = KValue.half0 (KConst.inv36 (F := F)) (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) := by
    unfold V9
    rw [keepE _ main_v41 (by decide)]
    unfold V8
    rw [Function.update_of_ne (StableHlo.devRef_ne_of_ne (by decide : main_v41 ≠ main_v44))]
    unfold V7
    rw [keepD _ main_v41 (by decide)]
    unfold V6
    rw [Function.update_self]
    exact o1_V5 m d
  unfold RES V11
  rw [F_v61]
  unfold V10
  rw [Function.update_self, Function.update_of_ne (StableHlo.devRef_ne_of_ne (by decide : main_v41 ≠ main_v60)), h41]
  show val_v61 _ (o2 (V9 OmegaK m d)) = _
  rw [o2_V9]
  rfl

/-- What the first gather call's index operand is. -/
theorem ix0_eq : (XD OmegaK m).ix0 d = val_v24 (m ((SparseCore.T d).loc main_arg2)) := V3_v24 OmegaK m d
/-- What the second gather call's index operand is. -/
theorem ix1_eq : (XD OmegaK m).ix1 d = val_v43 (m ((SparseCore.T d).loc main_arg2)) := V7_v43 OmegaK m d
/-- The table both gather calls read. -/
theorem p0_eq : (XD OmegaK m).p0 d = KValue.proj (m ((SparseCore.T d).loc main_arg0)) (m ((SparseCore.T d).loc main_arg5)) := V3_v22 m d
theorem p1_eq : (XD OmegaK m).p1 d = KValue.proj (m ((SparseCore.T d).loc main_arg0)) (m ((SparseCore.T d).loc main_arg5)) := V7_v22 m d

end Chain

/-! ## Every index the gather calls read names a node -/

/-- A position of a 32 × 18 × 128 index list, as batch half, neighbour and node. -/
theorem split_pos (w : Fin 32) (ch : Fin 18) (l : Fin 128) :
    ∃ (bl : Fin 2) (k : Fin 36) (n : Fin 1024),
      bl.val * 36864 + k.val * 1024 + n.val = w.val * 2304 + ch.val * 128 + l.val := by
  have hw := w.isLt
  have hch := ch.isLt
  have hl := l.isLt
  refine ⟨⟨(w.val * 2304 + ch.val * 128 + l.val) / 36864, by omega⟩,
    ⟨(w.val * 2304 + ch.val * 128 + l.val) % 36864 / 1024, by omega⟩,
    ⟨(w.val * 2304 + ch.val * 128 + l.val) % 1024, Nat.mod_lt _ (by decide)⟩, ?_⟩
  show (w.val * 2304 + ch.val * 128 + l.val) / 36864 * 36864 + (w.val * 2304 + ch.val * 128 + l.val) % 36864 / 1024 * 1024
      + (w.val * 2304 + ch.val * 128 + l.val) % 1024 = w.val * 2304 + ch.val * 128 + l.val
  omega

theorem hix0 (m : (ℓ : Loc nD τ sig) → Buf (Elt F) ℓ) (hpre : KS.PreOK m) :
    ∀ (d : Dev nD) (j : S32x18x128.Idx), ((XD OmegaK m).ix0 d j : BitVec 32).toNat < 1024 := by
  intro d j
  obtain ⟨w, ch, l, rfl⟩ : ∃ (w : Fin 32) (ch : Fin 18) (l : Fin 128), j = ix3 w ch l := ⟨j 0, j 1, j 2, eq_ix3 j⟩
  obtain ⟨bl, k, n, h⟩ := split_pos w ch l
  have e : (XD OmegaK m).ix0 d (ix3 w ch l) = m (a2Loc d) (ix3 ⟨bl.val, by omega⟩ n k) := by
    rw [ix0_eq]
    exact val_v24_apply_arg _ w ch l bl k n h
  rw [e]
  exact hpre d _

theorem hix1 (m : (ℓ : Loc nD τ sig) → Buf (Elt F) ℓ) (hpre : KS.PreOK m) :
    ∀ (d : Dev nD) (j : S32x18x128.Idx), ((XD OmegaK m).ix1 d j : BitVec 32).toNat < 1024 := by
  intro d j
  obtain ⟨w, ch, l, rfl⟩ : ∃ (w : Fin 32) (ch : Fin 18) (l : Fin 128), j = ix3 w ch l := ⟨j 0, j 1, j 2, eq_ix3 j⟩
  obtain ⟨bl, k, n, h⟩ := split_pos w ch l
  have e : (XD OmegaK m).ix1 d (ix3 w ch l) = m (a2Loc d) (ix3 ⟨2 + bl.val, by omega⟩ n k) := by
    rw [ix1_eq]
    exact val_v43_apply_arg _ w ch l bl k n h
  rw [e]
  exact hpre d _

end Cert.Kernel.KMain

end
-- ==== Proof.KRunBits.lean ====
/-
  The kernel program's run, stated of the result and the arguments: from any launch memory whose neighbour indices
  name nodes, every weakly fair execution of @main on the TensorCores and of the two gather calls on the vector
  subcores terminates, nothing faulting, with the result array at the program's result as one function of the
  argument arrays and every argument array unchanged. The three pipelined regions enter as steps on @main's
  valuation, each leaving its whole output array at the region's result; the two gather calls' tasks enter as the
  tile obligations, each leaving its rows of the gathered array at the gathered rows.
-/
import proofs.«215572_g25211458027672_cont_9to1_2008_46_alg».proof.Proof.KMainDBits
import proofs.«215572_g25211458027672_cont_9to1_2008_46_alg».proof.Proof.KRegionStepsFinalBits
import proofs.«215572_g25211458027672_cont_9to1_2008_46_alg».proof.Proof.KSplitBits
import proofs.«215572_g25211458027672_cont_9to1_2008_46_alg».proof.Proof.ScTileBits
import proofs.«215572_g25211458027672_cont_9to1_2008_46_alg».proof.Proof.ScTile3Bits
import proofs.«215572_g25211458027672_cont_9to1_2008_46_alg».proof.Proof.KBridgeBits

noncomputable section

namespace Cert.Kernel.KRun

open Cert.Kernel Cert.Kernel.Gen Cert.Kernel.KS Cert.Kernel.KPay Cert.Kernel.KSplit Cert.Kernel.KMain

open Idealize.ShloMosaic
open Idealize.ShloMosaic.SparseCore (S V T)
open Idealize.SL Idealize.SL.Sem

variable {F : FTy → Type} [FloatOps F]

/-- The first gather call's task, as the split of the call's operands among its tasks states it. -/
theorem tileBody0 : TileBody0 (F := F) :=
  fun d L hF O W hO q p ix fo hix => ScTile.tile_body d L hF O W hO q p ix fo hix

/-- The second gather call's task. -/
theorem tileBody1 : TileBody1 (F := F) :=
  fun d L hF O W hO q p ix fo hix => ScTile3.tile_body d L hF O W hO q p ix fo hix

/-- THE RUN: the result at the program's result of the argument arrays, every argument unchanged. -/
theorem run [∀ e, Nonempty (Elt F e)] (m : (ℓ : Loc nD τ sig) → Buf (Elt F) ℓ) (g : Dev nD → PrngReg) (hpre : KS.PreOK m) :
    θ_run (Cert.Kernel.defs (F := F)) (Cert.Kernel.threads (F := F)) ⟨m, fun _ => 0, g⟩ (fun r => ∀ c : Dev nD,
      r.2.mem ((c.tc : Thread nD τ).loc main_v61) = KValue.kres (KConst.inv36 (F := F)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run (Cert.Kernel.defs (F := F)) _ _).mono (fun r h c => ⟨(h c).1.trans (RES_eq m c), (h c).2⟩)
    (run_main' OmegaK m g RegionSteps.step0 RegionSteps.step1 RegionSteps.step2
      (tileObl0 tileBody0 KS.facts (XD OmegaK m) (hix0 m hpre))
      (tileObl1 tileBody1 KS.facts (XD OmegaK m) (hix1 m hpre)))

end Cert.Kernel.KRun

end
-- ==== Proof.lean ====
/-
  The certificate's claim, assembled.

  The layer: each node's message is two exact-GELU dense layers over the concatenation of its own row, an edge row and
  the row of the neighbour the edge points to, a third dense layer, a masked mean over the 36 neighbours, then two
  residual layer norms around a feed-forward block, and a node mask.  The kernel program splits the first weight by
  rows, projects every node row once, gathers the projected neighbour rows on the vector subcores, and computes the rest
  per block of 128 nodes with one-hot matrix products standing in for "repeat over the neighbours" and "sum over the
  neighbours".  At the ideal instance the two arrangements are one function of the arguments (the law is in SpecLaws:
  a 384-term sum is three 128-term sums; the mask distributes over the last dense layer; erfc (-y) = 1 + erf y;
  a / sqrt v = a * rsqrt v for v > 0; x / 36 = x * (1/36)), under the precondition's finiteness.

  Frames: each program's run with the strongest post (every argument unchanged, the result named as a pure term of the
  arguments), the values dropped.  The reference's run is read off its operation list; the kernel program's run is the
  SparseCore launch: the TensorCore's @main with three pipelined regions and two SparseCore calls, the 32 vector
  subcores' gather tasks, and the handshakes between them.
-/
import proofs.«215572_g25211458027672_cont_9to1_2008_46_alg».proof.Defs
import proofs.«215572_g25211458027672_cont_9to1_2008_46_alg».proof.Proof.Gen.Kernel
import proofs.«215572_g25211458027672_cont_9to1_2008_46_alg».proof.Proof.Gen.KernelIdeal
import proofs.«215572_g25211458027672_cont_9to1_2008_46_alg».proof.Proof.Gen.ReferenceIdeal
import proofs.«215572_g25211458027672_cont_9to1_2008_46_alg».proof.Proof.Gen.Pre_input_domain
import proofs.«215572_g25211458027672_cont_9to1_2008_46_alg».proof.Proof.Preserves
import proofs.«215572_g25211458027672_cont_9to1_2008_46_alg».proof.Proof.RefRun
import proofs.«215572_g25211458027672_cont_9to1_2008_46_alg».proof.Proof.Algebraic
import proofs.«215572_g25211458027672_cont_9to1_2008_46_alg».proof.Proof.KFinal
import proofs.«215572_g25211458027672_cont_9to1_2008_46_alg».proof.Proof.KRun
import proofs.«215572_g25211458027672_cont_9to1_2008_46_alg».proof.Proof.KRunBits
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel :=
  fun m g hpre => (θ_run (Cert.Kernel.defs (F := Bits)) _ _).mono (fun _ h c => (h c).2)
    (Cert.Kernel.KRun.run (F := Bits) m g (Cert.Proof.Algebraic.preOK_of_pre_bits m hpre))

/-- The idealized kernel program runs and leaves its arguments unchanged. -/
theorem frame_ki : Cert.frame_KernelIdeal :=
  fun m g hpre => (θ_run (Cert.KernelIdeal.defs (F := Ideal)) _ _).mono (fun _ h c => (h c).2)
    (Cert.KernelIdeal.KRun.run (F := Ideal) m g (Cert.Proof.Algebraic.preOK_of_pre m hpre))

/-- The idealized reference runs and leaves its arguments unchanged. -/
theorem frame_ri : Cert.frame_ReferenceIdeal :=
  fun m g _ => (θ_run (Cert.ReferenceIdeal.defs (F := Ideal)) _ _).mono (fun _ h c => (h c).2)
    (Cert.ReferenceIdeal.HandRun.run (F := Ideal) m g)

/-- The ideal pass's one named constant, at its two sites. -/
theorem preserves : Cert.preserves_Kernel_KernelIdeal := Cert.Proof.PreservesClaim.preserves

/-- At the ideal instance, from memories agreeing on the arguments, the two programs run to equal results. -/
theorem algebraic : Cert.algebraic_KernelIdeal_ReferenceIdeal := by
  intro m g m' g' hpre hagree
  refine ⟨fun c => Cert.KernelIdeal.KValue.kres (Cert.KernelIdeal.KConst.inv36 (F := Ideal)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    Cert.KernelIdeal.KRun.run (F := Ideal) m g (Cert.Proof.Algebraic.preOK_of_pre m hpre), ?_⟩
  refine (θ_run (Cert.ReferenceIdeal.defs (F := Ideal)) _ _).mono (fun _ h c => ⟨(h c).1.trans ?_, (h c).2⟩)
    (Cert.ReferenceIdeal.HandRun.run (F := Ideal) m' g')
  exact Cert.Proof.Algebraic.result_eq_of_agree (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
    (Cert.KernelIdeal.KValue.kres (Cert.KernelIdeal.KConst.inv36 (F := Ideal)))
    (fun a0 a1 a2 a3 a4 a5 a6 a7 a8 a9 a10 a11 a12 a13 a14 a15 a16 a17 a18 idx hidx b n h =>
      Cert.KernelIdeal.KValue.kres_apply _ Cert.KernelIdeal.BodyVal.c46_named a0 a1 a2 a3 a4 a5 a6 a7 a8 a9 a10 a11 a12 a13 a14 a15 a16 a17 a18 idx hidx b n h)
    (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
    (hagree c) (hpre c)

/-- The certificate's claim. -/
theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
